-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x262 : Shape := ⟨2, ![50000, 262]⟩
abbrev S2x400000 : Shape := ⟨2, ![2, 400000]⟩
abbrev S400000 : Shape := ⟨1, ![400000]⟩
abbrev S262x512 : Shape := ⟨2, ![262, 512]⟩
abbrev S512 : Shape := ⟨1, ![512]⟩
abbrev S512x262 : Shape := ⟨2, ![512, 262]⟩
abbrev S262 : Shape := ⟨1, ![262]⟩
abbrev S_ : Shape := ⟨0, ![]⟩
abbrev S1x400000 : Shape := ⟨2, ![1, 400000]⟩

class Facts : Prop where
  bcast_S_S50000x262 : S_.BroadcastsInDim S50000x262 (![] : Fin 0 → Fin S50000x262.rank)
  reducesTo_S50000x262_S_d0_1 : S50000x262.ReducesTo [0, 1] S_
  h_S_ : 0 < S_.numel
  bcast_S_S400000 : S_.BroadcastsInDim S400000 (![] : Fin 0 → Fin S400000.rank)
  reducesTo_S400000_S_d0 : S400000.ReducesTo [0] S_
  bcast_S_S262x512 : S_.BroadcastsInDim S262x512 (![] : Fin 0 → Fin S262x512.rank)
  reducesTo_S262x512_S_d0_1 : S262x512.ReducesTo [0, 1] S_
  bcast_S_S512 : S_.BroadcastsInDim S512 (![] : Fin 0 → Fin S512.rank)
  reducesTo_S512_S_d0 : S512.ReducesTo [0] S_
  bcast_S_S512x262 : S_.BroadcastsInDim S512x262 (![] : Fin 0 → Fin S512x262.rank)
  reducesTo_S512x262_S_d0_1 : S512x262.ReducesTo [0, 1] S_
  bcast_S_S262 : S_.BroadcastsInDim S262 (![] : Fin 0 → Fin S262.rank)
  reducesTo_S262_S_d0 : S262.ReducesTo [0] S_
  slices_S2x400000_S1x400000_0_0 : S2x400000.Slices ![0, 0] S1x400000
  shapeCasts_S1x400000_S400000 : S1x400000.ShapeCasts S400000

variable [Facts]

def fn_part2 {F : FTy → Type} [FloatOps F] (main_arg1 : IVec S2x400000 32) (main_v28 : IVec S_ 1) (main_v33 : IVec S_ 1) : IVec S_ 1 :=
  let main_v34 : IVec S_ 1 := andi main_v28 main_v33
  let main_v35 : IVec S1x400000 32 := (extractStridedSlice S1x400000 ![0, 0] · slices_S2x400000_S1x400000_0_0) main_arg1
  let main_v36 : IVec S400000 32 := shapeCast S400000 main_v35 shapeCasts_S1x400000_S400000
  let main_c_12 : IVec S_ 32 := constantI S_ 32 50000#32
  let main_v37 : IVec S400000 32 := broadcastInDim S400000 ![] bcast_S_S400000 main_c_12
  let main_v38 : IVec S400000 1 := cmpi .slt main_v36 main_v37
  let main_c_13 : IVec S_ 1 := constantI S_ 1 1#1
  let main_v39 : IVec S_ 1 := (fun x v => Host.reduce IntOp.andi x v reducesTo_S400000_S_d0 h_S_) main_v38 main_c_13
  let main_v40 : IVec S_ 1 := andi main_v34 main_v39
  main_v40

def fn_part1 {F : FTy → Type} [FloatOps F] (main_arg1 : IVec S2x400000 32) (main_arg5 : FVec F S512x262 .f32) (main_arg6 : FVec F S262 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x262 .f32 := Host.absf main_arg5
  let main_cst_6 : FVec F S_ .f32 := constant S_ .f32 0x7F800000#32
  let main_v20 : FVec F S512x262 .f32 := broadcastInDim S512x262 ![] bcast_S_S512x262 main_cst_6
  let main_v21 : IVec S512x262 1 := cmpf .olt main_v19 main_v20
  let main_c_7 : IVec S_ 1 := constantI S_ 1 1#1
  let main_v22 : IVec S_ 1 := (fun x v => Host.reduce IntOp.andi x v reducesTo_S512x262_S_d0_1 h_S_) main_v21 main_c_7
  let main_v23 : IVec S_ 1 := andi main_v18 main_v22
  let main_v24 : FVec F S262 .f32 := Host.absf main_arg6
  let main_cst_8 : FVec F S_ .f32 := constant S_ .f32 0x7F800000#32
  let main_v25 : FVec F S262 .f32 := broadcastInDim S262 ![] bcast_S_S262 main_cst_8
  let main_v26 : IVec S262 1 := cmpf .olt main_v24 main_v25
  let main_c_9 : IVec S_ 1 := constantI S_ 1 1#1
  let main_v27 : IVec S_ 1 := (fun x v => Host.reduce IntOp.andi x v reducesTo_S262_S_d0 h_S_) main_v26 main_c_9
  let main_v28 : IVec S_ 1 := andi main_v23 main_v27
  let main_v29 : IVec S1x400000 32 := (extractStridedSlice S1x400000 ![0, 0] · slices_S2x400000_S1x400000_0_0) main_arg1
  let main_v30 : IVec S400000 32 := shapeCast S400000 main_v29 shapeCasts_S1x400000_S400000
  let main_c_10 : IVec S_ 32 := constantI S_ 32 0#32
  let main_v31 : IVec S400000 32 := broadcastInDim S400000 ![] bcast_S_S400000 main_c_10
  let main_v32 : IVec S400000 1 := cmpi .sge main_v30 main_v31
  let main_c_11 : IVec S_ 1 := constantI S_ 1 1#1
  let main_v33 : IVec S_ 1 := (fun x v => Host.reduce IntOp.andi x v reducesTo_S400000_S_d0 h_S_) main_v32 main_c_11
  fn_part2 (F := F) main_arg1 main_v28 main_v33

def fn {F : FTy → Type} [FloatOps F] (main_arg0 : FVec F S50000x262 .f32) (main_arg1 : IVec S2x400000 32) (main_arg2 : FVec F S400000 .f32) (main_arg3 : FVec F S262x512 .f32) (main_arg4 : FVec F S512 .f32) (main_arg5 : FVec F S512x262 .f32) (main_arg6 : FVec F S262 .f32) : IVec S_ 1 :=
  let main_v0 : FVec F S50000x262 .f32 := Host.absf main_arg0
  let main_cst : FVec F S_ .f32 := constant S_ .f32 0x7F800000#32
  let main_v1 : FVec F S50000x262 .f32 := broadcastInDim S50000x262 ![] bcast_S_S50000x262 main_cst
  let main_v2 : IVec S50000x262 1 := cmpf .olt main_v0 main_v1
  let main_c : IVec S_ 1 := constantI S_ 1 1#1
  let main_v3 : IVec S_ 1 := (fun x v => Host.reduce IntOp.andi x v reducesTo_S50000x262_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S262x512 .f32 := Host.absf main_arg3
  let main_cst_2 : FVec F S_ .f32 := constant S_ .f32 0x7F800000#32
  let main_v10 : FVec F S262x512 .f32 := broadcastInDim S262x512 ![] bcast_S_S262x512 main_cst_2
  let main_v11 : IVec S262x512 1 := cmpf .olt main_v9 main_v10
  let main_c_3 : IVec S_ 1 := constantI S_ 1 1#1
  let main_v12 : IVec S_ 1 := (fun x v => Host.reduce IntOp.andi x v reducesTo_S262x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_v13 main_v16
-- ==== Kernel.lean ====
abbrev S50000x262 : Shape := ⟨2, ![50000, 262]⟩
abbrev S2x400000 : Shape := ⟨2, ![2, 400000]⟩
abbrev S400000 : Shape := ⟨1, ![400000]⟩
abbrev S262x512 : Shape := ⟨2, ![262, 512]⟩
abbrev S512 : Shape := ⟨1, ![512]⟩
abbrev S512x262 : Shape := ⟨2, ![512, 262]⟩
abbrev S262 : Shape := ⟨1, ![262]⟩
abbrev S50000 : Shape := ⟨1, ![50000]⟩
abbrev S1x400000 : Shape := ⟨2, ![1, 400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S1000x262 : Shape := ⟨2, ![1000, 262]⟩
abbrev S1000x512 : Shape := ⟨2, ![1000, 512]⟩
abbrev S50000x1 : Shape := ⟨2, ![50000, 1]⟩
abbrev S16x1 : Shape := ⟨2, ![16, 1]⟩
abbrev S16x512 : Shape := ⟨2, ![16, 512]⟩
abbrev S16 : Shape := ⟨1, ![16]⟩
abbrev S1 : Shape := ⟨1, ![1]⟩
abbrev S1x512 : Shape := ⟨2, ![1, 512]⟩
abbrev S450000x512 : Shape := ⟨2, ![450000, 512]⟩
abbrev S16x262 : Shape := ⟨2, ![16, 262]⟩
abbrev S1x262 : Shape := ⟨2, ![1, 262]⟩
abbrev S450000x262 : Shape := ⟨2, ![450000, 262]⟩

abbrev nBuf : Space → Nat
  | .hbm => 111
  | .vmem => 100
  | .smem => 18
  | _ => 0

abbrev bufTy : (tb : Table) → Fin (tcTables nBuf tb) → BufTy
  | .hbm, ⟨0, _⟩ => ⟨S50000x262, .f32⟩
  | .hbm, ⟨1, _⟩ => ⟨S2x400000, .i32⟩
  | .hbm, ⟨2, _⟩ => ⟨S400000, .f32⟩
  | .hbm, ⟨3, _⟩ => ⟨S262x512, .f32⟩
  | .hbm, ⟨4, _⟩ => ⟨S512, .f32⟩
  | .hbm, ⟨5, _⟩ => ⟨S512x262, .f32⟩
  | .hbm, ⟨6, _⟩ => ⟨S262, .f32⟩
  | .hbm, ⟨7, _⟩ => ⟨S50000, .i32⟩
  | .hbm, ⟨8, _⟩ => ⟨S1x400000, .i32⟩
  | .hbm, ⟨9, _⟩ => ⟨S400000, .i32⟩
  | .hbm, ⟨10, _⟩ => ⟨S450000, .i32⟩
  | .hbm, ⟨11, _⟩ => ⟨S1x400000, .i32⟩
  | .hbm, ⟨12, _⟩ => ⟨S400000, .i32⟩
  | .hbm, ⟨13, _⟩ => ⟨S450000, .i32⟩
  | .hbm, ⟨14, _⟩ => ⟨S_, .f32⟩
  | .hbm, ⟨15, _⟩ => ⟨S50000, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S450000, .i32⟩
  | .hbm, ⟨34, _⟩ => ⟨S450000, .i1⟩
  | .hbm, ⟨35, _⟩ => ⟨S_, .i32⟩
  | .hbm, ⟨36, _⟩ => ⟨S450000, .i32⟩
  | .hbm, ⟨37, _⟩ => ⟨S450000, .i32⟩
  | .hbm, ⟨38, _⟩ => ⟨S450000, .i32⟩
  | .hbm, ⟨39, _⟩ => ⟨S450000x1, .i32⟩
  | .hbm, ⟨40, _⟩ => ⟨S450000, .f32⟩
  | .hbm, ⟨41, _⟩ => ⟨S450000, .f32⟩
  | .hbm, ⟨42, _⟩ => ⟨S_, .i32⟩
  | .hbm, ⟨43, _⟩ => ⟨S450000, .i32⟩
  | .hbm, ⟨44, _⟩ => ⟨S450000, .i1⟩
  | .hbm, ⟨45, _⟩ => ⟨S_, .i32⟩
  | .hbm, ⟨46, _⟩ => ⟨S450000, .i32⟩
  | .hbm, ⟨47, _⟩ => ⟨S450000, .i32⟩
  | .hbm, ⟨48, _⟩ => ⟨S450000, .i32⟩
  | .hbm, ⟨49, _⟩ => ⟨S450000x1, .i32⟩
  | .hbm, ⟨50, _⟩ => ⟨S450000, .f32⟩
  | .hbm, ⟨51, _⟩ => ⟨S450000, .f32⟩
  | .hbm, ⟨52, _⟩ => ⟨S50000x512, .f32⟩
  | .hbm, ⟨53, _⟩ => ⟨S450000x1, .f32⟩
  | .hbm, ⟨54, _⟩ => ⟨S50000x1, .f32⟩
  | .hbm, ⟨55, _⟩ => ⟨S50000x512, .f32⟩
  | .hbm, ⟨56, _⟩ => ⟨S50000x1, .f32⟩
  | .hbm, ⟨57, _⟩ => ⟨S50000x512, .f32⟩
  | .hbm, ⟨58, _⟩ => ⟨S50000x1, .f32⟩
  | .hbm, ⟨59, _⟩ => ⟨S50000x512, .f32⟩
  | .hbm, ⟨60, _⟩ => ⟨S50000x1, .f32⟩
  | .hbm, ⟨61, _⟩ => ⟨S50000x512, .f32⟩
  | .hbm, ⟨62, _⟩ => ⟨S50000x1, .f32⟩
  | .hbm, ⟨63, _⟩ => ⟨S50000x512, .f32⟩
  | .hbm, ⟨64, _⟩ => ⟨S50000x1, .f32⟩
  | .hbm, ⟨65, _⟩ => ⟨S50000x512, .f32⟩
  | .hbm, ⟨66, _⟩ => ⟨S50000x1, .f32⟩
  | .hbm, ⟨67, _⟩ => ⟨S50000x512, .f32⟩
  | .hbm, ⟨68, _⟩ => ⟨S50000x1, .f32⟩
  | .hbm, ⟨69, _⟩ => ⟨S50000x512, .f32⟩
  | .hbm, ⟨70, _⟩ => ⟨S50000x1, .f32⟩
  | .hbm, ⟨71, _⟩ => ⟨S50000x512, .f32⟩
  | .hbm, ⟨72, _⟩ => ⟨S450000x512, .f32⟩
  | .hbm, ⟨73, _⟩ => ⟨S_, .f32⟩
  | .hbm, ⟨74, _⟩ => ⟨S50000x512, .f32⟩
  | .hbm, ⟨75, _⟩ => ⟨S450000x1, .i32⟩
  | .hbm, ⟨76, _⟩ => ⟨S50000x512, .f32⟩
  | .hbm, ⟨77, _⟩ => ⟨S1x512, .f32⟩
  | .hbm, ⟨78, _⟩ => ⟨S50000x512, .f32⟩
  | .hbm, ⟨79, _⟩ => ⟨S50000x512, .f32⟩
  | .hbm, ⟨80, _⟩ => ⟨S_, .f32⟩
  | .hbm, ⟨81, _⟩ => ⟨S50000x512, .f32⟩
  | .hbm, ⟨82, _⟩ => ⟨S50000x512, .f32⟩
  | .hbm, ⟨83, _⟩ => ⟨S50000x262, .f32⟩
  | .hbm, ⟨84, _⟩ => ⟨S450000x1, .f32⟩
  | .hbm, ⟨85, _⟩ => ⟨S50000x1, .f32⟩
  | .hbm, ⟨86, _⟩ => ⟨S50000x262, .f32⟩
  | .hbm, ⟨87, _⟩ => ⟨S50000x1, .f32⟩
  | .hbm, ⟨88, _⟩ => ⟨S50000x262, .f32⟩
  | .hbm, ⟨89, _⟩ => ⟨S50000x1, .f32⟩
  | .hbm, ⟨90, _⟩ => ⟨S50000x262, .f32⟩
  | .hbm, ⟨91, _⟩ => ⟨S50000x1, .f32⟩
  | .hbm, ⟨92, _⟩ => ⟨S50000x262, .f32⟩
  | .hbm, ⟨93, _⟩ => ⟨S50000x1, .f32⟩
  | .hbm, ⟨94, _⟩ => ⟨S50000x262, .f32⟩
  | .hbm, ⟨95, _⟩ => ⟨S50000x1, .f32⟩
  | .hbm, ⟨96, _⟩ => ⟨S50000x262, .f32⟩
  | .hbm, ⟨97, _⟩ => ⟨S50000x1, .f32⟩
  | .hbm, ⟨98, _⟩ => ⟨S50000x262, .f32⟩
  | .hbm, ⟨99, _⟩ => ⟨S50000x1, .f32⟩
  | .hbm, ⟨100, _⟩ => ⟨S50000x262, .f32⟩
  | .hbm, ⟨101, _⟩ => ⟨S50000x1, .f32⟩
  | .hbm, ⟨102, _⟩ => ⟨S50000x262, .f32⟩
  | .hbm, ⟨103, _⟩ => ⟨S450000x262, .f32⟩
  | .hbm, ⟨104, _⟩ => ⟨S_, .f32⟩
  | .hbm, ⟨105, _⟩ => ⟨S50000x262, .f32⟩
  | .hbm, ⟨106, _⟩ => ⟨S450000x1, .i32⟩
  | .hbm, ⟨107, _⟩ => ⟨S50000x262, .f32⟩
  | .hbm, ⟨108, _⟩ => ⟨S1x262, .f32⟩
  | .hbm, ⟨109, _⟩ => ⟨S50000x262, .f32⟩
  | .hbm, ⟨110, _⟩ => ⟨S50000x262, .f32⟩
  | .local _ .vmem, ⟨0, _⟩ => ⟨S1000x262, .f32⟩
  | .local _ .vmem, ⟨1, _⟩ => ⟨S1000x262, .f32⟩
  | .local _ .vmem, ⟨2, _⟩ => ⟨S262x512, .f32⟩
  | .local _ .vmem, ⟨3, _⟩ => ⟨S1000x512, .f32⟩
  | .local _ .vmem, ⟨4, _⟩ => ⟨S1000x512, .f32⟩
  | .local _ .vmem, ⟨5, _⟩ => ⟨S16x1, .f32⟩
  | .local _ .vmem, ⟨6, _⟩ => ⟨S16x1, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x1, .f32⟩
  | .local _ .vmem, ⟨11, _⟩ => ⟨S16x1, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x1, .f32⟩
  | .local _ .vmem, ⟨16, _⟩ => ⟨S16x1, .f32⟩
  | .local _ .vmem, ⟨17, _⟩ => ⟨S16x512, .f32⟩
  | .local _ .vmem, ⟨18, _⟩ => ⟨S16x512, .f32⟩
  | .local _ .vmem, ⟨19, _⟩ => ⟨S16x512, .f32⟩
  | .local _ .vmem, ⟨20, _⟩ => ⟨S16x1, .f32⟩
  | .local _ .vmem, ⟨21, _⟩ => ⟨S16x1, .f32⟩
  | .local _ .vmem, ⟨22, _⟩ => ⟨S16x512, .f32⟩
  | .local _ .vmem, ⟨23, _⟩ => ⟨S16x512, .f32⟩
  | .local _ .vmem, ⟨24, _⟩ => ⟨S16x512, .f32⟩
  | .local _ .vmem, ⟨25, _⟩ => ⟨S16x1, .f32⟩
  | .local _ .vmem, ⟨26, _⟩ => ⟨S16x1, .f32⟩
  | .local _ .vmem, ⟨27, _⟩ => ⟨S16x512, .f32⟩
  | .local _ .vmem, ⟨28, _⟩ => ⟨S16x512, .f32⟩
  | .local _ .vmem, ⟨29, _⟩ => ⟨S16x512, .f32⟩
  | .local _ .vmem, ⟨30, _⟩ => ⟨S16x1, .f32⟩
  | .local _ .vmem, ⟨31, _⟩ => ⟨S16x1, .f32⟩
  | .local _ .vmem, ⟨32, _⟩ => ⟨S16x512, .f32⟩
  | .local _ .vmem, ⟨33, _⟩ => ⟨S16x512, .f32⟩
  | .local _ .vmem, ⟨34, _⟩ => ⟨S16x512, .f32⟩
  | .local _ .vmem, ⟨35, _⟩ => ⟨S16x1, .f32⟩
  | .local _ .vmem, ⟨36, _⟩ => ⟨S16x1, .f32⟩
  | .local _ .vmem, ⟨37, _⟩ => ⟨S16x512, .f32⟩
  | .local _ .vmem, ⟨38, _⟩ => ⟨S16x512, .f32⟩
  | .local _ .vmem, ⟨39, _⟩ => ⟨S16x512, .f32⟩
  | .local _ .vmem, ⟨40, _⟩ => ⟨S16x1, .f32⟩
  | .local _ .vmem, ⟨41, _⟩ => ⟨S16x1, .f32⟩
  | .local _ .vmem, ⟨42, _⟩ => ⟨S16x512, .f32⟩
  | .local _ .vmem, ⟨43, _⟩ => ⟨S16x512, .f32⟩
  | .local _ .vmem, ⟨44, _⟩ => ⟨S16x512, .f32⟩
  | .local _ .vmem, ⟨45, _⟩ => ⟨S16x1, .f32⟩
  | .local _ .vmem, ⟨46, _⟩ => ⟨S16x1, .f32⟩
  | .local _ .vmem, ⟨47, _⟩ => ⟨S16x512, .f32⟩
  | .local _ .vmem, ⟨48, _⟩ => ⟨S16x512, .f32⟩
  | .local _ .vmem, ⟨49, _⟩ => ⟨S16x512, .f32⟩
  | .local _ .vmem, ⟨50, _⟩ => ⟨S1000x512, .f32⟩
  | .local _ .vmem, ⟨51, _⟩ => ⟨S1000x512, .f32⟩
  | .local _ .vmem, ⟨52, _⟩ => ⟨S512x262, .f32⟩
  | .local _ .vmem, ⟨53, _⟩ => ⟨S1000x262, .f32⟩
  | .local _ .vmem, ⟨54, _⟩ => ⟨S1000x262, .f32⟩
  | .local _ .vmem, ⟨55, _⟩ => ⟨S16x1, .f32⟩
  | .local _ .vmem, ⟨56, _⟩ => ⟨S16x1, .f32⟩
  | .local _ .vmem, ⟨57, _⟩ => ⟨S16x262, .f32⟩
  | .local _ .vmem, ⟨58, _⟩ => ⟨S16x262, .f32⟩
  | .local _ .vmem, ⟨59, _⟩ => ⟨S16x262, .f32⟩
  | .local _ .vmem, ⟨60, _⟩ => ⟨S16x1, .f32⟩
  | .local _ .vmem, ⟨61, _⟩ => ⟨S16x1, .f32⟩
  | .local _ .vmem, ⟨62, _⟩ => ⟨S16x262, .f32⟩
  | .local _ .vmem, ⟨63, _⟩ => ⟨S16x262, .f32⟩
  | .local _ .vmem, ⟨64, _⟩ => ⟨S16x262, .f32⟩
  | .local _ .vmem, ⟨65, _⟩ => ⟨S16x1, .f32⟩
  | .local _ .vmem, ⟨66, _⟩ => ⟨S16x1, .f32⟩
  | .local _ .vmem, ⟨67, _⟩ => ⟨S16x262, .f32⟩
  | .local _ .vmem, ⟨68, _⟩ => ⟨S16x262, .f32⟩
  | .local _ .vmem, ⟨69, _⟩ => ⟨S16x262, .f32⟩
  | .local _ .vmem, ⟨70, _⟩ => ⟨S16x1, .f32⟩
  | .local _ .vmem, ⟨71, _⟩ => ⟨S16x1, .f32⟩
  | .local _ .vmem, ⟨72, _⟩ => ⟨S16x262, .f32⟩
  | .local _ .vmem, ⟨73, _⟩ => ⟨S16x262, .f32⟩
  | .local _ .vmem, ⟨74, _⟩ => ⟨S16x262, .f32⟩
  | .local _ .vmem, ⟨75, _⟩ => ⟨S16x1, .f32⟩
  | .local _ .vmem, ⟨76, _⟩ => ⟨S16x1, .f32⟩
  | .local _ .vmem, ⟨77, _⟩ => ⟨S16x262, .f32⟩
  | .local _ .vmem, ⟨78, _⟩ => ⟨S16x262, .f32⟩
  | .local _ .vmem, ⟨79, _⟩ => ⟨S16x262, .f32⟩
  | .local _ .vmem, ⟨80, _⟩ => ⟨S16x1, .f32⟩
  | .local _ .vmem, ⟨81, _⟩ => ⟨S16x1, .f32⟩
  | .local _ .vmem, ⟨82, _⟩ => ⟨S16x262, .f32⟩
  | .local _ .vmem, ⟨83, _⟩ => ⟨S16x262, .f32⟩
  | .local _ .vmem, ⟨84, _⟩ => ⟨S16x262, .f32⟩
  | .local _ .vmem, ⟨85, _⟩ => ⟨S16x1, .f32⟩
  | .local _ .vmem, ⟨86, _⟩ => ⟨S16x1, .f32⟩
  | .local _ .vmem, ⟨87, _⟩ => ⟨S16x262, .f32⟩
  | .local _ .vmem, ⟨88, _⟩ => ⟨S16x262, .f32⟩
  | .local _ .vmem, ⟨89, _⟩ => ⟨S16x262, .f32⟩
  | .local _ .vmem, ⟨90, _⟩ => ⟨S16x1, .f32⟩
  | .local _ .vmem, ⟨91, _⟩ => ⟨S16x1, .f32⟩
  | .local _ .vmem, ⟨92, _⟩ => ⟨S16x262, .f32⟩
  | .local _ .vmem, ⟨93, _⟩ => ⟨S16x262, .f32⟩
  | .local _ .vmem, ⟨94, _⟩ => ⟨S16x262, .f32⟩
  | .local _ .vmem, ⟨95, _⟩ => ⟨S16x1, .f32⟩
  | .local _ .vmem, ⟨96, _⟩ => ⟨S16x1, .f32⟩
  | .local _ .vmem, ⟨97, _⟩ => ⟨S16x262, .f32⟩
  | .local _ .vmem, ⟨98, _⟩ => ⟨S16x262, .f32⟩
  | .local _ .vmem, ⟨99, _⟩ => ⟨S16x262, .f32⟩
  | .local _ .smem, ⟨0, _⟩ => ⟨S50000, .i32⟩
  | .local _ .smem, ⟨1, _⟩ => ⟨S50000, .i32⟩
  | .local _ .smem, ⟨2, _⟩ => ⟨S50000, .i32⟩
  | .local _ .smem, ⟨3, _⟩ => ⟨S50000, .i32⟩
  | .local _ .smem, ⟨4, _⟩ => ⟨S50000, .i32⟩
  | .local _ .smem, ⟨5, _⟩ => ⟨S50000, .i32⟩
  | .local _ .smem, ⟨6, _⟩ => ⟨S50000, .i32⟩
  | .local _ .smem, ⟨7, _⟩ => ⟨S50000, .i32⟩
  | .local _ .smem, ⟨8, _⟩ => ⟨S50000, .i32⟩
  | .local _ .smem, ⟨9, _⟩ => ⟨S50000, .i32⟩
  | .local _ .smem, ⟨10, _⟩ => ⟨S50000, .i32⟩
  | .local _ .smem, ⟨11, _⟩ => ⟨S50000, .i32⟩
  | .local _ .smem, ⟨12, _⟩ => ⟨S50000, .i32⟩
  | .local _ .smem, ⟨13, _⟩ => ⟨S50000, .i32⟩
  | .local _ .smem, ⟨14, _⟩ => ⟨S50000, .i32⟩
  | .local _ .smem, ⟨15, _⟩ => ⟨S50000, .i32⟩
  | .local _ .smem, ⟨16, _⟩ => ⟨S50000, .i32⟩
  | .local _ .smem, ⟨17, _⟩ => ⟨S50000, .i32⟩
  | _, _ => ⟨S50000x262, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | _, _ => false

abbrev semScoped : Fin 0 → Bool
  | ⟨_, h⟩ => absurd h (Nat.not_lt_zero _)

abbrev dmaSemScoped : Fin 370 → Bool
  | ⟨i, _⟩ => dmaSemScopedAt i

abbrev sig : RefSig :=
  ofTc nBuf bufTy 0 370 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v37 : Ref sig .tc := ⟨.hbm, 54, rfl⟩
abbrev main_v38 : Ref sig .tc := ⟨.hbm, 55, rfl⟩
abbrev main_v40 : Ref sig .tc := ⟨.hbm, 56, rfl⟩
abbrev main_v41 : Ref sig .tc := ⟨.hbm, 57, rfl⟩
abbrev main_v43 : Ref sig .tc := ⟨.hbm, 58, rfl⟩
abbrev main_v44 : Ref sig .tc := ⟨.hbm, 59, rfl⟩
abbrev main_v46 : Ref sig .tc := ⟨.hbm, 60, rfl⟩
abbrev main_v47 : Ref sig .tc := ⟨.hbm, 61, rfl⟩
abbrev main_v49 : Ref sig .tc := ⟨.hbm, 62, rfl⟩
abbrev main_v50 : Ref sig .tc := ⟨.hbm, 63, rfl⟩
abbrev main_v52 : Ref sig .tc := ⟨.hbm, 64, rfl⟩
abbrev main_v53 : Ref sig .tc := ⟨.hbm, 65, rfl⟩
abbrev main_v55 : Ref sig .tc := ⟨.hbm, 66, rfl⟩
abbrev main_v56 : Ref sig .tc := ⟨.hbm, 67, rfl⟩
abbrev main_v58 : Ref sig .tc := ⟨.hbm, 68, rfl⟩
abbrev main_v59 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_7 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_call1_cst : Ref sig .tc := ⟨.hbm, 80, rfl⟩
abbrev main_call1_v0 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v74 : Ref sig .tc := ⟨.hbm, 85, rfl⟩
abbrev main_v75 : Ref sig .tc := ⟨.hbm, 86, rfl⟩
abbrev main_v77 : Ref sig .tc := ⟨.hbm, 87, rfl⟩
abbrev main_v78 : Ref sig .tc := ⟨.hbm, 88, rfl⟩
abbrev main_v80 : Ref sig .tc := ⟨.hbm, 89, rfl⟩
abbrev main_v81 : Ref sig .tc := ⟨.hbm, 90, rfl⟩
abbrev main_v83 : Ref sig .tc := ⟨.hbm, 91, rfl⟩
abbrev main_v84 : Ref sig .tc := ⟨.hbm, 92, rfl⟩
abbrev main_v86 : Ref sig .tc := ⟨.hbm, 93, rfl⟩
abbrev main_v87 : Ref sig .tc := ⟨.hbm, 94, rfl⟩
abbrev main_v89 : Ref sig .tc := ⟨.hbm, 95, rfl⟩
abbrev main_v90 : Ref sig .tc := ⟨.hbm, 96, rfl⟩
abbrev main_v92 : Ref sig .tc := ⟨.hbm, 97, rfl⟩
abbrev main_v93 : Ref sig .tc := ⟨.hbm, 98, rfl⟩
abbrev main_v95 : Ref sig .tc := ⟨.hbm, 99, rfl⟩
abbrev main_v96 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_cst_8 : Ref sig .tc := ⟨.hbm, 104, rfl⟩
abbrev main_v101 : Ref sig .tc := ⟨.hbm, 105, rfl⟩
abbrev main_v102 : Ref sig .tc := ⟨.hbm, 106, rfl⟩
abbrev main_v103 : Ref sig .tc := ⟨.hbm, 107, rfl⟩
abbrev main_v104 : Ref sig .tc := ⟨.hbm, 108, rfl⟩
abbrev main_v105 : Ref sig .tc := ⟨.hbm, 109, rfl⟩
abbrev main_v106 : Ref sig .tc := ⟨.hbm, 110, rfl⟩
abbrev main_v36 : Ref sig .tc := ⟨.smem, 0, rfl⟩
abbrev main_v39 : Ref sig .tc := ⟨.smem, 1, rfl⟩
abbrev main_v42 : Ref sig .tc := ⟨.smem, 2, rfl⟩
abbrev main_v45 : Ref sig .tc := ⟨.smem, 3, rfl⟩
abbrev main_v48 : Ref sig .tc := ⟨.smem, 4, rfl⟩
abbrev main_v51 : Ref sig .tc := ⟨.smem, 5, rfl⟩
abbrev main_v54 : Ref sig .tc := ⟨.smem, 6, rfl⟩
abbrev main_v57 : Ref sig .tc := ⟨.smem, 7, rfl⟩
abbrev main_v60 : Ref sig .tc := ⟨.smem, 8, rfl⟩
abbrev main_v73 : Ref sig .tc := ⟨.smem, 9, rfl⟩
abbrev main_v76 : Ref sig .tc := ⟨.smem, 10, rfl⟩
abbrev main_v79 : Ref sig .tc := ⟨.smem, 11, rfl⟩
abbrev main_v82 : Ref sig .tc := ⟨.smem, 12, rfl⟩
abbrev main_v85 : Ref sig .tc := ⟨.smem, 13, rfl⟩
abbrev main_v88 : Ref sig .tc := ⟨.smem, 14, rfl⟩
abbrev main_v91 : Ref sig .tc := ⟨.smem, 15, rfl⟩
abbrev main_v94 : Ref sig .tc := ⟨.smem, 16, rfl⟩
abbrev main_v97 : Ref sig .tc := ⟨.smem, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_scratch0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_scratch0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_scratch0 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_scratch0 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg1_1 : Ref sig .tc := ⟨.vmem, 38, rfl⟩
abbrev cc7_scratch0 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_scratch0 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg1_1 : Ref sig .tc := ⟨.vmem, 48, rfl⟩
abbrev cc9_scratch0 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg1_1 : Ref sig .tc := ⟨.vmem, 58, rfl⟩
abbrev cc11_scratch0 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_scratch0 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg1_1 : Ref sig .tc := ⟨.vmem, 68, rfl⟩
abbrev cc13_scratch0 : Ref sig .tc := ⟨.vmem, 69, rfl⟩
abbrev cc14_stg0_0 : Ref sig .tc := ⟨.vmem, 70, rfl⟩
abbrev cc14_stg0_1 : Ref sig .tc := ⟨.vmem, 71, rfl⟩
abbrev cc14_stg1_0 : Ref sig .tc := ⟨.vmem, 72, rfl⟩
abbrev cc14_stg1_1 : Ref sig .tc := ⟨.vmem, 73, rfl⟩
abbrev cc14_scratch0 : Ref sig .tc := ⟨.vmem, 74, rfl⟩
abbrev cc15_stg0_0 : Ref sig .tc := ⟨.vmem, 75, rfl⟩
abbrev cc15_stg0_1 : Ref sig .tc := ⟨.vmem, 76, rfl⟩
abbrev cc15_stg1_0 : Ref sig .tc := ⟨.vmem, 77, rfl⟩
abbrev cc15_stg1_1 : Ref sig .tc := ⟨.vmem, 78, rfl⟩
abbrev cc15_scratch0 : Ref sig .tc := ⟨.vmem, 79, rfl⟩
abbrev cc16_stg0_0 : Ref sig .tc := ⟨.vmem, 80, rfl⟩
abbrev cc16_stg0_1 : Ref sig .tc := ⟨.vmem, 81, rfl⟩
abbrev cc16_stg1_0 : Ref sig .tc := ⟨.vmem, 82, rfl⟩
abbrev cc16_stg1_1 : Ref sig .tc := ⟨.vmem, 83, rfl⟩
abbrev cc16_scratch0 : Ref sig .tc := ⟨.vmem, 84, rfl⟩
abbrev cc17_stg0_0 : Ref sig .tc := ⟨.vmem, 85, rfl⟩
abbrev cc17_stg0_1 : Ref sig .tc := ⟨.vmem, 86, rfl⟩
abbrev cc17_stg1_0 : Ref sig .tc := ⟨.vmem, 87, rfl⟩
abbrev cc17_stg1_1 : Ref sig .tc := ⟨.vmem, 88, rfl⟩
abbrev cc17_scratch0 : Ref sig .tc := ⟨.vmem, 89, rfl⟩
abbrev cc18_stg0_0 : Ref sig .tc := ⟨.vmem, 90, rfl⟩
abbrev cc18_stg0_1 : Ref sig .tc := ⟨.vmem, 91, rfl⟩
abbrev cc18_stg1_0 : Ref sig .tc := ⟨.vmem, 92, rfl⟩
abbrev cc18_stg1_1 : Ref sig .tc := ⟨.vmem, 93, rfl⟩
abbrev cc18_scratch0 : Ref sig .tc := ⟨.vmem, 94, rfl⟩
abbrev cc19_stg0_0 : Ref sig .tc := ⟨.vmem, 95, rfl⟩
abbrev cc19_stg0_1 : Ref sig .tc := ⟨.vmem, 96, rfl⟩
abbrev cc19_stg1_0 : Ref sig .tc := ⟨.vmem, 97, rfl⟩
abbrev cc19_stg1_1 : Ref sig .tc := ⟨.vmem, 98, rfl⟩
abbrev cc19_scratch0 : Ref sig .tc := ⟨.vmem, 99, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 25
abbrev cc2_sem0_1 : DmaSem sig := 26
abbrev cc2_sem1_0 : DmaSem sig := 27
abbrev cc2_sem1_1 : DmaSem sig := 28
abbrev cc3_sem0_0 : DmaSem sig := 45
abbrev cc3_sem0_1 : DmaSem sig := 46
abbrev cc3_sem1_0 : DmaSem sig := 47
abbrev cc3_sem1_1 : DmaSem sig := 48
abbrev cc4_sem0_0 : DmaSem sig := 65
abbrev cc4_sem0_1 : DmaSem sig := 66
abbrev cc4_sem1_0 : DmaSem sig := 67
abbrev cc4_sem1_1 : DmaSem sig := 68
abbrev cc5_sem0_0 : DmaSem sig := 85
abbrev cc5_sem0_1 : DmaSem sig := 86
abbrev cc5_sem1_0 : DmaSem sig := 87
abbrev cc5_sem1_1 : DmaSem sig := 88
abbrev cc6_sem0_0 : DmaSem sig := 105
abbrev cc6_sem0_1 : DmaSem sig := 106
abbrev cc6_sem1_0 : DmaSem sig := 107
abbrev cc6_sem1_1 : DmaSem sig := 108
abbrev cc7_sem0_0 : DmaSem sig := 125
abbrev cc7_sem0_1 : DmaSem sig := 126
abbrev cc7_sem1_0 : DmaSem sig := 127
abbrev cc7_sem1_1 : DmaSem sig := 128
abbrev cc8_sem0_0 : DmaSem sig := 145
abbrev cc8_sem0_1 : DmaSem sig := 146
abbrev cc8_sem1_0 : DmaSem sig := 147
abbrev cc8_sem1_1 : DmaSem sig := 148
abbrev cc9_sem0_0 : DmaSem sig := 165
abbrev cc9_sem0_1 : DmaSem sig := 166
abbrev cc9_sem1_0 : DmaSem sig := 167
abbrev cc9_sem1_1 : DmaSem sig := 168
abbrev cc10_sem0_0 : DmaSem sig := 185
abbrev cc10_sem0_1 : DmaSem sig := 186
abbrev cc10_sem1_0 : DmaSem sig := 187
abbrev cc10_sem2_0 : DmaSem sig := 188
abbrev cc10_sem2_1 : DmaSem sig := 189
abbrev cc11_sem0_0 : DmaSem sig := 190
abbrev cc11_sem0_1 : DmaSem sig := 191
abbrev cc11_sem1_0 : DmaSem sig := 192
abbrev cc11_sem1_1 : DmaSem sig := 193
abbrev cc12_sem0_0 : DmaSem sig := 210
abbrev cc12_sem0_1 : DmaSem sig := 211
abbrev cc12_sem1_0 : DmaSem sig := 212
abbrev cc12_sem1_1 : DmaSem sig := 213
abbrev cc13_sem0_0 : DmaSem sig := 230
abbrev cc13_sem0_1 : DmaSem sig := 231
abbrev cc13_sem1_0 : DmaSem sig := 232
abbrev cc13_sem1_1 : DmaSem sig := 233
abbrev cc14_sem0_0 : DmaSem sig := 250
abbrev cc14_sem0_1 : DmaSem sig := 251
abbrev cc14_sem1_0 : DmaSem sig := 252
abbrev cc14_sem1_1 : DmaSem sig := 253
abbrev cc15_sem0_0 : DmaSem sig := 270
abbrev cc15_sem0_1 : DmaSem sig := 271
abbrev cc15_sem1_0 : DmaSem sig := 272
abbrev cc15_sem1_1 : DmaSem sig := 273
abbrev cc16_sem0_0 : DmaSem sig := 290
abbrev cc16_sem0_1 : DmaSem sig := 291
abbrev cc16_sem1_0 : DmaSem sig := 292
abbrev cc16_sem1_1 : DmaSem sig := 293
abbrev cc17_sem0_0 : DmaSem sig := 310
abbrev cc17_sem0_1 : DmaSem sig := 311
abbrev cc17_sem1_0 : DmaSem sig := 312
abbrev cc17_sem1_1 : DmaSem sig := 313
abbrev cc18_sem0_0 : DmaSem sig := 330
abbrev cc18_sem0_1 : DmaSem sig := 331
abbrev cc18_sem1_0 : DmaSem sig := 332
abbrev cc18_sem1_1 : DmaSem sig := 333
abbrev cc19_sem0_0 : DmaSem sig := 350
abbrev cc19_sem0_1 : DmaSem sig := 351
abbrev cc19_sem1_0 : DmaSem sig := 352
abbrev cc19_sem1_1 : DmaSem sig := 353

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x262 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S262x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![3125], ![false]⟩

abbrev pre1 : Pipeline.Prefetch sig := ⟨1, ![main_v36.idx], fun | 0 => main_v36.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k1_off2 (v3 : BitVec 32) : Fin 2 → Nat :=
  let c0_i32_3 : BitVec 32 := 0#32
  ![v3.toNat, 0]

def k1_off3 (i : grid1.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k1_off4 (v11 : BitVec 32) : Fin 2 → Nat :=
  let c0_i32_8 : BitVec 32 := 0#32
  ![v11.toNat, 0]

def k1_off5 (i : grid1.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k1_off6 (v19 : BitVec 32) : Fin 2 → Nat :=
  let c0_i32_13 : BitVec 32 := 0#32
  ![v19.toNat, 0]

def k1_off7 (i : grid1.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k1_off8 (v27 : BitVec 32) : Fin 2 → Nat :=
  let c0_i32_18 : BitVec 32 := 0#32
  ![v27.toNat, 0]

def k1_off9 (i : grid1.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k1_off10 (v35 : BitVec 32) : Fin 2 → Nat :=
  let c0_i32_23 : BitVec 32 := 0#32
  ![v35.toNat, 0]

def k1_off11 (i : grid1.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k1_off12 (v43 : BitVec 32) : Fin 2 → Nat :=
  let c0_i32_28 : BitVec 32 := 0#32
  ![v43.toNat, 0]

def k1_off13 (i : grid1.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k1_off14 (v51 : BitVec 32) : Fin 2 → Nat :=
  let c0_i32_33 : BitVec 32 := 0#32
  ![v51.toNat, 0]

def k1_off15 (i : grid1.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k1_off16 (v59 : BitVec 32) : Fin 2 → Nat :=
  let c0_i32_38 : BitVec 32 := 0#32
  ![v59.toNat, 0]

def k1_off17 (i : grid1.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k1_off18 (v67 : BitVec 32) : Fin 2 → Nat :=
  let c0_i32_43 : BitVec 32 := 0#32
  ![v67.toNat, 0]

def k1_off19 (i : grid1.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k1_off20 (v75 : BitVec 32) : Fin 2 → Nat :=
  let c0_i32_48 : BitVec 32 := 0#32
  ![v75.toNat, 0]

def k1_off21 (i : grid1.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k1_off22 (v83 : BitVec 32) : Fin 2 → Nat :=
  let c0_i32_53 : BitVec 32 := 0#32
  ![v83.toNat, 0]

def k1_off23 (i : grid1.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k1_off24 (v91 : BitVec 32) : Fin 2 → Nat :=
  let c0_i32_58 : BitVec 32 := 0#32
  ![v91.toNat, 0]

def k1_off25 (i : grid1.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k1_off26 (v99 : BitVec 32) : Fin 2 → Nat :=
  let c0_i32_63 : BitVec 32 := 0#32
  ![v99.toNat, 0]

def k1_off27 (i : grid1.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k1_off28 (v107 : BitVec 32) : Fin 2 → Nat :=
  let c0_i32_68 : BitVec 32 := 0#32
  ![v107.toNat, 0]

def k1_off29 (i : grid1.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k1_off30 (v115 : BitVec 32) : Fin 2 → Nat :=
  let c0_i32_73 : BitVec 32 := 0#32
  ![v115.toNat, 0]

def k1_off31 (i : grid1.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k1_off32 (v123 : BitVec 32) : Fin 2 → Nat :=
  let c0_i32_78 : BitVec 32 := 0#32
  ![v123.toNat, 0]

def k1_chk16 (v123 : BitVec 32) : Prop :=
  (∀ a, (k1_off32 v123) a + S1x512.size a ≤ S50000x512.size a)
instance k1_chk16.dec : ∀ (v123 : BitVec 32), Decidable (k1_chk16 v123) := fun v123 => decidable_of_iff' _ (Iff.of_eq (k1_chk16.eq_1 v123))
theorem k1_off32_inb : ∀ (v123 : BitVec 32) (k1_hw16 : k1_chk16 v123), ∀ a, (k1_off32 v123) a + S1x512.size a ≤ S50000x512.size a := fun v123 k1_hw16 => k1_hw16

def k1_off33 (v3 : BitVec 32) : Fin 2 → Nat :=
  let c0_i32_82 : BitVec 32 := 0#32
  ![v3.toNat, 0]

def k1_chk1 (v3 : BitVec 32) : Prop :=
  (∀ a, (k1_off2 v3) a + S1x512.size a ≤ S50000x512.size a) ∧
  (∀ a, (k1_off33 v3) a + S1x512.size a ≤ S50000x512.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x512.size a ≤ S50000x512.size a := fun v3 k1_hw1 => k1_hw1.1
theorem k1_off33_inb : ∀ (v3 : BitVec 32) (k1_hw1 : k1_chk1 v3), ∀ a, (k1_off33 v3) a + S1x512.size a ≤ S50000x512.size a := fun v3 k1_hw1 => k1_hw1.2

def k1_off34 (v11 : BitVec 32) : Fin 2 → Nat :=
  let c0_i32_86 : BitVec 32 := 0#32
  ![v11.toNat, 0]

def k1_chk2 (v11 : BitVec 32) : Prop :=
  (∀ a, (k1_off4 v11) a + S1x512.size a ≤ S50000x512.size a) ∧
  (∀ a, (k1_off34 v11) a + S1x512.size a ≤ S50000x512.size a)
instance k1_chk2.dec : ∀ (v11 : BitVec 32), Decidable (k1_chk2 v11) := fun v11 => decidable_of_iff' _ (Iff.of_eq (k1_chk2.eq_1 v11))
theorem k1_off4_inb : ∀ (v11 : BitVec 32) (k1_hw2 : k1_chk2 v11), ∀ a, (k1_off4 v11) a + S1x512.size a ≤ S50000x512.size a := fun v11 k1_hw2 => k1_hw2.1
theorem k1_off34_inb : ∀ (v11 : BitVec 32) (k1_hw2 : k1_chk2 v11), ∀ a, (k1_off34 v11) a + S1x512.size a ≤ S50000x512.size a := fun v11 k1_hw2 => k1_hw2.2

def k1_off35 (v19 : BitVec 32) : Fin 2 → Nat :=
  let c0_i32_90 : BitVec 32 := 0#32
  ![v19.toNat, 0]

def k1_chk3 (v19 : BitVec 32) : Prop :=
  (∀ a, (k1_off6 v19) a + S1x512.size a ≤ S50000x512.size a) ∧
  (∀ a, (k1_off35 v19) a + S1x512.size a ≤ S50000x512.size a)
instance k1_chk3.dec : ∀ (v19 : BitVec 32), Decidable (k1_chk3 v19) := fun v19 => decidable_of_iff' _ (Iff.of_eq (k1_chk3.eq_1 v19))
theorem k1_off6_inb : ∀ (v19 : BitVec 32) (k1_hw3 : k1_chk3 v19), ∀ a, (k1_off6 v19) a + S1x512.size a ≤ S50000x512.size a := fun v19 k1_hw3 => k1_hw3.1
theorem k1_off35_inb : ∀ (v19 : BitVec 32) (k1_hw3 : k1_chk3 v19), ∀ a, (k1_off35 v19) a + S1x512.size a ≤ S50000x512.size a := fun v19 k1_hw3 => k1_hw3.2

def k1_off36 (v27 : BitVec 32) : Fin 2 → Nat :=
  let c0_i32_94 : BitVec 32 := 0#32
  ![v27.toNat, 0]

def k1_chk4 (v27 : BitVec 32) : Prop :=
  (∀ a, (k1_off8 v27) a + S1x512.size a ≤ S50000x512.size a) ∧
  (∀ a, (k1_off36 v27) a + S1x512.size a ≤ S50000x512.size a)
instance k1_chk4.dec : ∀ (v27 : BitVec 32), Decidable (k1_chk4 v27) := fun v27 => decidable_of_iff' _ (Iff.of_eq (k1_chk4.eq_1 v27))
theorem k1_off8_inb : ∀ (v27 : BitVec 32) (k1_hw4 : k1_chk4 v27), ∀ a, (k1_off8 v27) a + S1x512.size a ≤ S50000x512.size a := fun v27 k1_hw4 => k1_hw4.1
theorem k1_off36_inb : ∀ (v27 : BitVec 32) (k1_hw4 : k1_chk4 v27), ∀ a, (k1_off36 v27) a + S1x512.size a ≤ S50000x512.size a := fun v27 k1_hw4 => k1_hw4.2

def k1_off37 (v35 : BitVec 32) : Fin 2 → Nat :=
  let c0_i32_98 : BitVec 32 := 0#32
  ![v35.toNat, 0]

def k1_chk5 (v35 : BitVec 32) : Prop :=
  (∀ a, (k1_off10 v35) a + S1x512.size a ≤ S50000x512.size a) ∧
  (∀ a, (k1_off37 v35) a + S1x512.size a ≤ S50000x512.size a)
instance k1_chk5.dec : ∀ (v35 : BitVec 32), Decidable (k1_chk5 v35) := fun v35 => decidable_of_iff' _ (Iff.of_eq (k1_chk5.eq_1 v35))
theorem k1_off10_inb : ∀ (v35 : BitVec 32) (k1_hw5 : k1_chk5 v35), ∀ a, (k1_off10 v35) a + S1x512.size a ≤ S50000x512.size a := fun v35 k1_hw5 => k1_hw5.1
theorem k1_off37_inb : ∀ (v35 : BitVec 32) (k1_hw5 : k1_chk5 v35), ∀ a, (k1_off37 v35) a + S1x512.size a ≤ S50000x512.size a := fun v35 k1_hw5 => k1_hw5.2

def k1_off38 (v43 : BitVec 32) : Fin 2 → Nat :=
  let c0_i32_102 : BitVec 32 := 0#32
  ![v43.toNat, 0]

def k1_chk6 (v43 : BitVec 32) : Prop :=
  (∀ a, (k1_off12 v43) a + S1x512.size a ≤ S50000x512.size a) ∧
  (∀ a, (k1_off38 v43) a + S1x512.size a ≤ S50000x512.size a)
instance k1_chk6.dec : ∀ (v43 : BitVec 32), Decidable (k1_chk6 v43) := fun v43 => decidable_of_iff' _ (Iff.of_eq (k1_chk6.eq_1 v43))
theorem k1_off12_inb : ∀ (v43 : BitVec 32) (k1_hw6 : k1_chk6 v43), ∀ a, (k1_off12 v43) a + S1x512.size a ≤ S50000x512.size a := fun v43 k1_hw6 => k1_hw6.1
theorem k1_off38_inb : ∀ (v43 : BitVec 32) (k1_hw6 : k1_chk6 v43), ∀ a, (k1_off38 v43) a + S1x512.size a ≤ S50000x512.size a := fun v43 k1_hw6 => k1_hw6.2

def k1_off39 (v51 : BitVec 32) : Fin 2 → Nat :=
  let c0_i32_106 : BitVec 32 := 0#32
  ![v51.toNat, 0]

def k1_chk7 (v51 : BitVec 32) : Prop :=
  (∀ a, (k1_off14 v51) a + S1x512.size a ≤ S50000x512.size a) ∧
  (∀ a, (k1_off39 v51) a + S1x512.size a ≤ S50000x512.size a)
instance k1_chk7.dec : ∀ (v51 : BitVec 32), Decidable (k1_chk7 v51) := fun v51 => decidable_of_iff' _ (Iff.of_eq (k1_chk7.eq_1 v51))
theorem k1_off14_inb : ∀ (v51 : BitVec 32) (k1_hw7 : k1_chk7 v51), ∀ a, (k1_off14 v51) a + S1x512.size a ≤ S50000x512.size a := fun v51 k1_hw7 => k1_hw7.1
theorem k1_off39_inb : ∀ (v51 : BitVec 32) (k1_hw7 : k1_chk7 v51), ∀ a, (k1_off39 v51) a + S1x512.size a ≤ S50000x512.size a := fun v51 k1_hw7 => k1_hw7.2

def k1_off40 (v59 : BitVec 32) : Fin 2 → Nat :=
  let c0_i32_110 : BitVec 32 := 0#32
  ![v59.toNat, 0]

def k1_chk8 (v59 : BitVec 32) : Prop :=
  (∀ a, (k1_off16 v59) a + S1x512.size a ≤ S50000x512.size a) ∧
  (∀ a, (k1_off40 v59) a + S1x512.size a ≤ S50000x512.size a)
instance k1_chk8.dec : ∀ (v59 : BitVec 32), Decidable (k1_chk8 v59) := fun v59 => decidable_of_iff' _ (Iff.of_eq (k1_chk8.eq_1 v59))
theorem k1_off16_inb : ∀ (v59 : BitVec 32) (k1_hw8 : k1_chk8 v59), ∀ a, (k1_off16 v59) a + S1x512.size a ≤ S50000x512.size a := fun v59 k1_hw8 => k1_hw8.1
theorem k1_off40_inb : ∀ (v59 : BitVec 32) (k1_hw8 : k1_chk8 v59), ∀ a, (k1_off40 v59) a + S1x512.size a ≤ S50000x512.size a := fun v59 k1_hw8 => k1_hw8.2

def k1_off41 (v67 : BitVec 32) : Fin 2 → Nat :=
  let c0_i32_114 : BitVec 32 := 0#32
  ![v67.toNat, 0]

def k1_chk9 (v67 : BitVec 32) : Prop :=
  (∀ a, (k1_off18 v67) a + S1x512.size a ≤ S50000x512.size a) ∧
  (∀ a, (k1_off41 v67) a + S1x512.size a ≤ S50000x512.size a)
instance k1_chk9.dec : ∀ (v67 : BitVec 32), Decidable (k1_chk9 v67) := fun v67 => decidable_of_iff' _ (Iff.of_eq (k1_chk9.eq_1 v67))
theorem k1_off18_inb : ∀ (v67 : BitVec 32) (k1_hw9 : k1_chk9 v67), ∀ a, (k1_off18 v67) a + S1x512.size a ≤ S50000x512.size a := fun v67 k1_hw9 => k1_hw9.1
theorem k1_off41_inb : ∀ (v67 : BitVec 32) (k1_hw9 : k1_chk9 v67), ∀ a, (k1_off41 v67) a + S1x512.size a ≤ S50000x512.size a := fun v67 k1_hw9 => k1_hw9.2

def k1_off42 (v75 : BitVec 32) : Fin 2 → Nat :=
  let c0_i32_118 : BitVec 32 := 0#32
  ![v75.toNat, 0]

def k1_chk10 (v75 : BitVec 32) : Prop :=
  (∀ a, (k1_off20 v75) a + S1x512.size a ≤ S50000x512.size a) ∧
  (∀ a, (k1_off42 v75) a + S1x512.size a ≤ S50000x512.size a)
instance k1_chk10.dec : ∀ (v75 : BitVec 32), Decidable (k1_chk10 v75) := fun v75 => decidable_of_iff' _ (Iff.of_eq (k1_chk10.eq_1 v75))
theorem k1_off20_inb : ∀ (v75 : BitVec 32) (k1_hw10 : k1_chk10 v75), ∀ a, (k1_off20 v75) a + S1x512.size a ≤ S50000x512.size a := fun v75 k1_hw10 => k1_hw10.1
theorem k1_off42_inb : ∀ (v75 : BitVec 32) (k1_hw10 : k1_chk10 v75), ∀ a, (k1_off42 v75) a + S1x512.size a ≤ S50000x512.size a := fun v75 k1_hw10 => k1_hw10.2

def k1_off43 (v83 : BitVec 32) : Fin 2 → Nat :=
  let c0_i32_122 : BitVec 32 := 0#32
  ![v83.toNat, 0]

def k1_chk11 (v83 : BitVec 32) : Prop :=
  (∀ a, (k1_off22 v83) a + S1x512.size a ≤ S50000x512.size a) ∧
  (∀ a, (k1_off43 v83) a + S1x512.size a ≤ S50000x512.size a)
instance k1_chk11.dec : ∀ (v83 : BitVec 32), Decidable (k1_chk11 v83) := fun v83 => decidable_of_iff' _ (Iff.of_eq (k1_chk11.eq_1 v83))
theorem k1_off22_inb : ∀ (v83 : BitVec 32) (k1_hw11 : k1_chk11 v83), ∀ a, (k1_off22 v83) a + S1x512.size a ≤ S50000x512.size a := fun v83 k1_hw11 => k1_hw11.1
theorem k1_off43_inb : ∀ (v83 : BitVec 32) (k1_hw11 : k1_chk11 v83), ∀ a, (k1_off43 v83) a + S1x512.size a ≤ S50000x512.size a := fun v83 k1_hw11 => k1_hw11.2

def k1_off44 (v91 : BitVec 32) : Fin 2 → Nat :=
  let c0_i32_126 : BitVec 32 := 0#32
  ![v91.toNat, 0]

def k1_chk12 (v91 : BitVec 32) : Prop :=
  (∀ a, (k1_off24 v91) a + S1x512.size a ≤ S50000x512.size a) ∧
  (∀ a, (k1_off44 v91) a + S1x512.size a ≤ S50000x512.size a)
instance k1_chk12.dec : ∀ (v91 : BitVec 32), Decidable (k1_chk12 v91) := fun v91 => decidable_of_iff' _ (Iff.of_eq (k1_chk12.eq_1 v91))
theorem k1_off24_inb : ∀ (v91 : BitVec 32) (k1_hw12 : k1_chk12 v91), ∀ a, (k1_off24 v91) a + S1x512.size a ≤ S50000x512.size a := fun v91 k1_hw12 => k1_hw12.1
theorem k1_off44_inb : ∀ (v91 : BitVec 32) (k1_hw12 : k1_chk12 v91), ∀ a, (k1_off44 v91) a + S1x512.size a ≤ S50000x512.size a := fun v91 k1_hw12 => k1_hw12.2

def k1_off45 (v99 : BitVec 32) : Fin 2 → Nat :=
  let c0_i32_130 : BitVec 32 := 0#32
  ![v99.toNat, 0]

def k1_chk13 (v99 : BitVec 32) : Prop :=
  (∀ a, (k1_off26 v99) a + S1x512.size a ≤ S50000x512.size a) ∧
  (∀ a, (k1_off45 v99) a + S1x512.size a ≤ S50000x512.size a)
instance k1_chk13.dec : ∀ (v99 : BitVec 32), Decidable (k1_chk13 v99) := fun v99 => decidable_of_iff' _ (Iff.of_eq (k1_chk13.eq_1 v99))
theorem k1_off26_inb : ∀ (v99 : BitVec 32) (k1_hw13 : k1_chk13 v99), ∀ a, (k1_off26 v99) a + S1x512.size a ≤ S50000x512.size a := fun v99 k1_hw13 => k1_hw13.1
theorem k1_off45_inb : ∀ (v99 : BitVec 32) (k1_hw13 : k1_chk13 v99), ∀ a, (k1_off45 v99) a + S1x512.size a ≤ S50000x512.size a := fun v99 k1_hw13 => k1_hw13.2

def k1_off46 (v107 : BitVec 32) : Fin 2 → Nat :=
  let c0_i32_134 : BitVec 32 := 0#32
  ![v107.toNat, 0]

def k1_chk14 (v107 : BitVec 32) : Prop :=
  (∀ a, (k1_off28 v107) a + S1x512.size a ≤ S50000x512.size a) ∧
  (∀ a, (k1_off46 v107) a + S1x512.size a ≤ S50000x512.size a)
instance k1_chk14.dec : ∀ (v107 : BitVec 32), Decidable (k1_chk14 v107) := fun v107 => decidable_of_iff' _ (Iff.of_eq (k1_chk14.eq_1 v107))
theorem k1_off28_inb : ∀ (v107 : BitVec 32) (k1_hw14 : k1_chk14 v107), ∀ a, (k1_off28 v107) a + S1x512.size a ≤ S50000x512.size a := fun v107 k1_hw14 => k1_hw14.1
theorem k1_off46_inb : ∀ (v107 : BitVec 32) (k1_hw14 : k1_chk14 v107), ∀ a, (k1_off46 v107) a + S1x512.size a ≤ S50000x512.size a := fun v107 k1_hw14 => k1_hw14.2

def k1_off47 (v115 : BitVec 32) : Fin 2 → Nat :=
  let c0_i32_138 : BitVec 32 := 0#32
  ![v115.toNat, 0]

def k1_chk15 (v115 : BitVec 32) : Prop :=
  (∀ a, (k1_off30 v115) a + S1x512.size a ≤ S50000x512.size a) ∧
  (∀ a, (k1_off47 v115) a + S1x512.size a ≤ S50000x512.size a)
instance k1_chk15.dec : ∀ (v115 : BitVec 32), Decidable (k1_chk15 v115) := fun v115 => decidable_of_iff' _ (Iff.of_eq (k1_chk15.eq_1 v115))
theorem k1_off30_inb : ∀ (v115 : BitVec 32) (k1_hw15 : k1_chk15 v115), ∀ a, (k1_off30 v115) a + S1x512.size a ≤ S50000x512.size a := fun v115 k1_hw15 => k1_hw15.1
theorem k1_off47_inb : ∀ (v115 : BitVec 32) (k1_hw15 : k1_chk15 v115), ∀ a, (k1_off47 v115) a + S1x512.size a ≤ S50000x512.size a := fun v115 k1_hw15 => k1_hw15.2

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![3125], ![false]⟩

abbrev pre2 : Pipeline.Prefetch sig := ⟨1, ![main_v39.idx], fun | 0 => main_v39.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_3 : BitVec 32 := 0#32
  ![v3.toNat, 0]

def k2_off3 (i : grid2.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k2_off4 (v11 : BitVec 32) : Fin 2 → Nat :=
  let c0_i32_8 : BitVec 32 := 0#32
  ![v11.toNat, 0]

def k2_off5 (i : grid2.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k2_off6 (v19 : BitVec 32) : Fin 2 → Nat :=
  let c0_i32_13 : BitVec 32 := 0#32
  ![v19.toNat, 0]

def k2_off7 (i : grid2.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k2_off8 (v27 : BitVec 32) : Fin 2 → Nat :=
  let c0_i32_18 : BitVec 32 := 0#32
  ![v27.toNat, 0]

def k2_off9 (i : grid2.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k2_off10 (v35 : BitVec 32) : Fin 2 → Nat :=
  let c0_i32_23 : BitVec 32 := 0#32
  ![v35.toNat, 0]

def k2_off11 (i : grid2.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k2_off12 (v43 : BitVec 32) : Fin 2 → Nat :=
  let c0_i32_28 : BitVec 32 := 0#32
  ![v43.toNat, 0]

def k2_off13 (i : grid2.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k2_off14 (v51 : BitVec 32) : Fin 2 → Nat :=
  let c0_i32_33 : BitVec 32 := 0#32
  ![v51.toNat, 0]

def k2_off15 (i : grid2.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k2_off16 (v59 : BitVec 32) : Fin 2 → Nat :=
  let c0_i32_38 : BitVec 32 := 0#32
  ![v59.toNat, 0]

def k2_off17 (i : grid2.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k2_off18 (v67 : BitVec 32) : Fin 2 → Nat :=
  let c0_i32_43 : BitVec 32 := 0#32
  ![v67.toNat, 0]

def k2_off19 (i : grid2.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k2_off20 (v75 : BitVec 32) : Fin 2 → Nat :=
  let c0_i32_48 : BitVec 32 := 0#32
  ![v75.toNat, 0]

def k2_off21 (i : grid2.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k2_off22 (v83 : BitVec 32) : Fin 2 → Nat :=
  let c0_i32_53 : BitVec 32 := 0#32
  ![v83.toNat, 0]

def k2_off23 (i : grid2.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k2_off24 (v91 : BitVec 32) : Fin 2 → Nat :=
  let c0_i32_58 : BitVec 32 := 0#32
  ![v91.toNat, 0]

def k2_off25 (i : grid2.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k2_off26 (v99 : BitVec 32) : Fin 2 → Nat :=
  let c0_i32_63 : BitVec 32 := 0#32
  ![v99.toNat, 0]

def k2_off27 (i : grid2.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k2_off28 (v107 : BitVec 32) : Fin 2 → Nat :=
  let c0_i32_68 : BitVec 32 := 0#32
  ![v107.toNat, 0]

def k2_off29 (i : grid2.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k2_off30 (v115 : BitVec 32) : Fin 2 → Nat :=
  let c0_i32_73 : BitVec 32 := 0#32
  ![v115.toNat, 0]

def k2_off31 (i : grid2.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k2_off32 (v123 : BitVec 32) : Fin 2 → Nat :=
  let c0_i32_78 : BitVec 32 := 0#32
  ![v123.toNat, 0]

def k2_chk16 (v123 : BitVec 32) : Prop :=
  (∀ a, (k2_off32 v123) a + S1x512.size a ≤ S50000x512.size a)
instance k2_chk16.dec : ∀ (v123 : BitVec 32), Decidable (k2_chk16 v123) := fun v123 => decidable_of_iff' _ (Iff.of_eq (k2_chk16.eq_1 v123))
theorem k2_off32_inb : ∀ (v123 : BitVec 32) (k2_hw16 : k2_chk16 v123), ∀ a, (k2_off32 v123) a + S1x512.size a ≤ S50000x512.size a := fun v123 k2_hw16 => k2_hw16

def k2_off33 (v3 : BitVec 32) : Fin 2 → Nat :=
  let c0_i32_82 : BitVec 32 := 0#32
  ![v3.toNat, 0]

def k2_chk1 (v3 : BitVec 32) : Prop :=
  (∀ a, (k2_off2 v3) a + S1x512.size a ≤ S50000x512.size a) ∧
  (∀ a, (k2_off33 v3) a + S1x512.size a ≤ S50000x512.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x512.size a ≤ S50000x512.size a := fun v3 k2_hw1 => k2_hw1.1
theorem k2_off33_inb : ∀ (v3 : BitVec 32) (k2_hw1 : k2_chk1 v3), ∀ a, (k2_off33 v3) a + S1x512.size a ≤ S50000x512.size a := fun v3 k2_hw1 => k2_hw1.2

def k2_off34 (v11 : BitVec 32) : Fin 2 → Nat :=
  let c0_i32_86 : BitVec 32 := 0#32
  ![v11.toNat, 0]

def k2_chk2 (v11 : BitVec 32) : Prop :=
  (∀ a, (k2_off4 v11) a + S1x512.size a ≤ S50000x512.size a) ∧
  (∀ a, (k2_off34 v11) a + S1x512.size a ≤ S50000x512.size a)
instance k2_chk2.dec : ∀ (v11 : BitVec 32), Decidable (k2_chk2 v11) := fun v11 => decidable_of_iff' _ (Iff.of_eq (k2_chk2.eq_1 v11))
theorem k2_off4_inb : ∀ (v11 : BitVec 32) (k2_hw2 : k2_chk2 v11), ∀ a, (k2_off4 v11) a + S1x512.size a ≤ S50000x512.size a := fun v11 k2_hw2 => k2_hw2.1
theorem k2_off34_inb : ∀ (v11 : BitVec 32) (k2_hw2 : k2_chk2 v11), ∀ a, (k2_off34 v11) a + S1x512.size a ≤ S50000x512.size a := fun v11 k2_hw2 => k2_hw2.2

def k2_off35 (v19 : BitVec 32) : Fin 2 → Nat :=
  let c0_i32_90 : BitVec 32 := 0#32
  ![v19.toNat, 0]

def k2_chk3 (v19 : BitVec 32) : Prop :=
  (∀ a, (k2_off6 v19) a + S1x512.size a ≤ S50000x512.size a) ∧
  (∀ a, (k2_off35 v19) a + S1x512.size a ≤ S50000x512.size a)
instance k2_chk3.dec : ∀ (v19 : BitVec 32), Decidable (k2_chk3 v19) := fun v19 => decidable_of_iff' _ (Iff.of_eq (k2_chk3.eq_1 v19))
theorem k2_off6_inb : ∀ (v19 : BitVec 32) (k2_hw3 : k2_chk3 v19), ∀ a, (k2_off6 v19) a + S1x512.size a ≤ S50000x512.size a := fun v19 k2_hw3 => k2_hw3.1
theorem k2_off35_inb : ∀ (v19 : BitVec 32) (k2_hw3 : k2_chk3 v19), ∀ a, (k2_off35 v19) a + S1x512.size a ≤ S50000x512.size a := fun v19 k2_hw3 => k2_hw3.2

def k2_off36 (v27 : BitVec 32) : Fin 2 → Nat :=
  let c0_i32_94 : BitVec 32 := 0#32
  ![v27.toNat, 0]

def k2_chk4 (v27 : BitVec 32) : Prop :=
  (∀ a, (k2_off8 v27) a + S1x512.size a ≤ S50000x512.size a) ∧
  (∀ a, (k2_off36 v27) a + S1x512.size a ≤ S50000x512.size a)
instance k2_chk4.dec : ∀ (v27 : BitVec 32), Decidable (k2_chk4 v27) := fun v27 => decidable_of_iff' _ (Iff.of_eq (k2_chk4.eq_1 v27))
theorem k2_off8_inb : ∀ (v27 : BitVec 32) (k2_hw4 : k2_chk4 v27), ∀ a, (k2_off8 v27) a + S1x512.size a ≤ S50000x512.size a := fun v27 k2_hw4 => k2_hw4.1
theorem k2_off36_inb : ∀ (v27 : BitVec 32) (k2_hw4 : k2_chk4 v27), ∀ a, (k2_off36 v27) a + S1x512.size a ≤ S50000x512.size a := fun v27 k2_hw4 => k2_hw4.2

def k2_off37 (v35 : BitVec 32) : Fin 2 → Nat :=
  let c0_i32_98 : BitVec 32 := 0#32
  ![v35.toNat, 0]

def k2_chk5 (v35 : BitVec 32) : Prop :=
  (∀ a, (k2_off10 v35) a + S1x512.size a ≤ S50000x512.size a) ∧
  (∀ a, (k2_off37 v35) a + S1x512.size a ≤ S50000x512.size a)
instance k2_chk5.dec : ∀ (v35 : BitVec 32), Decidable (k2_chk5 v35) := fun v35 => decidable_of_iff' _ (Iff.of_eq (k2_chk5.eq_1 v35))
theorem k2_off10_inb : ∀ (v35 : BitVec 32) (k2_hw5 : k2_chk5 v35), ∀ a, (k2_off10 v35) a + S1x512.size a ≤ S50000x512.size a := fun v35 k2_hw5 => k2_hw5.1
theorem k2_off37_inb : ∀ (v35 : BitVec 32) (k2_hw5 : k2_chk5 v35), ∀ a, (k2_off37 v35) a + S1x512.size a ≤ S50000x512.size a := fun v35 k2_hw5 => k2_hw5.2

def k2_off38 (v43 : BitVec 32) : Fin 2 → Nat :=
  let c0_i32_102 : BitVec 32 := 0#32
  ![v43.toNat, 0]

def k2_chk6 (v43 : BitVec 32) : Prop :=
  (∀ a, (k2_off12 v43) a + S1x512.size a ≤ S50000x512.size a) ∧
  (∀ a, (k2_off38 v43) a + S1x512.size a ≤ S50000x512.size a)
instance k2_chk6.dec : ∀ (v43 : BitVec 32), Decidable (k2_chk6 v43) := fun v43 => decidable_of_iff' _ (Iff.of_eq (k2_chk6.eq_1 v43))
theorem k2_off12_inb : ∀ (v43 : BitVec 32) (k2_hw6 : k2_chk6 v43), ∀ a, (k2_off12 v43) a + S1x512.size a ≤ S50000x512.size a := fun v43 k2_hw6 => k2_hw6.1
theorem k2_off38_inb : ∀ (v43 : BitVec 32) (k2_hw6 : k2_chk6 v43), ∀ a, (k2_off38 v43) a + S1x512.size a ≤ S50000x512.size a := fun v43 k2_hw6 => k2_hw6.2

def k2_off39 (v51 : BitVec 32) : Fin 2 → Nat :=
  let c0_i32_106 : BitVec 32 := 0#32
  ![v51.toNat, 0]

def k2_chk7 (v51 : BitVec 32) : Prop :=
  (∀ a, (k2_off14 v51) a + S1x512.size a ≤ S50000x512.size a) ∧
  (∀ a, (k2_off39 v51) a + S1x512.size a ≤ S50000x512.size a)
instance k2_chk7.dec : ∀ (v51 : BitVec 32), Decidable (k2_chk7 v51) := fun v51 => decidable_of_iff' _ (Iff.of_eq (k2_chk7.eq_1 v51))
theorem k2_off14_inb : ∀ (v51 : BitVec 32) (k2_hw7 : k2_chk7 v51), ∀ a, (k2_off14 v51) a + S1x512.size a ≤ S50000x512.size a := fun v51 k2_hw7 => k2_hw7.1
theorem k2_off39_inb : ∀ (v51 : BitVec 32) (k2_hw7 : k2_chk7 v51), ∀ a, (k2_off39 v51) a + S1x512.size a ≤ S50000x512.size a := fun v51 k2_hw7 => k2_hw7.2

def k2_off40 (v59 : BitVec 32) : Fin 2 → Nat :=
  let c0_i32_110 : BitVec 32 := 0#32
  ![v59.toNat, 0]

def k2_chk8 (v59 : BitVec 32) : Prop :=
  (∀ a, (k2_off16 v59) a + S1x512.size a ≤ S50000x512.size a) ∧
  (∀ a, (k2_off40 v59) a + S1x512.size a ≤ S50000x512.size a)
instance k2_chk8.dec : ∀ (v59 : BitVec 32), Decidable (k2_chk8 v59) := fun v59 => decidable_of_iff' _ (Iff.of_eq (k2_chk8.eq_1 v59))
theorem k2_off16_inb : ∀ (v59 : BitVec 32) (k2_hw8 : k2_chk8 v59), ∀ a, (k2_off16 v59) a + S1x512.size a ≤ S50000x512.size a := fun v59 k2_hw8 => k2_hw8.1
theorem k2_off40_inb : ∀ (v59 : BitVec 32) (k2_hw8 : k2_chk8 v59), ∀ a, (k2_off40 v59) a + S1x512.size a ≤ S50000x512.size a := fun v59 k2_hw8 => k2_hw8.2

def k2_off41 (v67 : BitVec 32) : Fin 2 → Nat :=
  let c0_i32_114 : BitVec 32 := 0#32
  ![v67.toNat, 0]

def k2_chk9 (v67 : BitVec 32) : Prop :=
  (∀ a, (k2_off18 v67) a + S1x512.size a ≤ S50000x512.size a) ∧
  (∀ a, (k2_off41 v67) a + S1x512.size a ≤ S50000x512.size a)
instance k2_chk9.dec : ∀ (v67 : BitVec 32), Decidable (k2_chk9 v67) := fun v67 => decidable_of_iff' _ (Iff.of_eq (k2_chk9.eq_1 v67))
theorem k2_off18_inb : ∀ (v67 : BitVec 32) (k2_hw9 : k2_chk9 v67), ∀ a, (k2_off18 v67) a + S1x512.size a ≤ S50000x512.size a := fun v67 k2_hw9 => k2_hw9.1
theorem k2_off41_inb : ∀ (v67 : BitVec 32) (k2_hw9 : k2_chk9 v67), ∀ a, (k2_off41 v67) a + S1x512.size a ≤ S50000x512.size a := fun v67 k2_hw9 => k2_hw9.2

def k2_off42 (v75 : BitVec 32) : Fin 2 → Nat :=
  let c0_i32_118 : BitVec 32 := 0#32
  ![v75.toNat, 0]

def k2_chk10 (v75 : BitVec 32) : Prop :=
  (∀ a, (k2_off20 v75) a + S1x512.size a ≤ S50000x512.size a) ∧
  (∀ a, (k2_off42 v75) a + S1x512.size a ≤ S50000x512.size a)
instance k2_chk10.dec : ∀ (v75 : BitVec 32), Decidable (k2_chk10 v75) := fun v75 => decidable_of_iff' _ (Iff.of_eq (k2_chk10.eq_1 v75))
theorem k2_off20_inb : ∀ (v75 : BitVec 32) (k2_hw10 : k2_chk10 v75), ∀ a, (k2_off20 v75) a + S1x512.size a ≤ S50000x512.size a := fun v75 k2_hw10 => k2_hw10.1
theorem k2_off42_inb : ∀ (v75 : BitVec 32) (k2_hw10 : k2_chk10 v75), ∀ a, (k2_off42 v75) a + S1x512.size a ≤ S50000x512.size a := fun v75 k2_hw10 => k2_hw10.2

def k2_off43 (v83 : BitVec 32) : Fin 2 → Nat :=
  let c0_i32_122 : BitVec 32 := 0#32
  ![v83.toNat, 0]

def k2_chk11 (v83 : BitVec 32) : Prop :=
  (∀ a, (k2_off22 v83) a + S1x512.size a ≤ S50000x512.size a) ∧
  (∀ a, (k2_off43 v83) a + S1x512.size a ≤ S50000x512.size a)
instance k2_chk11.dec : ∀ (v83 : BitVec 32), Decidable (k2_chk11 v83) := fun v83 => decidable_of_iff' _ (Iff.of_eq (k2_chk11.eq_1 v83))
theorem k2_off22_inb : ∀ (v83 : BitVec 32) (k2_hw11 : k2_chk11 v83), ∀ a, (k2_off22 v83) a + S1x512.size a ≤ S50000x512.size a := fun v83 k2_hw11 => k2_hw11.1
theorem k2_off43_inb : ∀ (v83 : BitVec 32) (k2_hw11 : k2_chk11 v83), ∀ a, (k2_off43 v83) a + S1x512.size a ≤ S50000x512.size a := fun v83 k2_hw11 => k2_hw11.2

def k2_off44 (v91 : BitVec 32) : Fin 2 → Nat :=
  let c0_i32_126 : BitVec 32 := 0#32
  ![v91.toNat, 0]

def k2_chk12 (v91 : BitVec 32) : Prop :=
  (∀ a, (k2_off24 v91) a + S1x512.size a ≤ S50000x512.size a) ∧
  (∀ a, (k2_off44 v91) a + S1x512.size a ≤ S50000x512.size a)
instance k2_chk12.dec : ∀ (v91 : BitVec 32), Decidable (k2_chk12 v91) := fun v91 => decidable_of_iff' _ (Iff.of_eq (k2_chk12.eq_1 v91))
theorem k2_off24_inb : ∀ (v91 : BitVec 32) (k2_hw12 : k2_chk12 v91), ∀ a, (k2_off24 v91) a + S1x512.size a ≤ S50000x512.size a := fun v91 k2_hw12 => k2_hw12.1
theorem k2_off44_inb : ∀ (v91 : BitVec 32) (k2_hw12 : k2_chk12 v91), ∀ a, (k2_off44 v91) a + S1x512.size a ≤ S50000x512.size a := fun v91 k2_hw12 => k2_hw12.2

def k2_off45 (v99 : BitVec 32) : Fin 2 → Nat :=
  let c0_i32_130 : BitVec 32 := 0#32
  ![v99.toNat, 0]

def k2_chk13 (v99 : BitVec 32) : Prop :=
  (∀ a, (k2_off26 v99) a + S1x512.size a ≤ S50000x512.size a) ∧
  (∀ a, (k2_off45 v99) a + S1x512.size a ≤ S50000x512.size a)
instance k2_chk13.dec : ∀ (v99 : BitVec 32), Decidable (k2_chk13 v99) := fun v99 => decidable_of_iff' _ (Iff.of_eq (k2_chk13.eq_1 v99))
theorem k2_off26_inb : ∀ (v99 : BitVec 32) (k2_hw13 : k2_chk13 v99), ∀ a, (k2_off26 v99) a + S1x512.size a ≤ S50000x512.size a := fun v99 k2_hw13 => k2_hw13.1
theorem k2_off45_inb : ∀ (v99 : BitVec 32) (k2_hw13 : k2_chk13 v99), ∀ a, (k2_off45 v99) a + S1x512.size a ≤ S50000x512.size a := fun v99 k2_hw13 => k2_hw13.2

def k2_off46 (v107 : BitVec 32) : Fin 2 → Nat :=
  let c0_i32_134 : BitVec 32 := 0#32
  ![v107.toNat, 0]

def k2_chk14 (v107 : BitVec 32) : Prop :=
  (∀ a, (k2_off28 v107) a + S1x512.size a ≤ S50000x512.size a) ∧
  (∀ a, (k2_off46 v107) a + S1x512.size a ≤ S50000x512.size a)
instance k2_chk14.dec : ∀ (v107 : BitVec 32), Decidable (k2_chk14 v107) := fun v107 => decidable_of_iff' _ (Iff.of_eq (k2_chk14.eq_1 v107))
theorem k2_off28_inb : ∀ (v107 : BitVec 32) (k2_hw14 : k2_chk14 v107), ∀ a, (k2_off28 v107) a + S1x512.size a ≤ S50000x512.size a := fun v107 k2_hw14 => k2_hw14.1
theorem k2_off46_inb : ∀ (v107 : BitVec 32) (k2_hw14 : k2_chk14 v107), ∀ a, (k2_off46 v107) a + S1x512.size a ≤ S50000x512.size a := fun v107 k2_hw14 => k2_hw14.2

def k2_off47 (v115 : BitVec 32) : Fin 2 → Nat :=
  let c0_i32_138 : BitVec 32 := 0#32
  ![v115.toNat, 0]

def k2_chk15 (v115 : BitVec 32) : Prop :=
  (∀ a, (k2_off30 v115) a + S1x512.size a ≤ S50000x512.size a) ∧
  (∀ a, (k2_off47 v115) a + S1x512.size a ≤ S50000x512.size a)
instance k2_chk15.dec : ∀ (v115 : BitVec 32), Decidable (k2_chk15 v115) := fun v115 => decidable_of_iff' _ (Iff.of_eq (k2_chk15.eq_1 v115))
theorem k2_off30_inb : ∀ (v115 : BitVec 32) (k2_hw15 : k2_chk15 v115), ∀ a, (k2_off30 v115) a + S1x512.size a ≤ S50000x512.size a := fun v115 k2_hw15 => k2_hw15.1
theorem k2_off47_inb : ∀ (v115 : BitVec 32) (k2_hw15 : k2_chk15 v115), ∀ a, (k2_off47 v115) a + S1x512.size a ≤ S50000x512.size a := fun v115 k2_hw15 => k2_hw15.2

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![3125], ![false]⟩

abbrev pre3 : Pipeline.Prefetch sig := ⟨1, ![main_v42.idx], fun | 0 => main_v42.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (i : grid3.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k3_off4 (v11 : BitVec 32) : Fin 2 → Nat :=
  let c0_i32_8 : BitVec 32 := 0#32
  ![v11.toNat, 0]

def k3_off5 (i : grid3.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k3_off6 (v19 : BitVec 32) : Fin 2 → Nat :=
  let c0_i32_13 : BitVec 32 := 0#32
  ![v19.toNat, 0]

def k3_off7 (i : grid3.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k3_off8 (v27 : BitVec 32) : Fin 2 → Nat :=
  let c0_i32_18 : BitVec 32 := 0#32
  ![v27.toNat, 0]

def k3_off9 (i : grid3.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k3_off10 (v35 : BitVec 32) : Fin 2 → Nat :=
  let c0_i32_23 : BitVec 32 := 0#32
  ![v35.toNat, 0]

def k3_off11 (i : grid3.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k3_off12 (v43 : BitVec 32) : Fin 2 → Nat :=
  let c0_i32_28 : BitVec 32 := 0#32
  ![v43.toNat, 0]

def k3_off13 (i : grid3.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k3_off14 (v51 : BitVec 32) : Fin 2 → Nat :=
  let c0_i32_33 : BitVec 32 := 0#32
  ![v51.toNat, 0]

def k3_off15 (i : grid3.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k3_off16 (v59 : BitVec 32) : Fin 2 → Nat :=
  let c0_i32_38 : BitVec 32 := 0#32
  ![v59.toNat, 0]

def k3_off17 (i : grid3.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k3_off18 (v67 : BitVec 32) : Fin 2 → Nat :=
  let c0_i32_43 : BitVec 32 := 0#32
  ![v67.toNat, 0]

def k3_off19 (i : grid3.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k3_off20 (v75 : BitVec 32) : Fin 2 → Nat :=
  let c0_i32_48 : BitVec 32 := 0#32
  ![v75.toNat, 0]

def k3_off21 (i : grid3.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k3_off22 (v83 : BitVec 32) : Fin 2 → Nat :=
  let c0_i32_53 : BitVec 32 := 0#32
  ![v83.toNat, 0]

def k3_off23 (i : grid3.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k3_off24 (v91 : BitVec 32) : Fin 2 → Nat :=
  let c0_i32_58 : BitVec 32 := 0#32
  ![v91.toNat, 0]

def k3_off25 (i : grid3.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k3_off26 (v99 : BitVec 32) : Fin 2 → Nat :=
  let c0_i32_63 : BitVec 32 := 0#32
  ![v99.toNat, 0]

def k3_off27 (i : grid3.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k3_off28 (v107 : BitVec 32) : Fin 2 → Nat :=
  let c0_i32_68 : BitVec 32 := 0#32
  ![v107.toNat, 0]

def k3_off29 (i : grid3.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k3_off30 (v115 : BitVec 32) : Fin 2 → Nat :=
  let c0_i32_73 : BitVec 32 := 0#32
  ![v115.toNat, 0]

def k3_off31 (i : grid3.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k3_off32 (v123 : BitVec 32) : Fin 2 → Nat :=
  let c0_i32_78 : BitVec 32 := 0#32
  ![v123.toNat, 0]

def k3_chk16 (v123 : BitVec 32) : Prop :=
  (∀ a, (k3_off32 v123) a + S1x512.size a ≤ S50000x512.size a)
instance k3_chk16.dec : ∀ (v123 : BitVec 32), Decidable (k3_chk16 v123) := fun v123 => decidable_of_iff' _ (Iff.of_eq (k3_chk16.eq_1 v123))
theorem k3_off32_inb : ∀ (v123 : BitVec 32) (k3_hw16 : k3_chk16 v123), ∀ a, (k3_off32 v123) a + S1x512.size a ≤ S50000x512.size a := fun v123 k3_hw16 => k3_hw16

def k3_off33 (v3 : BitVec 32) : Fin 2 → Nat :=
  let c0_i32_82 : BitVec 32 := 0#32
  ![v3.toNat, 0]

def k3_chk1 (v3 : BitVec 32) : Prop :=
  (∀ a, (k3_off2 v3) a + S1x512.size a ≤ S50000x512.size a) ∧
  (∀ a, (k3_off33 v3) a + S1x512.size a ≤ S50000x512.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x512.size a ≤ S50000x512.size a := fun v3 k3_hw1 => k3_hw1.1
theorem k3_off33_inb : ∀ (v3 : BitVec 32) (k3_hw1 : k3_chk1 v3), ∀ a, (k3_off33 v3) a + S1x512.size a ≤ S50000x512.size a := fun v3 k3_hw1 => k3_hw1.2

def k3_off34 (v11 : BitVec 32) : Fin 2 → Nat :=
  let c0_i32_86 : BitVec 32 := 0#32
  ![v11.toNat, 0]

def k3_chk2 (v11 : BitVec 32) : Prop :=
  (∀ a, (k3_off4 v11) a + S1x512.size a ≤ S50000x512.size a) ∧
  (∀ a, (k3_off34 v11) a + S1x512.size a ≤ S50000x512.size a)
instance k3_chk2.dec : ∀ (v11 : BitVec 32), Decidable (k3_chk2 v11) := fun v11 => decidable_of_iff' _ (Iff.of_eq (k3_chk2.eq_1 v11))
theorem k3_off4_inb : ∀ (v11 : BitVec 32) (k3_hw2 : k3_chk2 v11), ∀ a, (k3_off4 v11) a + S1x512.size a ≤ S50000x512.size a := fun v11 k3_hw2 => k3_hw2.1
theorem k3_off34_inb : ∀ (v11 : BitVec 32) (k3_hw2 : k3_chk2 v11), ∀ a, (k3_off34 v11) a + S1x512.size a ≤ S50000x512.size a := fun v11 k3_hw2 => k3_hw2.2

def k3_off35 (v19 : BitVec 32) : Fin 2 → Nat :=
  let c0_i32_90 : BitVec 32 := 0#32
  ![v19.toNat, 0]

def k3_chk3 (v19 : BitVec 32) : Prop :=
  (∀ a, (k3_off6 v19) a + S1x512.size a ≤ S50000x512.size a) ∧
  (∀ a, (k3_off35 v19) a + S1x512.size a ≤ S50000x512.size a)
instance k3_chk3.dec : ∀ (v19 : BitVec 32), Decidable (k3_chk3 v19) := fun v19 => decidable_of_iff' _ (Iff.of_eq (k3_chk3.eq_1 v19))
theorem k3_off6_inb : ∀ (v19 : BitVec 32) (k3_hw3 : k3_chk3 v19), ∀ a, (k3_off6 v19) a + S1x512.size a ≤ S50000x512.size a := fun v19 k3_hw3 => k3_hw3.1
theorem k3_off35_inb : ∀ (v19 : BitVec 32) (k3_hw3 : k3_chk3 v19), ∀ a, (k3_off35 v19) a + S1x512.size a ≤ S50000x512.size a := fun v19 k3_hw3 => k3_hw3.2

def k3_off36 (v27 : BitVec 32) : Fin 2 → Nat :=
  let c0_i32_94 : BitVec 32 := 0#32
  ![v27.toNat, 0]

def k3_chk4 (v27 : BitVec 32) : Prop :=
  (∀ a, (k3_off8 v27) a + S1x512.size a ≤ S50000x512.size a) ∧
  (∀ a, (k3_off36 v27) a + S1x512.size a ≤ S50000x512.size a)
instance k3_chk4.dec : ∀ (v27 : BitVec 32), Decidable (k3_chk4 v27) := fun v27 => decidable_of_iff' _ (Iff.of_eq (k3_chk4.eq_1 v27))
theorem k3_off8_inb : ∀ (v27 : BitVec 32) (k3_hw4 : k3_chk4 v27), ∀ a, (k3_off8 v27) a + S1x512.size a ≤ S50000x512.size a := fun v27 k3_hw4 => k3_hw4.1
theorem k3_off36_inb : ∀ (v27 : BitVec 32) (k3_hw4 : k3_chk4 v27), ∀ a, (k3_off36 v27) a + S1x512.size a ≤ S50000x512.size a := fun v27 k3_hw4 => k3_hw4.2

def k3_off37 (v35 : BitVec 32) : Fin 2 → Nat :=
  let c0_i32_98 : BitVec 32 := 0#32
  ![v35.toNat, 0]

def k3_chk5 (v35 : BitVec 32) : Prop :=
  (∀ a, (k3_off10 v35) a + S1x512.size a ≤ S50000x512.size a) ∧
  (∀ a, (k3_off37 v35) a + S1x512.size a ≤ S50000x512.size a)
instance k3_chk5.dec : ∀ (v35 : BitVec 32), Decidable (k3_chk5 v35) := fun v35 => decidable_of_iff' _ (Iff.of_eq (k3_chk5.eq_1 v35))
theorem k3_off10_inb : ∀ (v35 : BitVec 32) (k3_hw5 : k3_chk5 v35), ∀ a, (k3_off10 v35) a + S1x512.size a ≤ S50000x512.size a := fun v35 k3_hw5 => k3_hw5.1
theorem k3_off37_inb : ∀ (v35 : BitVec 32) (k3_hw5 : k3_chk5 v35), ∀ a, (k3_off37 v35) a + S1x512.size a ≤ S50000x512.size a := fun v35 k3_hw5 => k3_hw5.2

def k3_off38 (v43 : BitVec 32) : Fin 2 → Nat :=
  let c0_i32_102 : BitVec 32 := 0#32
  ![v43.toNat, 0]

def k3_chk6 (v43 : BitVec 32) : Prop :=
  (∀ a, (k3_off12 v43) a + S1x512.size a ≤ S50000x512.size a) ∧
  (∀ a, (k3_off38 v43) a + S1x512.size a ≤ S50000x512.size a)
instance k3_chk6.dec : ∀ (v43 : BitVec 32), Decidable (k3_chk6 v43) := fun v43 => decidable_of_iff' _ (Iff.of_eq (k3_chk6.eq_1 v43))
theorem k3_off12_inb : ∀ (v43 : BitVec 32) (k3_hw6 : k3_chk6 v43), ∀ a, (k3_off12 v43) a + S1x512.size a ≤ S50000x512.size a := fun v43 k3_hw6 => k3_hw6.1
theorem k3_off38_inb : ∀ (v43 : BitVec 32) (k3_hw6 : k3_chk6 v43), ∀ a, (k3_off38 v43) a + S1x512.size a ≤ S50000x512.size a := fun v43 k3_hw6 => k3_hw6.2

def k3_off39 (v51 : BitVec 32) : Fin 2 → Nat :=
  let c0_i32_106 : BitVec 32 := 0#32
  ![v51.toNat, 0]

def k3_chk7 (v51 : BitVec 32) : Prop :=
  (∀ a, (k3_off14 v51) a + S1x512.size a ≤ S50000x512.size a) ∧
  (∀ a, (k3_off39 v51) a + S1x512.size a ≤ S50000x512.size a)
instance k3_chk7.dec : ∀ (v51 : BitVec 32), Decidable (k3_chk7 v51) := fun v51 => decidable_of_iff' _ (Iff.of_eq (k3_chk7.eq_1 v51))
theorem k3_off14_inb : ∀ (v51 : BitVec 32) (k3_hw7 : k3_chk7 v51), ∀ a, (k3_off14 v51) a + S1x512.size a ≤ S50000x512.size a := fun v51 k3_hw7 => k3_hw7.1
theorem k3_off39_inb : ∀ (v51 : BitVec 32) (k3_hw7 : k3_chk7 v51), ∀ a, (k3_off39 v51) a + S1x512.size a ≤ S50000x512.size a := fun v51 k3_hw7 => k3_hw7.2

def k3_off40 (v59 : BitVec 32) : Fin 2 → Nat :=
  let c0_i32_110 : BitVec 32 := 0#32
  ![v59.toNat, 0]

def k3_chk8 (v59 : BitVec 32) : Prop :=
  (∀ a, (k3_off16 v59) a + S1x512.size a ≤ S50000x512.size a) ∧
  (∀ a, (k3_off40 v59) a + S1x512.size a ≤ S50000x512.size a)
instance k3_chk8.dec : ∀ (v59 : BitVec 32), Decidable (k3_chk8 v59) := fun v59 => decidable_of_iff' _ (Iff.of_eq (k3_chk8.eq_1 v59))
theorem k3_off16_inb : ∀ (v59 : BitVec 32) (k3_hw8 : k3_chk8 v59), ∀ a, (k3_off16 v59) a + S1x512.size a ≤ S50000x512.size a := fun v59 k3_hw8 => k3_hw8.1
theorem k3_off40_inb : ∀ (v59 : BitVec 32) (k3_hw8 : k3_chk8 v59), ∀ a, (k3_off40 v59) a + S1x512.size a ≤ S50000x512.size a := fun v59 k3_hw8 => k3_hw8.2

def k3_off41 (v67 : BitVec 32) : Fin 2 → Nat :=
  let c0_i32_114 : BitVec 32 := 0#32
  ![v67.toNat, 0]

def k3_chk9 (v67 : BitVec 32) : Prop :=
  (∀ a, (k3_off18 v67) a + S1x512.size a ≤ S50000x512.size a) ∧
  (∀ a, (k3_off41 v67) a + S1x512.size a ≤ S50000x512.size a)
instance k3_chk9.dec : ∀ (v67 : BitVec 32), Decidable (k3_chk9 v67) := fun v67 => decidable_of_iff' _ (Iff.of_eq (k3_chk9.eq_1 v67))
theorem k3_off18_inb : ∀ (v67 : BitVec 32) (k3_hw9 : k3_chk9 v67), ∀ a, (k3_off18 v67) a + S1x512.size a ≤ S50000x512.size a := fun v67 k3_hw9 => k3_hw9.1
theorem k3_off41_inb : ∀ (v67 : BitVec 32) (k3_hw9 : k3_chk9 v67), ∀ a, (k3_off41 v67) a + S1x512.size a ≤ S50000x512.size a := fun v67 k3_hw9 => k3_hw9.2

def k3_off42 (v75 : BitVec 32) : Fin 2 → Nat :=
  let c0_i32_118 : BitVec 32 := 0#32
  ![v75.toNat, 0]

def k3_chk10 (v75 : BitVec 32) : Prop :=
  (∀ a, (k3_off20 v75) a + S1x512.size a ≤ S50000x512.size a) ∧
  (∀ a, (k3_off42 v75) a + S1x512.size a ≤ S50000x512.size a)
instance k3_chk10.dec : ∀ (v75 : BitVec 32), Decidable (k3_chk10 v75) := fun v75 => decidable_of_iff' _ (Iff.of_eq (k3_chk10.eq_1 v75))
theorem k3_off20_inb : ∀ (v75 : BitVec 32) (k3_hw10 : k3_chk10 v75), ∀ a, (k3_off20 v75) a + S1x512.size a ≤ S50000x512.size a := fun v75 k3_hw10 => k3_hw10.1
theorem k3_off42_inb : ∀ (v75 : BitVec 32) (k3_hw10 : k3_chk10 v75), ∀ a, (k3_off42 v75) a + S1x512.size a ≤ S50000x512.size a := fun v75 k3_hw10 => k3_hw10.2

def k3_off43 (v83 : BitVec 32) : Fin 2 → Nat :=
  let c0_i32_122 : BitVec 32 := 0#32
  ![v83.toNat, 0]

def k3_chk11 (v83 : BitVec 32) : Prop :=
  (∀ a, (k3_off22 v83) a + S1x512.size a ≤ S50000x512.size a) ∧
  (∀ a, (k3_off43 v83) a + S1x512.size a ≤ S50000x512.size a)
instance k3_chk11.dec : ∀ (v83 : BitVec 32), Decidable (k3_chk11 v83) := fun v83 => decidable_of_iff' _ (Iff.of_eq (k3_chk11.eq_1 v83))
theorem k3_off22_inb : ∀ (v83 : BitVec 32) (k3_hw11 : k3_chk11 v83), ∀ a, (k3_off22 v83) a + S1x512.size a ≤ S50000x512.size a := fun v83 k3_hw11 => k3_hw11.1
theorem k3_off43_inb : ∀ (v83 : BitVec 32) (k3_hw11 : k3_chk11 v83), ∀ a, (k3_off43 v83) a + S1x512.size a ≤ S50000x512.size a := fun v83 k3_hw11 => k3_hw11.2

def k3_off44 (v91 : BitVec 32) : Fin 2 → Nat :=
  let c0_i32_126 : BitVec 32 := 0#32
  ![v91.toNat, 0]

def k3_chk12 (v91 : BitVec 32) : Prop :=
  (∀ a, (k3_off24 v91) a + S1x512.size a ≤ S50000x512.size a) ∧
  (∀ a, (k3_off44 v91) a + S1x512.size a ≤ S50000x512.size a)
instance k3_chk12.dec : ∀ (v91 : BitVec 32), Decidable (k3_chk12 v91) := fun v91 => decidable_of_iff' _ (Iff.of_eq (k3_chk12.eq_1 v91))
theorem k3_off24_inb : ∀ (v91 : BitVec 32) (k3_hw12 : k3_chk12 v91), ∀ a, (k3_off24 v91) a + S1x512.size a ≤ S50000x512.size a := fun v91 k3_hw12 => k3_hw12.1
theorem k3_off44_inb : ∀ (v91 : BitVec 32) (k3_hw12 : k3_chk12 v91), ∀ a, (k3_off44 v91) a + S1x512.size a ≤ S50000x512.size a := fun v91 k3_hw12 => k3_hw12.2

def k3_off45 (v99 : BitVec 32) : Fin 2 → Nat :=
  let c0_i32_130 : BitVec 32 := 0#32
  ![v99.toNat, 0]

def k3_chk13 (v99 : BitVec 32) : Prop :=
  (∀ a, (k3_off26 v99) a + S1x512.size a ≤ S50000x512.size a) ∧
  (∀ a, (k3_off45 v99) a + S1x512.size a ≤ S50000x512.size a)
instance k3_chk13.dec : ∀ (v99 : BitVec 32), Decidable (k3_chk13 v99) := fun v99 => decidable_of_iff' _ (Iff.of_eq (k3_chk13.eq_1 v99))
theorem k3_off26_inb : ∀ (v99 : BitVec 32) (k3_hw13 : k3_chk13 v99), ∀ a, (k3_off26 v99) a + S1x512.size a ≤ S50000x512.size a := fun v99 k3_hw13 => k3_hw13.1
theorem k3_off45_inb : ∀ (v99 : BitVec 32) (k3_hw13 : k3_chk13 v99), ∀ a, (k3_off45 v99) a + S1x512.size a ≤ S50000x512.size a := fun v99 k3_hw13 => k3_hw13.2

def k3_off46 (v107 : BitVec 32) : Fin 2 → Nat :=
  let c0_i32_134 : BitVec 32 := 0#32
  ![v107.toNat, 0]

def k3_chk14 (v107 : BitVec 32) : Prop :=
  (∀ a, (k3_off28 v107) a + S1x512.size a ≤ S50000x512.size a) ∧
  (∀ a, (k3_off46 v107) a + S1x512.size a ≤ S50000x512.size a)
instance k3_chk14.dec : ∀ (v107 : BitVec 32), Decidable (k3_chk14 v107) := fun v107 => decidable_of_iff' _ (Iff.of_eq (k3_chk14.eq_1 v107))
theorem k3_off28_inb : ∀ (v107 : BitVec 32) (k3_hw14 : k3_chk14 v107), ∀ a, (k3_off28 v107) a + S1x512.size a ≤ S50000x512.size a := fun v107 k3_hw14 => k3_hw14.1
theorem k3_off46_inb : ∀ (v107 : BitVec 32) (k3_hw14 : k3_chk14 v107), ∀ a, (k3_off46 v107) a + S1x512.size a ≤ S50000x512.size a := fun v107 k3_hw14 => k3_hw14.2

def k3_off47 (v115 : BitVec 32) : Fin 2 → Nat :=
  let c0_i32_138 : BitVec 32 := 0#32
  ![v115.toNat, 0]

def k3_chk15 (v115 : BitVec 32) : Prop :=
  (∀ a, (k3_off30 v115) a + S1x512.size a ≤ S50000x512.size a) ∧
  (∀ a, (k3_off47 v115) a + S1x512.size a ≤ S50000x512.size a)
instance k3_chk15.dec : ∀ (v115 : BitVec 32), Decidable (k3_chk15 v115) := fun v115 => decidable_of_iff' _ (Iff.of_eq (k3_chk15.eq_1 v115))
theorem k3_off30_inb : ∀ (v115 : BitVec 32) (k3_hw15 : k3_chk15 v115), ∀ a, (k3_off30 v115) a + S1x512.size a ≤ S50000x512.size a := fun v115 k3_hw15 => k3_hw15.1
theorem k3_off47_inb : ∀ (v115 : BitVec 32) (k3_hw15 : k3_chk15 v115), ∀ a, (k3_off47 v115) a + S1x512.size a ≤ S50000x512.size a := fun v115 k3_hw15 => k3_hw15.2

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![3125], ![false]⟩

abbrev pre4 : Pipeline.Prefetch sig := ⟨1, ![main_v45.idx], fun | 0 => main_v45.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k4_off2 (v3 : BitVec 32) : Fin 2 → Nat :=
  let c0_i32_3 : BitVec 32 := 0#32
  ![v3.toNat, 0]

def k4_off3 (i : grid4.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k4_off4 (v11 : BitVec 32) : Fin 2 → Nat :=
  let c0_i32_8 : BitVec 32 := 0#32
  ![v11.toNat, 0]

def k4_off5 (i : grid4.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k4_off6 (v19 : BitVec 32) : Fin 2 → Nat :=
  let c0_i32_13 : BitVec 32 := 0#32
  ![v19.toNat, 0]

def k4_off7 (i : grid4.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k4_off8 (v27 : BitVec 32) : Fin 2 → Nat :=
  let c0_i32_18 : BitVec 32 := 0#32
  ![v27.toNat, 0]

def k4_off9 (i : grid4.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k4_off10 (v35 : BitVec 32) : Fin 2 → Nat :=
  let c0_i32_23 : BitVec 32 := 0#32
  ![v35.toNat, 0]

def k4_off11 (i : grid4.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k4_off12 (v43 : BitVec 32) : Fin 2 → Nat :=
  let c0_i32_28 : BitVec 32 := 0#32
  ![v43.toNat, 0]

def k4_off13 (i : grid4.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k4_off14 (v51 : BitVec 32) : Fin 2 → Nat :=
  let c0_i32_33 : BitVec 32 := 0#32
  ![v51.toNat, 0]

def k4_off15 (i : grid4.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k4_off16 (v59 : BitVec 32) : Fin 2 → Nat :=
  let c0_i32_38 : BitVec 32 := 0#32
  ![v59.toNat, 0]

def k4_off17 (i : grid4.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k4_off18 (v67 : BitVec 32) : Fin 2 → Nat :=
  let c0_i32_43 : BitVec 32 := 0#32
  ![v67.toNat, 0]

def k4_off19 (i : grid4.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k4_off20 (v75 : BitVec 32) : Fin 2 → Nat :=
  let c0_i32_48 : BitVec 32 := 0#32
  ![v75.toNat, 0]

def k4_off21 (i : grid4.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k4_off22 (v83 : BitVec 32) : Fin 2 → Nat :=
  let c0_i32_53 : BitVec 32 := 0#32
  ![v83.toNat, 0]

def k4_off23 (i : grid4.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k4_off24 (v91 : BitVec 32) : Fin 2 → Nat :=
  let c0_i32_58 : BitVec 32 := 0#32
  ![v91.toNat, 0]

def k4_off25 (i : grid4.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k4_off26 (v99 : BitVec 32) : Fin 2 → Nat :=
  let c0_i32_63 : BitVec 32 := 0#32
  ![v99.toNat, 0]

def k4_off27 (i : grid4.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k4_off28 (v107 : BitVec 32) : Fin 2 → Nat :=
  let c0_i32_68 : BitVec 32 := 0#32
  ![v107.toNat, 0]

def k4_off29 (i : grid4.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k4_off30 (v115 : BitVec 32) : Fin 2 → Nat :=
  let c0_i32_73 : BitVec 32 := 0#32
  ![v115.toNat, 0]

def k4_off31 (i : grid4.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k4_off32 (v123 : BitVec 32) : Fin 2 → Nat :=
  let c0_i32_78 : BitVec 32 := 0#32
  ![v123.toNat, 0]

def k4_chk16 (v123 : BitVec 32) : Prop :=
  (∀ a, (k4_off32 v123) a + S1x512.size a ≤ S50000x512.size a)
instance k4_chk16.dec : ∀ (v123 : BitVec 32), Decidable (k4_chk16 v123) := fun v123 => decidable_of_iff' _ (Iff.of_eq (k4_chk16.eq_1 v123))
theorem k4_off32_inb : ∀ (v123 : BitVec 32) (k4_hw16 : k4_chk16 v123), ∀ a, (k4_off32 v123) a + S1x512.size a ≤ S50000x512.size a := fun v123 k4_hw16 => k4_hw16

def k4_off33 (v3 : BitVec 32) : Fin 2 → Nat :=
  let c0_i32_82 : BitVec 32 := 0#32
  ![v3.toNat, 0]

def k4_chk1 (v3 : BitVec 32) : Prop :=
  (∀ a, (k4_off2 v3) a + S1x512.size a ≤ S50000x512.size a) ∧
  (∀ a, (k4_off33 v3) a + S1x512.size a ≤ S50000x512.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x512.size a ≤ S50000x512.size a := fun v3 k4_hw1 => k4_hw1.1
theorem k4_off33_inb : ∀ (v3 : BitVec 32) (k4_hw1 : k4_chk1 v3), ∀ a, (k4_off33 v3) a + S1x512.size a ≤ S50000x512.size a := fun v3 k4_hw1 => k4_hw1.2

def k4_off34 (v11 : BitVec 32) : Fin 2 → Nat :=
  let c0_i32_86 : BitVec 32 := 0#32
  ![v11.toNat, 0]

def k4_chk2 (v11 : BitVec 32) : Prop :=
  (∀ a, (k4_off4 v11) a + S1x512.size a ≤ S50000x512.size a) ∧
  (∀ a, (k4_off34 v11) a + S1x512.size a ≤ S50000x512.size a)
instance k4_chk2.dec : ∀ (v11 : BitVec 32), Decidable (k4_chk2 v11) := fun v11 => decidable_of_iff' _ (Iff.of_eq (k4_chk2.eq_1 v11))
theorem k4_off4_inb : ∀ (v11 : BitVec 32) (k4_hw2 : k4_chk2 v11), ∀ a, (k4_off4 v11) a + S1x512.size a ≤ S50000x512.size a := fun v11 k4_hw2 => k4_hw2.1
theorem k4_off34_inb : ∀ (v11 : BitVec 32) (k4_hw2 : k4_chk2 v11), ∀ a, (k4_off34 v11) a + S1x512.size a ≤ S50000x512.size a := fun v11 k4_hw2 => k4_hw2.2

def k4_off35 (v19 : BitVec 32) : Fin 2 → Nat :=
  let c0_i32_90 : BitVec 32 := 0#32
  ![v19.toNat, 0]

def k4_chk3 (v19 : BitVec 32) : Prop :=
  (∀ a, (k4_off6 v19) a + S1x512.size a ≤ S50000x512.size a) ∧
  (∀ a, (k4_off35 v19) a + S1x512.size a ≤ S50000x512.size a)
instance k4_chk3.dec : ∀ (v19 : BitVec 32), Decidable (k4_chk3 v19) := fun v19 => decidable_of_iff' _ (Iff.of_eq (k4_chk3.eq_1 v19))
theorem k4_off6_inb : ∀ (v19 : BitVec 32) (k4_hw3 : k4_chk3 v19), ∀ a, (k4_off6 v19) a + S1x512.size a ≤ S50000x512.size a := fun v19 k4_hw3 => k4_hw3.1
theorem k4_off35_inb : ∀ (v19 : BitVec 32) (k4_hw3 : k4_chk3 v19), ∀ a, (k4_off35 v19) a + S1x512.size a ≤ S50000x512.size a := fun v19 k4_hw3 => k4_hw3.2

def k4_off36 (v27 : BitVec 32) : Fin 2 → Nat :=
  let c0_i32_94 : BitVec 32 := 0#32
  ![v27.toNat, 0]

def k4_chk4 (v27 : BitVec 32) : Prop :=
  (∀ a, (k4_off8 v27) a + S1x512.size a ≤ S50000x512.size a) ∧
  (∀ a, (k4_off36 v27) a + S1x512.size a ≤ S50000x512.size a)
instance k4_chk4.dec : ∀ (v27 : BitVec 32), Decidable (k4_chk4 v27) := fun v27 => decidable_of_iff' _ (Iff.of_eq (k4_chk4.eq_1 v27))
theorem k4_off8_inb : ∀ (v27 : BitVec 32) (k4_hw4 : k4_chk4 v27), ∀ a, (k4_off8 v27) a + S1x512.size a ≤ S50000x512.size a := fun v27 k4_hw4 => k4_hw4.1
theorem k4_off36_inb : ∀ (v27 : BitVec 32) (k4_hw4 : k4_chk4 v27), ∀ a, (k4_off36 v27) a + S1x512.size a ≤ S50000x512.size a := fun v27 k4_hw4 => k4_hw4.2

def k4_off37 (v35 : BitVec 32) : Fin 2 → Nat :=
  let c0_i32_98 : BitVec 32 := 0#32
  ![v35.toNat, 0]

def k4_chk5 (v35 : BitVec 32) : Prop :=
  (∀ a, (k4_off10 v35) a + S1x512.size a ≤ S50000x512.size a) ∧
  (∀ a, (k4_off37 v35) a + S1x512.size a ≤ S50000x512.size a)
instance k4_chk5.dec : ∀ (v35 : BitVec 32), Decidable (k4_chk5 v35) := fun v35 => decidable_of_iff' _ (Iff.of_eq (k4_chk5.eq_1 v35))
theorem k4_off10_inb : ∀ (v35 : BitVec 32) (k4_hw5 : k4_chk5 v35), ∀ a, (k4_off10 v35) a + S1x512.size a ≤ S50000x512.size a := fun v35 k4_hw5 => k4_hw5.1
theorem k4_off37_inb : ∀ (v35 : BitVec 32) (k4_hw5 : k4_chk5 v35), ∀ a, (k4_off37 v35) a + S1x512.size a ≤ S50000x512.size a := fun v35 k4_hw5 => k4_hw5.2

def k4_off38 (v43 : BitVec 32) : Fin 2 → Nat :=
  let c0_i32_102 : BitVec 32 := 0#32
  ![v43.toNat, 0]

def k4_chk6 (v43 : BitVec 32) : Prop :=
  (∀ a, (k4_off12 v43) a + S1x512.size a ≤ S50000x512.size a) ∧
  (∀ a, (k4_off38 v43) a + S1x512.size a ≤ S50000x512.size a)
instance k4_chk6.dec : ∀ (v43 : BitVec 32), Decidable (k4_chk6 v43) := fun v43 => decidable_of_iff' _ (Iff.of_eq (k4_chk6.eq_1 v43))
theorem k4_off12_inb : ∀ (v43 : BitVec 32) (k4_hw6 : k4_chk6 v43), ∀ a, (k4_off12 v43) a + S1x512.size a ≤ S50000x512.size a := fun v43 k4_hw6 => k4_hw6.1
theorem k4_off38_inb : ∀ (v43 : BitVec 32) (k4_hw6 : k4_chk6 v43), ∀ a, (k4_off38 v43) a + S1x512.size a ≤ S50000x512.size a := fun v43 k4_hw6 => k4_hw6.2

def k4_off39 (v51 : BitVec 32) : Fin 2 → Nat :=
  let c0_i32_106 : BitVec 32 := 0#32
  ![v51.toNat, 0]

def k4_chk7 (v51 : BitVec 32) : Prop :=
  (∀ a, (k4_off14 v51) a + S1x512.size a ≤ S50000x512.size a) ∧
  (∀ a, (k4_off39 v51) a + S1x512.size a ≤ S50000x512.size a)
instance k4_chk7.dec : ∀ (v51 : BitVec 32), Decidable (k4_chk7 v51) := fun v51 => decidable_of_iff' _ (Iff.of_eq (k4_chk7.eq_1 v51))
theorem k4_off14_inb : ∀ (v51 : BitVec 32) (k4_hw7 : k4_chk7 v51), ∀ a, (k4_off14 v51) a + S1x512.size a ≤ S50000x512.size a := fun v51 k4_hw7 => k4_hw7.1
theorem k4_off39_inb : ∀ (v51 : BitVec 32) (k4_hw7 : k4_chk7 v51), ∀ a, (k4_off39 v51) a + S1x512.size a ≤ S50000x512.size a := fun v51 k4_hw7 => k4_hw7.2

def k4_off40 (v59 : BitVec 32) : Fin 2 → Nat :=
  let c0_i32_110 : BitVec 32 := 0#32
  ![v59.toNat, 0]

def k4_chk8 (v59 : BitVec 32) : Prop :=
  (∀ a, (k4_off16 v59) a + S1x512.size a ≤ S50000x512.size a) ∧
  (∀ a, (k4_off40 v59) a + S1x512.size a ≤ S50000x512.size a)
instance k4_chk8.dec : ∀ (v59 : BitVec 32), Decidable (k4_chk8 v59) := fun v59 => decidable_of_iff' _ (Iff.of_eq (k4_chk8.eq_1 v59))
theorem k4_off16_inb : ∀ (v59 : BitVec 32) (k4_hw8 : k4_chk8 v59), ∀ a, (k4_off16 v59) a + S1x512.size a ≤ S50000x512.size a := fun v59 k4_hw8 => k4_hw8.1
theorem k4_off40_inb : ∀ (v59 : BitVec 32) (k4_hw8 : k4_chk8 v59), ∀ a, (k4_off40 v59) a + S1x512.size a ≤ S50000x512.size a := fun v59 k4_hw8 => k4_hw8.2

def k4_off41 (v67 : BitVec 32) : Fin 2 → Nat :=
  let c0_i32_114 : BitVec 32 := 0#32
  ![v67.toNat, 0]

def k4_chk9 (v67 : BitVec 32) : Prop :=
  (∀ a, (k4_off18 v67) a + S1x512.size a ≤ S50000x512.size a) ∧
  (∀ a, (k4_off41 v67) a + S1x512.size a ≤ S50000x512.size a)
instance k4_chk9.dec : ∀ (v67 : BitVec 32), Decidable (k4_chk9 v67) := fun v67 => decidable_of_iff' _ (Iff.of_eq (k4_chk9.eq_1 v67))
theorem k4_off18_inb : ∀ (v67 : BitVec 32) (k4_hw9 : k4_chk9 v67), ∀ a, (k4_off18 v67) a + S1x512.size a ≤ S50000x512.size a := fun v67 k4_hw9 => k4_hw9.1
theorem k4_off41_inb : ∀ (v67 : BitVec 32) (k4_hw9 : k4_chk9 v67), ∀ a, (k4_off41 v67) a + S1x512.size a ≤ S50000x512.size a := fun v67 k4_hw9 => k4_hw9.2

def k4_off42 (v75 : BitVec 32) : Fin 2 → Nat :=
  let c0_i32_118 : BitVec 32 := 0#32
  ![v75.toNat, 0]

def k4_chk10 (v75 : BitVec 32) : Prop :=
  (∀ a, (k4_off20 v75) a + S1x512.size a ≤ S50000x512.size a) ∧
  (∀ a, (k4_off42 v75) a + S1x512.size a ≤ S50000x512.size a)
instance k4_chk10.dec : ∀ (v75 : BitVec 32), Decidable (k4_chk10 v75) := fun v75 => decidable_of_iff' _ (Iff.of_eq (k4_chk10.eq_1 v75))
theorem k4_off20_inb : ∀ (v75 : BitVec 32) (k4_hw10 : k4_chk10 v75), ∀ a, (k4_off20 v75) a + S1x512.size a ≤ S50000x512.size a := fun v75 k4_hw10 => k4_hw10.1
theorem k4_off42_inb : ∀ (v75 : BitVec 32) (k4_hw10 : k4_chk10 v75), ∀ a, (k4_off42 v75) a + S1x512.size a ≤ S50000x512.size a := fun v75 k4_hw10 => k4_hw10.2

def k4_off43 (v83 : BitVec 32) : Fin 2 → Nat :=
  let c0_i32_122 : BitVec 32 := 0#32
  ![v83.toNat, 0]

def k4_chk11 (v83 : BitVec 32) : Prop :=
  (∀ a, (k4_off22 v83) a + S1x512.size a ≤ S50000x512.size a) ∧
  (∀ a, (k4_off43 v83) a + S1x512.size a ≤ S50000x512.size a)
instance k4_chk11.dec : ∀ (v83 : BitVec 32), Decidable (k4_chk11 v83) := fun v83 => decidable_of_iff' _ (Iff.of_eq (k4_chk11.eq_1 v83))
theorem k4_off22_inb : ∀ (v83 : BitVec 32) (k4_hw11 : k4_chk11 v83), ∀ a, (k4_off22 v83) a + S1x512.size a ≤ S50000x512.size a := fun v83 k4_hw11 => k4_hw11.1
theorem k4_off43_inb : ∀ (v83 : BitVec 32) (k4_hw11 : k4_chk11 v83), ∀ a, (k4_off43 v83) a + S1x512.size a ≤ S50000x512.size a := fun v83 k4_hw11 => k4_hw11.2

def k4_off44 (v91 : BitVec 32) : Fin 2 → Nat :=
  let c0_i32_126 : BitVec 32 := 0#32
  ![v91.toNat, 0]

def k4_chk12 (v91 : BitVec 32) : Prop :=
  (∀ a, (k4_off24 v91) a + S1x512.size a ≤ S50000x512.size a) ∧
  (∀ a, (k4_off44 v91) a + S1x512.size a ≤ S50000x512.size a)
instance k4_chk12.dec : ∀ (v91 : BitVec 32), Decidable (k4_chk12 v91) := fun v91 => decidable_of_iff' _ (Iff.of_eq (k4_chk12.eq_1 v91))
theorem k4_off24_inb : ∀ (v91 : BitVec 32) (k4_hw12 : k4_chk12 v91), ∀ a, (k4_off24 v91) a + S1x512.size a ≤ S50000x512.size a := fun v91 k4_hw12 => k4_hw12.1
theorem k4_off44_inb : ∀ (v91 : BitVec 32) (k4_hw12 : k4_chk12 v91), ∀ a, (k4_off44 v91) a + S1x512.size a ≤ S50000x512.size a := fun v91 k4_hw12 => k4_hw12.2

def k4_off45 (v99 : BitVec 32) : Fin 2 → Nat :=
  let c0_i32_130 : BitVec 32 := 0#32
  ![v99.toNat, 0]

def k4_chk13 (v99 : BitVec 32) : Prop :=
  (∀ a, (k4_off26 v99) a + S1x512.size a ≤ S50000x512.size a) ∧
  (∀ a, (k4_off45 v99) a + S1x512.size a ≤ S50000x512.size a)
instance k4_chk13.dec : ∀ (v99 : BitVec 32), Decidable (k4_chk13 v99) := fun v99 => decidable_of_iff' _ (Iff.of_eq (k4_chk13.eq_1 v99))
theorem k4_off26_inb : ∀ (v99 : BitVec 32) (k4_hw13 : k4_chk13 v99), ∀ a, (k4_off26 v99) a + S1x512.size a ≤ S50000x512.size a := fun v99 k4_hw13 => k4_hw13.1
theorem k4_off45_inb : ∀ (v99 : BitVec 32) (k4_hw13 : k4_chk13 v99), ∀ a, (k4_off45 v99) a + S1x512.size a ≤ S50000x512.size a := fun v99 k4_hw13 => k4_hw13.2

def k4_off46 (v107 : BitVec 32) : Fin 2 → Nat :=
  let c0_i32_134 : BitVec 32 := 0#32
  ![v107.toNat, 0]

def k4_chk14 (v107 : BitVec 32) : Prop :=
  (∀ a, (k4_off28 v107) a + S1x512.size a ≤ S50000x512.size a) ∧
  (∀ a, (k4_off46 v107) a + S1x512.size a ≤ S50000x512.size a)
instance k4_chk14.dec : ∀ (v107 : BitVec 32), Decidable (k4_chk14 v107) := fun v107 => decidable_of_iff' _ (Iff.of_eq (k4_chk14.eq_1 v107))
theorem k4_off28_inb : ∀ (v107 : BitVec 32) (k4_hw14 : k4_chk14 v107), ∀ a, (k4_off28 v107) a + S1x512.size a ≤ S50000x512.size a := fun v107 k4_hw14 => k4_hw14.1
theorem k4_off46_inb : ∀ (v107 : BitVec 32) (k4_hw14 : k4_chk14 v107), ∀ a, (k4_off46 v107) a + S1x512.size a ≤ S50000x512.size a := fun v107 k4_hw14 => k4_hw14.2

def k4_off47 (v115 : BitVec 32) : Fin 2 → Nat :=
  let c0_i32_138 : BitVec 32 := 0#32
  ![v115.toNat, 0]

def k4_chk15 (v115 : BitVec 32) : Prop :=
  (∀ a, (k4_off30 v115) a + S1x512.size a ≤ S50000x512.size a) ∧
  (∀ a, (k4_off47 v115) a + S1x512.size a ≤ S50000x512.size a)
instance k4_chk15.dec : ∀ (v115 : BitVec 32), Decidable (k4_chk15 v115) := fun v115 => decidable_of_iff' _ (Iff.of_eq (k4_chk15.eq_1 v115))
theorem k4_off30_inb : ∀ (v115 : BitVec 32) (k4_hw15 : k4_chk15 v115), ∀ a, (k4_off30 v115) a + S1x512.size a ≤ S50000x512.size a := fun v115 k4_hw15 => k4_hw15.1
theorem k4_off47_inb : ∀ (v115 : BitVec 32) (k4_hw15 : k4_chk15 v115), ∀ a, (k4_off47 v115) a + S1x512.size a ≤ S50000x512.size a := fun v115 k4_hw15 => k4_hw15.2

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![3125], ![false]⟩

abbrev pre5 : Pipeline.Prefetch sig := ⟨1, ![main_v48.idx], fun | 0 => main_v48.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k5_off2 (v3 : BitVec 32) : Fin 2 → Nat :=
  let c0_i32_3 : BitVec 32 := 0#32
  ![v3.toNat, 0]

def k5_off3 (i : grid5.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k5_off4 (v11 : BitVec 32) : Fin 2 → Nat :=
  let c0_i32_8 : BitVec 32 := 0#32
  ![v11.toNat, 0]

def k5_off5 (i : grid5.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k5_off6 (v19 : BitVec 32) : Fin 2 → Nat :=
  let c0_i32_13 : BitVec 32 := 0#32
  ![v19.toNat, 0]

def k5_off7 (i : grid5.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k5_off8 (v27 : BitVec 32) : Fin 2 → Nat :=
  let c0_i32_18 : BitVec 32 := 0#32
  ![v27.toNat, 0]

def k5_off9 (i : grid5.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k5_off10 (v35 : BitVec 32) : Fin 2 → Nat :=
  let c0_i32_23 : BitVec 32 := 0#32
  ![v35.toNat, 0]

def k5_off11 (i : grid5.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k5_off12 (v43 : BitVec 32) : Fin 2 → Nat :=
  let c0_i32_28 : BitVec 32 := 0#32
  ![v43.toNat, 0]

def k5_off13 (i : grid5.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k5_off14 (v51 : BitVec 32) : Fin 2 → Nat :=
  let c0_i32_33 : BitVec 32 := 0#32
  ![v51.toNat, 0]

def k5_off15 (i : grid5.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k5_off16 (v59 : BitVec 32) : Fin 2 → Nat :=
  let c0_i32_38 : BitVec 32 := 0#32
  ![v59.toNat, 0]

def k5_off17 (i : grid5.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k5_off18 (v67 : BitVec 32) : Fin 2 → Nat :=
  let c0_i32_43 : BitVec 32 := 0#32
  ![v67.toNat, 0]

def k5_off19 (i : grid5.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k5_off20 (v75 : BitVec 32) : Fin 2 → Nat :=
  let c0_i32_48 : BitVec 32 := 0#32
  ![v75.toNat, 0]

def k5_off21 (i : grid5.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k5_off22 (v83 : BitVec 32) : Fin 2 → Nat :=
  let c0_i32_53 : BitVec 32 := 0#32
  ![v83.toNat, 0]

def k5_off23 (i : grid5.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k5_off24 (v91 : BitVec 32) : Fin 2 → Nat :=
  let c0_i32_58 : BitVec 32 := 0#32
  ![v91.toNat, 0]

def k5_off25 (i : grid5.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k5_off26 (v99 : BitVec 32) : Fin 2 → Nat :=
  let c0_i32_63 : BitVec 32 := 0#32
  ![v99.toNat, 0]

def k5_off27 (i : grid5.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k5_off28 (v107 : BitVec 32) : Fin 2 → Nat :=
  let c0_i32_68 : BitVec 32 := 0#32
  ![v107.toNat, 0]

def k5_off29 (i : grid5.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k5_off30 (v115 : BitVec 32) : Fin 2 → Nat :=
  let c0_i32_73 : BitVec 32 := 0#32
  ![v115.toNat, 0]

def k5_off31 (i : grid5.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k5_off32 (v123 : BitVec 32) : Fin 2 → Nat :=
  let c0_i32_78 : BitVec 32 := 0#32
  ![v123.toNat, 0]

def k5_chk16 (v123 : BitVec 32) : Prop :=
  (∀ a, (k5_off32 v123) a + S1x512.size a ≤ S50000x512.size a)
instance k5_chk16.dec : ∀ (v123 : BitVec 32), Decidable (k5_chk16 v123) := fun v123 => decidable_of_iff' _ (Iff.of_eq (k5_chk16.eq_1 v123))
theorem k5_off32_inb : ∀ (v123 : BitVec 32) (k5_hw16 : k5_chk16 v123), ∀ a, (k5_off32 v123) a + S1x512.size a ≤ S50000x512.size a := fun v123 k5_hw16 => k5_hw16

def k5_off33 (v3 : BitVec 32) : Fin 2 → Nat :=
  let c0_i32_82 : BitVec 32 := 0#32
  ![v3.toNat, 0]

def k5_chk1 (v3 : BitVec 32) : Prop :=
  (∀ a, (k5_off2 v3) a + S1x512.size a ≤ S50000x512.size a) ∧
  (∀ a, (k5_off33 v3) a + S1x512.size a ≤ S50000x512.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x512.size a ≤ S50000x512.size a := fun v3 k5_hw1 => k5_hw1.1
theorem k5_off33_inb : ∀ (v3 : BitVec 32) (k5_hw1 : k5_chk1 v3), ∀ a, (k5_off33 v3) a + S1x512.size a ≤ S50000x512.size a := fun v3 k5_hw1 => k5_hw1.2

def k5_off34 (v11 : BitVec 32) : Fin 2 → Nat :=
  let c0_i32_86 : BitVec 32 := 0#32
  ![v11.toNat, 0]

def k5_chk2 (v11 : BitVec 32) : Prop :=
  (∀ a, (k5_off4 v11) a + S1x512.size a ≤ S50000x512.size a) ∧
  (∀ a, (k5_off34 v11) a + S1x512.size a ≤ S50000x512.size a)
instance k5_chk2.dec : ∀ (v11 : BitVec 32), Decidable (k5_chk2 v11) := fun v11 => decidable_of_iff' _ (Iff.of_eq (k5_chk2.eq_1 v11))
theorem k5_off4_inb : ∀ (v11 : BitVec 32) (k5_hw2 : k5_chk2 v11), ∀ a, (k5_off4 v11) a + S1x512.size a ≤ S50000x512.size a := fun v11 k5_hw2 => k5_hw2.1
theorem k5_off34_inb : ∀ (v11 : BitVec 32) (k5_hw2 : k5_chk2 v11), ∀ a, (k5_off34 v11) a + S1x512.size a ≤ S50000x512.size a := fun v11 k5_hw2 => k5_hw2.2

def k5_off35 (v19 : BitVec 32) : Fin 2 → Nat :=
  let c0_i32_90 : BitVec 32 := 0#32
  ![v19.toNat, 0]

def k5_chk3 (v19 : BitVec 32) : Prop :=
  (∀ a, (k5_off6 v19) a + S1x512.size a ≤ S50000x512.size a) ∧
  (∀ a, (k5_off35 v19) a + S1x512.size a ≤ S50000x512.size a)
instance k5_chk3.dec : ∀ (v19 : BitVec 32), Decidable (k5_chk3 v19) := fun v19 => decidable_of_iff' _ (Iff.of_eq (k5_chk3.eq_1 v19))
theorem k5_off6_inb : ∀ (v19 : BitVec 32) (k5_hw3 : k5_chk3 v19), ∀ a, (k5_off6 v19) a + S1x512.size a ≤ S50000x512.size a := fun v19 k5_hw3 => k5_hw3.1
theorem k5_off35_inb : ∀ (v19 : BitVec 32) (k5_hw3 : k5_chk3 v19), ∀ a, (k5_off35 v19) a + S1x512.size a ≤ S50000x512.size a := fun v19 k5_hw3 => k5_hw3.2

def k5_off36 (v27 : BitVec 32) : Fin 2 → Nat :=
  let c0_i32_94 : BitVec 32 := 0#32
  ![v27.toNat, 0]

def k5_chk4 (v27 : BitVec 32) : Prop :=
  (∀ a, (k5_off8 v27) a + S1x512.size a ≤ S50000x512.size a) ∧
  (∀ a, (k5_off36 v27) a + S1x512.size a ≤ S50000x512.size a)
instance k5_chk4.dec : ∀ (v27 : BitVec 32), Decidable (k5_chk4 v27) := fun v27 => decidable_of_iff' _ (Iff.of_eq (k5_chk4.eq_1 v27))
theorem k5_off8_inb : ∀ (v27 : BitVec 32) (k5_hw4 : k5_chk4 v27), ∀ a, (k5_off8 v27) a + S1x512.size a ≤ S50000x512.size a := fun v27 k5_hw4 => k5_hw4.1
theorem k5_off36_inb : ∀ (v27 : BitVec 32) (k5_hw4 : k5_chk4 v27), ∀ a, (k5_off36 v27) a + S1x512.size a ≤ S50000x512.size a := fun v27 k5_hw4 => k5_hw4.2

def k5_off37 (v35 : BitVec 32) : Fin 2 → Nat :=
  let c0_i32_98 : BitVec 32 := 0#32
  ![v35.toNat, 0]

def k5_chk5 (v35 : BitVec 32) : Prop :=
  (∀ a, (k5_off10 v35) a + S1x512.size a ≤ S50000x512.size a) ∧
  (∀ a, (k5_off37 v35) a + S1x512.size a ≤ S50000x512.size a)
instance k5_chk5.dec : ∀ (v35 : BitVec 32), Decidable (k5_chk5 v35) := fun v35 => decidable_of_iff' _ (Iff.of_eq (k5_chk5.eq_1 v35))
theorem k5_off10_inb : ∀ (v35 : BitVec 32) (k5_hw5 : k5_chk5 v35), ∀ a, (k5_off10 v35) a + S1x512.size a ≤ S50000x512.size a := fun v35 k5_hw5 => k5_hw5.1
theorem k5_off37_inb : ∀ (v35 : BitVec 32) (k5_hw5 : k5_chk5 v35), ∀ a, (k5_off37 v35) a + S1x512.size a ≤ S50000x512.size a := fun v35 k5_hw5 => k5_hw5.2

def k5_off38 (v43 : BitVec 32) : Fin 2 → Nat :=
  let c0_i32_102 : BitVec 32 := 0#32
  ![v43.toNat, 0]

def k5_chk6 (v43 : BitVec 32) : Prop :=
  (∀ a, (k5_off12 v43) a + S1x512.size a ≤ S50000x512.size a) ∧
  (∀ a, (k5_off38 v43) a + S1x512.size a ≤ S50000x512.size a)
instance k5_chk6.dec : ∀ (v43 : BitVec 32), Decidable (k5_chk6 v43) := fun v43 => decidable_of_iff' _ (Iff.of_eq (k5_chk6.eq_1 v43))
theorem k5_off12_inb : ∀ (v43 : BitVec 32) (k5_hw6 : k5_chk6 v43), ∀ a, (k5_off12 v43) a + S1x512.size a ≤ S50000x512.size a := fun v43 k5_hw6 => k5_hw6.1
theorem k5_off38_inb : ∀ (v43 : BitVec 32) (k5_hw6 : k5_chk6 v43), ∀ a, (k5_off38 v43) a + S1x512.size a ≤ S50000x512.size a := fun v43 k5_hw6 => k5_hw6.2

def k5_off39 (v51 : BitVec 32) : Fin 2 → Nat :=
  let c0_i32_106 : BitVec 32 := 0#32
  ![v51.toNat, 0]

def k5_chk7 (v51 : BitVec 32) : Prop :=
  (∀ a, (k5_off14 v51) a + S1x512.size a ≤ S50000x512.size a) ∧
  (∀ a, (k5_off39 v51) a + S1x512.size a ≤ S50000x512.size a)
instance k5_chk7.dec : ∀ (v51 : BitVec 32), Decidable (k5_chk7 v51) := fun v51 => decidable_of_iff' _ (Iff.of_eq (k5_chk7.eq_1 v51))
theorem k5_off14_inb : ∀ (v51 : BitVec 32) (k5_hw7 : k5_chk7 v51), ∀ a, (k5_off14 v51) a + S1x512.size a ≤ S50000x512.size a := fun v51 k5_hw7 => k5_hw7.1
theorem k5_off39_inb : ∀ (v51 : BitVec 32) (k5_hw7 : k5_chk7 v51), ∀ a, (k5_off39 v51) a + S1x512.size a ≤ S50000x512.size a := fun v51 k5_hw7 => k5_hw7.2

def k5_off40 (v59 : BitVec 32) : Fin 2 → Nat :=
  let c0_i32_110 : BitVec 32 := 0#32
  ![v59.toNat, 0]

def k5_chk8 (v59 : BitVec 32) : Prop :=
  (∀ a, (k5_off16 v59) a + S1x512.size a ≤ S50000x512.size a) ∧
  (∀ a, (k5_off40 v59) a + S1x512.size a ≤ S50000x512.size a)
instance k5_chk8.dec : ∀ (v59 : BitVec 32), Decidable (k5_chk8 v59) := fun v59 => decidable_of_iff' _ (Iff.of_eq (k5_chk8.eq_1 v59))
theorem k5_off16_inb : ∀ (v59 : BitVec 32) (k5_hw8 : k5_chk8 v59), ∀ a, (k5_off16 v59) a + S1x512.size a ≤ S50000x512.size a := fun v59 k5_hw8 => k5_hw8.1
theorem k5_off40_inb : ∀ (v59 : BitVec 32) (k5_hw8 : k5_chk8 v59), ∀ a, (k5_off40 v59) a + S1x512.size a ≤ S50000x512.size a := fun v59 k5_hw8 => k5_hw8.2

def k5_off41 (v67 : BitVec 32) : Fin 2 → Nat :=
  let c0_i32_114 : BitVec 32 := 0#32
  ![v67.toNat, 0]

def k5_chk9 (v67 : BitVec 32) : Prop :=
  (∀ a, (k5_off18 v67) a + S1x512.size a ≤ S50000x512.size a) ∧
  (∀ a, (k5_off41 v67) a + S1x512.size a ≤ S50000x512.size a)
instance k5_chk9.dec : ∀ (v67 : BitVec 32), Decidable (k5_chk9 v67) := fun v67 => decidable_of_iff' _ (Iff.of_eq (k5_chk9.eq_1 v67))
theorem k5_off18_inb : ∀ (v67 : BitVec 32) (k5_hw9 : k5_chk9 v67), ∀ a, (k5_off18 v67) a + S1x512.size a ≤ S50000x512.size a := fun v67 k5_hw9 => k5_hw9.1
theorem k5_off41_inb : ∀ (v67 : BitVec 32) (k5_hw9 : k5_chk9 v67), ∀ a, (k5_off41 v67) a + S1x512.size a ≤ S50000x512.size a := fun v67 k5_hw9 => k5_hw9.2

def k5_off42 (v75 : BitVec 32) : Fin 2 → Nat :=
  let c0_i32_118 : BitVec 32 := 0#32
  ![v75.toNat, 0]

def k5_chk10 (v75 : BitVec 32) : Prop :=
  (∀ a, (k5_off20 v75) a + S1x512.size a ≤ S50000x512.size a) ∧
  (∀ a, (k5_off42 v75) a + S1x512.size a ≤ S50000x512.size a)
instance k5_chk10.dec : ∀ (v75 : BitVec 32), Decidable (k5_chk10 v75) := fun v75 => decidable_of_iff' _ (Iff.of_eq (k5_chk10.eq_1 v75))
theorem k5_off20_inb : ∀ (v75 : BitVec 32) (k5_hw10 : k5_chk10 v75), ∀ a, (k5_off20 v75) a + S1x512.size a ≤ S50000x512.size a := fun v75 k5_hw10 => k5_hw10.1
theorem k5_off42_inb : ∀ (v75 : BitVec 32) (k5_hw10 : k5_chk10 v75), ∀ a, (k5_off42 v75) a + S1x512.size a ≤ S50000x512.size a := fun v75 k5_hw10 => k5_hw10.2

def k5_off43 (v83 : BitVec 32) : Fin 2 → Nat :=
  let c0_i32_122 : BitVec 32 := 0#32
  ![v83.toNat, 0]

def k5_chk11 (v83 : BitVec 32) : Prop :=
  (∀ a, (k5_off22 v83) a + S1x512.size a ≤ S50000x512.size a) ∧
  (∀ a, (k5_off43 v83) a + S1x512.size a ≤ S50000x512.size a)
instance k5_chk11.dec : ∀ (v83 : BitVec 32), Decidable (k5_chk11 v83) := fun v83 => decidable_of_iff' _ (Iff.of_eq (k5_chk11.eq_1 v83))
theorem k5_off22_inb : ∀ (v83 : BitVec 32) (k5_hw11 : k5_chk11 v83), ∀ a, (k5_off22 v83) a + S1x512.size a ≤ S50000x512.size a := fun v83 k5_hw11 => k5_hw11.1
theorem k5_off43_inb : ∀ (v83 : BitVec 32) (k5_hw11 : k5_chk11 v83), ∀ a, (k5_off43 v83) a + S1x512.size a ≤ S50000x512.size a := fun v83 k5_hw11 => k5_hw11.2

def k5_off44 (v91 : BitVec 32) : Fin 2 → Nat :=
  let c0_i32_126 : BitVec 32 := 0#32
  ![v91.toNat, 0]

def k5_chk12 (v91 : BitVec 32) : Prop :=
  (∀ a, (k5_off24 v91) a + S1x512.size a ≤ S50000x512.size a) ∧
  (∀ a, (k5_off44 v91) a + S1x512.size a ≤ S50000x512.size a)
instance k5_chk12.dec : ∀ (v91 : BitVec 32), Decidable (k5_chk12 v91) := fun v91 => decidable_of_iff' _ (Iff.of_eq (k5_chk12.eq_1 v91))
theorem k5_off24_inb : ∀ (v91 : BitVec 32) (k5_hw12 : k5_chk12 v91), ∀ a, (k5_off24 v91) a + S1x512.size a ≤ S50000x512.size a := fun v91 k5_hw12 => k5_hw12.1
theorem k5_off44_inb : ∀ (v91 : BitVec 32) (k5_hw12 : k5_chk12 v91), ∀ a, (k5_off44 v91) a + S1x512.size a ≤ S50000x512.size a := fun v91 k5_hw12 => k5_hw12.2

def k5_off45 (v99 : BitVec 32) : Fin 2 → Nat :=
  let c0_i32_130 : BitVec 32 := 0#32
  ![v99.toNat, 0]

def k5_chk13 (v99 : BitVec 32) : Prop :=
  (∀ a, (k5_off26 v99) a + S1x512.size a ≤ S50000x512.size a) ∧
  (∀ a, (k5_off45 v99) a + S1x512.size a ≤ S50000x512.size a)
instance k5_chk13.dec : ∀ (v99 : BitVec 32), Decidable (k5_chk13 v99) := fun v99 => decidable_of_iff' _ (Iff.of_eq (k5_chk13.eq_1 v99))
theorem k5_off26_inb : ∀ (v99 : BitVec 32) (k5_hw13 : k5_chk13 v99), ∀ a, (k5_off26 v99) a + S1x512.size a ≤ S50000x512.size a := fun v99 k5_hw13 => k5_hw13.1
theorem k5_off45_inb : ∀ (v99 : BitVec 32) (k5_hw13 : k5_chk13 v99), ∀ a, (k5_off45 v99) a + S1x512.size a ≤ S50000x512.size a := fun v99 k5_hw13 => k5_hw13.2

def k5_off46 (v107 : BitVec 32) : Fin 2 → Nat :=
  let c0_i32_134 : BitVec 32 := 0#32
  ![v107.toNat, 0]

def k5_chk14 (v107 : BitVec 32) : Prop :=
  (∀ a, (k5_off28 v107) a + S1x512.size a ≤ S50000x512.size a) ∧
  (∀ a, (k5_off46 v107) a + S1x512.size a ≤ S50000x512.size a)
instance k5_chk14.dec : ∀ (v107 : BitVec 32), Decidable (k5_chk14 v107) := fun v107 => decidable_of_iff' _ (Iff.of_eq (k5_chk14.eq_1 v107))
theorem k5_off28_inb : ∀ (v107 : BitVec 32) (k5_hw14 : k5_chk14 v107), ∀ a, (k5_off28 v107) a + S1x512.size a ≤ S50000x512.size a := fun v107 k5_hw14 => k5_hw14.1
theorem k5_off46_inb : ∀ (v107 : BitVec 32) (k5_hw14 : k5_chk14 v107), ∀ a, (k5_off46 v107) a + S1x512.size a ≤ S50000x512.size a := fun v107 k5_hw14 => k5_hw14.2

def k5_off47 (v115 : BitVec 32) : Fin 2 → Nat :=
  let c0_i32_138 : BitVec 32 := 0#32
  ![v115.toNat, 0]

def k5_chk15 (v115 : BitVec 32) : Prop :=
  (∀ a, (k5_off30 v115) a + S1x512.size a ≤ S50000x512.size a) ∧
  (∀ a, (k5_off47 v115) a + S1x512.size a ≤ S50000x512.size a)
instance k5_chk15.dec : ∀ (v115 : BitVec 32), Decidable (k5_chk15 v115) := fun v115 => decidable_of_iff' _ (Iff.of_eq (k5_chk15.eq_1 v115))
theorem k5_off30_inb : ∀ (v115 : BitVec 32) (k5_hw15 : k5_chk15 v115), ∀ a, (k5_off30 v115) a + S1x512.size a ≤ S50000x512.size a := fun v115 k5_hw15 => k5_hw15.1
theorem k5_off47_inb : ∀ (v115 : BitVec 32) (k5_hw15 : k5_chk15 v115), ∀ a, (k5_off47 v115) a + S1x512.size a ≤ S50000x512.size a := fun v115 k5_hw15 => k5_hw15.2

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S16x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![3125], ![false]⟩

abbrev pre6 : Pipeline.Prefetch sig := ⟨1, ![main_v51.idx], fun | 0 => main_v51.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k6_off2 (v3 : BitVec 32) : Fin 2 → Nat :=
  let c0_i32_3 : BitVec 32 := 0#32
  ![v3.toNat, 0]

def k6_off3 (i : grid6.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k6_off4 (v11 : BitVec 32) : Fin 2 → Nat :=
  let c0_i32_8 : BitVec 32 := 0#32
  ![v11.toNat, 0]

def k6_off5 (i : grid6.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k6_off6 (v19 : BitVec 32) : Fin 2 → Nat :=
  let c0_i32_13 : BitVec 32 := 0#32
  ![v19.toNat, 0]

def k6_off7 (i : grid6.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k6_off8 (v27 : BitVec 32) : Fin 2 → Nat :=
  let c0_i32_18 : BitVec 32 := 0#32
  ![v27.toNat, 0]

def k6_off9 (i : grid6.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k6_off10 (v35 : BitVec 32) : Fin 2 → Nat :=
  let c0_i32_23 : BitVec 32 := 0#32
  ![v35.toNat, 0]

def k6_off11 (i : grid6.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k6_off12 (v43 : BitVec 32) : Fin 2 → Nat :=
  let c0_i32_28 : BitVec 32 := 0#32
  ![v43.toNat, 0]

def k6_off13 (i : grid6.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k6_off14 (v51 : BitVec 32) : Fin 2 → Nat :=
  let c0_i32_33 : BitVec 32 := 0#32
  ![v51.toNat, 0]

def k6_off15 (i : grid6.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k6_off16 (v59 : BitVec 32) : Fin 2 → Nat :=
  let c0_i32_38 : BitVec 32 := 0#32
  ![v59.toNat, 0]

def k6_off17 (i : grid6.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k6_off18 (v67 : BitVec 32) : Fin 2 → Nat :=
  let c0_i32_43 : BitVec 32 := 0#32
  ![v67.toNat, 0]

def k6_off19 (i : grid6.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k6_off20 (v75 : BitVec 32) : Fin 2 → Nat :=
  let c0_i32_48 : BitVec 32 := 0#32
  ![v75.toNat, 0]

def k6_off21 (i : grid6.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k6_off22 (v83 : BitVec 32) : Fin 2 → Nat :=
  let c0_i32_53 : BitVec 32 := 0#32
  ![v83.toNat, 0]

def k6_off23 (i : grid6.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k6_off24 (v91 : BitVec 32) : Fin 2 → Nat :=
  let c0_i32_58 : BitVec 32 := 0#32
  ![v91.toNat, 0]

def k6_off25 (i : grid6.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k6_off26 (v99 : BitVec 32) : Fin 2 → Nat :=
  let c0_i32_63 : BitVec 32 := 0#32
  ![v99.toNat, 0]

def k6_off27 (i : grid6.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k6_off28 (v107 : BitVec 32) : Fin 2 → Nat :=
  let c0_i32_68 : BitVec 32 := 0#32
  ![v107.toNat, 0]

def k6_off29 (i : grid6.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k6_off30 (v115 : BitVec 32) : Fin 2 → Nat :=
  let c0_i32_73 : BitVec 32 := 0#32
  ![v115.toNat, 0]

def k6_off31 (i : grid6.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k6_off32 (v123 : BitVec 32) : Fin 2 → Nat :=
  let c0_i32_78 : BitVec 32 := 0#32
  ![v123.toNat, 0]

def k6_chk16 (v123 : BitVec 32) : Prop :=
  (∀ a, (k6_off32 v123) a + S1x512.size a ≤ S50000x512.size a)
instance k6_chk16.dec : ∀ (v123 : BitVec 32), Decidable (k6_chk16 v123) := fun v123 => decidable_of_iff' _ (Iff.of_eq (k6_chk16.eq_1 v123))
theorem k6_off32_inb : ∀ (v123 : BitVec 32) (k6_hw16 : k6_chk16 v123), ∀ a, (k6_off32 v123) a + S1x512.size a ≤ S50000x512.size a := fun v123 k6_hw16 => k6_hw16

def k6_off33 (v3 : BitVec 32) : Fin 2 → Nat :=
  let c0_i32_82 : BitVec 32 := 0#32
  ![v3.toNat, 0]

def k6_chk1 (v3 : BitVec 32) : Prop :=
  (∀ a, (k6_off2 v3) a + S1x512.size a ≤ S50000x512.size a) ∧
  (∀ a, (k6_off33 v3) a + S1x512.size a ≤ S50000x512.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x512.size a ≤ S50000x512.size a := fun v3 k6_hw1 => k6_hw1.1
theorem k6_off33_inb : ∀ (v3 : BitVec 32) (k6_hw1 : k6_chk1 v3), ∀ a, (k6_off33 v3) a + S1x512.size a ≤ S50000x512.size a := fun v3 k6_hw1 => k6_hw1.2

def k6_off34 (v11 : BitVec 32) : Fin 2 → Nat :=
  let c0_i32_86 : BitVec 32 := 0#32
  ![v11.toNat, 0]

def k6_chk2 (v11 : BitVec 32) : Prop :=
  (∀ a, (k6_off4 v11) a + S1x512.size a ≤ S50000x512.size a) ∧
  (∀ a, (k6_off34 v11) a + S1x512.size a ≤ S50000x512.size a)
instance k6_chk2.dec : ∀ (v11 : BitVec 32), Decidable (k6_chk2 v11) := fun v11 => decidable_of_iff' _ (Iff.of_eq (k6_chk2.eq_1 v11))
theorem k6_off4_inb : ∀ (v11 : BitVec 32) (k6_hw2 : k6_chk2 v11), ∀ a, (k6_off4 v11) a + S1x512.size a ≤ S50000x512.size a := fun v11 k6_hw2 => k6_hw2.1
theorem k6_off34_inb : ∀ (v11 : BitVec 32) (k6_hw2 : k6_chk2 v11), ∀ a, (k6_off34 v11) a + S1x512.size a ≤ S50000x512.size a := fun v11 k6_hw2 => k6_hw2.2

def k6_off35 (v19 : BitVec 32) : Fin 2 → Nat :=
  let c0_i32_90 : BitVec 32 := 0#32
  ![v19.toNat, 0]

def k6_chk3 (v19 : BitVec 32) : Prop :=
  (∀ a, (k6_off6 v19) a + S1x512.size a ≤ S50000x512.size a) ∧
  (∀ a, (k6_off35 v19) a + S1x512.size a ≤ S50000x512.size a)
instance k6_chk3.dec : ∀ (v19 : BitVec 32), Decidable (k6_chk3 v19) := fun v19 => decidable_of_iff' _ (Iff.of_eq (k6_chk3.eq_1 v19))
theorem k6_off6_inb : ∀ (v19 : BitVec 32) (k6_hw3 : k6_chk3 v19), ∀ a, (k6_off6 v19) a + S1x512.size a ≤ S50000x512.size a := fun v19 k6_hw3 => k6_hw3.1
theorem k6_off35_inb : ∀ (v19 : BitVec 32) (k6_hw3 : k6_chk3 v19), ∀ a, (k6_off35 v19) a + S1x512.size a ≤ S50000x512.size a := fun v19 k6_hw3 => k6_hw3.2

def k6_off36 (v27 : BitVec 32) : Fin 2 → Nat :=
  let c0_i32_94 : BitVec 32 := 0#32
  ![v27.toNat, 0]

def k6_chk4 (v27 : BitVec 32) : Prop :=
  (∀ a, (k6_off8 v27) a + S1x512.size a ≤ S50000x512.size a) ∧
  (∀ a, (k6_off36 v27) a + S1x512.size a ≤ S50000x512.size a)
instance k6_chk4.dec : ∀ (v27 : BitVec 32), Decidable (k6_chk4 v27) := fun v27 => decidable_of_iff' _ (Iff.of_eq (k6_chk4.eq_1 v27))
theorem k6_off8_inb : ∀ (v27 : BitVec 32) (k6_hw4 : k6_chk4 v27), ∀ a, (k6_off8 v27) a + S1x512.size a ≤ S50000x512.size a := fun v27 k6_hw4 => k6_hw4.1
theorem k6_off36_inb : ∀ (v27 : BitVec 32) (k6_hw4 : k6_chk4 v27), ∀ a, (k6_off36 v27) a + S1x512.size a ≤ S50000x512.size a := fun v27 k6_hw4 => k6_hw4.2

def k6_off37 (v35 : BitVec 32) : Fin 2 → Nat :=
  let c0_i32_98 : BitVec 32 := 0#32
  ![v35.toNat, 0]

def k6_chk5 (v35 : BitVec 32) : Prop :=
  (∀ a, (k6_off10 v35) a + S1x512.size a ≤ S50000x512.size a) ∧
  (∀ a, (k6_off37 v35) a + S1x512.size a ≤ S50000x512.size a)
instance k6_chk5.dec : ∀ (v35 : BitVec 32), Decidable (k6_chk5 v35) := fun v35 => decidable_of_iff' _ (Iff.of_eq (k6_chk5.eq_1 v35))
theorem k6_off10_inb : ∀ (v35 : BitVec 32) (k6_hw5 : k6_chk5 v35), ∀ a, (k6_off10 v35) a + S1x512.size a ≤ S50000x512.size a := fun v35 k6_hw5 => k6_hw5.1
theorem k6_off37_inb : ∀ (v35 : BitVec 32) (k6_hw5 : k6_chk5 v35), ∀ a, (k6_off37 v35) a + S1x512.size a ≤ S50000x512.size a := fun v35 k6_hw5 => k6_hw5.2

def k6_off38 (v43 : BitVec 32) : Fin 2 → Nat :=
  let c0_i32_102 : BitVec 32 := 0#32
  ![v43.toNat, 0]

def k6_chk6 (v43 : BitVec 32) : Prop :=
  (∀ a, (k6_off12 v43) a + S1x512.size a ≤ S50000x512.size a) ∧
  (∀ a, (k6_off38 v43) a + S1x512.size a ≤ S50000x512.size a)
instance k6_chk6.dec : ∀ (v43 : BitVec 32), Decidable (k6_chk6 v43) := fun v43 => decidable_of_iff' _ (Iff.of_eq (k6_chk6.eq_1 v43))
theorem k6_off12_inb : ∀ (v43 : BitVec 32) (k6_hw6 : k6_chk6 v43), ∀ a, (k6_off12 v43) a + S1x512.size a ≤ S50000x512.size a := fun v43 k6_hw6 => k6_hw6.1
theorem k6_off38_inb : ∀ (v43 : BitVec 32) (k6_hw6 : k6_chk6 v43), ∀ a, (k6_off38 v43) a + S1x512.size a ≤ S50000x512.size a := fun v43 k6_hw6 => k6_hw6.2

def k6_off39 (v51 : BitVec 32) : Fin 2 → Nat :=
  let c0_i32_106 : BitVec 32 := 0#32
  ![v51.toNat, 0]

def k6_chk7 (v51 : BitVec 32) : Prop :=
  (∀ a, (k6_off14 v51) a + S1x512.size a ≤ S50000x512.size a) ∧
  (∀ a, (k6_off39 v51) a + S1x512.size a ≤ S50000x512.size a)
instance k6_chk7.dec : ∀ (v51 : BitVec 32), Decidable (k6_chk7 v51) := fun v51 => decidable_of_iff' _ (Iff.of_eq (k6_chk7.eq_1 v51))
theorem k6_off14_inb : ∀ (v51 : BitVec 32) (k6_hw7 : k6_chk7 v51), ∀ a, (k6_off14 v51) a + S1x512.size a ≤ S50000x512.size a := fun v51 k6_hw7 => k6_hw7.1
theorem k6_off39_inb : ∀ (v51 : BitVec 32) (k6_hw7 : k6_chk7 v51), ∀ a, (k6_off39 v51) a + S1x512.size a ≤ S50000x512.size a := fun v51 k6_hw7 => k6_hw7.2

def k6_off40 (v59 : BitVec 32) : Fin 2 → Nat :=
  let c0_i32_110 : BitVec 32 := 0#32
  ![v59.toNat, 0]

def k6_chk8 (v59 : BitVec 32) : Prop :=
  (∀ a, (k6_off16 v59) a + S1x512.size a ≤ S50000x512.size a) ∧
  (∀ a, (k6_off40 v59) a + S1x512.size a ≤ S50000x512.size a)
instance k6_chk8.dec : ∀ (v59 : BitVec 32), Decidable (k6_chk8 v59) := fun v59 => decidable_of_iff' _ (Iff.of_eq (k6_chk8.eq_1 v59))
theorem k6_off16_inb : ∀ (v59 : BitVec 32) (k6_hw8 : k6_chk8 v59), ∀ a, (k6_off16 v59) a + S1x512.size a ≤ S50000x512.size a := fun v59 k6_hw8 => k6_hw8.1
theorem k6_off40_inb : ∀ (v59 : BitVec 32) (k6_hw8 : k6_chk8 v59), ∀ a, (k6_off40 v59) a + S1x512.size a ≤ S50000x512.size a := fun v59 k6_hw8 => k6_hw8.2

def k6_off41 (v67 : BitVec 32) : Fin 2 → Nat :=
  let c0_i32_114 : BitVec 32 := 0#32
  ![v67.toNat, 0]

def k6_chk9 (v67 : BitVec 32) : Prop :=
  (∀ a, (k6_off18 v67) a + S1x512.size a ≤ S50000x512.size a) ∧
  (∀ a, (k6_off41 v67) a + S1x512.size a ≤ S50000x512.size a)
instance k6_chk9.dec : ∀ (v67 : BitVec 32), Decidable (k6_chk9 v67) := fun v67 => decidable_of_iff' _ (Iff.of_eq (k6_chk9.eq_1 v67))
theorem k6_off18_inb : ∀ (v67 : BitVec 32) (k6_hw9 : k6_chk9 v67), ∀ a, (k6_off18 v67) a + S1x512.size a ≤ S50000x512.size a := fun v67 k6_hw9 => k6_hw9.1
theorem k6_off41_inb : ∀ (v67 : BitVec 32) (k6_hw9 : k6_chk9 v67), ∀ a, (k6_off41 v67) a + S1x512.size a ≤ S50000x512.size a := fun v67 k6_hw9 => k6_hw9.2

def k6_off42 (v75 : BitVec 32) : Fin 2 → Nat :=
  let c0_i32_118 : BitVec 32 := 0#32
  ![v75.toNat, 0]

def k6_chk10 (v75 : BitVec 32) : Prop :=
  (∀ a, (k6_off20 v75) a + S1x512.size a ≤ S50000x512.size a) ∧
  (∀ a, (k6_off42 v75) a + S1x512.size a ≤ S50000x512.size a)
instance k6_chk10.dec : ∀ (v75 : BitVec 32), Decidable (k6_chk10 v75) := fun v75 => decidable_of_iff' _ (Iff.of_eq (k6_chk10.eq_1 v75))
theorem k6_off20_inb : ∀ (v75 : BitVec 32) (k6_hw10 : k6_chk10 v75), ∀ a, (k6_off20 v75) a + S1x512.size a ≤ S50000x512.size a := fun v75 k6_hw10 => k6_hw10.1
theorem k6_off42_inb : ∀ (v75 : BitVec 32) (k6_hw10 : k6_chk10 v75), ∀ a, (k6_off42 v75) a + S1x512.size a ≤ S50000x512.size a := fun v75 k6_hw10 => k6_hw10.2

def k6_off43 (v83 : BitVec 32) : Fin 2 → Nat :=
  let c0_i32_122 : BitVec 32 := 0#32
  ![v83.toNat, 0]

def k6_chk11 (v83 : BitVec 32) : Prop :=
  (∀ a, (k6_off22 v83) a + S1x512.size a ≤ S50000x512.size a) ∧
  (∀ a, (k6_off43 v83) a + S1x512.size a ≤ S50000x512.size a)
instance k6_chk11.dec : ∀ (v83 : BitVec 32), Decidable (k6_chk11 v83) := fun v83 => decidable_of_iff' _ (Iff.of_eq (k6_chk11.eq_1 v83))
theorem k6_off22_inb : ∀ (v83 : BitVec 32) (k6_hw11 : k6_chk11 v83), ∀ a, (k6_off22 v83) a + S1x512.size a ≤ S50000x512.size a := fun v83 k6_hw11 => k6_hw11.1
theorem k6_off43_inb : ∀ (v83 : BitVec 32) (k6_hw11 : k6_chk11 v83), ∀ a, (k6_off43 v83) a + S1x512.size a ≤ S50000x512.size a := fun v83 k6_hw11 => k6_hw11.2

def k6_off44 (v91 : BitVec 32) : Fin 2 → Nat :=
  let c0_i32_126 : BitVec 32 := 0#32
  ![v91.toNat, 0]

def k6_chk12 (v91 : BitVec 32) : Prop :=
  (∀ a, (k6_off24 v91) a + S1x512.size a ≤ S50000x512.size a) ∧
  (∀ a, (k6_off44 v91) a + S1x512.size a ≤ S50000x512.size a)
instance k6_chk12.dec : ∀ (v91 : BitVec 32), Decidable (k6_chk12 v91) := fun v91 => decidable_of_iff' _ (Iff.of_eq (k6_chk12.eq_1 v91))
theorem k6_off24_inb : ∀ (v91 : BitVec 32) (k6_hw12 : k6_chk12 v91), ∀ a, (k6_off24 v91) a + S1x512.size a ≤ S50000x512.size a := fun v91 k6_hw12 => k6_hw12.1
theorem k6_off44_inb : ∀ (v91 : BitVec 32) (k6_hw12 : k6_chk12 v91), ∀ a, (k6_off44 v91) a + S1x512.size a ≤ S50000x512.size a := fun v91 k6_hw12 => k6_hw12.2

def k6_off45 (v99 : BitVec 32) : Fin 2 → Nat :=
  let c0_i32_130 : BitVec 32 := 0#32
  ![v99.toNat, 0]

def k6_chk13 (v99 : BitVec 32) : Prop :=
  (∀ a, (k6_off26 v99) a + S1x512.size a ≤ S50000x512.size a) ∧
  (∀ a, (k6_off45 v99) a + S1x512.size a ≤ S50000x512.size a)
instance k6_chk13.dec : ∀ (v99 : BitVec 32), Decidable (k6_chk13 v99) := fun v99 => decidable_of_iff' _ (Iff.of_eq (k6_chk13.eq_1 v99))
theorem k6_off26_inb : ∀ (v99 : BitVec 32) (k6_hw13 : k6_chk13 v99), ∀ a, (k6_off26 v99) a + S1x512.size a ≤ S50000x512.size a := fun v99 k6_hw13 => k6_hw13.1
theorem k6_off45_inb : ∀ (v99 : BitVec 32) (k6_hw13 : k6_chk13 v99), ∀ a, (k6_off45 v99) a + S1x512.size a ≤ S50000x512.size a := fun v99 k6_hw13 => k6_hw13.2

def k6_off46 (v107 : BitVec 32) : Fin 2 → Nat :=
  let c0_i32_134 : BitVec 32 := 0#32
  ![v107.toNat, 0]

def k6_chk14 (v107 : BitVec 32) : Prop :=
  (∀ a, (k6_off28 v107) a + S1x512.size a ≤ S50000x512.size a) ∧
  (∀ a, (k6_off46 v107) a + S1x512.size a ≤ S50000x512.size a)
instance k6_chk14.dec : ∀ (v107 : BitVec 32), Decidable (k6_chk14 v107) := fun v107 => decidable_of_iff' _ (Iff.of_eq (k6_chk14.eq_1 v107))
theorem k6_off28_inb : ∀ (v107 : BitVec 32) (k6_hw14 : k6_chk14 v107), ∀ a, (k6_off28 v107) a + S1x512.size a ≤ S50000x512.size a := fun v107 k6_hw14 => k6_hw14.1
theorem k6_off46_inb : ∀ (v107 : BitVec 32) (k6_hw14 : k6_chk14 v107), ∀ a, (k6_off46 v107) a + S1x512.size a ≤ S50000x512.size a := fun v107 k6_hw14 => k6_hw14.2

def k6_off47 (v115 : BitVec 32) : Fin 2 → Nat :=
  let c0_i32_138 : BitVec 32 := 0#32
  ![v115.toNat, 0]

def k6_chk15 (v115 : BitVec 32) : Prop :=
  (∀ a, (k6_off30 v115) a + S1x512.size a ≤ S50000x512.size a) ∧
  (∀ a, (k6_off47 v115) a + S1x512.size a ≤ S50000x512.size a)
instance k6_chk15.dec : ∀ (v115 : BitVec 32), Decidable (k6_chk15 v115) := fun v115 => decidable_of_iff' _ (Iff.of_eq (k6_chk15.eq_1 v115))
theorem k6_off30_inb : ∀ (v115 : BitVec 32) (k6_hw15 : k6_chk15 v115), ∀ a, (k6_off30 v115) a + S1x512.size a ≤ S50000x512.size a := fun v115 k6_hw15 => k6_hw15.1
theorem k6_off47_inb : ∀ (v115 : BitVec 32) (k6_hw15 : k6_chk15 v115), ∀ a, (k6_off47 v115) a + S1x512.size a ≤ S50000x512.size a := fun v115 k6_hw15 => k6_hw15.2

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S16x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S16x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![3125], ![false]⟩

abbrev pre7 : Pipeline.Prefetch sig := ⟨1, ![main_v54.idx], fun | 0 => main_v54.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k7_off2 (v3 : BitVec 32) : Fin 2 → Nat :=
  let c0_i32_3 : BitVec 32 := 0#32
  ![v3.toNat, 0]

def k7_off3 (i : grid7.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k7_off4 (v11 : BitVec 32) : Fin 2 → Nat :=
  let c0_i32_8 : BitVec 32 := 0#32
  ![v11.toNat, 0]

def k7_off5 (i : grid7.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k7_off6 (v19 : BitVec 32) : Fin 2 → Nat :=
  let c0_i32_13 : BitVec 32 := 0#32
  ![v19.toNat, 0]

def k7_off7 (i : grid7.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k7_off8 (v27 : BitVec 32) : Fin 2 → Nat :=
  let c0_i32_18 : BitVec 32 := 0#32
  ![v27.toNat, 0]

def k7_off9 (i : grid7.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k7_off10 (v35 : BitVec 32) : Fin 2 → Nat :=
  let c0_i32_23 : BitVec 32 := 0#32
  ![v35.toNat, 0]

def k7_off11 (i : grid7.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k7_off12 (v43 : BitVec 32) : Fin 2 → Nat :=
  let c0_i32_28 : BitVec 32 := 0#32
  ![v43.toNat, 0]

def k7_off13 (i : grid7.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k7_off14 (v51 : BitVec 32) : Fin 2 → Nat :=
  let c0_i32_33 : BitVec 32 := 0#32
  ![v51.toNat, 0]

def k7_off15 (i : grid7.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k7_off16 (v59 : BitVec 32) : Fin 2 → Nat :=
  let c0_i32_38 : BitVec 32 := 0#32
  ![v59.toNat, 0]

def k7_off17 (i : grid7.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k7_off18 (v67 : BitVec 32) : Fin 2 → Nat :=
  let c0_i32_43 : BitVec 32 := 0#32
  ![v67.toNat, 0]

def k7_off19 (i : grid7.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k7_off20 (v75 : BitVec 32) : Fin 2 → Nat :=
  let c0_i32_48 : BitVec 32 := 0#32
  ![v75.toNat, 0]

def k7_off21 (i : grid7.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k7_off22 (v83 : BitVec 32) : Fin 2 → Nat :=
  let c0_i32_53 : BitVec 32 := 0#32
  ![v83.toNat, 0]

def k7_off23 (i : grid7.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k7_off24 (v91 : BitVec 32) : Fin 2 → Nat :=
  let c0_i32_58 : BitVec 32 := 0#32
  ![v91.toNat, 0]

def k7_off25 (i : grid7.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k7_off26 (v99 : BitVec 32) : Fin 2 → Nat :=
  let c0_i32_63 : BitVec 32 := 0#32
  ![v99.toNat, 0]

def k7_off27 (i : grid7.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k7_off28 (v107 : BitVec 32) : Fin 2 → Nat :=
  let c0_i32_68 : BitVec 32 := 0#32
  ![v107.toNat, 0]

def k7_off29 (i : grid7.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k7_off30 (v115 : BitVec 32) : Fin 2 → Nat :=
  let c0_i32_73 : BitVec 32 := 0#32
  ![v115.toNat, 0]

def k7_off31 (i : grid7.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k7_off32 (v123 : BitVec 32) : Fin 2 → Nat :=
  let c0_i32_78 : BitVec 32 := 0#32
  ![v123.toNat, 0]

def k7_chk16 (v123 : BitVec 32) : Prop :=
  (∀ a, (k7_off32 v123) a + S1x512.size a ≤ S50000x512.size a)
instance k7_chk16.dec : ∀ (v123 : BitVec 32), Decidable (k7_chk16 v123) := fun v123 => decidable_of_iff' _ (Iff.of_eq (k7_chk16.eq_1 v123))
theorem k7_off32_inb : ∀ (v123 : BitVec 32) (k7_hw16 : k7_chk16 v123), ∀ a, (k7_off32 v123) a + S1x512.size a ≤ S50000x512.size a := fun v123 k7_hw16 => k7_hw16

def k7_off33 (v3 : BitVec 32) : Fin 2 → Nat :=
  let c0_i32_82 : BitVec 32 := 0#32
  ![v3.toNat, 0]

def k7_chk1 (v3 : BitVec 32) : Prop :=
  (∀ a, (k7_off2 v3) a + S1x512.size a ≤ S50000x512.size a) ∧
  (∀ a, (k7_off33 v3) a + S1x512.size a ≤ S50000x512.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x512.size a ≤ S50000x512.size a := fun v3 k7_hw1 => k7_hw1.1
theorem k7_off33_inb : ∀ (v3 : BitVec 32) (k7_hw1 : k7_chk1 v3), ∀ a, (k7_off33 v3) a + S1x512.size a ≤ S50000x512.size a := fun v3 k7_hw1 => k7_hw1.2

def k7_off34 (v11 : BitVec 32) : Fin 2 → Nat :=
  let c0_i32_86 : BitVec 32 := 0#32
  ![v11.toNat, 0]

def k7_chk2 (v11 : BitVec 32) : Prop :=
  (∀ a, (k7_off4 v11) a + S1x512.size a ≤ S50000x512.size a) ∧
  (∀ a, (k7_off34 v11) a + S1x512.size a ≤ S50000x512.size a)
instance k7_chk2.dec : ∀ (v11 : BitVec 32), Decidable (k7_chk2 v11) := fun v11 => decidable_of_iff' _ (Iff.of_eq (k7_chk2.eq_1 v11))
theorem k7_off4_inb : ∀ (v11 : BitVec 32) (k7_hw2 : k7_chk2 v11), ∀ a, (k7_off4 v11) a + S1x512.size a ≤ S50000x512.size a := fun v11 k7_hw2 => k7_hw2.1
theorem k7_off34_inb : ∀ (v11 : BitVec 32) (k7_hw2 : k7_chk2 v11), ∀ a, (k7_off34 v11) a + S1x512.size a ≤ S50000x512.size a := fun v11 k7_hw2 => k7_hw2.2

def k7_off35 (v19 : BitVec 32) : Fin 2 → Nat :=
  let c0_i32_90 : BitVec 32 := 0#32
  ![v19.toNat, 0]

def k7_chk3 (v19 : BitVec 32) : Prop :=
  (∀ a, (k7_off6 v19) a + S1x512.size a ≤ S50000x512.size a) ∧
  (∀ a, (k7_off35 v19) a + S1x512.size a ≤ S50000x512.size a)
instance k7_chk3.dec : ∀ (v19 : BitVec 32), Decidable (k7_chk3 v19) := fun v19 => decidable_of_iff' _ (Iff.of_eq (k7_chk3.eq_1 v19))
theorem k7_off6_inb : ∀ (v19 : BitVec 32) (k7_hw3 : k7_chk3 v19), ∀ a, (k7_off6 v19) a + S1x512.size a ≤ S50000x512.size a := fun v19 k7_hw3 => k7_hw3.1
theorem k7_off35_inb : ∀ (v19 : BitVec 32) (k7_hw3 : k7_chk3 v19), ∀ a, (k7_off35 v19) a + S1x512.size a ≤ S50000x512.size a := fun v19 k7_hw3 => k7_hw3.2

def k7_off36 (v27 : BitVec 32) : Fin 2 → Nat :=
  let c0_i32_94 : BitVec 32 := 0#32
  ![v27.toNat, 0]

def k7_chk4 (v27 : BitVec 32) : Prop :=
  (∀ a, (k7_off8 v27) a + S1x512.size a ≤ S50000x512.size a) ∧
  (∀ a, (k7_off36 v27) a + S1x512.size a ≤ S50000x512.size a)
instance k7_chk4.dec : ∀ (v27 : BitVec 32), Decidable (k7_chk4 v27) := fun v27 => decidable_of_iff' _ (Iff.of_eq (k7_chk4.eq_1 v27))
theorem k7_off8_inb : ∀ (v27 : BitVec 32) (k7_hw4 : k7_chk4 v27), ∀ a, (k7_off8 v27) a + S1x512.size a ≤ S50000x512.size a := fun v27 k7_hw4 => k7_hw4.1
theorem k7_off36_inb : ∀ (v27 : BitVec 32) (k7_hw4 : k7_chk4 v27), ∀ a, (k7_off36 v27) a + S1x512.size a ≤ S50000x512.size a := fun v27 k7_hw4 => k7_hw4.2

def k7_off37 (v35 : BitVec 32) : Fin 2 → Nat :=
  let c0_i32_98 : BitVec 32 := 0#32
  ![v35.toNat, 0]

def k7_chk5 (v35 : BitVec 32) : Prop :=
  (∀ a, (k7_off10 v35) a + S1x512.size a ≤ S50000x512.size a) ∧
  (∀ a, (k7_off37 v35) a + S1x512.size a ≤ S50000x512.size a)
instance k7_chk5.dec : ∀ (v35 : BitVec 32), Decidable (k7_chk5 v35) := fun v35 => decidable_of_iff' _ (Iff.of_eq (k7_chk5.eq_1 v35))
theorem k7_off10_inb : ∀ (v35 : BitVec 32) (k7_hw5 : k7_chk5 v35), ∀ a, (k7_off10 v35) a + S1x512.size a ≤ S50000x512.size a := fun v35 k7_hw5 => k7_hw5.1
theorem k7_off37_inb : ∀ (v35 : BitVec 32) (k7_hw5 : k7_chk5 v35), ∀ a, (k7_off37 v35) a + S1x512.size a ≤ S50000x512.size a := fun v35 k7_hw5 => k7_hw5.2

def k7_off38 (v43 : BitVec 32) : Fin 2 → Nat :=
  let c0_i32_102 : BitVec 32 := 0#32
  ![v43.toNat, 0]

def k7_chk6 (v43 : BitVec 32) : Prop :=
  (∀ a, (k7_off12 v43) a + S1x512.size a ≤ S50000x512.size a) ∧
  (∀ a, (k7_off38 v43) a + S1x512.size a ≤ S50000x512.size a)
instance k7_chk6.dec : ∀ (v43 : BitVec 32), Decidable (k7_chk6 v43) := fun v43 => decidable_of_iff' _ (Iff.of_eq (k7_chk6.eq_1 v43))
theorem k7_off12_inb : ∀ (v43 : BitVec 32) (k7_hw6 : k7_chk6 v43), ∀ a, (k7_off12 v43) a + S1x512.size a ≤ S50000x512.size a := fun v43 k7_hw6 => k7_hw6.1
theorem k7_off38_inb : ∀ (v43 : BitVec 32) (k7_hw6 : k7_chk6 v43), ∀ a, (k7_off38 v43) a + S1x512.size a ≤ S50000x512.size a := fun v43 k7_hw6 => k7_hw6.2

def k7_off39 (v51 : BitVec 32) : Fin 2 → Nat :=
  let c0_i32_106 : BitVec 32 := 0#32
  ![v51.toNat, 0]

def k7_chk7 (v51 : BitVec 32) : Prop :=
  (∀ a, (k7_off14 v51) a + S1x512.size a ≤ S50000x512.size a) ∧
  (∀ a, (k7_off39 v51) a + S1x512.size a ≤ S50000x512.size a)
instance k7_chk7.dec : ∀ (v51 : BitVec 32), Decidable (k7_chk7 v51) := fun v51 => decidable_of_iff' _ (Iff.of_eq (k7_chk7.eq_1 v51))
theorem k7_off14_inb : ∀ (v51 : BitVec 32) (k7_hw7 : k7_chk7 v51), ∀ a, (k7_off14 v51) a + S1x512.size a ≤ S50000x512.size a := fun v51 k7_hw7 => k7_hw7.1
theorem k7_off39_inb : ∀ (v51 : BitVec 32) (k7_hw7 : k7_chk7 v51), ∀ a, (k7_off39 v51) a + S1x512.size a ≤ S50000x512.size a := fun v51 k7_hw7 => k7_hw7.2

def k7_off40 (v59 : BitVec 32) : Fin 2 → Nat :=
  let c0_i32_110 : BitVec 32 := 0#32
  ![v59.toNat, 0]

def k7_chk8 (v59 : BitVec 32) : Prop :=
  (∀ a, (k7_off16 v59) a + S1x512.size a ≤ S50000x512.size a) ∧
  (∀ a, (k7_off40 v59) a + S1x512.size a ≤ S50000x512.size a)
instance k7_chk8.dec : ∀ (v59 : BitVec 32), Decidable (k7_chk8 v59) := fun v59 => decidable_of_iff' _ (Iff.of_eq (k7_chk8.eq_1 v59))
theorem k7_off16_inb : ∀ (v59 : BitVec 32) (k7_hw8 : k7_chk8 v59), ∀ a, (k7_off16 v59) a + S1x512.size a ≤ S50000x512.size a := fun v59 k7_hw8 => k7_hw8.1
theorem k7_off40_inb : ∀ (v59 : BitVec 32) (k7_hw8 : k7_chk8 v59), ∀ a, (k7_off40 v59) a + S1x512.size a ≤ S50000x512.size a := fun v59 k7_hw8 => k7_hw8.2

def k7_off41 (v67 : BitVec 32) : Fin 2 → Nat :=
  let c0_i32_114 : BitVec 32 := 0#32
  ![v67.toNat, 0]

def k7_chk9 (v67 : BitVec 32) : Prop :=
  (∀ a, (k7_off18 v67) a + S1x512.size a ≤ S50000x512.size a) ∧
  (∀ a, (k7_off41 v67) a + S1x512.size a ≤ S50000x512.size a)
instance k7_chk9.dec : ∀ (v67 : BitVec 32), Decidable (k7_chk9 v67) := fun v67 => decidable_of_iff' _ (Iff.of_eq (k7_chk9.eq_1 v67))
theorem k7_off18_inb : ∀ (v67 : BitVec 32) (k7_hw9 : k7_chk9 v67), ∀ a, (k7_off18 v67) a + S1x512.size a ≤ S50000x512.size a := fun v67 k7_hw9 => k7_hw9.1
theorem k7_off41_inb : ∀ (v67 : BitVec 32) (k7_hw9 : k7_chk9 v67), ∀ a, (k7_off41 v67) a + S1x512.size a ≤ S50000x512.size a := fun v67 k7_hw9 => k7_hw9.2

def k7_off42 (v75 : BitVec 32) : Fin 2 → Nat :=
  let c0_i32_118 : BitVec 32 := 0#32
  ![v75.toNat, 0]

def k7_chk10 (v75 : BitVec 32) : Prop :=
  (∀ a, (k7_off20 v75) a + S1x512.size a ≤ S50000x512.size a) ∧
  (∀ a, (k7_off42 v75) a + S1x512.size a ≤ S50000x512.size a)
instance k7_chk10.dec : ∀ (v75 : BitVec 32), Decidable (k7_chk10 v75) := fun v75 => decidable_of_iff' _ (Iff.of_eq (k7_chk10.eq_1 v75))
theorem k7_off20_inb : ∀ (v75 : BitVec 32) (k7_hw10 : k7_chk10 v75), ∀ a, (k7_off20 v75) a + S1x512.size a ≤ S50000x512.size a := fun v75 k7_hw10 => k7_hw10.1
theorem k7_off42_inb : ∀ (v75 : BitVec 32) (k7_hw10 : k7_chk10 v75), ∀ a, (k7_off42 v75) a + S1x512.size a ≤ S50000x512.size a := fun v75 k7_hw10 => k7_hw10.2

def k7_off43 (v83 : BitVec 32) : Fin 2 → Nat :=
  let c0_i32_122 : BitVec 32 := 0#32
  ![v83.toNat, 0]

def k7_chk11 (v83 : BitVec 32) : Prop :=
  (∀ a, (k7_off22 v83) a + S1x512.size a ≤ S50000x512.size a) ∧
  (∀ a, (k7_off43 v83) a + S1x512.size a ≤ S50000x512.size a)
instance k7_chk11.dec : ∀ (v83 : BitVec 32), Decidable (k7_chk11 v83) := fun v83 => decidable_of_iff' _ (Iff.of_eq (k7_chk11.eq_1 v83))
theorem k7_off22_inb : ∀ (v83 : BitVec 32) (k7_hw11 : k7_chk11 v83), ∀ a, (k7_off22 v83) a + S1x512.size a ≤ S50000x512.size a := fun v83 k7_hw11 => k7_hw11.1
theorem k7_off43_inb : ∀ (v83 : BitVec 32) (k7_hw11 : k7_chk11 v83), ∀ a, (k7_off43 v83) a + S1x512.size a ≤ S50000x512.size a := fun v83 k7_hw11 => k7_hw11.2

def k7_off44 (v91 : BitVec 32) : Fin 2 → Nat :=
  let c0_i32_126 : BitVec 32 := 0#32
  ![v91.toNat, 0]

def k7_chk12 (v91 : BitVec 32) : Prop :=
  (∀ a, (k7_off24 v91) a + S1x512.size a ≤ S50000x512.size a) ∧
  (∀ a, (k7_off44 v91) a + S1x512.size a ≤ S50000x512.size a)
instance k7_chk12.dec : ∀ (v91 : BitVec 32), Decidable (k7_chk12 v91) := fun v91 => decidable_of_iff' _ (Iff.of_eq (k7_chk12.eq_1 v91))
theorem k7_off24_inb : ∀ (v91 : BitVec 32) (k7_hw12 : k7_chk12 v91), ∀ a, (k7_off24 v91) a + S1x512.size a ≤ S50000x512.size a := fun v91 k7_hw12 => k7_hw12.1
theorem k7_off44_inb : ∀ (v91 : BitVec 32) (k7_hw12 : k7_chk12 v91), ∀ a, (k7_off44 v91) a + S1x512.size a ≤ S50000x512.size a := fun v91 k7_hw12 => k7_hw12.2

def k7_off45 (v99 : BitVec 32) : Fin 2 → Nat :=
  let c0_i32_130 : BitVec 32 := 0#32
  ![v99.toNat, 0]

def k7_chk13 (v99 : BitVec 32) : Prop :=
  (∀ a, (k7_off26 v99) a + S1x512.size a ≤ S50000x512.size a) ∧
  (∀ a, (k7_off45 v99) a + S1x512.size a ≤ S50000x512.size a)
instance k7_chk13.dec : ∀ (v99 : BitVec 32), Decidable (k7_chk13 v99) := fun v99 => decidable_of_iff' _ (Iff.of_eq (k7_chk13.eq_1 v99))
theorem k7_off26_inb : ∀ (v99 : BitVec 32) (k7_hw13 : k7_chk13 v99), ∀ a, (k7_off26 v99) a + S1x512.size a ≤ S50000x512.size a := fun v99 k7_hw13 => k7_hw13.1
theorem k7_off45_inb : ∀ (v99 : BitVec 32) (k7_hw13 : k7_chk13 v99), ∀ a, (k7_off45 v99) a + S1x512.size a ≤ S50000x512.size a := fun v99 k7_hw13 => k7_hw13.2

def k7_off46 (v107 : BitVec 32) : Fin 2 → Nat :=
  let c0_i32_134 : BitVec 32 := 0#32
  ![v107.toNat, 0]

def k7_chk14 (v107 : BitVec 32) : Prop :=
  (∀ a, (k7_off28 v107) a + S1x512.size a ≤ S50000x512.size a) ∧
  (∀ a, (k7_off46 v107) a + S1x512.size a ≤ S50000x512.size a)
instance k7_chk14.dec : ∀ (v107 : BitVec 32), Decidable (k7_chk14 v107) := fun v107 => decidable_of_iff' _ (Iff.of_eq (k7_chk14.eq_1 v107))
theorem k7_off28_inb : ∀ (v107 : BitVec 32) (k7_hw14 : k7_chk14 v107), ∀ a, (k7_off28 v107) a + S1x512.size a ≤ S50000x512.size a := fun v107 k7_hw14 => k7_hw14.1
theorem k7_off46_inb : ∀ (v107 : BitVec 32) (k7_hw14 : k7_chk14 v107), ∀ a, (k7_off46 v107) a + S1x512.size a ≤ S50000x512.size a := fun v107 k7_hw14 => k7_hw14.2

def k7_off47 (v115 : BitVec 32) : Fin 2 → Nat :=
  let c0_i32_138 : BitVec 32 := 0#32
  ![v115.toNat, 0]

def k7_chk15 (v115 : BitVec 32) : Prop :=
  (∀ a, (k7_off30 v115) a + S1x512.size a ≤ S50000x512.size a) ∧
  (∀ a, (k7_off47 v115) a + S1x512.size a ≤ S50000x512.size a)
instance k7_chk15.dec : ∀ (v115 : BitVec 32), Decidable (k7_chk15 v115) := fun v115 => decidable_of_iff' _ (Iff.of_eq (k7_chk15.eq_1 v115))
theorem k7_off30_inb : ∀ (v115 : BitVec 32) (k7_hw15 : k7_chk15 v115), ∀ a, (k7_off30 v115) a + S1x512.size a ≤ S50000x512.size a := fun v115 k7_hw15 => k7_hw15.1
theorem k7_off47_inb : ∀ (v115 : BitVec 32) (k7_hw15 : k7_chk15 v115), ∀ a, (k7_off47 v115) a + S1x512.size a ≤ S50000x512.size a := fun v115 k7_hw15 => k7_hw15.2

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S16x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S16x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev grid8 : Pipeline.Grid := ⟨1, ![3125], ![false]⟩

abbrev pre8 : Pipeline.Prefetch sig := ⟨1, ![main_v57.idx], fun | 0 => main_v57.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k8_off2 (v3 : BitVec 32) : Fin 2 → Nat :=
  let c0_i32_3 : BitVec 32 := 0#32
  ![v3.toNat, 0]

def k8_off3 (i : grid8.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k8_off4 (v11 : BitVec 32) : Fin 2 → Nat :=
  let c0_i32_8 : BitVec 32 := 0#32
  ![v11.toNat, 0]

def k8_off5 (i : grid8.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k8_off6 (v19 : BitVec 32) : Fin 2 → Nat :=
  let c0_i32_13 : BitVec 32 := 0#32
  ![v19.toNat, 0]

def k8_off7 (i : grid8.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k8_off8 (v27 : BitVec 32) : Fin 2 → Nat :=
  let c0_i32_18 : BitVec 32 := 0#32
  ![v27.toNat, 0]

def k8_off9 (i : grid8.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k8_off10 (v35 : BitVec 32) : Fin 2 → Nat :=
  let c0_i32_23 : BitVec 32 := 0#32
  ![v35.toNat, 0]

def k8_off11 (i : grid8.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k8_off12 (v43 : BitVec 32) : Fin 2 → Nat :=
  let c0_i32_28 : BitVec 32 := 0#32
  ![v43.toNat, 0]

def k8_off13 (i : grid8.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k8_off14 (v51 : BitVec 32) : Fin 2 → Nat :=
  let c0_i32_33 : BitVec 32 := 0#32
  ![v51.toNat, 0]

def k8_off15 (i : grid8.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k8_off16 (v59 : BitVec 32) : Fin 2 → Nat :=
  let c0_i32_38 : BitVec 32 := 0#32
  ![v59.toNat, 0]

def k8_off17 (i : grid8.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k8_off18 (v67 : BitVec 32) : Fin 2 → Nat :=
  let c0_i32_43 : BitVec 32 := 0#32
  ![v67.toNat, 0]

def k8_off19 (i : grid8.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k8_off20 (v75 : BitVec 32) : Fin 2 → Nat :=
  let c0_i32_48 : BitVec 32 := 0#32
  ![v75.toNat, 0]

def k8_off21 (i : grid8.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k8_off22 (v83 : BitVec 32) : Fin 2 → Nat :=
  let c0_i32_53 : BitVec 32 := 0#32
  ![v83.toNat, 0]

def k8_off23 (i : grid8.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k8_off24 (v91 : BitVec 32) : Fin 2 → Nat :=
  let c0_i32_58 : BitVec 32 := 0#32
  ![v91.toNat, 0]

def k8_off25 (i : grid8.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k8_off26 (v99 : BitVec 32) : Fin 2 → Nat :=
  let c0_i32_63 : BitVec 32 := 0#32
  ![v99.toNat, 0]

def k8_off27 (i : grid8.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k8_off28 (v107 : BitVec 32) : Fin 2 → Nat :=
  let c0_i32_68 : BitVec 32 := 0#32
  ![v107.toNat, 0]

def k8_off29 (i : grid8.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k8_off30 (v115 : BitVec 32) : Fin 2 → Nat :=
  let c0_i32_73 : BitVec 32 := 0#32
  ![v115.toNat, 0]

def k8_off31 (i : grid8.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k8_off32 (v123 : BitVec 32) : Fin 2 → Nat :=
  let c0_i32_78 : BitVec 32 := 0#32
  ![v123.toNat, 0]

def k8_chk16 (v123 : BitVec 32) : Prop :=
  (∀ a, (k8_off32 v123) a + S1x512.size a ≤ S50000x512.size a)
instance k8_chk16.dec : ∀ (v123 : BitVec 32), Decidable (k8_chk16 v123) := fun v123 => decidable_of_iff' _ (Iff.of_eq (k8_chk16.eq_1 v123))
theorem k8_off32_inb : ∀ (v123 : BitVec 32) (k8_hw16 : k8_chk16 v123), ∀ a, (k8_off32 v123) a + S1x512.size a ≤ S50000x512.size a := fun v123 k8_hw16 => k8_hw16

def k8_off33 (v3 : BitVec 32) : Fin 2 → Nat :=
  let c0_i32_82 : BitVec 32 := 0#32
  ![v3.toNat, 0]

def k8_chk1 (v3 : BitVec 32) : Prop :=
  (∀ a, (k8_off2 v3) a + S1x512.size a ≤ S50000x512.size a) ∧
  (∀ a, (k8_off33 v3) a + S1x512.size a ≤ S50000x512.size a)
instance k8_chk1.dec : ∀ (v3 : BitVec 32), Decidable (k8_chk1 v3) := fun v3 => decidable_of_iff' _ (Iff.of_eq (k8_chk1.eq_1 v3))
theorem k8_off2_inb : ∀ (v3 : BitVec 32) (k8_hw1 : k8_chk1 v3), ∀ a, (k8_off2 v3) a + S1x512.size a ≤ S50000x512.size a := fun v3 k8_hw1 => k8_hw1.1
theorem k8_off33_inb : ∀ (v3 : BitVec 32) (k8_hw1 : k8_chk1 v3), ∀ a, (k8_off33 v3) a + S1x512.size a ≤ S50000x512.size a := fun v3 k8_hw1 => k8_hw1.2

def k8_off34 (v11 : BitVec 32) : Fin 2 → Nat :=
  let c0_i32_86 : BitVec 32 := 0#32
  ![v11.toNat, 0]

def k8_chk2 (v11 : BitVec 32) : Prop :=
  (∀ a, (k8_off4 v11) a + S1x512.size a ≤ S50000x512.size a) ∧
  (∀ a, (k8_off34 v11) a + S1x512.size a ≤ S50000x512.size a)
instance k8_chk2.dec : ∀ (v11 : BitVec 32), Decidable (k8_chk2 v11) := fun v11 => decidable_of_iff' _ (Iff.of_eq (k8_chk2.eq_1 v11))
theorem k8_off4_inb : ∀ (v11 : BitVec 32) (k8_hw2 : k8_chk2 v11), ∀ a, (k8_off4 v11) a + S1x512.size a ≤ S50000x512.size a := fun v11 k8_hw2 => k8_hw2.1
theorem k8_off34_inb : ∀ (v11 : BitVec 32) (k8_hw2 : k8_chk2 v11), ∀ a, (k8_off34 v11) a + S1x512.size a ≤ S50000x512.size a := fun v11 k8_hw2 => k8_hw2.2

def k8_off35 (v19 : BitVec 32) : Fin 2 → Nat :=
  let c0_i32_90 : BitVec 32 := 0#32
  ![v19.toNat, 0]

def k8_chk3 (v19 : BitVec 32) : Prop :=
  (∀ a, (k8_off6 v19) a + S1x512.size a ≤ S50000x512.size a) ∧
  (∀ a, (k8_off35 v19) a + S1x512.size a ≤ S50000x512.size a)
instance k8_chk3.dec : ∀ (v19 : BitVec 32), Decidable (k8_chk3 v19) := fun v19 => decidable_of_iff' _ (Iff.of_eq (k8_chk3.eq_1 v19))
theorem k8_off6_inb : ∀ (v19 : BitVec 32) (k8_hw3 : k8_chk3 v19), ∀ a, (k8_off6 v19) a + S1x512.size a ≤ S50000x512.size a := fun v19 k8_hw3 => k8_hw3.1
theorem k8_off35_inb : ∀ (v19 : BitVec 32) (k8_hw3 : k8_chk3 v19), ∀ a, (k8_off35 v19) a + S1x512.size a ≤ S50000x512.size a := fun v19 k8_hw3 => k8_hw3.2

def k8_off36 (v27 : BitVec 32) : Fin 2 → Nat :=
  let c0_i32_94 : BitVec 32 := 0#32
  ![v27.toNat, 0]

def k8_chk4 (v27 : BitVec 32) : Prop :=
  (∀ a, (k8_off8 v27) a + S1x512.size a ≤ S50000x512.size a) ∧
  (∀ a, (k8_off36 v27) a + S1x512.size a ≤ S50000x512.size a)
instance k8_chk4.dec : ∀ (v27 : BitVec 32), Decidable (k8_chk4 v27) := fun v27 => decidable_of_iff' _ (Iff.of_eq (k8_chk4.eq_1 v27))
theorem k8_off8_inb : ∀ (v27 : BitVec 32) (k8_hw4 : k8_chk4 v27), ∀ a, (k8_off8 v27) a + S1x512.size a ≤ S50000x512.size a := fun v27 k8_hw4 => k8_hw4.1
theorem k8_off36_inb : ∀ (v27 : BitVec 32) (k8_hw4 : k8_chk4 v27), ∀ a, (k8_off36 v27) a + S1x512.size a ≤ S50000x512.size a := fun v27 k8_hw4 => k8_hw4.2

def k8_off37 (v35 : BitVec 32) : Fin 2 → Nat :=
  let c0_i32_98 : BitVec 32 := 0#32
  ![v35.toNat, 0]

def k8_chk5 (v35 : BitVec 32) : Prop :=
  (∀ a, (k8_off10 v35) a + S1x512.size a ≤ S50000x512.size a) ∧
  (∀ a, (k8_off37 v35) a + S1x512.size a ≤ S50000x512.size a)
instance k8_chk5.dec : ∀ (v35 : BitVec 32), Decidable (k8_chk5 v35) := fun v35 => decidable_of_iff' _ (Iff.of_eq (k8_chk5.eq_1 v35))
theorem k8_off10_inb : ∀ (v35 : BitVec 32) (k8_hw5 : k8_chk5 v35), ∀ a, (k8_off10 v35) a + S1x512.size a ≤ S50000x512.size a := fun v35 k8_hw5 => k8_hw5.1
theorem k8_off37_inb : ∀ (v35 : BitVec 32) (k8_hw5 : k8_chk5 v35), ∀ a, (k8_off37 v35) a + S1x512.size a ≤ S50000x512.size a := fun v35 k8_hw5 => k8_hw5.2

def k8_off38 (v43 : BitVec 32) : Fin 2 → Nat :=
  let c0_i32_102 : BitVec 32 := 0#32
  ![v43.toNat, 0]

def k8_chk6 (v43 : BitVec 32) : Prop :=
  (∀ a, (k8_off12 v43) a + S1x512.size a ≤ S50000x512.size a) ∧
  (∀ a, (k8_off38 v43) a + S1x512.size a ≤ S50000x512.size a)
instance k8_chk6.dec : ∀ (v43 : BitVec 32), Decidable (k8_chk6 v43) := fun v43 => decidable_of_iff' _ (Iff.of_eq (k8_chk6.eq_1 v43))
theorem k8_off12_inb : ∀ (v43 : BitVec 32) (k8_hw6 : k8_chk6 v43), ∀ a, (k8_off12 v43) a + S1x512.size a ≤ S50000x512.size a := fun v43 k8_hw6 => k8_hw6.1
theorem k8_off38_inb : ∀ (v43 : BitVec 32) (k8_hw6 : k8_chk6 v43), ∀ a, (k8_off38 v43) a + S1x512.size a ≤ S50000x512.size a := fun v43 k8_hw6 => k8_hw6.2

def k8_off39 (v51 : BitVec 32) : Fin 2 → Nat :=
  let c0_i32_106 : BitVec 32 := 0#32
  ![v51.toNat, 0]

def k8_chk7 (v51 : BitVec 32) : Prop :=
  (∀ a, (k8_off14 v51) a + S1x512.size a ≤ S50000x512.size a) ∧
  (∀ a, (k8_off39 v51) a + S1x512.size a ≤ S50000x512.size a)
instance k8_chk7.dec : ∀ (v51 : BitVec 32), Decidable (k8_chk7 v51) := fun v51 => decidable_of_iff' _ (Iff.of_eq (k8_chk7.eq_1 v51))
theorem k8_off14_inb : ∀ (v51 : BitVec 32) (k8_hw7 : k8_chk7 v51), ∀ a, (k8_off14 v51) a + S1x512.size a ≤ S50000x512.size a := fun v51 k8_hw7 => k8_hw7.1
theorem k8_off39_inb : ∀ (v51 : BitVec 32) (k8_hw7 : k8_chk7 v51), ∀ a, (k8_off39 v51) a + S1x512.size a ≤ S50000x512.size a := fun v51 k8_hw7 => k8_hw7.2

def k8_off40 (v59 : BitVec 32) : Fin 2 → Nat :=
  let c0_i32_110 : BitVec 32 := 0#32
  ![v59.toNat, 0]

def k8_chk8 (v59 : BitVec 32) : Prop :=
  (∀ a, (k8_off16 v59) a + S1x512.size a ≤ S50000x512.size a) ∧
  (∀ a, (k8_off40 v59) a + S1x512.size a ≤ S50000x512.size a)
instance k8_chk8.dec : ∀ (v59 : BitVec 32), Decidable (k8_chk8 v59) := fun v59 => decidable_of_iff' _ (Iff.of_eq (k8_chk8.eq_1 v59))
theorem k8_off16_inb : ∀ (v59 : BitVec 32) (k8_hw8 : k8_chk8 v59), ∀ a, (k8_off16 v59) a + S1x512.size a ≤ S50000x512.size a := fun v59 k8_hw8 => k8_hw8.1
theorem k8_off40_inb : ∀ (v59 : BitVec 32) (k8_hw8 : k8_chk8 v59), ∀ a, (k8_off40 v59) a + S1x512.size a ≤ S50000x512.size a := fun v59 k8_hw8 => k8_hw8.2

def k8_off41 (v67 : BitVec 32) : Fin 2 → Nat :=
  let c0_i32_114 : BitVec 32 := 0#32
  ![v67.toNat, 0]

def k8_chk9 (v67 : BitVec 32) : Prop :=
  (∀ a, (k8_off18 v67) a + S1x512.size a ≤ S50000x512.size a) ∧
  (∀ a, (k8_off41 v67) a + S1x512.size a ≤ S50000x512.size a)
instance k8_chk9.dec : ∀ (v67 : BitVec 32), Decidable (k8_chk9 v67) := fun v67 => decidable_of_iff' _ (Iff.of_eq (k8_chk9.eq_1 v67))
theorem k8_off18_inb : ∀ (v67 : BitVec 32) (k8_hw9 : k8_chk9 v67), ∀ a, (k8_off18 v67) a + S1x512.size a ≤ S50000x512.size a := fun v67 k8_hw9 => k8_hw9.1
theorem k8_off41_inb : ∀ (v67 : BitVec 32) (k8_hw9 : k8_chk9 v67), ∀ a, (k8_off41 v67) a + S1x512.size a ≤ S50000x512.size a := fun v67 k8_hw9 => k8_hw9.2

def k8_off42 (v75 : BitVec 32) : Fin 2 → Nat :=
  let c0_i32_118 : BitVec 32 := 0#32
  ![v75.toNat, 0]

def k8_chk10 (v75 : BitVec 32) : Prop :=
  (∀ a, (k8_off20 v75) a + S1x512.size a ≤ S50000x512.size a) ∧
  (∀ a, (k8_off42 v75) a + S1x512.size a ≤ S50000x512.size a)
instance k8_chk10.dec : ∀ (v75 : BitVec 32), Decidable (k8_chk10 v75) := fun v75 => decidable_of_iff' _ (Iff.of_eq (k8_chk10.eq_1 v75))
theorem k8_off20_inb : ∀ (v75 : BitVec 32) (k8_hw10 : k8_chk10 v75), ∀ a, (k8_off20 v75) a + S1x512.size a ≤ S50000x512.size a := fun v75 k8_hw10 => k8_hw10.1
theorem k8_off42_inb : ∀ (v75 : BitVec 32) (k8_hw10 : k8_chk10 v75), ∀ a, (k8_off42 v75) a + S1x512.size a ≤ S50000x512.size a := fun v75 k8_hw10 => k8_hw10.2

def k8_off43 (v83 : BitVec 32) : Fin 2 → Nat :=
  let c0_i32_122 : BitVec 32 := 0#32
  ![v83.toNat, 0]

def k8_chk11 (v83 : BitVec 32) : Prop :=
  (∀ a, (k8_off22 v83) a + S1x512.size a ≤ S50000x512.size a) ∧
  (∀ a, (k8_off43 v83) a + S1x512.size a ≤ S50000x512.size a)
instance k8_chk11.dec : ∀ (v83 : BitVec 32), Decidable (k8_chk11 v83) := fun v83 => decidable_of_iff' _ (Iff.of_eq (k8_chk11.eq_1 v83))
theorem k8_off22_inb : ∀ (v83 : BitVec 32) (k8_hw11 : k8_chk11 v83), ∀ a, (k8_off22 v83) a + S1x512.size a ≤ S50000x512.size a := fun v83 k8_hw11 => k8_hw11.1
theorem k8_off43_inb : ∀ (v83 : BitVec 32) (k8_hw11 : k8_chk11 v83), ∀ a, (k8_off43 v83) a + S1x512.size a ≤ S50000x512.size a := fun v83 k8_hw11 => k8_hw11.2

def k8_off44 (v91 : BitVec 32) : Fin 2 → Nat :=
  let c0_i32_126 : BitVec 32 := 0#32
  ![v91.toNat, 0]

def k8_chk12 (v91 : BitVec 32) : Prop :=
  (∀ a, (k8_off24 v91) a + S1x512.size a ≤ S50000x512.size a) ∧
  (∀ a, (k8_off44 v91) a + S1x512.size a ≤ S50000x512.size a)
instance k8_chk12.dec : ∀ (v91 : BitVec 32), Decidable (k8_chk12 v91) := fun v91 => decidable_of_iff' _ (Iff.of_eq (k8_chk12.eq_1 v91))
theorem k8_off24_inb : ∀ (v91 : BitVec 32) (k8_hw12 : k8_chk12 v91), ∀ a, (k8_off24 v91) a + S1x512.size a ≤ S50000x512.size a := fun v91 k8_hw12 => k8_hw12.1
theorem k8_off44_inb : ∀ (v91 : BitVec 32) (k8_hw12 : k8_chk12 v91), ∀ a, (k8_off44 v91) a + S1x512.size a ≤ S50000x512.size a := fun v91 k8_hw12 => k8_hw12.2

def k8_off45 (v99 : BitVec 32) : Fin 2 → Nat :=
  let c0_i32_130 : BitVec 32 := 0#32
  ![v99.toNat, 0]

def k8_chk13 (v99 : BitVec 32) : Prop :=
  (∀ a, (k8_off26 v99) a + S1x512.size a ≤ S50000x512.size a) ∧
  (∀ a, (k8_off45 v99) a + S1x512.size a ≤ S50000x512.size a)
instance k8_chk13.dec : ∀ (v99 : BitVec 32), Decidable (k8_chk13 v99) := fun v99 => decidable_of_iff' _ (Iff.of_eq (k8_chk13.eq_1 v99))
theorem k8_off26_inb : ∀ (v99 : BitVec 32) (k8_hw13 : k8_chk13 v99), ∀ a, (k8_off26 v99) a + S1x512.size a ≤ S50000x512.size a := fun v99 k8_hw13 => k8_hw13.1
theorem k8_off45_inb : ∀ (v99 : BitVec 32) (k8_hw13 : k8_chk13 v99), ∀ a, (k8_off45 v99) a + S1x512.size a ≤ S50000x512.size a := fun v99 k8_hw13 => k8_hw13.2

def k8_off46 (v107 : BitVec 32) : Fin 2 → Nat :=
  let c0_i32_134 : BitVec 32 := 0#32
  ![v107.toNat, 0]

def k8_chk14 (v107 : BitVec 32) : Prop :=
  (∀ a, (k8_off28 v107) a + S1x512.size a ≤ S50000x512.size a) ∧
  (∀ a, (k8_off46 v107) a + S1x512.size a ≤ S50000x512.size a)
instance k8_chk14.dec : ∀ (v107 : BitVec 32), Decidable (k8_chk14 v107) := fun v107 => decidable_of_iff' _ (Iff.of_eq (k8_chk14.eq_1 v107))
theorem k8_off28_inb : ∀ (v107 : BitVec 32) (k8_hw14 : k8_chk14 v107), ∀ a, (k8_off28 v107) a + S1x512.size a ≤ S50000x512.size a := fun v107 k8_hw14 => k8_hw14.1
theorem k8_off46_inb : ∀ (v107 : BitVec 32) (k8_hw14 : k8_chk14 v107), ∀ a, (k8_off46 v107) a + S1x512.size a ≤ S50000x512.size a := fun v107 k8_hw14 => k8_hw14.2

def k8_off47 (v115 : BitVec 32) : Fin 2 → Nat :=
  let c0_i32_138 : BitVec 32 := 0#32
  ![v115.toNat, 0]

def k8_chk15 (v115 : BitVec 32) : Prop :=
  (∀ a, (k8_off30 v115) a + S1x512.size a ≤ S50000x512.size a) ∧
  (∀ a, (k8_off47 v115) a + S1x512.size a ≤ S50000x512.size a)
instance k8_chk15.dec : ∀ (v115 : BitVec 32), Decidable (k8_chk15 v115) := fun v115 => decidable_of_iff' _ (Iff.of_eq (k8_chk15.eq_1 v115))
theorem k8_off30_inb : ∀ (v115 : BitVec 32) (k8_hw15 : k8_chk15 v115), ∀ a, (k8_off30 v115) a + S1x512.size a ≤ S50000x512.size a := fun v115 k8_hw15 => k8_hw15.1
theorem k8_off47_inb : ∀ (v115 : BitVec 32) (k8_hw15 : k8_chk15 v115), ∀ a, (k8_off47 v115) a + S1x512.size a ≤ S50000x512.size a := fun v115 k8_hw15 => k8_hw15.2

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S16x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S16x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev grid9 : Pipeline.Grid := ⟨1, ![3125], ![false]⟩

abbrev pre9 : Pipeline.Prefetch sig := ⟨1, ![main_v60.idx], fun | 0 => main_v60.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k9_off2 (v3 : BitVec 32) : Fin 2 → Nat :=
  let c0_i32_3 : BitVec 32 := 0#32
  ![v3.toNat, 0]

def k9_off3 (i : grid9.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k9_off4 (v11 : BitVec 32) : Fin 2 → Nat :=
  let c0_i32_8 : BitVec 32 := 0#32
  ![v11.toNat, 0]

def k9_off5 (i : grid9.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k9_off6 (v19 : BitVec 32) : Fin 2 → Nat :=
  let c0_i32_13 : BitVec 32 := 0#32
  ![v19.toNat, 0]

def k9_off7 (i : grid9.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k9_off8 (v27 : BitVec 32) : Fin 2 → Nat :=
  let c0_i32_18 : BitVec 32 := 0#32
  ![v27.toNat, 0]

def k9_off9 (i : grid9.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k9_off10 (v35 : BitVec 32) : Fin 2 → Nat :=
  let c0_i32_23 : BitVec 32 := 0#32
  ![v35.toNat, 0]

def k9_off11 (i : grid9.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k9_off12 (v43 : BitVec 32) : Fin 2 → Nat :=
  let c0_i32_28 : BitVec 32 := 0#32
  ![v43.toNat, 0]

def k9_off13 (i : grid9.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k9_off14 (v51 : BitVec 32) : Fin 2 → Nat :=
  let c0_i32_33 : BitVec 32 := 0#32
  ![v51.toNat, 0]

def k9_off15 (i : grid9.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k9_off16 (v59 : BitVec 32) : Fin 2 → Nat :=
  let c0_i32_38 : BitVec 32 := 0#32
  ![v59.toNat, 0]

def k9_off17 (i : grid9.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k9_off18 (v67 : BitVec 32) : Fin 2 → Nat :=
  let c0_i32_43 : BitVec 32 := 0#32
  ![v67.toNat, 0]

def k9_off19 (i : grid9.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k9_off20 (v75 : BitVec 32) : Fin 2 → Nat :=
  let c0_i32_48 : BitVec 32 := 0#32
  ![v75.toNat, 0]

def k9_off21 (i : grid9.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k9_off22 (v83 : BitVec 32) : Fin 2 → Nat :=
  let c0_i32_53 : BitVec 32 := 0#32
  ![v83.toNat, 0]

def k9_off23 (i : grid9.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k9_off24 (v91 : BitVec 32) : Fin 2 → Nat :=
  let c0_i32_58 : BitVec 32 := 0#32
  ![v91.toNat, 0]

def k9_off25 (i : grid9.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k9_off26 (v99 : BitVec 32) : Fin 2 → Nat :=
  let c0_i32_63 : BitVec 32 := 0#32
  ![v99.toNat, 0]

def k9_off27 (i : grid9.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k9_off28 (v107 : BitVec 32) : Fin 2 → Nat :=
  let c0_i32_68 : BitVec 32 := 0#32
  ![v107.toNat, 0]

def k9_off29 (i : grid9.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k9_off30 (v115 : BitVec 32) : Fin 2 → Nat :=
  let c0_i32_73 : BitVec 32 := 0#32
  ![v115.toNat, 0]

def k9_off31 (i : grid9.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k9_off32 (v123 : BitVec 32) : Fin 2 → Nat :=
  let c0_i32_78 : BitVec 32 := 0#32
  ![v123.toNat, 0]

def k9_chk16 (v123 : BitVec 32) : Prop :=
  (∀ a, (k9_off32 v123) a + S1x512.size a ≤ S50000x512.size a)
instance k9_chk16.dec : ∀ (v123 : BitVec 32), Decidable (k9_chk16 v123) := fun v123 => decidable_of_iff' _ (Iff.of_eq (k9_chk16.eq_1 v123))
theorem k9_off32_inb : ∀ (v123 : BitVec 32) (k9_hw16 : k9_chk16 v123), ∀ a, (k9_off32 v123) a + S1x512.size a ≤ S50000x512.size a := fun v123 k9_hw16 => k9_hw16

def k9_off33 (v3 : BitVec 32) : Fin 2 → Nat :=
  let c0_i32_82 : BitVec 32 := 0#32
  ![v3.toNat, 0]

def k9_chk1 (v3 : BitVec 32) : Prop :=
  (∀ a, (k9_off2 v3) a + S1x512.size a ≤ S50000x512.size a) ∧
  (∀ a, (k9_off33 v3) a + S1x512.size a ≤ S50000x512.size a)
instance k9_chk1.dec : ∀ (v3 : BitVec 32), Decidable (k9_chk1 v3) := fun v3 => decidable_of_iff' _ (Iff.of_eq (k9_chk1.eq_1 v3))
theorem k9_off2_inb : ∀ (v3 : BitVec 32) (k9_hw1 : k9_chk1 v3), ∀ a, (k9_off2 v3) a + S1x512.size a ≤ S50000x512.size a := fun v3 k9_hw1 => k9_hw1.1
theorem k9_off33_inb : ∀ (v3 : BitVec 32) (k9_hw1 : k9_chk1 v3), ∀ a, (k9_off33 v3) a + S1x512.size a ≤ S50000x512.size a := fun v3 k9_hw1 => k9_hw1.2

def k9_off34 (v11 : BitVec 32) : Fin 2 → Nat :=
  let c0_i32_86 : BitVec 32 := 0#32
  ![v11.toNat, 0]

def k9_chk2 (v11 : BitVec 32) : Prop :=
  (∀ a, (k9_off4 v11) a + S1x512.size a ≤ S50000x512.size a) ∧
  (∀ a, (k9_off34 v11) a + S1x512.size a ≤ S50000x512.size a)
instance k9_chk2.dec : ∀ (v11 : BitVec 32), Decidable (k9_chk2 v11) := fun v11 => decidable_of_iff' _ (Iff.of_eq (k9_chk2.eq_1 v11))
theorem k9_off4_inb : ∀ (v11 : BitVec 32) (k9_hw2 : k9_chk2 v11), ∀ a, (k9_off4 v11) a + S1x512.size a ≤ S50000x512.size a := fun v11 k9_hw2 => k9_hw2.1
theorem k9_off34_inb : ∀ (v11 : BitVec 32) (k9_hw2 : k9_chk2 v11), ∀ a, (k9_off34 v11) a + S1x512.size a ≤ S50000x512.size a := fun v11 k9_hw2 => k9_hw2.2

def k9_off35 (v19 : BitVec 32) : Fin 2 → Nat :=
  let c0_i32_90 : BitVec 32 := 0#32
  ![v19.toNat, 0]

def k9_chk3 (v19 : BitVec 32) : Prop :=
  (∀ a, (k9_off6 v19) a + S1x512.size a ≤ S50000x512.size a) ∧
  (∀ a, (k9_off35 v19) a + S1x512.size a ≤ S50000x512.size a)
instance k9_chk3.dec : ∀ (v19 : BitVec 32), Decidable (k9_chk3 v19) := fun v19 => decidable_of_iff' _ (Iff.of_eq (k9_chk3.eq_1 v19))
theorem k9_off6_inb : ∀ (v19 : BitVec 32) (k9_hw3 : k9_chk3 v19), ∀ a, (k9_off6 v19) a + S1x512.size a ≤ S50000x512.size a := fun v19 k9_hw3 => k9_hw3.1
theorem k9_off35_inb : ∀ (v19 : BitVec 32) (k9_hw3 : k9_chk3 v19), ∀ a, (k9_off35 v19) a + S1x512.size a ≤ S50000x512.size a := fun v19 k9_hw3 => k9_hw3.2

def k9_off36 (v27 : BitVec 32) : Fin 2 → Nat :=
  let c0_i32_94 : BitVec 32 := 0#32
  ![v27.toNat, 0]

def k9_chk4 (v27 : BitVec 32) : Prop :=
  (∀ a, (k9_off8 v27) a + S1x512.size a ≤ S50000x512.size a) ∧
  (∀ a, (k9_off36 v27) a + S1x512.size a ≤ S50000x512.size a)
instance k9_chk4.dec : ∀ (v27 : BitVec 32), Decidable (k9_chk4 v27) := fun v27 => decidable_of_iff' _ (Iff.of_eq (k9_chk4.eq_1 v27))
theorem k9_off8_inb : ∀ (v27 : BitVec 32) (k9_hw4 : k9_chk4 v27), ∀ a, (k9_off8 v27) a + S1x512.size a ≤ S50000x512.size a := fun v27 k9_hw4 => k9_hw4.1
theorem k9_off36_inb : ∀ (v27 : BitVec 32) (k9_hw4 : k9_chk4 v27), ∀ a, (k9_off36 v27) a + S1x512.size a ≤ S50000x512.size a := fun v27 k9_hw4 => k9_hw4.2

def k9_off37 (v35 : BitVec 32) : Fin 2 → Nat :=
  let c0_i32_98 : BitVec 32 := 0#32
  ![v35.toNat, 0]

def k9_chk5 (v35 : BitVec 32) : Prop :=
  (∀ a, (k9_off10 v35) a + S1x512.size a ≤ S50000x512.size a) ∧
  (∀ a, (k9_off37 v35) a + S1x512.size a ≤ S50000x512.size a)
instance k9_chk5.dec : ∀ (v35 : BitVec 32), Decidable (k9_chk5 v35) := fun v35 => decidable_of_iff' _ (Iff.of_eq (k9_chk5.eq_1 v35))
theorem k9_off10_inb : ∀ (v35 : BitVec 32) (k9_hw5 : k9_chk5 v35), ∀ a, (k9_off10 v35) a + S1x512.size a ≤ S50000x512.size a := fun v35 k9_hw5 => k9_hw5.1
theorem k9_off37_inb : ∀ (v35 : BitVec 32) (k9_hw5 : k9_chk5 v35), ∀ a, (k9_off37 v35) a + S1x512.size a ≤ S50000x512.size a := fun v35 k9_hw5 => k9_hw5.2

def k9_off38 (v43 : BitVec 32) : Fin 2 → Nat :=
  let c0_i32_102 : BitVec 32 := 0#32
  ![v43.toNat, 0]

def k9_chk6 (v43 : BitVec 32) : Prop :=
  (∀ a, (k9_off12 v43) a + S1x512.size a ≤ S50000x512.size a) ∧
  (∀ a, (k9_off38 v43) a + S1x512.size a ≤ S50000x512.size a)
instance k9_chk6.dec : ∀ (v43 : BitVec 32), Decidable (k9_chk6 v43) := fun v43 => decidable_of_iff' _ (Iff.of_eq (k9_chk6.eq_1 v43))
theorem k9_off12_inb : ∀ (v43 : BitVec 32) (k9_hw6 : k9_chk6 v43), ∀ a, (k9_off12 v43) a + S1x512.size a ≤ S50000x512.size a := fun v43 k9_hw6 => k9_hw6.1
theorem k9_off38_inb : ∀ (v43 : BitVec 32) (k9_hw6 : k9_chk6 v43), ∀ a, (k9_off38 v43) a + S1x512.size a ≤ S50000x512.size a := fun v43 k9_hw6 => k9_hw6.2

def k9_off39 (v51 : BitVec 32) : Fin 2 → Nat :=
  let c0_i32_106 : BitVec 32 := 0#32
  ![v51.toNat, 0]

def k9_chk7 (v51 : BitVec 32) : Prop :=
  (∀ a, (k9_off14 v51) a + S1x512.size a ≤ S50000x512.size a) ∧
  (∀ a, (k9_off39 v51) a + S1x512.size a ≤ S50000x512.size a)
instance k9_chk7.dec : ∀ (v51 : BitVec 32), Decidable (k9_chk7 v51) := fun v51 => decidable_of_iff' _ (Iff.of_eq (k9_chk7.eq_1 v51))
theorem k9_off14_inb : ∀ (v51 : BitVec 32) (k9_hw7 : k9_chk7 v51), ∀ a, (k9_off14 v51) a + S1x512.size a ≤ S50000x512.size a := fun v51 k9_hw7 => k9_hw7.1
theorem k9_off39_inb : ∀ (v51 : BitVec 32) (k9_hw7 : k9_chk7 v51), ∀ a, (k9_off39 v51) a + S1x512.size a ≤ S50000x512.size a := fun v51 k9_hw7 => k9_hw7.2

def k9_off40 (v59 : BitVec 32) : Fin 2 → Nat :=
  let c0_i32_110 : BitVec 32 := 0#32
  ![v59.toNat, 0]

def k9_chk8 (v59 : BitVec 32) : Prop :=
  (∀ a, (k9_off16 v59) a + S1x512.size a ≤ S50000x512.size a) ∧
  (∀ a, (k9_off40 v59) a + S1x512.size a ≤ S50000x512.size a)
instance k9_chk8.dec : ∀ (v59 : BitVec 32), Decidable (k9_chk8 v59) := fun v59 => decidable_of_iff' _ (Iff.of_eq (k9_chk8.eq_1 v59))
theorem k9_off16_inb : ∀ (v59 : BitVec 32) (k9_hw8 : k9_chk8 v59), ∀ a, (k9_off16 v59) a + S1x512.size a ≤ S50000x512.size a := fun v59 k9_hw8 => k9_hw8.1
theorem k9_off40_inb : ∀ (v59 : BitVec 32) (k9_hw8 : k9_chk8 v59), ∀ a, (k9_off40 v59) a + S1x512.size a ≤ S50000x512.size a := fun v59 k9_hw8 => k9_hw8.2

def k9_off41 (v67 : BitVec 32) : Fin 2 → Nat :=
  let c0_i32_114 : BitVec 32 := 0#32
  ![v67.toNat, 0]

def k9_chk9 (v67 : BitVec 32) : Prop :=
  (∀ a, (k9_off18 v67) a + S1x512.size a ≤ S50000x512.size a) ∧
  (∀ a, (k9_off41 v67) a + S1x512.size a ≤ S50000x512.size a)
instance k9_chk9.dec : ∀ (v67 : BitVec 32), Decidable (k9_chk9 v67) := fun v67 => decidable_of_iff' _ (Iff.of_eq (k9_chk9.eq_1 v67))
theorem k9_off18_inb : ∀ (v67 : BitVec 32) (k9_hw9 : k9_chk9 v67), ∀ a, (k9_off18 v67) a + S1x512.size a ≤ S50000x512.size a := fun v67 k9_hw9 => k9_hw9.1
theorem k9_off41_inb : ∀ (v67 : BitVec 32) (k9_hw9 : k9_chk9 v67), ∀ a, (k9_off41 v67) a + S1x512.size a ≤ S50000x512.size a := fun v67 k9_hw9 => k9_hw9.2

def k9_off42 (v75 : BitVec 32) : Fin 2 → Nat :=
  let c0_i32_118 : BitVec 32 := 0#32
  ![v75.toNat, 0]

def k9_chk10 (v75 : BitVec 32) : Prop :=
  (∀ a, (k9_off20 v75) a + S1x512.size a ≤ S50000x512.size a) ∧
  (∀ a, (k9_off42 v75) a + S1x512.size a ≤ S50000x512.size a)
instance k9_chk10.dec : ∀ (v75 : BitVec 32), Decidable (k9_chk10 v75) := fun v75 => decidable_of_iff' _ (Iff.of_eq (k9_chk10.eq_1 v75))
theorem k9_off20_inb : ∀ (v75 : BitVec 32) (k9_hw10 : k9_chk10 v75), ∀ a, (k9_off20 v75) a + S1x512.size a ≤ S50000x512.size a := fun v75 k9_hw10 => k9_hw10.1
theorem k9_off42_inb : ∀ (v75 : BitVec 32) (k9_hw10 : k9_chk10 v75), ∀ a, (k9_off42 v75) a + S1x512.size a ≤ S50000x512.size a := fun v75 k9_hw10 => k9_hw10.2

def k9_off43 (v83 : BitVec 32) : Fin 2 → Nat :=
  let c0_i32_122 : BitVec 32 := 0#32
  ![v83.toNat, 0]

def k9_chk11 (v83 : BitVec 32) : Prop :=
  (∀ a, (k9_off22 v83) a + S1x512.size a ≤ S50000x512.size a) ∧
  (∀ a, (k9_off43 v83) a + S1x512.size a ≤ S50000x512.size a)
instance k9_chk11.dec : ∀ (v83 : BitVec 32), Decidable (k9_chk11 v83) := fun v83 => decidable_of_iff' _ (Iff.of_eq (k9_chk11.eq_1 v83))
theorem k9_off22_inb : ∀ (v83 : BitVec 32) (k9_hw11 : k9_chk11 v83), ∀ a, (k9_off22 v83) a + S1x512.size a ≤ S50000x512.size a := fun v83 k9_hw11 => k9_hw11.1
theorem k9_off43_inb : ∀ (v83 : BitVec 32) (k9_hw11 : k9_chk11 v83), ∀ a, (k9_off43 v83) a + S1x512.size a ≤ S50000x512.size a := fun v83 k9_hw11 => k9_hw11.2

def k9_off44 (v91 : BitVec 32) : Fin 2 → Nat :=
  let c0_i32_126 : BitVec 32 := 0#32
  ![v91.toNat, 0]

def k9_chk12 (v91 : BitVec 32) : Prop :=
  (∀ a, (k9_off24 v91) a + S1x512.size a ≤ S50000x512.size a) ∧
  (∀ a, (k9_off44 v91) a + S1x512.size a ≤ S50000x512.size a)
instance k9_chk12.dec : ∀ (v91 : BitVec 32), Decidable (k9_chk12 v91) := fun v91 => decidable_of_iff' _ (Iff.of_eq (k9_chk12.eq_1 v91))
theorem k9_off24_inb : ∀ (v91 : BitVec 32) (k9_hw12 : k9_chk12 v91), ∀ a, (k9_off24 v91) a + S1x512.size a ≤ S50000x512.size a := fun v91 k9_hw12 => k9_hw12.1
theorem k9_off44_inb : ∀ (v91 : BitVec 32) (k9_hw12 : k9_chk12 v91), ∀ a, (k9_off44 v91) a + S1x512.size a ≤ S50000x512.size a := fun v91 k9_hw12 => k9_hw12.2

def k9_off45 (v99 : BitVec 32) : Fin 2 → Nat :=
  let c0_i32_130 : BitVec 32 := 0#32
  ![v99.toNat, 0]

def k9_chk13 (v99 : BitVec 32) : Prop :=
  (∀ a, (k9_off26 v99) a + S1x512.size a ≤ S50000x512.size a) ∧
  (∀ a, (k9_off45 v99) a + S1x512.size a ≤ S50000x512.size a)
instance k9_chk13.dec : ∀ (v99 : BitVec 32), Decidable (k9_chk13 v99) := fun v99 => decidable_of_iff' _ (Iff.of_eq (k9_chk13.eq_1 v99))
theorem k9_off26_inb : ∀ (v99 : BitVec 32) (k9_hw13 : k9_chk13 v99), ∀ a, (k9_off26 v99) a + S1x512.size a ≤ S50000x512.size a := fun v99 k9_hw13 => k9_hw13.1
theorem k9_off45_inb : ∀ (v99 : BitVec 32) (k9_hw13 : k9_chk13 v99), ∀ a, (k9_off45 v99) a + S1x512.size a ≤ S50000x512.size a := fun v99 k9_hw13 => k9_hw13.2

def k9_off46 (v107 : BitVec 32) : Fin 2 → Nat :=
  let c0_i32_134 : BitVec 32 := 0#32
  ![v107.toNat, 0]

def k9_chk14 (v107 : BitVec 32) : Prop :=
  (∀ a, (k9_off28 v107) a + S1x512.size a ≤ S50000x512.size a) ∧
  (∀ a, (k9_off46 v107) a + S1x512.size a ≤ S50000x512.size a)
instance k9_chk14.dec : ∀ (v107 : BitVec 32), Decidable (k9_chk14 v107) := fun v107 => decidable_of_iff' _ (Iff.of_eq (k9_chk14.eq_1 v107))
theorem k9_off28_inb : ∀ (v107 : BitVec 32) (k9_hw14 : k9_chk14 v107), ∀ a, (k9_off28 v107) a + S1x512.size a ≤ S50000x512.size a := fun v107 k9_hw14 => k9_hw14.1
theorem k9_off46_inb : ∀ (v107 : BitVec 32) (k9_hw14 : k9_chk14 v107), ∀ a, (k9_off46 v107) a + S1x512.size a ≤ S50000x512.size a := fun v107 k9_hw14 => k9_hw14.2

def k9_off47 (v115 : BitVec 32) : Fin 2 → Nat :=
  let c0_i32_138 : BitVec 32 := 0#32
  ![v115.toNat, 0]

def k9_chk15 (v115 : BitVec 32) : Prop :=
  (∀ a, (k9_off30 v115) a + S1x512.size a ≤ S50000x512.size a) ∧
  (∀ a, (k9_off47 v115) a + S1x512.size a ≤ S50000x512.size a)
instance k9_chk15.dec : ∀ (v115 : BitVec 32), Decidable (k9_chk15 v115) := fun v115 => decidable_of_iff' _ (Iff.of_eq (k9_chk15.eq_1 v115))
theorem k9_off30_inb : ∀ (v115 : BitVec 32) (k9_hw15 : k9_chk15 v115), ∀ a, (k9_off30 v115) a + S1x512.size a ≤ S50000x512.size a := fun v115 k9_hw15 => k9_hw15.1
theorem k9_off47_inb : ∀ (v115 : BitVec 32) (k9_hw15 : k9_chk15 v115), ∀ a, (k9_off47 v115) a + S1x512.size a ≤ S50000x512.size a := fun v115 k9_hw15 => k9_hw15.2

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S16x1 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S16x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1000x512 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x262 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1000x262 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![3125], ![false]⟩

abbrev pre11 : Pipeline.Prefetch sig := ⟨1, ![main_v73.idx], fun | 0 => main_v73.names | ⟨_ + 1, h⟩ => absurd h (Nat.not_lt.2 (Nat.le_add_left _ _)), fun | 0 => rfl | ⟨_ + 1, h⟩ => absurd h (Nat.not_lt.2 (Nat.le_add_left _ _))⟩

def k11_off1 (i : grid11.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k11_off2 (v3 : BitVec 32) : Fin 2 → Nat :=
  let c0_i32_3 : BitVec 32 := 0#32
  ![v3.toNat, 0]

def k11_off3 (i : grid11.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k11_off4 (v11 : BitVec 32) : Fin 2 → Nat :=
  let c0_i32_8 : BitVec 32 := 0#32
  ![v11.toNat, 0]

def k11_off5 (i : grid11.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k11_off6 (v19 : BitVec 32) : Fin 2 → Nat :=
  let c0_i32_13 : BitVec 32 := 0#32
  ![v19.toNat, 0]

def k11_off7 (i : grid11.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k11_off8 (v27 : BitVec 32) : Fin 2 → Nat :=
  let c0_i32_18 : BitVec 32 := 0#32
  ![v27.toNat, 0]

def k11_off9 (i : grid11.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k11_off10 (v35 : BitVec 32) : Fin 2 → Nat :=
  let c0_i32_23 : BitVec 32 := 0#32
  ![v35.toNat, 0]

def k11_off11 (i : grid11.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k11_off12 (v43 : BitVec 32) : Fin 2 → Nat :=
  let c0_i32_28 : BitVec 32 := 0#32
  ![v43.toNat, 0]

def k11_off13 (i : grid11.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k11_off14 (v51 : BitVec 32) : Fin 2 → Nat :=
  let c0_i32_33 : BitVec 32 := 0#32
  ![v51.toNat, 0]

def k11_off15 (i : grid11.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k11_off16 (v59 : BitVec 32) : Fin 2 → Nat :=
  let c0_i32_38 : BitVec 32 := 0#32
  ![v59.toNat, 0]

def k11_off17 (i : grid11.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k11_off18 (v67 : BitVec 32) : Fin 2 → Nat :=
  let c0_i32_43 : BitVec 32 := 0#32
  ![v67.toNat, 0]

def k11_off19 (i : grid11.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k11_off20 (v75 : BitVec 32) : Fin 2 → Nat :=
  let c0_i32_48 : BitVec 32 := 0#32
  ![v75.toNat, 0]

def k11_off21 (i : grid11.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k11_off22 (v83 : BitVec 32) : Fin 2 → Nat :=
  let c0_i32_53 : BitVec 32 := 0#32
  ![v83.toNat, 0]

def k11_off23 (i : grid11.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k11_off24 (v91 : BitVec 32) : Fin 2 → Nat :=
  let c0_i32_58 : BitVec 32 := 0#32
  ![v91.toNat, 0]

def k11_off25 (i : grid11.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k11_off26 (v99 : BitVec 32) : Fin 2 → Nat :=
  let c0_i32_63 : BitVec 32 := 0#32
  ![v99.toNat, 0]

def k11_off27 (i : grid11.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k11_off28 (v107 : BitVec 32) : Fin 2 → Nat :=
  let c0_i32_68 : BitVec 32 := 0#32
  ![v107.toNat, 0]

def k11_off29 (i : grid11.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k11_off30 (v115 : BitVec 32) : Fin 2 → Nat :=
  let c0_i32_73 : BitVec 32 := 0#32
  ![v115.toNat, 0]

def k11_off31 (i : grid11.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k11_off32 (v123 : BitVec 32) : Fin 2 → Nat :=
  let c0_i32_78 : BitVec 32 := 0#32
  ![v123.toNat, 0]

def k11_chk16 (v123 : BitVec 32) : Prop :=
  (∀ a, (k11_off32 v123) a + S1x262.size a ≤ S50000x262.size a)
instance k11_chk16.dec : ∀ (v123 : BitVec 32), Decidable (k11_chk16 v123) := fun v123 => decidable_of_iff' _ (Iff.of_eq (k11_chk16.eq_1 v123))
theorem k11_off32_inb : ∀ (v123 : BitVec 32) (k11_hw16 : k11_chk16 v123), ∀ a, (k11_off32 v123) a + S1x262.size a ≤ S50000x262.size a := fun v123 k11_hw16 => k11_hw16

def k11_off33 (v3 : BitVec 32) : Fin 2 → Nat :=
  let c0_i32_82 : BitVec 32 := 0#32
  ![v3.toNat, 0]

def k11_chk1 (v3 : BitVec 32) : Prop :=
  (∀ a, (k11_off2 v3) a + S1x262.size a ≤ S50000x262.size a) ∧
  (∀ a, (k11_off33 v3) a + S1x262.size a ≤ S50000x262.size a)
instance k11_chk1.dec : ∀ (v3 : BitVec 32), Decidable (k11_chk1 v3) := fun v3 => decidable_of_iff' _ (Iff.of_eq (k11_chk1.eq_1 v3))
theorem k11_off2_inb : ∀ (v3 : BitVec 32) (k11_hw1 : k11_chk1 v3), ∀ a, (k11_off2 v3) a + S1x262.size a ≤ S50000x262.size a := fun v3 k11_hw1 => k11_hw1.1
theorem k11_off33_inb : ∀ (v3 : BitVec 32) (k11_hw1 : k11_chk1 v3), ∀ a, (k11_off33 v3) a + S1x262.size a ≤ S50000x262.size a := fun v3 k11_hw1 => k11_hw1.2

def k11_off34 (v11 : BitVec 32) : Fin 2 → Nat :=
  let c0_i32_86 : BitVec 32 := 0#32
  ![v11.toNat, 0]

def k11_chk2 (v11 : BitVec 32) : Prop :=
  (∀ a, (k11_off4 v11) a + S1x262.size a ≤ S50000x262.size a) ∧
  (∀ a, (k11_off34 v11) a + S1x262.size a ≤ S50000x262.size a)
instance k11_chk2.dec : ∀ (v11 : BitVec 32), Decidable (k11_chk2 v11) := fun v11 => decidable_of_iff' _ (Iff.of_eq (k11_chk2.eq_1 v11))
theorem k11_off4_inb : ∀ (v11 : BitVec 32) (k11_hw2 : k11_chk2 v11), ∀ a, (k11_off4 v11) a + S1x262.size a ≤ S50000x262.size a := fun v11 k11_hw2 => k11_hw2.1
theorem k11_off34_inb : ∀ (v11 : BitVec 32) (k11_hw2 : k11_chk2 v11), ∀ a, (k11_off34 v11) a + S1x262.size a ≤ S50000x262.size a := fun v11 k11_hw2 => k11_hw2.2

def k11_off35 (v19 : BitVec 32) : Fin 2 → Nat :=
  let c0_i32_90 : BitVec 32 := 0#32
  ![v19.toNat, 0]

def k11_chk3 (v19 : BitVec 32) : Prop :=
  (∀ a, (k11_off6 v19) a + S1x262.size a ≤ S50000x262.size a) ∧
  (∀ a, (k11_off35 v19) a + S1x262.size a ≤ S50000x262.size a)
instance k11_chk3.dec : ∀ (v19 : BitVec 32), Decidable (k11_chk3 v19) := fun v19 => decidable_of_iff' _ (Iff.of_eq (k11_chk3.eq_1 v19))
theorem k11_off6_inb : ∀ (v19 : BitVec 32) (k11_hw3 : k11_chk3 v19), ∀ a, (k11_off6 v19) a + S1x262.size a ≤ S50000x262.size a := fun v19 k11_hw3 => k11_hw3.1
theorem k11_off35_inb : ∀ (v19 : BitVec 32) (k11_hw3 : k11_chk3 v19), ∀ a, (k11_off35 v19) a + S1x262.size a ≤ S50000x262.size a := fun v19 k11_hw3 => k11_hw3.2

def k11_off36 (v27 : BitVec 32) : Fin 2 → Nat :=
  let c0_i32_94 : BitVec 32 := 0#32
  ![v27.toNat, 0]

def k11_chk4 (v27 : BitVec 32) : Prop :=
  (∀ a, (k11_off8 v27) a + S1x262.size a ≤ S50000x262.size a) ∧
  (∀ a, (k11_off36 v27) a + S1x262.size a ≤ S50000x262.size a)
instance k11_chk4.dec : ∀ (v27 : BitVec 32), Decidable (k11_chk4 v27) := fun v27 => decidable_of_iff' _ (Iff.of_eq (k11_chk4.eq_1 v27))
theorem k11_off8_inb : ∀ (v27 : BitVec 32) (k11_hw4 : k11_chk4 v27), ∀ a, (k11_off8 v27) a + S1x262.size a ≤ S50000x262.size a := fun v27 k11_hw4 => k11_hw4.1
theorem k11_off36_inb : ∀ (v27 : BitVec 32) (k11_hw4 : k11_chk4 v27), ∀ a, (k11_off36 v27) a + S1x262.size a ≤ S50000x262.size a := fun v27 k11_hw4 => k11_hw4.2

def k11_off37 (v35 : BitVec 32) : Fin 2 → Nat :=
  let c0_i32_98 : BitVec 32 := 0#32
  ![v35.toNat, 0]

def k11_chk5 (v35 : BitVec 32) : Prop :=
  (∀ a, (k11_off10 v35) a + S1x262.size a ≤ S50000x262.size a) ∧
  (∀ a, (k11_off37 v35) a + S1x262.size a ≤ S50000x262.size a)
instance k11_chk5.dec : ∀ (v35 : BitVec 32), Decidable (k11_chk5 v35) := fun v35 => decidable_of_iff' _ (Iff.of_eq (k11_chk5.eq_1 v35))
theorem k11_off10_inb : ∀ (v35 : BitVec 32) (k11_hw5 : k11_chk5 v35), ∀ a, (k11_off10 v35) a + S1x262.size a ≤ S50000x262.size a := fun v35 k11_hw5 => k11_hw5.1
theorem k11_off37_inb : ∀ (v35 : BitVec 32) (k11_hw5 : k11_chk5 v35), ∀ a, (k11_off37 v35) a + S1x262.size a ≤ S50000x262.size a := fun v35 k11_hw5 => k11_hw5.2

def k11_off38 (v43 : BitVec 32) : Fin 2 → Nat :=
  let c0_i32_102 : BitVec 32 := 0#32
  ![v43.toNat, 0]

def k11_chk6 (v43 : BitVec 32) : Prop :=
  (∀ a, (k11_off12 v43) a + S1x262.size a ≤ S50000x262.size a) ∧
  (∀ a, (k11_off38 v43) a + S1x262.size a ≤ S50000x262.size a)
instance k11_chk6.dec : ∀ (v43 : BitVec 32), Decidable (k11_chk6 v43) := fun v43 => decidable_of_iff' _ (Iff.of_eq (k11_chk6.eq_1 v43))
theorem k11_off12_inb : ∀ (v43 : BitVec 32) (k11_hw6 : k11_chk6 v43), ∀ a, (k11_off12 v43) a + S1x262.size a ≤ S50000x262.size a := fun v43 k11_hw6 => k11_hw6.1
theorem k11_off38_inb : ∀ (v43 : BitVec 32) (k11_hw6 : k11_chk6 v43), ∀ a, (k11_off38 v43) a + S1x262.size a ≤ S50000x262.size a := fun v43 k11_hw6 => k11_hw6.2

def k11_off39 (v51 : BitVec 32) : Fin 2 → Nat :=
  let c0_i32_106 : BitVec 32 := 0#32
  ![v51.toNat, 0]

def k11_chk7 (v51 : BitVec 32) : Prop :=
  (∀ a, (k11_off14 v51) a + S1x262.size a ≤ S50000x262.size a) ∧
  (∀ a, (k11_off39 v51) a + S1x262.size a ≤ S50000x262.size a)
instance k11_chk7.dec : ∀ (v51 : BitVec 32), Decidable (k11_chk7 v51) := fun v51 => decidable_of_iff' _ (Iff.of_eq (k11_chk7.eq_1 v51))
theorem k11_off14_inb : ∀ (v51 : BitVec 32) (k11_hw7 : k11_chk7 v51), ∀ a, (k11_off14 v51) a + S1x262.size a ≤ S50000x262.size a := fun v51 k11_hw7 => k11_hw7.1
theorem k11_off39_inb : ∀ (v51 : BitVec 32) (k11_hw7 : k11_chk7 v51), ∀ a, (k11_off39 v51) a + S1x262.size a ≤ S50000x262.size a := fun v51 k11_hw7 => k11_hw7.2

def k11_off40 (v59 : BitVec 32) : Fin 2 → Nat :=
  let c0_i32_110 : BitVec 32 := 0#32
  ![v59.toNat, 0]

def k11_chk8 (v59 : BitVec 32) : Prop :=
  (∀ a, (k11_off16 v59) a + S1x262.size a ≤ S50000x262.size a) ∧
  (∀ a, (k11_off40 v59) a + S1x262.size a ≤ S50000x262.size a)
instance k11_chk8.dec : ∀ (v59 : BitVec 32), Decidable (k11_chk8 v59) := fun v59 => decidable_of_iff' _ (Iff.of_eq (k11_chk8.eq_1 v59))
theorem k11_off16_inb : ∀ (v59 : BitVec 32) (k11_hw8 : k11_chk8 v59), ∀ a, (k11_off16 v59) a + S1x262.size a ≤ S50000x262.size a := fun v59 k11_hw8 => k11_hw8.1
theorem k11_off40_inb : ∀ (v59 : BitVec 32) (k11_hw8 : k11_chk8 v59), ∀ a, (k11_off40 v59) a + S1x262.size a ≤ S50000x262.size a := fun v59 k11_hw8 => k11_hw8.2

def k11_off41 (v67 : BitVec 32) : Fin 2 → Nat :=
  let c0_i32_114 : BitVec 32 := 0#32
  ![v67.toNat, 0]

def k11_chk9 (v67 : BitVec 32) : Prop :=
  (∀ a, (k11_off18 v67) a + S1x262.size a ≤ S50000x262.size a) ∧
  (∀ a, (k11_off41 v67) a + S1x262.size a ≤ S50000x262.size a)
instance k11_chk9.dec : ∀ (v67 : BitVec 32), Decidable (k11_chk9 v67) := fun v67 => decidable_of_iff' _ (Iff.of_eq (k11_chk9.eq_1 v67))
theorem k11_off18_inb : ∀ (v67 : BitVec 32) (k11_hw9 : k11_chk9 v67), ∀ a, (k11_off18 v67) a + S1x262.size a ≤ S50000x262.size a := fun v67 k11_hw9 => k11_hw9.1
theorem k11_off41_inb : ∀ (v67 : BitVec 32) (k11_hw9 : k11_chk9 v67), ∀ a, (k11_off41 v67) a + S1x262.size a ≤ S50000x262.size a := fun v67 k11_hw9 => k11_hw9.2

def k11_off42 (v75 : BitVec 32) : Fin 2 → Nat :=
  let c0_i32_118 : BitVec 32 := 0#32
  ![v75.toNat, 0]

def k11_chk10 (v75 : BitVec 32) : Prop :=
  (∀ a, (k11_off20 v75) a + S1x262.size a ≤ S50000x262.size a) ∧
  (∀ a, (k11_off42 v75) a + S1x262.size a ≤ S50000x262.size a)
instance k11_chk10.dec : ∀ (v75 : BitVec 32), Decidable (k11_chk10 v75) := fun v75 => decidable_of_iff' _ (Iff.of_eq (k11_chk10.eq_1 v75))
theorem k11_off20_inb : ∀ (v75 : BitVec 32) (k11_hw10 : k11_chk10 v75), ∀ a, (k11_off20 v75) a + S1x262.size a ≤ S50000x262.size a := fun v75 k11_hw10 => k11_hw10.1
theorem k11_off42_inb : ∀ (v75 : BitVec 32) (k11_hw10 : k11_chk10 v75), ∀ a, (k11_off42 v75) a + S1x262.size a ≤ S50000x262.size a := fun v75 k11_hw10 => k11_hw10.2

def k11_off43 (v83 : BitVec 32) : Fin 2 → Nat :=
  let c0_i32_122 : BitVec 32 := 0#32
  ![v83.toNat, 0]

def k11_chk11 (v83 : BitVec 32) : Prop :=
  (∀ a, (k11_off22 v83) a + S1x262.size a ≤ S50000x262.size a) ∧
  (∀ a, (k11_off43 v83) a + S1x262.size a ≤ S50000x262.size a)
instance k11_chk11.dec : ∀ (v83 : BitVec 32), Decidable (k11_chk11 v83) := fun v83 => decidable_of_iff' _ (Iff.of_eq (k11_chk11.eq_1 v83))
theorem k11_off22_inb : ∀ (v83 : BitVec 32) (k11_hw11 : k11_chk11 v83), ∀ a, (k11_off22 v83) a + S1x262.size a ≤ S50000x262.size a := fun v83 k11_hw11 => k11_hw11.1
theorem k11_off43_inb : ∀ (v83 : BitVec 32) (k11_hw11 : k11_chk11 v83), ∀ a, (k11_off43 v83) a + S1x262.size a ≤ S50000x262.size a := fun v83 k11_hw11 => k11_hw11.2

def k11_off44 (v91 : BitVec 32) : Fin 2 → Nat :=
  let c0_i32_126 : BitVec 32 := 0#32
  ![v91.toNat, 0]

def k11_chk12 (v91 : BitVec 32) : Prop :=
  (∀ a, (k11_off24 v91) a + S1x262.size a ≤ S50000x262.size a) ∧
  (∀ a, (k11_off44 v91) a + S1x262.size a ≤ S50000x262.size a)
instance k11_chk12.dec : ∀ (v91 : BitVec 32), Decidable (k11_chk12 v91) := fun v91 => decidable_of_iff' _ (Iff.of_eq (k11_chk12.eq_1 v91))
theorem k11_off24_inb : ∀ (v91 : BitVec 32) (k11_hw12 : k11_chk12 v91), ∀ a, (k11_off24 v91) a + S1x262.size a ≤ S50000x262.size a := fun v91 k11_hw12 => k11_hw12.1
theorem k11_off44_inb : ∀ (v91 : BitVec 32) (k11_hw12 : k11_chk12 v91), ∀ a, (k11_off44 v91) a + S1x262.size a ≤ S50000x262.size a := fun v91 k11_hw12 => k11_hw12.2

def k11_off45 (v99 : BitVec 32) : Fin 2 → Nat :=
  let c0_i32_130 : BitVec 32 := 0#32
  ![v99.toNat, 0]

def k11_chk13 (v99 : BitVec 32) : Prop :=
  (∀ a, (k11_off26 v99) a + S1x262.size a ≤ S50000x262.size a) ∧
  (∀ a, (k11_off45 v99) a + S1x262.size a ≤ S50000x262.size a)
instance k11_chk13.dec : ∀ (v99 : BitVec 32), Decidable (k11_chk13 v99) := fun v99 => decidable_of_iff' _ (Iff.of_eq (k11_chk13.eq_1 v99))
theorem k11_off26_inb : ∀ (v99 : BitVec 32) (k11_hw13 : k11_chk13 v99), ∀ a, (k11_off26 v99) a + S1x262.size a ≤ S50000x262.size a := fun v99 k11_hw13 => k11_hw13.1
theorem k11_off45_inb : ∀ (v99 : BitVec 32) (k11_hw13 : k11_chk13 v99), ∀ a, (k11_off45 v99) a + S1x262.size a ≤ S50000x262.size a := fun v99 k11_hw13 => k11_hw13.2

def k11_off46 (v107 : BitVec 32) : Fin 2 → Nat :=
  let c0_i32_134 : BitVec 32 := 0#32
  ![v107.toNat, 0]

def k11_chk14 (v107 : BitVec 32) : Prop :=
  (∀ a, (k11_off28 v107) a + S1x262.size a ≤ S50000x262.size a) ∧
  (∀ a, (k11_off46 v107) a + S1x262.size a ≤ S50000x262.size a)
instance k11_chk14.dec : ∀ (v107 : BitVec 32), Decidable (k11_chk14 v107) := fun v107 => decidable_of_iff' _ (Iff.of_eq (k11_chk14.eq_1 v107))
theorem k11_off28_inb : ∀ (v107 : BitVec 32) (k11_hw14 : k11_chk14 v107), ∀ a, (k11_off28 v107) a + S1x262.size a ≤ S50000x262.size a := fun v107 k11_hw14 => k11_hw14.1
theorem k11_off46_inb : ∀ (v107 : BitVec 32) (k11_hw14 : k11_chk14 v107), ∀ a, (k11_off46 v107) a + S1x262.size a ≤ S50000x262.size a := fun v107 k11_hw14 => k11_hw14.2

def k11_off47 (v115 : BitVec 32) : Fin 2 → Nat :=
  let c0_i32_138 : BitVec 32 := 0#32
  ![v115.toNat, 0]

def k11_chk15 (v115 : BitVec 32) : Prop :=
  (∀ a, (k11_off30 v115) a + S1x262.size a ≤ S50000x262.size a) ∧
  (∀ a, (k11_off47 v115) a + S1x262.size a ≤ S50000x262.size a)
instance k11_chk15.dec : ∀ (v115 : BitVec 32), Decidable (k11_chk15 v115) := fun v115 => decidable_of_iff' _ (Iff.of_eq (k11_chk15.eq_1 v115))
theorem k11_off30_inb : ∀ (v115 : BitVec 32) (k11_hw15 : k11_chk15 v115), ∀ a, (k11_off30 v115) a + S1x262.size a ≤ S50000x262.size a := fun v115 k11_hw15 => k11_hw15.1
theorem k11_off47_inb : ∀ (v115 : BitVec 32) (k11_hw15 : k11_chk15 v115), ∀ a, (k11_off47 v115) a + S1x262.size a ≤ S50000x262.size a := fun v115 k11_hw15 => k11_hw15.2

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S16x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S16x262 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev grid12 : Pipeline.Grid := ⟨1, ![3125], ![false]⟩

abbrev pre12 : Pipeline.Prefetch sig := ⟨1, ![main_v76.idx], fun | 0 => main_v76.names | ⟨_ + 1, h⟩ => absurd h (Nat.not_lt.2 (Nat.le_add_left _ _)), fun | 0 => rfl | ⟨_ + 1, h⟩ => absurd h (Nat.not_lt.2 (Nat.le_add_left _ _))⟩

def k12_off1 (i : grid12.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k12_off2 (v3 : BitVec 32) : Fin 2 → Nat :=
  let c0_i32_3 : BitVec 32 := 0#32
  ![v3.toNat, 0]

def k12_off3 (i : grid12.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k12_off4 (v11 : BitVec 32) : Fin 2 → Nat :=
  let c0_i32_8 : BitVec 32 := 0#32
  ![v11.toNat, 0]

def k12_off5 (i : grid12.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k12_off6 (v19 : BitVec 32) : Fin 2 → Nat :=
  let c0_i32_13 : BitVec 32 := 0#32
  ![v19.toNat, 0]

def k12_off7 (i : grid12.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k12_off8 (v27 : BitVec 32) : Fin 2 → Nat :=
  let c0_i32_18 : BitVec 32 := 0#32
  ![v27.toNat, 0]

def k12_off9 (i : grid12.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k12_off10 (v35 : BitVec 32) : Fin 2 → Nat :=
  let c0_i32_23 : BitVec 32 := 0#32
  ![v35.toNat, 0]

def k12_off11 (i : grid12.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k12_off12 (v43 : BitVec 32) : Fin 2 → Nat :=
  let c0_i32_28 : BitVec 32 := 0#32
  ![v43.toNat, 0]

def k12_off13 (i : grid12.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k12_off14 (v51 : BitVec 32) : Fin 2 → Nat :=
  let c0_i32_33 : BitVec 32 := 0#32
  ![v51.toNat, 0]

def k12_off15 (i : grid12.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k12_off16 (v59 : BitVec 32) : Fin 2 → Nat :=
  let c0_i32_38 : BitVec 32 := 0#32
  ![v59.toNat, 0]

def k12_off17 (i : grid12.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k12_off18 (v67 : BitVec 32) : Fin 2 → Nat :=
  let c0_i32_43 : BitVec 32 := 0#32
  ![v67.toNat, 0]

def k12_off19 (i : grid12.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k12_off20 (v75 : BitVec 32) : Fin 2 → Nat :=
  let c0_i32_48 : BitVec 32 := 0#32
  ![v75.toNat, 0]

def k12_off21 (i : grid12.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k12_off22 (v83 : BitVec 32) : Fin 2 → Nat :=
  let c0_i32_53 : BitVec 32 := 0#32
  ![v83.toNat, 0]

def k12_off23 (i : grid12.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k12_off24 (v91 : BitVec 32) : Fin 2 → Nat :=
  let c0_i32_58 : BitVec 32 := 0#32
  ![v91.toNat, 0]

def k12_off25 (i : grid12.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k12_off26 (v99 : BitVec 32) : Fin 2 → Nat :=
  let c0_i32_63 : BitVec 32 := 0#32
  ![v99.toNat, 0]

def k12_off27 (i : grid12.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k12_off28 (v107 : BitVec 32) : Fin 2 → Nat :=
  let c0_i32_68 : BitVec 32 := 0#32
  ![v107.toNat, 0]

def k12_off29 (i : grid12.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k12_off30 (v115 : BitVec 32) : Fin 2 → Nat :=
  let c0_i32_73 : BitVec 32 := 0#32
  ![v115.toNat, 0]

def k12_off31 (i : grid12.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k12_off32 (v123 : BitVec 32) : Fin 2 → Nat :=
  let c0_i32_78 : BitVec 32 := 0#32
  ![v123.toNat, 0]

def k12_chk16 (v123 : BitVec 32) : Prop :=
  (∀ a, (k12_off32 v123) a + S1x262.size a ≤ S50000x262.size a)
instance k12_chk16.dec : ∀ (v123 : BitVec 32), Decidable (k12_chk16 v123) := fun v123 => decidable_of_iff' _ (Iff.of_eq (k12_chk16.eq_1 v123))
theorem k12_off32_inb : ∀ (v123 : BitVec 32) (k12_hw16 : k12_chk16 v123), ∀ a, (k12_off32 v123) a + S1x262.size a ≤ S50000x262.size a := fun v123 k12_hw16 => k12_hw16

def k12_off33 (v3 : BitVec 32) : Fin 2 → Nat :=
  let c0_i32_82 : BitVec 32 := 0#32
  ![v3.toNat, 0]

def k12_chk1 (v3 : BitVec 32) : Prop :=
  (∀ a, (k12_off2 v3) a + S1x262.size a ≤ S50000x262.size a) ∧
  (∀ a, (k12_off33 v3) a + S1x262.size a ≤ S50000x262.size a)
instance k12_chk1.dec : ∀ (v3 : BitVec 32), Decidable (k12_chk1 v3) := fun v3 => decidable_of_iff' _ (Iff.of_eq (k12_chk1.eq_1 v3))
theorem k12_off2_inb : ∀ (v3 : BitVec 32) (k12_hw1 : k12_chk1 v3), ∀ a, (k12_off2 v3) a + S1x262.size a ≤ S50000x262.size a := fun v3 k12_hw1 => k12_hw1.1
theorem k12_off33_inb : ∀ (v3 : BitVec 32) (k12_hw1 : k12_chk1 v3), ∀ a, (k12_off33 v3) a + S1x262.size a ≤ S50000x262.size a := fun v3 k12_hw1 => k12_hw1.2

def k12_off34 (v11 : BitVec 32) : Fin 2 → Nat :=
  let c0_i32_86 : BitVec 32 := 0#32
  ![v11.toNat, 0]

def k12_chk2 (v11 : BitVec 32) : Prop :=
  (∀ a, (k12_off4 v11) a + S1x262.size a ≤ S50000x262.size a) ∧
  (∀ a, (k12_off34 v11) a + S1x262.size a ≤ S50000x262.size a)
instance k12_chk2.dec : ∀ (v11 : BitVec 32), Decidable (k12_chk2 v11) := fun v11 => decidable_of_iff' _ (Iff.of_eq (k12_chk2.eq_1 v11))
theorem k12_off4_inb : ∀ (v11 : BitVec 32) (k12_hw2 : k12_chk2 v11), ∀ a, (k12_off4 v11) a + S1x262.size a ≤ S50000x262.size a := fun v11 k12_hw2 => k12_hw2.1
theorem k12_off34_inb : ∀ (v11 : BitVec 32) (k12_hw2 : k12_chk2 v11), ∀ a, (k12_off34 v11) a + S1x262.size a ≤ S50000x262.size a := fun v11 k12_hw2 => k12_hw2.2

def k12_off35 (v19 : BitVec 32) : Fin 2 → Nat :=
  let c0_i32_90 : BitVec 32 := 0#32
  ![v19.toNat, 0]

def k12_chk3 (v19 : BitVec 32) : Prop :=
  (∀ a, (k12_off6 v19) a + S1x262.size a ≤ S50000x262.size a) ∧
  (∀ a, (k12_off35 v19) a + S1x262.size a ≤ S50000x262.size a)
instance k12_chk3.dec : ∀ (v19 : BitVec 32), Decidable (k12_chk3 v19) := fun v19 => decidable_of_iff' _ (Iff.of_eq (k12_chk3.eq_1 v19))
theorem k12_off6_inb : ∀ (v19 : BitVec 32) (k12_hw3 : k12_chk3 v19), ∀ a, (k12_off6 v19) a + S1x262.size a ≤ S50000x262.size a := fun v19 k12_hw3 => k12_hw3.1
theorem k12_off35_inb : ∀ (v19 : BitVec 32) (k12_hw3 : k12_chk3 v19), ∀ a, (k12_off35 v19) a + S1x262.size a ≤ S50000x262.size a := fun v19 k12_hw3 => k12_hw3.2

def k12_off36 (v27 : BitVec 32) : Fin 2 → Nat :=
  let c0_i32_94 : BitVec 32 := 0#32
  ![v27.toNat, 0]

def k12_chk4 (v27 : BitVec 32) : Prop :=
  (∀ a, (k12_off8 v27) a + S1x262.size a ≤ S50000x262.size a) ∧
  (∀ a, (k12_off36 v27) a + S1x262.size a ≤ S50000x262.size a)
instance k12_chk4.dec : ∀ (v27 : BitVec 32), Decidable (k12_chk4 v27) := fun v27 => decidable_of_iff' _ (Iff.of_eq (k12_chk4.eq_1 v27))
theorem k12_off8_inb : ∀ (v27 : BitVec 32) (k12_hw4 : k12_chk4 v27), ∀ a, (k12_off8 v27) a + S1x262.size a ≤ S50000x262.size a := fun v27 k12_hw4 => k12_hw4.1
theorem k12_off36_inb : ∀ (v27 : BitVec 32) (k12_hw4 : k12_chk4 v27), ∀ a, (k12_off36 v27) a + S1x262.size a ≤ S50000x262.size a := fun v27 k12_hw4 => k12_hw4.2

def k12_off37 (v35 : BitVec 32) : Fin 2 → Nat :=
  let c0_i32_98 : BitVec 32 := 0#32
  ![v35.toNat, 0]

def k12_chk5 (v35 : BitVec 32) : Prop :=
  (∀ a, (k12_off10 v35) a + S1x262.size a ≤ S50000x262.size a) ∧
  (∀ a, (k12_off37 v35) a + S1x262.size a ≤ S50000x262.size a)
instance k12_chk5.dec : ∀ (v35 : BitVec 32), Decidable (k12_chk5 v35) := fun v35 => decidable_of_iff' _ (Iff.of_eq (k12_chk5.eq_1 v35))
theorem k12_off10_inb : ∀ (v35 : BitVec 32) (k12_hw5 : k12_chk5 v35), ∀ a, (k12_off10 v35) a + S1x262.size a ≤ S50000x262.size a := fun v35 k12_hw5 => k12_hw5.1
theorem k12_off37_inb : ∀ (v35 : BitVec 32) (k12_hw5 : k12_chk5 v35), ∀ a, (k12_off37 v35) a + S1x262.size a ≤ S50000x262.size a := fun v35 k12_hw5 => k12_hw5.2

def k12_off38 (v43 : BitVec 32) : Fin 2 → Nat :=
  let c0_i32_102 : BitVec 32 := 0#32
  ![v43.toNat, 0]

def k12_chk6 (v43 : BitVec 32) : Prop :=
  (∀ a, (k12_off12 v43) a + S1x262.size a ≤ S50000x262.size a) ∧
  (∀ a, (k12_off38 v43) a + S1x262.size a ≤ S50000x262.size a)
instance k12_chk6.dec : ∀ (v43 : BitVec 32), Decidable (k12_chk6 v43) := fun v43 => decidable_of_iff' _ (Iff.of_eq (k12_chk6.eq_1 v43))
theorem k12_off12_inb : ∀ (v43 : BitVec 32) (k12_hw6 : k12_chk6 v43), ∀ a, (k12_off12 v43) a + S1x262.size a ≤ S50000x262.size a := fun v43 k12_hw6 => k12_hw6.1
theorem k12_off38_inb : ∀ (v43 : BitVec 32) (k12_hw6 : k12_chk6 v43), ∀ a, (k12_off38 v43) a + S1x262.size a ≤ S50000x262.size a := fun v43 k12_hw6 => k12_hw6.2

def k12_off39 (v51 : BitVec 32) : Fin 2 → Nat :=
  let c0_i32_106 : BitVec 32 := 0#32
  ![v51.toNat, 0]

def k12_chk7 (v51 : BitVec 32) : Prop :=
  (∀ a, (k12_off14 v51) a + S1x262.size a ≤ S50000x262.size a) ∧
  (∀ a, (k12_off39 v51) a + S1x262.size a ≤ S50000x262.size a)
instance k12_chk7.dec : ∀ (v51 : BitVec 32), Decidable (k12_chk7 v51) := fun v51 => decidable_of_iff' _ (Iff.of_eq (k12_chk7.eq_1 v51))
theorem k12_off14_inb : ∀ (v51 : BitVec 32) (k12_hw7 : k12_chk7 v51), ∀ a, (k12_off14 v51) a + S1x262.size a ≤ S50000x262.size a := fun v51 k12_hw7 => k12_hw7.1
theorem k12_off39_inb : ∀ (v51 : BitVec 32) (k12_hw7 : k12_chk7 v51), ∀ a, (k12_off39 v51) a + S1x262.size a ≤ S50000x262.size a := fun v51 k12_hw7 => k12_hw7.2

def k12_off40 (v59 : BitVec 32) : Fin 2 → Nat :=
  let c0_i32_110 : BitVec 32 := 0#32
  ![v59.toNat, 0]

def k12_chk8 (v59 : BitVec 32) : Prop :=
  (∀ a, (k12_off16 v59) a + S1x262.size a ≤ S50000x262.size a) ∧
  (∀ a, (k12_off40 v59) a + S1x262.size a ≤ S50000x262.size a)
instance k12_chk8.dec : ∀ (v59 : BitVec 32), Decidable (k12_chk8 v59) := fun v59 => decidable_of_iff' _ (Iff.of_eq (k12_chk8.eq_1 v59))
theorem k12_off16_inb : ∀ (v59 : BitVec 32) (k12_hw8 : k12_chk8 v59), ∀ a, (k12_off16 v59) a + S1x262.size a ≤ S50000x262.size a := fun v59 k12_hw8 => k12_hw8.1
theorem k12_off40_inb : ∀ (v59 : BitVec 32) (k12_hw8 : k12_chk8 v59), ∀ a, (k12_off40 v59) a + S1x262.size a ≤ S50000x262.size a := fun v59 k12_hw8 => k12_hw8.2

def k12_off41 (v67 : BitVec 32) : Fin 2 → Nat :=
  let c0_i32_114 : BitVec 32 := 0#32
  ![v67.toNat, 0]

def k12_chk9 (v67 : BitVec 32) : Prop :=
  (∀ a, (k12_off18 v67) a + S1x262.size a ≤ S50000x262.size a) ∧
  (∀ a, (k12_off41 v67) a + S1x262.size a ≤ S50000x262.size a)
instance k12_chk9.dec : ∀ (v67 : BitVec 32), Decidable (k12_chk9 v67) := fun v67 => decidable_of_iff' _ (Iff.of_eq (k12_chk9.eq_1 v67))
theorem k12_off18_inb : ∀ (v67 : BitVec 32) (k12_hw9 : k12_chk9 v67), ∀ a, (k12_off18 v67) a + S1x262.size a ≤ S50000x262.size a := fun v67 k12_hw9 => k12_hw9.1
theorem k12_off41_inb : ∀ (v67 : BitVec 32) (k12_hw9 : k12_chk9 v67), ∀ a, (k12_off41 v67) a + S1x262.size a ≤ S50000x262.size a := fun v67 k12_hw9 => k12_hw9.2

def k12_off42 (v75 : BitVec 32) : Fin 2 → Nat :=
  let c0_i32_118 : BitVec 32 := 0#32
  ![v75.toNat, 0]

def k12_chk10 (v75 : BitVec 32) : Prop :=
  (∀ a, (k12_off20 v75) a + S1x262.size a ≤ S50000x262.size a) ∧
  (∀ a, (k12_off42 v75) a + S1x262.size a ≤ S50000x262.size a)
instance k12_chk10.dec : ∀ (v75 : BitVec 32), Decidable (k12_chk10 v75) := fun v75 => decidable_of_iff' _ (Iff.of_eq (k12_chk10.eq_1 v75))
theorem k12_off20_inb : ∀ (v75 : BitVec 32) (k12_hw10 : k12_chk10 v75), ∀ a, (k12_off20 v75) a + S1x262.size a ≤ S50000x262.size a := fun v75 k12_hw10 => k12_hw10.1
theorem k12_off42_inb : ∀ (v75 : BitVec 32) (k12_hw10 : k12_chk10 v75), ∀ a, (k12_off42 v75) a + S1x262.size a ≤ S50000x262.size a := fun v75 k12_hw10 => k12_hw10.2

def k12_off43 (v83 : BitVec 32) : Fin 2 → Nat :=
  let c0_i32_122 : BitVec 32 := 0#32
  ![v83.toNat, 0]

def k12_chk11 (v83 : BitVec 32) : Prop :=
  (∀ a, (k12_off22 v83) a + S1x262.size a ≤ S50000x262.size a) ∧
  (∀ a, (k12_off43 v83) a + S1x262.size a ≤ S50000x262.size a)
instance k12_chk11.dec : ∀ (v83 : BitVec 32), Decidable (k12_chk11 v83) := fun v83 => decidable_of_iff' _ (Iff.of_eq (k12_chk11.eq_1 v83))
theorem k12_off22_inb : ∀ (v83 : BitVec 32) (k12_hw11 : k12_chk11 v83), ∀ a, (k12_off22 v83) a + S1x262.size a ≤ S50000x262.size a := fun v83 k12_hw11 => k12_hw11.1
theorem k12_off43_inb : ∀ (v83 : BitVec 32) (k12_hw11 : k12_chk11 v83), ∀ a, (k12_off43 v83) a + S1x262.size a ≤ S50000x262.size a := fun v83 k12_hw11 => k12_hw11.2

def k12_off44 (v91 : BitVec 32) : Fin 2 → Nat :=
  let c0_i32_126 : BitVec 32 := 0#32
  ![v91.toNat, 0]

def k12_chk12 (v91 : BitVec 32) : Prop :=
  (∀ a, (k12_off24 v91) a + S1x262.size a ≤ S50000x262.size a) ∧
  (∀ a, (k12_off44 v91) a + S1x262.size a ≤ S50000x262.size a)
instance k12_chk12.dec : ∀ (v91 : BitVec 32), Decidable (k12_chk12 v91) := fun v91 => decidable_of_iff' _ (Iff.of_eq (k12_chk12.eq_1 v91))
theorem k12_off24_inb : ∀ (v91 : BitVec 32) (k12_hw12 : k12_chk12 v91), ∀ a, (k12_off24 v91) a + S1x262.size a ≤ S50000x262.size a := fun v91 k12_hw12 => k12_hw12.1
theorem k12_off44_inb : ∀ (v91 : BitVec 32) (k12_hw12 : k12_chk12 v91), ∀ a, (k12_off44 v91) a + S1x262.size a ≤ S50000x262.size a := fun v91 k12_hw12 => k12_hw12.2

def k12_off45 (v99 : BitVec 32) : Fin 2 → Nat :=
  let c0_i32_130 : BitVec 32 := 0#32
  ![v99.toNat, 0]

def k12_chk13 (v99 : BitVec 32) : Prop :=
  (∀ a, (k12_off26 v99) a + S1x262.size a ≤ S50000x262.size a) ∧
  (∀ a, (k12_off45 v99) a + S1x262.size a ≤ S50000x262.size a)
instance k12_chk13.dec : ∀ (v99 : BitVec 32), Decidable (k12_chk13 v99) := fun v99 => decidable_of_iff' _ (Iff.of_eq (k12_chk13.eq_1 v99))
theorem k12_off26_inb : ∀ (v99 : BitVec 32) (k12_hw13 : k12_chk13 v99), ∀ a, (k12_off26 v99) a + S1x262.size a ≤ S50000x262.size a := fun v99 k12_hw13 => k12_hw13.1
theorem k12_off45_inb : ∀ (v99 : BitVec 32) (k12_hw13 : k12_chk13 v99), ∀ a, (k12_off45 v99) a + S1x262.size a ≤ S50000x262.size a := fun v99 k12_hw13 => k12_hw13.2

def k12_off46 (v107 : BitVec 32) : Fin 2 → Nat :=
  let c0_i32_134 : BitVec 32 := 0#32
  ![v107.toNat, 0]

def k12_chk14 (v107 : BitVec 32) : Prop :=
  (∀ a, (k12_off28 v107) a + S1x262.size a ≤ S50000x262.size a) ∧
  (∀ a, (k12_off46 v107) a + S1x262.size a ≤ S50000x262.size a)
instance k12_chk14.dec : ∀ (v107 : BitVec 32), Decidable (k12_chk14 v107) := fun v107 => decidable_of_iff' _ (Iff.of_eq (k12_chk14.eq_1 v107))
theorem k12_off28_inb : ∀ (v107 : BitVec 32) (k12_hw14 : k12_chk14 v107), ∀ a, (k12_off28 v107) a + S1x262.size a ≤ S50000x262.size a := fun v107 k12_hw14 => k12_hw14.1
theorem k12_off46_inb : ∀ (v107 : BitVec 32) (k12_hw14 : k12_chk14 v107), ∀ a, (k12_off46 v107) a + S1x262.size a ≤ S50000x262.size a := fun v107 k12_hw14 => k12_hw14.2

def k12_off47 (v115 : BitVec 32) : Fin 2 → Nat :=
  let c0_i32_138 : BitVec 32 := 0#32
  ![v115.toNat, 0]

def k12_chk15 (v115 : BitVec 32) : Prop :=
  (∀ a, (k12_off30 v115) a + S1x262.size a ≤ S50000x262.size a) ∧
  (∀ a, (k12_off47 v115) a + S1x262.size a ≤ S50000x262.size a)
instance k12_chk15.dec : ∀ (v115 : BitVec 32), Decidable (k12_chk15 v115) := fun v115 => decidable_of_iff' _ (Iff.of_eq (k12_chk15.eq_1 v115))
theorem k12_off30_inb : ∀ (v115 : BitVec 32) (k12_hw15 : k12_chk15 v115), ∀ a, (k12_off30 v115) a + S1x262.size a ≤ S50000x262.size a := fun v115 k12_hw15 => k12_hw15.1
theorem k12_off47_inb : ∀ (v115 : BitVec 32) (k12_hw15 : k12_chk15 v115), ∀ a, (k12_off47 v115) a + S1x262.size a ≤ S50000x262.size a := fun v115 k12_hw15 => k12_hw15.2

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S16x1 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S16x262 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev grid13 : Pipeline.Grid := ⟨1, ![3125], ![false]⟩

abbrev pre13 : Pipeline.Prefetch sig := ⟨1, ![main_v79.idx], fun | 0 => main_v79.names | ⟨_ + 1, h⟩ => absurd h (Nat.not_lt.2 (Nat.le_add_left _ _)), fun | 0 => rfl | ⟨_ + 1, h⟩ => absurd h (Nat.not_lt.2 (Nat.le_add_left _ _))⟩

def k13_off1 (i : grid13.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k13_off2 (v3 : BitVec 32) : Fin 2 → Nat :=
  let c0_i32_3 : BitVec 32 := 0#32
  ![v3.toNat, 0]

def k13_off3 (i : grid13.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k13_off4 (v11 : BitVec 32) : Fin 2 → Nat :=
  let c0_i32_8 : BitVec 32 := 0#32
  ![v11.toNat, 0]

def k13_off5 (i : grid13.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k13_off6 (v19 : BitVec 32) : Fin 2 → Nat :=
  let c0_i32_13 : BitVec 32 := 0#32
  ![v19.toNat, 0]

def k13_off7 (i : grid13.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k13_off8 (v27 : BitVec 32) : Fin 2 → Nat :=
  let c0_i32_18 : BitVec 32 := 0#32
  ![v27.toNat, 0]

def k13_off9 (i : grid13.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k13_off10 (v35 : BitVec 32) : Fin 2 → Nat :=
  let c0_i32_23 : BitVec 32 := 0#32
  ![v35.toNat, 0]

def k13_off11 (i : grid13.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k13_off12 (v43 : BitVec 32) : Fin 2 → Nat :=
  let c0_i32_28 : BitVec 32 := 0#32
  ![v43.toNat, 0]

def k13_off13 (i : grid13.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k13_off14 (v51 : BitVec 32) : Fin 2 → Nat :=
  let c0_i32_33 : BitVec 32 := 0#32
  ![v51.toNat, 0]

def k13_off15 (i : grid13.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k13_off16 (v59 : BitVec 32) : Fin 2 → Nat :=
  let c0_i32_38 : BitVec 32 := 0#32
  ![v59.toNat, 0]

def k13_off17 (i : grid13.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k13_off18 (v67 : BitVec 32) : Fin 2 → Nat :=
  let c0_i32_43 : BitVec 32 := 0#32
  ![v67.toNat, 0]

def k13_off19 (i : grid13.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k13_off20 (v75 : BitVec 32) : Fin 2 → Nat :=
  let c0_i32_48 : BitVec 32 := 0#32
  ![v75.toNat, 0]

def k13_off21 (i : grid13.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k13_off22 (v83 : BitVec 32) : Fin 2 → Nat :=
  let c0_i32_53 : BitVec 32 := 0#32
  ![v83.toNat, 0]

def k13_off23 (i : grid13.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k13_off24 (v91 : BitVec 32) : Fin 2 → Nat :=
  let c0_i32_58 : BitVec 32 := 0#32
  ![v91.toNat, 0]

def k13_off25 (i : grid13.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k13_off26 (v99 : BitVec 32) : Fin 2 → Nat :=
  let c0_i32_63 : BitVec 32 := 0#32
  ![v99.toNat, 0]

def k13_off27 (i : grid13.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k13_off28 (v107 : BitVec 32) : Fin 2 → Nat :=
  let c0_i32_68 : BitVec 32 := 0#32
  ![v107.toNat, 0]

def k13_off29 (i : grid13.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k13_off30 (v115 : BitVec 32) : Fin 2 → Nat :=
  let c0_i32_73 : BitVec 32 := 0#32
  ![v115.toNat, 0]

def k13_off31 (i : grid13.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k13_off32 (v123 : BitVec 32) : Fin 2 → Nat :=
  let c0_i32_78 : BitVec 32 := 0#32
  ![v123.toNat, 0]

def k13_chk16 (v123 : BitVec 32) : Prop :=
  (∀ a, (k13_off32 v123) a + S1x262.size a ≤ S50000x262.size a)
instance k13_chk16.dec : ∀ (v123 : BitVec 32), Decidable (k13_chk16 v123) := fun v123 => decidable_of_iff' _ (Iff.of_eq (k13_chk16.eq_1 v123))
theorem k13_off32_inb : ∀ (v123 : BitVec 32) (k13_hw16 : k13_chk16 v123), ∀ a, (k13_off32 v123) a + S1x262.size a ≤ S50000x262.size a := fun v123 k13_hw16 => k13_hw16

def k13_off33 (v3 : BitVec 32) : Fin 2 → Nat :=
  let c0_i32_82 : BitVec 32 := 0#32
  ![v3.toNat, 0]

def k13_chk1 (v3 : BitVec 32) : Prop :=
  (∀ a, (k13_off2 v3) a + S1x262.size a ≤ S50000x262.size a) ∧
  (∀ a, (k13_off33 v3) a + S1x262.size a ≤ S50000x262.size a)
instance k13_chk1.dec : ∀ (v3 : BitVec 32), Decidable (k13_chk1 v3) := fun v3 => decidable_of_iff' _ (Iff.of_eq (k13_chk1.eq_1 v3))
theorem k13_off2_inb : ∀ (v3 : BitVec 32) (k13_hw1 : k13_chk1 v3), ∀ a, (k13_off2 v3) a + S1x262.size a ≤ S50000x262.size a := fun v3 k13_hw1 => k13_hw1.1
theorem k13_off33_inb : ∀ (v3 : BitVec 32) (k13_hw1 : k13_chk1 v3), ∀ a, (k13_off33 v3) a + S1x262.size a ≤ S50000x262.size a := fun v3 k13_hw1 => k13_hw1.2

def k13_off34 (v11 : BitVec 32) : Fin 2 → Nat :=
  let c0_i32_86 : BitVec 32 := 0#32
  ![v11.toNat, 0]

def k13_chk2 (v11 : BitVec 32) : Prop :=
  (∀ a, (k13_off4 v11) a + S1x262.size a ≤ S50000x262.size a) ∧
  (∀ a, (k13_off34 v11) a + S1x262.size a ≤ S50000x262.size a)
instance k13_chk2.dec : ∀ (v11 : BitVec 32), Decidable (k13_chk2 v11) := fun v11 => decidable_of_iff' _ (Iff.of_eq (k13_chk2.eq_1 v11))
theorem k13_off4_inb : ∀ (v11 : BitVec 32) (k13_hw2 : k13_chk2 v11), ∀ a, (k13_off4 v11) a + S1x262.size a ≤ S50000x262.size a := fun v11 k13_hw2 => k13_hw2.1
theorem k13_off34_inb : ∀ (v11 : BitVec 32) (k13_hw2 : k13_chk2 v11), ∀ a, (k13_off34 v11) a + S1x262.size a ≤ S50000x262.size a := fun v11 k13_hw2 => k13_hw2.2

def k13_off35 (v19 : BitVec 32) : Fin 2 → Nat :=
  let c0_i32_90 : BitVec 32 := 0#32
  ![v19.toNat, 0]

def k13_chk3 (v19 : BitVec 32) : Prop :=
  (∀ a, (k13_off6 v19) a + S1x262.size a ≤ S50000x262.size a) ∧
  (∀ a, (k13_off35 v19) a + S1x262.size a ≤ S50000x262.size a)
instance k13_chk3.dec : ∀ (v19 : BitVec 32), Decidable (k13_chk3 v19) := fun v19 => decidable_of_iff' _ (Iff.of_eq (k13_chk3.eq_1 v19))
theorem k13_off6_inb : ∀ (v19 : BitVec 32) (k13_hw3 : k13_chk3 v19), ∀ a, (k13_off6 v19) a + S1x262.size a ≤ S50000x262.size a := fun v19 k13_hw3 => k13_hw3.1
theorem k13_off35_inb : ∀ (v19 : BitVec 32) (k13_hw3 : k13_chk3 v19), ∀ a, (k13_off35 v19) a + S1x262.size a ≤ S50000x262.size a := fun v19 k13_hw3 => k13_hw3.2

def k13_off36 (v27 : BitVec 32) : Fin 2 → Nat :=
  let c0_i32_94 : BitVec 32 := 0#32
  ![v27.toNat, 0]

def k13_chk4 (v27 : BitVec 32) : Prop :=
  (∀ a, (k13_off8 v27) a + S1x262.size a ≤ S50000x262.size a) ∧
  (∀ a, (k13_off36 v27) a + S1x262.size a ≤ S50000x262.size a)
instance k13_chk4.dec : ∀ (v27 : BitVec 32), Decidable (k13_chk4 v27) := fun v27 => decidable_of_iff' _ (Iff.of_eq (k13_chk4.eq_1 v27))
theorem k13_off8_inb : ∀ (v27 : BitVec 32) (k13_hw4 : k13_chk4 v27), ∀ a, (k13_off8 v27) a + S1x262.size a ≤ S50000x262.size a := fun v27 k13_hw4 => k13_hw4.1
theorem k13_off36_inb : ∀ (v27 : BitVec 32) (k13_hw4 : k13_chk4 v27), ∀ a, (k13_off36 v27) a + S1x262.size a ≤ S50000x262.size a := fun v27 k13_hw4 => k13_hw4.2

def k13_off37 (v35 : BitVec 32) : Fin 2 → Nat :=
  let c0_i32_98 : BitVec 32 := 0#32
  ![v35.toNat, 0]

def k13_chk5 (v35 : BitVec 32) : Prop :=
  (∀ a, (k13_off10 v35) a + S1x262.size a ≤ S50000x262.size a) ∧
  (∀ a, (k13_off37 v35) a + S1x262.size a ≤ S50000x262.size a)
instance k13_chk5.dec : ∀ (v35 : BitVec 32), Decidable (k13_chk5 v35) := fun v35 => decidable_of_iff' _ (Iff.of_eq (k13_chk5.eq_1 v35))
theorem k13_off10_inb : ∀ (v35 : BitVec 32) (k13_hw5 : k13_chk5 v35), ∀ a, (k13_off10 v35) a + S1x262.size a ≤ S50000x262.size a := fun v35 k13_hw5 => k13_hw5.1
theorem k13_off37_inb : ∀ (v35 : BitVec 32) (k13_hw5 : k13_chk5 v35), ∀ a, (k13_off37 v35) a + S1x262.size a ≤ S50000x262.size a := fun v35 k13_hw5 => k13_hw5.2

def k13_off38 (v43 : BitVec 32) : Fin 2 → Nat :=
  let c0_i32_102 : BitVec 32 := 0#32
  ![v43.toNat, 0]

def k13_chk6 (v43 : BitVec 32) : Prop :=
  (∀ a, (k13_off12 v43) a + S1x262.size a ≤ S50000x262.size a) ∧
  (∀ a, (k13_off38 v43) a + S1x262.size a ≤ S50000x262.size a)
instance k13_chk6.dec : ∀ (v43 : BitVec 32), Decidable (k13_chk6 v43) := fun v43 => decidable_of_iff' _ (Iff.of_eq (k13_chk6.eq_1 v43))
theorem k13_off12_inb : ∀ (v43 : BitVec 32) (k13_hw6 : k13_chk6 v43), ∀ a, (k13_off12 v43) a + S1x262.size a ≤ S50000x262.size a := fun v43 k13_hw6 => k13_hw6.1
theorem k13_off38_inb : ∀ (v43 : BitVec 32) (k13_hw6 : k13_chk6 v43), ∀ a, (k13_off38 v43) a + S1x262.size a ≤ S50000x262.size a := fun v43 k13_hw6 => k13_hw6.2

def k13_off39 (v51 : BitVec 32) : Fin 2 → Nat :=
  let c0_i32_106 : BitVec 32 := 0#32
  ![v51.toNat, 0]

def k13_chk7 (v51 : BitVec 32) : Prop :=
  (∀ a, (k13_off14 v51) a + S1x262.size a ≤ S50000x262.size a) ∧
  (∀ a, (k13_off39 v51) a + S1x262.size a ≤ S50000x262.size a)
instance k13_chk7.dec : ∀ (v51 : BitVec 32), Decidable (k13_chk7 v51) := fun v51 => decidable_of_iff' _ (Iff.of_eq (k13_chk7.eq_1 v51))
theorem k13_off14_inb : ∀ (v51 : BitVec 32) (k13_hw7 : k13_chk7 v51), ∀ a, (k13_off14 v51) a + S1x262.size a ≤ S50000x262.size a := fun v51 k13_hw7 => k13_hw7.1
theorem k13_off39_inb : ∀ (v51 : BitVec 32) (k13_hw7 : k13_chk7 v51), ∀ a, (k13_off39 v51) a + S1x262.size a ≤ S50000x262.size a := fun v51 k13_hw7 => k13_hw7.2

def k13_off40 (v59 : BitVec 32) : Fin 2 → Nat :=
  let c0_i32_110 : BitVec 32 := 0#32
  ![v59.toNat, 0]

def k13_chk8 (v59 : BitVec 32) : Prop :=
  (∀ a, (k13_off16 v59) a + S1x262.size a ≤ S50000x262.size a) ∧
  (∀ a, (k13_off40 v59) a + S1x262.size a ≤ S50000x262.size a)
instance k13_chk8.dec : ∀ (v59 : BitVec 32), Decidable (k13_chk8 v59) := fun v59 => decidable_of_iff' _ (Iff.of_eq (k13_chk8.eq_1 v59))
theorem k13_off16_inb : ∀ (v59 : BitVec 32) (k13_hw8 : k13_chk8 v59), ∀ a, (k13_off16 v59) a + S1x262.size a ≤ S50000x262.size a := fun v59 k13_hw8 => k13_hw8.1
theorem k13_off40_inb : ∀ (v59 : BitVec 32) (k13_hw8 : k13_chk8 v59), ∀ a, (k13_off40 v59) a + S1x262.size a ≤ S50000x262.size a := fun v59 k13_hw8 => k13_hw8.2

def k13_off41 (v67 : BitVec 32) : Fin 2 → Nat :=
  let c0_i32_114 : BitVec 32 := 0#32
  ![v67.toNat, 0]

def k13_chk9 (v67 : BitVec 32) : Prop :=
  (∀ a, (k13_off18 v67) a + S1x262.size a ≤ S50000x262.size a) ∧
  (∀ a, (k13_off41 v67) a + S1x262.size a ≤ S50000x262.size a)
instance k13_chk9.dec : ∀ (v67 : BitVec 32), Decidable (k13_chk9 v67) := fun v67 => decidable_of_iff' _ (Iff.of_eq (k13_chk9.eq_1 v67))
theorem k13_off18_inb : ∀ (v67 : BitVec 32) (k13_hw9 : k13_chk9 v67), ∀ a, (k13_off18 v67) a + S1x262.size a ≤ S50000x262.size a := fun v67 k13_hw9 => k13_hw9.1
theorem k13_off41_inb : ∀ (v67 : BitVec 32) (k13_hw9 : k13_chk9 v67), ∀ a, (k13_off41 v67) a + S1x262.size a ≤ S50000x262.size a := fun v67 k13_hw9 => k13_hw9.2

def k13_off42 (v75 : BitVec 32) : Fin 2 → Nat :=
  let c0_i32_118 : BitVec 32 := 0#32
  ![v75.toNat, 0]

def k13_chk10 (v75 : BitVec 32) : Prop :=
  (∀ a, (k13_off20 v75) a + S1x262.size a ≤ S50000x262.size a) ∧
  (∀ a, (k13_off42 v75) a + S1x262.size a ≤ S50000x262.size a)
instance k13_chk10.dec : ∀ (v75 : BitVec 32), Decidable (k13_chk10 v75) := fun v75 => decidable_of_iff' _ (Iff.of_eq (k13_chk10.eq_1 v75))
theorem k13_off20_inb : ∀ (v75 : BitVec 32) (k13_hw10 : k13_chk10 v75), ∀ a, (k13_off20 v75) a + S1x262.size a ≤ S50000x262.size a := fun v75 k13_hw10 => k13_hw10.1
theorem k13_off42_inb : ∀ (v75 : BitVec 32) (k13_hw10 : k13_chk10 v75), ∀ a, (k13_off42 v75) a + S1x262.size a ≤ S50000x262.size a := fun v75 k13_hw10 => k13_hw10.2

def k13_off43 (v83 : BitVec 32) : Fin 2 → Nat :=
  let c0_i32_122 : BitVec 32 := 0#32
  ![v83.toNat, 0]

def k13_chk11 (v83 : BitVec 32) : Prop :=
  (∀ a, (k13_off22 v83) a + S1x262.size a ≤ S50000x262.size a) ∧
  (∀ a, (k13_off43 v83) a + S1x262.size a ≤ S50000x262.size a)
instance k13_chk11.dec : ∀ (v83 : BitVec 32), Decidable (k13_chk11 v83) := fun v83 => decidable_of_iff' _ (Iff.of_eq (k13_chk11.eq_1 v83))
theorem k13_off22_inb : ∀ (v83 : BitVec 32) (k13_hw11 : k13_chk11 v83), ∀ a, (k13_off22 v83) a + S1x262.size a ≤ S50000x262.size a := fun v83 k13_hw11 => k13_hw11.1
theorem k13_off43_inb : ∀ (v83 : BitVec 32) (k13_hw11 : k13_chk11 v83), ∀ a, (k13_off43 v83) a + S1x262.size a ≤ S50000x262.size a := fun v83 k13_hw11 => k13_hw11.2

def k13_off44 (v91 : BitVec 32) : Fin 2 → Nat :=
  let c0_i32_126 : BitVec 32 := 0#32
  ![v91.toNat, 0]

def k13_chk12 (v91 : BitVec 32) : Prop :=
  (∀ a, (k13_off24 v91) a + S1x262.size a ≤ S50000x262.size a) ∧
  (∀ a, (k13_off44 v91) a + S1x262.size a ≤ S50000x262.size a)
instance k13_chk12.dec : ∀ (v91 : BitVec 32), Decidable (k13_chk12 v91) := fun v91 => decidable_of_iff' _ (Iff.of_eq (k13_chk12.eq_1 v91))
theorem k13_off24_inb : ∀ (v91 : BitVec 32) (k13_hw12 : k13_chk12 v91), ∀ a, (k13_off24 v91) a + S1x262.size a ≤ S50000x262.size a := fun v91 k13_hw12 => k13_hw12.1
theorem k13_off44_inb : ∀ (v91 : BitVec 32) (k13_hw12 : k13_chk12 v91), ∀ a, (k13_off44 v91) a + S1x262.size a ≤ S50000x262.size a := fun v91 k13_hw12 => k13_hw12.2

def k13_off45 (v99 : BitVec 32) : Fin 2 → Nat :=
  let c0_i32_130 : BitVec 32 := 0#32
  ![v99.toNat, 0]

def k13_chk13 (v99 : BitVec 32) : Prop :=
  (∀ a, (k13_off26 v99) a + S1x262.size a ≤ S50000x262.size a) ∧
  (∀ a, (k13_off45 v99) a + S1x262.size a ≤ S50000x262.size a)
instance k13_chk13.dec : ∀ (v99 : BitVec 32), Decidable (k13_chk13 v99) := fun v99 => decidable_of_iff' _ (Iff.of_eq (k13_chk13.eq_1 v99))
theorem k13_off26_inb : ∀ (v99 : BitVec 32) (k13_hw13 : k13_chk13 v99), ∀ a, (k13_off26 v99) a + S1x262.size a ≤ S50000x262.size a := fun v99 k13_hw13 => k13_hw13.1
theorem k13_off45_inb : ∀ (v99 : BitVec 32) (k13_hw13 : k13_chk13 v99), ∀ a, (k13_off45 v99) a + S1x262.size a ≤ S50000x262.size a := fun v99 k13_hw13 => k13_hw13.2

def k13_off46 (v107 : BitVec 32) : Fin 2 → Nat :=
  let c0_i32_134 : BitVec 32 := 0#32
  ![v107.toNat, 0]

def k13_chk14 (v107 : BitVec 32) : Prop :=
  (∀ a, (k13_off28 v107) a + S1x262.size a ≤ S50000x262.size a) ∧
  (∀ a, (k13_off46 v107) a + S1x262.size a ≤ S50000x262.size a)
instance k13_chk14.dec : ∀ (v107 : BitVec 32), Decidable (k13_chk14 v107) := fun v107 => decidable_of_iff' _ (Iff.of_eq (k13_chk14.eq_1 v107))
theorem k13_off28_inb : ∀ (v107 : BitVec 32) (k13_hw14 : k13_chk14 v107), ∀ a, (k13_off28 v107) a + S1x262.size a ≤ S50000x262.size a := fun v107 k13_hw14 => k13_hw14.1
theorem k13_off46_inb : ∀ (v107 : BitVec 32) (k13_hw14 : k13_chk14 v107), ∀ a, (k13_off46 v107) a + S1x262.size a ≤ S50000x262.size a := fun v107 k13_hw14 => k13_hw14.2

def k13_off47 (v115 : BitVec 32) : Fin 2 → Nat :=
  let c0_i32_138 : BitVec 32 := 0#32
  ![v115.toNat, 0]

def k13_chk15 (v115 : BitVec 32) : Prop :=
  (∀ a, (k13_off30 v115) a + S1x262.size a ≤ S50000x262.size a) ∧
  (∀ a, (k13_off47 v115) a + S1x262.size a ≤ S50000x262.size a)
instance k13_chk15.dec : ∀ (v115 : BitVec 32), Decidable (k13_chk15 v115) := fun v115 => decidable_of_iff' _ (Iff.of_eq (k13_chk15.eq_1 v115))
theorem k13_off30_inb : ∀ (v115 : BitVec 32) (k13_hw15 : k13_chk15 v115), ∀ a, (k13_off30 v115) a + S1x262.size a ≤ S50000x262.size a := fun v115 k13_hw15 => k13_hw15.1
theorem k13_off47_inb : ∀ (v115 : BitVec 32) (k13_hw15 : k13_chk15 v115), ∀ a, (k13_off47 v115) a + S1x262.size a ≤ S50000x262.size a := fun v115 k13_hw15 => k13_hw15.2

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S16x1 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S16x262 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev grid14 : Pipeline.Grid := ⟨1, ![3125], ![false]⟩

abbrev pre14 : Pipeline.Prefetch sig := ⟨1, ![main_v82.idx], fun | 0 => main_v82.names | ⟨_ + 1, h⟩ => absurd h (Nat.not_lt.2 (Nat.le_add_left _ _)), fun | 0 => rfl | ⟨_ + 1, h⟩ => absurd h (Nat.not_lt.2 (Nat.le_add_left _ _))⟩

def k14_off1 (i : grid14.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k14_off2 (v3 : BitVec 32) : Fin 2 → Nat :=
  let c0_i32_3 : BitVec 32 := 0#32
  ![v3.toNat, 0]

def k14_off3 (i : grid14.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k14_off4 (v11 : BitVec 32) : Fin 2 → Nat :=
  let c0_i32_8 : BitVec 32 := 0#32
  ![v11.toNat, 0]

def k14_off5 (i : grid14.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k14_off6 (v19 : BitVec 32) : Fin 2 → Nat :=
  let c0_i32_13 : BitVec 32 := 0#32
  ![v19.toNat, 0]

def k14_off7 (i : grid14.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k14_off8 (v27 : BitVec 32) : Fin 2 → Nat :=
  let c0_i32_18 : BitVec 32 := 0#32
  ![v27.toNat, 0]

def k14_off9 (i : grid14.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k14_off10 (v35 : BitVec 32) : Fin 2 → Nat :=
  let c0_i32_23 : BitVec 32 := 0#32
  ![v35.toNat, 0]

def k14_off11 (i : grid14.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k14_off12 (v43 : BitVec 32) : Fin 2 → Nat :=
  let c0_i32_28 : BitVec 32 := 0#32
  ![v43.toNat, 0]

def k14_off13 (i : grid14.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k14_off14 (v51 : BitVec 32) : Fin 2 → Nat :=
  let c0_i32_33 : BitVec 32 := 0#32
  ![v51.toNat, 0]

def k14_off15 (i : grid14.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k14_off16 (v59 : BitVec 32) : Fin 2 → Nat :=
  let c0_i32_38 : BitVec 32 := 0#32
  ![v59.toNat, 0]

def k14_off17 (i : grid14.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k14_off18 (v67 : BitVec 32) : Fin 2 → Nat :=
  let c0_i32_43 : BitVec 32 := 0#32
  ![v67.toNat, 0]

def k14_off19 (i : grid14.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k14_off20 (v75 : BitVec 32) : Fin 2 → Nat :=
  let c0_i32_48 : BitVec 32 := 0#32
  ![v75.toNat, 0]

def k14_off21 (i : grid14.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k14_off22 (v83 : BitVec 32) : Fin 2 → Nat :=
  let c0_i32_53 : BitVec 32 := 0#32
  ![v83.toNat, 0]

def k14_off23 (i : grid14.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k14_off24 (v91 : BitVec 32) : Fin 2 → Nat :=
  let c0_i32_58 : BitVec 32 := 0#32
  ![v91.toNat, 0]

def k14_off25 (i : grid14.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k14_off26 (v99 : BitVec 32) : Fin 2 → Nat :=
  let c0_i32_63 : BitVec 32 := 0#32
  ![v99.toNat, 0]

def k14_off27 (i : grid14.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k14_off28 (v107 : BitVec 32) : Fin 2 → Nat :=
  let c0_i32_68 : BitVec 32 := 0#32
  ![v107.toNat, 0]

def k14_off29 (i : grid14.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k14_off30 (v115 : BitVec 32) : Fin 2 → Nat :=
  let c0_i32_73 : BitVec 32 := 0#32
  ![v115.toNat, 0]

def k14_off31 (i : grid14.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k14_off32 (v123 : BitVec 32) : Fin 2 → Nat :=
  let c0_i32_78 : BitVec 32 := 0#32
  ![v123.toNat, 0]

def k14_chk16 (v123 : BitVec 32) : Prop :=
  (∀ a, (k14_off32 v123) a + S1x262.size a ≤ S50000x262.size a)
instance k14_chk16.dec : ∀ (v123 : BitVec 32), Decidable (k14_chk16 v123) := fun v123 => decidable_of_iff' _ (Iff.of_eq (k14_chk16.eq_1 v123))
theorem k14_off32_inb : ∀ (v123 : BitVec 32) (k14_hw16 : k14_chk16 v123), ∀ a, (k14_off32 v123) a + S1x262.size a ≤ S50000x262.size a := fun v123 k14_hw16 => k14_hw16

def k14_off33 (v3 : BitVec 32) : Fin 2 → Nat :=
  let c0_i32_82 : BitVec 32 := 0#32
  ![v3.toNat, 0]

def k14_chk1 (v3 : BitVec 32) : Prop :=
  (∀ a, (k14_off2 v3) a + S1x262.size a ≤ S50000x262.size a) ∧
  (∀ a, (k14_off33 v3) a + S1x262.size a ≤ S50000x262.size a)
instance k14_chk1.dec : ∀ (v3 : BitVec 32), Decidable (k14_chk1 v3) := fun v3 => decidable_of_iff' _ (Iff.of_eq (k14_chk1.eq_1 v3))
theorem k14_off2_inb : ∀ (v3 : BitVec 32) (k14_hw1 : k14_chk1 v3), ∀ a, (k14_off2 v3) a + S1x262.size a ≤ S50000x262.size a := fun v3 k14_hw1 => k14_hw1.1
theorem k14_off33_inb : ∀ (v3 : BitVec 32) (k14_hw1 : k14_chk1 v3), ∀ a, (k14_off33 v3) a + S1x262.size a ≤ S50000x262.size a := fun v3 k14_hw1 => k14_hw1.2

def k14_off34 (v11 : BitVec 32) : Fin 2 → Nat :=
  let c0_i32_86 : BitVec 32 := 0#32
  ![v11.toNat, 0]

def k14_chk2 (v11 : BitVec 32) : Prop :=
  (∀ a, (k14_off4 v11) a + S1x262.size a ≤ S50000x262.size a) ∧
  (∀ a, (k14_off34 v11) a + S1x262.size a ≤ S50000x262.size a)
instance k14_chk2.dec : ∀ (v11 : BitVec 32), Decidable (k14_chk2 v11) := fun v11 => decidable_of_iff' _ (Iff.of_eq (k14_chk2.eq_1 v11))
theorem k14_off4_inb : ∀ (v11 : BitVec 32) (k14_hw2 : k14_chk2 v11), ∀ a, (k14_off4 v11) a + S1x262.size a ≤ S50000x262.size a := fun v11 k14_hw2 => k14_hw2.1
theorem k14_off34_inb : ∀ (v11 : BitVec 32) (k14_hw2 : k14_chk2 v11), ∀ a, (k14_off34 v11) a + S1x262.size a ≤ S50000x262.size a := fun v11 k14_hw2 => k14_hw2.2

def k14_off35 (v19 : BitVec 32) : Fin 2 → Nat :=
  let c0_i32_90 : BitVec 32 := 0#32
  ![v19.toNat, 0]

def k14_chk3 (v19 : BitVec 32) : Prop :=
  (∀ a, (k14_off6 v19) a + S1x262.size a ≤ S50000x262.size a) ∧
  (∀ a, (k14_off35 v19) a + S1x262.size a ≤ S50000x262.size a)
instance k14_chk3.dec : ∀ (v19 : BitVec 32), Decidable (k14_chk3 v19) := fun v19 => decidable_of_iff' _ (Iff.of_eq (k14_chk3.eq_1 v19))
theorem k14_off6_inb : ∀ (v19 : BitVec 32) (k14_hw3 : k14_chk3 v19), ∀ a, (k14_off6 v19) a + S1x262.size a ≤ S50000x262.size a := fun v19 k14_hw3 => k14_hw3.1
theorem k14_off35_inb : ∀ (v19 : BitVec 32) (k14_hw3 : k14_chk3 v19), ∀ a, (k14_off35 v19) a + S1x262.size a ≤ S50000x262.size a := fun v19 k14_hw3 => k14_hw3.2

def k14_off36 (v27 : BitVec 32) : Fin 2 → Nat :=
  let c0_i32_94 : BitVec 32 := 0#32
  ![v27.toNat, 0]

def k14_chk4 (v27 : BitVec 32) : Prop :=
  (∀ a, (k14_off8 v27) a + S1x262.size a ≤ S50000x262.size a) ∧
  (∀ a, (k14_off36 v27) a + S1x262.size a ≤ S50000x262.size a)
instance k14_chk4.dec : ∀ (v27 : BitVec 32), Decidable (k14_chk4 v27) := fun v27 => decidable_of_iff' _ (Iff.of_eq (k14_chk4.eq_1 v27))
theorem k14_off8_inb : ∀ (v27 : BitVec 32) (k14_hw4 : k14_chk4 v27), ∀ a, (k14_off8 v27) a + S1x262.size a ≤ S50000x262.size a := fun v27 k14_hw4 => k14_hw4.1
theorem k14_off36_inb : ∀ (v27 : BitVec 32) (k14_hw4 : k14_chk4 v27), ∀ a, (k14_off36 v27) a + S1x262.size a ≤ S50000x262.size a := fun v27 k14_hw4 => k14_hw4.2

def k14_off37 (v35 : BitVec 32) : Fin 2 → Nat :=
  let c0_i32_98 : BitVec 32 := 0#32
  ![v35.toNat, 0]

def k14_chk5 (v35 : BitVec 32) : Prop :=
  (∀ a, (k14_off10 v35) a + S1x262.size a ≤ S50000x262.size a) ∧
  (∀ a, (k14_off37 v35) a + S1x262.size a ≤ S50000x262.size a)
instance k14_chk5.dec : ∀ (v35 : BitVec 32), Decidable (k14_chk5 v35) := fun v35 => decidable_of_iff' _ (Iff.of_eq (k14_chk5.eq_1 v35))
theorem k14_off10_inb : ∀ (v35 : BitVec 32) (k14_hw5 : k14_chk5 v35), ∀ a, (k14_off10 v35) a + S1x262.size a ≤ S50000x262.size a := fun v35 k14_hw5 => k14_hw5.1
theorem k14_off37_inb : ∀ (v35 : BitVec 32) (k14_hw5 : k14_chk5 v35), ∀ a, (k14_off37 v35) a + S1x262.size a ≤ S50000x262.size a := fun v35 k14_hw5 => k14_hw5.2

def k14_off38 (v43 : BitVec 32) : Fin 2 → Nat :=
  let c0_i32_102 : BitVec 32 := 0#32
  ![v43.toNat, 0]

def k14_chk6 (v43 : BitVec 32) : Prop :=
  (∀ a, (k14_off12 v43) a + S1x262.size a ≤ S50000x262.size a) ∧
  (∀ a, (k14_off38 v43) a + S1x262.size a ≤ S50000x262.size a)
instance k14_chk6.dec : ∀ (v43 : BitVec 32), Decidable (k14_chk6 v43) := fun v43 => decidable_of_iff' _ (Iff.of_eq (k14_chk6.eq_1 v43))
theorem k14_off12_inb : ∀ (v43 : BitVec 32) (k14_hw6 : k14_chk6 v43), ∀ a, (k14_off12 v43) a + S1x262.size a ≤ S50000x262.size a := fun v43 k14_hw6 => k14_hw6.1
theorem k14_off38_inb : ∀ (v43 : BitVec 32) (k14_hw6 : k14_chk6 v43), ∀ a, (k14_off38 v43) a + S1x262.size a ≤ S50000x262.size a := fun v43 k14_hw6 => k14_hw6.2

def k14_off39 (v51 : BitVec 32) : Fin 2 → Nat :=
  let c0_i32_106 : BitVec 32 := 0#32
  ![v51.toNat, 0]

def k14_chk7 (v51 : BitVec 32) : Prop :=
  (∀ a, (k14_off14 v51) a + S1x262.size a ≤ S50000x262.size a) ∧
  (∀ a, (k14_off39 v51) a + S1x262.size a ≤ S50000x262.size a)
instance k14_chk7.dec : ∀ (v51 : BitVec 32), Decidable (k14_chk7 v51) := fun v51 => decidable_of_iff' _ (Iff.of_eq (k14_chk7.eq_1 v51))
theorem k14_off14_inb : ∀ (v51 : BitVec 32) (k14_hw7 : k14_chk7 v51), ∀ a, (k14_off14 v51) a + S1x262.size a ≤ S50000x262.size a := fun v51 k14_hw7 => k14_hw7.1
theorem k14_off39_inb : ∀ (v51 : BitVec 32) (k14_hw7 : k14_chk7 v51), ∀ a, (k14_off39 v51) a + S1x262.size a ≤ S50000x262.size a := fun v51 k14_hw7 => k14_hw7.2

def k14_off40 (v59 : BitVec 32) : Fin 2 → Nat :=
  let c0_i32_110 : BitVec 32 := 0#32
  ![v59.toNat, 0]

def k14_chk8 (v59 : BitVec 32) : Prop :=
  (∀ a, (k14_off16 v59) a + S1x262.size a ≤ S50000x262.size a) ∧
  (∀ a, (k14_off40 v59) a + S1x262.size a ≤ S50000x262.size a)
instance k14_chk8.dec : ∀ (v59 : BitVec 32), Decidable (k14_chk8 v59) := fun v59 => decidable_of_iff' _ (Iff.of_eq (k14_chk8.eq_1 v59))
theorem k14_off16_inb : ∀ (v59 : BitVec 32) (k14_hw8 : k14_chk8 v59), ∀ a, (k14_off16 v59) a + S1x262.size a ≤ S50000x262.size a := fun v59 k14_hw8 => k14_hw8.1
theorem k14_off40_inb : ∀ (v59 : BitVec 32) (k14_hw8 : k14_chk8 v59), ∀ a, (k14_off40 v59) a + S1x262.size a ≤ S50000x262.size a := fun v59 k14_hw8 => k14_hw8.2

def k14_off41 (v67 : BitVec 32) : Fin 2 → Nat :=
  let c0_i32_114 : BitVec 32 := 0#32
  ![v67.toNat, 0]

def k14_chk9 (v67 : BitVec 32) : Prop :=
  (∀ a, (k14_off18 v67) a + S1x262.size a ≤ S50000x262.size a) ∧
  (∀ a, (k14_off41 v67) a + S1x262.size a ≤ S50000x262.size a)
instance k14_chk9.dec : ∀ (v67 : BitVec 32), Decidable (k14_chk9 v67) := fun v67 => decidable_of_iff' _ (Iff.of_eq (k14_chk9.eq_1 v67))
theorem k14_off18_inb : ∀ (v67 : BitVec 32) (k14_hw9 : k14_chk9 v67), ∀ a, (k14_off18 v67) a + S1x262.size a ≤ S50000x262.size a := fun v67 k14_hw9 => k14_hw9.1
theorem k14_off41_inb : ∀ (v67 : BitVec 32) (k14_hw9 : k14_chk9 v67), ∀ a, (k14_off41 v67) a + S1x262.size a ≤ S50000x262.size a := fun v67 k14_hw9 => k14_hw9.2

def k14_off42 (v75 : BitVec 32) : Fin 2 → Nat :=
  let c0_i32_118 : BitVec 32 := 0#32
  ![v75.toNat, 0]

def k14_chk10 (v75 : BitVec 32) : Prop :=
  (∀ a, (k14_off20 v75) a + S1x262.size a ≤ S50000x262.size a) ∧
  (∀ a, (k14_off42 v75) a + S1x262.size a ≤ S50000x262.size a)
instance k14_chk10.dec : ∀ (v75 : BitVec 32), Decidable (k14_chk10 v75) := fun v75 => decidable_of_iff' _ (Iff.of_eq (k14_chk10.eq_1 v75))
theorem k14_off20_inb : ∀ (v75 : BitVec 32) (k14_hw10 : k14_chk10 v75), ∀ a, (k14_off20 v75) a + S1x262.size a ≤ S50000x262.size a := fun v75 k14_hw10 => k14_hw10.1
theorem k14_off42_inb : ∀ (v75 : BitVec 32) (k14_hw10 : k14_chk10 v75), ∀ a, (k14_off42 v75) a + S1x262.size a ≤ S50000x262.size a := fun v75 k14_hw10 => k14_hw10.2

def k14_off43 (v83 : BitVec 32) : Fin 2 → Nat :=
  let c0_i32_122 : BitVec 32 := 0#32
  ![v83.toNat, 0]

def k14_chk11 (v83 : BitVec 32) : Prop :=
  (∀ a, (k14_off22 v83) a + S1x262.size a ≤ S50000x262.size a) ∧
  (∀ a, (k14_off43 v83) a + S1x262.size a ≤ S50000x262.size a)
instance k14_chk11.dec : ∀ (v83 : BitVec 32), Decidable (k14_chk11 v83) := fun v83 => decidable_of_iff' _ (Iff.of_eq (k14_chk11.eq_1 v83))
theorem k14_off22_inb : ∀ (v83 : BitVec 32) (k14_hw11 : k14_chk11 v83), ∀ a, (k14_off22 v83) a + S1x262.size a ≤ S50000x262.size a := fun v83 k14_hw11 => k14_hw11.1
theorem k14_off43_inb : ∀ (v83 : BitVec 32) (k14_hw11 : k14_chk11 v83), ∀ a, (k14_off43 v83) a + S1x262.size a ≤ S50000x262.size a := fun v83 k14_hw11 => k14_hw11.2

def k14_off44 (v91 : BitVec 32) : Fin 2 → Nat :=
  let c0_i32_126 : BitVec 32 := 0#32
  ![v91.toNat, 0]

def k14_chk12 (v91 : BitVec 32) : Prop :=
  (∀ a, (k14_off24 v91) a + S1x262.size a ≤ S50000x262.size a) ∧
  (∀ a, (k14_off44 v91) a + S1x262.size a ≤ S50000x262.size a)
instance k14_chk12.dec : ∀ (v91 : BitVec 32), Decidable (k14_chk12 v91) := fun v91 => decidable_of_iff' _ (Iff.of_eq (k14_chk12.eq_1 v91))
theorem k14_off24_inb : ∀ (v91 : BitVec 32) (k14_hw12 : k14_chk12 v91), ∀ a, (k14_off24 v91) a + S1x262.size a ≤ S50000x262.size a := fun v91 k14_hw12 => k14_hw12.1
theorem k14_off44_inb : ∀ (v91 : BitVec 32) (k14_hw12 : k14_chk12 v91), ∀ a, (k14_off44 v91) a + S1x262.size a ≤ S50000x262.size a := fun v91 k14_hw12 => k14_hw12.2

def k14_off45 (v99 : BitVec 32) : Fin 2 → Nat :=
  let c0_i32_130 : BitVec 32 := 0#32
  ![v99.toNat, 0]

def k14_chk13 (v99 : BitVec 32) : Prop :=
  (∀ a, (k14_off26 v99) a + S1x262.size a ≤ S50000x262.size a) ∧
  (∀ a, (k14_off45 v99) a + S1x262.size a ≤ S50000x262.size a)
instance k14_chk13.dec : ∀ (v99 : BitVec 32), Decidable (k14_chk13 v99) := fun v99 => decidable_of_iff' _ (Iff.of_eq (k14_chk13.eq_1 v99))
theorem k14_off26_inb : ∀ (v99 : BitVec 32) (k14_hw13 : k14_chk13 v99), ∀ a, (k14_off26 v99) a + S1x262.size a ≤ S50000x262.size a := fun v99 k14_hw13 => k14_hw13.1
theorem k14_off45_inb : ∀ (v99 : BitVec 32) (k14_hw13 : k14_chk13 v99), ∀ a, (k14_off45 v99) a + S1x262.size a ≤ S50000x262.size a := fun v99 k14_hw13 => k14_hw13.2

def k14_off46 (v107 : BitVec 32) : Fin 2 → Nat :=
  let c0_i32_134 : BitVec 32 := 0#32
  ![v107.toNat, 0]

def k14_chk14 (v107 : BitVec 32) : Prop :=
  (∀ a, (k14_off28 v107) a + S1x262.size a ≤ S50000x262.size a) ∧
  (∀ a, (k14_off46 v107) a + S1x262.size a ≤ S50000x262.size a)
instance k14_chk14.dec : ∀ (v107 : BitVec 32), Decidable (k14_chk14 v107) := fun v107 => decidable_of_iff' _ (Iff.of_eq (k14_chk14.eq_1 v107))
theorem k14_off28_inb : ∀ (v107 : BitVec 32) (k14_hw14 : k14_chk14 v107), ∀ a, (k14_off28 v107) a + S1x262.size a ≤ S50000x262.size a := fun v107 k14_hw14 => k14_hw14.1
theorem k14_off46_inb : ∀ (v107 : BitVec 32) (k14_hw14 : k14_chk14 v107), ∀ a, (k14_off46 v107) a + S1x262.size a ≤ S50000x262.size a := fun v107 k14_hw14 => k14_hw14.2

def k14_off47 (v115 : BitVec 32) : Fin 2 → Nat :=
  let c0_i32_138 : BitVec 32 := 0#32
  ![v115.toNat, 0]

def k14_chk15 (v115 : BitVec 32) : Prop :=
  (∀ a, (k14_off30 v115) a + S1x262.size a ≤ S50000x262.size a) ∧
  (∀ a, (k14_off47 v115) a + S1x262.size a ≤ S50000x262.size a)
instance k14_chk15.dec : ∀ (v115 : BitVec 32), Decidable (k14_chk15 v115) := fun v115 => decidable_of_iff' _ (Iff.of_eq (k14_chk15.eq_1 v115))
theorem k14_off30_inb : ∀ (v115 : BitVec 32) (k14_hw15 : k14_chk15 v115), ∀ a, (k14_off30 v115) a + S1x262.size a ≤ S50000x262.size a := fun v115 k14_hw15 => k14_hw15.1
theorem k14_off47_inb : ∀ (v115 : BitVec 32) (k14_hw15 : k14_chk15 v115), ∀ a, (k14_off47 v115) a + S1x262.size a ≤ S50000x262.size a := fun v115 k14_hw15 => k14_hw15.2

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S16x1 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S16x262 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev grid15 : Pipeline.Grid := ⟨1, ![3125], ![false]⟩

abbrev pre15 : Pipeline.Prefetch sig := ⟨1, ![main_v85.idx], fun | 0 => main_v85.names | ⟨_ + 1, h⟩ => absurd h (Nat.not_lt.2 (Nat.le_add_left _ _)), fun | 0 => rfl | ⟨_ + 1, h⟩ => absurd h (Nat.not_lt.2 (Nat.le_add_left _ _))⟩

def k15_off1 (i : grid15.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k15_off2 (v3 : BitVec 32) : Fin 2 → Nat :=
  let c0_i32_3 : BitVec 32 := 0#32
  ![v3.toNat, 0]

def k15_off3 (i : grid15.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k15_off4 (v11 : BitVec 32) : Fin 2 → Nat :=
  let c0_i32_8 : BitVec 32 := 0#32
  ![v11.toNat, 0]

def k15_off5 (i : grid15.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k15_off6 (v19 : BitVec 32) : Fin 2 → Nat :=
  let c0_i32_13 : BitVec 32 := 0#32
  ![v19.toNat, 0]

def k15_off7 (i : grid15.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k15_off8 (v27 : BitVec 32) : Fin 2 → Nat :=
  let c0_i32_18 : BitVec 32 := 0#32
  ![v27.toNat, 0]

def k15_off9 (i : grid15.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k15_off10 (v35 : BitVec 32) : Fin 2 → Nat :=
  let c0_i32_23 : BitVec 32 := 0#32
  ![v35.toNat, 0]

def k15_off11 (i : grid15.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k15_off12 (v43 : BitVec 32) : Fin 2 → Nat :=
  let c0_i32_28 : BitVec 32 := 0#32
  ![v43.toNat, 0]

def k15_off13 (i : grid15.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k15_off14 (v51 : BitVec 32) : Fin 2 → Nat :=
  let c0_i32_33 : BitVec 32 := 0#32
  ![v51.toNat, 0]

def k15_off15 (i : grid15.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k15_off16 (v59 : BitVec 32) : Fin 2 → Nat :=
  let c0_i32_38 : BitVec 32 := 0#32
  ![v59.toNat, 0]

def k15_off17 (i : grid15.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k15_off18 (v67 : BitVec 32) : Fin 2 → Nat :=
  let c0_i32_43 : BitVec 32 := 0#32
  ![v67.toNat, 0]

def k15_off19 (i : grid15.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k15_off20 (v75 : BitVec 32) : Fin 2 → Nat :=
  let c0_i32_48 : BitVec 32 := 0#32
  ![v75.toNat, 0]

def k15_off21 (i : grid15.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k15_off22 (v83 : BitVec 32) : Fin 2 → Nat :=
  let c0_i32_53 : BitVec 32 := 0#32
  ![v83.toNat, 0]

def k15_off23 (i : grid15.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k15_off24 (v91 : BitVec 32) : Fin 2 → Nat :=
  let c0_i32_58 : BitVec 32 := 0#32
  ![v91.toNat, 0]

def k15_off25 (i : grid15.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k15_off26 (v99 : BitVec 32) : Fin 2 → Nat :=
  let c0_i32_63 : BitVec 32 := 0#32
  ![v99.toNat, 0]

def k15_off27 (i : grid15.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k15_off28 (v107 : BitVec 32) : Fin 2 → Nat :=
  let c0_i32_68 : BitVec 32 := 0#32
  ![v107.toNat, 0]

def k15_off29 (i : grid15.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k15_off30 (v115 : BitVec 32) : Fin 2 → Nat :=
  let c0_i32_73 : BitVec 32 := 0#32
  ![v115.toNat, 0]

def k15_off31 (i : grid15.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k15_off32 (v123 : BitVec 32) : Fin 2 → Nat :=
  let c0_i32_78 : BitVec 32 := 0#32
  ![v123.toNat, 0]

def k15_chk16 (v123 : BitVec 32) : Prop :=
  (∀ a, (k15_off32 v123) a + S1x262.size a ≤ S50000x262.size a)
instance k15_chk16.dec : ∀ (v123 : BitVec 32), Decidable (k15_chk16 v123) := fun v123 => decidable_of_iff' _ (Iff.of_eq (k15_chk16.eq_1 v123))
theorem k15_off32_inb : ∀ (v123 : BitVec 32) (k15_hw16 : k15_chk16 v123), ∀ a, (k15_off32 v123) a + S1x262.size a ≤ S50000x262.size a := fun v123 k15_hw16 => k15_hw16

def k15_off33 (v3 : BitVec 32) : Fin 2 → Nat :=
  let c0_i32_82 : BitVec 32 := 0#32
  ![v3.toNat, 0]

def k15_chk1 (v3 : BitVec 32) : Prop :=
  (∀ a, (k15_off2 v3) a + S1x262.size a ≤ S50000x262.size a) ∧
  (∀ a, (k15_off33 v3) a + S1x262.size a ≤ S50000x262.size a)
instance k15_chk1.dec : ∀ (v3 : BitVec 32), Decidable (k15_chk1 v3) := fun v3 => decidable_of_iff' _ (Iff.of_eq (k15_chk1.eq_1 v3))
theorem k15_off2_inb : ∀ (v3 : BitVec 32) (k15_hw1 : k15_chk1 v3), ∀ a, (k15_off2 v3) a + S1x262.size a ≤ S50000x262.size a := fun v3 k15_hw1 => k15_hw1.1
theorem k15_off33_inb : ∀ (v3 : BitVec 32) (k15_hw1 : k15_chk1 v3), ∀ a, (k15_off33 v3) a + S1x262.size a ≤ S50000x262.size a := fun v3 k15_hw1 => k15_hw1.2

def k15_off34 (v11 : BitVec 32) : Fin 2 → Nat :=
  let c0_i32_86 : BitVec 32 := 0#32
  ![v11.toNat, 0]

def k15_chk2 (v11 : BitVec 32) : Prop :=
  (∀ a, (k15_off4 v11) a + S1x262.size a ≤ S50000x262.size a) ∧
  (∀ a, (k15_off34 v11) a + S1x262.size a ≤ S50000x262.size a)
instance k15_chk2.dec : ∀ (v11 : BitVec 32), Decidable (k15_chk2 v11) := fun v11 => decidable_of_iff' _ (Iff.of_eq (k15_chk2.eq_1 v11))
theorem k15_off4_inb : ∀ (v11 : BitVec 32) (k15_hw2 : k15_chk2 v11), ∀ a, (k15_off4 v11) a + S1x262.size a ≤ S50000x262.size a := fun v11 k15_hw2 => k15_hw2.1
theorem k15_off34_inb : ∀ (v11 : BitVec 32) (k15_hw2 : k15_chk2 v11), ∀ a, (k15_off34 v11) a + S1x262.size a ≤ S50000x262.size a := fun v11 k15_hw2 => k15_hw2.2

def k15_off35 (v19 : BitVec 32) : Fin 2 → Nat :=
  let c0_i32_90 : BitVec 32 := 0#32
  ![v19.toNat, 0]

def k15_chk3 (v19 : BitVec 32) : Prop :=
  (∀ a, (k15_off6 v19) a + S1x262.size a ≤ S50000x262.size a) ∧
  (∀ a, (k15_off35 v19) a + S1x262.size a ≤ S50000x262.size a)
instance k15_chk3.dec : ∀ (v19 : BitVec 32), Decidable (k15_chk3 v19) := fun v19 => decidable_of_iff' _ (Iff.of_eq (k15_chk3.eq_1 v19))
theorem k15_off6_inb : ∀ (v19 : BitVec 32) (k15_hw3 : k15_chk3 v19), ∀ a, (k15_off6 v19) a + S1x262.size a ≤ S50000x262.size a := fun v19 k15_hw3 => k15_hw3.1
theorem k15_off35_inb : ∀ (v19 : BitVec 32) (k15_hw3 : k15_chk3 v19), ∀ a, (k15_off35 v19) a + S1x262.size a ≤ S50000x262.size a := fun v19 k15_hw3 => k15_hw3.2

def k15_off36 (v27 : BitVec 32) : Fin 2 → Nat :=
  let c0_i32_94 : BitVec 32 := 0#32
  ![v27.toNat, 0]

def k15_chk4 (v27 : BitVec 32) : Prop :=
  (∀ a, (k15_off8 v27) a + S1x262.size a ≤ S50000x262.size a) ∧
  (∀ a, (k15_off36 v27) a + S1x262.size a ≤ S50000x262.size a)
instance k15_chk4.dec : ∀ (v27 : BitVec 32), Decidable (k15_chk4 v27) := fun v27 => decidable_of_iff' _ (Iff.of_eq (k15_chk4.eq_1 v27))
theorem k15_off8_inb : ∀ (v27 : BitVec 32) (k15_hw4 : k15_chk4 v27), ∀ a, (k15_off8 v27) a + S1x262.size a ≤ S50000x262.size a := fun v27 k15_hw4 => k15_hw4.1
theorem k15_off36_inb : ∀ (v27 : BitVec 32) (k15_hw4 : k15_chk4 v27), ∀ a, (k15_off36 v27) a + S1x262.size a ≤ S50000x262.size a := fun v27 k15_hw4 => k15_hw4.2

def k15_off37 (v35 : BitVec 32) : Fin 2 → Nat :=
  let c0_i32_98 : BitVec 32 := 0#32
  ![v35.toNat, 0]

def k15_chk5 (v35 : BitVec 32) : Prop :=
  (∀ a, (k15_off10 v35) a + S1x262.size a ≤ S50000x262.size a) ∧
  (∀ a, (k15_off37 v35) a + S1x262.size a ≤ S50000x262.size a)
instance k15_chk5.dec : ∀ (v35 : BitVec 32), Decidable (k15_chk5 v35) := fun v35 => decidable_of_iff' _ (Iff.of_eq (k15_chk5.eq_1 v35))
theorem k15_off10_inb : ∀ (v35 : BitVec 32) (k15_hw5 : k15_chk5 v35), ∀ a, (k15_off10 v35) a + S1x262.size a ≤ S50000x262.size a := fun v35 k15_hw5 => k15_hw5.1
theorem k15_off37_inb : ∀ (v35 : BitVec 32) (k15_hw5 : k15_chk5 v35), ∀ a, (k15_off37 v35) a + S1x262.size a ≤ S50000x262.size a := fun v35 k15_hw5 => k15_hw5.2

def k15_off38 (v43 : BitVec 32) : Fin 2 → Nat :=
  let c0_i32_102 : BitVec 32 := 0#32
  ![v43.toNat, 0]

def k15_chk6 (v43 : BitVec 32) : Prop :=
  (∀ a, (k15_off12 v43) a + S1x262.size a ≤ S50000x262.size a) ∧
  (∀ a, (k15_off38 v43) a + S1x262.size a ≤ S50000x262.size a)
instance k15_chk6.dec : ∀ (v43 : BitVec 32), Decidable (k15_chk6 v43) := fun v43 => decidable_of_iff' _ (Iff.of_eq (k15_chk6.eq_1 v43))
theorem k15_off12_inb : ∀ (v43 : BitVec 32) (k15_hw6 : k15_chk6 v43), ∀ a, (k15_off12 v43) a + S1x262.size a ≤ S50000x262.size a := fun v43 k15_hw6 => k15_hw6.1
theorem k15_off38_inb : ∀ (v43 : BitVec 32) (k15_hw6 : k15_chk6 v43), ∀ a, (k15_off38 v43) a + S1x262.size a ≤ S50000x262.size a := fun v43 k15_hw6 => k15_hw6.2

def k15_off39 (v51 : BitVec 32) : Fin 2 → Nat :=
  let c0_i32_106 : BitVec 32 := 0#32
  ![v51.toNat, 0]

def k15_chk7 (v51 : BitVec 32) : Prop :=
  (∀ a, (k15_off14 v51) a + S1x262.size a ≤ S50000x262.size a) ∧
  (∀ a, (k15_off39 v51) a + S1x262.size a ≤ S50000x262.size a)
instance k15_chk7.dec : ∀ (v51 : BitVec 32), Decidable (k15_chk7 v51) := fun v51 => decidable_of_iff' _ (Iff.of_eq (k15_chk7.eq_1 v51))
theorem k15_off14_inb : ∀ (v51 : BitVec 32) (k15_hw7 : k15_chk7 v51), ∀ a, (k15_off14 v51) a + S1x262.size a ≤ S50000x262.size a := fun v51 k15_hw7 => k15_hw7.1
theorem k15_off39_inb : ∀ (v51 : BitVec 32) (k15_hw7 : k15_chk7 v51), ∀ a, (k15_off39 v51) a + S1x262.size a ≤ S50000x262.size a := fun v51 k15_hw7 => k15_hw7.2

def k15_off40 (v59 : BitVec 32) : Fin 2 → Nat :=
  let c0_i32_110 : BitVec 32 := 0#32
  ![v59.toNat, 0]

def k15_chk8 (v59 : BitVec 32) : Prop :=
  (∀ a, (k15_off16 v59) a + S1x262.size a ≤ S50000x262.size a) ∧
  (∀ a, (k15_off40 v59) a + S1x262.size a ≤ S50000x262.size a)
instance k15_chk8.dec : ∀ (v59 : BitVec 32), Decidable (k15_chk8 v59) := fun v59 => decidable_of_iff' _ (Iff.of_eq (k15_chk8.eq_1 v59))
theorem k15_off16_inb : ∀ (v59 : BitVec 32) (k15_hw8 : k15_chk8 v59), ∀ a, (k15_off16 v59) a + S1x262.size a ≤ S50000x262.size a := fun v59 k15_hw8 => k15_hw8.1
theorem k15_off40_inb : ∀ (v59 : BitVec 32) (k15_hw8 : k15_chk8 v59), ∀ a, (k15_off40 v59) a + S1x262.size a ≤ S50000x262.size a := fun v59 k15_hw8 => k15_hw8.2

def k15_off41 (v67 : BitVec 32) : Fin 2 → Nat :=
  let c0_i32_114 : BitVec 32 := 0#32
  ![v67.toNat, 0]

def k15_chk9 (v67 : BitVec 32) : Prop :=
  (∀ a, (k15_off18 v67) a + S1x262.size a ≤ S50000x262.size a) ∧
  (∀ a, (k15_off41 v67) a + S1x262.size a ≤ S50000x262.size a)
instance k15_chk9.dec : ∀ (v67 : BitVec 32), Decidable (k15_chk9 v67) := fun v67 => decidable_of_iff' _ (Iff.of_eq (k15_chk9.eq_1 v67))
theorem k15_off18_inb : ∀ (v67 : BitVec 32) (k15_hw9 : k15_chk9 v67), ∀ a, (k15_off18 v67) a + S1x262.size a ≤ S50000x262.size a := fun v67 k15_hw9 => k15_hw9.1
theorem k15_off41_inb : ∀ (v67 : BitVec 32) (k15_hw9 : k15_chk9 v67), ∀ a, (k15_off41 v67) a + S1x262.size a ≤ S50000x262.size a := fun v67 k15_hw9 => k15_hw9.2

def k15_off42 (v75 : BitVec 32) : Fin 2 → Nat :=
  let c0_i32_118 : BitVec 32 := 0#32
  ![v75.toNat, 0]

def k15_chk10 (v75 : BitVec 32) : Prop :=
  (∀ a, (k15_off20 v75) a + S1x262.size a ≤ S50000x262.size a) ∧
  (∀ a, (k15_off42 v75) a + S1x262.size a ≤ S50000x262.size a)
instance k15_chk10.dec : ∀ (v75 : BitVec 32), Decidable (k15_chk10 v75) := fun v75 => decidable_of_iff' _ (Iff.of_eq (k15_chk10.eq_1 v75))
theorem k15_off20_inb : ∀ (v75 : BitVec 32) (k15_hw10 : k15_chk10 v75), ∀ a, (k15_off20 v75) a + S1x262.size a ≤ S50000x262.size a := fun v75 k15_hw10 => k15_hw10.1
theorem k15_off42_inb : ∀ (v75 : BitVec 32) (k15_hw10 : k15_chk10 v75), ∀ a, (k15_off42 v75) a + S1x262.size a ≤ S50000x262.size a := fun v75 k15_hw10 => k15_hw10.2

def k15_off43 (v83 : BitVec 32) : Fin 2 → Nat :=
  let c0_i32_122 : BitVec 32 := 0#32
  ![v83.toNat, 0]

def k15_chk11 (v83 : BitVec 32) : Prop :=
  (∀ a, (k15_off22 v83) a + S1x262.size a ≤ S50000x262.size a) ∧
  (∀ a, (k15_off43 v83) a + S1x262.size a ≤ S50000x262.size a)
instance k15_chk11.dec : ∀ (v83 : BitVec 32), Decidable (k15_chk11 v83) := fun v83 => decidable_of_iff' _ (Iff.of_eq (k15_chk11.eq_1 v83))
theorem k15_off22_inb : ∀ (v83 : BitVec 32) (k15_hw11 : k15_chk11 v83), ∀ a, (k15_off22 v83) a + S1x262.size a ≤ S50000x262.size a := fun v83 k15_hw11 => k15_hw11.1
theorem k15_off43_inb : ∀ (v83 : BitVec 32) (k15_hw11 : k15_chk11 v83), ∀ a, (k15_off43 v83) a + S1x262.size a ≤ S50000x262.size a := fun v83 k15_hw11 => k15_hw11.2

def k15_off44 (v91 : BitVec 32) : Fin 2 → Nat :=
  let c0_i32_126 : BitVec 32 := 0#32
  ![v91.toNat, 0]

def k15_chk12 (v91 : BitVec 32) : Prop :=
  (∀ a, (k15_off24 v91) a + S1x262.size a ≤ S50000x262.size a) ∧
  (∀ a, (k15_off44 v91) a + S1x262.size a ≤ S50000x262.size a)
instance k15_chk12.dec : ∀ (v91 : BitVec 32), Decidable (k15_chk12 v91) := fun v91 => decidable_of_iff' _ (Iff.of_eq (k15_chk12.eq_1 v91))
theorem k15_off24_inb : ∀ (v91 : BitVec 32) (k15_hw12 : k15_chk12 v91), ∀ a, (k15_off24 v91) a + S1x262.size a ≤ S50000x262.size a := fun v91 k15_hw12 => k15_hw12.1
theorem k15_off44_inb : ∀ (v91 : BitVec 32) (k15_hw12 : k15_chk12 v91), ∀ a, (k15_off44 v91) a + S1x262.size a ≤ S50000x262.size a := fun v91 k15_hw12 => k15_hw12.2

def k15_off45 (v99 : BitVec 32) : Fin 2 → Nat :=
  let c0_i32_130 : BitVec 32 := 0#32
  ![v99.toNat, 0]

def k15_chk13 (v99 : BitVec 32) : Prop :=
  (∀ a, (k15_off26 v99) a + S1x262.size a ≤ S50000x262.size a) ∧
  (∀ a, (k15_off45 v99) a + S1x262.size a ≤ S50000x262.size a)
instance k15_chk13.dec : ∀ (v99 : BitVec 32), Decidable (k15_chk13 v99) := fun v99 => decidable_of_iff' _ (Iff.of_eq (k15_chk13.eq_1 v99))
theorem k15_off26_inb : ∀ (v99 : BitVec 32) (k15_hw13 : k15_chk13 v99), ∀ a, (k15_off26 v99) a + S1x262.size a ≤ S50000x262.size a := fun v99 k15_hw13 => k15_hw13.1
theorem k15_off45_inb : ∀ (v99 : BitVec 32) (k15_hw13 : k15_chk13 v99), ∀ a, (k15_off45 v99) a + S1x262.size a ≤ S50000x262.size a := fun v99 k15_hw13 => k15_hw13.2

def k15_off46 (v107 : BitVec 32) : Fin 2 → Nat :=
  let c0_i32_134 : BitVec 32 := 0#32
  ![v107.toNat, 0]

def k15_chk14 (v107 : BitVec 32) : Prop :=
  (∀ a, (k15_off28 v107) a + S1x262.size a ≤ S50000x262.size a) ∧
  (∀ a, (k15_off46 v107) a + S1x262.size a ≤ S50000x262.size a)
instance k15_chk14.dec : ∀ (v107 : BitVec 32), Decidable (k15_chk14 v107) := fun v107 => decidable_of_iff' _ (Iff.of_eq (k15_chk14.eq_1 v107))
theorem k15_off28_inb : ∀ (v107 : BitVec 32) (k15_hw14 : k15_chk14 v107), ∀ a, (k15_off28 v107) a + S1x262.size a ≤ S50000x262.size a := fun v107 k15_hw14 => k15_hw14.1
theorem k15_off46_inb : ∀ (v107 : BitVec 32) (k15_hw14 : k15_chk14 v107), ∀ a, (k15_off46 v107) a + S1x262.size a ≤ S50000x262.size a := fun v107 k15_hw14 => k15_hw14.2

def k15_off47 (v115 : BitVec 32) : Fin 2 → Nat :=
  let c0_i32_138 : BitVec 32 := 0#32
  ![v115.toNat, 0]

def k15_chk15 (v115 : BitVec 32) : Prop :=
  (∀ a, (k15_off30 v115) a + S1x262.size a ≤ S50000x262.size a) ∧
  (∀ a, (k15_off47 v115) a + S1x262.size a ≤ S50000x262.size a)
instance k15_chk15.dec : ∀ (v115 : BitVec 32), Decidable (k15_chk15 v115) := fun v115 => decidable_of_iff' _ (Iff.of_eq (k15_chk15.eq_1 v115))
theorem k15_off30_inb : ∀ (v115 : BitVec 32) (k15_hw15 : k15_chk15 v115), ∀ a, (k15_off30 v115) a + S1x262.size a ≤ S50000x262.size a := fun v115 k15_hw15 => k15_hw15.1
theorem k15_off47_inb : ∀ (v115 : BitVec 32) (k15_hw15 : k15_chk15 v115), ∀ a, (k15_off47 v115) a + S1x262.size a ≤ S50000x262.size a := fun v115 k15_hw15 => k15_hw15.2

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S16x1 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S16x262 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev grid16 : Pipeline.Grid := ⟨1, ![3125], ![false]⟩

abbrev pre16 : Pipeline.Prefetch sig := ⟨1, ![main_v88.idx], fun | 0 => main_v88.names | ⟨_ + 1, h⟩ => absurd h (Nat.not_lt.2 (Nat.le_add_left _ _)), fun | 0 => rfl | ⟨_ + 1, h⟩ => absurd h (Nat.not_lt.2 (Nat.le_add_left _ _))⟩

def k16_off1 (i : grid16.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k16_off2 (v3 : BitVec 32) : Fin 2 → Nat :=
  let c0_i32_3 : BitVec 32 := 0#32
  ![v3.toNat, 0]

def k16_off3 (i : grid16.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k16_off4 (v11 : BitVec 32) : Fin 2 → Nat :=
  let c0_i32_8 : BitVec 32 := 0#32
  ![v11.toNat, 0]

def k16_off5 (i : grid16.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k16_off6 (v19 : BitVec 32) : Fin 2 → Nat :=
  let c0_i32_13 : BitVec 32 := 0#32
  ![v19.toNat, 0]

def k16_off7 (i : grid16.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k16_off8 (v27 : BitVec 32) : Fin 2 → Nat :=
  let c0_i32_18 : BitVec 32 := 0#32
  ![v27.toNat, 0]

def k16_off9 (i : grid16.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k16_off10 (v35 : BitVec 32) : Fin 2 → Nat :=
  let c0_i32_23 : BitVec 32 := 0#32
  ![v35.toNat, 0]

def k16_off11 (i : grid16.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k16_off12 (v43 : BitVec 32) : Fin 2 → Nat :=
  let c0_i32_28 : BitVec 32 := 0#32
  ![v43.toNat, 0]

def k16_off13 (i : grid16.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k16_off14 (v51 : BitVec 32) : Fin 2 → Nat :=
  let c0_i32_33 : BitVec 32 := 0#32
  ![v51.toNat, 0]

def k16_off15 (i : grid16.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k16_off16 (v59 : BitVec 32) : Fin 2 → Nat :=
  let c0_i32_38 : BitVec 32 := 0#32
  ![v59.toNat, 0]

def k16_off17 (i : grid16.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k16_off18 (v67 : BitVec 32) : Fin 2 → Nat :=
  let c0_i32_43 : BitVec 32 := 0#32
  ![v67.toNat, 0]

def k16_off19 (i : grid16.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k16_off20 (v75 : BitVec 32) : Fin 2 → Nat :=
  let c0_i32_48 : BitVec 32 := 0#32
  ![v75.toNat, 0]

def k16_off21 (i : grid16.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k16_off22 (v83 : BitVec 32) : Fin 2 → Nat :=
  let c0_i32_53 : BitVec 32 := 0#32
  ![v83.toNat, 0]

def k16_off23 (i : grid16.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k16_off24 (v91 : BitVec 32) : Fin 2 → Nat :=
  let c0_i32_58 : BitVec 32 := 0#32
  ![v91.toNat, 0]

def k16_off25 (i : grid16.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k16_off26 (v99 : BitVec 32) : Fin 2 → Nat :=
  let c0_i32_63 : BitVec 32 := 0#32
  ![v99.toNat, 0]

def k16_off27 (i : grid16.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k16_off28 (v107 : BitVec 32) : Fin 2 → Nat :=
  let c0_i32_68 : BitVec 32 := 0#32
  ![v107.toNat, 0]

def k16_off29 (i : grid16.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k16_off30 (v115 : BitVec 32) : Fin 2 → Nat :=
  let c0_i32_73 : BitVec 32 := 0#32
  ![v115.toNat, 0]

def k16_off31 (i : grid16.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k16_off32 (v123 : BitVec 32) : Fin 2 → Nat :=
  let c0_i32_78 : BitVec 32 := 0#32
  ![v123.toNat, 0]

def k16_chk16 (v123 : BitVec 32) : Prop :=
  (∀ a, (k16_off32 v123) a + S1x262.size a ≤ S50000x262.size a)
instance k16_chk16.dec : ∀ (v123 : BitVec 32), Decidable (k16_chk16 v123) := fun v123 => decidable_of_iff' _ (Iff.of_eq (k16_chk16.eq_1 v123))
theorem k16_off32_inb : ∀ (v123 : BitVec 32) (k16_hw16 : k16_chk16 v123), ∀ a, (k16_off32 v123) a + S1x262.size a ≤ S50000x262.size a := fun v123 k16_hw16 => k16_hw16

def k16_off33 (v3 : BitVec 32) : Fin 2 → Nat :=
  let c0_i32_82 : BitVec 32 := 0#32
  ![v3.toNat, 0]

def k16_chk1 (v3 : BitVec 32) : Prop :=
  (∀ a, (k16_off2 v3) a + S1x262.size a ≤ S50000x262.size a) ∧
  (∀ a, (k16_off33 v3) a + S1x262.size a ≤ S50000x262.size a)
instance k16_chk1.dec : ∀ (v3 : BitVec 32), Decidable (k16_chk1 v3) := fun v3 => decidable_of_iff' _ (Iff.of_eq (k16_chk1.eq_1 v3))
theorem k16_off2_inb : ∀ (v3 : BitVec 32) (k16_hw1 : k16_chk1 v3), ∀ a, (k16_off2 v3) a + S1x262.size a ≤ S50000x262.size a := fun v3 k16_hw1 => k16_hw1.1
theorem k16_off33_inb : ∀ (v3 : BitVec 32) (k16_hw1 : k16_chk1 v3), ∀ a, (k16_off33 v3) a + S1x262.size a ≤ S50000x262.size a := fun v3 k16_hw1 => k16_hw1.2

def k16_off34 (v11 : BitVec 32) : Fin 2 → Nat :=
  let c0_i32_86 : BitVec 32 := 0#32
  ![v11.toNat, 0]

def k16_chk2 (v11 : BitVec 32) : Prop :=
  (∀ a, (k16_off4 v11) a + S1x262.size a ≤ S50000x262.size a) ∧
  (∀ a, (k16_off34 v11) a + S1x262.size a ≤ S50000x262.size a)
instance k16_chk2.dec : ∀ (v11 : BitVec 32), Decidable (k16_chk2 v11) := fun v11 => decidable_of_iff' _ (Iff.of_eq (k16_chk2.eq_1 v11))
theorem k16_off4_inb : ∀ (v11 : BitVec 32) (k16_hw2 : k16_chk2 v11), ∀ a, (k16_off4 v11) a + S1x262.size a ≤ S50000x262.size a := fun v11 k16_hw2 => k16_hw2.1
theorem k16_off34_inb : ∀ (v11 : BitVec 32) (k16_hw2 : k16_chk2 v11), ∀ a, (k16_off34 v11) a + S1x262.size a ≤ S50000x262.size a := fun v11 k16_hw2 => k16_hw2.2

def k16_off35 (v19 : BitVec 32) : Fin 2 → Nat :=
  let c0_i32_90 : BitVec 32 := 0#32
  ![v19.toNat, 0]

def k16_chk3 (v19 : BitVec 32) : Prop :=
  (∀ a, (k16_off6 v19) a + S1x262.size a ≤ S50000x262.size a) ∧
  (∀ a, (k16_off35 v19) a + S1x262.size a ≤ S50000x262.size a)
instance k16_chk3.dec : ∀ (v19 : BitVec 32), Decidable (k16_chk3 v19) := fun v19 => decidable_of_iff' _ (Iff.of_eq (k16_chk3.eq_1 v19))
theorem k16_off6_inb : ∀ (v19 : BitVec 32) (k16_hw3 : k16_chk3 v19), ∀ a, (k16_off6 v19) a + S1x262.size a ≤ S50000x262.size a := fun v19 k16_hw3 => k16_hw3.1
theorem k16_off35_inb : ∀ (v19 : BitVec 32) (k16_hw3 : k16_chk3 v19), ∀ a, (k16_off35 v19) a + S1x262.size a ≤ S50000x262.size a := fun v19 k16_hw3 => k16_hw3.2

def k16_off36 (v27 : BitVec 32) : Fin 2 → Nat :=
  let c0_i32_94 : BitVec 32 := 0#32
  ![v27.toNat, 0]

def k16_chk4 (v27 : BitVec 32) : Prop :=
  (∀ a, (k16_off8 v27) a + S1x262.size a ≤ S50000x262.size a) ∧
  (∀ a, (k16_off36 v27) a + S1x262.size a ≤ S50000x262.size a)
instance k16_chk4.dec : ∀ (v27 : BitVec 32), Decidable (k16_chk4 v27) := fun v27 => decidable_of_iff' _ (Iff.of_eq (k16_chk4.eq_1 v27))
theorem k16_off8_inb : ∀ (v27 : BitVec 32) (k16_hw4 : k16_chk4 v27), ∀ a, (k16_off8 v27) a + S1x262.size a ≤ S50000x262.size a := fun v27 k16_hw4 => k16_hw4.1
theorem k16_off36_inb : ∀ (v27 : BitVec 32) (k16_hw4 : k16_chk4 v27), ∀ a, (k16_off36 v27) a + S1x262.size a ≤ S50000x262.size a := fun v27 k16_hw4 => k16_hw4.2

def k16_off37 (v35 : BitVec 32) : Fin 2 → Nat :=
  let c0_i32_98 : BitVec 32 := 0#32
  ![v35.toNat, 0]

def k16_chk5 (v35 : BitVec 32) : Prop :=
  (∀ a, (k16_off10 v35) a + S1x262.size a ≤ S50000x262.size a) ∧
  (∀ a, (k16_off37 v35) a + S1x262.size a ≤ S50000x262.size a)
instance k16_chk5.dec : ∀ (v35 : BitVec 32), Decidable (k16_chk5 v35) := fun v35 => decidable_of_iff' _ (Iff.of_eq (k16_chk5.eq_1 v35))
theorem k16_off10_inb : ∀ (v35 : BitVec 32) (k16_hw5 : k16_chk5 v35), ∀ a, (k16_off10 v35) a + S1x262.size a ≤ S50000x262.size a := fun v35 k16_hw5 => k16_hw5.1
theorem k16_off37_inb : ∀ (v35 : BitVec 32) (k16_hw5 : k16_chk5 v35), ∀ a, (k16_off37 v35) a + S1x262.size a ≤ S50000x262.size a := fun v35 k16_hw5 => k16_hw5.2

def k16_off38 (v43 : BitVec 32) : Fin 2 → Nat :=
  let c0_i32_102 : BitVec 32 := 0#32
  ![v43.toNat, 0]

def k16_chk6 (v43 : BitVec 32) : Prop :=
  (∀ a, (k16_off12 v43) a + S1x262.size a ≤ S50000x262.size a) ∧
  (∀ a, (k16_off38 v43) a + S1x262.size a ≤ S50000x262.size a)
instance k16_chk6.dec : ∀ (v43 : BitVec 32), Decidable (k16_chk6 v43) := fun v43 => decidable_of_iff' _ (Iff.of_eq (k16_chk6.eq_1 v43))
theorem k16_off12_inb : ∀ (v43 : BitVec 32) (k16_hw6 : k16_chk6 v43), ∀ a, (k16_off12 v43) a + S1x262.size a ≤ S50000x262.size a := fun v43 k16_hw6 => k16_hw6.1
theorem k16_off38_inb : ∀ (v43 : BitVec 32) (k16_hw6 : k16_chk6 v43), ∀ a, (k16_off38 v43) a + S1x262.size a ≤ S50000x262.size a := fun v43 k16_hw6 => k16_hw6.2

def k16_off39 (v51 : BitVec 32) : Fin 2 → Nat :=
  let c0_i32_106 : BitVec 32 := 0#32
  ![v51.toNat, 0]

def k16_chk7 (v51 : BitVec 32) : Prop :=
  (∀ a, (k16_off14 v51) a + S1x262.size a ≤ S50000x262.size a) ∧
  (∀ a, (k16_off39 v51) a + S1x262.size a ≤ S50000x262.size a)
instance k16_chk7.dec : ∀ (v51 : BitVec 32), Decidable (k16_chk7 v51) := fun v51 => decidable_of_iff' _ (Iff.of_eq (k16_chk7.eq_1 v51))
theorem k16_off14_inb : ∀ (v51 : BitVec 32) (k16_hw7 : k16_chk7 v51), ∀ a, (k16_off14 v51) a + S1x262.size a ≤ S50000x262.size a := fun v51 k16_hw7 => k16_hw7.1
theorem k16_off39_inb : ∀ (v51 : BitVec 32) (k16_hw7 : k16_chk7 v51), ∀ a, (k16_off39 v51) a + S1x262.size a ≤ S50000x262.size a := fun v51 k16_hw7 => k16_hw7.2

def k16_off40 (v59 : BitVec 32) : Fin 2 → Nat :=
  let c0_i32_110 : BitVec 32 := 0#32
  ![v59.toNat, 0]

def k16_chk8 (v59 : BitVec 32) : Prop :=
  (∀ a, (k16_off16 v59) a + S1x262.size a ≤ S50000x262.size a) ∧
  (∀ a, (k16_off40 v59) a + S1x262.size a ≤ S50000x262.size a)
instance k16_chk8.dec : ∀ (v59 : BitVec 32), Decidable (k16_chk8 v59) := fun v59 => decidable_of_iff' _ (Iff.of_eq (k16_chk8.eq_1 v59))
theorem k16_off16_inb : ∀ (v59 : BitVec 32) (k16_hw8 : k16_chk8 v59), ∀ a, (k16_off16 v59) a + S1x262.size a ≤ S50000x262.size a := fun v59 k16_hw8 => k16_hw8.1
theorem k16_off40_inb : ∀ (v59 : BitVec 32) (k16_hw8 : k16_chk8 v59), ∀ a, (k16_off40 v59) a + S1x262.size a ≤ S50000x262.size a := fun v59 k16_hw8 => k16_hw8.2

def k16_off41 (v67 : BitVec 32) : Fin 2 → Nat :=
  let c0_i32_114 : BitVec 32 := 0#32
  ![v67.toNat, 0]

def k16_chk9 (v67 : BitVec 32) : Prop :=
  (∀ a, (k16_off18 v67) a + S1x262.size a ≤ S50000x262.size a) ∧
  (∀ a, (k16_off41 v67) a + S1x262.size a ≤ S50000x262.size a)
instance k16_chk9.dec : ∀ (v67 : BitVec 32), Decidable (k16_chk9 v67) := fun v67 => decidable_of_iff' _ (Iff.of_eq (k16_chk9.eq_1 v67))
theorem k16_off18_inb : ∀ (v67 : BitVec 32) (k16_hw9 : k16_chk9 v67), ∀ a, (k16_off18 v67) a + S1x262.size a ≤ S50000x262.size a := fun v67 k16_hw9 => k16_hw9.1
theorem k16_off41_inb : ∀ (v67 : BitVec 32) (k16_hw9 : k16_chk9 v67), ∀ a, (k16_off41 v67) a + S1x262.size a ≤ S50000x262.size a := fun v67 k16_hw9 => k16_hw9.2

def k16_off42 (v75 : BitVec 32) : Fin 2 → Nat :=
  let c0_i32_118 : BitVec 32 := 0#32
  ![v75.toNat, 0]

def k16_chk10 (v75 : BitVec 32) : Prop :=
  (∀ a, (k16_off20 v75) a + S1x262.size a ≤ S50000x262.size a) ∧
  (∀ a, (k16_off42 v75) a + S1x262.size a ≤ S50000x262.size a)
instance k16_chk10.dec : ∀ (v75 : BitVec 32), Decidable (k16_chk10 v75) := fun v75 => decidable_of_iff' _ (Iff.of_eq (k16_chk10.eq_1 v75))
theorem k16_off20_inb : ∀ (v75 : BitVec 32) (k16_hw10 : k16_chk10 v75), ∀ a, (k16_off20 v75) a + S1x262.size a ≤ S50000x262.size a := fun v75 k16_hw10 => k16_hw10.1
theorem k16_off42_inb : ∀ (v75 : BitVec 32) (k16_hw10 : k16_chk10 v75), ∀ a, (k16_off42 v75) a + S1x262.size a ≤ S50000x262.size a := fun v75 k16_hw10 => k16_hw10.2

def k16_off43 (v83 : BitVec 32) : Fin 2 → Nat :=
  let c0_i32_122 : BitVec 32 := 0#32
  ![v83.toNat, 0]

def k16_chk11 (v83 : BitVec 32) : Prop :=
  (∀ a, (k16_off22 v83) a + S1x262.size a ≤ S50000x262.size a) ∧
  (∀ a, (k16_off43 v83) a + S1x262.size a ≤ S50000x262.size a)
instance k16_chk11.dec : ∀ (v83 : BitVec 32), Decidable (k16_chk11 v83) := fun v83 => decidable_of_iff' _ (Iff.of_eq (k16_chk11.eq_1 v83))
theorem k16_off22_inb : ∀ (v83 : BitVec 32) (k16_hw11 : k16_chk11 v83), ∀ a, (k16_off22 v83) a + S1x262.size a ≤ S50000x262.size a := fun v83 k16_hw11 => k16_hw11.1
theorem k16_off43_inb : ∀ (v83 : BitVec 32) (k16_hw11 : k16_chk11 v83), ∀ a, (k16_off43 v83) a + S1x262.size a ≤ S50000x262.size a := fun v83 k16_hw11 => k16_hw11.2

def k16_off44 (v91 : BitVec 32) : Fin 2 → Nat :=
  let c0_i32_126 : BitVec 32 := 0#32
  ![v91.toNat, 0]

def k16_chk12 (v91 : BitVec 32) : Prop :=
  (∀ a, (k16_off24 v91) a + S1x262.size a ≤ S50000x262.size a) ∧
  (∀ a, (k16_off44 v91) a + S1x262.size a ≤ S50000x262.size a)
instance k16_chk12.dec : ∀ (v91 : BitVec 32), Decidable (k16_chk12 v91) := fun v91 => decidable_of_iff' _ (Iff.of_eq (k16_chk12.eq_1 v91))
theorem k16_off24_inb : ∀ (v91 : BitVec 32) (k16_hw12 : k16_chk12 v91), ∀ a, (k16_off24 v91) a + S1x262.size a ≤ S50000x262.size a := fun v91 k16_hw12 => k16_hw12.1
theorem k16_off44_inb : ∀ (v91 : BitVec 32) (k16_hw12 : k16_chk12 v91), ∀ a, (k16_off44 v91) a + S1x262.size a ≤ S50000x262.size a := fun v91 k16_hw12 => k16_hw12.2

def k16_off45 (v99 : BitVec 32) : Fin 2 → Nat :=
  let c0_i32_130 : BitVec 32 := 0#32
  ![v99.toNat, 0]

def k16_chk13 (v99 : BitVec 32) : Prop :=
  (∀ a, (k16_off26 v99) a + S1x262.size a ≤ S50000x262.size a) ∧
  (∀ a, (k16_off45 v99) a + S1x262.size a ≤ S50000x262.size a)
instance k16_chk13.dec : ∀ (v99 : BitVec 32), Decidable (k16_chk13 v99) := fun v99 => decidable_of_iff' _ (Iff.of_eq (k16_chk13.eq_1 v99))
theorem k16_off26_inb : ∀ (v99 : BitVec 32) (k16_hw13 : k16_chk13 v99), ∀ a, (k16_off26 v99) a + S1x262.size a ≤ S50000x262.size a := fun v99 k16_hw13 => k16_hw13.1
theorem k16_off45_inb : ∀ (v99 : BitVec 32) (k16_hw13 : k16_chk13 v99), ∀ a, (k16_off45 v99) a + S1x262.size a ≤ S50000x262.size a := fun v99 k16_hw13 => k16_hw13.2

def k16_off46 (v107 : BitVec 32) : Fin 2 → Nat :=
  let c0_i32_134 : BitVec 32 := 0#32
  ![v107.toNat, 0]

def k16_chk14 (v107 : BitVec 32) : Prop :=
  (∀ a, (k16_off28 v107) a + S1x262.size a ≤ S50000x262.size a) ∧
  (∀ a, (k16_off46 v107) a + S1x262.size a ≤ S50000x262.size a)
instance k16_chk14.dec : ∀ (v107 : BitVec 32), Decidable (k16_chk14 v107) := fun v107 => decidable_of_iff' _ (Iff.of_eq (k16_chk14.eq_1 v107))
theorem k16_off28_inb : ∀ (v107 : BitVec 32) (k16_hw14 : k16_chk14 v107), ∀ a, (k16_off28 v107) a + S1x262.size a ≤ S50000x262.size a := fun v107 k16_hw14 => k16_hw14.1
theorem k16_off46_inb : ∀ (v107 : BitVec 32) (k16_hw14 : k16_chk14 v107), ∀ a, (k16_off46 v107) a + S1x262.size a ≤ S50000x262.size a := fun v107 k16_hw14 => k16_hw14.2

def k16_off47 (v115 : BitVec 32) : Fin 2 → Nat :=
  let c0_i32_138 : BitVec 32 := 0#32
  ![v115.toNat, 0]

def k16_chk15 (v115 : BitVec 32) : Prop :=
  (∀ a, (k16_off30 v115) a + S1x262.size a ≤ S50000x262.size a) ∧
  (∀ a, (k16_off47 v115) a + S1x262.size a ≤ S50000x262.size a)
instance k16_chk15.dec : ∀ (v115 : BitVec 32), Decidable (k16_chk15 v115) := fun v115 => decidable_of_iff' _ (Iff.of_eq (k16_chk15.eq_1 v115))
theorem k16_off30_inb : ∀ (v115 : BitVec 32) (k16_hw15 : k16_chk15 v115), ∀ a, (k16_off30 v115) a + S1x262.size a ≤ S50000x262.size a := fun v115 k16_hw15 => k16_hw15.1
theorem k16_off47_inb : ∀ (v115 : BitVec 32) (k16_hw15 : k16_chk15 v115), ∀ a, (k16_off47 v115) a + S1x262.size a ≤ S50000x262.size a := fun v115 k16_hw15 => k16_hw15.2

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S16x1 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S16x262 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev grid17 : Pipeline.Grid := ⟨1, ![3125], ![false]⟩

abbrev pre17 : Pipeline.Prefetch sig := ⟨1, ![main_v91.idx], fun | 0 => main_v91.names | ⟨_ + 1, h⟩ => absurd h (Nat.not_lt.2 (Nat.le_add_left _ _)), fun | 0 => rfl | ⟨_ + 1, h⟩ => absurd h (Nat.not_lt.2 (Nat.le_add_left _ _))⟩

def k17_off1 (i : grid17.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k17_off2 (v3 : BitVec 32) : Fin 2 → Nat :=
  let c0_i32_3 : BitVec 32 := 0#32
  ![v3.toNat, 0]

def k17_off3 (i : grid17.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k17_off4 (v11 : BitVec 32) : Fin 2 → Nat :=
  let c0_i32_8 : BitVec 32 := 0#32
  ![v11.toNat, 0]

def k17_off5 (i : grid17.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k17_off6 (v19 : BitVec 32) : Fin 2 → Nat :=
  let c0_i32_13 : BitVec 32 := 0#32
  ![v19.toNat, 0]

def k17_off7 (i : grid17.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k17_off8 (v27 : BitVec 32) : Fin 2 → Nat :=
  let c0_i32_18 : BitVec 32 := 0#32
  ![v27.toNat, 0]

def k17_off9 (i : grid17.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k17_off10 (v35 : BitVec 32) : Fin 2 → Nat :=
  let c0_i32_23 : BitVec 32 := 0#32
  ![v35.toNat, 0]

def k17_off11 (i : grid17.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k17_off12 (v43 : BitVec 32) : Fin 2 → Nat :=
  let c0_i32_28 : BitVec 32 := 0#32
  ![v43.toNat, 0]

def k17_off13 (i : grid17.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k17_off14 (v51 : BitVec 32) : Fin 2 → Nat :=
  let c0_i32_33 : BitVec 32 := 0#32
  ![v51.toNat, 0]

def k17_off15 (i : grid17.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k17_off16 (v59 : BitVec 32) : Fin 2 → Nat :=
  let c0_i32_38 : BitVec 32 := 0#32
  ![v59.toNat, 0]

def k17_off17 (i : grid17.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k17_off18 (v67 : BitVec 32) : Fin 2 → Nat :=
  let c0_i32_43 : BitVec 32 := 0#32
  ![v67.toNat, 0]

def k17_off19 (i : grid17.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k17_off20 (v75 : BitVec 32) : Fin 2 → Nat :=
  let c0_i32_48 : BitVec 32 := 0#32
  ![v75.toNat, 0]

def k17_off21 (i : grid17.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k17_off22 (v83 : BitVec 32) : Fin 2 → Nat :=
  let c0_i32_53 : BitVec 32 := 0#32
  ![v83.toNat, 0]

def k17_off23 (i : grid17.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k17_off24 (v91 : BitVec 32) : Fin 2 → Nat :=
  let c0_i32_58 : BitVec 32 := 0#32
  ![v91.toNat, 0]

def k17_off25 (i : grid17.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k17_off26 (v99 : BitVec 32) : Fin 2 → Nat :=
  let c0_i32_63 : BitVec 32 := 0#32
  ![v99.toNat, 0]

def k17_off27 (i : grid17.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k17_off28 (v107 : BitVec 32) : Fin 2 → Nat :=
  let c0_i32_68 : BitVec 32 := 0#32
  ![v107.toNat, 0]

def k17_off29 (i : grid17.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k17_off30 (v115 : BitVec 32) : Fin 2 → Nat :=
  let c0_i32_73 : BitVec 32 := 0#32
  ![v115.toNat, 0]

def k17_off31 (i : grid17.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k17_off32 (v123 : BitVec 32) : Fin 2 → Nat :=
  let c0_i32_78 : BitVec 32 := 0#32
  ![v123.toNat, 0]

def k17_chk16 (v123 : BitVec 32) : Prop :=
  (∀ a, (k17_off32 v123) a + S1x262.size a ≤ S50000x262.size a)
instance k17_chk16.dec : ∀ (v123 : BitVec 32), Decidable (k17_chk16 v123) := fun v123 => decidable_of_iff' _ (Iff.of_eq (k17_chk16.eq_1 v123))
theorem k17_off32_inb : ∀ (v123 : BitVec 32) (k17_hw16 : k17_chk16 v123), ∀ a, (k17_off32 v123) a + S1x262.size a ≤ S50000x262.size a := fun v123 k17_hw16 => k17_hw16

def k17_off33 (v3 : BitVec 32) : Fin 2 → Nat :=
  let c0_i32_82 : BitVec 32 := 0#32
  ![v3.toNat, 0]

def k17_chk1 (v3 : BitVec 32) : Prop :=
  (∀ a, (k17_off2 v3) a + S1x262.size a ≤ S50000x262.size a) ∧
  (∀ a, (k17_off33 v3) a + S1x262.size a ≤ S50000x262.size a)
instance k17_chk1.dec : ∀ (v3 : BitVec 32), Decidable (k17_chk1 v3) := fun v3 => decidable_of_iff' _ (Iff.of_eq (k17_chk1.eq_1 v3))
theorem k17_off2_inb : ∀ (v3 : BitVec 32) (k17_hw1 : k17_chk1 v3), ∀ a, (k17_off2 v3) a + S1x262.size a ≤ S50000x262.size a := fun v3 k17_hw1 => k17_hw1.1
theorem k17_off33_inb : ∀ (v3 : BitVec 32) (k17_hw1 : k17_chk1 v3), ∀ a, (k17_off33 v3) a + S1x262.size a ≤ S50000x262.size a := fun v3 k17_hw1 => k17_hw1.2

def k17_off34 (v11 : BitVec 32) : Fin 2 → Nat :=
  let c0_i32_86 : BitVec 32 := 0#32
  ![v11.toNat, 0]

def k17_chk2 (v11 : BitVec 32) : Prop :=
  (∀ a, (k17_off4 v11) a + S1x262.size a ≤ S50000x262.size a) ∧
  (∀ a, (k17_off34 v11) a + S1x262.size a ≤ S50000x262.size a)
instance k17_chk2.dec : ∀ (v11 : BitVec 32), Decidable (k17_chk2 v11) := fun v11 => decidable_of_iff' _ (Iff.of_eq (k17_chk2.eq_1 v11))
theorem k17_off4_inb : ∀ (v11 : BitVec 32) (k17_hw2 : k17_chk2 v11), ∀ a, (k17_off4 v11) a + S1x262.size a ≤ S50000x262.size a := fun v11 k17_hw2 => k17_hw2.1
theorem k17_off34_inb : ∀ (v11 : BitVec 32) (k17_hw2 : k17_chk2 v11), ∀ a, (k17_off34 v11) a + S1x262.size a ≤ S50000x262.size a := fun v11 k17_hw2 => k17_hw2.2

def k17_off35 (v19 : BitVec 32) : Fin 2 → Nat :=
  let c0_i32_90 : BitVec 32 := 0#32
  ![v19.toNat, 0]

def k17_chk3 (v19 : BitVec 32) : Prop :=
  (∀ a, (k17_off6 v19) a + S1x262.size a ≤ S50000x262.size a) ∧
  (∀ a, (k17_off35 v19) a + S1x262.size a ≤ S50000x262.size a)
instance k17_chk3.dec : ∀ (v19 : BitVec 32), Decidable (k17_chk3 v19) := fun v19 => decidable_of_iff' _ (Iff.of_eq (k17_chk3.eq_1 v19))
theorem k17_off6_inb : ∀ (v19 : BitVec 32) (k17_hw3 : k17_chk3 v19), ∀ a, (k17_off6 v19) a + S1x262.size a ≤ S50000x262.size a := fun v19 k17_hw3 => k17_hw3.1
theorem k17_off35_inb : ∀ (v19 : BitVec 32) (k17_hw3 : k17_chk3 v19), ∀ a, (k17_off35 v19) a + S1x262.size a ≤ S50000x262.size a := fun v19 k17_hw3 => k17_hw3.2

def k17_off36 (v27 : BitVec 32) : Fin 2 → Nat :=
  let c0_i32_94 : BitVec 32 := 0#32
  ![v27.toNat, 0]

def k17_chk4 (v27 : BitVec 32) : Prop :=
  (∀ a, (k17_off8 v27) a + S1x262.size a ≤ S50000x262.size a) ∧
  (∀ a, (k17_off36 v27) a + S1x262.size a ≤ S50000x262.size a)
instance k17_chk4.dec : ∀ (v27 : BitVec 32), Decidable (k17_chk4 v27) := fun v27 => decidable_of_iff' _ (Iff.of_eq (k17_chk4.eq_1 v27))
theorem k17_off8_inb : ∀ (v27 : BitVec 32) (k17_hw4 : k17_chk4 v27), ∀ a, (k17_off8 v27) a + S1x262.size a ≤ S50000x262.size a := fun v27 k17_hw4 => k17_hw4.1
theorem k17_off36_inb : ∀ (v27 : BitVec 32) (k17_hw4 : k17_chk4 v27), ∀ a, (k17_off36 v27) a + S1x262.size a ≤ S50000x262.size a := fun v27 k17_hw4 => k17_hw4.2

def k17_off37 (v35 : BitVec 32) : Fin 2 → Nat :=
  let c0_i32_98 : BitVec 32 := 0#32
  ![v35.toNat, 0]

def k17_chk5 (v35 : BitVec 32) : Prop :=
  (∀ a, (k17_off10 v35) a + S1x262.size a ≤ S50000x262.size a) ∧
  (∀ a, (k17_off37 v35) a + S1x262.size a ≤ S50000x262.size a)
instance k17_chk5.dec : ∀ (v35 : BitVec 32), Decidable (k17_chk5 v35) := fun v35 => decidable_of_iff' _ (Iff.of_eq (k17_chk5.eq_1 v35))
theorem k17_off10_inb : ∀ (v35 : BitVec 32) (k17_hw5 : k17_chk5 v35), ∀ a, (k17_off10 v35) a + S1x262.size a ≤ S50000x262.size a := fun v35 k17_hw5 => k17_hw5.1
theorem k17_off37_inb : ∀ (v35 : BitVec 32) (k17_hw5 : k17_chk5 v35), ∀ a, (k17_off37 v35) a + S1x262.size a ≤ S50000x262.size a := fun v35 k17_hw5 => k17_hw5.2

def k17_off38 (v43 : BitVec 32) : Fin 2 → Nat :=
  let c0_i32_102 : BitVec 32 := 0#32
  ![v43.toNat, 0]

def k17_chk6 (v43 : BitVec 32) : Prop :=
  (∀ a, (k17_off12 v43) a + S1x262.size a ≤ S50000x262.size a) ∧
  (∀ a, (k17_off38 v43) a + S1x262.size a ≤ S50000x262.size a)
instance k17_chk6.dec : ∀ (v43 : BitVec 32), Decidable (k17_chk6 v43) := fun v43 => decidable_of_iff' _ (Iff.of_eq (k17_chk6.eq_1 v43))
theorem k17_off12_inb : ∀ (v43 : BitVec 32) (k17_hw6 : k17_chk6 v43), ∀ a, (k17_off12 v43) a + S1x262.size a ≤ S50000x262.size a := fun v43 k17_hw6 => k17_hw6.1
theorem k17_off38_inb : ∀ (v43 : BitVec 32) (k17_hw6 : k17_chk6 v43), ∀ a, (k17_off38 v43) a + S1x262.size a ≤ S50000x262.size a := fun v43 k17_hw6 => k17_hw6.2

def k17_off39 (v51 : BitVec 32) : Fin 2 → Nat :=
  let c0_i32_106 : BitVec 32 := 0#32
  ![v51.toNat, 0]

def k17_chk7 (v51 : BitVec 32) : Prop :=
  (∀ a, (k17_off14 v51) a + S1x262.size a ≤ S50000x262.size a) ∧
  (∀ a, (k17_off39 v51) a + S1x262.size a ≤ S50000x262.size a)
instance k17_chk7.dec : ∀ (v51 : BitVec 32), Decidable (k17_chk7 v51) := fun v51 => decidable_of_iff' _ (Iff.of_eq (k17_chk7.eq_1 v51))
theorem k17_off14_inb : ∀ (v51 : BitVec 32) (k17_hw7 : k17_chk7 v51), ∀ a, (k17_off14 v51) a + S1x262.size a ≤ S50000x262.size a := fun v51 k17_hw7 => k17_hw7.1
theorem k17_off39_inb : ∀ (v51 : BitVec 32) (k17_hw7 : k17_chk7 v51), ∀ a, (k17_off39 v51) a + S1x262.size a ≤ S50000x262.size a := fun v51 k17_hw7 => k17_hw7.2

def k17_off40 (v59 : BitVec 32) : Fin 2 → Nat :=
  let c0_i32_110 : BitVec 32 := 0#32
  ![v59.toNat, 0]

def k17_chk8 (v59 : BitVec 32) : Prop :=
  (∀ a, (k17_off16 v59) a + S1x262.size a ≤ S50000x262.size a) ∧
  (∀ a, (k17_off40 v59) a + S1x262.size a ≤ S50000x262.size a)
instance k17_chk8.dec : ∀ (v59 : BitVec 32), Decidable (k17_chk8 v59) := fun v59 => decidable_of_iff' _ (Iff.of_eq (k17_chk8.eq_1 v59))
theorem k17_off16_inb : ∀ (v59 : BitVec 32) (k17_hw8 : k17_chk8 v59), ∀ a, (k17_off16 v59) a + S1x262.size a ≤ S50000x262.size a := fun v59 k17_hw8 => k17_hw8.1
theorem k17_off40_inb : ∀ (v59 : BitVec 32) (k17_hw8 : k17_chk8 v59), ∀ a, (k17_off40 v59) a + S1x262.size a ≤ S50000x262.size a := fun v59 k17_hw8 => k17_hw8.2

def k17_off41 (v67 : BitVec 32) : Fin 2 → Nat :=
  let c0_i32_114 : BitVec 32 := 0#32
  ![v67.toNat, 0]

def k17_chk9 (v67 : BitVec 32) : Prop :=
  (∀ a, (k17_off18 v67) a + S1x262.size a ≤ S50000x262.size a) ∧
  (∀ a, (k17_off41 v67) a + S1x262.size a ≤ S50000x262.size a)
instance k17_chk9.dec : ∀ (v67 : BitVec 32), Decidable (k17_chk9 v67) := fun v67 => decidable_of_iff' _ (Iff.of_eq (k17_chk9.eq_1 v67))
theorem k17_off18_inb : ∀ (v67 : BitVec 32) (k17_hw9 : k17_chk9 v67), ∀ a, (k17_off18 v67) a + S1x262.size a ≤ S50000x262.size a := fun v67 k17_hw9 => k17_hw9.1
theorem k17_off41_inb : ∀ (v67 : BitVec 32) (k17_hw9 : k17_chk9 v67), ∀ a, (k17_off41 v67) a + S1x262.size a ≤ S50000x262.size a := fun v67 k17_hw9 => k17_hw9.2

def k17_off42 (v75 : BitVec 32) : Fin 2 → Nat :=
  let c0_i32_118 : BitVec 32 := 0#32
  ![v75.toNat, 0]

def k17_chk10 (v75 : BitVec 32) : Prop :=
  (∀ a, (k17_off20 v75) a + S1x262.size a ≤ S50000x262.size a) ∧
  (∀ a, (k17_off42 v75) a + S1x262.size a ≤ S50000x262.size a)
instance k17_chk10.dec : ∀ (v75 : BitVec 32), Decidable (k17_chk10 v75) := fun v75 => decidable_of_iff' _ (Iff.of_eq (k17_chk10.eq_1 v75))
theorem k17_off20_inb : ∀ (v75 : BitVec 32) (k17_hw10 : k17_chk10 v75), ∀ a, (k17_off20 v75) a + S1x262.size a ≤ S50000x262.size a := fun v75 k17_hw10 => k17_hw10.1
theorem k17_off42_inb : ∀ (v75 : BitVec 32) (k17_hw10 : k17_chk10 v75), ∀ a, (k17_off42 v75) a + S1x262.size a ≤ S50000x262.size a := fun v75 k17_hw10 => k17_hw10.2

def k17_off43 (v83 : BitVec 32) : Fin 2 → Nat :=
  let c0_i32_122 : BitVec 32 := 0#32
  ![v83.toNat, 0]

def k17_chk11 (v83 : BitVec 32) : Prop :=
  (∀ a, (k17_off22 v83) a + S1x262.size a ≤ S50000x262.size a) ∧
  (∀ a, (k17_off43 v83) a + S1x262.size a ≤ S50000x262.size a)
instance k17_chk11.dec : ∀ (v83 : BitVec 32), Decidable (k17_chk11 v83) := fun v83 => decidable_of_iff' _ (Iff.of_eq (k17_chk11.eq_1 v83))
theorem k17_off22_inb : ∀ (v83 : BitVec 32) (k17_hw11 : k17_chk11 v83), ∀ a, (k17_off22 v83) a + S1x262.size a ≤ S50000x262.size a := fun v83 k17_hw11 => k17_hw11.1
theorem k17_off43_inb : ∀ (v83 : BitVec 32) (k17_hw11 : k17_chk11 v83), ∀ a, (k17_off43 v83) a + S1x262.size a ≤ S50000x262.size a := fun v83 k17_hw11 => k17_hw11.2

def k17_off44 (v91 : BitVec 32) : Fin 2 → Nat :=
  let c0_i32_126 : BitVec 32 := 0#32
  ![v91.toNat, 0]

def k17_chk12 (v91 : BitVec 32) : Prop :=
  (∀ a, (k17_off24 v91) a + S1x262.size a ≤ S50000x262.size a) ∧
  (∀ a, (k17_off44 v91) a + S1x262.size a ≤ S50000x262.size a)
instance k17_chk12.dec : ∀ (v91 : BitVec 32), Decidable (k17_chk12 v91) := fun v91 => decidable_of_iff' _ (Iff.of_eq (k17_chk12.eq_1 v91))
theorem k17_off24_inb : ∀ (v91 : BitVec 32) (k17_hw12 : k17_chk12 v91), ∀ a, (k17_off24 v91) a + S1x262.size a ≤ S50000x262.size a := fun v91 k17_hw12 => k17_hw12.1
theorem k17_off44_inb : ∀ (v91 : BitVec 32) (k17_hw12 : k17_chk12 v91), ∀ a, (k17_off44 v91) a + S1x262.size a ≤ S50000x262.size a := fun v91 k17_hw12 => k17_hw12.2

def k17_off45 (v99 : BitVec 32) : Fin 2 → Nat :=
  let c0_i32_130 : BitVec 32 := 0#32
  ![v99.toNat, 0]

def k17_chk13 (v99 : BitVec 32) : Prop :=
  (∀ a, (k17_off26 v99) a + S1x262.size a ≤ S50000x262.size a) ∧
  (∀ a, (k17_off45 v99) a + S1x262.size a ≤ S50000x262.size a)
instance k17_chk13.dec : ∀ (v99 : BitVec 32), Decidable (k17_chk13 v99) := fun v99 => decidable_of_iff' _ (Iff.of_eq (k17_chk13.eq_1 v99))
theorem k17_off26_inb : ∀ (v99 : BitVec 32) (k17_hw13 : k17_chk13 v99), ∀ a, (k17_off26 v99) a + S1x262.size a ≤ S50000x262.size a := fun v99 k17_hw13 => k17_hw13.1
theorem k17_off45_inb : ∀ (v99 : BitVec 32) (k17_hw13 : k17_chk13 v99), ∀ a, (k17_off45 v99) a + S1x262.size a ≤ S50000x262.size a := fun v99 k17_hw13 => k17_hw13.2

def k17_off46 (v107 : BitVec 32) : Fin 2 → Nat :=
  let c0_i32_134 : BitVec 32 := 0#32
  ![v107.toNat, 0]

def k17_chk14 (v107 : BitVec 32) : Prop :=
  (∀ a, (k17_off28 v107) a + S1x262.size a ≤ S50000x262.size a) ∧
  (∀ a, (k17_off46 v107) a + S1x262.size a ≤ S50000x262.size a)
instance k17_chk14.dec : ∀ (v107 : BitVec 32), Decidable (k17_chk14 v107) := fun v107 => decidable_of_iff' _ (Iff.of_eq (k17_chk14.eq_1 v107))
theorem k17_off28_inb : ∀ (v107 : BitVec 32) (k17_hw14 : k17_chk14 v107), ∀ a, (k17_off28 v107) a + S1x262.size a ≤ S50000x262.size a := fun v107 k17_hw14 => k17_hw14.1
theorem k17_off46_inb : ∀ (v107 : BitVec 32) (k17_hw14 : k17_chk14 v107), ∀ a, (k17_off46 v107) a + S1x262.size a ≤ S50000x262.size a := fun v107 k17_hw14 => k17_hw14.2

def k17_off47 (v115 : BitVec 32) : Fin 2 → Nat :=
  let c0_i32_138 : BitVec 32 := 0#32
  ![v115.toNat, 0]

def k17_chk15 (v115 : BitVec 32) : Prop :=
  (∀ a, (k17_off30 v115) a + S1x262.size a ≤ S50000x262.size a) ∧
  (∀ a, (k17_off47 v115) a + S1x262.size a ≤ S50000x262.size a)
instance k17_chk15.dec : ∀ (v115 : BitVec 32), Decidable (k17_chk15 v115) := fun v115 => decidable_of_iff' _ (Iff.of_eq (k17_chk15.eq_1 v115))
theorem k17_off30_inb : ∀ (v115 : BitVec 32) (k17_hw15 : k17_chk15 v115), ∀ a, (k17_off30 v115) a + S1x262.size a ≤ S50000x262.size a := fun v115 k17_hw15 => k17_hw15.1
theorem k17_off47_inb : ∀ (v115 : BitVec 32) (k17_hw15 : k17_chk15 v115), ∀ a, (k17_off47 v115) a + S1x262.size a ≤ S50000x262.size a := fun v115 k17_hw15 => k17_hw15.2

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S16x1 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S16x262 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev grid18 : Pipeline.Grid := ⟨1, ![3125], ![false]⟩

abbrev pre18 : Pipeline.Prefetch sig := ⟨1, ![main_v94.idx], fun | 0 => main_v94.names | ⟨_ + 1, h⟩ => absurd h (Nat.not_lt.2 (Nat.le_add_left _ _)), fun | 0 => rfl | ⟨_ + 1, h⟩ => absurd h (Nat.not_lt.2 (Nat.le_add_left _ _))⟩

def k18_off1 (i : grid18.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k18_off2 (v3 : BitVec 32) : Fin 2 → Nat :=
  let c0_i32_3 : BitVec 32 := 0#32
  ![v3.toNat, 0]

def k18_off3 (i : grid18.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k18_off4 (v11 : BitVec 32) : Fin 2 → Nat :=
  let c0_i32_8 : BitVec 32 := 0#32
  ![v11.toNat, 0]

def k18_off5 (i : grid18.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k18_off6 (v19 : BitVec 32) : Fin 2 → Nat :=
  let c0_i32_13 : BitVec 32 := 0#32
  ![v19.toNat, 0]

def k18_off7 (i : grid18.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k18_off8 (v27 : BitVec 32) : Fin 2 → Nat :=
  let c0_i32_18 : BitVec 32 := 0#32
  ![v27.toNat, 0]

def k18_off9 (i : grid18.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k18_off10 (v35 : BitVec 32) : Fin 2 → Nat :=
  let c0_i32_23 : BitVec 32 := 0#32
  ![v35.toNat, 0]

def k18_off11 (i : grid18.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k18_off12 (v43 : BitVec 32) : Fin 2 → Nat :=
  let c0_i32_28 : BitVec 32 := 0#32
  ![v43.toNat, 0]

def k18_off13 (i : grid18.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k18_off14 (v51 : BitVec 32) : Fin 2 → Nat :=
  let c0_i32_33 : BitVec 32 := 0#32
  ![v51.toNat, 0]

def k18_off15 (i : grid18.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k18_off16 (v59 : BitVec 32) : Fin 2 → Nat :=
  let c0_i32_38 : BitVec 32 := 0#32
  ![v59.toNat, 0]

def k18_off17 (i : grid18.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k18_off18 (v67 : BitVec 32) : Fin 2 → Nat :=
  let c0_i32_43 : BitVec 32 := 0#32
  ![v67.toNat, 0]

def k18_off19 (i : grid18.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k18_off20 (v75 : BitVec 32) : Fin 2 → Nat :=
  let c0_i32_48 : BitVec 32 := 0#32
  ![v75.toNat, 0]

def k18_off21 (i : grid18.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k18_off22 (v83 : BitVec 32) : Fin 2 → Nat :=
  let c0_i32_53 : BitVec 32 := 0#32
  ![v83.toNat, 0]

def k18_off23 (i : grid18.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k18_off24 (v91 : BitVec 32) : Fin 2 → Nat :=
  let c0_i32_58 : BitVec 32 := 0#32
  ![v91.toNat, 0]

def k18_off25 (i : grid18.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k18_off26 (v99 : BitVec 32) : Fin 2 → Nat :=
  let c0_i32_63 : BitVec 32 := 0#32
  ![v99.toNat, 0]

def k18_off27 (i : grid18.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k18_off28 (v107 : BitVec 32) : Fin 2 → Nat :=
  let c0_i32_68 : BitVec 32 := 0#32
  ![v107.toNat, 0]

def k18_off29 (i : grid18.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k18_off30 (v115 : BitVec 32) : Fin 2 → Nat :=
  let c0_i32_73 : BitVec 32 := 0#32
  ![v115.toNat, 0]

def k18_off31 (i : grid18.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k18_off32 (v123 : BitVec 32) : Fin 2 → Nat :=
  let c0_i32_78 : BitVec 32 := 0#32
  ![v123.toNat, 0]

def k18_chk16 (v123 : BitVec 32) : Prop :=
  (∀ a, (k18_off32 v123) a + S1x262.size a ≤ S50000x262.size a)
instance k18_chk16.dec : ∀ (v123 : BitVec 32), Decidable (k18_chk16 v123) := fun v123 => decidable_of_iff' _ (Iff.of_eq (k18_chk16.eq_1 v123))
theorem k18_off32_inb : ∀ (v123 : BitVec 32) (k18_hw16 : k18_chk16 v123), ∀ a, (k18_off32 v123) a + S1x262.size a ≤ S50000x262.size a := fun v123 k18_hw16 => k18_hw16

def k18_off33 (v3 : BitVec 32) : Fin 2 → Nat :=
  let c0_i32_82 : BitVec 32 := 0#32
  ![v3.toNat, 0]

def k18_chk1 (v3 : BitVec 32) : Prop :=
  (∀ a, (k18_off2 v3) a + S1x262.size a ≤ S50000x262.size a) ∧
  (∀ a, (k18_off33 v3) a + S1x262.size a ≤ S50000x262.size a)
instance k18_chk1.dec : ∀ (v3 : BitVec 32), Decidable (k18_chk1 v3) := fun v3 => decidable_of_iff' _ (Iff.of_eq (k18_chk1.eq_1 v3))
theorem k18_off2_inb : ∀ (v3 : BitVec 32) (k18_hw1 : k18_chk1 v3), ∀ a, (k18_off2 v3) a + S1x262.size a ≤ S50000x262.size a := fun v3 k18_hw1 => k18_hw1.1
theorem k18_off33_inb : ∀ (v3 : BitVec 32) (k18_hw1 : k18_chk1 v3), ∀ a, (k18_off33 v3) a + S1x262.size a ≤ S50000x262.size a := fun v3 k18_hw1 => k18_hw1.2

def k18_off34 (v11 : BitVec 32) : Fin 2 → Nat :=
  let c0_i32_86 : BitVec 32 := 0#32
  ![v11.toNat, 0]

def k18_chk2 (v11 : BitVec 32) : Prop :=
  (∀ a, (k18_off4 v11) a + S1x262.size a ≤ S50000x262.size a) ∧
  (∀ a, (k18_off34 v11) a + S1x262.size a ≤ S50000x262.size a)
instance k18_chk2.dec : ∀ (v11 : BitVec 32), Decidable (k18_chk2 v11) := fun v11 => decidable_of_iff' _ (Iff.of_eq (k18_chk2.eq_1 v11))
theorem k18_off4_inb : ∀ (v11 : BitVec 32) (k18_hw2 : k18_chk2 v11), ∀ a, (k18_off4 v11) a + S1x262.size a ≤ S50000x262.size a := fun v11 k18_hw2 => k18_hw2.1
theorem k18_off34_inb : ∀ (v11 : BitVec 32) (k18_hw2 : k18_chk2 v11), ∀ a, (k18_off34 v11) a + S1x262.size a ≤ S50000x262.size a := fun v11 k18_hw2 => k18_hw2.2

def k18_off35 (v19 : BitVec 32) : Fin 2 → Nat :=
  let c0_i32_90 : BitVec 32 := 0#32
  ![v19.toNat, 0]

def k18_chk3 (v19 : BitVec 32) : Prop :=
  (∀ a, (k18_off6 v19) a + S1x262.size a ≤ S50000x262.size a) ∧
  (∀ a, (k18_off35 v19) a + S1x262.size a ≤ S50000x262.size a)
instance k18_chk3.dec : ∀ (v19 : BitVec 32), Decidable (k18_chk3 v19) := fun v19 => decidable_of_iff' _ (Iff.of_eq (k18_chk3.eq_1 v19))
theorem k18_off6_inb : ∀ (v19 : BitVec 32) (k18_hw3 : k18_chk3 v19), ∀ a, (k18_off6 v19) a + S1x262.size a ≤ S50000x262.size a := fun v19 k18_hw3 => k18_hw3.1
theorem k18_off35_inb : ∀ (v19 : BitVec 32) (k18_hw3 : k18_chk3 v19), ∀ a, (k18_off35 v19) a + S1x262.size a ≤ S50000x262.size a := fun v19 k18_hw3 => k18_hw3.2

def k18_off36 (v27 : BitVec 32) : Fin 2 → Nat :=
  let c0_i32_94 : BitVec 32 := 0#32
  ![v27.toNat, 0]

def k18_chk4 (v27 : BitVec 32) : Prop :=
  (∀ a, (k18_off8 v27) a + S1x262.size a ≤ S50000x262.size a) ∧
  (∀ a, (k18_off36 v27) a + S1x262.size a ≤ S50000x262.size a)
instance k18_chk4.dec : ∀ (v27 : BitVec 32), Decidable (k18_chk4 v27) := fun v27 => decidable_of_iff' _ (Iff.of_eq (k18_chk4.eq_1 v27))
theorem k18_off8_inb : ∀ (v27 : BitVec 32) (k18_hw4 : k18_chk4 v27), ∀ a, (k18_off8 v27) a + S1x262.size a ≤ S50000x262.size a := fun v27 k18_hw4 => k18_hw4.1
theorem k18_off36_inb : ∀ (v27 : BitVec 32) (k18_hw4 : k18_chk4 v27), ∀ a, (k18_off36 v27) a + S1x262.size a ≤ S50000x262.size a := fun v27 k18_hw4 => k18_hw4.2

def k18_off37 (v35 : BitVec 32) : Fin 2 → Nat :=
  let c0_i32_98 : BitVec 32 := 0#32
  ![v35.toNat, 0]

def k18_chk5 (v35 : BitVec 32) : Prop :=
  (∀ a, (k18_off10 v35) a + S1x262.size a ≤ S50000x262.size a) ∧
  (∀ a, (k18_off37 v35) a + S1x262.size a ≤ S50000x262.size a)
instance k18_chk5.dec : ∀ (v35 : BitVec 32), Decidable (k18_chk5 v35) := fun v35 => decidable_of_iff' _ (Iff.of_eq (k18_chk5.eq_1 v35))
theorem k18_off10_inb : ∀ (v35 : BitVec 32) (k18_hw5 : k18_chk5 v35), ∀ a, (k18_off10 v35) a + S1x262.size a ≤ S50000x262.size a := fun v35 k18_hw5 => k18_hw5.1
theorem k18_off37_inb : ∀ (v35 : BitVec 32) (k18_hw5 : k18_chk5 v35), ∀ a, (k18_off37 v35) a + S1x262.size a ≤ S50000x262.size a := fun v35 k18_hw5 => k18_hw5.2

def k18_off38 (v43 : BitVec 32) : Fin 2 → Nat :=
  let c0_i32_102 : BitVec 32 := 0#32
  ![v43.toNat, 0]

def k18_chk6 (v43 : BitVec 32) : Prop :=
  (∀ a, (k18_off12 v43) a + S1x262.size a ≤ S50000x262.size a) ∧
  (∀ a, (k18_off38 v43) a + S1x262.size a ≤ S50000x262.size a)
instance k18_chk6.dec : ∀ (v43 : BitVec 32), Decidable (k18_chk6 v43) := fun v43 => decidable_of_iff' _ (Iff.of_eq (k18_chk6.eq_1 v43))
theorem k18_off12_inb : ∀ (v43 : BitVec 32) (k18_hw6 : k18_chk6 v43), ∀ a, (k18_off12 v43) a + S1x262.size a ≤ S50000x262.size a := fun v43 k18_hw6 => k18_hw6.1
theorem k18_off38_inb : ∀ (v43 : BitVec 32) (k18_hw6 : k18_chk6 v43), ∀ a, (k18_off38 v43) a + S1x262.size a ≤ S50000x262.size a := fun v43 k18_hw6 => k18_hw6.2

def k18_off39 (v51 : BitVec 32) : Fin 2 → Nat :=
  let c0_i32_106 : BitVec 32 := 0#32
  ![v51.toNat, 0]

def k18_chk7 (v51 : BitVec 32) : Prop :=
  (∀ a, (k18_off14 v51) a + S1x262.size a ≤ S50000x262.size a) ∧
  (∀ a, (k18_off39 v51) a + S1x262.size a ≤ S50000x262.size a)
instance k18_chk7.dec : ∀ (v51 : BitVec 32), Decidable (k18_chk7 v51) := fun v51 => decidable_of_iff' _ (Iff.of_eq (k18_chk7.eq_1 v51))
theorem k18_off14_inb : ∀ (v51 : BitVec 32) (k18_hw7 : k18_chk7 v51), ∀ a, (k18_off14 v51) a + S1x262.size a ≤ S50000x262.size a := fun v51 k18_hw7 => k18_hw7.1
theorem k18_off39_inb : ∀ (v51 : BitVec 32) (k18_hw7 : k18_chk7 v51), ∀ a, (k18_off39 v51) a + S1x262.size a ≤ S50000x262.size a := fun v51 k18_hw7 => k18_hw7.2

def k18_off40 (v59 : BitVec 32) : Fin 2 → Nat :=
  let c0_i32_110 : BitVec 32 := 0#32
  ![v59.toNat, 0]

def k18_chk8 (v59 : BitVec 32) : Prop :=
  (∀ a, (k18_off16 v59) a + S1x262.size a ≤ S50000x262.size a) ∧
  (∀ a, (k18_off40 v59) a + S1x262.size a ≤ S50000x262.size a)
instance k18_chk8.dec : ∀ (v59 : BitVec 32), Decidable (k18_chk8 v59) := fun v59 => decidable_of_iff' _ (Iff.of_eq (k18_chk8.eq_1 v59))
theorem k18_off16_inb : ∀ (v59 : BitVec 32) (k18_hw8 : k18_chk8 v59), ∀ a, (k18_off16 v59) a + S1x262.size a ≤ S50000x262.size a := fun v59 k18_hw8 => k18_hw8.1
theorem k18_off40_inb : ∀ (v59 : BitVec 32) (k18_hw8 : k18_chk8 v59), ∀ a, (k18_off40 v59) a + S1x262.size a ≤ S50000x262.size a := fun v59 k18_hw8 => k18_hw8.2

def k18_off41 (v67 : BitVec 32) : Fin 2 → Nat :=
  let c0_i32_114 : BitVec 32 := 0#32
  ![v67.toNat, 0]

def k18_chk9 (v67 : BitVec 32) : Prop :=
  (∀ a, (k18_off18 v67) a + S1x262.size a ≤ S50000x262.size a) ∧
  (∀ a, (k18_off41 v67) a + S1x262.size a ≤ S50000x262.size a)
instance k18_chk9.dec : ∀ (v67 : BitVec 32), Decidable (k18_chk9 v67) := fun v67 => decidable_of_iff' _ (Iff.of_eq (k18_chk9.eq_1 v67))
theorem k18_off18_inb : ∀ (v67 : BitVec 32) (k18_hw9 : k18_chk9 v67), ∀ a, (k18_off18 v67) a + S1x262.size a ≤ S50000x262.size a := fun v67 k18_hw9 => k18_hw9.1
theorem k18_off41_inb : ∀ (v67 : BitVec 32) (k18_hw9 : k18_chk9 v67), ∀ a, (k18_off41 v67) a + S1x262.size a ≤ S50000x262.size a := fun v67 k18_hw9 => k18_hw9.2

def k18_off42 (v75 : BitVec 32) : Fin 2 → Nat :=
  let c0_i32_118 : BitVec 32 := 0#32
  ![v75.toNat, 0]

def k18_chk10 (v75 : BitVec 32) : Prop :=
  (∀ a, (k18_off20 v75) a + S1x262.size a ≤ S50000x262.size a) ∧
  (∀ a, (k18_off42 v75) a + S1x262.size a ≤ S50000x262.size a)
instance k18_chk10.dec : ∀ (v75 : BitVec 32), Decidable (k18_chk10 v75) := fun v75 => decidable_of_iff' _ (Iff.of_eq (k18_chk10.eq_1 v75))
theorem k18_off20_inb : ∀ (v75 : BitVec 32) (k18_hw10 : k18_chk10 v75), ∀ a, (k18_off20 v75) a + S1x262.size a ≤ S50000x262.size a := fun v75 k18_hw10 => k18_hw10.1
theorem k18_off42_inb : ∀ (v75 : BitVec 32) (k18_hw10 : k18_chk10 v75), ∀ a, (k18_off42 v75) a + S1x262.size a ≤ S50000x262.size a := fun v75 k18_hw10 => k18_hw10.2

def k18_off43 (v83 : BitVec 32) : Fin 2 → Nat :=
  let c0_i32_122 : BitVec 32 := 0#32
  ![v83.toNat, 0]

def k18_chk11 (v83 : BitVec 32) : Prop :=
  (∀ a, (k18_off22 v83) a + S1x262.size a ≤ S50000x262.size a) ∧
  (∀ a, (k18_off43 v83) a + S1x262.size a ≤ S50000x262.size a)
instance k18_chk11.dec : ∀ (v83 : BitVec 32), Decidable (k18_chk11 v83) := fun v83 => decidable_of_iff' _ (Iff.of_eq (k18_chk11.eq_1 v83))
theorem k18_off22_inb : ∀ (v83 : BitVec 32) (k18_hw11 : k18_chk11 v83), ∀ a, (k18_off22 v83) a + S1x262.size a ≤ S50000x262.size a := fun v83 k18_hw11 => k18_hw11.1
theorem k18_off43_inb : ∀ (v83 : BitVec 32) (k18_hw11 : k18_chk11 v83), ∀ a, (k18_off43 v83) a + S1x262.size a ≤ S50000x262.size a := fun v83 k18_hw11 => k18_hw11.2

def k18_off44 (v91 : BitVec 32) : Fin 2 → Nat :=
  let c0_i32_126 : BitVec 32 := 0#32
  ![v91.toNat, 0]

def k18_chk12 (v91 : BitVec 32) : Prop :=
  (∀ a, (k18_off24 v91) a + S1x262.size a ≤ S50000x262.size a) ∧
  (∀ a, (k18_off44 v91) a + S1x262.size a ≤ S50000x262.size a)
instance k18_chk12.dec : ∀ (v91 : BitVec 32), Decidable (k18_chk12 v91) := fun v91 => decidable_of_iff' _ (Iff.of_eq (k18_chk12.eq_1 v91))
theorem k18_off24_inb : ∀ (v91 : BitVec 32) (k18_hw12 : k18_chk12 v91), ∀ a, (k18_off24 v91) a + S1x262.size a ≤ S50000x262.size a := fun v91 k18_hw12 => k18_hw12.1
theorem k18_off44_inb : ∀ (v91 : BitVec 32) (k18_hw12 : k18_chk12 v91), ∀ a, (k18_off44 v91) a + S1x262.size a ≤ S50000x262.size a := fun v91 k18_hw12 => k18_hw12.2

def k18_off45 (v99 : BitVec 32) : Fin 2 → Nat :=
  let c0_i32_130 : BitVec 32 := 0#32
  ![v99.toNat, 0]

def k18_chk13 (v99 : BitVec 32) : Prop :=
  (∀ a, (k18_off26 v99) a + S1x262.size a ≤ S50000x262.size a) ∧
  (∀ a, (k18_off45 v99) a + S1x262.size a ≤ S50000x262.size a)
instance k18_chk13.dec : ∀ (v99 : BitVec 32), Decidable (k18_chk13 v99) := fun v99 => decidable_of_iff' _ (Iff.of_eq (k18_chk13.eq_1 v99))
theorem k18_off26_inb : ∀ (v99 : BitVec 32) (k18_hw13 : k18_chk13 v99), ∀ a, (k18_off26 v99) a + S1x262.size a ≤ S50000x262.size a := fun v99 k18_hw13 => k18_hw13.1
theorem k18_off45_inb : ∀ (v99 : BitVec 32) (k18_hw13 : k18_chk13 v99), ∀ a, (k18_off45 v99) a + S1x262.size a ≤ S50000x262.size a := fun v99 k18_hw13 => k18_hw13.2

def k18_off46 (v107 : BitVec 32) : Fin 2 → Nat :=
  let c0_i32_134 : BitVec 32 := 0#32
  ![v107.toNat, 0]

def k18_chk14 (v107 : BitVec 32) : Prop :=
  (∀ a, (k18_off28 v107) a + S1x262.size a ≤ S50000x262.size a) ∧
  (∀ a, (k18_off46 v107) a + S1x262.size a ≤ S50000x262.size a)
instance k18_chk14.dec : ∀ (v107 : BitVec 32), Decidable (k18_chk14 v107) := fun v107 => decidable_of_iff' _ (Iff.of_eq (k18_chk14.eq_1 v107))
theorem k18_off28_inb : ∀ (v107 : BitVec 32) (k18_hw14 : k18_chk14 v107), ∀ a, (k18_off28 v107) a + S1x262.size a ≤ S50000x262.size a := fun v107 k18_hw14 => k18_hw14.1
theorem k18_off46_inb : ∀ (v107 : BitVec 32) (k18_hw14 : k18_chk14 v107), ∀ a, (k18_off46 v107) a + S1x262.size a ≤ S50000x262.size a := fun v107 k18_hw14 => k18_hw14.2

def k18_off47 (v115 : BitVec 32) : Fin 2 → Nat :=
  let c0_i32_138 : BitVec 32 := 0#32
  ![v115.toNat, 0]

def k18_chk15 (v115 : BitVec 32) : Prop :=
  (∀ a, (k18_off30 v115) a + S1x262.size a ≤ S50000x262.size a) ∧
  (∀ a, (k18_off47 v115) a + S1x262.size a ≤ S50000x262.size a)
instance k18_chk15.dec : ∀ (v115 : BitVec 32), Decidable (k18_chk15 v115) := fun v115 => decidable_of_iff' _ (Iff.of_eq (k18_chk15.eq_1 v115))
theorem k18_off30_inb : ∀ (v115 : BitVec 32) (k18_hw15 : k18_chk15 v115), ∀ a, (k18_off30 v115) a + S1x262.size a ≤ S50000x262.size a := fun v115 k18_hw15 => k18_hw15.1
theorem k18_off47_inb : ∀ (v115 : BitVec 32) (k18_hw15 : k18_chk15 v115), ∀ a, (k18_off47 v115) a + S1x262.size a ≤ S50000x262.size a := fun v115 k18_hw15 => k18_hw15.2

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S16x1 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S16x262 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev grid19 : Pipeline.Grid := ⟨1, ![3125], ![false]⟩

abbrev pre19 : Pipeline.Prefetch sig := ⟨1, ![main_v97.idx], fun | 0 => main_v97.names | ⟨_ + 1, h⟩ => absurd h (Nat.not_lt.2 (Nat.le_add_left _ _)), fun | 0 => rfl | ⟨_ + 1, h⟩ => absurd h (Nat.not_lt.2 (Nat.le_add_left _ _))⟩

def k19_off1 (i : grid19.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k19_off2 (v3 : BitVec 32) : Fin 2 → Nat :=
  let c0_i32_3 : BitVec 32 := 0#32
  ![v3.toNat, 0]

def k19_off3 (i : grid19.Coords) : Fin 1 → Nat :=
  let arg0 : BitVec 32 := BitVec.ofNat 32 (i 0).val
  let c16_i32_4 : BitVec 32 := 16#32
  let v8 : BitVec 32 := Scalar.muli arg0 c16_i32_4
  let c1_i32 : BitVec 32 := 1#32
  let v9 : BitVec 32 := Scalar.addi v8 c1_i32
  let v10 : Index := Scalar.indexCast v9
  ![v10.toNat]
def k19_off4 (v11 : BitVec 32) : Fin 2 → Nat :=
  let c0_i32_8 : BitVec 32 := 0#32
  ![v11.toNat, 0]

def k19_off5 (i : grid19.Coords) : Fin 1 → Nat :=
  let arg0 : BitVec 32 := BitVec.ofNat 32 (i 0).val
  let c16_i32_9 : BitVec 32 := 16#32
  let v16 : BitVec 32 := Scalar.muli arg0 c16_i32_9
  let c2_i32 : BitVec 32 := 2#32
  let v17 : BitVec 32 := Scalar.addi v16 c2_i32
  let v18 : Index := Scalar.indexCast v17
  ![v18.toNat]
def k19_off6 (v19 : BitVec 32) : Fin 2 → Nat :=
  let c0_i32_13 : BitVec 32 := 0#32
  ![v19.toNat, 0]

def k19_off7 (i : grid19.Coords) : Fin 1 → Nat :=
  let arg0 : BitVec 32 := BitVec.ofNat 32 (i 0).val
  let c16_i32_14 : BitVec 32 := 16#32
  let v24 : BitVec 32 := Scalar.muli arg0 c16_i32_14
  let c3_i32 : BitVec 32 := 3#32
  let v25 : BitVec 32 := Scalar.addi v24 c3_i32
  let v26 : Index := Scalar.indexCast v25
  ![v26.toNat]
def k19_off8 (v27 : BitVec 32) : Fin 2 → Nat :=
  let c0_i32_18 : BitVec 32 := 0#32
  ![v27.toNat, 0]

def k19_off9 (i : grid19.Coords) : Fin 1 → Nat :=
  let arg0 : BitVec 32 := BitVec.ofNat 32 (i 0).val
  let c16_i32_19 : BitVec 32 := 16#32
  let v32 : BitVec 32 := Scalar.muli arg0 c16_i32_19
  let c4_i32 : BitVec 32 := 4#32
  let v33 : BitVec 32 := Scalar.addi v32 c4_i32
  let v34 : Index := Scalar.indexCast v33
  ![v34.toNat]
def k19_off10 (v35 : BitVec 32) : Fin 2 → Nat :=
  let c0_i32_23 : BitVec 32 := 0#32
  ![v35.toNat, 0]

def k19_off11 (i : grid19.Coords) : Fin 1 → Nat :=
  let arg0 : BitVec 32 := BitVec.ofNat 32 (i 0).val
  let c16_i32_24 : BitVec 32 := 16#32
  let v40 : BitVec 32 := Scalar.muli arg0 c16_i32_24
  let c5_i32 : BitVec 32 := 5#32
  let v41 : BitVec 32 := Scalar.addi v40 c5_i32
  let v42 : Index := Scalar.indexCast v41
  ![v42.toNat]
def k19_off12 (v43 : BitVec 32) : Fin 2 → Nat :=
  let c0_i32_28 : BitVec 32 := 0#32
  ![v43.toNat, 0]

def k19_off13 (i : grid19.Coords) : Fin 1 → Nat :=
  let arg0 : BitVec 32 := BitVec.ofNat 32 (i 0).val
  let c16_i32_29 : BitVec 32 := 16#32
  let v48 : BitVec 32 := Scalar.muli arg0 c16_i32_29
  let c6_i32 : BitVec 32 := 6#32
  let v49 : BitVec 32 := Scalar.addi v48 c6_i32
  let v50 : Index := Scalar.indexCast v49
  ![v50.toNat]
def k19_off14 (v51 : BitVec 32) : Fin 2 → Nat :=
  let c0_i32_33 : BitVec 32 := 0#32
  ![v51.toNat, 0]

def k19_off15 (i : grid19.Coords) : Fin 1 → Nat :=
  let arg0 : BitVec 32 := BitVec.ofNat 32 (i 0).val
  let c16_i32_34 : BitVec 32 := 16#32
  let v56 : BitVec 32 := Scalar.muli arg0 c16_i32_34
  let c7_i32 : BitVec 32 := 7#32
  let v57 : BitVec 32 := Scalar.addi v56 c7_i32
  let v58 : Index := Scalar.indexCast v57
  ![v58.toNat]
def k19_off16 (v59 : BitVec 32) : Fin 2 → Nat :=
  let c0_i32_38 : BitVec 32 := 0#32
  ![v59.toNat, 0]

def k19_off17 (i : grid19.Coords) : Fin 1 → Nat :=
  let arg0 : BitVec 32 := BitVec.ofNat 32 (i 0).val
  let c16_i32_39 : BitVec 32 := 16#32
  let v64 : BitVec 32 := Scalar.muli arg0 c16_i32_39
  let c8_i32 : BitVec 32 := 8#32
  let v65 : BitVec 32 := Scalar.addi v64 c8_i32
  let v66 : Index := Scalar.indexCast v65
  ![v66.toNat]
def k19_off18 (v67 : BitVec 32) : Fin 2 → Nat :=
  let c0_i32_43 : BitVec 32 := 0#32
  ![v67.toNat, 0]

def k19_off19 (i : grid19.Coords) : Fin 1 → Nat :=
  let arg0 : BitVec 32 := BitVec.ofNat 32 (i 0).val
  let c16_i32_44 : BitVec 32 := 16#32
  let v72 : BitVec 32 := Scalar.muli arg0 c16_i32_44
  let c9_i32 : BitVec 32 := 9#32
  let v73 : BitVec 32 := Scalar.addi v72 c9_i32
  let v74 : Index := Scalar.indexCast v73
  ![v74.toNat]
def k19_off20 (v75 : BitVec 32) : Fin 2 → Nat :=
  let c0_i32_48 : BitVec 32 := 0#32
  ![v75.toNat, 0]

def k19_off21 (i : grid19.Coords) : Fin 1 → Nat :=
  let arg0 : BitVec 32 := BitVec.ofNat 32 (i 0).val
  let c16_i32_49 : BitVec 32 := 16#32
  let v80 : BitVec 32 := Scalar.muli arg0 c16_i32_49
  let c10_i32 : BitVec 32 := 10#32
  let v81 : BitVec 32 := Scalar.addi v80 c10_i32
  let v82 : Index := Scalar.indexCast v81
  ![v82.toNat]
def k19_off22 (v83 : BitVec 32) : Fin 2 → Nat :=
  let c0_i32_53 : BitVec 32 := 0#32
  ![v83.toNat, 0]

def k19_off23 (i : grid19.Coords) : Fin 1 → Nat :=
  let arg0 : BitVec 32 := BitVec.ofNat 32 (i 0).val
  let c16_i32_54 : BitVec 32 := 16#32
  let v88 : BitVec 32 := Scalar.muli arg0 c16_i32_54
  let c11_i32 : BitVec 32 := 11#32
  let v89 : BitVec 32 := Scalar.addi v88 c11_i32
  let v90 : Index := Scalar.indexCast v89
  ![v90.toNat]
def k19_off24 (v91 : BitVec 32) : Fin 2 → Nat :=
  let c0_i32_58 : BitVec 32 := 0#32
  ![v91.toNat, 0]

def k19_off25 (i : grid19.Coords) : Fin 1 → Nat :=
  let arg0 : BitVec 32 := BitVec.ofNat 32 (i 0).val
  let c16_i32_59 : BitVec 32 := 16#32
  let v96 : BitVec 32 := Scalar.muli arg0 c16_i32_59
  let c12_i32 : BitVec 32 := 12#32
  let v97 : BitVec 32 := Scalar.addi v96 c12_i32
  let v98 : Index := Scalar.indexCast v97
  ![v98.toNat]
def k19_off26 (v99 : BitVec 32) : Fin 2 → Nat :=
  let c0_i32_63 : BitVec 32 := 0#32
  ![v99.toNat, 0]

def k19_off27 (i : grid19.Coords) : Fin 1 → Nat :=
  let arg0 : BitVec 32 := BitVec.ofNat 32 (i 0).val
  let c16_i32_64 : BitVec 32 := 16#32
  let v104 : BitVec 32 := Scalar.muli arg0 c16_i32_64
  let c13_i32 : BitVec 32 := 13#32
  let v105 : BitVec 32 := Scalar.addi v104 c13_i32
  let v106 : Index := Scalar.indexCast v105
  ![v106.toNat]
def k19_off28 (v107 : BitVec 32) : Fin 2 → Nat :=
  let c0_i32_68 : BitVec 32 := 0#32
  ![v107.toNat, 0]

def k19_off29 (i : grid19.Coords) : Fin 1 → Nat :=
  let arg0 : BitVec 32 := BitVec.ofNat 32 (i 0).val
  let c16_i32_69 : BitVec 32 := 16#32
  let v112 : BitVec 32 := Scalar.muli arg0 c16_i32_69
  let c14_i32 : BitVec 32 := 14#32
  let v113 : BitVec 32 := Scalar.addi v112 c14_i32
  let v114 : Index := Scalar.indexCast v113
  ![v114.toNat]
def k19_off30 (v115 : BitVec 32) : Fin 2 → Nat :=
  let c0_i32_73 : BitVec 32 := 0#32
  ![v115.toNat, 0]

def k19_off31 (i : grid19.Coords) : Fin 1 → Nat :=
  let arg0 : BitVec 32 := BitVec.ofNat 32 (i 0).val
  let c16_i32_74 : BitVec 32 := 16#32
  let v120 : BitVec 32 := Scalar.muli arg0 c16_i32_74
  let c15_i32 : BitVec 32 := 15#32
  let v121 : BitVec 32 := Scalar.addi v120 c15_i32
  let v122 : Index := Scalar.indexCast v121
  ![v122.toNat]
def k19_off32 (v123 : BitVec 32) : Fin 2 → Nat :=
  let c0_i32_78 : BitVec 32 := 0#32
  ![v123.toNat, 0]

def k19_chk16 (v123 : BitVec 32) : Prop :=
  (∀ a, (k19_off32 v123) a + S1x262.size a ≤ S50000x262.size a)
instance k19_chk16.dec : ∀ (v123 : BitVec 32), Decidable (k19_chk16 v123) := fun v123 => decidable_of_iff' _ (Iff.of_eq (k19_chk16.eq_1 v123))
theorem k19_off32_inb : ∀ (v123 : BitVec 32) (k19_hw16 : k19_chk16 v123), ∀ a, (k19_off32 v123) a + S1x262.size a ≤ S50000x262.size a := fun v123 k19_hw16 => k19_hw16

def k19_off33 (v3 : BitVec 32) : Fin 2 → Nat :=
  let c0_i32_82 : BitVec 32 := 0#32
  ![v3.toNat, 0]

def k19_chk1 (v3 : BitVec 32) : Prop :=
  (∀ a, (k19_off2 v3) a + S1x262.size a ≤ S50000x262.size a) ∧
  (∀ a, (k19_off33 v3) a + S1x262.size a ≤ S50000x262.size a)
instance k19_chk1.dec : ∀ (v3 : BitVec 32), Decidable (k19_chk1 v3) := fun v3 => decidable_of_iff' _ (Iff.of_eq (k19_chk1.eq_1 v3))
theorem k19_off2_inb : ∀ (v3 : BitVec 32) (k19_hw1 : k19_chk1 v3), ∀ a, (k19_off2 v3) a + S1x262.size a ≤ S50000x262.size a := fun v3 k19_hw1 => k19_hw1.1
theorem k19_off33_inb : ∀ (v3 : BitVec 32) (k19_hw1 : k19_chk1 v3), ∀ a, (k19_off33 v3) a + S1x262.size a ≤ S50000x262.size a := fun v3 k19_hw1 => k19_hw1.2

def k19_off34 (v11 : BitVec 32) : Fin 2 → Nat :=
  let c0_i32_86 : BitVec 32 := 0#32
  ![v11.toNat, 0]

def k19_chk2 (v11 : BitVec 32) : Prop :=
  (∀ a, (k19_off4 v11) a + S1x262.size a ≤ S50000x262.size a) ∧
  (∀ a, (k19_off34 v11) a + S1x262.size a ≤ S50000x262.size a)
instance k19_chk2.dec : ∀ (v11 : BitVec 32), Decidable (k19_chk2 v11) := fun v11 => decidable_of_iff' _ (Iff.of_eq (k19_chk2.eq_1 v11))
theorem k19_off4_inb : ∀ (v11 : BitVec 32) (k19_hw2 : k19_chk2 v11), ∀ a, (k19_off4 v11) a + S1x262.size a ≤ S50000x262.size a := fun v11 k19_hw2 => k19_hw2.1
theorem k19_off34_inb : ∀ (v11 : BitVec 32) (k19_hw2 : k19_chk2 v11), ∀ a, (k19_off34 v11) a + S1x262.size a ≤ S50000x262.size a := fun v11 k19_hw2 => k19_hw2.2

def k19_off35 (v19 : BitVec 32) : Fin 2 → Nat :=
  let c0_i32_90 : BitVec 32 := 0#32
  ![v19.toNat, 0]

def k19_chk3 (v19 : BitVec 32) : Prop :=
  (∀ a, (k19_off6 v19) a + S1x262.size a ≤ S50000x262.size a) ∧
  (∀ a, (k19_off35 v19) a + S1x262.size a ≤ S50000x262.size a)
instance k19_chk3.dec : ∀ (v19 : BitVec 32), Decidable (k19_chk3 v19) := fun v19 => decidable_of_iff' _ (Iff.of_eq (k19_chk3.eq_1 v19))
theorem k19_off6_inb : ∀ (v19 : BitVec 32) (k19_hw3 : k19_chk3 v19), ∀ a, (k19_off6 v19) a + S1x262.size a ≤ S50000x262.size a := fun v19 k19_hw3 => k19_hw3.1
theorem k19_off35_inb : ∀ (v19 : BitVec 32) (k19_hw3 : k19_chk3 v19), ∀ a, (k19_off35 v19) a + S1x262.size a ≤ S50000x262.size a := fun v19 k19_hw3 => k19_hw3.2

def k19_off36 (v27 : BitVec 32) : Fin 2 → Nat :=
  let c0_i32_94 : BitVec 32 := 0#32
  ![v27.toNat, 0]

def k19_chk4 (v27 : BitVec 32) : Prop :=
  (∀ a, (k19_off8 v27) a + S1x262.size a ≤ S50000x262.size a) ∧
  (∀ a, (k19_off36 v27) a + S1x262.size a ≤ S50000x262.size a)
instance k19_chk4.dec : ∀ (v27 : BitVec 32), Decidable (k19_chk4 v27) := fun v27 => decidable_of_iff' _ (Iff.of_eq (k19_chk4.eq_1 v27))
theorem k19_off8_inb : ∀ (v27 : BitVec 32) (k19_hw4 : k19_chk4 v27), ∀ a, (k19_off8 v27) a + S1x262.size a ≤ S50000x262.size a := fun v27 k19_hw4 => k19_hw4.1
theorem k19_off36_inb : ∀ (v27 : BitVec 32) (k19_hw4 : k19_chk4 v27), ∀ a, (k19_off36 v27) a + S1x262.size a ≤ S50000x262.size a := fun v27 k19_hw4 => k19_hw4.2

def k19_off37 (v35 : BitVec 32) : Fin 2 → Nat :=
  let c0_i32_98 : BitVec 32 := 0#32
  ![v35.toNat, 0]

def k19_chk5 (v35 : BitVec 32) : Prop :=
  (∀ a, (k19_off10 v35) a + S1x262.size a ≤ S50000x262.size a) ∧
  (∀ a, (k19_off37 v35) a + S1x262.size a ≤ S50000x262.size a)
instance k19_chk5.dec : ∀ (v35 : BitVec 32), Decidable (k19_chk5 v35) := fun v35 => decidable_of_iff' _ (Iff.of_eq (k19_chk5.eq_1 v35))
theorem k19_off10_inb : ∀ (v35 : BitVec 32) (k19_hw5 : k19_chk5 v35), ∀ a, (k19_off10 v35) a + S1x262.size a ≤ S50000x262.size a := fun v35 k19_hw5 => k19_hw5.1
theorem k19_off37_inb : ∀ (v35 : BitVec 32) (k19_hw5 : k19_chk5 v35), ∀ a, (k19_off37 v35) a + S1x262.size a ≤ S50000x262.size a := fun v35 k19_hw5 => k19_hw5.2

def k19_off38 (v43 : BitVec 32) : Fin 2 → Nat :=
  let c0_i32_102 : BitVec 32 := 0#32
  ![v43.toNat, 0]

def k19_chk6 (v43 : BitVec 32) : Prop :=
  (∀ a, (k19_off12 v43) a + S1x262.size a ≤ S50000x262.size a) ∧
  (∀ a, (k19_off38 v43) a + S1x262.size a ≤ S50000x262.size a)
instance k19_chk6.dec : ∀ (v43 : BitVec 32), Decidable (k19_chk6 v43) := fun v43 => decidable_of_iff' _ (Iff.of_eq (k19_chk6.eq_1 v43))
theorem k19_off12_inb : ∀ (v43 : BitVec 32) (k19_hw6 : k19_chk6 v43), ∀ a, (k19_off12 v43) a + S1x262.size a ≤ S50000x262.size a := fun v43 k19_hw6 => k19_hw6.1
theorem k19_off38_inb : ∀ (v43 : BitVec 32) (k19_hw6 : k19_chk6 v43), ∀ a, (k19_off38 v43) a + S1x262.size a ≤ S50000x262.size a := fun v43 k19_hw6 => k19_hw6.2

def k19_off39 (v51 : BitVec 32) : Fin 2 → Nat :=
  let c0_i32_106 : BitVec 32 := 0#32
  ![v51.toNat, 0]

def k19_chk7 (v51 : BitVec 32) : Prop :=
  (∀ a, (k19_off14 v51) a + S1x262.size a ≤ S50000x262.size a) ∧
  (∀ a, (k19_off39 v51) a + S1x262.size a ≤ S50000x262.size a)
instance k19_chk7.dec : ∀ (v51 : BitVec 32), Decidable (k19_chk7 v51) := fun v51 => decidable_of_iff' _ (Iff.of_eq (k19_chk7.eq_1 v51))
theorem k19_off14_inb : ∀ (v51 : BitVec 32) (k19_hw7 : k19_chk7 v51), ∀ a, (k19_off14 v51) a + S1x262.size a ≤ S50000x262.size a := fun v51 k19_hw7 => k19_hw7.1
theorem k19_off39_inb : ∀ (v51 : BitVec 32) (k19_hw7 : k19_chk7 v51), ∀ a, (k19_off39 v51) a + S1x262.size a ≤ S50000x262.size a := fun v51 k19_hw7 => k19_hw7.2

def k19_off40 (v59 : BitVec 32) : Fin 2 → Nat :=
  let c0_i32_110 : BitVec 32 := 0#32
  ![v59.toNat, 0]

def k19_chk8 (v59 : BitVec 32) : Prop :=
  (∀ a, (k19_off16 v59) a + S1x262.size a ≤ S50000x262.size a) ∧
  (∀ a, (k19_off40 v59) a + S1x262.size a ≤ S50000x262.size a)
instance k19_chk8.dec : ∀ (v59 : BitVec 32), Decidable (k19_chk8 v59) := fun v59 => decidable_of_iff' _ (Iff.of_eq (k19_chk8.eq_1 v59))
theorem k19_off16_inb : ∀ (v59 : BitVec 32) (k19_hw8 : k19_chk8 v59), ∀ a, (k19_off16 v59) a + S1x262.size a ≤ S50000x262.size a := fun v59 k19_hw8 => k19_hw8.1
theorem k19_off40_inb : ∀ (v59 : BitVec 32) (k19_hw8 : k19_chk8 v59), ∀ a, (k19_off40 v59) a + S1x262.size a ≤ S50000x262.size a := fun v59 k19_hw8 => k19_hw8.2

def k19_off41 (v67 : BitVec 32) : Fin 2 → Nat :=
  let c0_i32_114 : BitVec 32 := 0#32
  ![v67.toNat, 0]

def k19_chk9 (v67 : BitVec 32) : Prop :=
  (∀ a, (k19_off18 v67) a + S1x262.size a ≤ S50000x262.size a) ∧
  (∀ a, (k19_off41 v67) a + S1x262.size a ≤ S50000x262.size a)
instance k19_chk9.dec : ∀ (v67 : BitVec 32), Decidable (k19_chk9 v67) := fun v67 => decidable_of_iff' _ (Iff.of_eq (k19_chk9.eq_1 v67))
theorem k19_off18_inb : ∀ (v67 : BitVec 32) (k19_hw9 : k19_chk9 v67), ∀ a, (k19_off18 v67) a + S1x262.size a ≤ S50000x262.size a := fun v67 k19_hw9 => k19_hw9.1
theorem k19_off41_inb : ∀ (v67 : BitVec 32) (k19_hw9 : k19_chk9 v67), ∀ a, (k19_off41 v67) a + S1x262.size a ≤ S50000x262.size a := fun v67 k19_hw9 => k19_hw9.2

def k19_off42 (v75 : BitVec 32) : Fin 2 → Nat :=
  let c0_i32_118 : BitVec 32 := 0#32
  ![v75.toNat, 0]

def k19_chk10 (v75 : BitVec 32) : Prop :=
  (∀ a, (k19_off20 v75) a + S1x262.size a ≤ S50000x262.size a) ∧
  (∀ a, (k19_off42 v75) a + S1x262.size a ≤ S50000x262.size a)
instance k19_chk10.dec : ∀ (v75 : BitVec 32), Decidable (k19_chk10 v75) := fun v75 => decidable_of_iff' _ (Iff.of_eq (k19_chk10.eq_1 v75))
theorem k19_off20_inb : ∀ (v75 : BitVec 32) (k19_hw10 : k19_chk10 v75), ∀ a, (k19_off20 v75) a + S1x262.size a ≤ S50000x262.size a := fun v75 k19_hw10 => k19_hw10.1
theorem k19_off42_inb : ∀ (v75 : BitVec 32) (k19_hw10 : k19_chk10 v75), ∀ a, (k19_off42 v75) a + S1x262.size a ≤ S50000x262.size a := fun v75 k19_hw10 => k19_hw10.2

def k19_off43 (v83 : BitVec 32) : Fin 2 → Nat :=
  let c0_i32_122 : BitVec 32 := 0#32
  ![v83.toNat, 0]

def k19_chk11 (v83 : BitVec 32) : Prop :=
  (∀ a, (k19_off22 v83) a + S1x262.size a ≤ S50000x262.size a) ∧
  (∀ a, (k19_off43 v83) a + S1x262.size a ≤ S50000x262.size a)
instance k19_chk11.dec : ∀ (v83 : BitVec 32), Decidable (k19_chk11 v83) := fun v83 => decidable_of_iff' _ (Iff.of_eq (k19_chk11.eq_1 v83))
theorem k19_off22_inb : ∀ (v83 : BitVec 32) (k19_hw11 : k19_chk11 v83), ∀ a, (k19_off22 v83) a + S1x262.size a ≤ S50000x262.size a := fun v83 k19_hw11 => k19_hw11.1
theorem k19_off43_inb : ∀ (v83 : BitVec 32) (k19_hw11 : k19_chk11 v83), ∀ a, (k19_off43 v83) a + S1x262.size a ≤ S50000x262.size a := fun v83 k19_hw11 => k19_hw11.2

def k19_off44 (v91 : BitVec 32) : Fin 2 → Nat :=
  let c0_i32_126 : BitVec 32 := 0#32
  ![v91.toNat, 0]

def k19_chk12 (v91 : BitVec 32) : Prop :=
  (∀ a, (k19_off24 v91) a + S1x262.size a ≤ S50000x262.size a) ∧
  (∀ a, (k19_off44 v91) a + S1x262.size a ≤ S50000x262.size a)
instance k19_chk12.dec : ∀ (v91 : BitVec 32), Decidable (k19_chk12 v91) := fun v91 => decidable_of_iff' _ (Iff.of_eq (k19_chk12.eq_1 v91))
theorem k19_off24_inb : ∀ (v91 : BitVec 32) (k19_hw12 : k19_chk12 v91), ∀ a, (k19_off24 v91) a + S1x262.size a ≤ S50000x262.size a := fun v91 k19_hw12 => k19_hw12.1
theorem k19_off44_inb : ∀ (v91 : BitVec 32) (k19_hw12 : k19_chk12 v91), ∀ a, (k19_off44 v91) a + S1x262.size a ≤ S50000x262.size a := fun v91 k19_hw12 => k19_hw12.2

def k19_off45 (v99 : BitVec 32) : Fin 2 → Nat :=
  let c0_i32_130 : BitVec 32 := 0#32
  ![v99.toNat, 0]

def k19_chk13 (v99 : BitVec 32) : Prop :=
  (∀ a, (k19_off26 v99) a + S1x262.size a ≤ S50000x262.size a) ∧
  (∀ a, (k19_off45 v99) a + S1x262.size a ≤ S50000x262.size a)
instance k19_chk13.dec : ∀ (v99 : BitVec 32), Decidable (k19_chk13 v99) := fun v99 => decidable_of_iff' _ (Iff.of_eq (k19_chk13.eq_1 v99))
theorem k19_off26_inb : ∀ (v99 : BitVec 32) (k19_hw13 : k19_chk13 v99), ∀ a, (k19_off26 v99) a + S1x262.size a ≤ S50000x262.size a := fun v99 k19_hw13 => k19_hw13.1
theorem k19_off45_inb : ∀ (v99 : BitVec 32) (k19_hw13 : k19_chk13 v99), ∀ a, (k19_off45 v99) a + S1x262.size a ≤ S50000x262.size a := fun v99 k19_hw13 => k19_hw13.2

def k19_off46 (v107 : BitVec 32) : Fin 2 → Nat :=
  let c0_i32_134 : BitVec 32 := 0#32
  ![v107.toNat, 0]

def k19_chk14 (v107 : BitVec 32) : Prop :=
  (∀ a, (k19_off28 v107) a + S1x262.size a ≤ S50000x262.size a) ∧
  (∀ a, (k19_off46 v107) a + S1x262.size a ≤ S50000x262.size a)
instance k19_chk14.dec : ∀ (v107 : BitVec 32), Decidable (k19_chk14 v107) := fun v107 => decidable_of_iff' _ (Iff.of_eq (k19_chk14.eq_1 v107))
theorem k19_off28_inb : ∀ (v107 : BitVec 32) (k19_hw14 : k19_chk14 v107), ∀ a, (k19_off28 v107) a + S1x262.size a ≤ S50000x262.size a := fun v107 k19_hw14 => k19_hw14.1
theorem k19_off46_inb : ∀ (v107 : BitVec 32) (k19_hw14 : k19_chk14 v107), ∀ a, (k19_off46 v107) a + S1x262.size a ≤ S50000x262.size a := fun v107 k19_hw14 => k19_hw14.2

def k19_off47 (v115 : BitVec 32) : Fin 2 → Nat :=
  let c0_i32_138 : BitVec 32 := 0#32
  ![v115.toNat, 0]

def k19_chk15 (v115 : BitVec 32) : Prop :=
  (∀ a, (k19_off30 v115) a + S1x262.size a ≤ S50000x262.size a) ∧
  (∀ a, (k19_off47 v115) a + S1x262.size a ≤ S50000x262.size a)
instance k19_chk15.dec : ∀ (v115 : BitVec 32), Decidable (k19_chk15 v115) := fun v115 => decidable_of_iff' _ (Iff.of_eq (k19_chk15.eq_1 v115))
theorem k19_off30_inb : ∀ (v115 : BitVec 32) (k19_hw15 : k19_chk15 v115), ∀ a, (k19_off30 v115) a + S1x262.size a ≤ S50000x262.size a := fun v115 k19_hw15 => k19_hw15.1
theorem k19_off47_inb : ∀ (v115 : BitVec 32) (k19_hw15 : k19_chk15 v115), ∀ a, (k19_off47 v115) a + S1x262.size a ≤ S50000x262.size a := fun v115 k19_hw15 => k19_hw15.2

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S16x1 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S16x262 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  inb_S1000x262_S1000x262_0_0 : ∀ a, (![0, 0] : Fin 2 → Nat) a + S1000x262.size a ≤ S1000x262.size a
  h_S1000x262 : 0 < S1000x262.numel
  bitsLt_bf16_f32 : FTy.bits .bf16 < FTy.bits .f32
  inb_S262x512_S262x512_0_0 : ∀ a, (![0, 0] : Fin 2 → Nat) a + S262x512.size a ≤ S262x512.size a
  h_S262x512 : 0 < S262x512.numel
  inb_S1000x512_S1000x512_0_0 : ∀ a, (![0, 0] : Fin 2 → Nat) a + S1000x512.size a ≤ S1000x512.size a
  h_S1000x512 : 0 < S1000x512.numel
  shapeCasts_S450000_S450000x1 : S450000.ShapeCasts S450000x1
  slices_S450000_S50000_0 : S450000.Slices ![0] S50000
  slices_S450000x1_S50000x1_0_0 : S450000x1.Slices ![0, 0] S50000x1
  numel1_S1 : S1.numel = 1
  inb_S16_S1_0 : ∀ a, (![0] : Fin 1 → Nat) a + S1.size a ≤ S16.size a
  squeezes_S1_S_ : S1.Squeezes S_
  inb_S16x512_S1x512_0_0 : ∀ a, (![0, 0] : Fin 2 → Nat) a + S1x512.size a ≤ S16x512.size a
  inb_S16_S1_1 : ∀ a, (![1] : Fin 1 → Nat) a + S1.size a ≤ S16.size a
  inb_S16x512_S1x512_1_0 : ∀ a, (![1, 0] : Fin 2 → Nat) a + S1x512.size a ≤ S16x512.size a
  inb_S16_S1_2 : ∀ a, (![2] : Fin 1 → Nat) a + S1.size a ≤ S16.size a
  inb_S16x512_S1x512_2_0 : ∀ a, (![2, 0] : Fin 2 → Nat) a + S1x512.size a ≤ S16x512.size a
  inb_S16_S1_3 : ∀ a, (![3] : Fin 1 → Nat) a + S1.size a ≤ S16.size a
  inb_S16x512_S1x512_3_0 : ∀ a, (![3, 0] : Fin 2 → Nat) a + S1x512.size a ≤ S16x512.size a
  inb_S16_S1_4 : ∀ a, (![4] : Fin 1 → Nat) a + S1.size a ≤ S16.size a
  inb_S16x512_S1x512_4_0 : ∀ a, (![4, 0] : Fin 2 → Nat) a + S1x512.size a ≤ S16x512.size a
  inb_S16_S1_5 : ∀ a, (![5] : Fin 1 → Nat) a + S1.size a ≤ S16.size a
  inb_S16x512_S1x512_5_0 : ∀ a, (![5, 0] : Fin 2 → Nat) a + S1x512.size a ≤ S16x512.size a
  inb_S16_S1_6 : ∀ a, (![6] : Fin 1 → Nat) a + S1.size a ≤ S16.size a
  inb_S16x512_S1x512_6_0 : ∀ a, (![6, 0] : Fin 2 → Nat) a + S1x512.size a ≤ S16x512.size a
  inb_S16_S1_7 : ∀ a, (![7] : Fin 1 → Nat) a + S1.size a ≤ S16.size a
  inb_S16x512_S1x512_7_0 : ∀ a, (![7, 0] : Fin 2 → Nat) a + S1x512.size a ≤ S16x512.size a
  inb_S16_S1_8 : ∀ a, (![8] : Fin 1 → Nat) a + S1.size a ≤ S16.size a
  inb_S16x512_S1x512_8_0 : ∀ a, (![8, 0] : Fin 2 → Nat) a + S1x512.size a ≤ S16x512.size a
  inb_S16_S1_9 : ∀ a, (![9] : Fin 1 → Nat) a + S1.size a ≤ S16.size a
  inb_S16x512_S1x512_9_0 : ∀ a, (![9, 0] : Fin 2 → Nat) a + S1x512.size a ≤ S16x512.size a
  inb_S16_S1_10 : ∀ a, (![10] : Fin 1 → Nat) a + S1.size a ≤ S16.size a
  inb_S16x512_S1x512_10_0 : ∀ a, (![10, 0] : Fin 2 → Nat) a + S1x512.size a ≤ S16x512.size a
  inb_S16_S1_11 : ∀ a, (![11] : Fin 1 → Nat) a + S1.size a ≤ S16.size a
  inb_S16x512_S1x512_11_0 : ∀ a, (![11, 0] : Fin 2 → Nat) a + S1x512.size a ≤ S16x512.size a
  inb_S16_S1_12 : ∀ a, (![12] : Fin 1 → Nat) a + S1.size a ≤ S16.size a
  inb_S16x512_S1x512_12_0 : ∀ a, (![12, 0] : Fin 2 → Nat) a + S1x512.size a ≤ S16x512.size a
  inb_S16_S1_13 : ∀ a, (![13] : Fin 1 → Nat) a + S1.size a ≤ S16.size a
  inb_S16x512_S1x512_13_0 : ∀ a, (![13, 0] : Fin 2 → Nat) a + S1x512.size a ≤ S16x512.size a
  inb_S16_S1_14 : ∀ a, (![14] : Fin 1 → Nat) a + S1.size a ≤ S16.size a
  inb_S16x512_S1x512_14_0 : ∀ a, (![14, 0] : Fin 2 → Nat) a + S1x512.size a ≤ S16x512.size a
  inb_S16_S1_15 : ∀ a, (![15] : Fin 1 → Nat) a + S1.size a ≤ S16.size a
  inb_S16x512_S1x512_15_0 : ∀ a, (![15, 0] : Fin 2 → Nat) a + S1x512.size a ≤ S16x512.size a
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x512_S16x512_0_0 : ∀ a, (![0, 0] : Fin 2 → Nat) a + S16x512.size a ≤ S16x512.size a
  h_S16x512 : 0 < S16x512.numel
  broadcasts_S16x1_S16x512 : S16x1.Broadcasts S16x512
  slices_S450000_S50000_50000 : S450000.Slices ![50000] S50000
  slices_S450000x1_S50000x1_50000_0 : S450000x1.Slices ![50000, 0] S50000x1
  slices_S450000_S50000_100000 : S450000.Slices ![100000] S50000
  slices_S450000x1_S50000x1_100000_0 : S450000x1.Slices ![100000, 0] S50000x1
  slices_S450000_S50000_150000 : S450000.Slices ![150000] S50000
  slices_S450000x1_S50000x1_150000_0 : S450000x1.Slices ![150000, 0] S50000x1
  slices_S450000_S50000_200000 : S450000.Slices ![200000] S50000
  slices_S450000x1_S50000x1_200000_0 : S450000x1.Slices ![200000, 0] S50000x1
  slices_S450000_S50000_250000 : S450000.Slices ![250000] S50000
  slices_S450000x1_S50000x1_250000_0 : S450000x1.Slices ![250000, 0] S50000x1
  slices_S450000_S50000_300000 : S450000.Slices ![300000] S50000
  slices_S450000x1_S50000x1_300000_0 : S450000x1.Slices ![300000, 0] S50000x1
  slices_S450000_S50000_350000 : S450000.Slices ![350000] S50000
  slices_S450000x1_S50000x1_350000_0 : S450000x1.Slices ![350000, 0] S50000x1
  slices_S450000_S50000_400000 : S450000.Slices ![400000] S50000
  slices_S450000x1_S50000x1_400000_0 : S450000x1.Slices ![400000, 0] S50000x1
  concatenates_S50000x512_S50000x512_S50000x512_S50000x512_S50000x512_S50000x512_S50000x512_S50000x512_S50000x512_S450000x512_d0 : Shape.Concatenates [S50000x512, S50000x512, S50000x512, S50000x512, S50000x512, S50000x512, S50000x512, S50000x512, S50000x512] S450000x512 0
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  shapeCasts_S1000x512_S1000x512 : S1000x512.ShapeCasts S1000x512
  inb_S512x262_S512x262_0_0 : ∀ a, (![0, 0] : Fin 2 → Nat) a + S512x262.size a ≤ S512x262.size a
  h_S512x262 : 0 < S512x262.numel
  inb_S16x262_S1x262_0_0 : ∀ a, (![0, 0] : Fin 2 → Nat) a + S1x262.size a ≤ S16x262.size a
  inb_S16x262_S1x262_1_0 : ∀ a, (![1, 0] : Fin 2 → Nat) a + S1x262.size a ≤ S16x262.size a
  inb_S16x262_S1x262_2_0 : ∀ a, (![2, 0] : Fin 2 → Nat) a + S1x262.size a ≤ S16x262.size a
  inb_S16x262_S1x262_3_0 : ∀ a, (![3, 0] : Fin 2 → Nat) a + S1x262.size a ≤ S16x262.size a
  inb_S16x262_S1x262_4_0 : ∀ a, (![4, 0] : Fin 2 → Nat) a + S1x262.size a ≤ S16x262.size a
  inb_S16x262_S1x262_5_0 : ∀ a, (![5, 0] : Fin 2 → Nat) a + S1x262.size a ≤ S16x262.size a
  inb_S16x262_S1x262_6_0 : ∀ a, (![6, 0] : Fin 2 → Nat) a + S1x262.size a ≤ S16x262.size a
  inb_S16x262_S1x262_7_0 : ∀ a, (![7, 0] : Fin 2 → Nat) a + S1x262.size a ≤ S16x262.size a
  inb_S16x262_S1x262_8_0 : ∀ a, (![8, 0] : Fin 2 → Nat) a + S1x262.size a ≤ S16x262.size a
  inb_S16x262_S1x262_9_0 : ∀ a, (![9, 0] : Fin 2 → Nat) a + S1x262.size a ≤ S16x262.size a
  inb_S16x262_S1x262_10_0 : ∀ a, (![10, 0] : Fin 2 → Nat) a + S1x262.size a ≤ S16x262.size a
  inb_S16x262_S1x262_11_0 : ∀ a, (![11, 0] : Fin 2 → Nat) a + S1x262.size a ≤ S16x262.size a
  inb_S16x262_S1x262_12_0 : ∀ a, (![12, 0] : Fin 2 → Nat) a + S1x262.size a ≤ S16x262.size a
  inb_S16x262_S1x262_13_0 : ∀ a, (![13, 0] : Fin 2 → Nat) a + S1x262.size a ≤ S16x262.size a
  inb_S16x262_S1x262_14_0 : ∀ a, (![14, 0] : Fin 2 → Nat) a + S1x262.size a ≤ S16x262.size a
  inb_S16x262_S1x262_15_0 : ∀ a, (![15, 0] : Fin 2 → Nat) a + S1x262.size a ≤ S16x262.size a
  inb_S16x262_S16x262_0_0 : ∀ a, (![0, 0] : Fin 2 → Nat) a + S16x262.size a ≤ S16x262.size a
  h_S16x262 : 0 < S16x262.numel
  broadcasts_S16x1_S16x262 : S16x1.Broadcasts S16x262
  concatenates_S50000x262_S50000x262_S50000x262_S50000x262_S50000x262_S50000x262_S50000x262_S50000x262_S50000x262_S450000x262_d0 : Shape.Concatenates [S50000x262, S50000x262, S50000x262, S50000x262, S50000x262, S50000x262, S50000x262, S50000x262, S50000x262] S450000x262 0
  bcast_S_S50000x262 : S_.BroadcastsInDim S50000x262 (![] : Fin 0 → Fin S50000x262.rank)
  bcast_S262_S1x262_1 : S262.BroadcastsInDim S1x262 (![1] : Fin 1 → Fin S1x262.rank)
  bcast_S1x262_S50000x262_0_1 : S1x262.BroadcastsInDim S50000x262 (![0, 1] : Fin 2 → Fin S50000x262.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S1000x262_S262x512_S1000x512_1_0_0_1_n_n_wf : DotDims.WF S1000x262 S262x512 S1000x512 [1] [0] [0] [1] [] []
  scatter_S50000x512_S450000x1_S450000x512_1_0_0_1_wf : ScatterDims.WF S50000x512 S450000x1 S450000x512 [1] [0] [0] 1
  dot_S1000x512_S512x262_S1000x262_1_0_0_1_n_n_wf : DotDims.WF S1000x512 S512x262 S1000x262 [1] [0] [0] [1] [] []
  scatter_S50000x262_S450000x1_S450000x262_1_0_0_1_wf : ScatterDims.WF S50000x262 S450000x1 S450000x262 [1] [0] [0] 1
  hcc1_scratch1 : 9 + S16.numel ≤ 370
  hcc2_scratch1 : 29 + S16.numel ≤ 370
  hcc3_scratch1 : 49 + S16.numel ≤ 370
  hcc4_scratch1 : 69 + S16.numel ≤ 370
  hcc5_scratch1 : 89 + S16.numel ≤ 370
  hcc6_scratch1 : 109 + S16.numel ≤ 370
  hcc7_scratch1 : 129 + S16.numel ≤ 370
  hcc8_scratch1 : 149 + S16.numel ≤ 370
  hcc9_scratch1 : 169 + S16.numel ≤ 370
  hcc11_scratch1 : 194 + S16.numel ≤ 370
  hcc12_scratch1 : 214 + S16.numel ≤ 370
  hcc13_scratch1 : 234 + S16.numel ≤ 370
  hcc14_scratch1 : 254 + S16.numel ≤ 370
  hcc15_scratch1 : 274 + S16.numel ≤ 370
  hcc16_scratch1 : 294 + S16.numel ≤ 370
  hcc17_scratch1 : 314 + S16.numel ≤ 370
  hcc18_scratch1 : 334 + S16.numel ≤ 370
  hcc19_scratch1 : 354 + S16.numel ≤ 370
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x262.size a ≤ S50000x262.size a
  hwx0_0 : ∀ i : grid0.Coords, EltTy.bits .f32 = 32 ∨ (Rect.block (s := S50000x262) S1000x262.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S262x512.size a ≤ S262x512.size a
  hwx0_1 : ∀ i : grid0.Coords, EltTy.bits .f32 = 32 ∨ (Rect.block (s := S262x512) S262x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .f32 = 32 ∨ (Rect.block (s := S50000x512) S1000x512.size (cc0_transform_2 i) (hinb0_2 i)).WholeWords (EltTy.packing .f32)
  hrank1 : 0 < grid1.rank
  k1_off1_inb : ∀ i : grid1.Coords, ∀ a, (k1_off1 i) a + S1.size a ≤ S50000.size a
  k1_off3_inb : ∀ i : grid1.Coords, ∀ a, (k1_off3 i) a + S1.size a ≤ S50000.size a
  k1_off5_inb : ∀ i : grid1.Coords, ∀ a, (k1_off5 i) a + S1.size a ≤ S50000.size a
  k1_off7_inb : ∀ i : grid1.Coords, ∀ a, (k1_off7 i) a + S1.size a ≤ S50000.size a
  k1_off9_inb : ∀ i : grid1.Coords, ∀ a, (k1_off9 i) a + S1.size a ≤ S50000.size a
  k1_off11_inb : ∀ i : grid1.Coords, ∀ a, (k1_off11 i) a + S1.size a ≤ S50000.size a
  k1_off13_inb : ∀ i : grid1.Coords, ∀ a, (k1_off13 i) a + S1.size a ≤ S50000.size a
  k1_off15_inb : ∀ i : grid1.Coords, ∀ a, (k1_off15 i) a + S1.size a ≤ S50000.size a
  k1_off17_inb : ∀ i : grid1.Coords, ∀ a, (k1_off17 i) a + S1.size a ≤ S50000.size a
  k1_off19_inb : ∀ i : grid1.Coords, ∀ a, (k1_off19 i) a + S1.size a ≤ S50000.size a
  k1_off21_inb : ∀ i : grid1.Coords, ∀ a, (k1_off21 i) a + S1.size a ≤ S50000.size a
  k1_off23_inb : ∀ i : grid1.Coords, ∀ a, (k1_off23 i) a + S1.size a ≤ S50000.size a
  k1_off25_inb : ∀ i : grid1.Coords, ∀ a, (k1_off25 i) a + S1.size a ≤ S50000.size a
  k1_off27_inb : ∀ i : grid1.Coords, ∀ a, (k1_off27 i) a + S1.size a ≤ S50000.size a
  k1_off29_inb : ∀ i : grid1.Coords, ∀ a, (k1_off29 i) a + S1.size a ≤ S50000.size a
  k1_off31_inb : ∀ i : grid1.Coords, ∀ a, (k1_off31 i) a + S1.size a ≤ S50000.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S16x1.size a ≤ S50000x1.size a
  hwx1_0 : ∀ i : grid1.Coords, EltTy.bits .f32 = 32 ∨ (Rect.block (s := S50000x1) S16x1.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S16x512.size a ≤ S50000x512.size a
  hwx1_1 : ∀ i : grid1.Coords, EltTy.bits .f32 = 32 ∨ (Rect.block (s := S50000x512) S16x512.size (cc1_transform_2 i) (hinb1_1 i)).WholeWords (EltTy.packing .f32)
  hrank2 : 0 < grid2.rank
  k2_off1_inb : ∀ i : grid2.Coords, ∀ a, (k2_off1 i) a + S1.size a ≤ S50000.size a
  k2_off3_inb : ∀ i : grid2.Coords, ∀ a, (k2_off3 i) a + S1.size a ≤ S50000.size a
  k2_off5_inb : ∀ i : grid2.Coords, ∀ a, (k2_off5 i) a + S1.size a ≤ S50000.size a
  k2_off7_inb : ∀ i : grid2.Coords, ∀ a, (k2_off7 i) a + S1.size a ≤ S50000.size a
  k2_off9_inb : ∀ i : grid2.Coords, ∀ a, (k2_off9 i) a + S1.size a ≤ S50000.size a
  k2_off11_inb : ∀ i : grid2.Coords, ∀ a, (k2_off11 i) a + S1.size a ≤ S50000.size a
  k2_off13_inb : ∀ i : grid2.Coords, ∀ a, (k2_off13 i) a + S1.size a ≤ S50000.size a
  k2_off15_inb : ∀ i : grid2.Coords, ∀ a, (k2_off15 i) a + S1.size a ≤ S50000.size a
  k2_off17_inb : ∀ i : grid2.Coords, ∀ a, (k2_off17 i) a + S1.size a ≤ S50000.size a
  k2_off19_inb : ∀ i : grid2.Coords, ∀ a, (k2_off19 i) a + S1.size a ≤ S50000.size a
  k2_off21_inb : ∀ i : grid2.Coords, ∀ a, (k2_off21 i) a + S1.size a ≤ S50000.size a
  k2_off23_inb : ∀ i : grid2.Coords, ∀ a, (k2_off23 i) a + S1.size a ≤ S50000.size a
  k2_off25_inb : ∀ i : grid2.Coords, ∀ a, (k2_off25 i) a + S1.size a ≤ S50000.size a
  k2_off27_inb : ∀ i : grid2.Coords, ∀ a, (k2_off27 i) a + S1.size a ≤ S50000.size a
  k2_off29_inb : ∀ i : grid2.Coords, ∀ a, (k2_off29 i) a + S1.size a ≤ S50000.size a
  k2_off31_inb : ∀ i : grid2.Coords, ∀ a, (k2_off31 i) a + S1.size a ≤ S50000.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S16x1.size a ≤ S50000x1.size a
  hwx2_0 : ∀ i : grid2.Coords, EltTy.bits .f32 = 32 ∨ (Rect.block (s := S50000x1) S16x1.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S16x512.size a ≤ S50000x512.size a
  hwx2_1 : ∀ i : grid2.Coords, EltTy.bits .f32 = 32 ∨ (Rect.block (s := S50000x512) S16x512.size (cc2_transform_2 i) (hinb2_1 i)).WholeWords (EltTy.packing .f32)
  hrank3 : 0 < grid3.rank
  k3_off1_inb : ∀ i : grid3.Coords, ∀ a, (k3_off1 i) a + S1.size a ≤ S50000.size a
  k3_off3_inb : ∀ i : grid3.Coords, ∀ a, (k3_off3 i) a + S1.size a ≤ S50000.size a
  k3_off5_inb : ∀ i : grid3.Coords, ∀ a, (k3_off5 i) a + S1.size a ≤ S50000.size a
  k3_off7_inb : ∀ i : grid3.Coords, ∀ a, (k3_off7 i) a + S1.size a ≤ S50000.size a
  k3_off9_inb : ∀ i : grid3.Coords, ∀ a, (k3_off9 i) a + S1.size a ≤ S50000.size a
  k3_off11_inb : ∀ i : grid3.Coords, ∀ a, (k3_off11 i) a + S1.size a ≤ S50000.size a
  k3_off13_inb : ∀ i : grid3.Coords, ∀ a, (k3_off13 i) a + S1.size a ≤ S50000.size a
  k3_off15_inb : ∀ i : grid3.Coords, ∀ a, (k3_off15 i) a + S1.size a ≤ S50000.size a
  k3_off17_inb : ∀ i : grid3.Coords, ∀ a, (k3_off17 i) a + S1.size a ≤ S50000.size a
  k3_off19_inb : ∀ i : grid3.Coords, ∀ a, (k3_off19 i) a + S1.size a ≤ S50000.size a
  k3_off21_inb : ∀ i : grid3.Coords, ∀ a, (k3_off21 i) a + S1.size a ≤ S50000.size a
  k3_off23_inb : ∀ i : grid3.Coords, ∀ a, (k3_off23 i) a + S1.size a ≤ S50000.size a
  k3_off25_inb : ∀ i : grid3.Coords, ∀ a, (k3_off25 i) a + S1.size a ≤ S50000.size a
  k3_off27_inb : ∀ i : grid3.Coords, ∀ a, (k3_off27 i) a + S1.size a ≤ S50000.size a
  k3_off29_inb : ∀ i : grid3.Coords, ∀ a, (k3_off29 i) a + S1.size a ≤ S50000.size a
  k3_off31_inb : ∀ i : grid3.Coords, ∀ a, (k3_off31 i) a + S1.size a ≤ S50000.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S16x1.size a ≤ S50000x1.size a
  hwx3_0 : ∀ i : grid3.Coords, EltTy.bits .f32 = 32 ∨ (Rect.block (s := S50000x1) S16x1.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S16x512.size a ≤ S50000x512.size a
  hwx3_1 : ∀ i : grid3.Coords, EltTy.bits .f32 = 32 ∨ (Rect.block (s := S50000x512) S16x512.size (cc3_transform_2 i) (hinb3_1 i)).WholeWords (EltTy.packing .f32)
  hrank4 : 0 < grid4.rank
  k4_off1_inb : ∀ i : grid4.Coords, ∀ a, (k4_off1 i) a + S1.size a ≤ S50000.size a
  k4_off3_inb : ∀ i : grid4.Coords, ∀ a, (k4_off3 i) a + S1.size a ≤ S50000.size a
  k4_off5_inb : ∀ i : grid4.Coords, ∀ a, (k4_off5 i) a + S1.size a ≤ S50000.size a
  k4_off7_inb : ∀ i : grid4.Coords, ∀ a, (k4_off7 i) a + S1.size a ≤ S50000.size a
  k4_off9_inb : ∀ i : grid4.Coords, ∀ a, (k4_off9 i) a + S1.size a ≤ S50000.size a
  k4_off11_inb : ∀ i : grid4.Coords, ∀ a, (k4_off11 i) a + S1.size a ≤ S50000.size a
  k4_off13_inb : ∀ i : grid4.Coords, ∀ a, (k4_off13 i) a + S1.size a ≤ S50000.size a
  k4_off15_inb : ∀ i : grid4.Coords, ∀ a, (k4_off15 i) a + S1.size a ≤ S50000.size a
  k4_off17_inb : ∀ i : grid4.Coords, ∀ a, (k4_off17 i) a + S1.size a ≤ S50000.size a
  k4_off19_inb : ∀ i : grid4.Coords, ∀ a, (k4_off19 i) a + S1.size a ≤ S50000.size a
  k4_off21_inb : ∀ i : grid4.Coords, ∀ a, (k4_off21 i) a + S1.size a ≤ S50000.size a
  k4_off23_inb : ∀ i : grid4.Coords, ∀ a, (k4_off23 i) a + S1.size a ≤ S50000.size a
  k4_off25_inb : ∀ i : grid4.Coords, ∀ a, (k4_off25 i) a + S1.size a ≤ S50000.size a
  k4_off27_inb : ∀ i : grid4.Coords, ∀ a, (k4_off27 i) a + S1.size a ≤ S50000.size a
  k4_off29_inb : ∀ i : grid4.Coords, ∀ a, (k4_off29 i) a + S1.size a ≤ S50000.size a
  k4_off31_inb : ∀ i : grid4.Coords, ∀ a, (k4_off31 i) a + S1.size a ≤ S50000.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S16x1.size a ≤ S50000x1.size a
  hwx4_0 : ∀ i : grid4.Coords, EltTy.bits .f32 = 32 ∨ (Rect.block (s := S50000x1) S16x1.size (cc4_transform_1 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_2 i = cc4_transform_2 i'
  hinb4_1 : ∀ (i : grid4.Coords) a, (cc4_transform_2 i a + 1) * S16x512.size a ≤ S50000x512.size a
  hwx4_1 : ∀ i : grid4.Coords, EltTy.bits .f32 = 32 ∨ (Rect.block (s := S50000x512) S16x512.size (cc4_transform_2 i) (hinb4_1 i)).WholeWords (EltTy.packing .f32)
  hrank5 : 0 < grid5.rank
  k5_off1_inb : ∀ i : grid5.Coords, ∀ a, (k5_off1 i) a + S1.size a ≤ S50000.size a
  k5_off3_inb : ∀ i : grid5.Coords, ∀ a, (k5_off3 i) a + S1.size a ≤ S50000.size a
  k5_off5_inb : ∀ i : grid5.Coords, ∀ a, (k5_off5 i) a + S1.size a ≤ S50000.size a
  k5_off7_inb : ∀ i : grid5.Coords, ∀ a, (k5_off7 i) a + S1.size a ≤ S50000.size a
  k5_off9_inb : ∀ i : grid5.Coords, ∀ a, (k5_off9 i) a + S1.size a ≤ S50000.size a
  k5_off11_inb : ∀ i : grid5.Coords, ∀ a, (k5_off11 i) a + S1.size a ≤ S50000.size a
  k5_off13_inb : ∀ i : grid5.Coords, ∀ a, (k5_off13 i) a + S1.size a ≤ S50000.size a
  k5_off15_inb : ∀ i : grid5.Coords, ∀ a, (k5_off15 i) a + S1.size a ≤ S50000.size a
  k5_off17_inb : ∀ i : grid5.Coords, ∀ a, (k5_off17 i) a + S1.size a ≤ S50000.size a
  k5_off19_inb : ∀ i : grid5.Coords, ∀ a, (k5_off19 i) a + S1.size a ≤ S50000.size a
  k5_off21_inb : ∀ i : grid5.Coords, ∀ a, (k5_off21 i) a + S1.size a ≤ S50000.size a
  k5_off23_inb : ∀ i : grid5.Coords, ∀ a, (k5_off23 i) a + S1.size a ≤ S50000.size a
  k5_off25_inb : ∀ i : grid5.Coords, ∀ a, (k5_off25 i) a + S1.size a ≤ S50000.size a
  k5_off27_inb : ∀ i : grid5.Coords, ∀ a, (k5_off27 i) a + S1.size a ≤ S50000.size a
  k5_off29_inb : ∀ i : grid5.Coords, ∀ a, (k5_off29 i) a + S1.size a ≤ S50000.size a
  k5_off31_inb : ∀ i : grid5.Coords, ∀ a, (k5_off31 i) a + S1.size a ≤ S50000.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S16x1.size a ≤ S50000x1.size a
  hwx5_0 : ∀ i : grid5.Coords, EltTy.bits .f32 = 32 ∨ (Rect.block (s := S50000x1) S16x1.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S16x512.size a ≤ S50000x512.size a
  hwx5_1 : ∀ i : grid5.Coords, EltTy.bits .f32 = 32 ∨ (Rect.block (s := S50000x512) S16x512.size (cc5_transform_2 i) (hinb5_1 i)).WholeWords (EltTy.packing .f32)
  hrank6 : 0 < grid6.rank
  k6_off1_inb : ∀ i : grid6.Coords, ∀ a, (k6_off1 i) a + S1.size a ≤ S50000.size a
  k6_off3_inb : ∀ i : grid6.Coords, ∀ a, (k6_off3 i) a + S1.size a ≤ S50000.size a
  k6_off5_inb : ∀ i : grid6.Coords, ∀ a, (k6_off5 i) a + S1.size a ≤ S50000.size a
  k6_off7_inb : ∀ i : grid6.Coords, ∀ a, (k6_off7 i) a + S1.size a ≤ S50000.size a
  k6_off9_inb : ∀ i : grid6.Coords, ∀ a, (k6_off9 i) a + S1.size a ≤ S50000.size a
  k6_off11_inb : ∀ i : grid6.Coords, ∀ a, (k6_off11 i) a + S1.size a ≤ S50000.size a
  k6_off13_inb : ∀ i : grid6.Coords, ∀ a, (k6_off13 i) a + S1.size a ≤ S50000.size a
  k6_off15_inb : ∀ i : grid6.Coords, ∀ a, (k6_off15 i) a + S1.size a ≤ S50000.size a
  k6_off17_inb : ∀ i : grid6.Coords, ∀ a, (k6_off17 i) a + S1.size a ≤ S50000.size a
  k6_off19_inb : ∀ i : grid6.Coords, ∀ a, (k6_off19 i) a + S1.size a ≤ S50000.size a
  k6_off21_inb : ∀ i : grid6.Coords, ∀ a, (k6_off21 i) a + S1.size a ≤ S50000.size a
  k6_off23_inb : ∀ i : grid6.Coords, ∀ a, (k6_off23 i) a + S1.size a ≤ S50000.size a
  k6_off25_inb : ∀ i : grid6.Coords, ∀ a, (k6_off25 i) a + S1.size a ≤ S50000.size a
  k6_off27_inb : ∀ i : grid6.Coords, ∀ a, (k6_off27 i) a + S1.size a ≤ S50000.size a
  k6_off29_inb : ∀ i : grid6.Coords, ∀ a, (k6_off29 i) a + S1.size a ≤ S50000.size a
  k6_off31_inb : ∀ i : grid6.Coords, ∀ a, (k6_off31 i) a + S1.size a ≤ S50000.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S16x1.size a ≤ S50000x1.size a
  hwx6_0 : ∀ i : grid6.Coords, EltTy.bits .f32 = 32 ∨ (Rect.block (s := S50000x1) S16x1.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S16x512.size a ≤ S50000x512.size a
  hwx6_1 : ∀ i : grid6.Coords, EltTy.bits .f32 = 32 ∨ (Rect.block (s := S50000x512) S16x512.size (cc6_transform_2 i) (hinb6_1 i)).WholeWords (EltTy.packing .f32)
  hrank7 : 0 < grid7.rank
  k7_off1_inb : ∀ i : grid7.Coords, ∀ a, (k7_off1 i) a + S1.size a ≤ S50000.size a
  k7_off3_inb : ∀ i : grid7.Coords, ∀ a, (k7_off3 i) a + S1.size a ≤ S50000.size a
  k7_off5_inb : ∀ i : grid7.Coords, ∀ a, (k7_off5 i) a + S1.size a ≤ S50000.size a
  k7_off7_inb : ∀ i : grid7.Coords, ∀ a, (k7_off7 i) a + S1.size a ≤ S50000.size a
  k7_off9_inb : ∀ i : grid7.Coords, ∀ a, (k7_off9 i) a + S1.size a ≤ S50000.size a
  k7_off11_inb : ∀ i : grid7.Coords, ∀ a, (k7_off11 i) a + S1.size a ≤ S50000.size a
  k7_off13_inb : ∀ i : grid7.Coords, ∀ a, (k7_off13 i) a + S1.size a ≤ S50000.size a
  k7_off15_inb : ∀ i : grid7.Coords, ∀ a, (k7_off15 i) a + S1.size a ≤ S50000.size a
  k7_off17_inb : ∀ i : grid7.Coords, ∀ a, (k7_off17 i) a + S1.size a ≤ S50000.size a
  k7_off19_inb : ∀ i : grid7.Coords, ∀ a, (k7_off19 i) a + S1.size a ≤ S50000.size a
  k7_off21_inb : ∀ i : grid7.Coords, ∀ a, (k7_off21 i) a + S1.size a ≤ S50000.size a
  k7_off23_inb : ∀ i : grid7.Coords, ∀ a, (k7_off23 i) a + S1.size a ≤ S50000.size a
  k7_off25_inb : ∀ i : grid7.Coords, ∀ a, (k7_off25 i) a + S1.size a ≤ S50000.size a
  k7_off27_inb : ∀ i : grid7.Coords, ∀ a, (k7_off27 i) a + S1.size a ≤ S50000.size a
  k7_off29_inb : ∀ i : grid7.Coords, ∀ a, (k7_off29 i) a + S1.size a ≤ S50000.size a
  k7_off31_inb : ∀ i : grid7.Coords, ∀ a, (k7_off31 i) a + S1.size a ≤ S50000.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S16x1.size a ≤ S50000x1.size a
  hwx7_0 : ∀ i : grid7.Coords, EltTy.bits .f32 = 32 ∨ (Rect.block (s := S50000x1) S16x1.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S16x512.size a ≤ S50000x512.size a
  hwx7_1 : ∀ i : grid7.Coords, EltTy.bits .f32 = 32 ∨ (Rect.block (s := S50000x512) S16x512.size (cc7_transform_2 i) (hinb7_1 i)).WholeWords (EltTy.packing .f32)
  hrank8 : 0 < grid8.rank
  k8_off1_inb : ∀ i : grid8.Coords, ∀ a, (k8_off1 i) a + S1.size a ≤ S50000.size a
  k8_off3_inb : ∀ i : grid8.Coords, ∀ a, (k8_off3 i) a + S1.size a ≤ S50000.size a
  k8_off5_inb : ∀ i : grid8.Coords, ∀ a, (k8_off5 i) a + S1.size a ≤ S50000.size a
  k8_off7_inb : ∀ i : grid8.Coords, ∀ a, (k8_off7 i) a + S1.size a ≤ S50000.size a
  k8_off9_inb : ∀ i : grid8.Coords, ∀ a, (k8_off9 i) a + S1.size a ≤ S50000.size a
  k8_off11_inb : ∀ i : grid8.Coords, ∀ a, (k8_off11 i) a + S1.size a ≤ S50000.size a
  k8_off13_inb : ∀ i : grid8.Coords, ∀ a, (k8_off13 i) a + S1.size a ≤ S50000.size a
  k8_off15_inb : ∀ i : grid8.Coords, ∀ a, (k8_off15 i) a + S1.size a ≤ S50000.size a
  k8_off17_inb : ∀ i : grid8.Coords, ∀ a, (k8_off17 i) a + S1.size a ≤ S50000.size a
  k8_off19_inb : ∀ i : grid8.Coords, ∀ a, (k8_off19 i) a + S1.size a ≤ S50000.size a
  k8_off21_inb : ∀ i : grid8.Coords, ∀ a, (k8_off21 i) a + S1.size a ≤ S50000.size a
  k8_off23_inb : ∀ i : grid8.Coords, ∀ a, (k8_off23 i) a + S1.size a ≤ S50000.size a
  k8_off25_inb : ∀ i : grid8.Coords, ∀ a, (k8_off25 i) a + S1.size a ≤ S50000.size a
  k8_off27_inb : ∀ i : grid8.Coords, ∀ a, (k8_off27 i) a + S1.size a ≤ S50000.size a
  k8_off29_inb : ∀ i : grid8.Coords, ∀ a, (k8_off29 i) a + S1.size a ≤ S50000.size a
  k8_off31_inb : ∀ i : grid8.Coords, ∀ a, (k8_off31 i) a + S1.size a ≤ S50000.size a
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S16x1.size a ≤ S50000x1.size a
  hwx8_0 : ∀ i : grid8.Coords, EltTy.bits .f32 = 32 ∨ (Rect.block (s := S50000x1) S16x1.size (cc8_transform_1 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_2 i = cc8_transform_2 i'
  hinb8_1 : ∀ (i : grid8.Coords) a, (cc8_transform_2 i a + 1) * S16x512.size a ≤ S50000x512.size a
  hwx8_1 : ∀ i : grid8.Coords, EltTy.bits .f32 = 32 ∨ (Rect.block (s := S50000x512) S16x512.size (cc8_transform_2 i) (hinb8_1 i)).WholeWords (EltTy.packing .f32)
  hrank9 : 0 < grid9.rank
  k9_off1_inb : ∀ i : grid9.Coords, ∀ a, (k9_off1 i) a + S1.size a ≤ S50000.size a
  k9_off3_inb : ∀ i : grid9.Coords, ∀ a, (k9_off3 i) a + S1.size a ≤ S50000.size a
  k9_off5_inb : ∀ i : grid9.Coords, ∀ a, (k9_off5 i) a + S1.size a ≤ S50000.size a
  k9_off7_inb : ∀ i : grid9.Coords, ∀ a, (k9_off7 i) a + S1.size a ≤ S50000.size a
  k9_off9_inb : ∀ i : grid9.Coords, ∀ a, (k9_off9 i) a + S1.size a ≤ S50000.size a
  k9_off11_inb : ∀ i : grid9.Coords, ∀ a, (k9_off11 i) a + S1.size a ≤ S50000.size a
  k9_off13_inb : ∀ i : grid9.Coords, ∀ a, (k9_off13 i) a + S1.size a ≤ S50000.size a
  k9_off15_inb : ∀ i : grid9.Coords, ∀ a, (k9_off15 i) a + S1.size a ≤ S50000.size a
  k9_off17_inb : ∀ i : grid9.Coords, ∀ a, (k9_off17 i) a + S1.size a ≤ S50000.size a
  k9_off19_inb : ∀ i : grid9.Coords, ∀ a, (k9_off19 i) a + S1.size a ≤ S50000.size a
  k9_off21_inb : ∀ i : grid9.Coords, ∀ a, (k9_off21 i) a + S1.size a ≤ S50000.size a
  k9_off23_inb : ∀ i : grid9.Coords, ∀ a, (k9_off23 i) a + S1.size a ≤ S50000.size a
  k9_off25_inb : ∀ i : grid9.Coords, ∀ a, (k9_off25 i) a + S1.size a ≤ S50000.size a
  k9_off27_inb : ∀ i : grid9.Coords, ∀ a, (k9_off27 i) a + S1.size a ≤ S50000.size a
  k9_off29_inb : ∀ i : grid9.Coords, ∀ a, (k9_off29 i) a + S1.size a ≤ S50000.size a
  k9_off31_inb : ∀ i : grid9.Coords, ∀ a, (k9_off31 i) a + S1.size a ≤ S50000.size a
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S16x1.size a ≤ S50000x1.size a
  hwx9_0 : ∀ i : grid9.Coords, EltTy.bits .f32 = 32 ∨ (Rect.block (s := S50000x1) S16x1.size (cc9_transform_1 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_2 i = cc9_transform_2 i'
  hinb9_1 : ∀ (i : grid9.Coords) a, (cc9_transform_2 i a + 1) * S16x512.size a ≤ S50000x512.size a
  hwx9_1 : ∀ i : grid9.Coords, EltTy.bits .f32 = 32 ∨ (Rect.block (s := S50000x512) S16x512.size (cc9_transform_2 i) (hinb9_1 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1000x512.size a ≤ S50000x512.size a
  hwx10_0 : ∀ i : grid10.Coords, EltTy.bits .f32 = 32 ∨ (Rect.block (s := S50000x512) S1000x512.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x262.size a ≤ S512x262.size a
  hwx10_1 : ∀ i : grid10.Coords, EltTy.bits .f32 = 32 ∨ (Rect.block (s := S512x262) S512x262.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x262.size a ≤ S50000x262.size a
  hwx10_2 : ∀ i : grid10.Coords, EltTy.bits .f32 = 32 ∨ (Rect.block (s := S50000x262) S1000x262.size (cc10_transform_2 i) (hinb10_2 i)).WholeWords (EltTy.packing .f32)
  hrank11 : 0 < grid11.rank
  k11_off1_inb : ∀ i : grid11.Coords, ∀ a, (k11_off1 i) a + S1.size a ≤ S50000.size a
  k11_off3_inb : ∀ i : grid11.Coords, ∀ a, (k11_off3 i) a + S1.size a ≤ S50000.size a
  k11_off5_inb : ∀ i : grid11.Coords, ∀ a, (k11_off5 i) a + S1.size a ≤ S50000.size a
  k11_off7_inb : ∀ i : grid11.Coords, ∀ a, (k11_off7 i) a + S1.size a ≤ S50000.size a
  k11_off9_inb : ∀ i : grid11.Coords, ∀ a, (k11_off9 i) a + S1.size a ≤ S50000.size a
  k11_off11_inb : ∀ i : grid11.Coords, ∀ a, (k11_off11 i) a + S1.size a ≤ S50000.size a
  k11_off13_inb : ∀ i : grid11.Coords, ∀ a, (k11_off13 i) a + S1.size a ≤ S50000.size a
  k11_off15_inb : ∀ i : grid11.Coords, ∀ a, (k11_off15 i) a + S1.size a ≤ S50000.size a
  k11_off17_inb : ∀ i : grid11.Coords, ∀ a, (k11_off17 i) a + S1.size a ≤ S50000.size a
  k11_off19_inb : ∀ i : grid11.Coords, ∀ a, (k11_off19 i) a + S1.size a ≤ S50000.size a
  k11_off21_inb : ∀ i : grid11.Coords, ∀ a, (k11_off21 i) a + S1.size a ≤ S50000.size a
  k11_off23_inb : ∀ i : grid11.Coords, ∀ a, (k11_off23 i) a + S1.size a ≤ S50000.size a
  k11_off25_inb : ∀ i : grid11.Coords, ∀ a, (k11_off25 i) a + S1.size a ≤ S50000.size a
  k11_off27_inb : ∀ i : grid11.Coords, ∀ a, (k11_off27 i) a + S1.size a ≤ S50000.size a
  k11_off29_inb : ∀ i : grid11.Coords, ∀ a, (k11_off29 i) a + S1.size a ≤ S50000.size a
  k11_off31_inb : ∀ i : grid11.Coords, ∀ a, (k11_off31 i) a + S1.size a ≤ S50000.size a
  hstage11_0 : ∀ j, (stage11_0 j).IsWhole
  nbuf11_0 : grid11.bufCount reads11_0 false = 2
  hreads11_0 : ∀ i i' : grid11.Coords, (∀ a, reads11_0 a = true → i a = i' a) → cc11_transform_1 i = cc11_transform_1 i'
  hinb11_0 : ∀ (i : grid11.Coords) a, (cc11_transform_1 i a + 1) * S16x1.size a ≤ S50000x1.size a
  hwx11_0 : ∀ i : grid11.Coords, EltTy.bits .f32 = 32 ∨ (Rect.block (s := S50000x1) S16x1.size (cc11_transform_1 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_2 i = cc11_transform_2 i'
  hinb11_1 : ∀ (i : grid11.Coords) a, (cc11_transform_2 i a + 1) * S16x262.size a ≤ S50000x262.size a
  hwx11_1 : ∀ i : grid11.Coords, EltTy.bits .f32 = 32 ∨ (Rect.block (s := S50000x262) S16x262.size (cc11_transform_2 i) (hinb11_1 i)).WholeWords (EltTy.packing .f32)
  hrank12 : 0 < grid12.rank
  k12_off1_inb : ∀ i : grid12.Coords, ∀ a, (k12_off1 i) a + S1.size a ≤ S50000.size a
  k12_off3_inb : ∀ i : grid12.Coords, ∀ a, (k12_off3 i) a + S1.size a ≤ S50000.size a
  k12_off5_inb : ∀ i : grid12.Coords, ∀ a, (k12_off5 i) a + S1.size a ≤ S50000.size a
  k12_off7_inb : ∀ i : grid12.Coords, ∀ a, (k12_off7 i) a + S1.size a ≤ S50000.size a
  k12_off9_inb : ∀ i : grid12.Coords, ∀ a, (k12_off9 i) a + S1.size a ≤ S50000.size a
  k12_off11_inb : ∀ i : grid12.Coords, ∀ a, (k12_off11 i) a + S1.size a ≤ S50000.size a
  k12_off13_inb : ∀ i : grid12.Coords, ∀ a, (k12_off13 i) a + S1.size a ≤ S50000.size a
  k12_off15_inb : ∀ i : grid12.Coords, ∀ a, (k12_off15 i) a + S1.size a ≤ S50000.size a
  k12_off17_inb : ∀ i : grid12.Coords, ∀ a, (k12_off17 i) a + S1.size a ≤ S50000.size a
  k12_off19_inb : ∀ i : grid12.Coords, ∀ a, (k12_off19 i) a + S1.size a ≤ S50000.size a
  k12_off21_inb : ∀ i : grid12.Coords, ∀ a, (k12_off21 i) a + S1.size a ≤ S50000.size a
  k12_off23_inb : ∀ i : grid12.Coords, ∀ a, (k12_off23 i) a + S1.size a ≤ S50000.size a
  k12_off25_inb : ∀ i : grid12.Coords, ∀ a, (k12_off25 i) a + S1.size a ≤ S50000.size a
  k12_off27_inb : ∀ i : grid12.Coords, ∀ a, (k12_off27 i) a + S1.size a ≤ S50000.size a
  k12_off29_inb : ∀ i : grid12.Coords, ∀ a, (k12_off29 i) a + S1.size a ≤ S50000.size a
  k12_off31_inb : ∀ i : grid12.Coords, ∀ a, (k12_off31 i) a + S1.size a ≤ S50000.size a
  hstage12_0 : ∀ j, (stage12_0 j).IsWhole
  nbuf12_0 : grid12.bufCount reads12_0 false = 2
  hreads12_0 : ∀ i i' : grid12.Coords, (∀ a, reads12_0 a = true → i a = i' a) → cc12_transform_1 i = cc12_transform_1 i'
  hinb12_0 : ∀ (i : grid12.Coords) a, (cc12_transform_1 i a + 1) * S16x1.size a ≤ S50000x1.size a
  hwx12_0 : ∀ i : grid12.Coords, EltTy.bits .f32 = 32 ∨ (Rect.block (s := S50000x1) S16x1.size (cc12_transform_1 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_2 i = cc12_transform_2 i'
  hinb12_1 : ∀ (i : grid12.Coords) a, (cc12_transform_2 i a + 1) * S16x262.size a ≤ S50000x262.size a
  hwx12_1 : ∀ i : grid12.Coords, EltTy.bits .f32 = 32 ∨ (Rect.block (s := S50000x262) S16x262.size (cc12_transform_2 i) (hinb12_1 i)).WholeWords (EltTy.packing .f32)
  hrank13 : 0 < grid13.rank
  k13_off1_inb : ∀ i : grid13.Coords, ∀ a, (k13_off1 i) a + S1.size a ≤ S50000.size a
  k13_off3_inb : ∀ i : grid13.Coords, ∀ a, (k13_off3 i) a + S1.size a ≤ S50000.size a
  k13_off5_inb : ∀ i : grid13.Coords, ∀ a, (k13_off5 i) a + S1.size a ≤ S50000.size a
  k13_off7_inb : ∀ i : grid13.Coords, ∀ a, (k13_off7 i) a + S1.size a ≤ S50000.size a
  k13_off9_inb : ∀ i : grid13.Coords, ∀ a, (k13_off9 i) a + S1.size a ≤ S50000.size a
  k13_off11_inb : ∀ i : grid13.Coords, ∀ a, (k13_off11 i) a + S1.size a ≤ S50000.size a
  k13_off13_inb : ∀ i : grid13.Coords, ∀ a, (k13_off13 i) a + S1.size a ≤ S50000.size a
  k13_off15_inb : ∀ i : grid13.Coords, ∀ a, (k13_off15 i) a + S1.size a ≤ S50000.size a
  k13_off17_inb : ∀ i : grid13.Coords, ∀ a, (k13_off17 i) a + S1.size a ≤ S50000.size a
  k13_off19_inb : ∀ i : grid13.Coords, ∀ a, (k13_off19 i) a + S1.size a ≤ S50000.size a
  k13_off21_inb : ∀ i : grid13.Coords, ∀ a, (k13_off21 i) a + S1.size a ≤ S50000.size a
  k13_off23_inb : ∀ i : grid13.Coords, ∀ a, (k13_off23 i) a + S1.size a ≤ S50000.size a
  k13_off25_inb : ∀ i : grid13.Coords, ∀ a, (k13_off25 i) a + S1.size a ≤ S50000.size a
  k13_off27_inb : ∀ i : grid13.Coords, ∀ a, (k13_off27 i) a + S1.size a ≤ S50000.size a
  k13_off29_inb : ∀ i : grid13.Coords, ∀ a, (k13_off29 i) a + S1.size a ≤ S50000.size a
  k13_off31_inb : ∀ i : grid13.Coords, ∀ a, (k13_off31 i) a + S1.size a ≤ S50000.size a
  hstage13_0 : ∀ j, (stage13_0 j).IsWhole
  nbuf13_0 : grid13.bufCount reads13_0 false = 2
  hreads13_0 : ∀ i i' : grid13.Coords, (∀ a, reads13_0 a = true → i a = i' a) → cc13_transform_1 i = cc13_transform_1 i'
  hinb13_0 : ∀ (i : grid13.Coords) a, (cc13_transform_1 i a + 1) * S16x1.size a ≤ S50000x1.size a
  hwx13_0 : ∀ i : grid13.Coords, EltTy.bits .f32 = 32 ∨ (Rect.block (s := S50000x1) S16x1.size (cc13_transform_1 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_2 i = cc13_transform_2 i'
  hinb13_1 : ∀ (i : grid13.Coords) a, (cc13_transform_2 i a + 1) * S16x262.size a ≤ S50000x262.size a
  hwx13_1 : ∀ i : grid13.Coords, EltTy.bits .f32 = 32 ∨ (Rect.block (s := S50000x262) S16x262.size (cc13_transform_2 i) (hinb13_1 i)).WholeWords (EltTy.packing .f32)
  hrank14 : 0 < grid14.rank
  k14_off1_inb : ∀ i : grid14.Coords, ∀ a, (k14_off1 i) a + S1.size a ≤ S50000.size a
  k14_off3_inb : ∀ i : grid14.Coords, ∀ a, (k14_off3 i) a + S1.size a ≤ S50000.size a
  k14_off5_inb : ∀ i : grid14.Coords, ∀ a, (k14_off5 i) a + S1.size a ≤ S50000.size a
  k14_off7_inb : ∀ i : grid14.Coords, ∀ a, (k14_off7 i) a + S1.size a ≤ S50000.size a
  k14_off9_inb : ∀ i : grid14.Coords, ∀ a, (k14_off9 i) a + S1.size a ≤ S50000.size a
  k14_off11_inb : ∀ i : grid14.Coords, ∀ a, (k14_off11 i) a + S1.size a ≤ S50000.size a
  k14_off13_inb : ∀ i : grid14.Coords, ∀ a, (k14_off13 i) a + S1.size a ≤ S50000.size a
  k14_off15_inb : ∀ i : grid14.Coords, ∀ a, (k14_off15 i) a + S1.size a ≤ S50000.size a
  k14_off17_inb : ∀ i : grid14.Coords, ∀ a, (k14_off17 i) a + S1.size a ≤ S50000.size a
  k14_off19_inb : ∀ i : grid14.Coords, ∀ a, (k14_off19 i) a + S1.size a ≤ S50000.size a
  k14_off21_inb : ∀ i : grid14.Coords, ∀ a, (k14_off21 i) a + S1.size a ≤ S50000.size a
  k14_off23_inb : ∀ i : grid14.Coords, ∀ a, (k14_off23 i) a + S1.size a ≤ S50000.size a
  k14_off25_inb : ∀ i : grid14.Coords, ∀ a, (k14_off25 i) a + S1.size a ≤ S50000.size a
  k14_off27_inb : ∀ i : grid14.Coords, ∀ a, (k14_off27 i) a + S1.size a ≤ S50000.size a
  k14_off29_inb : ∀ i : grid14.Coords, ∀ a, (k14_off29 i) a + S1.size a ≤ S50000.size a
  k14_off31_inb : ∀ i : grid14.Coords, ∀ a, (k14_off31 i) a + S1.size a ≤ S50000.size a
  hstage14_0 : ∀ j, (stage14_0 j).IsWhole
  nbuf14_0 : grid14.bufCount reads14_0 false = 2
  hreads14_0 : ∀ i i' : grid14.Coords, (∀ a, reads14_0 a = true → i a = i' a) → cc14_transform_1 i = cc14_transform_1 i'
  hinb14_0 : ∀ (i : grid14.Coords) a, (cc14_transform_1 i a + 1) * S16x1.size a ≤ S50000x1.size a
  hwx14_0 : ∀ i : grid14.Coords, EltTy.bits .f32 = 32 ∨ (Rect.block (s := S50000x1) S16x1.size (cc14_transform_1 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_2 i = cc14_transform_2 i'
  hinb14_1 : ∀ (i : grid14.Coords) a, (cc14_transform_2 i a + 1) * S16x262.size a ≤ S50000x262.size a
  hwx14_1 : ∀ i : grid14.Coords, EltTy.bits .f32 = 32 ∨ (Rect.block (s := S50000x262) S16x262.size (cc14_transform_2 i) (hinb14_1 i)).WholeWords (EltTy.packing .f32)
  hrank15 : 0 < grid15.rank
  k15_off1_inb : ∀ i : grid15.Coords, ∀ a, (k15_off1 i) a + S1.size a ≤ S50000.size a
  k15_off3_inb : ∀ i : grid15.Coords, ∀ a, (k15_off3 i) a + S1.size a ≤ S50000.size a
  k15_off5_inb : ∀ i : grid15.Coords, ∀ a, (k15_off5 i) a + S1.size a ≤ S50000.size a
  k15_off7_inb : ∀ i : grid15.Coords, ∀ a, (k15_off7 i) a + S1.size a ≤ S50000.size a
  k15_off9_inb : ∀ i : grid15.Coords, ∀ a, (k15_off9 i) a + S1.size a ≤ S50000.size a
  k15_off11_inb : ∀ i : grid15.Coords, ∀ a, (k15_off11 i) a + S1.size a ≤ S50000.size a
  k15_off13_inb : ∀ i : grid15.Coords, ∀ a, (k15_off13 i) a + S1.size a ≤ S50000.size a
  k15_off15_inb : ∀ i : grid15.Coords, ∀ a, (k15_off15 i) a + S1.size a ≤ S50000.size a
  k15_off17_inb : ∀ i : grid15.Coords, ∀ a, (k15_off17 i) a + S1.size a ≤ S50000.size a
  k15_off19_inb : ∀ i : grid15.Coords, ∀ a, (k15_off19 i) a + S1.size a ≤ S50000.size a
  k15_off21_inb : ∀ i : grid15.Coords, ∀ a, (k15_off21 i) a + S1.size a ≤ S50000.size a
  k15_off23_inb : ∀ i : grid15.Coords, ∀ a, (k15_off23 i) a + S1.size a ≤ S50000.size a
  k15_off25_inb : ∀ i : grid15.Coords, ∀ a, (k15_off25 i) a + S1.size a ≤ S50000.size a
  k15_off27_inb : ∀ i : grid15.Coords, ∀ a, (k15_off27 i) a + S1.size a ≤ S50000.size a
  k15_off29_inb : ∀ i : grid15.Coords, ∀ a, (k15_off29 i) a + S1.size a ≤ S50000.size a
  k15_off31_inb : ∀ i : grid15.Coords, ∀ a, (k15_off31 i) a + S1.size a ≤ S50000.size a
  hstage15_0 : ∀ j, (stage15_0 j).IsWhole
  nbuf15_0 : grid15.bufCount reads15_0 false = 2
  hreads15_0 : ∀ i i' : grid15.Coords, (∀ a, reads15_0 a = true → i a = i' a) → cc15_transform_1 i = cc15_transform_1 i'
  hinb15_0 : ∀ (i : grid15.Coords) a, (cc15_transform_1 i a + 1) * S16x1.size a ≤ S50000x1.size a
  hwx15_0 : ∀ i : grid15.Coords, EltTy.bits .f32 = 32 ∨ (Rect.block (s := S50000x1) S16x1.size (cc15_transform_1 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_2 i = cc15_transform_2 i'
  hinb15_1 : ∀ (i : grid15.Coords) a, (cc15_transform_2 i a + 1) * S16x262.size a ≤ S50000x262.size a
  hwx15_1 : ∀ i : grid15.Coords, EltTy.bits .f32 = 32 ∨ (Rect.block (s := S50000x262) S16x262.size (cc15_transform_2 i) (hinb15_1 i)).WholeWords (EltTy.packing .f32)
  hrank16 : 0 < grid16.rank
  k16_off1_inb : ∀ i : grid16.Coords, ∀ a, (k16_off1 i) a + S1.size a ≤ S50000.size a
  k16_off3_inb : ∀ i : grid16.Coords, ∀ a, (k16_off3 i) a + S1.size a ≤ S50000.size a
  k16_off5_inb : ∀ i : grid16.Coords, ∀ a, (k16_off5 i) a + S1.size a ≤ S50000.size a
  k16_off7_inb : ∀ i : grid16.Coords, ∀ a, (k16_off7 i) a + S1.size a ≤ S50000.size a
  k16_off9_inb : ∀ i : grid16.Coords, ∀ a, (k16_off9 i) a + S1.size a ≤ S50000.size a
  k16_off11_inb : ∀ i : grid16.Coords, ∀ a, (k16_off11 i) a + S1.size a ≤ S50000.size a
  k16_off13_inb : ∀ i : grid16.Coords, ∀ a, (k16_off13 i) a + S1.size a ≤ S50000.size a
  k16_off15_inb : ∀ i : grid16.Coords, ∀ a, (k16_off15 i) a + S1.size a ≤ S50000.size a
  k16_off17_inb : ∀ i : grid16.Coords, ∀ a, (k16_off17 i) a + S1.size a ≤ S50000.size a
  k16_off19_inb : ∀ i : grid16.Coords, ∀ a, (k16_off19 i) a + S1.size a ≤ S50000.size a
  k16_off21_inb : ∀ i : grid16.Coords, ∀ a, (k16_off21 i) a + S1.size a ≤ S50000.size a
  k16_off23_inb : ∀ i : grid16.Coords, ∀ a, (k16_off23 i) a + S1.size a ≤ S50000.size a
  k16_off25_inb : ∀ i : grid16.Coords, ∀ a, (k16_off25 i) a + S1.size a ≤ S50000.size a
  k16_off27_inb : ∀ i : grid16.Coords, ∀ a, (k16_off27 i) a + S1.size a ≤ S50000.size a
  k16_off29_inb : ∀ i : grid16.Coords, ∀ a, (k16_off29 i) a + S1.size a ≤ S50000.size a
  k16_off31_inb : ∀ i : grid16.Coords, ∀ a, (k16_off31 i) a + S1.size a ≤ S50000.size a
  hstage16_0 : ∀ j, (stage16_0 j).IsWhole
  nbuf16_0 : grid16.bufCount reads16_0 false = 2
  hreads16_0 : ∀ i i' : grid16.Coords, (∀ a, reads16_0 a = true → i a = i' a) → cc16_transform_1 i = cc16_transform_1 i'
  hinb16_0 : ∀ (i : grid16.Coords) a, (cc16_transform_1 i a + 1) * S16x1.size a ≤ S50000x1.size a
  hwx16_0 : ∀ i : grid16.Coords, EltTy.bits .f32 = 32 ∨ (Rect.block (s := S50000x1) S16x1.size (cc16_transform_1 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_2 i = cc16_transform_2 i'
  hinb16_1 : ∀ (i : grid16.Coords) a, (cc16_transform_2 i a + 1) * S16x262.size a ≤ S50000x262.size a
  hwx16_1 : ∀ i : grid16.Coords, EltTy.bits .f32 = 32 ∨ (Rect.block (s := S50000x262) S16x262.size (cc16_transform_2 i) (hinb16_1 i)).WholeWords (EltTy.packing .f32)
  hrank17 : 0 < grid17.rank
  k17_off1_inb : ∀ i : grid17.Coords, ∀ a, (k17_off1 i) a + S1.size a ≤ S50000.size a
  k17_off3_inb : ∀ i : grid17.Coords, ∀ a, (k17_off3 i) a + S1.size a ≤ S50000.size a
  k17_off5_inb : ∀ i : grid17.Coords, ∀ a, (k17_off5 i) a + S1.size a ≤ S50000.size a
  k17_off7_inb : ∀ i : grid17.Coords, ∀ a, (k17_off7 i) a + S1.size a ≤ S50000.size a
  k17_off9_inb : ∀ i : grid17.Coords, ∀ a, (k17_off9 i) a + S1.size a ≤ S50000.size a
  k17_off11_inb : ∀ i : grid17.Coords, ∀ a, (k17_off11 i) a + S1.size a ≤ S50000.size a
  k17_off13_inb : ∀ i : grid17.Coords, ∀ a, (k17_off13 i) a + S1.size a ≤ S50000.size a
  k17_off15_inb : ∀ i : grid17.Coords, ∀ a, (k17_off15 i) a + S1.size a ≤ S50000.size a
  k17_off17_inb : ∀ i : grid17.Coords, ∀ a, (k17_off17 i) a + S1.size a ≤ S50000.size a
  k17_off19_inb : ∀ i : grid17.Coords, ∀ a, (k17_off19 i) a + S1.size a ≤ S50000.size a
  k17_off21_inb : ∀ i : grid17.Coords, ∀ a, (k17_off21 i) a + S1.size a ≤ S50000.size a
  k17_off23_inb : ∀ i : grid17.Coords, ∀ a, (k17_off23 i) a + S1.size a ≤ S50000.size a
  k17_off25_inb : ∀ i : grid17.Coords, ∀ a, (k17_off25 i) a + S1.size a ≤ S50000.size a
  k17_off27_inb : ∀ i : grid17.Coords, ∀ a, (k17_off27 i) a + S1.size a ≤ S50000.size a
  k17_off29_inb : ∀ i : grid17.Coords, ∀ a, (k17_off29 i) a + S1.size a ≤ S50000.size a
  k17_off31_inb : ∀ i : grid17.Coords, ∀ a, (k17_off31 i) a + S1.size a ≤ S50000.size a
  hstage17_0 : ∀ j, (stage17_0 j).IsWhole
  nbuf17_0 : grid17.bufCount reads17_0 false = 2
  hreads17_0 : ∀ i i' : grid17.Coords, (∀ a, reads17_0 a = true → i a = i' a) → cc17_transform_1 i = cc17_transform_1 i'
  hinb17_0 : ∀ (i : grid17.Coords) a, (cc17_transform_1 i a + 1) * S16x1.size a ≤ S50000x1.size a
  hwx17_0 : ∀ i : grid17.Coords, EltTy.bits .f32 = 32 ∨ (Rect.block (s := S50000x1) S16x1.size (cc17_transform_1 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_2 i = cc17_transform_2 i'
  hinb17_1 : ∀ (i : grid17.Coords) a, (cc17_transform_2 i a + 1) * S16x262.size a ≤ S50000x262.size a
  hwx17_1 : ∀ i : grid17.Coords, EltTy.bits .f32 = 32 ∨ (Rect.block (s := S50000x262) S16x262.size (cc17_transform_2 i) (hinb17_1 i)).WholeWords (EltTy.packing .f32)
  hrank18 : 0 < grid18.rank
  k18_off1_inb : ∀ i : grid18.Coords, ∀ a, (k18_off1 i) a + S1.size a ≤ S50000.size a
  k18_off3_inb : ∀ i : grid18.Coords, ∀ a, (k18_off3 i) a + S1.size a ≤ S50000.size a
  k18_off5_inb : ∀ i : grid18.Coords, ∀ a, (k18_off5 i) a + S1.size a ≤ S50000.size a
  k18_off7_inb : ∀ i : grid18.Coords, ∀ a, (k18_off7 i) a + S1.size a ≤ S50000.size a
  k18_off9_inb : ∀ i : grid18.Coords, ∀ a, (k18_off9 i) a + S1.size a ≤ S50000.size a
  k18_off11_inb : ∀ i : grid18.Coords, ∀ a, (k18_off11 i) a + S1.size a ≤ S50000.size a
  k18_off13_inb : ∀ i : grid18.Coords, ∀ a, (k18_off13 i) a + S1.size a ≤ S50000.size a
  k18_off15_inb : ∀ i : grid18.Coords, ∀ a, (k18_off15 i) a + S1.size a ≤ S50000.size a
  k18_off17_inb : ∀ i : grid18.Coords, ∀ a, (k18_off17 i) a + S1.size a ≤ S50000.size a
  k18_off19_inb : ∀ i : grid18.Coords, ∀ a, (k18_off19 i) a + S1.size a ≤ S50000.size a
  k18_off21_inb : ∀ i : grid18.Coords, ∀ a, (k18_off21 i) a + S1.size a ≤ S50000.size a
  k18_off23_inb : ∀ i : grid18.Coords, ∀ a, (k18_off23 i) a + S1.size a ≤ S50000.size a
  k18_off25_inb : ∀ i : grid18.Coords, ∀ a, (k18_off25 i) a + S1.size a ≤ S50000.size a
  k18_off27_inb : ∀ i : grid18.Coords, ∀ a, (k18_off27 i) a + S1.size a ≤ S50000.size a
  k18_off29_inb : ∀ i : grid18.Coords, ∀ a, (k18_off29 i) a + S1.size a ≤ S50000.size a
  k18_off31_inb : ∀ i : grid18.Coords, ∀ a, (k18_off31 i) a + S1.size a ≤ S50000.size a
  hstage18_0 : ∀ j, (stage18_0 j).IsWhole
  nbuf18_0 : grid18.bufCount reads18_0 false = 2
  hreads18_0 : ∀ i i' : grid18.Coords, (∀ a, reads18_0 a = true → i a = i' a) → cc18_transform_1 i = cc18_transform_1 i'
  hinb18_0 : ∀ (i : grid18.Coords) a, (cc18_transform_1 i a + 1) * S16x1.size a ≤ S50000x1.size a
  hwx18_0 : ∀ i : grid18.Coords, EltTy.bits .f32 = 32 ∨ (Rect.block (s := S50000x1) S16x1.size (cc18_transform_1 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_2 i = cc18_transform_2 i'
  hinb18_1 : ∀ (i : grid18.Coords) a, (cc18_transform_2 i a + 1) * S16x262.size a ≤ S50000x262.size a
  hwx18_1 : ∀ i : grid18.Coords, EltTy.bits .f32 = 32 ∨ (Rect.block (s := S50000x262) S16x262.size (cc18_transform_2 i) (hinb18_1 i)).WholeWords (EltTy.packing .f32)
  hrank19 : 0 < grid19.rank
  k19_off1_inb : ∀ i : grid19.Coords, ∀ a, (k19_off1 i) a + S1.size a ≤ S50000.size a
  k19_off3_inb : ∀ i : grid19.Coords, ∀ a, (k19_off3 i) a + S1.size a ≤ S50000.size a
  k19_off5_inb : ∀ i : grid19.Coords, ∀ a, (k19_off5 i) a + S1.size a ≤ S50000.size a
  k19_off7_inb : ∀ i : grid19.Coords, ∀ a, (k19_off7 i) a + S1.size a ≤ S50000.size a
  k19_off9_inb : ∀ i : grid19.Coords, ∀ a, (k19_off9 i) a + S1.size a ≤ S50000.size a
  k19_off11_inb : ∀ i : grid19.Coords, ∀ a, (k19_off11 i) a + S1.size a ≤ S50000.size a
  k19_off13_inb : ∀ i : grid19.Coords, ∀ a, (k19_off13 i) a + S1.size a ≤ S50000.size a
  k19_off15_inb : ∀ i : grid19.Coords, ∀ a, (k19_off15 i) a + S1.size a ≤ S50000.size a
  k19_off17_inb : ∀ i : grid19.Coords, ∀ a, (k19_off17 i) a + S1.size a ≤ S50000.size a
  k19_off19_inb : ∀ i : grid19.Coords, ∀ a, (k19_off19 i) a + S1.size a ≤ S50000.size a
  k19_off21_inb : ∀ i : grid19.Coords, ∀ a, (k19_off21 i) a + S1.size a ≤ S50000.size a
  k19_off23_inb : ∀ i : grid19.Coords, ∀ a, (k19_off23 i) a + S1.size a ≤ S50000.size a
  k19_off25_inb : ∀ i : grid19.Coords, ∀ a, (k19_off25 i) a + S1.size a ≤ S50000.size a
  k19_off27_inb : ∀ i : grid19.Coords, ∀ a, (k19_off27 i) a + S1.size a ≤ S50000.size a
  k19_off29_inb : ∀ i : grid19.Coords, ∀ a, (k19_off29 i) a + S1.size a ≤ S50000.size a
  k19_off31_inb : ∀ i : grid19.Coords, ∀ a, (k19_off31 i) a + S1.size a ≤ S50000.size a
  hstage19_0 : ∀ j, (stage19_0 j).IsWhole
  nbuf19_0 : grid19.bufCount reads19_0 false = 2
  hreads19_0 : ∀ i i' : grid19.Coords, (∀ a, reads19_0 a = true → i a = i' a) → cc19_transform_1 i = cc19_transform_1 i'
  hinb19_0 : ∀ (i : grid19.Coords) a, (cc19_transform_1 i a + 1) * S16x1.size a ≤ S50000x1.size a
  hwx19_0 : ∀ i : grid19.Coords, EltTy.bits .f32 = 32 ∨ (Rect.block (s := S50000x1) S16x1.size (cc19_transform_1 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_2 i = cc19_transform_2 i'
  hinb19_1 : ∀ (i : grid19.Coords) a, (cc19_transform_2 i a + 1) * S16x262.size a ≤ S50000x262.size a
  hwx19_1 : ∀ i : grid19.Coords, EltTy.bits .f32 = 32 ∨ (Rect.block (s := S50000x262) S16x262.size (cc19_transform_2 i) (hinb19_1 i)).WholeWords (EltTy.packing .f32)

variable [Facts₀]

abbrev cc1_scratch1 : DmaSems sig S16 := SemArray.consecutive 9 S16 hcc1_scratch1
abbrev cc2_scratch1 : DmaSems sig S16 := SemArray.consecutive 29 S16 hcc2_scratch1
abbrev cc3_scratch1 : DmaSems sig S16 := SemArray.consecutive 49 S16 hcc3_scratch1
abbrev cc4_scratch1 : DmaSems sig S16 := SemArray.consecutive 69 S16 hcc4_scratch1
abbrev cc5_scratch1 : DmaSems sig S16 := SemArray.consecutive 89 S16 hcc5_scratch1
abbrev cc6_scratch1 : DmaSems sig S16 := SemArray.consecutive 109 S16 hcc6_scratch1
abbrev cc7_scratch1 : DmaSems sig S16 := SemArray.consecutive 129 S16 hcc7_scratch1
abbrev cc8_scratch1 : DmaSems sig S16 := SemArray.consecutive 149 S16 hcc8_scratch1
abbrev cc9_scratch1 : DmaSems sig S16 := SemArray.consecutive 169 S16 hcc9_scratch1
abbrev cc11_scratch1 : DmaSems sig S16 := SemArray.consecutive 194 S16 hcc11_scratch1
abbrev cc12_scratch1 : DmaSems sig S16 := SemArray.consecutive 214 S16 hcc12_scratch1
abbrev cc13_scratch1 : DmaSems sig S16 := SemArray.consecutive 234 S16 hcc13_scratch1
abbrev cc14_scratch1 : DmaSems sig S16 := SemArray.consecutive 254 S16 hcc14_scratch1
abbrev cc15_scratch1 : DmaSems sig S16 := SemArray.consecutive 274 S16 hcc15_scratch1
abbrev cc16_scratch1 : DmaSems sig S16 := SemArray.consecutive 294 S16 hcc16_scratch1
abbrev cc17_scratch1 : DmaSems sig S16 := SemArray.consecutive 314 S16 hcc17_scratch1
abbrev cc18_scratch1 : DmaSems sig S16 := SemArray.consecutive 334 S16 hcc18_scratch1
abbrev cc19_scratch1 : DmaSems sig S16 := SemArray.consecutive 354 S16 hcc19_scratch1
def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S1000x262_S262x512_S1000x512_1_0_0_1_n_n : DotDims S1000x262 S262x512 S1000x512 where
  lhsContracting := [1]
  rhsContracting := [0]
  lhsNonContracting := [0]
  rhsNonContracting := [1]
  lhsBatch := []
  rhsBatch := []
  wf := dot_S1000x262_S262x512_S1000x512_1_0_0_1_n_n_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S1000x512_S512x262_S1000x262_1_0_0_1_n_n : DotDims S1000x512 S512x262 S1000x262 where
  lhsContracting := [1]
  rhsContracting := [0]
  lhsNonContracting := [0]
  rhsNonContracting := [1]
  lhsBatch := []
  rhsBatch := []
  wf := dot_S1000x512_S512x262_S1000x262_1_0_0_1_n_n_wf
def scatter_S50000x262_S450000x1_S450000x262_1_0_0_1 : ScatterDims S50000x262 S450000x1 S450000x262 where
  updateWindowDims := [1]
  insertedWindowDims := [0]
  scatterDimsToOperandDims := [0]
  indexVectorDim := 1
  wf := scatter_S50000x262_S450000x1_S450000x262_1_0_0_1_wf

abbrev win0_0 : Pipeline.Window sig grid0 :=
  Pipeline.Window.ofSpec (Memref.whole main_arg0) S1000x262.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S262x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v37) S16x1.size reads1_0 false false 2 stage1_0 sem1_0 nbuf1_0 hstage1_0

abbrev spec1_1 : Pipeline.WinSpec sig grid1.rank :=
  Pipeline.WinSpec.ofSpec (Memref.whole main_v38) S16x512.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_1 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev spec2_0 : Pipeline.WinSpec sig grid2.rank :=
  Pipeline.WinSpec.ofSpec (Memref.whole main_v40) S16x1.size reads2_0 false false 2 stage2_0 sem2_0 nbuf2_0 hstage2_0

abbrev spec2_1 : Pipeline.WinSpec sig grid2.rank :=
  Pipeline.WinSpec.ofSpec (Memref.whole main_v41) S16x512.size reads2_1 true false 2 stage2_1 sem2_1 nbuf2_1 hstage2_1

abbrev spec2 : Fin 2 → Pipeline.WinSpec sig grid2.rank := fun | 0 => spec2_0 | 1 => spec2_1 | ⟨_ + 2, h⟩ => absurd h (Nat.not_lt.2 (Nat.le_add_left _ _))
theorem hcount2 : ∀ w, grid2.bufCount (spec2 w).reads (spec2 w).sync = (spec2 w).nbuf := fun | 0 => nbuf2_0 | 1 => nbuf2_1 | ⟨_ + 2, h⟩ => absurd h (Nat.not_lt.2 (Nat.le_add_left _ _))
abbrev ix2 (pf : pre2.Contents (Elt F)) : (w : Fin 2) → grid2.Coords → Fin (spec2 w).shape.rank → Nat := fun | 0 => cc2_transform_1 | 1 => cc2_transform_2 | ⟨_ + 2, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | 1 => hreads2_1 | ⟨_ + 2, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | 1 => hinb2_1 | ⟨_ + 2, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | 1 => hwx2_1 | ⟨_ + 2, h⟩ => absurd h (Nat.not_lt.2 (Nat.le_add_left _ _))
abbrev spec3_0 : Pipeline.WinSpec sig grid3.rank :=
  Pipeline.WinSpec.ofSpec (Memref.whole main_v43) S16x1.size reads3_0 false false 2 stage3_0 sem3_0 nbuf3_0 hstage3_0

abbrev spec3_1 : Pipeline.WinSpec sig grid3.rank :=
  Pipeline.WinSpec.ofSpec (Memref.whole main_v44) S16x512.size reads3_1 true false 2 stage3_1 sem3_1 nbuf3_1 hstage3_1

abbrev spec3 : Fin 2 → Pipeline.WinSpec sig grid3.rank := fun | 0 => spec3_0 | 1 => spec3_1 | ⟨_ + 2, h⟩ => absurd h (Nat.not_lt.2 (Nat.le_add_left _ _))
theorem hcount3 : ∀ w, grid3.bufCount (spec3 w).reads (spec3 w).sync = (spec3 w).nbuf := fun | 0 => nbuf3_0 | 1 => nbuf3_1 | ⟨_ + 2, h⟩ => absurd h (Nat.not_lt.2 (Nat.le_add_left _ _))
abbrev ix3 (pf : pre3.Contents (Elt F)) : (w : Fin 2) → grid3.Coords → Fin (spec3 w).shape.rank → Nat := fun | 0 => cc3_transform_1 | 1 => cc3_transform_2 | ⟨_ + 2, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 | ⟨_ + 2, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | 1 => hinb3_1 | ⟨_ + 2, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | 1 => hwx3_1 | ⟨_ + 2, h⟩ => absurd h (Nat.not_lt.2 (Nat.le_add_left _ _))
abbrev spec4_0 : Pipeline.WinSpec sig grid4.rank :=
  Pipeline.WinSpec.ofSpec (Memref.whole main_v46) S16x1.size reads4_0 false false 2 stage4_0 sem4_0 nbuf4_0 hstage4_0

abbrev spec4_1 : Pipeline.WinSpec sig grid4.rank :=
  Pipeline.WinSpec.ofSpec (Memref.whole main_v47) S16x512.size reads4_1 true false 2 stage4_1 sem4_1 nbuf4_1 hstage4_1

abbrev spec4 : Fin 2 → Pipeline.WinSpec sig grid4.rank := fun | 0 => spec4_0 | 1 => spec4_1 | ⟨_ + 2, h⟩ => absurd h (Nat.not_lt.2 (Nat.le_add_left _ _))
theorem hcount4 : ∀ w, grid4.bufCount (spec4 w).reads (spec4 w).sync = (spec4 w).nbuf := fun | 0 => nbuf4_0 | 1 => nbuf4_1 | ⟨_ + 2, h⟩ => absurd h (Nat.not_lt.2 (Nat.le_add_left _ _))
abbrev ix4 (pf : pre4.Contents (Elt F)) : (w : Fin 2) → grid4.Coords → Fin (spec4 w).shape.rank → Nat := fun | 0 => cc4_transform_1 | 1 => cc4_transform_2 | ⟨_ + 2, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 | ⟨_ + 2, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | 1 => hinb4_1 | ⟨_ + 2, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | 1 => hwx4_1 | ⟨_ + 2, h⟩ => absurd h (Nat.not_lt.2 (Nat.le_add_left _ _))
abbrev spec5_0 : Pipeline.WinSpec sig grid5.rank :=
  Pipeline.WinSpec.ofSpec (Memref.whole main_v49) S16x1.size reads5_0 false false 2 stage5_0 sem5_0 nbuf5_0 hstage5_0

abbrev spec5_1 : Pipeline.WinSpec sig grid5.rank :=
  Pipeline.WinSpec.ofSpec (Memref.whole main_v50) S16x512.size reads5_1 true false 2 stage5_1 sem5_1 nbuf5_1 hstage5_1

abbrev spec5 : Fin 2 → Pipeline.WinSpec sig grid5.rank := fun | 0 => spec5_0 | 1 => spec5_1 | ⟨_ + 2, h⟩ => absurd h (Nat.not_lt.2 (Nat.le_add_left _ _))
theorem hcount5 : ∀ w, grid5.bufCount (spec5 w).reads (spec5 w).sync = (spec5 w).nbuf := fun | 0 => nbuf5_0 | 1 => nbuf5_1 | ⟨_ + 2, h⟩ => absurd h (Nat.not_lt.2 (Nat.le_add_left _ _))
abbrev ix5 (pf : pre5.Contents (Elt F)) : (w : Fin 2) → grid5.Coords → Fin (spec5 w).shape.rank → Nat := fun | 0 => cc5_transform_1 | 1 => cc5_transform_2 | ⟨_ + 2, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | 1 => hreads5_1 | ⟨_ + 2, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | 1 => hinb5_1 | ⟨_ + 2, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | 1 => hwx5_1 | ⟨_ + 2, h⟩ => absurd h (Nat.not_lt.2 (Nat.le_add_left _ _))
abbrev spec6_0 : Pipeline.WinSpec sig grid6.rank :=
  Pipeline.WinSpec.ofSpec (Memref.whole main_v52) S16x1.size reads6_0 false false 2 stage6_0 sem6_0 nbuf6_0 hstage6_0

abbrev spec6_1 : Pipeline.WinSpec sig grid6.rank :=
  Pipeline.WinSpec.ofSpec (Memref.whole main_v53) S16x512.size reads6_1 true false 2 stage6_1 sem6_1 nbuf6_1 hstage6_1

abbrev spec6 : Fin 2 → Pipeline.WinSpec sig grid6.rank := fun | 0 => spec6_0 | 1 => spec6_1 | ⟨_ + 2, h⟩ => absurd h (Nat.not_lt.2 (Nat.le_add_left _ _))
theorem hcount6 : ∀ w, grid6.bufCount (spec6 w).reads (spec6 w).sync = (spec6 w).nbuf := fun | 0 => nbuf6_0 | 1 => nbuf6_1 | ⟨_ + 2, h⟩ => absurd h (Nat.not_lt.2 (Nat.le_add_left _ _))
abbrev ix6 (pf : pre6.Contents (Elt F)) : (w : Fin 2) → grid6.Coords → Fin (spec6 w).shape.rank → Nat := fun | 0 => cc6_transform_1 | 1 => cc6_transform_2 | ⟨_ + 2, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | 1 => hreads6_1 | ⟨_ + 2, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | 1 => hinb6_1 | ⟨_ + 2, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | 1 => hwx6_1 | ⟨_ + 2, h⟩ => absurd h (Nat.not_lt.2 (Nat.le_add_left _ _))
abbrev spec7_0 : Pipeline.WinSpec sig grid7.rank :=
  Pipeline.WinSpec.ofSpec (Memref.whole main_v55) S16x1.size reads7_0 false false 2 stage7_0 sem7_0 nbuf7_0 hstage7_0

abbrev spec7_1 : Pipeline.WinSpec sig grid7.rank :=
  Pipeline.WinSpec.ofSpec (Memref.whole main_v56) S16x512.size reads7_1 true false 2 stage7_1 sem7_1 nbuf7_1 hstage7_1

abbrev spec7 : Fin 2 → Pipeline.WinSpec sig grid7.rank := fun | 0 => spec7_0 | 1 => spec7_1 | ⟨_ + 2, h⟩ => absurd h (Nat.not_lt.2 (Nat.le_add_left _ _))
theorem hcount7 : ∀ w, grid7.bufCount (spec7 w).reads (spec7 w).sync = (spec7 w).nbuf := fun | 0 => nbuf7_0 | 1 => nbuf7_1 | ⟨_ + 2, h⟩ => absurd h (Nat.not_lt.2 (Nat.le_add_left _ _))
abbrev ix7 (pf : pre7.Contents (Elt F)) : (w : Fin 2) → grid7.Coords → Fin (spec7 w).shape.rank → Nat := fun | 0 => cc7_transform_1 | 1 => cc7_transform_2 | ⟨_ + 2, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | 1 => hreads7_1 | ⟨_ + 2, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | 1 => hinb7_1 | ⟨_ + 2, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | 1 => hwx7_1 | ⟨_ + 2, h⟩ => absurd h (Nat.not_lt.2 (Nat.le_add_left _ _))
abbrev spec8_0 : Pipeline.WinSpec sig grid8.rank :=
  Pipeline.WinSpec.ofSpec (Memref.whole main_v58) S16x1.size reads8_0 false false 2 stage8_0 sem8_0 nbuf8_0 hstage8_0

abbrev spec8_1 : Pipeline.WinSpec sig grid8.rank :=
  Pipeline.WinSpec.ofSpec (Memref.whole main_v59) S16x512.size reads8_1 true false 2 stage8_1 sem8_1 nbuf8_1 hstage8_1

abbrev spec8 : Fin 2 → Pipeline.WinSpec sig grid8.rank := fun | 0 => spec8_0 | 1 => spec8_1 | ⟨_ + 2, h⟩ => absurd h (Nat.not_lt.2 (Nat.le_add_left _ _))
theorem hcount8 : ∀ w, grid8.bufCount (spec8 w).reads (spec8 w).sync = (spec8 w).nbuf := fun | 0 => nbuf8_0 | 1 => nbuf8_1 | ⟨_ + 2, h⟩ => absurd h (Nat.not_lt.2 (Nat.le_add_left _ _))
abbrev ix8 (pf : pre8.Contents (Elt F)) : (w : Fin 2) → grid8.Coords → Fin (spec8 w).shape.rank → Nat := fun | 0 => cc8_transform_1 | 1 => cc8_transform_2 | ⟨_ + 2, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | 1 => hreads8_1 | ⟨_ + 2, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | 1 => hinb8_1 | ⟨_ + 2, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | 1 => hwx8_1 | ⟨_ + 2, h⟩ => absurd h (Nat.not_lt.2 (Nat.le_add_left _ _))
abbrev spec9_0 : Pipeline.WinSpec sig grid9.rank :=
  Pipeline.WinSpec.ofSpec (Memref.whole main_v61) S16x1.size reads9_0 false false 2 stage9_0 sem9_0 nbuf9_0 hstage9_0

abbrev spec9_1 : Pipeline.WinSpec sig grid9.rank :=
  Pipeline.WinSpec.ofSpec (Memref.whole main_v62) S16x512.size reads9_1 true false 2 stage9_1 sem9_1 nbuf9_1 hstage9_1

abbrev spec9 : Fin 2 → Pipeline.WinSpec sig grid9.rank := fun | 0 => spec9_0 | 1 => spec9_1 | ⟨_ + 2, h⟩ => absurd h (Nat.not_lt.2 (Nat.le_add_left _ _))
theorem hcount9 : ∀ w, grid9.bufCount (spec9 w).reads (spec9 w).sync = (spec9 w).nbuf := fun | 0 => nbuf9_0 | 1 => nbuf9_1 | ⟨_ + 2, h⟩ => absurd h (Nat.not_lt.2 (Nat.le_add_left _ _))
abbrev ix9 (pf : pre9.Contents (Elt F)) : (w : Fin 2) → grid9.Coords → Fin (spec9 w).shape.rank → Nat := fun | 0 => cc9_transform_1 | 1 => cc9_transform_2 | ⟨_ + 2, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | 1 => hreads9_1 | ⟨_ + 2, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | 1 => hinb9_1 | ⟨_ + 2, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | 1 => hwx9_1 | ⟨_ + 2, h⟩ => absurd h (Nat.not_lt.2 (Nat.le_add_left _ _))
abbrev win10_0 : Pipeline.Window sig grid10 :=
  Pipeline.Window.ofSpec (Memref.whole main_v70) S1000x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg5) S512x262.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v71) S1000x262.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev spec11_0 : Pipeline.WinSpec sig grid11.rank :=
  Pipeline.WinSpec.ofSpec (Memref.whole main_v74) S16x1.size reads11_0 false false 2 stage11_0 sem11_0 nbuf11_0 hstage11_0

abbrev spec11_1 : Pipeline.WinSpec sig grid11.rank :=
  Pipeline.WinSpec.ofSpec (Memref.whole main_v75) S16x262.size reads11_1 true false 2 stage11_1 sem11_1 nbuf11_1 hstage11_1

abbrev spec11 : Fin 2 → Pipeline.WinSpec sig grid11.rank := fun | 0 => spec11_0 | 1 => spec11_1 | ⟨_ + 2, h⟩ => absurd h (Nat.not_lt.2 (Nat.le_add_left _ _))
theorem hcount11 : ∀ w, grid11.bufCount (spec11 w).reads (spec11 w).sync = (spec11 w).nbuf := fun | 0 => nbuf11_0 | 1 => nbuf11_1 | ⟨_ + 2, h⟩ => absurd h (Nat.not_lt.2 (Nat.le_add_left _ _))
abbrev ix11 (pf : pre11.Contents (Elt F)) : (w : Fin 2) → grid11.Coords → Fin (spec11 w).shape.rank → Nat := fun | 0 => cc11_transform_1 | 1 => cc11_transform_2 | ⟨_ + 2, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 | 1 => hreads11_1 | ⟨_ + 2, h⟩ => absurd h (Nat.not_lt.2 (Nat.le_add_left _ _))
def ok11 (_ : pre11.Contents (Elt F)) : Prop :=
  True
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun _ _ => fun | 0 => hinb11_0 | 1 => hinb11_1 | ⟨_ + 2, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun _ _ => fun | 0 => hwx11_0 | 1 => hwx11_1 | ⟨_ + 2, h⟩ => absurd h (Nat.not_lt.2 (Nat.le_add_left _ _))
abbrev spec12_0 : Pipeline.WinSpec sig grid12.rank :=
  Pipeline.WinSpec.ofSpec (Memref.whole main_v77) S16x1.size reads12_0 false false 2 stage12_0 sem12_0 nbuf12_0 hstage12_0

abbrev spec12_1 : Pipeline.WinSpec sig grid12.rank :=
  Pipeline.WinSpec.ofSpec (Memref.whole main_v78) S16x262.size reads12_1 true false 2 stage12_1 sem12_1 nbuf12_1 hstage12_1

abbrev spec12 : Fin 2 → Pipeline.WinSpec sig grid12.rank := fun | 0 => spec12_0 | 1 => spec12_1 | ⟨_ + 2, h⟩ => absurd h (Nat.not_lt.2 (Nat.le_add_left _ _))
theorem hcount12 : ∀ w, grid12.bufCount (spec12 w).reads (spec12 w).sync = (spec12 w).nbuf := fun | 0 => nbuf12_0 | 1 => nbuf12_1 | ⟨_ + 2, h⟩ => absurd h (Nat.not_lt.2 (Nat.le_add_left _ _))
abbrev ix12 (pf : pre12.Contents (Elt F)) : (w : Fin 2) → grid12.Coords → Fin (spec12 w).shape.rank → Nat := fun | 0 => cc12_transform_1 | 1 => cc12_transform_2 | ⟨_ + 2, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 | 1 => hreads12_1 | ⟨_ + 2, h⟩ => absurd h (Nat.not_lt.2 (Nat.le_add_left _ _))
def ok12 (_ : pre12.Contents (Elt F)) : Prop :=
  True
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun _ _ => fun | 0 => hinb12_0 | 1 => hinb12_1 | ⟨_ + 2, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun _ _ => fun | 0 => hwx12_0 | 1 => hwx12_1 | ⟨_ + 2, h⟩ => absurd h (Nat.not_lt.2 (Nat.le_add_left _ _))
abbrev spec13_0 : Pipeline.WinSpec sig grid13.rank :=
  Pipeline.WinSpec.ofSpec (Memref.whole main_v80) S16x1.size reads13_0 false false 2 stage13_0 sem13_0 nbuf13_0 hstage13_0

abbrev spec13_1 : Pipeline.WinSpec sig grid13.rank :=
  Pipeline.WinSpec.ofSpec (Memref.whole main_v81) S16x262.size reads13_1 true false 2 stage13_1 sem13_1 nbuf13_1 hstage13_1

abbrev spec13 : Fin 2 → Pipeline.WinSpec sig grid13.rank := fun | 0 => spec13_0 | 1 => spec13_1 | ⟨_ + 2, h⟩ => absurd h (Nat.not_lt.2 (Nat.le_add_left _ _))
theorem hcount13 : ∀ w, grid13.bufCount (spec13 w).reads (spec13 w).sync = (spec13 w).nbuf := fun | 0 => nbuf13_0 | 1 => nbuf13_1 | ⟨_ + 2, h⟩ => absurd h (Nat.not_lt.2 (Nat.le_add_left _ _))
abbrev ix13 (pf : pre13.Contents (Elt F)) : (w : Fin 2) → grid13.Coords → Fin (spec13 w).shape.rank → Nat := fun | 0 => cc13_transform_1 | 1 => cc13_transform_2 | ⟨_ + 2, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 | 1 => hreads13_1 | ⟨_ + 2, h⟩ => absurd h (Nat.not_lt.2 (Nat.le_add_left _ _))
def ok13 (_ : pre13.Contents (Elt F)) : Prop :=
  True
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun _ _ => fun | 0 => hinb13_0 | 1 => hinb13_1 | ⟨_ + 2, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun _ _ => fun | 0 => hwx13_0 | 1 => hwx13_1 | ⟨_ + 2, h⟩ => absurd h (Nat.not_lt.2 (Nat.le_add_left _ _))
abbrev spec14_0 : Pipeline.WinSpec sig grid14.rank :=
  Pipeline.WinSpec.ofSpec (Memref.whole main_v83) S16x1.size reads14_0 false false 2 stage14_0 sem14_0 nbuf14_0 hstage14_0

abbrev spec14_1 : Pipeline.WinSpec sig grid14.rank :=
  Pipeline.WinSpec.ofSpec (Memref.whole main_v84) S16x262.size reads14_1 true false 2 stage14_1 sem14_1 nbuf14_1 hstage14_1

abbrev spec14 : Fin 2 → Pipeline.WinSpec sig grid14.rank := fun | 0 => spec14_0 | 1 => spec14_1 | ⟨_ + 2, h⟩ => absurd h (Nat.not_lt.2 (Nat.le_add_left _ _))
theorem hcount14 : ∀ w, grid14.bufCount (spec14 w).reads (spec14 w).sync = (spec14 w).nbuf := fun | 0 => nbuf14_0 | 1 => nbuf14_1 | ⟨_ + 2, h⟩ => absurd h (Nat.not_lt.2 (Nat.le_add_left _ _))
abbrev ix14 (pf : pre14.Contents (Elt F)) : (w : Fin 2) → grid14.Coords → Fin (spec14 w).shape.rank → Nat := fun | 0 => cc14_transform_1 | 1 => cc14_transform_2 | ⟨_ + 2, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 | 1 => hreads14_1 | ⟨_ + 2, h⟩ => absurd h (Nat.not_lt.2 (Nat.le_add_left _ _))
def ok14 (_ : pre14.Contents (Elt F)) : Prop :=
  True
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun _ _ => fun | 0 => hinb14_0 | 1 => hinb14_1 | ⟨_ + 2, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun _ _ => fun | 0 => hwx14_0 | 1 => hwx14_1 | ⟨_ + 2, h⟩ => absurd h (Nat.not_lt.2 (Nat.le_add_left _ _))
abbrev spec15_0 : Pipeline.WinSpec sig grid15.rank :=
  Pipeline.WinSpec.ofSpec (Memref.whole main_v86) S16x1.size reads15_0 false false 2 stage15_0 sem15_0 nbuf15_0 hstage15_0

abbrev spec15_1 : Pipeline.WinSpec sig grid15.rank :=
  Pipeline.WinSpec.ofSpec (Memref.whole main_v87) S16x262.size reads15_1 true false 2 stage15_1 sem15_1 nbuf15_1 hstage15_1

abbrev spec15 : Fin 2 → Pipeline.WinSpec sig grid15.rank := fun | 0 => spec15_0 | 1 => spec15_1 | ⟨_ + 2, h⟩ => absurd h (Nat.not_lt.2 (Nat.le_add_left _ _))
theorem hcount15 : ∀ w, grid15.bufCount (spec15 w).reads (spec15 w).sync = (spec15 w).nbuf := fun | 0 => nbuf15_0 | 1 => nbuf15_1 | ⟨_ + 2, h⟩ => absurd h (Nat.not_lt.2 (Nat.le_add_left _ _))
abbrev ix15 (pf : pre15.Contents (Elt F)) : (w : Fin 2) → grid15.Coords → Fin (spec15 w).shape.rank → Nat := fun | 0 => cc15_transform_1 | 1 => cc15_transform_2 | ⟨_ + 2, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 | 1 => hreads15_1 | ⟨_ + 2, h⟩ => absurd h (Nat.not_lt.2 (Nat.le_add_left _ _))
def ok15 (_ : pre15.Contents (Elt F)) : Prop :=
  True
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun _ _ => fun | 0 => hinb15_0 | 1 => hinb15_1 | ⟨_ + 2, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun _ _ => fun | 0 => hwx15_0 | 1 => hwx15_1 | ⟨_ + 2, h⟩ => absurd h (Nat.not_lt.2 (Nat.le_add_left _ _))
abbrev spec16_0 : Pipeline.WinSpec sig grid16.rank :=
  Pipeline.WinSpec.ofSpec (Memref.whole main_v89) S16x1.size reads16_0 false false 2 stage16_0 sem16_0 nbuf16_0 hstage16_0

abbrev spec16_1 : Pipeline.WinSpec sig grid16.rank :=
  Pipeline.WinSpec.ofSpec (Memref.whole main_v90) S16x262.size reads16_1 true false 2 stage16_1 sem16_1 nbuf16_1 hstage16_1

abbrev spec16 : Fin 2 → Pipeline.WinSpec sig grid16.rank := fun | 0 => spec16_0 | 1 => spec16_1 | ⟨_ + 2, h⟩ => absurd h (Nat.not_lt.2 (Nat.le_add_left _ _))
theorem hcount16 : ∀ w, grid16.bufCount (spec16 w).reads (spec16 w).sync = (spec16 w).nbuf := fun | 0 => nbuf16_0 | 1 => nbuf16_1 | ⟨_ + 2, h⟩ => absurd h (Nat.not_lt.2 (Nat.le_add_left _ _))
abbrev ix16 (pf : pre16.Contents (Elt F)) : (w : Fin 2) → grid16.Coords → Fin (spec16 w).shape.rank → Nat := fun | 0 => cc16_transform_1 | 1 => cc16_transform_2 | ⟨_ + 2, h⟩ => absurd h (Nat.not_lt.2 (Nat.le_add_left _ _))
theorem hreads16 : ∀ (pf : pre16.Contents (Elt F)) w (i i' : grid16.Coords), (∀ a, (spec16 w).reads a = true → i a = i' a) → ix16 pf w i = ix16 pf w i' := fun pf => fun | 0 => hreads16_0 | 1 => hreads16_1 | ⟨_ + 2, h⟩ => absurd h (Nat.not_lt.2 (Nat.le_add_left _ _))
def ok16 (_ : pre16.Contents (Elt F)) : Prop :=
  True
instance (pf : pre16.Contents (Elt F)) : Decidable (ok16 pf) := decidable_of_iff' _ (Iff.of_eq (ok16.eq_1 pf))
theorem hinb16 : ∀ (pf : pre16.Contents (Elt F)), ok16 pf → ∀ w (i : grid16.Coords) a, (ix16 pf w i a + 1) * (spec16 w).size a ≤ (spec16 w).shape.size a :=
  fun _ _ => fun | 0 => hinb16_0 | 1 => hinb16_1 | ⟨_ + 2, h⟩ => absurd h (Nat.not_lt.2 (Nat.le_add_left _ _))
theorem hwx16 : ∀ (pf : pre16.Contents (Elt F)) (hok : ok16 pf) w (i : grid16.Coords), (spec16 w).elt.bits = 32 ∨ (Rect.block (spec16 w).size (ix16 pf w i) (hinb16 pf hok w i)).WholeWords (spec16 w).elt.packing :=
  fun _ _ => fun | 0 => hwx16_0 | 1 => hwx16_1 | ⟨_ + 2, h⟩ => absurd h (Nat.not_lt.2 (Nat.le_add_left _ _))
abbrev spec17_0 : Pipeline.WinSpec sig grid17.rank :=
  Pipeline.WinSpec.ofSpec (Memref.whole main_v92) S16x1.size reads17_0 false false 2 stage17_0 sem17_0 nbuf17_0 hstage17_0

abbrev spec17_1 : Pipeline.WinSpec sig grid17.rank :=
  Pipeline.WinSpec.ofSpec (Memref.whole main_v93) S16x262.size reads17_1 true false 2 stage17_1 sem17_1 nbuf17_1 hstage17_1

abbrev spec17 : Fin 2 → Pipeline.WinSpec sig grid17.rank := fun | 0 => spec17_0 | 1 => spec17_1 | ⟨_ + 2, h⟩ => absurd h (Nat.not_lt.2 (Nat.le_add_left _ _))
theorem hcount17 : ∀ w, grid17.bufCount (spec17 w).reads (spec17 w).sync = (spec17 w).nbuf := fun | 0 => nbuf17_0 | 1 => nbuf17_1 | ⟨_ + 2, h⟩ => absurd h (Nat.not_lt.2 (Nat.le_add_left _ _))
abbrev ix17 (pf : pre17.Contents (Elt F)) : (w : Fin 2) → grid17.Coords → Fin (spec17 w).shape.rank → Nat := fun | 0 => cc17_transform_1 | 1 => cc17_transform_2 | ⟨_ + 2, h⟩ => absurd h (Nat.not_lt.2 (Nat.le_add_left _ _))
theorem hreads17 : ∀ (pf : pre17.Contents (Elt F)) w (i i' : grid17.Coords), (∀ a, (spec17 w).reads a = true → i a = i' a) → ix17 pf w i = ix17 pf w i' := fun pf => fun | 0 => hreads17_0 | 1 => hreads17_1 | ⟨_ + 2, h⟩ => absurd h (Nat.not_lt.2 (Nat.le_add_left _ _))
def ok17 (_ : pre17.Contents (Elt F)) : Prop :=
  True
instance (pf : pre17.Contents (Elt F)) : Decidable (ok17 pf) := decidable_of_iff' _ (Iff.of_eq (ok17.eq_1 pf))
theorem hinb17 : ∀ (pf : pre17.Contents (Elt F)), ok17 pf → ∀ w (i : grid17.Coords) a, (ix17 pf w i a + 1) * (spec17 w).size a ≤ (spec17 w).shape.size a :=
  fun _ _ => fun | 0 => hinb17_0 | 1 => hinb17_1 | ⟨_ + 2, h⟩ => absurd h (Nat.not_lt.2 (Nat.le_add_left _ _))
theorem hwx17 : ∀ (pf : pre17.Contents (Elt F)) (hok : ok17 pf) w (i : grid17.Coords), (spec17 w).elt.bits = 32 ∨ (Rect.block (spec17 w).size (ix17 pf w i) (hinb17 pf hok w i)).WholeWords (spec17 w).elt.packing :=
  fun _ _ => fun | 0 => hwx17_0 | 1 => hwx17_1 | ⟨_ + 2, h⟩ => absurd h (Nat.not_lt.2 (Nat.le_add_left _ _))
abbrev spec18_0 : Pipeline.WinSpec sig grid18.rank :=
  Pipeline.WinSpec.ofSpec (Memref.whole main_v95) S16x1.size reads18_0 false false 2 stage18_0 sem18_0 nbuf18_0 hstage18_0

abbrev spec18_1 : Pipeline.WinSpec sig grid18.rank :=
  Pipeline.WinSpec.ofSpec (Memref.whole main_v96) S16x262.size reads18_1 true false 2 stage18_1 sem18_1 nbuf18_1 hstage18_1

abbrev spec18 : Fin 2 → Pipeline.WinSpec sig grid18.rank := fun | 0 => spec18_0 | 1 => spec18_1 | ⟨_ + 2, h⟩ => absurd h (Nat.not_lt.2 (Nat.le_add_left _ _))
theorem hcount18 : ∀ w, grid18.bufCount (spec18 w).reads (spec18 w).sync = (spec18 w).nbuf := fun | 0 => nbuf18_0 | 1 => nbuf18_1 | ⟨_ + 2, h⟩ => absurd h (Nat.not_lt.2 (Nat.le_add_left _ _))
abbrev ix18 (pf : pre18.Contents (Elt F)) : (w : Fin 2) → grid18.Coords → Fin (spec18 w).shape.rank → Nat := fun | 0 => cc18_transform_1 | 1 => cc18_transform_2 | ⟨_ + 2, h⟩ => absurd h (Nat.not_lt.2 (Nat.le_add_left _ _))
theorem hreads18 : ∀ (pf : pre18.Contents (Elt F)) w (i i' : grid18.Coords), (∀ a, (spec18 w).reads a = true → i a = i' a) → ix18 pf w i = ix18 pf w i' := fun pf => fun | 0 => hreads18_0 | 1 => hreads18_1 | ⟨_ + 2, h⟩ => absurd h (Nat.not_lt.2 (Nat.le_add_left _ _))
def ok18 (_ : pre18.Contents (Elt F)) : Prop :=
  True
instance (pf : pre18.Contents (Elt F)) : Decidable (ok18 pf) := decidable_of_iff' _ (Iff.of_eq (ok18.eq_1 pf))
theorem hinb18 : ∀ (pf : pre18.Contents (Elt F)), ok18 pf → ∀ w (i : grid18.Coords) a, (ix18 pf w i a + 1) * (spec18 w).size a ≤ (spec18 w).shape.size a :=
  fun _ _ => fun | 0 => hinb18_0 | 1 => hinb18_1 | ⟨_ + 2, h⟩ => absurd h (Nat.not_lt.2 (Nat.le_add_left _ _))
theorem hwx18 : ∀ (pf : pre18.Contents (Elt F)) (hok : ok18 pf) w (i : grid18.Coords), (spec18 w).elt.bits = 32 ∨ (Rect.block (spec18 w).size (ix18 pf w i) (hinb18 pf hok w i)).WholeWords (spec18 w).elt.packing :=
  fun _ _ => fun | 0 => hwx18_0 | 1 => hwx18_1 | ⟨_ + 2, h⟩ => absurd h (Nat.not_lt.2 (Nat.le_add_left _ _))
abbrev spec19_0 : Pipeline.WinSpec sig grid19.rank :=
  Pipeline.WinSpec.ofSpec (Memref.whole main_v98) S16x1.size reads19_0 false false 2 stage19_0 sem19_0 nbuf19_0 hstage19_0

abbrev spec19_1 : Pipeline.WinSpec sig grid19.rank :=
  Pipeline.WinSpec.ofSpec (Memref.whole main_v99) S16x262.size reads19_1 true false 2 stage19_1 sem19_1 nbuf19_1 hstage19_1

abbrev spec19 : Fin 2 → Pipeline.WinSpec sig grid19.rank := fun | 0 => spec19_0 | 1 => spec19_1 | ⟨_ + 2, h⟩ => absurd h (Nat.not_lt.2 (Nat.le_add_left _ _))
theorem hcount19 : ∀ w, grid19.bufCount (spec19 w).reads (spec19 w).sync = (spec19 w).nbuf := fun | 0 => nbuf19_0 | 1 => nbuf19_1 | ⟨_ + 2, h⟩ => absurd h (Nat.not_lt.2 (Nat.le_add_left _ _))
abbrev ix19 (pf : pre19.Contents (Elt F)) : (w : Fin 2) → grid19.Coords → Fin (spec19 w).shape.rank → Nat := fun | 0 => cc19_transform_1 | 1 => cc19_transform_2 | ⟨_ + 2, h⟩ => absurd h (Nat.not_lt.2 (Nat.le_add_left _ _))
theorem hreads19 : ∀ (pf : pre19.Contents (Elt F)) w (i i' : grid19.Coords), (∀ a, (spec19 w).reads a = true → i a = i' a) → ix19 pf w i = ix19 pf w i' := fun pf => fun | 0 => hreads19_0 | 1 => hreads19_1 | ⟨_ + 2, h⟩ => absurd h (Nat.not_lt.2 (Nat.le_add_left _ _))
def ok19 (_ : pre19.Contents (Elt F)) : Prop :=
  True
instance (pf : pre19.Contents (Elt F)) : Decidable (ok19 pf) := decidable_of_iff' _ (Iff.of_eq (ok19.eq_1 pf))
theorem hinb19 : ∀ (pf : pre19.Contents (Elt F)), ok19 pf → ∀ w (i : grid19.Coords) a, (ix19 pf w i a + 1) * (spec19 w).size a ≤ (spec19 w).shape.size a :=
  fun _ _ => fun | 0 => hinb19_0 | 1 => hinb19_1 | ⟨_ + 2, h⟩ => absurd h (Nat.not_lt.2 (Nat.le_add_left _ _))
theorem hwx19 : ∀ (pf : pre19.Contents (Elt F)) (hok : ok19 pf) w (i : grid19.Coords), (spec19 w).elt.bits = 32 ∨ (Rect.block (spec19 w).size (ix19 pf w i) (hinb19 pf hok w i)).WholeWords (spec19 w).elt.packing :=
  fun _ _ => fun | 0 => hwx19_0 | 1 => hwx19_1 | ⟨_ + 2, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole
  harr16 : ∀ w, (spec16 w).arr.IsWhole
  harr17 : ∀ w, (spec17 w).arr.IsWhole
  harr18 : ∀ w, (spec18 w).arr.IsWhole
  harr19 : ∀ w, (spec19 w).arr.IsWhole

variable [Facts]
-- ==== ReferenceIdeal.lean ====
abbrev S50000x262 : Shape := ⟨2, ![50000, 262]⟩
abbrev S2x400000 : Shape := ⟨2, ![2, 400000]⟩
abbrev S400000 : Shape := ⟨1, ![400000]⟩
abbrev S262x512 : Shape := ⟨2, ![262, 512]⟩
abbrev S512 : Shape := ⟨1, ![512]⟩
abbrev S512x262 : Shape := ⟨2, ![512, 262]⟩
abbrev S262 : Shape := ⟨1, ![262]⟩
abbrev S50000 : Shape := ⟨1, ![50000]⟩
abbrev S1x400000 : Shape := ⟨2, ![1, 400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S450000x512 : Shape := ⟨2, ![450000, 512]⟩
abbrev S1x512 : Shape := ⟨2, ![1, 512]⟩
abbrev S450000x262 : Shape := ⟨2, ![450000, 262]⟩
abbrev S1x262 : Shape := ⟨2, ![1, 262]⟩

abbrev nBuf : Space → Nat
  | .hbm => 95
  | .vmem => 0
  | .smem => 0
  | _ => 0

abbrev bufTy : (tb : Table) → Fin (tcTables nBuf tb) → BufTy
  | .hbm, ⟨0, _⟩ => ⟨S50000x262, .f32⟩
  | .hbm, ⟨1, _⟩ => ⟨S2x400000, .i32⟩
  | .hbm, ⟨2, _⟩ => ⟨S400000, .f32⟩
  | .hbm, ⟨3, _⟩ => ⟨S262x512, .f32⟩
  | .hbm, ⟨4, _⟩ => ⟨S512, .f32⟩
  | .hbm, ⟨5, _⟩ => ⟨S512x262, .f32⟩
  | .hbm, ⟨6, _⟩ => ⟨S262, .f32⟩
  | .hbm, ⟨7, _⟩ => ⟨S50000, .i32⟩
  | .hbm, ⟨8, _⟩ => ⟨S1x400000, .i32⟩
  | .hbm, ⟨9, _⟩ => ⟨S400000, .i32⟩
  | .hbm, ⟨10, _⟩ => ⟨S450000, .i32⟩
  | .hbm, ⟨11, _⟩ => ⟨S1x400000, .i32⟩
  | .hbm, ⟨12, _⟩ => ⟨S400000, .i32⟩
  | .hbm, ⟨13, _⟩ => ⟨S450000, .i32⟩
  | .hbm, ⟨14, _⟩ => ⟨S_, .f32⟩
  | .hbm, ⟨15, _⟩ => ⟨S50000, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S450000, .i32⟩
  | .hbm, ⟨34, _⟩ => ⟨S450000, .i1⟩
  | .hbm, ⟨35, _⟩ => ⟨S_, .i32⟩
  | .hbm, ⟨36, _⟩ => ⟨S450000, .i32⟩
  | .hbm, ⟨37, _⟩ => ⟨S450000, .i32⟩
  | .hbm, ⟨38, _⟩ => ⟨S450000, .i32⟩
  | .hbm, ⟨39, _⟩ => ⟨S450000x1, .i32⟩
  | .hbm, ⟨40, _⟩ => ⟨S450000, .f32⟩
  | .hbm, ⟨41, _⟩ => ⟨S450000, .f32⟩
  | .hbm, ⟨42, _⟩ => ⟨S_, .i32⟩
  | .hbm, ⟨43, _⟩ => ⟨S450000, .i32⟩
  | .hbm, ⟨44, _⟩ => ⟨S450000, .i1⟩
  | .hbm, ⟨45, _⟩ => ⟨S_, .i32⟩
  | .hbm, ⟨46, _⟩ => ⟨S450000, .i32⟩
  | .hbm, ⟨47, _⟩ => ⟨S450000, .i32⟩
  | .hbm, ⟨48, _⟩ => ⟨S450000, .i32⟩
  | .hbm, ⟨49, _⟩ => ⟨S450000x1, .i32⟩
  | .hbm, ⟨50, _⟩ => ⟨S450000, .f32⟩
  | .hbm, ⟨51, _⟩ => ⟨S450000, .f32⟩
  | .hbm, ⟨52, _⟩ => ⟨S50000x512, .f32⟩
  | .hbm, ⟨53, _⟩ => ⟨S450000x1, .f32⟩
  | .hbm, ⟨54, _⟩ => ⟨S_, .i32⟩
  | .hbm, ⟨55, _⟩ => ⟨S450000, .i32⟩
  | .hbm, ⟨56, _⟩ => ⟨S450000, .i1⟩
  | .hbm, ⟨57, _⟩ => ⟨S_, .i32⟩
  | .hbm, ⟨58, _⟩ => ⟨S450000, .i32⟩
  | .hbm, ⟨59, _⟩ => ⟨S450000, .i32⟩
  | .hbm, ⟨60, _⟩ => ⟨S450000, .i32⟩
  | .hbm, ⟨61, _⟩ => ⟨S450000x1, .i32⟩
  | .hbm, ⟨62, _⟩ => ⟨S450000x512, .f32⟩
  | .hbm, ⟨63, _⟩ => ⟨S450000x512, .f32⟩
  | .hbm, ⟨64, _⟩ => ⟨S450000x512, .f32⟩
  | .hbm, ⟨65, _⟩ => ⟨S_, .f32⟩
  | .hbm, ⟨66, _⟩ => ⟨S50000x512, .f32⟩
  | .hbm, ⟨67, _⟩ => ⟨S450000x1, .i32⟩
  | .hbm, ⟨68, _⟩ => ⟨S50000x512, .f32⟩
  | .hbm, ⟨69, _⟩ => ⟨S1x512, .f32⟩
  | .hbm, ⟨70, _⟩ => ⟨S50000x512, .f32⟩
  | .hbm, ⟨71, _⟩ => ⟨S50000x512, .f32⟩
  | .hbm, ⟨72, _⟩ => ⟨S_, .f32⟩
  | .hbm, ⟨73, _⟩ => ⟨S50000x512, .f32⟩
  | .hbm, ⟨74, _⟩ => ⟨S50000x512, .f32⟩
  | .hbm, ⟨75, _⟩ => ⟨S50000x262, .f32⟩
  | .hbm, ⟨76, _⟩ => ⟨S450000x1, .f32⟩
  | .hbm, ⟨77, _⟩ => ⟨S_, .i32⟩
  | .hbm, ⟨78, _⟩ => ⟨S450000, .i32⟩
  | .hbm, ⟨79, _⟩ => ⟨S450000, .i1⟩
  | .hbm, ⟨80, _⟩ => ⟨S_, .i32⟩
  | .hbm, ⟨81, _⟩ => ⟨S450000, .i32⟩
  | .hbm, ⟨82, _⟩ => ⟨S450000, .i32⟩
  | .hbm, ⟨83, _⟩ => ⟨S450000, .i32⟩
  | .hbm, ⟨84, _⟩ => ⟨S450000x1, .i32⟩
  | .hbm, ⟨85, _⟩ => ⟨S450000x262, .f32⟩
  | .hbm, ⟨86, _⟩ => ⟨S450000x262, .f32⟩
  | .hbm, ⟨87, _⟩ => ⟨S450000x262, .f32⟩
  | .hbm, ⟨88, _⟩ => ⟨S_, .f32⟩
  | .hbm, ⟨89, _⟩ => ⟨S50000x262, .f32⟩
  | .hbm, ⟨90, _⟩ => ⟨S450000x1, .i32⟩
  | .hbm, ⟨91, _⟩ => ⟨S50000x262, .f32⟩
  | .hbm, ⟨92, _⟩ => ⟨S1x262, .f32⟩
  | .hbm, ⟨93, _⟩ => ⟨S50000x262, .f32⟩
  | .hbm, ⟨94, _⟩ => ⟨S50000x262, .f32⟩
  | _, _ => ⟨S50000x262, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S450000_S450000x1_0 : S450000.BroadcastsInDim S450000x1 (![0] : Fin 1 → Fin S450000x1.rank)
  bcast_S_S450000 : S_.BroadcastsInDim S450000 (![] : Fin 0 → Fin S450000.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S450000x1_S450000x262_0_1 : S450000x1.BroadcastsInDim S450000x262 (![0, 1] : Fin 2 → Fin S450000x262.rank)
  bcast_S_S50000x262 : S_.BroadcastsInDim S50000x262 (![] : Fin 0 → Fin S50000x262.rank)
  bcast_S262_S1x262_1 : S262.BroadcastsInDim S1x262 (![1] : Fin 1 → Fin S1x262.rank)
  bcast_S1x262_S50000x262_0_1 : S1x262.BroadcastsInDim S50000x262 (![0, 1] : Fin 2 → Fin S50000x262.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x262_S262x512_S50000x512_1_0_0_1_n_n_wf : DotDims.WF S50000x262 S262x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x262_S50000x262_1_0_0_1_n_n_wf : DotDims.WF S50000x512 S512x262 S50000x262 [1] [0] [0] [1] [] []
  gather_S50000x262_S450000x1_S450000x262_1_0_n_n_0_1_1262_wf : GatherDims.WF S50000x262 S450000x1 S450000x262 [1] [0] [] [0] [] 1 ![1, 262]
  scatter_S50000x262_S450000x1_S450000x262_1_0_0_1_wf : ScatterDims.WF S50000x262 S450000x1 S450000x262 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x262_S262x512_S50000x512_1_0_0_1_n_n : DotDims S50000x262 S262x512 S50000x512 where
  lhsContracting := [1]
  rhsContracting := [0]
  lhsNonContracting := [0]
  rhsNonContracting := [1]
  lhsBatch := []
  rhsBatch := []
  wf := dot_S50000x262_S262x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x262_S50000x262_1_0_0_1_n_n : DotDims S50000x512 S512x262 S50000x262 where
  lhsContracting := [1]
  rhsContracting := [0]
  lhsNonContracting := [0]
  rhsNonContracting := [1]
  lhsBatch := []
  rhsBatch := []
  wf := dot_S50000x512_S512x262_S50000x262_1_0_0_1_n_n_wf
def gather_S50000x262_S450000x1_S450000x262_1_0_n_n_0_1_1262 : GatherDims S50000x262 S450000x1 S450000x262 where
  offsetDims := [1]
  collapsedSliceDims := [0]
  operandBatchingDims := []
  startIndicesBatchingDims := []
  startIndexMap := [0]
  indexVectorDim := 1
  sliceSizes := ![1, 262]
  wf := gather_S50000x262_S450000x1_S450000x262_1_0_n_n_0_1_1262_wf
def scatter_S50000x262_S450000x1_S450000x262_1_0_0_1 : ScatterDims S50000x262 S450000x1 S450000x262 where
  updateWindowDims := [1]
  insertedWindowDims := [0]
  scatterDimsToOperandDims := [0]
  indexVectorDim := 1
  wf := scatter_S50000x262_S450000x1_S450000x262_1_0_0_1_wf

class Facts : Prop extends Facts₀ where

variable [Facts]
-- ==== Proof.Mat0.lean ====
/- Pipeline 0 of @main (the first layer's dense product x · W1, fifty row blocks of 1000): the region half of
   the frame, at the region-entry contents V, over the run's one user algebra. Three windows: the x block
   [1000,262] and the whole W1 [262,512] are read, the output block [1000,512] is stored whole. -/
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1000x262 := Rect.unit (s := S1000x262) ![0, 0] S1000x262.size inb_S1000x262_S1000x262_0_0
abbrev r0_1 : Rect S262x512 := Rect.unit (s := S262x512) ![0, 0] S262x512.size inb_S262x512_S262x512_0_0
abbrev r0_2 : Rect S1000x512 := Rect.unit (s := S1000x512) ![0, 0] S1000x512.size inb_S1000x512_S1000x512_0_0

/-! ## What the body leaves in the output window's buffer -/

/-- Window 2's staging buffer after the body, from the input windows' blocks: its one store. -/
def out0_2 (x0 : Vec F S1000x262 .f32) (x1 : Vec F S262x512 .f32) : Vec F S1000x512 .f32 :=
  View.canon [⟨r0_2, k0_pay1 (View.ld x0 r0_0) (View.ld x1 r0_1)⟩]

/-- The store tiles the buffer, so it covers it. -/
theorem cover0_2 (p0 : Vec F S1000x512 .f32) (y : S1000x512.Idx) :
    ∃ pc ∈ ([⟨r0_2, p0⟩] : List (View.Piece (Elt F) S1000x512 .f32)), y ∈ pc.1.set :=
  View.cover_of_tiled [⟨r0_2, p0⟩] S1000x512.size (by rfl) y

/-! ## The body's triple -/

set_option maxHeartbeats 1000000 in
/-- The kernel body on whole staging memrefs, the inputs' at read contents x0, x1 and the output's at anything, runs to
    the continuation holding the inputs' as they were and the output's at out0_2 of the inputs'. -/
theorem sound_kernel0 (c : Dev nD) (E : Set ℕ) (i : grid0.Coords)
    (arg0 : Memref sig .tc .vmem S1000x262 .f32) (harg0 : arg0.IsWhole)
    (arg1 : Memref sig .tc .vmem S262x512 .f32) (harg1 : arg1.IsWhole)
    (arg2 : Memref sig .tc .vmem S1000x512 .f32) (harg2 : arg2.IsWhole)
    (x0 : Vec F S1000x262 .f32) (x1 : Vec F S262x512 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body at point t each
    input's buffer at its block and the output's at out0_2 of the input blocks; the class's invariant; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so sound_kernel0 applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Mat10.lean ====
/- pipeline 10 of @main (the second layer's dense product x · W2, fifty row blocks of 1000): the region half of
   the frame, at the region-entry contents V, over the run's one user algebra. Three windows: the x block
   [1000,512] and the whole W2 [512,262] are read, the output block [1000,262] is stored whole. -/
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S1000x512 := Rect.unit (s := S1000x512) ![0, 0] S1000x512.size inb_S1000x512_S1000x512_0_0
abbrev r10_1 : Rect S512x262 := Rect.unit (s := S512x262) ![0, 0] S512x262.size inb_S512x262_S512x262_0_0
abbrev r10_2 : Rect S1000x262 := Rect.unit (s := S1000x262) ![0, 0] S1000x262.size inb_S1000x262_S1000x262_0_0

/-! ## What the body leaves in the output window's buffer -/

/-- Window 2's staging buffer after the body, from the input windows' blocks: its one store. -/
def out10_2 (x0 : Vec F S1000x512 .f32) (x1 : Vec F S512x262 .f32) : Vec F S1000x262 .f32 :=
  View.canon [⟨r10_2, k10_pay1 (View.ld x0 r10_0) (View.ld x1 r10_1)⟩]

/-- The store tiles the buffer, so it covers it. -/
theorem cover10_2 (p0 : Vec F S1000x262 .f32) (y : S1000x262.Idx) :
    ∃ pc ∈ ([⟨r10_2, p0⟩] : List (View.Piece (Elt F) S1000x262 .f32)), y ∈ pc.1.set :=
  View.cover_of_tiled [⟨r10_2, p0⟩] S1000x262.size (by rfl) y

/-! ## The body's triple -/

set_option maxHeartbeats 1000000 in
/-- The kernel body on whole staging memrefs, the inputs' at read contents x0, x1 and the output's at anything, runs to
    the continuation holding the inputs' as they were and the output's at out10_2 of the inputs'. -/
theorem sound_kernel10 (c : Dev nD) (E : Set ℕ) (i : grid10.Coords)
    (arg0 : Memref sig .tc .vmem S1000x512 .f32) (harg0 : arg0.IsWhole)
    (arg1 : Memref sig .tc .vmem S512x262 .f32) (harg1 : arg1.IsWhole)
    (arg2 : Memref sig .tc .vmem S1000x262 .f32) (harg2 : arg2.IsWhole)
    (x0 : Vec F S1000x512 .f32) (x1 : Vec F S512x262 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out10_2 x0 x1)) -∗ K ⟨⟩))
      ⊢ wp frame (wpE (defs₀ (F := F)) Variants.none c none) E (cc10__matmul_kernel i arg0 harg0 arg1 harg1 arg2 harg2) K := by
  simp only [cc10__matmul_kernel_eq_skeleton]; unfold cc10__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core c: the arrays as the region finds them; after the body at point t each
    input's buffer at its block and the output's at out10_2 of the input blocks; the class's invariant; nothing owed;
    full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so sound_kernel10 applies; the invariant and
    the core's owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.PreFacts.lean ====
/-
  What the precondition says of the row indices: every entry of row 0 of the edge-index table, read as an
  unsigned word, is below 50000. The precondition is a conjunction of reductions by "and"; its last two conjuncts
  are "every row index is at least 0 (signed)" and "every row index is below 50000 (signed)"; a signed word in
  [0, 50000) is below 50000 unsigned.
-/
import proofs.«414392_j7919919694132_2_alg».proof.Pre_finite_inputs
import proofs.«414392_j7919919694132_2_alg».proof.Proof.Gen.Pre_finite_inputs
import Idealize.ShloMosaic.Lib.ReduceAll
import Idealize.ShloMosaic.Lib.ValueIdx
import Idealize.ShloMosaic.Lib.StableHlo.Predicate
import Idealize.ShloMosaic.Lib.Pipeline.Value

noncomputable section

namespace Cert.Hand.PreFacts

open Idealize.ShloMosaic Cert.Pre_finite_inputs

instance subsingleton_scalar_idx : Subsingleton S_.Idx := ⟨fun a b => funext fun d => d.elim0⟩

/-- A word in [0, 50000) signed is below 50000 unsigned. -/
theorem toNat_lt (w : BitVec 32) (h0 : IntOp.cmpi .sge w (0#32) = 1#1) (h1 : IntOp.cmpi .slt w (50000#32) = 1#1) :
    w.toNat < 50000 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

variable [Cert.Pre_finite_inputs.Facts]

/-- Row 0 of the edge-index table as a vector of 400000 words. -/
def rowOf (a1 : IVec S2x400000 32) : IVec S400000 32 :=
  shapeCast S400000 (extractStridedSlice S1x400000 ![0, 0] a1 Facts.slices_S2x400000_S1x400000_0_0)
    Facts.shapeCasts_S1x400000_S400000

/-- Entry e of row 0 is the table at (0, e). -/
theorem rowOf_apply (a1 : IVec S2x400000 32) (e : Fin 400000) :
    rowOf a1 (ValueIdx.ix1 e) = a1 (ValueIdx.ix2 (0 : Fin 2) e) := by
  unfold rowOf
  refine (shapeCast_apply _ _ (ValueIdx.ix1 e) (ValueIdx.ix2 (0 : Fin 1) e) ?_).trans ?_
  · rw [Shape.rowMajor_val_two, Shape.rowMajor_val_one]
    show 0 * 400000 + e.val = e.val
    omega
  · refine extractStridedSlice_apply _ _ _ _ (ValueIdx.ix2 (0 : Fin 2) e) ?_
    intro a
    match a with
    | ⟨0, _⟩ => rfl
    | ⟨1, _⟩ => show e.val = 0 + e.val; omega

/-- Under the precondition every row index is below 50000. -/
theorem rowOf_lt {F : FTy → Type} [FloatOps F]
    (a0 : FVec F S50000x262 .f32) (a1 : IVec S2x400000 32) (a2 : FVec F S400000 .f32) (a3 : FVec F S262x512 .f32)
    (a4 : FVec F S512 .f32) (a5 : FVec F S512x262 .f32) (a6 : FVec F S262 .f32)
    (h : Cert.Pre_finite_inputs.fn (F := F) a0 a1 a2 a3 a4 a5 a6 = fun _ => 1#1) (e : Fin 400000) :
    (rowOf a1 (ValueIdx.ix1 e)).toNat < 50000 := by
  have e0 := congrFun h ValueIdx.ix0
  have e1 : IntOp.andi (IntOp.andi _
      (Host.reduce IntOp.andi
        (cmpi .sge (rowOf a1) (broadcastInDim S400000 ![] Facts.bcast_S_S400000 (constantI S_ 32 0#32)))
        (constantI S_ 1 1#1) Facts.reducesTo_S400000_S_d0 Facts.h_S_ ValueIdx.ix0))
      (Host.reduce IntOp.andi
        (cmpi .slt (rowOf a1) (broadcastInDim S400000 ![] Facts.bcast_S_S400000 (constantI S_ 32 50000#32)))
        (constantI S_ 1 1#1) Facts.reducesTo_S400000_S_d0 Facts.h_S_ ValueIdx.ix0) = 1#1 := e0
  obtain ⟨e2, e39⟩ := IntOp.andi_eq_one.1 e1
  obtain ⟨_, e33⟩ := IntOp.andi_eq_one.1 e2
  have g33 := Host.reduce_andi_all _ _ _ _ _ e33 (ValueIdx.ix1 e)
  have g39 := Host.reduce_andi_all _ _ _ _ _ e39 (ValueIdx.ix1 e)
  exact toNat_lt _ g33 g39

/-- Under the precondition every entry of row 0 of the edge-index table is below 50000. -/
theorem row_lt {F : FTy → Type} [FloatOps F]
    (a0 : FVec F S50000x262 .f32) (a1 : IVec S2x400000 32) (a2 : FVec F S400000 .f32) (a3 : FVec F S262x512 .f32)
    (a4 : FVec F S512 .f32) (a5 : FVec F S512x262 .f32) (a6 : FVec F S262 .f32)
    (h : Cert.Pre_finite_inputs.fn (F := F) a0 a1 a2 a3 a4 a5 a6 = fun _ => 1#1) (e : Fin 400000) :
    (a1 (ValueIdx.ix2 (0 : Fin 2) e)).toNat < 50000 := by
  rw [← rowOf_apply a1 e]
  exact rowOf_lt a0 a1 a2 a3 a4 a5 a6 h e

end Cert.Hand.PreFacts

end
-- ==== Proof.Tables.lean ====
/-
  The nine row tables of the gather calls as pure functions of the launch memory, and that every word of
  every table is below 50000. The row vector is row 0 of the edge-index table (400000 words) followed by the
  self-loop rows 0, 1, …, 49999; table k is its words [50000 k, 50000 (k + 1)). Under the precondition the first
  400000 words are below 50000; the last 50000 are their own positions. A word below 50000 names a row of the
  [50000, D] operand: the row block it names fits.
-/
import proofs.«414392_j7919919694132_2_alg».proof.Defs
import proofs.«414392_j7919919694132_2_alg».proof.Proof.Gen.KernelIdeal.Launch
import proofs.«414392_j7919919694132_2_alg».proof.Proof.PreFacts

noncomputable section

namespace Cert.KernelIdeal.Hand

open Cert.KernelIdeal Cert.KernelIdeal.Gen
open Cert.KernelIdeal.Facts
open Idealize.ShloMosaic Idealize.ShloMosaic.TcCoe Idealize.SL.Sem

variable {F : FTy → Type} [FloatOps F]
variable (m : (ℓ : Loc nD τ sig) → Buf (Elt F) ℓ)

/-- The edge-index table of device c. -/
abbrev edgeIdx (c : Dev nD) : IVec S2x400000 32 := m ((c : Thread nD τ).loc main_arg1)

/-- The row vector: row 0 of the edge-index table, then the self-loop rows 0 … 49999. -/
def rowVec (c : Dev nD) : IVec S450000 32 :=
  concatenate S450000 0
    [⟨S400000, shapeCast S400000 (extractStridedSlice S1x400000 ![0, 0] (edgeIdx m c) slices_S2x400000_S1x400000_0_0)
        shapeCasts_S1x400000_S400000⟩,
     ⟨S50000, iotaInDim S50000 32 0⟩]
    concatenates_S400000_S50000_S450000_d0

/-- Table k: words [50000 k, 50000 (k + 1)) of the row vector. -/
def tbl0 (c : Dev nD) : IVec S50000 32 := extractStridedSlice S50000 ![0] (rowVec m c) slices_S450000_S50000_0
def tbl1 (c : Dev nD) : IVec S50000 32 := extractStridedSlice S50000 ![50000] (rowVec m c) slices_S450000_S50000_50000
def tbl2 (c : Dev nD) : IVec S50000 32 := extractStridedSlice S50000 ![100000] (rowVec m c) slices_S450000_S50000_100000
def tbl3 (c : Dev nD) : IVec S50000 32 := extractStridedSlice S50000 ![150000] (rowVec m c) slices_S450000_S50000_150000
def tbl4 (c : Dev nD) : IVec S50000 32 := extractStridedSlice S50000 ![200000] (rowVec m c) slices_S450000_S50000_200000
def tbl5 (c : Dev nD) : IVec S50000 32 := extractStridedSlice S50000 ![250000] (rowVec m c) slices_S450000_S50000_250000
def tbl6 (c : Dev nD) : IVec S50000 32 := extractStridedSlice S50000 ![300000] (rowVec m c) slices_S450000_S50000_300000
def tbl7 (c : Dev nD) : IVec S50000 32 := extractStridedSlice S50000 ![350000] (rowVec m c) slices_S450000_S50000_350000
def tbl8 (c : Dev nD) : IVec S50000 32 := extractStridedSlice S50000 ![400000] (rowVec m c) slices_S450000_S50000_400000

/-- Every word of the row vector is below 50000: the first 400000 by the precondition, the others are their positions. -/
theorem rowVec_lt (c : Dev nD)
    (hpre : Cert.Pre_finite_inputs.fn (F := F) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1)
    (e : Fin 450000) : (rowVec m c (ValueIdx.ix1 e)).toNat < 50000 := by
  unfold rowVec
  by_cases he : e.val < 400000
  · rw [concatenate_pair_apply_left (t := S450000) (s₁ := S400000) (s₂ := S50000) (0 : Fin S450000.rank) _ _ _ (ValueIdx.ix1 e) rfl (ValueIdx.ix1 (⟨e.val, he⟩ : Fin 400000))
      (fun b => match b with | ⟨0, _⟩ => rfl)]
    exact Cert.Hand.PreFacts.rowOf_lt _ _ _ _ _ _ _ hpre ⟨e.val, he⟩
  · have h5 : e.val - 400000 < 50000 := by have := e.isLt; omega
    rw [concatenate_pair_apply_right (t := S450000) (s₁ := S400000) (s₂ := S50000) (0 : Fin S450000.rank) _ _ _ (ValueIdx.ix1 e) rfl rfl
      (ValueIdx.ix1 (⟨e.val - 400000, h5⟩ : Fin 50000))
      (fun b hb => absurd (Fin.ext (by have hb1 : b.val < 1 := b.isLt; show b.val = 0; omega)) hb)
      (by show e.val - 400000 + 400000 = e.val; omega)]
    show (BitVec.ofNat 32 (e.val - 400000)).toNat < 50000
    rw [BitVec.toNat_ofNat]
    exact Nat.lt_of_le_of_lt (Nat.mod_le _ _) h5

/-- A slice of a vector of words below 50000 has its words below 50000. -/
theorem slice_lt (x : IVec S450000 32) (hx : ∀ e : Fin 450000, (x (ValueIdx.ix1 e)).toNat < 50000) (off : Nat)
    (h : S450000.Slices ![off] S50000) (j : Fin 50000) :
    (extractStridedSlice S50000 ![off] x h (ValueIdx.ix1 j)).toNat < 50000 := by
  unfold extractStridedSlice
  generalize (fun a : Fin S450000.rank => (⟨![off] a + (ValueIdx.ix1 j (a.cast h.1.symm)).val, _⟩ : Fin (S450000.size a))) = k
  rw [ValueIdx.eq_ix1 k]
  exact hx _

section Tables
variable (c : Dev nD)
  (hpre : Cert.Pre_finite_inputs.fn (F := F) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = fun _ => 1#1)
include hpre

theorem tbl0_lt (j : Fin 50000) : (tbl0 m c (ValueIdx.ix1 j)).toNat < 50000 := slice_lt _ (rowVec_lt m c hpre) _ _ j
theorem tbl1_lt (j : Fin 50000) : (tbl1 m c (ValueIdx.ix1 j)).toNat < 50000 := slice_lt _ (rowVec_lt m c hpre) _ _ j
theorem tbl2_lt (j : Fin 50000) : (tbl2 m c (ValueIdx.ix1 j)).toNat < 50000 := slice_lt _ (rowVec_lt m c hpre) _ _ j
theorem tbl3_lt (j : Fin 50000) : (tbl3 m c (ValueIdx.ix1 j)).toNat < 50000 := slice_lt _ (rowVec_lt m c hpre) _ _ j
theorem tbl4_lt (j : Fin 50000) : (tbl4 m c (ValueIdx.ix1 j)).toNat < 50000 := slice_lt _ (rowVec_lt m c hpre) _ _ j
theorem tbl5_lt (j : Fin 50000) : (tbl5 m c (ValueIdx.ix1 j)).toNat < 50000 := slice_lt _ (rowVec_lt m c hpre) _ _ j
theorem tbl6_lt (j : Fin 50000) : (tbl6 m c (ValueIdx.ix1 j)).toNat < 50000 := slice_lt _ (rowVec_lt m c hpre) _ _ j
theorem tbl7_lt (j : Fin 50000) : (tbl7 m c (ValueIdx.ix1 j)).toNat < 50000 := slice_lt _ (rowVec_lt m c hpre) _ _ j
theorem tbl8_lt (j : Fin 50000) : (tbl8 m c (ValueIdx.ix1 j)).toNat < 50000 := slice_lt _ (rowVec_lt m c hpre) _ _ j

end Tables

/-! ## The side conditions the gather bodies assume of a loaded word -/

/-- A word below 50000 names a row of the [50000, 512] operand: the [1, 512] block at that row fits. -/
theorem inb512 (w : BitVec 32) (hw : w.toNat < 50000) :
    ∀ a, (![w.toNat, 0] : Fin 2 → Nat) a + S1x512.size a ≤ S50000x512.size a := by
  intro a
  fin_cases a <;> simp [S1x512, S50000x512] <;> omega

/-- A word below 50000 names a row of the [50000, 262] operand: the [1, 262] block at that row fits. -/
theorem inb262 (w : BitVec 32) (hw : w.toNat < 50000) :
    ∀ a, (![w.toNat, 0] : Fin 2 → Nat) a + S1x262.size a ≤ S50000x262.size a := by
  intro a
  fin_cases a <;> simp [S1x262, S50000x262] <;> omega

theorem k1_chk1_of_lt (w : BitVec 32) (hw : w.toNat < 50000) : k1_chk1 w := ⟨inb512 w hw, inb512 w hw⟩
theorem k1_chk2_of_lt (w : BitVec 32) (hw : w.toNat < 50000) : k1_chk2 w := ⟨inb512 w hw, inb512 w hw⟩
theorem k1_chk3_of_lt (w : BitVec 32) (hw : w.toNat < 50000) : k1_chk3 w := ⟨inb512 w hw, inb512 w hw⟩
theorem k1_chk4_of_lt (w : BitVec 32) (hw : w.toNat < 50000) : k1_chk4 w := ⟨inb512 w hw, inb512 w hw⟩
theorem k1_chk5_of_lt (w : BitVec 32) (hw : w.toNat < 50000) : k1_chk5 w := ⟨inb512 w hw, inb512 w hw⟩
theorem k1_chk6_of_lt (w : BitVec 32) (hw : w.toNat < 50000) : k1_chk6 w := ⟨inb512 w hw, inb512 w hw⟩
theorem k1_chk7_of_lt (w : BitVec 32) (hw : w.toNat < 50000) : k1_chk7 w := ⟨inb512 w hw, inb512 w hw⟩
theorem k1_chk8_of_lt (w : BitVec 32) (hw : w.toNat < 50000) : k1_chk8 w := ⟨inb512 w hw, inb512 w hw⟩
theorem k1_chk9_of_lt (w : BitVec 32) (hw : w.toNat < 50000) : k1_chk9 w := ⟨inb512 w hw, inb512 w hw⟩
theorem k1_chk10_of_lt (w : BitVec 32) (hw : w.toNat < 50000) : k1_chk10 w := ⟨inb512 w hw, inb512 w hw⟩
theorem k1_chk11_of_lt (w : BitVec 32) (hw : w.toNat < 50000) : k1_chk11 w := ⟨inb512 w hw, inb512 w hw⟩
theorem k1_chk12_of_lt (w : BitVec 32) (hw : w.toNat < 50000) : k1_chk12 w := ⟨inb512 w hw, inb512 w hw⟩
theorem k1_chk13_of_lt (w : BitVec 32) (hw : w.toNat < 50000) : k1_chk13 w := ⟨inb512 w hw, inb512 w hw⟩
theorem k1_chk14_of_lt (w : BitVec 32) (hw : w.toNat < 50000) : k1_chk14 w := ⟨inb512 w hw, inb512 w hw⟩
theorem k1_chk15_of_lt (w : BitVec 32) (hw : w.toNat < 50000) : k1_chk15 w := ⟨inb512 w hw, inb512 w hw⟩
theorem k1_chk16_of_lt (w : BitVec 32) (hw : w.toNat < 50000) : k1_chk16 w := inb512 w hw
theorem k2_chk1_of_lt (w : BitVec 32) (hw : w.toNat < 50000) : k2_chk1 w := ⟨inb512 w hw, inb512 w hw⟩
theorem k2_chk2_of_lt (w : BitVec 32) (hw : w.toNat < 50000) : k2_chk2 w := ⟨inb512 w hw, inb512 w hw⟩
theorem k2_chk3_of_lt (w : BitVec 32) (hw : w.toNat < 50000) : k2_chk3 w := ⟨inb512 w hw, inb512 w hw⟩
theorem k2_chk4_of_lt (w : BitVec 32) (hw : w.toNat < 50000) : k2_chk4 w := ⟨inb512 w hw, inb512 w hw⟩
theorem k2_chk5_of_lt (w : BitVec 32) (hw : w.toNat < 50000) : k2_chk5 w := ⟨inb512 w hw, inb512 w hw⟩
theorem k2_chk6_of_lt (w : BitVec 32) (hw : w.toNat < 50000) : k2_chk6 w := ⟨inb512 w hw, inb512 w hw⟩
theorem k2_chk7_of_lt (w : BitVec 32) (hw : w.toNat < 50000) : k2_chk7 w := ⟨inb512 w hw, inb512 w hw⟩
theorem k2_chk8_of_lt (w : BitVec 32) (hw : w.toNat < 50000) : k2_chk8 w := ⟨inb512 w hw, inb512 w hw⟩
theorem k2_chk9_of_lt (w : BitVec 32) (hw : w.toNat < 50000) : k2_chk9 w := ⟨inb512 w hw, inb512 w hw⟩
theorem k2_chk10_of_lt (w : BitVec 32) (hw : w.toNat < 50000) : k2_chk10 w := ⟨inb512 w hw, inb512 w hw⟩
theorem k2_chk11_of_lt (w : BitVec 32) (hw : w.toNat < 50000) : k2_chk11 w := ⟨inb512 w hw, inb512 w hw⟩
theorem k2_chk12_of_lt (w : BitVec 32) (hw : w.toNat < 50000) : k2_chk12 w := ⟨inb512 w hw, inb512 w hw⟩
theorem k2_chk13_of_lt (w : BitVec 32) (hw : w.toNat < 50000) : k2_chk13 w := ⟨inb512 w hw, inb512 w hw⟩
theorem k2_chk14_of_lt (w : BitVec 32) (hw : w.toNat < 50000) : k2_chk14 w := ⟨inb512 w hw, inb512 w hw⟩
theorem k2_chk15_of_lt (w : BitVec 32) (hw : w.toNat < 50000) : k2_chk15 w := ⟨inb512 w hw, inb512 w hw⟩
theorem k2_chk16_of_lt (w : BitVec 32) (hw : w.toNat < 50000) : k2_chk16 w := inb512 w hw
theorem k3_chk1_of_lt (w : BitVec 32) (hw : w.toNat < 50000) : k3_chk1 w := ⟨inb512 w hw, inb512 w hw⟩
theorem k3_chk2_of_lt (w : BitVec 32) (hw : w.toNat < 50000) : k3_chk2 w := ⟨inb512 w hw, inb512 w hw⟩
theorem k3_chk3_of_lt (w : BitVec 32) (hw : w.toNat < 50000) : k3_chk3 w := ⟨inb512 w hw, inb512 w hw⟩
theorem k3_chk4_of_lt (w : BitVec 32) (hw : w.toNat < 50000) : k3_chk4 w := ⟨inb512 w hw, inb512 w hw⟩
theorem k3_chk5_of_lt (w : BitVec 32) (hw : w.toNat < 50000) : k3_chk5 w := ⟨inb512 w hw, inb512 w hw⟩
theorem k3_chk6_of_lt (w : BitVec 32) (hw : w.toNat < 50000) : k3_chk6 w := ⟨inb512 w hw, inb512 w hw⟩
theorem k3_chk7_of_lt (w : BitVec 32) (hw : w.toNat < 50000) : k3_chk7 w := ⟨inb512 w hw, inb512 w hw⟩
theorem k3_chk8_of_lt (w : BitVec 32) (hw : w.toNat < 50000) : k3_chk8 w := ⟨inb512 w hw, inb512 w hw⟩
theorem k3_chk9_of_lt (w : BitVec 32) (hw : w.toNat < 50000) : k3_chk9 w := ⟨inb512 w hw, inb512 w hw⟩
theorem k3_chk10_of_lt (w : BitVec 32) (hw : w.toNat < 50000) : k3_chk10 w := ⟨inb512 w hw, inb512 w hw⟩
theorem k3_chk11_of_lt (w : BitVec 32) (hw : w.toNat < 50000) : k3_chk11 w := ⟨inb512 w hw, inb512 w hw⟩
theorem k3_chk12_of_lt (w : BitVec 32) (hw : w.toNat < 50000) : k3_chk12 w := ⟨inb512 w hw, inb512 w hw⟩
theorem k3_chk13_of_lt (w : BitVec 32) (hw : w.toNat < 50000) : k3_chk13 w := ⟨inb512 w hw, inb512 w hw⟩
theorem k3_chk14_of_lt (w : BitVec 32) (hw : w.toNat < 50000) : k3_chk14 w := ⟨inb512 w hw, inb512 w hw⟩
theorem k3_chk15_of_lt (w : BitVec 32) (hw : w.toNat < 50000) : k3_chk15 w := ⟨inb512 w hw, inb512 w hw⟩
theorem k3_chk16_of_lt (w : BitVec 32) (hw : w.toNat < 50000) : k3_chk16 w := inb512 w hw
theorem k4_chk1_of_lt (w : BitVec 32) (hw : w.toNat < 50000) : k4_chk1 w := ⟨inb512 w hw, inb512 w hw⟩
theorem k4_chk2_of_lt (w : BitVec 32) (hw : w.toNat < 50000) : k4_chk2 w := ⟨inb512 w hw, inb512 w hw⟩
theorem k4_chk3_of_lt (w : BitVec 32) (hw : w.toNat < 50000) : k4_chk3 w := ⟨inb512 w hw, inb512 w hw⟩
theorem k4_chk4_of_lt (w : BitVec 32) (hw : w.toNat < 50000) : k4_chk4 w := ⟨inb512 w hw, inb512 w hw⟩
theorem k4_chk5_of_lt (w : BitVec 32) (hw : w.toNat < 50000) : k4_chk5 w := ⟨inb512 w hw, inb512 w hw⟩
theorem k4_chk6_of_lt (w : BitVec 32) (hw : w.toNat < 50000) : k4_chk6 w := ⟨inb512 w hw, inb512 w hw⟩
theorem k4_chk7_of_lt (w : BitVec 32) (hw : w.toNat < 50000) : k4_chk7 w := ⟨inb512 w hw, inb512 w hw⟩
theorem k4_chk8_of_lt (w : BitVec 32) (hw : w.toNat < 50000) : k4_chk8 w := ⟨inb512 w hw, inb512 w hw⟩
theorem k4_chk9_of_lt (w : BitVec 32) (hw : w.toNat < 50000) : k4_chk9 w := ⟨inb512 w hw, inb512 w hw⟩
theorem k4_chk10_of_lt (w : BitVec 32) (hw : w.toNat < 50000) : k4_chk10 w := ⟨inb512 w hw, inb512 w hw⟩
theorem k4_chk11_of_lt (w : BitVec 32) (hw : w.toNat < 50000) : k4_chk11 w := ⟨inb512 w hw, inb512 w hw⟩
theorem k4_chk12_of_lt (w : BitVec 32) (hw : w.toNat < 50000) : k4_chk12 w := ⟨inb512 w hw, inb512 w hw⟩
theorem k4_chk13_of_lt (w : BitVec 32) (hw : w.toNat < 50000) : k4_chk13 w := ⟨inb512 w hw, inb512 w hw⟩
theorem k4_chk14_of_lt (w : BitVec 32) (hw : w.toNat < 50000) : k4_chk14 w := ⟨inb512 w hw, inb512 w hw⟩
theorem k4_chk15_of_lt (w : BitVec 32) (hw : w.toNat < 50000) : k4_chk15 w := ⟨inb512 w hw, inb512 w hw⟩
theorem k4_chk16_of_lt (w : BitVec 32) (hw : w.toNat < 50000) : k4_chk16 w := inb512 w hw
theorem k5_chk1_of_lt (w : BitVec 32) (hw : w.toNat < 50000) : k5_chk1 w := ⟨inb512 w hw, inb512 w hw⟩
theorem k5_chk2_of_lt (w : BitVec 32) (hw : w.toNat < 50000) : k5_chk2 w := ⟨inb512 w hw, inb512 w hw⟩
theorem k5_chk3_of_lt (w : BitVec 32) (hw : w.toNat < 50000) : k5_chk3 w := ⟨inb512 w hw, inb512 w hw⟩
theorem k5_chk4_of_lt (w : BitVec 32) (hw : w.toNat < 50000) : k5_chk4 w := ⟨inb512 w hw, inb512 w hw⟩
theorem k5_chk5_of_lt (w : BitVec 32) (hw : w.toNat < 50000) : k5_chk5 w := ⟨inb512 w hw, inb512 w hw⟩
theorem k5_chk6_of_lt (w : BitVec 32) (hw : w.toNat < 50000) : k5_chk6 w := ⟨inb512 w hw, inb512 w hw⟩
theorem k5_chk7_of_lt (w : BitVec 32) (hw : w.toNat < 50000) : k5_chk7 w := ⟨inb512 w hw, inb512 w hw⟩
theorem k5_chk8_of_lt (w : BitVec 32) (hw : w.toNat < 50000) : k5_chk8 w := ⟨inb512 w hw, inb512 w hw⟩
theorem k5_chk9_of_lt (w : BitVec 32) (hw : w.toNat < 50000) : k5_chk9 w := ⟨inb512 w hw, inb512 w hw⟩
theorem k5_chk10_of_lt (w : BitVec 32) (hw : w.toNat < 50000) : k5_chk10 w := ⟨inb512 w hw, inb512 w hw⟩
theorem k5_chk11_of_lt (w : BitVec 32) (hw : w.toNat < 50000) : k5_chk11 w := ⟨inb512 w hw, inb512 w hw⟩
theorem k5_chk12_of_lt (w : BitVec 32) (hw : w.toNat < 50000) : k5_chk12 w := ⟨inb512 w hw, inb512 w hw⟩
theorem k5_chk13_of_lt (w : BitVec 32) (hw : w.toNat < 50000) : k5_chk13 w := ⟨inb512 w hw, inb512 w hw⟩
theorem k5_chk14_of_lt (w : BitVec 32) (hw : w.toNat < 50000) : k5_chk14 w := ⟨inb512 w hw, inb512 w hw⟩
theorem k5_chk15_of_lt (w : BitVec 32) (hw : w.toNat < 50000) : k5_chk15 w := ⟨inb512 w hw, inb512 w hw⟩
theorem k5_chk16_of_lt (w : BitVec 32) (hw : w.toNat < 50000) : k5_chk16 w := inb512 w hw
theorem k6_chk1_of_lt (w : BitVec 32) (hw : w.toNat < 50000) : k6_chk1 w := ⟨inb512 w hw, inb512 w hw⟩
theorem k6_chk2_of_lt (w : BitVec 32) (hw : w.toNat < 50000) : k6_chk2 w := ⟨inb512 w hw, inb512 w hw⟩
theorem k6_chk3_of_lt (w : BitVec 32) (hw : w.toNat < 50000) : k6_chk3 w := ⟨inb512 w hw, inb512 w hw⟩
theorem k6_chk4_of_lt (w : BitVec 32) (hw : w.toNat < 50000) : k6_chk4 w := ⟨inb512 w hw, inb512 w hw⟩
theorem k6_chk5_of_lt (w : BitVec 32) (hw : w.toNat < 50000) : k6_chk5 w := ⟨inb512 w hw, inb512 w hw⟩
theorem k6_chk6_of_lt (w : BitVec 32) (hw : w.toNat < 50000) : k6_chk6 w := ⟨inb512 w hw, inb512 w hw⟩
theorem k6_chk7_of_lt (w : BitVec 32) (hw : w.toNat < 50000) : k6_chk7 w := ⟨inb512 w hw, inb512 w hw⟩
theorem k6_chk8_of_lt (w : BitVec 32) (hw : w.toNat < 50000) : k6_chk8 w := ⟨inb512 w hw, inb512 w hw⟩
theorem k6_chk9_of_lt (w : BitVec 32) (hw : w.toNat < 50000) : k6_chk9 w := ⟨inb512 w hw, inb512 w hw⟩
theorem k6_chk10_of_lt (w : BitVec 32) (hw : w.toNat < 50000) : k6_chk10 w := ⟨inb512 w hw, inb512 w hw⟩
theorem k6_chk11_of_lt (w : BitVec 32) (hw : w.toNat < 50000) : k6_chk11 w := ⟨inb512 w hw, inb512 w hw⟩
theorem k6_chk12_of_lt (w : BitVec 32) (hw : w.toNat < 50000) : k6_chk12 w := ⟨inb512 w hw, inb512 w hw⟩
theorem k6_chk13_of_lt (w : BitVec 32) (hw : w.toNat < 50000) : k6_chk13 w := ⟨inb512 w hw, inb512 w hw⟩
theorem k6_chk14_of_lt (w : BitVec 32) (hw : w.toNat < 50000) : k6_chk14 w := ⟨inb512 w hw, inb512 w hw⟩
theorem k6_chk15_of_lt (w : BitVec 32) (hw : w.toNat < 50000) : k6_chk15 w := ⟨inb512 w hw, inb512 w hw⟩
theorem k6_chk16_of_lt (w : BitVec 32) (hw : w.toNat < 50000) : k6_chk16 w := inb512 w hw
theorem k7_chk1_of_lt (w : BitVec 32) (hw : w.toNat < 50000) : k7_chk1 w := ⟨inb512 w hw, inb512 w hw⟩
theorem k7_chk2_of_lt (w : BitVec 32) (hw : w.toNat < 50000) : k7_chk2 w := ⟨inb512 w hw, inb512 w hw⟩
theorem k7_chk3_of_lt (w : BitVec 32) (hw : w.toNat < 50000) : k7_chk3 w := ⟨inb512 w hw, inb512 w hw⟩
theorem k7_chk4_of_lt (w : BitVec 32) (hw : w.toNat < 50000) : k7_chk4 w := ⟨inb512 w hw, inb512 w hw⟩
theorem k7_chk5_of_lt (w : BitVec 32) (hw : w.toNat < 50000) : k7_chk5 w := ⟨inb512 w hw, inb512 w hw⟩
theorem k7_chk6_of_lt (w : BitVec 32) (hw : w.toNat < 50000) : k7_chk6 w := ⟨inb512 w hw, inb512 w hw⟩
theorem k7_chk7_of_lt (w : BitVec 32) (hw : w.toNat < 50000) : k7_chk7 w := ⟨inb512 w hw, inb512 w hw⟩
theorem k7_chk8_of_lt (w : BitVec 32) (hw : w.toNat < 50000) : k7_chk8 w := ⟨inb512 w hw, inb512 w hw⟩
theorem k7_chk9_of_lt (w : BitVec 32) (hw : w.toNat < 50000) : k7_chk9 w := ⟨inb512 w hw, inb512 w hw⟩
theorem k7_chk10_of_lt (w : BitVec 32) (hw : w.toNat < 50000) : k7_chk10 w := ⟨inb512 w hw, inb512 w hw⟩
theorem k7_chk11_of_lt (w : BitVec 32) (hw : w.toNat < 50000) : k7_chk11 w := ⟨inb512 w hw, inb512 w hw⟩
theorem k7_chk12_of_lt (w : BitVec 32) (hw : w.toNat < 50000) : k7_chk12 w := ⟨inb512 w hw, inb512 w hw⟩
theorem k7_chk13_of_lt (w : BitVec 32) (hw : w.toNat < 50000) : k7_chk13 w := ⟨inb512 w hw, inb512 w hw⟩
theorem k7_chk14_of_lt (w : BitVec 32) (hw : w.toNat < 50000) : k7_chk14 w := ⟨inb512 w hw, inb512 w hw⟩
theorem k7_chk15_of_lt (w : BitVec 32) (hw : w.toNat < 50000) : k7_chk15 w := ⟨inb512 w hw, inb512 w hw⟩
theorem k7_chk16_of_lt (w : BitVec 32) (hw : w.toNat < 50000) : k7_chk16 w := inb512 w hw
theorem k8_chk1_of_lt (w : BitVec 32) (hw : w.toNat < 50000) : k8_chk1 w := ⟨inb512 w hw, inb512 w hw⟩
theorem k8_chk2_of_lt (w : BitVec 32) (hw : w.toNat < 50000) : k8_chk2 w := ⟨inb512 w hw, inb512 w hw⟩
theorem k8_chk3_of_lt (w : BitVec 32) (hw : w.toNat < 50000) : k8_chk3 w := ⟨inb512 w hw, inb512 w hw⟩
theorem k8_chk4_of_lt (w : BitVec 32) (hw : w.toNat < 50000) : k8_chk4 w := ⟨inb512 w hw, inb512 w hw⟩
theorem k8_chk5_of_lt (w : BitVec 32) (hw : w.toNat < 50000) : k8_chk5 w := ⟨inb512 w hw, inb512 w hw⟩
theorem k8_chk6_of_lt (w : BitVec 32) (hw : w.toNat < 50000) : k8_chk6 w := ⟨inb512 w hw, inb512 w hw⟩
theorem k8_chk7_of_lt (w : BitVec 32) (hw : w.toNat < 50000) : k8_chk7 w := ⟨inb512 w hw, inb512 w hw⟩
theorem k8_chk8_of_lt (w : BitVec 32) (hw : w.toNat < 50000) : k8_chk8 w := ⟨inb512 w hw, inb512 w hw⟩
theorem k8_chk9_of_lt (w : BitVec 32) (hw : w.toNat < 50000) : k8_chk9 w := ⟨inb512 w hw, inb512 w hw⟩
theorem k8_chk10_of_lt (w : BitVec 32) (hw : w.toNat < 50000) : k8_chk10 w := ⟨inb512 w hw, inb512 w hw⟩
theorem k8_chk11_of_lt (w : BitVec 32) (hw : w.toNat < 50000) : k8_chk11 w := ⟨inb512 w hw, inb512 w hw⟩
theorem k8_chk12_of_lt (w : BitVec 32) (hw : w.toNat < 50000) : k8_chk12 w := ⟨inb512 w hw, inb512 w hw⟩
theorem k8_chk13_of_lt (w : BitVec 32) (hw : w.toNat < 50000) : k8_chk13 w := ⟨inb512 w hw, inb512 w hw⟩
theorem k8_chk14_of_lt (w : BitVec 32) (hw : w.toNat < 50000) : k8_chk14 w := ⟨inb512 w hw, inb512 w hw⟩
theorem k8_chk15_of_lt (w : BitVec 32) (hw : w.toNat < 50000) : k8_chk15 w := ⟨inb512 w hw, inb512 w hw⟩
theorem k8_chk16_of_lt (w : BitVec 32) (hw : w.toNat < 50000) : k8_chk16 w := inb512 w hw
theorem k9_chk1_of_lt (w : BitVec 32) (hw : w.toNat < 50000) : k9_chk1 w := ⟨inb512 w hw, inb512 w hw⟩
theorem k9_chk2_of_lt (w : BitVec 32) (hw : w.toNat < 50000) : k9_chk2 w := ⟨inb512 w hw, inb512 w hw⟩
theorem k9_chk3_of_lt (w : BitVec 32) (hw : w.toNat < 50000) : k9_chk3 w := ⟨inb512 w hw, inb512 w hw⟩
theorem k9_chk4_of_lt (w : BitVec 32) (hw : w.toNat < 50000) : k9_chk4 w := ⟨inb512 w hw, inb512 w hw⟩
theorem k9_chk5_of_lt (w : BitVec 32) (hw : w.toNat < 50000) : k9_chk5 w := ⟨inb512 w hw, inb512 w hw⟩
theorem k9_chk6_of_lt (w : BitVec 32) (hw : w.toNat < 50000) : k9_chk6 w := ⟨inb512 w hw, inb512 w hw⟩
theorem k9_chk7_of_lt (w : BitVec 32) (hw : w.toNat < 50000) : k9_chk7 w := ⟨inb512 w hw, inb512 w hw⟩
theorem k9_chk8_of_lt (w : BitVec 32) (hw : w.toNat < 50000) : k9_chk8 w := ⟨inb512 w hw, inb512 w hw⟩
theorem k9_chk9_of_lt (w : BitVec 32) (hw : w.toNat < 50000) : k9_chk9 w := ⟨inb512 w hw, inb512 w hw⟩
theorem k9_chk10_of_lt (w : BitVec 32) (hw : w.toNat < 50000) : k9_chk10 w := ⟨inb512 w hw, inb512 w hw⟩
theorem k9_chk11_of_lt (w : BitVec 32) (hw : w.toNat < 50000) : k9_chk11 w := ⟨inb512 w hw, inb512 w hw⟩
theorem k9_chk12_of_lt (w : BitVec 32) (hw : w.toNat < 50000) : k9_chk12 w := ⟨inb512 w hw, inb512 w hw⟩
theorem k9_chk13_of_lt (w : BitVec 32) (hw : w.toNat < 50000) : k9_chk13 w := ⟨inb512 w hw, inb512 w hw⟩
theorem k9_chk14_of_lt (w : BitVec 32) (hw : w.toNat < 50000) : k9_chk14 w := ⟨inb512 w hw, inb512 w hw⟩
theorem k9_chk15_of_lt (w : BitVec 32) (hw : w.toNat < 50000) : k9_chk15 w := ⟨inb512 w hw, inb512 w hw⟩
theorem k9_chk16_of_lt (w : BitVec 32) (hw : w.toNat < 50000) : k9_chk16 w := inb512 w hw
theorem k11_chk1_of_lt (w : BitVec 32) (hw : w.toNat < 50000) : k11_chk1 w := ⟨inb262 w hw, inb262 w hw⟩
theorem k11_chk2_of_lt (w : BitVec 32) (hw : w.toNat < 50000) : k11_chk2 w := ⟨inb262 w hw, inb262 w hw⟩
theorem k11_chk3_of_lt (w : BitVec 32) (hw : w.toNat < 50000) : k11_chk3 w := ⟨inb262 w hw, inb262 w hw⟩
theorem k11_chk4_of_lt (w : BitVec 32) (hw : w.toNat < 50000) : k11_chk4 w := ⟨inb262 w hw, inb262 w hw⟩
theorem k11_chk5_of_lt (w : BitVec 32) (hw : w.toNat < 50000) : k11_chk5 w := ⟨inb262 w hw, inb262 w hw⟩
theorem k11_chk6_of_lt (w : BitVec 32) (hw : w.toNat < 50000) : k11_chk6 w := ⟨inb262 w hw, inb262 w hw⟩
theorem k11_chk7_of_lt (w : BitVec 32) (hw : w.toNat < 50000) : k11_chk7 w := ⟨inb262 w hw, inb262 w hw⟩
theorem k11_chk8_of_lt (w : BitVec 32) (hw : w.toNat < 50000) : k11_chk8 w := ⟨inb262 w hw, inb262 w hw⟩
theorem k11_chk9_of_lt (w : BitVec 32) (hw : w.toNat < 50000) : k11_chk9 w := ⟨inb262 w hw, inb262 w hw⟩
theorem k11_chk10_of_lt (w : BitVec 32) (hw : w.toNat < 50000) : k11_chk10 w := ⟨inb262 w hw, inb262 w hw⟩
theorem k11_chk11_of_lt (w : BitVec 32) (hw : w.toNat < 50000) : k11_chk11 w := ⟨inb262 w hw, inb262 w hw⟩
theorem k11_chk12_of_lt (w : BitVec 32) (hw : w.toNat < 50000) : k11_chk12 w := ⟨inb262 w hw, inb262 w hw⟩
theorem k11_chk13_of_lt (w : BitVec 32) (hw : w.toNat < 50000) : k11_chk13 w := ⟨inb262 w hw, inb262 w hw⟩
theorem k11_chk14_of_lt (w : BitVec 32) (hw : w.toNat < 50000) : k11_chk14 w := ⟨inb262 w hw, inb262 w hw⟩
theorem k11_chk15_of_lt (w : BitVec 32) (hw : w.toNat < 50000) : k11_chk15 w := ⟨inb262 w hw, inb262 w hw⟩
theorem k11_chk16_of_lt (w : BitVec 32) (hw : w.toNat < 50000) : k11_chk16 w := inb262 w hw
theorem k12_chk1_of_lt (w : BitVec 32) (hw : w.toNat < 50000) : k12_chk1 w := ⟨inb262 w hw, inb262 w hw⟩
theorem k12_chk2_of_lt (w : BitVec 32) (hw : w.toNat < 50000) : k12_chk2 w := ⟨inb262 w hw, inb262 w hw⟩
theorem k12_chk3_of_lt (w : BitVec 32) (hw : w.toNat < 50000) : k12_chk3 w := ⟨inb262 w hw, inb262 w hw⟩
theorem k12_chk4_of_lt (w : BitVec 32) (hw : w.toNat < 50000) : k12_chk4 w := ⟨inb262 w hw, inb262 w hw⟩
theorem k12_chk5_of_lt (w : BitVec 32) (hw : w.toNat < 50000) : k12_chk5 w := ⟨inb262 w hw, inb262 w hw⟩
theorem k12_chk6_of_lt (w : BitVec 32) (hw : w.toNat < 50000) : k12_chk6 w := ⟨inb262 w hw, inb262 w hw⟩
theorem k12_chk7_of_lt (w : BitVec 32) (hw : w.toNat < 50000) : k12_chk7 w := ⟨inb262 w hw, inb262 w hw⟩
theorem k12_chk8_of_lt (w : BitVec 32) (hw : w.toNat < 50000) : k12_chk8 w := ⟨inb262 w hw, inb262 w hw⟩
theorem k12_chk9_of_lt (w : BitVec 32) (hw : w.toNat < 50000) : k12_chk9 w := ⟨inb262 w hw, inb262 w hw⟩
theorem k12_chk10_of_lt (w : BitVec 32) (hw : w.toNat < 50000) : k12_chk10 w := ⟨inb262 w hw, inb262 w hw⟩
theorem k12_chk11_of_lt (w : BitVec 32) (hw : w.toNat < 50000) : k12_chk11 w := ⟨inb262 w hw, inb262 w hw⟩
theorem k12_chk12_of_lt (w : BitVec 32) (hw : w.toNat < 50000) : k12_chk12 w := ⟨inb262 w hw, inb262 w hw⟩
theorem k12_chk13_of_lt (w : BitVec 32) (hw : w.toNat < 50000) : k12_chk13 w := ⟨inb262 w hw, inb262 w hw⟩
theorem k12_chk14_of_lt (w : BitVec 32) (hw : w.toNat < 50000) : k12_chk14 w := ⟨inb262 w hw, inb262 w hw⟩
theorem k12_chk15_of_lt (w : BitVec 32) (hw : w.toNat < 50000) : k12_chk15 w := ⟨inb262 w hw, inb262 w hw⟩
theorem k12_chk16_of_lt (w : BitVec 32) (hw : w.toNat < 50000) : k12_chk16 w := inb262 w hw
theorem k13_chk1_of_lt (w : BitVec 32) (hw : w.toNat < 50000) : k13_chk1 w := ⟨inb262 w hw, inb262 w hw⟩
theorem k13_chk2_of_lt (w : BitVec 32) (hw : w.toNat < 50000) : k13_chk2 w := ⟨inb262 w hw, inb262 w hw⟩
theorem k13_chk3_of_lt (w : BitVec 32) (hw : w.toNat < 50000) : k13_chk3 w := ⟨inb262 w hw, inb262 w hw⟩
theorem k13_chk4_of_lt (w : BitVec 32) (hw : w.toNat < 50000) : k13_chk4 w := ⟨inb262 w hw, inb262 w hw⟩
theorem k13_chk5_of_lt (w : BitVec 32) (hw : w.toNat < 50000) : k13_chk5 w := ⟨inb262 w hw, inb262 w hw⟩
theorem k13_chk6_of_lt (w : BitVec 32) (hw : w.toNat < 50000) : k13_chk6 w := ⟨inb262 w hw, inb262 w hw⟩
theorem k13_chk7_of_lt (w : BitVec 32) (hw : w.toNat < 50000) : k13_chk7 w := ⟨inb262 w hw, inb262 w hw⟩
theorem k13_chk8_of_lt (w : BitVec 32) (hw : w.toNat < 50000) : k13_chk8 w := ⟨inb262 w hw, inb262 w hw⟩
theorem k13_chk9_of_lt (w : BitVec 32) (hw : w.toNat < 50000) : k13_chk9 w := ⟨inb262 w hw, inb262 w hw⟩
theorem k13_chk10_of_lt (w : BitVec 32) (hw : w.toNat < 50000) : k13_chk10 w := ⟨inb262 w hw, inb262 w hw⟩
theorem k13_chk11_of_lt (w : BitVec 32) (hw : w.toNat < 50000) : k13_chk11 w := ⟨inb262 w hw, inb262 w hw⟩
theorem k13_chk12_of_lt (w : BitVec 32) (hw : w.toNat < 50000) : k13_chk12 w := ⟨inb262 w hw, inb262 w hw⟩
theorem k13_chk13_of_lt (w : BitVec 32) (hw : w.toNat < 50000) : k13_chk13 w := ⟨inb262 w hw, inb262 w hw⟩
theorem k13_chk14_of_lt (w : BitVec 32) (hw : w.toNat < 50000) : k13_chk14 w := ⟨inb262 w hw, inb262 w hw⟩
theorem k13_chk15_of_lt (w : BitVec 32) (hw : w.toNat < 50000) : k13_chk15 w := ⟨inb262 w hw, inb262 w hw⟩
theorem k13_chk16_of_lt (w : BitVec 32) (hw : w.toNat < 50000) : k13_chk16 w := inb262 w hw
theorem k14_chk1_of_lt (w : BitVec 32) (hw : w.toNat < 50000) : k14_chk1 w := ⟨inb262 w hw, inb262 w hw⟩
theorem k14_chk2_of_lt (w : BitVec 32) (hw : w.toNat < 50000) : k14_chk2 w := ⟨inb262 w hw, inb262 w hw⟩
theorem k14_chk3_of_lt (w : BitVec 32) (hw : w.toNat < 50000) : k14_chk3 w := ⟨inb262 w hw, inb262 w hw⟩
theorem k14_chk4_of_lt (w : BitVec 32) (hw : w.toNat < 50000) : k14_chk4 w := ⟨inb262 w hw, inb262 w hw⟩
theorem k14_chk5_of_lt (w : BitVec 32) (hw : w.toNat < 50000) : k14_chk5 w := ⟨inb262 w hw, inb262 w hw⟩
theorem k14_chk6_of_lt (w : BitVec 32) (hw : w.toNat < 50000) : k14_chk6 w := ⟨inb262 w hw, inb262 w hw⟩
theorem k14_chk7_of_lt (w : BitVec 32) (hw : w.toNat < 50000) : k14_chk7 w := ⟨inb262 w hw, inb262 w hw⟩
theorem k14_chk8_of_lt (w : BitVec 32) (hw : w.toNat < 50000) : k14_chk8 w := ⟨inb262 w hw, inb262 w hw⟩
theorem k14_chk9_of_lt (w : BitVec 32) (hw : w.toNat < 50000) : k14_chk9 w := ⟨inb262 w hw, inb262 w hw⟩
theorem k14_chk10_of_lt (w : BitVec 32) (hw : w.toNat < 50000) : k14_chk10 w := ⟨inb262 w hw, inb262 w hw⟩
theorem k14_chk11_of_lt (w : BitVec 32) (hw : w.toNat < 50000) : k14_chk11 w := ⟨inb262 w hw, inb262 w hw⟩
theorem k14_chk12_of_lt (w : BitVec 32) (hw : w.toNat < 50000) : k14_chk12 w := ⟨inb262 w hw, inb262 w hw⟩
theorem k14_chk13_of_lt (w : BitVec 32) (hw : w.toNat < 50000) : k14_chk13 w := ⟨inb262 w hw, inb262 w hw⟩
theorem k14_chk14_of_lt (w : BitVec 32) (hw : w.toNat < 50000) : k14_chk14 w := ⟨inb262 w hw, inb262 w hw⟩
theorem k14_chk15_of_lt (w : BitVec 32) (hw : w.toNat < 50000) : k14_chk15 w := ⟨inb262 w hw, inb262 w hw⟩
theorem k14_chk16_of_lt (w : BitVec 32) (hw : w.toNat < 50000) : k14_chk16 w := inb262 w hw
theorem k15_chk1_of_lt (w : BitVec 32) (hw : w.toNat < 50000) : k15_chk1 w := ⟨inb262 w hw, inb262 w hw⟩
theorem k15_chk2_of_lt (w : BitVec 32) (hw : w.toNat < 50000) : k15_chk2 w := ⟨inb262 w hw, inb262 w hw⟩
theorem k15_chk3_of_lt (w : BitVec 32) (hw : w.toNat < 50000) : k15_chk3 w := ⟨inb262 w hw, inb262 w hw⟩
theorem k15_chk4_of_lt (w : BitVec 32) (hw : w.toNat < 50000) : k15_chk4 w := ⟨inb262 w hw, inb262 w hw⟩
theorem k15_chk5_of_lt (w : BitVec 32) (hw : w.toNat < 50000) : k15_chk5 w := ⟨inb262 w hw, inb262 w hw⟩
theorem k15_chk6_of_lt (w : BitVec 32) (hw : w.toNat < 50000) : k15_chk6 w := ⟨inb262 w hw, inb262 w hw⟩
theorem k15_chk7_of_lt (w : BitVec 32) (hw : w.toNat < 50000) : k15_chk7 w := ⟨inb262 w hw, inb262 w hw⟩
theorem k15_chk8_of_lt (w : BitVec 32) (hw : w.toNat < 50000) : k15_chk8 w := ⟨inb262 w hw, inb262 w hw⟩
theorem k15_chk9_of_lt (w : BitVec 32) (hw : w.toNat < 50000) : k15_chk9 w := ⟨inb262 w hw, inb262 w hw⟩
theorem k15_chk10_of_lt (w : BitVec 32) (hw : w.toNat < 50000) : k15_chk10 w := ⟨inb262 w hw, inb262 w hw⟩
theorem k15_chk11_of_lt (w : BitVec 32) (hw : w.toNat < 50000) : k15_chk11 w := ⟨inb262 w hw, inb262 w hw⟩
theorem k15_chk12_of_lt (w : BitVec 32) (hw : w.toNat < 50000) : k15_chk12 w := ⟨inb262 w hw, inb262 w hw⟩
theorem k15_chk13_of_lt (w : BitVec 32) (hw : w.toNat < 50000) : k15_chk13 w := ⟨inb262 w hw, inb262 w hw⟩
theorem k15_chk14_of_lt (w : BitVec 32) (hw : w.toNat < 50000) : k15_chk14 w := ⟨inb262 w hw, inb262 w hw⟩
theorem k15_chk15_of_lt (w : BitVec 32) (hw : w.toNat < 50000) : k15_chk15 w := ⟨inb262 w hw, inb262 w hw⟩
theorem k15_chk16_of_lt (w : BitVec 32) (hw : w.toNat < 50000) : k15_chk16 w := inb262 w hw
theorem k16_chk1_of_lt (w : BitVec 32) (hw : w.toNat < 50000) : k16_chk1 w := ⟨inb262 w hw, inb262 w hw⟩
theorem k16_chk2_of_lt (w : BitVec 32) (hw : w.toNat < 50000) : k16_chk2 w := ⟨inb262 w hw, inb262 w hw⟩
theorem k16_chk3_of_lt (w : BitVec 32) (hw : w.toNat < 50000) : k16_chk3 w := ⟨inb262 w hw, inb262 w hw⟩
theorem k16_chk4_of_lt (w : BitVec 32) (hw : w.toNat < 50000) : k16_chk4 w := ⟨inb262 w hw, inb262 w hw⟩
theorem k16_chk5_of_lt (w : BitVec 32) (hw : w.toNat < 50000) : k16_chk5 w := ⟨inb262 w hw, inb262 w hw⟩
theorem k16_chk6_of_lt (w : BitVec 32) (hw : w.toNat < 50000) : k16_chk6 w := ⟨inb262 w hw, inb262 w hw⟩
theorem k16_chk7_of_lt (w : BitVec 32) (hw : w.toNat < 50000) : k16_chk7 w := ⟨inb262 w hw, inb262 w hw⟩
theorem k16_chk8_of_lt (w : BitVec 32) (hw : w.toNat < 50000) : k16_chk8 w := ⟨inb262 w hw, inb262 w hw⟩
theorem k16_chk9_of_lt (w : BitVec 32) (hw : w.toNat < 50000) : k16_chk9 w := ⟨inb262 w hw, inb262 w hw⟩
theorem k16_chk10_of_lt (w : BitVec 32) (hw : w.toNat < 50000) : k16_chk10 w := ⟨inb262 w hw, inb262 w hw⟩
theorem k16_chk11_of_lt (w : BitVec 32) (hw : w.toNat < 50000) : k16_chk11 w := ⟨inb262 w hw, inb262 w hw⟩
theorem k16_chk12_of_lt (w : BitVec 32) (hw : w.toNat < 50000) : k16_chk12 w := ⟨inb262 w hw, inb262 w hw⟩
theorem k16_chk13_of_lt (w : BitVec 32) (hw : w.toNat < 50000) : k16_chk13 w := ⟨inb262 w hw, inb262 w hw⟩
theorem k16_chk14_of_lt (w : BitVec 32) (hw : w.toNat < 50000) : k16_chk14 w := ⟨inb262 w hw, inb262 w hw⟩
theorem k16_chk15_of_lt (w : BitVec 32) (hw : w.toNat < 50000) : k16_chk15 w := ⟨inb262 w hw, inb262 w hw⟩
theorem k16_chk16_of_lt (w : BitVec 32) (hw : w.toNat < 50000) : k16_chk16 w := inb262 w hw
theorem k17_chk1_of_lt (w : BitVec 32) (hw : w.toNat < 50000) : k17_chk1 w := ⟨inb262 w hw, inb262 w hw⟩
theorem k17_chk2_of_lt (w : BitVec 32) (hw : w.toNat < 50000) : k17_chk2 w := ⟨inb262 w hw, inb262 w hw⟩
theorem k17_chk3_of_lt (w : BitVec 32) (hw : w.toNat < 50000) : k17_chk3 w := ⟨inb262 w hw, inb262 w hw⟩
theorem k17_chk4_of_lt (w : BitVec 32) (hw : w.toNat < 50000) : k17_chk4 w := ⟨inb262 w hw, inb262 w hw⟩
theorem k17_chk5_of_lt (w : BitVec 32) (hw : w.toNat < 50000) : k17_chk5 w := ⟨inb262 w hw, inb262 w hw⟩
theorem k17_chk6_of_lt (w : BitVec 32) (hw : w.toNat < 50000) : k17_chk6 w := ⟨inb262 w hw, inb262 w hw⟩
theorem k17_chk7_of_lt (w : BitVec 32) (hw : w.toNat < 50000) : k17_chk7 w := ⟨inb262 w hw, inb262 w hw⟩
theorem k17_chk8_of_lt (w : BitVec 32) (hw : w.toNat < 50000) : k17_chk8 w := ⟨inb262 w hw, inb262 w hw⟩
theorem k17_chk9_of_lt (w : BitVec 32) (hw : w.toNat < 50000) : k17_chk9 w := ⟨inb262 w hw, inb262 w hw⟩
theorem k17_chk10_of_lt (w : BitVec 32) (hw : w.toNat < 50000) : k17_chk10 w := ⟨inb262 w hw, inb262 w hw⟩
theorem k17_chk11_of_lt (w : BitVec 32) (hw : w.toNat < 50000) : k17_chk11 w := ⟨inb262 w hw, inb262 w hw⟩
theorem k17_chk12_of_lt (w : BitVec 32) (hw : w.toNat < 50000) : k17_chk12 w := ⟨inb262 w hw, inb262 w hw⟩
theorem k17_chk13_of_lt (w : BitVec 32) (hw : w.toNat < 50000) : k17_chk13 w := ⟨inb262 w hw, inb262 w hw⟩
theorem k17_chk14_of_lt (w : BitVec 32) (hw : w.toNat < 50000) : k17_chk14 w := ⟨inb262 w hw, inb262 w hw⟩
theorem k17_chk15_of_lt (w : BitVec 32) (hw : w.toNat < 50000) : k17_chk15 w := ⟨inb262 w hw, inb262 w hw⟩
theorem k17_chk16_of_lt (w : BitVec 32) (hw : w.toNat < 50000) : k17_chk16 w := inb262 w hw
theorem k18_chk1_of_lt (w : BitVec 32) (hw : w.toNat < 50000) : k18_chk1 w := ⟨inb262 w hw, inb262 w hw⟩
theorem k18_chk2_of_lt (w : BitVec 32) (hw : w.toNat < 50000) : k18_chk2 w := ⟨inb262 w hw, inb262 w hw⟩
theorem k18_chk3_of_lt (w : BitVec 32) (hw : w.toNat < 50000) : k18_chk3 w := ⟨inb262 w hw, inb262 w hw⟩
theorem k18_chk4_of_lt (w : BitVec 32) (hw : w.toNat < 50000) : k18_chk4 w := ⟨inb262 w hw, inb262 w hw⟩
theorem k18_chk5_of_lt (w : BitVec 32) (hw : w.toNat < 50000) : k18_chk5 w := ⟨inb262 w hw, inb262 w hw⟩
theorem k18_chk6_of_lt (w : BitVec 32) (hw : w.toNat < 50000) : k18_chk6 w := ⟨inb262 w hw, inb262 w hw⟩
theorem k18_chk7_of_lt (w : BitVec 32) (hw : w.toNat < 50000) : k18_chk7 w := ⟨inb262 w hw, inb262 w hw⟩
theorem k18_chk8_of_lt (w : BitVec 32) (hw : w.toNat < 50000) : k18_chk8 w := ⟨inb262 w hw, inb262 w hw⟩
theorem k18_chk9_of_lt (w : BitVec 32) (hw : w.toNat < 50000) : k18_chk9 w := ⟨inb262 w hw, inb262 w hw⟩
theorem k18_chk10_of_lt (w : BitVec 32) (hw : w.toNat < 50000) : k18_chk10 w := ⟨inb262 w hw, inb262 w hw⟩
theorem k18_chk11_of_lt (w : BitVec 32) (hw : w.toNat < 50000) : k18_chk11 w := ⟨inb262 w hw, inb262 w hw⟩
theorem k18_chk12_of_lt (w : BitVec 32) (hw : w.toNat < 50000) : k18_chk12 w := ⟨inb262 w hw, inb262 w hw⟩
theorem k18_chk13_of_lt (w : BitVec 32) (hw : w.toNat < 50000) : k18_chk13 w := ⟨inb262 w hw, inb262 w hw⟩
theorem k18_chk14_of_lt (w : BitVec 32) (hw : w.toNat < 50000) : k18_chk14 w := ⟨inb262 w hw, inb262 w hw⟩
theorem k18_chk15_of_lt (w : BitVec 32) (hw : w.toNat < 50000) : k18_chk15 w := ⟨inb262 w hw, inb262 w hw⟩
theorem k18_chk16_of_lt (w : BitVec 32) (hw : w.toNat < 50000) : k18_chk16 w := inb262 w hw
theorem k19_chk1_of_lt (w : BitVec 32) (hw : w.toNat < 50000) : k19_chk1 w := ⟨inb262 w hw, inb262 w hw⟩
theorem k19_chk2_of_lt (w : BitVec 32) (hw : w.toNat < 50000) : k19_chk2 w := ⟨inb262 w hw, inb262 w hw⟩
theorem k19_chk3_of_lt (w : BitVec 32) (hw : w.toNat < 50000) : k19_chk3 w := ⟨inb262 w hw, inb262 w hw⟩
theorem k19_chk4_of_lt (w : BitVec 32) (hw : w.toNat < 50000) : k19_chk4 w := ⟨inb262 w hw, inb262 w hw⟩
theorem k19_chk5_of_lt (w : BitVec 32) (hw : w.toNat < 50000) : k19_chk5 w := ⟨inb262 w hw, inb262 w hw⟩
theorem k19_chk6_of_lt (w : BitVec 32) (hw : w.toNat < 50000) : k19_chk6 w := ⟨inb262 w hw, inb262 w hw⟩
theorem k19_chk7_of_lt (w : BitVec 32) (hw : w.toNat < 50000) : k19_chk7 w := ⟨inb262 w hw, inb262 w hw⟩
theorem k19_chk8_of_lt (w : BitVec 32) (hw : w.toNat < 50000) : k19_chk8 w := ⟨inb262 w hw, inb262 w hw⟩
theorem k19_chk9_of_lt (w : BitVec 32) (hw : w.toNat < 50000) : k19_chk9 w := ⟨inb262 w hw, inb262 w hw⟩
theorem k19_chk10_of_lt (w : BitVec 32) (hw : w.toNat < 50000) : k19_chk10 w := ⟨inb262 w hw, inb262 w hw⟩
theorem k19_chk11_of_lt (w : BitVec 32) (hw : w.toNat < 50000) : k19_chk11 w := ⟨inb262 w hw, inb262 w hw⟩
theorem k19_chk12_of_lt (w : BitVec 32) (hw : w.toNat < 50000) : k19_chk12 w := ⟨inb262 w hw, inb262 w hw⟩
theorem k19_chk13_of_lt (w : BitVec 32) (hw : w.toNat < 50000) : k19_chk13 w := ⟨inb262 w hw, inb262 w hw⟩
theorem k19_chk14_of_lt (w : BitVec 32) (hw : w.toNat < 50000) : k19_chk14 w := ⟨inb262 w hw, inb262 w hw⟩
theorem k19_chk15_of_lt (w : BitVec 32) (hw : w.toNat < 50000) : k19_chk15 w := ⟨inb262 w hw, inb262 w hw⟩
theorem k19_chk16_of_lt (w : BitVec 32) (hw : w.toNat < 50000) : k19_chk16 w := inb262 w hw

/-- The first gather call's first check, under the name the region's hypotheses use. -/
theorem chk_of_lt (w : BitVec 32) (hw : w.toNat < 50000) : k1_chk1 w := k1_chk1_of_lt w hw

end Cert.KernelIdeal.Hand

end
-- ==== Proof.G1.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 1 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem1 : Fin 16 → SemLoc sig := fun j =>
  (![SemLoc.dma 9, SemLoc.dma 10, SemLoc.dma 11, SemLoc.dma 12, SemLoc.dma 13, SemLoc.dma 14, SemLoc.dma 15, SemLoc.dma 16,
     SemLoc.dma 17, SemLoc.dma 18, SemLoc.dma 19, SemLoc.dma 20, SemLoc.dma 21, SemLoc.dma 22, SemLoc.dma 23, SemLoc.dma 24] : Fin 16 → SemLoc sig) j
theorem ownSemFacts1 : Pipeline.OwnSemFacts spec1 osem1 := by decide

/-- The HBM operand the body gathers rows from: unscoped, no window's array, no table. -/
def H1 : Finset (Ref sig .tc) := {main_v34}
theorem H1_sub : H1 ⊆ Pipeline.restRefsP sig pre1 spec1 := by decide

/-- The operands the pipeline does not stage, whole. -/
abbrev tbM1 : Memref sig .tc .smem S50000 .i32 := Memref.whole main_v36
abbrev hbM1 : Memref sig .tc .hbm S50000x512 .f32 := Memref.whole main_v34
abbrev scM1 : Memref sig .tc .vmem S16x512 .f32 := Memref.whole cc1_scratch0

/-- A whole memref's buffer on core `c`, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The sixteen own cells at zero. -/
abbrev sems1 (c : Dev nD) : sProp 𝕄 :=
  iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)

/-- A row index inside the gathered array puts the one-row slice inside it. -/
theorem row_inb1 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk1_1_of_lt (w : BitVec 32) (h : w.toNat < 50000) : k1_chk1 w := ⟨row_inb1 w h, row_inb1 w h⟩
theorem chk1_2_of_lt (w : BitVec 32) (h : w.toNat < 50000) : k1_chk2 w := ⟨row_inb1 w h, row_inb1 w h⟩
theorem chk1_3_of_lt (w : BitVec 32) (h : w.toNat < 50000) : k1_chk3 w := ⟨row_inb1 w h, row_inb1 w h⟩
theorem chk1_4_of_lt (w : BitVec 32) (h : w.toNat < 50000) : k1_chk4 w := ⟨row_inb1 w h, row_inb1 w h⟩
theorem chk1_5_of_lt (w : BitVec 32) (h : w.toNat < 50000) : k1_chk5 w := ⟨row_inb1 w h, row_inb1 w h⟩
theorem chk1_6_of_lt (w : BitVec 32) (h : w.toNat < 50000) : k1_chk6 w := ⟨row_inb1 w h, row_inb1 w h⟩
theorem chk1_7_of_lt (w : BitVec 32) (h : w.toNat < 50000) : k1_chk7 w := ⟨row_inb1 w h, row_inb1 w h⟩
theorem chk1_8_of_lt (w : BitVec 32) (h : w.toNat < 50000) : k1_chk8 w := ⟨row_inb1 w h, row_inb1 w h⟩
theorem chk1_9_of_lt (w : BitVec 32) (h : w.toNat < 50000) : k1_chk9 w := ⟨row_inb1 w h, row_inb1 w h⟩
theorem chk1_10_of_lt (w : BitVec 32) (h : w.toNat < 50000) : k1_chk10 w := ⟨row_inb1 w h, row_inb1 w h⟩
theorem chk1_11_of_lt (w : BitVec 32) (h : w.toNat < 50000) : k1_chk11 w := ⟨row_inb1 w h, row_inb1 w h⟩
theorem chk1_12_of_lt (w : BitVec 32) (h : w.toNat < 50000) : k1_chk12 w := ⟨row_inb1 w h, row_inb1 w h⟩
theorem chk1_13_of_lt (w : BitVec 32) (h : w.toNat < 50000) : k1_chk13 w := ⟨row_inb1 w h, row_inb1 w h⟩
theorem chk1_14_of_lt (w : BitVec 32) (h : w.toNat < 50000) : k1_chk14 w := ⟨row_inb1 w h, row_inb1 w h⟩
theorem chk1_15_of_lt (w : BitVec 32) (h : w.toNat < 50000) : k1_chk15 w := ⟨row_inb1 w h, row_inb1 w h⟩
theorem chk1_16_of_lt (w : BitVec 32) (h : w.toNat < 50000) : k1_chk16 w := row_inb1 w h

/-- A whole points-to as what stays behind, sixteen read tokens numbered `b + 15` down to `b`, and the tokens below
    `b` kept as one family. -/
theorem toksAt1 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 9 … 24. -/
theorem toks1 {ℓ : Loc nD τ sig} (f : Buf (Elt F) ℓ) :
    (ℓ ↦{fullShare} f : sProp 𝕄) ⊣⊢ iprop((ℓ ↦{Transfers.shareDrop fullShare 25} f) ∗ (ℓ ↦{Transfers.shareTokN fullShare 24} f) ∗ (ℓ ↦{Transfers.shareTokN fullShare 23} f) ∗ (ℓ ↦{Transfers.shareTokN fullShare 22} f) ∗ (ℓ ↦{Transfers.shareTokN fullShare 21} f) ∗ (ℓ ↦{Transfers.shareTokN fullShare 20} f) ∗ (ℓ ↦{Transfers.shareTokN fullShare 19} f) ∗ (ℓ ↦{Transfers.shareTokN fullShare 18} f) ∗ (ℓ ↦{Transfers.shareTokN fullShare 17} f) ∗ (ℓ ↦{Transfers.shareTokN fullShare 16} f) ∗ (ℓ ↦{Transfers.shareTokN fullShare 15} f) ∗ (ℓ ↦{Transfers.shareTokN fullShare 14} f) ∗ (ℓ ↦{Transfers.shareTokN fullShare 13} f) ∗ (ℓ ↦{Transfers.shareTokN fullShare 12} f) ∗ (ℓ ↦{Transfers.shareTokN fullShare 11} f) ∗ (ℓ ↦{Transfers.shareTokN fullShare 10} f) ∗ (ℓ ↦{Transfers.shareTokN fullShare 9} f)
      ∗ BI.bigSep (Finset.range 9) fun k => ℓ ↦{Transfers.shareTokN fullShare k} f) :=
  toksAt1 f 9

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun1 (c : Dev nD) (i : grid1.Coords) (arg3 : Memref sig .tc .vmem S16x1 .f32) (harg3 : arg3.IsWhole) (arg4 : Memref sig .tc .vmem S16x512 .f32) (harg4 : arg4.IsWhole)
    (x0 : Vec F S16x1 .f32) (tb : HbBuf1 (F := F) c tbM1) (fh0 : HbBuf1 (F := F) c hbM1) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM1 fullShare d) ∗ sems1 c ∗ hbPt1 c hbM1 fh0 ∗ hbPt1 c tbM1 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM1 fullShare d) ∗ sems1 c ∗ hbPt1 c hbM1 fh0 ∗ hbPt1 c tbM1 tb ∗ (∃ W', owes (c : Thread nD τ) 0 W')) -∗ K ⟨⟩))
          ⊢ wp frame (wpE (defs₀ (F := F)) Variants.none c none) Set.univ (cc1_kernel i tbM1 (Memref.isWhole_whole _) hbM1 (Memref.isWhole_whole _) arg3 harg3 arg4 harg4 scM1 (Memref.isWhole_whole _) cc1_scratch1) K } := by
  have k1_hw1 : k1_chk1 (tbM1.view.readAt (Elt F) (Rect.unit (s := S50000) (k1_off1 i) S1.size (k1_off1_inb i)).toLoadRect tb (Shape.Idx.first (numel1_S1.symm ▸ Nat.one_pos))) := chk1_1_of_lt _ (hH _)
  have k1_hw2 : k1_chk2 (tbM1.view.readAt (Elt F) (Rect.unit (s := S50000) (k1_off3 i) S1.size (k1_off3_inb i)).toLoadRect tb (Shape.Idx.first (numel1_S1.symm ▸ Nat.one_pos))) := chk1_2_of_lt _ (hH _)
  have k1_hw3 : k1_chk3 (tbM1.view.readAt (Elt F) (Rect.unit (s := S50000) (k1_off5 i) S1.size (k1_off5_inb i)).toLoadRect tb (Shape.Idx.first (numel1_S1.symm ▸ Nat.one_pos))) := chk1_3_of_lt _ (hH _)
  have k1_hw4 : k1_chk4 (tbM1.view.readAt (Elt F) (Rect.unit (s := S50000) (k1_off7 i) S1.size (k1_off7_inb i)).toLoadRect tb (Shape.Idx.first (numel1_S1.symm ▸ Nat.one_pos))) := chk1_4_of_lt _ (hH _)
  have k1_hw5 : k1_chk5 (tbM1.view.readAt (Elt F) (Rect.unit (s := S50000) (k1_off9 i) S1.size (k1_off9_inb i)).toLoadRect tb (Shape.Idx.first (numel1_S1.symm ▸ Nat.one_pos))) := chk1_5_of_lt _ (hH _)
  have k1_hw6 : k1_chk6 (tbM1.view.readAt (Elt F) (Rect.unit (s := S50000) (k1_off11 i) S1.size (k1_off11_inb i)).toLoadRect tb (Shape.Idx.first (numel1_S1.symm ▸ Nat.one_pos))) := chk1_6_of_lt _ (hH _)
  have k1_hw7 : k1_chk7 (tbM1.view.readAt (Elt F) (Rect.unit (s := S50000) (k1_off13 i) S1.size (k1_off13_inb i)).toLoadRect tb (Shape.Idx.first (numel1_S1.symm ▸ Nat.one_pos))) := chk1_7_of_lt _ (hH _)
  have k1_hw8 : k1_chk8 (tbM1.view.readAt (Elt F) (Rect.unit (s := S50000) (k1_off15 i) S1.size (k1_off15_inb i)).toLoadRect tb (Shape.Idx.first (numel1_S1.symm ▸ Nat.one_pos))) := chk1_8_of_lt _ (hH _)
  have k1_hw9 : k1_chk9 (tbM1.view.readAt (Elt F) (Rect.unit (s := S50000) (k1_off17 i) S1.size (k1_off17_inb i)).toLoadRect tb (Shape.Idx.first (numel1_S1.symm ▸ Nat.one_pos))) := chk1_9_of_lt _ (hH _)
  have k1_hw10 : k1_chk10 (tbM1.view.readAt (Elt F) (Rect.unit (s := S50000) (k1_off19 i) S1.size (k1_off19_inb i)).toLoadRect tb (Shape.Idx.first (numel1_S1.symm ▸ Nat.one_pos))) := chk1_10_of_lt _ (hH _)
  have k1_hw11 : k1_chk11 (tbM1.view.readAt (Elt F) (Rect.unit (s := S50000) (k1_off21 i) S1.size (k1_off21_inb i)).toLoadRect tb (Shape.Idx.first (numel1_S1.symm ▸ Nat.one_pos))) := chk1_11_of_lt _ (hH _)
  have k1_hw12 : k1_chk12 (tbM1.view.readAt (Elt F) (Rect.unit (s := S50000) (k1_off23 i) S1.size (k1_off23_inb i)).toLoadRect tb (Shape.Idx.first (numel1_S1.symm ▸ Nat.one_pos))) := chk1_12_of_lt _ (hH _)
  have k1_hw13 : k1_chk13 (tbM1.view.readAt (Elt F) (Rect.unit (s := S50000) (k1_off25 i) S1.size (k1_off25_inb i)).toLoadRect tb (Shape.Idx.first (numel1_S1.symm ▸ Nat.one_pos))) := chk1_13_of_lt _ (hH _)
  have k1_hw14 : k1_chk14 (tbM1.view.readAt (Elt F) (Rect.unit (s := S50000) (k1_off27 i) S1.size (k1_off27_inb i)).toLoadRect tb (Shape.Idx.first (numel1_S1.symm ▸ Nat.one_pos))) := chk1_14_of_lt _ (hH _)
  have k1_hw15 : k1_chk15 (tbM1.view.readAt (Elt F) (Rect.unit (s := S50000) (k1_off29 i) S1.size (k1_off29_inb i)).toLoadRect tb (Shape.Idx.first (numel1_S1.symm ▸ Nat.one_pos))) := chk1_15_of_lt _ (hH _)
  have k1_hw16 : k1_chk16 (tbM1.view.readAt (Elt F) (Rect.unit (s := S50000) (k1_off31 i) S1.size (k1_off31_inb i)).toLoadRect tb (Shape.Idx.first (numel1_S1.symm ▸ Nat.one_pos))) := chk1_16_of_lt _ (hH _)
  refine ⟨?_, fun W K => ?run⟩
  case run =>
    simp only [cc1_kernel_eq_skeleton]; unfold cc1_kernel_skel
    simp only [k1_part7_eq_skeleton]; unfold k1_part7_skel
    simp only [k1_part1_eq_skeleton, k1_part2_eq_skeleton, k1_part3_eq_skeleton, k1_part4_eq_skeleton, k1_part5_eq_skeleton, k1_part6_eq_skeleton]
    unfold owns sems1
    iintro ⟨⟨%f0, %hf0, H0⟩, ⟨%d1, %f1, -, H1⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks1 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16)
    sl_step
    iapply Hk
    isplitl [H0]
    · iexists _; isplitr; · ipureintro; exact harg3.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks1 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg1 (F := F)).Adm)

/-- Each window's current staging memref at point t, spelled as the pipeline passes it, and its wholeness. -/
abbrev ms1_0 (t : Fin (cfg1 a).N) : Memref sig .tc .vmem S16x1 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S16x512 .f32 := spec1_1.stage ((cfg1 a).slots t 1)
abbrev hs1_1 (t : Fin (cfg1 a).N) : (ms1_1 a t).IsWhole := hstage1_1 (((cfg1 a).slots t 1).cast nbuf1_1)

/-- The kernel body at point t, on what the pipeline calls it with. -/
abbrev bodyAt1 (t : Fin (cfg1 a).N) : Prog (TpuEff nD τ sig (Elt F) Λ₀ .tc) PUnit :=
  cc1_kernel (grid1.coords t) tbM1 (Memref.isWhole_whole _) hbM1 (Memref.isWhole_whole _) (ms1_0 a t) (hs1_0 a t) (ms1_1 a t) (hs1_1 a t) scM1 (Memref.isWhole_whole _) cc1_scratch1

/-! ## The invariant, conjunct by conjunct -/

/-- The sixteen own cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄) = sems1 c := by
  rw [Pipeline.ownSems0_eq_of_list c osem1 [0, 1, 2, 3, 4, 5, 6, 7, 8, 9, 10, 11, 12, 13, 14, 15] (by decide) (by decide)]; rfl

/-- The gathered array's points-to at the region-entry contents. -/
theorem hbmPts1_eq (c : Dev nD) :
    (bigSep H1 (fun b => ((c : Thread nD τ).loc b) ↦{fullShare} V c b) : sProp 𝕄) = iprop(hbPt1 c hbM1 (V c main_v34)) := by
  rw [BI.bigSep_eq_bigSepL_of_eq [main_v34] (by decide) (by decide)]; rfl

/-- The row table, whole, at the contents the region is launched with. -/
theorem prefHeld1_eq (c : Dev nD) :
    (Pipeline.prefHeld (Ix := Unit) (Name := ℕ) (U := Pipeline.UD sig nD τ) (Lvl := ℕ) pre1 c (fun _ => fullShare) a.1 : sProp 𝕄) = iprop(hbPt1 c tbM1 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD1_eq (c : Dev nD) :
    (Pipeline.ΦD osem1 spec1 H1 V c : sProp 𝕄)
      = iprop(iprop((∃ d, owns (c : Thread nD τ) scM1 fullShare d) ∗ Pipeline.scopedRestBut (Ix := Unit) (Name := ℕ) (U := Pipeline.UD sig nD τ) (Lvl := ℕ) (Val := Elt F) spec1 c [cc1_scratch0])
          ∗ (∃ r, prngReg c r) ∗ sems1 c ∗ iprop(hbPt1 c hbM1 (V c main_v34))) := by
  rw [Pipeline.ΦD_eq, scopedRest1_split, ownSems01_eq, hbmPts1_eq]; simp only [scM1, owns_whole]; try rfl

/-! ## The windows' blocks -/

/-- Window w's block at point t, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- Input window 0's current staging buffer holds its block at every point, fetched there or not. -/
theorem before1_0_of {c : Dev nD} (dat : Dat τ (Elt F) Unit ℕ (Pipeline.UD sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the run leaves in the output window's buffer -/

/-- The run's pieces for the output tile its block, so they cover it. -/
theorem cover1_1 (c : Dev nD) (i : grid1.Coords) (arg3 : Memref sig .tc .vmem S16x1 .f32) (harg3 : arg3.IsWhole) (arg4 : Memref sig .tc .vmem S16x512 .f32) (harg4 : arg4.IsWhole)
    (x0 : Vec F S16x1 .f32) (tb : HbBuf1 (F := F) c tbM1) (fh0 : HbBuf1 (F := F) c hbM1) (hT : ∀ x, (tb x).toNat < 50000) (y : S16x512.Idx) :
    ∃ pc ∈ (kernelRun1 c i arg3 harg3 arg4 harg4 x0 tb fh0 hT).1, y ∈ pc.1.set :=
  View.cover_of_tiledL (kernelRun1 c i arg3 harg3 arg4 harg4 x0 tb fh0 hT).1 S16x512.size (by sl_kernel_rfl) y

/-- One staging buffer of the output window, through which its contents are stated. -/
abbrev VO1_1 : View sig .tc .vmem S16x512 .f32 := (Memref.whole cc1_stg1_0 : Memref sig .tc .vmem S16x512 .f32).view

/-- What the run leaves in the output's staging buffer: its pieces read back over junk. -/
def out1_1 (c : Dev nD) (i : grid1.Coords) (arg3 : Memref sig .tc .vmem S16x1 .f32) (harg3 : arg3.IsWhole) (arg4 : Memref sig .tc .vmem S16x512 .f32) (harg4 : arg4.IsWhole)
    (x0 : Vec F S16x1 .f32) (tb : HbBuf1 (F := F) c tbM1) (fh0 : HbBuf1 (F := F) c hbM1) (hT : ∀ x, (tb x).toNat < 50000) : Vec F S16x512 .f32 :=
  VO1_1.read (Elt F) (VO1_1.writes (Elt F) VO1_1.junk (kernelRun1 c i arg3 harg3 arg4 harg4 x0 tb fh0 hT).1)

/-- Every word of the table is a row of the gathered array, from the same of its words by position. -/
theorem tbl_lt1 (hH : ∀ j : Fin 50000, ((a.1 0) (ValueIdx.ix1 j)).toNat < 50000) (c : Dev nD) : ∀ x, (((a.1 0 : HbBuf1 (F := F) c tbM1)) x).toNat < 50000 :=
  fun x => by rw [ValueIdx.eq_ix1 x]; exact hH _

/-- What the output's staging buffer holds after the body at point t: the run's contents at the point's memrefs, the
    norm block, the table and the gathered array. -/
def outsAt1 (hH : ∀ j : Fin 50000, ((a.1 0) (ValueIdx.ix1 j)).toNat < 50000) (c : Dev nD) (t : Fin (cfg1 a).N) : Vec F S16x512 .f32 :=
  out1_1 c (grid1.coords t) (ms1_0 a t) (hs1_0 a t) (ms1_1 a t) (hs1_1 a t) (iblk1 V a c 0 t) (a.1 0) (V c main_v34) (tbl_lt1 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat1 (hH : ∀ j : Fin 50000, ((a.1 0) (ValueIdx.ix1 j)).toNat < 50000) (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => (outsAt1 V a hH c t)
  Φ _ := iprop(Pipeline.ΦD osem1 spec1 H1 V c ∗ Pipeline.prefHeld pre1 c (fun _ => fullShare) a.1)
  q _ := fullShare
  owed _ := 0

/-- The proof data's arrays are the region-entry contents. -/
theorem A_eq1 (hH : ∀ j : Fin 50000, ((a.1 0) (ValueIdx.ix1 j)).toNat < 50000) (c : Dev nD) (w : Fin (cfg1 a).W) : (dat1 V a hH c).A w = V c (Pipeline.arrRef spec1 w) := by
  dsimp only [dat1]

/-- What the body leaves, window by window. -/
theorem after1_0 (hH : ∀ j : Fin 50000, ((a.1 0) (ValueIdx.ix1 j)).toNat < 50000) (c : Dev nD) (t : Fin (cfg1 a).N) : (dat1 V a hH c).after 0 t = iblk1 V a c 0 t := by dsimp only [dat1]; try rfl
theorem after1_1 (hH : ∀ j : Fin 50000, ((a.1 0) (ValueIdx.ix1 j)).toNat < 50000) (c : Dev nD) (t : Fin (cfg1 a).N) : (dat1 V a hH c).after 1 t = (outsAt1 V a hH c t) := by dsimp only [dat1]; try rfl

/-- The input's current staging buffer holds its block at every point, fetched there or not. -/
theorem before1_0 (hH : ∀ j : Fin 50000, ((a.1 0) (ValueIdx.ix1 j)).toNat < 50000) (c : Dev nD) (t : Fin (cfg1 a).N) (d) : (dat1 V a hH c).before 0 t d = iblk1 V a c 0 t :=
  before1_0_of V a (dat1 V a hH c) (A_eq1 V a hH c 0) (after1_0 V a hH c) t d

/-! ## The body obligation, at a generic point -/

/-- What the body is called with at point t, the windows one by one, -/
def bodyPre1 (hH : ∀ j : Fin 50000, ((a.1 0) (ValueIdx.ix1 j)).toNat < 50000) (c : Dev nD) (t : Fin (cfg1 a).N) : sProp 𝕄 :=
  iprop((dat1 V a hH c).Φ t.castSucc ∗ (dat1 V a hH c).owesAt () t.castSucc
    ∗ (∃ d, owns (c : Thread nD τ) (ms1_0 a t) fullShare ((dat1 V a hH c).before 0 t d))
    ∗ (∃ d, owns (c : Thread nD τ) (ms1_1 a t) fullShare ((dat1 V a hH c).before 1 t d)))

/-- and what it returns. -/
def bodyPost1 (hH : ∀ j : Fin 50000, ((a.1 0) (ValueIdx.ix1 j)).toNat < 50000) (c : Dev nD) (t : Fin (cfg1 a).N) : sProp 𝕄 :=
  iprop((dat1 V a hH c).Φ t.succ ∗ (dat1 V a hH c).owesAt () t.succ
    ∗ owns (c : Thread nD τ) (ms1_0 a t) fullShare ((dat1 V a hH c).after 0 t)
    ∗ owns (c : Thread nD τ) (ms1_1 a t) fullShare ((dat1 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body1 (hH : ∀ j : Fin 50000, ((a.1 0) (ValueIdx.ix1 j)).toNat < 50000) (c : Dev nD) (t : Fin (cfg1 a).N) :
    bodyPre1 V a hH c t ⊢ wp frame (wpE (defs₀ (F := F)) Variants.none c none) Set.univ (bodyAt1 a t) (fun _ => bodyPost1 V a hH c t) := by
  unfold bodyPre1 bodyPost1 bodyAt1
  simp only [before1_0]
  rw [show (dat1 V a hH c).Φ t.succ = (dat1 V a hH c).Φ t.castSucc from rfl,
    after1_0, after1_1]
  rw [show (dat1 V a hH c).Φ t.castSucc = iprop(Pipeline.ΦD osem1 spec1 H1 V c ∗ Pipeline.prefHeld pre1 c (fun _ => fullShare) a.1) from rfl, PhiD1_eq, prefHeld1_eq]
  unfold Dat.owesAt Pipeline.owesWithin
  rw [show (dat1 V a hH c).owed t.castSucc = 0 from rfl, show (dat1 V a hH c).owed t.succ = 0 from rfl]
  unfold outsAt1
  unfold out1_1
  iintro ⟨⟨⟨⟨HS0, HSr⟩, Hg, Hq, Hh0⟩, HT⟩, ⟨%W, -, HW⟩, ⟨%d0, H0⟩, ⟨%d1, H1⟩⟩
  iapply ((kernelRun1 c (grid1.coords t) _ _ _ _ (iblk1 V a c 0 t) (a.1 0) (V c main_v34) (tbl_lt1 a hH c)).2 W _)
  isplitl [H0]; · iexact H0
  isplitl [H1]; · iexists _; iexact H1
  isplitl [HS0]; · iexact HS0
  isplitl [Hq]; · iexact Hq
  isplitl [Hh0]; · iexact Hh0
  isplitl [HT]; · iexact HT
  isplitl [HW]; · iexact HW
  iintro ⟨H0, ⟨%e1, H1⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover1_1 c _ _ _ _ _ _ _ _ _)

/-- The library's body obligation, at every point. -/
theorem body_obligation1 (hH : ∀ j : Fin 50000, ((a.1 0) (ValueIdx.ix1 j)).toNat < 50000) (c : Dev nD) : BodyObligation (dat1 (F := F) V a hH c) (defs₀ (F := F)) Variants.none () Set.univ := fun t => by
  rw [bigSep_W1, bigSep_W1]
  exact sound_body1 V a hH c t

end Cert.KernelIdeal.Hand

end
-- ==== Proof.G2.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 2 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem2 : Fin 16 → SemLoc sig := fun j =>
  (![SemLoc.dma 29, SemLoc.dma 30, SemLoc.dma 31, SemLoc.dma 32, SemLoc.dma 33, SemLoc.dma 34, SemLoc.dma 35, SemLoc.dma 36,
     SemLoc.dma 37, SemLoc.dma 38, SemLoc.dma 39, SemLoc.dma 40, SemLoc.dma 41, SemLoc.dma 42, SemLoc.dma 43, SemLoc.dma 44] : Fin 16 → SemLoc sig) j
theorem ownSemFacts2 : Pipeline.OwnSemFacts spec2 osem2 := by decide

/-- The HBM operand the body gathers rows from: unscoped, no window's array, no table. -/
def H2 : Finset (Ref sig .tc) := {main_v34}
theorem H2_sub : H2 ⊆ Pipeline.restRefsP sig pre2 spec2 := by decide

/-- The operands the pipeline does not stage, whole. -/
abbrev tbM2 : Memref sig .tc .smem S50000 .i32 := Memref.whole main_v39
abbrev hbM2 : Memref sig .tc .hbm S50000x512 .f32 := Memref.whole main_v34
abbrev scM2 : Memref sig .tc .vmem S16x512 .f32 := Memref.whole cc2_scratch0

/-- A whole memref's buffer on core `c`, and it held whole at `f`. -/
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

/-- The sixteen own cells at zero. -/
abbrev sems2 (c : Dev nD) : sProp 𝕄 :=
  iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0)

/-- A row index inside the gathered array puts the one-row slice inside it. -/
theorem row_inb2 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk2_1_of_lt (w : BitVec 32) (h : w.toNat < 50000) : k2_chk1 w := ⟨row_inb2 w h, row_inb2 w h⟩
theorem chk2_2_of_lt (w : BitVec 32) (h : w.toNat < 50000) : k2_chk2 w := ⟨row_inb2 w h, row_inb2 w h⟩
theorem chk2_3_of_lt (w : BitVec 32) (h : w.toNat < 50000) : k2_chk3 w := ⟨row_inb2 w h, row_inb2 w h⟩
theorem chk2_4_of_lt (w : BitVec 32) (h : w.toNat < 50000) : k2_chk4 w := ⟨row_inb2 w h, row_inb2 w h⟩
theorem chk2_5_of_lt (w : BitVec 32) (h : w.toNat < 50000) : k2_chk5 w := ⟨row_inb2 w h, row_inb2 w h⟩
theorem chk2_6_of_lt (w : BitVec 32) (h : w.toNat < 50000) : k2_chk6 w := ⟨row_inb2 w h, row_inb2 w h⟩
theorem chk2_7_of_lt (w : BitVec 32) (h : w.toNat < 50000) : k2_chk7 w := ⟨row_inb2 w h, row_inb2 w h⟩
theorem chk2_8_of_lt (w : BitVec 32) (h : w.toNat < 50000) : k2_chk8 w := ⟨row_inb2 w h, row_inb2 w h⟩
theorem chk2_9_of_lt (w : BitVec 32) (h : w.toNat < 50000) : k2_chk9 w := ⟨row_inb2 w h, row_inb2 w h⟩
theorem chk2_10_of_lt (w : BitVec 32) (h : w.toNat < 50000) : k2_chk10 w := ⟨row_inb2 w h, row_inb2 w h⟩
theorem chk2_11_of_lt (w : BitVec 32) (h : w.toNat < 50000) : k2_chk11 w := ⟨row_inb2 w h, row_inb2 w h⟩
theorem chk2_12_of_lt (w : BitVec 32) (h : w.toNat < 50000) : k2_chk12 w := ⟨row_inb2 w h, row_inb2 w h⟩
theorem chk2_13_of_lt (w : BitVec 32) (h : w.toNat < 50000) : k2_chk13 w := ⟨row_inb2 w h, row_inb2 w h⟩
theorem chk2_14_of_lt (w : BitVec 32) (h : w.toNat < 50000) : k2_chk14 w := ⟨row_inb2 w h, row_inb2 w h⟩
theorem chk2_15_of_lt (w : BitVec 32) (h : w.toNat < 50000) : k2_chk15 w := ⟨row_inb2 w h, row_inb2 w h⟩
theorem chk2_16_of_lt (w : BitVec 32) (h : w.toNat < 50000) : k2_chk16 w := row_inb2 w h

/-- A whole points-to as what stays behind, sixteen read tokens numbered `b + 15` down to `b`, and the tokens below
    `b` kept as one family. -/
theorem toksAt2 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 29 … 44. -/
theorem toks2 {ℓ : Loc nD τ sig} (f : Buf (Elt F) ℓ) :
    (ℓ ↦{fullShare} f : sProp 𝕄) ⊣⊢ iprop((ℓ ↦{Transfers.shareDrop fullShare 45} f) ∗ (ℓ ↦{Transfers.shareTokN fullShare 44} f) ∗ (ℓ ↦{Transfers.shareTokN fullShare 43} f) ∗ (ℓ ↦{Transfers.shareTokN fullShare 42} f) ∗ (ℓ ↦{Transfers.shareTokN fullShare 41} f) ∗ (ℓ ↦{Transfers.shareTokN fullShare 40} f) ∗ (ℓ ↦{Transfers.shareTokN fullShare 39} f) ∗ (ℓ ↦{Transfers.shareTokN fullShare 38} f) ∗ (ℓ ↦{Transfers.shareTokN fullShare 37} f) ∗ (ℓ ↦{Transfers.shareTokN fullShare 36} f) ∗ (ℓ ↦{Transfers.shareTokN fullShare 35} f) ∗ (ℓ ↦{Transfers.shareTokN fullShare 34} f) ∗ (ℓ ↦{Transfers.shareTokN fullShare 33} f) ∗ (ℓ ↦{Transfers.shareTokN fullShare 32} f) ∗ (ℓ ↦{Transfers.shareTokN fullShare 31} f) ∗ (ℓ ↦{Transfers.shareTokN fullShare 30} f) ∗ (ℓ ↦{Transfers.shareTokN fullShare 29} f)
      ∗ BI.bigSep (Finset.range 29) fun k => ℓ ↦{Transfers.shareTokN fullShare k} f) :=
  toksAt2 f 29

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun2 (c : Dev nD) (i : grid2.Coords) (arg3 : Memref sig .tc .vmem S16x1 .f32) (harg3 : arg3.IsWhole) (arg4 : Memref sig .tc .vmem S16x512 .f32) (harg4 : arg4.IsWhole)
    (x0 : Vec F S16x1 .f32) (tb : HbBuf2 (F := F) c tbM2) (fh0 : HbBuf2 (F := F) c hbM2) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM2 fullShare d) ∗ sems2 c ∗ hbPt2 c hbM2 fh0 ∗ hbPt2 c tbM2 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM2 fullShare d) ∗ sems2 c ∗ hbPt2 c hbM2 fh0 ∗ hbPt2 c tbM2 tb ∗ (∃ W', owes (c : Thread nD τ) 0 W')) -∗ K ⟨⟩))
          ⊢ wp frame (wpE (defs₀ (F := F)) Variants.none c none) Set.univ (cc2_kernel i tbM2 (Memref.isWhole_whole _) hbM2 (Memref.isWhole_whole _) arg3 harg3 arg4 harg4 scM2 (Memref.isWhole_whole _) cc2_scratch1) K } := by
  have k2_hw1 : k2_chk1 (tbM2.view.readAt (Elt F) (Rect.unit (s := S50000) (k2_off1 i) S1.size (k2_off1_inb i)).toLoadRect tb (Shape.Idx.first (numel1_S1.symm ▸ Nat.one_pos))) := chk2_1_of_lt _ (hH _)
  have k2_hw2 : k2_chk2 (tbM2.view.readAt (Elt F) (Rect.unit (s := S50000) (k2_off3 i) S1.size (k2_off3_inb i)).toLoadRect tb (Shape.Idx.first (numel1_S1.symm ▸ Nat.one_pos))) := chk2_2_of_lt _ (hH _)
  have k2_hw3 : k2_chk3 (tbM2.view.readAt (Elt F) (Rect.unit (s := S50000) (k2_off5 i) S1.size (k2_off5_inb i)).toLoadRect tb (Shape.Idx.first (numel1_S1.symm ▸ Nat.one_pos))) := chk2_3_of_lt _ (hH _)
  have k2_hw4 : k2_chk4 (tbM2.view.readAt (Elt F) (Rect.unit (s := S50000) (k2_off7 i) S1.size (k2_off7_inb i)).toLoadRect tb (Shape.Idx.first (numel1_S1.symm ▸ Nat.one_pos))) := chk2_4_of_lt _ (hH _)
  have k2_hw5 : k2_chk5 (tbM2.view.readAt (Elt F) (Rect.unit (s := S50000) (k2_off9 i) S1.size (k2_off9_inb i)).toLoadRect tb (Shape.Idx.first (numel1_S1.symm ▸ Nat.one_pos))) := chk2_5_of_lt _ (hH _)
  have k2_hw6 : k2_chk6 (tbM2.view.readAt (Elt F) (Rect.unit (s := S50000) (k2_off11 i) S1.size (k2_off11_inb i)).toLoadRect tb (Shape.Idx.first (numel1_S1.symm ▸ Nat.one_pos))) := chk2_6_of_lt _ (hH _)
  have k2_hw7 : k2_chk7 (tbM2.view.readAt (Elt F) (Rect.unit (s := S50000) (k2_off13 i) S1.size (k2_off13_inb i)).toLoadRect tb (Shape.Idx.first (numel1_S1.symm ▸ Nat.one_pos))) := chk2_7_of_lt _ (hH _)
  have k2_hw8 : k2_chk8 (tbM2.view.readAt (Elt F) (Rect.unit (s := S50000) (k2_off15 i) S1.size (k2_off15_inb i)).toLoadRect tb (Shape.Idx.first (numel1_S1.symm ▸ Nat.one_pos))) := chk2_8_of_lt _ (hH _)
  have k2_hw9 : k2_chk9 (tbM2.view.readAt (Elt F) (Rect.unit (s := S50000) (k2_off17 i) S1.size (k2_off17_inb i)).toLoadRect tb (Shape.Idx.first (numel1_S1.symm ▸ Nat.one_pos))) := chk2_9_of_lt _ (hH _)
  have k2_hw10 : k2_chk10 (tbM2.view.readAt (Elt F) (Rect.unit (s := S50000) (k2_off19 i) S1.size (k2_off19_inb i)).toLoadRect tb (Shape.Idx.first (numel1_S1.symm ▸ Nat.one_pos))) := chk2_10_of_lt _ (hH _)
  have k2_hw11 : k2_chk11 (tbM2.view.readAt (Elt F) (Rect.unit (s := S50000) (k2_off21 i) S1.size (k2_off21_inb i)).toLoadRect tb (Shape.Idx.first (numel1_S1.symm ▸ Nat.one_pos))) := chk2_11_of_lt _ (hH _)
  have k2_hw12 : k2_chk12 (tbM2.view.readAt (Elt F) (Rect.unit (s := S50000) (k2_off23 i) S1.size (k2_off23_inb i)).toLoadRect tb (Shape.Idx.first (numel1_S1.symm ▸ Nat.one_pos))) := chk2_12_of_lt _ (hH _)
  have k2_hw13 : k2_chk13 (tbM2.view.readAt (Elt F) (Rect.unit (s := S50000) (k2_off25 i) S1.size (k2_off25_inb i)).toLoadRect tb (Shape.Idx.first (numel1_S1.symm ▸ Nat.one_pos))) := chk2_13_of_lt _ (hH _)
  have k2_hw14 : k2_chk14 (tbM2.view.readAt (Elt F) (Rect.unit (s := S50000) (k2_off27 i) S1.size (k2_off27_inb i)).toLoadRect tb (Shape.Idx.first (numel1_S1.symm ▸ Nat.one_pos))) := chk2_14_of_lt _ (hH _)
  have k2_hw15 : k2_chk15 (tbM2.view.readAt (Elt F) (Rect.unit (s := S50000) (k2_off29 i) S1.size (k2_off29_inb i)).toLoadRect tb (Shape.Idx.first (numel1_S1.symm ▸ Nat.one_pos))) := chk2_15_of_lt _ (hH _)
  have k2_hw16 : k2_chk16 (tbM2.view.readAt (Elt F) (Rect.unit (s := S50000) (k2_off31 i) S1.size (k2_off31_inb i)).toLoadRect tb (Shape.Idx.first (numel1_S1.symm ▸ Nat.one_pos))) := chk2_16_of_lt _ (hH _)
  refine ⟨?_, fun W K => ?run⟩
  case run =>
    simp only [cc2_kernel_eq_skeleton]; unfold cc2_kernel_skel
    simp only [k2_part7_eq_skeleton]; unfold k2_part7_skel
    simp only [k2_part1_eq_skeleton, k2_part2_eq_skeleton, k2_part3_eq_skeleton, k2_part4_eq_skeleton, k2_part5_eq_skeleton, k2_part6_eq_skeleton]
    unfold owns sems2
    iintro ⟨⟨%f0, %hf0, H0⟩, ⟨%d1, %f1, -, H2⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks2 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16)
    sl_step
    iapply Hk
    isplitl [H0]
    · iexists _; isplitr; · ipureintro; exact harg3.read_unread _
      iexact H0
    isplitl [H2]; · iexists _; iexact H2
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks2 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg2 (F := F)).Adm)

/-- Each window's current staging memref at point t, spelled as the pipeline passes it, and its wholeness. -/
abbrev ms2_0 (t : Fin (cfg2 a).N) : Memref sig .tc .vmem S16x1 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S16x512 .f32 := spec2_1.stage ((cfg2 a).slots t 1)
abbrev hs2_1 (t : Fin (cfg2 a).N) : (ms2_1 a t).IsWhole := hstage2_1 (((cfg2 a).slots t 1).cast nbuf2_1)

/-- The kernel body at point t, on what the pipeline calls it with. -/
abbrev bodyAt2 (t : Fin (cfg2 a).N) : Prog (TpuEff nD τ sig (Elt F) Λ₀ .tc) PUnit :=
  cc2_kernel (grid2.coords t) tbM2 (Memref.isWhole_whole _) hbM2 (Memref.isWhole_whole _) (ms2_0 a t) (hs2_0 a t) (ms2_1 a t) (hs2_1 a t) scM2 (Memref.isWhole_whole _) cc2_scratch1

/-! ## The invariant, conjunct by conjunct -/

/-- The sixteen own cells at zero, listed. -/
theorem ownSems02_eq (c : Dev nD) :
    (Pipeline.ownSems0 (Ix := Unit) (Name := ℕ) (U := Pipeline.UD sig nD τ) (Lvl := ℕ) (Val := Elt F) (τ := τ) osem2 c : sProp 𝕄) = sems2 c := by
  rw [Pipeline.ownSems0_eq_of_list c osem2 [0, 1, 2, 3, 4, 5, 6, 7, 8, 9, 10, 11, 12, 13, 14, 15] (by decide) (by decide)]; rfl

/-- The gathered array's points-to at the region-entry contents. -/
theorem hbmPts2_eq (c : Dev nD) :
    (bigSep H2 (fun b => ((c : Thread nD τ).loc b) ↦{fullShare} V c b) : sProp 𝕄) = iprop(hbPt2 c hbM2 (V c main_v34)) := by
  rw [BI.bigSep_eq_bigSepL_of_eq [main_v34] (by decide) (by decide)]; rfl

/-- The row table, whole, at the contents the region is launched with. -/
theorem prefHeld2_eq (c : Dev nD) :
    (Pipeline.prefHeld (Ix := Unit) (Name := ℕ) (U := Pipeline.UD sig nD τ) (Lvl := ℕ) pre2 c (fun _ => fullShare) a.1 : sProp 𝕄) = iprop(hbPt2 c tbM2 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD2_eq (c : Dev nD) :
    (Pipeline.ΦD osem2 spec2 H2 V c : sProp 𝕄)
      = iprop(iprop((∃ d, owns (c : Thread nD τ) scM2 fullShare d) ∗ Pipeline.scopedRestBut (Ix := Unit) (Name := ℕ) (U := Pipeline.UD sig nD τ) (Lvl := ℕ) (Val := Elt F) spec2 c [cc2_scratch0])
          ∗ (∃ r, prngReg c r) ∗ sems2 c ∗ iprop(hbPt2 c hbM2 (V c main_v34))) := by
  rw [Pipeline.ΦD_eq, scopedRest2_split, ownSems02_eq, hbmPts2_eq]; simp only [scM2, owns_whole]; try rfl

/-! ## The windows' blocks -/

/-- Window w's block at point t, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- Input window 0's current staging buffer holds its block at every point, fetched there or not. -/
theorem before2_0_of {c : Dev nD} (dat : Dat τ (Elt F) Unit ℕ (Pipeline.UD sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the run leaves in the output window's buffer -/

/-- The run's pieces for the output tile its block, so they cover it. -/
theorem cover2_1 (c : Dev nD) (i : grid2.Coords) (arg3 : Memref sig .tc .vmem S16x1 .f32) (harg3 : arg3.IsWhole) (arg4 : Memref sig .tc .vmem S16x512 .f32) (harg4 : arg4.IsWhole)
    (x0 : Vec F S16x1 .f32) (tb : HbBuf2 (F := F) c tbM2) (fh0 : HbBuf2 (F := F) c hbM2) (hT : ∀ x, (tb x).toNat < 50000) (y : S16x512.Idx) :
    ∃ pc ∈ (kernelRun2 c i arg3 harg3 arg4 harg4 x0 tb fh0 hT).1, y ∈ pc.1.set :=
  View.cover_of_tiledL (kernelRun2 c i arg3 harg3 arg4 harg4 x0 tb fh0 hT).1 S16x512.size (by sl_kernel_rfl) y

/-- One staging buffer of the output window, through which its contents are stated. -/
abbrev VO2_1 : View sig .tc .vmem S16x512 .f32 := (Memref.whole cc2_stg1_0 : Memref sig .tc .vmem S16x512 .f32).view

/-- What the run leaves in the output's staging buffer: its pieces read back over junk. -/
def out2_1 (c : Dev nD) (i : grid2.Coords) (arg3 : Memref sig .tc .vmem S16x1 .f32) (harg3 : arg3.IsWhole) (arg4 : Memref sig .tc .vmem S16x512 .f32) (harg4 : arg4.IsWhole)
    (x0 : Vec F S16x1 .f32) (tb : HbBuf2 (F := F) c tbM2) (fh0 : HbBuf2 (F := F) c hbM2) (hT : ∀ x, (tb x).toNat < 50000) : Vec F S16x512 .f32 :=
  VO2_1.read (Elt F) (VO2_1.writes (Elt F) VO2_1.junk (kernelRun2 c i arg3 harg3 arg4 harg4 x0 tb fh0 hT).1)

/-- Every word of the table is a row of the gathered array, from the same of its words by position. -/
theorem tbl_lt2 (hH : ∀ j : Fin 50000, ((a.1 0) (ValueIdx.ix1 j)).toNat < 50000) (c : Dev nD) : ∀ x, (((a.1 0 : HbBuf2 (F := F) c tbM2)) x).toNat < 50000 :=
  fun x => by rw [ValueIdx.eq_ix1 x]; exact hH _

/-- What the output's staging buffer holds after the body at point t: the run's contents at the point's memrefs, the
    norm block, the table and the gathered array. -/
def outsAt2 (hH : ∀ j : Fin 50000, ((a.1 0) (ValueIdx.ix1 j)).toNat < 50000) (c : Dev nD) (t : Fin (cfg2 a).N) : Vec F S16x512 .f32 :=
  out2_1 c (grid2.coords t) (ms2_0 a t) (hs2_0 a t) (ms2_1 a t) (hs2_1 a t) (iblk2 V a c 0 t) (a.1 0) (V c main_v34) (tbl_lt2 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat2 (hH : ∀ j : Fin 50000, ((a.1 0) (ValueIdx.ix1 j)).toNat < 50000) (c : Dev nD) : Dat τ (Elt F) Unit ℕ (Pipeline.UD sig nD τ) ℕ (cfg2 a) c where
  A w := V c (Pipeline.arrRef spec2 w)
  after w t := match w with
    | ⟨0, _⟩ => iblk2 V a c 0 t
    | ⟨1, _⟩ => (outsAt2 V a hH c t)
  Φ _ := iprop(Pipeline.ΦD osem2 spec2 H2 V c ∗ Pipeline.prefHeld pre2 c (fun _ => fullShare) a.1)
  q _ := fullShare
  owed _ := 0

/-- The proof data's arrays are the region-entry contents. -/
theorem A_eq2 (hH : ∀ j : Fin 50000, ((a.1 0) (ValueIdx.ix1 j)).toNat < 50000) (c : Dev nD) (w : Fin (cfg2 a).W) : (dat2 V a hH c).A w = V c (Pipeline.arrRef spec2 w) := by
  dsimp only [dat2]

/-- What the body leaves, window by window. -/
theorem after2_0 (hH : ∀ j : Fin 50000, ((a.1 0) (ValueIdx.ix1 j)).toNat < 50000) (c : Dev nD) (t : Fin (cfg2 a).N) : (dat2 V a hH c).after 0 t = iblk2 V a c 0 t := by dsimp only [dat2]; try rfl
theorem after2_1 (hH : ∀ j : Fin 50000, ((a.1 0) (ValueIdx.ix1 j)).toNat < 50000) (c : Dev nD) (t : Fin (cfg2 a).N) : (dat2 V a hH c).after 1 t = (outsAt2 V a hH c t) := by dsimp only [dat2]; try rfl

/-- The input's current staging buffer holds its block at every point, fetched there or not. -/
theorem before2_0 (hH : ∀ j : Fin 50000, ((a.1 0) (ValueIdx.ix1 j)).toNat < 50000) (c : Dev nD) (t : Fin (cfg2 a).N) (d) : (dat2 V a hH c).before 0 t d = iblk2 V a c 0 t :=
  before2_0_of V a (dat2 V a hH c) (A_eq2 V a hH c 0) (after2_0 V a hH c) t d

/-! ## The body obligation, at a generic point -/

/-- What the body is called with at point t, the windows one by one, -/
def bodyPre2 (hH : ∀ j : Fin 50000, ((a.1 0) (ValueIdx.ix1 j)).toNat < 50000) (c : Dev nD) (t : Fin (cfg2 a).N) : sProp 𝕄 :=
  iprop((dat2 V a hH c).Φ t.castSucc ∗ (dat2 V a hH c).owesAt () t.castSucc
    ∗ (∃ d, owns (c : Thread nD τ) (ms2_0 a t) fullShare ((dat2 V a hH c).before 0 t d))
    ∗ (∃ d, owns (c : Thread nD τ) (ms2_1 a t) fullShare ((dat2 V a hH c).before 1 t d)))

/-- and what it returns. -/
def bodyPost2 (hH : ∀ j : Fin 50000, ((a.1 0) (ValueIdx.ix1 j)).toNat < 50000) (c : Dev nD) (t : Fin (cfg2 a).N) : sProp 𝕄 :=
  iprop((dat2 V a hH c).Φ t.succ ∗ (dat2 V a hH c).owesAt () t.succ
    ∗ owns (c : Thread nD τ) (ms2_0 a t) fullShare ((dat2 V a hH c).after 0 t)
    ∗ owns (c : Thread nD τ) (ms2_1 a t) fullShare ((dat2 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body2 (hH : ∀ j : Fin 50000, ((a.1 0) (ValueIdx.ix1 j)).toNat < 50000) (c : Dev nD) (t : Fin (cfg2 a).N) :
    bodyPre2 V a hH c t ⊢ wp frame (wpE (defs₀ (F := F)) Variants.none c none) Set.univ (bodyAt2 a t) (fun _ => bodyPost2 V a hH c t) := by
  unfold bodyPre2 bodyPost2 bodyAt2
  simp only [before2_0]
  rw [show (dat2 V a hH c).Φ t.succ = (dat2 V a hH c).Φ t.castSucc from rfl,
    after2_0, after2_1]
  rw [show (dat2 V a hH c).Φ t.castSucc = iprop(Pipeline.ΦD osem2 spec2 H2 V c ∗ Pipeline.prefHeld pre2 c (fun _ => fullShare) a.1) from rfl, PhiD2_eq, prefHeld2_eq]
  unfold Dat.owesAt Pipeline.owesWithin
  rw [show (dat2 V a hH c).owed t.castSucc = 0 from rfl, show (dat2 V a hH c).owed t.succ = 0 from rfl]
  unfold outsAt2
  unfold out2_1
  iintro ⟨⟨⟨⟨HS0, HSr⟩, Hg, Hq, Hh0⟩, HT⟩, ⟨%W, -, HW⟩, ⟨%d0, H0⟩, ⟨%d1, H2⟩⟩
  iapply ((kernelRun2 c (grid2.coords t) _ _ _ _ (iblk2 V a c 0 t) (a.1 0) (V c main_v34) (tbl_lt2 a hH c)).2 W _)
  isplitl [H0]; · iexact H0
  isplitl [H2]; · iexists _; iexact H2
  isplitl [HS0]; · iexact HS0
  isplitl [Hq]; · iexact Hq
  isplitl [Hh0]; · iexact Hh0
  isplitl [HT]; · iexact HT
  isplitl [HW]; · iexact HW
  iintro ⟨H0, ⟨%e1, H2⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H2
  ipureintro; exact View.read_writes_of_cover _ _ _ _ _ (cover2_1 c _ _ _ _ _ _ _ _ _)

/-- The library's body obligation, at every point. -/
theorem body_obligation2 (hH : ∀ j : Fin 50000, ((a.1 0) (ValueIdx.ix1 j)).toNat < 50000) (c : Dev nD) : BodyObligation (dat2 (F := F) V a hH c) (defs₀ (F := F)) Variants.none () Set.univ := fun t => by
  rw [bigSep_W2, bigSep_W2]
  exact sound_body2 V a hH c t

end Cert.KernelIdeal.Hand

end
-- ==== Proof.G3.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 3 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem3 : Fin 16 → SemLoc sig := fun j =>
  (![SemLoc.dma 49, SemLoc.dma 50, SemLoc.dma 51, SemLoc.dma 52, SemLoc.dma 53, SemLoc.dma 54, SemLoc.dma 55, SemLoc.dma 56,
     SemLoc.dma 57, SemLoc.dma 58, SemLoc.dma 59, SemLoc.dma 60, SemLoc.dma 61, SemLoc.dma 62, SemLoc.dma 63, SemLoc.dma 64] : Fin 16 → SemLoc sig) j
theorem ownSemFacts3 : Pipeline.OwnSemFacts spec3 osem3 := by decide

/-- The HBM operand the body gathers rows from: unscoped, no window's array, no table. -/
def H3 : Finset (Ref sig .tc) := {main_v34}
theorem H3_sub : H3 ⊆ Pipeline.restRefsP sig pre3 spec3 := by decide

/-- The operands the pipeline does not stage, whole. -/
abbrev tbM3 : Memref sig .tc .smem S50000 .i32 := Memref.whole main_v42
abbrev hbM3 : Memref sig .tc .hbm S50000x512 .f32 := Memref.whole main_v34
abbrev scM3 : Memref sig .tc .vmem S16x512 .f32 := Memref.whole cc3_scratch0

/-- A whole memref's buffer on core `c`, and it held whole at `f`. -/
abbrev HbBuf3 (c : Dev nD) {sp : Space} {S : Shape} {e : EltTy} (M : Memref sig .tc sp S e) : Type := Buf (Elt F) (M.view.loc (c : Thread nD τ))
abbrev hbPt3 (c : Dev nD) {sp : Space} {S : Shape} {e : EltTy} (M : Memref sig .tc sp S e) (f : HbBuf3 (F := F) c M) : sProp 𝕄 :=
  M.view.loc (c : Thread nD τ) ↦{fullShare} f

/-- The sixteen own cells at zero. -/
abbrev sems3 (c : Dev nD) : sProp 𝕄 :=
  iprop(semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0)

/-- A row index inside the gathered array puts the one-row slice inside it. -/
theorem row_inb3 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk3_1_of_lt (w : BitVec 32) (h : w.toNat < 50000) : k3_chk1 w := ⟨row_inb3 w h, row_inb3 w h⟩
theorem chk3_2_of_lt (w : BitVec 32) (h : w.toNat < 50000) : k3_chk2 w := ⟨row_inb3 w h, row_inb3 w h⟩
theorem chk3_3_of_lt (w : BitVec 32) (h : w.toNat < 50000) : k3_chk3 w := ⟨row_inb3 w h, row_inb3 w h⟩
theorem chk3_4_of_lt (w : BitVec 32) (h : w.toNat < 50000) : k3_chk4 w := ⟨row_inb3 w h, row_inb3 w h⟩
theorem chk3_5_of_lt (w : BitVec 32) (h : w.toNat < 50000) : k3_chk5 w := ⟨row_inb3 w h, row_inb3 w h⟩
theorem chk3_6_of_lt (w : BitVec 32) (h : w.toNat < 50000) : k3_chk6 w := ⟨row_inb3 w h, row_inb3 w h⟩
theorem chk3_7_of_lt (w : BitVec 32) (h : w.toNat < 50000) : k3_chk7 w := ⟨row_inb3 w h, row_inb3 w h⟩
theorem chk3_8_of_lt (w : BitVec 32) (h : w.toNat < 50000) : k3_chk8 w := ⟨row_inb3 w h, row_inb3 w h⟩
theorem chk3_9_of_lt (w : BitVec 32) (h : w.toNat < 50000) : k3_chk9 w := ⟨row_inb3 w h, row_inb3 w h⟩
theorem chk3_10_of_lt (w : BitVec 32) (h : w.toNat < 50000) : k3_chk10 w := ⟨row_inb3 w h, row_inb3 w h⟩
theorem chk3_11_of_lt (w : BitVec 32) (h : w.toNat < 50000) : k3_chk11 w := ⟨row_inb3 w h, row_inb3 w h⟩
theorem chk3_12_of_lt (w : BitVec 32) (h : w.toNat < 50000) : k3_chk12 w := ⟨row_inb3 w h, row_inb3 w h⟩
theorem chk3_13_of_lt (w : BitVec 32) (h : w.toNat < 50000) : k3_chk13 w := ⟨row_inb3 w h, row_inb3 w h⟩
theorem chk3_14_of_lt (w : BitVec 32) (h : w.toNat < 50000) : k3_chk14 w := ⟨row_inb3 w h, row_inb3 w h⟩
theorem chk3_15_of_lt (w : BitVec 32) (h : w.toNat < 50000) : k3_chk15 w := ⟨row_inb3 w h, row_inb3 w h⟩
theorem chk3_16_of_lt (w : BitVec 32) (h : w.toNat < 50000) : k3_chk16 w := row_inb3 w h

/-- A whole points-to as what stays behind, sixteen read tokens numbered `b + 15` down to `b`, and the tokens below
    `b` kept as one family. -/
theorem toksAt3 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 49 … 64. -/
theorem toks3 {ℓ : Loc nD τ sig} (f : Buf (Elt F) ℓ) :
    (ℓ ↦{fullShare} f : sProp 𝕄) ⊣⊢ iprop((ℓ ↦{Transfers.shareDrop fullShare 65} f) ∗ (ℓ ↦{Transfers.shareTokN fullShare 64} f) ∗ (ℓ ↦{Transfers.shareTokN fullShare 63} f) ∗ (ℓ ↦{Transfers.shareTokN fullShare 62} f) ∗ (ℓ ↦{Transfers.shareTokN fullShare 61} f) ∗ (ℓ ↦{Transfers.shareTokN fullShare 60} f) ∗ (ℓ ↦{Transfers.shareTokN fullShare 59} f) ∗ (ℓ ↦{Transfers.shareTokN fullShare 58} f) ∗ (ℓ ↦{Transfers.shareTokN fullShare 57} f) ∗ (ℓ ↦{Transfers.shareTokN fullShare 56} f) ∗ (ℓ ↦{Transfers.shareTokN fullShare 55} f) ∗ (ℓ ↦{Transfers.shareTokN fullShare 54} f) ∗ (ℓ ↦{Transfers.shareTokN fullShare 53} f) ∗ (ℓ ↦{Transfers.shareTokN fullShare 52} f) ∗ (ℓ ↦{Transfers.shareTokN fullShare 51} f) ∗ (ℓ ↦{Transfers.shareTokN fullShare 50} f) ∗ (ℓ ↦{Transfers.shareTokN fullShare 49} f)
      ∗ BI.bigSep (Finset.range 49) fun k => ℓ ↦{Transfers.shareTokN fullShare k} f) :=
  toksAt3 f 49

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun3 (c : Dev nD) (i : grid3.Coords) (arg3 : Memref sig .tc .vmem S16x1 .f32) (harg3 : arg3.IsWhole) (arg4 : Memref sig .tc .vmem S16x512 .f32) (harg4 : arg4.IsWhole)
    (x0 : Vec F S16x1 .f32) (tb : HbBuf3 (F := F) c tbM3) (fh0 : HbBuf3 (F := F) c hbM3) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM3 fullShare d) ∗ sems3 c ∗ hbPt3 c hbM3 fh0 ∗ hbPt3 c tbM3 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM3 fullShare d) ∗ sems3 c ∗ hbPt3 c hbM3 fh0 ∗ hbPt3 c tbM3 tb ∗ (∃ W', owes (c : Thread nD τ) 0 W')) -∗ K ⟨⟩))
          ⊢ wp frame (wpE (defs₀ (F := F)) Variants.none c none) Set.univ (cc3_kernel i tbM3 (Memref.isWhole_whole _) hbM3 (Memref.isWhole_whole _) arg3 harg3 arg4 harg4 scM3 (Memref.isWhole_whole _) cc3_scratch1) K } := by
  have k3_hw1 : k3_chk1 (tbM3.view.readAt (Elt F) (Rect.unit (s := S50000) (k3_off1 i) S1.size (k3_off1_inb i)).toLoadRect tb (Shape.Idx.first (numel1_S1.symm ▸ Nat.one_pos))) := chk3_1_of_lt _ (hH _)
  have k3_hw2 : k3_chk2 (tbM3.view.readAt (Elt F) (Rect.unit (s := S50000) (k3_off3 i) S1.size (k3_off3_inb i)).toLoadRect tb (Shape.Idx.first (numel1_S1.symm ▸ Nat.one_pos))) := chk3_2_of_lt _ (hH _)
  have k3_hw3 : k3_chk3 (tbM3.view.readAt (Elt F) (Rect.unit (s := S50000) (k3_off5 i) S1.size (k3_off5_inb i)).toLoadRect tb (Shape.Idx.first (numel1_S1.symm ▸ Nat.one_pos))) := chk3_3_of_lt _ (hH _)
  have k3_hw4 : k3_chk4 (tbM3.view.readAt (Elt F) (Rect.unit (s := S50000) (k3_off7 i) S1.size (k3_off7_inb i)).toLoadRect tb (Shape.Idx.first (numel1_S1.symm ▸ Nat.one_pos))) := chk3_4_of_lt _ (hH _)
  have k3_hw5 : k3_chk5 (tbM3.view.readAt (Elt F) (Rect.unit (s := S50000) (k3_off9 i) S1.size (k3_off9_inb i)).toLoadRect tb (Shape.Idx.first (numel1_S1.symm ▸ Nat.one_pos))) := chk3_5_of_lt _ (hH _)
  have k3_hw6 : k3_chk6 (tbM3.view.readAt (Elt F) (Rect.unit (s := S50000) (k3_off11 i) S1.size (k3_off11_inb i)).toLoadRect tb (Shape.Idx.first (numel1_S1.symm ▸ Nat.one_pos))) := chk3_6_of_lt _ (hH _)
  have k3_hw7 : k3_chk7 (tbM3.view.readAt (Elt F) (Rect.unit (s := S50000) (k3_off13 i) S1.size (k3_off13_inb i)).toLoadRect tb (Shape.Idx.first (numel1_S1.symm ▸ Nat.one_pos))) := chk3_7_of_lt _ (hH _)
  have k3_hw8 : k3_chk8 (tbM3.view.readAt (Elt F) (Rect.unit (s := S50000) (k3_off15 i) S1.size (k3_off15_inb i)).toLoadRect tb (Shape.Idx.first (numel1_S1.symm ▸ Nat.one_pos))) := chk3_8_of_lt _ (hH _)
  have k3_hw9 : k3_chk9 (tbM3.view.readAt (Elt F) (Rect.unit (s := S50000) (k3_off17 i) S1.size (k3_off17_inb i)).toLoadRect tb (Shape.Idx.first (numel1_S1.symm ▸ Nat.one_pos))) := chk3_9_of_lt _ (hH _)
  have k3_hw10 : k3_chk10 (tbM3.view.readAt (Elt F) (Rect.unit (s := S50000) (k3_off19 i) S1.size (k3_off19_inb i)).toLoadRect tb (Shape.Idx.first (numel1_S1.symm ▸ Nat.one_pos))) := chk3_10_of_lt _ (hH _)
  have k3_hw11 : k3_chk11 (tbM3.view.readAt (Elt F) (Rect.unit (s := S50000) (k3_off21 i) S1.size (k3_off21_inb i)).toLoadRect tb (Shape.Idx.first (numel1_S1.symm ▸ Nat.one_pos))) := chk3_11_of_lt _ (hH _)
  have k3_hw12 : k3_chk12 (tbM3.view.readAt (Elt F) (Rect.unit (s := S50000) (k3_off23 i) S1.size (k3_off23_inb i)).toLoadRect tb (Shape.Idx.first (numel1_S1.symm ▸ Nat.one_pos))) := chk3_12_of_lt _ (hH _)
  have k3_hw13 : k3_chk13 (tbM3.view.readAt (Elt F) (Rect.unit (s := S50000) (k3_off25 i) S1.size (k3_off25_inb i)).toLoadRect tb (Shape.Idx.first (numel1_S1.symm ▸ Nat.one_pos))) := chk3_13_of_lt _ (hH _)
  have k3_hw14 : k3_chk14 (tbM3.view.readAt (Elt F) (Rect.unit (s := S50000) (k3_off27 i) S1.size (k3_off27_inb i)).toLoadRect tb (Shape.Idx.first (numel1_S1.symm ▸ Nat.one_pos))) := chk3_14_of_lt _ (hH _)
  have k3_hw15 : k3_chk15 (tbM3.view.readAt (Elt F) (Rect.unit (s := S50000) (k3_off29 i) S1.size (k3_off29_inb i)).toLoadRect tb (Shape.Idx.first (numel1_S1.symm ▸ Nat.one_pos))) := chk3_15_of_lt _ (hH _)
  have k3_hw16 : k3_chk16 (tbM3.view.readAt (Elt F) (Rect.unit (s := S50000) (k3_off31 i) S1.size (k3_off31_inb i)).toLoadRect tb (Shape.Idx.first (numel1_S1.symm ▸ Nat.one_pos))) := chk3_16_of_lt _ (hH _)
  refine ⟨?_, fun W K => ?run⟩
  case run =>
    simp only [cc3_kernel_eq_skeleton]; unfold cc3_kernel_skel
    simp only [k3_part7_eq_skeleton]; unfold k3_part7_skel
    simp only [k3_part1_eq_skeleton, k3_part2_eq_skeleton, k3_part3_eq_skeleton, k3_part4_eq_skeleton, k3_part5_eq_skeleton, k3_part6_eq_skeleton]
    unfold owns sems3
    iintro ⟨⟨%f0, %hf0, H0⟩, ⟨%d1, %f1, -, H3⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks3 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k3_hw1 | sl_exact k3_hw2 | sl_exact k3_hw3 | sl_exact k3_hw4 | sl_exact k3_hw5 | sl_exact k3_hw6 | sl_exact k3_hw7 | sl_exact k3_hw8 | sl_exact k3_hw9 | sl_exact k3_hw10 | sl_exact k3_hw11 | sl_exact k3_hw12 | sl_exact k3_hw13 | sl_exact k3_hw14 | sl_exact k3_hw15 | sl_exact k3_hw16)
    sl_step
    iapply Hk
    isplitl [H0]
    · iexists _; isplitr; · ipureintro; exact harg3.read_unread _
      iexact H0
    isplitl [H3]; · iexists _; iexact H3
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks3 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg3 (F := F)).Adm)

/-- Each window's current staging memref at point t, spelled as the pipeline passes it, and its wholeness. -/
abbrev ms3_0 (t : Fin (cfg3 a).N) : Memref sig .tc .vmem S16x1 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S16x512 .f32 := spec3_1.stage ((cfg3 a).slots t 1)
abbrev hs3_1 (t : Fin (cfg3 a).N) : (ms3_1 a t).IsWhole := hstage3_1 (((cfg3 a).slots t 1).cast nbuf3_1)

/-- The kernel body at point t, on what the pipeline calls it with. -/
abbrev bodyAt3 (t : Fin (cfg3 a).N) : Prog (TpuEff nD τ sig (Elt F) Λ₀ .tc) PUnit :=
  cc3_kernel (grid3.coords t) tbM3 (Memref.isWhole_whole _) hbM3 (Memref.isWhole_whole _) (ms3_0 a t) (hs3_0 a t) (ms3_1 a t) (hs3_1 a t) scM3 (Memref.isWhole_whole _) cc3_scratch1

/-! ## The invariant, conjunct by conjunct -/

/-- The sixteen own cells at zero, listed. -/
theorem ownSems03_eq (c : Dev nD) :
    (Pipeline.ownSems0 (Ix := Unit) (Name := ℕ) (U := Pipeline.UD sig nD τ) (Lvl := ℕ) (Val := Elt F) (τ := τ) osem3 c : sProp 𝕄) = sems3 c := by
  rw [Pipeline.ownSems0_eq_of_list c osem3 [0, 1, 2, 3, 4, 5, 6, 7, 8, 9, 10, 11, 12, 13, 14, 15] (by decide) (by decide)]; rfl

/-- The gathered array's points-to at the region-entry contents. -/
theorem hbmPts3_eq (c : Dev nD) :
    (bigSep H3 (fun b => ((c : Thread nD τ).loc b) ↦{fullShare} V c b) : sProp 𝕄) = iprop(hbPt3 c hbM3 (V c main_v34)) := by
  rw [BI.bigSep_eq_bigSepL_of_eq [main_v34] (by decide) (by decide)]; rfl

/-- The row table, whole, at the contents the region is launched with. -/
theorem prefHeld3_eq (c : Dev nD) :
    (Pipeline.prefHeld (Ix := Unit) (Name := ℕ) (U := Pipeline.UD sig nD τ) (Lvl := ℕ) pre3 c (fun _ => fullShare) a.1 : sProp 𝕄) = iprop(hbPt3 c tbM3 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD3_eq (c : Dev nD) :
    (Pipeline.ΦD osem3 spec3 H3 V c : sProp 𝕄)
      = iprop(iprop((∃ d, owns (c : Thread nD τ) scM3 fullShare d) ∗ Pipeline.scopedRestBut (Ix := Unit) (Name := ℕ) (U := Pipeline.UD sig nD τ) (Lvl := ℕ) (Val := Elt F) spec3 c [cc3_scratch0])
          ∗ (∃ r, prngReg c r) ∗ sems3 c ∗ iprop(hbPt3 c hbM3 (V c main_v34))) := by
  rw [Pipeline.ΦD_eq, scopedRest3_split, ownSems03_eq, hbmPts3_eq]; simp only [scM3, owns_whole]; try rfl

/-! ## The windows' blocks -/

/-- Window w's block at point t, read off its array as the region finds it. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- Input window 0's current staging buffer holds its block at every point, fetched there or not. -/
theorem before3_0_of {c : Dev nD} (dat : Dat τ (Elt F) Unit ℕ (Pipeline.UD sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## What the run leaves in the output window's buffer -/

/-- The run's pieces for the output tile its block, so they cover it. -/
theorem cover3_1 (c : Dev nD) (i : grid3.Coords) (arg3 : Memref sig .tc .vmem S16x1 .f32) (harg3 : arg3.IsWhole) (arg4 : Memref sig .tc .vmem S16x512 .f32) (harg4 : arg4.IsWhole)
    (x0 : Vec F S16x1 .f32) (tb : HbBuf3 (F := F) c tbM3) (fh0 : HbBuf3 (F := F) c hbM3) (hT : ∀ x, (tb x).toNat < 50000) (y : S16x512.Idx) :
    ∃ pc ∈ (kernelRun3 c i arg3 harg3 arg4 harg4 x0 tb fh0 hT).1, y ∈ pc.1.set :=
  View.cover_of_tiledL (kernelRun3 c i arg3 harg3 arg4 harg4 x0 tb fh0 hT).1 S16x512.size (by sl_kernel_rfl) y

/-- One staging buffer of the output window, through which its contents are stated. -/
abbrev VO3_1 : View sig .tc .vmem S16x512 .f32 := (Memref.whole cc3_stg1_0 : Memref sig .tc .vmem S16x512 .f32).view

/-- What the run leaves in the output's staging buffer: its pieces read back over junk. -/
def out3_1 (c : Dev nD) (i : grid3.Coords) (arg3 : Memref sig .tc .vmem S16x1 .f32) (harg3 : arg3.IsWhole) (arg4 : Memref sig .tc .vmem S16x512 .f32) (harg4 : arg4.IsWhole)
    (x0 : Vec F S16x1 .f32) (tb : HbBuf3 (F := F) c tbM3) (fh0 : HbBuf3 (F := F) c hbM3) (hT : ∀ x, (tb x).toNat < 50000) : Vec F S16x512 .f32 :=
  VO3_1.read (Elt F) (VO3_1.writes (Elt F) VO3_1.junk (kernelRun3 c i arg3 harg3 arg4 harg4 x0 tb fh0 hT).1)

/-- Every word of the table is a row of the gathered array, from the same of its words by position. -/
theorem tbl_lt3 (hH : ∀ j : Fin 50000, ((a.1 0) (ValueIdx.ix1 j)).toNat < 50000) (c : Dev nD) : ∀ x, (((a.1 0 : HbBuf3 (F := F) c tbM3)) x).toNat < 50000 :=
  fun x => by rw [ValueIdx.eq_ix1 x]; exact hH _

/-- What the output's staging buffer holds after the body at point t: the run's contents at the point's memrefs, the
    norm block, the table and the gathered array. -/
def outsAt3 (hH : ∀ j : Fin 50000, ((a.1 0) (ValueIdx.ix1 j)).toNat < 50000) (c : Dev nD) (t : Fin (cfg3 a).N) : Vec F S16x512 .f32 :=
  out3_1 c (grid3.coords t) (ms3_0 a t) (hs3_0 a t) (ms3_1 a t) (hs3_1 a t) (iblk3 V a c 0 t) (a.1 0) (V c main_v34) (tbl_lt3 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat3 (hH : ∀ j : Fin 50000, ((a.1 0) (ValueIdx.ix1 j)).toNat < 50000) (c : Dev nD) : Dat τ (Elt F) Unit ℕ (Pipeline.UD sig nD τ) ℕ (cfg3 a) c where
  A w := V c (Pipeline.arrRef spec3 w)
  after w t := match w with
    | ⟨0, _⟩ => iblk3 V a c 0 t
    | ⟨1, _⟩ => (outsAt3 V a hH c t)
  Φ _ := iprop(Pipeline.ΦD osem3 spec3 H3 V c ∗ Pipeline.prefHeld pre3 c (fun _ => fullShare) a.1)
  q _ := fullShare
  owed _ := 0

/-- The proof data's arrays are the region-entry contents. -/
theorem A_eq3 (hH : ∀ j : Fin 50000, ((a.1 0) (ValueIdx.ix1 j)).toNat < 50000) (c : Dev nD) (w : Fin (cfg3 a).W) : (dat3 V a hH c).A w = V c (Pipeline.arrRef spec3 w) := by
  dsimp only [dat3]

/-- What the body leaves, window by window. -/
theorem after3_0 (hH : ∀ j : Fin 50000, ((a.1 0) (ValueIdx.ix1 j)).toNat < 50000) (c : Dev nD) (t : Fin (cfg3 a).N) : (dat3 V a hH c).after 0 t = iblk3 V a c 0 t := by dsimp only [dat3]; try rfl
theorem after3_1 (hH : ∀ j : Fin 50000, ((a.1 0) (ValueIdx.ix1 j)).toNat < 50000) (c : Dev nD) (t : Fin (cfg3 a).N) : (dat3 V a hH c).after 1 t = (outsAt3 V a hH c t) := by dsimp only [dat3]; try rfl

/-- The input's current staging buffer holds its block at every point, fetched there or not. -/
theorem before3_0 (hH : ∀ j : Fin 50000, ((a.1 0) (ValueIdx.ix1 j)).toNat < 50000) (c : Dev nD) (t : Fin (cfg3 a).N) (d) : (dat3 V a hH c).before 0 t d = iblk3 V a c 0 t :=
  before3_0_of V a (dat3 V a hH c) (A_eq3 V a hH c 0) (after3_0 V a hH c) t d

/-! ## The body obligation, at a generic point -/

/-- What the body is called with at point t, the windows one by one, -/
def bodyPre3 (hH : ∀ j : Fin 50000, ((a.1 0) (ValueIdx.ix1 j)).toNat < 50000) (c : Dev nD) (t : Fin (cfg3 a).N) : sProp 𝕄 :=
  iprop((dat3 V a hH c).Φ t.castSucc ∗ (dat3 V a hH c).owesAt () t.castSucc
    ∗ (∃ d, owns (c : Thread nD τ) (ms3_0 a t) fullShare ((dat3 V a hH c).before 0 t d))
    ∗ (∃ d, owns (c : Thread nD τ) (ms3_1 a t) fullShare ((dat3 V a hH c).before 1 t d)))

/-- and what it returns. -/
def bodyPost3 (hH : ∀ j : Fin 50000, ((a.1 0) (ValueIdx.ix1 j)).toNat < 50000) (c : Dev nD) (t : Fin (cfg3 a).N) : sProp 𝕄 :=
  iprop((dat3 V a hH c).Φ t.succ ∗ (dat3 V a hH c).owesAt () t.succ
    ∗ owns (c : Thread nD τ) (ms3_0 a t) fullShare ((dat3 V a hH c).after 0 t)
    ∗ owns (c : Thread nD τ) (ms3_1 a t) fullShare ((dat3 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body3 (hH : ∀ j : Fin 50000, ((a.1 0) (ValueIdx.ix1 j)).toNat < 50000) (c : Dev nD) (t : Fin (cfg3 a).N) :
    bodyPre3 V a hH c t ⊢ wp frame (wpE (defs₀ (F := F)) Variants.none c none) Set.univ (bodyAt3 a t) (fun _ => bodyPost3 V a hH c t) := by
  unfold bodyPre3 bodyPost3 bodyAt3
  simp only [before3_0]
  rw [show (dat3 V a hH c).Φ t.succ = (dat3 V a hH c).Φ t.castSucc from rfl,
    after3_0, after3_1]
  rw [show (dat3 V a hH c).Φ t.castSucc = iprop(Pipeline.ΦD osem3 spec3 H3 V c ∗ Pipeline.prefHeld pre3 c (fun _ => fullShare) a.1) from rfl, PhiD3_eq, prefHeld3_eq]
  unfold Dat.owesAt Pipeline.owesWithin
  rw [show (dat3 V a hH c).owed t.castSucc = 0 from rfl, show (dat3 V a hH c).owed t.succ = 0 from rfl]
  unfold outsAt3
  unfold out3_1
  iintro ⟨⟨⟨⟨HS0, HSr⟩, Hg, Hq, Hh0⟩, HT⟩, ⟨%W, -, HW⟩, ⟨%d0, H0⟩, ⟨%d1, H3⟩⟩
  iapply ((kernelRun3 c (grid3.coords t) _ _ _ _ (iblk3 V a c 0 t) (a.1 0) (V c main_v34) (tbl_lt3 a hH c)).2 W _)
  isplitl [H0]; · iexact H0
  isplitl [H3]; · iexists _; iexact H3
  isplitl [HS0]; · iexact HS0
  isplitl [Hq]; · iexact Hq
  isplitl [Hh0]; · iexact Hh0
  isplitl [HT]; · iexact HT
  isplitl [HW]; · iexact HW
  iintro ⟨H0, ⟨%e1, H3⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H3
  ipureintro; exact View.read_writes_of_cover _ _ _ _ _ (cover3_1 c _ _ _ _ _ _ _ _ _)

/-- The library's body obligation, at every point. -/
theorem body_obligation3 (hH : ∀ j : Fin 50000, ((a.1 0) (ValueIdx.ix1 j)).toNat < 50000) (c : Dev nD) : BodyObligation (dat3 (F := F) V a hH c) (defs₀ (F := F)) Variants.none () Set.univ := fun t => by
  rw [bigSep_W3, bigSep_W3]
  exact sound_body3 V a hH c t

end Cert.KernelIdeal.Hand

end
-- ==== Proof.G4.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 4 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem4 : Fin 16 → SemLoc sig := fun j =>
  (![SemLoc.dma 69, SemLoc.dma 70, SemLoc.dma 71, SemLoc.dma 72, SemLoc.dma 73, SemLoc.dma 74, SemLoc.dma 75, SemLoc.dma 76,
     SemLoc.dma 77, SemLoc.dma 78, SemLoc.dma 79, SemLoc.dma 80, SemLoc.dma 81, SemLoc.dma 82, SemLoc.dma 83, SemLoc.dma 84] : Fin 16 → SemLoc sig) j
theorem ownSemFacts4 : Pipeline.OwnSemFacts spec4 osem4 := by decide

/-- The HBM operand the body gathers rows from: unscoped, no window's array, no table. -/
def H4 : Finset (Ref sig .tc) := {main_v34}
theorem H4_sub : H4 ⊆ Pipeline.restRefsP sig pre4 spec4 := by decide

/-- The operands the pipeline does not stage, whole. -/
abbrev tbM4 : Memref sig .tc .smem S50000 .i32 := Memref.whole main_v45
abbrev hbM4 : Memref sig .tc .hbm S50000x512 .f32 := Memref.whole main_v34
abbrev scM4 : Memref sig .tc .vmem S16x512 .f32 := Memref.whole cc4_scratch0

/-- A whole memref's buffer on core `c`, and it held whole at `f`. -/
abbrev HbBuf4 (c : Dev nD) {sp : Space} {S : Shape} {e : EltTy} (M : Memref sig .tc sp S e) : Type := Buf (Elt F) (M.view.loc (c : Thread nD τ))
abbrev hbPt4 (c : Dev nD) {sp : Space} {S : Shape} {e : EltTy} (M : Memref sig .tc sp S e) (f : HbBuf4 (F := F) c M) : sProp 𝕄 :=
  M.view.loc (c : Thread nD τ) ↦{fullShare} f

/-- The sixteen own cells at zero. -/
abbrev sems4 (c : Dev nD) : sProp 𝕄 :=
  iprop(semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0)

/-- A row index inside the gathered array puts the one-row slice inside it. -/
theorem row_inb4 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk4_1_of_lt (w : BitVec 32) (h : w.toNat < 50000) : k4_chk1 w := ⟨row_inb4 w h, row_inb4 w h⟩
theorem chk4_2_of_lt (w : BitVec 32) (h : w.toNat < 50000) : k4_chk2 w := ⟨row_inb4 w h, row_inb4 w h⟩
theorem chk4_3_of_lt (w : BitVec 32) (h : w.toNat < 50000) : k4_chk3 w := ⟨row_inb4 w h, row_inb4 w h⟩
theorem chk4_4_of_lt (w : BitVec 32) (h : w.toNat < 50000) : k4_chk4 w := ⟨row_inb4 w h, row_inb4 w h⟩
theorem chk4_5_of_lt (w : BitVec 32) (h : w.toNat < 50000) : k4_chk5 w := ⟨row_inb4 w h, row_inb4 w h⟩
theorem chk4_6_of_lt (w : BitVec 32) (h : w.toNat < 50000) : k4_chk6 w := ⟨row_inb4 w h, row_inb4 w h⟩
theorem chk4_7_of_lt (w : BitVec 32) (h : w.toNat < 50000) : k4_chk7 w := ⟨row_inb4 w h, row_inb4 w h⟩
theorem chk4_8_of_lt (w : BitVec 32) (h : w.toNat < 50000) : k4_chk8 w := ⟨row_inb4 w h, row_inb4 w h⟩
theorem chk4_9_of_lt (w : BitVec 32) (h : w.toNat < 50000) : k4_chk9 w := ⟨row_inb4 w h, row_inb4 w h⟩
theorem chk4_10_of_lt (w : BitVec 32) (h : w.toNat < 50000) : k4_chk10 w := ⟨row_inb4 w h, row_inb4 w h⟩
theorem chk4_11_of_lt (w : BitVec 32) (h : w.toNat < 50000) : k4_chk11 w := ⟨row_inb4 w h, row_inb4 w h⟩
theorem chk4_12_of_lt (w : BitVec 32) (h : w.toNat < 50000) : k4_chk12 w := ⟨row_inb4 w h, row_inb4 w h⟩
theorem chk4_13_of_lt (w : BitVec 32) (h : w.toNat < 50000) : k4_chk13 w := ⟨row_inb4 w h, row_inb4 w h⟩
theorem chk4_14_of_lt (w : BitVec 32) (h : w.toNat < 50000) : k4_chk14 w := ⟨row_inb4 w h, row_inb4 w h⟩
theorem chk4_15_of_lt (w : BitVec 32) (h : w.toNat < 50000) : k4_chk15 w := ⟨row_inb4 w h, row_inb4 w h⟩
theorem chk4_16_of_lt (w : BitVec 32) (h : w.toNat < 50000) : k4_chk16 w := row_inb4 w h

/-- A whole points-to as what stays behind, sixteen read tokens numbered `b + 15` down to `b`, and the tokens below
    `b` kept as one family. -/
theorem toksAt4 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 69 … 84. -/
theorem toks4 {ℓ : Loc nD τ sig} (f : Buf (Elt F) ℓ) :
    (ℓ ↦{fullShare} f : sProp 𝕄) ⊣⊢ iprop((ℓ ↦{Transfers.shareDrop fullShare 85} f) ∗ (ℓ ↦{Transfers.shareTokN fullShare 84} f) ∗ (ℓ ↦{Transfers.shareTokN fullShare 83} f) ∗ (ℓ ↦{Transfers.shareTokN fullShare 82} f) ∗ (ℓ ↦{Transfers.shareTokN fullShare 81} f) ∗ (ℓ ↦{Transfers.shareTokN fullShare 80} f) ∗ (ℓ ↦{Transfers.shareTokN fullShare 79} f) ∗ (ℓ ↦{Transfers.shareTokN fullShare 78} f) ∗ (ℓ ↦{Transfers.shareTokN fullShare 77} f) ∗ (ℓ ↦{Transfers.shareTokN fullShare 76} f) ∗ (ℓ ↦{Transfers.shareTokN fullShare 75} f) ∗ (ℓ ↦{Transfers.shareTokN fullShare 74} f) ∗ (ℓ ↦{Transfers.shareTokN fullShare 73} f) ∗ (ℓ ↦{Transfers.shareTokN fullShare 72} f) ∗ (ℓ ↦{Transfers.shareTokN fullShare 71} f) ∗ (ℓ ↦{Transfers.shareTokN fullShare 70} f) ∗ (ℓ ↦{Transfers.shareTokN fullShare 69} f)
      ∗ BI.bigSep (Finset.range 69) fun k => ℓ ↦{Transfers.shareTokN fullShare k} f) :=
  toksAt4 f 69

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun4 (c : Dev nD) (i : grid4.Coords) (arg3 : Memref sig .tc .vmem S16x1 .f32) (harg3 : arg3.IsWhole) (arg4 : Memref sig .tc .vmem S16x512 .f32) (harg4 : arg4.IsWhole)
    (x0 : Vec F S16x1 .f32) (tb : HbBuf4 (F := F) c tbM4) (fh0 : HbBuf4 (F := F) c hbM4) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM4 fullShare d) ∗ sems4 c ∗ hbPt4 c hbM4 fh0 ∗ hbPt4 c tbM4 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM4 fullShare d) ∗ sems4 c ∗ hbPt4 c hbM4 fh0 ∗ hbPt4 c tbM4 tb ∗ (∃ W', owes (c : Thread nD τ) 0 W')) -∗ K ⟨⟩))
          ⊢ wp frame (wpE (defs₀ (F := F)) Variants.none c none) Set.univ (cc4_kernel i tbM4 (Memref.isWhole_whole _) hbM4 (Memref.isWhole_whole _) arg3 harg3 arg4 harg4 scM4 (Memref.isWhole_whole _) cc4_scratch1) K } := by
  have k4_hw1 : k4_chk1 (tbM4.view.readAt (Elt F) (Rect.unit (s := S50000) (k4_off1 i) S1.size (k4_off1_inb i)).toLoadRect tb (Shape.Idx.first (numel1_S1.symm ▸ Nat.one_pos))) := chk4_1_of_lt _ (hH _)
  have k4_hw2 : k4_chk2 (tbM4.view.readAt (Elt F) (Rect.unit (s := S50000) (k4_off3 i) S1.size (k4_off3_inb i)).toLoadRect tb (Shape.Idx.first (numel1_S1.symm ▸ Nat.one_pos))) := chk4_2_of_lt _ (hH _)
  have k4_hw3 : k4_chk3 (tbM4.view.readAt (Elt F) (Rect.unit (s := S50000) (k4_off5 i) S1.size (k4_off5_inb i)).toLoadRect tb (Shape.Idx.first (numel1_S1.symm ▸ Nat.one_pos))) := chk4_3_of_lt _ (hH _)
  have k4_hw4 : k4_chk4 (tbM4.view.readAt (Elt F) (Rect.unit (s := S50000) (k4_off7 i) S1.size (k4_off7_inb i)).toLoadRect tb (Shape.Idx.first (numel1_S1.symm ▸ Nat.one_pos))) := chk4_4_of_lt _ (hH _)
  have k4_hw5 : k4_chk5 (tbM4.view.readAt (Elt F) (Rect.unit (s := S50000) (k4_off9 i) S1.size (k4_off9_inb i)).toLoadRect tb (Shape.Idx.first (numel1_S1.symm ▸ Nat.one_pos))) := chk4_5_of_lt _ (hH _)
  have k4_hw6 : k4_chk6 (tbM4.view.readAt (Elt F) (Rect.unit (s := S50000) (k4_off11 i) S1.size (k4_off11_inb i)).toLoadRect tb (Shape.Idx.first (numel1_S1.symm ▸ Nat.one_pos))) := chk4_6_of_lt _ (hH _)
  have k4_hw7 : k4_chk7 (tbM4.view.readAt (Elt F) (Rect.unit (s := S50000) (k4_off13 i) S1.size (k4_off13_inb i)).toLoadRect tb (Shape.Idx.first (numel1_S1.symm ▸ Nat.one_pos))) := chk4_7_of_lt _ (hH _)
  have k4_hw8 : k4_chk8 (tbM4.view.readAt (Elt F) (Rect.unit (s := S50000) (k4_off15 i) S1.size (k4_off15_inb i)).toLoadRect tb (Shape.Idx.first (numel1_S1.symm ▸ Nat.one_pos))) := chk4_8_of_lt _ (hH _)
  have k4_hw9 : k4_chk9 (tbM4.view.readAt (Elt F) (Rect.unit (s := S50000) (k4_off17 i) S1.size (k4_off17_inb i)).toLoadRect tb (Shape.Idx.first (numel1_S1.symm ▸ Nat.one_pos))) := chk4_9_of_lt _ (hH _)
  have k4_hw10 : k4_chk10 (tbM4.view.readAt (Elt F) (Rect.unit (s := S50000) (k4_off19 i) S1.size (k4_off19_inb i)).toLoadRect tb (Shape.Idx.first (numel1_S1.symm ▸ Nat.one_pos))) := chk4_10_of_lt _ (hH _)
  have k4_hw11 : k4_chk11 (tbM4.view.readAt (Elt F) (Rect.unit (s := S50000) (k4_off21 i) S1.size (k4_off21_inb i)).toLoadRect tb (Shape.Idx.first (numel1_S1.symm ▸ Nat.one_pos))) := chk4_11_of_lt _ (hH _)
  have k4_hw12 : k4_chk12 (tbM4.view.readAt (Elt F) (Rect.unit (s := S50000) (k4_off23 i) S1.size (k4_off23_inb i)).toLoadRect tb (Shape.Idx.first (numel1_S1.symm ▸ Nat.one_pos))) := chk4_12_of_lt _ (hH _)
  have k4_hw13 : k4_chk13 (tbM4.view.readAt (Elt F) (Rect.unit (s := S50000) (k4_off25 i) S1.size (k4_off25_inb i)).toLoadRect tb (Shape.Idx.first (numel1_S1.symm ▸ Nat.one_pos))) := chk4_13_of_lt _ (hH _)
  have k4_hw14 : k4_chk14 (tbM4.view.readAt (Elt F) (Rect.unit (s := S50000) (k4_off27 i) S1.size (k4_off27_inb i)).toLoadRect tb (Shape.Idx.first (numel1_S1.symm ▸ Nat.one_pos))) := chk4_14_of_lt _ (hH _)
  have k4_hw15 : k4_chk15 (tbM4.view.readAt (Elt F) (Rect.unit (s := S50000) (k4_off29 i) S1.size (k4_off29_inb i)).toLoadRect tb (Shape.Idx.first (numel1_S1.symm ▸ Nat.one_pos))) := chk4_15_of_lt _ (hH _)
  have k4_hw16 : k4_chk16 (tbM4.view.readAt (Elt F) (Rect.unit (s := S50000) (k4_off31 i) S1.size (k4_off31_inb i)).toLoadRect tb (Shape.Idx.first (numel1_S1.symm ▸ Nat.one_pos))) := chk4_16_of_lt _ (hH _)
  refine ⟨?_, fun W K => ?run⟩
  case run =>
    simp only [cc4_kernel_eq_skeleton]; unfold cc4_kernel_skel
    simp only [k4_part7_eq_skeleton]; unfold k4_part7_skel
    simp only [k4_part1_eq_skeleton, k4_part2_eq_skeleton, k4_part3_eq_skeleton, k4_part4_eq_skeleton, k4_part5_eq_skeleton, k4_part6_eq_skeleton]
    unfold owns sems4
    iintro ⟨⟨%f0, %hf0, H0⟩, ⟨%d1, %f1, -, H4⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks4 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k4_hw1 | sl_exact k4_hw2 | sl_exact k4_hw3 | sl_exact k4_hw4 | sl_exact k4_hw5 | sl_exact k4_hw6 | sl_exact k4_hw7 | sl_exact k4_hw8 | sl_exact k4_hw9 | sl_exact k4_hw10 | sl_exact k4_hw11 | sl_exact k4_hw12 | sl_exact k4_hw13 | sl_exact k4_hw14 | sl_exact k4_hw15 | sl_exact k4_hw16)
    sl_step
    iapply Hk
    isplitl [H0]
    · iexists _; isplitr; · ipureintro; exact harg3.read_unread _
      iexact H0
    isplitl [H4]; · iexists _; iexact H4
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks4 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg4 (F := F)).Adm)

/-- Each window's current staging memref at point t, spelled as the pipeline passes it, and its wholeness. -/
abbrev ms4_0 (t : Fin (cfg4 a).N) : Memref sig .tc .vmem S16x1 .f32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S16x512 .f32 := spec4_1.stage ((cfg4 a).slots t 1)
abbrev hs4_1 (t : Fin (cfg4 a).N) : (ms4_1 a t).IsWhole := hstage4_1 (((cfg4 a).slots t 1).cast nbuf4_1)

/-- The kernel body at point t, on what the pipeline calls it with. -/
abbrev bodyAt4 (t : Fin (cfg4 a).N) : Prog (TpuEff nD τ sig (Elt F) Λ₀ .tc) PUnit :=
  cc4_kernel (grid4.coords t) tbM4 (Memref.isWhole_whole _) hbM4 (Memref.isWhole_whole _) (ms4_0 a t) (hs4_0 a t) (ms4_1 a t) (hs4_1 a t) scM4 (Memref.isWhole_whole _) cc4_scratch1

/-! ## The invariant, conjunct by conjunct -/

/-- The sixteen own cells at zero, listed. -/
theorem ownSems04_eq (c : Dev nD) :
    (Pipeline.ownSems0 (Ix := Unit) (Name := ℕ) (U := Pipeline.UD sig nD τ) (Lvl := ℕ) (Val := Elt F) (τ := τ) osem4 c : sProp 𝕄) = sems4 c := by
  rw [Pipeline.ownSems0_eq_of_list c osem4 [0, 1, 2, 3, 4, 5, 6, 7, 8, 9, 10, 11, 12, 13, 14, 15] (by decide) (by decide)]; rfl

/-- The gathered array's points-to at the region-entry contents. -/
theorem hbmPts4_eq (c : Dev nD) :
    (bigSep H4 (fun b => ((c : Thread nD τ).loc b) ↦{fullShare} V c b) : sProp 𝕄) = iprop(hbPt4 c hbM4 (V c main_v34)) := by
  rw [BI.bigSep_eq_bigSepL_of_eq [main_v34] (by decide) (by decide)]; rfl

/-- The row table, whole, at the contents the region is launched with. -/
theorem prefHeld4_eq (c : Dev nD) :
    (Pipeline.prefHeld (Ix := Unit) (Name := ℕ) (U := Pipeline.UD sig nD τ) (Lvl := ℕ) pre4 c (fun _ => fullShare) a.1 : sProp 𝕄) = iprop(hbPt4 c tbM4 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD4_eq (c : Dev nD) :
    (Pipeline.ΦD osem4 spec4 H4 V c : sProp 𝕄)
      = iprop(iprop((∃ d, owns (c : Thread nD τ) scM4 fullShare d) ∗ Pipeline.scopedRestBut (Ix := Unit) (Name := ℕ) (U := Pipeline.UD sig nD τ) (Lvl := ℕ) (Val := Elt F) spec4 c [cc4_scratch0])
          ∗ (∃ r, prngReg c r) ∗ sems4 c ∗ iprop(hbPt4 c hbM4 (V c main_v34))) := by
  rw [Pipeline.ΦD_eq, scopedRest4_split, ownSems04_eq, hbmPts4_eq]; simp only [scM4, owns_whole]; try rfl

/-! ## The windows' blocks -/

/-- Window w's block at point t, read off its array as the region finds it. -/
def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- Input window 0's current staging buffer holds its block at every point, fetched there or not. -/
theorem before4_0_of {c : Dev nD} (dat : Dat τ (Elt F) Unit ℕ (Pipeline.UD sig nD τ) ℕ (cfg4 a) c) (hA : dat.A 0 = V c (Pipeline.arrRef spec4 0))
    (hafter : ∀ t, dat.after 0 t = iblk4 V a c 0 t) (t : Fin (cfg4 a).N) (d) : dat.before 0 t d = iblk4 V a c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What the run leaves in the output window's buffer -/

/-- The run's pieces for the output tile its block, so they cover it. -/
theorem cover4_1 (c : Dev nD) (i : grid4.Coords) (arg3 : Memref sig .tc .vmem S16x1 .f32) (harg3 : arg3.IsWhole) (arg4 : Memref sig .tc .vmem S16x512 .f32) (harg4 : arg4.IsWhole)
    (x0 : Vec F S16x1 .f32) (tb : HbBuf4 (F := F) c tbM4) (fh0 : HbBuf4 (F := F) c hbM4) (hT : ∀ x, (tb x).toNat < 50000) (y : S16x512.Idx) :
    ∃ pc ∈ (kernelRun4 c i arg3 harg3 arg4 harg4 x0 tb fh0 hT).1, y ∈ pc.1.set :=
  View.cover_of_tiledL (kernelRun4 c i arg3 harg3 arg4 harg4 x0 tb fh0 hT).1 S16x512.size (by sl_kernel_rfl) y

/-- One staging buffer of the output window, through which its contents are stated. -/
abbrev VO4_1 : View sig .tc .vmem S16x512 .f32 := (Memref.whole cc4_stg1_0 : Memref sig .tc .vmem S16x512 .f32).view

/-- What the run leaves in the output's staging buffer: its pieces read back over junk. -/
def out4_1 (c : Dev nD) (i : grid4.Coords) (arg3 : Memref sig .tc .vmem S16x1 .f32) (harg3 : arg3.IsWhole) (arg4 : Memref sig .tc .vmem S16x512 .f32) (harg4 : arg4.IsWhole)
    (x0 : Vec F S16x1 .f32) (tb : HbBuf4 (F := F) c tbM4) (fh0 : HbBuf4 (F := F) c hbM4) (hT : ∀ x, (tb x).toNat < 50000) : Vec F S16x512 .f32 :=
  VO4_1.read (Elt F) (VO4_1.writes (Elt F) VO4_1.junk (kernelRun4 c i arg3 harg3 arg4 harg4 x0 tb fh0 hT).1)

/-- Every word of the table is a row of the gathered array, from the same of its words by position. -/
theorem tbl_lt4 (hH : ∀ j : Fin 50000, ((a.1 0) (ValueIdx.ix1 j)).toNat < 50000) (c : Dev nD) : ∀ x, (((a.1 0 : HbBuf4 (F := F) c tbM4)) x).toNat < 50000 :=
  fun x => by rw [ValueIdx.eq_ix1 x]; exact hH _

/-- What the output's staging buffer holds after the body at point t: the run's contents at the point's memrefs, the
    norm block, the table and the gathered array. -/
def outsAt4 (hH : ∀ j : Fin 50000, ((a.1 0) (ValueIdx.ix1 j)).toNat < 50000) (c : Dev nD) (t : Fin (cfg4 a).N) : Vec F S16x512 .f32 :=
  out4_1 c (grid4.coords t) (ms4_0 a t) (hs4_0 a t) (ms4_1 a t) (hs4_1 a t) (iblk4 V a c 0 t) (a.1 0) (V c main_v34) (tbl_lt4 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat4 (hH : ∀ j : Fin 50000, ((a.1 0) (ValueIdx.ix1 j)).toNat < 50000) (c : Dev nD) : Dat τ (Elt F) Unit ℕ (Pipeline.UD sig nD τ) ℕ (cfg4 a) c where
  A w := V c (Pipeline.arrRef spec4 w)
  after w t := match w with
    | ⟨0, _⟩ => iblk4 V a c 0 t
    | ⟨1, _⟩ => (outsAt4 V a hH c t)
  Φ _ := iprop(Pipeline.ΦD osem4 spec4 H4 V c ∗ Pipeline.prefHeld pre4 c (fun _ => fullShare) a.1)
  q _ := fullShare
  owed _ := 0

/-- The proof data's arrays are the region-entry contents. -/
theorem A_eq4 (hH : ∀ j : Fin 50000, ((a.1 0) (ValueIdx.ix1 j)).toNat < 50000) (c : Dev nD) (w : Fin (cfg4 a).W) : (dat4 V a hH c).A w = V c (Pipeline.arrRef spec4 w) := by
  dsimp only [dat4]

/-- What the body leaves, window by window. -/
theorem after4_0 (hH : ∀ j : Fin 50000, ((a.1 0) (ValueIdx.ix1 j)).toNat < 50000) (c : Dev nD) (t : Fin (cfg4 a).N) : (dat4 V a hH c).after 0 t = iblk4 V a c 0 t := by dsimp only [dat4]; try rfl
theorem after4_1 (hH : ∀ j : Fin 50000, ((a.1 0) (ValueIdx.ix1 j)).toNat < 50000) (c : Dev nD) (t : Fin (cfg4 a).N) : (dat4 V a hH c).after 1 t = (outsAt4 V a hH c t) := by dsimp only [dat4]; try rfl

/-- The input's current staging buffer holds its block at every point, fetched there or not. -/
theorem before4_0 (hH : ∀ j : Fin 50000, ((a.1 0) (ValueIdx.ix1 j)).toNat < 50000) (c : Dev nD) (t : Fin (cfg4 a).N) (d) : (dat4 V a hH c).before 0 t d = iblk4 V a c 0 t :=
  before4_0_of V a (dat4 V a hH c) (A_eq4 V a hH c 0) (after4_0 V a hH c) t d

/-! ## The body obligation, at a generic point -/

/-- What the body is called with at point t, the windows one by one, -/
def bodyPre4 (hH : ∀ j : Fin 50000, ((a.1 0) (ValueIdx.ix1 j)).toNat < 50000) (c : Dev nD) (t : Fin (cfg4 a).N) : sProp 𝕄 :=
  iprop((dat4 V a hH c).Φ t.castSucc ∗ (dat4 V a hH c).owesAt () t.castSucc
    ∗ (∃ d, owns (c : Thread nD τ) (ms4_0 a t) fullShare ((dat4 V a hH c).before 0 t d))
    ∗ (∃ d, owns (c : Thread nD τ) (ms4_1 a t) fullShare ((dat4 V a hH c).before 1 t d)))

/-- and what it returns. -/
def bodyPost4 (hH : ∀ j : Fin 50000, ((a.1 0) (ValueIdx.ix1 j)).toNat < 50000) (c : Dev nD) (t : Fin (cfg4 a).N) : sProp 𝕄 :=
  iprop((dat4 V a hH c).Φ t.succ ∗ (dat4 V a hH c).owesAt () t.succ
    ∗ owns (c : Thread nD τ) (ms4_0 a t) fullShare ((dat4 V a hH c).after 0 t)
    ∗ owns (c : Thread nD τ) (ms4_1 a t) fullShare ((dat4 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body4 (hH : ∀ j : Fin 50000, ((a.1 0) (ValueIdx.ix1 j)).toNat < 50000) (c : Dev nD) (t : Fin (cfg4 a).N) :
    bodyPre4 V a hH c t ⊢ wp frame (wpE (defs₀ (F := F)) Variants.none c none) Set.univ (bodyAt4 a t) (fun _ => bodyPost4 V a hH c t) := by
  unfold bodyPre4 bodyPost4 bodyAt4
  simp only [before4_0]
  rw [show (dat4 V a hH c).Φ t.succ = (dat4 V a hH c).Φ t.castSucc from rfl,
    after4_0, after4_1]
  rw [show (dat4 V a hH c).Φ t.castSucc = iprop(Pipeline.ΦD osem4 spec4 H4 V c ∗ Pipeline.prefHeld pre4 c (fun _ => fullShare) a.1) from rfl, PhiD4_eq, prefHeld4_eq]
  unfold Dat.owesAt Pipeline.owesWithin
  rw [show (dat4 V a hH c).owed t.castSucc = 0 from rfl, show (dat4 V a hH c).owed t.succ = 0 from rfl]
  unfold outsAt4
  unfold out4_1
  iintro ⟨⟨⟨⟨HS0, HSr⟩, Hg, Hq, Hh0⟩, HT⟩, ⟨%W, -, HW⟩, ⟨%d0, H0⟩, ⟨%d1, H4⟩⟩
  iapply ((kernelRun4 c (grid4.coords t) _ _ _ _ (iblk4 V a c 0 t) (a.1 0) (V c main_v34) (tbl_lt4 a hH c)).2 W _)
  isplitl [H0]; · iexact H0
  isplitl [H4]; · iexists _; iexact H4
  isplitl [HS0]; · iexact HS0
  isplitl [Hq]; · iexact Hq
  isplitl [Hh0]; · iexact Hh0
  isplitl [HT]; · iexact HT
  isplitl [HW]; · iexact HW
  iintro ⟨H0, ⟨%e1, H4⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H4
  ipureintro; exact View.read_writes_of_cover _ _ _ _ _ (cover4_1 c _ _ _ _ _ _ _ _ _)

/-- The library's body obligation, at every point. -/
theorem body_obligation4 (hH : ∀ j : Fin 50000, ((a.1 0) (ValueIdx.ix1 j)).toNat < 50000) (c : Dev nD) : BodyObligation (dat4 (F := F) V a hH c) (defs₀ (F := F)) Variants.none () Set.univ := fun t => by
  rw [bigSep_W4, bigSep_W4]
  exact sound_body4 V a hH c t

end Cert.KernelIdeal.Hand

end
-- ==== Proof.G5.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 5 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem5 : Fin 16 → SemLoc sig := fun j =>
  (![SemLoc.dma 89, SemLoc.dma 90, SemLoc.dma 91, SemLoc.dma 92, SemLoc.dma 93, SemLoc.dma 94, SemLoc.dma 95, SemLoc.dma 96,
     SemLoc.dma 97, SemLoc.dma 98, SemLoc.dma 99, SemLoc.dma 100, SemLoc.dma 101, SemLoc.dma 102, SemLoc.dma 103, SemLoc.dma 104] : Fin 16 → SemLoc sig) j
theorem ownSemFacts5 : Pipeline.OwnSemFacts spec5 osem5 := by decide

/-- The HBM operand the body gathers rows from: unscoped, no window's array, no table. -/
def H5 : Finset (Ref sig .tc) := {main_v34}
theorem H5_sub : H5 ⊆ Pipeline.restRefsP sig pre5 spec5 := by decide

/-- The operands the pipeline does not stage, whole. -/
abbrev tbM5 : Memref sig .tc .smem S50000 .i32 := Memref.whole main_v48
abbrev hbM5 : Memref sig .tc .hbm S50000x512 .f32 := Memref.whole main_v34
abbrev scM5 : Memref sig .tc .vmem S16x512 .f32 := Memref.whole cc5_scratch0

/-- A whole memref's buffer on core `c`, and it held whole at `f`. -/
abbrev HbBuf5 (c : Dev nD) {sp : Space} {S : Shape} {e : EltTy} (M : Memref sig .tc sp S e) : Type := Buf (Elt F) (M.view.loc (c : Thread nD τ))
abbrev hbPt5 (c : Dev nD) {sp : Space} {S : Shape} {e : EltTy} (M : Memref sig .tc sp S e) (f : HbBuf5 (F := F) c M) : sProp 𝕄 :=
  M.view.loc (c : Thread nD τ) ↦{fullShare} f

/-- The sixteen own cells at zero. -/
abbrev sems5 (c : Dev nD) : sProp 𝕄 :=
  iprop(semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0)

/-- A row index inside the gathered array puts the one-row slice inside it. -/
theorem row_inb5 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk5_1_of_lt (w : BitVec 32) (h : w.toNat < 50000) : k5_chk1 w := ⟨row_inb5 w h, row_inb5 w h⟩
theorem chk5_2_of_lt (w : BitVec 32) (h : w.toNat < 50000) : k5_chk2 w := ⟨row_inb5 w h, row_inb5 w h⟩
theorem chk5_3_of_lt (w : BitVec 32) (h : w.toNat < 50000) : k5_chk3 w := ⟨row_inb5 w h, row_inb5 w h⟩
theorem chk5_4_of_lt (w : BitVec 32) (h : w.toNat < 50000) : k5_chk4 w := ⟨row_inb5 w h, row_inb5 w h⟩
theorem chk5_5_of_lt (w : BitVec 32) (h : w.toNat < 50000) : k5_chk5 w := ⟨row_inb5 w h, row_inb5 w h⟩
theorem chk5_6_of_lt (w : BitVec 32) (h : w.toNat < 50000) : k5_chk6 w := ⟨row_inb5 w h, row_inb5 w h⟩
theorem chk5_7_of_lt (w : BitVec 32) (h : w.toNat < 50000) : k5_chk7 w := ⟨row_inb5 w h, row_inb5 w h⟩
theorem chk5_8_of_lt (w : BitVec 32) (h : w.toNat < 50000) : k5_chk8 w := ⟨row_inb5 w h, row_inb5 w h⟩
theorem chk5_9_of_lt (w : BitVec 32) (h : w.toNat < 50000) : k5_chk9 w := ⟨row_inb5 w h, row_inb5 w h⟩
theorem chk5_10_of_lt (w : BitVec 32) (h : w.toNat < 50000) : k5_chk10 w := ⟨row_inb5 w h, row_inb5 w h⟩
theorem chk5_11_of_lt (w : BitVec 32) (h : w.toNat < 50000) : k5_chk11 w := ⟨row_inb5 w h, row_inb5 w h⟩
theorem chk5_12_of_lt (w : BitVec 32) (h : w.toNat < 50000) : k5_chk12 w := ⟨row_inb5 w h, row_inb5 w h⟩
theorem chk5_13_of_lt (w : BitVec 32) (h : w.toNat < 50000) : k5_chk13 w := ⟨row_inb5 w h, row_inb5 w h⟩
theorem chk5_14_of_lt (w : BitVec 32) (h : w.toNat < 50000) : k5_chk14 w := ⟨row_inb5 w h, row_inb5 w h⟩
theorem chk5_15_of_lt (w : BitVec 32) (h : w.toNat < 50000) : k5_chk15 w := ⟨row_inb5 w h, row_inb5 w h⟩
theorem chk5_16_of_lt (w : BitVec 32) (h : w.toNat < 50000) : k5_chk16 w := row_inb5 w h

/-- A whole points-to as what stays behind, sixteen read tokens numbered `b + 15` down to `b`, and the tokens below
    `b` kept as one family. -/
theorem toksAt5 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 89 … 104. -/
theorem toks5 {ℓ : Loc nD τ sig} (f : Buf (Elt F) ℓ) :
    (ℓ ↦{fullShare} f : sProp 𝕄) ⊣⊢ iprop((ℓ ↦{Transfers.shareDrop fullShare 105} f) ∗ (ℓ ↦{Transfers.shareTokN fullShare 104} f) ∗ (ℓ ↦{Transfers.shareTokN fullShare 103} f) ∗ (ℓ ↦{Transfers.shareTokN fullShare 102} f) ∗ (ℓ ↦{Transfers.shareTokN fullShare 101} f) ∗ (ℓ ↦{Transfers.shareTokN fullShare 100} f) ∗ (ℓ ↦{Transfers.shareTokN fullShare 99} f) ∗ (ℓ ↦{Transfers.shareTokN fullShare 98} f) ∗ (ℓ ↦{Transfers.shareTokN fullShare 97} f) ∗ (ℓ ↦{Transfers.shareTokN fullShare 96} f) ∗ (ℓ ↦{Transfers.shareTokN fullShare 95} f) ∗ (ℓ ↦{Transfers.shareTokN fullShare 94} f) ∗ (ℓ ↦{Transfers.shareTokN fullShare 93} f) ∗ (ℓ ↦{Transfers.shareTokN fullShare 92} f) ∗ (ℓ ↦{Transfers.shareTokN fullShare 91} f) ∗ (ℓ ↦{Transfers.shareTokN fullShare 90} f) ∗ (ℓ ↦{Transfers.shareTokN fullShare 89} f)
      ∗ BI.bigSep (Finset.range 89) fun k => ℓ ↦{Transfers.shareTokN fullShare k} f) :=
  toksAt5 f 89

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun5 (c : Dev nD) (i : grid5.Coords) (arg3 : Memref sig .tc .vmem S16x1 .f32) (harg3 : arg3.IsWhole) (arg4 : Memref sig .tc .vmem S16x512 .f32) (harg4 : arg4.IsWhole)
    (x0 : Vec F S16x1 .f32) (tb : HbBuf5 (F := F) c tbM5) (fh0 : HbBuf5 (F := F) c hbM5) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM5 fullShare d) ∗ sems5 c ∗ hbPt5 c hbM5 fh0 ∗ hbPt5 c tbM5 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM5 fullShare d) ∗ sems5 c ∗ hbPt5 c hbM5 fh0 ∗ hbPt5 c tbM5 tb ∗ (∃ W', owes (c : Thread nD τ) 0 W')) -∗ K ⟨⟩))
          ⊢ wp frame (wpE (defs₀ (F := F)) Variants.none c none) Set.univ (cc5_kernel i tbM5 (Memref.isWhole_whole _) hbM5 (Memref.isWhole_whole _) arg3 harg3 arg4 harg4 scM5 (Memref.isWhole_whole _) cc5_scratch1) K } := by
  have k5_hw1 : k5_chk1 (tbM5.view.readAt (Elt F) (Rect.unit (s := S50000) (k5_off1 i) S1.size (k5_off1_inb i)).toLoadRect tb (Shape.Idx.first (numel1_S1.symm ▸ Nat.one_pos))) := chk5_1_of_lt _ (hH _)
  have k5_hw2 : k5_chk2 (tbM5.view.readAt (Elt F) (Rect.unit (s := S50000) (k5_off3 i) S1.size (k5_off3_inb i)).toLoadRect tb (Shape.Idx.first (numel1_S1.symm ▸ Nat.one_pos))) := chk5_2_of_lt _ (hH _)
  have k5_hw3 : k5_chk3 (tbM5.view.readAt (Elt F) (Rect.unit (s := S50000) (k5_off5 i) S1.size (k5_off5_inb i)).toLoadRect tb (Shape.Idx.first (numel1_S1.symm ▸ Nat.one_pos))) := chk5_3_of_lt _ (hH _)
  have k5_hw4 : k5_chk4 (tbM5.view.readAt (Elt F) (Rect.unit (s := S50000) (k5_off7 i) S1.size (k5_off7_inb i)).toLoadRect tb (Shape.Idx.first (numel1_S1.symm ▸ Nat.one_pos))) := chk5_4_of_lt _ (hH _)
  have k5_hw5 : k5_chk5 (tbM5.view.readAt (Elt F) (Rect.unit (s := S50000) (k5_off9 i) S1.size (k5_off9_inb i)).toLoadRect tb (Shape.Idx.first (numel1_S1.symm ▸ Nat.one_pos))) := chk5_5_of_lt _ (hH _)
  have k5_hw6 : k5_chk6 (tbM5.view.readAt (Elt F) (Rect.unit (s := S50000) (k5_off11 i) S1.size (k5_off11_inb i)).toLoadRect tb (Shape.Idx.first (numel1_S1.symm ▸ Nat.one_pos))) := chk5_6_of_lt _ (hH _)
  have k5_hw7 : k5_chk7 (tbM5.view.readAt (Elt F) (Rect.unit (s := S50000) (k5_off13 i) S1.size (k5_off13_inb i)).toLoadRect tb (Shape.Idx.first (numel1_S1.symm ▸ Nat.one_pos))) := chk5_7_of_lt _ (hH _)
  have k5_hw8 : k5_chk8 (tbM5.view.readAt (Elt F) (Rect.unit (s := S50000) (k5_off15 i) S1.size (k5_off15_inb i)).toLoadRect tb (Shape.Idx.first (numel1_S1.symm ▸ Nat.one_pos))) := chk5_8_of_lt _ (hH _)
  have k5_hw9 : k5_chk9 (tbM5.view.readAt (Elt F) (Rect.unit (s := S50000) (k5_off17 i) S1.size (k5_off17_inb i)).toLoadRect tb (Shape.Idx.first (numel1_S1.symm ▸ Nat.one_pos))) := chk5_9_of_lt _ (hH _)
  have k5_hw10 : k5_chk10 (tbM5.view.readAt (Elt F) (Rect.unit (s := S50000) (k5_off19 i) S1.size (k5_off19_inb i)).toLoadRect tb (Shape.Idx.first (numel1_S1.symm ▸ Nat.one_pos))) := chk5_10_of_lt _ (hH _)
  have k5_hw11 : k5_chk11 (tbM5.view.readAt (Elt F) (Rect.unit (s := S50000) (k5_off21 i) S1.size (k5_off21_inb i)).toLoadRect tb (Shape.Idx.first (numel1_S1.symm ▸ Nat.one_pos))) := chk5_11_of_lt _ (hH _)
  have k5_hw12 : k5_chk12 (tbM5.view.readAt (Elt F) (Rect.unit (s := S50000) (k5_off23 i) S1.size (k5_off23_inb i)).toLoadRect tb (Shape.Idx.first (numel1_S1.symm ▸ Nat.one_pos))) := chk5_12_of_lt _ (hH _)
  have k5_hw13 : k5_chk13 (tbM5.view.readAt (Elt F) (Rect.unit (s := S50000) (k5_off25 i) S1.size (k5_off25_inb i)).toLoadRect tb (Shape.Idx.first (numel1_S1.symm ▸ Nat.one_pos))) := chk5_13_of_lt _ (hH _)
  have k5_hw14 : k5_chk14 (tbM5.view.readAt (Elt F) (Rect.unit (s := S50000) (k5_off27 i) S1.size (k5_off27_inb i)).toLoadRect tb (Shape.Idx.first (numel1_S1.symm ▸ Nat.one_pos))) := chk5_14_of_lt _ (hH _)
  have k5_hw15 : k5_chk15 (tbM5.view.readAt (Elt F) (Rect.unit (s := S50000) (k5_off29 i) S1.size (k5_off29_inb i)).toLoadRect tb (Shape.Idx.first (numel1_S1.symm ▸ Nat.one_pos))) := chk5_15_of_lt _ (hH _)
  have k5_hw16 : k5_chk16 (tbM5.view.readAt (Elt F) (Rect.unit (s := S50000) (k5_off31 i) S1.size (k5_off31_inb i)).toLoadRect tb (Shape.Idx.first (numel1_S1.symm ▸ Nat.one_pos))) := chk5_16_of_lt _ (hH _)
  refine ⟨?_, fun W K => ?run⟩
  case run =>
    simp only [cc5_kernel_eq_skeleton]; unfold cc5_kernel_skel
    simp only [k5_part7_eq_skeleton]; unfold k5_part7_skel
    simp only [k5_part1_eq_skeleton, k5_part2_eq_skeleton, k5_part3_eq_skeleton, k5_part4_eq_skeleton, k5_part5_eq_skeleton, k5_part6_eq_skeleton]
    unfold owns sems5
    iintro ⟨⟨%f0, %hf0, H0⟩, ⟨%d1, %f1, -, H5⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks5 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k5_hw1 | sl_exact k5_hw2 | sl_exact k5_hw3 | sl_exact k5_hw4 | sl_exact k5_hw5 | sl_exact k5_hw6 | sl_exact k5_hw7 | sl_exact k5_hw8 | sl_exact k5_hw9 | sl_exact k5_hw10 | sl_exact k5_hw11 | sl_exact k5_hw12 | sl_exact k5_hw13 | sl_exact k5_hw14 | sl_exact k5_hw15 | sl_exact k5_hw16)
    sl_step
    iapply Hk
    isplitl [H0]
    · iexists _; isplitr; · ipureintro; exact harg3.read_unread _
      iexact H0
    isplitl [H5]; · iexists _; iexact H5
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks5 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg5 (F := F)).Adm)

/-- Each window's current staging memref at point t, spelled as the pipeline passes it, and its wholeness. -/
abbrev ms5_0 (t : Fin (cfg5 a).N) : Memref sig .tc .vmem S16x1 .f32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S16x512 .f32 := spec5_1.stage ((cfg5 a).slots t 1)
abbrev hs5_1 (t : Fin (cfg5 a).N) : (ms5_1 a t).IsWhole := hstage5_1 (((cfg5 a).slots t 1).cast nbuf5_1)

/-- The kernel body at point t, on what the pipeline calls it with. -/
abbrev bodyAt5 (t : Fin (cfg5 a).N) : Prog (TpuEff nD τ sig (Elt F) Λ₀ .tc) PUnit :=
  cc5_kernel (grid5.coords t) tbM5 (Memref.isWhole_whole _) hbM5 (Memref.isWhole_whole _) (ms5_0 a t) (hs5_0 a t) (ms5_1 a t) (hs5_1 a t) scM5 (Memref.isWhole_whole _) cc5_scratch1

/-! ## The invariant, conjunct by conjunct -/

/-- The sixteen own cells at zero, listed. -/
theorem ownSems05_eq (c : Dev nD) :
    (Pipeline.ownSems0 (Ix := Unit) (Name := ℕ) (U := Pipeline.UD sig nD τ) (Lvl := ℕ) (Val := Elt F) (τ := τ) osem5 c : sProp 𝕄) = sems5 c := by
  rw [Pipeline.ownSems0_eq_of_list c osem5 [0, 1, 2, 3, 4, 5, 6, 7, 8, 9, 10, 11, 12, 13, 14, 15] (by decide) (by decide)]; rfl

/-- The gathered array's points-to at the region-entry contents. -/
theorem hbmPts5_eq (c : Dev nD) :
    (bigSep H5 (fun b => ((c : Thread nD τ).loc b) ↦{fullShare} V c b) : sProp 𝕄) = iprop(hbPt5 c hbM5 (V c main_v34)) := by
  rw [BI.bigSep_eq_bigSepL_of_eq [main_v34] (by decide) (by decide)]; rfl

/-- The row table, whole, at the contents the region is launched with. -/
theorem prefHeld5_eq (c : Dev nD) :
    (Pipeline.prefHeld (Ix := Unit) (Name := ℕ) (U := Pipeline.UD sig nD τ) (Lvl := ℕ) pre5 c (fun _ => fullShare) a.1 : sProp 𝕄) = iprop(hbPt5 c tbM5 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD5_eq (c : Dev nD) :
    (Pipeline.ΦD osem5 spec5 H5 V c : sProp 𝕄)
      = iprop(iprop((∃ d, owns (c : Thread nD τ) scM5 fullShare d) ∗ Pipeline.scopedRestBut (Ix := Unit) (Name := ℕ) (U := Pipeline.UD sig nD τ) (Lvl := ℕ) (Val := Elt F) spec5 c [cc5_scratch0])
          ∗ (∃ r, prngReg c r) ∗ sems5 c ∗ iprop(hbPt5 c hbM5 (V c main_v34))) := by
  rw [Pipeline.ΦD_eq, scopedRest5_split, ownSems05_eq, hbmPts5_eq]; simp only [scM5, owns_whole]; try rfl

/-! ## The windows' blocks -/

/-- Window w's block at point t, read off its array as the region finds it. -/
def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- Input window 0's current staging buffer holds its block at every point, fetched there or not. -/
theorem before5_0_of {c : Dev nD} (dat : Dat τ (Elt F) Unit ℕ (Pipeline.UD sig nD τ) ℕ (cfg5 a) c) (hA : dat.A 0 = V c (Pipeline.arrRef spec5 0))
    (hafter : ∀ t, dat.after 0 t = iblk5 V a c 0 t) (t : Fin (cfg5 a).N) (d) : dat.before 0 t d = iblk5 V a c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-! ## What the run leaves in the output window's buffer -/

/-- The run's pieces for the output tile its block, so they cover it. -/
theorem cover5_1 (c : Dev nD) (i : grid5.Coords) (arg3 : Memref sig .tc .vmem S16x1 .f32) (harg3 : arg3.IsWhole) (arg4 : Memref sig .tc .vmem S16x512 .f32) (harg4 : arg4.IsWhole)
    (x0 : Vec F S16x1 .f32) (tb : HbBuf5 (F := F) c tbM5) (fh0 : HbBuf5 (F := F) c hbM5) (hT : ∀ x, (tb x).toNat < 50000) (y : S16x512.Idx) :
    ∃ pc ∈ (kernelRun5 c i arg3 harg3 arg4 harg4 x0 tb fh0 hT).1, y ∈ pc.1.set :=
  View.cover_of_tiledL (kernelRun5 c i arg3 harg3 arg4 harg4 x0 tb fh0 hT).1 S16x512.size (by sl_kernel_rfl) y

/-- One staging buffer of the output window, through which its contents are stated. -/
abbrev VO5_1 : View sig .tc .vmem S16x512 .f32 := (Memref.whole cc5_stg1_0 : Memref sig .tc .vmem S16x512 .f32).view

/-- What the run leaves in the output's staging buffer: its pieces read back over junk. -/
def out5_1 (c : Dev nD) (i : grid5.Coords) (arg3 : Memref sig .tc .vmem S16x1 .f32) (harg3 : arg3.IsWhole) (arg4 : Memref sig .tc .vmem S16x512 .f32) (harg4 : arg4.IsWhole)
    (x0 : Vec F S16x1 .f32) (tb : HbBuf5 (F := F) c tbM5) (fh0 : HbBuf5 (F := F) c hbM5) (hT : ∀ x, (tb x).toNat < 50000) : Vec F S16x512 .f32 :=
  VO5_1.read (Elt F) (VO5_1.writes (Elt F) VO5_1.junk (kernelRun5 c i arg3 harg3 arg4 harg4 x0 tb fh0 hT).1)

/-- Every word of the table is a row of the gathered array, from the same of its words by position. -/
theorem tbl_lt5 (hH : ∀ j : Fin 50000, ((a.1 0) (ValueIdx.ix1 j)).toNat < 50000) (c : Dev nD) : ∀ x, (((a.1 0 : HbBuf5 (F := F) c tbM5)) x).toNat < 50000 :=
  fun x => by rw [ValueIdx.eq_ix1 x]; exact hH _

/-- What the output's staging buffer holds after the body at point t: the run's contents at the point's memrefs, the
    norm block, the table and the gathered array. -/
def outsAt5 (hH : ∀ j : Fin 50000, ((a.1 0) (ValueIdx.ix1 j)).toNat < 50000) (c : Dev nD) (t : Fin (cfg5 a).N) : Vec F S16x512 .f32 :=
  out5_1 c (grid5.coords t) (ms5_0 a t) (hs5_0 a t) (ms5_1 a t) (hs5_1 a t) (iblk5 V a c 0 t) (a.1 0) (V c main_v34) (tbl_lt5 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat5 (hH : ∀ j : Fin 50000, ((a.1 0) (ValueIdx.ix1 j)).toNat < 50000) (c : Dev nD) : Dat τ (Elt F) Unit ℕ (Pipeline.UD sig nD τ) ℕ (cfg5 a) c where
  A w := V c (Pipeline.arrRef spec5 w)
  after w t := match w with
    | ⟨0, _⟩ => iblk5 V a c 0 t
    | ⟨1, _⟩ => (outsAt5 V a hH c t)
  Φ _ := iprop(Pipeline.ΦD osem5 spec5 H5 V c ∗ Pipeline.prefHeld pre5 c (fun _ => fullShare) a.1)
  q _ := fullShare
  owed _ := 0

/-- The proof data's arrays are the region-entry contents. -/
theorem A_eq5 (hH : ∀ j : Fin 50000, ((a.1 0) (ValueIdx.ix1 j)).toNat < 50000) (c : Dev nD) (w : Fin (cfg5 a).W) : (dat5 V a hH c).A w = V c (Pipeline.arrRef spec5 w) := by
  dsimp only [dat5]

/-- What the body leaves, window by window. -/
theorem after5_0 (hH : ∀ j : Fin 50000, ((a.1 0) (ValueIdx.ix1 j)).toNat < 50000) (c : Dev nD) (t : Fin (cfg5 a).N) : (dat5 V a hH c).after 0 t = iblk5 V a c 0 t := by dsimp only [dat5]; try rfl
theorem after5_1 (hH : ∀ j : Fin 50000, ((a.1 0) (ValueIdx.ix1 j)).toNat < 50000) (c : Dev nD) (t : Fin (cfg5 a).N) : (dat5 V a hH c).after 1 t = (outsAt5 V a hH c t) := by dsimp only [dat5]; try rfl

/-- The input's current staging buffer holds its block at every point, fetched there or not. -/
theorem before5_0 (hH : ∀ j : Fin 50000, ((a.1 0) (ValueIdx.ix1 j)).toNat < 50000) (c : Dev nD) (t : Fin (cfg5 a).N) (d) : (dat5 V a hH c).before 0 t d = iblk5 V a c 0 t :=
  before5_0_of V a (dat5 V a hH c) (A_eq5 V a hH c 0) (after5_0 V a hH c) t d

/-! ## The body obligation, at a generic point -/

/-- What the body is called with at point t, the windows one by one, -/
def bodyPre5 (hH : ∀ j : Fin 50000, ((a.1 0) (ValueIdx.ix1 j)).toNat < 50000) (c : Dev nD) (t : Fin (cfg5 a).N) : sProp 𝕄 :=
  iprop((dat5 V a hH c).Φ t.castSucc ∗ (dat5 V a hH c).owesAt () t.castSucc
    ∗ (∃ d, owns (c : Thread nD τ) (ms5_0 a t) fullShare ((dat5 V a hH c).before 0 t d))
    ∗ (∃ d, owns (c : Thread nD τ) (ms5_1 a t) fullShare ((dat5 V a hH c).before 1 t d)))

/-- and what it returns. -/
def bodyPost5 (hH : ∀ j : Fin 50000, ((a.1 0) (ValueIdx.ix1 j)).toNat < 50000) (c : Dev nD) (t : Fin (cfg5 a).N) : sProp 𝕄 :=
  iprop((dat5 V a hH c).Φ t.succ ∗ (dat5 V a hH c).owesAt () t.succ
    ∗ owns (c : Thread nD τ) (ms5_0 a t) fullShare ((dat5 V a hH c).after 0 t)
    ∗ owns (c : Thread nD τ) (ms5_1 a t) fullShare ((dat5 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body5 (hH : ∀ j : Fin 50000, ((a.1 0) (ValueIdx.ix1 j)).toNat < 50000) (c : Dev nD) (t : Fin (cfg5 a).N) :
    bodyPre5 V a hH c t ⊢ wp frame (wpE (defs₀ (F := F)) Variants.none c none) Set.univ (bodyAt5 a t) (fun _ => bodyPost5 V a hH c t) := by
  unfold bodyPre5 bodyPost5 bodyAt5
  simp only [before5_0]
  rw [show (dat5 V a hH c).Φ t.succ = (dat5 V a hH c).Φ t.castSucc from rfl,
    after5_0, after5_1]
  rw [show (dat5 V a hH c).Φ t.castSucc = iprop(Pipeline.ΦD osem5 spec5 H5 V c ∗ Pipeline.prefHeld pre5 c (fun _ => fullShare) a.1) from rfl, PhiD5_eq, prefHeld5_eq]
  unfold Dat.owesAt Pipeline.owesWithin
  rw [show (dat5 V a hH c).owed t.castSucc = 0 from rfl, show (dat5 V a hH c).owed t.succ = 0 from rfl]
  unfold outsAt5
  unfold out5_1
  iintro ⟨⟨⟨⟨HS0, HSr⟩, Hg, Hq, Hh0⟩, HT⟩, ⟨%W, -, HW⟩, ⟨%d0, H0⟩, ⟨%d1, H5⟩⟩
  iapply ((kernelRun5 c (grid5.coords t) _ _ _ _ (iblk5 V a c 0 t) (a.1 0) (V c main_v34) (tbl_lt5 a hH c)).2 W _)
  isplitl [H0]; · iexact H0
  isplitl [H5]; · iexists _; iexact H5
  isplitl [HS0]; · iexact HS0
  isplitl [Hq]; · iexact Hq
  isplitl [Hh0]; · iexact Hh0
  isplitl [HT]; · iexact HT
  isplitl [HW]; · iexact HW
  iintro ⟨H0, ⟨%e1, H5⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H5
  ipureintro; exact View.read_writes_of_cover _ _ _ _ _ (cover5_1 c _ _ _ _ _ _ _ _ _)

/-- The library's body obligation, at every point. -/
theorem body_obligation5 (hH : ∀ j : Fin 50000, ((a.1 0) (ValueIdx.ix1 j)).toNat < 50000) (c : Dev nD) : BodyObligation (dat5 (F := F) V a hH c) (defs₀ (F := F)) Variants.none () Set.univ := fun t => by
  rw [bigSep_W5, bigSep_W5]
  exact sound_body5 V a hH c t

end Cert.KernelIdeal.Hand

end
-- ==== Proof.G6.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 6 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem6 : Fin 16 → SemLoc sig := fun j =>
  (![SemLoc.dma 109, SemLoc.dma 110, SemLoc.dma 111, SemLoc.dma 112, SemLoc.dma 113, SemLoc.dma 114, SemLoc.dma 115, SemLoc.dma 116,
     SemLoc.dma 117, SemLoc.dma 118, SemLoc.dma 119, SemLoc.dma 120, SemLoc.dma 121, SemLoc.dma 122, SemLoc.dma 123, SemLoc.dma 124] : Fin 16 → SemLoc sig) j
theorem ownSemFacts6 : Pipeline.OwnSemFacts spec6 osem6 := by decide

/-- The HBM operand the body gathers rows from: unscoped, no window's array, no table. -/
def H6 : Finset (Ref sig .tc) := {main_v34}
theorem H6_sub : H6 ⊆ Pipeline.restRefsP sig pre6 spec6 := by decide

/-- The operands the pipeline does not stage, whole. -/
abbrev tbM6 : Memref sig .tc .smem S50000 .i32 := Memref.whole main_v51
abbrev hbM6 : Memref sig .tc .hbm S50000x512 .f32 := Memref.whole main_v34
abbrev scM6 : Memref sig .tc .vmem S16x512 .f32 := Memref.whole cc6_scratch0

/-- A whole memref's buffer on core `c`, and it held whole at `f`. -/
abbrev HbBuf6 (c : Dev nD) {sp : Space} {S : Shape} {e : EltTy} (M : Memref sig .tc sp S e) : Type := Buf (Elt F) (M.view.loc (c : Thread nD τ))
abbrev hbPt6 (c : Dev nD) {sp : Space} {S : Shape} {e : EltTy} (M : Memref sig .tc sp S e) (f : HbBuf6 (F := F) c M) : sProp 𝕄 :=
  M.view.loc (c : Thread nD τ) ↦{fullShare} f

/-- The sixteen own cells at zero. -/
abbrev sems6 (c : Dev nD) : sProp 𝕄 :=
  iprop(semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0)

/-- A row index inside the gathered array puts the one-row slice inside it. -/
theorem row_inb6 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk6_1_of_lt (w : BitVec 32) (h : w.toNat < 50000) : k6_chk1 w := ⟨row_inb6 w h, row_inb6 w h⟩
theorem chk6_2_of_lt (w : BitVec 32) (h : w.toNat < 50000) : k6_chk2 w := ⟨row_inb6 w h, row_inb6 w h⟩
theorem chk6_3_of_lt (w : BitVec 32) (h : w.toNat < 50000) : k6_chk3 w := ⟨row_inb6 w h, row_inb6 w h⟩
theorem chk6_4_of_lt (w : BitVec 32) (h : w.toNat < 50000) : k6_chk4 w := ⟨row_inb6 w h, row_inb6 w h⟩
theorem chk6_5_of_lt (w : BitVec 32) (h : w.toNat < 50000) : k6_chk5 w := ⟨row_inb6 w h, row_inb6 w h⟩
theorem chk6_6_of_lt (w : BitVec 32) (h : w.toNat < 50000) : k6_chk6 w := ⟨row_inb6 w h, row_inb6 w h⟩
theorem chk6_7_of_lt (w : BitVec 32) (h : w.toNat < 50000) : k6_chk7 w := ⟨row_inb6 w h, row_inb6 w h⟩
theorem chk6_8_of_lt (w : BitVec 32) (h : w.toNat < 50000) : k6_chk8 w := ⟨row_inb6 w h, row_inb6 w h⟩
theorem chk6_9_of_lt (w : BitVec 32) (h : w.toNat < 50000) : k6_chk9 w := ⟨row_inb6 w h, row_inb6 w h⟩
theorem chk6_10_of_lt (w : BitVec 32) (h : w.toNat < 50000) : k6_chk10 w := ⟨row_inb6 w h, row_inb6 w h⟩
theorem chk6_11_of_lt (w : BitVec 32) (h : w.toNat < 50000) : k6_chk11 w := ⟨row_inb6 w h, row_inb6 w h⟩
theorem chk6_12_of_lt (w : BitVec 32) (h : w.toNat < 50000) : k6_chk12 w := ⟨row_inb6 w h, row_inb6 w h⟩
theorem chk6_13_of_lt (w : BitVec 32) (h : w.toNat < 50000) : k6_chk13 w := ⟨row_inb6 w h, row_inb6 w h⟩
theorem chk6_14_of_lt (w : BitVec 32) (h : w.toNat < 50000) : k6_chk14 w := ⟨row_inb6 w h, row_inb6 w h⟩
theorem chk6_15_of_lt (w : BitVec 32) (h : w.toNat < 50000) : k6_chk15 w := ⟨row_inb6 w h, row_inb6 w h⟩
theorem chk6_16_of_lt (w : BitVec 32) (h : w.toNat < 50000) : k6_chk16 w := row_inb6 w h

/-- A whole points-to as what stays behind, sixteen read tokens numbered `b + 15` down to `b`, and the tokens below
    `b` kept as one family. -/
theorem toksAt6 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 109 … 124. -/
theorem toks6 {ℓ : Loc nD τ sig} (f : Buf (Elt F) ℓ) :
    (ℓ ↦{fullShare} f : sProp 𝕄) ⊣⊢ iprop((ℓ ↦{Transfers.shareDrop fullShare 125} f) ∗ (ℓ ↦{Transfers.shareTokN fullShare 124} f) ∗ (ℓ ↦{Transfers.shareTokN fullShare 123} f) ∗ (ℓ ↦{Transfers.shareTokN fullShare 122} f) ∗ (ℓ ↦{Transfers.shareTokN fullShare 121} f) ∗ (ℓ ↦{Transfers.shareTokN fullShare 120} f) ∗ (ℓ ↦{Transfers.shareTokN fullShare 119} f) ∗ (ℓ ↦{Transfers.shareTokN fullShare 118} f) ∗ (ℓ ↦{Transfers.shareTokN fullShare 117} f) ∗ (ℓ ↦{Transfers.shareTokN fullShare 116} f) ∗ (ℓ ↦{Transfers.shareTokN fullShare 115} f) ∗ (ℓ ↦{Transfers.shareTokN fullShare 114} f) ∗ (ℓ ↦{Transfers.shareTokN fullShare 113} f) ∗ (ℓ ↦{Transfers.shareTokN fullShare 112} f) ∗ (ℓ ↦{Transfers.shareTokN fullShare 111} f) ∗ (ℓ ↦{Transfers.shareTokN fullShare 110} f) ∗ (ℓ ↦{Transfers.shareTokN fullShare 109} f)
      ∗ BI.bigSep (Finset.range 109) fun k => ℓ ↦{Transfers.shareTokN fullShare k} f) :=
  toksAt6 f 109

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun6 (c : Dev nD) (i : grid6.Coords) (arg3 : Memref sig .tc .vmem S16x1 .f32) (harg3 : arg3.IsWhole) (arg4 : Memref sig .tc .vmem S16x512 .f32) (harg4 : arg4.IsWhole)
    (x0 : Vec F S16x1 .f32) (tb : HbBuf6 (F := F) c tbM6) (fh0 : HbBuf6 (F := F) c hbM6) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM6 fullShare d) ∗ sems6 c ∗ hbPt6 c hbM6 fh0 ∗ hbPt6 c tbM6 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM6 fullShare d) ∗ sems6 c ∗ hbPt6 c hbM6 fh0 ∗ hbPt6 c tbM6 tb ∗ (∃ W', owes (c : Thread nD τ) 0 W')) -∗ K ⟨⟩))
          ⊢ wp frame (wpE (defs₀ (F := F)) Variants.none c none) Set.univ (cc6_kernel i tbM6 (Memref.isWhole_whole _) hbM6 (Memref.isWhole_whole _) arg3 harg3 arg4 harg4 scM6 (Memref.isWhole_whole _) cc6_scratch1) K } := by
  have k6_hw1 : k6_chk1 (tbM6.view.readAt (Elt F) (Rect.unit (s := S50000) (k6_off1 i) S1.size (k6_off1_inb i)).toLoadRect tb (Shape.Idx.first (numel1_S1.symm ▸ Nat.one_pos))) := chk6_1_of_lt _ (hH _)
  have k6_hw2 : k6_chk2 (tbM6.view.readAt (Elt F) (Rect.unit (s := S50000) (k6_off3 i) S1.size (k6_off3_inb i)).toLoadRect tb (Shape.Idx.first (numel1_S1.symm ▸ Nat.one_pos))) := chk6_2_of_lt _ (hH _)
  have k6_hw3 : k6_chk3 (tbM6.view.readAt (Elt F) (Rect.unit (s := S50000) (k6_off5 i) S1.size (k6_off5_inb i)).toLoadRect tb (Shape.Idx.first (numel1_S1.symm ▸ Nat.one_pos))) := chk6_3_of_lt _ (hH _)
  have k6_hw4 : k6_chk4 (tbM6.view.readAt (Elt F) (Rect.unit (s := S50000) (k6_off7 i) S1.size (k6_off7_inb i)).toLoadRect tb (Shape.Idx.first (numel1_S1.symm ▸ Nat.one_pos))) := chk6_4_of_lt _ (hH _)
  have k6_hw5 : k6_chk5 (tbM6.view.readAt (Elt F) (Rect.unit (s := S50000) (k6_off9 i) S1.size (k6_off9_inb i)).toLoadRect tb (Shape.Idx.first (numel1_S1.symm ▸ Nat.one_pos))) := chk6_5_of_lt _ (hH _)
  have k6_hw6 : k6_chk6 (tbM6.view.readAt (Elt F) (Rect.unit (s := S50000) (k6_off11 i) S1.size (k6_off11_inb i)).toLoadRect tb (Shape.Idx.first (numel1_S1.symm ▸ Nat.one_pos))) := chk6_6_of_lt _ (hH _)
  have k6_hw7 : k6_chk7 (tbM6.view.readAt (Elt F) (Rect.unit (s := S50000) (k6_off13 i) S1.size (k6_off13_inb i)).toLoadRect tb (Shape.Idx.first (numel1_S1.symm ▸ Nat.one_pos))) := chk6_7_of_lt _ (hH _)
  have k6_hw8 : k6_chk8 (tbM6.view.readAt (Elt F) (Rect.unit (s := S50000) (k6_off15 i) S1.size (k6_off15_inb i)).toLoadRect tb (Shape.Idx.first (numel1_S1.symm ▸ Nat.one_pos))) := chk6_8_of_lt _ (hH _)
  have k6_hw9 : k6_chk9 (tbM6.view.readAt (Elt F) (Rect.unit (s := S50000) (k6_off17 i) S1.size (k6_off17_inb i)).toLoadRect tb (Shape.Idx.first (numel1_S1.symm ▸ Nat.one_pos))) := chk6_9_of_lt _ (hH _)
  have k6_hw10 : k6_chk10 (tbM6.view.readAt (Elt F) (Rect.unit (s := S50000) (k6_off19 i) S1.size (k6_off19_inb i)).toLoadRect tb (Shape.Idx.first (numel1_S1.symm ▸ Nat.one_pos))) := chk6_10_of_lt _ (hH _)
  have k6_hw11 : k6_chk11 (tbM6.view.readAt (Elt F) (Rect.unit (s := S50000) (k6_off21 i) S1.size (k6_off21_inb i)).toLoadRect tb (Shape.Idx.first (numel1_S1.symm ▸ Nat.one_pos))) := chk6_11_of_lt _ (hH _)
  have k6_hw12 : k6_chk12 (tbM6.view.readAt (Elt F) (Rect.unit (s := S50000) (k6_off23 i) S1.size (k6_off23_inb i)).toLoadRect tb (Shape.Idx.first (numel1_S1.symm ▸ Nat.one_pos))) := chk6_12_of_lt _ (hH _)
  have k6_hw13 : k6_chk13 (tbM6.view.readAt (Elt F) (Rect.unit (s := S50000) (k6_off25 i) S1.size (k6_off25_inb i)).toLoadRect tb (Shape.Idx.first (numel1_S1.symm ▸ Nat.one_pos))) := chk6_13_of_lt _ (hH _)
  have k6_hw14 : k6_chk14 (tbM6.view.readAt (Elt F) (Rect.unit (s := S50000) (k6_off27 i) S1.size (k6_off27_inb i)).toLoadRect tb (Shape.Idx.first (numel1_S1.symm ▸ Nat.one_pos))) := chk6_14_of_lt _ (hH _)
  have k6_hw15 : k6_chk15 (tbM6.view.readAt (Elt F) (Rect.unit (s := S50000) (k6_off29 i) S1.size (k6_off29_inb i)).toLoadRect tb (Shape.Idx.first (numel1_S1.symm ▸ Nat.one_pos))) := chk6_15_of_lt _ (hH _)
  have k6_hw16 : k6_chk16 (tbM6.view.readAt (Elt F) (Rect.unit (s := S50000) (k6_off31 i) S1.size (k6_off31_inb i)).toLoadRect tb (Shape.Idx.first (numel1_S1.symm ▸ Nat.one_pos))) := chk6_16_of_lt _ (hH _)
  refine ⟨?_, fun W K => ?run⟩
  case run =>
    simp only [cc6_kernel_eq_skeleton]; unfold cc6_kernel_skel
    simp only [k6_part7_eq_skeleton]; unfold k6_part7_skel
    simp only [k6_part1_eq_skeleton, k6_part2_eq_skeleton, k6_part3_eq_skeleton, k6_part4_eq_skeleton, k6_part5_eq_skeleton, k6_part6_eq_skeleton]
    unfold owns sems6
    iintro ⟨⟨%f0, %hf0, H0⟩, ⟨%d1, %f1, -, H6⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks6 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k6_hw1 | sl_exact k6_hw2 | sl_exact k6_hw3 | sl_exact k6_hw4 | sl_exact k6_hw5 | sl_exact k6_hw6 | sl_exact k6_hw7 | sl_exact k6_hw8 | sl_exact k6_hw9 | sl_exact k6_hw10 | sl_exact k6_hw11 | sl_exact k6_hw12 | sl_exact k6_hw13 | sl_exact k6_hw14 | sl_exact k6_hw15 | sl_exact k6_hw16)
    sl_step
    iapply Hk
    isplitl [H0]
    · iexists _; isplitr; · ipureintro; exact harg3.read_unread _
      iexact H0
    isplitl [H6]; · iexists _; iexact H6
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks6 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg6 (F := F)).Adm)

/-- Each window's current staging memref at point t, spelled as the pipeline passes it, and its wholeness. -/
abbrev ms6_0 (t : Fin (cfg6 a).N) : Memref sig .tc .vmem S16x1 .f32 := spec6_0.stage ((cfg6 a).slots t 0)
abbrev hs6_0 (t : Fin (cfg6 a).N) : (ms6_0 a t).IsWhole := hstage6_0 (((cfg6 a).slots t 0).cast nbuf6_0)
abbrev ms6_1 (t : Fin (cfg6 a).N) : Memref sig .tc .vmem S16x512 .f32 := spec6_1.stage ((cfg6 a).slots t 1)
abbrev hs6_1 (t : Fin (cfg6 a).N) : (ms6_1 a t).IsWhole := hstage6_1 (((cfg6 a).slots t 1).cast nbuf6_1)

/-- The kernel body at point t, on what the pipeline calls it with. -/
abbrev bodyAt6 (t : Fin (cfg6 a).N) : Prog (TpuEff nD τ sig (Elt F) Λ₀ .tc) PUnit :=
  cc6_kernel (grid6.coords t) tbM6 (Memref.isWhole_whole _) hbM6 (Memref.isWhole_whole _) (ms6_0 a t) (hs6_0 a t) (ms6_1 a t) (hs6_1 a t) scM6 (Memref.isWhole_whole _) cc6_scratch1

/-! ## The invariant, conjunct by conjunct -/

/-- The sixteen own cells at zero, listed. -/
theorem ownSems06_eq (c : Dev nD) :
    (Pipeline.ownSems0 (Ix := Unit) (Name := ℕ) (U := Pipeline.UD sig nD τ) (Lvl := ℕ) (Val := Elt F) (τ := τ) osem6 c : sProp 𝕄) = sems6 c := by
  rw [Pipeline.ownSems0_eq_of_list c osem6 [0, 1, 2, 3, 4, 5, 6, 7, 8, 9, 10, 11, 12, 13, 14, 15] (by decide) (by decide)]; rfl

/-- The gathered array's points-to at the region-entry contents. -/
theorem hbmPts6_eq (c : Dev nD) :
    (bigSep H6 (fun b => ((c : Thread nD τ).loc b) ↦{fullShare} V c b) : sProp 𝕄) = iprop(hbPt6 c hbM6 (V c main_v34)) := by
  rw [BI.bigSep_eq_bigSepL_of_eq [main_v34] (by decide) (by decide)]; rfl

/-- The row table, whole, at the contents the region is launched with. -/
theorem prefHeld6_eq (c : Dev nD) :
    (Pipeline.prefHeld (Ix := Unit) (Name := ℕ) (U := Pipeline.UD sig nD τ) (Lvl := ℕ) pre6 c (fun _ => fullShare) a.1 : sProp 𝕄) = iprop(hbPt6 c tbM6 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD6_eq (c : Dev nD) :
    (Pipeline.ΦD osem6 spec6 H6 V c : sProp 𝕄)
      = iprop(iprop((∃ d, owns (c : Thread nD τ) scM6 fullShare d) ∗ Pipeline.scopedRestBut (Ix := Unit) (Name := ℕ) (U := Pipeline.UD sig nD τ) (Lvl := ℕ) (Val := Elt F) spec6 c [cc6_scratch0])
          ∗ (∃ r, prngReg c r) ∗ sems6 c ∗ iprop(hbPt6 c hbM6 (V c main_v34))) := by
  rw [Pipeline.ΦD_eq, scopedRest6_split, ownSems06_eq, hbmPts6_eq]; simp only [scM6, owns_whole]; try rfl

/-! ## The windows' blocks -/

/-- Window w's block at point t, read off its array as the region finds it. -/
def iblk6 (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

/-- Input window 0's current staging buffer holds its block at every point, fetched there or not. -/
theorem before6_0_of {c : Dev nD} (dat : Dat τ (Elt F) Unit ℕ (Pipeline.UD sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## What the run leaves in the output window's buffer -/

/-- The run's pieces for the output tile its block, so they cover it. -/
theorem cover6_1 (c : Dev nD) (i : grid6.Coords) (arg3 : Memref sig .tc .vmem S16x1 .f32) (harg3 : arg3.IsWhole) (arg4 : Memref sig .tc .vmem S16x512 .f32) (harg4 : arg4.IsWhole)
    (x0 : Vec F S16x1 .f32) (tb : HbBuf6 (F := F) c tbM6) (fh0 : HbBuf6 (F := F) c hbM6) (hT : ∀ x, (tb x).toNat < 50000) (y : S16x512.Idx) :
    ∃ pc ∈ (kernelRun6 c i arg3 harg3 arg4 harg4 x0 tb fh0 hT).1, y ∈ pc.1.set :=
  View.cover_of_tiledL (kernelRun6 c i arg3 harg3 arg4 harg4 x0 tb fh0 hT).1 S16x512.size (by sl_kernel_rfl) y

/-- One staging buffer of the output window, through which its contents are stated. -/
abbrev VO6_1 : View sig .tc .vmem S16x512 .f32 := (Memref.whole cc6_stg1_0 : Memref sig .tc .vmem S16x512 .f32).view

/-- What the run leaves in the output's staging buffer: its pieces read back over junk. -/
def out6_1 (c : Dev nD) (i : grid6.Coords) (arg3 : Memref sig .tc .vmem S16x1 .f32) (harg3 : arg3.IsWhole) (arg4 : Memref sig .tc .vmem S16x512 .f32) (harg4 : arg4.IsWhole)
    (x0 : Vec F S16x1 .f32) (tb : HbBuf6 (F := F) c tbM6) (fh0 : HbBuf6 (F := F) c hbM6) (hT : ∀ x, (tb x).toNat < 50000) : Vec F S16x512 .f32 :=
  VO6_1.read (Elt F) (VO6_1.writes (Elt F) VO6_1.junk (kernelRun6 c i arg3 harg3 arg4 harg4 x0 tb fh0 hT).1)

/-- Every word of the table is a row of the gathered array, from the same of its words by position. -/
theorem tbl_lt6 (hH : ∀ j : Fin 50000, ((a.1 0) (ValueIdx.ix1 j)).toNat < 50000) (c : Dev nD) : ∀ x, (((a.1 0 : HbBuf6 (F := F) c tbM6)) x).toNat < 50000 :=
  fun x => by rw [ValueIdx.eq_ix1 x]; exact hH _

/-- What the output's staging buffer holds after the body at point t: the run's contents at the point's memrefs, the
    norm block, the table and the gathered array. -/
def outsAt6 (hH : ∀ j : Fin 50000, ((a.1 0) (ValueIdx.ix1 j)).toNat < 50000) (c : Dev nD) (t : Fin (cfg6 a).N) : Vec F S16x512 .f32 :=
  out6_1 c (grid6.coords t) (ms6_0 a t) (hs6_0 a t) (ms6_1 a t) (hs6_1 a t) (iblk6 V a c 0 t) (a.1 0) (V c main_v34) (tbl_lt6 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat6 (hH : ∀ j : Fin 50000, ((a.1 0) (ValueIdx.ix1 j)).toNat < 50000) (c : Dev nD) : Dat τ (Elt F) Unit ℕ (Pipeline.UD sig nD τ) ℕ (cfg6 a) c where
  A w := V c (Pipeline.arrRef spec6 w)
  after w t := match w with
    | ⟨0, _⟩ => iblk6 V a c 0 t
    | ⟨1, _⟩ => (outsAt6 V a hH c t)
  Φ _ := iprop(Pipeline.ΦD osem6 spec6 H6 V c ∗ Pipeline.prefHeld pre6 c (fun _ => fullShare) a.1)
  q _ := fullShare
  owed _ := 0

/-- The proof data's arrays are the region-entry contents. -/
theorem A_eq6 (hH : ∀ j : Fin 50000, ((a.1 0) (ValueIdx.ix1 j)).toNat < 50000) (c : Dev nD) (w : Fin (cfg6 a).W) : (dat6 V a hH c).A w = V c (Pipeline.arrRef spec6 w) := by
  dsimp only [dat6]

/-- What the body leaves, window by window. -/
theorem after6_0 (hH : ∀ j : Fin 50000, ((a.1 0) (ValueIdx.ix1 j)).toNat < 50000) (c : Dev nD) (t : Fin (cfg6 a).N) : (dat6 V a hH c).after 0 t = iblk6 V a c 0 t := by dsimp only [dat6]; try rfl
theorem after6_1 (hH : ∀ j : Fin 50000, ((a.1 0) (ValueIdx.ix1 j)).toNat < 50000) (c : Dev nD) (t : Fin (cfg6 a).N) : (dat6 V a hH c).after 1 t = (outsAt6 V a hH c t) := by dsimp only [dat6]; try rfl

/-- The input's current staging buffer holds its block at every point, fetched there or not. -/
theorem before6_0 (hH : ∀ j : Fin 50000, ((a.1 0) (ValueIdx.ix1 j)).toNat < 50000) (c : Dev nD) (t : Fin (cfg6 a).N) (d) : (dat6 V a hH c).before 0 t d = iblk6 V a c 0 t :=
  before6_0_of V a (dat6 V a hH c) (A_eq6 V a hH c 0) (after6_0 V a hH c) t d

/-! ## The body obligation, at a generic point -/

/-- What the body is called with at point t, the windows one by one, -/
def bodyPre6 (hH : ∀ j : Fin 50000, ((a.1 0) (ValueIdx.ix1 j)).toNat < 50000) (c : Dev nD) (t : Fin (cfg6 a).N) : sProp 𝕄 :=
  iprop((dat6 V a hH c).Φ t.castSucc ∗ (dat6 V a hH c).owesAt () t.castSucc
    ∗ (∃ d, owns (c : Thread nD τ) (ms6_0 a t) fullShare ((dat6 V a hH c).before 0 t d))
    ∗ (∃ d, owns (c : Thread nD τ) (ms6_1 a t) fullShare ((dat6 V a hH c).before 1 t d)))

/-- and what it returns. -/
def bodyPost6 (hH : ∀ j : Fin 50000, ((a.1 0) (ValueIdx.ix1 j)).toNat < 50000) (c : Dev nD) (t : Fin (cfg6 a).N) : sProp 𝕄 :=
  iprop((dat6 V a hH c).Φ t.succ ∗ (dat6 V a hH c).owesAt () t.succ
    ∗ owns (c : Thread nD τ) (ms6_0 a t) fullShare ((dat6 V a hH c).after 0 t)
    ∗ owns (c : Thread nD τ) (ms6_1 a t) fullShare ((dat6 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body6 (hH : ∀ j : Fin 50000, ((a.1 0) (ValueIdx.ix1 j)).toNat < 50000) (c : Dev nD) (t : Fin (cfg6 a).N) :
    bodyPre6 V a hH c t ⊢ wp frame (wpE (defs₀ (F := F)) Variants.none c none) Set.univ (bodyAt6 a t) (fun _ => bodyPost6 V a hH c t) := by
  unfold bodyPre6 bodyPost6 bodyAt6
  simp only [before6_0]
  rw [show (dat6 V a hH c).Φ t.succ = (dat6 V a hH c).Φ t.castSucc from rfl,
    after6_0, after6_1]
  rw [show (dat6 V a hH c).Φ t.castSucc = iprop(Pipeline.ΦD osem6 spec6 H6 V c ∗ Pipeline.prefHeld pre6 c (fun _ => fullShare) a.1) from rfl, PhiD6_eq, prefHeld6_eq]
  unfold Dat.owesAt Pipeline.owesWithin
  rw [show (dat6 V a hH c).owed t.castSucc = 0 from rfl, show (dat6 V a hH c).owed t.succ = 0 from rfl]
  unfold outsAt6
  unfold out6_1
  iintro ⟨⟨⟨⟨HS0, HSr⟩, Hg, Hq, Hh0⟩, HT⟩, ⟨%W, -, HW⟩, ⟨%d0, H0⟩, ⟨%d1, H6⟩⟩
  iapply ((kernelRun6 c (grid6.coords t) _ _ _ _ (iblk6 V a c 0 t) (a.1 0) (V c main_v34) (tbl_lt6 a hH c)).2 W _)
  isplitl [H0]; · iexact H0
  isplitl [H6]; · iexists _; iexact H6
  isplitl [HS0]; · iexact HS0
  isplitl [Hq]; · iexact Hq
  isplitl [Hh0]; · iexact Hh0
  isplitl [HT]; · iexact HT
  isplitl [HW]; · iexact HW
  iintro ⟨H0, ⟨%e1, H6⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H6
  ipureintro; exact View.read_writes_of_cover _ _ _ _ _ (cover6_1 c _ _ _ _ _ _ _ _ _)

/-- The library's body obligation, at every point. -/
theorem body_obligation6 (hH : ∀ j : Fin 50000, ((a.1 0) (ValueIdx.ix1 j)).toNat < 50000) (c : Dev nD) : BodyObligation (dat6 (F := F) V a hH c) (defs₀ (F := F)) Variants.none () Set.univ := fun t => by
  rw [bigSep_W6, bigSep_W6]
  exact sound_body6 V a hH c t

end Cert.KernelIdeal.Hand

end
-- ==== Proof.G7.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 7 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem7 : Fin 16 → SemLoc sig := fun j =>
  (![SemLoc.dma 129, SemLoc.dma 130, SemLoc.dma 131, SemLoc.dma 132, SemLoc.dma 133, SemLoc.dma 134, SemLoc.dma 135, SemLoc.dma 136,
     SemLoc.dma 137, SemLoc.dma 138, SemLoc.dma 139, SemLoc.dma 140, SemLoc.dma 141, SemLoc.dma 142, SemLoc.dma 143, SemLoc.dma 144] : Fin 16 → SemLoc sig) j
theorem ownSemFacts7 : Pipeline.OwnSemFacts spec7 osem7 := by decide

/-- The HBM operand the body gathers rows from: unscoped, no window's array, no table. -/
def H7 : Finset (Ref sig .tc) := {main_v34}
theorem H7_sub : H7 ⊆ Pipeline.restRefsP sig pre7 spec7 := by decide

/-- The operands the pipeline does not stage, whole. -/
abbrev tbM7 : Memref sig .tc .smem S50000 .i32 := Memref.whole main_v54
abbrev hbM7 : Memref sig .tc .hbm S50000x512 .f32 := Memref.whole main_v34
abbrev scM7 : Memref sig .tc .vmem S16x512 .f32 := Memref.whole cc7_scratch0

/-- A whole memref's buffer on core `c`, and it held whole at `f`. -/
abbrev HbBuf7 (c : Dev nD) {sp : Space} {S : Shape} {e : EltTy} (M : Memref sig .tc sp S e) : Type := Buf (Elt F) (M.view.loc (c : Thread nD τ))
abbrev hbPt7 (c : Dev nD) {sp : Space} {S : Shape} {e : EltTy} (M : Memref sig .tc sp S e) (f : HbBuf7 (F := F) c M) : sProp 𝕄 :=
  M.view.loc (c : Thread nD τ) ↦{fullShare} f

/-- The sixteen own cells at zero. -/
abbrev sems7 (c : Dev nD) : sProp 𝕄 :=
  iprop(semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0 ∗ semVal ((c : Thread nD τ), SemLoc.dma 144) 0)

/-- A row index inside the gathered array puts the one-row slice inside it. -/
theorem row_inb7 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk7_1_of_lt (w : BitVec 32) (h : w.toNat < 50000) : k7_chk1 w := ⟨row_inb7 w h, row_inb7 w h⟩
theorem chk7_2_of_lt (w : BitVec 32) (h : w.toNat < 50000) : k7_chk2 w := ⟨row_inb7 w h, row_inb7 w h⟩
theorem chk7_3_of_lt (w : BitVec 32) (h : w.toNat < 50000) : k7_chk3 w := ⟨row_inb7 w h, row_inb7 w h⟩
theorem chk7_4_of_lt (w : BitVec 32) (h : w.toNat < 50000) : k7_chk4 w := ⟨row_inb7 w h, row_inb7 w h⟩
theorem chk7_5_of_lt (w : BitVec 32) (h : w.toNat < 50000) : k7_chk5 w := ⟨row_inb7 w h, row_inb7 w h⟩
theorem chk7_6_of_lt (w : BitVec 32) (h : w.toNat < 50000) : k7_chk6 w := ⟨row_inb7 w h, row_inb7 w h⟩
theorem chk7_7_of_lt (w : BitVec 32) (h : w.toNat < 50000) : k7_chk7 w := ⟨row_inb7 w h, row_inb7 w h⟩
theorem chk7_8_of_lt (w : BitVec 32) (h : w.toNat < 50000) : k7_chk8 w := ⟨row_inb7 w h, row_inb7 w h⟩
theorem chk7_9_of_lt (w : BitVec 32) (h : w.toNat < 50000) : k7_chk9 w := ⟨row_inb7 w h, row_inb7 w h⟩
theorem chk7_10_of_lt (w : BitVec 32) (h : w.toNat < 50000) : k7_chk10 w := ⟨row_inb7 w h, row_inb7 w h⟩
theorem chk7_11_of_lt (w : BitVec 32) (h : w.toNat < 50000) : k7_chk11 w := ⟨row_inb7 w h, row_inb7 w h⟩
theorem chk7_12_of_lt (w : BitVec 32) (h : w.toNat < 50000) : k7_chk12 w := ⟨row_inb7 w h, row_inb7 w h⟩
theorem chk7_13_of_lt (w : BitVec 32) (h : w.toNat < 50000) : k7_chk13 w := ⟨row_inb7 w h, row_inb7 w h⟩
theorem chk7_14_of_lt (w : BitVec 32) (h : w.toNat < 50000) : k7_chk14 w := ⟨row_inb7 w h, row_inb7 w h⟩
theorem chk7_15_of_lt (w : BitVec 32) (h : w.toNat < 50000) : k7_chk15 w := ⟨row_inb7 w h, row_inb7 w h⟩
theorem chk7_16_of_lt (w : BitVec 32) (h : w.toNat < 50000) : k7_chk16 w := row_inb7 w h

/-- A whole points-to as what stays behind, sixteen read tokens numbered `b + 15` down to `b`, and the tokens below
    `b` kept as one family. -/
theorem toksAt7 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 129 … 144. -/
theorem toks7 {ℓ : Loc nD τ sig} (f : Buf (Elt F) ℓ) :
    (ℓ ↦{fullShare} f : sProp 𝕄) ⊣⊢ iprop((ℓ ↦{Transfers.shareDrop fullShare 145} f) ∗ (ℓ ↦{Transfers.shareTokN fullShare 144} f) ∗ (ℓ ↦{Transfers.shareTokN fullShare 143} f) ∗ (ℓ ↦{Transfers.shareTokN fullShare 142} f) ∗ (ℓ ↦{Transfers.shareTokN fullShare 141} f) ∗ (ℓ ↦{Transfers.shareTokN fullShare 140} f) ∗ (ℓ ↦{Transfers.shareTokN fullShare 139} f) ∗ (ℓ ↦{Transfers.shareTokN fullShare 138} f) ∗ (ℓ ↦{Transfers.shareTokN fullShare 137} f) ∗ (ℓ ↦{Transfers.shareTokN fullShare 136} f) ∗ (ℓ ↦{Transfers.shareTokN fullShare 135} f) ∗ (ℓ ↦{Transfers.shareTokN fullShare 134} f) ∗ (ℓ ↦{Transfers.shareTokN fullShare 133} f) ∗ (ℓ ↦{Transfers.shareTokN fullShare 132} f) ∗ (ℓ ↦{Transfers.shareTokN fullShare 131} f) ∗ (ℓ ↦{Transfers.shareTokN fullShare 130} f) ∗ (ℓ ↦{Transfers.shareTokN fullShare 129} f)
      ∗ BI.bigSep (Finset.range 129) fun k => ℓ ↦{Transfers.shareTokN fullShare k} f) :=
  toksAt7 f 129

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun7 (c : Dev nD) (i : grid7.Coords) (arg3 : Memref sig .tc .vmem S16x1 .f32) (harg3 : arg3.IsWhole) (arg4 : Memref sig .tc .vmem S16x512 .f32) (harg4 : arg4.IsWhole)
    (x0 : Vec F S16x1 .f32) (tb : HbBuf7 (F := F) c tbM7) (fh0 : HbBuf7 (F := F) c hbM7) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM7 fullShare d) ∗ sems7 c ∗ hbPt7 c hbM7 fh0 ∗ hbPt7 c tbM7 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM7 fullShare d) ∗ sems7 c ∗ hbPt7 c hbM7 fh0 ∗ hbPt7 c tbM7 tb ∗ (∃ W', owes (c : Thread nD τ) 0 W')) -∗ K ⟨⟩))
          ⊢ wp frame (wpE (defs₀ (F := F)) Variants.none c none) Set.univ (cc7_kernel i tbM7 (Memref.isWhole_whole _) hbM7 (Memref.isWhole_whole _) arg3 harg3 arg4 harg4 scM7 (Memref.isWhole_whole _) cc7_scratch1) K } := by
  have k7_hw1 : k7_chk1 (tbM7.view.readAt (Elt F) (Rect.unit (s := S50000) (k7_off1 i) S1.size (k7_off1_inb i)).toLoadRect tb (Shape.Idx.first (numel1_S1.symm ▸ Nat.one_pos))) := chk7_1_of_lt _ (hH _)
  have k7_hw2 : k7_chk2 (tbM7.view.readAt (Elt F) (Rect.unit (s := S50000) (k7_off3 i) S1.size (k7_off3_inb i)).toLoadRect tb (Shape.Idx.first (numel1_S1.symm ▸ Nat.one_pos))) := chk7_2_of_lt _ (hH _)
  have k7_hw3 : k7_chk3 (tbM7.view.readAt (Elt F) (Rect.unit (s := S50000) (k7_off5 i) S1.size (k7_off5_inb i)).toLoadRect tb (Shape.Idx.first (numel1_S1.symm ▸ Nat.one_pos))) := chk7_3_of_lt _ (hH _)
  have k7_hw4 : k7_chk4 (tbM7.view.readAt (Elt F) (Rect.unit (s := S50000) (k7_off7 i) S1.size (k7_off7_inb i)).toLoadRect tb (Shape.Idx.first (numel1_S1.symm ▸ Nat.one_pos))) := chk7_4_of_lt _ (hH _)
  have k7_hw5 : k7_chk5 (tbM7.view.readAt (Elt F) (Rect.unit (s := S50000) (k7_off9 i) S1.size (k7_off9_inb i)).toLoadRect tb (Shape.Idx.first (numel1_S1.symm ▸ Nat.one_pos))) := chk7_5_of_lt _ (hH _)
  have k7_hw6 : k7_chk6 (tbM7.view.readAt (Elt F) (Rect.unit (s := S50000) (k7_off11 i) S1.size (k7_off11_inb i)).toLoadRect tb (Shape.Idx.first (numel1_S1.symm ▸ Nat.one_pos))) := chk7_6_of_lt _ (hH _)
  have k7_hw7 : k7_chk7 (tbM7.view.readAt (Elt F) (Rect.unit (s := S50000) (k7_off13 i) S1.size (k7_off13_inb i)).toLoadRect tb (Shape.Idx.first (numel1_S1.symm ▸ Nat.one_pos))) := chk7_7_of_lt _ (hH _)
  have k7_hw8 : k7_chk8 (tbM7.view.readAt (Elt F) (Rect.unit (s := S50000) (k7_off15 i) S1.size (k7_off15_inb i)).toLoadRect tb (Shape.Idx.first (numel1_S1.symm ▸ Nat.one_pos))) := chk7_8_of_lt _ (hH _)
  have k7_hw9 : k7_chk9 (tbM7.view.readAt (Elt F) (Rect.unit (s := S50000) (k7_off17 i) S1.size (k7_off17_inb i)).toLoadRect tb (Shape.Idx.first (numel1_S1.symm ▸ Nat.one_pos))) := chk7_9_of_lt _ (hH _)
  have k7_hw10 : k7_chk10 (tbM7.view.readAt (Elt F) (Rect.unit (s := S50000) (k7_off19 i) S1.size (k7_off19_inb i)).toLoadRect tb (Shape.Idx.first (numel1_S1.symm ▸ Nat.one_pos))) := chk7_10_of_lt _ (hH _)
  have k7_hw11 : k7_chk11 (tbM7.view.readAt (Elt F) (Rect.unit (s := S50000) (k7_off21 i) S1.size (k7_off21_inb i)).toLoadRect tb (Shape.Idx.first (numel1_S1.symm ▸ Nat.one_pos))) := chk7_11_of_lt _ (hH _)
  have k7_hw12 : k7_chk12 (tbM7.view.readAt (Elt F) (Rect.unit (s := S50000) (k7_off23 i) S1.size (k7_off23_inb i)).toLoadRect tb (Shape.Idx.first (numel1_S1.symm ▸ Nat.one_pos))) := chk7_12_of_lt _ (hH _)
  have k7_hw13 : k7_chk13 (tbM7.view.readAt (Elt F) (Rect.unit (s := S50000) (k7_off25 i) S1.size (k7_off25_inb i)).toLoadRect tb (Shape.Idx.first (numel1_S1.symm ▸ Nat.one_pos))) := chk7_13_of_lt _ (hH _)
  have k7_hw14 : k7_chk14 (tbM7.view.readAt (Elt F) (Rect.unit (s := S50000) (k7_off27 i) S1.size (k7_off27_inb i)).toLoadRect tb (Shape.Idx.first (numel1_S1.symm ▸ Nat.one_pos))) := chk7_14_of_lt _ (hH _)
  have k7_hw15 : k7_chk15 (tbM7.view.readAt (Elt F) (Rect.unit (s := S50000) (k7_off29 i) S1.size (k7_off29_inb i)).toLoadRect tb (Shape.Idx.first (numel1_S1.symm ▸ Nat.one_pos))) := chk7_15_of_lt _ (hH _)
  have k7_hw16 : k7_chk16 (tbM7.view.readAt (Elt F) (Rect.unit (s := S50000) (k7_off31 i) S1.size (k7_off31_inb i)).toLoadRect tb (Shape.Idx.first (numel1_S1.symm ▸ Nat.one_pos))) := chk7_16_of_lt _ (hH _)
  refine ⟨?_, fun W K => ?run⟩
  case run =>
    simp only [cc7_kernel_eq_skeleton]; unfold cc7_kernel_skel
    simp only [k7_part7_eq_skeleton]; unfold k7_part7_skel
    simp only [k7_part1_eq_skeleton, k7_part2_eq_skeleton, k7_part3_eq_skeleton, k7_part4_eq_skeleton, k7_part5_eq_skeleton, k7_part6_eq_skeleton]
    unfold owns sems7
    iintro ⟨⟨%f0, %hf0, H0⟩, ⟨%d1, %f1, -, H7⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks7 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k7_hw1 | sl_exact k7_hw2 | sl_exact k7_hw3 | sl_exact k7_hw4 | sl_exact k7_hw5 | sl_exact k7_hw6 | sl_exact k7_hw7 | sl_exact k7_hw8 | sl_exact k7_hw9 | sl_exact k7_hw10 | sl_exact k7_hw11 | sl_exact k7_hw12 | sl_exact k7_hw13 | sl_exact k7_hw14 | sl_exact k7_hw15 | sl_exact k7_hw16)
    sl_step
    iapply Hk
    isplitl [H0]
    · iexists _; isplitr; · ipureintro; exact harg3.read_unread _
      iexact H0
    isplitl [H7]; · iexists _; iexact H7
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks7 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg7 (F := F)).Adm)

/-- Each window's current staging memref at point t, spelled as the pipeline passes it, and its wholeness. -/
abbrev ms7_0 (t : Fin (cfg7 a).N) : Memref sig .tc .vmem S16x1 .f32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S16x512 .f32 := spec7_1.stage ((cfg7 a).slots t 1)
abbrev hs7_1 (t : Fin (cfg7 a).N) : (ms7_1 a t).IsWhole := hstage7_1 (((cfg7 a).slots t 1).cast nbuf7_1)

/-- The kernel body at point t, on what the pipeline calls it with. -/
abbrev bodyAt7 (t : Fin (cfg7 a).N) : Prog (TpuEff nD τ sig (Elt F) Λ₀ .tc) PUnit :=
  cc7_kernel (grid7.coords t) tbM7 (Memref.isWhole_whole _) hbM7 (Memref.isWhole_whole _) (ms7_0 a t) (hs7_0 a t) (ms7_1 a t) (hs7_1 a t) scM7 (Memref.isWhole_whole _) cc7_scratch1

/-! ## The invariant, conjunct by conjunct -/

/-- The sixteen own cells at zero, listed. -/
theorem ownSems07_eq (c : Dev nD) :
    (Pipeline.ownSems0 (Ix := Unit) (Name := ℕ) (U := Pipeline.UD sig nD τ) (Lvl := ℕ) (Val := Elt F) (τ := τ) osem7 c : sProp 𝕄) = sems7 c := by
  rw [Pipeline.ownSems0_eq_of_list c osem7 [0, 1, 2, 3, 4, 5, 6, 7, 8, 9, 10, 11, 12, 13, 14, 15] (by decide) (by decide)]; rfl

/-- The gathered array's points-to at the region-entry contents. -/
theorem hbmPts7_eq (c : Dev nD) :
    (bigSep H7 (fun b => ((c : Thread nD τ).loc b) ↦{fullShare} V c b) : sProp 𝕄) = iprop(hbPt7 c hbM7 (V c main_v34)) := by
  rw [BI.bigSep_eq_bigSepL_of_eq [main_v34] (by decide) (by decide)]; rfl

/-- The row table, whole, at the contents the region is launched with. -/
theorem prefHeld7_eq (c : Dev nD) :
    (Pipeline.prefHeld (Ix := Unit) (Name := ℕ) (U := Pipeline.UD sig nD τ) (Lvl := ℕ) pre7 c (fun _ => fullShare) a.1 : sProp 𝕄) = iprop(hbPt7 c tbM7 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD7_eq (c : Dev nD) :
    (Pipeline.ΦD osem7 spec7 H7 V c : sProp 𝕄)
      = iprop(iprop((∃ d, owns (c : Thread nD τ) scM7 fullShare d) ∗ Pipeline.scopedRestBut (Ix := Unit) (Name := ℕ) (U := Pipeline.UD sig nD τ) (Lvl := ℕ) (Val := Elt F) spec7 c [cc7_scratch0])
          ∗ (∃ r, prngReg c r) ∗ sems7 c ∗ iprop(hbPt7 c hbM7 (V c main_v34))) := by
  rw [Pipeline.ΦD_eq, scopedRest7_split, ownSems07_eq, hbmPts7_eq]; simp only [scM7, owns_whole]; try rfl

/-! ## The windows' blocks -/

/-- Window w's block at point t, read off its array as the region finds it. -/
def iblk7 (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- Input window 0's current staging buffer holds its block at every point, fetched there or not. -/
theorem before7_0_of {c : Dev nD} (dat : Dat τ (Elt F) Unit ℕ (Pipeline.UD sig nD τ) ℕ (cfg7 a) c) (hA : dat.A 0 = V c (Pipeline.arrRef spec7 0))
    (hafter : ∀ t, dat.after 0 t = iblk7 V a c 0 t) (t : Fin (cfg7 a).N) (d) : dat.before 0 t d = iblk7 V a c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## What the run leaves in the output window's buffer -/

/-- The run's pieces for the output tile its block, so they cover it. -/
theorem cover7_1 (c : Dev nD) (i : grid7.Coords) (arg3 : Memref sig .tc .vmem S16x1 .f32) (harg3 : arg3.IsWhole) (arg4 : Memref sig .tc .vmem S16x512 .f32) (harg4 : arg4.IsWhole)
    (x0 : Vec F S16x1 .f32) (tb : HbBuf7 (F := F) c tbM7) (fh0 : HbBuf7 (F := F) c hbM7) (hT : ∀ x, (tb x).toNat < 50000) (y : S16x512.Idx) :
    ∃ pc ∈ (kernelRun7 c i arg3 harg3 arg4 harg4 x0 tb fh0 hT).1, y ∈ pc.1.set :=
  View.cover_of_tiledL (kernelRun7 c i arg3 harg3 arg4 harg4 x0 tb fh0 hT).1 S16x512.size (by sl_kernel_rfl) y

/-- One staging buffer of the output window, through which its contents are stated. -/
abbrev VO7_1 : View sig .tc .vmem S16x512 .f32 := (Memref.whole cc7_stg1_0 : Memref sig .tc .vmem S16x512 .f32).view

/-- What the run leaves in the output's staging buffer: its pieces read back over junk. -/
def out7_1 (c : Dev nD) (i : grid7.Coords) (arg3 : Memref sig .tc .vmem S16x1 .f32) (harg3 : arg3.IsWhole) (arg4 : Memref sig .tc .vmem S16x512 .f32) (harg4 : arg4.IsWhole)
    (x0 : Vec F S16x1 .f32) (tb : HbBuf7 (F := F) c tbM7) (fh0 : HbBuf7 (F := F) c hbM7) (hT : ∀ x, (tb x).toNat < 50000) : Vec F S16x512 .f32 :=
  VO7_1.read (Elt F) (VO7_1.writes (Elt F) VO7_1.junk (kernelRun7 c i arg3 harg3 arg4 harg4 x0 tb fh0 hT).1)

/-- Every word of the table is a row of the gathered array, from the same of its words by position. -/
theorem tbl_lt7 (hH : ∀ j : Fin 50000, ((a.1 0) (ValueIdx.ix1 j)).toNat < 50000) (c : Dev nD) : ∀ x, (((a.1 0 : HbBuf7 (F := F) c tbM7)) x).toNat < 50000 :=
  fun x => by rw [ValueIdx.eq_ix1 x]; exact hH _

/-- What the output's staging buffer holds after the body at point t: the run's contents at the point's memrefs, the
    norm block, the table and the gathered array. -/
def outsAt7 (hH : ∀ j : Fin 50000, ((a.1 0) (ValueIdx.ix1 j)).toNat < 50000) (c : Dev nD) (t : Fin (cfg7 a).N) : Vec F S16x512 .f32 :=
  out7_1 c (grid7.coords t) (ms7_0 a t) (hs7_0 a t) (ms7_1 a t) (hs7_1 a t) (iblk7 V a c 0 t) (a.1 0) (V c main_v34) (tbl_lt7 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat7 (hH : ∀ j : Fin 50000, ((a.1 0) (ValueIdx.ix1 j)).toNat < 50000) (c : Dev nD) : Dat τ (Elt F) Unit ℕ (Pipeline.UD sig nD τ) ℕ (cfg7 a) c where
  A w := V c (Pipeline.arrRef spec7 w)
  after w t := match w with
    | ⟨0, _⟩ => iblk7 V a c 0 t
    | ⟨1, _⟩ => (outsAt7 V a hH c t)
  Φ _ := iprop(Pipeline.ΦD osem7 spec7 H7 V c ∗ Pipeline.prefHeld pre7 c (fun _ => fullShare) a.1)
  q _ := fullShare
  owed _ := 0

/-- The proof data's arrays are the region-entry contents. -/
theorem A_eq7 (hH : ∀ j : Fin 50000, ((a.1 0) (ValueIdx.ix1 j)).toNat < 50000) (c : Dev nD) (w : Fin (cfg7 a).W) : (dat7 V a hH c).A w = V c (Pipeline.arrRef spec7 w) := by
  dsimp only [dat7]

/-- What the body leaves, window by window. -/
theorem after7_0 (hH : ∀ j : Fin 50000, ((a.1 0) (ValueIdx.ix1 j)).toNat < 50000) (c : Dev nD) (t : Fin (cfg7 a).N) : (dat7 V a hH c).after 0 t = iblk7 V a c 0 t := by dsimp only [dat7]; try rfl
theorem after7_1 (hH : ∀ j : Fin 50000, ((a.1 0) (ValueIdx.ix1 j)).toNat < 50000) (c : Dev nD) (t : Fin (cfg7 a).N) : (dat7 V a hH c).after 1 t = (outsAt7 V a hH c t) := by dsimp only [dat7]; try rfl

/-- The input's current staging buffer holds its block at every point, fetched there or not. -/
theorem before7_0 (hH : ∀ j : Fin 50000, ((a.1 0) (ValueIdx.ix1 j)).toNat < 50000) (c : Dev nD) (t : Fin (cfg7 a).N) (d) : (dat7 V a hH c).before 0 t d = iblk7 V a c 0 t :=
  before7_0_of V a (dat7 V a hH c) (A_eq7 V a hH c 0) (after7_0 V a hH c) t d

/-! ## The body obligation, at a generic point -/

/-- What the body is called with at point t, the windows one by one, -/
def bodyPre7 (hH : ∀ j : Fin 50000, ((a.1 0) (ValueIdx.ix1 j)).toNat < 50000) (c : Dev nD) (t : Fin (cfg7 a).N) : sProp 𝕄 :=
  iprop((dat7 V a hH c).Φ t.castSucc ∗ (dat7 V a hH c).owesAt () t.castSucc
    ∗ (∃ d, owns (c : Thread nD τ) (ms7_0 a t) fullShare ((dat7 V a hH c).before 0 t d))
    ∗ (∃ d, owns (c : Thread nD τ) (ms7_1 a t) fullShare ((dat7 V a hH c).before 1 t d)))

/-- and what it returns. -/
def bodyPost7 (hH : ∀ j : Fin 50000, ((a.1 0) (ValueIdx.ix1 j)).toNat < 50000) (c : Dev nD) (t : Fin (cfg7 a).N) : sProp 𝕄 :=
  iprop((dat7 V a hH c).Φ t.succ ∗ (dat7 V a hH c).owesAt () t.succ
    ∗ owns (c : Thread nD τ) (ms7_0 a t) fullShare ((dat7 V a hH c).after 0 t)
    ∗ owns (c : Thread nD τ) (ms7_1 a t) fullShare ((dat7 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body7 (hH : ∀ j : Fin 50000, ((a.1 0) (ValueIdx.ix1 j)).toNat < 50000) (c : Dev nD) (t : Fin (cfg7 a).N) :
    bodyPre7 V a hH c t ⊢ wp frame (wpE (defs₀ (F := F)) Variants.none c none) Set.univ (bodyAt7 a t) (fun _ => bodyPost7 V a hH c t) := by
  unfold bodyPre7 bodyPost7 bodyAt7
  simp only [before7_0]
  rw [show (dat7 V a hH c).Φ t.succ = (dat7 V a hH c).Φ t.castSucc from rfl,
    after7_0, after7_1]
  rw [show (dat7 V a hH c).Φ t.castSucc = iprop(Pipeline.ΦD osem7 spec7 H7 V c ∗ Pipeline.prefHeld pre7 c (fun _ => fullShare) a.1) from rfl, PhiD7_eq, prefHeld7_eq]
  unfold Dat.owesAt Pipeline.owesWithin
  rw [show (dat7 V a hH c).owed t.castSucc = 0 from rfl, show (dat7 V a hH c).owed t.succ = 0 from rfl]
  unfold outsAt7
  unfold out7_1
  iintro ⟨⟨⟨⟨HS0, HSr⟩, Hg, Hq, Hh0⟩, HT⟩, ⟨%W, -, HW⟩, ⟨%d0, H0⟩, ⟨%d1, H7⟩⟩
  iapply ((kernelRun7 c (grid7.coords t) _ _ _ _ (iblk7 V a c 0 t) (a.1 0) (V c main_v34) (tbl_lt7 a hH c)).2 W _)
  isplitl [H0]; · iexact H0
  isplitl [H7]; · iexists _; iexact H7
  isplitl [HS0]; · iexact HS0
  isplitl [Hq]; · iexact Hq
  isplitl [Hh0]; · iexact Hh0
  isplitl [HT]; · iexact HT
  isplitl [HW]; · iexact HW
  iintro ⟨H0, ⟨%e1, H7⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H7
  ipureintro; exact View.read_writes_of_cover _ _ _ _ _ (cover7_1 c _ _ _ _ _ _ _ _ _)

/-- The library's body obligation, at every point. -/
theorem body_obligation7 (hH : ∀ j : Fin 50000, ((a.1 0) (ValueIdx.ix1 j)).toNat < 50000) (c : Dev nD) : BodyObligation (dat7 (F := F) V a hH c) (defs₀ (F := F)) Variants.none () Set.univ := fun t => by
  rw [bigSep_W7, bigSep_W7]
  exact sound_body7 V a hH c t

end Cert.KernelIdeal.Hand

end
-- ==== Proof.G8.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 8 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem8 : Fin 16 → SemLoc sig := fun j =>
  (![SemLoc.dma 149, SemLoc.dma 150, SemLoc.dma 151, SemLoc.dma 152, SemLoc.dma 153, SemLoc.dma 154, SemLoc.dma 155, SemLoc.dma 156,
     SemLoc.dma 157, SemLoc.dma 158, SemLoc.dma 159, SemLoc.dma 160, SemLoc.dma 161, SemLoc.dma 162, SemLoc.dma 163, SemLoc.dma 164] : Fin 16 → SemLoc sig) j
theorem ownSemFacts8 : Pipeline.OwnSemFacts spec8 osem8 := by decide

/-- The HBM operand the body gathers rows from: unscoped, no window's array, no table. -/
def H8 : Finset (Ref sig .tc) := {main_v34}
theorem H8_sub : H8 ⊆ Pipeline.restRefsP sig pre8 spec8 := by decide

/-- The operands the pipeline does not stage, whole. -/
abbrev tbM8 : Memref sig .tc .smem S50000 .i32 := Memref.whole main_v57
abbrev hbM8 : Memref sig .tc .hbm S50000x512 .f32 := Memref.whole main_v34
abbrev scM8 : Memref sig .tc .vmem S16x512 .f32 := Memref.whole cc8_scratch0

/-- A whole memref's buffer on core `c`, and it held whole at `f`. -/
abbrev HbBuf8 (c : Dev nD) {sp : Space} {S : Shape} {e : EltTy} (M : Memref sig .tc sp S e) : Type := Buf (Elt F) (M.view.loc (c : Thread nD τ))
abbrev hbPt8 (c : Dev nD) {sp : Space} {S : Shape} {e : EltTy} (M : Memref sig .tc sp S e) (f : HbBuf8 (F := F) c M) : sProp 𝕄 :=
  M.view.loc (c : Thread nD τ) ↦{fullShare} f

/-- The sixteen own cells at zero. -/
abbrev sems8 (c : Dev nD) : sProp 𝕄 :=
  iprop(semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0)

/-- A row index inside the gathered array puts the one-row slice inside it. -/
theorem row_inb8 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk8_1_of_lt (w : BitVec 32) (h : w.toNat < 50000) : k8_chk1 w := ⟨row_inb8 w h, row_inb8 w h⟩
theorem chk8_2_of_lt (w : BitVec 32) (h : w.toNat < 50000) : k8_chk2 w := ⟨row_inb8 w h, row_inb8 w h⟩
theorem chk8_3_of_lt (w : BitVec 32) (h : w.toNat < 50000) : k8_chk3 w := ⟨row_inb8 w h, row_inb8 w h⟩
theorem chk8_4_of_lt (w : BitVec 32) (h : w.toNat < 50000) : k8_chk4 w := ⟨row_inb8 w h, row_inb8 w h⟩
theorem chk8_5_of_lt (w : BitVec 32) (h : w.toNat < 50000) : k8_chk5 w := ⟨row_inb8 w h, row_inb8 w h⟩
theorem chk8_6_of_lt (w : BitVec 32) (h : w.toNat < 50000) : k8_chk6 w := ⟨row_inb8 w h, row_inb8 w h⟩
theorem chk8_7_of_lt (w : BitVec 32) (h : w.toNat < 50000) : k8_chk7 w := ⟨row_inb8 w h, row_inb8 w h⟩
theorem chk8_8_of_lt (w : BitVec 32) (h : w.toNat < 50000) : k8_chk8 w := ⟨row_inb8 w h, row_inb8 w h⟩
theorem chk8_9_of_lt (w : BitVec 32) (h : w.toNat < 50000) : k8_chk9 w := ⟨row_inb8 w h, row_inb8 w h⟩
theorem chk8_10_of_lt (w : BitVec 32) (h : w.toNat < 50000) : k8_chk10 w := ⟨row_inb8 w h, row_inb8 w h⟩
theorem chk8_11_of_lt (w : BitVec 32) (h : w.toNat < 50000) : k8_chk11 w := ⟨row_inb8 w h, row_inb8 w h⟩
theorem chk8_12_of_lt (w : BitVec 32) (h : w.toNat < 50000) : k8_chk12 w := ⟨row_inb8 w h, row_inb8 w h⟩
theorem chk8_13_of_lt (w : BitVec 32) (h : w.toNat < 50000) : k8_chk13 w := ⟨row_inb8 w h, row_inb8 w h⟩
theorem chk8_14_of_lt (w : BitVec 32) (h : w.toNat < 50000) : k8_chk14 w := ⟨row_inb8 w h, row_inb8 w h⟩
theorem chk8_15_of_lt (w : BitVec 32) (h : w.toNat < 50000) : k8_chk15 w := ⟨row_inb8 w h, row_inb8 w h⟩
theorem chk8_16_of_lt (w : BitVec 32) (h : w.toNat < 50000) : k8_chk16 w := row_inb8 w h

/-- A whole points-to as what stays behind, sixteen read tokens numbered `b + 15` down to `b`, and the tokens below
    `b` kept as one family. -/
theorem toksAt8 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 149 … 164. -/
theorem toks8 {ℓ : Loc nD τ sig} (f : Buf (Elt F) ℓ) :
    (ℓ ↦{fullShare} f : sProp 𝕄) ⊣⊢ iprop((ℓ ↦{Transfers.shareDrop fullShare 165} f) ∗ (ℓ ↦{Transfers.shareTokN fullShare 164} f) ∗ (ℓ ↦{Transfers.shareTokN fullShare 163} f) ∗ (ℓ ↦{Transfers.shareTokN fullShare 162} f) ∗ (ℓ ↦{Transfers.shareTokN fullShare 161} f) ∗ (ℓ ↦{Transfers.shareTokN fullShare 160} f) ∗ (ℓ ↦{Transfers.shareTokN fullShare 159} f) ∗ (ℓ ↦{Transfers.shareTokN fullShare 158} f) ∗ (ℓ ↦{Transfers.shareTokN fullShare 157} f) ∗ (ℓ ↦{Transfers.shareTokN fullShare 156} f) ∗ (ℓ ↦{Transfers.shareTokN fullShare 155} f) ∗ (ℓ ↦{Transfers.shareTokN fullShare 154} f) ∗ (ℓ ↦{Transfers.shareTokN fullShare 153} f) ∗ (ℓ ↦{Transfers.shareTokN fullShare 152} f) ∗ (ℓ ↦{Transfers.shareTokN fullShare 151} f) ∗ (ℓ ↦{Transfers.shareTokN fullShare 150} f) ∗ (ℓ ↦{Transfers.shareTokN fullShare 149} f)
      ∗ BI.bigSep (Finset.range 149) fun k => ℓ ↦{Transfers.shareTokN fullShare k} f) :=
  toksAt8 f 149

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun8 (c : Dev nD) (i : grid8.Coords) (arg3 : Memref sig .tc .vmem S16x1 .f32) (harg3 : arg3.IsWhole) (arg4 : Memref sig .tc .vmem S16x512 .f32) (harg4 : arg4.IsWhole)
    (x0 : Vec F S16x1 .f32) (tb : HbBuf8 (F := F) c tbM8) (fh0 : HbBuf8 (F := F) c hbM8) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM8 fullShare d) ∗ sems8 c ∗ hbPt8 c hbM8 fh0 ∗ hbPt8 c tbM8 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM8 fullShare d) ∗ sems8 c ∗ hbPt8 c hbM8 fh0 ∗ hbPt8 c tbM8 tb ∗ (∃ W', owes (c : Thread nD τ) 0 W')) -∗ K ⟨⟩))
          ⊢ wp frame (wpE (defs₀ (F := F)) Variants.none c none) Set.univ (cc8_kernel i tbM8 (Memref.isWhole_whole _) hbM8 (Memref.isWhole_whole _) arg3 harg3 arg4 harg4 scM8 (Memref.isWhole_whole _) cc8_scratch1) K } := by
  have k8_hw1 : k8_chk1 (tbM8.view.readAt (Elt F) (Rect.unit (s := S50000) (k8_off1 i) S1.size (k8_off1_inb i)).toLoadRect tb (Shape.Idx.first (numel1_S1.symm ▸ Nat.one_pos))) := chk8_1_of_lt _ (hH _)
  have k8_hw2 : k8_chk2 (tbM8.view.readAt (Elt F) (Rect.unit (s := S50000) (k8_off3 i) S1.size (k8_off3_inb i)).toLoadRect tb (Shape.Idx.first (numel1_S1.symm ▸ Nat.one_pos))) := chk8_2_of_lt _ (hH _)
  have k8_hw3 : k8_chk3 (tbM8.view.readAt (Elt F) (Rect.unit (s := S50000) (k8_off5 i) S1.size (k8_off5_inb i)).toLoadRect tb (Shape.Idx.first (numel1_S1.symm ▸ Nat.one_pos))) := chk8_3_of_lt _ (hH _)
  have k8_hw4 : k8_chk4 (tbM8.view.readAt (Elt F) (Rect.unit (s := S50000) (k8_off7 i) S1.size (k8_off7_inb i)).toLoadRect tb (Shape.Idx.first (numel1_S1.symm ▸ Nat.one_pos))) := chk8_4_of_lt _ (hH _)
  have k8_hw5 : k8_chk5 (tbM8.view.readAt (Elt F) (Rect.unit (s := S50000) (k8_off9 i) S1.size (k8_off9_inb i)).toLoadRect tb (Shape.Idx.first (numel1_S1.symm ▸ Nat.one_pos))) := chk8_5_of_lt _ (hH _)
  have k8_hw6 : k8_chk6 (tbM8.view.readAt (Elt F) (Rect.unit (s := S50000) (k8_off11 i) S1.size (k8_off11_inb i)).toLoadRect tb (Shape.Idx.first (numel1_S1.symm ▸ Nat.one_pos))) := chk8_6_of_lt _ (hH _)
  have k8_hw7 : k8_chk7 (tbM8.view.readAt (Elt F) (Rect.unit (s := S50000) (k8_off13 i) S1.size (k8_off13_inb i)).toLoadRect tb (Shape.Idx.first (numel1_S1.symm ▸ Nat.one_pos))) := chk8_7_of_lt _ (hH _)
  have k8_hw8 : k8_chk8 (tbM8.view.readAt (Elt F) (Rect.unit (s := S50000) (k8_off15 i) S1.size (k8_off15_inb i)).toLoadRect tb (Shape.Idx.first (numel1_S1.symm ▸ Nat.one_pos))) := chk8_8_of_lt _ (hH _)
  have k8_hw9 : k8_chk9 (tbM8.view.readAt (Elt F) (Rect.unit (s := S50000) (k8_off17 i) S1.size (k8_off17_inb i)).toLoadRect tb (Shape.Idx.first (numel1_S1.symm ▸ Nat.one_pos))) := chk8_9_of_lt _ (hH _)
  have k8_hw10 : k8_chk10 (tbM8.view.readAt (Elt F) (Rect.unit (s := S50000) (k8_off19 i) S1.size (k8_off19_inb i)).toLoadRect tb (Shape.Idx.first (numel1_S1.symm ▸ Nat.one_pos))) := chk8_10_of_lt _ (hH _)
  have k8_hw11 : k8_chk11 (tbM8.view.readAt (Elt F) (Rect.unit (s := S50000) (k8_off21 i) S1.size (k8_off21_inb i)).toLoadRect tb (Shape.Idx.first (numel1_S1.symm ▸ Nat.one_pos))) := chk8_11_of_lt _ (hH _)
  have k8_hw12 : k8_chk12 (tbM8.view.readAt (Elt F) (Rect.unit (s := S50000) (k8_off23 i) S1.size (k8_off23_inb i)).toLoadRect tb (Shape.Idx.first (numel1_S1.symm ▸ Nat.one_pos))) := chk8_12_of_lt _ (hH _)
  have k8_hw13 : k8_chk13 (tbM8.view.readAt (Elt F) (Rect.unit (s := S50000) (k8_off25 i) S1.size (k8_off25_inb i)).toLoadRect tb (Shape.Idx.first (numel1_S1.symm ▸ Nat.one_pos))) := chk8_13_of_lt _ (hH _)
  have k8_hw14 : k8_chk14 (tbM8.view.readAt (Elt F) (Rect.unit (s := S50000) (k8_off27 i) S1.size (k8_off27_inb i)).toLoadRect tb (Shape.Idx.first (numel1_S1.symm ▸ Nat.one_pos))) := chk8_14_of_lt _ (hH _)
  have k8_hw15 : k8_chk15 (tbM8.view.readAt (Elt F) (Rect.unit (s := S50000) (k8_off29 i) S1.size (k8_off29_inb i)).toLoadRect tb (Shape.Idx.first (numel1_S1.symm ▸ Nat.one_pos))) := chk8_15_of_lt _ (hH _)
  have k8_hw16 : k8_chk16 (tbM8.view.readAt (Elt F) (Rect.unit (s := S50000) (k8_off31 i) S1.size (k8_off31_inb i)).toLoadRect tb (Shape.Idx.first (numel1_S1.symm ▸ Nat.one_pos))) := chk8_16_of_lt _ (hH _)
  refine ⟨?_, fun W K => ?run⟩
  case run =>
    simp only [cc8_kernel_eq_skeleton]; unfold cc8_kernel_skel
    simp only [k8_part7_eq_skeleton]; unfold k8_part7_skel
    simp only [k8_part1_eq_skeleton, k8_part2_eq_skeleton, k8_part3_eq_skeleton, k8_part4_eq_skeleton, k8_part5_eq_skeleton, k8_part6_eq_skeleton]
    unfold owns sems8
    iintro ⟨⟨%f0, %hf0, H0⟩, ⟨%d1, %f1, -, H8⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks8 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k8_hw1 | sl_exact k8_hw2 | sl_exact k8_hw3 | sl_exact k8_hw4 | sl_exact k8_hw5 | sl_exact k8_hw6 | sl_exact k8_hw7 | sl_exact k8_hw8 | sl_exact k8_hw9 | sl_exact k8_hw10 | sl_exact k8_hw11 | sl_exact k8_hw12 | sl_exact k8_hw13 | sl_exact k8_hw14 | sl_exact k8_hw15 | sl_exact k8_hw16)
    sl_step
    iapply Hk
    isplitl [H0]
    · iexists _; isplitr; · ipureintro; exact harg3.read_unread _
      iexact H0
    isplitl [H8]; · iexists _; iexact H8
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks8 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg8 (F := F)).Adm)

/-- Each window's current staging memref at point t, spelled as the pipeline passes it, and its wholeness. -/
abbrev ms8_0 (t : Fin (cfg8 a).N) : Memref sig .tc .vmem S16x1 .f32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S16x512 .f32 := spec8_1.stage ((cfg8 a).slots t 1)
abbrev hs8_1 (t : Fin (cfg8 a).N) : (ms8_1 a t).IsWhole := hstage8_1 (((cfg8 a).slots t 1).cast nbuf8_1)

/-- The kernel body at point t, on what the pipeline calls it with. -/
abbrev bodyAt8 (t : Fin (cfg8 a).N) : Prog (TpuEff nD τ sig (Elt F) Λ₀ .tc) PUnit :=
  cc8_kernel (grid8.coords t) tbM8 (Memref.isWhole_whole _) hbM8 (Memref.isWhole_whole _) (ms8_0 a t) (hs8_0 a t) (ms8_1 a t) (hs8_1 a t) scM8 (Memref.isWhole_whole _) cc8_scratch1

/-! ## The invariant, conjunct by conjunct -/

/-- The sixteen own cells at zero, listed. -/
theorem ownSems08_eq (c : Dev nD) :
    (Pipeline.ownSems0 (Ix := Unit) (Name := ℕ) (U := Pipeline.UD sig nD τ) (Lvl := ℕ) (Val := Elt F) (τ := τ) osem8 c : sProp 𝕄) = sems8 c := by
  rw [Pipeline.ownSems0_eq_of_list c osem8 [0, 1, 2, 3, 4, 5, 6, 7, 8, 9, 10, 11, 12, 13, 14, 15] (by decide) (by decide)]; rfl

/-- The gathered array's points-to at the region-entry contents. -/
theorem hbmPts8_eq (c : Dev nD) :
    (bigSep H8 (fun b => ((c : Thread nD τ).loc b) ↦{fullShare} V c b) : sProp 𝕄) = iprop(hbPt8 c hbM8 (V c main_v34)) := by
  rw [BI.bigSep_eq_bigSepL_of_eq [main_v34] (by decide) (by decide)]; rfl

/-- The row table, whole, at the contents the region is launched with. -/
theorem prefHeld8_eq (c : Dev nD) :
    (Pipeline.prefHeld (Ix := Unit) (Name := ℕ) (U := Pipeline.UD sig nD τ) (Lvl := ℕ) pre8 c (fun _ => fullShare) a.1 : sProp 𝕄) = iprop(hbPt8 c tbM8 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD8_eq (c : Dev nD) :
    (Pipeline.ΦD osem8 spec8 H8 V c : sProp 𝕄)
      = iprop(iprop((∃ d, owns (c : Thread nD τ) scM8 fullShare d) ∗ Pipeline.scopedRestBut (Ix := Unit) (Name := ℕ) (U := Pipeline.UD sig nD τ) (Lvl := ℕ) (Val := Elt F) spec8 c [cc8_scratch0])
          ∗ (∃ r, prngReg c r) ∗ sems8 c ∗ iprop(hbPt8 c hbM8 (V c main_v34))) := by
  rw [Pipeline.ΦD_eq, scopedRest8_split, ownSems08_eq, hbmPts8_eq]; simp only [scM8, owns_whole]; try rfl

/-! ## The windows' blocks -/

/-- Window w's block at point t, read off its array as the region finds it. -/
def iblk8 (c : Dev nD) (w : Fin (cfg8 a).W) (t : Fin (cfg8 a).N) : (((cfg8 a).win w).xblock ((cfg8 a).grid.coords t)).Idx → Elt F ((cfg8 a).win w).elt :=
  (((cfg8 a).win w).blk t).view.read (Elt F) (V c (Pipeline.arrRef spec8 w))

/-- Input window 0's current staging buffer holds its block at every point, fetched there or not. -/
theorem before8_0_of {c : Dev nD} (dat : Dat τ (Elt F) Unit ℕ (Pipeline.UD sig nD τ) ℕ (cfg8 a) c) (hA : dat.A 0 = V c (Pipeline.arrRef spec8 0))
    (hafter : ∀ t, dat.after 0 t = iblk8 V a c 0 t) (t : Fin (cfg8 a).N) (d) : dat.before 0 t d = iblk8 V a c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-! ## What the run leaves in the output window's buffer -/

/-- The run's pieces for the output tile its block, so they cover it. -/
theorem cover8_1 (c : Dev nD) (i : grid8.Coords) (arg3 : Memref sig .tc .vmem S16x1 .f32) (harg3 : arg3.IsWhole) (arg4 : Memref sig .tc .vmem S16x512 .f32) (harg4 : arg4.IsWhole)
    (x0 : Vec F S16x1 .f32) (tb : HbBuf8 (F := F) c tbM8) (fh0 : HbBuf8 (F := F) c hbM8) (hT : ∀ x, (tb x).toNat < 50000) (y : S16x512.Idx) :
    ∃ pc ∈ (kernelRun8 c i arg3 harg3 arg4 harg4 x0 tb fh0 hT).1, y ∈ pc.1.set :=
  View.cover_of_tiledL (kernelRun8 c i arg3 harg3 arg4 harg4 x0 tb fh0 hT).1 S16x512.size (by sl_kernel_rfl) y

/-- One staging buffer of the output window, through which its contents are stated. -/
abbrev VO8_1 : View sig .tc .vmem S16x512 .f32 := (Memref.whole cc8_stg1_0 : Memref sig .tc .vmem S16x512 .f32).view

/-- What the run leaves in the output's staging buffer: its pieces read back over junk. -/
def out8_1 (c : Dev nD) (i : grid8.Coords) (arg3 : Memref sig .tc .vmem S16x1 .f32) (harg3 : arg3.IsWhole) (arg4 : Memref sig .tc .vmem S16x512 .f32) (harg4 : arg4.IsWhole)
    (x0 : Vec F S16x1 .f32) (tb : HbBuf8 (F := F) c tbM8) (fh0 : HbBuf8 (F := F) c hbM8) (hT : ∀ x, (tb x).toNat < 50000) : Vec F S16x512 .f32 :=
  VO8_1.read (Elt F) (VO8_1.writes (Elt F) VO8_1.junk (kernelRun8 c i arg3 harg3 arg4 harg4 x0 tb fh0 hT).1)

/-- Every word of the table is a row of the gathered array, from the same of its words by position. -/
theorem tbl_lt8 (hH : ∀ j : Fin 50000, ((a.1 0) (ValueIdx.ix1 j)).toNat < 50000) (c : Dev nD) : ∀ x, (((a.1 0 : HbBuf8 (F := F) c tbM8)) x).toNat < 50000 :=
  fun x => by rw [ValueIdx.eq_ix1 x]; exact hH _

/-- What the output's staging buffer holds after the body at point t: the run's contents at the point's memrefs, the
    norm block, the table and the gathered array. -/
def outsAt8 (hH : ∀ j : Fin 50000, ((a.1 0) (ValueIdx.ix1 j)).toNat < 50000) (c : Dev nD) (t : Fin (cfg8 a).N) : Vec F S16x512 .f32 :=
  out8_1 c (grid8.coords t) (ms8_0 a t) (hs8_0 a t) (ms8_1 a t) (hs8_1 a t) (iblk8 V a c 0 t) (a.1 0) (V c main_v34) (tbl_lt8 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat8 (hH : ∀ j : Fin 50000, ((a.1 0) (ValueIdx.ix1 j)).toNat < 50000) (c : Dev nD) : Dat τ (Elt F) Unit ℕ (Pipeline.UD sig nD τ) ℕ (cfg8 a) c where
  A w := V c (Pipeline.arrRef spec8 w)
  after w t := match w with
    | ⟨0, _⟩ => iblk8 V a c 0 t
    | ⟨1, _⟩ => (outsAt8 V a hH c t)
  Φ _ := iprop(Pipeline.ΦD osem8 spec8 H8 V c ∗ Pipeline.prefHeld pre8 c (fun _ => fullShare) a.1)
  q _ := fullShare
  owed _ := 0

/-- The proof data's arrays are the region-entry contents. -/
theorem A_eq8 (hH : ∀ j : Fin 50000, ((a.1 0) (ValueIdx.ix1 j)).toNat < 50000) (c : Dev nD) (w : Fin (cfg8 a).W) : (dat8 V a hH c).A w = V c (Pipeline.arrRef spec8 w) := by
  dsimp only [dat8]

/-- What the body leaves, window by window. -/
theorem after8_0 (hH : ∀ j : Fin 50000, ((a.1 0) (ValueIdx.ix1 j)).toNat < 50000) (c : Dev nD) (t : Fin (cfg8 a).N) : (dat8 V a hH c).after 0 t = iblk8 V a c 0 t := by dsimp only [dat8]; try rfl
theorem after8_1 (hH : ∀ j : Fin 50000, ((a.1 0) (ValueIdx.ix1 j)).toNat < 50000) (c : Dev nD) (t : Fin (cfg8 a).N) : (dat8 V a hH c).after 1 t = (outsAt8 V a hH c t) := by dsimp only [dat8]; try rfl

/-- The input's current staging buffer holds its block at every point, fetched there or not. -/
theorem before8_0 (hH : ∀ j : Fin 50000, ((a.1 0) (ValueIdx.ix1 j)).toNat < 50000) (c : Dev nD) (t : Fin (cfg8 a).N) (d) : (dat8 V a hH c).before 0 t d = iblk8 V a c 0 t :=
  before8_0_of V a (dat8 V a hH c) (A_eq8 V a hH c 0) (after8_0 V a hH c) t d

/-! ## The body obligation, at a generic point -/

/-- What the body is called with at point t, the windows one by one, -/
def bodyPre8 (hH : ∀ j : Fin 50000, ((a.1 0) (ValueIdx.ix1 j)).toNat < 50000) (c : Dev nD) (t : Fin (cfg8 a).N) : sProp 𝕄 :=
  iprop((dat8 V a hH c).Φ t.castSucc ∗ (dat8 V a hH c).owesAt () t.castSucc
    ∗ (∃ d, owns (c : Thread nD τ) (ms8_0 a t) fullShare ((dat8 V a hH c).before 0 t d))
    ∗ (∃ d, owns (c : Thread nD τ) (ms8_1 a t) fullShare ((dat8 V a hH c).before 1 t d)))

/-- and what it returns. -/
def bodyPost8 (hH : ∀ j : Fin 50000, ((a.1 0) (ValueIdx.ix1 j)).toNat < 50000) (c : Dev nD) (t : Fin (cfg8 a).N) : sProp 𝕄 :=
  iprop((dat8 V a hH c).Φ t.succ ∗ (dat8 V a hH c).owesAt () t.succ
    ∗ owns (c : Thread nD τ) (ms8_0 a t) fullShare ((dat8 V a hH c).after 0 t)
    ∗ owns (c : Thread nD τ) (ms8_1 a t) fullShare ((dat8 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body8 (hH : ∀ j : Fin 50000, ((a.1 0) (ValueIdx.ix1 j)).toNat < 50000) (c : Dev nD) (t : Fin (cfg8 a).N) :
    bodyPre8 V a hH c t ⊢ wp frame (wpE (defs₀ (F := F)) Variants.none c none) Set.univ (bodyAt8 a t) (fun _ => bodyPost8 V a hH c t) := by
  unfold bodyPre8 bodyPost8 bodyAt8
  simp only [before8_0]
  rw [show (dat8 V a hH c).Φ t.succ = (dat8 V a hH c).Φ t.castSucc from rfl,
    after8_0, after8_1]
  rw [show (dat8 V a hH c).Φ t.castSucc = iprop(Pipeline.ΦD osem8 spec8 H8 V c ∗ Pipeline.prefHeld pre8 c (fun _ => fullShare) a.1) from rfl, PhiD8_eq, prefHeld8_eq]
  unfold Dat.owesAt Pipeline.owesWithin
  rw [show (dat8 V a hH c).owed t.castSucc = 0 from rfl, show (dat8 V a hH c).owed t.succ = 0 from rfl]
  unfold outsAt8
  unfold out8_1
  iintro ⟨⟨⟨⟨HS0, HSr⟩, Hg, Hq, Hh0⟩, HT⟩, ⟨%W, -, HW⟩, ⟨%d0, H0⟩, ⟨%d1, H8⟩⟩
  iapply ((kernelRun8 c (grid8.coords t) _ _ _ _ (iblk8 V a c 0 t) (a.1 0) (V c main_v34) (tbl_lt8 a hH c)).2 W _)
  isplitl [H0]; · iexact H0
  isplitl [H8]; · iexists _; iexact H8
  isplitl [HS0]; · iexact HS0
  isplitl [Hq]; · iexact Hq
  isplitl [Hh0]; · iexact Hh0
  isplitl [HT]; · iexact HT
  isplitl [HW]; · iexact HW
  iintro ⟨H0, ⟨%e1, H8⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H8
  ipureintro; exact View.read_writes_of_cover _ _ _ _ _ (cover8_1 c _ _ _ _ _ _ _ _ _)

/-- The library's body obligation, at every point. -/
theorem body_obligation8 (hH : ∀ j : Fin 50000, ((a.1 0) (ValueIdx.ix1 j)).toNat < 50000) (c : Dev nD) : BodyObligation (dat8 (F := F) V a hH c) (defs₀ (F := F)) Variants.none () Set.univ := fun t => by
  rw [bigSep_W8, bigSep_W8]
  exact sound_body8 V a hH c t

end Cert.KernelIdeal.Hand

end
-- ==== Proof.G9.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 9 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem9 : Fin 16 → SemLoc sig := fun j =>
  (![SemLoc.dma 169, SemLoc.dma 170, SemLoc.dma 171, SemLoc.dma 172, SemLoc.dma 173, SemLoc.dma 174, SemLoc.dma 175, SemLoc.dma 176,
     SemLoc.dma 177, SemLoc.dma 178, SemLoc.dma 179, SemLoc.dma 180, SemLoc.dma 181, SemLoc.dma 182, SemLoc.dma 183, SemLoc.dma 184] : Fin 16 → SemLoc sig) j
theorem ownSemFacts9 : Pipeline.OwnSemFacts spec9 osem9 := by decide

/-- The HBM operand the body gathers rows from: unscoped, no window's array, no table. -/
def H9 : Finset (Ref sig .tc) := {main_v34}
theorem H9_sub : H9 ⊆ Pipeline.restRefsP sig pre9 spec9 := by decide

/-- The operands the pipeline does not stage, whole. -/
abbrev tbM9 : Memref sig .tc .smem S50000 .i32 := Memref.whole main_v60
abbrev hbM9 : Memref sig .tc .hbm S50000x512 .f32 := Memref.whole main_v34
abbrev scM9 : Memref sig .tc .vmem S16x512 .f32 := Memref.whole cc9_scratch0

/-- A whole memref's buffer on core `c`, and it held whole at `f`. -/
abbrev HbBuf9 (c : Dev nD) {sp : Space} {S : Shape} {e : EltTy} (M : Memref sig .tc sp S e) : Type := Buf (Elt F) (M.view.loc (c : Thread nD τ))
abbrev hbPt9 (c : Dev nD) {sp : Space} {S : Shape} {e : EltTy} (M : Memref sig .tc sp S e) (f : HbBuf9 (F := F) c M) : sProp 𝕄 :=
  M.view.loc (c : Thread nD τ) ↦{fullShare} f

/-- The sixteen own cells at zero. -/
abbrev sems9 (c : Dev nD) : sProp 𝕄 :=
  iprop(semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0)

/-- A row index inside the gathered array puts the one-row slice inside it. -/
theorem row_inb9 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk9_1_of_lt (w : BitVec 32) (h : w.toNat < 50000) : k9_chk1 w := ⟨row_inb9 w h, row_inb9 w h⟩
theorem chk9_2_of_lt (w : BitVec 32) (h : w.toNat < 50000) : k9_chk2 w := ⟨row_inb9 w h, row_inb9 w h⟩
theorem chk9_3_of_lt (w : BitVec 32) (h : w.toNat < 50000) : k9_chk3 w := ⟨row_inb9 w h, row_inb9 w h⟩
theorem chk9_4_of_lt (w : BitVec 32) (h : w.toNat < 50000) : k9_chk4 w := ⟨row_inb9 w h, row_inb9 w h⟩
theorem chk9_5_of_lt (w : BitVec 32) (h : w.toNat < 50000) : k9_chk5 w := ⟨row_inb9 w h, row_inb9 w h⟩
theorem chk9_6_of_lt (w : BitVec 32) (h : w.toNat < 50000) : k9_chk6 w := ⟨row_inb9 w h, row_inb9 w h⟩
theorem chk9_7_of_lt (w : BitVec 32) (h : w.toNat < 50000) : k9_chk7 w := ⟨row_inb9 w h, row_inb9 w h⟩
theorem chk9_8_of_lt (w : BitVec 32) (h : w.toNat < 50000) : k9_chk8 w := ⟨row_inb9 w h, row_inb9 w h⟩
theorem chk9_9_of_lt (w : BitVec 32) (h : w.toNat < 50000) : k9_chk9 w := ⟨row_inb9 w h, row_inb9 w h⟩
theorem chk9_10_of_lt (w : BitVec 32) (h : w.toNat < 50000) : k9_chk10 w := ⟨row_inb9 w h, row_inb9 w h⟩
theorem chk9_11_of_lt (w : BitVec 32) (h : w.toNat < 50000) : k9_chk11 w := ⟨row_inb9 w h, row_inb9 w h⟩
theorem chk9_12_of_lt (w : BitVec 32) (h : w.toNat < 50000) : k9_chk12 w := ⟨row_inb9 w h, row_inb9 w h⟩
theorem chk9_13_of_lt (w : BitVec 32) (h : w.toNat < 50000) : k9_chk13 w := ⟨row_inb9 w h, row_inb9 w h⟩
theorem chk9_14_of_lt (w : BitVec 32) (h : w.toNat < 50000) : k9_chk14 w := ⟨row_inb9 w h, row_inb9 w h⟩
theorem chk9_15_of_lt (w : BitVec 32) (h : w.toNat < 50000) : k9_chk15 w := ⟨row_inb9 w h, row_inb9 w h⟩
theorem chk9_16_of_lt (w : BitVec 32) (h : w.toNat < 50000) : k9_chk16 w := row_inb9 w h

/-- A whole points-to as what stays behind, sixteen read tokens numbered `b + 15` down to `b`, and the tokens below
    `b` kept as one family. -/
theorem toksAt9 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 169 … 184. -/
theorem toks9 {ℓ : Loc nD τ sig} (f : Buf (Elt F) ℓ) :
    (ℓ ↦{fullShare} f : sProp 𝕄) ⊣⊢ iprop((ℓ ↦{Transfers.shareDrop fullShare 185} f) ∗ (ℓ ↦{Transfers.shareTokN fullShare 184} f) ∗ (ℓ ↦{Transfers.shareTokN fullShare 183} f) ∗ (ℓ ↦{Transfers.shareTokN fullShare 182} f) ∗ (ℓ ↦{Transfers.shareTokN fullShare 181} f) ∗ (ℓ ↦{Transfers.shareTokN fullShare 180} f) ∗ (ℓ ↦{Transfers.shareTokN fullShare 179} f) ∗ (ℓ ↦{Transfers.shareTokN fullShare 178} f) ∗ (ℓ ↦{Transfers.shareTokN fullShare 177} f) ∗ (ℓ ↦{Transfers.shareTokN fullShare 176} f) ∗ (ℓ ↦{Transfers.shareTokN fullShare 175} f) ∗ (ℓ ↦{Transfers.shareTokN fullShare 174} f) ∗ (ℓ ↦{Transfers.shareTokN fullShare 173} f) ∗ (ℓ ↦{Transfers.shareTokN fullShare 172} f) ∗ (ℓ ↦{Transfers.shareTokN fullShare 171} f) ∗ (ℓ ↦{Transfers.shareTokN fullShare 170} f) ∗ (ℓ ↦{Transfers.shareTokN fullShare 169} f)
      ∗ BI.bigSep (Finset.range 169) fun k => ℓ ↦{Transfers.shareTokN fullShare k} f) :=
  toksAt9 f 169

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun9 (c : Dev nD) (i : grid9.Coords) (arg3 : Memref sig .tc .vmem S16x1 .f32) (harg3 : arg3.IsWhole) (arg4 : Memref sig .tc .vmem S16x512 .f32) (harg4 : arg4.IsWhole)
    (x0 : Vec F S16x1 .f32) (tb : HbBuf9 (F := F) c tbM9) (fh0 : HbBuf9 (F := F) c hbM9) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM9 fullShare d) ∗ sems9 c ∗ hbPt9 c hbM9 fh0 ∗ hbPt9 c tbM9 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM9 fullShare d) ∗ sems9 c ∗ hbPt9 c hbM9 fh0 ∗ hbPt9 c tbM9 tb ∗ (∃ W', owes (c : Thread nD τ) 0 W')) -∗ K ⟨⟩))
          ⊢ wp frame (wpE (defs₀ (F := F)) Variants.none c none) Set.univ (cc9_kernel i tbM9 (Memref.isWhole_whole _) hbM9 (Memref.isWhole_whole _) arg3 harg3 arg4 harg4 scM9 (Memref.isWhole_whole _) cc9_scratch1) K } := by
  have k9_hw1 : k9_chk1 (tbM9.view.readAt (Elt F) (Rect.unit (s := S50000) (k9_off1 i) S1.size (k9_off1_inb i)).toLoadRect tb (Shape.Idx.first (numel1_S1.symm ▸ Nat.one_pos))) := chk9_1_of_lt _ (hH _)
  have k9_hw2 : k9_chk2 (tbM9.view.readAt (Elt F) (Rect.unit (s := S50000) (k9_off3 i) S1.size (k9_off3_inb i)).toLoadRect tb (Shape.Idx.first (numel1_S1.symm ▸ Nat.one_pos))) := chk9_2_of_lt _ (hH _)
  have k9_hw3 : k9_chk3 (tbM9.view.readAt (Elt F) (Rect.unit (s := S50000) (k9_off5 i) S1.size (k9_off5_inb i)).toLoadRect tb (Shape.Idx.first (numel1_S1.symm ▸ Nat.one_pos))) := chk9_3_of_lt _ (hH _)
  have k9_hw4 : k9_chk4 (tbM9.view.readAt (Elt F) (Rect.unit (s := S50000) (k9_off7 i) S1.size (k9_off7_inb i)).toLoadRect tb (Shape.Idx.first (numel1_S1.symm ▸ Nat.one_pos))) := chk9_4_of_lt _ (hH _)
  have k9_hw5 : k9_chk5 (tbM9.view.readAt (Elt F) (Rect.unit (s := S50000) (k9_off9 i) S1.size (k9_off9_inb i)).toLoadRect tb (Shape.Idx.first (numel1_S1.symm ▸ Nat.one_pos))) := chk9_5_of_lt _ (hH _)
  have k9_hw6 : k9_chk6 (tbM9.view.readAt (Elt F) (Rect.unit (s := S50000) (k9_off11 i) S1.size (k9_off11_inb i)).toLoadRect tb (Shape.Idx.first (numel1_S1.symm ▸ Nat.one_pos))) := chk9_6_of_lt _ (hH _)
  have k9_hw7 : k9_chk7 (tbM9.view.readAt (Elt F) (Rect.unit (s := S50000) (k9_off13 i) S1.size (k9_off13_inb i)).toLoadRect tb (Shape.Idx.first (numel1_S1.symm ▸ Nat.one_pos))) := chk9_7_of_lt _ (hH _)
  have k9_hw8 : k9_chk8 (tbM9.view.readAt (Elt F) (Rect.unit (s := S50000) (k9_off15 i) S1.size (k9_off15_inb i)).toLoadRect tb (Shape.Idx.first (numel1_S1.symm ▸ Nat.one_pos))) := chk9_8_of_lt _ (hH _)
  have k9_hw9 : k9_chk9 (tbM9.view.readAt (Elt F) (Rect.unit (s := S50000) (k9_off17 i) S1.size (k9_off17_inb i)).toLoadRect tb (Shape.Idx.first (numel1_S1.symm ▸ Nat.one_pos))) := chk9_9_of_lt _ (hH _)
  have k9_hw10 : k9_chk10 (tbM9.view.readAt (Elt F) (Rect.unit (s := S50000) (k9_off19 i) S1.size (k9_off19_inb i)).toLoadRect tb (Shape.Idx.first (numel1_S1.symm ▸ Nat.one_pos))) := chk9_10_of_lt _ (hH _)
  have k9_hw11 : k9_chk11 (tbM9.view.readAt (Elt F) (Rect.unit (s := S50000) (k9_off21 i) S1.size (k9_off21_inb i)).toLoadRect tb (Shape.Idx.first (numel1_S1.symm ▸ Nat.one_pos))) := chk9_11_of_lt _ (hH _)
  have k9_hw12 : k9_chk12 (tbM9.view.readAt (Elt F) (Rect.unit (s := S50000) (k9_off23 i) S1.size (k9_off23_inb i)).toLoadRect tb (Shape.Idx.first (numel1_S1.symm ▸ Nat.one_pos))) := chk9_12_of_lt _ (hH _)
  have k9_hw13 : k9_chk13 (tbM9.view.readAt (Elt F) (Rect.unit (s := S50000) (k9_off25 i) S1.size (k9_off25_inb i)).toLoadRect tb (Shape.Idx.first (numel1_S1.symm ▸ Nat.one_pos))) := chk9_13_of_lt _ (hH _)
  have k9_hw14 : k9_chk14 (tbM9.view.readAt (Elt F) (Rect.unit (s := S50000) (k9_off27 i) S1.size (k9_off27_inb i)).toLoadRect tb (Shape.Idx.first (numel1_S1.symm ▸ Nat.one_pos))) := chk9_14_of_lt _ (hH _)
  have k9_hw15 : k9_chk15 (tbM9.view.readAt (Elt F) (Rect.unit (s := S50000) (k9_off29 i) S1.size (k9_off29_inb i)).toLoadRect tb (Shape.Idx.first (numel1_S1.symm ▸ Nat.one_pos))) := chk9_15_of_lt _ (hH _)
  have k9_hw16 : k9_chk16 (tbM9.view.readAt (Elt F) (Rect.unit (s := S50000) (k9_off31 i) S1.size (k9_off31_inb i)).toLoadRect tb (Shape.Idx.first (numel1_S1.symm ▸ Nat.one_pos))) := chk9_16_of_lt _ (hH _)
  refine ⟨?_, fun W K => ?run⟩
  case run =>
    simp only [cc9_kernel_eq_skeleton]; unfold cc9_kernel_skel
    simp only [k9_part7_eq_skeleton]; unfold k9_part7_skel
    simp only [k9_part1_eq_skeleton, k9_part2_eq_skeleton, k9_part3_eq_skeleton, k9_part4_eq_skeleton, k9_part5_eq_skeleton, k9_part6_eq_skeleton]
    unfold owns sems9
    iintro ⟨⟨%f0, %hf0, H0⟩, ⟨%d1, %f1, -, H9⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks9 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k9_hw1 | sl_exact k9_hw2 | sl_exact k9_hw3 | sl_exact k9_hw4 | sl_exact k9_hw5 | sl_exact k9_hw6 | sl_exact k9_hw7 | sl_exact k9_hw8 | sl_exact k9_hw9 | sl_exact k9_hw10 | sl_exact k9_hw11 | sl_exact k9_hw12 | sl_exact k9_hw13 | sl_exact k9_hw14 | sl_exact k9_hw15 | sl_exact k9_hw16)
    sl_step
    iapply Hk
    isplitl [H0]
    · iexists _; isplitr; · ipureintro; exact harg3.read_unread _
      iexact H0
    isplitl [H9]; · iexists _; iexact H9
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks9 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg9 (F := F)).Adm)

/-- Each window's current staging memref at point t, spelled as the pipeline passes it, and its wholeness. -/
abbrev ms9_0 (t : Fin (cfg9 a).N) : Memref sig .tc .vmem S16x1 .f32 := spec9_0.stage ((cfg9 a).slots t 0)
abbrev hs9_0 (t : Fin (cfg9 a).N) : (ms9_0 a t).IsWhole := hstage9_0 (((cfg9 a).slots t 0).cast nbuf9_0)
abbrev ms9_1 (t : Fin (cfg9 a).N) : Memref sig .tc .vmem S16x512 .f32 := spec9_1.stage ((cfg9 a).slots t 1)
abbrev hs9_1 (t : Fin (cfg9 a).N) : (ms9_1 a t).IsWhole := hstage9_1 (((cfg9 a).slots t 1).cast nbuf9_1)

/-- The kernel body at point t, on what the pipeline calls it with. -/
abbrev bodyAt9 (t : Fin (cfg9 a).N) : Prog (TpuEff nD τ sig (Elt F) Λ₀ .tc) PUnit :=
  cc9_kernel (grid9.coords t) tbM9 (Memref.isWhole_whole _) hbM9 (Memref.isWhole_whole _) (ms9_0 a t) (hs9_0 a t) (ms9_1 a t) (hs9_1 a t) scM9 (Memref.isWhole_whole _) cc9_scratch1

/-! ## The invariant, conjunct by conjunct -/

/-- The sixteen own cells at zero, listed. -/
theorem ownSems09_eq (c : Dev nD) :
    (Pipeline.ownSems0 (Ix := Unit) (Name := ℕ) (U := Pipeline.UD sig nD τ) (Lvl := ℕ) (Val := Elt F) (τ := τ) osem9 c : sProp 𝕄) = sems9 c := by
  rw [Pipeline.ownSems0_eq_of_list c osem9 [0, 1, 2, 3, 4, 5, 6, 7, 8, 9, 10, 11, 12, 13, 14, 15] (by decide) (by decide)]; rfl

/-- The gathered array's points-to at the region-entry contents. -/
theorem hbmPts9_eq (c : Dev nD) :
    (bigSep H9 (fun b => ((c : Thread nD τ).loc b) ↦{fullShare} V c b) : sProp 𝕄) = iprop(hbPt9 c hbM9 (V c main_v34)) := by
  rw [BI.bigSep_eq_bigSepL_of_eq [main_v34] (by decide) (by decide)]; rfl

/-- The row table, whole, at the contents the region is launched with. -/
theorem prefHeld9_eq (c : Dev nD) :
    (Pipeline.prefHeld (Ix := Unit) (Name := ℕ) (U := Pipeline.UD sig nD τ) (Lvl := ℕ) pre9 c (fun _ => fullShare) a.1 : sProp 𝕄) = iprop(hbPt9 c tbM9 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD9_eq (c : Dev nD) :
    (Pipeline.ΦD osem9 spec9 H9 V c : sProp 𝕄)
      = iprop(iprop((∃ d, owns (c : Thread nD τ) scM9 fullShare d) ∗ Pipeline.scopedRestBut (Ix := Unit) (Name := ℕ) (U := Pipeline.UD sig nD τ) (Lvl := ℕ) (Val := Elt F) spec9 c [cc9_scratch0])
          ∗ (∃ r, prngReg c r) ∗ sems9 c ∗ iprop(hbPt9 c hbM9 (V c main_v34))) := by
  rw [Pipeline.ΦD_eq, scopedRest9_split, ownSems09_eq, hbmPts9_eq]; simp only [scM9, owns_whole]; try rfl

/-! ## The windows' blocks -/

/-- Window w's block at point t, read off its array as the region finds it. -/
def iblk9 (c : Dev nD) (w : Fin (cfg9 a).W) (t : Fin (cfg9 a).N) : (((cfg9 a).win w).xblock ((cfg9 a).grid.coords t)).Idx → Elt F ((cfg9 a).win w).elt :=
  (((cfg9 a).win w).blk t).view.read (Elt F) (V c (Pipeline.arrRef spec9 w))

/-- Input window 0's current staging buffer holds its block at every point, fetched there or not. -/
theorem before9_0_of {c : Dev nD} (dat : Dat τ (Elt F) Unit ℕ (Pipeline.UD sig nD τ) ℕ (cfg9 a) c) (hA : dat.A 0 = V c (Pipeline.arrRef spec9 0))
    (hafter : ∀ t, dat.after 0 t = iblk9 V a c 0 t) (t : Fin (cfg9 a).N) (d) : dat.before 0 t d = iblk9 V a c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-! ## What the run leaves in the output window's buffer -/

/-- The run's pieces for the output tile its block, so they cover it. -/
theorem cover9_1 (c : Dev nD) (i : grid9.Coords) (arg3 : Memref sig .tc .vmem S16x1 .f32) (harg3 : arg3.IsWhole) (arg4 : Memref sig .tc .vmem S16x512 .f32) (harg4 : arg4.IsWhole)
    (x0 : Vec F S16x1 .f32) (tb : HbBuf9 (F := F) c tbM9) (fh0 : HbBuf9 (F := F) c hbM9) (hT : ∀ x, (tb x).toNat < 50000) (y : S16x512.Idx) :
    ∃ pc ∈ (kernelRun9 c i arg3 harg3 arg4 harg4 x0 tb fh0 hT).1, y ∈ pc.1.set :=
  View.cover_of_tiledL (kernelRun9 c i arg3 harg3 arg4 harg4 x0 tb fh0 hT).1 S16x512.size (by sl_kernel_rfl) y

/-- One staging buffer of the output window, through which its contents are stated. -/
abbrev VO9_1 : View sig .tc .vmem S16x512 .f32 := (Memref.whole cc9_stg1_0 : Memref sig .tc .vmem S16x512 .f32).view

/-- What the run leaves in the output's staging buffer: its pieces read back over junk. -/
def out9_1 (c : Dev nD) (i : grid9.Coords) (arg3 : Memref sig .tc .vmem S16x1 .f32) (harg3 : arg3.IsWhole) (arg4 : Memref sig .tc .vmem S16x512 .f32) (harg4 : arg4.IsWhole)
    (x0 : Vec F S16x1 .f32) (tb : HbBuf9 (F := F) c tbM9) (fh0 : HbBuf9 (F := F) c hbM9) (hT : ∀ x, (tb x).toNat < 50000) : Vec F S16x512 .f32 :=
  VO9_1.read (Elt F) (VO9_1.writes (Elt F) VO9_1.junk (kernelRun9 c i arg3 harg3 arg4 harg4 x0 tb fh0 hT).1)

/-- Every word of the table is a row of the gathered array, from the same of its words by position. -/
theorem tbl_lt9 (hH : ∀ j : Fin 50000, ((a.1 0) (ValueIdx.ix1 j)).toNat < 50000) (c : Dev nD) : ∀ x, (((a.1 0 : HbBuf9 (F := F) c tbM9)) x).toNat < 50000 :=
  fun x => by rw [ValueIdx.eq_ix1 x]; exact hH _

/-- What the output's staging buffer holds after the body at point t: the run's contents at the point's memrefs, the
    norm block, the table and the gathered array. -/
def outsAt9 (hH : ∀ j : Fin 50000, ((a.1 0) (ValueIdx.ix1 j)).toNat < 50000) (c : Dev nD) (t : Fin (cfg9 a).N) : Vec F S16x512 .f32 :=
  out9_1 c (grid9.coords t) (ms9_0 a t) (hs9_0 a t) (ms9_1 a t) (hs9_1 a t) (iblk9 V a c 0 t) (a.1 0) (V c main_v34) (tbl_lt9 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat9 (hH : ∀ j : Fin 50000, ((a.1 0) (ValueIdx.ix1 j)).toNat < 50000) (c : Dev nD) : Dat τ (Elt F) Unit ℕ (Pipeline.UD sig nD τ) ℕ (cfg9 a) c where
  A w := V c (Pipeline.arrRef spec9 w)
  after w t := match w with
    | ⟨0, _⟩ => iblk9 V a c 0 t
    | ⟨1, _⟩ => (outsAt9 V a hH c t)
  Φ _ := iprop(Pipeline.ΦD osem9 spec9 H9 V c ∗ Pipeline.prefHeld pre9 c (fun _ => fullShare) a.1)
  q _ := fullShare
  owed _ := 0

/-- The proof data's arrays are the region-entry contents. -/
theorem A_eq9 (hH : ∀ j : Fin 50000, ((a.1 0) (ValueIdx.ix1 j)).toNat < 50000) (c : Dev nD) (w : Fin (cfg9 a).W) : (dat9 V a hH c).A w = V c (Pipeline.arrRef spec9 w) := by
  dsimp only [dat9]

/-- What the body leaves, window by window. -/
theorem after9_0 (hH : ∀ j : Fin 50000, ((a.1 0) (ValueIdx.ix1 j)).toNat < 50000) (c : Dev nD) (t : Fin (cfg9 a).N) : (dat9 V a hH c).after 0 t = iblk9 V a c 0 t := by dsimp only [dat9]; try rfl
theorem after9_1 (hH : ∀ j : Fin 50000, ((a.1 0) (ValueIdx.ix1 j)).toNat < 50000) (c : Dev nD) (t : Fin (cfg9 a).N) : (dat9 V a hH c).after 1 t = (outsAt9 V a hH c t) := by dsimp only [dat9]; try rfl

/-- The input's current staging buffer holds its block at every point, fetched there or not. -/
theorem before9_0 (hH : ∀ j : Fin 50000, ((a.1 0) (ValueIdx.ix1 j)).toNat < 50000) (c : Dev nD) (t : Fin (cfg9 a).N) (d) : (dat9 V a hH c).before 0 t d = iblk9 V a c 0 t :=
  before9_0_of V a (dat9 V a hH c) (A_eq9 V a hH c 0) (after9_0 V a hH c) t d

/-! ## The body obligation, at a generic point -/

/-- What the body is called with at point t, the windows one by one, -/
def bodyPre9 (hH : ∀ j : Fin 50000, ((a.1 0) (ValueIdx.ix1 j)).toNat < 50000) (c : Dev nD) (t : Fin (cfg9 a).N) : sProp 𝕄 :=
  iprop((dat9 V a hH c).Φ t.castSucc ∗ (dat9 V a hH c).owesAt () t.castSucc
    ∗ (∃ d, owns (c : Thread nD τ) (ms9_0 a t) fullShare ((dat9 V a hH c).before 0 t d))
    ∗ (∃ d, owns (c : Thread nD τ) (ms9_1 a t) fullShare ((dat9 V a hH c).before 1 t d)))

/-- and what it returns. -/
def bodyPost9 (hH : ∀ j : Fin 50000, ((a.1 0) (ValueIdx.ix1 j)).toNat < 50000) (c : Dev nD) (t : Fin (cfg9 a).N) : sProp 𝕄 :=
  iprop((dat9 V a hH c).Φ t.succ ∗ (dat9 V a hH c).owesAt () t.succ
    ∗ owns (c : Thread nD τ) (ms9_0 a t) fullShare ((dat9 V a hH c).after 0 t)
    ∗ owns (c : Thread nD τ) (ms9_1 a t) fullShare ((dat9 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body9 (hH : ∀ j : Fin 50000, ((a.1 0) (ValueIdx.ix1 j)).toNat < 50000) (c : Dev nD) (t : Fin (cfg9 a).N) :
    bodyPre9 V a hH c t ⊢ wp frame (wpE (defs₀ (F := F)) Variants.none c none) Set.univ (bodyAt9 a t) (fun _ => bodyPost9 V a hH c t) := by
  unfold bodyPre9 bodyPost9 bodyAt9
  simp only [before9_0]
  rw [show (dat9 V a hH c).Φ t.succ = (dat9 V a hH c).Φ t.castSucc from rfl,
    after9_0, after9_1]
  rw [show (dat9 V a hH c).Φ t.castSucc = iprop(Pipeline.ΦD osem9 spec9 H9 V c ∗ Pipeline.prefHeld pre9 c (fun _ => fullShare) a.1) from rfl, PhiD9_eq, prefHeld9_eq]
  unfold Dat.owesAt Pipeline.owesWithin
  rw [show (dat9 V a hH c).owed t.castSucc = 0 from rfl, show (dat9 V a hH c).owed t.succ = 0 from rfl]
  unfold outsAt9
  unfold out9_1
  iintro ⟨⟨⟨⟨HS0, HSr⟩, Hg, Hq, Hh0⟩, HT⟩, ⟨%W, -, HW⟩, ⟨%d0, H0⟩, ⟨%d1, H9⟩⟩
  iapply ((kernelRun9 c (grid9.coords t) _ _ _ _ (iblk9 V a c 0 t) (a.1 0) (V c main_v34) (tbl_lt9 a hH c)).2 W _)
  isplitl [H0]; · iexact H0
  isplitl [H9]; · iexists _; iexact H9
  isplitl [HS0]; · iexact HS0
  isplitl [Hq]; · iexact Hq
  isplitl [Hh0]; · iexact Hh0
  isplitl [HT]; · iexact HT
  isplitl [HW]; · iexact HW
  iintro ⟨H0, ⟨%e1, H9⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H9
  ipureintro; exact View.read_writes_of_cover _ _ _ _ _ (cover9_1 c _ _ _ _ _ _ _ _ _)

/-- The library's body obligation, at every point. -/
theorem body_obligation9 (hH : ∀ j : Fin 50000, ((a.1 0) (ValueIdx.ix1 j)).toNat < 50000) (c : Dev nD) : BodyObligation (dat9 (F := F) V a hH c) (defs₀ (F := F)) Variants.none () Set.univ := fun t => by
  rw [bigSep_W9, bigSep_W9]
  exact sound_body9 V a hH c t

end Cert.KernelIdeal.Hand

end
-- ==== Proof.G11.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 11 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem11 : Fin 16 → SemLoc sig := fun j =>
  (![SemLoc.dma 194, SemLoc.dma 195, SemLoc.dma 196, SemLoc.dma 197, SemLoc.dma 198, SemLoc.dma 199, SemLoc.dma 200, SemLoc.dma 201,
     SemLoc.dma 202, SemLoc.dma 203, SemLoc.dma 204, SemLoc.dma 205, SemLoc.dma 206, SemLoc.dma 207, SemLoc.dma 208, SemLoc.dma 209] : Fin 16 → SemLoc sig) j
theorem ownSemFacts11 : Pipeline.OwnSemFacts spec11 osem11 := by decide

/-- The HBM operand the body gathers rows from: unscoped, no window's array, no table. -/
def H11 : Finset (Ref sig .tc) := {main_v71}
theorem H11_sub : H11 ⊆ Pipeline.restRefsP sig pre11 spec11 := by decide

/-- The operands the pipeline does not stage, whole. -/
abbrev tbM11 : Memref sig .tc .smem S50000 .i32 := Memref.whole main_v73
abbrev hbM11 : Memref sig .tc .hbm S50000x262 .f32 := Memref.whole main_v71
abbrev scM11 : Memref sig .tc .vmem S16x262 .f32 := Memref.whole cc11_scratch0

/-- A whole memref's buffer on core `c`, and it held whole at `f`. -/
abbrev HbBuf11 (c : Dev nD) {sp : Space} {S : Shape} {e : EltTy} (M : Memref sig .tc sp S e) : Type := Buf (Elt F) (M.view.loc (c : Thread nD τ))
abbrev hbPt11 (c : Dev nD) {sp : Space} {S : Shape} {e : EltTy} (M : Memref sig .tc sp S e) (f : HbBuf11 (F := F) c M) : sProp 𝕄 :=
  M.view.loc (c : Thread nD τ) ↦{fullShare} f

/-- The sixteen own cells at zero. -/
abbrev sems11 (c : Dev nD) : sProp 𝕄 :=
  iprop(semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0 ∗ semVal ((c : Thread nD τ), SemLoc.dma 209) 0)

/-- A row index inside the gathered array puts the one-row slice inside it. -/
theorem row_inb11 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk11_1_of_lt (w : BitVec 32) (h : w.toNat < 50000) : k11_chk1 w := ⟨row_inb11 w h, row_inb11 w h⟩
theorem chk11_2_of_lt (w : BitVec 32) (h : w.toNat < 50000) : k11_chk2 w := ⟨row_inb11 w h, row_inb11 w h⟩
theorem chk11_3_of_lt (w : BitVec 32) (h : w.toNat < 50000) : k11_chk3 w := ⟨row_inb11 w h, row_inb11 w h⟩
theorem chk11_4_of_lt (w : BitVec 32) (h : w.toNat < 50000) : k11_chk4 w := ⟨row_inb11 w h, row_inb11 w h⟩
theorem chk11_5_of_lt (w : BitVec 32) (h : w.toNat < 50000) : k11_chk5 w := ⟨row_inb11 w h, row_inb11 w h⟩
theorem chk11_6_of_lt (w : BitVec 32) (h : w.toNat < 50000) : k11_chk6 w := ⟨row_inb11 w h, row_inb11 w h⟩
theorem chk11_7_of_lt (w : BitVec 32) (h : w.toNat < 50000) : k11_chk7 w := ⟨row_inb11 w h, row_inb11 w h⟩
theorem chk11_8_of_lt (w : BitVec 32) (h : w.toNat < 50000) : k11_chk8 w := ⟨row_inb11 w h, row_inb11 w h⟩
theorem chk11_9_of_lt (w : BitVec 32) (h : w.toNat < 50000) : k11_chk9 w := ⟨row_inb11 w h, row_inb11 w h⟩
theorem chk11_10_of_lt (w : BitVec 32) (h : w.toNat < 50000) : k11_chk10 w := ⟨row_inb11 w h, row_inb11 w h⟩
theorem chk11_11_of_lt (w : BitVec 32) (h : w.toNat < 50000) : k11_chk11 w := ⟨row_inb11 w h, row_inb11 w h⟩
theorem chk11_12_of_lt (w : BitVec 32) (h : w.toNat < 50000) : k11_chk12 w := ⟨row_inb11 w h, row_inb11 w h⟩
theorem chk11_13_of_lt (w : BitVec 32) (h : w.toNat < 50000) : k11_chk13 w := ⟨row_inb11 w h, row_inb11 w h⟩
theorem chk11_14_of_lt (w : BitVec 32) (h : w.toNat < 50000) : k11_chk14 w := ⟨row_inb11 w h, row_inb11 w h⟩
theorem chk11_15_of_lt (w : BitVec 32) (h : w.toNat < 50000) : k11_chk15 w := ⟨row_inb11 w h, row_inb11 w h⟩
theorem chk11_16_of_lt (w : BitVec 32) (h : w.toNat < 50000) : k11_chk16 w := row_inb11 w h

/-- A whole points-to as what stays behind, sixteen read tokens numbered `b + 15` down to `b`, and the tokens below
    `b` kept as one family. -/
theorem toksAt11 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 194 … 209. -/
theorem toks11 {ℓ : Loc nD τ sig} (f : Buf (Elt F) ℓ) :
    (ℓ ↦{fullShare} f : sProp 𝕄) ⊣⊢ iprop((ℓ ↦{Transfers.shareDrop fullShare 210} f) ∗ (ℓ ↦{Transfers.shareTokN fullShare 209} f) ∗ (ℓ ↦{Transfers.shareTokN fullShare 208} f) ∗ (ℓ ↦{Transfers.shareTokN fullShare 207} f) ∗ (ℓ ↦{Transfers.shareTokN fullShare 206} f) ∗ (ℓ ↦{Transfers.shareTokN fullShare 205} f) ∗ (ℓ ↦{Transfers.shareTokN fullShare 204} f) ∗ (ℓ ↦{Transfers.shareTokN fullShare 203} f) ∗ (ℓ ↦{Transfers.shareTokN fullShare 202} f) ∗ (ℓ ↦{Transfers.shareTokN fullShare 201} f) ∗ (ℓ ↦{Transfers.shareTokN fullShare 200} f) ∗ (ℓ ↦{Transfers.shareTokN fullShare 199} f) ∗ (ℓ ↦{Transfers.shareTokN fullShare 198} f) ∗ (ℓ ↦{Transfers.shareTokN fullShare 197} f) ∗ (ℓ ↦{Transfers.shareTokN fullShare 196} f) ∗ (ℓ ↦{Transfers.shareTokN fullShare 195} f) ∗ (ℓ ↦{Transfers.shareTokN fullShare 194} f)
      ∗ BI.bigSep (Finset.range 194) fun k => ℓ ↦{Transfers.shareTokN fullShare k} f) :=
  toksAt11 f 194

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun11 (c : Dev nD) (i : grid11.Coords) (arg3 : Memref sig .tc .vmem S16x1 .f32) (harg3 : arg3.IsWhole) (arg4 : Memref sig .tc .vmem S16x262 .f32) (harg4 : arg4.IsWhole)
    (x0 : Vec F S16x1 .f32) (tb : HbBuf11 (F := F) c tbM11) (fh0 : HbBuf11 (F := F) c hbM11) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM11 fullShare d) ∗ sems11 c ∗ hbPt11 c hbM11 fh0 ∗ hbPt11 c tbM11 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM11 fullShare d) ∗ sems11 c ∗ hbPt11 c hbM11 fh0 ∗ hbPt11 c tbM11 tb ∗ (∃ W', owes (c : Thread nD τ) 0 W')) -∗ K ⟨⟩))
          ⊢ wp frame (wpE (defs₀ (F := F)) Variants.none c none) Set.univ (cc11_kernel i tbM11 (Memref.isWhole_whole _) hbM11 (Memref.isWhole_whole _) arg3 harg3 arg4 harg4 scM11 (Memref.isWhole_whole _) cc11_scratch1) K } := by
  have k11_hw1 : k11_chk1 (tbM11.view.readAt (Elt F) (Rect.unit (s := S50000) (k11_off1 i) S1.size (k11_off1_inb i)).toLoadRect tb (Shape.Idx.first (numel1_S1.symm ▸ Nat.one_pos))) := chk11_1_of_lt _ (hH _)
  have k11_hw2 : k11_chk2 (tbM11.view.readAt (Elt F) (Rect.unit (s := S50000) (k11_off3 i) S1.size (k11_off3_inb i)).toLoadRect tb (Shape.Idx.first (numel1_S1.symm ▸ Nat.one_pos))) := chk11_2_of_lt _ (hH _)
  have k11_hw3 : k11_chk3 (tbM11.view.readAt (Elt F) (Rect.unit (s := S50000) (k11_off5 i) S1.size (k11_off5_inb i)).toLoadRect tb (Shape.Idx.first (numel1_S1.symm ▸ Nat.one_pos))) := chk11_3_of_lt _ (hH _)
  have k11_hw4 : k11_chk4 (tbM11.view.readAt (Elt F) (Rect.unit (s := S50000) (k11_off7 i) S1.size (k11_off7_inb i)).toLoadRect tb (Shape.Idx.first (numel1_S1.symm ▸ Nat.one_pos))) := chk11_4_of_lt _ (hH _)
  have k11_hw5 : k11_chk5 (tbM11.view.readAt (Elt F) (Rect.unit (s := S50000) (k11_off9 i) S1.size (k11_off9_inb i)).toLoadRect tb (Shape.Idx.first (numel1_S1.symm ▸ Nat.one_pos))) := chk11_5_of_lt _ (hH _)
  have k11_hw6 : k11_chk6 (tbM11.view.readAt (Elt F) (Rect.unit (s := S50000) (k11_off11 i) S1.size (k11_off11_inb i)).toLoadRect tb (Shape.Idx.first (numel1_S1.symm ▸ Nat.one_pos))) := chk11_6_of_lt _ (hH _)
  have k11_hw7 : k11_chk7 (tbM11.view.readAt (Elt F) (Rect.unit (s := S50000) (k11_off13 i) S1.size (k11_off13_inb i)).toLoadRect tb (Shape.Idx.first (numel1_S1.symm ▸ Nat.one_pos))) := chk11_7_of_lt _ (hH _)
  have k11_hw8 : k11_chk8 (tbM11.view.readAt (Elt F) (Rect.unit (s := S50000) (k11_off15 i) S1.size (k11_off15_inb i)).toLoadRect tb (Shape.Idx.first (numel1_S1.symm ▸ Nat.one_pos))) := chk11_8_of_lt _ (hH _)
  have k11_hw9 : k11_chk9 (tbM11.view.readAt (Elt F) (Rect.unit (s := S50000) (k11_off17 i) S1.size (k11_off17_inb i)).toLoadRect tb (Shape.Idx.first (numel1_S1.symm ▸ Nat.one_pos))) := chk11_9_of_lt _ (hH _)
  have k11_hw10 : k11_chk10 (tbM11.view.readAt (Elt F) (Rect.unit (s := S50000) (k11_off19 i) S1.size (k11_off19_inb i)).toLoadRect tb (Shape.Idx.first (numel1_S1.symm ▸ Nat.one_pos))) := chk11_10_of_lt _ (hH _)
  have k11_hw11 : k11_chk11 (tbM11.view.readAt (Elt F) (Rect.unit (s := S50000) (k11_off21 i) S1.size (k11_off21_inb i)).toLoadRect tb (Shape.Idx.first (numel1_S1.symm ▸ Nat.one_pos))) := chk11_11_of_lt _ (hH _)
  have k11_hw12 : k11_chk12 (tbM11.view.readAt (Elt F) (Rect.unit (s := S50000) (k11_off23 i) S1.size (k11_off23_inb i)).toLoadRect tb (Shape.Idx.first (numel1_S1.symm ▸ Nat.one_pos))) := chk11_12_of_lt _ (hH _)
  have k11_hw13 : k11_chk13 (tbM11.view.readAt (Elt F) (Rect.unit (s := S50000) (k11_off25 i) S1.size (k11_off25_inb i)).toLoadRect tb (Shape.Idx.first (numel1_S1.symm ▸ Nat.one_pos))) := chk11_13_of_lt _ (hH _)
  have k11_hw14 : k11_chk14 (tbM11.view.readAt (Elt F) (Rect.unit (s := S50000) (k11_off27 i) S1.size (k11_off27_inb i)).toLoadRect tb (Shape.Idx.first (numel1_S1.symm ▸ Nat.one_pos))) := chk11_14_of_lt _ (hH _)
  have k11_hw15 : k11_chk15 (tbM11.view.readAt (Elt F) (Rect.unit (s := S50000) (k11_off29 i) S1.size (k11_off29_inb i)).toLoadRect tb (Shape.Idx.first (numel1_S1.symm ▸ Nat.one_pos))) := chk11_15_of_lt _ (hH _)
  have k11_hw16 : k11_chk16 (tbM11.view.readAt (Elt F) (Rect.unit (s := S50000) (k11_off31 i) S1.size (k11_off31_inb i)).toLoadRect tb (Shape.Idx.first (numel1_S1.symm ▸ Nat.one_pos))) := chk11_16_of_lt _ (hH _)
  refine ⟨?_, fun W K => ?run⟩
  case run =>
    simp only [cc11_kernel_eq_skeleton]; unfold cc11_kernel_skel
    simp only [k11_part7_eq_skeleton]; unfold k11_part7_skel
    simp only [k11_part1_eq_skeleton, k11_part2_eq_skeleton, k11_part3_eq_skeleton, k11_part4_eq_skeleton, k11_part5_eq_skeleton, k11_part6_eq_skeleton]
    unfold owns sems11
    iintro ⟨⟨%f0, %hf0, H0⟩, ⟨%d1, %f1, -, H11⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks11 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k11_hw1 | sl_exact k11_hw2 | sl_exact k11_hw3 | sl_exact k11_hw4 | sl_exact k11_hw5 | sl_exact k11_hw6 | sl_exact k11_hw7 | sl_exact k11_hw8 | sl_exact k11_hw9 | sl_exact k11_hw10 | sl_exact k11_hw11 | sl_exact k11_hw12 | sl_exact k11_hw13 | sl_exact k11_hw14 | sl_exact k11_hw15 | sl_exact k11_hw16)
    sl_step
    iapply Hk
    isplitl [H0]
    · iexists _; isplitr; · ipureintro; exact harg3.read_unread _
      iexact H0
    isplitl [H11]; · iexists _; iexact H11
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks11 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg11 (F := F)).Adm)

/-- Each window's current staging memref at point t, spelled as the pipeline passes it, and its wholeness. -/
abbrev ms11_0 (t : Fin (cfg11 a).N) : Memref sig .tc .vmem S16x1 .f32 := spec11_0.stage ((cfg11 a).slots t 0)
abbrev hs11_0 (t : Fin (cfg11 a).N) : (ms11_0 a t).IsWhole := hstage11_0 (((cfg11 a).slots t 0).cast nbuf11_0)
abbrev ms11_1 (t : Fin (cfg11 a).N) : Memref sig .tc .vmem S16x262 .f32 := spec11_1.stage ((cfg11 a).slots t 1)
abbrev hs11_1 (t : Fin (cfg11 a).N) : (ms11_1 a t).IsWhole := hstage11_1 (((cfg11 a).slots t 1).cast nbuf11_1)

/-- The kernel body at point t, on what the pipeline calls it with. -/
abbrev bodyAt11 (t : Fin (cfg11 a).N) : Prog (TpuEff nD τ sig (Elt F) Λ₀ .tc) PUnit :=
  cc11_kernel (grid11.coords t) tbM11 (Memref.isWhole_whole _) hbM11 (Memref.isWhole_whole _) (ms11_0 a t) (hs11_0 a t) (ms11_1 a t) (hs11_1 a t) scM11 (Memref.isWhole_whole _) cc11_scratch1

/-! ## The invariant, conjunct by conjunct -/

/-- The sixteen own cells at zero, listed. -/
theorem ownSems011_eq (c : Dev nD) :
    (Pipeline.ownSems0 (Ix := Unit) (Name := ℕ) (U := Pipeline.UD sig nD τ) (Lvl := ℕ) (Val := Elt F) (τ := τ) osem11 c : sProp 𝕄) = sems11 c := by
  rw [Pipeline.ownSems0_eq_of_list c osem11 [0, 1, 2, 3, 4, 5, 6, 7, 8, 9, 10, 11, 12, 13, 14, 15] (by decide) (by decide)]; rfl

/-- The gathered array's points-to at the region-entry contents. -/
theorem hbmPts11_eq (c : Dev nD) :
    (bigSep H11 (fun b => ((c : Thread nD τ).loc b) ↦{fullShare} V c b) : sProp 𝕄) = iprop(hbPt11 c hbM11 (V c main_v71)) := by
  rw [BI.bigSep_eq_bigSepL_of_eq [main_v71] (by decide) (by decide)]; rfl

/-- The row table, whole, at the contents the region is launched with. -/
theorem prefHeld11_eq (c : Dev nD) :
    (Pipeline.prefHeld (Ix := Unit) (Name := ℕ) (U := Pipeline.UD sig nD τ) (Lvl := ℕ) pre11 c (fun _ => fullShare) a.1 : sProp 𝕄) = iprop(hbPt11 c tbM11 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD11_eq (c : Dev nD) :
    (Pipeline.ΦD osem11 spec11 H11 V c : sProp 𝕄)
      = iprop(iprop((∃ d, owns (c : Thread nD τ) scM11 fullShare d) ∗ Pipeline.scopedRestBut (Ix := Unit) (Name := ℕ) (U := Pipeline.UD sig nD τ) (Lvl := ℕ) (Val := Elt F) spec11 c [cc11_scratch0])
          ∗ (∃ r, prngReg c r) ∗ sems11 c ∗ iprop(hbPt11 c hbM11 (V c main_v71))) := by
  rw [Pipeline.ΦD_eq, scopedRest11_split, ownSems011_eq, hbmPts11_eq]; simp only [scM11, owns_whole]; try rfl

/-! ## The windows' blocks -/

/-- Window w's block at point t, read off its array as the region finds it. -/
def iblk11 (c : Dev nD) (w : Fin (cfg11 a).W) (t : Fin (cfg11 a).N) : (((cfg11 a).win w).xblock ((cfg11 a).grid.coords t)).Idx → Elt F ((cfg11 a).win w).elt :=
  (((cfg11 a).win w).blk t).view.read (Elt F) (V c (Pipeline.arrRef spec11 w))

/-- Input window 0's current staging buffer holds its block at every point, fetched there or not. -/
theorem before11_0_of {c : Dev nD} (dat : Dat τ (Elt F) Unit ℕ (Pipeline.UD sig nD τ) ℕ (cfg11 a) c) (hA : dat.A 0 = V c (Pipeline.arrRef spec11 0))
    (hafter : ∀ t, dat.after 0 t = iblk11 V a c 0 t) (t : Fin (cfg11 a).N) (d) : dat.before 0 t d = iblk11 V a c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-! ## What the run leaves in the output window's buffer -/

/-- The run's pieces for the output tile its block, so they cover it. -/
theorem cover11_1 (c : Dev nD) (i : grid11.Coords) (arg3 : Memref sig .tc .vmem S16x1 .f32) (harg3 : arg3.IsWhole) (arg4 : Memref sig .tc .vmem S16x262 .f32) (harg4 : arg4.IsWhole)
    (x0 : Vec F S16x1 .f32) (tb : HbBuf11 (F := F) c tbM11) (fh0 : HbBuf11 (F := F) c hbM11) (hT : ∀ x, (tb x).toNat < 50000) (y : S16x262.Idx) :
    ∃ pc ∈ (kernelRun11 c i arg3 harg3 arg4 harg4 x0 tb fh0 hT).1, y ∈ pc.1.set :=
  View.cover_of_tiledL (kernelRun11 c i arg3 harg3 arg4 harg4 x0 tb fh0 hT).1 S16x262.size (by sl_kernel_rfl) y

/-- One staging buffer of the output window, through which its contents are stated. -/
abbrev VO11_1 : View sig .tc .vmem S16x262 .f32 := (Memref.whole cc11_stg1_0 : Memref sig .tc .vmem S16x262 .f32).view

/-- What the run leaves in the output's staging buffer: its pieces read back over junk. -/
def out11_1 (c : Dev nD) (i : grid11.Coords) (arg3 : Memref sig .tc .vmem S16x1 .f32) (harg3 : arg3.IsWhole) (arg4 : Memref sig .tc .vmem S16x262 .f32) (harg4 : arg4.IsWhole)
    (x0 : Vec F S16x1 .f32) (tb : HbBuf11 (F := F) c tbM11) (fh0 : HbBuf11 (F := F) c hbM11) (hT : ∀ x, (tb x).toNat < 50000) : Vec F S16x262 .f32 :=
  VO11_1.read (Elt F) (VO11_1.writes (Elt F) VO11_1.junk (kernelRun11 c i arg3 harg3 arg4 harg4 x0 tb fh0 hT).1)

/-- Every word of the table is a row of the gathered array, from the same of its words by position. -/
theorem tbl_lt11 (hH : ∀ j : Fin 50000, ((a.1 0) (ValueIdx.ix1 j)).toNat < 50000) (c : Dev nD) : ∀ x, (((a.1 0 : HbBuf11 (F := F) c tbM11)) x).toNat < 50000 :=
  fun x => by rw [ValueIdx.eq_ix1 x]; exact hH _

/-- What the output's staging buffer holds after the body at point t: the run's contents at the point's memrefs, the
    norm block, the table and the gathered array. -/
def outsAt11 (hH : ∀ j : Fin 50000, ((a.1 0) (ValueIdx.ix1 j)).toNat < 50000) (c : Dev nD) (t : Fin (cfg11 a).N) : Vec F S16x262 .f32 :=
  out11_1 c (grid11.coords t) (ms11_0 a t) (hs11_0 a t) (ms11_1 a t) (hs11_1 a t) (iblk11 V a c 0 t) (a.1 0) (V c main_v71) (tbl_lt11 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat11 (hH : ∀ j : Fin 50000, ((a.1 0) (ValueIdx.ix1 j)).toNat < 50000) (c : Dev nD) : Dat τ (Elt F) Unit ℕ (Pipeline.UD sig nD τ) ℕ (cfg11 a) c where
  A w := V c (Pipeline.arrRef spec11 w)
  after w t := match w with
    | ⟨0, _⟩ => iblk11 V a c 0 t
    | ⟨1, _⟩ => (outsAt11 V a hH c t)
  Φ _ := iprop(Pipeline.ΦD osem11 spec11 H11 V c ∗ Pipeline.prefHeld pre11 c (fun _ => fullShare) a.1)
  q _ := fullShare
  owed _ := 0

/-- The proof data's arrays are the region-entry contents. -/
theorem A_eq11 (hH : ∀ j : Fin 50000, ((a.1 0) (ValueIdx.ix1 j)).toNat < 50000) (c : Dev nD) (w : Fin (cfg11 a).W) : (dat11 V a hH c).A w = V c (Pipeline.arrRef spec11 w) := by
  dsimp only [dat11]

/-- What the body leaves, window by window. -/
theorem after11_0 (hH : ∀ j : Fin 50000, ((a.1 0) (ValueIdx.ix1 j)).toNat < 50000) (c : Dev nD) (t : Fin (cfg11 a).N) : (dat11 V a hH c).after 0 t = iblk11 V a c 0 t := by dsimp only [dat11]; try rfl
theorem after11_1 (hH : ∀ j : Fin 50000, ((a.1 0) (ValueIdx.ix1 j)).toNat < 50000) (c : Dev nD) (t : Fin (cfg11 a).N) : (dat11 V a hH c).after 1 t = (outsAt11 V a hH c t) := by dsimp only [dat11]; try rfl

/-- The input's current staging buffer holds its block at every point, fetched there or not. -/
theorem before11_0 (hH : ∀ j : Fin 50000, ((a.1 0) (ValueIdx.ix1 j)).toNat < 50000) (c : Dev nD) (t : Fin (cfg11 a).N) (d) : (dat11 V a hH c).before 0 t d = iblk11 V a c 0 t :=
  before11_0_of V a (dat11 V a hH c) (A_eq11 V a hH c 0) (after11_0 V a hH c) t d

/-! ## The body obligation, at a generic point -/

/-- What the body is called with at point t, the windows one by one, -/
def bodyPre11 (hH : ∀ j : Fin 50000, ((a.1 0) (ValueIdx.ix1 j)).toNat < 50000) (c : Dev nD) (t : Fin (cfg11 a).N) : sProp 𝕄 :=
  iprop((dat11 V a hH c).Φ t.castSucc ∗ (dat11 V a hH c).owesAt () t.castSucc
    ∗ (∃ d, owns (c : Thread nD τ) (ms11_0 a t) fullShare ((dat11 V a hH c).before 0 t d))
    ∗ (∃ d, owns (c : Thread nD τ) (ms11_1 a t) fullShare ((dat11 V a hH c).before 1 t d)))

/-- and what it returns. -/
def bodyPost11 (hH : ∀ j : Fin 50000, ((a.1 0) (ValueIdx.ix1 j)).toNat < 50000) (c : Dev nD) (t : Fin (cfg11 a).N) : sProp 𝕄 :=
  iprop((dat11 V a hH c).Φ t.succ ∗ (dat11 V a hH c).owesAt () t.succ
    ∗ owns (c : Thread nD τ) (ms11_0 a t) fullShare ((dat11 V a hH c).after 0 t)
    ∗ owns (c : Thread nD τ) (ms11_1 a t) fullShare ((dat11 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body11 (hH : ∀ j : Fin 50000, ((a.1 0) (ValueIdx.ix1 j)).toNat < 50000) (c : Dev nD) (t : Fin (cfg11 a).N) :
    bodyPre11 V a hH c t ⊢ wp frame (wpE (defs₀ (F := F)) Variants.none c none) Set.univ (bodyAt11 a t) (fun _ => bodyPost11 V a hH c t) := by
  unfold bodyPre11 bodyPost11 bodyAt11
  simp only [before11_0]
  rw [show (dat11 V a hH c).Φ t.succ = (dat11 V a hH c).Φ t.castSucc from rfl,
    after11_0, after11_1]
  rw [show (dat11 V a hH c).Φ t.castSucc = iprop(Pipeline.ΦD osem11 spec11 H11 V c ∗ Pipeline.prefHeld pre11 c (fun _ => fullShare) a.1) from rfl, PhiD11_eq, prefHeld11_eq]
  unfold Dat.owesAt Pipeline.owesWithin
  rw [show (dat11 V a hH c).owed t.castSucc = 0 from rfl, show (dat11 V a hH c).owed t.succ = 0 from rfl]
  unfold outsAt11
  unfold out11_1
  iintro ⟨⟨⟨⟨HS0, HSr⟩, Hg, Hq, Hh0⟩, HT⟩, ⟨%W, -, HW⟩, ⟨%d0, H0⟩, ⟨%d1, H11⟩⟩
  iapply ((kernelRun11 c (grid11.coords t) _ _ _ _ (iblk11 V a c 0 t) (a.1 0) (V c main_v71) (tbl_lt11 a hH c)).2 W _)
  isplitl [H0]; · iexact H0
  isplitl [H11]; · iexists _; iexact H11
  isplitl [HS0]; · iexact HS0
  isplitl [Hq]; · iexact Hq
  isplitl [Hh0]; · iexact Hh0
  isplitl [HT]; · iexact HT
  isplitl [HW]; · iexact HW
  iintro ⟨H0, ⟨%e1, H11⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H11
  ipureintro; exact View.read_writes_of_cover _ _ _ _ _ (cover11_1 c _ _ _ _ _ _ _ _ _)

/-- The library's body obligation, at every point. -/
theorem body_obligation11 (hH : ∀ j : Fin 50000, ((a.1 0) (ValueIdx.ix1 j)).toNat < 50000) (c : Dev nD) : BodyObligation (dat11 (F := F) V a hH c) (defs₀ (F := F)) Variants.none () Set.univ := fun t => by
  rw [bigSep_W11, bigSep_W11]
  exact sound_body11 V a hH c t

end Cert.KernelIdeal.Hand

end
-- ==== Proof.G12.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 12 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem12 : Fin 16 → SemLoc sig := fun j =>
  (![SemLoc.dma 214, SemLoc.dma 215, SemLoc.dma 216, SemLoc.dma 217, SemLoc.dma 218, SemLoc.dma 219, SemLoc.dma 220, SemLoc.dma 221,
     SemLoc.dma 222, SemLoc.dma 223, SemLoc.dma 224, SemLoc.dma 225, SemLoc.dma 226, SemLoc.dma 227, SemLoc.dma 228, SemLoc.dma 229] : Fin 16 → SemLoc sig) j
theorem ownSemFacts12 : Pipeline.OwnSemFacts spec12 osem12 := by decide

/-- The HBM operand the body gathers rows from: unscoped, no window's array, no table. -/
def H12 : Finset (Ref sig .tc) := {main_v71}
theorem H12_sub : H12 ⊆ Pipeline.restRefsP sig pre12 spec12 := by decide

/-- The operands the pipeline does not stage, whole. -/
abbrev tbM12 : Memref sig .tc .smem S50000 .i32 := Memref.whole main_v76
abbrev hbM12 : Memref sig .tc .hbm S50000x262 .f32 := Memref.whole main_v71
abbrev scM12 : Memref sig .tc .vmem S16x262 .f32 := Memref.whole cc12_scratch0

/-- A whole memref's buffer on core `c`, and it held whole at `f`. -/
abbrev HbBuf12 (c : Dev nD) {sp : Space} {S : Shape} {e : EltTy} (M : Memref sig .tc sp S e) : Type := Buf (Elt F) (M.view.loc (c : Thread nD τ))
abbrev hbPt12 (c : Dev nD) {sp : Space} {S : Shape} {e : EltTy} (M : Memref sig .tc sp S e) (f : HbBuf12 (F := F) c M) : sProp 𝕄 :=
  M.view.loc (c : Thread nD τ) ↦{fullShare} f

/-- The sixteen own cells at zero. -/
abbrev sems12 (c : Dev nD) : sProp 𝕄 :=
  iprop(semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0)

/-- A row index inside the gathered array puts the one-row slice inside it. -/
theorem row_inb12 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk12_1_of_lt (w : BitVec 32) (h : w.toNat < 50000) : k12_chk1 w := ⟨row_inb12 w h, row_inb12 w h⟩
theorem chk12_2_of_lt (w : BitVec 32) (h : w.toNat < 50000) : k12_chk2 w := ⟨row_inb12 w h, row_inb12 w h⟩
theorem chk12_3_of_lt (w : BitVec 32) (h : w.toNat < 50000) : k12_chk3 w := ⟨row_inb12 w h, row_inb12 w h⟩
theorem chk12_4_of_lt (w : BitVec 32) (h : w.toNat < 50000) : k12_chk4 w := ⟨row_inb12 w h, row_inb12 w h⟩
theorem chk12_5_of_lt (w : BitVec 32) (h : w.toNat < 50000) : k12_chk5 w := ⟨row_inb12 w h, row_inb12 w h⟩
theorem chk12_6_of_lt (w : BitVec 32) (h : w.toNat < 50000) : k12_chk6 w := ⟨row_inb12 w h, row_inb12 w h⟩
theorem chk12_7_of_lt (w : BitVec 32) (h : w.toNat < 50000) : k12_chk7 w := ⟨row_inb12 w h, row_inb12 w h⟩
theorem chk12_8_of_lt (w : BitVec 32) (h : w.toNat < 50000) : k12_chk8 w := ⟨row_inb12 w h, row_inb12 w h⟩
theorem chk12_9_of_lt (w : BitVec 32) (h : w.toNat < 50000) : k12_chk9 w := ⟨row_inb12 w h, row_inb12 w h⟩
theorem chk12_10_of_lt (w : BitVec 32) (h : w.toNat < 50000) : k12_chk10 w := ⟨row_inb12 w h, row_inb12 w h⟩
theorem chk12_11_of_lt (w : BitVec 32) (h : w.toNat < 50000) : k12_chk11 w := ⟨row_inb12 w h, row_inb12 w h⟩
theorem chk12_12_of_lt (w : BitVec 32) (h : w.toNat < 50000) : k12_chk12 w := ⟨row_inb12 w h, row_inb12 w h⟩
theorem chk12_13_of_lt (w : BitVec 32) (h : w.toNat < 50000) : k12_chk13 w := ⟨row_inb12 w h, row_inb12 w h⟩
theorem chk12_14_of_lt (w : BitVec 32) (h : w.toNat < 50000) : k12_chk14 w := ⟨row_inb12 w h, row_inb12 w h⟩
theorem chk12_15_of_lt (w : BitVec 32) (h : w.toNat < 50000) : k12_chk15 w := ⟨row_inb12 w h, row_inb12 w h⟩
theorem chk12_16_of_lt (w : BitVec 32) (h : w.toNat < 50000) : k12_chk16 w := row_inb12 w h

/-- A whole points-to as what stays behind, sixteen read tokens numbered `b + 15` down to `b`, and the tokens below
    `b` kept as one family. -/
theorem toksAt12 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 214 … 229. -/
theorem toks12 {ℓ : Loc nD τ sig} (f : Buf (Elt F) ℓ) :
    (ℓ ↦{fullShare} f : sProp 𝕄) ⊣⊢ iprop((ℓ ↦{Transfers.shareDrop fullShare 230} f) ∗ (ℓ ↦{Transfers.shareTokN fullShare 229} f) ∗ (ℓ ↦{Transfers.shareTokN fullShare 228} f) ∗ (ℓ ↦{Transfers.shareTokN fullShare 227} f) ∗ (ℓ ↦{Transfers.shareTokN fullShare 226} f) ∗ (ℓ ↦{Transfers.shareTokN fullShare 225} f) ∗ (ℓ ↦{Transfers.shareTokN fullShare 224} f) ∗ (ℓ ↦{Transfers.shareTokN fullShare 223} f) ∗ (ℓ ↦{Transfers.shareTokN fullShare 222} f) ∗ (ℓ ↦{Transfers.shareTokN fullShare 221} f) ∗ (ℓ ↦{Transfers.shareTokN fullShare 220} f) ∗ (ℓ ↦{Transfers.shareTokN fullShare 219} f) ∗ (ℓ ↦{Transfers.shareTokN fullShare 218} f) ∗ (ℓ ↦{Transfers.shareTokN fullShare 217} f) ∗ (ℓ ↦{Transfers.shareTokN fullShare 216} f) ∗ (ℓ ↦{Transfers.shareTokN fullShare 215} f) ∗ (ℓ ↦{Transfers.shareTokN fullShare 214} f)
      ∗ BI.bigSep (Finset.range 214) fun k => ℓ ↦{Transfers.shareTokN fullShare k} f) :=
  toksAt12 f 214

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun12 (c : Dev nD) (i : grid12.Coords) (arg3 : Memref sig .tc .vmem S16x1 .f32) (harg3 : arg3.IsWhole) (arg4 : Memref sig .tc .vmem S16x262 .f32) (harg4 : arg4.IsWhole)
    (x0 : Vec F S16x1 .f32) (tb : HbBuf12 (F := F) c tbM12) (fh0 : HbBuf12 (F := F) c hbM12) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM12 fullShare d) ∗ sems12 c ∗ hbPt12 c hbM12 fh0 ∗ hbPt12 c tbM12 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM12 fullShare d) ∗ sems12 c ∗ hbPt12 c hbM12 fh0 ∗ hbPt12 c tbM12 tb ∗ (∃ W', owes (c : Thread nD τ) 0 W')) -∗ K ⟨⟩))
          ⊢ wp frame (wpE (defs₀ (F := F)) Variants.none c none) Set.univ (cc12_kernel i tbM12 (Memref.isWhole_whole _) hbM12 (Memref.isWhole_whole _) arg3 harg3 arg4 harg4 scM12 (Memref.isWhole_whole _) cc12_scratch1) K } := by
  have k12_hw1 : k12_chk1 (tbM12.view.readAt (Elt F) (Rect.unit (s := S50000) (k12_off1 i) S1.size (k12_off1_inb i)).toLoadRect tb (Shape.Idx.first (numel1_S1.symm ▸ Nat.one_pos))) := chk12_1_of_lt _ (hH _)
  have k12_hw2 : k12_chk2 (tbM12.view.readAt (Elt F) (Rect.unit (s := S50000) (k12_off3 i) S1.size (k12_off3_inb i)).toLoadRect tb (Shape.Idx.first (numel1_S1.symm ▸ Nat.one_pos))) := chk12_2_of_lt _ (hH _)
  have k12_hw3 : k12_chk3 (tbM12.view.readAt (Elt F) (Rect.unit (s := S50000) (k12_off5 i) S1.size (k12_off5_inb i)).toLoadRect tb (Shape.Idx.first (numel1_S1.symm ▸ Nat.one_pos))) := chk12_3_of_lt _ (hH _)
  have k12_hw4 : k12_chk4 (tbM12.view.readAt (Elt F) (Rect.unit (s := S50000) (k12_off7 i) S1.size (k12_off7_inb i)).toLoadRect tb (Shape.Idx.first (numel1_S1.symm ▸ Nat.one_pos))) := chk12_4_of_lt _ (hH _)
  have k12_hw5 : k12_chk5 (tbM12.view.readAt (Elt F) (Rect.unit (s := S50000) (k12_off9 i) S1.size (k12_off9_inb i)).toLoadRect tb (Shape.Idx.first (numel1_S1.symm ▸ Nat.one_pos))) := chk12_5_of_lt _ (hH _)
  have k12_hw6 : k12_chk6 (tbM12.view.readAt (Elt F) (Rect.unit (s := S50000) (k12_off11 i) S1.size (k12_off11_inb i)).toLoadRect tb (Shape.Idx.first (numel1_S1.symm ▸ Nat.one_pos))) := chk12_6_of_lt _ (hH _)
  have k12_hw7 : k12_chk7 (tbM12.view.readAt (Elt F) (Rect.unit (s := S50000) (k12_off13 i) S1.size (k12_off13_inb i)).toLoadRect tb (Shape.Idx.first (numel1_S1.symm ▸ Nat.one_pos))) := chk12_7_of_lt _ (hH _)
  have k12_hw8 : k12_chk8 (tbM12.view.readAt (Elt F) (Rect.unit (s := S50000) (k12_off15 i) S1.size (k12_off15_inb i)).toLoadRect tb (Shape.Idx.first (numel1_S1.symm ▸ Nat.one_pos))) := chk12_8_of_lt _ (hH _)
  have k12_hw9 : k12_chk9 (tbM12.view.readAt (Elt F) (Rect.unit (s := S50000) (k12_off17 i) S1.size (k12_off17_inb i)).toLoadRect tb (Shape.Idx.first (numel1_S1.symm ▸ Nat.one_pos))) := chk12_9_of_lt _ (hH _)
  have k12_hw10 : k12_chk10 (tbM12.view.readAt (Elt F) (Rect.unit (s := S50000) (k12_off19 i) S1.size (k12_off19_inb i)).toLoadRect tb (Shape.Idx.first (numel1_S1.symm ▸ Nat.one_pos))) := chk12_10_of_lt _ (hH _)
  have k12_hw11 : k12_chk11 (tbM12.view.readAt (Elt F) (Rect.unit (s := S50000) (k12_off21 i) S1.size (k12_off21_inb i)).toLoadRect tb (Shape.Idx.first (numel1_S1.symm ▸ Nat.one_pos))) := chk12_11_of_lt _ (hH _)
  have k12_hw12 : k12_chk12 (tbM12.view.readAt (Elt F) (Rect.unit (s := S50000) (k12_off23 i) S1.size (k12_off23_inb i)).toLoadRect tb (Shape.Idx.first (numel1_S1.symm ▸ Nat.one_pos))) := chk12_12_of_lt _ (hH _)
  have k12_hw13 : k12_chk13 (tbM12.view.readAt (Elt F) (Rect.unit (s := S50000) (k12_off25 i) S1.size (k12_off25_inb i)).toLoadRect tb (Shape.Idx.first (numel1_S1.symm ▸ Nat.one_pos))) := chk12_13_of_lt _ (hH _)
  have k12_hw14 : k12_chk14 (tbM12.view.readAt (Elt F) (Rect.unit (s := S50000) (k12_off27 i) S1.size (k12_off27_inb i)).toLoadRect tb (Shape.Idx.first (numel1_S1.symm ▸ Nat.one_pos))) := chk12_14_of_lt _ (hH _)
  have k12_hw15 : k12_chk15 (tbM12.view.readAt (Elt F) (Rect.unit (s := S50000) (k12_off29 i) S1.size (k12_off29_inb i)).toLoadRect tb (Shape.Idx.first (numel1_S1.symm ▸ Nat.one_pos))) := chk12_15_of_lt _ (hH _)
  have k12_hw16 : k12_chk16 (tbM12.view.readAt (Elt F) (Rect.unit (s := S50000) (k12_off31 i) S1.size (k12_off31_inb i)).toLoadRect tb (Shape.Idx.first (numel1_S1.symm ▸ Nat.one_pos))) := chk12_16_of_lt _ (hH _)
  refine ⟨?_, fun W K => ?run⟩
  case run =>
    simp only [cc12_kernel_eq_skeleton]; unfold cc12_kernel_skel
    simp only [k12_part7_eq_skeleton]; unfold k12_part7_skel
    simp only [k12_part1_eq_skeleton, k12_part2_eq_skeleton, k12_part3_eq_skeleton, k12_part4_eq_skeleton, k12_part5_eq_skeleton, k12_part6_eq_skeleton]
    unfold owns sems12
    iintro ⟨⟨%f0, %hf0, H0⟩, ⟨%d1, %f1, -, H12⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks12 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k12_hw1 | sl_exact k12_hw2 | sl_exact k12_hw3 | sl_exact k12_hw4 | sl_exact k12_hw5 | sl_exact k12_hw6 | sl_exact k12_hw7 | sl_exact k12_hw8 | sl_exact k12_hw9 | sl_exact k12_hw10 | sl_exact k12_hw11 | sl_exact k12_hw12 | sl_exact k12_hw13 | sl_exact k12_hw14 | sl_exact k12_hw15 | sl_exact k12_hw16)
    sl_step
    iapply Hk
    isplitl [H0]
    · iexists _; isplitr; · ipureintro; exact harg3.read_unread _
      iexact H0
    isplitl [H12]; · iexists _; iexact H12
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks12 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg12 (F := F)).Adm)

/-- Each window's current staging memref at point t, spelled as the pipeline passes it, and its wholeness. -/
abbrev ms12_0 (t : Fin (cfg12 a).N) : Memref sig .tc .vmem S16x1 .f32 := spec12_0.stage ((cfg12 a).slots t 0)
abbrev hs12_0 (t : Fin (cfg12 a).N) : (ms12_0 a t).IsWhole := hstage12_0 (((cfg12 a).slots t 0).cast nbuf12_0)
abbrev ms12_1 (t : Fin (cfg12 a).N) : Memref sig .tc .vmem S16x262 .f32 := spec12_1.stage ((cfg12 a).slots t 1)
abbrev hs12_1 (t : Fin (cfg12 a).N) : (ms12_1 a t).IsWhole := hstage12_1 (((cfg12 a).slots t 1).cast nbuf12_1)

/-- The kernel body at point t, on what the pipeline calls it with. -/
abbrev bodyAt12 (t : Fin (cfg12 a).N) : Prog (TpuEff nD τ sig (Elt F) Λ₀ .tc) PUnit :=
  cc12_kernel (grid12.coords t) tbM12 (Memref.isWhole_whole _) hbM12 (Memref.isWhole_whole _) (ms12_0 a t) (hs12_0 a t) (ms12_1 a t) (hs12_1 a t) scM12 (Memref.isWhole_whole _) cc12_scratch1

/-! ## The invariant, conjunct by conjunct -/

/-- The sixteen own cells at zero, listed. -/
theorem ownSems012_eq (c : Dev nD) :
    (Pipeline.ownSems0 (Ix := Unit) (Name := ℕ) (U := Pipeline.UD sig nD τ) (Lvl := ℕ) (Val := Elt F) (τ := τ) osem12 c : sProp 𝕄) = sems12 c := by
  rw [Pipeline.ownSems0_eq_of_list c osem12 [0, 1, 2, 3, 4, 5, 6, 7, 8, 9, 10, 11, 12, 13, 14, 15] (by decide) (by decide)]; rfl

/-- The gathered array's points-to at the region-entry contents. -/
theorem hbmPts12_eq (c : Dev nD) :
    (bigSep H12 (fun b => ((c : Thread nD τ).loc b) ↦{fullShare} V c b) : sProp 𝕄) = iprop(hbPt12 c hbM12 (V c main_v71)) := by
  rw [BI.bigSep_eq_bigSepL_of_eq [main_v71] (by decide) (by decide)]; rfl

/-- The row table, whole, at the contents the region is launched with. -/
theorem prefHeld12_eq (c : Dev nD) :
    (Pipeline.prefHeld (Ix := Unit) (Name := ℕ) (U := Pipeline.UD sig nD τ) (Lvl := ℕ) pre12 c (fun _ => fullShare) a.1 : sProp 𝕄) = iprop(hbPt12 c tbM12 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD12_eq (c : Dev nD) :
    (Pipeline.ΦD osem12 spec12 H12 V c : sProp 𝕄)
      = iprop(iprop((∃ d, owns (c : Thread nD τ) scM12 fullShare d) ∗ Pipeline.scopedRestBut (Ix := Unit) (Name := ℕ) (U := Pipeline.UD sig nD τ) (Lvl := ℕ) (Val := Elt F) spec12 c [cc12_scratch0])
          ∗ (∃ r, prngReg c r) ∗ sems12 c ∗ iprop(hbPt12 c hbM12 (V c main_v71))) := by
  rw [Pipeline.ΦD_eq, scopedRest12_split, ownSems012_eq, hbmPts12_eq]; simp only [scM12, owns_whole]; try rfl

/-! ## The windows' blocks -/

/-- Window w's block at point t, read off its array as the region finds it. -/
def iblk12 (c : Dev nD) (w : Fin (cfg12 a).W) (t : Fin (cfg12 a).N) : (((cfg12 a).win w).xblock ((cfg12 a).grid.coords t)).Idx → Elt F ((cfg12 a).win w).elt :=
  (((cfg12 a).win w).blk t).view.read (Elt F) (V c (Pipeline.arrRef spec12 w))

/-- Input window 0's current staging buffer holds its block at every point, fetched there or not. -/
theorem before12_0_of {c : Dev nD} (dat : Dat τ (Elt F) Unit ℕ (Pipeline.UD sig nD τ) ℕ (cfg12 a) c) (hA : dat.A 0 = V c (Pipeline.arrRef spec12 0))
    (hafter : ∀ t, dat.after 0 t = iblk12 V a c 0 t) (t : Fin (cfg12 a).N) (d) : dat.before 0 t d = iblk12 V a c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-! ## What the run leaves in the output window's buffer -/

/-- The run's pieces for the output tile its block, so they cover it. -/
theorem cover12_1 (c : Dev nD) (i : grid12.Coords) (arg3 : Memref sig .tc .vmem S16x1 .f32) (harg3 : arg3.IsWhole) (arg4 : Memref sig .tc .vmem S16x262 .f32) (harg4 : arg4.IsWhole)
    (x0 : Vec F S16x1 .f32) (tb : HbBuf12 (F := F) c tbM12) (fh0 : HbBuf12 (F := F) c hbM12) (hT : ∀ x, (tb x).toNat < 50000) (y : S16x262.Idx) :
    ∃ pc ∈ (kernelRun12 c i arg3 harg3 arg4 harg4 x0 tb fh0 hT).1, y ∈ pc.1.set :=
  View.cover_of_tiledL (kernelRun12 c i arg3 harg3 arg4 harg4 x0 tb fh0 hT).1 S16x262.size (by sl_kernel_rfl) y

/-- One staging buffer of the output window, through which its contents are stated. -/
abbrev VO12_1 : View sig .tc .vmem S16x262 .f32 := (Memref.whole cc12_stg1_0 : Memref sig .tc .vmem S16x262 .f32).view

/-- What the run leaves in the output's staging buffer: its pieces read back over junk. -/
def out12_1 (c : Dev nD) (i : grid12.Coords) (arg3 : Memref sig .tc .vmem S16x1 .f32) (harg3 : arg3.IsWhole) (arg4 : Memref sig .tc .vmem S16x262 .f32) (harg4 : arg4.IsWhole)
    (x0 : Vec F S16x1 .f32) (tb : HbBuf12 (F := F) c tbM12) (fh0 : HbBuf12 (F := F) c hbM12) (hT : ∀ x, (tb x).toNat < 50000) : Vec F S16x262 .f32 :=
  VO12_1.read (Elt F) (VO12_1.writes (Elt F) VO12_1.junk (kernelRun12 c i arg3 harg3 arg4 harg4 x0 tb fh0 hT).1)

/-- Every word of the table is a row of the gathered array, from the same of its words by position. -/
theorem tbl_lt12 (hH : ∀ j : Fin 50000, ((a.1 0) (ValueIdx.ix1 j)).toNat < 50000) (c : Dev nD) : ∀ x, (((a.1 0 : HbBuf12 (F := F) c tbM12)) x).toNat < 50000 :=
  fun x => by rw [ValueIdx.eq_ix1 x]; exact hH _

/-- What the output's staging buffer holds after the body at point t: the run's contents at the point's memrefs, the
    norm block, the table and the gathered array. -/
def outsAt12 (hH : ∀ j : Fin 50000, ((a.1 0) (ValueIdx.ix1 j)).toNat < 50000) (c : Dev nD) (t : Fin (cfg12 a).N) : Vec F S16x262 .f32 :=
  out12_1 c (grid12.coords t) (ms12_0 a t) (hs12_0 a t) (ms12_1 a t) (hs12_1 a t) (iblk12 V a c 0 t) (a.1 0) (V c main_v71) (tbl_lt12 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat12 (hH : ∀ j : Fin 50000, ((a.1 0) (ValueIdx.ix1 j)).toNat < 50000) (c : Dev nD) : Dat τ (Elt F) Unit ℕ (Pipeline.UD sig nD τ) ℕ (cfg12 a) c where
  A w := V c (Pipeline.arrRef spec12 w)
  after w t := match w with
    | ⟨0, _⟩ => iblk12 V a c 0 t
    | ⟨1, _⟩ => (outsAt12 V a hH c t)
  Φ _ := iprop(Pipeline.ΦD osem12 spec12 H12 V c ∗ Pipeline.prefHeld pre12 c (fun _ => fullShare) a.1)
  q _ := fullShare
  owed _ := 0

/-- The proof data's arrays are the region-entry contents. -/
theorem A_eq12 (hH : ∀ j : Fin 50000, ((a.1 0) (ValueIdx.ix1 j)).toNat < 50000) (c : Dev nD) (w : Fin (cfg12 a).W) : (dat12 V a hH c).A w = V c (Pipeline.arrRef spec12 w) := by
  dsimp only [dat12]

/-- What the body leaves, window by window. -/
theorem after12_0 (hH : ∀ j : Fin 50000, ((a.1 0) (ValueIdx.ix1 j)).toNat < 50000) (c : Dev nD) (t : Fin (cfg12 a).N) : (dat12 V a hH c).after 0 t = iblk12 V a c 0 t := by dsimp only [dat12]; try rfl
theorem after12_1 (hH : ∀ j : Fin 50000, ((a.1 0) (ValueIdx.ix1 j)).toNat < 50000) (c : Dev nD) (t : Fin (cfg12 a).N) : (dat12 V a hH c).after 1 t = (outsAt12 V a hH c t) := by dsimp only [dat12]; try rfl

/-- The input's current staging buffer holds its block at every point, fetched there or not. -/
theorem before12_0 (hH : ∀ j : Fin 50000, ((a.1 0) (ValueIdx.ix1 j)).toNat < 50000) (c : Dev nD) (t : Fin (cfg12 a).N) (d) : (dat12 V a hH c).before 0 t d = iblk12 V a c 0 t :=
  before12_0_of V a (dat12 V a hH c) (A_eq12 V a hH c 0) (after12_0 V a hH c) t d

/-! ## The body obligation, at a generic point -/

/-- What the body is called with at point t, the windows one by one, -/
def bodyPre12 (hH : ∀ j : Fin 50000, ((a.1 0) (ValueIdx.ix1 j)).toNat < 50000) (c : Dev nD) (t : Fin (cfg12 a).N) : sProp 𝕄 :=
  iprop((dat12 V a hH c).Φ t.castSucc ∗ (dat12 V a hH c).owesAt () t.castSucc
    ∗ (∃ d, owns (c : Thread nD τ) (ms12_0 a t) fullShare ((dat12 V a hH c).before 0 t d))
    ∗ (∃ d, owns (c : Thread nD τ) (ms12_1 a t) fullShare ((dat12 V a hH c).before 1 t d)))

/-- and what it returns. -/
def bodyPost12 (hH : ∀ j : Fin 50000, ((a.1 0) (ValueIdx.ix1 j)).toNat < 50000) (c : Dev nD) (t : Fin (cfg12 a).N) : sProp 𝕄 :=
  iprop((dat12 V a hH c).Φ t.succ ∗ (dat12 V a hH c).owesAt () t.succ
    ∗ owns (c : Thread nD τ) (ms12_0 a t) fullShare ((dat12 V a hH c).after 0 t)
    ∗ owns (c : Thread nD τ) (ms12_1 a t) fullShare ((dat12 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body12 (hH : ∀ j : Fin 50000, ((a.1 0) (ValueIdx.ix1 j)).toNat < 50000) (c : Dev nD) (t : Fin (cfg12 a).N) :
    bodyPre12 V a hH c t ⊢ wp frame (wpE (defs₀ (F := F)) Variants.none c none) Set.univ (bodyAt12 a t) (fun _ => bodyPost12 V a hH c t) := by
  unfold bodyPre12 bodyPost12 bodyAt12
  simp only [before12_0]
  rw [show (dat12 V a hH c).Φ t.succ = (dat12 V a hH c).Φ t.castSucc from rfl,
    after12_0, after12_1]
  rw [show (dat12 V a hH c).Φ t.castSucc = iprop(Pipeline.ΦD osem12 spec12 H12 V c ∗ Pipeline.prefHeld pre12 c (fun _ => fullShare) a.1) from rfl, PhiD12_eq, prefHeld12_eq]
  unfold Dat.owesAt Pipeline.owesWithin
  rw [show (dat12 V a hH c).owed t.castSucc = 0 from rfl, show (dat12 V a hH c).owed t.succ = 0 from rfl]
  unfold outsAt12
  unfold out12_1
  iintro ⟨⟨⟨⟨HS0, HSr⟩, Hg, Hq, Hh0⟩, HT⟩, ⟨%W, -, HW⟩, ⟨%d0, H0⟩, ⟨%d1, H12⟩⟩
  iapply ((kernelRun12 c (grid12.coords t) _ _ _ _ (iblk12 V a c 0 t) (a.1 0) (V c main_v71) (tbl_lt12 a hH c)).2 W _)
  isplitl [H0]; · iexact H0
  isplitl [H12]; · iexists _; iexact H12
  isplitl [HS0]; · iexact HS0
  isplitl [Hq]; · iexact Hq
  isplitl [Hh0]; · iexact Hh0
  isplitl [HT]; · iexact HT
  isplitl [HW]; · iexact HW
  iintro ⟨H0, ⟨%e1, H12⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H12
  ipureintro; exact View.read_writes_of_cover _ _ _ _ _ (cover12_1 c _ _ _ _ _ _ _ _ _)

/-- The library's body obligation, at every point. -/
theorem body_obligation12 (hH : ∀ j : Fin 50000, ((a.1 0) (ValueIdx.ix1 j)).toNat < 50000) (c : Dev nD) : BodyObligation (dat12 (F := F) V a hH c) (defs₀ (F := F)) Variants.none () Set.univ := fun t => by
  rw [bigSep_W12, bigSep_W12]
  exact sound_body12 V a hH c t

end Cert.KernelIdeal.Hand

end
-- ==== Proof.G13.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 13 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem13 : Fin 16 → SemLoc sig := fun j =>
  (![SemLoc.dma 234, SemLoc.dma 235, SemLoc.dma 236, SemLoc.dma 237, SemLoc.dma 238, SemLoc.dma 239, SemLoc.dma 240, SemLoc.dma 241,
     SemLoc.dma 242, SemLoc.dma 243, SemLoc.dma 244, SemLoc.dma 245, SemLoc.dma 246, SemLoc.dma 247, SemLoc.dma 248, SemLoc.dma 249] : Fin 16 → SemLoc sig) j
theorem ownSemFacts13 : Pipeline.OwnSemFacts spec13 osem13 := by decide

/-- The HBM operand the body gathers rows from: unscoped, no window's array, no table. -/
def H13 : Finset (Ref sig .tc) := {main_v71}
theorem H13_sub : H13 ⊆ Pipeline.restRefsP sig pre13 spec13 := by decide

/-- The operands the pipeline does not stage, whole. -/
abbrev tbM13 : Memref sig .tc .smem S50000 .i32 := Memref.whole main_v79
abbrev hbM13 : Memref sig .tc .hbm S50000x262 .f32 := Memref.whole main_v71
abbrev scM13 : Memref sig .tc .vmem S16x262 .f32 := Memref.whole cc13_scratch0

/-- A whole memref's buffer on core `c`, and it held whole at `f`. -/
abbrev HbBuf13 (c : Dev nD) {sp : Space} {S : Shape} {e : EltTy} (M : Memref sig .tc sp S e) : Type := Buf (Elt F) (M.view.loc (c : Thread nD τ))
abbrev hbPt13 (c : Dev nD) {sp : Space} {S : Shape} {e : EltTy} (M : Memref sig .tc sp S e) (f : HbBuf13 (F := F) c M) : sProp 𝕄 :=
  M.view.loc (c : Thread nD τ) ↦{fullShare} f

/-- The sixteen own cells at zero. -/
abbrev sems13 (c : Dev nD) : sProp 𝕄 :=
  iprop(semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0 ∗ semVal ((c : Thread nD τ), SemLoc.dma 243) 0 ∗ semVal ((c : Thread nD τ), SemLoc.dma 244) 0 ∗ semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0)

/-- A row index inside the gathered array puts the one-row slice inside it. -/
theorem row_inb13 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk13_1_of_lt (w : BitVec 32) (h : w.toNat < 50000) : k13_chk1 w := ⟨row_inb13 w h, row_inb13 w h⟩
theorem chk13_2_of_lt (w : BitVec 32) (h : w.toNat < 50000) : k13_chk2 w := ⟨row_inb13 w h, row_inb13 w h⟩
theorem chk13_3_of_lt (w : BitVec 32) (h : w.toNat < 50000) : k13_chk3 w := ⟨row_inb13 w h, row_inb13 w h⟩
theorem chk13_4_of_lt (w : BitVec 32) (h : w.toNat < 50000) : k13_chk4 w := ⟨row_inb13 w h, row_inb13 w h⟩
theorem chk13_5_of_lt (w : BitVec 32) (h : w.toNat < 50000) : k13_chk5 w := ⟨row_inb13 w h, row_inb13 w h⟩
theorem chk13_6_of_lt (w : BitVec 32) (h : w.toNat < 50000) : k13_chk6 w := ⟨row_inb13 w h, row_inb13 w h⟩
theorem chk13_7_of_lt (w : BitVec 32) (h : w.toNat < 50000) : k13_chk7 w := ⟨row_inb13 w h, row_inb13 w h⟩
theorem chk13_8_of_lt (w : BitVec 32) (h : w.toNat < 50000) : k13_chk8 w := ⟨row_inb13 w h, row_inb13 w h⟩
theorem chk13_9_of_lt (w : BitVec 32) (h : w.toNat < 50000) : k13_chk9 w := ⟨row_inb13 w h, row_inb13 w h⟩
theorem chk13_10_of_lt (w : BitVec 32) (h : w.toNat < 50000) : k13_chk10 w := ⟨row_inb13 w h, row_inb13 w h⟩
theorem chk13_11_of_lt (w : BitVec 32) (h : w.toNat < 50000) : k13_chk11 w := ⟨row_inb13 w h, row_inb13 w h⟩
theorem chk13_12_of_lt (w : BitVec 32) (h : w.toNat < 50000) : k13_chk12 w := ⟨row_inb13 w h, row_inb13 w h⟩
theorem chk13_13_of_lt (w : BitVec 32) (h : w.toNat < 50000) : k13_chk13 w := ⟨row_inb13 w h, row_inb13 w h⟩
theorem chk13_14_of_lt (w : BitVec 32) (h : w.toNat < 50000) : k13_chk14 w := ⟨row_inb13 w h, row_inb13 w h⟩
theorem chk13_15_of_lt (w : BitVec 32) (h : w.toNat < 50000) : k13_chk15 w := ⟨row_inb13 w h, row_inb13 w h⟩
theorem chk13_16_of_lt (w : BitVec 32) (h : w.toNat < 50000) : k13_chk16 w := row_inb13 w h

/-- A whole points-to as what stays behind, sixteen read tokens numbered `b + 15` down to `b`, and the tokens below
    `b` kept as one family. -/
theorem toksAt13 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 234 … 249. -/
theorem toks13 {ℓ : Loc nD τ sig} (f : Buf (Elt F) ℓ) :
    (ℓ ↦{fullShare} f : sProp 𝕄) ⊣⊢ iprop((ℓ ↦{Transfers.shareDrop fullShare 250} f) ∗ (ℓ ↦{Transfers.shareTokN fullShare 249} f) ∗ (ℓ ↦{Transfers.shareTokN fullShare 248} f) ∗ (ℓ ↦{Transfers.shareTokN fullShare 247} f) ∗ (ℓ ↦{Transfers.shareTokN fullShare 246} f) ∗ (ℓ ↦{Transfers.shareTokN fullShare 245} f) ∗ (ℓ ↦{Transfers.shareTokN fullShare 244} f) ∗ (ℓ ↦{Transfers.shareTokN fullShare 243} f) ∗ (ℓ ↦{Transfers.shareTokN fullShare 242} f) ∗ (ℓ ↦{Transfers.shareTokN fullShare 241} f) ∗ (ℓ ↦{Transfers.shareTokN fullShare 240} f) ∗ (ℓ ↦{Transfers.shareTokN fullShare 239} f) ∗ (ℓ ↦{Transfers.shareTokN fullShare 238} f) ∗ (ℓ ↦{Transfers.shareTokN fullShare 237} f) ∗ (ℓ ↦{Transfers.shareTokN fullShare 236} f) ∗ (ℓ ↦{Transfers.shareTokN fullShare 235} f) ∗ (ℓ ↦{Transfers.shareTokN fullShare 234} f)
      ∗ BI.bigSep (Finset.range 234) fun k => ℓ ↦{Transfers.shareTokN fullShare k} f) :=
  toksAt13 f 234

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun13 (c : Dev nD) (i : grid13.Coords) (arg3 : Memref sig .tc .vmem S16x1 .f32) (harg3 : arg3.IsWhole) (arg4 : Memref sig .tc .vmem S16x262 .f32) (harg4 : arg4.IsWhole)
    (x0 : Vec F S16x1 .f32) (tb : HbBuf13 (F := F) c tbM13) (fh0 : HbBuf13 (F := F) c hbM13) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM13 fullShare d) ∗ sems13 c ∗ hbPt13 c hbM13 fh0 ∗ hbPt13 c tbM13 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM13 fullShare d) ∗ sems13 c ∗ hbPt13 c hbM13 fh0 ∗ hbPt13 c tbM13 tb ∗ (∃ W', owes (c : Thread nD τ) 0 W')) -∗ K ⟨⟩))
          ⊢ wp frame (wpE (defs₀ (F := F)) Variants.none c none) Set.univ (cc13_kernel i tbM13 (Memref.isWhole_whole _) hbM13 (Memref.isWhole_whole _) arg3 harg3 arg4 harg4 scM13 (Memref.isWhole_whole _) cc13_scratch1) K } := by
  have k13_hw1 : k13_chk1 (tbM13.view.readAt (Elt F) (Rect.unit (s := S50000) (k13_off1 i) S1.size (k13_off1_inb i)).toLoadRect tb (Shape.Idx.first (numel1_S1.symm ▸ Nat.one_pos))) := chk13_1_of_lt _ (hH _)
  have k13_hw2 : k13_chk2 (tbM13.view.readAt (Elt F) (Rect.unit (s := S50000) (k13_off3 i) S1.size (k13_off3_inb i)).toLoadRect tb (Shape.Idx.first (numel1_S1.symm ▸ Nat.one_pos))) := chk13_2_of_lt _ (hH _)
  have k13_hw3 : k13_chk3 (tbM13.view.readAt (Elt F) (Rect.unit (s := S50000) (k13_off5 i) S1.size (k13_off5_inb i)).toLoadRect tb (Shape.Idx.first (numel1_S1.symm ▸ Nat.one_pos))) := chk13_3_of_lt _ (hH _)
  have k13_hw4 : k13_chk4 (tbM13.view.readAt (Elt F) (Rect.unit (s := S50000) (k13_off7 i) S1.size (k13_off7_inb i)).toLoadRect tb (Shape.Idx.first (numel1_S1.symm ▸ Nat.one_pos))) := chk13_4_of_lt _ (hH _)
  have k13_hw5 : k13_chk5 (tbM13.view.readAt (Elt F) (Rect.unit (s := S50000) (k13_off9 i) S1.size (k13_off9_inb i)).toLoadRect tb (Shape.Idx.first (numel1_S1.symm ▸ Nat.one_pos))) := chk13_5_of_lt _ (hH _)
  have k13_hw6 : k13_chk6 (tbM13.view.readAt (Elt F) (Rect.unit (s := S50000) (k13_off11 i) S1.size (k13_off11_inb i)).toLoadRect tb (Shape.Idx.first (numel1_S1.symm ▸ Nat.one_pos))) := chk13_6_of_lt _ (hH _)
  have k13_hw7 : k13_chk7 (tbM13.view.readAt (Elt F) (Rect.unit (s := S50000) (k13_off13 i) S1.size (k13_off13_inb i)).toLoadRect tb (Shape.Idx.first (numel1_S1.symm ▸ Nat.one_pos))) := chk13_7_of_lt _ (hH _)
  have k13_hw8 : k13_chk8 (tbM13.view.readAt (Elt F) (Rect.unit (s := S50000) (k13_off15 i) S1.size (k13_off15_inb i)).toLoadRect tb (Shape.Idx.first (numel1_S1.symm ▸ Nat.one_pos))) := chk13_8_of_lt _ (hH _)
  have k13_hw9 : k13_chk9 (tbM13.view.readAt (Elt F) (Rect.unit (s := S50000) (k13_off17 i) S1.size (k13_off17_inb i)).toLoadRect tb (Shape.Idx.first (numel1_S1.symm ▸ Nat.one_pos))) := chk13_9_of_lt _ (hH _)
  have k13_hw10 : k13_chk10 (tbM13.view.readAt (Elt F) (Rect.unit (s := S50000) (k13_off19 i) S1.size (k13_off19_inb i)).toLoadRect tb (Shape.Idx.first (numel1_S1.symm ▸ Nat.one_pos))) := chk13_10_of_lt _ (hH _)
  have k13_hw11 : k13_chk11 (tbM13.view.readAt (Elt F) (Rect.unit (s := S50000) (k13_off21 i) S1.size (k13_off21_inb i)).toLoadRect tb (Shape.Idx.first (numel1_S1.symm ▸ Nat.one_pos))) := chk13_11_of_lt _ (hH _)
  have k13_hw12 : k13_chk12 (tbM13.view.readAt (Elt F) (Rect.unit (s := S50000) (k13_off23 i) S1.size (k13_off23_inb i)).toLoadRect tb (Shape.Idx.first (numel1_S1.symm ▸ Nat.one_pos))) := chk13_12_of_lt _ (hH _)
  have k13_hw13 : k13_chk13 (tbM13.view.readAt (Elt F) (Rect.unit (s := S50000) (k13_off25 i) S1.size (k13_off25_inb i)).toLoadRect tb (Shape.Idx.first (numel1_S1.symm ▸ Nat.one_pos))) := chk13_13_of_lt _ (hH _)
  have k13_hw14 : k13_chk14 (tbM13.view.readAt (Elt F) (Rect.unit (s := S50000) (k13_off27 i) S1.size (k13_off27_inb i)).toLoadRect tb (Shape.Idx.first (numel1_S1.symm ▸ Nat.one_pos))) := chk13_14_of_lt _ (hH _)
  have k13_hw15 : k13_chk15 (tbM13.view.readAt (Elt F) (Rect.unit (s := S50000) (k13_off29 i) S1.size (k13_off29_inb i)).toLoadRect tb (Shape.Idx.first (numel1_S1.symm ▸ Nat.one_pos))) := chk13_15_of_lt _ (hH _)
  have k13_hw16 : k13_chk16 (tbM13.view.readAt (Elt F) (Rect.unit (s := S50000) (k13_off31 i) S1.size (k13_off31_inb i)).toLoadRect tb (Shape.Idx.first (numel1_S1.symm ▸ Nat.one_pos))) := chk13_16_of_lt _ (hH _)
  refine ⟨?_, fun W K => ?run⟩
  case run =>
    simp only [cc13_kernel_eq_skeleton]; unfold cc13_kernel_skel
    simp only [k13_part7_eq_skeleton]; unfold k13_part7_skel
    simp only [k13_part1_eq_skeleton, k13_part2_eq_skeleton, k13_part3_eq_skeleton, k13_part4_eq_skeleton, k13_part5_eq_skeleton, k13_part6_eq_skeleton]
    unfold owns sems13
    iintro ⟨⟨%f0, %hf0, H0⟩, ⟨%d1, %f1, -, H13⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks13 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k13_hw1 | sl_exact k13_hw2 | sl_exact k13_hw3 | sl_exact k13_hw4 | sl_exact k13_hw5 | sl_exact k13_hw6 | sl_exact k13_hw7 | sl_exact k13_hw8 | sl_exact k13_hw9 | sl_exact k13_hw10 | sl_exact k13_hw11 | sl_exact k13_hw12 | sl_exact k13_hw13 | sl_exact k13_hw14 | sl_exact k13_hw15 | sl_exact k13_hw16)
    sl_step
    iapply Hk
    isplitl [H0]
    · iexists _; isplitr; · ipureintro; exact harg3.read_unread _
      iexact H0
    isplitl [H13]; · iexists _; iexact H13
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks13 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg13 (F := F)).Adm)

/-- Each window's current staging memref at point t, spelled as the pipeline passes it, and its wholeness. -/
abbrev ms13_0 (t : Fin (cfg13 a).N) : Memref sig .tc .vmem S16x1 .f32 := spec13_0.stage ((cfg13 a).slots t 0)
abbrev hs13_0 (t : Fin (cfg13 a).N) : (ms13_0 a t).IsWhole := hstage13_0 (((cfg13 a).slots t 0).cast nbuf13_0)
abbrev ms13_1 (t : Fin (cfg13 a).N) : Memref sig .tc .vmem S16x262 .f32 := spec13_1.stage ((cfg13 a).slots t 1)
abbrev hs13_1 (t : Fin (cfg13 a).N) : (ms13_1 a t).IsWhole := hstage13_1 (((cfg13 a).slots t 1).cast nbuf13_1)

/-- The kernel body at point t, on what the pipeline calls it with. -/
abbrev bodyAt13 (t : Fin (cfg13 a).N) : Prog (TpuEff nD τ sig (Elt F) Λ₀ .tc) PUnit :=
  cc13_kernel (grid13.coords t) tbM13 (Memref.isWhole_whole _) hbM13 (Memref.isWhole_whole _) (ms13_0 a t) (hs13_0 a t) (ms13_1 a t) (hs13_1 a t) scM13 (Memref.isWhole_whole _) cc13_scratch1

/-! ## The invariant, conjunct by conjunct -/

/-- The sixteen own cells at zero, listed. -/
theorem ownSems013_eq (c : Dev nD) :
    (Pipeline.ownSems0 (Ix := Unit) (Name := ℕ) (U := Pipeline.UD sig nD τ) (Lvl := ℕ) (Val := Elt F) (τ := τ) osem13 c : sProp 𝕄) = sems13 c := by
  rw [Pipeline.ownSems0_eq_of_list c osem13 [0, 1, 2, 3, 4, 5, 6, 7, 8, 9, 10, 11, 12, 13, 14, 15] (by decide) (by decide)]; rfl

/-- The gathered array's points-to at the region-entry contents. -/
theorem hbmPts13_eq (c : Dev nD) :
    (bigSep H13 (fun b => ((c : Thread nD τ).loc b) ↦{fullShare} V c b) : sProp 𝕄) = iprop(hbPt13 c hbM13 (V c main_v71)) := by
  rw [BI.bigSep_eq_bigSepL_of_eq [main_v71] (by decide) (by decide)]; rfl

/-- The row table, whole, at the contents the region is launched with. -/
theorem prefHeld13_eq (c : Dev nD) :
    (Pipeline.prefHeld (Ix := Unit) (Name := ℕ) (U := Pipeline.UD sig nD τ) (Lvl := ℕ) pre13 c (fun _ => fullShare) a.1 : sProp 𝕄) = iprop(hbPt13 c tbM13 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD13_eq (c : Dev nD) :
    (Pipeline.ΦD osem13 spec13 H13 V c : sProp 𝕄)
      = iprop(iprop((∃ d, owns (c : Thread nD τ) scM13 fullShare d) ∗ Pipeline.scopedRestBut (Ix := Unit) (Name := ℕ) (U := Pipeline.UD sig nD τ) (Lvl := ℕ) (Val := Elt F) spec13 c [cc13_scratch0])
          ∗ (∃ r, prngReg c r) ∗ sems13 c ∗ iprop(hbPt13 c hbM13 (V c main_v71))) := by
  rw [Pipeline.ΦD_eq, scopedRest13_split, ownSems013_eq, hbmPts13_eq]; simp only [scM13, owns_whole]; try rfl

/-! ## The windows' blocks -/

/-- Window w's block at point t, read off its array as the region finds it. -/
def iblk13 (c : Dev nD) (w : Fin (cfg13 a).W) (t : Fin (cfg13 a).N) : (((cfg13 a).win w).xblock ((cfg13 a).grid.coords t)).Idx → Elt F ((cfg13 a).win w).elt :=
  (((cfg13 a).win w).blk t).view.read (Elt F) (V c (Pipeline.arrRef spec13 w))

/-- Input window 0's current staging buffer holds its block at every point, fetched there or not. -/
theorem before13_0_of {c : Dev nD} (dat : Dat τ (Elt F) Unit ℕ (Pipeline.UD sig nD τ) ℕ (cfg13 a) c) (hA : dat.A 0 = V c (Pipeline.arrRef spec13 0))
    (hafter : ∀ t, dat.after 0 t = iblk13 V a c 0 t) (t : Fin (cfg13 a).N) (d) : dat.before 0 t d = iblk13 V a c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-! ## What the run leaves in the output window's buffer -/

/-- The run's pieces for the output tile its block, so they cover it. -/
theorem cover13_1 (c : Dev nD) (i : grid13.Coords) (arg3 : Memref sig .tc .vmem S16x1 .f32) (harg3 : arg3.IsWhole) (arg4 : Memref sig .tc .vmem S16x262 .f32) (harg4 : arg4.IsWhole)
    (x0 : Vec F S16x1 .f32) (tb : HbBuf13 (F := F) c tbM13) (fh0 : HbBuf13 (F := F) c hbM13) (hT : ∀ x, (tb x).toNat < 50000) (y : S16x262.Idx) :
    ∃ pc ∈ (kernelRun13 c i arg3 harg3 arg4 harg4 x0 tb fh0 hT).1, y ∈ pc.1.set :=
  View.cover_of_tiledL (kernelRun13 c i arg3 harg3 arg4 harg4 x0 tb fh0 hT).1 S16x262.size (by sl_kernel_rfl) y

/-- One staging buffer of the output window, through which its contents are stated. -/
abbrev VO13_1 : View sig .tc .vmem S16x262 .f32 := (Memref.whole cc13_stg1_0 : Memref sig .tc .vmem S16x262 .f32).view

/-- What the run leaves in the output's staging buffer: its pieces read back over junk. -/
def out13_1 (c : Dev nD) (i : grid13.Coords) (arg3 : Memref sig .tc .vmem S16x1 .f32) (harg3 : arg3.IsWhole) (arg4 : Memref sig .tc .vmem S16x262 .f32) (harg4 : arg4.IsWhole)
    (x0 : Vec F S16x1 .f32) (tb : HbBuf13 (F := F) c tbM13) (fh0 : HbBuf13 (F := F) c hbM13) (hT : ∀ x, (tb x).toNat < 50000) : Vec F S16x262 .f32 :=
  VO13_1.read (Elt F) (VO13_1.writes (Elt F) VO13_1.junk (kernelRun13 c i arg3 harg3 arg4 harg4 x0 tb fh0 hT).1)

/-- Every word of the table is a row of the gathered array, from the same of its words by position. -/
theorem tbl_lt13 (hH : ∀ j : Fin 50000, ((a.1 0) (ValueIdx.ix1 j)).toNat < 50000) (c : Dev nD) : ∀ x, (((a.1 0 : HbBuf13 (F := F) c tbM13)) x).toNat < 50000 :=
  fun x => by rw [ValueIdx.eq_ix1 x]; exact hH _

/-- What the output's staging buffer holds after the body at point t: the run's contents at the point's memrefs, the
    norm block, the table and the gathered array. -/
def outsAt13 (hH : ∀ j : Fin 50000, ((a.1 0) (ValueIdx.ix1 j)).toNat < 50000) (c : Dev nD) (t : Fin (cfg13 a).N) : Vec F S16x262 .f32 :=
  out13_1 c (grid13.coords t) (ms13_0 a t) (hs13_0 a t) (ms13_1 a t) (hs13_1 a t) (iblk13 V a c 0 t) (a.1 0) (V c main_v71) (tbl_lt13 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat13 (hH : ∀ j : Fin 50000, ((a.1 0) (ValueIdx.ix1 j)).toNat < 50000) (c : Dev nD) : Dat τ (Elt F) Unit ℕ (Pipeline.UD sig nD τ) ℕ (cfg13 a) c where
  A w := V c (Pipeline.arrRef spec13 w)
  after w t := match w with
    | ⟨0, _⟩ => iblk13 V a c 0 t
    | ⟨1, _⟩ => (outsAt13 V a hH c t)
  Φ _ := iprop(Pipeline.ΦD osem13 spec13 H13 V c ∗ Pipeline.prefHeld pre13 c (fun _ => fullShare) a.1)
  q _ := fullShare
  owed _ := 0

/-- The proof data's arrays are the region-entry contents. -/
theorem A_eq13 (hH : ∀ j : Fin 50000, ((a.1 0) (ValueIdx.ix1 j)).toNat < 50000) (c : Dev nD) (w : Fin (cfg13 a).W) : (dat13 V a hH c).A w = V c (Pipeline.arrRef spec13 w) := by
  dsimp only [dat13]

/-- What the body leaves, window by window. -/
theorem after13_0 (hH : ∀ j : Fin 50000, ((a.1 0) (ValueIdx.ix1 j)).toNat < 50000) (c : Dev nD) (t : Fin (cfg13 a).N) : (dat13 V a hH c).after 0 t = iblk13 V a c 0 t := by dsimp only [dat13]; try rfl
theorem after13_1 (hH : ∀ j : Fin 50000, ((a.1 0) (ValueIdx.ix1 j)).toNat < 50000) (c : Dev nD) (t : Fin (cfg13 a).N) : (dat13 V a hH c).after 1 t = (outsAt13 V a hH c t) := by dsimp only [dat13]; try rfl

/-- The input's current staging buffer holds its block at every point, fetched there or not. -/
theorem before13_0 (hH : ∀ j : Fin 50000, ((a.1 0) (ValueIdx.ix1 j)).toNat < 50000) (c : Dev nD) (t : Fin (cfg13 a).N) (d) : (dat13 V a hH c).before 0 t d = iblk13 V a c 0 t :=
  before13_0_of V a (dat13 V a hH c) (A_eq13 V a hH c 0) (after13_0 V a hH c) t d

/-! ## The body obligation, at a generic point -/

/-- What the body is called with at point t, the windows one by one, -/
def bodyPre13 (hH : ∀ j : Fin 50000, ((a.1 0) (ValueIdx.ix1 j)).toNat < 50000) (c : Dev nD) (t : Fin (cfg13 a).N) : sProp 𝕄 :=
  iprop((dat13 V a hH c).Φ t.castSucc ∗ (dat13 V a hH c).owesAt () t.castSucc
    ∗ (∃ d, owns (c : Thread nD τ) (ms13_0 a t) fullShare ((dat13 V a hH c).before 0 t d))
    ∗ (∃ d, owns (c : Thread nD τ) (ms13_1 a t) fullShare ((dat13 V a hH c).before 1 t d)))

/-- and what it returns. -/
def bodyPost13 (hH : ∀ j : Fin 50000, ((a.1 0) (ValueIdx.ix1 j)).toNat < 50000) (c : Dev nD) (t : Fin (cfg13 a).N) : sProp 𝕄 :=
  iprop((dat13 V a hH c).Φ t.succ ∗ (dat13 V a hH c).owesAt () t.succ
    ∗ owns (c : Thread nD τ) (ms13_0 a t) fullShare ((dat13 V a hH c).after 0 t)
    ∗ owns (c : Thread nD τ) (ms13_1 a t) fullShare ((dat13 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body13 (hH : ∀ j : Fin 50000, ((a.1 0) (ValueIdx.ix1 j)).toNat < 50000) (c : Dev nD) (t : Fin (cfg13 a).N) :
    bodyPre13 V a hH c t ⊢ wp frame (wpE (defs₀ (F := F)) Variants.none c none) Set.univ (bodyAt13 a t) (fun _ => bodyPost13 V a hH c t) := by
  unfold bodyPre13 bodyPost13 bodyAt13
  simp only [before13_0]
  rw [show (dat13 V a hH c).Φ t.succ = (dat13 V a hH c).Φ t.castSucc from rfl,
    after13_0, after13_1]
  rw [show (dat13 V a hH c).Φ t.castSucc = iprop(Pipeline.ΦD osem13 spec13 H13 V c ∗ Pipeline.prefHeld pre13 c (fun _ => fullShare) a.1) from rfl, PhiD13_eq, prefHeld13_eq]
  unfold Dat.owesAt Pipeline.owesWithin
  rw [show (dat13 V a hH c).owed t.castSucc = 0 from rfl, show (dat13 V a hH c).owed t.succ = 0 from rfl]
  unfold outsAt13
  unfold out13_1
  iintro ⟨⟨⟨⟨HS0, HSr⟩, Hg, Hq, Hh0⟩, HT⟩, ⟨%W, -, HW⟩, ⟨%d0, H0⟩, ⟨%d1, H13⟩⟩
  iapply ((kernelRun13 c (grid13.coords t) _ _ _ _ (iblk13 V a c 0 t) (a.1 0) (V c main_v71) (tbl_lt13 a hH c)).2 W _)
  isplitl [H0]; · iexact H0
  isplitl [H13]; · iexists _; iexact H13
  isplitl [HS0]; · iexact HS0
  isplitl [Hq]; · iexact Hq
  isplitl [Hh0]; · iexact Hh0
  isplitl [HT]; · iexact HT
  isplitl [HW]; · iexact HW
  iintro ⟨H0, ⟨%e1, H13⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H13
  ipureintro; exact View.read_writes_of_cover _ _ _ _ _ (cover13_1 c _ _ _ _ _ _ _ _ _)

/-- The library's body obligation, at every point. -/
theorem body_obligation13 (hH : ∀ j : Fin 50000, ((a.1 0) (ValueIdx.ix1 j)).toNat < 50000) (c : Dev nD) : BodyObligation (dat13 (F := F) V a hH c) (defs₀ (F := F)) Variants.none () Set.univ := fun t => by
  rw [bigSep_W13, bigSep_W13]
  exact sound_body13 V a hH c t

end Cert.KernelIdeal.Hand

end
-- ==== Proof.G14.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 14 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem14 : Fin 16 → SemLoc sig := fun j =>
  (![SemLoc.dma 254, SemLoc.dma 255, SemLoc.dma 256, SemLoc.dma 257, SemLoc.dma 258, SemLoc.dma 259, SemLoc.dma 260, SemLoc.dma 261,
     SemLoc.dma 262, SemLoc.dma 263, SemLoc.dma 264, SemLoc.dma 265, SemLoc.dma 266, SemLoc.dma 267, SemLoc.dma 268, SemLoc.dma 269] : Fin 16 → SemLoc sig) j
theorem ownSemFacts14 : Pipeline.OwnSemFacts spec14 osem14 := by decide

/-- The HBM operand the body gathers rows from: unscoped, no window's array, no table. -/
def H14 : Finset (Ref sig .tc) := {main_v71}
theorem H14_sub : H14 ⊆ Pipeline.restRefsP sig pre14 spec14 := by decide

/-- The operands the pipeline does not stage, whole. -/
abbrev tbM14 : Memref sig .tc .smem S50000 .i32 := Memref.whole main_v82
abbrev hbM14 : Memref sig .tc .hbm S50000x262 .f32 := Memref.whole main_v71
abbrev scM14 : Memref sig .tc .vmem S16x262 .f32 := Memref.whole cc14_scratch0

/-- A whole memref's buffer on core `c`, and it held whole at `f`. -/
abbrev HbBuf14 (c : Dev nD) {sp : Space} {S : Shape} {e : EltTy} (M : Memref sig .tc sp S e) : Type := Buf (Elt F) (M.view.loc (c : Thread nD τ))
abbrev hbPt14 (c : Dev nD) {sp : Space} {S : Shape} {e : EltTy} (M : Memref sig .tc sp S e) (f : HbBuf14 (F := F) c M) : sProp 𝕄 :=
  M.view.loc (c : Thread nD τ) ↦{fullShare} f

/-- The sixteen own cells at zero. -/
abbrev sems14 (c : Dev nD) : sProp 𝕄 :=
  iprop(semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0)

/-- A row index inside the gathered array puts the one-row slice inside it. -/
theorem row_inb14 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk14_1_of_lt (w : BitVec 32) (h : w.toNat < 50000) : k14_chk1 w := ⟨row_inb14 w h, row_inb14 w h⟩
theorem chk14_2_of_lt (w : BitVec 32) (h : w.toNat < 50000) : k14_chk2 w := ⟨row_inb14 w h, row_inb14 w h⟩
theorem chk14_3_of_lt (w : BitVec 32) (h : w.toNat < 50000) : k14_chk3 w := ⟨row_inb14 w h, row_inb14 w h⟩
theorem chk14_4_of_lt (w : BitVec 32) (h : w.toNat < 50000) : k14_chk4 w := ⟨row_inb14 w h, row_inb14 w h⟩
theorem chk14_5_of_lt (w : BitVec 32) (h : w.toNat < 50000) : k14_chk5 w := ⟨row_inb14 w h, row_inb14 w h⟩
theorem chk14_6_of_lt (w : BitVec 32) (h : w.toNat < 50000) : k14_chk6 w := ⟨row_inb14 w h, row_inb14 w h⟩
theorem chk14_7_of_lt (w : BitVec 32) (h : w.toNat < 50000) : k14_chk7 w := ⟨row_inb14 w h, row_inb14 w h⟩
theorem chk14_8_of_lt (w : BitVec 32) (h : w.toNat < 50000) : k14_chk8 w := ⟨row_inb14 w h, row_inb14 w h⟩
theorem chk14_9_of_lt (w : BitVec 32) (h : w.toNat < 50000) : k14_chk9 w := ⟨row_inb14 w h, row_inb14 w h⟩
theorem chk14_10_of_lt (w : BitVec 32) (h : w.toNat < 50000) : k14_chk10 w := ⟨row_inb14 w h, row_inb14 w h⟩
theorem chk14_11_of_lt (w : BitVec 32) (h : w.toNat < 50000) : k14_chk11 w := ⟨row_inb14 w h, row_inb14 w h⟩
theorem chk14_12_of_lt (w : BitVec 32) (h : w.toNat < 50000) : k14_chk12 w := ⟨row_inb14 w h, row_inb14 w h⟩
theorem chk14_13_of_lt (w : BitVec 32) (h : w.toNat < 50000) : k14_chk13 w := ⟨row_inb14 w h, row_inb14 w h⟩
theorem chk14_14_of_lt (w : BitVec 32) (h : w.toNat < 50000) : k14_chk14 w := ⟨row_inb14 w h, row_inb14 w h⟩
theorem chk14_15_of_lt (w : BitVec 32) (h : w.toNat < 50000) : k14_chk15 w := ⟨row_inb14 w h, row_inb14 w h⟩
theorem chk14_16_of_lt (w : BitVec 32) (h : w.toNat < 50000) : k14_chk16 w := row_inb14 w h

/-- A whole points-to as what stays behind, sixteen read tokens numbered `b + 15` down to `b`, and the tokens below
    `b` kept as one family. -/
theorem toksAt14 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 254 … 269. -/
theorem toks14 {ℓ : Loc nD τ sig} (f : Buf (Elt F) ℓ) :
    (ℓ ↦{fullShare} f : sProp 𝕄) ⊣⊢ iprop((ℓ ↦{Transfers.shareDrop fullShare 270} f) ∗ (ℓ ↦{Transfers.shareTokN fullShare 269} f) ∗ (ℓ ↦{Transfers.shareTokN fullShare 268} f) ∗ (ℓ ↦{Transfers.shareTokN fullShare 267} f) ∗ (ℓ ↦{Transfers.shareTokN fullShare 266} f) ∗ (ℓ ↦{Transfers.shareTokN fullShare 265} f) ∗ (ℓ ↦{Transfers.shareTokN fullShare 264} f) ∗ (ℓ ↦{Transfers.shareTokN fullShare 263} f) ∗ (ℓ ↦{Transfers.shareTokN fullShare 262} f) ∗ (ℓ ↦{Transfers.shareTokN fullShare 261} f) ∗ (ℓ ↦{Transfers.shareTokN fullShare 260} f) ∗ (ℓ ↦{Transfers.shareTokN fullShare 259} f) ∗ (ℓ ↦{Transfers.shareTokN fullShare 258} f) ∗ (ℓ ↦{Transfers.shareTokN fullShare 257} f) ∗ (ℓ ↦{Transfers.shareTokN fullShare 256} f) ∗ (ℓ ↦{Transfers.shareTokN fullShare 255} f) ∗ (ℓ ↦{Transfers.shareTokN fullShare 254} f)
      ∗ BI.bigSep (Finset.range 254) fun k => ℓ ↦{Transfers.shareTokN fullShare k} f) :=
  toksAt14 f 254

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun14 (c : Dev nD) (i : grid14.Coords) (arg3 : Memref sig .tc .vmem S16x1 .f32) (harg3 : arg3.IsWhole) (arg4 : Memref sig .tc .vmem S16x262 .f32) (harg4 : arg4.IsWhole)
    (x0 : Vec F S16x1 .f32) (tb : HbBuf14 (F := F) c tbM14) (fh0 : HbBuf14 (F := F) c hbM14) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM14 fullShare d) ∗ sems14 c ∗ hbPt14 c hbM14 fh0 ∗ hbPt14 c tbM14 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM14 fullShare d) ∗ sems14 c ∗ hbPt14 c hbM14 fh0 ∗ hbPt14 c tbM14 tb ∗ (∃ W', owes (c : Thread nD τ) 0 W')) -∗ K ⟨⟩))
          ⊢ wp frame (wpE (defs₀ (F := F)) Variants.none c none) Set.univ (cc14_kernel i tbM14 (Memref.isWhole_whole _) hbM14 (Memref.isWhole_whole _) arg3 harg3 arg4 harg4 scM14 (Memref.isWhole_whole _) cc14_scratch1) K } := by
  have k14_hw1 : k14_chk1 (tbM14.view.readAt (Elt F) (Rect.unit (s := S50000) (k14_off1 i) S1.size (k14_off1_inb i)).toLoadRect tb (Shape.Idx.first (numel1_S1.symm ▸ Nat.one_pos))) := chk14_1_of_lt _ (hH _)
  have k14_hw2 : k14_chk2 (tbM14.view.readAt (Elt F) (Rect.unit (s := S50000) (k14_off3 i) S1.size (k14_off3_inb i)).toLoadRect tb (Shape.Idx.first (numel1_S1.symm ▸ Nat.one_pos))) := chk14_2_of_lt _ (hH _)
  have k14_hw3 : k14_chk3 (tbM14.view.readAt (Elt F) (Rect.unit (s := S50000) (k14_off5 i) S1.size (k14_off5_inb i)).toLoadRect tb (Shape.Idx.first (numel1_S1.symm ▸ Nat.one_pos))) := chk14_3_of_lt _ (hH _)
  have k14_hw4 : k14_chk4 (tbM14.view.readAt (Elt F) (Rect.unit (s := S50000) (k14_off7 i) S1.size (k14_off7_inb i)).toLoadRect tb (Shape.Idx.first (numel1_S1.symm ▸ Nat.one_pos))) := chk14_4_of_lt _ (hH _)
  have k14_hw5 : k14_chk5 (tbM14.view.readAt (Elt F) (Rect.unit (s := S50000) (k14_off9 i) S1.size (k14_off9_inb i)).toLoadRect tb (Shape.Idx.first (numel1_S1.symm ▸ Nat.one_pos))) := chk14_5_of_lt _ (hH _)
  have k14_hw6 : k14_chk6 (tbM14.view.readAt (Elt F) (Rect.unit (s := S50000) (k14_off11 i) S1.size (k14_off11_inb i)).toLoadRect tb (Shape.Idx.first (numel1_S1.symm ▸ Nat.one_pos))) := chk14_6_of_lt _ (hH _)
  have k14_hw7 : k14_chk7 (tbM14.view.readAt (Elt F) (Rect.unit (s := S50000) (k14_off13 i) S1.size (k14_off13_inb i)).toLoadRect tb (Shape.Idx.first (numel1_S1.symm ▸ Nat.one_pos))) := chk14_7_of_lt _ (hH _)
  have k14_hw8 : k14_chk8 (tbM14.view.readAt (Elt F) (Rect.unit (s := S50000) (k14_off15 i) S1.size (k14_off15_inb i)).toLoadRect tb (Shape.Idx.first (numel1_S1.symm ▸ Nat.one_pos))) := chk14_8_of_lt _ (hH _)
  have k14_hw9 : k14_chk9 (tbM14.view.readAt (Elt F) (Rect.unit (s := S50000) (k14_off17 i) S1.size (k14_off17_inb i)).toLoadRect tb (Shape.Idx.first (numel1_S1.symm ▸ Nat.one_pos))) := chk14_9_of_lt _ (hH _)
  have k14_hw10 : k14_chk10 (tbM14.view.readAt (Elt F) (Rect.unit (s := S50000) (k14_off19 i) S1.size (k14_off19_inb i)).toLoadRect tb (Shape.Idx.first (numel1_S1.symm ▸ Nat.one_pos))) := chk14_10_of_lt _ (hH _)
  have k14_hw11 : k14_chk11 (tbM14.view.readAt (Elt F) (Rect.unit (s := S50000) (k14_off21 i) S1.size (k14_off21_inb i)).toLoadRect tb (Shape.Idx.first (numel1_S1.symm ▸ Nat.one_pos))) := chk14_11_of_lt _ (hH _)
  have k14_hw12 : k14_chk12 (tbM14.view.readAt (Elt F) (Rect.unit (s := S50000) (k14_off23 i) S1.size (k14_off23_inb i)).toLoadRect tb (Shape.Idx.first (numel1_S1.symm ▸ Nat.one_pos))) := chk14_12_of_lt _ (hH _)
  have k14_hw13 : k14_chk13 (tbM14.view.readAt (Elt F) (Rect.unit (s := S50000) (k14_off25 i) S1.size (k14_off25_inb i)).toLoadRect tb (Shape.Idx.first (numel1_S1.symm ▸ Nat.one_pos))) := chk14_13_of_lt _ (hH _)
  have k14_hw14 : k14_chk14 (tbM14.view.readAt (Elt F) (Rect.unit (s := S50000) (k14_off27 i) S1.size (k14_off27_inb i)).toLoadRect tb (Shape.Idx.first (numel1_S1.symm ▸ Nat.one_pos))) := chk14_14_of_lt _ (hH _)
  have k14_hw15 : k14_chk15 (tbM14.view.readAt (Elt F) (Rect.unit (s := S50000) (k14_off29 i) S1.size (k14_off29_inb i)).toLoadRect tb (Shape.Idx.first (numel1_S1.symm ▸ Nat.one_pos))) := chk14_15_of_lt _ (hH _)
  have k14_hw16 : k14_chk16 (tbM14.view.readAt (Elt F) (Rect.unit (s := S50000) (k14_off31 i) S1.size (k14_off31_inb i)).toLoadRect tb (Shape.Idx.first (numel1_S1.symm ▸ Nat.one_pos))) := chk14_16_of_lt _ (hH _)
  refine ⟨?_, fun W K => ?run⟩
  case run =>
    simp only [cc14_kernel_eq_skeleton]; unfold cc14_kernel_skel
    simp only [k14_part7_eq_skeleton]; unfold k14_part7_skel
    simp only [k14_part1_eq_skeleton, k14_part2_eq_skeleton, k14_part3_eq_skeleton, k14_part4_eq_skeleton, k14_part5_eq_skeleton, k14_part6_eq_skeleton]
    unfold owns sems14
    iintro ⟨⟨%f0, %hf0, H0⟩, ⟨%d1, %f1, -, H14⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks14 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k14_hw1 | sl_exact k14_hw2 | sl_exact k14_hw3 | sl_exact k14_hw4 | sl_exact k14_hw5 | sl_exact k14_hw6 | sl_exact k14_hw7 | sl_exact k14_hw8 | sl_exact k14_hw9 | sl_exact k14_hw10 | sl_exact k14_hw11 | sl_exact k14_hw12 | sl_exact k14_hw13 | sl_exact k14_hw14 | sl_exact k14_hw15 | sl_exact k14_hw16)
    sl_step
    iapply Hk
    isplitl [H0]
    · iexists _; isplitr; · ipureintro; exact harg3.read_unread _
      iexact H0
    isplitl [H14]; · iexists _; iexact H14
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks14 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg14 (F := F)).Adm)

/-- Each window's current staging memref at point t, spelled as the pipeline passes it, and its wholeness. -/
abbrev ms14_0 (t : Fin (cfg14 a).N) : Memref sig .tc .vmem S16x1 .f32 := spec14_0.stage ((cfg14 a).slots t 0)
abbrev hs14_0 (t : Fin (cfg14 a).N) : (ms14_0 a t).IsWhole := hstage14_0 (((cfg14 a).slots t 0).cast nbuf14_0)
abbrev ms14_1 (t : Fin (cfg14 a).N) : Memref sig .tc .vmem S16x262 .f32 := spec14_1.stage ((cfg14 a).slots t 1)
abbrev hs14_1 (t : Fin (cfg14 a).N) : (ms14_1 a t).IsWhole := hstage14_1 (((cfg14 a).slots t 1).cast nbuf14_1)

/-- The kernel body at point t, on what the pipeline calls it with. -/
abbrev bodyAt14 (t : Fin (cfg14 a).N) : Prog (TpuEff nD τ sig (Elt F) Λ₀ .tc) PUnit :=
  cc14_kernel (grid14.coords t) tbM14 (Memref.isWhole_whole _) hbM14 (Memref.isWhole_whole _) (ms14_0 a t) (hs14_0 a t) (ms14_1 a t) (hs14_1 a t) scM14 (Memref.isWhole_whole _) cc14_scratch1

/-! ## The invariant, conjunct by conjunct -/

/-- The sixteen own cells at zero, listed. -/
theorem ownSems014_eq (c : Dev nD) :
    (Pipeline.ownSems0 (Ix := Unit) (Name := ℕ) (U := Pipeline.UD sig nD τ) (Lvl := ℕ) (Val := Elt F) (τ := τ) osem14 c : sProp 𝕄) = sems14 c := by
  rw [Pipeline.ownSems0_eq_of_list c osem14 [0, 1, 2, 3, 4, 5, 6, 7, 8, 9, 10, 11, 12, 13, 14, 15] (by decide) (by decide)]; rfl

/-- The gathered array's points-to at the region-entry contents. -/
theorem hbmPts14_eq (c : Dev nD) :
    (bigSep H14 (fun b => ((c : Thread nD τ).loc b) ↦{fullShare} V c b) : sProp 𝕄) = iprop(hbPt14 c hbM14 (V c main_v71)) := by
  rw [BI.bigSep_eq_bigSepL_of_eq [main_v71] (by decide) (by decide)]; rfl

/-- The row table, whole, at the contents the region is launched with. -/
theorem prefHeld14_eq (c : Dev nD) :
    (Pipeline.prefHeld (Ix := Unit) (Name := ℕ) (U := Pipeline.UD sig nD τ) (Lvl := ℕ) pre14 c (fun _ => fullShare) a.1 : sProp 𝕄) = iprop(hbPt14 c tbM14 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD14_eq (c : Dev nD) :
    (Pipeline.ΦD osem14 spec14 H14 V c : sProp 𝕄)
      = iprop(iprop((∃ d, owns (c : Thread nD τ) scM14 fullShare d) ∗ Pipeline.scopedRestBut (Ix := Unit) (Name := ℕ) (U := Pipeline.UD sig nD τ) (Lvl := ℕ) (Val := Elt F) spec14 c [cc14_scratch0])
          ∗ (∃ r, prngReg c r) ∗ sems14 c ∗ iprop(hbPt14 c hbM14 (V c main_v71))) := by
  rw [Pipeline.ΦD_eq, scopedRest14_split, ownSems014_eq, hbmPts14_eq]; simp only [scM14, owns_whole]; try rfl

/-! ## The windows' blocks -/

/-- Window w's block at point t, read off its array as the region finds it. -/
def iblk14 (c : Dev nD) (w : Fin (cfg14 a).W) (t : Fin (cfg14 a).N) : (((cfg14 a).win w).xblock ((cfg14 a).grid.coords t)).Idx → Elt F ((cfg14 a).win w).elt :=
  (((cfg14 a).win w).blk t).view.read (Elt F) (V c (Pipeline.arrRef spec14 w))

/-- Input window 0's current staging buffer holds its block at every point, fetched there or not. -/
theorem before14_0_of {c : Dev nD} (dat : Dat τ (Elt F) Unit ℕ (Pipeline.UD sig nD τ) ℕ (cfg14 a) c) (hA : dat.A 0 = V c (Pipeline.arrRef spec14 0))
    (hafter : ∀ t, dat.after 0 t = iblk14 V a c 0 t) (t : Fin (cfg14 a).N) (d) : dat.before 0 t d = iblk14 V a c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-! ## What the run leaves in the output window's buffer -/

/-- The run's pieces for the output tile its block, so they cover it. -/
theorem cover14_1 (c : Dev nD) (i : grid14.Coords) (arg3 : Memref sig .tc .vmem S16x1 .f32) (harg3 : arg3.IsWhole) (arg4 : Memref sig .tc .vmem S16x262 .f32) (harg4 : arg4.IsWhole)
    (x0 : Vec F S16x1 .f32) (tb : HbBuf14 (F := F) c tbM14) (fh0 : HbBuf14 (F := F) c hbM14) (hT : ∀ x, (tb x).toNat < 50000) (y : S16x262.Idx) :
    ∃ pc ∈ (kernelRun14 c i arg3 harg3 arg4 harg4 x0 tb fh0 hT).1, y ∈ pc.1.set :=
  View.cover_of_tiledL (kernelRun14 c i arg3 harg3 arg4 harg4 x0 tb fh0 hT).1 S16x262.size (by sl_kernel_rfl) y

/-- One staging buffer of the output window, through which its contents are stated. -/
abbrev VO14_1 : View sig .tc .vmem S16x262 .f32 := (Memref.whole cc14_stg1_0 : Memref sig .tc .vmem S16x262 .f32).view

/-- What the run leaves in the output's staging buffer: its pieces read back over junk. -/
def out14_1 (c : Dev nD) (i : grid14.Coords) (arg3 : Memref sig .tc .vmem S16x1 .f32) (harg3 : arg3.IsWhole) (arg4 : Memref sig .tc .vmem S16x262 .f32) (harg4 : arg4.IsWhole)
    (x0 : Vec F S16x1 .f32) (tb : HbBuf14 (F := F) c tbM14) (fh0 : HbBuf14 (F := F) c hbM14) (hT : ∀ x, (tb x).toNat < 50000) : Vec F S16x262 .f32 :=
  VO14_1.read (Elt F) (VO14_1.writes (Elt F) VO14_1.junk (kernelRun14 c i arg3 harg3 arg4 harg4 x0 tb fh0 hT).1)

/-- Every word of the table is a row of the gathered array, from the same of its words by position. -/
theorem tbl_lt14 (hH : ∀ j : Fin 50000, ((a.1 0) (ValueIdx.ix1 j)).toNat < 50000) (c : Dev nD) : ∀ x, (((a.1 0 : HbBuf14 (F := F) c tbM14)) x).toNat < 50000 :=
  fun x => by rw [ValueIdx.eq_ix1 x]; exact hH _

/-- What the output's staging buffer holds after the body at point t: the run's contents at the point's memrefs, the
    norm block, the table and the gathered array. -/
def outsAt14 (hH : ∀ j : Fin 50000, ((a.1 0) (ValueIdx.ix1 j)).toNat < 50000) (c : Dev nD) (t : Fin (cfg14 a).N) : Vec F S16x262 .f32 :=
  out14_1 c (grid14.coords t) (ms14_0 a t) (hs14_0 a t) (ms14_1 a t) (hs14_1 a t) (iblk14 V a c 0 t) (a.1 0) (V c main_v71) (tbl_lt14 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat14 (hH : ∀ j : Fin 50000, ((a.1 0) (ValueIdx.ix1 j)).toNat < 50000) (c : Dev nD) : Dat τ (Elt F) Unit ℕ (Pipeline.UD sig nD τ) ℕ (cfg14 a) c where
  A w := V c (Pipeline.arrRef spec14 w)
  after w t := match w with
    | ⟨0, _⟩ => iblk14 V a c 0 t
    | ⟨1, _⟩ => (outsAt14 V a hH c t)
  Φ _ := iprop(Pipeline.ΦD osem14 spec14 H14 V c ∗ Pipeline.prefHeld pre14 c (fun _ => fullShare) a.1)
  q _ := fullShare
  owed _ := 0

/-- The proof data's arrays are the region-entry contents. -/
theorem A_eq14 (hH : ∀ j : Fin 50000, ((a.1 0) (ValueIdx.ix1 j)).toNat < 50000) (c : Dev nD) (w : Fin (cfg14 a).W) : (dat14 V a hH c).A w = V c (Pipeline.arrRef spec14 w) := by
  dsimp only [dat14]

/-- What the body leaves, window by window. -/
theorem after14_0 (hH : ∀ j : Fin 50000, ((a.1 0) (ValueIdx.ix1 j)).toNat < 50000) (c : Dev nD) (t : Fin (cfg14 a).N) : (dat14 V a hH c).after 0 t = iblk14 V a c 0 t := by dsimp only [dat14]; try rfl
theorem after14_1 (hH : ∀ j : Fin 50000, ((a.1 0) (ValueIdx.ix1 j)).toNat < 50000) (c : Dev nD) (t : Fin (cfg14 a).N) : (dat14 V a hH c).after 1 t = (outsAt14 V a hH c t) := by dsimp only [dat14]; try rfl

/-- The input's current staging buffer holds its block at every point, fetched there or not. -/
theorem before14_0 (hH : ∀ j : Fin 50000, ((a.1 0) (ValueIdx.ix1 j)).toNat < 50000) (c : Dev nD) (t : Fin (cfg14 a).N) (d) : (dat14 V a hH c).before 0 t d = iblk14 V a c 0 t :=
  before14_0_of V a (dat14 V a hH c) (A_eq14 V a hH c 0) (after14_0 V a hH c) t d

/-! ## The body obligation, at a generic point -/

/-- What the body is called with at point t, the windows one by one, -/
def bodyPre14 (hH : ∀ j : Fin 50000, ((a.1 0) (ValueIdx.ix1 j)).toNat < 50000) (c : Dev nD) (t : Fin (cfg14 a).N) : sProp 𝕄 :=
  iprop((dat14 V a hH c).Φ t.castSucc ∗ (dat14 V a hH c).owesAt () t.castSucc
    ∗ (∃ d, owns (c : Thread nD τ) (ms14_0 a t) fullShare ((dat14 V a hH c).before 0 t d))
    ∗ (∃ d, owns (c : Thread nD τ) (ms14_1 a t) fullShare ((dat14 V a hH c).before 1 t d)))

/-- and what it returns. -/
def bodyPost14 (hH : ∀ j : Fin 50000, ((a.1 0) (ValueIdx.ix1 j)).toNat < 50000) (c : Dev nD) (t : Fin (cfg14 a).N) : sProp 𝕄 :=
  iprop((dat14 V a hH c).Φ t.succ ∗ (dat14 V a hH c).owesAt () t.succ
    ∗ owns (c : Thread nD τ) (ms14_0 a t) fullShare ((dat14 V a hH c).after 0 t)
    ∗ owns (c : Thread nD τ) (ms14_1 a t) fullShare ((dat14 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body14 (hH : ∀ j : Fin 50000, ((a.1 0) (ValueIdx.ix1 j)).toNat < 50000) (c : Dev nD) (t : Fin (cfg14 a).N) :
    bodyPre14 V a hH c t ⊢ wp frame (wpE (defs₀ (F := F)) Variants.none c none) Set.univ (bodyAt14 a t) (fun _ => bodyPost14 V a hH c t) := by
  unfold bodyPre14 bodyPost14 bodyAt14
  simp only [before14_0]
  rw [show (dat14 V a hH c).Φ t.succ = (dat14 V a hH c).Φ t.castSucc from rfl,
    after14_0, after14_1]
  rw [show (dat14 V a hH c).Φ t.castSucc = iprop(Pipeline.ΦD osem14 spec14 H14 V c ∗ Pipeline.prefHeld pre14 c (fun _ => fullShare) a.1) from rfl, PhiD14_eq, prefHeld14_eq]
  unfold Dat.owesAt Pipeline.owesWithin
  rw [show (dat14 V a hH c).owed t.castSucc = 0 from rfl, show (dat14 V a hH c).owed t.succ = 0 from rfl]
  unfold outsAt14
  unfold out14_1
  iintro ⟨⟨⟨⟨HS0, HSr⟩, Hg, Hq, Hh0⟩, HT⟩, ⟨%W, -, HW⟩, ⟨%d0, H0⟩, ⟨%d1, H14⟩⟩
  iapply ((kernelRun14 c (grid14.coords t) _ _ _ _ (iblk14 V a c 0 t) (a.1 0) (V c main_v71) (tbl_lt14 a hH c)).2 W _)
  isplitl [H0]; · iexact H0
  isplitl [H14]; · iexists _; iexact H14
  isplitl [HS0]; · iexact HS0
  isplitl [Hq]; · iexact Hq
  isplitl [Hh0]; · iexact Hh0
  isplitl [HT]; · iexact HT
  isplitl [HW]; · iexact HW
  iintro ⟨H0, ⟨%e1, H14⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H14
  ipureintro; exact View.read_writes_of_cover _ _ _ _ _ (cover14_1 c _ _ _ _ _ _ _ _ _)

/-- The library's body obligation, at every point. -/
theorem body_obligation14 (hH : ∀ j : Fin 50000, ((a.1 0) (ValueIdx.ix1 j)).toNat < 50000) (c : Dev nD) : BodyObligation (dat14 (F := F) V a hH c) (defs₀ (F := F)) Variants.none () Set.univ := fun t => by
  rw [bigSep_W14, bigSep_W14]
  exact sound_body14 V a hH c t

end Cert.KernelIdeal.Hand

end
-- ==== Proof.G15.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 15 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem15 : Fin 16 → SemLoc sig := fun j =>
  (![SemLoc.dma 274, SemLoc.dma 275, SemLoc.dma 276, SemLoc.dma 277, SemLoc.dma 278, SemLoc.dma 279, SemLoc.dma 280, SemLoc.dma 281,
     SemLoc.dma 282, SemLoc.dma 283, SemLoc.dma 284, SemLoc.dma 285, SemLoc.dma 286, SemLoc.dma 287, SemLoc.dma 288, SemLoc.dma 289] : Fin 16 → SemLoc sig) j
theorem ownSemFacts15 : Pipeline.OwnSemFacts spec15 osem15 := by decide

/-- The HBM operand the body gathers rows from: unscoped, no window's array, no table. -/
def H15 : Finset (Ref sig .tc) := {main_v71}
theorem H15_sub : H15 ⊆ Pipeline.restRefsP sig pre15 spec15 := by decide

/-- The operands the pipeline does not stage, whole. -/
abbrev tbM15 : Memref sig .tc .smem S50000 .i32 := Memref.whole main_v85
abbrev hbM15 : Memref sig .tc .hbm S50000x262 .f32 := Memref.whole main_v71
abbrev scM15 : Memref sig .tc .vmem S16x262 .f32 := Memref.whole cc15_scratch0

/-- A whole memref's buffer on core `c`, and it held whole at `f`. -/
abbrev HbBuf15 (c : Dev nD) {sp : Space} {S : Shape} {e : EltTy} (M : Memref sig .tc sp S e) : Type := Buf (Elt F) (M.view.loc (c : Thread nD τ))
abbrev hbPt15 (c : Dev nD) {sp : Space} {S : Shape} {e : EltTy} (M : Memref sig .tc sp S e) (f : HbBuf15 (F := F) c M) : sProp 𝕄 :=
  M.view.loc (c : Thread nD τ) ↦{fullShare} f

/-- The sixteen own cells at zero. -/
abbrev sems15 (c : Dev nD) : sProp 𝕄 :=
  iprop(semVal ((c : Thread nD τ), SemLoc.dma 274) 0 ∗ semVal ((c : Thread nD τ), SemLoc.dma 275) 0 ∗ semVal ((c : Thread nD τ), SemLoc.dma 276) 0 ∗ semVal ((c : Thread nD τ), SemLoc.dma 277) 0 ∗ semVal ((c : Thread nD τ), SemLoc.dma 278) 0 ∗ semVal ((c : Thread nD τ), SemLoc.dma 279) 0 ∗ semVal ((c : Thread nD τ), SemLoc.dma 280) 0 ∗ semVal ((c : Thread nD τ), SemLoc.dma 281) 0 ∗ semVal ((c : Thread nD τ), SemLoc.dma 282) 0 ∗ semVal ((c : Thread nD τ), SemLoc.dma 283) 0 ∗ semVal ((c : Thread nD τ), SemLoc.dma 284) 0 ∗ semVal ((c : Thread nD τ), SemLoc.dma 285) 0 ∗ semVal ((c : Thread nD τ), SemLoc.dma 286) 0 ∗ semVal ((c : Thread nD τ), SemLoc.dma 287) 0 ∗ semVal ((c : Thread nD τ), SemLoc.dma 288) 0 ∗ semVal ((c : Thread nD τ), SemLoc.dma 289) 0)

/-- A row index inside the gathered array puts the one-row slice inside it. -/
theorem row_inb15 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk15_1_of_lt (w : BitVec 32) (h : w.toNat < 50000) : k15_chk1 w := ⟨row_inb15 w h, row_inb15 w h⟩
theorem chk15_2_of_lt (w : BitVec 32) (h : w.toNat < 50000) : k15_chk2 w := ⟨row_inb15 w h, row_inb15 w h⟩
theorem chk15_3_of_lt (w : BitVec 32) (h : w.toNat < 50000) : k15_chk3 w := ⟨row_inb15 w h, row_inb15 w h⟩
theorem chk15_4_of_lt (w : BitVec 32) (h : w.toNat < 50000) : k15_chk4 w := ⟨row_inb15 w h, row_inb15 w h⟩
theorem chk15_5_of_lt (w : BitVec 32) (h : w.toNat < 50000) : k15_chk5 w := ⟨row_inb15 w h, row_inb15 w h⟩
theorem chk15_6_of_lt (w : BitVec 32) (h : w.toNat < 50000) : k15_chk6 w := ⟨row_inb15 w h, row_inb15 w h⟩
theorem chk15_7_of_lt (w : BitVec 32) (h : w.toNat < 50000) : k15_chk7 w := ⟨row_inb15 w h, row_inb15 w h⟩
theorem chk15_8_of_lt (w : BitVec 32) (h : w.toNat < 50000) : k15_chk8 w := ⟨row_inb15 w h, row_inb15 w h⟩
theorem chk15_9_of_lt (w : BitVec 32) (h : w.toNat < 50000) : k15_chk9 w := ⟨row_inb15 w h, row_inb15 w h⟩
theorem chk15_10_of_lt (w : BitVec 32) (h : w.toNat < 50000) : k15_chk10 w := ⟨row_inb15 w h, row_inb15 w h⟩
theorem chk15_11_of_lt (w : BitVec 32) (h : w.toNat < 50000) : k15_chk11 w := ⟨row_inb15 w h, row_inb15 w h⟩
theorem chk15_12_of_lt (w : BitVec 32) (h : w.toNat < 50000) : k15_chk12 w := ⟨row_inb15 w h, row_inb15 w h⟩
theorem chk15_13_of_lt (w : BitVec 32) (h : w.toNat < 50000) : k15_chk13 w := ⟨row_inb15 w h, row_inb15 w h⟩
theorem chk15_14_of_lt (w : BitVec 32) (h : w.toNat < 50000) : k15_chk14 w := ⟨row_inb15 w h, row_inb15 w h⟩
theorem chk15_15_of_lt (w : BitVec 32) (h : w.toNat < 50000) : k15_chk15 w := ⟨row_inb15 w h, row_inb15 w h⟩
theorem chk15_16_of_lt (w : BitVec 32) (h : w.toNat < 50000) : k15_chk16 w := row_inb15 w h

/-- A whole points-to as what stays behind, sixteen read tokens numbered `b + 15` down to `b`, and the tokens below
    `b` kept as one family. -/
theorem toksAt15 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 274 … 289. -/
theorem toks15 {ℓ : Loc nD τ sig} (f : Buf (Elt F) ℓ) :
    (ℓ ↦{fullShare} f : sProp 𝕄) ⊣⊢ iprop((ℓ ↦{Transfers.shareDrop fullShare 290} f) ∗ (ℓ ↦{Transfers.shareTokN fullShare 289} f) ∗ (ℓ ↦{Transfers.shareTokN fullShare 288} f) ∗ (ℓ ↦{Transfers.shareTokN fullShare 287} f) ∗ (ℓ ↦{Transfers.shareTokN fullShare 286} f) ∗ (ℓ ↦{Transfers.shareTokN fullShare 285} f) ∗ (ℓ ↦{Transfers.shareTokN fullShare 284} f) ∗ (ℓ ↦{Transfers.shareTokN fullShare 283} f) ∗ (ℓ ↦{Transfers.shareTokN fullShare 282} f) ∗ (ℓ ↦{Transfers.shareTokN fullShare 281} f) ∗ (ℓ ↦{Transfers.shareTokN fullShare 280} f) ∗ (ℓ ↦{Transfers.shareTokN fullShare 279} f) ∗ (ℓ ↦{Transfers.shareTokN fullShare 278} f) ∗ (ℓ ↦{Transfers.shareTokN fullShare 277} f) ∗ (ℓ ↦{Transfers.shareTokN fullShare 276} f) ∗ (ℓ ↦{Transfers.shareTokN fullShare 275} f) ∗ (ℓ ↦{Transfers.shareTokN fullShare 274} f)
      ∗ BI.bigSep (Finset.range 274) fun k => ℓ ↦{Transfers.shareTokN fullShare k} f) :=
  toksAt15 f 274

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun15 (c : Dev nD) (i : grid15.Coords) (arg3 : Memref sig .tc .vmem S16x1 .f32) (harg3 : arg3.IsWhole) (arg4 : Memref sig .tc .vmem S16x262 .f32) (harg4 : arg4.IsWhole)
    (x0 : Vec F S16x1 .f32) (tb : HbBuf15 (F := F) c tbM15) (fh0 : HbBuf15 (F := F) c hbM15) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM15 fullShare d) ∗ sems15 c ∗ hbPt15 c hbM15 fh0 ∗ hbPt15 c tbM15 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM15 fullShare d) ∗ sems15 c ∗ hbPt15 c hbM15 fh0 ∗ hbPt15 c tbM15 tb ∗ (∃ W', owes (c : Thread nD τ) 0 W')) -∗ K ⟨⟩))
          ⊢ wp frame (wpE (defs₀ (F := F)) Variants.none c none) Set.univ (cc15_kernel i tbM15 (Memref.isWhole_whole _) hbM15 (Memref.isWhole_whole _) arg3 harg3 arg4 harg4 scM15 (Memref.isWhole_whole _) cc15_scratch1) K } := by
  have k15_hw1 : k15_chk1 (tbM15.view.readAt (Elt F) (Rect.unit (s := S50000) (k15_off1 i) S1.size (k15_off1_inb i)).toLoadRect tb (Shape.Idx.first (numel1_S1.symm ▸ Nat.one_pos))) := chk15_1_of_lt _ (hH _)
  have k15_hw2 : k15_chk2 (tbM15.view.readAt (Elt F) (Rect.unit (s := S50000) (k15_off3 i) S1.size (k15_off3_inb i)).toLoadRect tb (Shape.Idx.first (numel1_S1.symm ▸ Nat.one_pos))) := chk15_2_of_lt _ (hH _)
  have k15_hw3 : k15_chk3 (tbM15.view.readAt (Elt F) (Rect.unit (s := S50000) (k15_off5 i) S1.size (k15_off5_inb i)).toLoadRect tb (Shape.Idx.first (numel1_S1.symm ▸ Nat.one_pos))) := chk15_3_of_lt _ (hH _)
  have k15_hw4 : k15_chk4 (tbM15.view.readAt (Elt F) (Rect.unit (s := S50000) (k15_off7 i) S1.size (k15_off7_inb i)).toLoadRect tb (Shape.Idx.first (numel1_S1.symm ▸ Nat.one_pos))) := chk15_4_of_lt _ (hH _)
  have k15_hw5 : k15_chk5 (tbM15.view.readAt (Elt F) (Rect.unit (s := S50000) (k15_off9 i) S1.size (k15_off9_inb i)).toLoadRect tb (Shape.Idx.first (numel1_S1.symm ▸ Nat.one_pos))) := chk15_5_of_lt _ (hH _)
  have k15_hw6 : k15_chk6 (tbM15.view.readAt (Elt F) (Rect.unit (s := S50000) (k15_off11 i) S1.size (k15_off11_inb i)).toLoadRect tb (Shape.Idx.first (numel1_S1.symm ▸ Nat.one_pos))) := chk15_6_of_lt _ (hH _)
  have k15_hw7 : k15_chk7 (tbM15.view.readAt (Elt F) (Rect.unit (s := S50000) (k15_off13 i) S1.size (k15_off13_inb i)).toLoadRect tb (Shape.Idx.first (numel1_S1.symm ▸ Nat.one_pos))) := chk15_7_of_lt _ (hH _)
  have k15_hw8 : k15_chk8 (tbM15.view.readAt (Elt F) (Rect.unit (s := S50000) (k15_off15 i) S1.size (k15_off15_inb i)).toLoadRect tb (Shape.Idx.first (numel1_S1.symm ▸ Nat.one_pos))) := chk15_8_of_lt _ (hH _)
  have k15_hw9 : k15_chk9 (tbM15.view.readAt (Elt F) (Rect.unit (s := S50000) (k15_off17 i) S1.size (k15_off17_inb i)).toLoadRect tb (Shape.Idx.first (numel1_S1.symm ▸ Nat.one_pos))) := chk15_9_of_lt _ (hH _)
  have k15_hw10 : k15_chk10 (tbM15.view.readAt (Elt F) (Rect.unit (s := S50000) (k15_off19 i) S1.size (k15_off19_inb i)).toLoadRect tb (Shape.Idx.first (numel1_S1.symm ▸ Nat.one_pos))) := chk15_10_of_lt _ (hH _)
  have k15_hw11 : k15_chk11 (tbM15.view.readAt (Elt F) (Rect.unit (s := S50000) (k15_off21 i) S1.size (k15_off21_inb i)).toLoadRect tb (Shape.Idx.first (numel1_S1.symm ▸ Nat.one_pos))) := chk15_11_of_lt _ (hH _)
  have k15_hw12 : k15_chk12 (tbM15.view.readAt (Elt F) (Rect.unit (s := S50000) (k15_off23 i) S1.size (k15_off23_inb i)).toLoadRect tb (Shape.Idx.first (numel1_S1.symm ▸ Nat.one_pos))) := chk15_12_of_lt _ (hH _)
  have k15_hw13 : k15_chk13 (tbM15.view.readAt (Elt F) (Rect.unit (s := S50000) (k15_off25 i) S1.size (k15_off25_inb i)).toLoadRect tb (Shape.Idx.first (numel1_S1.symm ▸ Nat.one_pos))) := chk15_13_of_lt _ (hH _)
  have k15_hw14 : k15_chk14 (tbM15.view.readAt (Elt F) (Rect.unit (s := S50000) (k15_off27 i) S1.size (k15_off27_inb i)).toLoadRect tb (Shape.Idx.first (numel1_S1.symm ▸ Nat.one_pos))) := chk15_14_of_lt _ (hH _)
  have k15_hw15 : k15_chk15 (tbM15.view.readAt (Elt F) (Rect.unit (s := S50000) (k15_off29 i) S1.size (k15_off29_inb i)).toLoadRect tb (Shape.Idx.first (numel1_S1.symm ▸ Nat.one_pos))) := chk15_15_of_lt _ (hH _)
  have k15_hw16 : k15_chk16 (tbM15.view.readAt (Elt F) (Rect.unit (s := S50000) (k15_off31 i) S1.size (k15_off31_inb i)).toLoadRect tb (Shape.Idx.first (numel1_S1.symm ▸ Nat.one_pos))) := chk15_16_of_lt _ (hH _)
  refine ⟨?_, fun W K => ?run⟩
  case run =>
    simp only [cc15_kernel_eq_skeleton]; unfold cc15_kernel_skel
    simp only [k15_part7_eq_skeleton]; unfold k15_part7_skel
    simp only [k15_part1_eq_skeleton, k15_part2_eq_skeleton, k15_part3_eq_skeleton, k15_part4_eq_skeleton, k15_part5_eq_skeleton, k15_part6_eq_skeleton]
    unfold owns sems15
    iintro ⟨⟨%f0, %hf0, H0⟩, ⟨%d1, %f1, -, H15⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks15 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k15_hw1 | sl_exact k15_hw2 | sl_exact k15_hw3 | sl_exact k15_hw4 | sl_exact k15_hw5 | sl_exact k15_hw6 | sl_exact k15_hw7 | sl_exact k15_hw8 | sl_exact k15_hw9 | sl_exact k15_hw10 | sl_exact k15_hw11 | sl_exact k15_hw12 | sl_exact k15_hw13 | sl_exact k15_hw14 | sl_exact k15_hw15 | sl_exact k15_hw16)
    sl_step
    iapply Hk
    isplitl [H0]
    · iexists _; isplitr; · ipureintro; exact harg3.read_unread _
      iexact H0
    isplitl [H15]; · iexists _; iexact H15
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks15 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg15 (F := F)).Adm)

/-- Each window's current staging memref at point t, spelled as the pipeline passes it, and its wholeness. -/
abbrev ms15_0 (t : Fin (cfg15 a).N) : Memref sig .tc .vmem S16x1 .f32 := spec15_0.stage ((cfg15 a).slots t 0)
abbrev hs15_0 (t : Fin (cfg15 a).N) : (ms15_0 a t).IsWhole := hstage15_0 (((cfg15 a).slots t 0).cast nbuf15_0)
abbrev ms15_1 (t : Fin (cfg15 a).N) : Memref sig .tc .vmem S16x262 .f32 := spec15_1.stage ((cfg15 a).slots t 1)
abbrev hs15_1 (t : Fin (cfg15 a).N) : (ms15_1 a t).IsWhole := hstage15_1 (((cfg15 a).slots t 1).cast nbuf15_1)

/-- The kernel body at point t, on what the pipeline calls it with. -/
abbrev bodyAt15 (t : Fin (cfg15 a).N) : Prog (TpuEff nD τ sig (Elt F) Λ₀ .tc) PUnit :=
  cc15_kernel (grid15.coords t) tbM15 (Memref.isWhole_whole _) hbM15 (Memref.isWhole_whole _) (ms15_0 a t) (hs15_0 a t) (ms15_1 a t) (hs15_1 a t) scM15 (Memref.isWhole_whole _) cc15_scratch1

/-! ## The invariant, conjunct by conjunct -/

/-- The sixteen own cells at zero, listed. -/
theorem ownSems015_eq (c : Dev nD) :
    (Pipeline.ownSems0 (Ix := Unit) (Name := ℕ) (U := Pipeline.UD sig nD τ) (Lvl := ℕ) (Val := Elt F) (τ := τ) osem15 c : sProp 𝕄) = sems15 c := by
  rw [Pipeline.ownSems0_eq_of_list c osem15 [0, 1, 2, 3, 4, 5, 6, 7, 8, 9, 10, 11, 12, 13, 14, 15] (by decide) (by decide)]; rfl

/-- The gathered array's points-to at the region-entry contents. -/
theorem hbmPts15_eq (c : Dev nD) :
    (bigSep H15 (fun b => ((c : Thread nD τ).loc b) ↦{fullShare} V c b) : sProp 𝕄) = iprop(hbPt15 c hbM15 (V c main_v71)) := by
  rw [BI.bigSep_eq_bigSepL_of_eq [main_v71] (by decide) (by decide)]; rfl

/-- The row table, whole, at the contents the region is launched with. -/
theorem prefHeld15_eq (c : Dev nD) :
    (Pipeline.prefHeld (Ix := Unit) (Name := ℕ) (U := Pipeline.UD sig nD τ) (Lvl := ℕ) pre15 c (fun _ => fullShare) a.1 : sProp 𝕄) = iprop(hbPt15 c tbM15 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD15_eq (c : Dev nD) :
    (Pipeline.ΦD osem15 spec15 H15 V c : sProp 𝕄)
      = iprop(iprop((∃ d, owns (c : Thread nD τ) scM15 fullShare d) ∗ Pipeline.scopedRestBut (Ix := Unit) (Name := ℕ) (U := Pipeline.UD sig nD τ) (Lvl := ℕ) (Val := Elt F) spec15 c [cc15_scratch0])
          ∗ (∃ r, prngReg c r) ∗ sems15 c ∗ iprop(hbPt15 c hbM15 (V c main_v71))) := by
  rw [Pipeline.ΦD_eq, scopedRest15_split, ownSems015_eq, hbmPts15_eq]; simp only [scM15, owns_whole]; try rfl

/-! ## The windows' blocks -/

/-- Window w's block at point t, read off its array as the region finds it. -/
def iblk15 (c : Dev nD) (w : Fin (cfg15 a).W) (t : Fin (cfg15 a).N) : (((cfg15 a).win w).xblock ((cfg15 a).grid.coords t)).Idx → Elt F ((cfg15 a).win w).elt :=
  (((cfg15 a).win w).blk t).view.read (Elt F) (V c (Pipeline.arrRef spec15 w))

/-- Input window 0's current staging buffer holds its block at every point, fetched there or not. -/
theorem before15_0_of {c : Dev nD} (dat : Dat τ (Elt F) Unit ℕ (Pipeline.UD sig nD τ) ℕ (cfg15 a) c) (hA : dat.A 0 = V c (Pipeline.arrRef spec15 0))
    (hafter : ∀ t, dat.after 0 t = iblk15 V a c 0 t) (t : Fin (cfg15 a).N) (d) : dat.before 0 t d = iblk15 V a c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-! ## What the run leaves in the output window's buffer -/

/-- The run's pieces for the output tile its block, so they cover it. -/
theorem cover15_1 (c : Dev nD) (i : grid15.Coords) (arg3 : Memref sig .tc .vmem S16x1 .f32) (harg3 : arg3.IsWhole) (arg4 : Memref sig .tc .vmem S16x262 .f32) (harg4 : arg4.IsWhole)
    (x0 : Vec F S16x1 .f32) (tb : HbBuf15 (F := F) c tbM15) (fh0 : HbBuf15 (F := F) c hbM15) (hT : ∀ x, (tb x).toNat < 50000) (y : S16x262.Idx) :
    ∃ pc ∈ (kernelRun15 c i arg3 harg3 arg4 harg4 x0 tb fh0 hT).1, y ∈ pc.1.set :=
  View.cover_of_tiledL (kernelRun15 c i arg3 harg3 arg4 harg4 x0 tb fh0 hT).1 S16x262.size (by sl_kernel_rfl) y

/-- One staging buffer of the output window, through which its contents are stated. -/
abbrev VO15_1 : View sig .tc .vmem S16x262 .f32 := (Memref.whole cc15_stg1_0 : Memref sig .tc .vmem S16x262 .f32).view

/-- What the run leaves in the output's staging buffer: its pieces read back over junk. -/
def out15_1 (c : Dev nD) (i : grid15.Coords) (arg3 : Memref sig .tc .vmem S16x1 .f32) (harg3 : arg3.IsWhole) (arg4 : Memref sig .tc .vmem S16x262 .f32) (harg4 : arg4.IsWhole)
    (x0 : Vec F S16x1 .f32) (tb : HbBuf15 (F := F) c tbM15) (fh0 : HbBuf15 (F := F) c hbM15) (hT : ∀ x, (tb x).toNat < 50000) : Vec F S16x262 .f32 :=
  VO15_1.read (Elt F) (VO15_1.writes (Elt F) VO15_1.junk (kernelRun15 c i arg3 harg3 arg4 harg4 x0 tb fh0 hT).1)

/-- Every word of the table is a row of the gathered array, from the same of its words by position. -/
theorem tbl_lt15 (hH : ∀ j : Fin 50000, ((a.1 0) (ValueIdx.ix1 j)).toNat < 50000) (c : Dev nD) : ∀ x, (((a.1 0 : HbBuf15 (F := F) c tbM15)) x).toNat < 50000 :=
  fun x => by rw [ValueIdx.eq_ix1 x]; exact hH _

/-- What the output's staging buffer holds after the body at point t: the run's contents at the point's memrefs, the
    norm block, the table and the gathered array. -/
def outsAt15 (hH : ∀ j : Fin 50000, ((a.1 0) (ValueIdx.ix1 j)).toNat < 50000) (c : Dev nD) (t : Fin (cfg15 a).N) : Vec F S16x262 .f32 :=
  out15_1 c (grid15.coords t) (ms15_0 a t) (hs15_0 a t) (ms15_1 a t) (hs15_1 a t) (iblk15 V a c 0 t) (a.1 0) (V c main_v71) (tbl_lt15 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat15 (hH : ∀ j : Fin 50000, ((a.1 0) (ValueIdx.ix1 j)).toNat < 50000) (c : Dev nD) : Dat τ (Elt F) Unit ℕ (Pipeline.UD sig nD τ) ℕ (cfg15 a) c where
  A w := V c (Pipeline.arrRef spec15 w)
  after w t := match w with
    | ⟨0, _⟩ => iblk15 V a c 0 t
    | ⟨1, _⟩ => (outsAt15 V a hH c t)
  Φ _ := iprop(Pipeline.ΦD osem15 spec15 H15 V c ∗ Pipeline.prefHeld pre15 c (fun _ => fullShare) a.1)
  q _ := fullShare
  owed _ := 0

/-- The proof data's arrays are the region-entry contents. -/
theorem A_eq15 (hH : ∀ j : Fin 50000, ((a.1 0) (ValueIdx.ix1 j)).toNat < 50000) (c : Dev nD) (w : Fin (cfg15 a).W) : (dat15 V a hH c).A w = V c (Pipeline.arrRef spec15 w) := by
  dsimp only [dat15]

/-- What the body leaves, window by window. -/
theorem after15_0 (hH : ∀ j : Fin 50000, ((a.1 0) (ValueIdx.ix1 j)).toNat < 50000) (c : Dev nD) (t : Fin (cfg15 a).N) : (dat15 V a hH c).after 0 t = iblk15 V a c 0 t := by dsimp only [dat15]; try rfl
theorem after15_1 (hH : ∀ j : Fin 50000, ((a.1 0) (ValueIdx.ix1 j)).toNat < 50000) (c : Dev nD) (t : Fin (cfg15 a).N) : (dat15 V a hH c).after 1 t = (outsAt15 V a hH c t) := by dsimp only [dat15]; try rfl

/-- The input's current staging buffer holds its block at every point, fetched there or not. -/
theorem before15_0 (hH : ∀ j : Fin 50000, ((a.1 0) (ValueIdx.ix1 j)).toNat < 50000) (c : Dev nD) (t : Fin (cfg15 a).N) (d) : (dat15 V a hH c).before 0 t d = iblk15 V a c 0 t :=
  before15_0_of V a (dat15 V a hH c) (A_eq15 V a hH c 0) (after15_0 V a hH c) t d

/-! ## The body obligation, at a generic point -/

/-- What the body is called with at point t, the windows one by one, -/
def bodyPre15 (hH : ∀ j : Fin 50000, ((a.1 0) (ValueIdx.ix1 j)).toNat < 50000) (c : Dev nD) (t : Fin (cfg15 a).N) : sProp 𝕄 :=
  iprop((dat15 V a hH c).Φ t.castSucc ∗ (dat15 V a hH c).owesAt () t.castSucc
    ∗ (∃ d, owns (c : Thread nD τ) (ms15_0 a t) fullShare ((dat15 V a hH c).before 0 t d))
    ∗ (∃ d, owns (c : Thread nD τ) (ms15_1 a t) fullShare ((dat15 V a hH c).before 1 t d)))

/-- and what it returns. -/
def bodyPost15 (hH : ∀ j : Fin 50000, ((a.1 0) (ValueIdx.ix1 j)).toNat < 50000) (c : Dev nD) (t : Fin (cfg15 a).N) : sProp 𝕄 :=
  iprop((dat15 V a hH c).Φ t.succ ∗ (dat15 V a hH c).owesAt () t.succ
    ∗ owns (c : Thread nD τ) (ms15_0 a t) fullShare ((dat15 V a hH c).after 0 t)
    ∗ owns (c : Thread nD τ) (ms15_1 a t) fullShare ((dat15 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body15 (hH : ∀ j : Fin 50000, ((a.1 0) (ValueIdx.ix1 j)).toNat < 50000) (c : Dev nD) (t : Fin (cfg15 a).N) :
    bodyPre15 V a hH c t ⊢ wp frame (wpE (defs₀ (F := F)) Variants.none c none) Set.univ (bodyAt15 a t) (fun _ => bodyPost15 V a hH c t) := by
  unfold bodyPre15 bodyPost15 bodyAt15
  simp only [before15_0]
  rw [show (dat15 V a hH c).Φ t.succ = (dat15 V a hH c).Φ t.castSucc from rfl,
    after15_0, after15_1]
  rw [show (dat15 V a hH c).Φ t.castSucc = iprop(Pipeline.ΦD osem15 spec15 H15 V c ∗ Pipeline.prefHeld pre15 c (fun _ => fullShare) a.1) from rfl, PhiD15_eq, prefHeld15_eq]
  unfold Dat.owesAt Pipeline.owesWithin
  rw [show (dat15 V a hH c).owed t.castSucc = 0 from rfl, show (dat15 V a hH c).owed t.succ = 0 from rfl]
  unfold outsAt15
  unfold out15_1
  iintro ⟨⟨⟨⟨HS0, HSr⟩, Hg, Hq, Hh0⟩, HT⟩, ⟨%W, -, HW⟩, ⟨%d0, H0⟩, ⟨%d1, H15⟩⟩
  iapply ((kernelRun15 c (grid15.coords t) _ _ _ _ (iblk15 V a c 0 t) (a.1 0) (V c main_v71) (tbl_lt15 a hH c)).2 W _)
  isplitl [H0]; · iexact H0
  isplitl [H15]; · iexists _; iexact H15
  isplitl [HS0]; · iexact HS0
  isplitl [Hq]; · iexact Hq
  isplitl [Hh0]; · iexact Hh0
  isplitl [HT]; · iexact HT
  isplitl [HW]; · iexact HW
  iintro ⟨H0, ⟨%e1, H15⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H15
  ipureintro; exact View.read_writes_of_cover _ _ _ _ _ (cover15_1 c _ _ _ _ _ _ _ _ _)

/-- The library's body obligation, at every point. -/
theorem body_obligation15 (hH : ∀ j : Fin 50000, ((a.1 0) (ValueIdx.ix1 j)).toNat < 50000) (c : Dev nD) : BodyObligation (dat15 (F := F) V a hH c) (defs₀ (F := F)) Variants.none () Set.univ := fun t => by
  rw [bigSep_W15, bigSep_W15]
  exact sound_body15 V a hH c t

end Cert.KernelIdeal.Hand

end
-- ==== Proof.G16.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 16 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem16 : Fin 16 → SemLoc sig := fun j =>
  (![SemLoc.dma 294, SemLoc.dma 295, SemLoc.dma 296, SemLoc.dma 297, SemLoc.dma 298, SemLoc.dma 299, SemLoc.dma 300, SemLoc.dma 301,
     SemLoc.dma 302, SemLoc.dma 303, SemLoc.dma 304, SemLoc.dma 305, SemLoc.dma 306, SemLoc.dma 307, SemLoc.dma 308, SemLoc.dma 309] : Fin 16 → SemLoc sig) j
theorem ownSemFacts16 : Pipeline.OwnSemFacts spec16 osem16 := by decide

/-- The HBM operand the body gathers rows from: unscoped, no window's array, no table. -/
def H16 : Finset (Ref sig .tc) := {main_v71}
theorem H16_sub : H16 ⊆ Pipeline.restRefsP sig pre16 spec16 := by decide

/-- The operands the pipeline does not stage, whole. -/
abbrev tbM16 : Memref sig .tc .smem S50000 .i32 := Memref.whole main_v88
abbrev hbM16 : Memref sig .tc .hbm S50000x262 .f32 := Memref.whole main_v71
abbrev scM16 : Memref sig .tc .vmem S16x262 .f32 := Memref.whole cc16_scratch0

/-- A whole memref's buffer on core `c`, and it held whole at `f`. -/
abbrev HbBuf16 (c : Dev nD) {sp : Space} {S : Shape} {e : EltTy} (M : Memref sig .tc sp S e) : Type := Buf (Elt F) (M.view.loc (c : Thread nD τ))
abbrev hbPt16 (c : Dev nD) {sp : Space} {S : Shape} {e : EltTy} (M : Memref sig .tc sp S e) (f : HbBuf16 (F := F) c M) : sProp 𝕄 :=
  M.view.loc (c : Thread nD τ) ↦{fullShare} f

/-- The sixteen own cells at zero. -/
abbrev sems16 (c : Dev nD) : sProp 𝕄 :=
  iprop(semVal ((c : Thread nD τ), SemLoc.dma 294) 0 ∗ semVal ((c : Thread nD τ), SemLoc.dma 295) 0 ∗ semVal ((c : Thread nD τ), SemLoc.dma 296) 0 ∗ semVal ((c : Thread nD τ), SemLoc.dma 297) 0 ∗ semVal ((c : Thread nD τ), SemLoc.dma 298) 0 ∗ semVal ((c : Thread nD τ), SemLoc.dma 299) 0 ∗ semVal ((c : Thread nD τ), SemLoc.dma 300) 0 ∗ semVal ((c : Thread nD τ), SemLoc.dma 301) 0 ∗ semVal ((c : Thread nD τ), SemLoc.dma 302) 0 ∗ semVal ((c : Thread nD τ), SemLoc.dma 303) 0 ∗ semVal ((c : Thread nD τ), SemLoc.dma 304) 0 ∗ semVal ((c : Thread nD τ), SemLoc.dma 305) 0 ∗ semVal ((c : Thread nD τ), SemLoc.dma 306) 0 ∗ semVal ((c : Thread nD τ), SemLoc.dma 307) 0 ∗ semVal ((c : Thread nD τ), SemLoc.dma 308) 0 ∗ semVal ((c : Thread nD τ), SemLoc.dma 309) 0)

/-- A row index inside the gathered array puts the one-row slice inside it. -/
theorem row_inb16 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk16_1_of_lt (w : BitVec 32) (h : w.toNat < 50000) : k16_chk1 w := ⟨row_inb16 w h, row_inb16 w h⟩
theorem chk16_2_of_lt (w : BitVec 32) (h : w.toNat < 50000) : k16_chk2 w := ⟨row_inb16 w h, row_inb16 w h⟩
theorem chk16_3_of_lt (w : BitVec 32) (h : w.toNat < 50000) : k16_chk3 w := ⟨row_inb16 w h, row_inb16 w h⟩
theorem chk16_4_of_lt (w : BitVec 32) (h : w.toNat < 50000) : k16_chk4 w := ⟨row_inb16 w h, row_inb16 w h⟩
theorem chk16_5_of_lt (w : BitVec 32) (h : w.toNat < 50000) : k16_chk5 w := ⟨row_inb16 w h, row_inb16 w h⟩
theorem chk16_6_of_lt (w : BitVec 32) (h : w.toNat < 50000) : k16_chk6 w := ⟨row_inb16 w h, row_inb16 w h⟩
theorem chk16_7_of_lt (w : BitVec 32) (h : w.toNat < 50000) : k16_chk7 w := ⟨row_inb16 w h, row_inb16 w h⟩
theorem chk16_8_of_lt (w : BitVec 32) (h : w.toNat < 50000) : k16_chk8 w := ⟨row_inb16 w h, row_inb16 w h⟩
theorem chk16_9_of_lt (w : BitVec 32) (h : w.toNat < 50000) : k16_chk9 w := ⟨row_inb16 w h, row_inb16 w h⟩
theorem chk16_10_of_lt (w : BitVec 32) (h : w.toNat < 50000) : k16_chk10 w := ⟨row_inb16 w h, row_inb16 w h⟩
theorem chk16_11_of_lt (w : BitVec 32) (h : w.toNat < 50000) : k16_chk11 w := ⟨row_inb16 w h, row_inb16 w h⟩
theorem chk16_12_of_lt (w : BitVec 32) (h : w.toNat < 50000) : k16_chk12 w := ⟨row_inb16 w h, row_inb16 w h⟩
theorem chk16_13_of_lt (w : BitVec 32) (h : w.toNat < 50000) : k16_chk13 w := ⟨row_inb16 w h, row_inb16 w h⟩
theorem chk16_14_of_lt (w : BitVec 32) (h : w.toNat < 50000) : k16_chk14 w := ⟨row_inb16 w h, row_inb16 w h⟩
theorem chk16_15_of_lt (w : BitVec 32) (h : w.toNat < 50000) : k16_chk15 w := ⟨row_inb16 w h, row_inb16 w h⟩
theorem chk16_16_of_lt (w : BitVec 32) (h : w.toNat < 50000) : k16_chk16 w := row_inb16 w h

/-- A whole points-to as what stays behind, sixteen read tokens numbered `b + 15` down to `b`, and the tokens below
    `b` kept as one family. -/
theorem toksAt16 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 294 … 309. -/
theorem toks16 {ℓ : Loc nD τ sig} (f : Buf (Elt F) ℓ) :
    (ℓ ↦{fullShare} f : sProp 𝕄) ⊣⊢ iprop((ℓ ↦{Transfers.shareDrop fullShare 310} f) ∗ (ℓ ↦{Transfers.shareTokN fullShare 309} f) ∗ (ℓ ↦{Transfers.shareTokN fullShare 308} f) ∗ (ℓ ↦{Transfers.shareTokN fullShare 307} f) ∗ (ℓ ↦{Transfers.shareTokN fullShare 306} f) ∗ (ℓ ↦{Transfers.shareTokN fullShare 305} f) ∗ (ℓ ↦{Transfers.shareTokN fullShare 304} f) ∗ (ℓ ↦{Transfers.shareTokN fullShare 303} f) ∗ (ℓ ↦{Transfers.shareTokN fullShare 302} f) ∗ (ℓ ↦{Transfers.shareTokN fullShare 301} f) ∗ (ℓ ↦{Transfers.shareTokN fullShare 300} f) ∗ (ℓ ↦{Transfers.shareTokN fullShare 299} f) ∗ (ℓ ↦{Transfers.shareTokN fullShare 298} f) ∗ (ℓ ↦{Transfers.shareTokN fullShare 297} f) ∗ (ℓ ↦{Transfers.shareTokN fullShare 296} f) ∗ (ℓ ↦{Transfers.shareTokN fullShare 295} f) ∗ (ℓ ↦{Transfers.shareTokN fullShare 294} f)
      ∗ BI.bigSep (Finset.range 294) fun k => ℓ ↦{Transfers.shareTokN fullShare k} f) :=
  toksAt16 f 294

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun16 (c : Dev nD) (i : grid16.Coords) (arg3 : Memref sig .tc .vmem S16x1 .f32) (harg3 : arg3.IsWhole) (arg4 : Memref sig .tc .vmem S16x262 .f32) (harg4 : arg4.IsWhole)
    (x0 : Vec F S16x1 .f32) (tb : HbBuf16 (F := F) c tbM16) (fh0 : HbBuf16 (F := F) c hbM16) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM16 fullShare d) ∗ sems16 c ∗ hbPt16 c hbM16 fh0 ∗ hbPt16 c tbM16 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM16 fullShare d) ∗ sems16 c ∗ hbPt16 c hbM16 fh0 ∗ hbPt16 c tbM16 tb ∗ (∃ W', owes (c : Thread nD τ) 0 W')) -∗ K ⟨⟩))
          ⊢ wp frame (wpE (defs₀ (F := F)) Variants.none c none) Set.univ (cc16_kernel i tbM16 (Memref.isWhole_whole _) hbM16 (Memref.isWhole_whole _) arg3 harg3 arg4 harg4 scM16 (Memref.isWhole_whole _) cc16_scratch1) K } := by
  have k16_hw1 : k16_chk1 (tbM16.view.readAt (Elt F) (Rect.unit (s := S50000) (k16_off1 i) S1.size (k16_off1_inb i)).toLoadRect tb (Shape.Idx.first (numel1_S1.symm ▸ Nat.one_pos))) := chk16_1_of_lt _ (hH _)
  have k16_hw2 : k16_chk2 (tbM16.view.readAt (Elt F) (Rect.unit (s := S50000) (k16_off3 i) S1.size (k16_off3_inb i)).toLoadRect tb (Shape.Idx.first (numel1_S1.symm ▸ Nat.one_pos))) := chk16_2_of_lt _ (hH _)
  have k16_hw3 : k16_chk3 (tbM16.view.readAt (Elt F) (Rect.unit (s := S50000) (k16_off5 i) S1.size (k16_off5_inb i)).toLoadRect tb (Shape.Idx.first (numel1_S1.symm ▸ Nat.one_pos))) := chk16_3_of_lt _ (hH _)
  have k16_hw4 : k16_chk4 (tbM16.view.readAt (Elt F) (Rect.unit (s := S50000) (k16_off7 i) S1.size (k16_off7_inb i)).toLoadRect tb (Shape.Idx.first (numel1_S1.symm ▸ Nat.one_pos))) := chk16_4_of_lt _ (hH _)
  have k16_hw5 : k16_chk5 (tbM16.view.readAt (Elt F) (Rect.unit (s := S50000) (k16_off9 i) S1.size (k16_off9_inb i)).toLoadRect tb (Shape.Idx.first (numel1_S1.symm ▸ Nat.one_pos))) := chk16_5_of_lt _ (hH _)
  have k16_hw6 : k16_chk6 (tbM16.view.readAt (Elt F) (Rect.unit (s := S50000) (k16_off11 i) S1.size (k16_off11_inb i)).toLoadRect tb (Shape.Idx.first (numel1_S1.symm ▸ Nat.one_pos))) := chk16_6_of_lt _ (hH _)
  have k16_hw7 : k16_chk7 (tbM16.view.readAt (Elt F) (Rect.unit (s := S50000) (k16_off13 i) S1.size (k16_off13_inb i)).toLoadRect tb (Shape.Idx.first (numel1_S1.symm ▸ Nat.one_pos))) := chk16_7_of_lt _ (hH _)
  have k16_hw8 : k16_chk8 (tbM16.view.readAt (Elt F) (Rect.unit (s := S50000) (k16_off15 i) S1.size (k16_off15_inb i)).toLoadRect tb (Shape.Idx.first (numel1_S1.symm ▸ Nat.one_pos))) := chk16_8_of_lt _ (hH _)
  have k16_hw9 : k16_chk9 (tbM16.view.readAt (Elt F) (Rect.unit (s := S50000) (k16_off17 i) S1.size (k16_off17_inb i)).toLoadRect tb (Shape.Idx.first (numel1_S1.symm ▸ Nat.one_pos))) := chk16_9_of_lt _ (hH _)
  have k16_hw10 : k16_chk10 (tbM16.view.readAt (Elt F) (Rect.unit (s := S50000) (k16_off19 i) S1.size (k16_off19_inb i)).toLoadRect tb (Shape.Idx.first (numel1_S1.symm ▸ Nat.one_pos))) := chk16_10_of_lt _ (hH _)
  have k16_hw11 : k16_chk11 (tbM16.view.readAt (Elt F) (Rect.unit (s := S50000) (k16_off21 i) S1.size (k16_off21_inb i)).toLoadRect tb (Shape.Idx.first (numel1_S1.symm ▸ Nat.one_pos))) := chk16_11_of_lt _ (hH _)
  have k16_hw12 : k16_chk12 (tbM16.view.readAt (Elt F) (Rect.unit (s := S50000) (k16_off23 i) S1.size (k16_off23_inb i)).toLoadRect tb (Shape.Idx.first (numel1_S1.symm ▸ Nat.one_pos))) := chk16_12_of_lt _ (hH _)
  have k16_hw13 : k16_chk13 (tbM16.view.readAt (Elt F) (Rect.unit (s := S50000) (k16_off25 i) S1.size (k16_off25_inb i)).toLoadRect tb (Shape.Idx.first (numel1_S1.symm ▸ Nat.one_pos))) := chk16_13_of_lt _ (hH _)
  have k16_hw14 : k16_chk14 (tbM16.view.readAt (Elt F) (Rect.unit (s := S50000) (k16_off27 i) S1.size (k16_off27_inb i)).toLoadRect tb (Shape.Idx.first (numel1_S1.symm ▸ Nat.one_pos))) := chk16_14_of_lt _ (hH _)
  have k16_hw15 : k16_chk15 (tbM16.view.readAt (Elt F) (Rect.unit (s := S50000) (k16_off29 i) S1.size (k16_off29_inb i)).toLoadRect tb (Shape.Idx.first (numel1_S1.symm ▸ Nat.one_pos))) := chk16_15_of_lt _ (hH _)
  have k16_hw16 : k16_chk16 (tbM16.view.readAt (Elt F) (Rect.unit (s := S50000) (k16_off31 i) S1.size (k16_off31_inb i)).toLoadRect tb (Shape.Idx.first (numel1_S1.symm ▸ Nat.one_pos))) := chk16_16_of_lt _ (hH _)
  refine ⟨?_, fun W K => ?run⟩
  case run =>
    simp only [cc16_kernel_eq_skeleton]; unfold cc16_kernel_skel
    simp only [k16_part7_eq_skeleton]; unfold k16_part7_skel
    simp only [k16_part1_eq_skeleton, k16_part2_eq_skeleton, k16_part3_eq_skeleton, k16_part4_eq_skeleton, k16_part5_eq_skeleton, k16_part6_eq_skeleton]
    unfold owns sems16
    iintro ⟨⟨%f0, %hf0, H0⟩, ⟨%d1, %f1, -, H16⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks16 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k16_hw1 | sl_exact k16_hw2 | sl_exact k16_hw3 | sl_exact k16_hw4 | sl_exact k16_hw5 | sl_exact k16_hw6 | sl_exact k16_hw7 | sl_exact k16_hw8 | sl_exact k16_hw9 | sl_exact k16_hw10 | sl_exact k16_hw11 | sl_exact k16_hw12 | sl_exact k16_hw13 | sl_exact k16_hw14 | sl_exact k16_hw15 | sl_exact k16_hw16)
    sl_step
    iapply Hk
    isplitl [H0]
    · iexists _; isplitr; · ipureintro; exact harg3.read_unread _
      iexact H0
    isplitl [H16]; · iexists _; iexact H16
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks16 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg16 (F := F)).Adm)

/-- Each window's current staging memref at point t, spelled as the pipeline passes it, and its wholeness. -/
abbrev ms16_0 (t : Fin (cfg16 a).N) : Memref sig .tc .vmem S16x1 .f32 := spec16_0.stage ((cfg16 a).slots t 0)
abbrev hs16_0 (t : Fin (cfg16 a).N) : (ms16_0 a t).IsWhole := hstage16_0 (((cfg16 a).slots t 0).cast nbuf16_0)
abbrev ms16_1 (t : Fin (cfg16 a).N) : Memref sig .tc .vmem S16x262 .f32 := spec16_1.stage ((cfg16 a).slots t 1)
abbrev hs16_1 (t : Fin (cfg16 a).N) : (ms16_1 a t).IsWhole := hstage16_1 (((cfg16 a).slots t 1).cast nbuf16_1)

/-- The kernel body at point t, on what the pipeline calls it with. -/
abbrev bodyAt16 (t : Fin (cfg16 a).N) : Prog (TpuEff nD τ sig (Elt F) Λ₀ .tc) PUnit :=
  cc16_kernel (grid16.coords t) tbM16 (Memref.isWhole_whole _) hbM16 (Memref.isWhole_whole _) (ms16_0 a t) (hs16_0 a t) (ms16_1 a t) (hs16_1 a t) scM16 (Memref.isWhole_whole _) cc16_scratch1

/-! ## The invariant, conjunct by conjunct -/

/-- The sixteen own cells at zero, listed. -/
theorem ownSems016_eq (c : Dev nD) :
    (Pipeline.ownSems0 (Ix := Unit) (Name := ℕ) (U := Pipeline.UD sig nD τ) (Lvl := ℕ) (Val := Elt F) (τ := τ) osem16 c : sProp 𝕄) = sems16 c := by
  rw [Pipeline.ownSems0_eq_of_list c osem16 [0, 1, 2, 3, 4, 5, 6, 7, 8, 9, 10, 11, 12, 13, 14, 15] (by decide) (by decide)]; rfl

/-- The gathered array's points-to at the region-entry contents. -/
theorem hbmPts16_eq (c : Dev nD) :
    (bigSep H16 (fun b => ((c : Thread nD τ).loc b) ↦{fullShare} V c b) : sProp 𝕄) = iprop(hbPt16 c hbM16 (V c main_v71)) := by
  rw [BI.bigSep_eq_bigSepL_of_eq [main_v71] (by decide) (by decide)]; rfl

/-- The row table, whole, at the contents the region is launched with. -/
theorem prefHeld16_eq (c : Dev nD) :
    (Pipeline.prefHeld (Ix := Unit) (Name := ℕ) (U := Pipeline.UD sig nD τ) (Lvl := ℕ) pre16 c (fun _ => fullShare) a.1 : sProp 𝕄) = iprop(hbPt16 c tbM16 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD16_eq (c : Dev nD) :
    (Pipeline.ΦD osem16 spec16 H16 V c : sProp 𝕄)
      = iprop(iprop((∃ d, owns (c : Thread nD τ) scM16 fullShare d) ∗ Pipeline.scopedRestBut (Ix := Unit) (Name := ℕ) (U := Pipeline.UD sig nD τ) (Lvl := ℕ) (Val := Elt F) spec16 c [cc16_scratch0])
          ∗ (∃ r, prngReg c r) ∗ sems16 c ∗ iprop(hbPt16 c hbM16 (V c main_v71))) := by
  rw [Pipeline.ΦD_eq, scopedRest16_split, ownSems016_eq, hbmPts16_eq]; simp only [scM16, owns_whole]; try rfl

/-! ## The windows' blocks -/

/-- Window w's block at point t, read off its array as the region finds it. -/
def iblk16 (c : Dev nD) (w : Fin (cfg16 a).W) (t : Fin (cfg16 a).N) : (((cfg16 a).win w).xblock ((cfg16 a).grid.coords t)).Idx → Elt F ((cfg16 a).win w).elt :=
  (((cfg16 a).win w).blk t).view.read (Elt F) (V c (Pipeline.arrRef spec16 w))

/-- Input window 0's current staging buffer holds its block at every point, fetched there or not. -/
theorem before16_0_of {c : Dev nD} (dat : Dat τ (Elt F) Unit ℕ (Pipeline.UD sig nD τ) ℕ (cfg16 a) c) (hA : dat.A 0 = V c (Pipeline.arrRef spec16 0))
    (hafter : ∀ t, dat.after 0 t = iblk16 V a c 0 t) (t : Fin (cfg16 a).N) (d) : dat.before 0 t d = iblk16 V a c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-! ## What the run leaves in the output window's buffer -/

/-- The run's pieces for the output tile its block, so they cover it. -/
theorem cover16_1 (c : Dev nD) (i : grid16.Coords) (arg3 : Memref sig .tc .vmem S16x1 .f32) (harg3 : arg3.IsWhole) (arg4 : Memref sig .tc .vmem S16x262 .f32) (harg4 : arg4.IsWhole)
    (x0 : Vec F S16x1 .f32) (tb : HbBuf16 (F := F) c tbM16) (fh0 : HbBuf16 (F := F) c hbM16) (hT : ∀ x, (tb x).toNat < 50000) (y : S16x262.Idx) :
    ∃ pc ∈ (kernelRun16 c i arg3 harg3 arg4 harg4 x0 tb fh0 hT).1, y ∈ pc.1.set :=
  View.cover_of_tiledL (kernelRun16 c i arg3 harg3 arg4 harg4 x0 tb fh0 hT).1 S16x262.size (by sl_kernel_rfl) y

/-- One staging buffer of the output window, through which its contents are stated. -/
abbrev VO16_1 : View sig .tc .vmem S16x262 .f32 := (Memref.whole cc16_stg1_0 : Memref sig .tc .vmem S16x262 .f32).view

/-- What the run leaves in the output's staging buffer: its pieces read back over junk. -/
def out16_1 (c : Dev nD) (i : grid16.Coords) (arg3 : Memref sig .tc .vmem S16x1 .f32) (harg3 : arg3.IsWhole) (arg4 : Memref sig .tc .vmem S16x262 .f32) (harg4 : arg4.IsWhole)
    (x0 : Vec F S16x1 .f32) (tb : HbBuf16 (F := F) c tbM16) (fh0 : HbBuf16 (F := F) c hbM16) (hT : ∀ x, (tb x).toNat < 50000) : Vec F S16x262 .f32 :=
  VO16_1.read (Elt F) (VO16_1.writes (Elt F) VO16_1.junk (kernelRun16 c i arg3 harg3 arg4 harg4 x0 tb fh0 hT).1)

/-- Every word of the table is a row of the gathered array, from the same of its words by position. -/
theorem tbl_lt16 (hH : ∀ j : Fin 50000, ((a.1 0) (ValueIdx.ix1 j)).toNat < 50000) (c : Dev nD) : ∀ x, (((a.1 0 : HbBuf16 (F := F) c tbM16)) x).toNat < 50000 :=
  fun x => by rw [ValueIdx.eq_ix1 x]; exact hH _

/-- What the output's staging buffer holds after the body at point t: the run's contents at the point's memrefs, the
    norm block, the table and the gathered array. -/
def outsAt16 (hH : ∀ j : Fin 50000, ((a.1 0) (ValueIdx.ix1 j)).toNat < 50000) (c : Dev nD) (t : Fin (cfg16 a).N) : Vec F S16x262 .f32 :=
  out16_1 c (grid16.coords t) (ms16_0 a t) (hs16_0 a t) (ms16_1 a t) (hs16_1 a t) (iblk16 V a c 0 t) (a.1 0) (V c main_v71) (tbl_lt16 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat16 (hH : ∀ j : Fin 50000, ((a.1 0) (ValueIdx.ix1 j)).toNat < 50000) (c : Dev nD) : Dat τ (Elt F) Unit ℕ (Pipeline.UD sig nD τ) ℕ (cfg16 a) c where
  A w := V c (Pipeline.arrRef spec16 w)
  after w t := match w with
    | ⟨0, _⟩ => iblk16 V a c 0 t
    | ⟨1, _⟩ => (outsAt16 V a hH c t)
  Φ _ := iprop(Pipeline.ΦD osem16 spec16 H16 V c ∗ Pipeline.prefHeld pre16 c (fun _ => fullShare) a.1)
  q _ := fullShare
  owed _ := 0

/-- The proof data's arrays are the region-entry contents. -/
theorem A_eq16 (hH : ∀ j : Fin 50000, ((a.1 0) (ValueIdx.ix1 j)).toNat < 50000) (c : Dev nD) (w : Fin (cfg16 a).W) : (dat16 V a hH c).A w = V c (Pipeline.arrRef spec16 w) := by
  dsimp only [dat16]

/-- What the body leaves, window by window. -/
theorem after16_0 (hH : ∀ j : Fin 50000, ((a.1 0) (ValueIdx.ix1 j)).toNat < 50000) (c : Dev nD) (t : Fin (cfg16 a).N) : (dat16 V a hH c).after 0 t = iblk16 V a c 0 t := by dsimp only [dat16]; try rfl
theorem after16_1 (hH : ∀ j : Fin 50000, ((a.1 0) (ValueIdx.ix1 j)).toNat < 50000) (c : Dev nD) (t : Fin (cfg16 a).N) : (dat16 V a hH c).after 1 t = (outsAt16 V a hH c t) := by dsimp only [dat16]; try rfl

/-- The input's current staging buffer holds its block at every point, fetched there or not. -/
theorem before16_0 (hH : ∀ j : Fin 50000, ((a.1 0) (ValueIdx.ix1 j)).toNat < 50000) (c : Dev nD) (t : Fin (cfg16 a).N) (d) : (dat16 V a hH c).before 0 t d = iblk16 V a c 0 t :=
  before16_0_of V a (dat16 V a hH c) (A_eq16 V a hH c 0) (after16_0 V a hH c) t d

/-! ## The body obligation, at a generic point -/

/-- What the body is called with at point t, the windows one by one, -/
def bodyPre16 (hH : ∀ j : Fin 50000, ((a.1 0) (ValueIdx.ix1 j)).toNat < 50000) (c : Dev nD) (t : Fin (cfg16 a).N) : sProp 𝕄 :=
  iprop((dat16 V a hH c).Φ t.castSucc ∗ (dat16 V a hH c).owesAt () t.castSucc
    ∗ (∃ d, owns (c : Thread nD τ) (ms16_0 a t) fullShare ((dat16 V a hH c).before 0 t d))
    ∗ (∃ d, owns (c : Thread nD τ) (ms16_1 a t) fullShare ((dat16 V a hH c).before 1 t d)))

/-- and what it returns. -/
def bodyPost16 (hH : ∀ j : Fin 50000, ((a.1 0) (ValueIdx.ix1 j)).toNat < 50000) (c : Dev nD) (t : Fin (cfg16 a).N) : sProp 𝕄 :=
  iprop((dat16 V a hH c).Φ t.succ ∗ (dat16 V a hH c).owesAt () t.succ
    ∗ owns (c : Thread nD τ) (ms16_0 a t) fullShare ((dat16 V a hH c).after 0 t)
    ∗ owns (c : Thread nD τ) (ms16_1 a t) fullShare ((dat16 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body16 (hH : ∀ j : Fin 50000, ((a.1 0) (ValueIdx.ix1 j)).toNat < 50000) (c : Dev nD) (t : Fin (cfg16 a).N) :
    bodyPre16 V a hH c t ⊢ wp frame (wpE (defs₀ (F := F)) Variants.none c none) Set.univ (bodyAt16 a t) (fun _ => bodyPost16 V a hH c t) := by
  unfold bodyPre16 bodyPost16 bodyAt16
  simp only [before16_0]
  rw [show (dat16 V a hH c).Φ t.succ = (dat16 V a hH c).Φ t.castSucc from rfl,
    after16_0, after16_1]
  rw [show (dat16 V a hH c).Φ t.castSucc = iprop(Pipeline.ΦD osem16 spec16 H16 V c ∗ Pipeline.prefHeld pre16 c (fun _ => fullShare) a.1) from rfl, PhiD16_eq, prefHeld16_eq]
  unfold Dat.owesAt Pipeline.owesWithin
  rw [show (dat16 V a hH c).owed t.castSucc = 0 from rfl, show (dat16 V a hH c).owed t.succ = 0 from rfl]
  unfold outsAt16
  unfold out16_1
  iintro ⟨⟨⟨⟨HS0, HSr⟩, Hg, Hq, Hh0⟩, HT⟩, ⟨%W, -, HW⟩, ⟨%d0, H0⟩, ⟨%d1, H16⟩⟩
  iapply ((kernelRun16 c (grid16.coords t) _ _ _ _ (iblk16 V a c 0 t) (a.1 0) (V c main_v71) (tbl_lt16 a hH c)).2 W _)
  isplitl [H0]; · iexact H0
  isplitl [H16]; · iexists _; iexact H16
  isplitl [HS0]; · iexact HS0
  isplitl [Hq]; · iexact Hq
  isplitl [Hh0]; · iexact Hh0
  isplitl [HT]; · iexact HT
  isplitl [HW]; · iexact HW
  iintro ⟨H0, ⟨%e1, H16⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H16
  ipureintro; exact View.read_writes_of_cover _ _ _ _ _ (cover16_1 c _ _ _ _ _ _ _ _ _)

/-- The library's body obligation, at every point. -/
theorem body_obligation16 (hH : ∀ j : Fin 50000, ((a.1 0) (ValueIdx.ix1 j)).toNat < 50000) (c : Dev nD) : BodyObligation (dat16 (F := F) V a hH c) (defs₀ (F := F)) Variants.none () Set.univ := fun t => by
  rw [bigSep_W16, bigSep_W16]
  exact sound_body16 V a hH c t

end Cert.KernelIdeal.Hand

end
-- ==== Proof.G17.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 17 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem17 : Fin 16 → SemLoc sig := fun j =>
  (![SemLoc.dma 314, SemLoc.dma 315, SemLoc.dma 316, SemLoc.dma 317, SemLoc.dma 318, SemLoc.dma 319, SemLoc.dma 320, SemLoc.dma 321,
     SemLoc.dma 322, SemLoc.dma 323, SemLoc.dma 324, SemLoc.dma 325, SemLoc.dma 326, SemLoc.dma 327, SemLoc.dma 328, SemLoc.dma 329] : Fin 16 → SemLoc sig) j
theorem ownSemFacts17 : Pipeline.OwnSemFacts spec17 osem17 := by decide

/-- The HBM operand the body gathers rows from: unscoped, no window's array, no table. -/
def H17 : Finset (Ref sig .tc) := {main_v71}
theorem H17_sub : H17 ⊆ Pipeline.restRefsP sig pre17 spec17 := by decide

/-- The operands the pipeline does not stage, whole. -/
abbrev tbM17 : Memref sig .tc .smem S50000 .i32 := Memref.whole main_v91
abbrev hbM17 : Memref sig .tc .hbm S50000x262 .f32 := Memref.whole main_v71
abbrev scM17 : Memref sig .tc .vmem S16x262 .f32 := Memref.whole cc17_scratch0

/-- A whole memref's buffer on core `c`, and it held whole at `f`. -/
abbrev HbBuf17 (c : Dev nD) {sp : Space} {S : Shape} {e : EltTy} (M : Memref sig .tc sp S e) : Type := Buf (Elt F) (M.view.loc (c : Thread nD τ))
abbrev hbPt17 (c : Dev nD) {sp : Space} {S : Shape} {e : EltTy} (M : Memref sig .tc sp S e) (f : HbBuf17 (F := F) c M) : sProp 𝕄 :=
  M.view.loc (c : Thread nD τ) ↦{fullShare} f

/-- The sixteen own cells at zero. -/
abbrev sems17 (c : Dev nD) : sProp 𝕄 :=
  iprop(semVal ((c : Thread nD τ), SemLoc.dma 314) 0 ∗ semVal ((c : Thread nD τ), SemLoc.dma 315) 0 ∗ semVal ((c : Thread nD τ), SemLoc.dma 316) 0 ∗ semVal ((c : Thread nD τ), SemLoc.dma 317) 0 ∗ semVal ((c : Thread nD τ), SemLoc.dma 318) 0 ∗ semVal ((c : Thread nD τ), SemLoc.dma 319) 0 ∗ semVal ((c : Thread nD τ), SemLoc.dma 320) 0 ∗ semVal ((c : Thread nD τ), SemLoc.dma 321) 0 ∗ semVal ((c : Thread nD τ), SemLoc.dma 322) 0 ∗ semVal ((c : Thread nD τ), SemLoc.dma 323) 0 ∗ semVal ((c : Thread nD τ), SemLoc.dma 324) 0 ∗ semVal ((c : Thread nD τ), SemLoc.dma 325) 0 ∗ semVal ((c : Thread nD τ), SemLoc.dma 326) 0 ∗ semVal ((c : Thread nD τ), SemLoc.dma 327) 0 ∗ semVal ((c : Thread nD τ), SemLoc.dma 328) 0 ∗ semVal ((c : Thread nD τ), SemLoc.dma 329) 0)

/-- A row index inside the gathered array puts the one-row slice inside it. -/
theorem row_inb17 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk17_1_of_lt (w : BitVec 32) (h : w.toNat < 50000) : k17_chk1 w := ⟨row_inb17 w h, row_inb17 w h⟩
theorem chk17_2_of_lt (w : BitVec 32) (h : w.toNat < 50000) : k17_chk2 w := ⟨row_inb17 w h, row_inb17 w h⟩
theorem chk17_3_of_lt (w : BitVec 32) (h : w.toNat < 50000) : k17_chk3 w := ⟨row_inb17 w h, row_inb17 w h⟩
theorem chk17_4_of_lt (w : BitVec 32) (h : w.toNat < 50000) : k17_chk4 w := ⟨row_inb17 w h, row_inb17 w h⟩
theorem chk17_5_of_lt (w : BitVec 32) (h : w.toNat < 50000) : k17_chk5 w := ⟨row_inb17 w h, row_inb17 w h⟩
theorem chk17_6_of_lt (w : BitVec 32) (h : w.toNat < 50000) : k17_chk6 w := ⟨row_inb17 w h, row_inb17 w h⟩
theorem chk17_7_of_lt (w : BitVec 32) (h : w.toNat < 50000) : k17_chk7 w := ⟨row_inb17 w h, row_inb17 w h⟩
theorem chk17_8_of_lt (w : BitVec 32) (h : w.toNat < 50000) : k17_chk8 w := ⟨row_inb17 w h, row_inb17 w h⟩
theorem chk17_9_of_lt (w : BitVec 32) (h : w.toNat < 50000) : k17_chk9 w := ⟨row_inb17 w h, row_inb17 w h⟩
theorem chk17_10_of_lt (w : BitVec 32) (h : w.toNat < 50000) : k17_chk10 w := ⟨row_inb17 w h, row_inb17 w h⟩
theorem chk17_11_of_lt (w : BitVec 32) (h : w.toNat < 50000) : k17_chk11 w := ⟨row_inb17 w h, row_inb17 w h⟩
theorem chk17_12_of_lt (w : BitVec 32) (h : w.toNat < 50000) : k17_chk12 w := ⟨row_inb17 w h, row_inb17 w h⟩
theorem chk17_13_of_lt (w : BitVec 32) (h : w.toNat < 50000) : k17_chk13 w := ⟨row_inb17 w h, row_inb17 w h⟩
theorem chk17_14_of_lt (w : BitVec 32) (h : w.toNat < 50000) : k17_chk14 w := ⟨row_inb17 w h, row_inb17 w h⟩
theorem chk17_15_of_lt (w : BitVec 32) (h : w.toNat < 50000) : k17_chk15 w := ⟨row_inb17 w h, row_inb17 w h⟩
theorem chk17_16_of_lt (w : BitVec 32) (h : w.toNat < 50000) : k17_chk16 w := row_inb17 w h

/-- A whole points-to as what stays behind, sixteen read tokens numbered `b + 15` down to `b`, and the tokens below
    `b` kept as one family. -/
theorem toksAt17 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 314 … 329. -/
theorem toks17 {ℓ : Loc nD τ sig} (f : Buf (Elt F) ℓ) :
    (ℓ ↦{fullShare} f : sProp 𝕄) ⊣⊢ iprop((ℓ ↦{Transfers.shareDrop fullShare 330} f) ∗ (ℓ ↦{Transfers.shareTokN fullShare 329} f) ∗ (ℓ ↦{Transfers.shareTokN fullShare 328} f) ∗ (ℓ ↦{Transfers.shareTokN fullShare 327} f) ∗ (ℓ ↦{Transfers.shareTokN fullShare 326} f) ∗ (ℓ ↦{Transfers.shareTokN fullShare 325} f) ∗ (ℓ ↦{Transfers.shareTokN fullShare 324} f) ∗ (ℓ ↦{Transfers.shareTokN fullShare 323} f) ∗ (ℓ ↦{Transfers.shareTokN fullShare 322} f) ∗ (ℓ ↦{Transfers.shareTokN fullShare 321} f) ∗ (ℓ ↦{Transfers.shareTokN fullShare 320} f) ∗ (ℓ ↦{Transfers.shareTokN fullShare 319} f) ∗ (ℓ ↦{Transfers.shareTokN fullShare 318} f) ∗ (ℓ ↦{Transfers.shareTokN fullShare 317} f) ∗ (ℓ ↦{Transfers.shareTokN fullShare 316} f) ∗ (ℓ ↦{Transfers.shareTokN fullShare 315} f) ∗ (ℓ ↦{Transfers.shareTokN fullShare 314} f)
      ∗ BI.bigSep (Finset.range 314) fun k => ℓ ↦{Transfers.shareTokN fullShare k} f) :=
  toksAt17 f 314

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun17 (c : Dev nD) (i : grid17.Coords) (arg3 : Memref sig .tc .vmem S16x1 .f32) (harg3 : arg3.IsWhole) (arg4 : Memref sig .tc .vmem S16x262 .f32) (harg4 : arg4.IsWhole)
    (x0 : Vec F S16x1 .f32) (tb : HbBuf17 (F := F) c tbM17) (fh0 : HbBuf17 (F := F) c hbM17) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM17 fullShare d) ∗ sems17 c ∗ hbPt17 c hbM17 fh0 ∗ hbPt17 c tbM17 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM17 fullShare d) ∗ sems17 c ∗ hbPt17 c hbM17 fh0 ∗ hbPt17 c tbM17 tb ∗ (∃ W', owes (c : Thread nD τ) 0 W')) -∗ K ⟨⟩))
          ⊢ wp frame (wpE (defs₀ (F := F)) Variants.none c none) Set.univ (cc17_kernel i tbM17 (Memref.isWhole_whole _) hbM17 (Memref.isWhole_whole _) arg3 harg3 arg4 harg4 scM17 (Memref.isWhole_whole _) cc17_scratch1) K } := by
  have k17_hw1 : k17_chk1 (tbM17.view.readAt (Elt F) (Rect.unit (s := S50000) (k17_off1 i) S1.size (k17_off1_inb i)).toLoadRect tb (Shape.Idx.first (numel1_S1.symm ▸ Nat.one_pos))) := chk17_1_of_lt _ (hH _)
  have k17_hw2 : k17_chk2 (tbM17.view.readAt (Elt F) (Rect.unit (s := S50000) (k17_off3 i) S1.size (k17_off3_inb i)).toLoadRect tb (Shape.Idx.first (numel1_S1.symm ▸ Nat.one_pos))) := chk17_2_of_lt _ (hH _)
  have k17_hw3 : k17_chk3 (tbM17.view.readAt (Elt F) (Rect.unit (s := S50000) (k17_off5 i) S1.size (k17_off5_inb i)).toLoadRect tb (Shape.Idx.first (numel1_S1.symm ▸ Nat.one_pos))) := chk17_3_of_lt _ (hH _)
  have k17_hw4 : k17_chk4 (tbM17.view.readAt (Elt F) (Rect.unit (s := S50000) (k17_off7 i) S1.size (k17_off7_inb i)).toLoadRect tb (Shape.Idx.first (numel1_S1.symm ▸ Nat.one_pos))) := chk17_4_of_lt _ (hH _)
  have k17_hw5 : k17_chk5 (tbM17.view.readAt (Elt F) (Rect.unit (s := S50000) (k17_off9 i) S1.size (k17_off9_inb i)).toLoadRect tb (Shape.Idx.first (numel1_S1.symm ▸ Nat.one_pos))) := chk17_5_of_lt _ (hH _)
  have k17_hw6 : k17_chk6 (tbM17.view.readAt (Elt F) (Rect.unit (s := S50000) (k17_off11 i) S1.size (k17_off11_inb i)).toLoadRect tb (Shape.Idx.first (numel1_S1.symm ▸ Nat.one_pos))) := chk17_6_of_lt _ (hH _)
  have k17_hw7 : k17_chk7 (tbM17.view.readAt (Elt F) (Rect.unit (s := S50000) (k17_off13 i) S1.size (k17_off13_inb i)).toLoadRect tb (Shape.Idx.first (numel1_S1.symm ▸ Nat.one_pos))) := chk17_7_of_lt _ (hH _)
  have k17_hw8 : k17_chk8 (tbM17.view.readAt (Elt F) (Rect.unit (s := S50000) (k17_off15 i) S1.size (k17_off15_inb i)).toLoadRect tb (Shape.Idx.first (numel1_S1.symm ▸ Nat.one_pos))) := chk17_8_of_lt _ (hH _)
  have k17_hw9 : k17_chk9 (tbM17.view.readAt (Elt F) (Rect.unit (s := S50000) (k17_off17 i) S1.size (k17_off17_inb i)).toLoadRect tb (Shape.Idx.first (numel1_S1.symm ▸ Nat.one_pos))) := chk17_9_of_lt _ (hH _)
  have k17_hw10 : k17_chk10 (tbM17.view.readAt (Elt F) (Rect.unit (s := S50000) (k17_off19 i) S1.size (k17_off19_inb i)).toLoadRect tb (Shape.Idx.first (numel1_S1.symm ▸ Nat.one_pos))) := chk17_10_of_lt _ (hH _)
  have k17_hw11 : k17_chk11 (tbM17.view.readAt (Elt F) (Rect.unit (s := S50000) (k17_off21 i) S1.size (k17_off21_inb i)).toLoadRect tb (Shape.Idx.first (numel1_S1.symm ▸ Nat.one_pos))) := chk17_11_of_lt _ (hH _)
  have k17_hw12 : k17_chk12 (tbM17.view.readAt (Elt F) (Rect.unit (s := S50000) (k17_off23 i) S1.size (k17_off23_inb i)).toLoadRect tb (Shape.Idx.first (numel1_S1.symm ▸ Nat.one_pos))) := chk17_12_of_lt _ (hH _)
  have k17_hw13 : k17_chk13 (tbM17.view.readAt (Elt F) (Rect.unit (s := S50000) (k17_off25 i) S1.size (k17_off25_inb i)).toLoadRect tb (Shape.Idx.first (numel1_S1.symm ▸ Nat.one_pos))) := chk17_13_of_lt _ (hH _)
  have k17_hw14 : k17_chk14 (tbM17.view.readAt (Elt F) (Rect.unit (s := S50000) (k17_off27 i) S1.size (k17_off27_inb i)).toLoadRect tb (Shape.Idx.first (numel1_S1.symm ▸ Nat.one_pos))) := chk17_14_of_lt _ (hH _)
  have k17_hw15 : k17_chk15 (tbM17.view.readAt (Elt F) (Rect.unit (s := S50000) (k17_off29 i) S1.size (k17_off29_inb i)).toLoadRect tb (Shape.Idx.first (numel1_S1.symm ▸ Nat.one_pos))) := chk17_15_of_lt _ (hH _)
  have k17_hw16 : k17_chk16 (tbM17.view.readAt (Elt F) (Rect.unit (s := S50000) (k17_off31 i) S1.size (k17_off31_inb i)).toLoadRect tb (Shape.Idx.first (numel1_S1.symm ▸ Nat.one_pos))) := chk17_16_of_lt _ (hH _)
  refine ⟨?_, fun W K => ?run⟩
  case run =>
    simp only [cc17_kernel_eq_skeleton]; unfold cc17_kernel_skel
    simp only [k17_part7_eq_skeleton]; unfold k17_part7_skel
    simp only [k17_part1_eq_skeleton, k17_part2_eq_skeleton, k17_part3_eq_skeleton, k17_part4_eq_skeleton, k17_part5_eq_skeleton, k17_part6_eq_skeleton]
    unfold owns sems17
    iintro ⟨⟨%f0, %hf0, H0⟩, ⟨%d1, %f1, -, H17⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks17 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k17_hw1 | sl_exact k17_hw2 | sl_exact k17_hw3 | sl_exact k17_hw4 | sl_exact k17_hw5 | sl_exact k17_hw6 | sl_exact k17_hw7 | sl_exact k17_hw8 | sl_exact k17_hw9 | sl_exact k17_hw10 | sl_exact k17_hw11 | sl_exact k17_hw12 | sl_exact k17_hw13 | sl_exact k17_hw14 | sl_exact k17_hw15 | sl_exact k17_hw16)
    sl_step
    iapply Hk
    isplitl [H0]
    · iexists _; isplitr; · ipureintro; exact harg3.read_unread _
      iexact H0
    isplitl [H17]; · iexists _; iexact H17
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks17 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg17 (F := F)).Adm)

/-- Each window's current staging memref at point t, spelled as the pipeline passes it, and its wholeness. -/
abbrev ms17_0 (t : Fin (cfg17 a).N) : Memref sig .tc .vmem S16x1 .f32 := spec17_0.stage ((cfg17 a).slots t 0)
abbrev hs17_0 (t : Fin (cfg17 a).N) : (ms17_0 a t).IsWhole := hstage17_0 (((cfg17 a).slots t 0).cast nbuf17_0)
abbrev ms17_1 (t : Fin (cfg17 a).N) : Memref sig .tc .vmem S16x262 .f32 := spec17_1.stage ((cfg17 a).slots t 1)
abbrev hs17_1 (t : Fin (cfg17 a).N) : (ms17_1 a t).IsWhole := hstage17_1 (((cfg17 a).slots t 1).cast nbuf17_1)

/-- The kernel body at point t, on what the pipeline calls it with. -/
abbrev bodyAt17 (t : Fin (cfg17 a).N) : Prog (TpuEff nD τ sig (Elt F) Λ₀ .tc) PUnit :=
  cc17_kernel (grid17.coords t) tbM17 (Memref.isWhole_whole _) hbM17 (Memref.isWhole_whole _) (ms17_0 a t) (hs17_0 a t) (ms17_1 a t) (hs17_1 a t) scM17 (Memref.isWhole_whole _) cc17_scratch1

/-! ## The invariant, conjunct by conjunct -/

/-- The sixteen own cells at zero, listed. -/
theorem ownSems017_eq (c : Dev nD) :
    (Pipeline.ownSems0 (Ix := Unit) (Name := ℕ) (U := Pipeline.UD sig nD τ) (Lvl := ℕ) (Val := Elt F) (τ := τ) osem17 c : sProp 𝕄) = sems17 c := by
  rw [Pipeline.ownSems0_eq_of_list c osem17 [0, 1, 2, 3, 4, 5, 6, 7, 8, 9, 10, 11, 12, 13, 14, 15] (by decide) (by decide)]; rfl

/-- The gathered array's points-to at the region-entry contents. -/
theorem hbmPts17_eq (c : Dev nD) :
    (bigSep H17 (fun b => ((c : Thread nD τ).loc b) ↦{fullShare} V c b) : sProp 𝕄) = iprop(hbPt17 c hbM17 (V c main_v71)) := by
  rw [BI.bigSep_eq_bigSepL_of_eq [main_v71] (by decide) (by decide)]; rfl

/-- The row table, whole, at the contents the region is launched with. -/
theorem prefHeld17_eq (c : Dev nD) :
    (Pipeline.prefHeld (Ix := Unit) (Name := ℕ) (U := Pipeline.UD sig nD τ) (Lvl := ℕ) pre17 c (fun _ => fullShare) a.1 : sProp 𝕄) = iprop(hbPt17 c tbM17 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD17_eq (c : Dev nD) :
    (Pipeline.ΦD osem17 spec17 H17 V c : sProp 𝕄)
      = iprop(iprop((∃ d, owns (c : Thread nD τ) scM17 fullShare d) ∗ Pipeline.scopedRestBut (Ix := Unit) (Name := ℕ) (U := Pipeline.UD sig nD τ) (Lvl := ℕ) (Val := Elt F) spec17 c [cc17_scratch0])
          ∗ (∃ r, prngReg c r) ∗ sems17 c ∗ iprop(hbPt17 c hbM17 (V c main_v71))) := by
  rw [Pipeline.ΦD_eq, scopedRest17_split, ownSems017_eq, hbmPts17_eq]; simp only [scM17, owns_whole]; try rfl

/-! ## The windows' blocks -/

/-- Window w's block at point t, read off its array as the region finds it. -/
def iblk17 (c : Dev nD) (w : Fin (cfg17 a).W) (t : Fin (cfg17 a).N) : (((cfg17 a).win w).xblock ((cfg17 a).grid.coords t)).Idx → Elt F ((cfg17 a).win w).elt :=
  (((cfg17 a).win w).blk t).view.read (Elt F) (V c (Pipeline.arrRef spec17 w))

/-- Input window 0's current staging buffer holds its block at every point, fetched there or not. -/
theorem before17_0_of {c : Dev nD} (dat : Dat τ (Elt F) Unit ℕ (Pipeline.UD sig nD τ) ℕ (cfg17 a) c) (hA : dat.A 0 = V c (Pipeline.arrRef spec17 0))
    (hafter : ∀ t, dat.after 0 t = iblk17 V a c 0 t) (t : Fin (cfg17 a).N) (d) : dat.before 0 t d = iblk17 V a c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-! ## What the run leaves in the output window's buffer -/

/-- The run's pieces for the output tile its block, so they cover it. -/
theorem cover17_1 (c : Dev nD) (i : grid17.Coords) (arg3 : Memref sig .tc .vmem S16x1 .f32) (harg3 : arg3.IsWhole) (arg4 : Memref sig .tc .vmem S16x262 .f32) (harg4 : arg4.IsWhole)
    (x0 : Vec F S16x1 .f32) (tb : HbBuf17 (F := F) c tbM17) (fh0 : HbBuf17 (F := F) c hbM17) (hT : ∀ x, (tb x).toNat < 50000) (y : S16x262.Idx) :
    ∃ pc ∈ (kernelRun17 c i arg3 harg3 arg4 harg4 x0 tb fh0 hT).1, y ∈ pc.1.set :=
  View.cover_of_tiledL (kernelRun17 c i arg3 harg3 arg4 harg4 x0 tb fh0 hT).1 S16x262.size (by sl_kernel_rfl) y

/-- One staging buffer of the output window, through which its contents are stated. -/
abbrev VO17_1 : View sig .tc .vmem S16x262 .f32 := (Memref.whole cc17_stg1_0 : Memref sig .tc .vmem S16x262 .f32).view

/-- What the run leaves in the output's staging buffer: its pieces read back over junk. -/
def out17_1 (c : Dev nD) (i : grid17.Coords) (arg3 : Memref sig .tc .vmem S16x1 .f32) (harg3 : arg3.IsWhole) (arg4 : Memref sig .tc .vmem S16x262 .f32) (harg4 : arg4.IsWhole)
    (x0 : Vec F S16x1 .f32) (tb : HbBuf17 (F := F) c tbM17) (fh0 : HbBuf17 (F := F) c hbM17) (hT : ∀ x, (tb x).toNat < 50000) : Vec F S16x262 .f32 :=
  VO17_1.read (Elt F) (VO17_1.writes (Elt F) VO17_1.junk (kernelRun17 c i arg3 harg3 arg4 harg4 x0 tb fh0 hT).1)

/-- Every word of the table is a row of the gathered array, from the same of its words by position. -/
theorem tbl_lt17 (hH : ∀ j : Fin 50000, ((a.1 0) (ValueIdx.ix1 j)).toNat < 50000) (c : Dev nD) : ∀ x, (((a.1 0 : HbBuf17 (F := F) c tbM17)) x).toNat < 50000 :=
  fun x => by rw [ValueIdx.eq_ix1 x]; exact hH _

/-- What the output's staging buffer holds after the body at point t: the run's contents at the point's memrefs, the
    norm block, the table and the gathered array. -/
def outsAt17 (hH : ∀ j : Fin 50000, ((a.1 0) (ValueIdx.ix1 j)).toNat < 50000) (c : Dev nD) (t : Fin (cfg17 a).N) : Vec F S16x262 .f32 :=
  out17_1 c (grid17.coords t) (ms17_0 a t) (hs17_0 a t) (ms17_1 a t) (hs17_1 a t) (iblk17 V a c 0 t) (a.1 0) (V c main_v71) (tbl_lt17 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat17 (hH : ∀ j : Fin 50000, ((a.1 0) (ValueIdx.ix1 j)).toNat < 50000) (c : Dev nD) : Dat τ (Elt F) Unit ℕ (Pipeline.UD sig nD τ) ℕ (cfg17 a) c where
  A w := V c (Pipeline.arrRef spec17 w)
  after w t := match w with
    | ⟨0, _⟩ => iblk17 V a c 0 t
    | ⟨1, _⟩ => (outsAt17 V a hH c t)
  Φ _ := iprop(Pipeline.ΦD osem17 spec17 H17 V c ∗ Pipeline.prefHeld pre17 c (fun _ => fullShare) a.1)
  q _ := fullShare
  owed _ := 0

/-- The proof data's arrays are the region-entry contents. -/
theorem A_eq17 (hH : ∀ j : Fin 50000, ((a.1 0) (ValueIdx.ix1 j)).toNat < 50000) (c : Dev nD) (w : Fin (cfg17 a).W) : (dat17 V a hH c).A w = V c (Pipeline.arrRef spec17 w) := by
  dsimp only [dat17]

/-- What the body leaves, window by window. -/
theorem after17_0 (hH : ∀ j : Fin 50000, ((a.1 0) (ValueIdx.ix1 j)).toNat < 50000) (c : Dev nD) (t : Fin (cfg17 a).N) : (dat17 V a hH c).after 0 t = iblk17 V a c 0 t := by dsimp only [dat17]; try rfl
theorem after17_1 (hH : ∀ j : Fin 50000, ((a.1 0) (ValueIdx.ix1 j)).toNat < 50000) (c : Dev nD) (t : Fin (cfg17 a).N) : (dat17 V a hH c).after 1 t = (outsAt17 V a hH c t) := by dsimp only [dat17]; try rfl

/-- The input's current staging buffer holds its block at every point, fetched there or not. -/
theorem before17_0 (hH : ∀ j : Fin 50000, ((a.1 0) (ValueIdx.ix1 j)).toNat < 50000) (c : Dev nD) (t : Fin (cfg17 a).N) (d) : (dat17 V a hH c).before 0 t d = iblk17 V a c 0 t :=
  before17_0_of V a (dat17 V a hH c) (A_eq17 V a hH c 0) (after17_0 V a hH c) t d

/-! ## The body obligation, at a generic point -/

/-- What the body is called with at point t, the windows one by one, -/
def bodyPre17 (hH : ∀ j : Fin 50000, ((a.1 0) (ValueIdx.ix1 j)).toNat < 50000) (c : Dev nD) (t : Fin (cfg17 a).N) : sProp 𝕄 :=
  iprop((dat17 V a hH c).Φ t.castSucc ∗ (dat17 V a hH c).owesAt () t.castSucc
    ∗ (∃ d, owns (c : Thread nD τ) (ms17_0 a t) fullShare ((dat17 V a hH c).before 0 t d))
    ∗ (∃ d, owns (c : Thread nD τ) (ms17_1 a t) fullShare ((dat17 V a hH c).before 1 t d)))

/-- and what it returns. -/
def bodyPost17 (hH : ∀ j : Fin 50000, ((a.1 0) (ValueIdx.ix1 j)).toNat < 50000) (c : Dev nD) (t : Fin (cfg17 a).N) : sProp 𝕄 :=
  iprop((dat17 V a hH c).Φ t.succ ∗ (dat17 V a hH c).owesAt () t.succ
    ∗ owns (c : Thread nD τ) (ms17_0 a t) fullShare ((dat17 V a hH c).after 0 t)
    ∗ owns (c : Thread nD τ) (ms17_1 a t) fullShare ((dat17 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body17 (hH : ∀ j : Fin 50000, ((a.1 0) (ValueIdx.ix1 j)).toNat < 50000) (c : Dev nD) (t : Fin (cfg17 a).N) :
    bodyPre17 V a hH c t ⊢ wp frame (wpE (defs₀ (F := F)) Variants.none c none) Set.univ (bodyAt17 a t) (fun _ => bodyPost17 V a hH c t) := by
  unfold bodyPre17 bodyPost17 bodyAt17
  simp only [before17_0]
  rw [show (dat17 V a hH c).Φ t.succ = (dat17 V a hH c).Φ t.castSucc from rfl,
    after17_0, after17_1]
  rw [show (dat17 V a hH c).Φ t.castSucc = iprop(Pipeline.ΦD osem17 spec17 H17 V c ∗ Pipeline.prefHeld pre17 c (fun _ => fullShare) a.1) from rfl, PhiD17_eq, prefHeld17_eq]
  unfold Dat.owesAt Pipeline.owesWithin
  rw [show (dat17 V a hH c).owed t.castSucc = 0 from rfl, show (dat17 V a hH c).owed t.succ = 0 from rfl]
  unfold outsAt17
  unfold out17_1
  iintro ⟨⟨⟨⟨HS0, HSr⟩, Hg, Hq, Hh0⟩, HT⟩, ⟨%W, -, HW⟩, ⟨%d0, H0⟩, ⟨%d1, H17⟩⟩
  iapply ((kernelRun17 c (grid17.coords t) _ _ _ _ (iblk17 V a c 0 t) (a.1 0) (V c main_v71) (tbl_lt17 a hH c)).2 W _)
  isplitl [H0]; · iexact H0
  isplitl [H17]; · iexists _; iexact H17
  isplitl [HS0]; · iexact HS0
  isplitl [Hq]; · iexact Hq
  isplitl [Hh0]; · iexact Hh0
  isplitl [HT]; · iexact HT
  isplitl [HW]; · iexact HW
  iintro ⟨H0, ⟨%e1, H17⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H17
  ipureintro; exact View.read_writes_of_cover _ _ _ _ _ (cover17_1 c _ _ _ _ _ _ _ _ _)

/-- The library's body obligation, at every point. -/
theorem body_obligation17 (hH : ∀ j : Fin 50000, ((a.1 0) (ValueIdx.ix1 j)).toNat < 50000) (c : Dev nD) : BodyObligation (dat17 (F := F) V a hH c) (defs₀ (F := F)) Variants.none () Set.univ := fun t => by
  rw [bigSep_W17, bigSep_W17]
  exact sound_body17 V a hH c t

end Cert.KernelIdeal.Hand

end
-- ==== Proof.G18.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 18 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem18 : Fin 16 → SemLoc sig := fun j =>
  (![SemLoc.dma 334, SemLoc.dma 335, SemLoc.dma 336, SemLoc.dma 337, SemLoc.dma 338, SemLoc.dma 339, SemLoc.dma 340, SemLoc.dma 341,
     SemLoc.dma 342, SemLoc.dma 343, SemLoc.dma 344, SemLoc.dma 345, SemLoc.dma 346, SemLoc.dma 347, SemLoc.dma 348, SemLoc.dma 349] : Fin 16 → SemLoc sig) j
theorem ownSemFacts18 : Pipeline.OwnSemFacts spec18 osem18 := by decide

/-- The HBM operand the body gathers rows from: unscoped, no window's array, no table. -/
def H18 : Finset (Ref sig .tc) := {main_v71}
theorem H18_sub : H18 ⊆ Pipeline.restRefsP sig pre18 spec18 := by decide

/-- The operands the pipeline does not stage, whole. -/
abbrev tbM18 : Memref sig .tc .smem S50000 .i32 := Memref.whole main_v94
abbrev hbM18 : Memref sig .tc .hbm S50000x262 .f32 := Memref.whole main_v71
abbrev scM18 : Memref sig .tc .vmem S16x262 .f32 := Memref.whole cc18_scratch0

/-- A whole memref's buffer on core `c`, and it held whole at `f`. -/
abbrev HbBuf18 (c : Dev nD) {sp : Space} {S : Shape} {e : EltTy} (M : Memref sig .tc sp S e) : Type := Buf (Elt F) (M.view.loc (c : Thread nD τ))
abbrev hbPt18 (c : Dev nD) {sp : Space} {S : Shape} {e : EltTy} (M : Memref sig .tc sp S e) (f : HbBuf18 (F := F) c M) : sProp 𝕄 :=
  M.view.loc (c : Thread nD τ) ↦{fullShare} f

/-- The sixteen own cells at zero. -/
abbrev sems18 (c : Dev nD) : sProp 𝕄 :=
  iprop(semVal ((c : Thread nD τ), SemLoc.dma 334) 0 ∗ semVal ((c : Thread nD τ), SemLoc.dma 335) 0 ∗ semVal ((c : Thread nD τ), SemLoc.dma 336) 0 ∗ semVal ((c : Thread nD τ), SemLoc.dma 337) 0 ∗ semVal ((c : Thread nD τ), SemLoc.dma 338) 0 ∗ semVal ((c : Thread nD τ), SemLoc.dma 339) 0 ∗ semVal ((c : Thread nD τ), SemLoc.dma 340) 0 ∗ semVal ((c : Thread nD τ), SemLoc.dma 341) 0 ∗ semVal ((c : Thread nD τ), SemLoc.dma 342) 0 ∗ semVal ((c : Thread nD τ), SemLoc.dma 343) 0 ∗ semVal ((c : Thread nD τ), SemLoc.dma 344) 0 ∗ semVal ((c : Thread nD τ), SemLoc.dma 345) 0 ∗ semVal ((c : Thread nD τ), SemLoc.dma 346) 0 ∗ semVal ((c : Thread nD τ), SemLoc.dma 347) 0 ∗ semVal ((c : Thread nD τ), SemLoc.dma 348) 0 ∗ semVal ((c : Thread nD τ), SemLoc.dma 349) 0)

/-- A row index inside the gathered array puts the one-row slice inside it. -/
theorem row_inb18 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk18_1_of_lt (w : BitVec 32) (h : w.toNat < 50000) : k18_chk1 w := ⟨row_inb18 w h, row_inb18 w h⟩
theorem chk18_2_of_lt (w : BitVec 32) (h : w.toNat < 50000) : k18_chk2 w := ⟨row_inb18 w h, row_inb18 w h⟩
theorem chk18_3_of_lt (w : BitVec 32) (h : w.toNat < 50000) : k18_chk3 w := ⟨row_inb18 w h, row_inb18 w h⟩
theorem chk18_4_of_lt (w : BitVec 32) (h : w.toNat < 50000) : k18_chk4 w := ⟨row_inb18 w h, row_inb18 w h⟩
theorem chk18_5_of_lt (w : BitVec 32) (h : w.toNat < 50000) : k18_chk5 w := ⟨row_inb18 w h, row_inb18 w h⟩
theorem chk18_6_of_lt (w : BitVec 32) (h : w.toNat < 50000) : k18_chk6 w := ⟨row_inb18 w h, row_inb18 w h⟩
theorem chk18_7_of_lt (w : BitVec 32) (h : w.toNat < 50000) : k18_chk7 w := ⟨row_inb18 w h, row_inb18 w h⟩
theorem chk18_8_of_lt (w : BitVec 32) (h : w.toNat < 50000) : k18_chk8 w := ⟨row_inb18 w h, row_inb18 w h⟩
theorem chk18_9_of_lt (w : BitVec 32) (h : w.toNat < 50000) : k18_chk9 w := ⟨row_inb18 w h, row_inb18 w h⟩
theorem chk18_10_of_lt (w : BitVec 32) (h : w.toNat < 50000) : k18_chk10 w := ⟨row_inb18 w h, row_inb18 w h⟩
theorem chk18_11_of_lt (w : BitVec 32) (h : w.toNat < 50000) : k18_chk11 w := ⟨row_inb18 w h, row_inb18 w h⟩
theorem chk18_12_of_lt (w : BitVec 32) (h : w.toNat < 50000) : k18_chk12 w := ⟨row_inb18 w h, row_inb18 w h⟩
theorem chk18_13_of_lt (w : BitVec 32) (h : w.toNat < 50000) : k18_chk13 w := ⟨row_inb18 w h, row_inb18 w h⟩
theorem chk18_14_of_lt (w : BitVec 32) (h : w.toNat < 50000) : k18_chk14 w := ⟨row_inb18 w h, row_inb18 w h⟩
theorem chk18_15_of_lt (w : BitVec 32) (h : w.toNat < 50000) : k18_chk15 w := ⟨row_inb18 w h, row_inb18 w h⟩
theorem chk18_16_of_lt (w : BitVec 32) (h : w.toNat < 50000) : k18_chk16 w := row_inb18 w h

/-- A whole points-to as what stays behind, sixteen read tokens numbered `b + 15` down to `b`, and the tokens below
    `b` kept as one family. -/
theorem toksAt18 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 334 … 349. -/
theorem toks18 {ℓ : Loc nD τ sig} (f : Buf (Elt F) ℓ) :
    (ℓ ↦{fullShare} f : sProp 𝕄) ⊣⊢ iprop((ℓ ↦{Transfers.shareDrop fullShare 350} f) ∗ (ℓ ↦{Transfers.shareTokN fullShare 349} f) ∗ (ℓ ↦{Transfers.shareTokN fullShare 348} f) ∗ (ℓ ↦{Transfers.shareTokN fullShare 347} f) ∗ (ℓ ↦{Transfers.shareTokN fullShare 346} f) ∗ (ℓ ↦{Transfers.shareTokN fullShare 345} f) ∗ (ℓ ↦{Transfers.shareTokN fullShare 344} f) ∗ (ℓ ↦{Transfers.shareTokN fullShare 343} f) ∗ (ℓ ↦{Transfers.shareTokN fullShare 342} f) ∗ (ℓ ↦{Transfers.shareTokN fullShare 341} f) ∗ (ℓ ↦{Transfers.shareTokN fullShare 340} f) ∗ (ℓ ↦{Transfers.shareTokN fullShare 339} f) ∗ (ℓ ↦{Transfers.shareTokN fullShare 338} f) ∗ (ℓ ↦{Transfers.shareTokN fullShare 337} f) ∗ (ℓ ↦{Transfers.shareTokN fullShare 336} f) ∗ (ℓ ↦{Transfers.shareTokN fullShare 335} f) ∗ (ℓ ↦{Transfers.shareTokN fullShare 334} f)
      ∗ BI.bigSep (Finset.range 334) fun k => ℓ ↦{Transfers.shareTokN fullShare k} f) :=
  toksAt18 f 334

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun18 (c : Dev nD) (i : grid18.Coords) (arg3 : Memref sig .tc .vmem S16x1 .f32) (harg3 : arg3.IsWhole) (arg4 : Memref sig .tc .vmem S16x262 .f32) (harg4 : arg4.IsWhole)
    (x0 : Vec F S16x1 .f32) (tb : HbBuf18 (F := F) c tbM18) (fh0 : HbBuf18 (F := F) c hbM18) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM18 fullShare d) ∗ sems18 c ∗ hbPt18 c hbM18 fh0 ∗ hbPt18 c tbM18 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM18 fullShare d) ∗ sems18 c ∗ hbPt18 c hbM18 fh0 ∗ hbPt18 c tbM18 tb ∗ (∃ W', owes (c : Thread nD τ) 0 W')) -∗ K ⟨⟩))
          ⊢ wp frame (wpE (defs₀ (F := F)) Variants.none c none) Set.univ (cc18_kernel i tbM18 (Memref.isWhole_whole _) hbM18 (Memref.isWhole_whole _) arg3 harg3 arg4 harg4 scM18 (Memref.isWhole_whole _) cc18_scratch1) K } := by
  have k18_hw1 : k18_chk1 (tbM18.view.readAt (Elt F) (Rect.unit (s := S50000) (k18_off1 i) S1.size (k18_off1_inb i)).toLoadRect tb (Shape.Idx.first (numel1_S1.symm ▸ Nat.one_pos))) := chk18_1_of_lt _ (hH _)
  have k18_hw2 : k18_chk2 (tbM18.view.readAt (Elt F) (Rect.unit (s := S50000) (k18_off3 i) S1.size (k18_off3_inb i)).toLoadRect tb (Shape.Idx.first (numel1_S1.symm ▸ Nat.one_pos))) := chk18_2_of_lt _ (hH _)
  have k18_hw3 : k18_chk3 (tbM18.view.readAt (Elt F) (Rect.unit (s := S50000) (k18_off5 i) S1.size (k18_off5_inb i)).toLoadRect tb (Shape.Idx.first (numel1_S1.symm ▸ Nat.one_pos))) := chk18_3_of_lt _ (hH _)
  have k18_hw4 : k18_chk4 (tbM18.view.readAt (Elt F) (Rect.unit (s := S50000) (k18_off7 i) S1.size (k18_off7_inb i)).toLoadRect tb (Shape.Idx.first (numel1_S1.symm ▸ Nat.one_pos))) := chk18_4_of_lt _ (hH _)
  have k18_hw5 : k18_chk5 (tbM18.view.readAt (Elt F) (Rect.unit (s := S50000) (k18_off9 i) S1.size (k18_off9_inb i)).toLoadRect tb (Shape.Idx.first (numel1_S1.symm ▸ Nat.one_pos))) := chk18_5_of_lt _ (hH _)
  have k18_hw6 : k18_chk6 (tbM18.view.readAt (Elt F) (Rect.unit (s := S50000) (k18_off11 i) S1.size (k18_off11_inb i)).toLoadRect tb (Shape.Idx.first (numel1_S1.symm ▸ Nat.one_pos))) := chk18_6_of_lt _ (hH _)
  have k18_hw7 : k18_chk7 (tbM18.view.readAt (Elt F) (Rect.unit (s := S50000) (k18_off13 i) S1.size (k18_off13_inb i)).toLoadRect tb (Shape.Idx.first (numel1_S1.symm ▸ Nat.one_pos))) := chk18_7_of_lt _ (hH _)
  have k18_hw8 : k18_chk8 (tbM18.view.readAt (Elt F) (Rect.unit (s := S50000) (k18_off15 i) S1.size (k18_off15_inb i)).toLoadRect tb (Shape.Idx.first (numel1_S1.symm ▸ Nat.one_pos))) := chk18_8_of_lt _ (hH _)
  have k18_hw9 : k18_chk9 (tbM18.view.readAt (Elt F) (Rect.unit (s := S50000) (k18_off17 i) S1.size (k18_off17_inb i)).toLoadRect tb (Shape.Idx.first (numel1_S1.symm ▸ Nat.one_pos))) := chk18_9_of_lt _ (hH _)
  have k18_hw10 : k18_chk10 (tbM18.view.readAt (Elt F) (Rect.unit (s := S50000) (k18_off19 i) S1.size (k18_off19_inb i)).toLoadRect tb (Shape.Idx.first (numel1_S1.symm ▸ Nat.one_pos))) := chk18_10_of_lt _ (hH _)
  have k18_hw11 : k18_chk11 (tbM18.view.readAt (Elt F) (Rect.unit (s := S50000) (k18_off21 i) S1.size (k18_off21_inb i)).toLoadRect tb (Shape.Idx.first (numel1_S1.symm ▸ Nat.one_pos))) := chk18_11_of_lt _ (hH _)
  have k18_hw12 : k18_chk12 (tbM18.view.readAt (Elt F) (Rect.unit (s := S50000) (k18_off23 i) S1.size (k18_off23_inb i)).toLoadRect tb (Shape.Idx.first (numel1_S1.symm ▸ Nat.one_pos))) := chk18_12_of_lt _ (hH _)
  have k18_hw13 : k18_chk13 (tbM18.view.readAt (Elt F) (Rect.unit (s := S50000) (k18_off25 i) S1.size (k18_off25_inb i)).toLoadRect tb (Shape.Idx.first (numel1_S1.symm ▸ Nat.one_pos))) := chk18_13_of_lt _ (hH _)
  have k18_hw14 : k18_chk14 (tbM18.view.readAt (Elt F) (Rect.unit (s := S50000) (k18_off27 i) S1.size (k18_off27_inb i)).toLoadRect tb (Shape.Idx.first (numel1_S1.symm ▸ Nat.one_pos))) := chk18_14_of_lt _ (hH _)
  have k18_hw15 : k18_chk15 (tbM18.view.readAt (Elt F) (Rect.unit (s := S50000) (k18_off29 i) S1.size (k18_off29_inb i)).toLoadRect tb (Shape.Idx.first (numel1_S1.symm ▸ Nat.one_pos))) := chk18_15_of_lt _ (hH _)
  have k18_hw16 : k18_chk16 (tbM18.view.readAt (Elt F) (Rect.unit (s := S50000) (k18_off31 i) S1.size (k18_off31_inb i)).toLoadRect tb (Shape.Idx.first (numel1_S1.symm ▸ Nat.one_pos))) := chk18_16_of_lt _ (hH _)
  refine ⟨?_, fun W K => ?run⟩
  case run =>
    simp only [cc18_kernel_eq_skeleton]; unfold cc18_kernel_skel
    simp only [k18_part7_eq_skeleton]; unfold k18_part7_skel
    simp only [k18_part1_eq_skeleton, k18_part2_eq_skeleton, k18_part3_eq_skeleton, k18_part4_eq_skeleton, k18_part5_eq_skeleton, k18_part6_eq_skeleton]
    unfold owns sems18
    iintro ⟨⟨%f0, %hf0, H0⟩, ⟨%d1, %f1, -, H18⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks18 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k18_hw1 | sl_exact k18_hw2 | sl_exact k18_hw3 | sl_exact k18_hw4 | sl_exact k18_hw5 | sl_exact k18_hw6 | sl_exact k18_hw7 | sl_exact k18_hw8 | sl_exact k18_hw9 | sl_exact k18_hw10 | sl_exact k18_hw11 | sl_exact k18_hw12 | sl_exact k18_hw13 | sl_exact k18_hw14 | sl_exact k18_hw15 | sl_exact k18_hw16)
    sl_step
    iapply Hk
    isplitl [H0]
    · iexists _; isplitr; · ipureintro; exact harg3.read_unread _
      iexact H0
    isplitl [H18]; · iexists _; iexact H18
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks18 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg18 (F := F)).Adm)

/-- Each window's current staging memref at point t, spelled as the pipeline passes it, and its wholeness. -/
abbrev ms18_0 (t : Fin (cfg18 a).N) : Memref sig .tc .vmem S16x1 .f32 := spec18_0.stage ((cfg18 a).slots t 0)
abbrev hs18_0 (t : Fin (cfg18 a).N) : (ms18_0 a t).IsWhole := hstage18_0 (((cfg18 a).slots t 0).cast nbuf18_0)
abbrev ms18_1 (t : Fin (cfg18 a).N) : Memref sig .tc .vmem S16x262 .f32 := spec18_1.stage ((cfg18 a).slots t 1)
abbrev hs18_1 (t : Fin (cfg18 a).N) : (ms18_1 a t).IsWhole := hstage18_1 (((cfg18 a).slots t 1).cast nbuf18_1)

/-- The kernel body at point t, on what the pipeline calls it with. -/
abbrev bodyAt18 (t : Fin (cfg18 a).N) : Prog (TpuEff nD τ sig (Elt F) Λ₀ .tc) PUnit :=
  cc18_kernel (grid18.coords t) tbM18 (Memref.isWhole_whole _) hbM18 (Memref.isWhole_whole _) (ms18_0 a t) (hs18_0 a t) (ms18_1 a t) (hs18_1 a t) scM18 (Memref.isWhole_whole _) cc18_scratch1

/-! ## The invariant, conjunct by conjunct -/

/-- The sixteen own cells at zero, listed. -/
theorem ownSems018_eq (c : Dev nD) :
    (Pipeline.ownSems0 (Ix := Unit) (Name := ℕ) (U := Pipeline.UD sig nD τ) (Lvl := ℕ) (Val := Elt F) (τ := τ) osem18 c : sProp 𝕄) = sems18 c := by
  rw [Pipeline.ownSems0_eq_of_list c osem18 [0, 1, 2, 3, 4, 5, 6, 7, 8, 9, 10, 11, 12, 13, 14, 15] (by decide) (by decide)]; rfl

/-- The gathered array's points-to at the region-entry contents. -/
theorem hbmPts18_eq (c : Dev nD) :
    (bigSep H18 (fun b => ((c : Thread nD τ).loc b) ↦{fullShare} V c b) : sProp 𝕄) = iprop(hbPt18 c hbM18 (V c main_v71)) := by
  rw [BI.bigSep_eq_bigSepL_of_eq [main_v71] (by decide) (by decide)]; rfl

/-- The row table, whole, at the contents the region is launched with. -/
theorem prefHeld18_eq (c : Dev nD) :
    (Pipeline.prefHeld (Ix := Unit) (Name := ℕ) (U := Pipeline.UD sig nD τ) (Lvl := ℕ) pre18 c (fun _ => fullShare) a.1 : sProp 𝕄) = iprop(hbPt18 c tbM18 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD18_eq (c : Dev nD) :
    (Pipeline.ΦD osem18 spec18 H18 V c : sProp 𝕄)
      = iprop(iprop((∃ d, owns (c : Thread nD τ) scM18 fullShare d) ∗ Pipeline.scopedRestBut (Ix := Unit) (Name := ℕ) (U := Pipeline.UD sig nD τ) (Lvl := ℕ) (Val := Elt F) spec18 c [cc18_scratch0])
          ∗ (∃ r, prngReg c r) ∗ sems18 c ∗ iprop(hbPt18 c hbM18 (V c main_v71))) := by
  rw [Pipeline.ΦD_eq, scopedRest18_split, ownSems018_eq, hbmPts18_eq]; simp only [scM18, owns_whole]; try rfl

/-! ## The windows' blocks -/

/-- Window w's block at point t, read off its array as the region finds it. -/
def iblk18 (c : Dev nD) (w : Fin (cfg18 a).W) (t : Fin (cfg18 a).N) : (((cfg18 a).win w).xblock ((cfg18 a).grid.coords t)).Idx → Elt F ((cfg18 a).win w).elt :=
  (((cfg18 a).win w).blk t).view.read (Elt F) (V c (Pipeline.arrRef spec18 w))

/-- Input window 0's current staging buffer holds its block at every point, fetched there or not. -/
theorem before18_0_of {c : Dev nD} (dat : Dat τ (Elt F) Unit ℕ (Pipeline.UD sig nD τ) ℕ (cfg18 a) c) (hA : dat.A 0 = V c (Pipeline.arrRef spec18 0))
    (hafter : ∀ t, dat.after 0 t = iblk18 V a c 0 t) (t : Fin (cfg18 a).N) (d) : dat.before 0 t d = iblk18 V a c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-! ## What the run leaves in the output window's buffer -/

/-- The run's pieces for the output tile its block, so they cover it. -/
theorem cover18_1 (c : Dev nD) (i : grid18.Coords) (arg3 : Memref sig .tc .vmem S16x1 .f32) (harg3 : arg3.IsWhole) (arg4 : Memref sig .tc .vmem S16x262 .f32) (harg4 : arg4.IsWhole)
    (x0 : Vec F S16x1 .f32) (tb : HbBuf18 (F := F) c tbM18) (fh0 : HbBuf18 (F := F) c hbM18) (hT : ∀ x, (tb x).toNat < 50000) (y : S16x262.Idx) :
    ∃ pc ∈ (kernelRun18 c i arg3 harg3 arg4 harg4 x0 tb fh0 hT).1, y ∈ pc.1.set :=
  View.cover_of_tiledL (kernelRun18 c i arg3 harg3 arg4 harg4 x0 tb fh0 hT).1 S16x262.size (by sl_kernel_rfl) y

/-- One staging buffer of the output window, through which its contents are stated. -/
abbrev VO18_1 : View sig .tc .vmem S16x262 .f32 := (Memref.whole cc18_stg1_0 : Memref sig .tc .vmem S16x262 .f32).view

/-- What the run leaves in the output's staging buffer: its pieces read back over junk. -/
def out18_1 (c : Dev nD) (i : grid18.Coords) (arg3 : Memref sig .tc .vmem S16x1 .f32) (harg3 : arg3.IsWhole) (arg4 : Memref sig .tc .vmem S16x262 .f32) (harg4 : arg4.IsWhole)
    (x0 : Vec F S16x1 .f32) (tb : HbBuf18 (F := F) c tbM18) (fh0 : HbBuf18 (F := F) c hbM18) (hT : ∀ x, (tb x).toNat < 50000) : Vec F S16x262 .f32 :=
  VO18_1.read (Elt F) (VO18_1.writes (Elt F) VO18_1.junk (kernelRun18 c i arg3 harg3 arg4 harg4 x0 tb fh0 hT).1)

/-- Every word of the table is a row of the gathered array, from the same of its words by position. -/
theorem tbl_lt18 (hH : ∀ j : Fin 50000, ((a.1 0) (ValueIdx.ix1 j)).toNat < 50000) (c : Dev nD) : ∀ x, (((a.1 0 : HbBuf18 (F := F) c tbM18)) x).toNat < 50000 :=
  fun x => by rw [ValueIdx.eq_ix1 x]; exact hH _

/-- What the output's staging buffer holds after the body at point t: the run's contents at the point's memrefs, the
    norm block, the table and the gathered array. -/
def outsAt18 (hH : ∀ j : Fin 50000, ((a.1 0) (ValueIdx.ix1 j)).toNat < 50000) (c : Dev nD) (t : Fin (cfg18 a).N) : Vec F S16x262 .f32 :=
  out18_1 c (grid18.coords t) (ms18_0 a t) (hs18_0 a t) (ms18_1 a t) (hs18_1 a t) (iblk18 V a c 0 t) (a.1 0) (V c main_v71) (tbl_lt18 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat18 (hH : ∀ j : Fin 50000, ((a.1 0) (ValueIdx.ix1 j)).toNat < 50000) (c : Dev nD) : Dat τ (Elt F) Unit ℕ (Pipeline.UD sig nD τ) ℕ (cfg18 a) c where
  A w := V c (Pipeline.arrRef spec18 w)
  after w t := match w with
    | ⟨0, _⟩ => iblk18 V a c 0 t
    | ⟨1, _⟩ => (outsAt18 V a hH c t)
  Φ _ := iprop(Pipeline.ΦD osem18 spec18 H18 V c ∗ Pipeline.prefHeld pre18 c (fun _ => fullShare) a.1)
  q _ := fullShare
  owed _ := 0

/-- The proof data's arrays are the region-entry contents. -/
theorem A_eq18 (hH : ∀ j : Fin 50000, ((a.1 0) (ValueIdx.ix1 j)).toNat < 50000) (c : Dev nD) (w : Fin (cfg18 a).W) : (dat18 V a hH c).A w = V c (Pipeline.arrRef spec18 w) := by
  dsimp only [dat18]

/-- What the body leaves, window by window. -/
theorem after18_0 (hH : ∀ j : Fin 50000, ((a.1 0) (ValueIdx.ix1 j)).toNat < 50000) (c : Dev nD) (t : Fin (cfg18 a).N) : (dat18 V a hH c).after 0 t = iblk18 V a c 0 t := by dsimp only [dat18]; try rfl
theorem after18_1 (hH : ∀ j : Fin 50000, ((a.1 0) (ValueIdx.ix1 j)).toNat < 50000) (c : Dev nD) (t : Fin (cfg18 a).N) : (dat18 V a hH c).after 1 t = (outsAt18 V a hH c t) := by dsimp only [dat18]; try rfl

/-- The input's current staging buffer holds its block at every point, fetched there or not. -/
theorem before18_0 (hH : ∀ j : Fin 50000, ((a.1 0) (ValueIdx.ix1 j)).toNat < 50000) (c : Dev nD) (t : Fin (cfg18 a).N) (d) : (dat18 V a hH c).before 0 t d = iblk18 V a c 0 t :=
  before18_0_of V a (dat18 V a hH c) (A_eq18 V a hH c 0) (after18_0 V a hH c) t d

/-! ## The body obligation, at a generic point -/

/-- What the body is called with at point t, the windows one by one, -/
def bodyPre18 (hH : ∀ j : Fin 50000, ((a.1 0) (ValueIdx.ix1 j)).toNat < 50000) (c : Dev nD) (t : Fin (cfg18 a).N) : sProp 𝕄 :=
  iprop((dat18 V a hH c).Φ t.castSucc ∗ (dat18 V a hH c).owesAt () t.castSucc
    ∗ (∃ d, owns (c : Thread nD τ) (ms18_0 a t) fullShare ((dat18 V a hH c).before 0 t d))
    ∗ (∃ d, owns (c : Thread nD τ) (ms18_1 a t) fullShare ((dat18 V a hH c).before 1 t d)))

/-- and what it returns. -/
def bodyPost18 (hH : ∀ j : Fin 50000, ((a.1 0) (ValueIdx.ix1 j)).toNat < 50000) (c : Dev nD) (t : Fin (cfg18 a).N) : sProp 𝕄 :=
  iprop((dat18 V a hH c).Φ t.succ ∗ (dat18 V a hH c).owesAt () t.succ
    ∗ owns (c : Thread nD τ) (ms18_0 a t) fullShare ((dat18 V a hH c).after 0 t)
    ∗ owns (c : Thread nD τ) (ms18_1 a t) fullShare ((dat18 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body18 (hH : ∀ j : Fin 50000, ((a.1 0) (ValueIdx.ix1 j)).toNat < 50000) (c : Dev nD) (t : Fin (cfg18 a).N) :
    bodyPre18 V a hH c t ⊢ wp frame (wpE (defs₀ (F := F)) Variants.none c none) Set.univ (bodyAt18 a t) (fun _ => bodyPost18 V a hH c t) := by
  unfold bodyPre18 bodyPost18 bodyAt18
  simp only [before18_0]
  rw [show (dat18 V a hH c).Φ t.succ = (dat18 V a hH c).Φ t.castSucc from rfl,
    after18_0, after18_1]
  rw [show (dat18 V a hH c).Φ t.castSucc = iprop(Pipeline.ΦD osem18 spec18 H18 V c ∗ Pipeline.prefHeld pre18 c (fun _ => fullShare) a.1) from rfl, PhiD18_eq, prefHeld18_eq]
  unfold Dat.owesAt Pipeline.owesWithin
  rw [show (dat18 V a hH c).owed t.castSucc = 0 from rfl, show (dat18 V a hH c).owed t.succ = 0 from rfl]
  unfold outsAt18
  unfold out18_1
  iintro ⟨⟨⟨⟨HS0, HSr⟩, Hg, Hq, Hh0⟩, HT⟩, ⟨%W, -, HW⟩, ⟨%d0, H0⟩, ⟨%d1, H18⟩⟩
  iapply ((kernelRun18 c (grid18.coords t) _ _ _ _ (iblk18 V a c 0 t) (a.1 0) (V c main_v71) (tbl_lt18 a hH c)).2 W _)
  isplitl [H0]; · iexact H0
  isplitl [H18]; · iexists _; iexact H18
  isplitl [HS0]; · iexact HS0
  isplitl [Hq]; · iexact Hq
  isplitl [Hh0]; · iexact Hh0
  isplitl [HT]; · iexact HT
  isplitl [HW]; · iexact HW
  iintro ⟨H0, ⟨%e1, H18⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H18
  ipureintro; exact View.read_writes_of_cover _ _ _ _ _ (cover18_1 c _ _ _ _ _ _ _ _ _)

/-- The library's body obligation, at every point. -/
theorem body_obligation18 (hH : ∀ j : Fin 50000, ((a.1 0) (ValueIdx.ix1 j)).toNat < 50000) (c : Dev nD) : BodyObligation (dat18 (F := F) V a hH c) (defs₀ (F := F)) Variants.none () Set.univ := fun t => by
  rw [bigSep_W18, bigSep_W18]
  exact sound_body18 V a hH c t

end Cert.KernelIdeal.Hand

end
-- ==== Proof.G19.lean ====
import proofs.«414392_j7919919694132_2_alg».proof.Proof.Gen.KernelIdeal.Launch
import proofs.«414392_j7919919694132_2_alg».proof.Proof.Gen.KernelIdeal.Skeleton
import proofs.«414392_j7919919694132_2_alg».proof.Proof.Gen.KernelIdeal.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 19 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem19 : Fin 16 → SemLoc sig := fun j =>
  (![SemLoc.dma 354, SemLoc.dma 355, SemLoc.dma 356, SemLoc.dma 357, SemLoc.dma 358, SemLoc.dma 359, SemLoc.dma 360, SemLoc.dma 361,
     SemLoc.dma 362, SemLoc.dma 363, SemLoc.dma 364, SemLoc.dma 365, SemLoc.dma 366, SemLoc.dma 367, SemLoc.dma 368, SemLoc.dma 369] : Fin 16 → SemLoc sig) j
theorem ownSemFacts19 : Pipeline.OwnSemFacts spec19 osem19 := by decide

/-- The HBM operand the body gathers rows from: unscoped, no window's array, no table. -/
def H19 : Finset (Ref sig .tc) := {main_v71}
theorem H19_sub : H19 ⊆ Pipeline.restRefsP sig pre19 spec19 := by decide

/-- The operands the pipeline does not stage, whole. -/
abbrev tbM19 : Memref sig .tc .smem S50000 .i32 := Memref.whole main_v97
abbrev hbM19 : Memref sig .tc .hbm S50000x262 .f32 := Memref.whole main_v71
abbrev scM19 : Memref sig .tc .vmem S16x262 .f32 := Memref.whole cc19_scratch0

/-- A whole memref's buffer on core `c`, and it held whole at `f`. -/
abbrev HbBuf19 (c : Dev nD) {sp : Space} {S : Shape} {e : EltTy} (M : Memref sig .tc sp S e) : Type := Buf (Elt F) (M.view.loc (c : Thread nD τ))
abbrev hbPt19 (c : Dev nD) {sp : Space} {S : Shape} {e : EltTy} (M : Memref sig .tc sp S e) (f : HbBuf19 (F := F) c M) : sProp 𝕄 :=
  M.view.loc (c : Thread nD τ) ↦{fullShare} f

/-- The sixteen own cells at zero. -/
abbrev sems19 (c : Dev nD) : sProp 𝕄 :=
  iprop(semVal ((c : Thread nD τ), SemLoc.dma 354) 0 ∗ semVal ((c : Thread nD τ), SemLoc.dma 355) 0 ∗ semVal ((c : Thread nD τ), SemLoc.dma 356) 0 ∗ semVal ((c : Thread nD τ), SemLoc.dma 357) 0 ∗ semVal ((c : Thread nD τ), SemLoc.dma 358) 0 ∗ semVal ((c : Thread nD τ), SemLoc.dma 359) 0 ∗ semVal ((c : Thread nD τ), SemLoc.dma 360) 0 ∗ semVal ((c : Thread nD τ), SemLoc.dma 361) 0 ∗ semVal ((c : Thread nD τ), SemLoc.dma 362) 0 ∗ semVal ((c : Thread nD τ), SemLoc.dma 363) 0 ∗ semVal ((c : Thread nD τ), SemLoc.dma 364) 0 ∗ semVal ((c : Thread nD τ), SemLoc.dma 365) 0 ∗ semVal ((c : Thread nD τ), SemLoc.dma 366) 0 ∗ semVal ((c : Thread nD τ), SemLoc.dma 367) 0 ∗ semVal ((c : Thread nD τ), SemLoc.dma 368) 0 ∗ semVal ((c : Thread nD τ), SemLoc.dma 369) 0)

/-- A row index inside the gathered array puts the one-row slice inside it. -/
theorem row_inb19 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk19_1_of_lt (w : BitVec 32) (h : w.toNat < 50000) : k19_chk1 w := ⟨row_inb19 w h, row_inb19 w h⟩
theorem chk19_2_of_lt (w : BitVec 32) (h : w.toNat < 50000) : k19_chk2 w := ⟨row_inb19 w h, row_inb19 w h⟩
theorem chk19_3_of_lt (w : BitVec 32) (h : w.toNat < 50000) : k19_chk3 w := ⟨row_inb19 w h, row_inb19 w h⟩
theorem chk19_4_of_lt (w : BitVec 32) (h : w.toNat < 50000) : k19_chk4 w := ⟨row_inb19 w h, row_inb19 w h⟩
theorem chk19_5_of_lt (w : BitVec 32) (h : w.toNat < 50000) : k19_chk5 w := ⟨row_inb19 w h, row_inb19 w h⟩
theorem chk19_6_of_lt (w : BitVec 32) (h : w.toNat < 50000) : k19_chk6 w := ⟨row_inb19 w h, row_inb19 w h⟩
theorem chk19_7_of_lt (w : BitVec 32) (h : w.toNat < 50000) : k19_chk7 w := ⟨row_inb19 w h, row_inb19 w h⟩
theorem chk19_8_of_lt (w : BitVec 32) (h : w.toNat < 50000) : k19_chk8 w := ⟨row_inb19 w h, row_inb19 w h⟩
theorem chk19_9_of_lt (w : BitVec 32) (h : w.toNat < 50000) : k19_chk9 w := ⟨row_inb19 w h, row_inb19 w h⟩
theorem chk19_10_of_lt (w : BitVec 32) (h : w.toNat < 50000) : k19_chk10 w := ⟨row_inb19 w h, row_inb19 w h⟩
theorem chk19_11_of_lt (w : BitVec 32) (h : w.toNat < 50000) : k19_chk11 w := ⟨row_inb19 w h, row_inb19 w h⟩
theorem chk19_12_of_lt (w : BitVec 32) (h : w.toNat < 50000) : k19_chk12 w := ⟨row_inb19 w h, row_inb19 w h⟩
theorem chk19_13_of_lt (w : BitVec 32) (h : w.toNat < 50000) : k19_chk13 w := ⟨row_inb19 w h, row_inb19 w h⟩
theorem chk19_14_of_lt (w : BitVec 32) (h : w.toNat < 50000) : k19_chk14 w := ⟨row_inb19 w h, row_inb19 w h⟩
theorem chk19_15_of_lt (w : BitVec 32) (h : w.toNat < 50000) : k19_chk15 w := ⟨row_inb19 w h, row_inb19 w h⟩
theorem chk19_16_of_lt (w : BitVec 32) (h : w.toNat < 50000) : k19_chk16 w := row_inb19 w h

/-- A whole points-to as what stays behind, sixteen read tokens numbered `b + 15` down to `b`, and the tokens below
    `b` kept as one family. -/
theorem toksAt19 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 354 … 369. -/
theorem toks19 {ℓ : Loc nD τ sig} (f : Buf (Elt F) ℓ) :
    (ℓ ↦{fullShare} f : sProp 𝕄) ⊣⊢ iprop((ℓ ↦{Transfers.shareDrop fullShare 370} f) ∗ (ℓ ↦{Transfers.shareTokN fullShare 369} f) ∗ (ℓ ↦{Transfers.shareTokN fullShare 368} f) ∗ (ℓ ↦{Transfers.shareTokN fullShare 367} f) ∗ (ℓ ↦{Transfers.shareTokN fullShare 366} f) ∗ (ℓ ↦{Transfers.shareTokN fullShare 365} f) ∗ (ℓ ↦{Transfers.shareTokN fullShare 364} f) ∗ (ℓ ↦{Transfers.shareTokN fullShare 363} f) ∗ (ℓ ↦{Transfers.shareTokN fullShare 362} f) ∗ (ℓ ↦{Transfers.shareTokN fullShare 361} f) ∗ (ℓ ↦{Transfers.shareTokN fullShare 360} f) ∗ (ℓ ↦{Transfers.shareTokN fullShare 359} f) ∗ (ℓ ↦{Transfers.shareTokN fullShare 358} f) ∗ (ℓ ↦{Transfers.shareTokN fullShare 357} f) ∗ (ℓ ↦{Transfers.shareTokN fullShare 356} f) ∗ (ℓ ↦{Transfers.shareTokN fullShare 355} f) ∗ (ℓ ↦{Transfers.shareTokN fullShare 354} f)
      ∗ BI.bigSep (Finset.range 354) fun k => ℓ ↦{Transfers.shareTokN fullShare k} f) :=
  toksAt19 f 354

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun19 (c : Dev nD) (i : grid19.Coords) (arg3 : Memref sig .tc .vmem S16x1 .f32) (harg3 : arg3.IsWhole) (arg4 : Memref sig .tc .vmem S16x262 .f32) (harg4 : arg4.IsWhole)
    (x0 : Vec F S16x1 .f32) (tb : HbBuf19 (F := F) c tbM19) (fh0 : HbBuf19 (F := F) c hbM19) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM19 fullShare d) ∗ sems19 c ∗ hbPt19 c hbM19 fh0 ∗ hbPt19 c tbM19 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM19 fullShare d) ∗ sems19 c ∗ hbPt19 c hbM19 fh0 ∗ hbPt19 c tbM19 tb ∗ (∃ W', owes (c : Thread nD τ) 0 W')) -∗ K ⟨⟩))
          ⊢ wp frame (wpE (defs₀ (F := F)) Variants.none c none) Set.univ (cc19_kernel i tbM19 (Memref.isWhole_whole _) hbM19 (Memref.isWhole_whole _) arg3 harg3 arg4 harg4 scM19 (Memref.isWhole_whole _) cc19_scratch1) K } := by
  have k19_hw1 : k19_chk1 (tbM19.view.readAt (Elt F) (Rect.unit (s := S50000) (k19_off1 i) S1.size (k19_off1_inb i)).toLoadRect tb (Shape.Idx.first (numel1_S1.symm ▸ Nat.one_pos))) := chk19_1_of_lt _ (hH _)
  have k19_hw2 : k19_chk2 (tbM19.view.readAt (Elt F) (Rect.unit (s := S50000) (k19_off3 i) S1.size (k19_off3_inb i)).toLoadRect tb (Shape.Idx.first (numel1_S1.symm ▸ Nat.one_pos))) := chk19_2_of_lt _ (hH _)
  have k19_hw3 : k19_chk3 (tbM19.view.readAt (Elt F) (Rect.unit (s := S50000) (k19_off5 i) S1.size (k19_off5_inb i)).toLoadRect tb (Shape.Idx.first (numel1_S1.symm ▸ Nat.one_pos))) := chk19_3_of_lt _ (hH _)
  have k19_hw4 : k19_chk4 (tbM19.view.readAt (Elt F) (Rect.unit (s := S50000) (k19_off7 i) S1.size (k19_off7_inb i)).toLoadRect tb (Shape.Idx.first (numel1_S1.symm ▸ Nat.one_pos))) := chk19_4_of_lt _ (hH _)
  have k19_hw5 : k19_chk5 (tbM19.view.readAt (Elt F) (Rect.unit (s := S50000) (k19_off9 i) S1.size (k19_off9_inb i)).toLoadRect tb (Shape.Idx.first (numel1_S1.symm ▸ Nat.one_pos))) := chk19_5_of_lt _ (hH _)
  have k19_hw6 : k19_chk6 (tbM19.view.readAt (Elt F) (Rect.unit (s := S50000) (k19_off11 i) S1.size (k19_off11_inb i)).toLoadRect tb (Shape.Idx.first (numel1_S1.symm ▸ Nat.one_pos))) := chk19_6_of_lt _ (hH _)
  have k19_hw7 : k19_chk7 (tbM19.view.readAt (Elt F) (Rect.unit (s := S50000) (k19_off13 i) S1.size (k19_off13_inb i)).toLoadRect tb (Shape.Idx.first (numel1_S1.symm ▸ Nat.one_pos))) := chk19_7_of_lt _ (hH _)
  have k19_hw8 : k19_chk8 (tbM19.view.readAt (Elt F) (Rect.unit (s := S50000) (k19_off15 i) S1.size (k19_off15_inb i)).toLoadRect tb (Shape.Idx.first (numel1_S1.symm ▸ Nat.one_pos))) := chk19_8_of_lt _ (hH _)
  have k19_hw9 : k19_chk9 (tbM19.view.readAt (Elt F) (Rect.unit (s := S50000) (k19_off17 i) S1.size (k19_off17_inb i)).toLoadRect tb (Shape.Idx.first (numel1_S1.symm ▸ Nat.one_pos))) := chk19_9_of_lt _ (hH _)
  have k19_hw10 : k19_chk10 (tbM19.view.readAt (Elt F) (Rect.unit (s := S50000) (k19_off19 i) S1.size (k19_off19_inb i)).toLoadRect tb (Shape.Idx.first (numel1_S1.symm ▸ Nat.one_pos))) := chk19_10_of_lt _ (hH _)
  have k19_hw11 : k19_chk11 (tbM19.view.readAt (Elt F) (Rect.unit (s := S50000) (k19_off21 i) S1.size (k19_off21_inb i)).toLoadRect tb (Shape.Idx.first (numel1_S1.symm ▸ Nat.one_pos))) := chk19_11_of_lt _ (hH _)
  have k19_hw12 : k19_chk12 (tbM19.view.readAt (Elt F) (Rect.unit (s := S50000) (k19_off23 i) S1.size (k19_off23_inb i)).toLoadRect tb (Shape.Idx.first (numel1_S1.symm ▸ Nat.one_pos))) := chk19_12_of_lt _ (hH _)
  have k19_hw13 : k19_chk13 (tbM19.view.readAt (Elt F) (Rect.unit (s := S50000) (k19_off25 i) S1.size (k19_off25_inb i)).toLoadRect tb (Shape.Idx.first (numel1_S1.symm ▸ Nat.one_pos))) := chk19_13_of_lt _ (hH _)
  have k19_hw14 : k19_chk14 (tbM19.view.readAt (Elt F) (Rect.unit (s := S50000) (k19_off27 i) S1.size (k19_off27_inb i)).toLoadRect tb (Shape.Idx.first (numel1_S1.symm ▸ Nat.one_pos))) := chk19_14_of_lt _ (hH _)
  have k19_hw15 : k19_chk15 (tbM19.view.readAt (Elt F) (Rect.unit (s := S50000) (k19_off29 i) S1.size (k19_off29_inb i)).toLoadRect tb (Shape.Idx.first (numel1_S1.symm ▸ Nat.one_pos))) := chk19_15_of_lt _ (hH _)
  have k19_hw16 : k19_chk16 (tbM19.view.readAt (Elt F) (Rect.unit (s := S50000) (k19_off31 i) S1.size (k19_off31_inb i)).toLoadRect tb (Shape.Idx.first (numel1_S1.symm ▸ Nat.one_pos))) := chk19_16_of_lt _ (hH _)
  refine ⟨?_, fun W K => ?run⟩
  case run =>
    simp only [cc19_kernel_eq_skeleton]; unfold cc19_kernel_skel
    simp only [k19_part7_eq_skeleton]; unfold k19_part7_skel
    simp only [k19_part1_eq_skeleton, k19_part2_eq_skeleton, k19_part3_eq_skeleton, k19_part4_eq_skeleton, k19_part5_eq_skeleton, k19_part6_eq_skeleton]
    unfold owns sems19
    iintro ⟨⟨%f0, %hf0, H0⟩, ⟨%d1, %f1, -, H19⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks19 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k19_hw1 | sl_exact k19_hw2 | sl_exact k19_hw3 | sl_exact k19_hw4 | sl_exact k19_hw5 | sl_exact k19_hw6 | sl_exact k19_hw7 | sl_exact k19_hw8 | sl_exact k19_hw9 | sl_exact k19_hw10 | sl_exact k19_hw11 | sl_exact k19_hw12 | sl_exact k19_hw13 | sl_exact k19_hw14 | sl_exact k19_hw15 | sl_exact k19_hw16)
    sl_step
    iapply Hk
    isplitl [H0]
    · iexists _; isplitr; · ipureintro; exact harg3.read_unread _
      iexact H0
    isplitl [H19]; · iexists _; iexact H19
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks19 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg19 (F := F)).Adm)

/-- Each window's current staging memref at point t, spelled as the pipeline passes it, and its wholeness. -/
abbrev ms19_0 (t : Fin (cfg19 a).N) : Memref sig .tc .vmem S16x1 .f32 := spec19_0.stage ((cfg19 a).slots t 0)
abbrev hs19_0 (t : Fin (cfg19 a).N) : (ms19_0 a t).IsWhole := hstage19_0 (((cfg19 a).slots t 0).cast nbuf19_0)
abbrev ms19_1 (t : Fin (cfg19 a).N) : Memref sig .tc .vmem S16x262 .f32 := spec19_1.stage ((cfg19 a).slots t 1)
abbrev hs19_1 (t : Fin (cfg19 a).N) : (ms19_1 a t).IsWhole := hstage19_1 (((cfg19 a).slots t 1).cast nbuf19_1)

/-- The kernel body at point t, on what the pipeline calls it with. -/
abbrev bodyAt19 (t : Fin (cfg19 a).N) : Prog (TpuEff nD τ sig (Elt F) Λ₀ .tc) PUnit :=
  cc19_kernel (grid19.coords t) tbM19 (Memref.isWhole_whole _) hbM19 (Memref.isWhole_whole _) (ms19_0 a t) (hs19_0 a t) (ms19_1 a t) (hs19_1 a t) scM19 (Memref.isWhole_whole _) cc19_scratch1

/-! ## The invariant, conjunct by conjunct -/

/-- The sixteen own cells at zero, listed. -/
theorem ownSems019_eq (c : Dev nD) :
    (Pipeline.ownSems0 (Ix := Unit) (Name := ℕ) (U := Pipeline.UD sig nD τ) (Lvl := ℕ) (Val := Elt F) (τ := τ) osem19 c : sProp 𝕄) = sems19 c := by
  rw [Pipeline.ownSems0_eq_of_list c osem19 [0, 1, 2, 3, 4, 5, 6, 7, 8, 9, 10, 11, 12, 13, 14, 15] (by decide) (by decide)]; rfl

/-- The gathered array's points-to at the region-entry contents. -/
theorem hbmPts19_eq (c : Dev nD) :
    (bigSep H19 (fun b => ((c : Thread nD τ).loc b) ↦{fullShare} V c b) : sProp 𝕄) = iprop(hbPt19 c hbM19 (V c main_v71)) := by
  rw [BI.bigSep_eq_bigSepL_of_eq [main_v71] (by decide) (by decide)]; rfl

/-- The row table, whole, at the contents the region is launched with. -/
theorem prefHeld19_eq (c : Dev nD) :
    (Pipeline.prefHeld (Ix := Unit) (Name := ℕ) (U := Pipeline.UD sig nD τ) (Lvl := ℕ) pre19 c (fun _ => fullShare) a.1 : sProp 𝕄) = iprop(hbPt19 c tbM19 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD19_eq (c : Dev nD) :
    (Pipeline.ΦD osem19 spec19 H19 V c : sProp 𝕄)
      = iprop(iprop((∃ d, owns (c : Thread nD τ) scM19 fullShare d) ∗ Pipeline.scopedRestBut (Ix := Unit) (Name := ℕ) (U := Pipeline.UD sig nD τ) (Lvl := ℕ) (Val := Elt F) spec19 c [cc19_scratch0])
          ∗ (∃ r, prngReg c r) ∗ sems19 c ∗ iprop(hbPt19 c hbM19 (V c main_v71))) := by
  rw [Pipeline.ΦD_eq, scopedRest19_split, ownSems019_eq, hbmPts19_eq]; simp only [scM19, owns_whole]; try rfl

/-! ## The windows' blocks -/

/-- Window w's block at point t, read off its array as the region finds it. -/
def iblk19 (c : Dev nD) (w : Fin (cfg19 a).W) (t : Fin (cfg19 a).N) : (((cfg19 a).win w).xblock ((cfg19 a).grid.coords t)).Idx → Elt F ((cfg19 a).win w).elt :=
  (((cfg19 a).win w).blk t).view.read (Elt F) (V c (Pipeline.arrRef spec19 w))

/-- Input window 0's current staging buffer holds its block at every point, fetched there or not. -/
theorem before19_0_of {c : Dev nD} (dat : Dat τ (Elt F) Unit ℕ (Pipeline.UD sig nD τ) ℕ (cfg19 a) c) (hA : dat.A 0 = V c (Pipeline.arrRef spec19 0))
    (hafter : ∀ t, dat.after 0 t = iblk19 V a c 0 t) (t : Fin (cfg19 a).N) (d) : dat.before 0 t d = iblk19 V a c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-! ## What the run leaves in the output window's buffer -/

/-- The run's pieces for the output tile its block, so they cover it. -/
theorem cover19_1 (c : Dev nD) (i : grid19.Coords) (arg3 : Memref sig .tc .vmem S16x1 .f32) (harg3 : arg3.IsWhole) (arg4 : Memref sig .tc .vmem S16x262 .f32) (harg4 : arg4.IsWhole)
    (x0 : Vec F S16x1 .f32) (tb : HbBuf19 (F := F) c tbM19) (fh0 : HbBuf19 (F := F) c hbM19) (hT : ∀ x, (tb x).toNat < 50000) (y : S16x262.Idx) :
    ∃ pc ∈ (kernelRun19 c i arg3 harg3 arg4 harg4 x0 tb fh0 hT).1, y ∈ pc.1.set :=
  View.cover_of_tiledL (kernelRun19 c i arg3 harg3 arg4 harg4 x0 tb fh0 hT).1 S16x262.size (by sl_kernel_rfl) y

/-- One staging buffer of the output window, through which its contents are stated. -/
abbrev VO19_1 : View sig .tc .vmem S16x262 .f32 := (Memref.whole cc19_stg1_0 : Memref sig .tc .vmem S16x262 .f32).view

/-- What the run leaves in the output's staging buffer: its pieces read back over junk. -/
def out19_1 (c : Dev nD) (i : grid19.Coords) (arg3 : Memref sig .tc .vmem S16x1 .f32) (harg3 : arg3.IsWhole) (arg4 : Memref sig .tc .vmem S16x262 .f32) (harg4 : arg4.IsWhole)
    (x0 : Vec F S16x1 .f32) (tb : HbBuf19 (F := F) c tbM19) (fh0 : HbBuf19 (F := F) c hbM19) (hT : ∀ x, (tb x).toNat < 50000) : Vec F S16x262 .f32 :=
  VO19_1.read (Elt F) (VO19_1.writes (Elt F) VO19_1.junk (kernelRun19 c i arg3 harg3 arg4 harg4 x0 tb fh0 hT).1)

/-- Every word of the table is a row of the gathered array, from the same of its words by position. -/
theorem tbl_lt19 (hH : ∀ j : Fin 50000, ((a.1 0) (ValueIdx.ix1 j)).toNat < 50000) (c : Dev nD) : ∀ x, (((a.1 0 : HbBuf19 (F := F) c tbM19)) x).toNat < 50000 :=
  fun x => by rw [ValueIdx.eq_ix1 x]; exact hH _

/-- What the output's staging buffer holds after the body at point t: the run's contents at the point's memrefs, the
    norm block, the table and the gathered array. -/
def outsAt19 (hH : ∀ j : Fin 50000, ((a.1 0) (ValueIdx.ix1 j)).toNat < 50000) (c : Dev nD) (t : Fin (cfg19 a).N) : Vec F S16x262 .f32 :=
  out19_1 c (grid19.coords t) (ms19_0 a t) (hs19_0 a t) (ms19_1 a t) (hs19_1 a t) (iblk19 V a c 0 t) (a.1 0) (V c main_v71) (tbl_lt19 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat19 (hH : ∀ j : Fin 50000, ((a.1 0) (ValueIdx.ix1 j)).toNat < 50000) (c : Dev nD) : Dat τ (Elt F) Unit ℕ (Pipeline.UD sig nD τ) ℕ (cfg19 a) c where
  A w := V c (Pipeline.arrRef spec19 w)
  after w t := match w with
    | ⟨0, _⟩ => iblk19 V a c 0 t
    | ⟨1, _⟩ => (outsAt19 V a hH c t)
  Φ _ := iprop(Pipeline.ΦD osem19 spec19 H19 V c ∗ Pipeline.prefHeld pre19 c (fun _ => fullShare) a.1)
  q _ := fullShare
  owed _ := 0

/-- The proof data's arrays are the region-entry contents. -/
theorem A_eq19 (hH : ∀ j : Fin 50000, ((a.1 0) (ValueIdx.ix1 j)).toNat < 50000) (c : Dev nD) (w : Fin (cfg19 a).W) : (dat19 V a hH c).A w = V c (Pipeline.arrRef spec19 w) := by
  dsimp only [dat19]

/-- What the body leaves, window by window. -/
theorem after19_0 (hH : ∀ j : Fin 50000, ((a.1 0) (ValueIdx.ix1 j)).toNat < 50000) (c : Dev nD) (t : Fin (cfg19 a).N) : (dat19 V a hH c).after 0 t = iblk19 V a c 0 t := by dsimp only [dat19]; try rfl
theorem after19_1 (hH : ∀ j : Fin 50000, ((a.1 0) (ValueIdx.ix1 j)).toNat < 50000) (c : Dev nD) (t : Fin (cfg19 a).N) : (dat19 V a hH c).after 1 t = (outsAt19 V a hH c t) := by dsimp only [dat19]; try rfl

/-- The input's current staging buffer holds its block at every point, fetched there or not. -/
theorem before19_0 (hH : ∀ j : Fin 50000, ((a.1 0) (ValueIdx.ix1 j)).toNat < 50000) (c : Dev nD) (t : Fin (cfg19 a).N) (d) : (dat19 V a hH c).before 0 t d = iblk19 V a c 0 t :=
  before19_0_of V a (dat19 V a hH c) (A_eq19 V a hH c 0) (after19_0 V a hH c) t d

/-! ## The body obligation, at a generic point -/

/-- What the body is called with at point t, the windows one by one, -/
def bodyPre19 (hH : ∀ j : Fin 50000, ((a.1 0) (ValueIdx.ix1 j)).toNat < 50000) (c : Dev nD) (t : Fin (cfg19 a).N) : sProp 𝕄 :=
  iprop((dat19 V a hH c).Φ t.castSucc ∗ (dat19 V a hH c).owesAt () t.castSucc
    ∗ (∃ d, owns (c : Thread nD τ) (ms19_0 a t) fullShare ((dat19 V a hH c).before 0 t d))
    ∗ (∃ d, owns (c : Thread nD τ) (ms19_1 a t) fullShare ((dat19 V a hH c).before 1 t d)))

/-- and what it returns. -/
def bodyPost19 (hH : ∀ j : Fin 50000, ((a.1 0) (ValueIdx.ix1 j)).toNat < 50000) (c : Dev nD) (t : Fin (cfg19 a).N) : sProp 𝕄 :=
  iprop((dat19 V a hH c).Φ t.succ ∗ (dat19 V a hH c).owesAt () t.succ
    ∗ owns (c : Thread nD τ) (ms19_0 a t) fullShare ((dat19 V a hH c).after 0 t)
    ∗ owns (c : Thread nD τ) (ms19_1 a t) fullShare ((dat19 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body19 (hH : ∀ j : Fin 50000, ((a.1 0) (ValueIdx.ix1 j)).toNat < 50000) (c : Dev nD) (t : Fin (cfg19 a).N) :
    bodyPre19 V a hH c t ⊢ wp frame (wpE (defs₀ (F := F)) Variants.none c none) Set.univ (bodyAt19 a t) (fun _ => bodyPost19 V a hH c t) := by
  unfold bodyPre19 bodyPost19 bodyAt19
  simp only [before19_0]
  rw [show (dat19 V a hH c).Φ t.succ = (dat19 V a hH c).Φ t.castSucc from rfl,
    after19_0, after19_1]
  rw [show (dat19 V a hH c).Φ t.castSucc = iprop(Pipeline.ΦD osem19 spec19 H19 V c ∗ Pipeline.prefHeld pre19 c (fun _ => fullShare) a.1) from rfl, PhiD19_eq, prefHeld19_eq]
  unfold Dat.owesAt Pipeline.owesWithin
  rw [show (dat19 V a hH c).owed t.castSucc = 0 from rfl, show (dat19 V a hH c).owed t.succ = 0 from rfl]
  unfold outsAt19
  unfold out19_1
  iintro ⟨⟨⟨⟨HS0, HSr⟩, Hg, Hq, Hh0⟩, HT⟩, ⟨%W, -, HW⟩, ⟨%d0, H0⟩, ⟨%d1, H19⟩⟩
  iapply ((kernelRun19 c (grid19.coords t) _ _ _ _ (iblk19 V a c 0 t) (a.1 0) (V c main_v71) (tbl_lt19 a hH c)).2 W _)
  isplitl [H0]; · iexact H0
  isplitl [H19]; · iexists _; iexact H19
  isplitl [HS0]; · iexact HS0
  isplitl [Hq]; · iexact Hq
  isplitl [Hh0]; · iexact Hh0
  isplitl [HT]; · iexact HT
  isplitl [HW]; · iexact HW
  iintro ⟨H0, ⟨%e1, H19⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H19
  ipureintro; exact View.read_writes_of_cover _ _ _ _ _ (cover19_1 c _ _ _ _ _ _ _ _ _)

/-- The library's body obligation, at every point. -/
theorem body_obligation19 (hH : ∀ j : Fin 50000, ((a.1 0) (ValueIdx.ix1 j)).toNat < 50000) (c : Dev nD) : BodyObligation (dat19 (F := F) V a hH c) (defs₀ (F := F)) Variants.none () Set.univ := fun t => by
  rw [bigSep_W19, bigSep_W19]
  exact sound_body19 V a hH c t

end Cert.KernelIdeal.Hand

end
-- ==== Proof.Chain.lean ====
import proofs.«414392_j7919919694132_2_alg».proof.Proof.Mat0
import proofs.«414392_j7919919694132_2_alg».proof.Proof.Mat10
import proofs.«414392_j7919919694132_2_alg».proof.Proof.Tables
import proofs.«414392_j7919919694132_2_alg».proof.Proof.G1
import proofs.«414392_j7919919694132_2_alg».proof.Proof.G2
import proofs.«414392_j7919919694132_2_alg».proof.Proof.G3
import proofs.«414392_j7919919694132_2_alg».proof.Proof.G4
import proofs.«414392_j7919919694132_2_alg».proof.Proof.G5
import proofs.«414392_j7919919694132_2_alg».proof.Proof.G6
import proofs.«414392_j7919919694132_2_alg».proof.Proof.G7
import proofs.«414392_j7919919694132_2_alg».proof.Proof.G8
import proofs.«414392_j7919919694132_2_alg».proof.Proof.G9
import proofs.«414392_j7919919694132_2_alg».proof.Proof.G11
import proofs.«414392_j7919919694132_2_alg».proof.Proof.G12
import proofs.«414392_j7919919694132_2_alg».proof.Proof.G13
import proofs.«414392_j7919919694132_2_alg».proof.Proof.G14
import proofs.«414392_j7919919694132_2_alg».proof.Proof.G15
import proofs.«414392_j7919919694132_2_alg».proof.Proof.G16
import proofs.«414392_j7919919694132_2_alg».proof.Proof.G17
import proofs.«414392_j7919919694132_2_alg».proof.Proof.G18
import proofs.«414392_j7919919694132_2_alg».proof.Proof.G19
import Idealize.ShloMosaic.Lib.Pipeline.FrameSuffix
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The contents of the TensorCore's buffers at each boundary between two items of the program: the launch memory,
    then each host stretch applied, then each kernel region's arrays at what its grid leaves in them. -/

variable (m : (ℓ : Loc nD τ sig) → Buf (Elt F) ℓ)
/-- The precondition's equation at the launch memory (core 0 is the only core). -/
abbrev PreEq : Prop := Cert.Pre_finite_inputs.fn (F := F) (m ((0 : Dev nD).tc.loc main_arg0)) (m ((0 : Dev nD).tc.loc main_arg1)) (m ((0 : Dev nD).tc.loc main_arg2)) (m ((0 : Dev nD).tc.loc main_arg3)) (m ((0 : Dev nD).tc.loc main_arg4)) (m ((0 : Dev nD).tc.loc main_arg5)) (m ((0 : Dev nD).tc.loc main_arg6)) = fun _ => 1#1

/-! ## The row tables the gather regions are launched with -/

/-- Region 1's table: edges 0 … 49999 of the row vector. -/
def adm1 : (pcfg1 (F := F)).Adm := ⟨fun | ⟨0, _⟩ => tbl0 m 0, by dsimp only [pcfg1, Pipeline.PCfg.ofSpecs]; unfold ok1; trivial⟩
theorem hH1 (hpre : PreEq m) : ∀ j : Fin 50000, (((adm1 m).1 0) (ValueIdx.ix1 j)).toNat < 50000 := fun j => tbl0_lt m 0 hpre j

/-- Region 2's table: edges 50000 … 99999 of the row vector. -/
def adm2 : (pcfg2 (F := F)).Adm := ⟨fun | ⟨0, _⟩ => tbl1 m 0, by dsimp only [pcfg2, Pipeline.PCfg.ofSpecs]; unfold ok2; trivial⟩
theorem hH2 (hpre : PreEq m) : ∀ j : Fin 50000, (((adm2 m).1 0) (ValueIdx.ix1 j)).toNat < 50000 := fun j => tbl1_lt m 0 hpre j

/-- Region 3's table: edges 100000 … 149999 of the row vector. -/
def adm3 : (pcfg3 (F := F)).Adm := ⟨fun | ⟨0, _⟩ => tbl2 m 0, by dsimp only [pcfg3, Pipeline.PCfg.ofSpecs]; unfold ok3; trivial⟩
theorem hH3 (hpre : PreEq m) : ∀ j : Fin 50000, (((adm3 m).1 0) (ValueIdx.ix1 j)).toNat < 50000 := fun j => tbl2_lt m 0 hpre j

/-- Region 4's table: edges 150000 … 199999 of the row vector. -/
def adm4 : (pcfg4 (F := F)).Adm := ⟨fun | ⟨0, _⟩ => tbl3 m 0, by dsimp only [pcfg4, Pipeline.PCfg.ofSpecs]; unfold ok4; trivial⟩
theorem hH4 (hpre : PreEq m) : ∀ j : Fin 50000, (((adm4 m).1 0) (ValueIdx.ix1 j)).toNat < 50000 := fun j => tbl3_lt m 0 hpre j

/-- Region 5's table: edges 200000 … 249999 of the row vector. -/
def adm5 : (pcfg5 (F := F)).Adm := ⟨fun | ⟨0, _⟩ => tbl4 m 0, by dsimp only [pcfg5, Pipeline.PCfg.ofSpecs]; unfold ok5; trivial⟩
theorem hH5 (hpre : PreEq m) : ∀ j : Fin 50000, (((adm5 m).1 0) (ValueIdx.ix1 j)).toNat < 50000 := fun j => tbl4_lt m 0 hpre j

/-- Region 6's table: edges 250000 … 299999 of the row vector. -/
def adm6 : (pcfg6 (F := F)).Adm := ⟨fun | ⟨0, _⟩ => tbl5 m 0, by dsimp only [pcfg6, Pipeline.PCfg.ofSpecs]; unfold ok6; trivial⟩
theorem hH6 (hpre : PreEq m) : ∀ j : Fin 50000, (((adm6 m).1 0) (ValueIdx.ix1 j)).toNat < 50000 := fun j => tbl5_lt m 0 hpre j

/-- Region 7's table: edges 300000 … 349999 of the row vector. -/
def adm7 : (pcfg7 (F := F)).Adm := ⟨fun | ⟨0, _⟩ => tbl6 m 0, by dsimp only [pcfg7, Pipeline.PCfg.ofSpecs]; unfold ok7; trivial⟩
theorem hH7 (hpre : PreEq m) : ∀ j : Fin 50000, (((adm7 m).1 0) (ValueIdx.ix1 j)).toNat < 50000 := fun j => tbl6_lt m 0 hpre j

/-- Region 8's table: edges 350000 … 399999 of the row vector. -/
def adm8 : (pcfg8 (F := F)).Adm := ⟨fun | ⟨0, _⟩ => tbl7 m 0, by dsimp only [pcfg8, Pipeline.PCfg.ofSpecs]; unfold ok8; trivial⟩
theorem hH8 (hpre : PreEq m) : ∀ j : Fin 50000, (((adm8 m).1 0) (ValueIdx.ix1 j)).toNat < 50000 := fun j => tbl7_lt m 0 hpre j

/-- Region 9's table: edges 400000 … 449999 of the row vector. -/
def adm9 : (pcfg9 (F := F)).Adm := ⟨fun | ⟨0, _⟩ => tbl8 m 0, by dsimp only [pcfg9, Pipeline.PCfg.ofSpecs]; unfold ok9; trivial⟩
theorem hH9 (hpre : PreEq m) : ∀ j : Fin 50000, (((adm9 m).1 0) (ValueIdx.ix1 j)).toNat < 50000 := fun j => tbl8_lt m 0 hpre j

/-- Region 11's table: edges 0 … 49999 of the row vector. -/
def adm11 : (pcfg11 (F := F)).Adm := ⟨fun | ⟨0, _⟩ => tbl0 m 0, by dsimp only [pcfg11, Pipeline.PCfg.ofSpecs]; unfold ok11; trivial⟩
theorem hH11 (hpre : PreEq m) : ∀ j : Fin 50000, (((adm11 m).1 0) (ValueIdx.ix1 j)).toNat < 50000 := fun j => tbl0_lt m 0 hpre j

/-- Region 12's table: edges 50000 … 99999 of the row vector. -/
def adm12 : (pcfg12 (F := F)).Adm := ⟨fun | ⟨0, _⟩ => tbl1 m 0, by dsimp only [pcfg12, Pipeline.PCfg.ofSpecs]; unfold ok12; trivial⟩
theorem hH12 (hpre : PreEq m) : ∀ j : Fin 50000, (((adm12 m).1 0) (ValueIdx.ix1 j)).toNat < 50000 := fun j => tbl1_lt m 0 hpre j

/-- Region 13's table: edges 100000 … 149999 of the row vector. -/
def adm13 : (pcfg13 (F := F)).Adm := ⟨fun | ⟨0, _⟩ => tbl2 m 0, by dsimp only [pcfg13, Pipeline.PCfg.ofSpecs]; unfold ok13; trivial⟩
theorem hH13 (hpre : PreEq m) : ∀ j : Fin 50000, (((adm13 m).1 0) (ValueIdx.ix1 j)).toNat < 50000 := fun j => tbl2_lt m 0 hpre j

/-- Region 14's table: edges 150000 … 199999 of the row vector. -/
def adm14 : (pcfg14 (F := F)).Adm := ⟨fun | ⟨0, _⟩ => tbl3 m 0, by dsimp only [pcfg14, Pipeline.PCfg.ofSpecs]; unfold ok14; trivial⟩
theorem hH14 (hpre : PreEq m) : ∀ j : Fin 50000, (((adm14 m).1 0) (ValueIdx.ix1 j)).toNat < 50000 := fun j => tbl3_lt m 0 hpre j

/-- Region 15's table: edges 200000 … 249999 of the row vector. -/
def adm15 : (pcfg15 (F := F)).Adm := ⟨fun | ⟨0, _⟩ => tbl4 m 0, by dsimp only [pcfg15, Pipeline.PCfg.ofSpecs]; unfold ok15; trivial⟩
theorem hH15 (hpre : PreEq m) : ∀ j : Fin 50000, (((adm15 m).1 0) (ValueIdx.ix1 j)).toNat < 50000 := fun j => tbl4_lt m 0 hpre j

/-- Region 16's table: edges 250000 … 299999 of the row vector. -/
def adm16 : (pcfg16 (F := F)).Adm := ⟨fun | ⟨0, _⟩ => tbl5 m 0, by dsimp only [pcfg16, Pipeline.PCfg.ofSpecs]; unfold ok16; trivial⟩
theorem hH16 (hpre : PreEq m) : ∀ j : Fin 50000, (((adm16 m).1 0) (ValueIdx.ix1 j)).toNat < 50000 := fun j => tbl5_lt m 0 hpre j

/-- Region 17's table: edges 300000 … 349999 of the row vector. -/
def adm17 : (pcfg17 (F := F)).Adm := ⟨fun | ⟨0, _⟩ => tbl6 m 0, by dsimp only [pcfg17, Pipeline.PCfg.ofSpecs]; unfold ok17; trivial⟩
theorem hH17 (hpre : PreEq m) : ∀ j : Fin 50000, (((adm17 m).1 0) (ValueIdx.ix1 j)).toNat < 50000 := fun j => tbl6_lt m 0 hpre j

/-- Region 18's table: edges 350000 … 399999 of the row vector. -/
def adm18 : (pcfg18 (F := F)).Adm := ⟨fun | ⟨0, _⟩ => tbl7 m 0, by dsimp only [pcfg18, Pipeline.PCfg.ofSpecs]; unfold ok18; trivial⟩
theorem hH18 (hpre : PreEq m) : ∀ j : Fin 50000, (((adm18 m).1 0) (ValueIdx.ix1 j)).toNat < 50000 := fun j => tbl7_lt m 0 hpre j

/-- Region 19's table: edges 400000 … 449999 of the row vector. -/
def adm19 : (pcfg19 (F := F)).Adm := ⟨fun | ⟨0, _⟩ => tbl8 m 0, by dsimp only [pcfg19, Pipeline.PCfg.ofSpecs]; unfold ok19; trivial⟩
theorem hH19 (hpre : PreEq m) : ∀ j : Fin 50000, (((adm19 m).1 0) (ValueIdx.ix1 j)).toNat < 50000 := fun j => tbl8_lt m 0 hpre j

variable (hpre : PreEq m)

/-- Every pipeline's tables (the matmul pipelines have none). -/
def adm : (p : Fin 20) → (pcfgs (F := F) p).Adm
  | ⟨0, _⟩ => cfg0.toPCfg_adm
  | ⟨10, _⟩ => cfg10.toPCfg_adm
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨11, _⟩ => adm11 m
  | ⟨12, _⟩ => adm12 m
  | ⟨13, _⟩ => adm13 m
  | ⟨14, _⟩ => adm14 m
  | ⟨15, _⟩ => adm15 m
  | ⟨16, _⟩ => adm16 m
  | ⟨17, _⟩ => adm17 m
  | ⟨18, _⟩ => adm18 m
  | ⟨19, _⟩ => adm19 m
  | ⟨_ + 20, h⟩ => absurd h (Nat.not_lt.2 (Nat.le_add_left _ _))

/-! ## The fold through the program -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
def W4 (c : Dev nD) : Valuation τ sig (Elt F) := Pipeline.withArrays spec0 c (W3 m c) fun w => (dat0 (V3 m) c).arrAt w cfg0.N
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) := Pipeline.withArrays spec1 c (W5 m c) fun w => (dat1 (V5 m) (adm1 m) (hH1 m hpre) c).arrAt w (cfg1 (adm1 m)).N
abbrev W7 : Dev nD → Valuation τ sig (Elt F) := fun c => StableHlo.after hostOps2 (W6 m hpre c)
abbrev V7 : (c : Dev nD) → (b : Ref sig .tc) → Buf (Elt F) ((c : Thread nD τ).loc b) := fun c b => W7 m hpre c b
def W8 (c : Dev nD) : Valuation τ sig (Elt F) := Pipeline.withArrays spec2 c (W7 m hpre c) fun w => (dat2 (V7 m hpre) (adm2 m) (hH2 m hpre) c).arrAt w (cfg2 (adm2 m)).N
abbrev W9 : Dev nD → Valuation τ sig (Elt F) := fun c => StableHlo.after hostOps3 (W8 m hpre c)
abbrev V9 : (c : Dev nD) → (b : Ref sig .tc) → Buf (Elt F) ((c : Thread nD τ).loc b) := fun c b => W9 m hpre c b
def W10 (c : Dev nD) : Valuation τ sig (Elt F) := Pipeline.withArrays spec3 c (W9 m hpre c) fun w => (dat3 (V9 m hpre) (adm3 m) (hH3 m hpre) c).arrAt w (cfg3 (adm3 m)).N
abbrev W11 : Dev nD → Valuation τ sig (Elt F) := fun c => StableHlo.after hostOps4 (W10 m hpre c)
abbrev V11 : (c : Dev nD) → (b : Ref sig .tc) → Buf (Elt F) ((c : Thread nD τ).loc b) := fun c b => W11 m hpre c b
def W12 (c : Dev nD) : Valuation τ sig (Elt F) := Pipeline.withArrays spec4 c (W11 m hpre c) fun w => (dat4 (V11 m hpre) (adm4 m) (hH4 m hpre) c).arrAt w (cfg4 (adm4 m)).N
abbrev W13 : Dev nD → Valuation τ sig (Elt F) := fun c => StableHlo.after hostOps5 (W12 m hpre c)
abbrev V13 : (c : Dev nD) → (b : Ref sig .tc) → Buf (Elt F) ((c : Thread nD τ).loc b) := fun c b => W13 m hpre c b
def W14 (c : Dev nD) : Valuation τ sig (Elt F) := Pipeline.withArrays spec5 c (W13 m hpre c) fun w => (dat5 (V13 m hpre) (adm5 m) (hH5 m hpre) c).arrAt w (cfg5 (adm5 m)).N
abbrev W15 : Dev nD → Valuation τ sig (Elt F) := fun c => StableHlo.after hostOps6 (W14 m hpre c)
abbrev V15 : (c : Dev nD) → (b : Ref sig .tc) → Buf (Elt F) ((c : Thread nD τ).loc b) := fun c b => W15 m hpre c b
def W16 (c : Dev nD) : Valuation τ sig (Elt F) := Pipeline.withArrays spec6 c (W15 m hpre c) fun w => (dat6 (V15 m hpre) (adm6 m) (hH6 m hpre) c).arrAt w (cfg6 (adm6 m)).N
abbrev W17 : Dev nD → Valuation τ sig (Elt F) := fun c => StableHlo.after hostOps7 (W16 m hpre c)
abbrev V17 : (c : Dev nD) → (b : Ref sig .tc) → Buf (Elt F) ((c : Thread nD τ).loc b) := fun c b => W17 m hpre c b
def W18 (c : Dev nD) : Valuation τ sig (Elt F) := Pipeline.withArrays spec7 c (W17 m hpre c) fun w => (dat7 (V17 m hpre) (adm7 m) (hH7 m hpre) c).arrAt w (cfg7 (adm7 m)).N
abbrev W19 : Dev nD → Valuation τ sig (Elt F) := fun c => StableHlo.after hostOps8 (W18 m hpre c)
abbrev V19 : (c : Dev nD) → (b : Ref sig .tc) → Buf (Elt F) ((c : Thread nD τ).loc b) := fun c b => W19 m hpre c b
def W20 (c : Dev nD) : Valuation τ sig (Elt F) := Pipeline.withArrays spec8 c (W19 m hpre c) fun w => (dat8 (V19 m hpre) (adm8 m) (hH8 m hpre) c).arrAt w (cfg8 (adm8 m)).N
abbrev W21 : Dev nD → Valuation τ sig (Elt F) := fun c => StableHlo.after hostOps9 (W20 m hpre c)
abbrev V21 : (c : Dev nD) → (b : Ref sig .tc) → Buf (Elt F) ((c : Thread nD τ).loc b) := fun c b => W21 m hpre c b
def W22 (c : Dev nD) : Valuation τ sig (Elt F) := Pipeline.withArrays spec9 c (W21 m hpre c) fun w => (dat9 (V21 m hpre) (adm9 m) (hH9 m hpre) c).arrAt w (cfg9 (adm9 m)).N
abbrev W23 : Dev nD → Valuation τ sig (Elt F) := fun c => StableHlo.after hostOps10 (W22 m hpre c)
abbrev W24 : Dev nD → Valuation τ sig (Elt F) := fun c => StableHlo.after hostOps10_1 (W23 m hpre c)
abbrev V24 : (c : Dev nD) → (b : Ref sig .tc) → Buf (Elt F) ((c : Thread nD τ).loc b) := fun c b => W24 m hpre c b
def W25 (c : Dev nD) : Valuation τ sig (Elt F) := Pipeline.withArrays spec10 c (W24 m hpre c) fun w => (dat10 (V24 m hpre) c).arrAt w cfg10.N
abbrev W26 : Dev nD → Valuation τ sig (Elt F) := fun c => StableHlo.after hostOps11 (W25 m hpre c)
abbrev V26 : (c : Dev nD) → (b : Ref sig .tc) → Buf (Elt F) ((c : Thread nD τ).loc b) := fun c b => W26 m hpre c b
def W27 (c : Dev nD) : Valuation τ sig (Elt F) := Pipeline.withArrays spec11 c (W26 m hpre c) fun w => (dat11 (V26 m hpre) (adm11 m) (hH11 m hpre) c).arrAt w (cfg11 (adm11 m)).N
abbrev W28 : Dev nD → Valuation τ sig (Elt F) := fun c => StableHlo.after hostOps12 (W27 m hpre c)
abbrev V28 : (c : Dev nD) → (b : Ref sig .tc) → Buf (Elt F) ((c : Thread nD τ).loc b) := fun c b => W28 m hpre c b
def W29 (c : Dev nD) : Valuation τ sig (Elt F) := Pipeline.withArrays spec12 c (W28 m hpre c) fun w => (dat12 (V28 m hpre) (adm12 m) (hH12 m hpre) c).arrAt w (cfg12 (adm12 m)).N
abbrev W30 : Dev nD → Valuation τ sig (Elt F) := fun c => StableHlo.after hostOps13 (W29 m hpre c)
abbrev V30 : (c : Dev nD) → (b : Ref sig .tc) → Buf (Elt F) ((c : Thread nD τ).loc b) := fun c b => W30 m hpre c b
def W31 (c : Dev nD) : Valuation τ sig (Elt F) := Pipeline.withArrays spec13 c (W30 m hpre c) fun w => (dat13 (V30 m hpre) (adm13 m) (hH13 m hpre) c).arrAt w (cfg13 (adm13 m)).N
abbrev W32 : Dev nD → Valuation τ sig (Elt F) := fun c => StableHlo.after hostOps14 (W31 m hpre c)
abbrev V32 : (c : Dev nD) → (b : Ref sig .tc) → Buf (Elt F) ((c : Thread nD τ).loc b) := fun c b => W32 m hpre c b
def W33 (c : Dev nD) : Valuation τ sig (Elt F) := Pipeline.withArrays spec14 c (W32 m hpre c) fun w => (dat14 (V32 m hpre) (adm14 m) (hH14 m hpre) c).arrAt w (cfg14 (adm14 m)).N
abbrev W34 : Dev nD → Valuation τ sig (Elt F) := fun c => StableHlo.after hostOps15 (W33 m hpre c)
abbrev V34 : (c : Dev nD) → (b : Ref sig .tc) → Buf (Elt F) ((c : Thread nD τ).loc b) := fun c b => W34 m hpre c b
def W35 (c : Dev nD) : Valuation τ sig (Elt F) := Pipeline.withArrays spec15 c (W34 m hpre c) fun w => (dat15 (V34 m hpre) (adm15 m) (hH15 m hpre) c).arrAt w (cfg15 (adm15 m)).N
abbrev W36 : Dev nD → Valuation τ sig (Elt F) := fun c => StableHlo.after hostOps16 (W35 m hpre c)
abbrev V36 : (c : Dev nD) → (b : Ref sig .tc) → Buf (Elt F) ((c : Thread nD τ).loc b) := fun c b => W36 m hpre c b
def W37 (c : Dev nD) : Valuation τ sig (Elt F) := Pipeline.withArrays spec16 c (W36 m hpre c) fun w => (dat16 (V36 m hpre) (adm16 m) (hH16 m hpre) c).arrAt w (cfg16 (adm16 m)).N
abbrev W38 : Dev nD → Valuation τ sig (Elt F) := fun c => StableHlo.after hostOps17 (W37 m hpre c)
abbrev V38 : (c : Dev nD) → (b : Ref sig .tc) → Buf (Elt F) ((c : Thread nD τ).loc b) := fun c b => W38 m hpre c b
def W39 (c : Dev nD) : Valuation τ sig (Elt F) := Pipeline.withArrays spec17 c (W38 m hpre c) fun w => (dat17 (V38 m hpre) (adm17 m) (hH17 m hpre) c).arrAt w (cfg17 (adm17 m)).N
abbrev W40 : Dev nD → Valuation τ sig (Elt F) := fun c => StableHlo.after hostOps18 (W39 m hpre c)
abbrev V40 : (c : Dev nD) → (b : Ref sig .tc) → Buf (Elt F) ((c : Thread nD τ).loc b) := fun c b => W40 m hpre c b
def W41 (c : Dev nD) : Valuation τ sig (Elt F) := Pipeline.withArrays spec18 c (W40 m hpre c) fun w => (dat18 (V40 m hpre) (adm18 m) (hH18 m hpre) c).arrAt w (cfg18 (adm18 m)).N
abbrev W42 : Dev nD → Valuation τ sig (Elt F) := fun c => StableHlo.after hostOps19 (W41 m hpre c)
abbrev V42 : (c : Dev nD) → (b : Ref sig .tc) → Buf (Elt F) ((c : Thread nD τ).loc b) := fun c b => W42 m hpre c b
def W43 (c : Dev nD) : Valuation τ sig (Elt F) := Pipeline.withArrays spec19 c (W42 m hpre c) fun w => (dat19 (V42 m hpre) (adm19 m) (hH19 m hpre) c).arrAt w (cfg19 (adm19 m)).N
abbrev W44 : Dev nD → Valuation τ sig (Elt F) := fun c => StableHlo.after hostOps20 (W43 m hpre c)

/-! ## Every pipeline's proof data, each at its region's entry contents -/

def pdats : (p : Fin 20) → (c : Dev nD) → Dat τ (Elt F) Unit ℕ (Pipeline.UD sig nD τ) ℕ (Pipeline.pin (pcfgs (F := F)) (adm m) p) c
  | ⟨0, _⟩ => fun c => dat0 (V3 m) c
  | ⟨10, _⟩ => fun c => dat10 (V24 m hpre) c
  | ⟨1, _⟩ => fun c => dat1 (V5 m) (adm1 m) (hH1 m hpre) c
  | ⟨2, _⟩ => fun c => dat2 (V7 m hpre) (adm2 m) (hH2 m hpre) c
  | ⟨3, _⟩ => fun c => dat3 (V9 m hpre) (adm3 m) (hH3 m hpre) c
  | ⟨4, _⟩ => fun c => dat4 (V11 m hpre) (adm4 m) (hH4 m hpre) c
  | ⟨5, _⟩ => fun c => dat5 (V13 m hpre) (adm5 m) (hH5 m hpre) c
  | ⟨6, _⟩ => fun c => dat6 (V15 m hpre) (adm6 m) (hH6 m hpre) c
  | ⟨7, _⟩ => fun c => dat7 (V17 m hpre) (adm7 m) (hH7 m hpre) c
  | ⟨8, _⟩ => fun c => dat8 (V19 m hpre) (adm8 m) (hH8 m hpre) c
  | ⟨9, _⟩ => fun c => dat9 (V21 m hpre) (adm9 m) (hH9 m hpre) c
  | ⟨11, _⟩ => fun c => dat11 (V26 m hpre) (adm11 m) (hH11 m hpre) c
  | ⟨12, _⟩ => fun c => dat12 (V28 m hpre) (adm12 m) (hH12 m hpre) c
  | ⟨13, _⟩ => fun c => dat13 (V30 m hpre) (adm13 m) (hH13 m hpre) c
  | ⟨14, _⟩ => fun c => dat14 (V32 m hpre) (adm14 m) (hH14 m hpre) c
  | ⟨15, _⟩ => fun c => dat15 (V34 m hpre) (adm15 m) (hH15 m hpre) c
  | ⟨16, _⟩ => fun c => dat16 (V36 m hpre) (adm16 m) (hH16 m hpre) c
  | ⟨17, _⟩ => fun c => dat17 (V38 m hpre) (adm17 m) (hH17 m hpre) c
  | ⟨18, _⟩ => fun c => dat18 (V40 m hpre) (adm18 m) (hH18 m hpre) c
  | ⟨19, _⟩ => fun c => dat19 (V42 m hpre) (adm19 m) (hH19 m hpre) c
  | ⟨_ + 20, h⟩ => absurd h (Nat.not_lt.2 (Nat.le_add_left _ _))

end Cert.KernelIdeal.Hand

end
-- ==== Proof.RegBase.lean ====
import proofs.«414392_j7919919694132_2_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What rides beside the buffers between two items of the program, and the level facts of a program whose cores owe
    each other nothing. -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

omit [FloatOps F] in
/-- An unscoped reference of the TensorCore is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Reg0.lean ====
/- Region 0 of @main (the first layer's dense product) as a segment of the run: entered from every unscoped buffer at
   the contents before it, left with the product's array at what the grid wrote and every other buffer as entered. -/
import proofs.«414392_j7919919694132_2_alg».proof.Proof.RegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hpre : PreEq m)

/-! ## The contents at the region's exit -/

/-- At the exit each of the region's arrays holds what the grid leaves in it, -/
theorem W4_arr (c : Dev nD) (w : Fin cfg0.W) :
    W4 m c (Proc.devRef .tc (Pipeline.arrRef spec0 w)) = (dat0 (V3 m) c).arrAt w cfg0.N := by
  unfold W4; exact Pipeline.withArrays_arr spec0 (launch0 (F := F)).win.arr_inj c _ _ w
/-- and every other buffer what it held at the entry. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The exit contents read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-! ## The region as a segment -/

set_option backward.isDefEq.respectTransparency.types false in
/-- Region 0 over the thread state: its arrays split out of the unscoped buffers and put back at the exit contents; the
    generator register into the class invariant and out; nothing owed; no semaphore of the kernel's own. -/
def reg0 : Pipeline.RegionSeg (pcfgs (F := F)) (adm m) (pdats m hpre) () defs₀ 𝒱₀ L lv (0 : Fin 20) where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m) c).loose
  hwaits := Pipeline.hwaits_of_owed_zero _ _ _ _ L lv (0 : Fin 20) fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m c)
  hentry c := by
    rw [Pipeline.ownSems0_none]
    have hsplit := Pipeline.arrays_of_unscopedBufs (p := (0 : Fin 20)) (pcfgs (F := F)) (adm m) (pdats m hpre) (launch0 (F := F)).win (launch0 (F := F)).arr_whole c
      ((pdats m hpre (0 : Fin 20) c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hpre (0 : Fin 20) c).Φ 0 = Pipeline.ΦA spec0 c from rfl]; unfold Pipeline.ΦA
    iintro ⟨Hp, -, Hr⟩
    isplitl [Hr]; · iexact Hr
    iexact Hp
  hout c := by
    rw [Pipeline.ownSems0_none, show (pdats m hpre (0 : Fin 20) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 20)) (pcfgs (F := F)) (adm m) (Ix := Unit) (Name := ℕ) (U := Pipeline.UD sig nD τ) (Lvl := ℕ)
      (launch0 (F := F)).win (launch0 (F := F)).arr_whole c (pdats m hpre) ((pdats m hpre (0 : Fin 20) c).share_full fun _ => rfl)
      (V3 m c) (V4 m c) ((pdats m hpre (0 : Fin 20) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.TableAt.lean ====
/-
  What the regions' records need of the contents at each region's entry. The row vector is written once, by the
  first host stretch, and no later item writes its buffer: every gather region's table, a slice of it written by the
  host stretch before the region, is the corresponding slice of the row vector. The operand a layer's gather regions
  read is the layer's matmul result, which no item between writes.
-/
import proofs.«414392_j7919919694132_2_alg».proof.Proof.Chain

set_option maxRecDepth 16384

noncomputable section

namespace Cert.KernelIdeal.Hand

open Cert.KernelIdeal Cert.KernelIdeal.Gen
open Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)
variable (hpre : PreEq m)

/-! ## What the host stretches write -/

local macro "writes_sub_tac" : tactic =>
  `(tactic| (simp only [List.Forall]; repeat' constructor
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))))

/-- The references `hostOps0_1`'s operations write. -/
abbrev hostOps0_1_W : List (Ref sig .tc) := [main_call0_v0, main_call0_v1, main_v17]
theorem hostOps0_1_writes : (hostOps0_1 : List (HloOp τ sig (Elt F))).Forall fun op => op.writes ⊆ (hostOps0_1_W.map (Proc.devRef (τ := τ) .tc)).toFinset := by
  writes_sub_tac
/-- The references `hostOps0_2`'s operations write. -/
abbrev hostOps0_2_W : List (Ref sig .tc) := [main_c, main_v18, main_v19, main_c_4, main_v20, main_v21, main_v22, main_v23, main_v24, main_v25, main_c_5, main_v26, main_v27, main_c_6, main_v28, main_v29, main_v30, main_v31, main_v32, main_v33]
theorem hostOps0_2_writes : (hostOps0_2 : List (HloOp τ sig (Elt F))).Forall fun op => op.writes ⊆ (hostOps0_2_W.map (Proc.devRef (τ := τ) .tc)).toFinset := by
  writes_sub_tac
/-- The references `hostOps1`'s operations write. -/
abbrev hostOps1_W : List (Ref sig .tc) := [main_v35, main_v36, main_v37]
theorem hostOps1_writes : (hostOps1 : List (HloOp τ sig (Elt F))).Forall fun op => op.writes ⊆ (hostOps1_W.map (Proc.devRef (τ := τ) .tc)).toFinset := by
  writes_sub_tac
/-- The references `hostOps2`'s operations write. -/
abbrev hostOps2_W : List (Ref sig .tc) := [main_v39, main_v40]
theorem hostOps2_writes : (hostOps2 : List (HloOp τ sig (Elt F))).Forall fun op => op.writes ⊆ (hostOps2_W.map (Proc.devRef (τ := τ) .tc)).toFinset := by
  writes_sub_tac
/-- The references `hostOps3`'s operations write. -/
abbrev hostOps3_W : List (Ref sig .tc) := [main_v42, main_v43]
theorem hostOps3_writes : (hostOps3 : List (HloOp τ sig (Elt F))).Forall fun op => op.writes ⊆ (hostOps3_W.map (Proc.devRef (τ := τ) .tc)).toFinset := by
  writes_sub_tac
/-- The references `hostOps4`'s operations write. -/
abbrev hostOps4_W : List (Ref sig .tc) := [main_v45, main_v46]
theorem hostOps4_writes : (hostOps4 : List (HloOp τ sig (Elt F))).Forall fun op => op.writes ⊆ (hostOps4_W.map (Proc.devRef (τ := τ) .tc)).toFinset := by
  writes_sub_tac
/-- The references `hostOps5`'s operations write. -/
abbrev hostOps5_W : List (Ref sig .tc) := [main_v48, main_v49]
theorem hostOps5_writes : (hostOps5 : List (HloOp τ sig (Elt F))).Forall fun op => op.writes ⊆ (hostOps5_W.map (Proc.devRef (τ := τ) .tc)).toFinset := by
  writes_sub_tac
/-- The references `hostOps6`'s operations write. -/
abbrev hostOps6_W : List (Ref sig .tc) := [main_v51, main_v52]
theorem hostOps6_writes : (hostOps6 : List (HloOp τ sig (Elt F))).Forall fun op => op.writes ⊆ (hostOps6_W.map (Proc.devRef (τ := τ) .tc)).toFinset := by
  writes_sub_tac
/-- The references `hostOps7`'s operations write. -/
abbrev hostOps7_W : List (Ref sig .tc) := [main_v54, main_v55]
theorem hostOps7_writes : (hostOps7 : List (HloOp τ sig (Elt F))).Forall fun op => op.writes ⊆ (hostOps7_W.map (Proc.devRef (τ := τ) .tc)).toFinset := by
  writes_sub_tac
/-- The references `hostOps8`'s operations write. -/
abbrev hostOps8_W : List (Ref sig .tc) := [main_v57, main_v58]
theorem hostOps8_writes : (hostOps8 : List (HloOp τ sig (Elt F))).Forall fun op => op.writes ⊆ (hostOps8_W.map (Proc.devRef (τ := τ) .tc)).toFinset := by
  writes_sub_tac
/-- The references `hostOps9`'s operations write. -/
abbrev hostOps9_W : List (Ref sig .tc) := [main_v60, main_v61]
theorem hostOps9_writes : (hostOps9 : List (HloOp τ sig (Elt F))).Forall fun op => op.writes ⊆ (hostOps9_W.map (Proc.devRef (τ := τ) .tc)).toFinset := by
  writes_sub_tac
/-- The references `hostOps10`'s operations write. -/
abbrev hostOps10_W : List (Ref sig .tc) := [main_v63, main_cst_7, main_v64, main_v65, main_v66, main_v67, main_v68, main_v69]
theorem hostOps10_writes : (hostOps10 : List (HloOp τ sig (Elt F))).Forall fun op => op.writes ⊆ (hostOps10_W.map (Proc.devRef (τ := τ) .tc)).toFinset := by
  writes_sub_tac
/-- The references `hostOps10_1`'s operations write. -/
abbrev hostOps10_1_W : List (Ref sig .tc) := [main_call1_cst, main_call1_v0, main_v70]
theorem hostOps10_1_writes : (hostOps10_1 : List (HloOp τ sig (Elt F))).Forall fun op => op.writes ⊆ (hostOps10_1_W.map (Proc.devRef (τ := τ) .tc)).toFinset := by
  writes_sub_tac
/-- The references `hostOps11`'s operations write. -/
abbrev hostOps11_W : List (Ref sig .tc) := [main_v72, main_v73, main_v74]
theorem hostOps11_writes : (hostOps11 : List (HloOp τ sig (Elt F))).Forall fun op => op.writes ⊆ (hostOps11_W.map (Proc.devRef (τ := τ) .tc)).toFinset := by
  writes_sub_tac
/-- The references `hostOps12`'s operations write. -/
abbrev hostOps12_W : List (Ref sig .tc) := [main_v76, main_v77]
theorem hostOps12_writes : (hostOps12 : List (HloOp τ sig (Elt F))).Forall fun op => op.writes ⊆ (hostOps12_W.map (Proc.devRef (τ := τ) .tc)).toFinset := by
  writes_sub_tac
/-- The references `hostOps13`'s operations write. -/
abbrev hostOps13_W : List (Ref sig .tc) := [main_v79, main_v80]
theorem hostOps13_writes : (hostOps13 : List (HloOp τ sig (Elt F))).Forall fun op => op.writes ⊆ (hostOps13_W.map (Proc.devRef (τ := τ) .tc)).toFinset := by
  writes_sub_tac
/-- The references `hostOps14`'s operations write. -/
abbrev hostOps14_W : List (Ref sig .tc) := [main_v82, main_v83]
theorem hostOps14_writes : (hostOps14 : List (HloOp τ sig (Elt F))).Forall fun op => op.writes ⊆ (hostOps14_W.map (Proc.devRef (τ := τ) .tc)).toFinset := by
  writes_sub_tac
/-- The references `hostOps15`'s operations write. -/
abbrev hostOps15_W : List (Ref sig .tc) := [main_v85, main_v86]
theorem hostOps15_writes : (hostOps15 : List (HloOp τ sig (Elt F))).Forall fun op => op.writes ⊆ (hostOps15_W.map (Proc.devRef (τ := τ) .tc)).toFinset := by
  writes_sub_tac
/-- The references `hostOps16`'s operations write. -/
abbrev hostOps16_W : List (Ref sig .tc) := [main_v88, main_v89]
theorem hostOps16_writes : (hostOps16 : List (HloOp τ sig (Elt F))).Forall fun op => op.writes ⊆ (hostOps16_W.map (Proc.devRef (τ := τ) .tc)).toFinset := by
  writes_sub_tac
/-- The references `hostOps17`'s operations write. -/
abbrev hostOps17_W : List (Ref sig .tc) := [main_v91, main_v92]
theorem hostOps17_writes : (hostOps17 : List (HloOp τ sig (Elt F))).Forall fun op => op.writes ⊆ (hostOps17_W.map (Proc.devRef (τ := τ) .tc)).toFinset := by
  writes_sub_tac
/-- The references `hostOps18`'s operations write. -/
abbrev hostOps18_W : List (Ref sig .tc) := [main_v94, main_v95]
theorem hostOps18_writes : (hostOps18 : List (HloOp τ sig (Elt F))).Forall fun op => op.writes ⊆ (hostOps18_W.map (Proc.devRef (τ := τ) .tc)).toFinset := by
  writes_sub_tac
/-- The references `hostOps19`'s operations write. -/
abbrev hostOps19_W : List (Ref sig .tc) := [main_v97, main_v98]
theorem hostOps19_writes : (hostOps19 : List (HloOp τ sig (Elt F))).Forall fun op => op.writes ⊆ (hostOps19_W.map (Proc.devRef (τ := τ) .tc)).toFinset := by
  writes_sub_tac
/-- The references `hostOps20`'s operations write. -/
abbrev hostOps20_W : List (Ref sig .tc) := [main_v100, main_cst_8, main_v101, main_v102, main_v103, main_v104, main_v105, main_v106]
theorem hostOps20_writes : (hostOps20 : List (HloOp τ sig (Elt F))).Forall fun op => op.writes ⊆ (hostOps20_W.map (Proc.devRef (τ := τ) .tc)).toFinset := by
  writes_sub_tac

/-! ## What each item leaves unchanged -/

theorem W2_keep (c : Dev nD) (r : Ref sig .tc) (h : r ∉ hostOps0_1_W) : W2 m c r = W1 m c r :=
  StableHlo.after_of_writes_sub hostOps0_1 _ hostOps0_1_writes h
theorem W3_keep (c : Dev nD) (r : Ref sig .tc) (h : r ∉ hostOps0_2_W) : W3 m c r = W2 m c r :=
  StableHlo.after_of_writes_sub hostOps0_2 _ hostOps0_2_writes h
theorem W4_keep (c : Dev nD) (r : Ref sig .tc) (h : ∀ w, Pipeline.arrRef spec0 w ≠ r) : W4 m c r = W3 m c r := by
  unfold W4; exact Pipeline.withArrays_of_ne spec0 c _ _ r h
theorem W5_keep (c : Dev nD) (r : Ref sig .tc) (h : r ∉ hostOps1_W) : W5 m c r = W4 m c r :=
  StableHlo.after_of_writes_sub hostOps1 _ hostOps1_writes h
theorem W6_keep (c : Dev nD) (r : Ref sig .tc) (h : ∀ w, Pipeline.arrRef spec1 w ≠ r) : W6 m hpre c r = W5 m c r := by
  unfold W6; exact Pipeline.withArrays_of_ne spec1 c _ _ r h
theorem W7_keep (c : Dev nD) (r : Ref sig .tc) (h : r ∉ hostOps2_W) : W7 m hpre c r = W6 m hpre c r :=
  StableHlo.after_of_writes_sub hostOps2 _ hostOps2_writes h
theorem W8_keep (c : Dev nD) (r : Ref sig .tc) (h : ∀ w, Pipeline.arrRef spec2 w ≠ r) : W8 m hpre c r = W7 m hpre c r := by
  unfold W8; exact Pipeline.withArrays_of_ne spec2 c _ _ r h
theorem W9_keep (c : Dev nD) (r : Ref sig .tc) (h : r ∉ hostOps3_W) : W9 m hpre c r = W8 m hpre c r :=
  StableHlo.after_of_writes_sub hostOps3 _ hostOps3_writes h
theorem W10_keep (c : Dev nD) (r : Ref sig .tc) (h : ∀ w, Pipeline.arrRef spec3 w ≠ r) : W10 m hpre c r = W9 m hpre c r := by
  unfold W10; exact Pipeline.withArrays_of_ne spec3 c _ _ r h
theorem W11_keep (c : Dev nD) (r : Ref sig .tc) (h : r ∉ hostOps4_W) : W11 m hpre c r = W10 m hpre c r :=
  StableHlo.after_of_writes_sub hostOps4 _ hostOps4_writes h
theorem W12_keep (c : Dev nD) (r : Ref sig .tc) (h : ∀ w, Pipeline.arrRef spec4 w ≠ r) : W12 m hpre c r = W11 m hpre c r := by
  unfold W12; exact Pipeline.withArrays_of_ne spec4 c _ _ r h
theorem W13_keep (c : Dev nD) (r : Ref sig .tc) (h : r ∉ hostOps5_W) : W13 m hpre c r = W12 m hpre c r :=
  StableHlo.after_of_writes_sub hostOps5 _ hostOps5_writes h
theorem W14_keep (c : Dev nD) (r : Ref sig .tc) (h : ∀ w, Pipeline.arrRef spec5 w ≠ r) : W14 m hpre c r = W13 m hpre c r := by
  unfold W14; exact Pipeline.withArrays_of_ne spec5 c _ _ r h
theorem W15_keep (c : Dev nD) (r : Ref sig .tc) (h : r ∉ hostOps6_W) : W15 m hpre c r = W14 m hpre c r :=
  StableHlo.after_of_writes_sub hostOps6 _ hostOps6_writes h
theorem W16_keep (c : Dev nD) (r : Ref sig .tc) (h : ∀ w, Pipeline.arrRef spec6 w ≠ r) : W16 m hpre c r = W15 m hpre c r := by
  unfold W16; exact Pipeline.withArrays_of_ne spec6 c _ _ r h
theorem W17_keep (c : Dev nD) (r : Ref sig .tc) (h : r ∉ hostOps7_W) : W17 m hpre c r = W16 m hpre c r :=
  StableHlo.after_of_writes_sub hostOps7 _ hostOps7_writes h
theorem W18_keep (c : Dev nD) (r : Ref sig .tc) (h : ∀ w, Pipeline.arrRef spec7 w ≠ r) : W18 m hpre c r = W17 m hpre c r := by
  unfold W18; exact Pipeline.withArrays_of_ne spec7 c _ _ r h
theorem W19_keep (c : Dev nD) (r : Ref sig .tc) (h : r ∉ hostOps8_W) : W19 m hpre c r = W18 m hpre c r :=
  StableHlo.after_of_writes_sub hostOps8 _ hostOps8_writes h
theorem W20_keep (c : Dev nD) (r : Ref sig .tc) (h : ∀ w, Pipeline.arrRef spec8 w ≠ r) : W20 m hpre c r = W19 m hpre c r := by
  unfold W20; exact Pipeline.withArrays_of_ne spec8 c _ _ r h
theorem W21_keep (c : Dev nD) (r : Ref sig .tc) (h : r ∉ hostOps9_W) : W21 m hpre c r = W20 m hpre c r :=
  StableHlo.after_of_writes_sub hostOps9 _ hostOps9_writes h
theorem W22_keep (c : Dev nD) (r : Ref sig .tc) (h : ∀ w, Pipeline.arrRef spec9 w ≠ r) : W22 m hpre c r = W21 m hpre c r := by
  unfold W22; exact Pipeline.withArrays_of_ne spec9 c _ _ r h
theorem W23_keep (c : Dev nD) (r : Ref sig .tc) (h : r ∉ hostOps10_W) : W23 m hpre c r = W22 m hpre c r :=
  StableHlo.after_of_writes_sub hostOps10 _ hostOps10_writes h
theorem W24_keep (c : Dev nD) (r : Ref sig .tc) (h : r ∉ hostOps10_1_W) : W24 m hpre c r = W23 m hpre c r :=
  StableHlo.after_of_writes_sub hostOps10_1 _ hostOps10_1_writes h
theorem W25_keep (c : Dev nD) (r : Ref sig .tc) (h : ∀ w, Pipeline.arrRef spec10 w ≠ r) : W25 m hpre c r = W24 m hpre c r := by
  unfold W25; exact Pipeline.withArrays_of_ne spec10 c _ _ r h
theorem W26_keep (c : Dev nD) (r : Ref sig .tc) (h : r ∉ hostOps11_W) : W26 m hpre c r = W25 m hpre c r :=
  StableHlo.after_of_writes_sub hostOps11 _ hostOps11_writes h
theorem W27_keep (c : Dev nD) (r : Ref sig .tc) (h : ∀ w, Pipeline.arrRef spec11 w ≠ r) : W27 m hpre c r = W26 m hpre c r := by
  unfold W27; exact Pipeline.withArrays_of_ne spec11 c _ _ r h
theorem W28_keep (c : Dev nD) (r : Ref sig .tc) (h : r ∉ hostOps12_W) : W28 m hpre c r = W27 m hpre c r :=
  StableHlo.after_of_writes_sub hostOps12 _ hostOps12_writes h
theorem W29_keep (c : Dev nD) (r : Ref sig .tc) (h : ∀ w, Pipeline.arrRef spec12 w ≠ r) : W29 m hpre c r = W28 m hpre c r := by
  unfold W29; exact Pipeline.withArrays_of_ne spec12 c _ _ r h
theorem W30_keep (c : Dev nD) (r : Ref sig .tc) (h : r ∉ hostOps13_W) : W30 m hpre c r = W29 m hpre c r :=
  StableHlo.after_of_writes_sub hostOps13 _ hostOps13_writes h
theorem W31_keep (c : Dev nD) (r : Ref sig .tc) (h : ∀ w, Pipeline.arrRef spec13 w ≠ r) : W31 m hpre c r = W30 m hpre c r := by
  unfold W31; exact Pipeline.withArrays_of_ne spec13 c _ _ r h
theorem W32_keep (c : Dev nD) (r : Ref sig .tc) (h : r ∉ hostOps14_W) : W32 m hpre c r = W31 m hpre c r :=
  StableHlo.after_of_writes_sub hostOps14 _ hostOps14_writes h
theorem W33_keep (c : Dev nD) (r : Ref sig .tc) (h : ∀ w, Pipeline.arrRef spec14 w ≠ r) : W33 m hpre c r = W32 m hpre c r := by
  unfold W33; exact Pipeline.withArrays_of_ne spec14 c _ _ r h
theorem W34_keep (c : Dev nD) (r : Ref sig .tc) (h : r ∉ hostOps15_W) : W34 m hpre c r = W33 m hpre c r :=
  StableHlo.after_of_writes_sub hostOps15 _ hostOps15_writes h
theorem W35_keep (c : Dev nD) (r : Ref sig .tc) (h : ∀ w, Pipeline.arrRef spec15 w ≠ r) : W35 m hpre c r = W34 m hpre c r := by
  unfold W35; exact Pipeline.withArrays_of_ne spec15 c _ _ r h
theorem W36_keep (c : Dev nD) (r : Ref sig .tc) (h : r ∉ hostOps16_W) : W36 m hpre c r = W35 m hpre c r :=
  StableHlo.after_of_writes_sub hostOps16 _ hostOps16_writes h
theorem W37_keep (c : Dev nD) (r : Ref sig .tc) (h : ∀ w, Pipeline.arrRef spec16 w ≠ r) : W37 m hpre c r = W36 m hpre c r := by
  unfold W37; exact Pipeline.withArrays_of_ne spec16 c _ _ r h
theorem W38_keep (c : Dev nD) (r : Ref sig .tc) (h : r ∉ hostOps17_W) : W38 m hpre c r = W37 m hpre c r :=
  StableHlo.after_of_writes_sub hostOps17 _ hostOps17_writes h
theorem W39_keep (c : Dev nD) (r : Ref sig .tc) (h : ∀ w, Pipeline.arrRef spec17 w ≠ r) : W39 m hpre c r = W38 m hpre c r := by
  unfold W39; exact Pipeline.withArrays_of_ne spec17 c _ _ r h
theorem W40_keep (c : Dev nD) (r : Ref sig .tc) (h : r ∉ hostOps18_W) : W40 m hpre c r = W39 m hpre c r :=
  StableHlo.after_of_writes_sub hostOps18 _ hostOps18_writes h
theorem W41_keep (c : Dev nD) (r : Ref sig .tc) (h : ∀ w, Pipeline.arrRef spec18 w ≠ r) : W41 m hpre c r = W40 m hpre c r := by
  unfold W41; exact Pipeline.withArrays_of_ne spec18 c _ _ r h
theorem W42_keep (c : Dev nD) (r : Ref sig .tc) (h : r ∉ hostOps19_W) : W42 m hpre c r = W41 m hpre c r :=
  StableHlo.after_of_writes_sub hostOps19 _ hostOps19_writes h
theorem W43_keep (c : Dev nD) (r : Ref sig .tc) (h : ∀ w, Pipeline.arrRef spec19 w ≠ r) : W43 m hpre c r = W42 m hpre c r := by
  unfold W43; exact Pipeline.withArrays_of_ne spec19 c _ _ r h
theorem W44_keep (c : Dev nD) (r : Ref sig .tc) (h : r ∉ hostOps20_W) : W44 m hpre c r = W43 m hpre c r :=
  StableHlo.after_of_writes_sub hostOps20 _ hostOps20_writes h

/-! ## The row vector sits in its buffer at every boundary -/

theorem v3_1 (c : Dev nD) : W1 m c main_v3 = rowVec m c := by
  show StableHlo.after hostOps0 (W0 m c) (Proc.devRef .tc main_v3) = _
  after_results
  rfl
theorem v3_2 (c : Dev nD) : W2 m c main_v3 = rowVec m c := (W2_keep m c main_v3 (by decide)).trans (v3_1 m c)
theorem v3_3 (c : Dev nD) : W3 m c main_v3 = rowVec m c := (W3_keep m c main_v3 (by decide)).trans (v3_2 m c)
theorem v3_4 (c : Dev nD) : W4 m c main_v3 = rowVec m c := (W4_keep m c main_v3 (by decide)).trans (v3_3 m c)
theorem v3_5 (c : Dev nD) : W5 m c main_v3 = rowVec m c := (W5_keep m c main_v3 (by decide)).trans (v3_4 m c)
theorem v3_6 (c : Dev nD) : W6 m hpre c main_v3 = rowVec m c := (W6_keep m hpre c main_v3 (by decide)).trans (v3_5 m c)
theorem v3_7 (c : Dev nD) : W7 m hpre c main_v3 = rowVec m c := (W7_keep m hpre c main_v3 (by decide)).trans (v3_6 m hpre c)
theorem v3_8 (c : Dev nD) : W8 m hpre c main_v3 = rowVec m c := (W8_keep m hpre c main_v3 (by decide)).trans (v3_7 m hpre c)
theorem v3_9 (c : Dev nD) : W9 m hpre c main_v3 = rowVec m c := (W9_keep m hpre c main_v3 (by decide)).trans (v3_8 m hpre c)
theorem v3_10 (c : Dev nD) : W10 m hpre c main_v3 = rowVec m c := (W10_keep m hpre c main_v3 (by decide)).trans (v3_9 m hpre c)
theorem v3_11 (c : Dev nD) : W11 m hpre c main_v3 = rowVec m c := (W11_keep m hpre c main_v3 (by decide)).trans (v3_10 m hpre c)
theorem v3_12 (c : Dev nD) : W12 m hpre c main_v3 = rowVec m c := (W12_keep m hpre c main_v3 (by decide)).trans (v3_11 m hpre c)
theorem v3_13 (c : Dev nD) : W13 m hpre c main_v3 = rowVec m c := (W13_keep m hpre c main_v3 (by decide)).trans (v3_12 m hpre c)
theorem v3_14 (c : Dev nD) : W14 m hpre c main_v3 = rowVec m c := (W14_keep m hpre c main_v3 (by decide)).trans (v3_13 m hpre c)
theorem v3_15 (c : Dev nD) : W15 m hpre c main_v3 = rowVec m c := (W15_keep m hpre c main_v3 (by decide)).trans (v3_14 m hpre c)
theorem v3_16 (c : Dev nD) : W16 m hpre c main_v3 = rowVec m c := (W16_keep m hpre c main_v3 (by decide)).trans (v3_15 m hpre c)
theorem v3_17 (c : Dev nD) : W17 m hpre c main_v3 = rowVec m c := (W17_keep m hpre c main_v3 (by decide)).trans (v3_16 m hpre c)
theorem v3_18 (c : Dev nD) : W18 m hpre c main_v3 = rowVec m c := (W18_keep m hpre c main_v3 (by decide)).trans (v3_17 m hpre c)
theorem v3_19 (c : Dev nD) : W19 m hpre c main_v3 = rowVec m c := (W19_keep m hpre c main_v3 (by decide)).trans (v3_18 m hpre c)
theorem v3_20 (c : Dev nD) : W20 m hpre c main_v3 = rowVec m c := (W20_keep m hpre c main_v3 (by decide)).trans (v3_19 m hpre c)
theorem v3_21 (c : Dev nD) : W21 m hpre c main_v3 = rowVec m c := (W21_keep m hpre c main_v3 (by decide)).trans (v3_20 m hpre c)
theorem v3_22 (c : Dev nD) : W22 m hpre c main_v3 = rowVec m c := (W22_keep m hpre c main_v3 (by decide)).trans (v3_21 m hpre c)
theorem v3_23 (c : Dev nD) : W23 m hpre c main_v3 = rowVec m c := (W23_keep m hpre c main_v3 (by decide)).trans (v3_22 m hpre c)
theorem v3_24 (c : Dev nD) : W24 m hpre c main_v3 = rowVec m c := (W24_keep m hpre c main_v3 (by decide)).trans (v3_23 m hpre c)
theorem v3_25 (c : Dev nD) : W25 m hpre c main_v3 = rowVec m c := (W25_keep m hpre c main_v3 (by decide)).trans (v3_24 m hpre c)
theorem v3_26 (c : Dev nD) : W26 m hpre c main_v3 = rowVec m c := (W26_keep m hpre c main_v3 (by decide)).trans (v3_25 m hpre c)
theorem v3_27 (c : Dev nD) : W27 m hpre c main_v3 = rowVec m c := (W27_keep m hpre c main_v3 (by decide)).trans (v3_26 m hpre c)
theorem v3_28 (c : Dev nD) : W28 m hpre c main_v3 = rowVec m c := (W28_keep m hpre c main_v3 (by decide)).trans (v3_27 m hpre c)
theorem v3_29 (c : Dev nD) : W29 m hpre c main_v3 = rowVec m c := (W29_keep m hpre c main_v3 (by decide)).trans (v3_28 m hpre c)
theorem v3_30 (c : Dev nD) : W30 m hpre c main_v3 = rowVec m c := (W30_keep m hpre c main_v3 (by decide)).trans (v3_29 m hpre c)
theorem v3_31 (c : Dev nD) : W31 m hpre c main_v3 = rowVec m c := (W31_keep m hpre c main_v3 (by decide)).trans (v3_30 m hpre c)
theorem v3_32 (c : Dev nD) : W32 m hpre c main_v3 = rowVec m c := (W32_keep m hpre c main_v3 (by decide)).trans (v3_31 m hpre c)
theorem v3_33 (c : Dev nD) : W33 m hpre c main_v3 = rowVec m c := (W33_keep m hpre c main_v3 (by decide)).trans (v3_32 m hpre c)
theorem v3_34 (c : Dev nD) : W34 m hpre c main_v3 = rowVec m c := (W34_keep m hpre c main_v3 (by decide)).trans (v3_33 m hpre c)
theorem v3_35 (c : Dev nD) : W35 m hpre c main_v3 = rowVec m c := (W35_keep m hpre c main_v3 (by decide)).trans (v3_34 m hpre c)
theorem v3_36 (c : Dev nD) : W36 m hpre c main_v3 = rowVec m c := (W36_keep m hpre c main_v3 (by decide)).trans (v3_35 m hpre c)
theorem v3_37 (c : Dev nD) : W37 m hpre c main_v3 = rowVec m c := (W37_keep m hpre c main_v3 (by decide)).trans (v3_36 m hpre c)
theorem v3_38 (c : Dev nD) : W38 m hpre c main_v3 = rowVec m c := (W38_keep m hpre c main_v3 (by decide)).trans (v3_37 m hpre c)
theorem v3_39 (c : Dev nD) : W39 m hpre c main_v3 = rowVec m c := (W39_keep m hpre c main_v3 (by decide)).trans (v3_38 m hpre c)
theorem v3_40 (c : Dev nD) : W40 m hpre c main_v3 = rowVec m c := (W40_keep m hpre c main_v3 (by decide)).trans (v3_39 m hpre c)
theorem v3_41 (c : Dev nD) : W41 m hpre c main_v3 = rowVec m c := (W41_keep m hpre c main_v3 (by decide)).trans (v3_40 m hpre c)
theorem v3_42 (c : Dev nD) : W42 m hpre c main_v3 = rowVec m c := (W42_keep m hpre c main_v3 (by decide)).trans (v3_41 m hpre c)
theorem v3_43 (c : Dev nD) : W43 m hpre c main_v3 = rowVec m c := (W43_keep m hpre c main_v3 (by decide)).trans (v3_42 m hpre c)

/-! ## Each gather region's table at its entry -/

theorem dev_eq_zero (c : Dev nD) : c = 0 := Fin.ext (Nat.lt_one_iff.1 c.isLt)

theorem hpf1 (c : Dev nD) : V5 m c main_v36 = tbl0 m 0 := by
  obtain rfl : c = 0 := dev_eq_zero c
  show StableHlo.after hostOps1 (W4 m 0) (Proc.devRef .tc main_v36) = _
  after_results
  rw [v3_4 m 0]
  rfl
theorem hpf2 (c : Dev nD) : V7 m hpre c main_v39 = tbl1 m 0 := by
  obtain rfl : c = 0 := dev_eq_zero c
  show StableHlo.after hostOps2 (W6 m hpre 0) (Proc.devRef .tc main_v39) = _
  after_results
  rw [v3_6 m hpre 0]
  rfl
theorem hpf3 (c : Dev nD) : V9 m hpre c main_v42 = tbl2 m 0 := by
  obtain rfl : c = 0 := dev_eq_zero c
  show StableHlo.after hostOps3 (W8 m hpre 0) (Proc.devRef .tc main_v42) = _
  after_results
  rw [v3_8 m hpre 0]
  rfl
theorem hpf4 (c : Dev nD) : V11 m hpre c main_v45 = tbl3 m 0 := by
  obtain rfl : c = 0 := dev_eq_zero c
  show StableHlo.after hostOps4 (W10 m hpre 0) (Proc.devRef .tc main_v45) = _
  after_results
  rw [v3_10 m hpre 0]
  rfl
theorem hpf5 (c : Dev nD) : V13 m hpre c main_v48 = tbl4 m 0 := by
  obtain rfl : c = 0 := dev_eq_zero c
  show StableHlo.after hostOps5 (W12 m hpre 0) (Proc.devRef .tc main_v48) = _
  after_results
  rw [v3_12 m hpre 0]
  rfl
theorem hpf6 (c : Dev nD) : V15 m hpre c main_v51 = tbl5 m 0 := by
  obtain rfl : c = 0 := dev_eq_zero c
  show StableHlo.after hostOps6 (W14 m hpre 0) (Proc.devRef .tc main_v51) = _
  after_results
  rw [v3_14 m hpre 0]
  rfl
theorem hpf7 (c : Dev nD) : V17 m hpre c main_v54 = tbl6 m 0 := by
  obtain rfl : c = 0 := dev_eq_zero c
  show StableHlo.after hostOps7 (W16 m hpre 0) (Proc.devRef .tc main_v54) = _
  after_results
  rw [v3_16 m hpre 0]
  rfl
theorem hpf8 (c : Dev nD) : V19 m hpre c main_v57 = tbl7 m 0 := by
  obtain rfl : c = 0 := dev_eq_zero c
  show StableHlo.after hostOps8 (W18 m hpre 0) (Proc.devRef .tc main_v57) = _
  after_results
  rw [v3_18 m hpre 0]
  rfl
theorem hpf9 (c : Dev nD) : V21 m hpre c main_v60 = tbl8 m 0 := by
  obtain rfl : c = 0 := dev_eq_zero c
  show StableHlo.after hostOps9 (W20 m hpre 0) (Proc.devRef .tc main_v60) = _
  after_results
  rw [v3_20 m hpre 0]
  rfl
theorem hpf11 (c : Dev nD) : V26 m hpre c main_v73 = tbl0 m 0 := by
  obtain rfl : c = 0 := dev_eq_zero c
  show StableHlo.after hostOps11 (W25 m hpre 0) (Proc.devRef .tc main_v73) = _
  after_results
  rw [v3_25 m hpre 0]
  rfl
theorem hpf12 (c : Dev nD) : V28 m hpre c main_v76 = tbl1 m 0 := by
  obtain rfl : c = 0 := dev_eq_zero c
  show StableHlo.after hostOps12 (W27 m hpre 0) (Proc.devRef .tc main_v76) = _
  after_results
  rw [v3_27 m hpre 0]
  rfl
theorem hpf13 (c : Dev nD) : V30 m hpre c main_v79 = tbl2 m 0 := by
  obtain rfl : c = 0 := dev_eq_zero c
  show StableHlo.after hostOps13 (W29 m hpre 0) (Proc.devRef .tc main_v79) = _
  after_results
  rw [v3_29 m hpre 0]
  rfl
theorem hpf14 (c : Dev nD) : V32 m hpre c main_v82 = tbl3 m 0 := by
  obtain rfl : c = 0 := dev_eq_zero c
  show StableHlo.after hostOps14 (W31 m hpre 0) (Proc.devRef .tc main_v82) = _
  after_results
  rw [v3_31 m hpre 0]
  rfl
theorem hpf15 (c : Dev nD) : V34 m hpre c main_v85 = tbl4 m 0 := by
  obtain rfl : c = 0 := dev_eq_zero c
  show StableHlo.after hostOps15 (W33 m hpre 0) (Proc.devRef .tc main_v85) = _
  after_results
  rw [v3_33 m hpre 0]
  rfl
theorem hpf16 (c : Dev nD) : V36 m hpre c main_v88 = tbl5 m 0 := by
  obtain rfl : c = 0 := dev_eq_zero c
  show StableHlo.after hostOps16 (W35 m hpre 0) (Proc.devRef .tc main_v88) = _
  after_results
  rw [v3_35 m hpre 0]
  rfl
theorem hpf17 (c : Dev nD) : V38 m hpre c main_v91 = tbl6 m 0 := by
  obtain rfl : c = 0 := dev_eq_zero c
  show StableHlo.after hostOps17 (W37 m hpre 0) (Proc.devRef .tc main_v91) = _
  after_results
  rw [v3_37 m hpre 0]
  rfl
theorem hpf18 (c : Dev nD) : V40 m hpre c main_v94 = tbl7 m 0 := by
  obtain rfl : c = 0 := dev_eq_zero c
  show StableHlo.after hostOps18 (W39 m hpre 0) (Proc.devRef .tc main_v94) = _
  after_results
  rw [v3_39 m hpre 0]
  rfl
theorem hpf19 (c : Dev nD) : V42 m hpre c main_v97 = tbl8 m 0 := by
  obtain rfl : c = 0 := dev_eq_zero c
  show StableHlo.after hostOps19 (W41 m hpre 0) (Proc.devRef .tc main_v97) = _
  after_results
  rw [v3_41 m hpre 0]
  rfl

/-! ## The gathered operand sits in its buffer from the matmul region's exit to the layer's last gather region -/

theorem xw_4 (c : Dev nD) : W4 m c main_v34 = (dat0 (V3 m) c).arrAt 2 cfg0.N := by
  unfold W4; exact Pipeline.withArrays_arr spec0 (launch0 (F := F)).win.arr_inj c _ _ 2
theorem xw_5 (c : Dev nD) : W5 m c main_v34 = (dat0 (V3 m) c).arrAt 2 cfg0.N := (W5_keep m c main_v34 (by decide)).trans (xw_4 m c)
theorem xw_6 (c : Dev nD) : W6 m hpre c main_v34 = (dat0 (V3 m) c).arrAt 2 cfg0.N := (W6_keep m hpre c main_v34 (by decide)).trans (xw_5 m c)
theorem xw_7 (c : Dev nD) : W7 m hpre c main_v34 = (dat0 (V3 m) c).arrAt 2 cfg0.N := (W7_keep m hpre c main_v34 (by decide)).trans (xw_6 m hpre c)
theorem xw_8 (c : Dev nD) : W8 m hpre c main_v34 = (dat0 (V3 m) c).arrAt 2 cfg0.N := (W8_keep m hpre c main_v34 (by decide)).trans (xw_7 m hpre c)
theorem xw_9 (c : Dev nD) : W9 m hpre c main_v34 = (dat0 (V3 m) c).arrAt 2 cfg0.N := (W9_keep m hpre c main_v34 (by decide)).trans (xw_8 m hpre c)
theorem xw_10 (c : Dev nD) : W10 m hpre c main_v34 = (dat0 (V3 m) c).arrAt 2 cfg0.N := (W10_keep m hpre c main_v34 (by decide)).trans (xw_9 m hpre c)
theorem xw_11 (c : Dev nD) : W11 m hpre c main_v34 = (dat0 (V3 m) c).arrAt 2 cfg0.N := (W11_keep m hpre c main_v34 (by decide)).trans (xw_10 m hpre c)
theorem xw_12 (c : Dev nD) : W12 m hpre c main_v34 = (dat0 (V3 m) c).arrAt 2 cfg0.N := (W12_keep m hpre c main_v34 (by decide)).trans (xw_11 m hpre c)
theorem xw_13 (c : Dev nD) : W13 m hpre c main_v34 = (dat0 (V3 m) c).arrAt 2 cfg0.N := (W13_keep m hpre c main_v34 (by decide)).trans (xw_12 m hpre c)
theorem xw_14 (c : Dev nD) : W14 m hpre c main_v34 = (dat0 (V3 m) c).arrAt 2 cfg0.N := (W14_keep m hpre c main_v34 (by decide)).trans (xw_13 m hpre c)
theorem xw_15 (c : Dev nD) : W15 m hpre c main_v34 = (dat0 (V3 m) c).arrAt 2 cfg0.N := (W15_keep m hpre c main_v34 (by decide)).trans (xw_14 m hpre c)
theorem xw_16 (c : Dev nD) : W16 m hpre c main_v34 = (dat0 (V3 m) c).arrAt 2 cfg0.N := (W16_keep m hpre c main_v34 (by decide)).trans (xw_15 m hpre c)
theorem xw_17 (c : Dev nD) : W17 m hpre c main_v34 = (dat0 (V3 m) c).arrAt 2 cfg0.N := (W17_keep m hpre c main_v34 (by decide)).trans (xw_16 m hpre c)
theorem xw_18 (c : Dev nD) : W18 m hpre c main_v34 = (dat0 (V3 m) c).arrAt 2 cfg0.N := (W18_keep m hpre c main_v34 (by decide)).trans (xw_17 m hpre c)
theorem xw_19 (c : Dev nD) : W19 m hpre c main_v34 = (dat0 (V3 m) c).arrAt 2 cfg0.N := (W19_keep m hpre c main_v34 (by decide)).trans (xw_18 m hpre c)
theorem xw_20 (c : Dev nD) : W20 m hpre c main_v34 = (dat0 (V3 m) c).arrAt 2 cfg0.N := (W20_keep m hpre c main_v34 (by decide)).trans (xw_19 m hpre c)
theorem xw_21 (c : Dev nD) : W21 m hpre c main_v34 = (dat0 (V3 m) c).arrAt 2 cfg0.N := (W21_keep m hpre c main_v34 (by decide)).trans (xw_20 m hpre c)
theorem hxw1 (c : Dev nD) : V5 m c main_v34 = (dat0 (V3 m) c).arrAt 2 cfg0.N := xw_5 m c
theorem hxw2 (c : Dev nD) : V7 m hpre c main_v34 = (dat0 (V3 m) c).arrAt 2 cfg0.N := xw_7 m hpre c
theorem hxw3 (c : Dev nD) : V9 m hpre c main_v34 = (dat0 (V3 m) c).arrAt 2 cfg0.N := xw_9 m hpre c
theorem hxw4 (c : Dev nD) : V11 m hpre c main_v34 = (dat0 (V3 m) c).arrAt 2 cfg0.N := xw_11 m hpre c
theorem hxw5 (c : Dev nD) : V13 m hpre c main_v34 = (dat0 (V3 m) c).arrAt 2 cfg0.N := xw_13 m hpre c
theorem hxw6 (c : Dev nD) : V15 m hpre c main_v34 = (dat0 (V3 m) c).arrAt 2 cfg0.N := xw_15 m hpre c
theorem hxw7 (c : Dev nD) : V17 m hpre c main_v34 = (dat0 (V3 m) c).arrAt 2 cfg0.N := xw_17 m hpre c
theorem hxw8 (c : Dev nD) : V19 m hpre c main_v34 = (dat0 (V3 m) c).arrAt 2 cfg0.N := xw_19 m hpre c
theorem hxw9 (c : Dev nD) : V21 m hpre c main_v34 = (dat0 (V3 m) c).arrAt 2 cfg0.N := xw_21 m hpre c

theorem xw_25 (c : Dev nD) : W25 m hpre c main_v71 = (dat10 (V24 m hpre) c).arrAt 2 cfg10.N := by
  unfold W25; exact Pipeline.withArrays_arr spec10 (launch10 (F := F)).win.arr_inj c _ _ 2
theorem xw_26 (c : Dev nD) : W26 m hpre c main_v71 = (dat10 (V24 m hpre) c).arrAt 2 cfg10.N := (W26_keep m hpre c main_v71 (by decide)).trans (xw_25 m hpre c)
theorem xw_27 (c : Dev nD) : W27 m hpre c main_v71 = (dat10 (V24 m hpre) c).arrAt 2 cfg10.N := (W27_keep m hpre c main_v71 (by decide)).trans (xw_26 m hpre c)
theorem xw_28 (c : Dev nD) : W28 m hpre c main_v71 = (dat10 (V24 m hpre) c).arrAt 2 cfg10.N := (W28_keep m hpre c main_v71 (by decide)).trans (xw_27 m hpre c)
theorem xw_29 (c : Dev nD) : W29 m hpre c main_v71 = (dat10 (V24 m hpre) c).arrAt 2 cfg10.N := (W29_keep m hpre c main_v71 (by decide)).trans (xw_28 m hpre c)
theorem xw_30 (c : Dev nD) : W30 m hpre c main_v71 = (dat10 (V24 m hpre) c).arrAt 2 cfg10.N := (W30_keep m hpre c main_v71 (by decide)).trans (xw_29 m hpre c)
theorem xw_31 (c : Dev nD) : W31 m hpre c main_v71 = (dat10 (V24 m hpre) c).arrAt 2 cfg10.N := (W31_keep m hpre c main_v71 (by decide)).trans (xw_30 m hpre c)
theorem xw_32 (c : Dev nD) : W32 m hpre c main_v71 = (dat10 (V24 m hpre) c).arrAt 2 cfg10.N := (W32_keep m hpre c main_v71 (by decide)).trans (xw_31 m hpre c)
theorem xw_33 (c : Dev nD) : W33 m hpre c main_v71 = (dat10 (V24 m hpre) c).arrAt 2 cfg10.N := (W33_keep m hpre c main_v71 (by decide)).trans (xw_32 m hpre c)
theorem xw_34 (c : Dev nD) : W34 m hpre c main_v71 = (dat10 (V24 m hpre) c).arrAt 2 cfg10.N := (W34_keep m hpre c main_v71 (by decide)).trans (xw_33 m hpre c)
theorem xw_35 (c : Dev nD) : W35 m hpre c main_v71 = (dat10 (V24 m hpre) c).arrAt 2 cfg10.N := (W35_keep m hpre c main_v71 (by decide)).trans (xw_34 m hpre c)
theorem xw_36 (c : Dev nD) : W36 m hpre c main_v71 = (dat10 (V24 m hpre) c).arrAt 2 cfg10.N := (W36_keep m hpre c main_v71 (by decide)).trans (xw_35 m hpre c)
theorem xw_37 (c : Dev nD) : W37 m hpre c main_v71 = (dat10 (V24 m hpre) c).arrAt 2 cfg10.N := (W37_keep m hpre c main_v71 (by decide)).trans (xw_36 m hpre c)
theorem xw_38 (c : Dev nD) : W38 m hpre c main_v71 = (dat10 (V24 m hpre) c).arrAt 2 cfg10.N := (W38_keep m hpre c main_v71 (by decide)).trans (xw_37 m hpre c)
theorem xw_39 (c : Dev nD) : W39 m hpre c main_v71 = (dat10 (V24 m hpre) c).arrAt 2 cfg10.N := (W39_keep m hpre c main_v71 (by decide)).trans (xw_38 m hpre c)
theorem xw_40 (c : Dev nD) : W40 m hpre c main_v71 = (dat10 (V24 m hpre) c).arrAt 2 cfg10.N := (W40_keep m hpre c main_v71 (by decide)).trans (xw_39 m hpre c)
theorem xw_41 (c : Dev nD) : W41 m hpre c main_v71 = (dat10 (V24 m hpre) c).arrAt 2 cfg10.N := (W41_keep m hpre c main_v71 (by decide)).trans (xw_40 m hpre c)
theorem xw_42 (c : Dev nD) : W42 m hpre c main_v71 = (dat10 (V24 m hpre) c).arrAt 2 cfg10.N := (W42_keep m hpre c main_v71 (by decide)).trans (xw_41 m hpre c)
theorem hxw11 (c : Dev nD) : V26 m hpre c main_v71 = (dat10 (V24 m hpre) c).arrAt 2 cfg10.N := xw_26 m hpre c
theorem hxw12 (c : Dev nD) : V28 m hpre c main_v71 = (dat10 (V24 m hpre) c).arrAt 2 cfg10.N := xw_28 m hpre c
theorem hxw13 (c : Dev nD) : V30 m hpre c main_v71 = (dat10 (V24 m hpre) c).arrAt 2 cfg10.N := xw_30 m hpre c
theorem hxw14 (c : Dev nD) : V32 m hpre c main_v71 = (dat10 (V24 m hpre) c).arrAt 2 cfg10.N := xw_32 m hpre c
theorem hxw15 (c : Dev nD) : V34 m hpre c main_v71 = (dat10 (V24 m hpre) c).arrAt 2 cfg10.N := xw_34 m hpre c
theorem hxw16 (c : Dev nD) : V36 m hpre c main_v71 = (dat10 (V24 m hpre) c).arrAt 2 cfg10.N := xw_36 m hpre c
theorem hxw17 (c : Dev nD) : V38 m hpre c main_v71 = (dat10 (V24 m hpre) c).arrAt 2 cfg10.N := xw_38 m hpre c
theorem hxw18 (c : Dev nD) : V40 m hpre c main_v71 = (dat10 (V24 m hpre) c).arrAt 2 cfg10.N := xw_40 m hpre c
theorem hxw19 (c : Dev nD) : V42 m hpre c main_v71 = (dat10 (V24 m hpre) c).arrAt 2 cfg10.N := xw_42 m hpre c

end Cert.KernelIdeal.Hand

end
-- ==== Proof.Reg1.lean ====
/- Region 1 of the run (a gather call of the first layer: words 0 … 49999 of the row vector) as one item of the program
   between two boundary contents. The region is entered with every unscoped buffer at the contents W5 and left
   with them at W6, which differs from W5 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 1's exit contents -/

/-- At the exit each array of the region holds what the grid leaves in it, -/
theorem W6_arr (c : Dev nD) (w : Fin (cfg1 (adm1 m)).W) :
    W6 m hpre c (Proc.devRef .tc (Pipeline.arrRef spec1 w)) = (dat1 (V5 m) (adm1 m) (hH1 m hpre) c).arrAt w (cfg1 (adm1 m)).N := by
  unfold W6; exact Pipeline.withArrays_arr spec1 (launch1 (F := F)).win.arr_inj c _ _ w
/-- and every other buffer what it held at the entry. -/
theorem W6_of_ne (c : Dev nD) (b : Ref sig .tc) (hb : ∀ w, Pipeline.arrRef spec1 w ≠ b) :
    W6 m hpre c (Proc.devRef .tc b) = W5 m c (Proc.devRef .tc b) := by
  unfold W6; exact Pipeline.withArrays_of_ne spec1 c _ _ b hb
/-- The exit contents read at the TensorCore's references. -/
abbrev V6 : (c : Dev nD) → (b : Ref sig .tc) → Buf (Elt F) ((c : Thread nD τ).loc b) := fun c b => W6 m hpre c b
theorem hF1 (c : Dev nD) (w : Fin (cfg1 (adm1 m)).W) :
    (dat1 (V5 m) (adm1 m) (hH1 m hpre) c).arrAt w (cfg1 (adm1 m)).N = V6 m hpre c (Pipeline.arrRef spec1 w) :=
  (W6_arr m hpre c w).symm
theorem hrest1 (c : Dev nD) : ∀ b, b ∉ Finset.univ.image (Pipeline.arrRef spec1) → V6 m hpre c b = V5 m c b :=
  fun b hb => W6_of_ne m hpre c b fun w e => hb (Finset.mem_image.mpr ⟨w, Finset.mem_univ _, e⟩)

/-! ## The unscoped buffers that are no array of the region -/

/-- The operand left in HBM is unscoped, no array of the region and not the row table. -/
theorem H1_subP : H1 ⊆ Pipeline.restRefsP sig pre1 spec1 := by
  intro b hb
  rw [H1, Finset.mem_singleton] at hb
  subst hb
  refine Finset.mem_sdiff.mpr ⟨Pipeline.mem_restRefs_of main_v34 (by decide) (by decide), ?_⟩
  decide

include hpre in
/-- The table's buffer at the region's entry holds the admissible contents: the one table, words 0 … 49999 of the
    row vector. -/
theorem htbl1 (c : Dev nD) : (fun k : Fin pre1.K => V5 m c (pre1.ref k)) = (adm1 m).1 :=
  funext fun | ⟨0, _⟩ => hpf1 m c

include hpre in
/-- The unscoped buffers that are no array of the region, at its entry contents: the table at the admissible
    contents, the operand left in HBM, and the others. -/
theorem rest1_eq (c : Dev nD) :
    (Pipeline.unscopedRest (Ix := Unit) (Name := ℕ) (U := Pipeline.UD sig nD τ) (Lvl := ℕ) spec1 c (V5 m c) : sProp 𝕄)
      = iprop(Pipeline.prefHeld pre1 c (fun _ => fullShare) (adm1 m).1
          ∗ (bigSep H1 fun b => ((c : Thread nD τ).loc b) ↦{fullShare} V5 m c b)
          ∗ bigSep (Pipeline.restRefsP sig pre1 spec1 \ H1) fun b => ((c : Thread nD τ).loc b) ↦{fullShare} V5 m c b) := by
  rw [Pipeline.unscopedRest_split preFacts1 c (V5 m c), htbl1 m hpre c, Pipeline.unscopedRestP_sdiff pre1 spec1 H1 H1_subP c (V5 m c)]

/-! ## The region as an item of the program -/

-- a library lemma stated over the pinned configuration unifies with the printed one only when unification may
-- unfold plain definitions in a metavariable's type
set_option backward.isDefEq.respectTransparency.types false in
/-- REGION 1 between the boundary contents W5 and W6. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W6. Nothing is owed
    at the pipeline's cells at any point. -/
def reg1 : Pipeline.RegionSeg (pcfgs (F := F)) (adm m) (pdats m hpre) () defs₀ 𝒱₀ L lv 1 where
  win := (launch1 (F := F)).win.to₀
  block_pos := (launch1 (F := F)).block_pos
  stage_whole := (launch1 (F := F)).stage_whole
  K := Fin 16
  osem := osem1
  ho := ownSemFacts1
  hbody c := (body_obligation1 (V5 m) (adm1 m) (hH1 m hpre) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m hpre c) ∗ R c)
  X c := iprop((∃ r, prngReg c r) ∗ Pipeline.ownSems0 (Ix := Unit) (Name := ℕ) (U := Pipeline.UD sig nD τ) (Lvl := ℕ) (Val := Elt F) (τ := τ) osem1 c
    ∗ bigSep H1 fun b => ((c : Thread nD τ).loc b) ↦{fullShare} V5 m c b)
  Y c := iprop((∃ r, prngReg c r) ∗ (bigSep H1 fun b => ((c : Thread nD τ).loc b) ↦{fullShare} V5 m c b)
    ∗ Pipeline.prefHeld pre1 c (fun _ => fullShare) (adm1 m).1)
  Z c := bigSep (Pipeline.restRefsP sig pre1 spec1 \ H1) fun b => ((c : Thread nD τ).loc b) ↦{fullShare} V5 m c b
  hentry c := by
    have hsplit := Pipeline.arrays_of_unscopedBufs (p := 1) (pcfgs (F := F)) (adm m) (pdats m hpre) (launch1 (F := F)).win (launch1 (F := F)).arr_whole c
      ((pdats m hpre 1 c).share_full fun _ => rfl) (V5 m c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest1_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 1 c).Φ 0 = iprop(Pipeline.ΦD osem1 spec1 H1 (V5 m) c ∗ Pipeline.prefHeld pre1 c (fun _ => fullShare) (adm1 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 1 c).Φ (Fin.last _) = iprop(Pipeline.ΦD osem1 spec1 H1 (V5 m) c ∗ Pipeline.prefHeld pre1 c (fun _ => fullShare) (adm1 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hpre) ((pdats m hpre 1 c).share_full fun _ => rfl)
      (V5 m c) (V6 m hpre c) ((pdats m hpre 1 c).arrAt · (cfg1 (adm1 m)).N) (hF1 m hpre c) (hrest1 m hpre c)
    rw [Pipeline.unscopedBufs_held] at hjoin
    iintro ⟨Ha, HO, ⟨Hp, HH, Ht⟩, HZ⟩
    ihave Hrest := (Entails.of_eq (rest1_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg2.lean ====
/- Region 2 of the run (a gather call of the first layer: words 50000 … 99999 of the row vector) as one item of the program
   between two boundary contents. The region is entered with every unscoped buffer at the contents W7 and left
   with them at W8, which differs from W7 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 2's exit contents -/

/-- At the exit each array of the region holds what the grid leaves in it, -/
theorem W8_arr (c : Dev nD) (w : Fin (cfg2 (adm2 m)).W) :
    W8 m hpre c (Proc.devRef .tc (Pipeline.arrRef spec2 w)) = (dat2 (V7 m hpre) (adm2 m) (hH2 m hpre) c).arrAt w (cfg2 (adm2 m)).N := by
  unfold W8; exact Pipeline.withArrays_arr spec2 (launch2 (F := F)).win.arr_inj c _ _ w
/-- and every other buffer what it held at the entry. -/
theorem W8_of_ne (c : Dev nD) (b : Ref sig .tc) (hb : ∀ w, Pipeline.arrRef spec2 w ≠ b) :
    W8 m hpre c (Proc.devRef .tc b) = W7 m hpre c (Proc.devRef .tc b) := by
  unfold W8; exact Pipeline.withArrays_of_ne spec2 c _ _ b hb
/-- The exit contents read at the TensorCore's references. -/
abbrev V8 : (c : Dev nD) → (b : Ref sig .tc) → Buf (Elt F) ((c : Thread nD τ).loc b) := fun c b => W8 m hpre c b
theorem hF2 (c : Dev nD) (w : Fin (cfg2 (adm2 m)).W) :
    (dat2 (V7 m hpre) (adm2 m) (hH2 m hpre) c).arrAt w (cfg2 (adm2 m)).N = V8 m hpre c (Pipeline.arrRef spec2 w) :=
  (W8_arr m hpre c w).symm
theorem hrest2 (c : Dev nD) : ∀ b, b ∉ Finset.univ.image (Pipeline.arrRef spec2) → V8 m hpre c b = V7 m hpre c b :=
  fun b hb => W8_of_ne m hpre c b fun w e => hb (Finset.mem_image.mpr ⟨w, Finset.mem_univ _, e⟩)

/-! ## The unscoped buffers that are no array of the region -/

/-- The operand left in HBM is unscoped, no array of the region and not the row table. -/
theorem H2_subP : H2 ⊆ Pipeline.restRefsP sig pre2 spec2 := by
  intro b hb
  rw [H2, Finset.mem_singleton] at hb
  subst hb
  refine Finset.mem_sdiff.mpr ⟨Pipeline.mem_restRefs_of main_v34 (by decide) (by decide), ?_⟩
  decide

include hpre in
/-- The table's buffer at the region's entry holds the admissible contents: the one table, words 50000 … 99999 of the
    row vector. -/
theorem htbl2 (c : Dev nD) : (fun k : Fin pre2.K => V7 m hpre c (pre2.ref k)) = (adm2 m).1 :=
  funext fun | ⟨0, _⟩ => hpf2 m hpre c

include hpre in
/-- The unscoped buffers that are no array of the region, at its entry contents: the table at the admissible
    contents, the operand left in HBM, and the others. -/
theorem rest2_eq (c : Dev nD) :
    (Pipeline.unscopedRest (Ix := Unit) (Name := ℕ) (U := Pipeline.UD sig nD τ) (Lvl := ℕ) spec2 c (V7 m hpre c) : sProp 𝕄)
      = iprop(Pipeline.prefHeld pre2 c (fun _ => fullShare) (adm2 m).1
          ∗ (bigSep H2 fun b => ((c : Thread nD τ).loc b) ↦{fullShare} V7 m hpre c b)
          ∗ bigSep (Pipeline.restRefsP sig pre2 spec2 \ H2) fun b => ((c : Thread nD τ).loc b) ↦{fullShare} V7 m hpre c b) := by
  rw [Pipeline.unscopedRest_split preFacts2 c (V7 m hpre c), htbl2 m hpre c, Pipeline.unscopedRestP_sdiff pre2 spec2 H2 H2_subP c (V7 m hpre c)]

/-! ## The region as an item of the program -/

-- a library lemma stated over the pinned configuration unifies with the printed one only when unification may
-- unfold plain definitions in a metavariable's type
set_option backward.isDefEq.respectTransparency.types false in
/-- REGION 2 between the boundary contents W7 and W8. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W8. Nothing is owed
    at the pipeline's cells at any point. -/
def reg2 : Pipeline.RegionSeg (pcfgs (F := F)) (adm m) (pdats m hpre) () defs₀ 𝒱₀ L lv 2 where
  win := (launch2 (F := F)).win.to₀
  block_pos := (launch2 (F := F)).block_pos
  stage_whole := (launch2 (F := F)).stage_whole
  K := Fin 16
  osem := osem2
  ho := ownSemFacts2
  hbody c := (body_obligation2 (V7 m hpre) (adm2 m) (hH2 m hpre) c).loose
  hwaits := Pipeline.hwaits_of_owed_zero _ _ _ _ L lv 2 fun _ _ => rfl
  pre c := iprop(StableHlo.held (c : Thread nD τ) (Pipeline.ucRefs τ sig) (W7 m hpre c) ∗ R c)
  post c := iprop(StableHlo.held (c : Thread nD τ) (Pipeline.ucRefs τ sig) (W8 m hpre c) ∗ R c)
  X c := iprop((∃ r, prngReg c r) ∗ Pipeline.ownSems0 (Ix := Unit) (Name := ℕ) (U := Pipeline.UD sig nD τ) (Lvl := ℕ) (Val := Elt F) (τ := τ) osem2 c
    ∗ bigSep H2 fun b => ((c : Thread nD τ).loc b) ↦{fullShare} V7 m hpre c b)
  Y c := iprop((∃ r, prngReg c r) ∗ (bigSep H2 fun b => ((c : Thread nD τ).loc b) ↦{fullShare} V7 m hpre c b)
    ∗ Pipeline.prefHeld pre2 c (fun _ => fullShare) (adm2 m).1)
  Z c := bigSep (Pipeline.restRefsP sig pre2 spec2 \ H2) fun b => ((c : Thread nD τ).loc b) ↦{fullShare} V7 m hpre c b
  hentry c := by
    have hsplit := Pipeline.arrays_of_unscopedBufs (p := 2) (pcfgs (F := F)) (adm m) (pdats m hpre) (launch2 (F := F)).win (launch2 (F := F)).arr_whole c
      ((pdats m hpre 2 c).share_full fun _ => rfl) (V7 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest2_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 2 c).Φ 0 = iprop(Pipeline.ΦD osem2 spec2 H2 (V7 m hpre) c ∗ Pipeline.prefHeld pre2 c (fun _ => fullShare) (adm2 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 2 c).Φ (Fin.last _) = iprop(Pipeline.ΦD osem2 spec2 H2 (V7 m hpre) c ∗ Pipeline.prefHeld pre2 c (fun _ => fullShare) (adm2 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m hpre) ((pdats m hpre 2 c).share_full fun _ => rfl)
      (V7 m hpre c) (V8 m hpre c) ((pdats m hpre 2 c).arrAt · (cfg2 (adm2 m)).N) (hF2 m hpre c) (hrest2 m hpre c)
    rw [Pipeline.unscopedBufs_held] at hjoin
    iintro ⟨Ha, HO, ⟨Hp, HH, Ht⟩, HZ⟩
    ihave Hrest := (Entails.of_eq (rest2_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg3.lean ====
/- Region 3 of the run (a gather call of the first layer: words 100000 … 149999 of the row vector) as one item of the program
   between two boundary contents. The region is entered with every unscoped buffer at the contents W9 and left
   with them at W10, which differs from W9 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 3's exit contents -/

/-- At the exit each array of the region holds what the grid leaves in it, -/
theorem W10_arr (c : Dev nD) (w : Fin (cfg3 (adm3 m)).W) :
    W10 m hpre c (Proc.devRef .tc (Pipeline.arrRef spec3 w)) = (dat3 (V9 m hpre) (adm3 m) (hH3 m hpre) c).arrAt w (cfg3 (adm3 m)).N := by
  unfold W10; exact Pipeline.withArrays_arr spec3 (launch3 (F := F)).win.arr_inj c _ _ w
/-- and every other buffer what it held at the entry. -/
theorem W10_of_ne (c : Dev nD) (b : Ref sig .tc) (hb : ∀ w, Pipeline.arrRef spec3 w ≠ b) :
    W10 m hpre c (Proc.devRef .tc b) = W9 m hpre c (Proc.devRef .tc b) := by
  unfold W10; exact Pipeline.withArrays_of_ne spec3 c _ _ b hb
/-- The exit contents read at the TensorCore's references. -/
abbrev V10 : (c : Dev nD) → (b : Ref sig .tc) → Buf (Elt F) ((c : Thread nD τ).loc b) := fun c b => W10 m hpre c b
theorem hF3 (c : Dev nD) (w : Fin (cfg3 (adm3 m)).W) :
    (dat3 (V9 m hpre) (adm3 m) (hH3 m hpre) c).arrAt w (cfg3 (adm3 m)).N = V10 m hpre c (Pipeline.arrRef spec3 w) :=
  (W10_arr m hpre c w).symm
theorem hrest3 (c : Dev nD) : ∀ b, b ∉ Finset.univ.image (Pipeline.arrRef spec3) → V10 m hpre c b = V9 m hpre c b :=
  fun b hb => W10_of_ne m hpre c b fun w e => hb (Finset.mem_image.mpr ⟨w, Finset.mem_univ _, e⟩)

/-! ## The unscoped buffers that are no array of the region -/

/-- The operand left in HBM is unscoped, no array of the region and not the row table. -/
theorem H3_subP : H3 ⊆ Pipeline.restRefsP sig pre3 spec3 := by
  intro b hb
  rw [H3, Finset.mem_singleton] at hb
  subst hb
  refine Finset.mem_sdiff.mpr ⟨Pipeline.mem_restRefs_of main_v34 (by decide) (by decide), ?_⟩
  decide

include hpre in
/-- The table's buffer at the region's entry holds the admissible contents: the one table, words 100000 … 149999 of the
    row vector. -/
theorem htbl3 (c : Dev nD) : (fun k : Fin pre3.K => V9 m hpre c (pre3.ref k)) = (adm3 m).1 :=
  funext fun | ⟨0, _⟩ => hpf3 m hpre c

include hpre in
/-- The unscoped buffers that are no array of the region, at its entry contents: the table at the admissible
    contents, the operand left in HBM, and the others. -/
theorem rest3_eq (c : Dev nD) :
    (Pipeline.unscopedRest (Ix := Unit) (Name := ℕ) (U := Pipeline.UD sig nD τ) (Lvl := ℕ) spec3 c (V9 m hpre c) : sProp 𝕄)
      = iprop(Pipeline.prefHeld pre3 c (fun _ => fullShare) (adm3 m).1
          ∗ (bigSep H3 fun b => ((c : Thread nD τ).loc b) ↦{fullShare} V9 m hpre c b)
          ∗ bigSep (Pipeline.restRefsP sig pre3 spec3 \ H3) fun b => ((c : Thread nD τ).loc b) ↦{fullShare} V9 m hpre c b) := by
  rw [Pipeline.unscopedRest_split preFacts3 c (V9 m hpre c), htbl3 m hpre c, Pipeline.unscopedRestP_sdiff pre3 spec3 H3 H3_subP c (V9 m hpre c)]

/-! ## The region as an item of the program -/

-- a library lemma stated over the pinned configuration unifies with the printed one only when unification may
-- unfold plain definitions in a metavariable's type
set_option backward.isDefEq.respectTransparency.types false in
/-- REGION 3 between the boundary contents W9 and W10. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W10. Nothing is owed
    at the pipeline's cells at any point. -/
def reg3 : Pipeline.RegionSeg (pcfgs (F := F)) (adm m) (pdats m hpre) () defs₀ 𝒱₀ L lv 3 where
  win := (launch3 (F := F)).win.to₀
  block_pos := (launch3 (F := F)).block_pos
  stage_whole := (launch3 (F := F)).stage_whole
  K := Fin 16
  osem := osem3
  ho := ownSemFacts3
  hbody c := (body_obligation3 (V9 m hpre) (adm3 m) (hH3 m hpre) c).loose
  hwaits := Pipeline.hwaits_of_owed_zero _ _ _ _ L lv 3 fun _ _ => rfl
  pre c := iprop(StableHlo.held (c : Thread nD τ) (Pipeline.ucRefs τ sig) (W9 m hpre c) ∗ R c)
  post c := iprop(StableHlo.held (c : Thread nD τ) (Pipeline.ucRefs τ sig) (W10 m hpre c) ∗ R c)
  X c := iprop((∃ r, prngReg c r) ∗ Pipeline.ownSems0 (Ix := Unit) (Name := ℕ) (U := Pipeline.UD sig nD τ) (Lvl := ℕ) (Val := Elt F) (τ := τ) osem3 c
    ∗ bigSep H3 fun b => ((c : Thread nD τ).loc b) ↦{fullShare} V9 m hpre c b)
  Y c := iprop((∃ r, prngReg c r) ∗ (bigSep H3 fun b => ((c : Thread nD τ).loc b) ↦{fullShare} V9 m hpre c b)
    ∗ Pipeline.prefHeld pre3 c (fun _ => fullShare) (adm3 m).1)
  Z c := bigSep (Pipeline.restRefsP sig pre3 spec3 \ H3) fun b => ((c : Thread nD τ).loc b) ↦{fullShare} V9 m hpre c b
  hentry c := by
    have hsplit := Pipeline.arrays_of_unscopedBufs (p := 3) (pcfgs (F := F)) (adm m) (pdats m hpre) (launch3 (F := F)).win (launch3 (F := F)).arr_whole c
      ((pdats m hpre 3 c).share_full fun _ => rfl) (V9 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest3_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 3 c).Φ 0 = iprop(Pipeline.ΦD osem3 spec3 H3 (V9 m hpre) c ∗ Pipeline.prefHeld pre3 c (fun _ => fullShare) (adm3 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 3 c).Φ (Fin.last _) = iprop(Pipeline.ΦD osem3 spec3 H3 (V9 m hpre) c ∗ Pipeline.prefHeld pre3 c (fun _ => fullShare) (adm3 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m hpre) ((pdats m hpre 3 c).share_full fun _ => rfl)
      (V9 m hpre c) (V10 m hpre c) ((pdats m hpre 3 c).arrAt · (cfg3 (adm3 m)).N) (hF3 m hpre c) (hrest3 m hpre c)
    rw [Pipeline.unscopedBufs_held] at hjoin
    iintro ⟨Ha, HO, ⟨Hp, HH, Ht⟩, HZ⟩
    ihave Hrest := (Entails.of_eq (rest3_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg4.lean ====
/- Region 4 of the run (a gather call of the first layer: words 150000 … 199999 of the row vector) as one item of the program
   between two boundary contents. The region is entered with every unscoped buffer at the contents W11 and left
   with them at W12, which differs from W11 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 4's exit contents -/

/-- At the exit each array of the region holds what the grid leaves in it, -/
theorem W12_arr (c : Dev nD) (w : Fin (cfg4 (adm4 m)).W) :
    W12 m hpre c (Proc.devRef .tc (Pipeline.arrRef spec4 w)) = (dat4 (V11 m hpre) (adm4 m) (hH4 m hpre) c).arrAt w (cfg4 (adm4 m)).N := by
  unfold W12; exact Pipeline.withArrays_arr spec4 (launch4 (F := F)).win.arr_inj c _ _ w
/-- and every other buffer what it held at the entry. -/
theorem W12_of_ne (c : Dev nD) (b : Ref sig .tc) (hb : ∀ w, Pipeline.arrRef spec4 w ≠ b) :
    W12 m hpre c (Proc.devRef .tc b) = W11 m hpre c (Proc.devRef .tc b) := by
  unfold W12; exact Pipeline.withArrays_of_ne spec4 c _ _ b hb
/-- The exit contents read at the TensorCore's references. -/
abbrev V12 : (c : Dev nD) → (b : Ref sig .tc) → Buf (Elt F) ((c : Thread nD τ).loc b) := fun c b => W12 m hpre c b
theorem hF4 (c : Dev nD) (w : Fin (cfg4 (adm4 m)).W) :
    (dat4 (V11 m hpre) (adm4 m) (hH4 m hpre) c).arrAt w (cfg4 (adm4 m)).N = V12 m hpre c (Pipeline.arrRef spec4 w) :=
  (W12_arr m hpre c w).symm
theorem hrest4 (c : Dev nD) : ∀ b, b ∉ Finset.univ.image (Pipeline.arrRef spec4) → V12 m hpre c b = V11 m hpre c b :=
  fun b hb => W12_of_ne m hpre c b fun w e => hb (Finset.mem_image.mpr ⟨w, Finset.mem_univ _, e⟩)

/-! ## The unscoped buffers that are no array of the region -/

/-- The operand left in HBM is unscoped, no array of the region and not the row table. -/
theorem H4_subP : H4 ⊆ Pipeline.restRefsP sig pre4 spec4 := by
  intro b hb
  rw [H4, Finset.mem_singleton] at hb
  subst hb
  refine Finset.mem_sdiff.mpr ⟨Pipeline.mem_restRefs_of main_v34 (by decide) (by decide), ?_⟩
  decide

include hpre in
/-- The table's buffer at the region's entry holds the admissible contents: the one table, words 150000 … 199999 of the
    row vector. -/
theorem htbl4 (c : Dev nD) : (fun k : Fin pre4.K => V11 m hpre c (pre4.ref k)) = (adm4 m).1 :=
  funext fun | ⟨0, _⟩ => hpf4 m hpre c

include hpre in
/-- The unscoped buffers that are no array of the region, at its entry contents: the table at the admissible
    contents, the operand left in HBM, and the others. -/
theorem rest4_eq (c : Dev nD) :
    (Pipeline.unscopedRest (Ix := Unit) (Name := ℕ) (U := Pipeline.UD sig nD τ) (Lvl := ℕ) spec4 c (V11 m hpre c) : sProp 𝕄)
      = iprop(Pipeline.prefHeld pre4 c (fun _ => fullShare) (adm4 m).1
          ∗ (bigSep H4 fun b => ((c : Thread nD τ).loc b) ↦{fullShare} V11 m hpre c b)
          ∗ bigSep (Pipeline.restRefsP sig pre4 spec4 \ H4) fun b => ((c : Thread nD τ).loc b) ↦{fullShare} V11 m hpre c b) := by
  rw [Pipeline.unscopedRest_split preFacts4 c (V11 m hpre c), htbl4 m hpre c, Pipeline.unscopedRestP_sdiff pre4 spec4 H4 H4_subP c (V11 m hpre c)]

/-! ## The region as an item of the program -/

-- a library lemma stated over the pinned configuration unifies with the printed one only when unification may
-- unfold plain definitions in a metavariable's type
set_option backward.isDefEq.respectTransparency.types false in
/-- REGION 4 between the boundary contents W11 and W12. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W12. Nothing is owed
    at the pipeline's cells at any point. -/
def reg4 : Pipeline.RegionSeg (pcfgs (F := F)) (adm m) (pdats m hpre) () defs₀ 𝒱₀ L lv 4 where
  win := (launch4 (F := F)).win.to₀
  block_pos := (launch4 (F := F)).block_pos
  stage_whole := (launch4 (F := F)).stage_whole
  K := Fin 16
  osem := osem4
  ho := ownSemFacts4
  hbody c := (body_obligation4 (V11 m hpre) (adm4 m) (hH4 m hpre) c).loose
  hwaits := Pipeline.hwaits_of_owed_zero _ _ _ _ L lv 4 fun _ _ => rfl
  pre c := iprop(StableHlo.held (c : Thread nD τ) (Pipeline.ucRefs τ sig) (W11 m hpre c) ∗ R c)
  post c := iprop(StableHlo.held (c : Thread nD τ) (Pipeline.ucRefs τ sig) (W12 m hpre c) ∗ R c)
  X c := iprop((∃ r, prngReg c r) ∗ Pipeline.ownSems0 (Ix := Unit) (Name := ℕ) (U := Pipeline.UD sig nD τ) (Lvl := ℕ) (Val := Elt F) (τ := τ) osem4 c
    ∗ bigSep H4 fun b => ((c : Thread nD τ).loc b) ↦{fullShare} V11 m hpre c b)
  Y c := iprop((∃ r, prngReg c r) ∗ (bigSep H4 fun b => ((c : Thread nD τ).loc b) ↦{fullShare} V11 m hpre c b)
    ∗ Pipeline.prefHeld pre4 c (fun _ => fullShare) (adm4 m).1)
  Z c := bigSep (Pipeline.restRefsP sig pre4 spec4 \ H4) fun b => ((c : Thread nD τ).loc b) ↦{fullShare} V11 m hpre c b
  hentry c := by
    have hsplit := Pipeline.arrays_of_unscopedBufs (p := 4) (pcfgs (F := F)) (adm m) (pdats m hpre) (launch4 (F := F)).win (launch4 (F := F)).arr_whole c
      ((pdats m hpre 4 c).share_full fun _ => rfl) (V11 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest4_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 4 c).Φ 0 = iprop(Pipeline.ΦD osem4 spec4 H4 (V11 m hpre) c ∗ Pipeline.prefHeld pre4 c (fun _ => fullShare) (adm4 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 4 c).Φ (Fin.last _) = iprop(Pipeline.ΦD osem4 spec4 H4 (V11 m hpre) c ∗ Pipeline.prefHeld pre4 c (fun _ => fullShare) (adm4 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m hpre) ((pdats m hpre 4 c).share_full fun _ => rfl)
      (V11 m hpre c) (V12 m hpre c) ((pdats m hpre 4 c).arrAt · (cfg4 (adm4 m)).N) (hF4 m hpre c) (hrest4 m hpre c)
    rw [Pipeline.unscopedBufs_held] at hjoin
    iintro ⟨Ha, HO, ⟨Hp, HH, Ht⟩, HZ⟩
    ihave Hrest := (Entails.of_eq (rest4_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg5.lean ====
/- Region 5 of the run (a gather call of the first layer: words 200000 … 249999 of the row vector) as one item of the program
   between two boundary contents. The region is entered with every unscoped buffer at the contents W13 and left
   with them at W14, which differs from W13 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 5's exit contents -/

/-- At the exit each array of the region holds what the grid leaves in it, -/
theorem W14_arr (c : Dev nD) (w : Fin (cfg5 (adm5 m)).W) :
    W14 m hpre c (Proc.devRef .tc (Pipeline.arrRef spec5 w)) = (dat5 (V13 m hpre) (adm5 m) (hH5 m hpre) c).arrAt w (cfg5 (adm5 m)).N := by
  unfold W14; exact Pipeline.withArrays_arr spec5 (launch5 (F := F)).win.arr_inj c _ _ w
/-- and every other buffer what it held at the entry. -/
theorem W14_of_ne (c : Dev nD) (b : Ref sig .tc) (hb : ∀ w, Pipeline.arrRef spec5 w ≠ b) :
    W14 m hpre c (Proc.devRef .tc b) = W13 m hpre c (Proc.devRef .tc b) := by
  unfold W14; exact Pipeline.withArrays_of_ne spec5 c _ _ b hb
/-- The exit contents read at the TensorCore's references. -/
abbrev V14 : (c : Dev nD) → (b : Ref sig .tc) → Buf (Elt F) ((c : Thread nD τ).loc b) := fun c b => W14 m hpre c b
theorem hF5 (c : Dev nD) (w : Fin (cfg5 (adm5 m)).W) :
    (dat5 (V13 m hpre) (adm5 m) (hH5 m hpre) c).arrAt w (cfg5 (adm5 m)).N = V14 m hpre c (Pipeline.arrRef spec5 w) :=
  (W14_arr m hpre c w).symm
theorem hrest5 (c : Dev nD) : ∀ b, b ∉ Finset.univ.image (Pipeline.arrRef spec5) → V14 m hpre c b = V13 m hpre c b :=
  fun b hb => W14_of_ne m hpre c b fun w e => hb (Finset.mem_image.mpr ⟨w, Finset.mem_univ _, e⟩)

/-! ## The unscoped buffers that are no array of the region -/

/-- The operand left in HBM is unscoped, no array of the region and not the row table. -/
theorem H5_subP : H5 ⊆ Pipeline.restRefsP sig pre5 spec5 := by
  intro b hb
  rw [H5, Finset.mem_singleton] at hb
  subst hb
  refine Finset.mem_sdiff.mpr ⟨Pipeline.mem_restRefs_of main_v34 (by decide) (by decide), ?_⟩
  decide

include hpre in
/-- The table's buffer at the region's entry holds the admissible contents: the one table, words 200000 … 249999 of the
    row vector. -/
theorem htbl5 (c : Dev nD) : (fun k : Fin pre5.K => V13 m hpre c (pre5.ref k)) = (adm5 m).1 :=
  funext fun | ⟨0, _⟩ => hpf5 m hpre c

include hpre in
/-- The unscoped buffers that are no array of the region, at its entry contents: the table at the admissible
    contents, the operand left in HBM, and the others. -/
theorem rest5_eq (c : Dev nD) :
    (Pipeline.unscopedRest (Ix := Unit) (Name := ℕ) (U := Pipeline.UD sig nD τ) (Lvl := ℕ) spec5 c (V13 m hpre c) : sProp 𝕄)
      = iprop(Pipeline.prefHeld pre5 c (fun _ => fullShare) (adm5 m).1
          ∗ (bigSep H5 fun b => ((c : Thread nD τ).loc b) ↦{fullShare} V13 m hpre c b)
          ∗ bigSep (Pipeline.restRefsP sig pre5 spec5 \ H5) fun b => ((c : Thread nD τ).loc b) ↦{fullShare} V13 m hpre c b) := by
  rw [Pipeline.unscopedRest_split preFacts5 c (V13 m hpre c), htbl5 m hpre c, Pipeline.unscopedRestP_sdiff pre5 spec5 H5 H5_subP c (V13 m hpre c)]

/-! ## The region as an item of the program -/

-- a library lemma stated over the pinned configuration unifies with the printed one only when unification may
-- unfold plain definitions in a metavariable's type
set_option backward.isDefEq.respectTransparency.types false in
/-- REGION 5 between the boundary contents W13 and W14. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W14. Nothing is owed
    at the pipeline's cells at any point. -/
def reg5 : Pipeline.RegionSeg (pcfgs (F := F)) (adm m) (pdats m hpre) () defs₀ 𝒱₀ L lv 5 where
  win := (launch5 (F := F)).win.to₀
  block_pos := (launch5 (F := F)).block_pos
  stage_whole := (launch5 (F := F)).stage_whole
  K := Fin 16
  osem := osem5
  ho := ownSemFacts5
  hbody c := (body_obligation5 (V13 m hpre) (adm5 m) (hH5 m hpre) c).loose
  hwaits := Pipeline.hwaits_of_owed_zero _ _ _ _ L lv 5 fun _ _ => rfl
  pre c := iprop(StableHlo.held (c : Thread nD τ) (Pipeline.ucRefs τ sig) (W13 m hpre c) ∗ R c)
  post c := iprop(StableHlo.held (c : Thread nD τ) (Pipeline.ucRefs τ sig) (W14 m hpre c) ∗ R c)
  X c := iprop((∃ r, prngReg c r) ∗ Pipeline.ownSems0 (Ix := Unit) (Name := ℕ) (U := Pipeline.UD sig nD τ) (Lvl := ℕ) (Val := Elt F) (τ := τ) osem5 c
    ∗ bigSep H5 fun b => ((c : Thread nD τ).loc b) ↦{fullShare} V13 m hpre c b)
  Y c := iprop((∃ r, prngReg c r) ∗ (bigSep H5 fun b => ((c : Thread nD τ).loc b) ↦{fullShare} V13 m hpre c b)
    ∗ Pipeline.prefHeld pre5 c (fun _ => fullShare) (adm5 m).1)
  Z c := bigSep (Pipeline.restRefsP sig pre5 spec5 \ H5) fun b => ((c : Thread nD τ).loc b) ↦{fullShare} V13 m hpre c b
  hentry c := by
    have hsplit := Pipeline.arrays_of_unscopedBufs (p := 5) (pcfgs (F := F)) (adm m) (pdats m hpre) (launch5 (F := F)).win (launch5 (F := F)).arr_whole c
      ((pdats m hpre 5 c).share_full fun _ => rfl) (V13 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest5_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 5 c).Φ 0 = iprop(Pipeline.ΦD osem5 spec5 H5 (V13 m hpre) c ∗ Pipeline.prefHeld pre5 c (fun _ => fullShare) (adm5 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 5 c).Φ (Fin.last _) = iprop(Pipeline.ΦD osem5 spec5 H5 (V13 m hpre) c ∗ Pipeline.prefHeld pre5 c (fun _ => fullShare) (adm5 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 5) (pcfgs (F := F)) (adm m) (Ix := Unit) (Name := ℕ) (U := Pipeline.UD sig nD τ) (Lvl := ℕ)
      (launch5 (F := F)).win (launch5 (F := F)).arr_whole c (pdats m hpre) ((pdats m hpre 5 c).share_full fun _ => rfl)
      (V13 m hpre c) (V14 m hpre c) ((pdats m hpre 5 c).arrAt · (cfg5 (adm5 m)).N) (hF5 m hpre c) (hrest5 m hpre c)
    rw [Pipeline.unscopedBufs_held] at hjoin
    iintro ⟨Ha, HO, ⟨Hp, HH, Ht⟩, HZ⟩
    ihave Hrest := (Entails.of_eq (rest5_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg6.lean ====
/- Region 6 of the run (a gather call of the first layer: words 250000 … 299999 of the row vector) as one item of the program
   between two boundary contents. The region is entered with every unscoped buffer at the contents W15 and left
   with them at W16, which differs from W15 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 6's exit contents -/

/-- At the exit each array of the region holds what the grid leaves in it, -/
theorem W16_arr (c : Dev nD) (w : Fin (cfg6 (adm6 m)).W) :
    W16 m hpre c (Proc.devRef .tc (Pipeline.arrRef spec6 w)) = (dat6 (V15 m hpre) (adm6 m) (hH6 m hpre) c).arrAt w (cfg6 (adm6 m)).N := by
  unfold W16; exact Pipeline.withArrays_arr spec6 (launch6 (F := F)).win.arr_inj c _ _ w
/-- and every other buffer what it held at the entry. -/
theorem W16_of_ne (c : Dev nD) (b : Ref sig .tc) (hb : ∀ w, Pipeline.arrRef spec6 w ≠ b) :
    W16 m hpre c (Proc.devRef .tc b) = W15 m hpre c (Proc.devRef .tc b) := by
  unfold W16; exact Pipeline.withArrays_of_ne spec6 c _ _ b hb
/-- The exit contents read at the TensorCore's references. -/
abbrev V16 : (c : Dev nD) → (b : Ref sig .tc) → Buf (Elt F) ((c : Thread nD τ).loc b) := fun c b => W16 m hpre c b
theorem hF6 (c : Dev nD) (w : Fin (cfg6 (adm6 m)).W) :
    (dat6 (V15 m hpre) (adm6 m) (hH6 m hpre) c).arrAt w (cfg6 (adm6 m)).N = V16 m hpre c (Pipeline.arrRef spec6 w) :=
  (W16_arr m hpre c w).symm
theorem hrest6 (c : Dev nD) : ∀ b, b ∉ Finset.univ.image (Pipeline.arrRef spec6) → V16 m hpre c b = V15 m hpre c b :=
  fun b hb => W16_of_ne m hpre c b fun w e => hb (Finset.mem_image.mpr ⟨w, Finset.mem_univ _, e⟩)

/-! ## The unscoped buffers that are no array of the region -/

/-- The operand left in HBM is unscoped, no array of the region and not the row table. -/
theorem H6_subP : H6 ⊆ Pipeline.restRefsP sig pre6 spec6 := by
  intro b hb
  rw [H6, Finset.mem_singleton] at hb
  subst hb
  refine Finset.mem_sdiff.mpr ⟨Pipeline.mem_restRefs_of main_v34 (by decide) (by decide), ?_⟩
  decide

include hpre in
/-- The table's buffer at the region's entry holds the admissible contents: the one table, words 250000 … 299999 of the
    row vector. -/
theorem htbl6 (c : Dev nD) : (fun k : Fin pre6.K => V15 m hpre c (pre6.ref k)) = (adm6 m).1 :=
  funext fun | ⟨0, _⟩ => hpf6 m hpre c

include hpre in
/-- The unscoped buffers that are no array of the region, at its entry contents: the table at the admissible
    contents, the operand left in HBM, and the others. -/
theorem rest6_eq (c : Dev nD) :
    (Pipeline.unscopedRest (Ix := Unit) (Name := ℕ) (U := Pipeline.UD sig nD τ) (Lvl := ℕ) spec6 c (V15 m hpre c) : sProp 𝕄)
      = iprop(Pipeline.prefHeld pre6 c (fun _ => fullShare) (adm6 m).1
          ∗ (bigSep H6 fun b => ((c : Thread nD τ).loc b) ↦{fullShare} V15 m hpre c b)
          ∗ bigSep (Pipeline.restRefsP sig pre6 spec6 \ H6) fun b => ((c : Thread nD τ).loc b) ↦{fullShare} V15 m hpre c b) := by
  rw [Pipeline.unscopedRest_split preFacts6 c (V15 m hpre c), htbl6 m hpre c, Pipeline.unscopedRestP_sdiff pre6 spec6 H6 H6_subP c (V15 m hpre c)]

/-! ## The region as an item of the program -/

-- a library lemma stated over the pinned configuration unifies with the printed one only when unification may
-- unfold plain definitions in a metavariable's type
set_option backward.isDefEq.respectTransparency.types false in
/-- REGION 6 between the boundary contents W15 and W16. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W16. Nothing is owed
    at the pipeline's cells at any point. -/
def reg6 : Pipeline.RegionSeg (pcfgs (F := F)) (adm m) (pdats m hpre) () defs₀ 𝒱₀ L lv 6 where
  win := (launch6 (F := F)).win.to₀
  block_pos := (launch6 (F := F)).block_pos
  stage_whole := (launch6 (F := F)).stage_whole
  K := Fin 16
  osem := osem6
  ho := ownSemFacts6
  hbody c := (body_obligation6 (V15 m hpre) (adm6 m) (hH6 m hpre) c).loose
  hwaits := Pipeline.hwaits_of_owed_zero _ _ _ _ L lv 6 fun _ _ => rfl
  pre c := iprop(StableHlo.held (c : Thread nD τ) (Pipeline.ucRefs τ sig) (W15 m hpre c) ∗ R c)
  post c := iprop(StableHlo.held (c : Thread nD τ) (Pipeline.ucRefs τ sig) (W16 m hpre c) ∗ R c)
  X c := iprop((∃ r, prngReg c r) ∗ Pipeline.ownSems0 (Ix := Unit) (Name := ℕ) (U := Pipeline.UD sig nD τ) (Lvl := ℕ) (Val := Elt F) (τ := τ) osem6 c
    ∗ bigSep H6 fun b => ((c : Thread nD τ).loc b) ↦{fullShare} V15 m hpre c b)
  Y c := iprop((∃ r, prngReg c r) ∗ (bigSep H6 fun b => ((c : Thread nD τ).loc b) ↦{fullShare} V15 m hpre c b)
    ∗ Pipeline.prefHeld pre6 c (fun _ => fullShare) (adm6 m).1)
  Z c := bigSep (Pipeline.restRefsP sig pre6 spec6 \ H6) fun b => ((c : Thread nD τ).loc b) ↦{fullShare} V15 m hpre c b
  hentry c := by
    have hsplit := Pipeline.arrays_of_unscopedBufs (p := 6) (pcfgs (F := F)) (adm m) (pdats m hpre) (launch6 (F := F)).win (launch6 (F := F)).arr_whole c
      ((pdats m hpre 6 c).share_full fun _ => rfl) (V15 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest6_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 6 c).Φ 0 = iprop(Pipeline.ΦD osem6 spec6 H6 (V15 m hpre) c ∗ Pipeline.prefHeld pre6 c (fun _ => fullShare) (adm6 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 6 c).Φ (Fin.last _) = iprop(Pipeline.ΦD osem6 spec6 H6 (V15 m hpre) c ∗ Pipeline.prefHeld pre6 c (fun _ => fullShare) (adm6 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 6) (pcfgs (F := F)) (adm m) (Ix := Unit) (Name := ℕ) (U := Pipeline.UD sig nD τ) (Lvl := ℕ)
      (launch6 (F := F)).win (launch6 (F := F)).arr_whole c (pdats m hpre) ((pdats m hpre 6 c).share_full fun _ => rfl)
      (V15 m hpre c) (V16 m hpre c) ((pdats m hpre 6 c).arrAt · (cfg6 (adm6 m)).N) (hF6 m hpre c) (hrest6 m hpre c)
    rw [Pipeline.unscopedBufs_held] at hjoin
    iintro ⟨Ha, HO, ⟨Hp, HH, Ht⟩, HZ⟩
    ihave Hrest := (Entails.of_eq (rest6_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg7.lean ====
/- Region 7 of the run (a gather call of the first layer: words 300000 … 349999 of the row vector) as one item of the program
   between two boundary contents. The region is entered with every unscoped buffer at the contents W17 and left
   with them at W18, which differs from W17 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 7's exit contents -/

/-- At the exit each array of the region holds what the grid leaves in it, -/
theorem W18_arr (c : Dev nD) (w : Fin (cfg7 (adm7 m)).W) :
    W18 m hpre c (Proc.devRef .tc (Pipeline.arrRef spec7 w)) = (dat7 (V17 m hpre) (adm7 m) (hH7 m hpre) c).arrAt w (cfg7 (adm7 m)).N := by
  unfold W18; exact Pipeline.withArrays_arr spec7 (launch7 (F := F)).win.arr_inj c _ _ w
/-- and every other buffer what it held at the entry. -/
theorem W18_of_ne (c : Dev nD) (b : Ref sig .tc) (hb : ∀ w, Pipeline.arrRef spec7 w ≠ b) :
    W18 m hpre c (Proc.devRef .tc b) = W17 m hpre c (Proc.devRef .tc b) := by
  unfold W18; exact Pipeline.withArrays_of_ne spec7 c _ _ b hb
/-- The exit contents read at the TensorCore's references. -/
abbrev V18 : (c : Dev nD) → (b : Ref sig .tc) → Buf (Elt F) ((c : Thread nD τ).loc b) := fun c b => W18 m hpre c b
theorem hF7 (c : Dev nD) (w : Fin (cfg7 (adm7 m)).W) :
    (dat7 (V17 m hpre) (adm7 m) (hH7 m hpre) c).arrAt w (cfg7 (adm7 m)).N = V18 m hpre c (Pipeline.arrRef spec7 w) :=
  (W18_arr m hpre c w).symm
theorem hrest7 (c : Dev nD) : ∀ b, b ∉ Finset.univ.image (Pipeline.arrRef spec7) → V18 m hpre c b = V17 m hpre c b :=
  fun b hb => W18_of_ne m hpre c b fun w e => hb (Finset.mem_image.mpr ⟨w, Finset.mem_univ _, e⟩)

/-! ## The unscoped buffers that are no array of the region -/

/-- The operand left in HBM is unscoped, no array of the region and not the row table. -/
theorem H7_subP : H7 ⊆ Pipeline.restRefsP sig pre7 spec7 := by
  intro b hb
  rw [H7, Finset.mem_singleton] at hb
  subst hb
  refine Finset.mem_sdiff.mpr ⟨Pipeline.mem_restRefs_of main_v34 (by decide) (by decide), ?_⟩
  decide

include hpre in
/-- The table's buffer at the region's entry holds the admissible contents: the one table, words 300000 … 349999 of the
    row vector. -/
theorem htbl7 (c : Dev nD) : (fun k : Fin pre7.K => V17 m hpre c (pre7.ref k)) = (adm7 m).1 :=
  funext fun | ⟨0, _⟩ => hpf7 m hpre c

include hpre in
/-- The unscoped buffers that are no array of the region, at its entry contents: the table at the admissible
    contents, the operand left in HBM, and the others. -/
theorem rest7_eq (c : Dev nD) :
    (Pipeline.unscopedRest (Ix := Unit) (Name := ℕ) (U := Pipeline.UD sig nD τ) (Lvl := ℕ) spec7 c (V17 m hpre c) : sProp 𝕄)
      = iprop(Pipeline.prefHeld pre7 c (fun _ => fullShare) (adm7 m).1
          ∗ (bigSep H7 fun b => ((c : Thread nD τ).loc b) ↦{fullShare} V17 m hpre c b)
          ∗ bigSep (Pipeline.restRefsP sig pre7 spec7 \ H7) fun b => ((c : Thread nD τ).loc b) ↦{fullShare} V17 m hpre c b) := by
  rw [Pipeline.unscopedRest_split preFacts7 c (V17 m hpre c), htbl7 m hpre c, Pipeline.unscopedRestP_sdiff pre7 spec7 H7 H7_subP c (V17 m hpre c)]

/-! ## The region as an item of the program -/

-- a library lemma stated over the pinned configuration unifies with the printed one only when unification may
-- unfold plain definitions in a metavariable's type
set_option backward.isDefEq.respectTransparency.types false in
/-- REGION 7 between the boundary contents W17 and W18. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W18. Nothing is owed
    at the pipeline's cells at any point. -/
def reg7 : Pipeline.RegionSeg (pcfgs (F := F)) (adm m) (pdats m hpre) () defs₀ 𝒱₀ L lv 7 where
  win := (launch7 (F := F)).win.to₀
  block_pos := (launch7 (F := F)).block_pos
  stage_whole := (launch7 (F := F)).stage_whole
  K := Fin 16
  osem := osem7
  ho := ownSemFacts7
  hbody c := (body_obligation7 (V17 m hpre) (adm7 m) (hH7 m hpre) c).loose
  hwaits := Pipeline.hwaits_of_owed_zero _ _ _ _ L lv 7 fun _ _ => rfl
  pre c := iprop(StableHlo.held (c : Thread nD τ) (Pipeline.ucRefs τ sig) (W17 m hpre c) ∗ R c)
  post c := iprop(StableHlo.held (c : Thread nD τ) (Pipeline.ucRefs τ sig) (W18 m hpre c) ∗ R c)
  X c := iprop((∃ r, prngReg c r) ∗ Pipeline.ownSems0 (Ix := Unit) (Name := ℕ) (U := Pipeline.UD sig nD τ) (Lvl := ℕ) (Val := Elt F) (τ := τ) osem7 c
    ∗ bigSep H7 fun b => ((c : Thread nD τ).loc b) ↦{fullShare} V17 m hpre c b)
  Y c := iprop((∃ r, prngReg c r) ∗ (bigSep H7 fun b => ((c : Thread nD τ).loc b) ↦{fullShare} V17 m hpre c b)
    ∗ Pipeline.prefHeld pre7 c (fun _ => fullShare) (adm7 m).1)
  Z c := bigSep (Pipeline.restRefsP sig pre7 spec7 \ H7) fun b => ((c : Thread nD τ).loc b) ↦{fullShare} V17 m hpre c b
  hentry c := by
    have hsplit := Pipeline.arrays_of_unscopedBufs (p := 7) (pcfgs (F := F)) (adm m) (pdats m hpre) (launch7 (F := F)).win (launch7 (F := F)).arr_whole c
      ((pdats m hpre 7 c).share_full fun _ => rfl) (V17 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest7_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 7 c).Φ 0 = iprop(Pipeline.ΦD osem7 spec7 H7 (V17 m hpre) c ∗ Pipeline.prefHeld pre7 c (fun _ => fullShare) (adm7 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 7 c).Φ (Fin.last _) = iprop(Pipeline.ΦD osem7 spec7 H7 (V17 m hpre) c ∗ Pipeline.prefHeld pre7 c (fun _ => fullShare) (adm7 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 7) (pcfgs (F := F)) (adm m) (Ix := Unit) (Name := ℕ) (U := Pipeline.UD sig nD τ) (Lvl := ℕ)
      (launch7 (F := F)).win (launch7 (F := F)).arr_whole c (pdats m hpre) ((pdats m hpre 7 c).share_full fun _ => rfl)
      (V17 m hpre c) (V18 m hpre c) ((pdats m hpre 7 c).arrAt · (cfg7 (adm7 m)).N) (hF7 m hpre c) (hrest7 m hpre c)
    rw [Pipeline.unscopedBufs_held] at hjoin
    iintro ⟨Ha, HO, ⟨Hp, HH, Ht⟩, HZ⟩
    ihave Hrest := (Entails.of_eq (rest7_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg8.lean ====
/- Region 8 of the run (a gather call of the first layer: words 350000 … 399999 of the row vector) as one item of the program
   between two boundary contents. The region is entered with every unscoped buffer at the contents W19 and left
   with them at W20, which differs from W19 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 8's exit contents -/

/-- At the exit each array of the region holds what the grid leaves in it, -/
theorem W20_arr (c : Dev nD) (w : Fin (cfg8 (adm8 m)).W) :
    W20 m hpre c (Proc.devRef .tc (Pipeline.arrRef spec8 w)) = (dat8 (V19 m hpre) (adm8 m) (hH8 m hpre) c).arrAt w (cfg8 (adm8 m)).N := by
  unfold W20; exact Pipeline.withArrays_arr spec8 (launch8 (F := F)).win.arr_inj c _ _ w
/-- and every other buffer what it held at the entry. -/
theorem W20_of_ne (c : Dev nD) (b : Ref sig .tc) (hb : ∀ w, Pipeline.arrRef spec8 w ≠ b) :
    W20 m hpre c (Proc.devRef .tc b) = W19 m hpre c (Proc.devRef .tc b) := by
  unfold W20; exact Pipeline.withArrays_of_ne spec8 c _ _ b hb
/-- The exit contents read at the TensorCore's references. -/
abbrev V20 : (c : Dev nD) → (b : Ref sig .tc) → Buf (Elt F) ((c : Thread nD τ).loc b) := fun c b => W20 m hpre c b
theorem hF8 (c : Dev nD) (w : Fin (cfg8 (adm8 m)).W) :
    (dat8 (V19 m hpre) (adm8 m) (hH8 m hpre) c).arrAt w (cfg8 (adm8 m)).N = V20 m hpre c (Pipeline.arrRef spec8 w) :=
  (W20_arr m hpre c w).symm
theorem hrest8 (c : Dev nD) : ∀ b, b ∉ Finset.univ.image (Pipeline.arrRef spec8) → V20 m hpre c b = V19 m hpre c b :=
  fun b hb => W20_of_ne m hpre c b fun w e => hb (Finset.mem_image.mpr ⟨w, Finset.mem_univ _, e⟩)

/-! ## The unscoped buffers that are no array of the region -/

/-- The operand left in HBM is unscoped, no array of the region and not the row table. -/
theorem H8_subP : H8 ⊆ Pipeline.restRefsP sig pre8 spec8 := by
  intro b hb
  rw [H8, Finset.mem_singleton] at hb
  subst hb
  refine Finset.mem_sdiff.mpr ⟨Pipeline.mem_restRefs_of main_v34 (by decide) (by decide), ?_⟩
  decide

include hpre in
/-- The table's buffer at the region's entry holds the admissible contents: the one table, words 350000 … 399999 of the
    row vector. -/
theorem htbl8 (c : Dev nD) : (fun k : Fin pre8.K => V19 m hpre c (pre8.ref k)) = (adm8 m).1 :=
  funext fun | ⟨0, _⟩ => hpf8 m hpre c

include hpre in
/-- The unscoped buffers that are no array of the region, at its entry contents: the table at the admissible
    contents, the operand left in HBM, and the others. -/
theorem rest8_eq (c : Dev nD) :
    (Pipeline.unscopedRest (Ix := Unit) (Name := ℕ) (U := Pipeline.UD sig nD τ) (Lvl := ℕ) spec8 c (V19 m hpre c) : sProp 𝕄)
      = iprop(Pipeline.prefHeld pre8 c (fun _ => fullShare) (adm8 m).1
          ∗ (bigSep H8 fun b => ((c : Thread nD τ).loc b) ↦{fullShare} V19 m hpre c b)
          ∗ bigSep (Pipeline.restRefsP sig pre8 spec8 \ H8) fun b => ((c : Thread nD τ).loc b) ↦{fullShare} V19 m hpre c b) := by
  rw [Pipeline.unscopedRest_split preFacts8 c (V19 m hpre c), htbl8 m hpre c, Pipeline.unscopedRestP_sdiff pre8 spec8 H8 H8_subP c (V19 m hpre c)]

/-! ## The region as an item of the program -/

-- a library lemma stated over the pinned configuration unifies with the printed one only when unification may
-- unfold plain definitions in a metavariable's type
set_option backward.isDefEq.respectTransparency.types false in
/-- REGION 8 between the boundary contents W19 and W20. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W20. Nothing is owed
    at the pipeline's cells at any point. -/
def reg8 : Pipeline.RegionSeg (pcfgs (F := F)) (adm m) (pdats m hpre) () defs₀ 𝒱₀ L lv 8 where
  win := (launch8 (F := F)).win.to₀
  block_pos := (launch8 (F := F)).block_pos
  stage_whole := (launch8 (F := F)).stage_whole
  K := Fin 16
  osem := osem8
  ho := ownSemFacts8
  hbody c := (body_obligation8 (V19 m hpre) (adm8 m) (hH8 m hpre) c).loose
  hwaits := Pipeline.hwaits_of_owed_zero _ _ _ _ L lv 8 fun _ _ => rfl
  pre c := iprop(StableHlo.held (c : Thread nD τ) (Pipeline.ucRefs τ sig) (W19 m hpre c) ∗ R c)
  post c := iprop(StableHlo.held (c : Thread nD τ) (Pipeline.ucRefs τ sig) (W20 m hpre c) ∗ R c)
  X c := iprop((∃ r, prngReg c r) ∗ Pipeline.ownSems0 (Ix := Unit) (Name := ℕ) (U := Pipeline.UD sig nD τ) (Lvl := ℕ) (Val := Elt F) (τ := τ) osem8 c
    ∗ bigSep H8 fun b => ((c : Thread nD τ).loc b) ↦{fullShare} V19 m hpre c b)
  Y c := iprop((∃ r, prngReg c r) ∗ (bigSep H8 fun b => ((c : Thread nD τ).loc b) ↦{fullShare} V19 m hpre c b)
    ∗ Pipeline.prefHeld pre8 c (fun _ => fullShare) (adm8 m).1)
  Z c := bigSep (Pipeline.restRefsP sig pre8 spec8 \ H8) fun b => ((c : Thread nD τ).loc b) ↦{fullShare} V19 m hpre c b
  hentry c := by
    have hsplit := Pipeline.arrays_of_unscopedBufs (p := 8) (pcfgs (F := F)) (adm m) (pdats m hpre) (launch8 (F := F)).win (launch8 (F := F)).arr_whole c
      ((pdats m hpre 8 c).share_full fun _ => rfl) (V19 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest8_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 8 c).Φ 0 = iprop(Pipeline.ΦD osem8 spec8 H8 (V19 m hpre) c ∗ Pipeline.prefHeld pre8 c (fun _ => fullShare) (adm8 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 8 c).Φ (Fin.last _) = iprop(Pipeline.ΦD osem8 spec8 H8 (V19 m hpre) c ∗ Pipeline.prefHeld pre8 c (fun _ => fullShare) (adm8 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 8) (pcfgs (F := F)) (adm m) (Ix := Unit) (Name := ℕ) (U := Pipeline.UD sig nD τ) (Lvl := ℕ)
      (launch8 (F := F)).win (launch8 (F := F)).arr_whole c (pdats m hpre) ((pdats m hpre 8 c).share_full fun _ => rfl)
      (V19 m hpre c) (V20 m hpre c) ((pdats m hpre 8 c).arrAt · (cfg8 (adm8 m)).N) (hF8 m hpre c) (hrest8 m hpre c)
    rw [Pipeline.unscopedBufs_held] at hjoin
    iintro ⟨Ha, HO, ⟨Hp, HH, Ht⟩, HZ⟩
    ihave Hrest := (Entails.of_eq (rest8_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg9.lean ====
/- Region 9 of the run (a gather call of the first layer: words 400000 … 449999 of the row vector) as one item of the program
   between two boundary contents. The region is entered with every unscoped buffer at the contents W21 and left
   with them at W22, which differs from W21 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 9's exit contents -/

/-- At the exit each array of the region holds what the grid leaves in it, -/
theorem W22_arr (c : Dev nD) (w : Fin (cfg9 (adm9 m)).W) :
    W22 m hpre c (Proc.devRef .tc (Pipeline.arrRef spec9 w)) = (dat9 (V21 m hpre) (adm9 m) (hH9 m hpre) c).arrAt w (cfg9 (adm9 m)).N := by
  unfold W22; exact Pipeline.withArrays_arr spec9 (launch9 (F := F)).win.arr_inj c _ _ w
/-- and every other buffer what it held at the entry. -/
theorem W22_of_ne (c : Dev nD) (b : Ref sig .tc) (hb : ∀ w, Pipeline.arrRef spec9 w ≠ b) :
    W22 m hpre c (Proc.devRef .tc b) = W21 m hpre c (Proc.devRef .tc b) := by
  unfold W22; exact Pipeline.withArrays_of_ne spec9 c _ _ b hb
/-- The exit contents read at the TensorCore's references. -/
abbrev V22 : (c : Dev nD) → (b : Ref sig .tc) → Buf (Elt F) ((c : Thread nD τ).loc b) := fun c b => W22 m hpre c b
theorem hF9 (c : Dev nD) (w : Fin (cfg9 (adm9 m)).W) :
    (dat9 (V21 m hpre) (adm9 m) (hH9 m hpre) c).arrAt w (cfg9 (adm9 m)).N = V22 m hpre c (Pipeline.arrRef spec9 w) :=
  (W22_arr m hpre c w).symm
theorem hrest9 (c : Dev nD) : ∀ b, b ∉ Finset.univ.image (Pipeline.arrRef spec9) → V22 m hpre c b = V21 m hpre c b :=
  fun b hb => W22_of_ne m hpre c b fun w e => hb (Finset.mem_image.mpr ⟨w, Finset.mem_univ _, e⟩)

/-! ## The unscoped buffers that are no array of the region -/

/-- The operand left in HBM is unscoped, no array of the region and not the row table. -/
theorem H9_subP : H9 ⊆ Pipeline.restRefsP sig pre9 spec9 := by
  intro b hb
  rw [H9, Finset.mem_singleton] at hb
  subst hb
  refine Finset.mem_sdiff.mpr ⟨Pipeline.mem_restRefs_of main_v34 (by decide) (by decide), ?_⟩
  decide

include hpre in
/-- The table's buffer at the region's entry holds the admissible contents: the one table, words 400000 … 449999 of the
    row vector. -/
theorem htbl9 (c : Dev nD) : (fun k : Fin pre9.K => V21 m hpre c (pre9.ref k)) = (adm9 m).1 :=
  funext fun | ⟨0, _⟩ => hpf9 m hpre c

include hpre in
/-- The unscoped buffers that are no array of the region, at its entry contents: the table at the admissible
    contents, the operand left in HBM, and the others. -/
theorem rest9_eq (c : Dev nD) :
    (Pipeline.unscopedRest (Ix := Unit) (Name := ℕ) (U := Pipeline.UD sig nD τ) (Lvl := ℕ) spec9 c (V21 m hpre c) : sProp 𝕄)
      = iprop(Pipeline.prefHeld pre9 c (fun _ => fullShare) (adm9 m).1
          ∗ (bigSep H9 fun b => ((c : Thread nD τ).loc b) ↦{fullShare} V21 m hpre c b)
          ∗ bigSep (Pipeline.restRefsP sig pre9 spec9 \ H9) fun b => ((c : Thread nD τ).loc b) ↦{fullShare} V21 m hpre c b) := by
  rw [Pipeline.unscopedRest_split preFacts9 c (V21 m hpre c), htbl9 m hpre c, Pipeline.unscopedRestP_sdiff pre9 spec9 H9 H9_subP c (V21 m hpre c)]

/-! ## The region as an item of the program -/

-- a library lemma stated over the pinned configuration unifies with the printed one only when unification may
-- unfold plain definitions in a metavariable's type
set_option backward.isDefEq.respectTransparency.types false in
/-- REGION 9 between the boundary contents W21 and W22. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W22. Nothing is owed
    at the pipeline's cells at any point. -/
def reg9 : Pipeline.RegionSeg (pcfgs (F := F)) (adm m) (pdats m hpre) () defs₀ 𝒱₀ L lv 9 where
  win := (launch9 (F := F)).win.to₀
  block_pos := (launch9 (F := F)).block_pos
  stage_whole := (launch9 (F := F)).stage_whole
  K := Fin 16
  osem := osem9
  ho := ownSemFacts9
  hbody c := (body_obligation9 (V21 m hpre) (adm9 m) (hH9 m hpre) c).loose
  hwaits := Pipeline.hwaits_of_owed_zero _ _ _ _ L lv 9 fun _ _ => rfl
  pre c := iprop(StableHlo.held (c : Thread nD τ) (Pipeline.ucRefs τ sig) (W21 m hpre c) ∗ R c)
  post c := iprop(StableHlo.held (c : Thread nD τ) (Pipeline.ucRefs τ sig) (W22 m hpre c) ∗ R c)
  X c := iprop((∃ r, prngReg c r) ∗ Pipeline.ownSems0 (Ix := Unit) (Name := ℕ) (U := Pipeline.UD sig nD τ) (Lvl := ℕ) (Val := Elt F) (τ := τ) osem9 c
    ∗ bigSep H9 fun b => ((c : Thread nD τ).loc b) ↦{fullShare} V21 m hpre c b)
  Y c := iprop((∃ r, prngReg c r) ∗ (bigSep H9 fun b => ((c : Thread nD τ).loc b) ↦{fullShare} V21 m hpre c b)
    ∗ Pipeline.prefHeld pre9 c (fun _ => fullShare) (adm9 m).1)
  Z c := bigSep (Pipeline.restRefsP sig pre9 spec9 \ H9) fun b => ((c : Thread nD τ).loc b) ↦{fullShare} V21 m hpre c b
  hentry c := by
    have hsplit := Pipeline.arrays_of_unscopedBufs (p := 9) (pcfgs (F := F)) (adm m) (pdats m hpre) (launch9 (F := F)).win (launch9 (F := F)).arr_whole c
      ((pdats m hpre 9 c).share_full fun _ => rfl) (V21 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest9_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 9 c).Φ 0 = iprop(Pipeline.ΦD osem9 spec9 H9 (V21 m hpre) c ∗ Pipeline.prefHeld pre9 c (fun _ => fullShare) (adm9 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 9 c).Φ (Fin.last _) = iprop(Pipeline.ΦD osem9 spec9 H9 (V21 m hpre) c ∗ Pipeline.prefHeld pre9 c (fun _ => fullShare) (adm9 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 9) (pcfgs (F := F)) (adm m) (Ix := Unit) (Name := ℕ) (U := Pipeline.UD sig nD τ) (Lvl := ℕ)
      (launch9 (F := F)).win (launch9 (F := F)).arr_whole c (pdats m hpre) ((pdats m hpre 9 c).share_full fun _ => rfl)
      (V21 m hpre c) (V22 m hpre c) ((pdats m hpre 9 c).arrAt · (cfg9 (adm9 m)).N) (hF9 m hpre c) (hrest9 m hpre c)
    rw [Pipeline.unscopedBufs_held] at hjoin
    iintro ⟨Ha, HO, ⟨Hp, HH, Ht⟩, HZ⟩
    ihave Hrest := (Entails.of_eq (rest9_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg10.lean ====
/- region 10 of @main (the second layer's dense product) as a segment of the run: entered from every unscoped buffer at
   the contents before it, left with the product's array at what the grid wrote and every other buffer as entered. -/
import proofs.«414392_j7919919694132_2_alg».proof.Proof.RegBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hpre : PreEq m)

/-! ## The contents at the region's exit -/

/-- At the exit each of the region's arrays holds what the grid leaves in it, -/
theorem W25_arr (c : Dev nD) (w : Fin cfg10.W) :
    W25 m hpre c (Proc.devRef .tc (Pipeline.arrRef spec10 w)) = (dat10 (V24 m hpre) c).arrAt w cfg10.N := by
  unfold W25; exact Pipeline.withArrays_arr spec10 (launch10 (F := F)).win.arr_inj c _ _ w
/-- and every other buffer what it held at the entry. -/
theorem W25_of_ne (c : Dev nD) (b : Ref sig .tc) (hb : ∀ w, Pipeline.arrRef spec10 w ≠ b) :
    W25 m hpre c (Proc.devRef .tc b) = W24 m hpre c (Proc.devRef .tc b) := by
  unfold W25; exact Pipeline.withArrays_of_ne spec10 c _ _ b hb
/-- The exit contents read at the TensorCore's references. -/
abbrev V25 : (c : Dev nD) → (b : Ref sig .tc) → Buf (Elt F) ((c : Thread nD τ).loc b) := fun c b => W25 m hpre c b
theorem hF10 (c : Dev nD) (w : Fin cfg10.W) : (dat10 (V24 m hpre) c).arrAt w cfg10.N = V25 m hpre c (Pipeline.arrRef spec10 w) :=
  (W25_arr m hpre c w).symm
theorem hrest10 (c : Dev nD) : ∀ b, b ∉ Finset.univ.image (Pipeline.arrRef spec10) → V25 m hpre c b = V24 m hpre c b :=
  fun b hb => W25_of_ne m hpre c b fun w e => hb (Finset.mem_image.mpr ⟨w, Finset.mem_univ _, e⟩)

/-! ## The region as a segment -/

set_option backward.isDefEq.respectTransparency.types false in
/-- region 10 over the thread state: its arrays split out of the unscoped buffers and put back at the exit contents; the
    generator register into the class invariant and out; nothing owed; no semaphore of the kernel's own. -/
def reg10 : Pipeline.RegionSeg (pcfgs (F := F)) (adm m) (pdats m hpre) () defs₀ 𝒱₀ L lv (10 : Fin 20) where
  win := (launch10 (F := F)).win.to₀
  block_pos := (launch10 (F := F)).block_pos
  stage_whole := (launch10 (F := F)).stage_whole
  K := PEmpty
  osem k := k.elim
  ho := Pipeline.OwnSemFacts.none _
  hbody c := (body_obligation10 (V24 m hpre) c).loose
  hwaits := Pipeline.hwaits_of_owed_zero _ _ _ _ L lv (10 : Fin 20) fun _ _ => rfl
  pre c := iprop(StableHlo.held (c : Thread nD τ) (Pipeline.ucRefs τ sig) (W24 m hpre c) ∗ R c)
  post c := iprop(StableHlo.held (c : Thread nD τ) (Pipeline.ucRefs τ sig) (W25 m hpre c) ∗ R c)
  X c := iprop(∃ r, prngReg c r)
  Y c := iprop(∃ r, prngReg c r)
  Z c := Pipeline.unscopedRest (Ix := Unit) (Name := ℕ) (U := Pipeline.UD sig nD τ) (Lvl := ℕ) spec10 c (V24 m hpre c)
  hentry c := by
    rw [Pipeline.ownSems0_none]
    have hsplit := Pipeline.arrays_of_unscopedBufs (p := (10 : Fin 20)) (pcfgs (F := F)) (adm m) (pdats m hpre) (launch10 (F := F)).win (launch10 (F := F)).arr_whole c
      ((pdats m hpre (10 : Fin 20) c).share_full fun _ => rfl) (V24 m hpre c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hpre (10 : Fin 20) c).Φ 0 = Pipeline.ΦA spec10 c from rfl]; unfold Pipeline.ΦA
    iintro ⟨Hp, -, Hr⟩
    isplitl [Hr]; · iexact Hr
    iexact Hp
  hout c := by
    rw [Pipeline.ownSems0_none, show (pdats m hpre (10 : Fin 20) c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := (10 : Fin 20)) (pcfgs (F := F)) (adm m) (Ix := Unit) (Name := ℕ) (U := Pipeline.UD sig nD τ) (Lvl := ℕ)
      (launch10 (F := F)).win (launch10 (F := F)).arr_whole c (pdats m hpre) ((pdats m hpre (10 : Fin 20) c).share_full fun _ => rfl)
      (V24 m hpre c) (V25 m hpre c) ((pdats m hpre (10 : Fin 20) c).arrAt · cfg10.N) (hF10 m hpre c) (hrest10 m hpre c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg11.lean ====
/- Region 11 of the run (a gather call of the second layer: words 0 … 49999 of the row vector) as one item of the program
   between two boundary contents. The region is entered with every unscoped buffer at the contents W26 and left
   with them at W27, which differs from W26 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 11's exit contents -/

/-- At the exit each array of the region holds what the grid leaves in it, -/
theorem W27_arr (c : Dev nD) (w : Fin (cfg11 (adm11 m)).W) :
    W27 m hpre c (Proc.devRef .tc (Pipeline.arrRef spec11 w)) = (dat11 (V26 m hpre) (adm11 m) (hH11 m hpre) c).arrAt w (cfg11 (adm11 m)).N := by
  unfold W27; exact Pipeline.withArrays_arr spec11 (launch11 (F := F)).win.arr_inj c _ _ w
/-- and every other buffer what it held at the entry. -/
theorem W27_of_ne (c : Dev nD) (b : Ref sig .tc) (hb : ∀ w, Pipeline.arrRef spec11 w ≠ b) :
    W27 m hpre c (Proc.devRef .tc b) = W26 m hpre c (Proc.devRef .tc b) := by
  unfold W27; exact Pipeline.withArrays_of_ne spec11 c _ _ b hb
/-- The exit contents read at the TensorCore's references. -/
abbrev V27 : (c : Dev nD) → (b : Ref sig .tc) → Buf (Elt F) ((c : Thread nD τ).loc b) := fun c b => W27 m hpre c b
theorem hF11 (c : Dev nD) (w : Fin (cfg11 (adm11 m)).W) :
    (dat11 (V26 m hpre) (adm11 m) (hH11 m hpre) c).arrAt w (cfg11 (adm11 m)).N = V27 m hpre c (Pipeline.arrRef spec11 w) :=
  (W27_arr m hpre c w).symm
theorem hrest11 (c : Dev nD) : ∀ b, b ∉ Finset.univ.image (Pipeline.arrRef spec11) → V27 m hpre c b = V26 m hpre c b :=
  fun b hb => W27_of_ne m hpre c b fun w e => hb (Finset.mem_image.mpr ⟨w, Finset.mem_univ _, e⟩)

/-! ## The unscoped buffers that are no array of the region -/

/-- The operand left in HBM is unscoped, no array of the region and not the row table. -/
theorem H11_subP : H11 ⊆ Pipeline.restRefsP sig pre11 spec11 := by
  intro b hb
  rw [H11, Finset.mem_singleton] at hb
  subst hb
  refine Finset.mem_sdiff.mpr ⟨Pipeline.mem_restRefs_of main_v71 (by decide) (by decide), ?_⟩
  decide

include hpre in
/-- The table's buffer at the region's entry holds the admissible contents: the one table, words 0 … 49999 of the
    row vector. -/
theorem htbl11 (c : Dev nD) : (fun k : Fin pre11.K => V26 m hpre c (pre11.ref k)) = (adm11 m).1 :=
  funext fun | ⟨0, _⟩ => hpf11 m hpre c

include hpre in
/-- The unscoped buffers that are no array of the region, at its entry contents: the table at the admissible
    contents, the operand left in HBM, and the others. -/
theorem rest11_eq (c : Dev nD) :
    (Pipeline.unscopedRest (Ix := Unit) (Name := ℕ) (U := Pipeline.UD sig nD τ) (Lvl := ℕ) spec11 c (V26 m hpre c) : sProp 𝕄)
      = iprop(Pipeline.prefHeld pre11 c (fun _ => fullShare) (adm11 m).1
          ∗ (bigSep H11 fun b => ((c : Thread nD τ).loc b) ↦{fullShare} V26 m hpre c b)
          ∗ bigSep (Pipeline.restRefsP sig pre11 spec11 \ H11) fun b => ((c : Thread nD τ).loc b) ↦{fullShare} V26 m hpre c b) := by
  rw [Pipeline.unscopedRest_split preFacts11 c (V26 m hpre c), htbl11 m hpre c, Pipeline.unscopedRestP_sdiff pre11 spec11 H11 H11_subP c (V26 m hpre c)]

/-! ## The region as an item of the program -/

-- a library lemma stated over the pinned configuration unifies with the printed one only when unification may
-- unfold plain definitions in a metavariable's type
set_option backward.isDefEq.respectTransparency.types false in
/-- REGION 11 between the boundary contents W26 and W27. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W27. Nothing is owed
    at the pipeline's cells at any point. -/
def reg11 : Pipeline.RegionSeg (pcfgs (F := F)) (adm m) (pdats m hpre) () defs₀ 𝒱₀ L lv 11 where
  win := (launch11 (F := F)).win.to₀
  block_pos := (launch11 (F := F)).block_pos
  stage_whole := (launch11 (F := F)).stage_whole
  K := Fin 16
  osem := osem11
  ho := ownSemFacts11
  hbody c := (body_obligation11 (V26 m hpre) (adm11 m) (hH11 m hpre) c).loose
  hwaits := Pipeline.hwaits_of_owed_zero _ _ _ _ L lv 11 fun _ _ => rfl
  pre c := iprop(StableHlo.held (c : Thread nD τ) (Pipeline.ucRefs τ sig) (W26 m hpre c) ∗ R c)
  post c := iprop(StableHlo.held (c : Thread nD τ) (Pipeline.ucRefs τ sig) (W27 m hpre c) ∗ R c)
  X c := iprop((∃ r, prngReg c r) ∗ Pipeline.ownSems0 (Ix := Unit) (Name := ℕ) (U := Pipeline.UD sig nD τ) (Lvl := ℕ) (Val := Elt F) (τ := τ) osem11 c
    ∗ bigSep H11 fun b => ((c : Thread nD τ).loc b) ↦{fullShare} V26 m hpre c b)
  Y c := iprop((∃ r, prngReg c r) ∗ (bigSep H11 fun b => ((c : Thread nD τ).loc b) ↦{fullShare} V26 m hpre c b)
    ∗ Pipeline.prefHeld pre11 c (fun _ => fullShare) (adm11 m).1)
  Z c := bigSep (Pipeline.restRefsP sig pre11 spec11 \ H11) fun b => ((c : Thread nD τ).loc b) ↦{fullShare} V26 m hpre c b
  hentry c := by
    have hsplit := Pipeline.arrays_of_unscopedBufs (p := 11) (pcfgs (F := F)) (adm m) (pdats m hpre) (launch11 (F := F)).win (launch11 (F := F)).arr_whole c
      ((pdats m hpre 11 c).share_full fun _ => rfl) (V26 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest11_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 11 c).Φ 0 = iprop(Pipeline.ΦD osem11 spec11 H11 (V26 m hpre) c ∗ Pipeline.prefHeld pre11 c (fun _ => fullShare) (adm11 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 11 c).Φ (Fin.last _) = iprop(Pipeline.ΦD osem11 spec11 H11 (V26 m hpre) c ∗ Pipeline.prefHeld pre11 c (fun _ => fullShare) (adm11 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 11) (pcfgs (F := F)) (adm m) (Ix := Unit) (Name := ℕ) (U := Pipeline.UD sig nD τ) (Lvl := ℕ)
      (launch11 (F := F)).win (launch11 (F := F)).arr_whole c (pdats m hpre) ((pdats m hpre 11 c).share_full fun _ => rfl)
      (V26 m hpre c) (V27 m hpre c) ((pdats m hpre 11 c).arrAt · (cfg11 (adm11 m)).N) (hF11 m hpre c) (hrest11 m hpre c)
    rw [Pipeline.unscopedBufs_held] at hjoin
    iintro ⟨Ha, HO, ⟨Hp, HH, Ht⟩, HZ⟩
    ihave Hrest := (Entails.of_eq (rest11_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg12.lean ====
/- Region 12 of the run (a gather call of the second layer: words 50000 … 99999 of the row vector) as one item of the program
   between two boundary contents. The region is entered with every unscoped buffer at the contents W28 and left
   with them at W29, which differs from W28 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 12's exit contents -/

/-- At the exit each array of the region holds what the grid leaves in it, -/
theorem W29_arr (c : Dev nD) (w : Fin (cfg12 (adm12 m)).W) :
    W29 m hpre c (Proc.devRef .tc (Pipeline.arrRef spec12 w)) = (dat12 (V28 m hpre) (adm12 m) (hH12 m hpre) c).arrAt w (cfg12 (adm12 m)).N := by
  unfold W29; exact Pipeline.withArrays_arr spec12 (launch12 (F := F)).win.arr_inj c _ _ w
/-- and every other buffer what it held at the entry. -/
theorem W29_of_ne (c : Dev nD) (b : Ref sig .tc) (hb : ∀ w, Pipeline.arrRef spec12 w ≠ b) :
    W29 m hpre c (Proc.devRef .tc b) = W28 m hpre c (Proc.devRef .tc b) := by
  unfold W29; exact Pipeline.withArrays_of_ne spec12 c _ _ b hb
/-- The exit contents read at the TensorCore's references. -/
abbrev V29 : (c : Dev nD) → (b : Ref sig .tc) → Buf (Elt F) ((c : Thread nD τ).loc b) := fun c b => W29 m hpre c b
theorem hF12 (c : Dev nD) (w : Fin (cfg12 (adm12 m)).W) :
    (dat12 (V28 m hpre) (adm12 m) (hH12 m hpre) c).arrAt w (cfg12 (adm12 m)).N = V29 m hpre c (Pipeline.arrRef spec12 w) :=
  (W29_arr m hpre c w).symm
theorem hrest12 (c : Dev nD) : ∀ b, b ∉ Finset.univ.image (Pipeline.arrRef spec12) → V29 m hpre c b = V28 m hpre c b :=
  fun b hb => W29_of_ne m hpre c b fun w e => hb (Finset.mem_image.mpr ⟨w, Finset.mem_univ _, e⟩)

/-! ## The unscoped buffers that are no array of the region -/

/-- The operand left in HBM is unscoped, no array of the region and not the row table. -/
theorem H12_subP : H12 ⊆ Pipeline.restRefsP sig pre12 spec12 := by
  intro b hb
  rw [H12, Finset.mem_singleton] at hb
  subst hb
  refine Finset.mem_sdiff.mpr ⟨Pipeline.mem_restRefs_of main_v71 (by decide) (by decide), ?_⟩
  decide

include hpre in
/-- The table's buffer at the region's entry holds the admissible contents: the one table, words 50000 … 99999 of the
    row vector. -/
theorem htbl12 (c : Dev nD) : (fun k : Fin pre12.K => V28 m hpre c (pre12.ref k)) = (adm12 m).1 :=
  funext fun | ⟨0, _⟩ => hpf12 m hpre c

include hpre in
/-- The unscoped buffers that are no array of the region, at its entry contents: the table at the admissible
    contents, the operand left in HBM, and the others. -/
theorem rest12_eq (c : Dev nD) :
    (Pipeline.unscopedRest (Ix := Unit) (Name := ℕ) (U := Pipeline.UD sig nD τ) (Lvl := ℕ) spec12 c (V28 m hpre c) : sProp 𝕄)
      = iprop(Pipeline.prefHeld pre12 c (fun _ => fullShare) (adm12 m).1
          ∗ (bigSep H12 fun b => ((c : Thread nD τ).loc b) ↦{fullShare} V28 m hpre c b)
          ∗ bigSep (Pipeline.restRefsP sig pre12 spec12 \ H12) fun b => ((c : Thread nD τ).loc b) ↦{fullShare} V28 m hpre c b) := by
  rw [Pipeline.unscopedRest_split preFacts12 c (V28 m hpre c), htbl12 m hpre c, Pipeline.unscopedRestP_sdiff pre12 spec12 H12 H12_subP c (V28 m hpre c)]

/-! ## The region as an item of the program -/

-- a library lemma stated over the pinned configuration unifies with the printed one only when unification may
-- unfold plain definitions in a metavariable's type
set_option backward.isDefEq.respectTransparency.types false in
/-- REGION 12 between the boundary contents W28 and W29. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W29. Nothing is owed
    at the pipeline's cells at any point. -/
def reg12 : Pipeline.RegionSeg (pcfgs (F := F)) (adm m) (pdats m hpre) () defs₀ 𝒱₀ L lv 12 where
  win := (launch12 (F := F)).win.to₀
  block_pos := (launch12 (F := F)).block_pos
  stage_whole := (launch12 (F := F)).stage_whole
  K := Fin 16
  osem := osem12
  ho := ownSemFacts12
  hbody c := (body_obligation12 (V28 m hpre) (adm12 m) (hH12 m hpre) c).loose
  hwaits := Pipeline.hwaits_of_owed_zero _ _ _ _ L lv 12 fun _ _ => rfl
  pre c := iprop(StableHlo.held (c : Thread nD τ) (Pipeline.ucRefs τ sig) (W28 m hpre c) ∗ R c)
  post c := iprop(StableHlo.held (c : Thread nD τ) (Pipeline.ucRefs τ sig) (W29 m hpre c) ∗ R c)
  X c := iprop((∃ r, prngReg c r) ∗ Pipeline.ownSems0 (Ix := Unit) (Name := ℕ) (U := Pipeline.UD sig nD τ) (Lvl := ℕ) (Val := Elt F) (τ := τ) osem12 c
    ∗ bigSep H12 fun b => ((c : Thread nD τ).loc b) ↦{fullShare} V28 m hpre c b)
  Y c := iprop((∃ r, prngReg c r) ∗ (bigSep H12 fun b => ((c : Thread nD τ).loc b) ↦{fullShare} V28 m hpre c b)
    ∗ Pipeline.prefHeld pre12 c (fun _ => fullShare) (adm12 m).1)
  Z c := bigSep (Pipeline.restRefsP sig pre12 spec12 \ H12) fun b => ((c : Thread nD τ).loc b) ↦{fullShare} V28 m hpre c b
  hentry c := by
    have hsplit := Pipeline.arrays_of_unscopedBufs (p := 12) (pcfgs (F := F)) (adm m) (pdats m hpre) (launch12 (F := F)).win (launch12 (F := F)).arr_whole c
      ((pdats m hpre 12 c).share_full fun _ => rfl) (V28 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest12_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 12 c).Φ 0 = iprop(Pipeline.ΦD osem12 spec12 H12 (V28 m hpre) c ∗ Pipeline.prefHeld pre12 c (fun _ => fullShare) (adm12 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 12 c).Φ (Fin.last _) = iprop(Pipeline.ΦD osem12 spec12 H12 (V28 m hpre) c ∗ Pipeline.prefHeld pre12 c (fun _ => fullShare) (adm12 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 12) (pcfgs (F := F)) (adm m) (Ix := Unit) (Name := ℕ) (U := Pipeline.UD sig nD τ) (Lvl := ℕ)
      (launch12 (F := F)).win (launch12 (F := F)).arr_whole c (pdats m hpre) ((pdats m hpre 12 c).share_full fun _ => rfl)
      (V28 m hpre c) (V29 m hpre c) ((pdats m hpre 12 c).arrAt · (cfg12 (adm12 m)).N) (hF12 m hpre c) (hrest12 m hpre c)
    rw [Pipeline.unscopedBufs_held] at hjoin
    iintro ⟨Ha, HO, ⟨Hp, HH, Ht⟩, HZ⟩
    ihave Hrest := (Entails.of_eq (rest12_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg13.lean ====
/- Region 13 of the run (a gather call of the second layer: words 100000 … 149999 of the row vector) as one item of the program
   between two boundary contents. The region is entered with every unscoped buffer at the contents W30 and left
   with them at W31, which differs from W30 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 13's exit contents -/

/-- At the exit each array of the region holds what the grid leaves in it, -/
theorem W31_arr (c : Dev nD) (w : Fin (cfg13 (adm13 m)).W) :
    W31 m hpre c (Proc.devRef .tc (Pipeline.arrRef spec13 w)) = (dat13 (V30 m hpre) (adm13 m) (hH13 m hpre) c).arrAt w (cfg13 (adm13 m)).N := by
  unfold W31; exact Pipeline.withArrays_arr spec13 (launch13 (F := F)).win.arr_inj c _ _ w
/-- and every other buffer what it held at the entry. -/
theorem W31_of_ne (c : Dev nD) (b : Ref sig .tc) (hb : ∀ w, Pipeline.arrRef spec13 w ≠ b) :
    W31 m hpre c (Proc.devRef .tc b) = W30 m hpre c (Proc.devRef .tc b) := by
  unfold W31; exact Pipeline.withArrays_of_ne spec13 c _ _ b hb
/-- The exit contents read at the TensorCore's references. -/
abbrev V31 : (c : Dev nD) → (b : Ref sig .tc) → Buf (Elt F) ((c : Thread nD τ).loc b) := fun c b => W31 m hpre c b
theorem hF13 (c : Dev nD) (w : Fin (cfg13 (adm13 m)).W) :
    (dat13 (V30 m hpre) (adm13 m) (hH13 m hpre) c).arrAt w (cfg13 (adm13 m)).N = V31 m hpre c (Pipeline.arrRef spec13 w) :=
  (W31_arr m hpre c w).symm
theorem hrest13 (c : Dev nD) : ∀ b, b ∉ Finset.univ.image (Pipeline.arrRef spec13) → V31 m hpre c b = V30 m hpre c b :=
  fun b hb => W31_of_ne m hpre c b fun w e => hb (Finset.mem_image.mpr ⟨w, Finset.mem_univ _, e⟩)

/-! ## The unscoped buffers that are no array of the region -/

/-- The operand left in HBM is unscoped, no array of the region and not the row table. -/
theorem H13_subP : H13 ⊆ Pipeline.restRefsP sig pre13 spec13 := by
  intro b hb
  rw [H13, Finset.mem_singleton] at hb
  subst hb
  refine Finset.mem_sdiff.mpr ⟨Pipeline.mem_restRefs_of main_v71 (by decide) (by decide), ?_⟩
  decide

include hpre in
/-- The table's buffer at the region's entry holds the admissible contents: the one table, words 100000 … 149999 of the
    row vector. -/
theorem htbl13 (c : Dev nD) : (fun k : Fin pre13.K => V30 m hpre c (pre13.ref k)) = (adm13 m).1 :=
  funext fun | ⟨0, _⟩ => hpf13 m hpre c

include hpre in
/-- The unscoped buffers that are no array of the region, at its entry contents: the table at the admissible
    contents, the operand left in HBM, and the others. -/
theorem rest13_eq (c : Dev nD) :
    (Pipeline.unscopedRest (Ix := Unit) (Name := ℕ) (U := Pipeline.UD sig nD τ) (Lvl := ℕ) spec13 c (V30 m hpre c) : sProp 𝕄)
      = iprop(Pipeline.prefHeld pre13 c (fun _ => fullShare) (adm13 m).1
          ∗ (bigSep H13 fun b => ((c : Thread nD τ).loc b) ↦{fullShare} V30 m hpre c b)
          ∗ bigSep (Pipeline.restRefsP sig pre13 spec13 \ H13) fun b => ((c : Thread nD τ).loc b) ↦{fullShare} V30 m hpre c b) := by
  rw [Pipeline.unscopedRest_split preFacts13 c (V30 m hpre c), htbl13 m hpre c, Pipeline.unscopedRestP_sdiff pre13 spec13 H13 H13_subP c (V30 m hpre c)]

/-! ## The region as an item of the program -/

-- a library lemma stated over the pinned configuration unifies with the printed one only when unification may
-- unfold plain definitions in a metavariable's type
set_option backward.isDefEq.respectTransparency.types false in
/-- REGION 13 between the boundary contents W30 and W31. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W31. Nothing is owed
    at the pipeline's cells at any point. -/
def reg13 : Pipeline.RegionSeg (pcfgs (F := F)) (adm m) (pdats m hpre) () defs₀ 𝒱₀ L lv 13 where
  win := (launch13 (F := F)).win.to₀
  block_pos := (launch13 (F := F)).block_pos
  stage_whole := (launch13 (F := F)).stage_whole
  K := Fin 16
  osem := osem13
  ho := ownSemFacts13
  hbody c := (body_obligation13 (V30 m hpre) (adm13 m) (hH13 m hpre) c).loose
  hwaits := Pipeline.hwaits_of_owed_zero _ _ _ _ L lv 13 fun _ _ => rfl
  pre c := iprop(StableHlo.held (c : Thread nD τ) (Pipeline.ucRefs τ sig) (W30 m hpre c) ∗ R c)
  post c := iprop(StableHlo.held (c : Thread nD τ) (Pipeline.ucRefs τ sig) (W31 m hpre c) ∗ R c)
  X c := iprop((∃ r, prngReg c r) ∗ Pipeline.ownSems0 (Ix := Unit) (Name := ℕ) (U := Pipeline.UD sig nD τ) (Lvl := ℕ) (Val := Elt F) (τ := τ) osem13 c
    ∗ bigSep H13 fun b => ((c : Thread nD τ).loc b) ↦{fullShare} V30 m hpre c b)
  Y c := iprop((∃ r, prngReg c r) ∗ (bigSep H13 fun b => ((c : Thread nD τ).loc b) ↦{fullShare} V30 m hpre c b)
    ∗ Pipeline.prefHeld pre13 c (fun _ => fullShare) (adm13 m).1)
  Z c := bigSep (Pipeline.restRefsP sig pre13 spec13 \ H13) fun b => ((c : Thread nD τ).loc b) ↦{fullShare} V30 m hpre c b
  hentry c := by
    have hsplit := Pipeline.arrays_of_unscopedBufs (p := 13) (pcfgs (F := F)) (adm m) (pdats m hpre) (launch13 (F := F)).win (launch13 (F := F)).arr_whole c
      ((pdats m hpre 13 c).share_full fun _ => rfl) (V30 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest13_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 13 c).Φ 0 = iprop(Pipeline.ΦD osem13 spec13 H13 (V30 m hpre) c ∗ Pipeline.prefHeld pre13 c (fun _ => fullShare) (adm13 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 13 c).Φ (Fin.last _) = iprop(Pipeline.ΦD osem13 spec13 H13 (V30 m hpre) c ∗ Pipeline.prefHeld pre13 c (fun _ => fullShare) (adm13 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 13) (pcfgs (F := F)) (adm m) (Ix := Unit) (Name := ℕ) (U := Pipeline.UD sig nD τ) (Lvl := ℕ)
      (launch13 (F := F)).win (launch13 (F := F)).arr_whole c (pdats m hpre) ((pdats m hpre 13 c).share_full fun _ => rfl)
      (V30 m hpre c) (V31 m hpre c) ((pdats m hpre 13 c).arrAt · (cfg13 (adm13 m)).N) (hF13 m hpre c) (hrest13 m hpre c)
    rw [Pipeline.unscopedBufs_held] at hjoin
    iintro ⟨Ha, HO, ⟨Hp, HH, Ht⟩, HZ⟩
    ihave Hrest := (Entails.of_eq (rest13_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg14.lean ====
/- Region 14 of the run (a gather call of the second layer: words 150000 … 199999 of the row vector) as one item of the program
   between two boundary contents. The region is entered with every unscoped buffer at the contents W32 and left
   with them at W33, which differs from W32 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 14's exit contents -/

/-- At the exit each array of the region holds what the grid leaves in it, -/
theorem W33_arr (c : Dev nD) (w : Fin (cfg14 (adm14 m)).W) :
    W33 m hpre c (Proc.devRef .tc (Pipeline.arrRef spec14 w)) = (dat14 (V32 m hpre) (adm14 m) (hH14 m hpre) c).arrAt w (cfg14 (adm14 m)).N := by
  unfold W33; exact Pipeline.withArrays_arr spec14 (launch14 (F := F)).win.arr_inj c _ _ w
/-- and every other buffer what it held at the entry. -/
theorem W33_of_ne (c : Dev nD) (b : Ref sig .tc) (hb : ∀ w, Pipeline.arrRef spec14 w ≠ b) :
    W33 m hpre c (Proc.devRef .tc b) = W32 m hpre c (Proc.devRef .tc b) := by
  unfold W33; exact Pipeline.withArrays_of_ne spec14 c _ _ b hb
/-- The exit contents read at the TensorCore's references. -/
abbrev V33 : (c : Dev nD) → (b : Ref sig .tc) → Buf (Elt F) ((c : Thread nD τ).loc b) := fun c b => W33 m hpre c b
theorem hF14 (c : Dev nD) (w : Fin (cfg14 (adm14 m)).W) :
    (dat14 (V32 m hpre) (adm14 m) (hH14 m hpre) c).arrAt w (cfg14 (adm14 m)).N = V33 m hpre c (Pipeline.arrRef spec14 w) :=
  (W33_arr m hpre c w).symm
theorem hrest14 (c : Dev nD) : ∀ b, b ∉ Finset.univ.image (Pipeline.arrRef spec14) → V33 m hpre c b = V32 m hpre c b :=
  fun b hb => W33_of_ne m hpre c b fun w e => hb (Finset.mem_image.mpr ⟨w, Finset.mem_univ _, e⟩)

/-! ## The unscoped buffers that are no array of the region -/

/-- The operand left in HBM is unscoped, no array of the region and not the row table. -/
theorem H14_subP : H14 ⊆ Pipeline.restRefsP sig pre14 spec14 := by
  intro b hb
  rw [H14, Finset.mem_singleton] at hb
  subst hb
  refine Finset.mem_sdiff.mpr ⟨Pipeline.mem_restRefs_of main_v71 (by decide) (by decide), ?_⟩
  decide

include hpre in
/-- The table's buffer at the region's entry holds the admissible contents: the one table, words 150000 … 199999 of the
    row vector. -/
theorem htbl14 (c : Dev nD) : (fun k : Fin pre14.K => V32 m hpre c (pre14.ref k)) = (adm14 m).1 :=
  funext fun | ⟨0, _⟩ => hpf14 m hpre c

include hpre in
/-- The unscoped buffers that are no array of the region, at its entry contents: the table at the admissible
    contents, the operand left in HBM, and the others. -/
theorem rest14_eq (c : Dev nD) :
    (Pipeline.unscopedRest (Ix := Unit) (Name := ℕ) (U := Pipeline.UD sig nD τ) (Lvl := ℕ) spec14 c (V32 m hpre c) : sProp 𝕄)
      = iprop(Pipeline.prefHeld pre14 c (fun _ => fullShare) (adm14 m).1
          ∗ (bigSep H14 fun b => ((c : Thread nD τ).loc b) ↦{fullShare} V32 m hpre c b)
          ∗ bigSep (Pipeline.restRefsP sig pre14 spec14 \ H14) fun b => ((c : Thread nD τ).loc b) ↦{fullShare} V32 m hpre c b) := by
  rw [Pipeline.unscopedRest_split preFacts14 c (V32 m hpre c), htbl14 m hpre c, Pipeline.unscopedRestP_sdiff pre14 spec14 H14 H14_subP c (V32 m hpre c)]

/-! ## The region as an item of the program -/

-- a library lemma stated over the pinned configuration unifies with the printed one only when unification may
-- unfold plain definitions in a metavariable's type
set_option backward.isDefEq.respectTransparency.types false in
/-- REGION 14 between the boundary contents W32 and W33. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W33. Nothing is owed
    at the pipeline's cells at any point. -/
def reg14 : Pipeline.RegionSeg (pcfgs (F := F)) (adm m) (pdats m hpre) () defs₀ 𝒱₀ L lv 14 where
  win := (launch14 (F := F)).win.to₀
  block_pos := (launch14 (F := F)).block_pos
  stage_whole := (launch14 (F := F)).stage_whole
  K := Fin 16
  osem := osem14
  ho := ownSemFacts14
  hbody c := (body_obligation14 (V32 m hpre) (adm14 m) (hH14 m hpre) c).loose
  hwaits := Pipeline.hwaits_of_owed_zero _ _ _ _ L lv 14 fun _ _ => rfl
  pre c := iprop(StableHlo.held (c : Thread nD τ) (Pipeline.ucRefs τ sig) (W32 m hpre c) ∗ R c)
  post c := iprop(StableHlo.held (c : Thread nD τ) (Pipeline.ucRefs τ sig) (W33 m hpre c) ∗ R c)
  X c := iprop((∃ r, prngReg c r) ∗ Pipeline.ownSems0 (Ix := Unit) (Name := ℕ) (U := Pipeline.UD sig nD τ) (Lvl := ℕ) (Val := Elt F) (τ := τ) osem14 c
    ∗ bigSep H14 fun b => ((c : Thread nD τ).loc b) ↦{fullShare} V32 m hpre c b)
  Y c := iprop((∃ r, prngReg c r) ∗ (bigSep H14 fun b => ((c : Thread nD τ).loc b) ↦{fullShare} V32 m hpre c b)
    ∗ Pipeline.prefHeld pre14 c (fun _ => fullShare) (adm14 m).1)
  Z c := bigSep (Pipeline.restRefsP sig pre14 spec14 \ H14) fun b => ((c : Thread nD τ).loc b) ↦{fullShare} V32 m hpre c b
  hentry c := by
    have hsplit := Pipeline.arrays_of_unscopedBufs (p := 14) (pcfgs (F := F)) (adm m) (pdats m hpre) (launch14 (F := F)).win (launch14 (F := F)).arr_whole c
      ((pdats m hpre 14 c).share_full fun _ => rfl) (V32 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest14_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 14 c).Φ 0 = iprop(Pipeline.ΦD osem14 spec14 H14 (V32 m hpre) c ∗ Pipeline.prefHeld pre14 c (fun _ => fullShare) (adm14 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 14 c).Φ (Fin.last _) = iprop(Pipeline.ΦD osem14 spec14 H14 (V32 m hpre) c ∗ Pipeline.prefHeld pre14 c (fun _ => fullShare) (adm14 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 14) (pcfgs (F := F)) (adm m) (Ix := Unit) (Name := ℕ) (U := Pipeline.UD sig nD τ) (Lvl := ℕ)
      (launch14 (F := F)).win (launch14 (F := F)).arr_whole c (pdats m hpre) ((pdats m hpre 14 c).share_full fun _ => rfl)
      (V32 m hpre c) (V33 m hpre c) ((pdats m hpre 14 c).arrAt · (cfg14 (adm14 m)).N) (hF14 m hpre c) (hrest14 m hpre c)
    rw [Pipeline.unscopedBufs_held] at hjoin
    iintro ⟨Ha, HO, ⟨Hp, HH, Ht⟩, HZ⟩
    ihave Hrest := (Entails.of_eq (rest14_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg15.lean ====
/- Region 15 of the run (a gather call of the second layer: words 200000 … 249999 of the row vector) as one item of the program
   between two boundary contents. The region is entered with every unscoped buffer at the contents W34 and left
   with them at W35, which differs from W34 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 15's exit contents -/

/-- At the exit each array of the region holds what the grid leaves in it, -/
theorem W35_arr (c : Dev nD) (w : Fin (cfg15 (adm15 m)).W) :
    W35 m hpre c (Proc.devRef .tc (Pipeline.arrRef spec15 w)) = (dat15 (V34 m hpre) (adm15 m) (hH15 m hpre) c).arrAt w (cfg15 (adm15 m)).N := by
  unfold W35; exact Pipeline.withArrays_arr spec15 (launch15 (F := F)).win.arr_inj c _ _ w
/-- and every other buffer what it held at the entry. -/
theorem W35_of_ne (c : Dev nD) (b : Ref sig .tc) (hb : ∀ w, Pipeline.arrRef spec15 w ≠ b) :
    W35 m hpre c (Proc.devRef .tc b) = W34 m hpre c (Proc.devRef .tc b) := by
  unfold W35; exact Pipeline.withArrays_of_ne spec15 c _ _ b hb
/-- The exit contents read at the TensorCore's references. -/
abbrev V35 : (c : Dev nD) → (b : Ref sig .tc) → Buf (Elt F) ((c : Thread nD τ).loc b) := fun c b => W35 m hpre c b
theorem hF15 (c : Dev nD) (w : Fin (cfg15 (adm15 m)).W) :
    (dat15 (V34 m hpre) (adm15 m) (hH15 m hpre) c).arrAt w (cfg15 (adm15 m)).N = V35 m hpre c (Pipeline.arrRef spec15 w) :=
  (W35_arr m hpre c w).symm
theorem hrest15 (c : Dev nD) : ∀ b, b ∉ Finset.univ.image (Pipeline.arrRef spec15) → V35 m hpre c b = V34 m hpre c b :=
  fun b hb => W35_of_ne m hpre c b fun w e => hb (Finset.mem_image.mpr ⟨w, Finset.mem_univ _, e⟩)

/-! ## The unscoped buffers that are no array of the region -/

/-- The operand left in HBM is unscoped, no array of the region and not the row table. -/
theorem H15_subP : H15 ⊆ Pipeline.restRefsP sig pre15 spec15 := by
  intro b hb
  rw [H15, Finset.mem_singleton] at hb
  subst hb
  refine Finset.mem_sdiff.mpr ⟨Pipeline.mem_restRefs_of main_v71 (by decide) (by decide), ?_⟩
  decide

include hpre in
/-- The table's buffer at the region's entry holds the admissible contents: the one table, words 200000 … 249999 of the
    row vector. -/
theorem htbl15 (c : Dev nD) : (fun k : Fin pre15.K => V34 m hpre c (pre15.ref k)) = (adm15 m).1 :=
  funext fun | ⟨0, _⟩ => hpf15 m hpre c

include hpre in
/-- The unscoped buffers that are no array of the region, at its entry contents: the table at the admissible
    contents, the operand left in HBM, and the others. -/
theorem rest15_eq (c : Dev nD) :
    (Pipeline.unscopedRest (Ix := Unit) (Name := ℕ) (U := Pipeline.UD sig nD τ) (Lvl := ℕ) spec15 c (V34 m hpre c) : sProp 𝕄)
      = iprop(Pipeline.prefHeld pre15 c (fun _ => fullShare) (adm15 m).1
          ∗ (bigSep H15 fun b => ((c : Thread nD τ).loc b) ↦{fullShare} V34 m hpre c b)
          ∗ bigSep (Pipeline.restRefsP sig pre15 spec15 \ H15) fun b => ((c : Thread nD τ).loc b) ↦{fullShare} V34 m hpre c b) := by
  rw [Pipeline.unscopedRest_split preFacts15 c (V34 m hpre c), htbl15 m hpre c, Pipeline.unscopedRestP_sdiff pre15 spec15 H15 H15_subP c (V34 m hpre c)]

/-! ## The region as an item of the program -/

-- a library lemma stated over the pinned configuration unifies with the printed one only when unification may
-- unfold plain definitions in a metavariable's type
set_option backward.isDefEq.respectTransparency.types false in
/-- REGION 15 between the boundary contents W34 and W35. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W35. Nothing is owed
    at the pipeline's cells at any point. -/
def reg15 : Pipeline.RegionSeg (pcfgs (F := F)) (adm m) (pdats m hpre) () defs₀ 𝒱₀ L lv 15 where
  win := (launch15 (F := F)).win.to₀
  block_pos := (launch15 (F := F)).block_pos
  stage_whole := (launch15 (F := F)).stage_whole
  K := Fin 16
  osem := osem15
  ho := ownSemFacts15
  hbody c := (body_obligation15 (V34 m hpre) (adm15 m) (hH15 m hpre) c).loose
  hwaits := Pipeline.hwaits_of_owed_zero _ _ _ _ L lv 15 fun _ _ => rfl
  pre c := iprop(StableHlo.held (c : Thread nD τ) (Pipeline.ucRefs τ sig) (W34 m hpre c) ∗ R c)
  post c := iprop(StableHlo.held (c : Thread nD τ) (Pipeline.ucRefs τ sig) (W35 m hpre c) ∗ R c)
  X c := iprop((∃ r, prngReg c r) ∗ Pipeline.ownSems0 (Ix := Unit) (Name := ℕ) (U := Pipeline.UD sig nD τ) (Lvl := ℕ) (Val := Elt F) (τ := τ) osem15 c
    ∗ bigSep H15 fun b => ((c : Thread nD τ).loc b) ↦{fullShare} V34 m hpre c b)
  Y c := iprop((∃ r, prngReg c r) ∗ (bigSep H15 fun b => ((c : Thread nD τ).loc b) ↦{fullShare} V34 m hpre c b)
    ∗ Pipeline.prefHeld pre15 c (fun _ => fullShare) (adm15 m).1)
  Z c := bigSep (Pipeline.restRefsP sig pre15 spec15 \ H15) fun b => ((c : Thread nD τ).loc b) ↦{fullShare} V34 m hpre c b
  hentry c := by
    have hsplit := Pipeline.arrays_of_unscopedBufs (p := 15) (pcfgs (F := F)) (adm m) (pdats m hpre) (launch15 (F := F)).win (launch15 (F := F)).arr_whole c
      ((pdats m hpre 15 c).share_full fun _ => rfl) (V34 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest15_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 15 c).Φ 0 = iprop(Pipeline.ΦD osem15 spec15 H15 (V34 m hpre) c ∗ Pipeline.prefHeld pre15 c (fun _ => fullShare) (adm15 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 15 c).Φ (Fin.last _) = iprop(Pipeline.ΦD osem15 spec15 H15 (V34 m hpre) c ∗ Pipeline.prefHeld pre15 c (fun _ => fullShare) (adm15 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 15) (pcfgs (F := F)) (adm m) (Ix := Unit) (Name := ℕ) (U := Pipeline.UD sig nD τ) (Lvl := ℕ)
      (launch15 (F := F)).win (launch15 (F := F)).arr_whole c (pdats m hpre) ((pdats m hpre 15 c).share_full fun _ => rfl)
      (V34 m hpre c) (V35 m hpre c) ((pdats m hpre 15 c).arrAt · (cfg15 (adm15 m)).N) (hF15 m hpre c) (hrest15 m hpre c)
    rw [Pipeline.unscopedBufs_held] at hjoin
    iintro ⟨Ha, HO, ⟨Hp, HH, Ht⟩, HZ⟩
    ihave Hrest := (Entails.of_eq (rest15_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg16.lean ====
/- Region 16 of the run (a gather call of the second layer: words 250000 … 299999 of the row vector) as one item of the program
   between two boundary contents. The region is entered with every unscoped buffer at the contents W36 and left
   with them at W37, which differs from W36 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 16's exit contents -/

/-- At the exit each array of the region holds what the grid leaves in it, -/
theorem W37_arr (c : Dev nD) (w : Fin (cfg16 (adm16 m)).W) :
    W37 m hpre c (Proc.devRef .tc (Pipeline.arrRef spec16 w)) = (dat16 (V36 m hpre) (adm16 m) (hH16 m hpre) c).arrAt w (cfg16 (adm16 m)).N := by
  unfold W37; exact Pipeline.withArrays_arr spec16 (launch16 (F := F)).win.arr_inj c _ _ w
/-- and every other buffer what it held at the entry. -/
theorem W37_of_ne (c : Dev nD) (b : Ref sig .tc) (hb : ∀ w, Pipeline.arrRef spec16 w ≠ b) :
    W37 m hpre c (Proc.devRef .tc b) = W36 m hpre c (Proc.devRef .tc b) := by
  unfold W37; exact Pipeline.withArrays_of_ne spec16 c _ _ b hb
/-- The exit contents read at the TensorCore's references. -/
abbrev V37 : (c : Dev nD) → (b : Ref sig .tc) → Buf (Elt F) ((c : Thread nD τ).loc b) := fun c b => W37 m hpre c b
theorem hF16 (c : Dev nD) (w : Fin (cfg16 (adm16 m)).W) :
    (dat16 (V36 m hpre) (adm16 m) (hH16 m hpre) c).arrAt w (cfg16 (adm16 m)).N = V37 m hpre c (Pipeline.arrRef spec16 w) :=
  (W37_arr m hpre c w).symm
theorem hrest16 (c : Dev nD) : ∀ b, b ∉ Finset.univ.image (Pipeline.arrRef spec16) → V37 m hpre c b = V36 m hpre c b :=
  fun b hb => W37_of_ne m hpre c b fun w e => hb (Finset.mem_image.mpr ⟨w, Finset.mem_univ _, e⟩)

/-! ## The unscoped buffers that are no array of the region -/

/-- The operand left in HBM is unscoped, no array of the region and not the row table. -/
theorem H16_subP : H16 ⊆ Pipeline.restRefsP sig pre16 spec16 := by
  intro b hb
  rw [H16, Finset.mem_singleton] at hb
  subst hb
  refine Finset.mem_sdiff.mpr ⟨Pipeline.mem_restRefs_of main_v71 (by decide) (by decide), ?_⟩
  decide

include hpre in
/-- The table's buffer at the region's entry holds the admissible contents: the one table, words 250000 … 299999 of the
    row vector. -/
theorem htbl16 (c : Dev nD) : (fun k : Fin pre16.K => V36 m hpre c (pre16.ref k)) = (adm16 m).1 :=
  funext fun | ⟨0, _⟩ => hpf16 m hpre c

include hpre in
/-- The unscoped buffers that are no array of the region, at its entry contents: the table at the admissible
    contents, the operand left in HBM, and the others. -/
theorem rest16_eq (c : Dev nD) :
    (Pipeline.unscopedRest (Ix := Unit) (Name := ℕ) (U := Pipeline.UD sig nD τ) (Lvl := ℕ) spec16 c (V36 m hpre c) : sProp 𝕄)
      = iprop(Pipeline.prefHeld pre16 c (fun _ => fullShare) (adm16 m).1
          ∗ (bigSep H16 fun b => ((c : Thread nD τ).loc b) ↦{fullShare} V36 m hpre c b)
          ∗ bigSep (Pipeline.restRefsP sig pre16 spec16 \ H16) fun b => ((c : Thread nD τ).loc b) ↦{fullShare} V36 m hpre c b) := by
  rw [Pipeline.unscopedRest_split preFacts16 c (V36 m hpre c), htbl16 m hpre c, Pipeline.unscopedRestP_sdiff pre16 spec16 H16 H16_subP c (V36 m hpre c)]

/-! ## The region as an item of the program -/

-- a library lemma stated over the pinned configuration unifies with the printed one only when unification may
-- unfold plain definitions in a metavariable's type
set_option backward.isDefEq.respectTransparency.types false in
/-- REGION 16 between the boundary contents W36 and W37. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W37. Nothing is owed
    at the pipeline's cells at any point. -/
def reg16 : Pipeline.RegionSeg (pcfgs (F := F)) (adm m) (pdats m hpre) () defs₀ 𝒱₀ L lv 16 where
  win := (launch16 (F := F)).win.to₀
  block_pos := (launch16 (F := F)).block_pos
  stage_whole := (launch16 (F := F)).stage_whole
  K := Fin 16
  osem := osem16
  ho := ownSemFacts16
  hbody c := (body_obligation16 (V36 m hpre) (adm16 m) (hH16 m hpre) c).loose
  hwaits := Pipeline.hwaits_of_owed_zero _ _ _ _ L lv 16 fun _ _ => rfl
  pre c := iprop(StableHlo.held (c : Thread nD τ) (Pipeline.ucRefs τ sig) (W36 m hpre c) ∗ R c)
  post c := iprop(StableHlo.held (c : Thread nD τ) (Pipeline.ucRefs τ sig) (W37 m hpre c) ∗ R c)
  X c := iprop((∃ r, prngReg c r) ∗ Pipeline.ownSems0 (Ix := Unit) (Name := ℕ) (U := Pipeline.UD sig nD τ) (Lvl := ℕ) (Val := Elt F) (τ := τ) osem16 c
    ∗ bigSep H16 fun b => ((c : Thread nD τ).loc b) ↦{fullShare} V36 m hpre c b)
  Y c := iprop((∃ r, prngReg c r) ∗ (bigSep H16 fun b => ((c : Thread nD τ).loc b) ↦{fullShare} V36 m hpre c b)
    ∗ Pipeline.prefHeld pre16 c (fun _ => fullShare) (adm16 m).1)
  Z c := bigSep (Pipeline.restRefsP sig pre16 spec16 \ H16) fun b => ((c : Thread nD τ).loc b) ↦{fullShare} V36 m hpre c b
  hentry c := by
    have hsplit := Pipeline.arrays_of_unscopedBufs (p := 16) (pcfgs (F := F)) (adm m) (pdats m hpre) (launch16 (F := F)).win (launch16 (F := F)).arr_whole c
      ((pdats m hpre 16 c).share_full fun _ => rfl) (V36 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest16_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 16 c).Φ 0 = iprop(Pipeline.ΦD osem16 spec16 H16 (V36 m hpre) c ∗ Pipeline.prefHeld pre16 c (fun _ => fullShare) (adm16 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 16 c).Φ (Fin.last _) = iprop(Pipeline.ΦD osem16 spec16 H16 (V36 m hpre) c ∗ Pipeline.prefHeld pre16 c (fun _ => fullShare) (adm16 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 16) (pcfgs (F := F)) (adm m) (Ix := Unit) (Name := ℕ) (U := Pipeline.UD sig nD τ) (Lvl := ℕ)
      (launch16 (F := F)).win (launch16 (F := F)).arr_whole c (pdats m hpre) ((pdats m hpre 16 c).share_full fun _ => rfl)
      (V36 m hpre c) (V37 m hpre c) ((pdats m hpre 16 c).arrAt · (cfg16 (adm16 m)).N) (hF16 m hpre c) (hrest16 m hpre c)
    rw [Pipeline.unscopedBufs_held] at hjoin
    iintro ⟨Ha, HO, ⟨Hp, HH, Ht⟩, HZ⟩
    ihave Hrest := (Entails.of_eq (rest16_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg17.lean ====
/- Region 17 of the run (a gather call of the second layer: words 300000 … 349999 of the row vector) as one item of the program
   between two boundary contents. The region is entered with every unscoped buffer at the contents W38 and left
   with them at W39, which differs from W38 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 17's exit contents -/

/-- At the exit each array of the region holds what the grid leaves in it, -/
theorem W39_arr (c : Dev nD) (w : Fin (cfg17 (adm17 m)).W) :
    W39 m hpre c (Proc.devRef .tc (Pipeline.arrRef spec17 w)) = (dat17 (V38 m hpre) (adm17 m) (hH17 m hpre) c).arrAt w (cfg17 (adm17 m)).N := by
  unfold W39; exact Pipeline.withArrays_arr spec17 (launch17 (F := F)).win.arr_inj c _ _ w
/-- and every other buffer what it held at the entry. -/
theorem W39_of_ne (c : Dev nD) (b : Ref sig .tc) (hb : ∀ w, Pipeline.arrRef spec17 w ≠ b) :
    W39 m hpre c (Proc.devRef .tc b) = W38 m hpre c (Proc.devRef .tc b) := by
  unfold W39; exact Pipeline.withArrays_of_ne spec17 c _ _ b hb
/-- The exit contents read at the TensorCore's references. -/
abbrev V39 : (c : Dev nD) → (b : Ref sig .tc) → Buf (Elt F) ((c : Thread nD τ).loc b) := fun c b => W39 m hpre c b
theorem hF17 (c : Dev nD) (w : Fin (cfg17 (adm17 m)).W) :
    (dat17 (V38 m hpre) (adm17 m) (hH17 m hpre) c).arrAt w (cfg17 (adm17 m)).N = V39 m hpre c (Pipeline.arrRef spec17 w) :=
  (W39_arr m hpre c w).symm
theorem hrest17 (c : Dev nD) : ∀ b, b ∉ Finset.univ.image (Pipeline.arrRef spec17) → V39 m hpre c b = V38 m hpre c b :=
  fun b hb => W39_of_ne m hpre c b fun w e => hb (Finset.mem_image.mpr ⟨w, Finset.mem_univ _, e⟩)

/-! ## The unscoped buffers that are no array of the region -/

/-- The operand left in HBM is unscoped, no array of the region and not the row table. -/
theorem H17_subP : H17 ⊆ Pipeline.restRefsP sig pre17 spec17 := by
  intro b hb
  rw [H17, Finset.mem_singleton] at hb
  subst hb
  refine Finset.mem_sdiff.mpr ⟨Pipeline.mem_restRefs_of main_v71 (by decide) (by decide), ?_⟩
  decide

include hpre in
/-- The table's buffer at the region's entry holds the admissible contents: the one table, words 300000 … 349999 of the
    row vector. -/
theorem htbl17 (c : Dev nD) : (fun k : Fin pre17.K => V38 m hpre c (pre17.ref k)) = (adm17 m).1 :=
  funext fun | ⟨0, _⟩ => hpf17 m hpre c

include hpre in
/-- The unscoped buffers that are no array of the region, at its entry contents: the table at the admissible
    contents, the operand left in HBM, and the others. -/
theorem rest17_eq (c : Dev nD) :
    (Pipeline.unscopedRest (Ix := Unit) (Name := ℕ) (U := Pipeline.UD sig nD τ) (Lvl := ℕ) spec17 c (V38 m hpre c) : sProp 𝕄)
      = iprop(Pipeline.prefHeld pre17 c (fun _ => fullShare) (adm17 m).1
          ∗ (bigSep H17 fun b => ((c : Thread nD τ).loc b) ↦{fullShare} V38 m hpre c b)
          ∗ bigSep (Pipeline.restRefsP sig pre17 spec17 \ H17) fun b => ((c : Thread nD τ).loc b) ↦{fullShare} V38 m hpre c b) := by
  rw [Pipeline.unscopedRest_split preFacts17 c (V38 m hpre c), htbl17 m hpre c, Pipeline.unscopedRestP_sdiff pre17 spec17 H17 H17_subP c (V38 m hpre c)]

/-! ## The region as an item of the program -/

-- a library lemma stated over the pinned configuration unifies with the printed one only when unification may
-- unfold plain definitions in a metavariable's type
set_option backward.isDefEq.respectTransparency.types false in
/-- REGION 17 between the boundary contents W38 and W39. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W39. Nothing is owed
    at the pipeline's cells at any point. -/
def reg17 : Pipeline.RegionSeg (pcfgs (F := F)) (adm m) (pdats m hpre) () defs₀ 𝒱₀ L lv 17 where
  win := (launch17 (F := F)).win.to₀
  block_pos := (launch17 (F := F)).block_pos
  stage_whole := (launch17 (F := F)).stage_whole
  K := Fin 16
  osem := osem17
  ho := ownSemFacts17
  hbody c := (body_obligation17 (V38 m hpre) (adm17 m) (hH17 m hpre) c).loose
  hwaits := Pipeline.hwaits_of_owed_zero _ _ _ _ L lv 17 fun _ _ => rfl
  pre c := iprop(StableHlo.held (c : Thread nD τ) (Pipeline.ucRefs τ sig) (W38 m hpre c) ∗ R c)
  post c := iprop(StableHlo.held (c : Thread nD τ) (Pipeline.ucRefs τ sig) (W39 m hpre c) ∗ R c)
  X c := iprop((∃ r, prngReg c r) ∗ Pipeline.ownSems0 (Ix := Unit) (Name := ℕ) (U := Pipeline.UD sig nD τ) (Lvl := ℕ) (Val := Elt F) (τ := τ) osem17 c
    ∗ bigSep H17 fun b => ((c : Thread nD τ).loc b) ↦{fullShare} V38 m hpre c b)
  Y c := iprop((∃ r, prngReg c r) ∗ (bigSep H17 fun b => ((c : Thread nD τ).loc b) ↦{fullShare} V38 m hpre c b)
    ∗ Pipeline.prefHeld pre17 c (fun _ => fullShare) (adm17 m).1)
  Z c := bigSep (Pipeline.restRefsP sig pre17 spec17 \ H17) fun b => ((c : Thread nD τ).loc b) ↦{fullShare} V38 m hpre c b
  hentry c := by
    have hsplit := Pipeline.arrays_of_unscopedBufs (p := 17) (pcfgs (F := F)) (adm m) (pdats m hpre) (launch17 (F := F)).win (launch17 (F := F)).arr_whole c
      ((pdats m hpre 17 c).share_full fun _ => rfl) (V38 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest17_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 17 c).Φ 0 = iprop(Pipeline.ΦD osem17 spec17 H17 (V38 m hpre) c ∗ Pipeline.prefHeld pre17 c (fun _ => fullShare) (adm17 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 17 c).Φ (Fin.last _) = iprop(Pipeline.ΦD osem17 spec17 H17 (V38 m hpre) c ∗ Pipeline.prefHeld pre17 c (fun _ => fullShare) (adm17 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 17) (pcfgs (F := F)) (adm m) (Ix := Unit) (Name := ℕ) (U := Pipeline.UD sig nD τ) (Lvl := ℕ)
      (launch17 (F := F)).win (launch17 (F := F)).arr_whole c (pdats m hpre) ((pdats m hpre 17 c).share_full fun _ => rfl)
      (V38 m hpre c) (V39 m hpre c) ((pdats m hpre 17 c).arrAt · (cfg17 (adm17 m)).N) (hF17 m hpre c) (hrest17 m hpre c)
    rw [Pipeline.unscopedBufs_held] at hjoin
    iintro ⟨Ha, HO, ⟨Hp, HH, Ht⟩, HZ⟩
    ihave Hrest := (Entails.of_eq (rest17_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg18.lean ====
/- Region 18 of the run (a gather call of the second layer: words 350000 … 399999 of the row vector) as one item of the program
   between two boundary contents. The region is entered with every unscoped buffer at the contents W40 and left
   with them at W41, which differs from W40 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 18's exit contents -/

/-- At the exit each array of the region holds what the grid leaves in it, -/
theorem W41_arr (c : Dev nD) (w : Fin (cfg18 (adm18 m)).W) :
    W41 m hpre c (Proc.devRef .tc (Pipeline.arrRef spec18 w)) = (dat18 (V40 m hpre) (adm18 m) (hH18 m hpre) c).arrAt w (cfg18 (adm18 m)).N := by
  unfold W41; exact Pipeline.withArrays_arr spec18 (launch18 (F := F)).win.arr_inj c _ _ w
/-- and every other buffer what it held at the entry. -/
theorem W41_of_ne (c : Dev nD) (b : Ref sig .tc) (hb : ∀ w, Pipeline.arrRef spec18 w ≠ b) :
    W41 m hpre c (Proc.devRef .tc b) = W40 m hpre c (Proc.devRef .tc b) := by
  unfold W41; exact Pipeline.withArrays_of_ne spec18 c _ _ b hb
/-- The exit contents read at the TensorCore's references. -/
abbrev V41 : (c : Dev nD) → (b : Ref sig .tc) → Buf (Elt F) ((c : Thread nD τ).loc b) := fun c b => W41 m hpre c b
theorem hF18 (c : Dev nD) (w : Fin (cfg18 (adm18 m)).W) :
    (dat18 (V40 m hpre) (adm18 m) (hH18 m hpre) c).arrAt w (cfg18 (adm18 m)).N = V41 m hpre c (Pipeline.arrRef spec18 w) :=
  (W41_arr m hpre c w).symm
theorem hrest18 (c : Dev nD) : ∀ b, b ∉ Finset.univ.image (Pipeline.arrRef spec18) → V41 m hpre c b = V40 m hpre c b :=
  fun b hb => W41_of_ne m hpre c b fun w e => hb (Finset.mem_image.mpr ⟨w, Finset.mem_univ _, e⟩)

/-! ## The unscoped buffers that are no array of the region -/

/-- The operand left in HBM is unscoped, no array of the region and not the row table. -/
theorem H18_subP : H18 ⊆ Pipeline.restRefsP sig pre18 spec18 := by
  intro b hb
  rw [H18, Finset.mem_singleton] at hb
  subst hb
  refine Finset.mem_sdiff.mpr ⟨Pipeline.mem_restRefs_of main_v71 (by decide) (by decide), ?_⟩
  decide

include hpre in
/-- The table's buffer at the region's entry holds the admissible contents: the one table, words 350000 … 399999 of the
    row vector. -/
theorem htbl18 (c : Dev nD) : (fun k : Fin pre18.K => V40 m hpre c (pre18.ref k)) = (adm18 m).1 :=
  funext fun | ⟨0, _⟩ => hpf18 m hpre c

include hpre in
/-- The unscoped buffers that are no array of the region, at its entry contents: the table at the admissible
    contents, the operand left in HBM, and the others. -/
theorem rest18_eq (c : Dev nD) :
    (Pipeline.unscopedRest (Ix := Unit) (Name := ℕ) (U := Pipeline.UD sig nD τ) (Lvl := ℕ) spec18 c (V40 m hpre c) : sProp 𝕄)
      = iprop(Pipeline.prefHeld pre18 c (fun _ => fullShare) (adm18 m).1
          ∗ (bigSep H18 fun b => ((c : Thread nD τ).loc b) ↦{fullShare} V40 m hpre c b)
          ∗ bigSep (Pipeline.restRefsP sig pre18 spec18 \ H18) fun b => ((c : Thread nD τ).loc b) ↦{fullShare} V40 m hpre c b) := by
  rw [Pipeline.unscopedRest_split preFacts18 c (V40 m hpre c), htbl18 m hpre c, Pipeline.unscopedRestP_sdiff pre18 spec18 H18 H18_subP c (V40 m hpre c)]

/-! ## The region as an item of the program -/

-- a library lemma stated over the pinned configuration unifies with the printed one only when unification may
-- unfold plain definitions in a metavariable's type
set_option backward.isDefEq.respectTransparency.types false in
/-- REGION 18 between the boundary contents W40 and W41. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W41. Nothing is owed
    at the pipeline's cells at any point. -/
def reg18 : Pipeline.RegionSeg (pcfgs (F := F)) (adm m) (pdats m hpre) () defs₀ 𝒱₀ L lv 18 where
  win := (launch18 (F := F)).win.to₀
  block_pos := (launch18 (F := F)).block_pos
  stage_whole := (launch18 (F := F)).stage_whole
  K := Fin 16
  osem := osem18
  ho := ownSemFacts18
  hbody c := (body_obligation18 (V40 m hpre) (adm18 m) (hH18 m hpre) c).loose
  hwaits := Pipeline.hwaits_of_owed_zero _ _ _ _ L lv 18 fun _ _ => rfl
  pre c := iprop(StableHlo.held (c : Thread nD τ) (Pipeline.ucRefs τ sig) (W40 m hpre c) ∗ R c)
  post c := iprop(StableHlo.held (c : Thread nD τ) (Pipeline.ucRefs τ sig) (W41 m hpre c) ∗ R c)
  X c := iprop((∃ r, prngReg c r) ∗ Pipeline.ownSems0 (Ix := Unit) (Name := ℕ) (U := Pipeline.UD sig nD τ) (Lvl := ℕ) (Val := Elt F) (τ := τ) osem18 c
    ∗ bigSep H18 fun b => ((c : Thread nD τ).loc b) ↦{fullShare} V40 m hpre c b)
  Y c := iprop((∃ r, prngReg c r) ∗ (bigSep H18 fun b => ((c : Thread nD τ).loc b) ↦{fullShare} V40 m hpre c b)
    ∗ Pipeline.prefHeld pre18 c (fun _ => fullShare) (adm18 m).1)
  Z c := bigSep (Pipeline.restRefsP sig pre18 spec18 \ H18) fun b => ((c : Thread nD τ).loc b) ↦{fullShare} V40 m hpre c b
  hentry c := by
    have hsplit := Pipeline.arrays_of_unscopedBufs (p := 18) (pcfgs (F := F)) (adm m) (pdats m hpre) (launch18 (F := F)).win (launch18 (F := F)).arr_whole c
      ((pdats m hpre 18 c).share_full fun _ => rfl) (V40 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest18_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 18 c).Φ 0 = iprop(Pipeline.ΦD osem18 spec18 H18 (V40 m hpre) c ∗ Pipeline.prefHeld pre18 c (fun _ => fullShare) (adm18 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 18 c).Φ (Fin.last _) = iprop(Pipeline.ΦD osem18 spec18 H18 (V40 m hpre) c ∗ Pipeline.prefHeld pre18 c (fun _ => fullShare) (adm18 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 18) (pcfgs (F := F)) (adm m) (Ix := Unit) (Name := ℕ) (U := Pipeline.UD sig nD τ) (Lvl := ℕ)
      (launch18 (F := F)).win (launch18 (F := F)).arr_whole c (pdats m hpre) ((pdats m hpre 18 c).share_full fun _ => rfl)
      (V40 m hpre c) (V41 m hpre c) ((pdats m hpre 18 c).arrAt · (cfg18 (adm18 m)).N) (hF18 m hpre c) (hrest18 m hpre c)
    rw [Pipeline.unscopedBufs_held] at hjoin
    iintro ⟨Ha, HO, ⟨Hp, HH, Ht⟩, HZ⟩
    ihave Hrest := (Entails.of_eq (rest18_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.Reg19.lean ====
/- Region 19 of the run (a gather call of the second layer: words 400000 … 449999 of the row vector) as one item of the program
   between two boundary contents. The region is entered with every unscoped buffer at the contents W42 and left
   with them at W43, which differs from W42 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.RegBase
import proofs.«414392_j7919919694132_2_alg».proof.Proof.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 19's exit contents -/

/-- At the exit each array of the region holds what the grid leaves in it, -/
theorem W43_arr (c : Dev nD) (w : Fin (cfg19 (adm19 m)).W) :
    W43 m hpre c (Proc.devRef .tc (Pipeline.arrRef spec19 w)) = (dat19 (V42 m hpre) (adm19 m) (hH19 m hpre) c).arrAt w (cfg19 (adm19 m)).N := by
  unfold W43; exact Pipeline.withArrays_arr spec19 (launch19 (F := F)).win.arr_inj c _ _ w
/-- and every other buffer what it held at the entry. -/
theorem W43_of_ne (c : Dev nD) (b : Ref sig .tc) (hb : ∀ w, Pipeline.arrRef spec19 w ≠ b) :
    W43 m hpre c (Proc.devRef .tc b) = W42 m hpre c (Proc.devRef .tc b) := by
  unfold W43; exact Pipeline.withArrays_of_ne spec19 c _ _ b hb
/-- The exit contents read at the TensorCore's references. -/
abbrev V43 : (c : Dev nD) → (b : Ref sig .tc) → Buf (Elt F) ((c : Thread nD τ).loc b) := fun c b => W43 m hpre c b
theorem hF19 (c : Dev nD) (w : Fin (cfg19 (adm19 m)).W) :
    (dat19 (V42 m hpre) (adm19 m) (hH19 m hpre) c).arrAt w (cfg19 (adm19 m)).N = V43 m hpre c (Pipeline.arrRef spec19 w) :=
  (W43_arr m hpre c w).symm
theorem hrest19 (c : Dev nD) : ∀ b, b ∉ Finset.univ.image (Pipeline.arrRef spec19) → V43 m hpre c b = V42 m hpre c b :=
  fun b hb => W43_of_ne m hpre c b fun w e => hb (Finset.mem_image.mpr ⟨w, Finset.mem_univ _, e⟩)

/-! ## The unscoped buffers that are no array of the region -/

/-- The operand left in HBM is unscoped, no array of the region and not the row table. -/
theorem H19_subP : H19 ⊆ Pipeline.restRefsP sig pre19 spec19 := by
  intro b hb
  rw [H19, Finset.mem_singleton] at hb
  subst hb
  refine Finset.mem_sdiff.mpr ⟨Pipeline.mem_restRefs_of main_v71 (by decide) (by decide), ?_⟩
  decide

include hpre in
/-- The table's buffer at the region's entry holds the admissible contents: the one table, words 400000 … 449999 of the
    row vector. -/
theorem htbl19 (c : Dev nD) : (fun k : Fin pre19.K => V42 m hpre c (pre19.ref k)) = (adm19 m).1 :=
  funext fun | ⟨0, _⟩ => hpf19 m hpre c

include hpre in
/-- The unscoped buffers that are no array of the region, at its entry contents: the table at the admissible
    contents, the operand left in HBM, and the others. -/
theorem rest19_eq (c : Dev nD) :
    (Pipeline.unscopedRest (Ix := Unit) (Name := ℕ) (U := Pipeline.UD sig nD τ) (Lvl := ℕ) spec19 c (V42 m hpre c) : sProp 𝕄)
      = iprop(Pipeline.prefHeld pre19 c (fun _ => fullShare) (adm19 m).1
          ∗ (bigSep H19 fun b => ((c : Thread nD τ).loc b) ↦{fullShare} V42 m hpre c b)
          ∗ bigSep (Pipeline.restRefsP sig pre19 spec19 \ H19) fun b => ((c : Thread nD τ).loc b) ↦{fullShare} V42 m hpre c b) := by
  rw [Pipeline.unscopedRest_split preFacts19 c (V42 m hpre c), htbl19 m hpre c, Pipeline.unscopedRestP_sdiff pre19 spec19 H19 H19_subP c (V42 m hpre c)]

/-! ## The region as an item of the program -/

-- a library lemma stated over the pinned configuration unifies with the printed one only when unification may
-- unfold plain definitions in a metavariable's type
set_option backward.isDefEq.respectTransparency.types false in
/-- REGION 19 between the boundary contents W42 and W43. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W43. Nothing is owed
    at the pipeline's cells at any point. -/
def reg19 : Pipeline.RegionSeg (pcfgs (F := F)) (adm m) (pdats m hpre) () defs₀ 𝒱₀ L lv 19 where
  win := (launch19 (F := F)).win.to₀
  block_pos := (launch19 (F := F)).block_pos
  stage_whole := (launch19 (F := F)).stage_whole
  K := Fin 16
  osem := osem19
  ho := ownSemFacts19
  hbody c := (body_obligation19 (V42 m hpre) (adm19 m) (hH19 m hpre) c).loose
  hwaits := Pipeline.hwaits_of_owed_zero _ _ _ _ L lv 19 fun _ _ => rfl
  pre c := iprop(StableHlo.held (c : Thread nD τ) (Pipeline.ucRefs τ sig) (W42 m hpre c) ∗ R c)
  post c := iprop(StableHlo.held (c : Thread nD τ) (Pipeline.ucRefs τ sig) (W43 m hpre c) ∗ R c)
  X c := iprop((∃ r, prngReg c r) ∗ Pipeline.ownSems0 (Ix := Unit) (Name := ℕ) (U := Pipeline.UD sig nD τ) (Lvl := ℕ) (Val := Elt F) (τ := τ) osem19 c
    ∗ bigSep H19 fun b => ((c : Thread nD τ).loc b) ↦{fullShare} V42 m hpre c b)
  Y c := iprop((∃ r, prngReg c r) ∗ (bigSep H19 fun b => ((c : Thread nD τ).loc b) ↦{fullShare} V42 m hpre c b)
    ∗ Pipeline.prefHeld pre19 c (fun _ => fullShare) (adm19 m).1)
  Z c := bigSep (Pipeline.restRefsP sig pre19 spec19 \ H19) fun b => ((c : Thread nD τ).loc b) ↦{fullShare} V42 m hpre c b
  hentry c := by
    have hsplit := Pipeline.arrays_of_unscopedBufs (p := 19) (pcfgs (F := F)) (adm m) (pdats m hpre) (launch19 (F := F)).win (launch19 (F := F)).arr_whole c
      ((pdats m hpre 19 c).share_full fun _ => rfl) (V42 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest19_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 19 c).Φ 0 = iprop(Pipeline.ΦD osem19 spec19 H19 (V42 m hpre) c ∗ Pipeline.prefHeld pre19 c (fun _ => fullShare) (adm19 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 19 c).Φ (Fin.last _) = iprop(Pipeline.ΦD osem19 spec19 H19 (V42 m hpre) c ∗ Pipeline.prefHeld pre19 c (fun _ => fullShare) (adm19 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 19) (pcfgs (F := F)) (adm m) (Ix := Unit) (Name := ℕ) (U := Pipeline.UD sig nD τ) (Lvl := ℕ)
      (launch19 (F := F)).win (launch19 (F := F)).arr_whole c (pdats m hpre) ((pdats m hpre 19 c).share_full fun _ => rfl)
      (V42 m hpre c) (V43 m hpre c) ((pdats m hpre 19 c).arrAt · (cfg19 (adm19 m)).N) (hF19 m hpre c) (hrest19 m hpre c)
    rw [Pipeline.unscopedBufs_held] at hjoin
    iintro ⟨Ha, HO, ⟨Hp, HH, Ht⟩, HZ⟩
    ihave Hrest := (Entails.of_eq (rest19_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.RunMain.lean ====
import proofs.«414392_j7919919694132_2_alg».proof.Proof.Reg0
import proofs.«414392_j7919919694132_2_alg».proof.Proof.Reg1
import proofs.«414392_j7919919694132_2_alg».proof.Proof.Reg2
import proofs.«414392_j7919919694132_2_alg».proof.Proof.Reg3
import proofs.«414392_j7919919694132_2_alg».proof.Proof.Reg4
import proofs.«414392_j7919919694132_2_alg».proof.Proof.Reg5
import proofs.«414392_j7919919694132_2_alg».proof.Proof.Reg6
import proofs.«414392_j7919919694132_2_alg».proof.Proof.Reg7
import proofs.«414392_j7919919694132_2_alg».proof.Proof.Reg8
import proofs.«414392_j7919919694132_2_alg».proof.Proof.Reg9
import proofs.«414392_j7919919694132_2_alg».proof.Proof.Reg10
import proofs.«414392_j7919919694132_2_alg».proof.Proof.Reg11
import proofs.«414392_j7919919694132_2_alg».proof.Proof.Reg12
import proofs.«414392_j7919919694132_2_alg».proof.Proof.Reg13
import proofs.«414392_j7919919694132_2_alg».proof.Proof.Reg14
import proofs.«414392_j7919919694132_2_alg».proof.Proof.Reg15
import proofs.«414392_j7919919694132_2_alg».proof.Proof.Reg16
import proofs.«414392_j7919919694132_2_alg».proof.Proof.Reg17
import proofs.«414392_j7919919694132_2_alg».proof.Proof.Reg18
import proofs.«414392_j7919919694132_2_alg».proof.Proof.Reg19
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
/-! The one run of the program: its 44 items — 24 stretches of host operations and 20 kernel regions — as segments over the
    thread state "every unscoped buffer at the boundary's contents, the generator register at some state, nothing
    owed", chained from the launch memory to the last boundary's contents, and the final memory read against them. -/

variable (m : (ℓ : Loc nD τ sig) → Buf (Elt F) ℓ) (hpre : PreEq m)

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- No operation of `hostOps6` allocates a buffer. -/
theorem hostOps6_fresh : (hostOps6 : List (HloOp τ sig (Elt F))).Forall fun op => op.fresh = ∅ := by
  simp only [List.Forall]; repeat' constructor
/-- No operation of `hostOps7` allocates a buffer. -/
theorem hostOps7_fresh : (hostOps7 : List (HloOp τ sig (Elt F))).Forall fun op => op.fresh = ∅ := by
  simp only [List.Forall]; repeat' constructor
/-- No operation of `hostOps8` allocates a buffer. -/
theorem hostOps8_fresh : (hostOps8 : List (HloOp τ sig (Elt F))).Forall fun op => op.fresh = ∅ := by
  simp only [List.Forall]; repeat' constructor
/-- No operation of `hostOps9` allocates a buffer. -/
theorem hostOps9_fresh : (hostOps9 : List (HloOp τ sig (Elt F))).Forall fun op => op.fresh = ∅ := by
  simp only [List.Forall]; repeat' constructor
/-- No operation of `hostOps10` allocates a buffer. -/
theorem hostOps10_fresh : (hostOps10 : List (HloOp τ sig (Elt F))).Forall fun op => op.fresh = ∅ := by
  simp only [List.Forall]; repeat' constructor
/-- No operation of `hostOps10_1` allocates a buffer. -/
theorem hostOps10_1_fresh : (hostOps10_1 : List (HloOp τ sig (Elt F))).Forall fun op => op.fresh = ∅ := by
  simp only [List.Forall]; repeat' constructor
/-- No operation of `hostOps11` allocates a buffer. -/
theorem hostOps11_fresh : (hostOps11 : List (HloOp τ sig (Elt F))).Forall fun op => op.fresh = ∅ := by
  simp only [List.Forall]; repeat' constructor
/-- No operation of `hostOps12` allocates a buffer. -/
theorem hostOps12_fresh : (hostOps12 : List (HloOp τ sig (Elt F))).Forall fun op => op.fresh = ∅ := by
  simp only [List.Forall]; repeat' constructor
/-- No operation of `hostOps13` allocates a buffer. -/
theorem hostOps13_fresh : (hostOps13 : List (HloOp τ sig (Elt F))).Forall fun op => op.fresh = ∅ := by
  simp only [List.Forall]; repeat' constructor
/-- No operation of `hostOps14` allocates a buffer. -/
theorem hostOps14_fresh : (hostOps14 : List (HloOp τ sig (Elt F))).Forall fun op => op.fresh = ∅ := by
  simp only [List.Forall]; repeat' constructor
/-- No operation of `hostOps15` allocates a buffer. -/
theorem hostOps15_fresh : (hostOps15 : List (HloOp τ sig (Elt F))).Forall fun op => op.fresh = ∅ := by
  simp only [List.Forall]; repeat' constructor
/-- No operation of `hostOps16` allocates a buffer. -/
theorem hostOps16_fresh : (hostOps16 : List (HloOp τ sig (Elt F))).Forall fun op => op.fresh = ∅ := by
  simp only [List.Forall]; repeat' constructor
/-- No operation of `hostOps17` allocates a buffer. -/
theorem hostOps17_fresh : (hostOps17 : List (HloOp τ sig (Elt F))).Forall fun op => op.fresh = ∅ := by
  simp only [List.Forall]; repeat' constructor
/-- No operation of `hostOps18` allocates a buffer. -/
theorem hostOps18_fresh : (hostOps18 : List (HloOp τ sig (Elt F))).Forall fun op => op.fresh = ∅ := by
  simp only [List.Forall]; repeat' constructor
/-- No operation of `hostOps19` allocates a buffer. -/
theorem hostOps19_fresh : (hostOps19 : List (HloOp τ sig (Elt F))).Forall fun op => op.fresh = ∅ := by
  simp only [List.Forall]; repeat' constructor
/-- No operation of `hostOps20` allocates a buffer. -/
theorem hostOps20_fresh : (hostOps20 : List (HloOp τ sig (Elt F))).Forall fun op => op.fresh = ∅ := by
  simp only [List.Forall]; repeat' constructor

/-- A host stretch as a segment: the operations over the unscoped references from the contents `W`, `R` riding along
    (its `post` is those references at `StableHlo.after ops (W c)`: the next boundary's contents). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last boundary's contents, the generator
    register at some state. -/
abbrev Tₙ (c : Dev nD) : sProp 𝕄 := iprop(StableHlo.held (c : Thread nD τ) (Pipeline.ucRefs τ sig) (W44 m hpre c) ∗ ∃ r, prngReg c r)

/-- The program's 44 segments in order: a host segment per stretch from its boundary's contents, a region per kernel call. -/
abbrev segs : List (Pipeline.Seg (pcfgs (F := F)) (adm m) (pdats m hpre) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hpre),
    .host (hseg hostOps1 hostOps1_sub hostOps1_fresh (W4 m)),
    .region (reg1 m hpre),
    .host (hseg hostOps2 hostOps2_sub hostOps2_fresh (W6 m hpre)),
    .region (reg2 m hpre),
    .host (hseg hostOps3 hostOps3_sub hostOps3_fresh (W8 m hpre)),
    .region (reg3 m hpre),
    .host (hseg hostOps4 hostOps4_sub hostOps4_fresh (W10 m hpre)),
    .region (reg4 m hpre),
    .host (hseg hostOps5 hostOps5_sub hostOps5_fresh (W12 m hpre)),
    .region (reg5 m hpre),
    .host (hseg hostOps6 hostOps6_sub hostOps6_fresh (W14 m hpre)),
    .region (reg6 m hpre),
    .host (hseg hostOps7 hostOps7_sub hostOps7_fresh (W16 m hpre)),
    .region (reg7 m hpre),
    .host (hseg hostOps8 hostOps8_sub hostOps8_fresh (W18 m hpre)),
    .region (reg8 m hpre),
    .host (hseg hostOps9 hostOps9_sub hostOps9_fresh (W20 m hpre)),
    .region (reg9 m hpre),
    .host (hseg hostOps10 hostOps10_sub hostOps10_fresh (W22 m hpre)),
    .host (hseg hostOps10_1 hostOps10_1_sub hostOps10_1_fresh (W23 m hpre)),
    .region (reg10 m hpre),
    .host (hseg hostOps11 hostOps11_sub hostOps11_fresh (W25 m hpre)),
    .region (reg11 m hpre),
    .host (hseg hostOps12 hostOps12_sub hostOps12_fresh (W27 m hpre)),
    .region (reg12 m hpre),
    .host (hseg hostOps13 hostOps13_sub hostOps13_fresh (W29 m hpre)),
    .region (reg13 m hpre),
    .host (hseg hostOps14 hostOps14_sub hostOps14_fresh (W31 m hpre)),
    .region (reg14 m hpre),
    .host (hseg hostOps15 hostOps15_sub hostOps15_fresh (W33 m hpre)),
    .region (reg15 m hpre),
    .host (hseg hostOps16 hostOps16_sub hostOps16_fresh (W35 m hpre)),
    .region (reg16 m hpre),
    .host (hseg hostOps17 hostOps17_sub hostOps17_fresh (W37 m hpre)),
    .region (reg17 m hpre),
    .host (hseg hostOps18 hostOps18_sub hostOps18_fresh (W39 m hpre)),
    .region (reg18 m hpre),
    .host (hseg hostOps19 hostOps19_sub hostOps19_fresh (W41 m hpre)),
    .region (reg19 m hpre),
    .host (hseg hostOps20 hostOps20_sub hostOps20_fresh (W43 m hpre)) ]

-- the launch theorem's implicit arguments are found by unifying its conclusion with this one, which takes unfolding
-- plain definitions in a metavariable's type
set_option backward.isDefEq.respectTransparency.types false in
/-- Every weakly fair execution of the program from memory `m` with zero counters terminates, and every final memory
    holds each unscoped buffer of every core at the last boundary's contents `W44`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W44 m hpre c b) := by
  refine Pipeline.θ_run_regions_kit (pcfgs (F := F)) (adm m) (pdats m hpre) () (cellOf_inj (adm m)) embL defs₀ 𝒱₀ L lv m ρ main (segs m hpre)
    (fun c Q => by
      rewrite [main_chain c, Pipeline.Seg.run_eq_chain,
        show (segs m hpre).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20 ] from rfl]
      with_reducible exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := ?hu)
    (T₀ := fun c => iprop(StableHlo.held (c : Thread nD τ) (Pipeline.ucRefs τ sig) (W0 m c) ∗ R c)) (Tₙ := Tₙ m hpre)
    (hch := ?hch)
    (hinit := ?hinit)
    (QY := fun c s => ∀ b ∈ Pipeline.ucRefs τ sig, s.mem (((c : Thread nD τ)).1, b) = W44 m hpre c b)
    (hfin := ?hfin)
    (hQ := fun s h c => h c)
  case hu =>
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hch =>
    exact ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W44 m hpre c) ∗ R c)
        ⊢ iprop(Tₙ m hpre c ∗ ∃ W, owes (c : Thread nD τ) (0 : CellTallies nD τ sig Unit) W)
      iintro ⟨Hh, Hp, HO⟩
      isplitl [Hh Hp]
      · isplitl [Hh]; · iexact Hh
        iexact Hp
      iexact HO⟩
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case hfin =>
    intro c s'
    iintro ⟨⟨Hh, -⟩, HSI⟩
    unfold StableHlo.held
    imodintro
    iapply (pointsTo_read_all (Pipeline.ucRefs τ sig) (fun b => (((c : Thread nD τ)).1, b)) (W44 m hpre c) s')
    isplitl [Hh] <;> iassumption

end Cert.KernelIdeal.Hand

end
-- ==== Proof.Bits.Mat0.lean ====
/- Pipeline 0 of @main (the first layer's dense product x · W1, fifty row blocks of 1000): the region half of
   the frame, at the region-entry contents V, over the run's one user algebra. Three windows: the x block
   [1000,262] and the whole W1 [262,512] are read, the output block [1000,512] is stored whole. -/
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1000x262 := Rect.unit (s := S1000x262) ![0, 0] S1000x262.size inb_S1000x262_S1000x262_0_0
abbrev r0_1 : Rect S262x512 := Rect.unit (s := S262x512) ![0, 0] S262x512.size inb_S262x512_S262x512_0_0
abbrev r0_2 : Rect S1000x512 := Rect.unit (s := S1000x512) ![0, 0] S1000x512.size inb_S1000x512_S1000x512_0_0

/-! ## What the body leaves in the output window's buffer -/

/-- Window 2's staging buffer after the body, from the input windows' blocks: its one store. -/
def out0_2 (x0 : Vec F S1000x262 .f32) (x1 : Vec F S262x512 .f32) : Vec F S1000x512 .f32 :=
  View.canon [⟨r0_2, k0_pay1 (View.ld x0 r0_0) (View.ld x1 r0_1)⟩]

/-- The store tiles the buffer, so it covers it. -/
theorem cover0_2 (p0 : Vec F S1000x512 .f32) (y : S1000x512.Idx) :
    ∃ pc ∈ ([⟨r0_2, p0⟩] : List (View.Piece (Elt F) S1000x512 .f32)), y ∈ pc.1.set :=
  View.cover_of_tiled [⟨r0_2, p0⟩] S1000x512.size (by rfl) y

/-! ## The body's triple -/

set_option maxHeartbeats 1000000 in
/-- The kernel body on whole staging memrefs, the inputs' at read contents x0, x1 and the output's at anything, runs to
    the continuation holding the inputs' as they were and the output's at out0_2 of the inputs'. -/
theorem sound_kernel0 (c : Dev nD) (E : Set ℕ) (i : grid0.Coords)
    (arg0 : Memref sig .tc .vmem S1000x262 .f32) (harg0 : arg0.IsWhole)
    (arg1 : Memref sig .tc .vmem S262x512 .f32) (harg1 : arg1.IsWhole)
    (arg2 : Memref sig .tc .vmem S1000x512 .f32) (harg2 : arg2.IsWhole)
    (x0 : Vec F S1000x262 .f32) (x1 : Vec F S262x512 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body at point t each
    input's buffer at its block and the output's at out0_2 of the input blocks; the class's invariant; nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so sound_kernel0 applies; the invariant and
    the core's owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Mat10.lean ====
/- pipeline 10 of @main (the second layer's dense product x · W2, fifty row blocks of 1000): the region half of
   the frame, at the region-entry contents V, over the run's one user algebra. Three windows: the x block
   [1000,512] and the whole W2 [512,262] are read, the output block [1000,262] is stored whole. -/
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses -/

abbrev r10_0 : Rect S1000x512 := Rect.unit (s := S1000x512) ![0, 0] S1000x512.size inb_S1000x512_S1000x512_0_0
abbrev r10_1 : Rect S512x262 := Rect.unit (s := S512x262) ![0, 0] S512x262.size inb_S512x262_S512x262_0_0
abbrev r10_2 : Rect S1000x262 := Rect.unit (s := S1000x262) ![0, 0] S1000x262.size inb_S1000x262_S1000x262_0_0

/-! ## What the body leaves in the output window's buffer -/

/-- Window 2's staging buffer after the body, from the input windows' blocks: its one store. -/
def out10_2 (x0 : Vec F S1000x512 .f32) (x1 : Vec F S512x262 .f32) : Vec F S1000x262 .f32 :=
  View.canon [⟨r10_2, k10_pay1 (View.ld x0 r10_0) (View.ld x1 r10_1)⟩]

/-- The store tiles the buffer, so it covers it. -/
theorem cover10_2 (p0 : Vec F S1000x262 .f32) (y : S1000x262.Idx) :
    ∃ pc ∈ ([⟨r10_2, p0⟩] : List (View.Piece (Elt F) S1000x262 .f32)), y ∈ pc.1.set :=
  View.cover_of_tiled [⟨r10_2, p0⟩] S1000x262.size (by rfl) y

/-! ## The body's triple -/

set_option maxHeartbeats 1000000 in
/-- The kernel body on whole staging memrefs, the inputs' at read contents x0, x1 and the output's at anything, runs to
    the continuation holding the inputs' as they were and the output's at out10_2 of the inputs'. -/
theorem sound_kernel10 (c : Dev nD) (E : Set ℕ) (i : grid10.Coords)
    (arg0 : Memref sig .tc .vmem S1000x512 .f32) (harg0 : arg0.IsWhole)
    (arg1 : Memref sig .tc .vmem S512x262 .f32) (harg1 : arg1.IsWhole)
    (arg2 : Memref sig .tc .vmem S1000x262 .f32) (harg2 : arg2.IsWhole)
    (x0 : Vec F S1000x512 .f32) (x1 : Vec F S512x262 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out10_2 x0 x1)) -∗ K ⟨⟩))
      ⊢ wp frame (wpE (defs₀ (F := F)) Variants.none c none) E (cc10__matmul_kernel i arg0 harg0 arg1 harg1 arg2 harg2) K := by
  simp only [cc10__matmul_kernel_eq_skeleton]; unfold cc10__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of pipeline 10 on core c: the arrays as the region finds them; after the body at point t each
    input's buffer at its block and the output's at out10_2 of the input blocks; the class's invariant; nothing owed;
    full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so sound_kernel10 applies; the invariant and
    the core's owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.Bits.Tables.lean ====
/-
  The nine row tables of the gather calls as pure functions of the launch memory, and that every word of
  every table is below 50000. The row vector is row 0 of the edge-index table (400000 words) followed by the
  self-loop rows 0, 1, …, 49999; table k is its words [50000 k, 50000 (k + 1)). Under the precondition the first
  400000 words are below 50000; the last 50000 are their own positions. A word below 50000 names a row of the
  [50000, D] operand: the row block it names fits.
-/
import proofs.«414392_j7919919694132_2_alg».proof.Defs
import proofs.«414392_j7919919694132_2_alg».proof.Proof.Gen.Kernel.Launch
import proofs.«414392_j7919919694132_2_alg».proof.Proof.PreFacts

noncomputable section

namespace Cert.Kernel.Hand

open Cert.Kernel Cert.Kernel.Gen
open Cert.Kernel.Facts
open Idealize.ShloMosaic Idealize.ShloMosaic.TcCoe Idealize.SL.Sem

variable {F : FTy → Type} [FloatOps F]
variable (m : (ℓ : Loc nD τ sig) → Buf (Elt F) ℓ)

/-- The edge-index table of device c. -/
abbrev edgeIdx (c : Dev nD) : IVec S2x400000 32 := m ((c : Thread nD τ).loc main_arg1)

/-- The row vector: row 0 of the edge-index table, then the self-loop rows 0 … 49999. -/
def rowVec (c : Dev nD) : IVec S450000 32 :=
  concatenate S450000 0
    [⟨S400000, shapeCast S400000 (extractStridedSlice S1x400000 ![0, 0] (edgeIdx m c) slices_S2x400000_S1x400000_0_0)
        shapeCasts_S1x400000_S400000⟩,
     ⟨S50000, iotaInDim S50000 32 0⟩]
    concatenates_S400000_S50000_S450000_d0

/-- Table k: words [50000 k, 50000 (k + 1)) of the row vector. -/
def tbl0 (c : Dev nD) : IVec S50000 32 := extractStridedSlice S50000 ![0] (rowVec m c) slices_S450000_S50000_0
def tbl1 (c : Dev nD) : IVec S50000 32 := extractStridedSlice S50000 ![50000] (rowVec m c) slices_S450000_S50000_50000
def tbl2 (c : Dev nD) : IVec S50000 32 := extractStridedSlice S50000 ![100000] (rowVec m c) slices_S450000_S50000_100000
def tbl3 (c : Dev nD) : IVec S50000 32 := extractStridedSlice S50000 ![150000] (rowVec m c) slices_S450000_S50000_150000
def tbl4 (c : Dev nD) : IVec S50000 32 := extractStridedSlice S50000 ![200000] (rowVec m c) slices_S450000_S50000_200000
def tbl5 (c : Dev nD) : IVec S50000 32 := extractStridedSlice S50000 ![250000] (rowVec m c) slices_S450000_S50000_250000
def tbl6 (c : Dev nD) : IVec S50000 32 := extractStridedSlice S50000 ![300000] (rowVec m c) slices_S450000_S50000_300000
def tbl7 (c : Dev nD) : IVec S50000 32 := extractStridedSlice S50000 ![350000] (rowVec m c) slices_S450000_S50000_350000
def tbl8 (c : Dev nD) : IVec S50000 32 := extractStridedSlice S50000 ![400000] (rowVec m c) slices_S450000_S50000_400000

/-- Every word of the row vector is below 50000: the first 400000 by the precondition, the others are their positions. -/
theorem rowVec_lt (c : Dev nD)
    (hpre : Cert.Pre_finite_inputs.fn (F := F) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1)
    (e : Fin 450000) : (rowVec m c (ValueIdx.ix1 e)).toNat < 50000 := by
  unfold rowVec
  by_cases he : e.val < 400000
  · rw [concatenate_pair_apply_left (t := S450000) (s₁ := S400000) (s₂ := S50000) (0 : Fin S450000.rank) _ _ _ (ValueIdx.ix1 e) rfl (ValueIdx.ix1 (⟨e.val, he⟩ : Fin 400000))
      (fun b => match b with | ⟨0, _⟩ => rfl)]
    exact Cert.Hand.PreFacts.rowOf_lt _ _ _ _ _ _ _ hpre ⟨e.val, he⟩
  · have h5 : e.val - 400000 < 50000 := by have := e.isLt; omega
    rw [concatenate_pair_apply_right (t := S450000) (s₁ := S400000) (s₂ := S50000) (0 : Fin S450000.rank) _ _ _ (ValueIdx.ix1 e) rfl rfl
      (ValueIdx.ix1 (⟨e.val - 400000, h5⟩ : Fin 50000))
      (fun b hb => absurd (Fin.ext (by have hb1 : b.val < 1 := b.isLt; show b.val = 0; omega)) hb)
      (by show e.val - 400000 + 400000 = e.val; omega)]
    show (BitVec.ofNat 32 (e.val - 400000)).toNat < 50000
    rw [BitVec.toNat_ofNat]
    exact Nat.lt_of_le_of_lt (Nat.mod_le _ _) h5

/-- A slice of a vector of words below 50000 has its words below 50000. -/
theorem slice_lt (x : IVec S450000 32) (hx : ∀ e : Fin 450000, (x (ValueIdx.ix1 e)).toNat < 50000) (off : Nat)
    (h : S450000.Slices ![off] S50000) (j : Fin 50000) :
    (extractStridedSlice S50000 ![off] x h (ValueIdx.ix1 j)).toNat < 50000 := by
  unfold extractStridedSlice
  generalize (fun a : Fin S450000.rank => (⟨![off] a + (ValueIdx.ix1 j (a.cast h.1.symm)).val, _⟩ : Fin (S450000.size a))) = k
  rw [ValueIdx.eq_ix1 k]
  exact hx _

section Tables
variable (c : Dev nD)
  (hpre : Cert.Pre_finite_inputs.fn (F := F) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = fun _ => 1#1)
include hpre

theorem tbl0_lt (j : Fin 50000) : (tbl0 m c (ValueIdx.ix1 j)).toNat < 50000 := slice_lt _ (rowVec_lt m c hpre) _ _ j
theorem tbl1_lt (j : Fin 50000) : (tbl1 m c (ValueIdx.ix1 j)).toNat < 50000 := slice_lt _ (rowVec_lt m c hpre) _ _ j
theorem tbl2_lt (j : Fin 50000) : (tbl2 m c (ValueIdx.ix1 j)).toNat < 50000 := slice_lt _ (rowVec_lt m c hpre) _ _ j
theorem tbl3_lt (j : Fin 50000) : (tbl3 m c (ValueIdx.ix1 j)).toNat < 50000 := slice_lt _ (rowVec_lt m c hpre) _ _ j
theorem tbl4_lt (j : Fin 50000) : (tbl4 m c (ValueIdx.ix1 j)).toNat < 50000 := slice_lt _ (rowVec_lt m c hpre) _ _ j
theorem tbl5_lt (j : Fin 50000) : (tbl5 m c (ValueIdx.ix1 j)).toNat < 50000 := slice_lt _ (rowVec_lt m c hpre) _ _ j
theorem tbl6_lt (j : Fin 50000) : (tbl6 m c (ValueIdx.ix1 j)).toNat < 50000 := slice_lt _ (rowVec_lt m c hpre) _ _ j
theorem tbl7_lt (j : Fin 50000) : (tbl7 m c (ValueIdx.ix1 j)).toNat < 50000 := slice_lt _ (rowVec_lt m c hpre) _ _ j
theorem tbl8_lt (j : Fin 50000) : (tbl8 m c (ValueIdx.ix1 j)).toNat < 50000 := slice_lt _ (rowVec_lt m c hpre) _ _ j

end Tables

/-! ## The side conditions the gather bodies assume of a loaded word -/

/-- A word below 50000 names a row of the [50000, 512] operand: the [1, 512] block at that row fits. -/
theorem inb512 (w : BitVec 32) (hw : w.toNat < 50000) :
    ∀ a, (![w.toNat, 0] : Fin 2 → Nat) a + S1x512.size a ≤ S50000x512.size a := by
  intro a
  fin_cases a <;> simp [S1x512, S50000x512] <;> omega

/-- A word below 50000 names a row of the [50000, 262] operand: the [1, 262] block at that row fits. -/
theorem inb262 (w : BitVec 32) (hw : w.toNat < 50000) :
    ∀ a, (![w.toNat, 0] : Fin 2 → Nat) a + S1x262.size a ≤ S50000x262.size a := by
  intro a
  fin_cases a <;> simp [S1x262, S50000x262] <;> omega

theorem k1_chk1_of_lt (w : BitVec 32) (hw : w.toNat < 50000) : k1_chk1 w := ⟨inb512 w hw, inb512 w hw⟩
theorem k1_chk2_of_lt (w : BitVec 32) (hw : w.toNat < 50000) : k1_chk2 w := ⟨inb512 w hw, inb512 w hw⟩
theorem k1_chk3_of_lt (w : BitVec 32) (hw : w.toNat < 50000) : k1_chk3 w := ⟨inb512 w hw, inb512 w hw⟩
theorem k1_chk4_of_lt (w : BitVec 32) (hw : w.toNat < 50000) : k1_chk4 w := ⟨inb512 w hw, inb512 w hw⟩
theorem k1_chk5_of_lt (w : BitVec 32) (hw : w.toNat < 50000) : k1_chk5 w := ⟨inb512 w hw, inb512 w hw⟩
theorem k1_chk6_of_lt (w : BitVec 32) (hw : w.toNat < 50000) : k1_chk6 w := ⟨inb512 w hw, inb512 w hw⟩
theorem k1_chk7_of_lt (w : BitVec 32) (hw : w.toNat < 50000) : k1_chk7 w := ⟨inb512 w hw, inb512 w hw⟩
theorem k1_chk8_of_lt (w : BitVec 32) (hw : w.toNat < 50000) : k1_chk8 w := ⟨inb512 w hw, inb512 w hw⟩
theorem k1_chk9_of_lt (w : BitVec 32) (hw : w.toNat < 50000) : k1_chk9 w := ⟨inb512 w hw, inb512 w hw⟩
theorem k1_chk10_of_lt (w : BitVec 32) (hw : w.toNat < 50000) : k1_chk10 w := ⟨inb512 w hw, inb512 w hw⟩
theorem k1_chk11_of_lt (w : BitVec 32) (hw : w.toNat < 50000) : k1_chk11 w := ⟨inb512 w hw, inb512 w hw⟩
theorem k1_chk12_of_lt (w : BitVec 32) (hw : w.toNat < 50000) : k1_chk12 w := ⟨inb512 w hw, inb512 w hw⟩
theorem k1_chk13_of_lt (w : BitVec 32) (hw : w.toNat < 50000) : k1_chk13 w := ⟨inb512 w hw, inb512 w hw⟩
theorem k1_chk14_of_lt (w : BitVec 32) (hw : w.toNat < 50000) : k1_chk14 w := ⟨inb512 w hw, inb512 w hw⟩
theorem k1_chk15_of_lt (w : BitVec 32) (hw : w.toNat < 50000) : k1_chk15 w := ⟨inb512 w hw, inb512 w hw⟩
theorem k1_chk16_of_lt (w : BitVec 32) (hw : w.toNat < 50000) : k1_chk16 w := inb512 w hw
theorem k2_chk1_of_lt (w : BitVec 32) (hw : w.toNat < 50000) : k2_chk1 w := ⟨inb512 w hw, inb512 w hw⟩
theorem k2_chk2_of_lt (w : BitVec 32) (hw : w.toNat < 50000) : k2_chk2 w := ⟨inb512 w hw, inb512 w hw⟩
theorem k2_chk3_of_lt (w : BitVec 32) (hw : w.toNat < 50000) : k2_chk3 w := ⟨inb512 w hw, inb512 w hw⟩
theorem k2_chk4_of_lt (w : BitVec 32) (hw : w.toNat < 50000) : k2_chk4 w := ⟨inb512 w hw, inb512 w hw⟩
theorem k2_chk5_of_lt (w : BitVec 32) (hw : w.toNat < 50000) : k2_chk5 w := ⟨inb512 w hw, inb512 w hw⟩
theorem k2_chk6_of_lt (w : BitVec 32) (hw : w.toNat < 50000) : k2_chk6 w := ⟨inb512 w hw, inb512 w hw⟩
theorem k2_chk7_of_lt (w : BitVec 32) (hw : w.toNat < 50000) : k2_chk7 w := ⟨inb512 w hw, inb512 w hw⟩
theorem k2_chk8_of_lt (w : BitVec 32) (hw : w.toNat < 50000) : k2_chk8 w := ⟨inb512 w hw, inb512 w hw⟩
theorem k2_chk9_of_lt (w : BitVec 32) (hw : w.toNat < 50000) : k2_chk9 w := ⟨inb512 w hw, inb512 w hw⟩
theorem k2_chk10_of_lt (w : BitVec 32) (hw : w.toNat < 50000) : k2_chk10 w := ⟨inb512 w hw, inb512 w hw⟩
theorem k2_chk11_of_lt (w : BitVec 32) (hw : w.toNat < 50000) : k2_chk11 w := ⟨inb512 w hw, inb512 w hw⟩
theorem k2_chk12_of_lt (w : BitVec 32) (hw : w.toNat < 50000) : k2_chk12 w := ⟨inb512 w hw, inb512 w hw⟩
theorem k2_chk13_of_lt (w : BitVec 32) (hw : w.toNat < 50000) : k2_chk13 w := ⟨inb512 w hw, inb512 w hw⟩
theorem k2_chk14_of_lt (w : BitVec 32) (hw : w.toNat < 50000) : k2_chk14 w := ⟨inb512 w hw, inb512 w hw⟩
theorem k2_chk15_of_lt (w : BitVec 32) (hw : w.toNat < 50000) : k2_chk15 w := ⟨inb512 w hw, inb512 w hw⟩
theorem k2_chk16_of_lt (w : BitVec 32) (hw : w.toNat < 50000) : k2_chk16 w := inb512 w hw
theorem k3_chk1_of_lt (w : BitVec 32) (hw : w.toNat < 50000) : k3_chk1 w := ⟨inb512 w hw, inb512 w hw⟩
theorem k3_chk2_of_lt (w : BitVec 32) (hw : w.toNat < 50000) : k3_chk2 w := ⟨inb512 w hw, inb512 w hw⟩
theorem k3_chk3_of_lt (w : BitVec 32) (hw : w.toNat < 50000) : k3_chk3 w := ⟨inb512 w hw, inb512 w hw⟩
theorem k3_chk4_of_lt (w : BitVec 32) (hw : w.toNat < 50000) : k3_chk4 w := ⟨inb512 w hw, inb512 w hw⟩
theorem k3_chk5_of_lt (w : BitVec 32) (hw : w.toNat < 50000) : k3_chk5 w := ⟨inb512 w hw, inb512 w hw⟩
theorem k3_chk6_of_lt (w : BitVec 32) (hw : w.toNat < 50000) : k3_chk6 w := ⟨inb512 w hw, inb512 w hw⟩
theorem k3_chk7_of_lt (w : BitVec 32) (hw : w.toNat < 50000) : k3_chk7 w := ⟨inb512 w hw, inb512 w hw⟩
theorem k3_chk8_of_lt (w : BitVec 32) (hw : w.toNat < 50000) : k3_chk8 w := ⟨inb512 w hw, inb512 w hw⟩
theorem k3_chk9_of_lt (w : BitVec 32) (hw : w.toNat < 50000) : k3_chk9 w := ⟨inb512 w hw, inb512 w hw⟩
theorem k3_chk10_of_lt (w : BitVec 32) (hw : w.toNat < 50000) : k3_chk10 w := ⟨inb512 w hw, inb512 w hw⟩
theorem k3_chk11_of_lt (w : BitVec 32) (hw : w.toNat < 50000) : k3_chk11 w := ⟨inb512 w hw, inb512 w hw⟩
theorem k3_chk12_of_lt (w : BitVec 32) (hw : w.toNat < 50000) : k3_chk12 w := ⟨inb512 w hw, inb512 w hw⟩
theorem k3_chk13_of_lt (w : BitVec 32) (hw : w.toNat < 50000) : k3_chk13 w := ⟨inb512 w hw, inb512 w hw⟩
theorem k3_chk14_of_lt (w : BitVec 32) (hw : w.toNat < 50000) : k3_chk14 w := ⟨inb512 w hw, inb512 w hw⟩
theorem k3_chk15_of_lt (w : BitVec 32) (hw : w.toNat < 50000) : k3_chk15 w := ⟨inb512 w hw, inb512 w hw⟩
theorem k3_chk16_of_lt (w : BitVec 32) (hw : w.toNat < 50000) : k3_chk16 w := inb512 w hw
theorem k4_chk1_of_lt (w : BitVec 32) (hw : w.toNat < 50000) : k4_chk1 w := ⟨inb512 w hw, inb512 w hw⟩
theorem k4_chk2_of_lt (w : BitVec 32) (hw : w.toNat < 50000) : k4_chk2 w := ⟨inb512 w hw, inb512 w hw⟩
theorem k4_chk3_of_lt (w : BitVec 32) (hw : w.toNat < 50000) : k4_chk3 w := ⟨inb512 w hw, inb512 w hw⟩
theorem k4_chk4_of_lt (w : BitVec 32) (hw : w.toNat < 50000) : k4_chk4 w := ⟨inb512 w hw, inb512 w hw⟩
theorem k4_chk5_of_lt (w : BitVec 32) (hw : w.toNat < 50000) : k4_chk5 w := ⟨inb512 w hw, inb512 w hw⟩
theorem k4_chk6_of_lt (w : BitVec 32) (hw : w.toNat < 50000) : k4_chk6 w := ⟨inb512 w hw, inb512 w hw⟩
theorem k4_chk7_of_lt (w : BitVec 32) (hw : w.toNat < 50000) : k4_chk7 w := ⟨inb512 w hw, inb512 w hw⟩
theorem k4_chk8_of_lt (w : BitVec 32) (hw : w.toNat < 50000) : k4_chk8 w := ⟨inb512 w hw, inb512 w hw⟩
theorem k4_chk9_of_lt (w : BitVec 32) (hw : w.toNat < 50000) : k4_chk9 w := ⟨inb512 w hw, inb512 w hw⟩
theorem k4_chk10_of_lt (w : BitVec 32) (hw : w.toNat < 50000) : k4_chk10 w := ⟨inb512 w hw, inb512 w hw⟩
theorem k4_chk11_of_lt (w : BitVec 32) (hw : w.toNat < 50000) : k4_chk11 w := ⟨inb512 w hw, inb512 w hw⟩
theorem k4_chk12_of_lt (w : BitVec 32) (hw : w.toNat < 50000) : k4_chk12 w := ⟨inb512 w hw, inb512 w hw⟩
theorem k4_chk13_of_lt (w : BitVec 32) (hw : w.toNat < 50000) : k4_chk13 w := ⟨inb512 w hw, inb512 w hw⟩
theorem k4_chk14_of_lt (w : BitVec 32) (hw : w.toNat < 50000) : k4_chk14 w := ⟨inb512 w hw, inb512 w hw⟩
theorem k4_chk15_of_lt (w : BitVec 32) (hw : w.toNat < 50000) : k4_chk15 w := ⟨inb512 w hw, inb512 w hw⟩
theorem k4_chk16_of_lt (w : BitVec 32) (hw : w.toNat < 50000) : k4_chk16 w := inb512 w hw
theorem k5_chk1_of_lt (w : BitVec 32) (hw : w.toNat < 50000) : k5_chk1 w := ⟨inb512 w hw, inb512 w hw⟩
theorem k5_chk2_of_lt (w : BitVec 32) (hw : w.toNat < 50000) : k5_chk2 w := ⟨inb512 w hw, inb512 w hw⟩
theorem k5_chk3_of_lt (w : BitVec 32) (hw : w.toNat < 50000) : k5_chk3 w := ⟨inb512 w hw, inb512 w hw⟩
theorem k5_chk4_of_lt (w : BitVec 32) (hw : w.toNat < 50000) : k5_chk4 w := ⟨inb512 w hw, inb512 w hw⟩
theorem k5_chk5_of_lt (w : BitVec 32) (hw : w.toNat < 50000) : k5_chk5 w := ⟨inb512 w hw, inb512 w hw⟩
theorem k5_chk6_of_lt (w : BitVec 32) (hw : w.toNat < 50000) : k5_chk6 w := ⟨inb512 w hw, inb512 w hw⟩
theorem k5_chk7_of_lt (w : BitVec 32) (hw : w.toNat < 50000) : k5_chk7 w := ⟨inb512 w hw, inb512 w hw⟩
theorem k5_chk8_of_lt (w : BitVec 32) (hw : w.toNat < 50000) : k5_chk8 w := ⟨inb512 w hw, inb512 w hw⟩
theorem k5_chk9_of_lt (w : BitVec 32) (hw : w.toNat < 50000) : k5_chk9 w := ⟨inb512 w hw, inb512 w hw⟩
theorem k5_chk10_of_lt (w : BitVec 32) (hw : w.toNat < 50000) : k5_chk10 w := ⟨inb512 w hw, inb512 w hw⟩
theorem k5_chk11_of_lt (w : BitVec 32) (hw : w.toNat < 50000) : k5_chk11 w := ⟨inb512 w hw, inb512 w hw⟩
theorem k5_chk12_of_lt (w : BitVec 32) (hw : w.toNat < 50000) : k5_chk12 w := ⟨inb512 w hw, inb512 w hw⟩
theorem k5_chk13_of_lt (w : BitVec 32) (hw : w.toNat < 50000) : k5_chk13 w := ⟨inb512 w hw, inb512 w hw⟩
theorem k5_chk14_of_lt (w : BitVec 32) (hw : w.toNat < 50000) : k5_chk14 w := ⟨inb512 w hw, inb512 w hw⟩
theorem k5_chk15_of_lt (w : BitVec 32) (hw : w.toNat < 50000) : k5_chk15 w := ⟨inb512 w hw, inb512 w hw⟩
theorem k5_chk16_of_lt (w : BitVec 32) (hw : w.toNat < 50000) : k5_chk16 w := inb512 w hw
theorem k6_chk1_of_lt (w : BitVec 32) (hw : w.toNat < 50000) : k6_chk1 w := ⟨inb512 w hw, inb512 w hw⟩
theorem k6_chk2_of_lt (w : BitVec 32) (hw : w.toNat < 50000) : k6_chk2 w := ⟨inb512 w hw, inb512 w hw⟩
theorem k6_chk3_of_lt (w : BitVec 32) (hw : w.toNat < 50000) : k6_chk3 w := ⟨inb512 w hw, inb512 w hw⟩
theorem k6_chk4_of_lt (w : BitVec 32) (hw : w.toNat < 50000) : k6_chk4 w := ⟨inb512 w hw, inb512 w hw⟩
theorem k6_chk5_of_lt (w : BitVec 32) (hw : w.toNat < 50000) : k6_chk5 w := ⟨inb512 w hw, inb512 w hw⟩
theorem k6_chk6_of_lt (w : BitVec 32) (hw : w.toNat < 50000) : k6_chk6 w := ⟨inb512 w hw, inb512 w hw⟩
theorem k6_chk7_of_lt (w : BitVec 32) (hw : w.toNat < 50000) : k6_chk7 w := ⟨inb512 w hw, inb512 w hw⟩
theorem k6_chk8_of_lt (w : BitVec 32) (hw : w.toNat < 50000) : k6_chk8 w := ⟨inb512 w hw, inb512 w hw⟩
theorem k6_chk9_of_lt (w : BitVec 32) (hw : w.toNat < 50000) : k6_chk9 w := ⟨inb512 w hw, inb512 w hw⟩
theorem k6_chk10_of_lt (w : BitVec 32) (hw : w.toNat < 50000) : k6_chk10 w := ⟨inb512 w hw, inb512 w hw⟩
theorem k6_chk11_of_lt (w : BitVec 32) (hw : w.toNat < 50000) : k6_chk11 w := ⟨inb512 w hw, inb512 w hw⟩
theorem k6_chk12_of_lt (w : BitVec 32) (hw : w.toNat < 50000) : k6_chk12 w := ⟨inb512 w hw, inb512 w hw⟩
theorem k6_chk13_of_lt (w : BitVec 32) (hw : w.toNat < 50000) : k6_chk13 w := ⟨inb512 w hw, inb512 w hw⟩
theorem k6_chk14_of_lt (w : BitVec 32) (hw : w.toNat < 50000) : k6_chk14 w := ⟨inb512 w hw, inb512 w hw⟩
theorem k6_chk15_of_lt (w : BitVec 32) (hw : w.toNat < 50000) : k6_chk15 w := ⟨inb512 w hw, inb512 w hw⟩
theorem k6_chk16_of_lt (w : BitVec 32) (hw : w.toNat < 50000) : k6_chk16 w := inb512 w hw
theorem k7_chk1_of_lt (w : BitVec 32) (hw : w.toNat < 50000) : k7_chk1 w := ⟨inb512 w hw, inb512 w hw⟩
theorem k7_chk2_of_lt (w : BitVec 32) (hw : w.toNat < 50000) : k7_chk2 w := ⟨inb512 w hw, inb512 w hw⟩
theorem k7_chk3_of_lt (w : BitVec 32) (hw : w.toNat < 50000) : k7_chk3 w := ⟨inb512 w hw, inb512 w hw⟩
theorem k7_chk4_of_lt (w : BitVec 32) (hw : w.toNat < 50000) : k7_chk4 w := ⟨inb512 w hw, inb512 w hw⟩
theorem k7_chk5_of_lt (w : BitVec 32) (hw : w.toNat < 50000) : k7_chk5 w := ⟨inb512 w hw, inb512 w hw⟩
theorem k7_chk6_of_lt (w : BitVec 32) (hw : w.toNat < 50000) : k7_chk6 w := ⟨inb512 w hw, inb512 w hw⟩
theorem k7_chk7_of_lt (w : BitVec 32) (hw : w.toNat < 50000) : k7_chk7 w := ⟨inb512 w hw, inb512 w hw⟩
theorem k7_chk8_of_lt (w : BitVec 32) (hw : w.toNat < 50000) : k7_chk8 w := ⟨inb512 w hw, inb512 w hw⟩
theorem k7_chk9_of_lt (w : BitVec 32) (hw : w.toNat < 50000) : k7_chk9 w := ⟨inb512 w hw, inb512 w hw⟩
theorem k7_chk10_of_lt (w : BitVec 32) (hw : w.toNat < 50000) : k7_chk10 w := ⟨inb512 w hw, inb512 w hw⟩
theorem k7_chk11_of_lt (w : BitVec 32) (hw : w.toNat < 50000) : k7_chk11 w := ⟨inb512 w hw, inb512 w hw⟩
theorem k7_chk12_of_lt (w : BitVec 32) (hw : w.toNat < 50000) : k7_chk12 w := ⟨inb512 w hw, inb512 w hw⟩
theorem k7_chk13_of_lt (w : BitVec 32) (hw : w.toNat < 50000) : k7_chk13 w := ⟨inb512 w hw, inb512 w hw⟩
theorem k7_chk14_of_lt (w : BitVec 32) (hw : w.toNat < 50000) : k7_chk14 w := ⟨inb512 w hw, inb512 w hw⟩
theorem k7_chk15_of_lt (w : BitVec 32) (hw : w.toNat < 50000) : k7_chk15 w := ⟨inb512 w hw, inb512 w hw⟩
theorem k7_chk16_of_lt (w : BitVec 32) (hw : w.toNat < 50000) : k7_chk16 w := inb512 w hw
theorem k8_chk1_of_lt (w : BitVec 32) (hw : w.toNat < 50000) : k8_chk1 w := ⟨inb512 w hw, inb512 w hw⟩
theorem k8_chk2_of_lt (w : BitVec 32) (hw : w.toNat < 50000) : k8_chk2 w := ⟨inb512 w hw, inb512 w hw⟩
theorem k8_chk3_of_lt (w : BitVec 32) (hw : w.toNat < 50000) : k8_chk3 w := ⟨inb512 w hw, inb512 w hw⟩
theorem k8_chk4_of_lt (w : BitVec 32) (hw : w.toNat < 50000) : k8_chk4 w := ⟨inb512 w hw, inb512 w hw⟩
theorem k8_chk5_of_lt (w : BitVec 32) (hw : w.toNat < 50000) : k8_chk5 w := ⟨inb512 w hw, inb512 w hw⟩
theorem k8_chk6_of_lt (w : BitVec 32) (hw : w.toNat < 50000) : k8_chk6 w := ⟨inb512 w hw, inb512 w hw⟩
theorem k8_chk7_of_lt (w : BitVec 32) (hw : w.toNat < 50000) : k8_chk7 w := ⟨inb512 w hw, inb512 w hw⟩
theorem k8_chk8_of_lt (w : BitVec 32) (hw : w.toNat < 50000) : k8_chk8 w := ⟨inb512 w hw, inb512 w hw⟩
theorem k8_chk9_of_lt (w : BitVec 32) (hw : w.toNat < 50000) : k8_chk9 w := ⟨inb512 w hw, inb512 w hw⟩
theorem k8_chk10_of_lt (w : BitVec 32) (hw : w.toNat < 50000) : k8_chk10 w := ⟨inb512 w hw, inb512 w hw⟩
theorem k8_chk11_of_lt (w : BitVec 32) (hw : w.toNat < 50000) : k8_chk11 w := ⟨inb512 w hw, inb512 w hw⟩
theorem k8_chk12_of_lt (w : BitVec 32) (hw : w.toNat < 50000) : k8_chk12 w := ⟨inb512 w hw, inb512 w hw⟩
theorem k8_chk13_of_lt (w : BitVec 32) (hw : w.toNat < 50000) : k8_chk13 w := ⟨inb512 w hw, inb512 w hw⟩
theorem k8_chk14_of_lt (w : BitVec 32) (hw : w.toNat < 50000) : k8_chk14 w := ⟨inb512 w hw, inb512 w hw⟩
theorem k8_chk15_of_lt (w : BitVec 32) (hw : w.toNat < 50000) : k8_chk15 w := ⟨inb512 w hw, inb512 w hw⟩
theorem k8_chk16_of_lt (w : BitVec 32) (hw : w.toNat < 50000) : k8_chk16 w := inb512 w hw
theorem k9_chk1_of_lt (w : BitVec 32) (hw : w.toNat < 50000) : k9_chk1 w := ⟨inb512 w hw, inb512 w hw⟩
theorem k9_chk2_of_lt (w : BitVec 32) (hw : w.toNat < 50000) : k9_chk2 w := ⟨inb512 w hw, inb512 w hw⟩
theorem k9_chk3_of_lt (w : BitVec 32) (hw : w.toNat < 50000) : k9_chk3 w := ⟨inb512 w hw, inb512 w hw⟩
theorem k9_chk4_of_lt (w : BitVec 32) (hw : w.toNat < 50000) : k9_chk4 w := ⟨inb512 w hw, inb512 w hw⟩
theorem k9_chk5_of_lt (w : BitVec 32) (hw : w.toNat < 50000) : k9_chk5 w := ⟨inb512 w hw, inb512 w hw⟩
theorem k9_chk6_of_lt (w : BitVec 32) (hw : w.toNat < 50000) : k9_chk6 w := ⟨inb512 w hw, inb512 w hw⟩
theorem k9_chk7_of_lt (w : BitVec 32) (hw : w.toNat < 50000) : k9_chk7 w := ⟨inb512 w hw, inb512 w hw⟩
theorem k9_chk8_of_lt (w : BitVec 32) (hw : w.toNat < 50000) : k9_chk8 w := ⟨inb512 w hw, inb512 w hw⟩
theorem k9_chk9_of_lt (w : BitVec 32) (hw : w.toNat < 50000) : k9_chk9 w := ⟨inb512 w hw, inb512 w hw⟩
theorem k9_chk10_of_lt (w : BitVec 32) (hw : w.toNat < 50000) : k9_chk10 w := ⟨inb512 w hw, inb512 w hw⟩
theorem k9_chk11_of_lt (w : BitVec 32) (hw : w.toNat < 50000) : k9_chk11 w := ⟨inb512 w hw, inb512 w hw⟩
theorem k9_chk12_of_lt (w : BitVec 32) (hw : w.toNat < 50000) : k9_chk12 w := ⟨inb512 w hw, inb512 w hw⟩
theorem k9_chk13_of_lt (w : BitVec 32) (hw : w.toNat < 50000) : k9_chk13 w := ⟨inb512 w hw, inb512 w hw⟩
theorem k9_chk14_of_lt (w : BitVec 32) (hw : w.toNat < 50000) : k9_chk14 w := ⟨inb512 w hw, inb512 w hw⟩
theorem k9_chk15_of_lt (w : BitVec 32) (hw : w.toNat < 50000) : k9_chk15 w := ⟨inb512 w hw, inb512 w hw⟩
theorem k9_chk16_of_lt (w : BitVec 32) (hw : w.toNat < 50000) : k9_chk16 w := inb512 w hw
theorem k11_chk1_of_lt (w : BitVec 32) (hw : w.toNat < 50000) : k11_chk1 w := ⟨inb262 w hw, inb262 w hw⟩
theorem k11_chk2_of_lt (w : BitVec 32) (hw : w.toNat < 50000) : k11_chk2 w := ⟨inb262 w hw, inb262 w hw⟩
theorem k11_chk3_of_lt (w : BitVec 32) (hw : w.toNat < 50000) : k11_chk3 w := ⟨inb262 w hw, inb262 w hw⟩
theorem k11_chk4_of_lt (w : BitVec 32) (hw : w.toNat < 50000) : k11_chk4 w := ⟨inb262 w hw, inb262 w hw⟩
theorem k11_chk5_of_lt (w : BitVec 32) (hw : w.toNat < 50000) : k11_chk5 w := ⟨inb262 w hw, inb262 w hw⟩
theorem k11_chk6_of_lt (w : BitVec 32) (hw : w.toNat < 50000) : k11_chk6 w := ⟨inb262 w hw, inb262 w hw⟩
theorem k11_chk7_of_lt (w : BitVec 32) (hw : w.toNat < 50000) : k11_chk7 w := ⟨inb262 w hw, inb262 w hw⟩
theorem k11_chk8_of_lt (w : BitVec 32) (hw : w.toNat < 50000) : k11_chk8 w := ⟨inb262 w hw, inb262 w hw⟩
theorem k11_chk9_of_lt (w : BitVec 32) (hw : w.toNat < 50000) : k11_chk9 w := ⟨inb262 w hw, inb262 w hw⟩
theorem k11_chk10_of_lt (w : BitVec 32) (hw : w.toNat < 50000) : k11_chk10 w := ⟨inb262 w hw, inb262 w hw⟩
theorem k11_chk11_of_lt (w : BitVec 32) (hw : w.toNat < 50000) : k11_chk11 w := ⟨inb262 w hw, inb262 w hw⟩
theorem k11_chk12_of_lt (w : BitVec 32) (hw : w.toNat < 50000) : k11_chk12 w := ⟨inb262 w hw, inb262 w hw⟩
theorem k11_chk13_of_lt (w : BitVec 32) (hw : w.toNat < 50000) : k11_chk13 w := ⟨inb262 w hw, inb262 w hw⟩
theorem k11_chk14_of_lt (w : BitVec 32) (hw : w.toNat < 50000) : k11_chk14 w := ⟨inb262 w hw, inb262 w hw⟩
theorem k11_chk15_of_lt (w : BitVec 32) (hw : w.toNat < 50000) : k11_chk15 w := ⟨inb262 w hw, inb262 w hw⟩
theorem k11_chk16_of_lt (w : BitVec 32) (hw : w.toNat < 50000) : k11_chk16 w := inb262 w hw
theorem k12_chk1_of_lt (w : BitVec 32) (hw : w.toNat < 50000) : k12_chk1 w := ⟨inb262 w hw, inb262 w hw⟩
theorem k12_chk2_of_lt (w : BitVec 32) (hw : w.toNat < 50000) : k12_chk2 w := ⟨inb262 w hw, inb262 w hw⟩
theorem k12_chk3_of_lt (w : BitVec 32) (hw : w.toNat < 50000) : k12_chk3 w := ⟨inb262 w hw, inb262 w hw⟩
theorem k12_chk4_of_lt (w : BitVec 32) (hw : w.toNat < 50000) : k12_chk4 w := ⟨inb262 w hw, inb262 w hw⟩
theorem k12_chk5_of_lt (w : BitVec 32) (hw : w.toNat < 50000) : k12_chk5 w := ⟨inb262 w hw, inb262 w hw⟩
theorem k12_chk6_of_lt (w : BitVec 32) (hw : w.toNat < 50000) : k12_chk6 w := ⟨inb262 w hw, inb262 w hw⟩
theorem k12_chk7_of_lt (w : BitVec 32) (hw : w.toNat < 50000) : k12_chk7 w := ⟨inb262 w hw, inb262 w hw⟩
theorem k12_chk8_of_lt (w : BitVec 32) (hw : w.toNat < 50000) : k12_chk8 w := ⟨inb262 w hw, inb262 w hw⟩
theorem k12_chk9_of_lt (w : BitVec 32) (hw : w.toNat < 50000) : k12_chk9 w := ⟨inb262 w hw, inb262 w hw⟩
theorem k12_chk10_of_lt (w : BitVec 32) (hw : w.toNat < 50000) : k12_chk10 w := ⟨inb262 w hw, inb262 w hw⟩
theorem k12_chk11_of_lt (w : BitVec 32) (hw : w.toNat < 50000) : k12_chk11 w := ⟨inb262 w hw, inb262 w hw⟩
theorem k12_chk12_of_lt (w : BitVec 32) (hw : w.toNat < 50000) : k12_chk12 w := ⟨inb262 w hw, inb262 w hw⟩
theorem k12_chk13_of_lt (w : BitVec 32) (hw : w.toNat < 50000) : k12_chk13 w := ⟨inb262 w hw, inb262 w hw⟩
theorem k12_chk14_of_lt (w : BitVec 32) (hw : w.toNat < 50000) : k12_chk14 w := ⟨inb262 w hw, inb262 w hw⟩
theorem k12_chk15_of_lt (w : BitVec 32) (hw : w.toNat < 50000) : k12_chk15 w := ⟨inb262 w hw, inb262 w hw⟩
theorem k12_chk16_of_lt (w : BitVec 32) (hw : w.toNat < 50000) : k12_chk16 w := inb262 w hw
theorem k13_chk1_of_lt (w : BitVec 32) (hw : w.toNat < 50000) : k13_chk1 w := ⟨inb262 w hw, inb262 w hw⟩
theorem k13_chk2_of_lt (w : BitVec 32) (hw : w.toNat < 50000) : k13_chk2 w := ⟨inb262 w hw, inb262 w hw⟩
theorem k13_chk3_of_lt (w : BitVec 32) (hw : w.toNat < 50000) : k13_chk3 w := ⟨inb262 w hw, inb262 w hw⟩
theorem k13_chk4_of_lt (w : BitVec 32) (hw : w.toNat < 50000) : k13_chk4 w := ⟨inb262 w hw, inb262 w hw⟩
theorem k13_chk5_of_lt (w : BitVec 32) (hw : w.toNat < 50000) : k13_chk5 w := ⟨inb262 w hw, inb262 w hw⟩
theorem k13_chk6_of_lt (w : BitVec 32) (hw : w.toNat < 50000) : k13_chk6 w := ⟨inb262 w hw, inb262 w hw⟩
theorem k13_chk7_of_lt (w : BitVec 32) (hw : w.toNat < 50000) : k13_chk7 w := ⟨inb262 w hw, inb262 w hw⟩
theorem k13_chk8_of_lt (w : BitVec 32) (hw : w.toNat < 50000) : k13_chk8 w := ⟨inb262 w hw, inb262 w hw⟩
theorem k13_chk9_of_lt (w : BitVec 32) (hw : w.toNat < 50000) : k13_chk9 w := ⟨inb262 w hw, inb262 w hw⟩
theorem k13_chk10_of_lt (w : BitVec 32) (hw : w.toNat < 50000) : k13_chk10 w := ⟨inb262 w hw, inb262 w hw⟩
theorem k13_chk11_of_lt (w : BitVec 32) (hw : w.toNat < 50000) : k13_chk11 w := ⟨inb262 w hw, inb262 w hw⟩
theorem k13_chk12_of_lt (w : BitVec 32) (hw : w.toNat < 50000) : k13_chk12 w := ⟨inb262 w hw, inb262 w hw⟩
theorem k13_chk13_of_lt (w : BitVec 32) (hw : w.toNat < 50000) : k13_chk13 w := ⟨inb262 w hw, inb262 w hw⟩
theorem k13_chk14_of_lt (w : BitVec 32) (hw : w.toNat < 50000) : k13_chk14 w := ⟨inb262 w hw, inb262 w hw⟩
theorem k13_chk15_of_lt (w : BitVec 32) (hw : w.toNat < 50000) : k13_chk15 w := ⟨inb262 w hw, inb262 w hw⟩
theorem k13_chk16_of_lt (w : BitVec 32) (hw : w.toNat < 50000) : k13_chk16 w := inb262 w hw
theorem k14_chk1_of_lt (w : BitVec 32) (hw : w.toNat < 50000) : k14_chk1 w := ⟨inb262 w hw, inb262 w hw⟩
theorem k14_chk2_of_lt (w : BitVec 32) (hw : w.toNat < 50000) : k14_chk2 w := ⟨inb262 w hw, inb262 w hw⟩
theorem k14_chk3_of_lt (w : BitVec 32) (hw : w.toNat < 50000) : k14_chk3 w := ⟨inb262 w hw, inb262 w hw⟩
theorem k14_chk4_of_lt (w : BitVec 32) (hw : w.toNat < 50000) : k14_chk4 w := ⟨inb262 w hw, inb262 w hw⟩
theorem k14_chk5_of_lt (w : BitVec 32) (hw : w.toNat < 50000) : k14_chk5 w := ⟨inb262 w hw, inb262 w hw⟩
theorem k14_chk6_of_lt (w : BitVec 32) (hw : w.toNat < 50000) : k14_chk6 w := ⟨inb262 w hw, inb262 w hw⟩
theorem k14_chk7_of_lt (w : BitVec 32) (hw : w.toNat < 50000) : k14_chk7 w := ⟨inb262 w hw, inb262 w hw⟩
theorem k14_chk8_of_lt (w : BitVec 32) (hw : w.toNat < 50000) : k14_chk8 w := ⟨inb262 w hw, inb262 w hw⟩
theorem k14_chk9_of_lt (w : BitVec 32) (hw : w.toNat < 50000) : k14_chk9 w := ⟨inb262 w hw, inb262 w hw⟩
theorem k14_chk10_of_lt (w : BitVec 32) (hw : w.toNat < 50000) : k14_chk10 w := ⟨inb262 w hw, inb262 w hw⟩
theorem k14_chk11_of_lt (w : BitVec 32) (hw : w.toNat < 50000) : k14_chk11 w := ⟨inb262 w hw, inb262 w hw⟩
theorem k14_chk12_of_lt (w : BitVec 32) (hw : w.toNat < 50000) : k14_chk12 w := ⟨inb262 w hw, inb262 w hw⟩
theorem k14_chk13_of_lt (w : BitVec 32) (hw : w.toNat < 50000) : k14_chk13 w := ⟨inb262 w hw, inb262 w hw⟩
theorem k14_chk14_of_lt (w : BitVec 32) (hw : w.toNat < 50000) : k14_chk14 w := ⟨inb262 w hw, inb262 w hw⟩
theorem k14_chk15_of_lt (w : BitVec 32) (hw : w.toNat < 50000) : k14_chk15 w := ⟨inb262 w hw, inb262 w hw⟩
theorem k14_chk16_of_lt (w : BitVec 32) (hw : w.toNat < 50000) : k14_chk16 w := inb262 w hw
theorem k15_chk1_of_lt (w : BitVec 32) (hw : w.toNat < 50000) : k15_chk1 w := ⟨inb262 w hw, inb262 w hw⟩
theorem k15_chk2_of_lt (w : BitVec 32) (hw : w.toNat < 50000) : k15_chk2 w := ⟨inb262 w hw, inb262 w hw⟩
theorem k15_chk3_of_lt (w : BitVec 32) (hw : w.toNat < 50000) : k15_chk3 w := ⟨inb262 w hw, inb262 w hw⟩
theorem k15_chk4_of_lt (w : BitVec 32) (hw : w.toNat < 50000) : k15_chk4 w := ⟨inb262 w hw, inb262 w hw⟩
theorem k15_chk5_of_lt (w : BitVec 32) (hw : w.toNat < 50000) : k15_chk5 w := ⟨inb262 w hw, inb262 w hw⟩
theorem k15_chk6_of_lt (w : BitVec 32) (hw : w.toNat < 50000) : k15_chk6 w := ⟨inb262 w hw, inb262 w hw⟩
theorem k15_chk7_of_lt (w : BitVec 32) (hw : w.toNat < 50000) : k15_chk7 w := ⟨inb262 w hw, inb262 w hw⟩
theorem k15_chk8_of_lt (w : BitVec 32) (hw : w.toNat < 50000) : k15_chk8 w := ⟨inb262 w hw, inb262 w hw⟩
theorem k15_chk9_of_lt (w : BitVec 32) (hw : w.toNat < 50000) : k15_chk9 w := ⟨inb262 w hw, inb262 w hw⟩
theorem k15_chk10_of_lt (w : BitVec 32) (hw : w.toNat < 50000) : k15_chk10 w := ⟨inb262 w hw, inb262 w hw⟩
theorem k15_chk11_of_lt (w : BitVec 32) (hw : w.toNat < 50000) : k15_chk11 w := ⟨inb262 w hw, inb262 w hw⟩
theorem k15_chk12_of_lt (w : BitVec 32) (hw : w.toNat < 50000) : k15_chk12 w := ⟨inb262 w hw, inb262 w hw⟩
theorem k15_chk13_of_lt (w : BitVec 32) (hw : w.toNat < 50000) : k15_chk13 w := ⟨inb262 w hw, inb262 w hw⟩
theorem k15_chk14_of_lt (w : BitVec 32) (hw : w.toNat < 50000) : k15_chk14 w := ⟨inb262 w hw, inb262 w hw⟩
theorem k15_chk15_of_lt (w : BitVec 32) (hw : w.toNat < 50000) : k15_chk15 w := ⟨inb262 w hw, inb262 w hw⟩
theorem k15_chk16_of_lt (w : BitVec 32) (hw : w.toNat < 50000) : k15_chk16 w := inb262 w hw
theorem k16_chk1_of_lt (w : BitVec 32) (hw : w.toNat < 50000) : k16_chk1 w := ⟨inb262 w hw, inb262 w hw⟩
theorem k16_chk2_of_lt (w : BitVec 32) (hw : w.toNat < 50000) : k16_chk2 w := ⟨inb262 w hw, inb262 w hw⟩
theorem k16_chk3_of_lt (w : BitVec 32) (hw : w.toNat < 50000) : k16_chk3 w := ⟨inb262 w hw, inb262 w hw⟩
theorem k16_chk4_of_lt (w : BitVec 32) (hw : w.toNat < 50000) : k16_chk4 w := ⟨inb262 w hw, inb262 w hw⟩
theorem k16_chk5_of_lt (w : BitVec 32) (hw : w.toNat < 50000) : k16_chk5 w := ⟨inb262 w hw, inb262 w hw⟩
theorem k16_chk6_of_lt (w : BitVec 32) (hw : w.toNat < 50000) : k16_chk6 w := ⟨inb262 w hw, inb262 w hw⟩
theorem k16_chk7_of_lt (w : BitVec 32) (hw : w.toNat < 50000) : k16_chk7 w := ⟨inb262 w hw, inb262 w hw⟩
theorem k16_chk8_of_lt (w : BitVec 32) (hw : w.toNat < 50000) : k16_chk8 w := ⟨inb262 w hw, inb262 w hw⟩
theorem k16_chk9_of_lt (w : BitVec 32) (hw : w.toNat < 50000) : k16_chk9 w := ⟨inb262 w hw, inb262 w hw⟩
theorem k16_chk10_of_lt (w : BitVec 32) (hw : w.toNat < 50000) : k16_chk10 w := ⟨inb262 w hw, inb262 w hw⟩
theorem k16_chk11_of_lt (w : BitVec 32) (hw : w.toNat < 50000) : k16_chk11 w := ⟨inb262 w hw, inb262 w hw⟩
theorem k16_chk12_of_lt (w : BitVec 32) (hw : w.toNat < 50000) : k16_chk12 w := ⟨inb262 w hw, inb262 w hw⟩
theorem k16_chk13_of_lt (w : BitVec 32) (hw : w.toNat < 50000) : k16_chk13 w := ⟨inb262 w hw, inb262 w hw⟩
theorem k16_chk14_of_lt (w : BitVec 32) (hw : w.toNat < 50000) : k16_chk14 w := ⟨inb262 w hw, inb262 w hw⟩
theorem k16_chk15_of_lt (w : BitVec 32) (hw : w.toNat < 50000) : k16_chk15 w := ⟨inb262 w hw, inb262 w hw⟩
theorem k16_chk16_of_lt (w : BitVec 32) (hw : w.toNat < 50000) : k16_chk16 w := inb262 w hw
theorem k17_chk1_of_lt (w : BitVec 32) (hw : w.toNat < 50000) : k17_chk1 w := ⟨inb262 w hw, inb262 w hw⟩
theorem k17_chk2_of_lt (w : BitVec 32) (hw : w.toNat < 50000) : k17_chk2 w := ⟨inb262 w hw, inb262 w hw⟩
theorem k17_chk3_of_lt (w : BitVec 32) (hw : w.toNat < 50000) : k17_chk3 w := ⟨inb262 w hw, inb262 w hw⟩
theorem k17_chk4_of_lt (w : BitVec 32) (hw : w.toNat < 50000) : k17_chk4 w := ⟨inb262 w hw, inb262 w hw⟩
theorem k17_chk5_of_lt (w : BitVec 32) (hw : w.toNat < 50000) : k17_chk5 w := ⟨inb262 w hw, inb262 w hw⟩
theorem k17_chk6_of_lt (w : BitVec 32) (hw : w.toNat < 50000) : k17_chk6 w := ⟨inb262 w hw, inb262 w hw⟩
theorem k17_chk7_of_lt (w : BitVec 32) (hw : w.toNat < 50000) : k17_chk7 w := ⟨inb262 w hw, inb262 w hw⟩
theorem k17_chk8_of_lt (w : BitVec 32) (hw : w.toNat < 50000) : k17_chk8 w := ⟨inb262 w hw, inb262 w hw⟩
theorem k17_chk9_of_lt (w : BitVec 32) (hw : w.toNat < 50000) : k17_chk9 w := ⟨inb262 w hw, inb262 w hw⟩
theorem k17_chk10_of_lt (w : BitVec 32) (hw : w.toNat < 50000) : k17_chk10 w := ⟨inb262 w hw, inb262 w hw⟩
theorem k17_chk11_of_lt (w : BitVec 32) (hw : w.toNat < 50000) : k17_chk11 w := ⟨inb262 w hw, inb262 w hw⟩
theorem k17_chk12_of_lt (w : BitVec 32) (hw : w.toNat < 50000) : k17_chk12 w := ⟨inb262 w hw, inb262 w hw⟩
theorem k17_chk13_of_lt (w : BitVec 32) (hw : w.toNat < 50000) : k17_chk13 w := ⟨inb262 w hw, inb262 w hw⟩
theorem k17_chk14_of_lt (w : BitVec 32) (hw : w.toNat < 50000) : k17_chk14 w := ⟨inb262 w hw, inb262 w hw⟩
theorem k17_chk15_of_lt (w : BitVec 32) (hw : w.toNat < 50000) : k17_chk15 w := ⟨inb262 w hw, inb262 w hw⟩
theorem k17_chk16_of_lt (w : BitVec 32) (hw : w.toNat < 50000) : k17_chk16 w := inb262 w hw
theorem k18_chk1_of_lt (w : BitVec 32) (hw : w.toNat < 50000) : k18_chk1 w := ⟨inb262 w hw, inb262 w hw⟩
theorem k18_chk2_of_lt (w : BitVec 32) (hw : w.toNat < 50000) : k18_chk2 w := ⟨inb262 w hw, inb262 w hw⟩
theorem k18_chk3_of_lt (w : BitVec 32) (hw : w.toNat < 50000) : k18_chk3 w := ⟨inb262 w hw, inb262 w hw⟩
theorem k18_chk4_of_lt (w : BitVec 32) (hw : w.toNat < 50000) : k18_chk4 w := ⟨inb262 w hw, inb262 w hw⟩
theorem k18_chk5_of_lt (w : BitVec 32) (hw : w.toNat < 50000) : k18_chk5 w := ⟨inb262 w hw, inb262 w hw⟩
theorem k18_chk6_of_lt (w : BitVec 32) (hw : w.toNat < 50000) : k18_chk6 w := ⟨inb262 w hw, inb262 w hw⟩
theorem k18_chk7_of_lt (w : BitVec 32) (hw : w.toNat < 50000) : k18_chk7 w := ⟨inb262 w hw, inb262 w hw⟩
theorem k18_chk8_of_lt (w : BitVec 32) (hw : w.toNat < 50000) : k18_chk8 w := ⟨inb262 w hw, inb262 w hw⟩
theorem k18_chk9_of_lt (w : BitVec 32) (hw : w.toNat < 50000) : k18_chk9 w := ⟨inb262 w hw, inb262 w hw⟩
theorem k18_chk10_of_lt (w : BitVec 32) (hw : w.toNat < 50000) : k18_chk10 w := ⟨inb262 w hw, inb262 w hw⟩
theorem k18_chk11_of_lt (w : BitVec 32) (hw : w.toNat < 50000) : k18_chk11 w := ⟨inb262 w hw, inb262 w hw⟩
theorem k18_chk12_of_lt (w : BitVec 32) (hw : w.toNat < 50000) : k18_chk12 w := ⟨inb262 w hw, inb262 w hw⟩
theorem k18_chk13_of_lt (w : BitVec 32) (hw : w.toNat < 50000) : k18_chk13 w := ⟨inb262 w hw, inb262 w hw⟩
theorem k18_chk14_of_lt (w : BitVec 32) (hw : w.toNat < 50000) : k18_chk14 w := ⟨inb262 w hw, inb262 w hw⟩
theorem k18_chk15_of_lt (w : BitVec 32) (hw : w.toNat < 50000) : k18_chk15 w := ⟨inb262 w hw, inb262 w hw⟩
theorem k18_chk16_of_lt (w : BitVec 32) (hw : w.toNat < 50000) : k18_chk16 w := inb262 w hw
theorem k19_chk1_of_lt (w : BitVec 32) (hw : w.toNat < 50000) : k19_chk1 w := ⟨inb262 w hw, inb262 w hw⟩
theorem k19_chk2_of_lt (w : BitVec 32) (hw : w.toNat < 50000) : k19_chk2 w := ⟨inb262 w hw, inb262 w hw⟩
theorem k19_chk3_of_lt (w : BitVec 32) (hw : w.toNat < 50000) : k19_chk3 w := ⟨inb262 w hw, inb262 w hw⟩
theorem k19_chk4_of_lt (w : BitVec 32) (hw : w.toNat < 50000) : k19_chk4 w := ⟨inb262 w hw, inb262 w hw⟩
theorem k19_chk5_of_lt (w : BitVec 32) (hw : w.toNat < 50000) : k19_chk5 w := ⟨inb262 w hw, inb262 w hw⟩
theorem k19_chk6_of_lt (w : BitVec 32) (hw : w.toNat < 50000) : k19_chk6 w := ⟨inb262 w hw, inb262 w hw⟩
theorem k19_chk7_of_lt (w : BitVec 32) (hw : w.toNat < 50000) : k19_chk7 w := ⟨inb262 w hw, inb262 w hw⟩
theorem k19_chk8_of_lt (w : BitVec 32) (hw : w.toNat < 50000) : k19_chk8 w := ⟨inb262 w hw, inb262 w hw⟩
theorem k19_chk9_of_lt (w : BitVec 32) (hw : w.toNat < 50000) : k19_chk9 w := ⟨inb262 w hw, inb262 w hw⟩
theorem k19_chk10_of_lt (w : BitVec 32) (hw : w.toNat < 50000) : k19_chk10 w := ⟨inb262 w hw, inb262 w hw⟩
theorem k19_chk11_of_lt (w : BitVec 32) (hw : w.toNat < 50000) : k19_chk11 w := ⟨inb262 w hw, inb262 w hw⟩
theorem k19_chk12_of_lt (w : BitVec 32) (hw : w.toNat < 50000) : k19_chk12 w := ⟨inb262 w hw, inb262 w hw⟩
theorem k19_chk13_of_lt (w : BitVec 32) (hw : w.toNat < 50000) : k19_chk13 w := ⟨inb262 w hw, inb262 w hw⟩
theorem k19_chk14_of_lt (w : BitVec 32) (hw : w.toNat < 50000) : k19_chk14 w := ⟨inb262 w hw, inb262 w hw⟩
theorem k19_chk15_of_lt (w : BitVec 32) (hw : w.toNat < 50000) : k19_chk15 w := ⟨inb262 w hw, inb262 w hw⟩
theorem k19_chk16_of_lt (w : BitVec 32) (hw : w.toNat < 50000) : k19_chk16 w := inb262 w hw

/-- The first gather call's first check, under the name the region's hypotheses use. -/
theorem chk_of_lt (w : BitVec 32) (hw : w.toNat < 50000) : k1_chk1 w := k1_chk1_of_lt w hw

end Cert.Kernel.Hand

end
-- ==== Proof.Bits.G1.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 1 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem1 : Fin 16 → SemLoc sig := fun j =>
  (![SemLoc.dma 9, SemLoc.dma 10, SemLoc.dma 11, SemLoc.dma 12, SemLoc.dma 13, SemLoc.dma 14, SemLoc.dma 15, SemLoc.dma 16,
     SemLoc.dma 17, SemLoc.dma 18, SemLoc.dma 19, SemLoc.dma 20, SemLoc.dma 21, SemLoc.dma 22, SemLoc.dma 23, SemLoc.dma 24] : Fin 16 → SemLoc sig) j
theorem ownSemFacts1 : Pipeline.OwnSemFacts spec1 osem1 := by decide

/-- The HBM operand the body gathers rows from: unscoped, no window's array, no table. -/
def H1 : Finset (Ref sig .tc) := {main_v34}
theorem H1_sub : H1 ⊆ Pipeline.restRefsP sig pre1 spec1 := by decide

/-- The operands the pipeline does not stage, whole. -/
abbrev tbM1 : Memref sig .tc .smem S50000 .i32 := Memref.whole main_v36
abbrev hbM1 : Memref sig .tc .hbm S50000x512 .f32 := Memref.whole main_v34
abbrev scM1 : Memref sig .tc .vmem S16x512 .f32 := Memref.whole cc1_scratch0

/-- A whole memref's buffer on core `c`, and it held whole at `f`. -/
abbrev HbBuf1 (c : Dev nD) {sp : Space} {S : Shape} {e : EltTy} (M : Memref sig .tc sp S e) : Type := Buf (Elt F) (M.view.loc (c : Thread nD τ))
abbrev hbPt1 (c : Dev nD) {sp : Space} {S : Shape} {e : EltTy} (M : Memref sig .tc sp S e) (f : HbBuf1 (F := F) c M) : sProp 𝕄 :=
  M.view.loc (c : Thread nD τ) ↦{fullShare} f

/-- The sixteen own cells at zero. -/
abbrev sems1 (c : Dev nD) : sProp 𝕄 :=
  iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)

/-- A row index inside the gathered array puts the one-row slice inside it. -/
theorem row_inb1 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk1_1_of_lt (w : BitVec 32) (h : w.toNat < 50000) : k1_chk1 w := ⟨row_inb1 w h, row_inb1 w h⟩
theorem chk1_2_of_lt (w : BitVec 32) (h : w.toNat < 50000) : k1_chk2 w := ⟨row_inb1 w h, row_inb1 w h⟩
theorem chk1_3_of_lt (w : BitVec 32) (h : w.toNat < 50000) : k1_chk3 w := ⟨row_inb1 w h, row_inb1 w h⟩
theorem chk1_4_of_lt (w : BitVec 32) (h : w.toNat < 50000) : k1_chk4 w := ⟨row_inb1 w h, row_inb1 w h⟩
theorem chk1_5_of_lt (w : BitVec 32) (h : w.toNat < 50000) : k1_chk5 w := ⟨row_inb1 w h, row_inb1 w h⟩
theorem chk1_6_of_lt (w : BitVec 32) (h : w.toNat < 50000) : k1_chk6 w := ⟨row_inb1 w h, row_inb1 w h⟩
theorem chk1_7_of_lt (w : BitVec 32) (h : w.toNat < 50000) : k1_chk7 w := ⟨row_inb1 w h, row_inb1 w h⟩
theorem chk1_8_of_lt (w : BitVec 32) (h : w.toNat < 50000) : k1_chk8 w := ⟨row_inb1 w h, row_inb1 w h⟩
theorem chk1_9_of_lt (w : BitVec 32) (h : w.toNat < 50000) : k1_chk9 w := ⟨row_inb1 w h, row_inb1 w h⟩
theorem chk1_10_of_lt (w : BitVec 32) (h : w.toNat < 50000) : k1_chk10 w := ⟨row_inb1 w h, row_inb1 w h⟩
theorem chk1_11_of_lt (w : BitVec 32) (h : w.toNat < 50000) : k1_chk11 w := ⟨row_inb1 w h, row_inb1 w h⟩
theorem chk1_12_of_lt (w : BitVec 32) (h : w.toNat < 50000) : k1_chk12 w := ⟨row_inb1 w h, row_inb1 w h⟩
theorem chk1_13_of_lt (w : BitVec 32) (h : w.toNat < 50000) : k1_chk13 w := ⟨row_inb1 w h, row_inb1 w h⟩
theorem chk1_14_of_lt (w : BitVec 32) (h : w.toNat < 50000) : k1_chk14 w := ⟨row_inb1 w h, row_inb1 w h⟩
theorem chk1_15_of_lt (w : BitVec 32) (h : w.toNat < 50000) : k1_chk15 w := ⟨row_inb1 w h, row_inb1 w h⟩
theorem chk1_16_of_lt (w : BitVec 32) (h : w.toNat < 50000) : k1_chk16 w := row_inb1 w h

/-- A whole points-to as what stays behind, sixteen read tokens numbered `b + 15` down to `b`, and the tokens below
    `b` kept as one family. -/
theorem toksAt1 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 9 … 24. -/
theorem toks1 {ℓ : Loc nD τ sig} (f : Buf (Elt F) ℓ) :
    (ℓ ↦{fullShare} f : sProp 𝕄) ⊣⊢ iprop((ℓ ↦{Transfers.shareDrop fullShare 25} f) ∗ (ℓ ↦{Transfers.shareTokN fullShare 24} f) ∗ (ℓ ↦{Transfers.shareTokN fullShare 23} f) ∗ (ℓ ↦{Transfers.shareTokN fullShare 22} f) ∗ (ℓ ↦{Transfers.shareTokN fullShare 21} f) ∗ (ℓ ↦{Transfers.shareTokN fullShare 20} f) ∗ (ℓ ↦{Transfers.shareTokN fullShare 19} f) ∗ (ℓ ↦{Transfers.shareTokN fullShare 18} f) ∗ (ℓ ↦{Transfers.shareTokN fullShare 17} f) ∗ (ℓ ↦{Transfers.shareTokN fullShare 16} f) ∗ (ℓ ↦{Transfers.shareTokN fullShare 15} f) ∗ (ℓ ↦{Transfers.shareTokN fullShare 14} f) ∗ (ℓ ↦{Transfers.shareTokN fullShare 13} f) ∗ (ℓ ↦{Transfers.shareTokN fullShare 12} f) ∗ (ℓ ↦{Transfers.shareTokN fullShare 11} f) ∗ (ℓ ↦{Transfers.shareTokN fullShare 10} f) ∗ (ℓ ↦{Transfers.shareTokN fullShare 9} f)
      ∗ BI.bigSep (Finset.range 9) fun k => ℓ ↦{Transfers.shareTokN fullShare k} f) :=
  toksAt1 f 9

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun1 (c : Dev nD) (i : grid1.Coords) (arg3 : Memref sig .tc .vmem S16x1 .f32) (harg3 : arg3.IsWhole) (arg4 : Memref sig .tc .vmem S16x512 .f32) (harg4 : arg4.IsWhole)
    (x0 : Vec F S16x1 .f32) (tb : HbBuf1 (F := F) c tbM1) (fh0 : HbBuf1 (F := F) c hbM1) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM1 fullShare d) ∗ sems1 c ∗ hbPt1 c hbM1 fh0 ∗ hbPt1 c tbM1 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM1 fullShare d) ∗ sems1 c ∗ hbPt1 c hbM1 fh0 ∗ hbPt1 c tbM1 tb ∗ (∃ W', owes (c : Thread nD τ) 0 W')) -∗ K ⟨⟩))
          ⊢ wp frame (wpE (defs₀ (F := F)) Variants.none c none) Set.univ (cc1_kernel i tbM1 (Memref.isWhole_whole _) hbM1 (Memref.isWhole_whole _) arg3 harg3 arg4 harg4 scM1 (Memref.isWhole_whole _) cc1_scratch1) K } := by
  have k1_hw1 : k1_chk1 (tbM1.view.readAt (Elt F) (Rect.unit (s := S50000) (k1_off1 i) S1.size (k1_off1_inb i)).toLoadRect tb (Shape.Idx.first (numel1_S1.symm ▸ Nat.one_pos))) := chk1_1_of_lt _ (hH _)
  have k1_hw2 : k1_chk2 (tbM1.view.readAt (Elt F) (Rect.unit (s := S50000) (k1_off3 i) S1.size (k1_off3_inb i)).toLoadRect tb (Shape.Idx.first (numel1_S1.symm ▸ Nat.one_pos))) := chk1_2_of_lt _ (hH _)
  have k1_hw3 : k1_chk3 (tbM1.view.readAt (Elt F) (Rect.unit (s := S50000) (k1_off5 i) S1.size (k1_off5_inb i)).toLoadRect tb (Shape.Idx.first (numel1_S1.symm ▸ Nat.one_pos))) := chk1_3_of_lt _ (hH _)
  have k1_hw4 : k1_chk4 (tbM1.view.readAt (Elt F) (Rect.unit (s := S50000) (k1_off7 i) S1.size (k1_off7_inb i)).toLoadRect tb (Shape.Idx.first (numel1_S1.symm ▸ Nat.one_pos))) := chk1_4_of_lt _ (hH _)
  have k1_hw5 : k1_chk5 (tbM1.view.readAt (Elt F) (Rect.unit (s := S50000) (k1_off9 i) S1.size (k1_off9_inb i)).toLoadRect tb (Shape.Idx.first (numel1_S1.symm ▸ Nat.one_pos))) := chk1_5_of_lt _ (hH _)
  have k1_hw6 : k1_chk6 (tbM1.view.readAt (Elt F) (Rect.unit (s := S50000) (k1_off11 i) S1.size (k1_off11_inb i)).toLoadRect tb (Shape.Idx.first (numel1_S1.symm ▸ Nat.one_pos))) := chk1_6_of_lt _ (hH _)
  have k1_hw7 : k1_chk7 (tbM1.view.readAt (Elt F) (Rect.unit (s := S50000) (k1_off13 i) S1.size (k1_off13_inb i)).toLoadRect tb (Shape.Idx.first (numel1_S1.symm ▸ Nat.one_pos))) := chk1_7_of_lt _ (hH _)
  have k1_hw8 : k1_chk8 (tbM1.view.readAt (Elt F) (Rect.unit (s := S50000) (k1_off15 i) S1.size (k1_off15_inb i)).toLoadRect tb (Shape.Idx.first (numel1_S1.symm ▸ Nat.one_pos))) := chk1_8_of_lt _ (hH _)
  have k1_hw9 : k1_chk9 (tbM1.view.readAt (Elt F) (Rect.unit (s := S50000) (k1_off17 i) S1.size (k1_off17_inb i)).toLoadRect tb (Shape.Idx.first (numel1_S1.symm ▸ Nat.one_pos))) := chk1_9_of_lt _ (hH _)
  have k1_hw10 : k1_chk10 (tbM1.view.readAt (Elt F) (Rect.unit (s := S50000) (k1_off19 i) S1.size (k1_off19_inb i)).toLoadRect tb (Shape.Idx.first (numel1_S1.symm ▸ Nat.one_pos))) := chk1_10_of_lt _ (hH _)
  have k1_hw11 : k1_chk11 (tbM1.view.readAt (Elt F) (Rect.unit (s := S50000) (k1_off21 i) S1.size (k1_off21_inb i)).toLoadRect tb (Shape.Idx.first (numel1_S1.symm ▸ Nat.one_pos))) := chk1_11_of_lt _ (hH _)
  have k1_hw12 : k1_chk12 (tbM1.view.readAt (Elt F) (Rect.unit (s := S50000) (k1_off23 i) S1.size (k1_off23_inb i)).toLoadRect tb (Shape.Idx.first (numel1_S1.symm ▸ Nat.one_pos))) := chk1_12_of_lt _ (hH _)
  have k1_hw13 : k1_chk13 (tbM1.view.readAt (Elt F) (Rect.unit (s := S50000) (k1_off25 i) S1.size (k1_off25_inb i)).toLoadRect tb (Shape.Idx.first (numel1_S1.symm ▸ Nat.one_pos))) := chk1_13_of_lt _ (hH _)
  have k1_hw14 : k1_chk14 (tbM1.view.readAt (Elt F) (Rect.unit (s := S50000) (k1_off27 i) S1.size (k1_off27_inb i)).toLoadRect tb (Shape.Idx.first (numel1_S1.symm ▸ Nat.one_pos))) := chk1_14_of_lt _ (hH _)
  have k1_hw15 : k1_chk15 (tbM1.view.readAt (Elt F) (Rect.unit (s := S50000) (k1_off29 i) S1.size (k1_off29_inb i)).toLoadRect tb (Shape.Idx.first (numel1_S1.symm ▸ Nat.one_pos))) := chk1_15_of_lt _ (hH _)
  have k1_hw16 : k1_chk16 (tbM1.view.readAt (Elt F) (Rect.unit (s := S50000) (k1_off31 i) S1.size (k1_off31_inb i)).toLoadRect tb (Shape.Idx.first (numel1_S1.symm ▸ Nat.one_pos))) := chk1_16_of_lt _ (hH _)
  refine ⟨?_, fun W K => ?run⟩
  case run =>
    simp only [cc1_kernel_eq_skeleton]; unfold cc1_kernel_skel
    simp only [k1_part7_eq_skeleton]; unfold k1_part7_skel
    simp only [k1_part1_eq_skeleton, k1_part2_eq_skeleton, k1_part3_eq_skeleton, k1_part4_eq_skeleton, k1_part5_eq_skeleton, k1_part6_eq_skeleton]
    unfold owns sems1
    iintro ⟨⟨%f0, %hf0, H0⟩, ⟨%d1, %f1, -, H1⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks1 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k1_hw1 | sl_exact k1_hw2 | sl_exact k1_hw3 | sl_exact k1_hw4 | sl_exact k1_hw5 | sl_exact k1_hw6 | sl_exact k1_hw7 | sl_exact k1_hw8 | sl_exact k1_hw9 | sl_exact k1_hw10 | sl_exact k1_hw11 | sl_exact k1_hw12 | sl_exact k1_hw13 | sl_exact k1_hw14 | sl_exact k1_hw15 | sl_exact k1_hw16)
    sl_step
    iapply Hk
    isplitl [H0]
    · iexists _; isplitr; · ipureintro; exact harg3.read_unread _
      iexact H0
    isplitl [H1]; · iexists _; iexact H1
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks1 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg1 (F := F)).Adm)

/-- Each window's current staging memref at point t, spelled as the pipeline passes it, and its wholeness. -/
abbrev ms1_0 (t : Fin (cfg1 a).N) : Memref sig .tc .vmem S16x1 .f32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S16x512 .f32 := spec1_1.stage ((cfg1 a).slots t 1)
abbrev hs1_1 (t : Fin (cfg1 a).N) : (ms1_1 a t).IsWhole := hstage1_1 (((cfg1 a).slots t 1).cast nbuf1_1)

/-- The kernel body at point t, on what the pipeline calls it with. -/
abbrev bodyAt1 (t : Fin (cfg1 a).N) : Prog (TpuEff nD τ sig (Elt F) Λ₀ .tc) PUnit :=
  cc1_kernel (grid1.coords t) tbM1 (Memref.isWhole_whole _) hbM1 (Memref.isWhole_whole _) (ms1_0 a t) (hs1_0 a t) (ms1_1 a t) (hs1_1 a t) scM1 (Memref.isWhole_whole _) cc1_scratch1

/-! ## The invariant, conjunct by conjunct -/

/-- The sixteen own cells at zero, listed. -/
theorem ownSems01_eq (c : Dev nD) :
    (Pipeline.ownSems0 (Ix := Unit) (Name := ℕ) (U := Pipeline.UD sig nD τ) (Lvl := ℕ) (Val := Elt F) (τ := τ) osem1 c : sProp 𝕄) = sems1 c := by
  rw [Pipeline.ownSems0_eq_of_list c osem1 [0, 1, 2, 3, 4, 5, 6, 7, 8, 9, 10, 11, 12, 13, 14, 15] (by decide) (by decide)]; rfl

/-- The gathered array's points-to at the region-entry contents. -/
theorem hbmPts1_eq (c : Dev nD) :
    (bigSep H1 (fun b => ((c : Thread nD τ).loc b) ↦{fullShare} V c b) : sProp 𝕄) = iprop(hbPt1 c hbM1 (V c main_v34)) := by
  rw [BI.bigSep_eq_bigSepL_of_eq [main_v34] (by decide) (by decide)]; rfl

/-- The row table, whole, at the contents the region is launched with. -/
theorem prefHeld1_eq (c : Dev nD) :
    (Pipeline.prefHeld (Ix := Unit) (Name := ℕ) (U := Pipeline.UD sig nD τ) (Lvl := ℕ) pre1 c (fun _ => fullShare) a.1 : sProp 𝕄) = iprop(hbPt1 c tbM1 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD1_eq (c : Dev nD) :
    (Pipeline.ΦD osem1 spec1 H1 V c : sProp 𝕄)
      = iprop(iprop((∃ d, owns (c : Thread nD τ) scM1 fullShare d) ∗ Pipeline.scopedRestBut (Ix := Unit) (Name := ℕ) (U := Pipeline.UD sig nD τ) (Lvl := ℕ) (Val := Elt F) spec1 c [cc1_scratch0])
          ∗ (∃ r, prngReg c r) ∗ sems1 c ∗ iprop(hbPt1 c hbM1 (V c main_v34))) := by
  rw [Pipeline.ΦD_eq, scopedRest1_split, ownSems01_eq, hbmPts1_eq]; simp only [scM1, owns_whole]; try rfl

/-! ## The windows' blocks -/

/-- Window w's block at point t, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- Input window 0's current staging buffer holds its block at every point, fetched there or not. -/
theorem before1_0_of {c : Dev nD} (dat : Dat τ (Elt F) Unit ℕ (Pipeline.UD sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## What the run leaves in the output window's buffer -/

/-- The run's pieces for the output tile its block, so they cover it. -/
theorem cover1_1 (c : Dev nD) (i : grid1.Coords) (arg3 : Memref sig .tc .vmem S16x1 .f32) (harg3 : arg3.IsWhole) (arg4 : Memref sig .tc .vmem S16x512 .f32) (harg4 : arg4.IsWhole)
    (x0 : Vec F S16x1 .f32) (tb : HbBuf1 (F := F) c tbM1) (fh0 : HbBuf1 (F := F) c hbM1) (hT : ∀ x, (tb x).toNat < 50000) (y : S16x512.Idx) :
    ∃ pc ∈ (kernelRun1 c i arg3 harg3 arg4 harg4 x0 tb fh0 hT).1, y ∈ pc.1.set :=
  View.cover_of_tiledL (kernelRun1 c i arg3 harg3 arg4 harg4 x0 tb fh0 hT).1 S16x512.size (by sl_kernel_rfl) y

/-- One staging buffer of the output window, through which its contents are stated. -/
abbrev VO1_1 : View sig .tc .vmem S16x512 .f32 := (Memref.whole cc1_stg1_0 : Memref sig .tc .vmem S16x512 .f32).view

/-- What the run leaves in the output's staging buffer: its pieces read back over junk. -/
def out1_1 (c : Dev nD) (i : grid1.Coords) (arg3 : Memref sig .tc .vmem S16x1 .f32) (harg3 : arg3.IsWhole) (arg4 : Memref sig .tc .vmem S16x512 .f32) (harg4 : arg4.IsWhole)
    (x0 : Vec F S16x1 .f32) (tb : HbBuf1 (F := F) c tbM1) (fh0 : HbBuf1 (F := F) c hbM1) (hT : ∀ x, (tb x).toNat < 50000) : Vec F S16x512 .f32 :=
  VO1_1.read (Elt F) (VO1_1.writes (Elt F) VO1_1.junk (kernelRun1 c i arg3 harg3 arg4 harg4 x0 tb fh0 hT).1)

/-- Every word of the table is a row of the gathered array, from the same of its words by position. -/
theorem tbl_lt1 (hH : ∀ j : Fin 50000, ((a.1 0) (ValueIdx.ix1 j)).toNat < 50000) (c : Dev nD) : ∀ x, (((a.1 0 : HbBuf1 (F := F) c tbM1)) x).toNat < 50000 :=
  fun x => by rw [ValueIdx.eq_ix1 x]; exact hH _

/-- What the output's staging buffer holds after the body at point t: the run's contents at the point's memrefs, the
    norm block, the table and the gathered array. -/
def outsAt1 (hH : ∀ j : Fin 50000, ((a.1 0) (ValueIdx.ix1 j)).toNat < 50000) (c : Dev nD) (t : Fin (cfg1 a).N) : Vec F S16x512 .f32 :=
  out1_1 c (grid1.coords t) (ms1_0 a t) (hs1_0 a t) (ms1_1 a t) (hs1_1 a t) (iblk1 V a c 0 t) (a.1 0) (V c main_v34) (tbl_lt1 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat1 (hH : ∀ j : Fin 50000, ((a.1 0) (ValueIdx.ix1 j)).toNat < 50000) (c : Dev nD) : Dat τ (Elt F) Unit ℕ (Pipeline.UD sig nD τ) ℕ (cfg1 a) c where
  A w := V c (Pipeline.arrRef spec1 w)
  after w t := match w with
    | ⟨0, _⟩ => iblk1 V a c 0 t
    | ⟨1, _⟩ => (outsAt1 V a hH c t)
  Φ _ := iprop(Pipeline.ΦD osem1 spec1 H1 V c ∗ Pipeline.prefHeld pre1 c (fun _ => fullShare) a.1)
  q _ := fullShare
  owed _ := 0

/-- The proof data's arrays are the region-entry contents. -/
theorem A_eq1 (hH : ∀ j : Fin 50000, ((a.1 0) (ValueIdx.ix1 j)).toNat < 50000) (c : Dev nD) (w : Fin (cfg1 a).W) : (dat1 V a hH c).A w = V c (Pipeline.arrRef spec1 w) := by
  dsimp only [dat1]

/-- What the body leaves, window by window. -/
theorem after1_0 (hH : ∀ j : Fin 50000, ((a.1 0) (ValueIdx.ix1 j)).toNat < 50000) (c : Dev nD) (t : Fin (cfg1 a).N) : (dat1 V a hH c).after 0 t = iblk1 V a c 0 t := by dsimp only [dat1]; try rfl
theorem after1_1 (hH : ∀ j : Fin 50000, ((a.1 0) (ValueIdx.ix1 j)).toNat < 50000) (c : Dev nD) (t : Fin (cfg1 a).N) : (dat1 V a hH c).after 1 t = (outsAt1 V a hH c t) := by dsimp only [dat1]; try rfl

/-- The input's current staging buffer holds its block at every point, fetched there or not. -/
theorem before1_0 (hH : ∀ j : Fin 50000, ((a.1 0) (ValueIdx.ix1 j)).toNat < 50000) (c : Dev nD) (t : Fin (cfg1 a).N) (d) : (dat1 V a hH c).before 0 t d = iblk1 V a c 0 t :=
  before1_0_of V a (dat1 V a hH c) (A_eq1 V a hH c 0) (after1_0 V a hH c) t d

/-! ## The body obligation, at a generic point -/

/-- What the body is called with at point t, the windows one by one, -/
def bodyPre1 (hH : ∀ j : Fin 50000, ((a.1 0) (ValueIdx.ix1 j)).toNat < 50000) (c : Dev nD) (t : Fin (cfg1 a).N) : sProp 𝕄 :=
  iprop((dat1 V a hH c).Φ t.castSucc ∗ (dat1 V a hH c).owesAt () t.castSucc
    ∗ (∃ d, owns (c : Thread nD τ) (ms1_0 a t) fullShare ((dat1 V a hH c).before 0 t d))
    ∗ (∃ d, owns (c : Thread nD τ) (ms1_1 a t) fullShare ((dat1 V a hH c).before 1 t d)))

/-- and what it returns. -/
def bodyPost1 (hH : ∀ j : Fin 50000, ((a.1 0) (ValueIdx.ix1 j)).toNat < 50000) (c : Dev nD) (t : Fin (cfg1 a).N) : sProp 𝕄 :=
  iprop((dat1 V a hH c).Φ t.succ ∗ (dat1 V a hH c).owesAt () t.succ
    ∗ owns (c : Thread nD τ) (ms1_0 a t) fullShare ((dat1 V a hH c).after 0 t)
    ∗ owns (c : Thread nD τ) (ms1_1 a t) fullShare ((dat1 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body1 (hH : ∀ j : Fin 50000, ((a.1 0) (ValueIdx.ix1 j)).toNat < 50000) (c : Dev nD) (t : Fin (cfg1 a).N) :
    bodyPre1 V a hH c t ⊢ wp frame (wpE (defs₀ (F := F)) Variants.none c none) Set.univ (bodyAt1 a t) (fun _ => bodyPost1 V a hH c t) := by
  unfold bodyPre1 bodyPost1 bodyAt1
  simp only [before1_0]
  rw [show (dat1 V a hH c).Φ t.succ = (dat1 V a hH c).Φ t.castSucc from rfl,
    after1_0, after1_1]
  rw [show (dat1 V a hH c).Φ t.castSucc = iprop(Pipeline.ΦD osem1 spec1 H1 V c ∗ Pipeline.prefHeld pre1 c (fun _ => fullShare) a.1) from rfl, PhiD1_eq, prefHeld1_eq]
  unfold Dat.owesAt Pipeline.owesWithin
  rw [show (dat1 V a hH c).owed t.castSucc = 0 from rfl, show (dat1 V a hH c).owed t.succ = 0 from rfl]
  unfold outsAt1
  unfold out1_1
  iintro ⟨⟨⟨⟨HS0, HSr⟩, Hg, Hq, Hh0⟩, HT⟩, ⟨%W, -, HW⟩, ⟨%d0, H0⟩, ⟨%d1, H1⟩⟩
  iapply ((kernelRun1 c (grid1.coords t) _ _ _ _ (iblk1 V a c 0 t) (a.1 0) (V c main_v34) (tbl_lt1 a hH c)).2 W _)
  isplitl [H0]; · iexact H0
  isplitl [H1]; · iexists _; iexact H1
  isplitl [HS0]; · iexact HS0
  isplitl [Hq]; · iexact Hq
  isplitl [Hh0]; · iexact Hh0
  isplitl [HT]; · iexact HT
  isplitl [HW]; · iexact HW
  iintro ⟨H0, ⟨%e1, H1⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (cover1_1 c _ _ _ _ _ _ _ _ _)

/-- The library's body obligation, at every point. -/
theorem body_obligation1 (hH : ∀ j : Fin 50000, ((a.1 0) (ValueIdx.ix1 j)).toNat < 50000) (c : Dev nD) : BodyObligation (dat1 (F := F) V a hH c) (defs₀ (F := F)) Variants.none () Set.univ := fun t => by
  rw [bigSep_W1, bigSep_W1]
  exact sound_body1 V a hH c t

end Cert.Kernel.Hand

end
-- ==== Proof.Bits.G2.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 2 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem2 : Fin 16 → SemLoc sig := fun j =>
  (![SemLoc.dma 29, SemLoc.dma 30, SemLoc.dma 31, SemLoc.dma 32, SemLoc.dma 33, SemLoc.dma 34, SemLoc.dma 35, SemLoc.dma 36,
     SemLoc.dma 37, SemLoc.dma 38, SemLoc.dma 39, SemLoc.dma 40, SemLoc.dma 41, SemLoc.dma 42, SemLoc.dma 43, SemLoc.dma 44] : Fin 16 → SemLoc sig) j
theorem ownSemFacts2 : Pipeline.OwnSemFacts spec2 osem2 := by decide

/-- The HBM operand the body gathers rows from: unscoped, no window's array, no table. -/
def H2 : Finset (Ref sig .tc) := {main_v34}
theorem H2_sub : H2 ⊆ Pipeline.restRefsP sig pre2 spec2 := by decide

/-- The operands the pipeline does not stage, whole. -/
abbrev tbM2 : Memref sig .tc .smem S50000 .i32 := Memref.whole main_v39
abbrev hbM2 : Memref sig .tc .hbm S50000x512 .f32 := Memref.whole main_v34
abbrev scM2 : Memref sig .tc .vmem S16x512 .f32 := Memref.whole cc2_scratch0

/-- A whole memref's buffer on core `c`, and it held whole at `f`. -/
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

/-- The sixteen own cells at zero. -/
abbrev sems2 (c : Dev nD) : sProp 𝕄 :=
  iprop(semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0)

/-- A row index inside the gathered array puts the one-row slice inside it. -/
theorem row_inb2 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk2_1_of_lt (w : BitVec 32) (h : w.toNat < 50000) : k2_chk1 w := ⟨row_inb2 w h, row_inb2 w h⟩
theorem chk2_2_of_lt (w : BitVec 32) (h : w.toNat < 50000) : k2_chk2 w := ⟨row_inb2 w h, row_inb2 w h⟩
theorem chk2_3_of_lt (w : BitVec 32) (h : w.toNat < 50000) : k2_chk3 w := ⟨row_inb2 w h, row_inb2 w h⟩
theorem chk2_4_of_lt (w : BitVec 32) (h : w.toNat < 50000) : k2_chk4 w := ⟨row_inb2 w h, row_inb2 w h⟩
theorem chk2_5_of_lt (w : BitVec 32) (h : w.toNat < 50000) : k2_chk5 w := ⟨row_inb2 w h, row_inb2 w h⟩
theorem chk2_6_of_lt (w : BitVec 32) (h : w.toNat < 50000) : k2_chk6 w := ⟨row_inb2 w h, row_inb2 w h⟩
theorem chk2_7_of_lt (w : BitVec 32) (h : w.toNat < 50000) : k2_chk7 w := ⟨row_inb2 w h, row_inb2 w h⟩
theorem chk2_8_of_lt (w : BitVec 32) (h : w.toNat < 50000) : k2_chk8 w := ⟨row_inb2 w h, row_inb2 w h⟩
theorem chk2_9_of_lt (w : BitVec 32) (h : w.toNat < 50000) : k2_chk9 w := ⟨row_inb2 w h, row_inb2 w h⟩
theorem chk2_10_of_lt (w : BitVec 32) (h : w.toNat < 50000) : k2_chk10 w := ⟨row_inb2 w h, row_inb2 w h⟩
theorem chk2_11_of_lt (w : BitVec 32) (h : w.toNat < 50000) : k2_chk11 w := ⟨row_inb2 w h, row_inb2 w h⟩
theorem chk2_12_of_lt (w : BitVec 32) (h : w.toNat < 50000) : k2_chk12 w := ⟨row_inb2 w h, row_inb2 w h⟩
theorem chk2_13_of_lt (w : BitVec 32) (h : w.toNat < 50000) : k2_chk13 w := ⟨row_inb2 w h, row_inb2 w h⟩
theorem chk2_14_of_lt (w : BitVec 32) (h : w.toNat < 50000) : k2_chk14 w := ⟨row_inb2 w h, row_inb2 w h⟩
theorem chk2_15_of_lt (w : BitVec 32) (h : w.toNat < 50000) : k2_chk15 w := ⟨row_inb2 w h, row_inb2 w h⟩
theorem chk2_16_of_lt (w : BitVec 32) (h : w.toNat < 50000) : k2_chk16 w := row_inb2 w h

/-- A whole points-to as what stays behind, sixteen read tokens numbered `b + 15` down to `b`, and the tokens below
    `b` kept as one family. -/
theorem toksAt2 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 29 … 44. -/
theorem toks2 {ℓ : Loc nD τ sig} (f : Buf (Elt F) ℓ) :
    (ℓ ↦{fullShare} f : sProp 𝕄) ⊣⊢ iprop((ℓ ↦{Transfers.shareDrop fullShare 45} f) ∗ (ℓ ↦{Transfers.shareTokN fullShare 44} f) ∗ (ℓ ↦{Transfers.shareTokN fullShare 43} f) ∗ (ℓ ↦{Transfers.shareTokN fullShare 42} f) ∗ (ℓ ↦{Transfers.shareTokN fullShare 41} f) ∗ (ℓ ↦{Transfers.shareTokN fullShare 40} f) ∗ (ℓ ↦{Transfers.shareTokN fullShare 39} f) ∗ (ℓ ↦{Transfers.shareTokN fullShare 38} f) ∗ (ℓ ↦{Transfers.shareTokN fullShare 37} f) ∗ (ℓ ↦{Transfers.shareTokN fullShare 36} f) ∗ (ℓ ↦{Transfers.shareTokN fullShare 35} f) ∗ (ℓ ↦{Transfers.shareTokN fullShare 34} f) ∗ (ℓ ↦{Transfers.shareTokN fullShare 33} f) ∗ (ℓ ↦{Transfers.shareTokN fullShare 32} f) ∗ (ℓ ↦{Transfers.shareTokN fullShare 31} f) ∗ (ℓ ↦{Transfers.shareTokN fullShare 30} f) ∗ (ℓ ↦{Transfers.shareTokN fullShare 29} f)
      ∗ BI.bigSep (Finset.range 29) fun k => ℓ ↦{Transfers.shareTokN fullShare k} f) :=
  toksAt2 f 29

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun2 (c : Dev nD) (i : grid2.Coords) (arg3 : Memref sig .tc .vmem S16x1 .f32) (harg3 : arg3.IsWhole) (arg4 : Memref sig .tc .vmem S16x512 .f32) (harg4 : arg4.IsWhole)
    (x0 : Vec F S16x1 .f32) (tb : HbBuf2 (F := F) c tbM2) (fh0 : HbBuf2 (F := F) c hbM2) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM2 fullShare d) ∗ sems2 c ∗ hbPt2 c hbM2 fh0 ∗ hbPt2 c tbM2 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM2 fullShare d) ∗ sems2 c ∗ hbPt2 c hbM2 fh0 ∗ hbPt2 c tbM2 tb ∗ (∃ W', owes (c : Thread nD τ) 0 W')) -∗ K ⟨⟩))
          ⊢ wp frame (wpE (defs₀ (F := F)) Variants.none c none) Set.univ (cc2_kernel i tbM2 (Memref.isWhole_whole _) hbM2 (Memref.isWhole_whole _) arg3 harg3 arg4 harg4 scM2 (Memref.isWhole_whole _) cc2_scratch1) K } := by
  have k2_hw1 : k2_chk1 (tbM2.view.readAt (Elt F) (Rect.unit (s := S50000) (k2_off1 i) S1.size (k2_off1_inb i)).toLoadRect tb (Shape.Idx.first (numel1_S1.symm ▸ Nat.one_pos))) := chk2_1_of_lt _ (hH _)
  have k2_hw2 : k2_chk2 (tbM2.view.readAt (Elt F) (Rect.unit (s := S50000) (k2_off3 i) S1.size (k2_off3_inb i)).toLoadRect tb (Shape.Idx.first (numel1_S1.symm ▸ Nat.one_pos))) := chk2_2_of_lt _ (hH _)
  have k2_hw3 : k2_chk3 (tbM2.view.readAt (Elt F) (Rect.unit (s := S50000) (k2_off5 i) S1.size (k2_off5_inb i)).toLoadRect tb (Shape.Idx.first (numel1_S1.symm ▸ Nat.one_pos))) := chk2_3_of_lt _ (hH _)
  have k2_hw4 : k2_chk4 (tbM2.view.readAt (Elt F) (Rect.unit (s := S50000) (k2_off7 i) S1.size (k2_off7_inb i)).toLoadRect tb (Shape.Idx.first (numel1_S1.symm ▸ Nat.one_pos))) := chk2_4_of_lt _ (hH _)
  have k2_hw5 : k2_chk5 (tbM2.view.readAt (Elt F) (Rect.unit (s := S50000) (k2_off9 i) S1.size (k2_off9_inb i)).toLoadRect tb (Shape.Idx.first (numel1_S1.symm ▸ Nat.one_pos))) := chk2_5_of_lt _ (hH _)
  have k2_hw6 : k2_chk6 (tbM2.view.readAt (Elt F) (Rect.unit (s := S50000) (k2_off11 i) S1.size (k2_off11_inb i)).toLoadRect tb (Shape.Idx.first (numel1_S1.symm ▸ Nat.one_pos))) := chk2_6_of_lt _ (hH _)
  have k2_hw7 : k2_chk7 (tbM2.view.readAt (Elt F) (Rect.unit (s := S50000) (k2_off13 i) S1.size (k2_off13_inb i)).toLoadRect tb (Shape.Idx.first (numel1_S1.symm ▸ Nat.one_pos))) := chk2_7_of_lt _ (hH _)
  have k2_hw8 : k2_chk8 (tbM2.view.readAt (Elt F) (Rect.unit (s := S50000) (k2_off15 i) S1.size (k2_off15_inb i)).toLoadRect tb (Shape.Idx.first (numel1_S1.symm ▸ Nat.one_pos))) := chk2_8_of_lt _ (hH _)
  have k2_hw9 : k2_chk9 (tbM2.view.readAt (Elt F) (Rect.unit (s := S50000) (k2_off17 i) S1.size (k2_off17_inb i)).toLoadRect tb (Shape.Idx.first (numel1_S1.symm ▸ Nat.one_pos))) := chk2_9_of_lt _ (hH _)
  have k2_hw10 : k2_chk10 (tbM2.view.readAt (Elt F) (Rect.unit (s := S50000) (k2_off19 i) S1.size (k2_off19_inb i)).toLoadRect tb (Shape.Idx.first (numel1_S1.symm ▸ Nat.one_pos))) := chk2_10_of_lt _ (hH _)
  have k2_hw11 : k2_chk11 (tbM2.view.readAt (Elt F) (Rect.unit (s := S50000) (k2_off21 i) S1.size (k2_off21_inb i)).toLoadRect tb (Shape.Idx.first (numel1_S1.symm ▸ Nat.one_pos))) := chk2_11_of_lt _ (hH _)
  have k2_hw12 : k2_chk12 (tbM2.view.readAt (Elt F) (Rect.unit (s := S50000) (k2_off23 i) S1.size (k2_off23_inb i)).toLoadRect tb (Shape.Idx.first (numel1_S1.symm ▸ Nat.one_pos))) := chk2_12_of_lt _ (hH _)
  have k2_hw13 : k2_chk13 (tbM2.view.readAt (Elt F) (Rect.unit (s := S50000) (k2_off25 i) S1.size (k2_off25_inb i)).toLoadRect tb (Shape.Idx.first (numel1_S1.symm ▸ Nat.one_pos))) := chk2_13_of_lt _ (hH _)
  have k2_hw14 : k2_chk14 (tbM2.view.readAt (Elt F) (Rect.unit (s := S50000) (k2_off27 i) S1.size (k2_off27_inb i)).toLoadRect tb (Shape.Idx.first (numel1_S1.symm ▸ Nat.one_pos))) := chk2_14_of_lt _ (hH _)
  have k2_hw15 : k2_chk15 (tbM2.view.readAt (Elt F) (Rect.unit (s := S50000) (k2_off29 i) S1.size (k2_off29_inb i)).toLoadRect tb (Shape.Idx.first (numel1_S1.symm ▸ Nat.one_pos))) := chk2_15_of_lt _ (hH _)
  have k2_hw16 : k2_chk16 (tbM2.view.readAt (Elt F) (Rect.unit (s := S50000) (k2_off31 i) S1.size (k2_off31_inb i)).toLoadRect tb (Shape.Idx.first (numel1_S1.symm ▸ Nat.one_pos))) := chk2_16_of_lt _ (hH _)
  refine ⟨?_, fun W K => ?run⟩
  case run =>
    simp only [cc2_kernel_eq_skeleton]; unfold cc2_kernel_skel
    simp only [k2_part7_eq_skeleton]; unfold k2_part7_skel
    simp only [k2_part1_eq_skeleton, k2_part2_eq_skeleton, k2_part3_eq_skeleton, k2_part4_eq_skeleton, k2_part5_eq_skeleton, k2_part6_eq_skeleton]
    unfold owns sems2
    iintro ⟨⟨%f0, %hf0, H0⟩, ⟨%d1, %f1, -, H2⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks2 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k2_hw1 | sl_exact k2_hw2 | sl_exact k2_hw3 | sl_exact k2_hw4 | sl_exact k2_hw5 | sl_exact k2_hw6 | sl_exact k2_hw7 | sl_exact k2_hw8 | sl_exact k2_hw9 | sl_exact k2_hw10 | sl_exact k2_hw11 | sl_exact k2_hw12 | sl_exact k2_hw13 | sl_exact k2_hw14 | sl_exact k2_hw15 | sl_exact k2_hw16)
    sl_step
    iapply Hk
    isplitl [H0]
    · iexists _; isplitr; · ipureintro; exact harg3.read_unread _
      iexact H0
    isplitl [H2]; · iexists _; iexact H2
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks2 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg2 (F := F)).Adm)

/-- Each window's current staging memref at point t, spelled as the pipeline passes it, and its wholeness. -/
abbrev ms2_0 (t : Fin (cfg2 a).N) : Memref sig .tc .vmem S16x1 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S16x512 .f32 := spec2_1.stage ((cfg2 a).slots t 1)
abbrev hs2_1 (t : Fin (cfg2 a).N) : (ms2_1 a t).IsWhole := hstage2_1 (((cfg2 a).slots t 1).cast nbuf2_1)

/-- The kernel body at point t, on what the pipeline calls it with. -/
abbrev bodyAt2 (t : Fin (cfg2 a).N) : Prog (TpuEff nD τ sig (Elt F) Λ₀ .tc) PUnit :=
  cc2_kernel (grid2.coords t) tbM2 (Memref.isWhole_whole _) hbM2 (Memref.isWhole_whole _) (ms2_0 a t) (hs2_0 a t) (ms2_1 a t) (hs2_1 a t) scM2 (Memref.isWhole_whole _) cc2_scratch1

/-! ## The invariant, conjunct by conjunct -/

/-- The sixteen own cells at zero, listed. -/
theorem ownSems02_eq (c : Dev nD) :
    (Pipeline.ownSems0 (Ix := Unit) (Name := ℕ) (U := Pipeline.UD sig nD τ) (Lvl := ℕ) (Val := Elt F) (τ := τ) osem2 c : sProp 𝕄) = sems2 c := by
  rw [Pipeline.ownSems0_eq_of_list c osem2 [0, 1, 2, 3, 4, 5, 6, 7, 8, 9, 10, 11, 12, 13, 14, 15] (by decide) (by decide)]; rfl

/-- The gathered array's points-to at the region-entry contents. -/
theorem hbmPts2_eq (c : Dev nD) :
    (bigSep H2 (fun b => ((c : Thread nD τ).loc b) ↦{fullShare} V c b) : sProp 𝕄) = iprop(hbPt2 c hbM2 (V c main_v34)) := by
  rw [BI.bigSep_eq_bigSepL_of_eq [main_v34] (by decide) (by decide)]; rfl

/-- The row table, whole, at the contents the region is launched with. -/
theorem prefHeld2_eq (c : Dev nD) :
    (Pipeline.prefHeld (Ix := Unit) (Name := ℕ) (U := Pipeline.UD sig nD τ) (Lvl := ℕ) pre2 c (fun _ => fullShare) a.1 : sProp 𝕄) = iprop(hbPt2 c tbM2 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD2_eq (c : Dev nD) :
    (Pipeline.ΦD osem2 spec2 H2 V c : sProp 𝕄)
      = iprop(iprop((∃ d, owns (c : Thread nD τ) scM2 fullShare d) ∗ Pipeline.scopedRestBut (Ix := Unit) (Name := ℕ) (U := Pipeline.UD sig nD τ) (Lvl := ℕ) (Val := Elt F) spec2 c [cc2_scratch0])
          ∗ (∃ r, prngReg c r) ∗ sems2 c ∗ iprop(hbPt2 c hbM2 (V c main_v34))) := by
  rw [Pipeline.ΦD_eq, scopedRest2_split, ownSems02_eq, hbmPts2_eq]; simp only [scM2, owns_whole]; try rfl

/-! ## The windows' blocks -/

/-- Window w's block at point t, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- Input window 0's current staging buffer holds its block at every point, fetched there or not. -/
theorem before2_0_of {c : Dev nD} (dat : Dat τ (Elt F) Unit ℕ (Pipeline.UD sig nD τ) ℕ (cfg2 a) c) (hA : dat.A 0 = V c (Pipeline.arrRef spec2 0))
    (hafter : ∀ t, dat.after 0 t = iblk2 V a c 0 t) (t : Fin (cfg2 a).N) (d) : dat.before 0 t d = iblk2 V a c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## What the run leaves in the output window's buffer -/

/-- The run's pieces for the output tile its block, so they cover it. -/
theorem cover2_1 (c : Dev nD) (i : grid2.Coords) (arg3 : Memref sig .tc .vmem S16x1 .f32) (harg3 : arg3.IsWhole) (arg4 : Memref sig .tc .vmem S16x512 .f32) (harg4 : arg4.IsWhole)
    (x0 : Vec F S16x1 .f32) (tb : HbBuf2 (F := F) c tbM2) (fh0 : HbBuf2 (F := F) c hbM2) (hT : ∀ x, (tb x).toNat < 50000) (y : S16x512.Idx) :
    ∃ pc ∈ (kernelRun2 c i arg3 harg3 arg4 harg4 x0 tb fh0 hT).1, y ∈ pc.1.set :=
  View.cover_of_tiledL (kernelRun2 c i arg3 harg3 arg4 harg4 x0 tb fh0 hT).1 S16x512.size (by sl_kernel_rfl) y

/-- One staging buffer of the output window, through which its contents are stated. -/
abbrev VO2_1 : View sig .tc .vmem S16x512 .f32 := (Memref.whole cc2_stg1_0 : Memref sig .tc .vmem S16x512 .f32).view

/-- What the run leaves in the output's staging buffer: its pieces read back over junk. -/
def out2_1 (c : Dev nD) (i : grid2.Coords) (arg3 : Memref sig .tc .vmem S16x1 .f32) (harg3 : arg3.IsWhole) (arg4 : Memref sig .tc .vmem S16x512 .f32) (harg4 : arg4.IsWhole)
    (x0 : Vec F S16x1 .f32) (tb : HbBuf2 (F := F) c tbM2) (fh0 : HbBuf2 (F := F) c hbM2) (hT : ∀ x, (tb x).toNat < 50000) : Vec F S16x512 .f32 :=
  VO2_1.read (Elt F) (VO2_1.writes (Elt F) VO2_1.junk (kernelRun2 c i arg3 harg3 arg4 harg4 x0 tb fh0 hT).1)

/-- Every word of the table is a row of the gathered array, from the same of its words by position. -/
theorem tbl_lt2 (hH : ∀ j : Fin 50000, ((a.1 0) (ValueIdx.ix1 j)).toNat < 50000) (c : Dev nD) : ∀ x, (((a.1 0 : HbBuf2 (F := F) c tbM2)) x).toNat < 50000 :=
  fun x => by rw [ValueIdx.eq_ix1 x]; exact hH _

/-- What the output's staging buffer holds after the body at point t: the run's contents at the point's memrefs, the
    norm block, the table and the gathered array. -/
def outsAt2 (hH : ∀ j : Fin 50000, ((a.1 0) (ValueIdx.ix1 j)).toNat < 50000) (c : Dev nD) (t : Fin (cfg2 a).N) : Vec F S16x512 .f32 :=
  out2_1 c (grid2.coords t) (ms2_0 a t) (hs2_0 a t) (ms2_1 a t) (hs2_1 a t) (iblk2 V a c 0 t) (a.1 0) (V c main_v34) (tbl_lt2 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat2 (hH : ∀ j : Fin 50000, ((a.1 0) (ValueIdx.ix1 j)).toNat < 50000) (c : Dev nD) : Dat τ (Elt F) Unit ℕ (Pipeline.UD sig nD τ) ℕ (cfg2 a) c where
  A w := V c (Pipeline.arrRef spec2 w)
  after w t := match w with
    | ⟨0, _⟩ => iblk2 V a c 0 t
    | ⟨1, _⟩ => (outsAt2 V a hH c t)
  Φ _ := iprop(Pipeline.ΦD osem2 spec2 H2 V c ∗ Pipeline.prefHeld pre2 c (fun _ => fullShare) a.1)
  q _ := fullShare
  owed _ := 0

/-- The proof data's arrays are the region-entry contents. -/
theorem A_eq2 (hH : ∀ j : Fin 50000, ((a.1 0) (ValueIdx.ix1 j)).toNat < 50000) (c : Dev nD) (w : Fin (cfg2 a).W) : (dat2 V a hH c).A w = V c (Pipeline.arrRef spec2 w) := by
  dsimp only [dat2]

/-- What the body leaves, window by window. -/
theorem after2_0 (hH : ∀ j : Fin 50000, ((a.1 0) (ValueIdx.ix1 j)).toNat < 50000) (c : Dev nD) (t : Fin (cfg2 a).N) : (dat2 V a hH c).after 0 t = iblk2 V a c 0 t := by dsimp only [dat2]; try rfl
theorem after2_1 (hH : ∀ j : Fin 50000, ((a.1 0) (ValueIdx.ix1 j)).toNat < 50000) (c : Dev nD) (t : Fin (cfg2 a).N) : (dat2 V a hH c).after 1 t = (outsAt2 V a hH c t) := by dsimp only [dat2]; try rfl

/-- The input's current staging buffer holds its block at every point, fetched there or not. -/
theorem before2_0 (hH : ∀ j : Fin 50000, ((a.1 0) (ValueIdx.ix1 j)).toNat < 50000) (c : Dev nD) (t : Fin (cfg2 a).N) (d) : (dat2 V a hH c).before 0 t d = iblk2 V a c 0 t :=
  before2_0_of V a (dat2 V a hH c) (A_eq2 V a hH c 0) (after2_0 V a hH c) t d

/-! ## The body obligation, at a generic point -/

/-- What the body is called with at point t, the windows one by one, -/
def bodyPre2 (hH : ∀ j : Fin 50000, ((a.1 0) (ValueIdx.ix1 j)).toNat < 50000) (c : Dev nD) (t : Fin (cfg2 a).N) : sProp 𝕄 :=
  iprop((dat2 V a hH c).Φ t.castSucc ∗ (dat2 V a hH c).owesAt () t.castSucc
    ∗ (∃ d, owns (c : Thread nD τ) (ms2_0 a t) fullShare ((dat2 V a hH c).before 0 t d))
    ∗ (∃ d, owns (c : Thread nD τ) (ms2_1 a t) fullShare ((dat2 V a hH c).before 1 t d)))

/-- and what it returns. -/
def bodyPost2 (hH : ∀ j : Fin 50000, ((a.1 0) (ValueIdx.ix1 j)).toNat < 50000) (c : Dev nD) (t : Fin (cfg2 a).N) : sProp 𝕄 :=
  iprop((dat2 V a hH c).Φ t.succ ∗ (dat2 V a hH c).owesAt () t.succ
    ∗ owns (c : Thread nD τ) (ms2_0 a t) fullShare ((dat2 V a hH c).after 0 t)
    ∗ owns (c : Thread nD τ) (ms2_1 a t) fullShare ((dat2 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body2 (hH : ∀ j : Fin 50000, ((a.1 0) (ValueIdx.ix1 j)).toNat < 50000) (c : Dev nD) (t : Fin (cfg2 a).N) :
    bodyPre2 V a hH c t ⊢ wp frame (wpE (defs₀ (F := F)) Variants.none c none) Set.univ (bodyAt2 a t) (fun _ => bodyPost2 V a hH c t) := by
  unfold bodyPre2 bodyPost2 bodyAt2
  simp only [before2_0]
  rw [show (dat2 V a hH c).Φ t.succ = (dat2 V a hH c).Φ t.castSucc from rfl,
    after2_0, after2_1]
  rw [show (dat2 V a hH c).Φ t.castSucc = iprop(Pipeline.ΦD osem2 spec2 H2 V c ∗ Pipeline.prefHeld pre2 c (fun _ => fullShare) a.1) from rfl, PhiD2_eq, prefHeld2_eq]
  unfold Dat.owesAt Pipeline.owesWithin
  rw [show (dat2 V a hH c).owed t.castSucc = 0 from rfl, show (dat2 V a hH c).owed t.succ = 0 from rfl]
  unfold outsAt2
  unfold out2_1
  iintro ⟨⟨⟨⟨HS0, HSr⟩, Hg, Hq, Hh0⟩, HT⟩, ⟨%W, -, HW⟩, ⟨%d0, H0⟩, ⟨%d1, H2⟩⟩
  iapply ((kernelRun2 c (grid2.coords t) _ _ _ _ (iblk2 V a c 0 t) (a.1 0) (V c main_v34) (tbl_lt2 a hH c)).2 W _)
  isplitl [H0]; · iexact H0
  isplitl [H2]; · iexists _; iexact H2
  isplitl [HS0]; · iexact HS0
  isplitl [Hq]; · iexact Hq
  isplitl [Hh0]; · iexact Hh0
  isplitl [HT]; · iexact HT
  isplitl [HW]; · iexact HW
  iintro ⟨H0, ⟨%e1, H2⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H2
  ipureintro; exact View.read_writes_of_cover _ _ _ _ _ (cover2_1 c _ _ _ _ _ _ _ _ _)

/-- The library's body obligation, at every point. -/
theorem body_obligation2 (hH : ∀ j : Fin 50000, ((a.1 0) (ValueIdx.ix1 j)).toNat < 50000) (c : Dev nD) : BodyObligation (dat2 (F := F) V a hH c) (defs₀ (F := F)) Variants.none () Set.univ := fun t => by
  rw [bigSep_W2, bigSep_W2]
  exact sound_body2 V a hH c t

end Cert.Kernel.Hand

end
-- ==== Proof.Bits.G3.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 3 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem3 : Fin 16 → SemLoc sig := fun j =>
  (![SemLoc.dma 49, SemLoc.dma 50, SemLoc.dma 51, SemLoc.dma 52, SemLoc.dma 53, SemLoc.dma 54, SemLoc.dma 55, SemLoc.dma 56,
     SemLoc.dma 57, SemLoc.dma 58, SemLoc.dma 59, SemLoc.dma 60, SemLoc.dma 61, SemLoc.dma 62, SemLoc.dma 63, SemLoc.dma 64] : Fin 16 → SemLoc sig) j
theorem ownSemFacts3 : Pipeline.OwnSemFacts spec3 osem3 := by decide

/-- The HBM operand the body gathers rows from: unscoped, no window's array, no table. -/
def H3 : Finset (Ref sig .tc) := {main_v34}
theorem H3_sub : H3 ⊆ Pipeline.restRefsP sig pre3 spec3 := by decide

/-- The operands the pipeline does not stage, whole. -/
abbrev tbM3 : Memref sig .tc .smem S50000 .i32 := Memref.whole main_v42
abbrev hbM3 : Memref sig .tc .hbm S50000x512 .f32 := Memref.whole main_v34
abbrev scM3 : Memref sig .tc .vmem S16x512 .f32 := Memref.whole cc3_scratch0

/-- A whole memref's buffer on core `c`, and it held whole at `f`. -/
abbrev HbBuf3 (c : Dev nD) {sp : Space} {S : Shape} {e : EltTy} (M : Memref sig .tc sp S e) : Type := Buf (Elt F) (M.view.loc (c : Thread nD τ))
abbrev hbPt3 (c : Dev nD) {sp : Space} {S : Shape} {e : EltTy} (M : Memref sig .tc sp S e) (f : HbBuf3 (F := F) c M) : sProp 𝕄 :=
  M.view.loc (c : Thread nD τ) ↦{fullShare} f

/-- The sixteen own cells at zero. -/
abbrev sems3 (c : Dev nD) : sProp 𝕄 :=
  iprop(semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0)

/-- A row index inside the gathered array puts the one-row slice inside it. -/
theorem row_inb3 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk3_1_of_lt (w : BitVec 32) (h : w.toNat < 50000) : k3_chk1 w := ⟨row_inb3 w h, row_inb3 w h⟩
theorem chk3_2_of_lt (w : BitVec 32) (h : w.toNat < 50000) : k3_chk2 w := ⟨row_inb3 w h, row_inb3 w h⟩
theorem chk3_3_of_lt (w : BitVec 32) (h : w.toNat < 50000) : k3_chk3 w := ⟨row_inb3 w h, row_inb3 w h⟩
theorem chk3_4_of_lt (w : BitVec 32) (h : w.toNat < 50000) : k3_chk4 w := ⟨row_inb3 w h, row_inb3 w h⟩
theorem chk3_5_of_lt (w : BitVec 32) (h : w.toNat < 50000) : k3_chk5 w := ⟨row_inb3 w h, row_inb3 w h⟩
theorem chk3_6_of_lt (w : BitVec 32) (h : w.toNat < 50000) : k3_chk6 w := ⟨row_inb3 w h, row_inb3 w h⟩
theorem chk3_7_of_lt (w : BitVec 32) (h : w.toNat < 50000) : k3_chk7 w := ⟨row_inb3 w h, row_inb3 w h⟩
theorem chk3_8_of_lt (w : BitVec 32) (h : w.toNat < 50000) : k3_chk8 w := ⟨row_inb3 w h, row_inb3 w h⟩
theorem chk3_9_of_lt (w : BitVec 32) (h : w.toNat < 50000) : k3_chk9 w := ⟨row_inb3 w h, row_inb3 w h⟩
theorem chk3_10_of_lt (w : BitVec 32) (h : w.toNat < 50000) : k3_chk10 w := ⟨row_inb3 w h, row_inb3 w h⟩
theorem chk3_11_of_lt (w : BitVec 32) (h : w.toNat < 50000) : k3_chk11 w := ⟨row_inb3 w h, row_inb3 w h⟩
theorem chk3_12_of_lt (w : BitVec 32) (h : w.toNat < 50000) : k3_chk12 w := ⟨row_inb3 w h, row_inb3 w h⟩
theorem chk3_13_of_lt (w : BitVec 32) (h : w.toNat < 50000) : k3_chk13 w := ⟨row_inb3 w h, row_inb3 w h⟩
theorem chk3_14_of_lt (w : BitVec 32) (h : w.toNat < 50000) : k3_chk14 w := ⟨row_inb3 w h, row_inb3 w h⟩
theorem chk3_15_of_lt (w : BitVec 32) (h : w.toNat < 50000) : k3_chk15 w := ⟨row_inb3 w h, row_inb3 w h⟩
theorem chk3_16_of_lt (w : BitVec 32) (h : w.toNat < 50000) : k3_chk16 w := row_inb3 w h

/-- A whole points-to as what stays behind, sixteen read tokens numbered `b + 15` down to `b`, and the tokens below
    `b` kept as one family. -/
theorem toksAt3 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 49 … 64. -/
theorem toks3 {ℓ : Loc nD τ sig} (f : Buf (Elt F) ℓ) :
    (ℓ ↦{fullShare} f : sProp 𝕄) ⊣⊢ iprop((ℓ ↦{Transfers.shareDrop fullShare 65} f) ∗ (ℓ ↦{Transfers.shareTokN fullShare 64} f) ∗ (ℓ ↦{Transfers.shareTokN fullShare 63} f) ∗ (ℓ ↦{Transfers.shareTokN fullShare 62} f) ∗ (ℓ ↦{Transfers.shareTokN fullShare 61} f) ∗ (ℓ ↦{Transfers.shareTokN fullShare 60} f) ∗ (ℓ ↦{Transfers.shareTokN fullShare 59} f) ∗ (ℓ ↦{Transfers.shareTokN fullShare 58} f) ∗ (ℓ ↦{Transfers.shareTokN fullShare 57} f) ∗ (ℓ ↦{Transfers.shareTokN fullShare 56} f) ∗ (ℓ ↦{Transfers.shareTokN fullShare 55} f) ∗ (ℓ ↦{Transfers.shareTokN fullShare 54} f) ∗ (ℓ ↦{Transfers.shareTokN fullShare 53} f) ∗ (ℓ ↦{Transfers.shareTokN fullShare 52} f) ∗ (ℓ ↦{Transfers.shareTokN fullShare 51} f) ∗ (ℓ ↦{Transfers.shareTokN fullShare 50} f) ∗ (ℓ ↦{Transfers.shareTokN fullShare 49} f)
      ∗ BI.bigSep (Finset.range 49) fun k => ℓ ↦{Transfers.shareTokN fullShare k} f) :=
  toksAt3 f 49

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun3 (c : Dev nD) (i : grid3.Coords) (arg3 : Memref sig .tc .vmem S16x1 .f32) (harg3 : arg3.IsWhole) (arg4 : Memref sig .tc .vmem S16x512 .f32) (harg4 : arg4.IsWhole)
    (x0 : Vec F S16x1 .f32) (tb : HbBuf3 (F := F) c tbM3) (fh0 : HbBuf3 (F := F) c hbM3) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM3 fullShare d) ∗ sems3 c ∗ hbPt3 c hbM3 fh0 ∗ hbPt3 c tbM3 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM3 fullShare d) ∗ sems3 c ∗ hbPt3 c hbM3 fh0 ∗ hbPt3 c tbM3 tb ∗ (∃ W', owes (c : Thread nD τ) 0 W')) -∗ K ⟨⟩))
          ⊢ wp frame (wpE (defs₀ (F := F)) Variants.none c none) Set.univ (cc3_kernel i tbM3 (Memref.isWhole_whole _) hbM3 (Memref.isWhole_whole _) arg3 harg3 arg4 harg4 scM3 (Memref.isWhole_whole _) cc3_scratch1) K } := by
  have k3_hw1 : k3_chk1 (tbM3.view.readAt (Elt F) (Rect.unit (s := S50000) (k3_off1 i) S1.size (k3_off1_inb i)).toLoadRect tb (Shape.Idx.first (numel1_S1.symm ▸ Nat.one_pos))) := chk3_1_of_lt _ (hH _)
  have k3_hw2 : k3_chk2 (tbM3.view.readAt (Elt F) (Rect.unit (s := S50000) (k3_off3 i) S1.size (k3_off3_inb i)).toLoadRect tb (Shape.Idx.first (numel1_S1.symm ▸ Nat.one_pos))) := chk3_2_of_lt _ (hH _)
  have k3_hw3 : k3_chk3 (tbM3.view.readAt (Elt F) (Rect.unit (s := S50000) (k3_off5 i) S1.size (k3_off5_inb i)).toLoadRect tb (Shape.Idx.first (numel1_S1.symm ▸ Nat.one_pos))) := chk3_3_of_lt _ (hH _)
  have k3_hw4 : k3_chk4 (tbM3.view.readAt (Elt F) (Rect.unit (s := S50000) (k3_off7 i) S1.size (k3_off7_inb i)).toLoadRect tb (Shape.Idx.first (numel1_S1.symm ▸ Nat.one_pos))) := chk3_4_of_lt _ (hH _)
  have k3_hw5 : k3_chk5 (tbM3.view.readAt (Elt F) (Rect.unit (s := S50000) (k3_off9 i) S1.size (k3_off9_inb i)).toLoadRect tb (Shape.Idx.first (numel1_S1.symm ▸ Nat.one_pos))) := chk3_5_of_lt _ (hH _)
  have k3_hw6 : k3_chk6 (tbM3.view.readAt (Elt F) (Rect.unit (s := S50000) (k3_off11 i) S1.size (k3_off11_inb i)).toLoadRect tb (Shape.Idx.first (numel1_S1.symm ▸ Nat.one_pos))) := chk3_6_of_lt _ (hH _)
  have k3_hw7 : k3_chk7 (tbM3.view.readAt (Elt F) (Rect.unit (s := S50000) (k3_off13 i) S1.size (k3_off13_inb i)).toLoadRect tb (Shape.Idx.first (numel1_S1.symm ▸ Nat.one_pos))) := chk3_7_of_lt _ (hH _)
  have k3_hw8 : k3_chk8 (tbM3.view.readAt (Elt F) (Rect.unit (s := S50000) (k3_off15 i) S1.size (k3_off15_inb i)).toLoadRect tb (Shape.Idx.first (numel1_S1.symm ▸ Nat.one_pos))) := chk3_8_of_lt _ (hH _)
  have k3_hw9 : k3_chk9 (tbM3.view.readAt (Elt F) (Rect.unit (s := S50000) (k3_off17 i) S1.size (k3_off17_inb i)).toLoadRect tb (Shape.Idx.first (numel1_S1.symm ▸ Nat.one_pos))) := chk3_9_of_lt _ (hH _)
  have k3_hw10 : k3_chk10 (tbM3.view.readAt (Elt F) (Rect.unit (s := S50000) (k3_off19 i) S1.size (k3_off19_inb i)).toLoadRect tb (Shape.Idx.first (numel1_S1.symm ▸ Nat.one_pos))) := chk3_10_of_lt _ (hH _)
  have k3_hw11 : k3_chk11 (tbM3.view.readAt (Elt F) (Rect.unit (s := S50000) (k3_off21 i) S1.size (k3_off21_inb i)).toLoadRect tb (Shape.Idx.first (numel1_S1.symm ▸ Nat.one_pos))) := chk3_11_of_lt _ (hH _)
  have k3_hw12 : k3_chk12 (tbM3.view.readAt (Elt F) (Rect.unit (s := S50000) (k3_off23 i) S1.size (k3_off23_inb i)).toLoadRect tb (Shape.Idx.first (numel1_S1.symm ▸ Nat.one_pos))) := chk3_12_of_lt _ (hH _)
  have k3_hw13 : k3_chk13 (tbM3.view.readAt (Elt F) (Rect.unit (s := S50000) (k3_off25 i) S1.size (k3_off25_inb i)).toLoadRect tb (Shape.Idx.first (numel1_S1.symm ▸ Nat.one_pos))) := chk3_13_of_lt _ (hH _)
  have k3_hw14 : k3_chk14 (tbM3.view.readAt (Elt F) (Rect.unit (s := S50000) (k3_off27 i) S1.size (k3_off27_inb i)).toLoadRect tb (Shape.Idx.first (numel1_S1.symm ▸ Nat.one_pos))) := chk3_14_of_lt _ (hH _)
  have k3_hw15 : k3_chk15 (tbM3.view.readAt (Elt F) (Rect.unit (s := S50000) (k3_off29 i) S1.size (k3_off29_inb i)).toLoadRect tb (Shape.Idx.first (numel1_S1.symm ▸ Nat.one_pos))) := chk3_15_of_lt _ (hH _)
  have k3_hw16 : k3_chk16 (tbM3.view.readAt (Elt F) (Rect.unit (s := S50000) (k3_off31 i) S1.size (k3_off31_inb i)).toLoadRect tb (Shape.Idx.first (numel1_S1.symm ▸ Nat.one_pos))) := chk3_16_of_lt _ (hH _)
  refine ⟨?_, fun W K => ?run⟩
  case run =>
    simp only [cc3_kernel_eq_skeleton]; unfold cc3_kernel_skel
    simp only [k3_part7_eq_skeleton]; unfold k3_part7_skel
    simp only [k3_part1_eq_skeleton, k3_part2_eq_skeleton, k3_part3_eq_skeleton, k3_part4_eq_skeleton, k3_part5_eq_skeleton, k3_part6_eq_skeleton]
    unfold owns sems3
    iintro ⟨⟨%f0, %hf0, H0⟩, ⟨%d1, %f1, -, H3⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks3 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k3_hw1 | sl_exact k3_hw2 | sl_exact k3_hw3 | sl_exact k3_hw4 | sl_exact k3_hw5 | sl_exact k3_hw6 | sl_exact k3_hw7 | sl_exact k3_hw8 | sl_exact k3_hw9 | sl_exact k3_hw10 | sl_exact k3_hw11 | sl_exact k3_hw12 | sl_exact k3_hw13 | sl_exact k3_hw14 | sl_exact k3_hw15 | sl_exact k3_hw16)
    sl_step
    iapply Hk
    isplitl [H0]
    · iexists _; isplitr; · ipureintro; exact harg3.read_unread _
      iexact H0
    isplitl [H3]; · iexists _; iexact H3
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks3 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg3 (F := F)).Adm)

/-- Each window's current staging memref at point t, spelled as the pipeline passes it, and its wholeness. -/
abbrev ms3_0 (t : Fin (cfg3 a).N) : Memref sig .tc .vmem S16x1 .f32 := spec3_0.stage ((cfg3 a).slots t 0)
abbrev hs3_0 (t : Fin (cfg3 a).N) : (ms3_0 a t).IsWhole := hstage3_0 (((cfg3 a).slots t 0).cast nbuf3_0)
abbrev ms3_1 (t : Fin (cfg3 a).N) : Memref sig .tc .vmem S16x512 .f32 := spec3_1.stage ((cfg3 a).slots t 1)
abbrev hs3_1 (t : Fin (cfg3 a).N) : (ms3_1 a t).IsWhole := hstage3_1 (((cfg3 a).slots t 1).cast nbuf3_1)

/-- The kernel body at point t, on what the pipeline calls it with. -/
abbrev bodyAt3 (t : Fin (cfg3 a).N) : Prog (TpuEff nD τ sig (Elt F) Λ₀ .tc) PUnit :=
  cc3_kernel (grid3.coords t) tbM3 (Memref.isWhole_whole _) hbM3 (Memref.isWhole_whole _) (ms3_0 a t) (hs3_0 a t) (ms3_1 a t) (hs3_1 a t) scM3 (Memref.isWhole_whole _) cc3_scratch1

/-! ## The invariant, conjunct by conjunct -/

/-- The sixteen own cells at zero, listed. -/
theorem ownSems03_eq (c : Dev nD) :
    (Pipeline.ownSems0 (Ix := Unit) (Name := ℕ) (U := Pipeline.UD sig nD τ) (Lvl := ℕ) (Val := Elt F) (τ := τ) osem3 c : sProp 𝕄) = sems3 c := by
  rw [Pipeline.ownSems0_eq_of_list c osem3 [0, 1, 2, 3, 4, 5, 6, 7, 8, 9, 10, 11, 12, 13, 14, 15] (by decide) (by decide)]; rfl

/-- The gathered array's points-to at the region-entry contents. -/
theorem hbmPts3_eq (c : Dev nD) :
    (bigSep H3 (fun b => ((c : Thread nD τ).loc b) ↦{fullShare} V c b) : sProp 𝕄) = iprop(hbPt3 c hbM3 (V c main_v34)) := by
  rw [BI.bigSep_eq_bigSepL_of_eq [main_v34] (by decide) (by decide)]; rfl

/-- The row table, whole, at the contents the region is launched with. -/
theorem prefHeld3_eq (c : Dev nD) :
    (Pipeline.prefHeld (Ix := Unit) (Name := ℕ) (U := Pipeline.UD sig nD τ) (Lvl := ℕ) pre3 c (fun _ => fullShare) a.1 : sProp 𝕄) = iprop(hbPt3 c tbM3 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD3_eq (c : Dev nD) :
    (Pipeline.ΦD osem3 spec3 H3 V c : sProp 𝕄)
      = iprop(iprop((∃ d, owns (c : Thread nD τ) scM3 fullShare d) ∗ Pipeline.scopedRestBut (Ix := Unit) (Name := ℕ) (U := Pipeline.UD sig nD τ) (Lvl := ℕ) (Val := Elt F) spec3 c [cc3_scratch0])
          ∗ (∃ r, prngReg c r) ∗ sems3 c ∗ iprop(hbPt3 c hbM3 (V c main_v34))) := by
  rw [Pipeline.ΦD_eq, scopedRest3_split, ownSems03_eq, hbmPts3_eq]; simp only [scM3, owns_whole]; try rfl

/-! ## The windows' blocks -/

/-- Window w's block at point t, read off its array as the region finds it. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- Input window 0's current staging buffer holds its block at every point, fetched there or not. -/
theorem before3_0_of {c : Dev nD} (dat : Dat τ (Elt F) Unit ℕ (Pipeline.UD sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## What the run leaves in the output window's buffer -/

/-- The run's pieces for the output tile its block, so they cover it. -/
theorem cover3_1 (c : Dev nD) (i : grid3.Coords) (arg3 : Memref sig .tc .vmem S16x1 .f32) (harg3 : arg3.IsWhole) (arg4 : Memref sig .tc .vmem S16x512 .f32) (harg4 : arg4.IsWhole)
    (x0 : Vec F S16x1 .f32) (tb : HbBuf3 (F := F) c tbM3) (fh0 : HbBuf3 (F := F) c hbM3) (hT : ∀ x, (tb x).toNat < 50000) (y : S16x512.Idx) :
    ∃ pc ∈ (kernelRun3 c i arg3 harg3 arg4 harg4 x0 tb fh0 hT).1, y ∈ pc.1.set :=
  View.cover_of_tiledL (kernelRun3 c i arg3 harg3 arg4 harg4 x0 tb fh0 hT).1 S16x512.size (by sl_kernel_rfl) y

/-- One staging buffer of the output window, through which its contents are stated. -/
abbrev VO3_1 : View sig .tc .vmem S16x512 .f32 := (Memref.whole cc3_stg1_0 : Memref sig .tc .vmem S16x512 .f32).view

/-- What the run leaves in the output's staging buffer: its pieces read back over junk. -/
def out3_1 (c : Dev nD) (i : grid3.Coords) (arg3 : Memref sig .tc .vmem S16x1 .f32) (harg3 : arg3.IsWhole) (arg4 : Memref sig .tc .vmem S16x512 .f32) (harg4 : arg4.IsWhole)
    (x0 : Vec F S16x1 .f32) (tb : HbBuf3 (F := F) c tbM3) (fh0 : HbBuf3 (F := F) c hbM3) (hT : ∀ x, (tb x).toNat < 50000) : Vec F S16x512 .f32 :=
  VO3_1.read (Elt F) (VO3_1.writes (Elt F) VO3_1.junk (kernelRun3 c i arg3 harg3 arg4 harg4 x0 tb fh0 hT).1)

/-- Every word of the table is a row of the gathered array, from the same of its words by position. -/
theorem tbl_lt3 (hH : ∀ j : Fin 50000, ((a.1 0) (ValueIdx.ix1 j)).toNat < 50000) (c : Dev nD) : ∀ x, (((a.1 0 : HbBuf3 (F := F) c tbM3)) x).toNat < 50000 :=
  fun x => by rw [ValueIdx.eq_ix1 x]; exact hH _

/-- What the output's staging buffer holds after the body at point t: the run's contents at the point's memrefs, the
    norm block, the table and the gathered array. -/
def outsAt3 (hH : ∀ j : Fin 50000, ((a.1 0) (ValueIdx.ix1 j)).toNat < 50000) (c : Dev nD) (t : Fin (cfg3 a).N) : Vec F S16x512 .f32 :=
  out3_1 c (grid3.coords t) (ms3_0 a t) (hs3_0 a t) (ms3_1 a t) (hs3_1 a t) (iblk3 V a c 0 t) (a.1 0) (V c main_v34) (tbl_lt3 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat3 (hH : ∀ j : Fin 50000, ((a.1 0) (ValueIdx.ix1 j)).toNat < 50000) (c : Dev nD) : Dat τ (Elt F) Unit ℕ (Pipeline.UD sig nD τ) ℕ (cfg3 a) c where
  A w := V c (Pipeline.arrRef spec3 w)
  after w t := match w with
    | ⟨0, _⟩ => iblk3 V a c 0 t
    | ⟨1, _⟩ => (outsAt3 V a hH c t)
  Φ _ := iprop(Pipeline.ΦD osem3 spec3 H3 V c ∗ Pipeline.prefHeld pre3 c (fun _ => fullShare) a.1)
  q _ := fullShare
  owed _ := 0

/-- The proof data's arrays are the region-entry contents. -/
theorem A_eq3 (hH : ∀ j : Fin 50000, ((a.1 0) (ValueIdx.ix1 j)).toNat < 50000) (c : Dev nD) (w : Fin (cfg3 a).W) : (dat3 V a hH c).A w = V c (Pipeline.arrRef spec3 w) := by
  dsimp only [dat3]

/-- What the body leaves, window by window. -/
theorem after3_0 (hH : ∀ j : Fin 50000, ((a.1 0) (ValueIdx.ix1 j)).toNat < 50000) (c : Dev nD) (t : Fin (cfg3 a).N) : (dat3 V a hH c).after 0 t = iblk3 V a c 0 t := by dsimp only [dat3]; try rfl
theorem after3_1 (hH : ∀ j : Fin 50000, ((a.1 0) (ValueIdx.ix1 j)).toNat < 50000) (c : Dev nD) (t : Fin (cfg3 a).N) : (dat3 V a hH c).after 1 t = (outsAt3 V a hH c t) := by dsimp only [dat3]; try rfl

/-- The input's current staging buffer holds its block at every point, fetched there or not. -/
theorem before3_0 (hH : ∀ j : Fin 50000, ((a.1 0) (ValueIdx.ix1 j)).toNat < 50000) (c : Dev nD) (t : Fin (cfg3 a).N) (d) : (dat3 V a hH c).before 0 t d = iblk3 V a c 0 t :=
  before3_0_of V a (dat3 V a hH c) (A_eq3 V a hH c 0) (after3_0 V a hH c) t d

/-! ## The body obligation, at a generic point -/

/-- What the body is called with at point t, the windows one by one, -/
def bodyPre3 (hH : ∀ j : Fin 50000, ((a.1 0) (ValueIdx.ix1 j)).toNat < 50000) (c : Dev nD) (t : Fin (cfg3 a).N) : sProp 𝕄 :=
  iprop((dat3 V a hH c).Φ t.castSucc ∗ (dat3 V a hH c).owesAt () t.castSucc
    ∗ (∃ d, owns (c : Thread nD τ) (ms3_0 a t) fullShare ((dat3 V a hH c).before 0 t d))
    ∗ (∃ d, owns (c : Thread nD τ) (ms3_1 a t) fullShare ((dat3 V a hH c).before 1 t d)))

/-- and what it returns. -/
def bodyPost3 (hH : ∀ j : Fin 50000, ((a.1 0) (ValueIdx.ix1 j)).toNat < 50000) (c : Dev nD) (t : Fin (cfg3 a).N) : sProp 𝕄 :=
  iprop((dat3 V a hH c).Φ t.succ ∗ (dat3 V a hH c).owesAt () t.succ
    ∗ owns (c : Thread nD τ) (ms3_0 a t) fullShare ((dat3 V a hH c).after 0 t)
    ∗ owns (c : Thread nD τ) (ms3_1 a t) fullShare ((dat3 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body3 (hH : ∀ j : Fin 50000, ((a.1 0) (ValueIdx.ix1 j)).toNat < 50000) (c : Dev nD) (t : Fin (cfg3 a).N) :
    bodyPre3 V a hH c t ⊢ wp frame (wpE (defs₀ (F := F)) Variants.none c none) Set.univ (bodyAt3 a t) (fun _ => bodyPost3 V a hH c t) := by
  unfold bodyPre3 bodyPost3 bodyAt3
  simp only [before3_0]
  rw [show (dat3 V a hH c).Φ t.succ = (dat3 V a hH c).Φ t.castSucc from rfl,
    after3_0, after3_1]
  rw [show (dat3 V a hH c).Φ t.castSucc = iprop(Pipeline.ΦD osem3 spec3 H3 V c ∗ Pipeline.prefHeld pre3 c (fun _ => fullShare) a.1) from rfl, PhiD3_eq, prefHeld3_eq]
  unfold Dat.owesAt Pipeline.owesWithin
  rw [show (dat3 V a hH c).owed t.castSucc = 0 from rfl, show (dat3 V a hH c).owed t.succ = 0 from rfl]
  unfold outsAt3
  unfold out3_1
  iintro ⟨⟨⟨⟨HS0, HSr⟩, Hg, Hq, Hh0⟩, HT⟩, ⟨%W, -, HW⟩, ⟨%d0, H0⟩, ⟨%d1, H3⟩⟩
  iapply ((kernelRun3 c (grid3.coords t) _ _ _ _ (iblk3 V a c 0 t) (a.1 0) (V c main_v34) (tbl_lt3 a hH c)).2 W _)
  isplitl [H0]; · iexact H0
  isplitl [H3]; · iexists _; iexact H3
  isplitl [HS0]; · iexact HS0
  isplitl [Hq]; · iexact Hq
  isplitl [Hh0]; · iexact Hh0
  isplitl [HT]; · iexact HT
  isplitl [HW]; · iexact HW
  iintro ⟨H0, ⟨%e1, H3⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H3
  ipureintro; exact View.read_writes_of_cover _ _ _ _ _ (cover3_1 c _ _ _ _ _ _ _ _ _)

/-- The library's body obligation, at every point. -/
theorem body_obligation3 (hH : ∀ j : Fin 50000, ((a.1 0) (ValueIdx.ix1 j)).toNat < 50000) (c : Dev nD) : BodyObligation (dat3 (F := F) V a hH c) (defs₀ (F := F)) Variants.none () Set.univ := fun t => by
  rw [bigSep_W3, bigSep_W3]
  exact sound_body3 V a hH c t

end Cert.Kernel.Hand

end
-- ==== Proof.Bits.G4.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 4 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem4 : Fin 16 → SemLoc sig := fun j =>
  (![SemLoc.dma 69, SemLoc.dma 70, SemLoc.dma 71, SemLoc.dma 72, SemLoc.dma 73, SemLoc.dma 74, SemLoc.dma 75, SemLoc.dma 76,
     SemLoc.dma 77, SemLoc.dma 78, SemLoc.dma 79, SemLoc.dma 80, SemLoc.dma 81, SemLoc.dma 82, SemLoc.dma 83, SemLoc.dma 84] : Fin 16 → SemLoc sig) j
theorem ownSemFacts4 : Pipeline.OwnSemFacts spec4 osem4 := by decide

/-- The HBM operand the body gathers rows from: unscoped, no window's array, no table. -/
def H4 : Finset (Ref sig .tc) := {main_v34}
theorem H4_sub : H4 ⊆ Pipeline.restRefsP sig pre4 spec4 := by decide

/-- The operands the pipeline does not stage, whole. -/
abbrev tbM4 : Memref sig .tc .smem S50000 .i32 := Memref.whole main_v45
abbrev hbM4 : Memref sig .tc .hbm S50000x512 .f32 := Memref.whole main_v34
abbrev scM4 : Memref sig .tc .vmem S16x512 .f32 := Memref.whole cc4_scratch0

/-- A whole memref's buffer on core `c`, and it held whole at `f`. -/
abbrev HbBuf4 (c : Dev nD) {sp : Space} {S : Shape} {e : EltTy} (M : Memref sig .tc sp S e) : Type := Buf (Elt F) (M.view.loc (c : Thread nD τ))
abbrev hbPt4 (c : Dev nD) {sp : Space} {S : Shape} {e : EltTy} (M : Memref sig .tc sp S e) (f : HbBuf4 (F := F) c M) : sProp 𝕄 :=
  M.view.loc (c : Thread nD τ) ↦{fullShare} f

/-- The sixteen own cells at zero. -/
abbrev sems4 (c : Dev nD) : sProp 𝕄 :=
  iprop(semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0)

/-- A row index inside the gathered array puts the one-row slice inside it. -/
theorem row_inb4 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk4_1_of_lt (w : BitVec 32) (h : w.toNat < 50000) : k4_chk1 w := ⟨row_inb4 w h, row_inb4 w h⟩
theorem chk4_2_of_lt (w : BitVec 32) (h : w.toNat < 50000) : k4_chk2 w := ⟨row_inb4 w h, row_inb4 w h⟩
theorem chk4_3_of_lt (w : BitVec 32) (h : w.toNat < 50000) : k4_chk3 w := ⟨row_inb4 w h, row_inb4 w h⟩
theorem chk4_4_of_lt (w : BitVec 32) (h : w.toNat < 50000) : k4_chk4 w := ⟨row_inb4 w h, row_inb4 w h⟩
theorem chk4_5_of_lt (w : BitVec 32) (h : w.toNat < 50000) : k4_chk5 w := ⟨row_inb4 w h, row_inb4 w h⟩
theorem chk4_6_of_lt (w : BitVec 32) (h : w.toNat < 50000) : k4_chk6 w := ⟨row_inb4 w h, row_inb4 w h⟩
theorem chk4_7_of_lt (w : BitVec 32) (h : w.toNat < 50000) : k4_chk7 w := ⟨row_inb4 w h, row_inb4 w h⟩
theorem chk4_8_of_lt (w : BitVec 32) (h : w.toNat < 50000) : k4_chk8 w := ⟨row_inb4 w h, row_inb4 w h⟩
theorem chk4_9_of_lt (w : BitVec 32) (h : w.toNat < 50000) : k4_chk9 w := ⟨row_inb4 w h, row_inb4 w h⟩
theorem chk4_10_of_lt (w : BitVec 32) (h : w.toNat < 50000) : k4_chk10 w := ⟨row_inb4 w h, row_inb4 w h⟩
theorem chk4_11_of_lt (w : BitVec 32) (h : w.toNat < 50000) : k4_chk11 w := ⟨row_inb4 w h, row_inb4 w h⟩
theorem chk4_12_of_lt (w : BitVec 32) (h : w.toNat < 50000) : k4_chk12 w := ⟨row_inb4 w h, row_inb4 w h⟩
theorem chk4_13_of_lt (w : BitVec 32) (h : w.toNat < 50000) : k4_chk13 w := ⟨row_inb4 w h, row_inb4 w h⟩
theorem chk4_14_of_lt (w : BitVec 32) (h : w.toNat < 50000) : k4_chk14 w := ⟨row_inb4 w h, row_inb4 w h⟩
theorem chk4_15_of_lt (w : BitVec 32) (h : w.toNat < 50000) : k4_chk15 w := ⟨row_inb4 w h, row_inb4 w h⟩
theorem chk4_16_of_lt (w : BitVec 32) (h : w.toNat < 50000) : k4_chk16 w := row_inb4 w h

/-- A whole points-to as what stays behind, sixteen read tokens numbered `b + 15` down to `b`, and the tokens below
    `b` kept as one family. -/
theorem toksAt4 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 69 … 84. -/
theorem toks4 {ℓ : Loc nD τ sig} (f : Buf (Elt F) ℓ) :
    (ℓ ↦{fullShare} f : sProp 𝕄) ⊣⊢ iprop((ℓ ↦{Transfers.shareDrop fullShare 85} f) ∗ (ℓ ↦{Transfers.shareTokN fullShare 84} f) ∗ (ℓ ↦{Transfers.shareTokN fullShare 83} f) ∗ (ℓ ↦{Transfers.shareTokN fullShare 82} f) ∗ (ℓ ↦{Transfers.shareTokN fullShare 81} f) ∗ (ℓ ↦{Transfers.shareTokN fullShare 80} f) ∗ (ℓ ↦{Transfers.shareTokN fullShare 79} f) ∗ (ℓ ↦{Transfers.shareTokN fullShare 78} f) ∗ (ℓ ↦{Transfers.shareTokN fullShare 77} f) ∗ (ℓ ↦{Transfers.shareTokN fullShare 76} f) ∗ (ℓ ↦{Transfers.shareTokN fullShare 75} f) ∗ (ℓ ↦{Transfers.shareTokN fullShare 74} f) ∗ (ℓ ↦{Transfers.shareTokN fullShare 73} f) ∗ (ℓ ↦{Transfers.shareTokN fullShare 72} f) ∗ (ℓ ↦{Transfers.shareTokN fullShare 71} f) ∗ (ℓ ↦{Transfers.shareTokN fullShare 70} f) ∗ (ℓ ↦{Transfers.shareTokN fullShare 69} f)
      ∗ BI.bigSep (Finset.range 69) fun k => ℓ ↦{Transfers.shareTokN fullShare k} f) :=
  toksAt4 f 69

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun4 (c : Dev nD) (i : grid4.Coords) (arg3 : Memref sig .tc .vmem S16x1 .f32) (harg3 : arg3.IsWhole) (arg4 : Memref sig .tc .vmem S16x512 .f32) (harg4 : arg4.IsWhole)
    (x0 : Vec F S16x1 .f32) (tb : HbBuf4 (F := F) c tbM4) (fh0 : HbBuf4 (F := F) c hbM4) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM4 fullShare d) ∗ sems4 c ∗ hbPt4 c hbM4 fh0 ∗ hbPt4 c tbM4 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM4 fullShare d) ∗ sems4 c ∗ hbPt4 c hbM4 fh0 ∗ hbPt4 c tbM4 tb ∗ (∃ W', owes (c : Thread nD τ) 0 W')) -∗ K ⟨⟩))
          ⊢ wp frame (wpE (defs₀ (F := F)) Variants.none c none) Set.univ (cc4_kernel i tbM4 (Memref.isWhole_whole _) hbM4 (Memref.isWhole_whole _) arg3 harg3 arg4 harg4 scM4 (Memref.isWhole_whole _) cc4_scratch1) K } := by
  have k4_hw1 : k4_chk1 (tbM4.view.readAt (Elt F) (Rect.unit (s := S50000) (k4_off1 i) S1.size (k4_off1_inb i)).toLoadRect tb (Shape.Idx.first (numel1_S1.symm ▸ Nat.one_pos))) := chk4_1_of_lt _ (hH _)
  have k4_hw2 : k4_chk2 (tbM4.view.readAt (Elt F) (Rect.unit (s := S50000) (k4_off3 i) S1.size (k4_off3_inb i)).toLoadRect tb (Shape.Idx.first (numel1_S1.symm ▸ Nat.one_pos))) := chk4_2_of_lt _ (hH _)
  have k4_hw3 : k4_chk3 (tbM4.view.readAt (Elt F) (Rect.unit (s := S50000) (k4_off5 i) S1.size (k4_off5_inb i)).toLoadRect tb (Shape.Idx.first (numel1_S1.symm ▸ Nat.one_pos))) := chk4_3_of_lt _ (hH _)
  have k4_hw4 : k4_chk4 (tbM4.view.readAt (Elt F) (Rect.unit (s := S50000) (k4_off7 i) S1.size (k4_off7_inb i)).toLoadRect tb (Shape.Idx.first (numel1_S1.symm ▸ Nat.one_pos))) := chk4_4_of_lt _ (hH _)
  have k4_hw5 : k4_chk5 (tbM4.view.readAt (Elt F) (Rect.unit (s := S50000) (k4_off9 i) S1.size (k4_off9_inb i)).toLoadRect tb (Shape.Idx.first (numel1_S1.symm ▸ Nat.one_pos))) := chk4_5_of_lt _ (hH _)
  have k4_hw6 : k4_chk6 (tbM4.view.readAt (Elt F) (Rect.unit (s := S50000) (k4_off11 i) S1.size (k4_off11_inb i)).toLoadRect tb (Shape.Idx.first (numel1_S1.symm ▸ Nat.one_pos))) := chk4_6_of_lt _ (hH _)
  have k4_hw7 : k4_chk7 (tbM4.view.readAt (Elt F) (Rect.unit (s := S50000) (k4_off13 i) S1.size (k4_off13_inb i)).toLoadRect tb (Shape.Idx.first (numel1_S1.symm ▸ Nat.one_pos))) := chk4_7_of_lt _ (hH _)
  have k4_hw8 : k4_chk8 (tbM4.view.readAt (Elt F) (Rect.unit (s := S50000) (k4_off15 i) S1.size (k4_off15_inb i)).toLoadRect tb (Shape.Idx.first (numel1_S1.symm ▸ Nat.one_pos))) := chk4_8_of_lt _ (hH _)
  have k4_hw9 : k4_chk9 (tbM4.view.readAt (Elt F) (Rect.unit (s := S50000) (k4_off17 i) S1.size (k4_off17_inb i)).toLoadRect tb (Shape.Idx.first (numel1_S1.symm ▸ Nat.one_pos))) := chk4_9_of_lt _ (hH _)
  have k4_hw10 : k4_chk10 (tbM4.view.readAt (Elt F) (Rect.unit (s := S50000) (k4_off19 i) S1.size (k4_off19_inb i)).toLoadRect tb (Shape.Idx.first (numel1_S1.symm ▸ Nat.one_pos))) := chk4_10_of_lt _ (hH _)
  have k4_hw11 : k4_chk11 (tbM4.view.readAt (Elt F) (Rect.unit (s := S50000) (k4_off21 i) S1.size (k4_off21_inb i)).toLoadRect tb (Shape.Idx.first (numel1_S1.symm ▸ Nat.one_pos))) := chk4_11_of_lt _ (hH _)
  have k4_hw12 : k4_chk12 (tbM4.view.readAt (Elt F) (Rect.unit (s := S50000) (k4_off23 i) S1.size (k4_off23_inb i)).toLoadRect tb (Shape.Idx.first (numel1_S1.symm ▸ Nat.one_pos))) := chk4_12_of_lt _ (hH _)
  have k4_hw13 : k4_chk13 (tbM4.view.readAt (Elt F) (Rect.unit (s := S50000) (k4_off25 i) S1.size (k4_off25_inb i)).toLoadRect tb (Shape.Idx.first (numel1_S1.symm ▸ Nat.one_pos))) := chk4_13_of_lt _ (hH _)
  have k4_hw14 : k4_chk14 (tbM4.view.readAt (Elt F) (Rect.unit (s := S50000) (k4_off27 i) S1.size (k4_off27_inb i)).toLoadRect tb (Shape.Idx.first (numel1_S1.symm ▸ Nat.one_pos))) := chk4_14_of_lt _ (hH _)
  have k4_hw15 : k4_chk15 (tbM4.view.readAt (Elt F) (Rect.unit (s := S50000) (k4_off29 i) S1.size (k4_off29_inb i)).toLoadRect tb (Shape.Idx.first (numel1_S1.symm ▸ Nat.one_pos))) := chk4_15_of_lt _ (hH _)
  have k4_hw16 : k4_chk16 (tbM4.view.readAt (Elt F) (Rect.unit (s := S50000) (k4_off31 i) S1.size (k4_off31_inb i)).toLoadRect tb (Shape.Idx.first (numel1_S1.symm ▸ Nat.one_pos))) := chk4_16_of_lt _ (hH _)
  refine ⟨?_, fun W K => ?run⟩
  case run =>
    simp only [cc4_kernel_eq_skeleton]; unfold cc4_kernel_skel
    simp only [k4_part7_eq_skeleton]; unfold k4_part7_skel
    simp only [k4_part1_eq_skeleton, k4_part2_eq_skeleton, k4_part3_eq_skeleton, k4_part4_eq_skeleton, k4_part5_eq_skeleton, k4_part6_eq_skeleton]
    unfold owns sems4
    iintro ⟨⟨%f0, %hf0, H0⟩, ⟨%d1, %f1, -, H4⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks4 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k4_hw1 | sl_exact k4_hw2 | sl_exact k4_hw3 | sl_exact k4_hw4 | sl_exact k4_hw5 | sl_exact k4_hw6 | sl_exact k4_hw7 | sl_exact k4_hw8 | sl_exact k4_hw9 | sl_exact k4_hw10 | sl_exact k4_hw11 | sl_exact k4_hw12 | sl_exact k4_hw13 | sl_exact k4_hw14 | sl_exact k4_hw15 | sl_exact k4_hw16)
    sl_step
    iapply Hk
    isplitl [H0]
    · iexists _; isplitr; · ipureintro; exact harg3.read_unread _
      iexact H0
    isplitl [H4]; · iexists _; iexact H4
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks4 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg4 (F := F)).Adm)

/-- Each window's current staging memref at point t, spelled as the pipeline passes it, and its wholeness. -/
abbrev ms4_0 (t : Fin (cfg4 a).N) : Memref sig .tc .vmem S16x1 .f32 := spec4_0.stage ((cfg4 a).slots t 0)
abbrev hs4_0 (t : Fin (cfg4 a).N) : (ms4_0 a t).IsWhole := hstage4_0 (((cfg4 a).slots t 0).cast nbuf4_0)
abbrev ms4_1 (t : Fin (cfg4 a).N) : Memref sig .tc .vmem S16x512 .f32 := spec4_1.stage ((cfg4 a).slots t 1)
abbrev hs4_1 (t : Fin (cfg4 a).N) : (ms4_1 a t).IsWhole := hstage4_1 (((cfg4 a).slots t 1).cast nbuf4_1)

/-- The kernel body at point t, on what the pipeline calls it with. -/
abbrev bodyAt4 (t : Fin (cfg4 a).N) : Prog (TpuEff nD τ sig (Elt F) Λ₀ .tc) PUnit :=
  cc4_kernel (grid4.coords t) tbM4 (Memref.isWhole_whole _) hbM4 (Memref.isWhole_whole _) (ms4_0 a t) (hs4_0 a t) (ms4_1 a t) (hs4_1 a t) scM4 (Memref.isWhole_whole _) cc4_scratch1

/-! ## The invariant, conjunct by conjunct -/

/-- The sixteen own cells at zero, listed. -/
theorem ownSems04_eq (c : Dev nD) :
    (Pipeline.ownSems0 (Ix := Unit) (Name := ℕ) (U := Pipeline.UD sig nD τ) (Lvl := ℕ) (Val := Elt F) (τ := τ) osem4 c : sProp 𝕄) = sems4 c := by
  rw [Pipeline.ownSems0_eq_of_list c osem4 [0, 1, 2, 3, 4, 5, 6, 7, 8, 9, 10, 11, 12, 13, 14, 15] (by decide) (by decide)]; rfl

/-- The gathered array's points-to at the region-entry contents. -/
theorem hbmPts4_eq (c : Dev nD) :
    (bigSep H4 (fun b => ((c : Thread nD τ).loc b) ↦{fullShare} V c b) : sProp 𝕄) = iprop(hbPt4 c hbM4 (V c main_v34)) := by
  rw [BI.bigSep_eq_bigSepL_of_eq [main_v34] (by decide) (by decide)]; rfl

/-- The row table, whole, at the contents the region is launched with. -/
theorem prefHeld4_eq (c : Dev nD) :
    (Pipeline.prefHeld (Ix := Unit) (Name := ℕ) (U := Pipeline.UD sig nD τ) (Lvl := ℕ) pre4 c (fun _ => fullShare) a.1 : sProp 𝕄) = iprop(hbPt4 c tbM4 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD4_eq (c : Dev nD) :
    (Pipeline.ΦD osem4 spec4 H4 V c : sProp 𝕄)
      = iprop(iprop((∃ d, owns (c : Thread nD τ) scM4 fullShare d) ∗ Pipeline.scopedRestBut (Ix := Unit) (Name := ℕ) (U := Pipeline.UD sig nD τ) (Lvl := ℕ) (Val := Elt F) spec4 c [cc4_scratch0])
          ∗ (∃ r, prngReg c r) ∗ sems4 c ∗ iprop(hbPt4 c hbM4 (V c main_v34))) := by
  rw [Pipeline.ΦD_eq, scopedRest4_split, ownSems04_eq, hbmPts4_eq]; simp only [scM4, owns_whole]; try rfl

/-! ## The windows' blocks -/

/-- Window w's block at point t, read off its array as the region finds it. -/
def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- Input window 0's current staging buffer holds its block at every point, fetched there or not. -/
theorem before4_0_of {c : Dev nD} (dat : Dat τ (Elt F) Unit ℕ (Pipeline.UD sig nD τ) ℕ (cfg4 a) c) (hA : dat.A 0 = V c (Pipeline.arrRef spec4 0))
    (hafter : ∀ t, dat.after 0 t = iblk4 V a c 0 t) (t : Fin (cfg4 a).N) (d) : dat.before 0 t d = iblk4 V a c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## What the run leaves in the output window's buffer -/

/-- The run's pieces for the output tile its block, so they cover it. -/
theorem cover4_1 (c : Dev nD) (i : grid4.Coords) (arg3 : Memref sig .tc .vmem S16x1 .f32) (harg3 : arg3.IsWhole) (arg4 : Memref sig .tc .vmem S16x512 .f32) (harg4 : arg4.IsWhole)
    (x0 : Vec F S16x1 .f32) (tb : HbBuf4 (F := F) c tbM4) (fh0 : HbBuf4 (F := F) c hbM4) (hT : ∀ x, (tb x).toNat < 50000) (y : S16x512.Idx) :
    ∃ pc ∈ (kernelRun4 c i arg3 harg3 arg4 harg4 x0 tb fh0 hT).1, y ∈ pc.1.set :=
  View.cover_of_tiledL (kernelRun4 c i arg3 harg3 arg4 harg4 x0 tb fh0 hT).1 S16x512.size (by sl_kernel_rfl) y

/-- One staging buffer of the output window, through which its contents are stated. -/
abbrev VO4_1 : View sig .tc .vmem S16x512 .f32 := (Memref.whole cc4_stg1_0 : Memref sig .tc .vmem S16x512 .f32).view

/-- What the run leaves in the output's staging buffer: its pieces read back over junk. -/
def out4_1 (c : Dev nD) (i : grid4.Coords) (arg3 : Memref sig .tc .vmem S16x1 .f32) (harg3 : arg3.IsWhole) (arg4 : Memref sig .tc .vmem S16x512 .f32) (harg4 : arg4.IsWhole)
    (x0 : Vec F S16x1 .f32) (tb : HbBuf4 (F := F) c tbM4) (fh0 : HbBuf4 (F := F) c hbM4) (hT : ∀ x, (tb x).toNat < 50000) : Vec F S16x512 .f32 :=
  VO4_1.read (Elt F) (VO4_1.writes (Elt F) VO4_1.junk (kernelRun4 c i arg3 harg3 arg4 harg4 x0 tb fh0 hT).1)

/-- Every word of the table is a row of the gathered array, from the same of its words by position. -/
theorem tbl_lt4 (hH : ∀ j : Fin 50000, ((a.1 0) (ValueIdx.ix1 j)).toNat < 50000) (c : Dev nD) : ∀ x, (((a.1 0 : HbBuf4 (F := F) c tbM4)) x).toNat < 50000 :=
  fun x => by rw [ValueIdx.eq_ix1 x]; exact hH _

/-- What the output's staging buffer holds after the body at point t: the run's contents at the point's memrefs, the
    norm block, the table and the gathered array. -/
def outsAt4 (hH : ∀ j : Fin 50000, ((a.1 0) (ValueIdx.ix1 j)).toNat < 50000) (c : Dev nD) (t : Fin (cfg4 a).N) : Vec F S16x512 .f32 :=
  out4_1 c (grid4.coords t) (ms4_0 a t) (hs4_0 a t) (ms4_1 a t) (hs4_1 a t) (iblk4 V a c 0 t) (a.1 0) (V c main_v34) (tbl_lt4 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat4 (hH : ∀ j : Fin 50000, ((a.1 0) (ValueIdx.ix1 j)).toNat < 50000) (c : Dev nD) : Dat τ (Elt F) Unit ℕ (Pipeline.UD sig nD τ) ℕ (cfg4 a) c where
  A w := V c (Pipeline.arrRef spec4 w)
  after w t := match w with
    | ⟨0, _⟩ => iblk4 V a c 0 t
    | ⟨1, _⟩ => (outsAt4 V a hH c t)
  Φ _ := iprop(Pipeline.ΦD osem4 spec4 H4 V c ∗ Pipeline.prefHeld pre4 c (fun _ => fullShare) a.1)
  q _ := fullShare
  owed _ := 0

/-- The proof data's arrays are the region-entry contents. -/
theorem A_eq4 (hH : ∀ j : Fin 50000, ((a.1 0) (ValueIdx.ix1 j)).toNat < 50000) (c : Dev nD) (w : Fin (cfg4 a).W) : (dat4 V a hH c).A w = V c (Pipeline.arrRef spec4 w) := by
  dsimp only [dat4]

/-- What the body leaves, window by window. -/
theorem after4_0 (hH : ∀ j : Fin 50000, ((a.1 0) (ValueIdx.ix1 j)).toNat < 50000) (c : Dev nD) (t : Fin (cfg4 a).N) : (dat4 V a hH c).after 0 t = iblk4 V a c 0 t := by dsimp only [dat4]; try rfl
theorem after4_1 (hH : ∀ j : Fin 50000, ((a.1 0) (ValueIdx.ix1 j)).toNat < 50000) (c : Dev nD) (t : Fin (cfg4 a).N) : (dat4 V a hH c).after 1 t = (outsAt4 V a hH c t) := by dsimp only [dat4]; try rfl

/-- The input's current staging buffer holds its block at every point, fetched there or not. -/
theorem before4_0 (hH : ∀ j : Fin 50000, ((a.1 0) (ValueIdx.ix1 j)).toNat < 50000) (c : Dev nD) (t : Fin (cfg4 a).N) (d) : (dat4 V a hH c).before 0 t d = iblk4 V a c 0 t :=
  before4_0_of V a (dat4 V a hH c) (A_eq4 V a hH c 0) (after4_0 V a hH c) t d

/-! ## The body obligation, at a generic point -/

/-- What the body is called with at point t, the windows one by one, -/
def bodyPre4 (hH : ∀ j : Fin 50000, ((a.1 0) (ValueIdx.ix1 j)).toNat < 50000) (c : Dev nD) (t : Fin (cfg4 a).N) : sProp 𝕄 :=
  iprop((dat4 V a hH c).Φ t.castSucc ∗ (dat4 V a hH c).owesAt () t.castSucc
    ∗ (∃ d, owns (c : Thread nD τ) (ms4_0 a t) fullShare ((dat4 V a hH c).before 0 t d))
    ∗ (∃ d, owns (c : Thread nD τ) (ms4_1 a t) fullShare ((dat4 V a hH c).before 1 t d)))

/-- and what it returns. -/
def bodyPost4 (hH : ∀ j : Fin 50000, ((a.1 0) (ValueIdx.ix1 j)).toNat < 50000) (c : Dev nD) (t : Fin (cfg4 a).N) : sProp 𝕄 :=
  iprop((dat4 V a hH c).Φ t.succ ∗ (dat4 V a hH c).owesAt () t.succ
    ∗ owns (c : Thread nD τ) (ms4_0 a t) fullShare ((dat4 V a hH c).after 0 t)
    ∗ owns (c : Thread nD τ) (ms4_1 a t) fullShare ((dat4 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body4 (hH : ∀ j : Fin 50000, ((a.1 0) (ValueIdx.ix1 j)).toNat < 50000) (c : Dev nD) (t : Fin (cfg4 a).N) :
    bodyPre4 V a hH c t ⊢ wp frame (wpE (defs₀ (F := F)) Variants.none c none) Set.univ (bodyAt4 a t) (fun _ => bodyPost4 V a hH c t) := by
  unfold bodyPre4 bodyPost4 bodyAt4
  simp only [before4_0]
  rw [show (dat4 V a hH c).Φ t.succ = (dat4 V a hH c).Φ t.castSucc from rfl,
    after4_0, after4_1]
  rw [show (dat4 V a hH c).Φ t.castSucc = iprop(Pipeline.ΦD osem4 spec4 H4 V c ∗ Pipeline.prefHeld pre4 c (fun _ => fullShare) a.1) from rfl, PhiD4_eq, prefHeld4_eq]
  unfold Dat.owesAt Pipeline.owesWithin
  rw [show (dat4 V a hH c).owed t.castSucc = 0 from rfl, show (dat4 V a hH c).owed t.succ = 0 from rfl]
  unfold outsAt4
  unfold out4_1
  iintro ⟨⟨⟨⟨HS0, HSr⟩, Hg, Hq, Hh0⟩, HT⟩, ⟨%W, -, HW⟩, ⟨%d0, H0⟩, ⟨%d1, H4⟩⟩
  iapply ((kernelRun4 c (grid4.coords t) _ _ _ _ (iblk4 V a c 0 t) (a.1 0) (V c main_v34) (tbl_lt4 a hH c)).2 W _)
  isplitl [H0]; · iexact H0
  isplitl [H4]; · iexists _; iexact H4
  isplitl [HS0]; · iexact HS0
  isplitl [Hq]; · iexact Hq
  isplitl [Hh0]; · iexact Hh0
  isplitl [HT]; · iexact HT
  isplitl [HW]; · iexact HW
  iintro ⟨H0, ⟨%e1, H4⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H4
  ipureintro; exact View.read_writes_of_cover _ _ _ _ _ (cover4_1 c _ _ _ _ _ _ _ _ _)

/-- The library's body obligation, at every point. -/
theorem body_obligation4 (hH : ∀ j : Fin 50000, ((a.1 0) (ValueIdx.ix1 j)).toNat < 50000) (c : Dev nD) : BodyObligation (dat4 (F := F) V a hH c) (defs₀ (F := F)) Variants.none () Set.univ := fun t => by
  rw [bigSep_W4, bigSep_W4]
  exact sound_body4 V a hH c t

end Cert.Kernel.Hand

end
-- ==== Proof.Bits.G5.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 5 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem5 : Fin 16 → SemLoc sig := fun j =>
  (![SemLoc.dma 89, SemLoc.dma 90, SemLoc.dma 91, SemLoc.dma 92, SemLoc.dma 93, SemLoc.dma 94, SemLoc.dma 95, SemLoc.dma 96,
     SemLoc.dma 97, SemLoc.dma 98, SemLoc.dma 99, SemLoc.dma 100, SemLoc.dma 101, SemLoc.dma 102, SemLoc.dma 103, SemLoc.dma 104] : Fin 16 → SemLoc sig) j
theorem ownSemFacts5 : Pipeline.OwnSemFacts spec5 osem5 := by decide

/-- The HBM operand the body gathers rows from: unscoped, no window's array, no table. -/
def H5 : Finset (Ref sig .tc) := {main_v34}
theorem H5_sub : H5 ⊆ Pipeline.restRefsP sig pre5 spec5 := by decide

/-- The operands the pipeline does not stage, whole. -/
abbrev tbM5 : Memref sig .tc .smem S50000 .i32 := Memref.whole main_v48
abbrev hbM5 : Memref sig .tc .hbm S50000x512 .f32 := Memref.whole main_v34
abbrev scM5 : Memref sig .tc .vmem S16x512 .f32 := Memref.whole cc5_scratch0

/-- A whole memref's buffer on core `c`, and it held whole at `f`. -/
abbrev HbBuf5 (c : Dev nD) {sp : Space} {S : Shape} {e : EltTy} (M : Memref sig .tc sp S e) : Type := Buf (Elt F) (M.view.loc (c : Thread nD τ))
abbrev hbPt5 (c : Dev nD) {sp : Space} {S : Shape} {e : EltTy} (M : Memref sig .tc sp S e) (f : HbBuf5 (F := F) c M) : sProp 𝕄 :=
  M.view.loc (c : Thread nD τ) ↦{fullShare} f

/-- The sixteen own cells at zero. -/
abbrev sems5 (c : Dev nD) : sProp 𝕄 :=
  iprop(semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0)

/-- A row index inside the gathered array puts the one-row slice inside it. -/
theorem row_inb5 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk5_1_of_lt (w : BitVec 32) (h : w.toNat < 50000) : k5_chk1 w := ⟨row_inb5 w h, row_inb5 w h⟩
theorem chk5_2_of_lt (w : BitVec 32) (h : w.toNat < 50000) : k5_chk2 w := ⟨row_inb5 w h, row_inb5 w h⟩
theorem chk5_3_of_lt (w : BitVec 32) (h : w.toNat < 50000) : k5_chk3 w := ⟨row_inb5 w h, row_inb5 w h⟩
theorem chk5_4_of_lt (w : BitVec 32) (h : w.toNat < 50000) : k5_chk4 w := ⟨row_inb5 w h, row_inb5 w h⟩
theorem chk5_5_of_lt (w : BitVec 32) (h : w.toNat < 50000) : k5_chk5 w := ⟨row_inb5 w h, row_inb5 w h⟩
theorem chk5_6_of_lt (w : BitVec 32) (h : w.toNat < 50000) : k5_chk6 w := ⟨row_inb5 w h, row_inb5 w h⟩
theorem chk5_7_of_lt (w : BitVec 32) (h : w.toNat < 50000) : k5_chk7 w := ⟨row_inb5 w h, row_inb5 w h⟩
theorem chk5_8_of_lt (w : BitVec 32) (h : w.toNat < 50000) : k5_chk8 w := ⟨row_inb5 w h, row_inb5 w h⟩
theorem chk5_9_of_lt (w : BitVec 32) (h : w.toNat < 50000) : k5_chk9 w := ⟨row_inb5 w h, row_inb5 w h⟩
theorem chk5_10_of_lt (w : BitVec 32) (h : w.toNat < 50000) : k5_chk10 w := ⟨row_inb5 w h, row_inb5 w h⟩
theorem chk5_11_of_lt (w : BitVec 32) (h : w.toNat < 50000) : k5_chk11 w := ⟨row_inb5 w h, row_inb5 w h⟩
theorem chk5_12_of_lt (w : BitVec 32) (h : w.toNat < 50000) : k5_chk12 w := ⟨row_inb5 w h, row_inb5 w h⟩
theorem chk5_13_of_lt (w : BitVec 32) (h : w.toNat < 50000) : k5_chk13 w := ⟨row_inb5 w h, row_inb5 w h⟩
theorem chk5_14_of_lt (w : BitVec 32) (h : w.toNat < 50000) : k5_chk14 w := ⟨row_inb5 w h, row_inb5 w h⟩
theorem chk5_15_of_lt (w : BitVec 32) (h : w.toNat < 50000) : k5_chk15 w := ⟨row_inb5 w h, row_inb5 w h⟩
theorem chk5_16_of_lt (w : BitVec 32) (h : w.toNat < 50000) : k5_chk16 w := row_inb5 w h

/-- A whole points-to as what stays behind, sixteen read tokens numbered `b + 15` down to `b`, and the tokens below
    `b` kept as one family. -/
theorem toksAt5 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 89 … 104. -/
theorem toks5 {ℓ : Loc nD τ sig} (f : Buf (Elt F) ℓ) :
    (ℓ ↦{fullShare} f : sProp 𝕄) ⊣⊢ iprop((ℓ ↦{Transfers.shareDrop fullShare 105} f) ∗ (ℓ ↦{Transfers.shareTokN fullShare 104} f) ∗ (ℓ ↦{Transfers.shareTokN fullShare 103} f) ∗ (ℓ ↦{Transfers.shareTokN fullShare 102} f) ∗ (ℓ ↦{Transfers.shareTokN fullShare 101} f) ∗ (ℓ ↦{Transfers.shareTokN fullShare 100} f) ∗ (ℓ ↦{Transfers.shareTokN fullShare 99} f) ∗ (ℓ ↦{Transfers.shareTokN fullShare 98} f) ∗ (ℓ ↦{Transfers.shareTokN fullShare 97} f) ∗ (ℓ ↦{Transfers.shareTokN fullShare 96} f) ∗ (ℓ ↦{Transfers.shareTokN fullShare 95} f) ∗ (ℓ ↦{Transfers.shareTokN fullShare 94} f) ∗ (ℓ ↦{Transfers.shareTokN fullShare 93} f) ∗ (ℓ ↦{Transfers.shareTokN fullShare 92} f) ∗ (ℓ ↦{Transfers.shareTokN fullShare 91} f) ∗ (ℓ ↦{Transfers.shareTokN fullShare 90} f) ∗ (ℓ ↦{Transfers.shareTokN fullShare 89} f)
      ∗ BI.bigSep (Finset.range 89) fun k => ℓ ↦{Transfers.shareTokN fullShare k} f) :=
  toksAt5 f 89

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun5 (c : Dev nD) (i : grid5.Coords) (arg3 : Memref sig .tc .vmem S16x1 .f32) (harg3 : arg3.IsWhole) (arg4 : Memref sig .tc .vmem S16x512 .f32) (harg4 : arg4.IsWhole)
    (x0 : Vec F S16x1 .f32) (tb : HbBuf5 (F := F) c tbM5) (fh0 : HbBuf5 (F := F) c hbM5) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM5 fullShare d) ∗ sems5 c ∗ hbPt5 c hbM5 fh0 ∗ hbPt5 c tbM5 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM5 fullShare d) ∗ sems5 c ∗ hbPt5 c hbM5 fh0 ∗ hbPt5 c tbM5 tb ∗ (∃ W', owes (c : Thread nD τ) 0 W')) -∗ K ⟨⟩))
          ⊢ wp frame (wpE (defs₀ (F := F)) Variants.none c none) Set.univ (cc5_kernel i tbM5 (Memref.isWhole_whole _) hbM5 (Memref.isWhole_whole _) arg3 harg3 arg4 harg4 scM5 (Memref.isWhole_whole _) cc5_scratch1) K } := by
  have k5_hw1 : k5_chk1 (tbM5.view.readAt (Elt F) (Rect.unit (s := S50000) (k5_off1 i) S1.size (k5_off1_inb i)).toLoadRect tb (Shape.Idx.first (numel1_S1.symm ▸ Nat.one_pos))) := chk5_1_of_lt _ (hH _)
  have k5_hw2 : k5_chk2 (tbM5.view.readAt (Elt F) (Rect.unit (s := S50000) (k5_off3 i) S1.size (k5_off3_inb i)).toLoadRect tb (Shape.Idx.first (numel1_S1.symm ▸ Nat.one_pos))) := chk5_2_of_lt _ (hH _)
  have k5_hw3 : k5_chk3 (tbM5.view.readAt (Elt F) (Rect.unit (s := S50000) (k5_off5 i) S1.size (k5_off5_inb i)).toLoadRect tb (Shape.Idx.first (numel1_S1.symm ▸ Nat.one_pos))) := chk5_3_of_lt _ (hH _)
  have k5_hw4 : k5_chk4 (tbM5.view.readAt (Elt F) (Rect.unit (s := S50000) (k5_off7 i) S1.size (k5_off7_inb i)).toLoadRect tb (Shape.Idx.first (numel1_S1.symm ▸ Nat.one_pos))) := chk5_4_of_lt _ (hH _)
  have k5_hw5 : k5_chk5 (tbM5.view.readAt (Elt F) (Rect.unit (s := S50000) (k5_off9 i) S1.size (k5_off9_inb i)).toLoadRect tb (Shape.Idx.first (numel1_S1.symm ▸ Nat.one_pos))) := chk5_5_of_lt _ (hH _)
  have k5_hw6 : k5_chk6 (tbM5.view.readAt (Elt F) (Rect.unit (s := S50000) (k5_off11 i) S1.size (k5_off11_inb i)).toLoadRect tb (Shape.Idx.first (numel1_S1.symm ▸ Nat.one_pos))) := chk5_6_of_lt _ (hH _)
  have k5_hw7 : k5_chk7 (tbM5.view.readAt (Elt F) (Rect.unit (s := S50000) (k5_off13 i) S1.size (k5_off13_inb i)).toLoadRect tb (Shape.Idx.first (numel1_S1.symm ▸ Nat.one_pos))) := chk5_7_of_lt _ (hH _)
  have k5_hw8 : k5_chk8 (tbM5.view.readAt (Elt F) (Rect.unit (s := S50000) (k5_off15 i) S1.size (k5_off15_inb i)).toLoadRect tb (Shape.Idx.first (numel1_S1.symm ▸ Nat.one_pos))) := chk5_8_of_lt _ (hH _)
  have k5_hw9 : k5_chk9 (tbM5.view.readAt (Elt F) (Rect.unit (s := S50000) (k5_off17 i) S1.size (k5_off17_inb i)).toLoadRect tb (Shape.Idx.first (numel1_S1.symm ▸ Nat.one_pos))) := chk5_9_of_lt _ (hH _)
  have k5_hw10 : k5_chk10 (tbM5.view.readAt (Elt F) (Rect.unit (s := S50000) (k5_off19 i) S1.size (k5_off19_inb i)).toLoadRect tb (Shape.Idx.first (numel1_S1.symm ▸ Nat.one_pos))) := chk5_10_of_lt _ (hH _)
  have k5_hw11 : k5_chk11 (tbM5.view.readAt (Elt F) (Rect.unit (s := S50000) (k5_off21 i) S1.size (k5_off21_inb i)).toLoadRect tb (Shape.Idx.first (numel1_S1.symm ▸ Nat.one_pos))) := chk5_11_of_lt _ (hH _)
  have k5_hw12 : k5_chk12 (tbM5.view.readAt (Elt F) (Rect.unit (s := S50000) (k5_off23 i) S1.size (k5_off23_inb i)).toLoadRect tb (Shape.Idx.first (numel1_S1.symm ▸ Nat.one_pos))) := chk5_12_of_lt _ (hH _)
  have k5_hw13 : k5_chk13 (tbM5.view.readAt (Elt F) (Rect.unit (s := S50000) (k5_off25 i) S1.size (k5_off25_inb i)).toLoadRect tb (Shape.Idx.first (numel1_S1.symm ▸ Nat.one_pos))) := chk5_13_of_lt _ (hH _)
  have k5_hw14 : k5_chk14 (tbM5.view.readAt (Elt F) (Rect.unit (s := S50000) (k5_off27 i) S1.size (k5_off27_inb i)).toLoadRect tb (Shape.Idx.first (numel1_S1.symm ▸ Nat.one_pos))) := chk5_14_of_lt _ (hH _)
  have k5_hw15 : k5_chk15 (tbM5.view.readAt (Elt F) (Rect.unit (s := S50000) (k5_off29 i) S1.size (k5_off29_inb i)).toLoadRect tb (Shape.Idx.first (numel1_S1.symm ▸ Nat.one_pos))) := chk5_15_of_lt _ (hH _)
  have k5_hw16 : k5_chk16 (tbM5.view.readAt (Elt F) (Rect.unit (s := S50000) (k5_off31 i) S1.size (k5_off31_inb i)).toLoadRect tb (Shape.Idx.first (numel1_S1.symm ▸ Nat.one_pos))) := chk5_16_of_lt _ (hH _)
  refine ⟨?_, fun W K => ?run⟩
  case run =>
    simp only [cc5_kernel_eq_skeleton]; unfold cc5_kernel_skel
    simp only [k5_part7_eq_skeleton]; unfold k5_part7_skel
    simp only [k5_part1_eq_skeleton, k5_part2_eq_skeleton, k5_part3_eq_skeleton, k5_part4_eq_skeleton, k5_part5_eq_skeleton, k5_part6_eq_skeleton]
    unfold owns sems5
    iintro ⟨⟨%f0, %hf0, H0⟩, ⟨%d1, %f1, -, H5⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks5 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k5_hw1 | sl_exact k5_hw2 | sl_exact k5_hw3 | sl_exact k5_hw4 | sl_exact k5_hw5 | sl_exact k5_hw6 | sl_exact k5_hw7 | sl_exact k5_hw8 | sl_exact k5_hw9 | sl_exact k5_hw10 | sl_exact k5_hw11 | sl_exact k5_hw12 | sl_exact k5_hw13 | sl_exact k5_hw14 | sl_exact k5_hw15 | sl_exact k5_hw16)
    sl_step
    iapply Hk
    isplitl [H0]
    · iexists _; isplitr; · ipureintro; exact harg3.read_unread _
      iexact H0
    isplitl [H5]; · iexists _; iexact H5
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks5 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg5 (F := F)).Adm)

/-- Each window's current staging memref at point t, spelled as the pipeline passes it, and its wholeness. -/
abbrev ms5_0 (t : Fin (cfg5 a).N) : Memref sig .tc .vmem S16x1 .f32 := spec5_0.stage ((cfg5 a).slots t 0)
abbrev hs5_0 (t : Fin (cfg5 a).N) : (ms5_0 a t).IsWhole := hstage5_0 (((cfg5 a).slots t 0).cast nbuf5_0)
abbrev ms5_1 (t : Fin (cfg5 a).N) : Memref sig .tc .vmem S16x512 .f32 := spec5_1.stage ((cfg5 a).slots t 1)
abbrev hs5_1 (t : Fin (cfg5 a).N) : (ms5_1 a t).IsWhole := hstage5_1 (((cfg5 a).slots t 1).cast nbuf5_1)

/-- The kernel body at point t, on what the pipeline calls it with. -/
abbrev bodyAt5 (t : Fin (cfg5 a).N) : Prog (TpuEff nD τ sig (Elt F) Λ₀ .tc) PUnit :=
  cc5_kernel (grid5.coords t) tbM5 (Memref.isWhole_whole _) hbM5 (Memref.isWhole_whole _) (ms5_0 a t) (hs5_0 a t) (ms5_1 a t) (hs5_1 a t) scM5 (Memref.isWhole_whole _) cc5_scratch1

/-! ## The invariant, conjunct by conjunct -/

/-- The sixteen own cells at zero, listed. -/
theorem ownSems05_eq (c : Dev nD) :
    (Pipeline.ownSems0 (Ix := Unit) (Name := ℕ) (U := Pipeline.UD sig nD τ) (Lvl := ℕ) (Val := Elt F) (τ := τ) osem5 c : sProp 𝕄) = sems5 c := by
  rw [Pipeline.ownSems0_eq_of_list c osem5 [0, 1, 2, 3, 4, 5, 6, 7, 8, 9, 10, 11, 12, 13, 14, 15] (by decide) (by decide)]; rfl

/-- The gathered array's points-to at the region-entry contents. -/
theorem hbmPts5_eq (c : Dev nD) :
    (bigSep H5 (fun b => ((c : Thread nD τ).loc b) ↦{fullShare} V c b) : sProp 𝕄) = iprop(hbPt5 c hbM5 (V c main_v34)) := by
  rw [BI.bigSep_eq_bigSepL_of_eq [main_v34] (by decide) (by decide)]; rfl

/-- The row table, whole, at the contents the region is launched with. -/
theorem prefHeld5_eq (c : Dev nD) :
    (Pipeline.prefHeld (Ix := Unit) (Name := ℕ) (U := Pipeline.UD sig nD τ) (Lvl := ℕ) pre5 c (fun _ => fullShare) a.1 : sProp 𝕄) = iprop(hbPt5 c tbM5 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD5_eq (c : Dev nD) :
    (Pipeline.ΦD osem5 spec5 H5 V c : sProp 𝕄)
      = iprop(iprop((∃ d, owns (c : Thread nD τ) scM5 fullShare d) ∗ Pipeline.scopedRestBut (Ix := Unit) (Name := ℕ) (U := Pipeline.UD sig nD τ) (Lvl := ℕ) (Val := Elt F) spec5 c [cc5_scratch0])
          ∗ (∃ r, prngReg c r) ∗ sems5 c ∗ iprop(hbPt5 c hbM5 (V c main_v34))) := by
  rw [Pipeline.ΦD_eq, scopedRest5_split, ownSems05_eq, hbmPts5_eq]; simp only [scM5, owns_whole]; try rfl

/-! ## The windows' blocks -/

/-- Window w's block at point t, read off its array as the region finds it. -/
def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- Input window 0's current staging buffer holds its block at every point, fetched there or not. -/
theorem before5_0_of {c : Dev nD} (dat : Dat τ (Elt F) Unit ℕ (Pipeline.UD sig nD τ) ℕ (cfg5 a) c) (hA : dat.A 0 = V c (Pipeline.arrRef spec5 0))
    (hafter : ∀ t, dat.after 0 t = iblk5 V a c 0 t) (t : Fin (cfg5 a).N) (d) : dat.before 0 t d = iblk5 V a c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-! ## What the run leaves in the output window's buffer -/

/-- The run's pieces for the output tile its block, so they cover it. -/
theorem cover5_1 (c : Dev nD) (i : grid5.Coords) (arg3 : Memref sig .tc .vmem S16x1 .f32) (harg3 : arg3.IsWhole) (arg4 : Memref sig .tc .vmem S16x512 .f32) (harg4 : arg4.IsWhole)
    (x0 : Vec F S16x1 .f32) (tb : HbBuf5 (F := F) c tbM5) (fh0 : HbBuf5 (F := F) c hbM5) (hT : ∀ x, (tb x).toNat < 50000) (y : S16x512.Idx) :
    ∃ pc ∈ (kernelRun5 c i arg3 harg3 arg4 harg4 x0 tb fh0 hT).1, y ∈ pc.1.set :=
  View.cover_of_tiledL (kernelRun5 c i arg3 harg3 arg4 harg4 x0 tb fh0 hT).1 S16x512.size (by sl_kernel_rfl) y

/-- One staging buffer of the output window, through which its contents are stated. -/
abbrev VO5_1 : View sig .tc .vmem S16x512 .f32 := (Memref.whole cc5_stg1_0 : Memref sig .tc .vmem S16x512 .f32).view

/-- What the run leaves in the output's staging buffer: its pieces read back over junk. -/
def out5_1 (c : Dev nD) (i : grid5.Coords) (arg3 : Memref sig .tc .vmem S16x1 .f32) (harg3 : arg3.IsWhole) (arg4 : Memref sig .tc .vmem S16x512 .f32) (harg4 : arg4.IsWhole)
    (x0 : Vec F S16x1 .f32) (tb : HbBuf5 (F := F) c tbM5) (fh0 : HbBuf5 (F := F) c hbM5) (hT : ∀ x, (tb x).toNat < 50000) : Vec F S16x512 .f32 :=
  VO5_1.read (Elt F) (VO5_1.writes (Elt F) VO5_1.junk (kernelRun5 c i arg3 harg3 arg4 harg4 x0 tb fh0 hT).1)

/-- Every word of the table is a row of the gathered array, from the same of its words by position. -/
theorem tbl_lt5 (hH : ∀ j : Fin 50000, ((a.1 0) (ValueIdx.ix1 j)).toNat < 50000) (c : Dev nD) : ∀ x, (((a.1 0 : HbBuf5 (F := F) c tbM5)) x).toNat < 50000 :=
  fun x => by rw [ValueIdx.eq_ix1 x]; exact hH _

/-- What the output's staging buffer holds after the body at point t: the run's contents at the point's memrefs, the
    norm block, the table and the gathered array. -/
def outsAt5 (hH : ∀ j : Fin 50000, ((a.1 0) (ValueIdx.ix1 j)).toNat < 50000) (c : Dev nD) (t : Fin (cfg5 a).N) : Vec F S16x512 .f32 :=
  out5_1 c (grid5.coords t) (ms5_0 a t) (hs5_0 a t) (ms5_1 a t) (hs5_1 a t) (iblk5 V a c 0 t) (a.1 0) (V c main_v34) (tbl_lt5 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat5 (hH : ∀ j : Fin 50000, ((a.1 0) (ValueIdx.ix1 j)).toNat < 50000) (c : Dev nD) : Dat τ (Elt F) Unit ℕ (Pipeline.UD sig nD τ) ℕ (cfg5 a) c where
  A w := V c (Pipeline.arrRef spec5 w)
  after w t := match w with
    | ⟨0, _⟩ => iblk5 V a c 0 t
    | ⟨1, _⟩ => (outsAt5 V a hH c t)
  Φ _ := iprop(Pipeline.ΦD osem5 spec5 H5 V c ∗ Pipeline.prefHeld pre5 c (fun _ => fullShare) a.1)
  q _ := fullShare
  owed _ := 0

/-- The proof data's arrays are the region-entry contents. -/
theorem A_eq5 (hH : ∀ j : Fin 50000, ((a.1 0) (ValueIdx.ix1 j)).toNat < 50000) (c : Dev nD) (w : Fin (cfg5 a).W) : (dat5 V a hH c).A w = V c (Pipeline.arrRef spec5 w) := by
  dsimp only [dat5]

/-- What the body leaves, window by window. -/
theorem after5_0 (hH : ∀ j : Fin 50000, ((a.1 0) (ValueIdx.ix1 j)).toNat < 50000) (c : Dev nD) (t : Fin (cfg5 a).N) : (dat5 V a hH c).after 0 t = iblk5 V a c 0 t := by dsimp only [dat5]; try rfl
theorem after5_1 (hH : ∀ j : Fin 50000, ((a.1 0) (ValueIdx.ix1 j)).toNat < 50000) (c : Dev nD) (t : Fin (cfg5 a).N) : (dat5 V a hH c).after 1 t = (outsAt5 V a hH c t) := by dsimp only [dat5]; try rfl

/-- The input's current staging buffer holds its block at every point, fetched there or not. -/
theorem before5_0 (hH : ∀ j : Fin 50000, ((a.1 0) (ValueIdx.ix1 j)).toNat < 50000) (c : Dev nD) (t : Fin (cfg5 a).N) (d) : (dat5 V a hH c).before 0 t d = iblk5 V a c 0 t :=
  before5_0_of V a (dat5 V a hH c) (A_eq5 V a hH c 0) (after5_0 V a hH c) t d

/-! ## The body obligation, at a generic point -/

/-- What the body is called with at point t, the windows one by one, -/
def bodyPre5 (hH : ∀ j : Fin 50000, ((a.1 0) (ValueIdx.ix1 j)).toNat < 50000) (c : Dev nD) (t : Fin (cfg5 a).N) : sProp 𝕄 :=
  iprop((dat5 V a hH c).Φ t.castSucc ∗ (dat5 V a hH c).owesAt () t.castSucc
    ∗ (∃ d, owns (c : Thread nD τ) (ms5_0 a t) fullShare ((dat5 V a hH c).before 0 t d))
    ∗ (∃ d, owns (c : Thread nD τ) (ms5_1 a t) fullShare ((dat5 V a hH c).before 1 t d)))

/-- and what it returns. -/
def bodyPost5 (hH : ∀ j : Fin 50000, ((a.1 0) (ValueIdx.ix1 j)).toNat < 50000) (c : Dev nD) (t : Fin (cfg5 a).N) : sProp 𝕄 :=
  iprop((dat5 V a hH c).Φ t.succ ∗ (dat5 V a hH c).owesAt () t.succ
    ∗ owns (c : Thread nD τ) (ms5_0 a t) fullShare ((dat5 V a hH c).after 0 t)
    ∗ owns (c : Thread nD τ) (ms5_1 a t) fullShare ((dat5 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body5 (hH : ∀ j : Fin 50000, ((a.1 0) (ValueIdx.ix1 j)).toNat < 50000) (c : Dev nD) (t : Fin (cfg5 a).N) :
    bodyPre5 V a hH c t ⊢ wp frame (wpE (defs₀ (F := F)) Variants.none c none) Set.univ (bodyAt5 a t) (fun _ => bodyPost5 V a hH c t) := by
  unfold bodyPre5 bodyPost5 bodyAt5
  simp only [before5_0]
  rw [show (dat5 V a hH c).Φ t.succ = (dat5 V a hH c).Φ t.castSucc from rfl,
    after5_0, after5_1]
  rw [show (dat5 V a hH c).Φ t.castSucc = iprop(Pipeline.ΦD osem5 spec5 H5 V c ∗ Pipeline.prefHeld pre5 c (fun _ => fullShare) a.1) from rfl, PhiD5_eq, prefHeld5_eq]
  unfold Dat.owesAt Pipeline.owesWithin
  rw [show (dat5 V a hH c).owed t.castSucc = 0 from rfl, show (dat5 V a hH c).owed t.succ = 0 from rfl]
  unfold outsAt5
  unfold out5_1
  iintro ⟨⟨⟨⟨HS0, HSr⟩, Hg, Hq, Hh0⟩, HT⟩, ⟨%W, -, HW⟩, ⟨%d0, H0⟩, ⟨%d1, H5⟩⟩
  iapply ((kernelRun5 c (grid5.coords t) _ _ _ _ (iblk5 V a c 0 t) (a.1 0) (V c main_v34) (tbl_lt5 a hH c)).2 W _)
  isplitl [H0]; · iexact H0
  isplitl [H5]; · iexists _; iexact H5
  isplitl [HS0]; · iexact HS0
  isplitl [Hq]; · iexact Hq
  isplitl [Hh0]; · iexact Hh0
  isplitl [HT]; · iexact HT
  isplitl [HW]; · iexact HW
  iintro ⟨H0, ⟨%e1, H5⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H5
  ipureintro; exact View.read_writes_of_cover _ _ _ _ _ (cover5_1 c _ _ _ _ _ _ _ _ _)

/-- The library's body obligation, at every point. -/
theorem body_obligation5 (hH : ∀ j : Fin 50000, ((a.1 0) (ValueIdx.ix1 j)).toNat < 50000) (c : Dev nD) : BodyObligation (dat5 (F := F) V a hH c) (defs₀ (F := F)) Variants.none () Set.univ := fun t => by
  rw [bigSep_W5, bigSep_W5]
  exact sound_body5 V a hH c t

end Cert.Kernel.Hand

end
-- ==== Proof.Bits.G6.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 6 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem6 : Fin 16 → SemLoc sig := fun j =>
  (![SemLoc.dma 109, SemLoc.dma 110, SemLoc.dma 111, SemLoc.dma 112, SemLoc.dma 113, SemLoc.dma 114, SemLoc.dma 115, SemLoc.dma 116,
     SemLoc.dma 117, SemLoc.dma 118, SemLoc.dma 119, SemLoc.dma 120, SemLoc.dma 121, SemLoc.dma 122, SemLoc.dma 123, SemLoc.dma 124] : Fin 16 → SemLoc sig) j
theorem ownSemFacts6 : Pipeline.OwnSemFacts spec6 osem6 := by decide

/-- The HBM operand the body gathers rows from: unscoped, no window's array, no table. -/
def H6 : Finset (Ref sig .tc) := {main_v34}
theorem H6_sub : H6 ⊆ Pipeline.restRefsP sig pre6 spec6 := by decide

/-- The operands the pipeline does not stage, whole. -/
abbrev tbM6 : Memref sig .tc .smem S50000 .i32 := Memref.whole main_v51
abbrev hbM6 : Memref sig .tc .hbm S50000x512 .f32 := Memref.whole main_v34
abbrev scM6 : Memref sig .tc .vmem S16x512 .f32 := Memref.whole cc6_scratch0

/-- A whole memref's buffer on core `c`, and it held whole at `f`. -/
abbrev HbBuf6 (c : Dev nD) {sp : Space} {S : Shape} {e : EltTy} (M : Memref sig .tc sp S e) : Type := Buf (Elt F) (M.view.loc (c : Thread nD τ))
abbrev hbPt6 (c : Dev nD) {sp : Space} {S : Shape} {e : EltTy} (M : Memref sig .tc sp S e) (f : HbBuf6 (F := F) c M) : sProp 𝕄 :=
  M.view.loc (c : Thread nD τ) ↦{fullShare} f

/-- The sixteen own cells at zero. -/
abbrev sems6 (c : Dev nD) : sProp 𝕄 :=
  iprop(semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0)

/-- A row index inside the gathered array puts the one-row slice inside it. -/
theorem row_inb6 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk6_1_of_lt (w : BitVec 32) (h : w.toNat < 50000) : k6_chk1 w := ⟨row_inb6 w h, row_inb6 w h⟩
theorem chk6_2_of_lt (w : BitVec 32) (h : w.toNat < 50000) : k6_chk2 w := ⟨row_inb6 w h, row_inb6 w h⟩
theorem chk6_3_of_lt (w : BitVec 32) (h : w.toNat < 50000) : k6_chk3 w := ⟨row_inb6 w h, row_inb6 w h⟩
theorem chk6_4_of_lt (w : BitVec 32) (h : w.toNat < 50000) : k6_chk4 w := ⟨row_inb6 w h, row_inb6 w h⟩
theorem chk6_5_of_lt (w : BitVec 32) (h : w.toNat < 50000) : k6_chk5 w := ⟨row_inb6 w h, row_inb6 w h⟩
theorem chk6_6_of_lt (w : BitVec 32) (h : w.toNat < 50000) : k6_chk6 w := ⟨row_inb6 w h, row_inb6 w h⟩
theorem chk6_7_of_lt (w : BitVec 32) (h : w.toNat < 50000) : k6_chk7 w := ⟨row_inb6 w h, row_inb6 w h⟩
theorem chk6_8_of_lt (w : BitVec 32) (h : w.toNat < 50000) : k6_chk8 w := ⟨row_inb6 w h, row_inb6 w h⟩
theorem chk6_9_of_lt (w : BitVec 32) (h : w.toNat < 50000) : k6_chk9 w := ⟨row_inb6 w h, row_inb6 w h⟩
theorem chk6_10_of_lt (w : BitVec 32) (h : w.toNat < 50000) : k6_chk10 w := ⟨row_inb6 w h, row_inb6 w h⟩
theorem chk6_11_of_lt (w : BitVec 32) (h : w.toNat < 50000) : k6_chk11 w := ⟨row_inb6 w h, row_inb6 w h⟩
theorem chk6_12_of_lt (w : BitVec 32) (h : w.toNat < 50000) : k6_chk12 w := ⟨row_inb6 w h, row_inb6 w h⟩
theorem chk6_13_of_lt (w : BitVec 32) (h : w.toNat < 50000) : k6_chk13 w := ⟨row_inb6 w h, row_inb6 w h⟩
theorem chk6_14_of_lt (w : BitVec 32) (h : w.toNat < 50000) : k6_chk14 w := ⟨row_inb6 w h, row_inb6 w h⟩
theorem chk6_15_of_lt (w : BitVec 32) (h : w.toNat < 50000) : k6_chk15 w := ⟨row_inb6 w h, row_inb6 w h⟩
theorem chk6_16_of_lt (w : BitVec 32) (h : w.toNat < 50000) : k6_chk16 w := row_inb6 w h

/-- A whole points-to as what stays behind, sixteen read tokens numbered `b + 15` down to `b`, and the tokens below
    `b` kept as one family. -/
theorem toksAt6 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 109 … 124. -/
theorem toks6 {ℓ : Loc nD τ sig} (f : Buf (Elt F) ℓ) :
    (ℓ ↦{fullShare} f : sProp 𝕄) ⊣⊢ iprop((ℓ ↦{Transfers.shareDrop fullShare 125} f) ∗ (ℓ ↦{Transfers.shareTokN fullShare 124} f) ∗ (ℓ ↦{Transfers.shareTokN fullShare 123} f) ∗ (ℓ ↦{Transfers.shareTokN fullShare 122} f) ∗ (ℓ ↦{Transfers.shareTokN fullShare 121} f) ∗ (ℓ ↦{Transfers.shareTokN fullShare 120} f) ∗ (ℓ ↦{Transfers.shareTokN fullShare 119} f) ∗ (ℓ ↦{Transfers.shareTokN fullShare 118} f) ∗ (ℓ ↦{Transfers.shareTokN fullShare 117} f) ∗ (ℓ ↦{Transfers.shareTokN fullShare 116} f) ∗ (ℓ ↦{Transfers.shareTokN fullShare 115} f) ∗ (ℓ ↦{Transfers.shareTokN fullShare 114} f) ∗ (ℓ ↦{Transfers.shareTokN fullShare 113} f) ∗ (ℓ ↦{Transfers.shareTokN fullShare 112} f) ∗ (ℓ ↦{Transfers.shareTokN fullShare 111} f) ∗ (ℓ ↦{Transfers.shareTokN fullShare 110} f) ∗ (ℓ ↦{Transfers.shareTokN fullShare 109} f)
      ∗ BI.bigSep (Finset.range 109) fun k => ℓ ↦{Transfers.shareTokN fullShare k} f) :=
  toksAt6 f 109

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun6 (c : Dev nD) (i : grid6.Coords) (arg3 : Memref sig .tc .vmem S16x1 .f32) (harg3 : arg3.IsWhole) (arg4 : Memref sig .tc .vmem S16x512 .f32) (harg4 : arg4.IsWhole)
    (x0 : Vec F S16x1 .f32) (tb : HbBuf6 (F := F) c tbM6) (fh0 : HbBuf6 (F := F) c hbM6) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM6 fullShare d) ∗ sems6 c ∗ hbPt6 c hbM6 fh0 ∗ hbPt6 c tbM6 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM6 fullShare d) ∗ sems6 c ∗ hbPt6 c hbM6 fh0 ∗ hbPt6 c tbM6 tb ∗ (∃ W', owes (c : Thread nD τ) 0 W')) -∗ K ⟨⟩))
          ⊢ wp frame (wpE (defs₀ (F := F)) Variants.none c none) Set.univ (cc6_kernel i tbM6 (Memref.isWhole_whole _) hbM6 (Memref.isWhole_whole _) arg3 harg3 arg4 harg4 scM6 (Memref.isWhole_whole _) cc6_scratch1) K } := by
  have k6_hw1 : k6_chk1 (tbM6.view.readAt (Elt F) (Rect.unit (s := S50000) (k6_off1 i) S1.size (k6_off1_inb i)).toLoadRect tb (Shape.Idx.first (numel1_S1.symm ▸ Nat.one_pos))) := chk6_1_of_lt _ (hH _)
  have k6_hw2 : k6_chk2 (tbM6.view.readAt (Elt F) (Rect.unit (s := S50000) (k6_off3 i) S1.size (k6_off3_inb i)).toLoadRect tb (Shape.Idx.first (numel1_S1.symm ▸ Nat.one_pos))) := chk6_2_of_lt _ (hH _)
  have k6_hw3 : k6_chk3 (tbM6.view.readAt (Elt F) (Rect.unit (s := S50000) (k6_off5 i) S1.size (k6_off5_inb i)).toLoadRect tb (Shape.Idx.first (numel1_S1.symm ▸ Nat.one_pos))) := chk6_3_of_lt _ (hH _)
  have k6_hw4 : k6_chk4 (tbM6.view.readAt (Elt F) (Rect.unit (s := S50000) (k6_off7 i) S1.size (k6_off7_inb i)).toLoadRect tb (Shape.Idx.first (numel1_S1.symm ▸ Nat.one_pos))) := chk6_4_of_lt _ (hH _)
  have k6_hw5 : k6_chk5 (tbM6.view.readAt (Elt F) (Rect.unit (s := S50000) (k6_off9 i) S1.size (k6_off9_inb i)).toLoadRect tb (Shape.Idx.first (numel1_S1.symm ▸ Nat.one_pos))) := chk6_5_of_lt _ (hH _)
  have k6_hw6 : k6_chk6 (tbM6.view.readAt (Elt F) (Rect.unit (s := S50000) (k6_off11 i) S1.size (k6_off11_inb i)).toLoadRect tb (Shape.Idx.first (numel1_S1.symm ▸ Nat.one_pos))) := chk6_6_of_lt _ (hH _)
  have k6_hw7 : k6_chk7 (tbM6.view.readAt (Elt F) (Rect.unit (s := S50000) (k6_off13 i) S1.size (k6_off13_inb i)).toLoadRect tb (Shape.Idx.first (numel1_S1.symm ▸ Nat.one_pos))) := chk6_7_of_lt _ (hH _)
  have k6_hw8 : k6_chk8 (tbM6.view.readAt (Elt F) (Rect.unit (s := S50000) (k6_off15 i) S1.size (k6_off15_inb i)).toLoadRect tb (Shape.Idx.first (numel1_S1.symm ▸ Nat.one_pos))) := chk6_8_of_lt _ (hH _)
  have k6_hw9 : k6_chk9 (tbM6.view.readAt (Elt F) (Rect.unit (s := S50000) (k6_off17 i) S1.size (k6_off17_inb i)).toLoadRect tb (Shape.Idx.first (numel1_S1.symm ▸ Nat.one_pos))) := chk6_9_of_lt _ (hH _)
  have k6_hw10 : k6_chk10 (tbM6.view.readAt (Elt F) (Rect.unit (s := S50000) (k6_off19 i) S1.size (k6_off19_inb i)).toLoadRect tb (Shape.Idx.first (numel1_S1.symm ▸ Nat.one_pos))) := chk6_10_of_lt _ (hH _)
  have k6_hw11 : k6_chk11 (tbM6.view.readAt (Elt F) (Rect.unit (s := S50000) (k6_off21 i) S1.size (k6_off21_inb i)).toLoadRect tb (Shape.Idx.first (numel1_S1.symm ▸ Nat.one_pos))) := chk6_11_of_lt _ (hH _)
  have k6_hw12 : k6_chk12 (tbM6.view.readAt (Elt F) (Rect.unit (s := S50000) (k6_off23 i) S1.size (k6_off23_inb i)).toLoadRect tb (Shape.Idx.first (numel1_S1.symm ▸ Nat.one_pos))) := chk6_12_of_lt _ (hH _)
  have k6_hw13 : k6_chk13 (tbM6.view.readAt (Elt F) (Rect.unit (s := S50000) (k6_off25 i) S1.size (k6_off25_inb i)).toLoadRect tb (Shape.Idx.first (numel1_S1.symm ▸ Nat.one_pos))) := chk6_13_of_lt _ (hH _)
  have k6_hw14 : k6_chk14 (tbM6.view.readAt (Elt F) (Rect.unit (s := S50000) (k6_off27 i) S1.size (k6_off27_inb i)).toLoadRect tb (Shape.Idx.first (numel1_S1.symm ▸ Nat.one_pos))) := chk6_14_of_lt _ (hH _)
  have k6_hw15 : k6_chk15 (tbM6.view.readAt (Elt F) (Rect.unit (s := S50000) (k6_off29 i) S1.size (k6_off29_inb i)).toLoadRect tb (Shape.Idx.first (numel1_S1.symm ▸ Nat.one_pos))) := chk6_15_of_lt _ (hH _)
  have k6_hw16 : k6_chk16 (tbM6.view.readAt (Elt F) (Rect.unit (s := S50000) (k6_off31 i) S1.size (k6_off31_inb i)).toLoadRect tb (Shape.Idx.first (numel1_S1.symm ▸ Nat.one_pos))) := chk6_16_of_lt _ (hH _)
  refine ⟨?_, fun W K => ?run⟩
  case run =>
    simp only [cc6_kernel_eq_skeleton]; unfold cc6_kernel_skel
    simp only [k6_part7_eq_skeleton]; unfold k6_part7_skel
    simp only [k6_part1_eq_skeleton, k6_part2_eq_skeleton, k6_part3_eq_skeleton, k6_part4_eq_skeleton, k6_part5_eq_skeleton, k6_part6_eq_skeleton]
    unfold owns sems6
    iintro ⟨⟨%f0, %hf0, H0⟩, ⟨%d1, %f1, -, H6⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks6 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k6_hw1 | sl_exact k6_hw2 | sl_exact k6_hw3 | sl_exact k6_hw4 | sl_exact k6_hw5 | sl_exact k6_hw6 | sl_exact k6_hw7 | sl_exact k6_hw8 | sl_exact k6_hw9 | sl_exact k6_hw10 | sl_exact k6_hw11 | sl_exact k6_hw12 | sl_exact k6_hw13 | sl_exact k6_hw14 | sl_exact k6_hw15 | sl_exact k6_hw16)
    sl_step
    iapply Hk
    isplitl [H0]
    · iexists _; isplitr; · ipureintro; exact harg3.read_unread _
      iexact H0
    isplitl [H6]; · iexists _; iexact H6
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks6 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg6 (F := F)).Adm)

/-- Each window's current staging memref at point t, spelled as the pipeline passes it, and its wholeness. -/
abbrev ms6_0 (t : Fin (cfg6 a).N) : Memref sig .tc .vmem S16x1 .f32 := spec6_0.stage ((cfg6 a).slots t 0)
abbrev hs6_0 (t : Fin (cfg6 a).N) : (ms6_0 a t).IsWhole := hstage6_0 (((cfg6 a).slots t 0).cast nbuf6_0)
abbrev ms6_1 (t : Fin (cfg6 a).N) : Memref sig .tc .vmem S16x512 .f32 := spec6_1.stage ((cfg6 a).slots t 1)
abbrev hs6_1 (t : Fin (cfg6 a).N) : (ms6_1 a t).IsWhole := hstage6_1 (((cfg6 a).slots t 1).cast nbuf6_1)

/-- The kernel body at point t, on what the pipeline calls it with. -/
abbrev bodyAt6 (t : Fin (cfg6 a).N) : Prog (TpuEff nD τ sig (Elt F) Λ₀ .tc) PUnit :=
  cc6_kernel (grid6.coords t) tbM6 (Memref.isWhole_whole _) hbM6 (Memref.isWhole_whole _) (ms6_0 a t) (hs6_0 a t) (ms6_1 a t) (hs6_1 a t) scM6 (Memref.isWhole_whole _) cc6_scratch1

/-! ## The invariant, conjunct by conjunct -/

/-- The sixteen own cells at zero, listed. -/
theorem ownSems06_eq (c : Dev nD) :
    (Pipeline.ownSems0 (Ix := Unit) (Name := ℕ) (U := Pipeline.UD sig nD τ) (Lvl := ℕ) (Val := Elt F) (τ := τ) osem6 c : sProp 𝕄) = sems6 c := by
  rw [Pipeline.ownSems0_eq_of_list c osem6 [0, 1, 2, 3, 4, 5, 6, 7, 8, 9, 10, 11, 12, 13, 14, 15] (by decide) (by decide)]; rfl

/-- The gathered array's points-to at the region-entry contents. -/
theorem hbmPts6_eq (c : Dev nD) :
    (bigSep H6 (fun b => ((c : Thread nD τ).loc b) ↦{fullShare} V c b) : sProp 𝕄) = iprop(hbPt6 c hbM6 (V c main_v34)) := by
  rw [BI.bigSep_eq_bigSepL_of_eq [main_v34] (by decide) (by decide)]; rfl

/-- The row table, whole, at the contents the region is launched with. -/
theorem prefHeld6_eq (c : Dev nD) :
    (Pipeline.prefHeld (Ix := Unit) (Name := ℕ) (U := Pipeline.UD sig nD τ) (Lvl := ℕ) pre6 c (fun _ => fullShare) a.1 : sProp 𝕄) = iprop(hbPt6 c tbM6 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD6_eq (c : Dev nD) :
    (Pipeline.ΦD osem6 spec6 H6 V c : sProp 𝕄)
      = iprop(iprop((∃ d, owns (c : Thread nD τ) scM6 fullShare d) ∗ Pipeline.scopedRestBut (Ix := Unit) (Name := ℕ) (U := Pipeline.UD sig nD τ) (Lvl := ℕ) (Val := Elt F) spec6 c [cc6_scratch0])
          ∗ (∃ r, prngReg c r) ∗ sems6 c ∗ iprop(hbPt6 c hbM6 (V c main_v34))) := by
  rw [Pipeline.ΦD_eq, scopedRest6_split, ownSems06_eq, hbmPts6_eq]; simp only [scM6, owns_whole]; try rfl

/-! ## The windows' blocks -/

/-- Window w's block at point t, read off its array as the region finds it. -/
def iblk6 (c : Dev nD) (w : Fin (cfg6 a).W) (t : Fin (cfg6 a).N) : (((cfg6 a).win w).xblock ((cfg6 a).grid.coords t)).Idx → Elt F ((cfg6 a).win w).elt :=
  (((cfg6 a).win w).blk t).view.read (Elt F) (V c (Pipeline.arrRef spec6 w))

/-- Input window 0's current staging buffer holds its block at every point, fetched there or not. -/
theorem before6_0_of {c : Dev nD} (dat : Dat τ (Elt F) Unit ℕ (Pipeline.UD sig nD τ) ℕ (cfg6 a) c) (hA : dat.A 0 = V c (Pipeline.arrRef spec6 0))
    (hafter : ∀ t, dat.after 0 t = iblk6 V a c 0 t) (t : Fin (cfg6 a).N) (d) : dat.before 0 t d = iblk6 V a c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-! ## What the run leaves in the output window's buffer -/

/-- The run's pieces for the output tile its block, so they cover it. -/
theorem cover6_1 (c : Dev nD) (i : grid6.Coords) (arg3 : Memref sig .tc .vmem S16x1 .f32) (harg3 : arg3.IsWhole) (arg4 : Memref sig .tc .vmem S16x512 .f32) (harg4 : arg4.IsWhole)
    (x0 : Vec F S16x1 .f32) (tb : HbBuf6 (F := F) c tbM6) (fh0 : HbBuf6 (F := F) c hbM6) (hT : ∀ x, (tb x).toNat < 50000) (y : S16x512.Idx) :
    ∃ pc ∈ (kernelRun6 c i arg3 harg3 arg4 harg4 x0 tb fh0 hT).1, y ∈ pc.1.set :=
  View.cover_of_tiledL (kernelRun6 c i arg3 harg3 arg4 harg4 x0 tb fh0 hT).1 S16x512.size (by sl_kernel_rfl) y

/-- One staging buffer of the output window, through which its contents are stated. -/
abbrev VO6_1 : View sig .tc .vmem S16x512 .f32 := (Memref.whole cc6_stg1_0 : Memref sig .tc .vmem S16x512 .f32).view

/-- What the run leaves in the output's staging buffer: its pieces read back over junk. -/
def out6_1 (c : Dev nD) (i : grid6.Coords) (arg3 : Memref sig .tc .vmem S16x1 .f32) (harg3 : arg3.IsWhole) (arg4 : Memref sig .tc .vmem S16x512 .f32) (harg4 : arg4.IsWhole)
    (x0 : Vec F S16x1 .f32) (tb : HbBuf6 (F := F) c tbM6) (fh0 : HbBuf6 (F := F) c hbM6) (hT : ∀ x, (tb x).toNat < 50000) : Vec F S16x512 .f32 :=
  VO6_1.read (Elt F) (VO6_1.writes (Elt F) VO6_1.junk (kernelRun6 c i arg3 harg3 arg4 harg4 x0 tb fh0 hT).1)

/-- Every word of the table is a row of the gathered array, from the same of its words by position. -/
theorem tbl_lt6 (hH : ∀ j : Fin 50000, ((a.1 0) (ValueIdx.ix1 j)).toNat < 50000) (c : Dev nD) : ∀ x, (((a.1 0 : HbBuf6 (F := F) c tbM6)) x).toNat < 50000 :=
  fun x => by rw [ValueIdx.eq_ix1 x]; exact hH _

/-- What the output's staging buffer holds after the body at point t: the run's contents at the point's memrefs, the
    norm block, the table and the gathered array. -/
def outsAt6 (hH : ∀ j : Fin 50000, ((a.1 0) (ValueIdx.ix1 j)).toNat < 50000) (c : Dev nD) (t : Fin (cfg6 a).N) : Vec F S16x512 .f32 :=
  out6_1 c (grid6.coords t) (ms6_0 a t) (hs6_0 a t) (ms6_1 a t) (hs6_1 a t) (iblk6 V a c 0 t) (a.1 0) (V c main_v34) (tbl_lt6 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat6 (hH : ∀ j : Fin 50000, ((a.1 0) (ValueIdx.ix1 j)).toNat < 50000) (c : Dev nD) : Dat τ (Elt F) Unit ℕ (Pipeline.UD sig nD τ) ℕ (cfg6 a) c where
  A w := V c (Pipeline.arrRef spec6 w)
  after w t := match w with
    | ⟨0, _⟩ => iblk6 V a c 0 t
    | ⟨1, _⟩ => (outsAt6 V a hH c t)
  Φ _ := iprop(Pipeline.ΦD osem6 spec6 H6 V c ∗ Pipeline.prefHeld pre6 c (fun _ => fullShare) a.1)
  q _ := fullShare
  owed _ := 0

/-- The proof data's arrays are the region-entry contents. -/
theorem A_eq6 (hH : ∀ j : Fin 50000, ((a.1 0) (ValueIdx.ix1 j)).toNat < 50000) (c : Dev nD) (w : Fin (cfg6 a).W) : (dat6 V a hH c).A w = V c (Pipeline.arrRef spec6 w) := by
  dsimp only [dat6]

/-- What the body leaves, window by window. -/
theorem after6_0 (hH : ∀ j : Fin 50000, ((a.1 0) (ValueIdx.ix1 j)).toNat < 50000) (c : Dev nD) (t : Fin (cfg6 a).N) : (dat6 V a hH c).after 0 t = iblk6 V a c 0 t := by dsimp only [dat6]; try rfl
theorem after6_1 (hH : ∀ j : Fin 50000, ((a.1 0) (ValueIdx.ix1 j)).toNat < 50000) (c : Dev nD) (t : Fin (cfg6 a).N) : (dat6 V a hH c).after 1 t = (outsAt6 V a hH c t) := by dsimp only [dat6]; try rfl

/-- The input's current staging buffer holds its block at every point, fetched there or not. -/
theorem before6_0 (hH : ∀ j : Fin 50000, ((a.1 0) (ValueIdx.ix1 j)).toNat < 50000) (c : Dev nD) (t : Fin (cfg6 a).N) (d) : (dat6 V a hH c).before 0 t d = iblk6 V a c 0 t :=
  before6_0_of V a (dat6 V a hH c) (A_eq6 V a hH c 0) (after6_0 V a hH c) t d

/-! ## The body obligation, at a generic point -/

/-- What the body is called with at point t, the windows one by one, -/
def bodyPre6 (hH : ∀ j : Fin 50000, ((a.1 0) (ValueIdx.ix1 j)).toNat < 50000) (c : Dev nD) (t : Fin (cfg6 a).N) : sProp 𝕄 :=
  iprop((dat6 V a hH c).Φ t.castSucc ∗ (dat6 V a hH c).owesAt () t.castSucc
    ∗ (∃ d, owns (c : Thread nD τ) (ms6_0 a t) fullShare ((dat6 V a hH c).before 0 t d))
    ∗ (∃ d, owns (c : Thread nD τ) (ms6_1 a t) fullShare ((dat6 V a hH c).before 1 t d)))

/-- and what it returns. -/
def bodyPost6 (hH : ∀ j : Fin 50000, ((a.1 0) (ValueIdx.ix1 j)).toNat < 50000) (c : Dev nD) (t : Fin (cfg6 a).N) : sProp 𝕄 :=
  iprop((dat6 V a hH c).Φ t.succ ∗ (dat6 V a hH c).owesAt () t.succ
    ∗ owns (c : Thread nD τ) (ms6_0 a t) fullShare ((dat6 V a hH c).after 0 t)
    ∗ owns (c : Thread nD τ) (ms6_1 a t) fullShare ((dat6 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body6 (hH : ∀ j : Fin 50000, ((a.1 0) (ValueIdx.ix1 j)).toNat < 50000) (c : Dev nD) (t : Fin (cfg6 a).N) :
    bodyPre6 V a hH c t ⊢ wp frame (wpE (defs₀ (F := F)) Variants.none c none) Set.univ (bodyAt6 a t) (fun _ => bodyPost6 V a hH c t) := by
  unfold bodyPre6 bodyPost6 bodyAt6
  simp only [before6_0]
  rw [show (dat6 V a hH c).Φ t.succ = (dat6 V a hH c).Φ t.castSucc from rfl,
    after6_0, after6_1]
  rw [show (dat6 V a hH c).Φ t.castSucc = iprop(Pipeline.ΦD osem6 spec6 H6 V c ∗ Pipeline.prefHeld pre6 c (fun _ => fullShare) a.1) from rfl, PhiD6_eq, prefHeld6_eq]
  unfold Dat.owesAt Pipeline.owesWithin
  rw [show (dat6 V a hH c).owed t.castSucc = 0 from rfl, show (dat6 V a hH c).owed t.succ = 0 from rfl]
  unfold outsAt6
  unfold out6_1
  iintro ⟨⟨⟨⟨HS0, HSr⟩, Hg, Hq, Hh0⟩, HT⟩, ⟨%W, -, HW⟩, ⟨%d0, H0⟩, ⟨%d1, H6⟩⟩
  iapply ((kernelRun6 c (grid6.coords t) _ _ _ _ (iblk6 V a c 0 t) (a.1 0) (V c main_v34) (tbl_lt6 a hH c)).2 W _)
  isplitl [H0]; · iexact H0
  isplitl [H6]; · iexists _; iexact H6
  isplitl [HS0]; · iexact HS0
  isplitl [Hq]; · iexact Hq
  isplitl [Hh0]; · iexact Hh0
  isplitl [HT]; · iexact HT
  isplitl [HW]; · iexact HW
  iintro ⟨H0, ⟨%e1, H6⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H6
  ipureintro; exact View.read_writes_of_cover _ _ _ _ _ (cover6_1 c _ _ _ _ _ _ _ _ _)

/-- The library's body obligation, at every point. -/
theorem body_obligation6 (hH : ∀ j : Fin 50000, ((a.1 0) (ValueIdx.ix1 j)).toNat < 50000) (c : Dev nD) : BodyObligation (dat6 (F := F) V a hH c) (defs₀ (F := F)) Variants.none () Set.univ := fun t => by
  rw [bigSep_W6, bigSep_W6]
  exact sound_body6 V a hH c t

end Cert.Kernel.Hand

end
-- ==== Proof.Bits.G7.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 7 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem7 : Fin 16 → SemLoc sig := fun j =>
  (![SemLoc.dma 129, SemLoc.dma 130, SemLoc.dma 131, SemLoc.dma 132, SemLoc.dma 133, SemLoc.dma 134, SemLoc.dma 135, SemLoc.dma 136,
     SemLoc.dma 137, SemLoc.dma 138, SemLoc.dma 139, SemLoc.dma 140, SemLoc.dma 141, SemLoc.dma 142, SemLoc.dma 143, SemLoc.dma 144] : Fin 16 → SemLoc sig) j
theorem ownSemFacts7 : Pipeline.OwnSemFacts spec7 osem7 := by decide

/-- The HBM operand the body gathers rows from: unscoped, no window's array, no table. -/
def H7 : Finset (Ref sig .tc) := {main_v34}
theorem H7_sub : H7 ⊆ Pipeline.restRefsP sig pre7 spec7 := by decide

/-- The operands the pipeline does not stage, whole. -/
abbrev tbM7 : Memref sig .tc .smem S50000 .i32 := Memref.whole main_v54
abbrev hbM7 : Memref sig .tc .hbm S50000x512 .f32 := Memref.whole main_v34
abbrev scM7 : Memref sig .tc .vmem S16x512 .f32 := Memref.whole cc7_scratch0

/-- A whole memref's buffer on core `c`, and it held whole at `f`. -/
abbrev HbBuf7 (c : Dev nD) {sp : Space} {S : Shape} {e : EltTy} (M : Memref sig .tc sp S e) : Type := Buf (Elt F) (M.view.loc (c : Thread nD τ))
abbrev hbPt7 (c : Dev nD) {sp : Space} {S : Shape} {e : EltTy} (M : Memref sig .tc sp S e) (f : HbBuf7 (F := F) c M) : sProp 𝕄 :=
  M.view.loc (c : Thread nD τ) ↦{fullShare} f

/-- The sixteen own cells at zero. -/
abbrev sems7 (c : Dev nD) : sProp 𝕄 :=
  iprop(semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0 ∗ semVal ((c : Thread nD τ), SemLoc.dma 144) 0)

/-- A row index inside the gathered array puts the one-row slice inside it. -/
theorem row_inb7 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk7_1_of_lt (w : BitVec 32) (h : w.toNat < 50000) : k7_chk1 w := ⟨row_inb7 w h, row_inb7 w h⟩
theorem chk7_2_of_lt (w : BitVec 32) (h : w.toNat < 50000) : k7_chk2 w := ⟨row_inb7 w h, row_inb7 w h⟩
theorem chk7_3_of_lt (w : BitVec 32) (h : w.toNat < 50000) : k7_chk3 w := ⟨row_inb7 w h, row_inb7 w h⟩
theorem chk7_4_of_lt (w : BitVec 32) (h : w.toNat < 50000) : k7_chk4 w := ⟨row_inb7 w h, row_inb7 w h⟩
theorem chk7_5_of_lt (w : BitVec 32) (h : w.toNat < 50000) : k7_chk5 w := ⟨row_inb7 w h, row_inb7 w h⟩
theorem chk7_6_of_lt (w : BitVec 32) (h : w.toNat < 50000) : k7_chk6 w := ⟨row_inb7 w h, row_inb7 w h⟩
theorem chk7_7_of_lt (w : BitVec 32) (h : w.toNat < 50000) : k7_chk7 w := ⟨row_inb7 w h, row_inb7 w h⟩
theorem chk7_8_of_lt (w : BitVec 32) (h : w.toNat < 50000) : k7_chk8 w := ⟨row_inb7 w h, row_inb7 w h⟩
theorem chk7_9_of_lt (w : BitVec 32) (h : w.toNat < 50000) : k7_chk9 w := ⟨row_inb7 w h, row_inb7 w h⟩
theorem chk7_10_of_lt (w : BitVec 32) (h : w.toNat < 50000) : k7_chk10 w := ⟨row_inb7 w h, row_inb7 w h⟩
theorem chk7_11_of_lt (w : BitVec 32) (h : w.toNat < 50000) : k7_chk11 w := ⟨row_inb7 w h, row_inb7 w h⟩
theorem chk7_12_of_lt (w : BitVec 32) (h : w.toNat < 50000) : k7_chk12 w := ⟨row_inb7 w h, row_inb7 w h⟩
theorem chk7_13_of_lt (w : BitVec 32) (h : w.toNat < 50000) : k7_chk13 w := ⟨row_inb7 w h, row_inb7 w h⟩
theorem chk7_14_of_lt (w : BitVec 32) (h : w.toNat < 50000) : k7_chk14 w := ⟨row_inb7 w h, row_inb7 w h⟩
theorem chk7_15_of_lt (w : BitVec 32) (h : w.toNat < 50000) : k7_chk15 w := ⟨row_inb7 w h, row_inb7 w h⟩
theorem chk7_16_of_lt (w : BitVec 32) (h : w.toNat < 50000) : k7_chk16 w := row_inb7 w h

/-- A whole points-to as what stays behind, sixteen read tokens numbered `b + 15` down to `b`, and the tokens below
    `b` kept as one family. -/
theorem toksAt7 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 129 … 144. -/
theorem toks7 {ℓ : Loc nD τ sig} (f : Buf (Elt F) ℓ) :
    (ℓ ↦{fullShare} f : sProp 𝕄) ⊣⊢ iprop((ℓ ↦{Transfers.shareDrop fullShare 145} f) ∗ (ℓ ↦{Transfers.shareTokN fullShare 144} f) ∗ (ℓ ↦{Transfers.shareTokN fullShare 143} f) ∗ (ℓ ↦{Transfers.shareTokN fullShare 142} f) ∗ (ℓ ↦{Transfers.shareTokN fullShare 141} f) ∗ (ℓ ↦{Transfers.shareTokN fullShare 140} f) ∗ (ℓ ↦{Transfers.shareTokN fullShare 139} f) ∗ (ℓ ↦{Transfers.shareTokN fullShare 138} f) ∗ (ℓ ↦{Transfers.shareTokN fullShare 137} f) ∗ (ℓ ↦{Transfers.shareTokN fullShare 136} f) ∗ (ℓ ↦{Transfers.shareTokN fullShare 135} f) ∗ (ℓ ↦{Transfers.shareTokN fullShare 134} f) ∗ (ℓ ↦{Transfers.shareTokN fullShare 133} f) ∗ (ℓ ↦{Transfers.shareTokN fullShare 132} f) ∗ (ℓ ↦{Transfers.shareTokN fullShare 131} f) ∗ (ℓ ↦{Transfers.shareTokN fullShare 130} f) ∗ (ℓ ↦{Transfers.shareTokN fullShare 129} f)
      ∗ BI.bigSep (Finset.range 129) fun k => ℓ ↦{Transfers.shareTokN fullShare k} f) :=
  toksAt7 f 129

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun7 (c : Dev nD) (i : grid7.Coords) (arg3 : Memref sig .tc .vmem S16x1 .f32) (harg3 : arg3.IsWhole) (arg4 : Memref sig .tc .vmem S16x512 .f32) (harg4 : arg4.IsWhole)
    (x0 : Vec F S16x1 .f32) (tb : HbBuf7 (F := F) c tbM7) (fh0 : HbBuf7 (F := F) c hbM7) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM7 fullShare d) ∗ sems7 c ∗ hbPt7 c hbM7 fh0 ∗ hbPt7 c tbM7 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM7 fullShare d) ∗ sems7 c ∗ hbPt7 c hbM7 fh0 ∗ hbPt7 c tbM7 tb ∗ (∃ W', owes (c : Thread nD τ) 0 W')) -∗ K ⟨⟩))
          ⊢ wp frame (wpE (defs₀ (F := F)) Variants.none c none) Set.univ (cc7_kernel i tbM7 (Memref.isWhole_whole _) hbM7 (Memref.isWhole_whole _) arg3 harg3 arg4 harg4 scM7 (Memref.isWhole_whole _) cc7_scratch1) K } := by
  have k7_hw1 : k7_chk1 (tbM7.view.readAt (Elt F) (Rect.unit (s := S50000) (k7_off1 i) S1.size (k7_off1_inb i)).toLoadRect tb (Shape.Idx.first (numel1_S1.symm ▸ Nat.one_pos))) := chk7_1_of_lt _ (hH _)
  have k7_hw2 : k7_chk2 (tbM7.view.readAt (Elt F) (Rect.unit (s := S50000) (k7_off3 i) S1.size (k7_off3_inb i)).toLoadRect tb (Shape.Idx.first (numel1_S1.symm ▸ Nat.one_pos))) := chk7_2_of_lt _ (hH _)
  have k7_hw3 : k7_chk3 (tbM7.view.readAt (Elt F) (Rect.unit (s := S50000) (k7_off5 i) S1.size (k7_off5_inb i)).toLoadRect tb (Shape.Idx.first (numel1_S1.symm ▸ Nat.one_pos))) := chk7_3_of_lt _ (hH _)
  have k7_hw4 : k7_chk4 (tbM7.view.readAt (Elt F) (Rect.unit (s := S50000) (k7_off7 i) S1.size (k7_off7_inb i)).toLoadRect tb (Shape.Idx.first (numel1_S1.symm ▸ Nat.one_pos))) := chk7_4_of_lt _ (hH _)
  have k7_hw5 : k7_chk5 (tbM7.view.readAt (Elt F) (Rect.unit (s := S50000) (k7_off9 i) S1.size (k7_off9_inb i)).toLoadRect tb (Shape.Idx.first (numel1_S1.symm ▸ Nat.one_pos))) := chk7_5_of_lt _ (hH _)
  have k7_hw6 : k7_chk6 (tbM7.view.readAt (Elt F) (Rect.unit (s := S50000) (k7_off11 i) S1.size (k7_off11_inb i)).toLoadRect tb (Shape.Idx.first (numel1_S1.symm ▸ Nat.one_pos))) := chk7_6_of_lt _ (hH _)
  have k7_hw7 : k7_chk7 (tbM7.view.readAt (Elt F) (Rect.unit (s := S50000) (k7_off13 i) S1.size (k7_off13_inb i)).toLoadRect tb (Shape.Idx.first (numel1_S1.symm ▸ Nat.one_pos))) := chk7_7_of_lt _ (hH _)
  have k7_hw8 : k7_chk8 (tbM7.view.readAt (Elt F) (Rect.unit (s := S50000) (k7_off15 i) S1.size (k7_off15_inb i)).toLoadRect tb (Shape.Idx.first (numel1_S1.symm ▸ Nat.one_pos))) := chk7_8_of_lt _ (hH _)
  have k7_hw9 : k7_chk9 (tbM7.view.readAt (Elt F) (Rect.unit (s := S50000) (k7_off17 i) S1.size (k7_off17_inb i)).toLoadRect tb (Shape.Idx.first (numel1_S1.symm ▸ Nat.one_pos))) := chk7_9_of_lt _ (hH _)
  have k7_hw10 : k7_chk10 (tbM7.view.readAt (Elt F) (Rect.unit (s := S50000) (k7_off19 i) S1.size (k7_off19_inb i)).toLoadRect tb (Shape.Idx.first (numel1_S1.symm ▸ Nat.one_pos))) := chk7_10_of_lt _ (hH _)
  have k7_hw11 : k7_chk11 (tbM7.view.readAt (Elt F) (Rect.unit (s := S50000) (k7_off21 i) S1.size (k7_off21_inb i)).toLoadRect tb (Shape.Idx.first (numel1_S1.symm ▸ Nat.one_pos))) := chk7_11_of_lt _ (hH _)
  have k7_hw12 : k7_chk12 (tbM7.view.readAt (Elt F) (Rect.unit (s := S50000) (k7_off23 i) S1.size (k7_off23_inb i)).toLoadRect tb (Shape.Idx.first (numel1_S1.symm ▸ Nat.one_pos))) := chk7_12_of_lt _ (hH _)
  have k7_hw13 : k7_chk13 (tbM7.view.readAt (Elt F) (Rect.unit (s := S50000) (k7_off25 i) S1.size (k7_off25_inb i)).toLoadRect tb (Shape.Idx.first (numel1_S1.symm ▸ Nat.one_pos))) := chk7_13_of_lt _ (hH _)
  have k7_hw14 : k7_chk14 (tbM7.view.readAt (Elt F) (Rect.unit (s := S50000) (k7_off27 i) S1.size (k7_off27_inb i)).toLoadRect tb (Shape.Idx.first (numel1_S1.symm ▸ Nat.one_pos))) := chk7_14_of_lt _ (hH _)
  have k7_hw15 : k7_chk15 (tbM7.view.readAt (Elt F) (Rect.unit (s := S50000) (k7_off29 i) S1.size (k7_off29_inb i)).toLoadRect tb (Shape.Idx.first (numel1_S1.symm ▸ Nat.one_pos))) := chk7_15_of_lt _ (hH _)
  have k7_hw16 : k7_chk16 (tbM7.view.readAt (Elt F) (Rect.unit (s := S50000) (k7_off31 i) S1.size (k7_off31_inb i)).toLoadRect tb (Shape.Idx.first (numel1_S1.symm ▸ Nat.one_pos))) := chk7_16_of_lt _ (hH _)
  refine ⟨?_, fun W K => ?run⟩
  case run =>
    simp only [cc7_kernel_eq_skeleton]; unfold cc7_kernel_skel
    simp only [k7_part7_eq_skeleton]; unfold k7_part7_skel
    simp only [k7_part1_eq_skeleton, k7_part2_eq_skeleton, k7_part3_eq_skeleton, k7_part4_eq_skeleton, k7_part5_eq_skeleton, k7_part6_eq_skeleton]
    unfold owns sems7
    iintro ⟨⟨%f0, %hf0, H0⟩, ⟨%d1, %f1, -, H7⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks7 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k7_hw1 | sl_exact k7_hw2 | sl_exact k7_hw3 | sl_exact k7_hw4 | sl_exact k7_hw5 | sl_exact k7_hw6 | sl_exact k7_hw7 | sl_exact k7_hw8 | sl_exact k7_hw9 | sl_exact k7_hw10 | sl_exact k7_hw11 | sl_exact k7_hw12 | sl_exact k7_hw13 | sl_exact k7_hw14 | sl_exact k7_hw15 | sl_exact k7_hw16)
    sl_step
    iapply Hk
    isplitl [H0]
    · iexists _; isplitr; · ipureintro; exact harg3.read_unread _
      iexact H0
    isplitl [H7]; · iexists _; iexact H7
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks7 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg7 (F := F)).Adm)

/-- Each window's current staging memref at point t, spelled as the pipeline passes it, and its wholeness. -/
abbrev ms7_0 (t : Fin (cfg7 a).N) : Memref sig .tc .vmem S16x1 .f32 := spec7_0.stage ((cfg7 a).slots t 0)
abbrev hs7_0 (t : Fin (cfg7 a).N) : (ms7_0 a t).IsWhole := hstage7_0 (((cfg7 a).slots t 0).cast nbuf7_0)
abbrev ms7_1 (t : Fin (cfg7 a).N) : Memref sig .tc .vmem S16x512 .f32 := spec7_1.stage ((cfg7 a).slots t 1)
abbrev hs7_1 (t : Fin (cfg7 a).N) : (ms7_1 a t).IsWhole := hstage7_1 (((cfg7 a).slots t 1).cast nbuf7_1)

/-- The kernel body at point t, on what the pipeline calls it with. -/
abbrev bodyAt7 (t : Fin (cfg7 a).N) : Prog (TpuEff nD τ sig (Elt F) Λ₀ .tc) PUnit :=
  cc7_kernel (grid7.coords t) tbM7 (Memref.isWhole_whole _) hbM7 (Memref.isWhole_whole _) (ms7_0 a t) (hs7_0 a t) (ms7_1 a t) (hs7_1 a t) scM7 (Memref.isWhole_whole _) cc7_scratch1

/-! ## The invariant, conjunct by conjunct -/

/-- The sixteen own cells at zero, listed. -/
theorem ownSems07_eq (c : Dev nD) :
    (Pipeline.ownSems0 (Ix := Unit) (Name := ℕ) (U := Pipeline.UD sig nD τ) (Lvl := ℕ) (Val := Elt F) (τ := τ) osem7 c : sProp 𝕄) = sems7 c := by
  rw [Pipeline.ownSems0_eq_of_list c osem7 [0, 1, 2, 3, 4, 5, 6, 7, 8, 9, 10, 11, 12, 13, 14, 15] (by decide) (by decide)]; rfl

/-- The gathered array's points-to at the region-entry contents. -/
theorem hbmPts7_eq (c : Dev nD) :
    (bigSep H7 (fun b => ((c : Thread nD τ).loc b) ↦{fullShare} V c b) : sProp 𝕄) = iprop(hbPt7 c hbM7 (V c main_v34)) := by
  rw [BI.bigSep_eq_bigSepL_of_eq [main_v34] (by decide) (by decide)]; rfl

/-- The row table, whole, at the contents the region is launched with. -/
theorem prefHeld7_eq (c : Dev nD) :
    (Pipeline.prefHeld (Ix := Unit) (Name := ℕ) (U := Pipeline.UD sig nD τ) (Lvl := ℕ) pre7 c (fun _ => fullShare) a.1 : sProp 𝕄) = iprop(hbPt7 c tbM7 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD7_eq (c : Dev nD) :
    (Pipeline.ΦD osem7 spec7 H7 V c : sProp 𝕄)
      = iprop(iprop((∃ d, owns (c : Thread nD τ) scM7 fullShare d) ∗ Pipeline.scopedRestBut (Ix := Unit) (Name := ℕ) (U := Pipeline.UD sig nD τ) (Lvl := ℕ) (Val := Elt F) spec7 c [cc7_scratch0])
          ∗ (∃ r, prngReg c r) ∗ sems7 c ∗ iprop(hbPt7 c hbM7 (V c main_v34))) := by
  rw [Pipeline.ΦD_eq, scopedRest7_split, ownSems07_eq, hbmPts7_eq]; simp only [scM7, owns_whole]; try rfl

/-! ## The windows' blocks -/

/-- Window w's block at point t, read off its array as the region finds it. -/
def iblk7 (c : Dev nD) (w : Fin (cfg7 a).W) (t : Fin (cfg7 a).N) : (((cfg7 a).win w).xblock ((cfg7 a).grid.coords t)).Idx → Elt F ((cfg7 a).win w).elt :=
  (((cfg7 a).win w).blk t).view.read (Elt F) (V c (Pipeline.arrRef spec7 w))

/-- Input window 0's current staging buffer holds its block at every point, fetched there or not. -/
theorem before7_0_of {c : Dev nD} (dat : Dat τ (Elt F) Unit ℕ (Pipeline.UD sig nD τ) ℕ (cfg7 a) c) (hA : dat.A 0 = V c (Pipeline.arrRef spec7 0))
    (hafter : ∀ t, dat.after 0 t = iblk7 V a c 0 t) (t : Fin (cfg7 a).N) (d) : dat.before 0 t d = iblk7 V a c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## What the run leaves in the output window's buffer -/

/-- The run's pieces for the output tile its block, so they cover it. -/
theorem cover7_1 (c : Dev nD) (i : grid7.Coords) (arg3 : Memref sig .tc .vmem S16x1 .f32) (harg3 : arg3.IsWhole) (arg4 : Memref sig .tc .vmem S16x512 .f32) (harg4 : arg4.IsWhole)
    (x0 : Vec F S16x1 .f32) (tb : HbBuf7 (F := F) c tbM7) (fh0 : HbBuf7 (F := F) c hbM7) (hT : ∀ x, (tb x).toNat < 50000) (y : S16x512.Idx) :
    ∃ pc ∈ (kernelRun7 c i arg3 harg3 arg4 harg4 x0 tb fh0 hT).1, y ∈ pc.1.set :=
  View.cover_of_tiledL (kernelRun7 c i arg3 harg3 arg4 harg4 x0 tb fh0 hT).1 S16x512.size (by sl_kernel_rfl) y

/-- One staging buffer of the output window, through which its contents are stated. -/
abbrev VO7_1 : View sig .tc .vmem S16x512 .f32 := (Memref.whole cc7_stg1_0 : Memref sig .tc .vmem S16x512 .f32).view

/-- What the run leaves in the output's staging buffer: its pieces read back over junk. -/
def out7_1 (c : Dev nD) (i : grid7.Coords) (arg3 : Memref sig .tc .vmem S16x1 .f32) (harg3 : arg3.IsWhole) (arg4 : Memref sig .tc .vmem S16x512 .f32) (harg4 : arg4.IsWhole)
    (x0 : Vec F S16x1 .f32) (tb : HbBuf7 (F := F) c tbM7) (fh0 : HbBuf7 (F := F) c hbM7) (hT : ∀ x, (tb x).toNat < 50000) : Vec F S16x512 .f32 :=
  VO7_1.read (Elt F) (VO7_1.writes (Elt F) VO7_1.junk (kernelRun7 c i arg3 harg3 arg4 harg4 x0 tb fh0 hT).1)

/-- Every word of the table is a row of the gathered array, from the same of its words by position. -/
theorem tbl_lt7 (hH : ∀ j : Fin 50000, ((a.1 0) (ValueIdx.ix1 j)).toNat < 50000) (c : Dev nD) : ∀ x, (((a.1 0 : HbBuf7 (F := F) c tbM7)) x).toNat < 50000 :=
  fun x => by rw [ValueIdx.eq_ix1 x]; exact hH _

/-- What the output's staging buffer holds after the body at point t: the run's contents at the point's memrefs, the
    norm block, the table and the gathered array. -/
def outsAt7 (hH : ∀ j : Fin 50000, ((a.1 0) (ValueIdx.ix1 j)).toNat < 50000) (c : Dev nD) (t : Fin (cfg7 a).N) : Vec F S16x512 .f32 :=
  out7_1 c (grid7.coords t) (ms7_0 a t) (hs7_0 a t) (ms7_1 a t) (hs7_1 a t) (iblk7 V a c 0 t) (a.1 0) (V c main_v34) (tbl_lt7 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat7 (hH : ∀ j : Fin 50000, ((a.1 0) (ValueIdx.ix1 j)).toNat < 50000) (c : Dev nD) : Dat τ (Elt F) Unit ℕ (Pipeline.UD sig nD τ) ℕ (cfg7 a) c where
  A w := V c (Pipeline.arrRef spec7 w)
  after w t := match w with
    | ⟨0, _⟩ => iblk7 V a c 0 t
    | ⟨1, _⟩ => (outsAt7 V a hH c t)
  Φ _ := iprop(Pipeline.ΦD osem7 spec7 H7 V c ∗ Pipeline.prefHeld pre7 c (fun _ => fullShare) a.1)
  q _ := fullShare
  owed _ := 0

/-- The proof data's arrays are the region-entry contents. -/
theorem A_eq7 (hH : ∀ j : Fin 50000, ((a.1 0) (ValueIdx.ix1 j)).toNat < 50000) (c : Dev nD) (w : Fin (cfg7 a).W) : (dat7 V a hH c).A w = V c (Pipeline.arrRef spec7 w) := by
  dsimp only [dat7]

/-- What the body leaves, window by window. -/
theorem after7_0 (hH : ∀ j : Fin 50000, ((a.1 0) (ValueIdx.ix1 j)).toNat < 50000) (c : Dev nD) (t : Fin (cfg7 a).N) : (dat7 V a hH c).after 0 t = iblk7 V a c 0 t := by dsimp only [dat7]; try rfl
theorem after7_1 (hH : ∀ j : Fin 50000, ((a.1 0) (ValueIdx.ix1 j)).toNat < 50000) (c : Dev nD) (t : Fin (cfg7 a).N) : (dat7 V a hH c).after 1 t = (outsAt7 V a hH c t) := by dsimp only [dat7]; try rfl

/-- The input's current staging buffer holds its block at every point, fetched there or not. -/
theorem before7_0 (hH : ∀ j : Fin 50000, ((a.1 0) (ValueIdx.ix1 j)).toNat < 50000) (c : Dev nD) (t : Fin (cfg7 a).N) (d) : (dat7 V a hH c).before 0 t d = iblk7 V a c 0 t :=
  before7_0_of V a (dat7 V a hH c) (A_eq7 V a hH c 0) (after7_0 V a hH c) t d

/-! ## The body obligation, at a generic point -/

/-- What the body is called with at point t, the windows one by one, -/
def bodyPre7 (hH : ∀ j : Fin 50000, ((a.1 0) (ValueIdx.ix1 j)).toNat < 50000) (c : Dev nD) (t : Fin (cfg7 a).N) : sProp 𝕄 :=
  iprop((dat7 V a hH c).Φ t.castSucc ∗ (dat7 V a hH c).owesAt () t.castSucc
    ∗ (∃ d, owns (c : Thread nD τ) (ms7_0 a t) fullShare ((dat7 V a hH c).before 0 t d))
    ∗ (∃ d, owns (c : Thread nD τ) (ms7_1 a t) fullShare ((dat7 V a hH c).before 1 t d)))

/-- and what it returns. -/
def bodyPost7 (hH : ∀ j : Fin 50000, ((a.1 0) (ValueIdx.ix1 j)).toNat < 50000) (c : Dev nD) (t : Fin (cfg7 a).N) : sProp 𝕄 :=
  iprop((dat7 V a hH c).Φ t.succ ∗ (dat7 V a hH c).owesAt () t.succ
    ∗ owns (c : Thread nD τ) (ms7_0 a t) fullShare ((dat7 V a hH c).after 0 t)
    ∗ owns (c : Thread nD τ) (ms7_1 a t) fullShare ((dat7 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body7 (hH : ∀ j : Fin 50000, ((a.1 0) (ValueIdx.ix1 j)).toNat < 50000) (c : Dev nD) (t : Fin (cfg7 a).N) :
    bodyPre7 V a hH c t ⊢ wp frame (wpE (defs₀ (F := F)) Variants.none c none) Set.univ (bodyAt7 a t) (fun _ => bodyPost7 V a hH c t) := by
  unfold bodyPre7 bodyPost7 bodyAt7
  simp only [before7_0]
  rw [show (dat7 V a hH c).Φ t.succ = (dat7 V a hH c).Φ t.castSucc from rfl,
    after7_0, after7_1]
  rw [show (dat7 V a hH c).Φ t.castSucc = iprop(Pipeline.ΦD osem7 spec7 H7 V c ∗ Pipeline.prefHeld pre7 c (fun _ => fullShare) a.1) from rfl, PhiD7_eq, prefHeld7_eq]
  unfold Dat.owesAt Pipeline.owesWithin
  rw [show (dat7 V a hH c).owed t.castSucc = 0 from rfl, show (dat7 V a hH c).owed t.succ = 0 from rfl]
  unfold outsAt7
  unfold out7_1
  iintro ⟨⟨⟨⟨HS0, HSr⟩, Hg, Hq, Hh0⟩, HT⟩, ⟨%W, -, HW⟩, ⟨%d0, H0⟩, ⟨%d1, H7⟩⟩
  iapply ((kernelRun7 c (grid7.coords t) _ _ _ _ (iblk7 V a c 0 t) (a.1 0) (V c main_v34) (tbl_lt7 a hH c)).2 W _)
  isplitl [H0]; · iexact H0
  isplitl [H7]; · iexists _; iexact H7
  isplitl [HS0]; · iexact HS0
  isplitl [Hq]; · iexact Hq
  isplitl [Hh0]; · iexact Hh0
  isplitl [HT]; · iexact HT
  isplitl [HW]; · iexact HW
  iintro ⟨H0, ⟨%e1, H7⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H7
  ipureintro; exact View.read_writes_of_cover _ _ _ _ _ (cover7_1 c _ _ _ _ _ _ _ _ _)

/-- The library's body obligation, at every point. -/
theorem body_obligation7 (hH : ∀ j : Fin 50000, ((a.1 0) (ValueIdx.ix1 j)).toNat < 50000) (c : Dev nD) : BodyObligation (dat7 (F := F) V a hH c) (defs₀ (F := F)) Variants.none () Set.univ := fun t => by
  rw [bigSep_W7, bigSep_W7]
  exact sound_body7 V a hH c t

end Cert.Kernel.Hand

end
-- ==== Proof.Bits.G8.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 8 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem8 : Fin 16 → SemLoc sig := fun j =>
  (![SemLoc.dma 149, SemLoc.dma 150, SemLoc.dma 151, SemLoc.dma 152, SemLoc.dma 153, SemLoc.dma 154, SemLoc.dma 155, SemLoc.dma 156,
     SemLoc.dma 157, SemLoc.dma 158, SemLoc.dma 159, SemLoc.dma 160, SemLoc.dma 161, SemLoc.dma 162, SemLoc.dma 163, SemLoc.dma 164] : Fin 16 → SemLoc sig) j
theorem ownSemFacts8 : Pipeline.OwnSemFacts spec8 osem8 := by decide

/-- The HBM operand the body gathers rows from: unscoped, no window's array, no table. -/
def H8 : Finset (Ref sig .tc) := {main_v34}
theorem H8_sub : H8 ⊆ Pipeline.restRefsP sig pre8 spec8 := by decide

/-- The operands the pipeline does not stage, whole. -/
abbrev tbM8 : Memref sig .tc .smem S50000 .i32 := Memref.whole main_v57
abbrev hbM8 : Memref sig .tc .hbm S50000x512 .f32 := Memref.whole main_v34
abbrev scM8 : Memref sig .tc .vmem S16x512 .f32 := Memref.whole cc8_scratch0

/-- A whole memref's buffer on core `c`, and it held whole at `f`. -/
abbrev HbBuf8 (c : Dev nD) {sp : Space} {S : Shape} {e : EltTy} (M : Memref sig .tc sp S e) : Type := Buf (Elt F) (M.view.loc (c : Thread nD τ))
abbrev hbPt8 (c : Dev nD) {sp : Space} {S : Shape} {e : EltTy} (M : Memref sig .tc sp S e) (f : HbBuf8 (F := F) c M) : sProp 𝕄 :=
  M.view.loc (c : Thread nD τ) ↦{fullShare} f

/-- The sixteen own cells at zero. -/
abbrev sems8 (c : Dev nD) : sProp 𝕄 :=
  iprop(semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0 ∗ semVal ((c : Thread nD τ), SemLoc.dma 162) 0 ∗ semVal ((c : Thread nD τ), SemLoc.dma 163) 0 ∗ semVal ((c : Thread nD τ), SemLoc.dma 164) 0)

/-- A row index inside the gathered array puts the one-row slice inside it. -/
theorem row_inb8 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk8_1_of_lt (w : BitVec 32) (h : w.toNat < 50000) : k8_chk1 w := ⟨row_inb8 w h, row_inb8 w h⟩
theorem chk8_2_of_lt (w : BitVec 32) (h : w.toNat < 50000) : k8_chk2 w := ⟨row_inb8 w h, row_inb8 w h⟩
theorem chk8_3_of_lt (w : BitVec 32) (h : w.toNat < 50000) : k8_chk3 w := ⟨row_inb8 w h, row_inb8 w h⟩
theorem chk8_4_of_lt (w : BitVec 32) (h : w.toNat < 50000) : k8_chk4 w := ⟨row_inb8 w h, row_inb8 w h⟩
theorem chk8_5_of_lt (w : BitVec 32) (h : w.toNat < 50000) : k8_chk5 w := ⟨row_inb8 w h, row_inb8 w h⟩
theorem chk8_6_of_lt (w : BitVec 32) (h : w.toNat < 50000) : k8_chk6 w := ⟨row_inb8 w h, row_inb8 w h⟩
theorem chk8_7_of_lt (w : BitVec 32) (h : w.toNat < 50000) : k8_chk7 w := ⟨row_inb8 w h, row_inb8 w h⟩
theorem chk8_8_of_lt (w : BitVec 32) (h : w.toNat < 50000) : k8_chk8 w := ⟨row_inb8 w h, row_inb8 w h⟩
theorem chk8_9_of_lt (w : BitVec 32) (h : w.toNat < 50000) : k8_chk9 w := ⟨row_inb8 w h, row_inb8 w h⟩
theorem chk8_10_of_lt (w : BitVec 32) (h : w.toNat < 50000) : k8_chk10 w := ⟨row_inb8 w h, row_inb8 w h⟩
theorem chk8_11_of_lt (w : BitVec 32) (h : w.toNat < 50000) : k8_chk11 w := ⟨row_inb8 w h, row_inb8 w h⟩
theorem chk8_12_of_lt (w : BitVec 32) (h : w.toNat < 50000) : k8_chk12 w := ⟨row_inb8 w h, row_inb8 w h⟩
theorem chk8_13_of_lt (w : BitVec 32) (h : w.toNat < 50000) : k8_chk13 w := ⟨row_inb8 w h, row_inb8 w h⟩
theorem chk8_14_of_lt (w : BitVec 32) (h : w.toNat < 50000) : k8_chk14 w := ⟨row_inb8 w h, row_inb8 w h⟩
theorem chk8_15_of_lt (w : BitVec 32) (h : w.toNat < 50000) : k8_chk15 w := ⟨row_inb8 w h, row_inb8 w h⟩
theorem chk8_16_of_lt (w : BitVec 32) (h : w.toNat < 50000) : k8_chk16 w := row_inb8 w h

/-- A whole points-to as what stays behind, sixteen read tokens numbered `b + 15` down to `b`, and the tokens below
    `b` kept as one family. -/
theorem toksAt8 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 149 … 164. -/
theorem toks8 {ℓ : Loc nD τ sig} (f : Buf (Elt F) ℓ) :
    (ℓ ↦{fullShare} f : sProp 𝕄) ⊣⊢ iprop((ℓ ↦{Transfers.shareDrop fullShare 165} f) ∗ (ℓ ↦{Transfers.shareTokN fullShare 164} f) ∗ (ℓ ↦{Transfers.shareTokN fullShare 163} f) ∗ (ℓ ↦{Transfers.shareTokN fullShare 162} f) ∗ (ℓ ↦{Transfers.shareTokN fullShare 161} f) ∗ (ℓ ↦{Transfers.shareTokN fullShare 160} f) ∗ (ℓ ↦{Transfers.shareTokN fullShare 159} f) ∗ (ℓ ↦{Transfers.shareTokN fullShare 158} f) ∗ (ℓ ↦{Transfers.shareTokN fullShare 157} f) ∗ (ℓ ↦{Transfers.shareTokN fullShare 156} f) ∗ (ℓ ↦{Transfers.shareTokN fullShare 155} f) ∗ (ℓ ↦{Transfers.shareTokN fullShare 154} f) ∗ (ℓ ↦{Transfers.shareTokN fullShare 153} f) ∗ (ℓ ↦{Transfers.shareTokN fullShare 152} f) ∗ (ℓ ↦{Transfers.shareTokN fullShare 151} f) ∗ (ℓ ↦{Transfers.shareTokN fullShare 150} f) ∗ (ℓ ↦{Transfers.shareTokN fullShare 149} f)
      ∗ BI.bigSep (Finset.range 149) fun k => ℓ ↦{Transfers.shareTokN fullShare k} f) :=
  toksAt8 f 149

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun8 (c : Dev nD) (i : grid8.Coords) (arg3 : Memref sig .tc .vmem S16x1 .f32) (harg3 : arg3.IsWhole) (arg4 : Memref sig .tc .vmem S16x512 .f32) (harg4 : arg4.IsWhole)
    (x0 : Vec F S16x1 .f32) (tb : HbBuf8 (F := F) c tbM8) (fh0 : HbBuf8 (F := F) c hbM8) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM8 fullShare d) ∗ sems8 c ∗ hbPt8 c hbM8 fh0 ∗ hbPt8 c tbM8 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM8 fullShare d) ∗ sems8 c ∗ hbPt8 c hbM8 fh0 ∗ hbPt8 c tbM8 tb ∗ (∃ W', owes (c : Thread nD τ) 0 W')) -∗ K ⟨⟩))
          ⊢ wp frame (wpE (defs₀ (F := F)) Variants.none c none) Set.univ (cc8_kernel i tbM8 (Memref.isWhole_whole _) hbM8 (Memref.isWhole_whole _) arg3 harg3 arg4 harg4 scM8 (Memref.isWhole_whole _) cc8_scratch1) K } := by
  have k8_hw1 : k8_chk1 (tbM8.view.readAt (Elt F) (Rect.unit (s := S50000) (k8_off1 i) S1.size (k8_off1_inb i)).toLoadRect tb (Shape.Idx.first (numel1_S1.symm ▸ Nat.one_pos))) := chk8_1_of_lt _ (hH _)
  have k8_hw2 : k8_chk2 (tbM8.view.readAt (Elt F) (Rect.unit (s := S50000) (k8_off3 i) S1.size (k8_off3_inb i)).toLoadRect tb (Shape.Idx.first (numel1_S1.symm ▸ Nat.one_pos))) := chk8_2_of_lt _ (hH _)
  have k8_hw3 : k8_chk3 (tbM8.view.readAt (Elt F) (Rect.unit (s := S50000) (k8_off5 i) S1.size (k8_off5_inb i)).toLoadRect tb (Shape.Idx.first (numel1_S1.symm ▸ Nat.one_pos))) := chk8_3_of_lt _ (hH _)
  have k8_hw4 : k8_chk4 (tbM8.view.readAt (Elt F) (Rect.unit (s := S50000) (k8_off7 i) S1.size (k8_off7_inb i)).toLoadRect tb (Shape.Idx.first (numel1_S1.symm ▸ Nat.one_pos))) := chk8_4_of_lt _ (hH _)
  have k8_hw5 : k8_chk5 (tbM8.view.readAt (Elt F) (Rect.unit (s := S50000) (k8_off9 i) S1.size (k8_off9_inb i)).toLoadRect tb (Shape.Idx.first (numel1_S1.symm ▸ Nat.one_pos))) := chk8_5_of_lt _ (hH _)
  have k8_hw6 : k8_chk6 (tbM8.view.readAt (Elt F) (Rect.unit (s := S50000) (k8_off11 i) S1.size (k8_off11_inb i)).toLoadRect tb (Shape.Idx.first (numel1_S1.symm ▸ Nat.one_pos))) := chk8_6_of_lt _ (hH _)
  have k8_hw7 : k8_chk7 (tbM8.view.readAt (Elt F) (Rect.unit (s := S50000) (k8_off13 i) S1.size (k8_off13_inb i)).toLoadRect tb (Shape.Idx.first (numel1_S1.symm ▸ Nat.one_pos))) := chk8_7_of_lt _ (hH _)
  have k8_hw8 : k8_chk8 (tbM8.view.readAt (Elt F) (Rect.unit (s := S50000) (k8_off15 i) S1.size (k8_off15_inb i)).toLoadRect tb (Shape.Idx.first (numel1_S1.symm ▸ Nat.one_pos))) := chk8_8_of_lt _ (hH _)
  have k8_hw9 : k8_chk9 (tbM8.view.readAt (Elt F) (Rect.unit (s := S50000) (k8_off17 i) S1.size (k8_off17_inb i)).toLoadRect tb (Shape.Idx.first (numel1_S1.symm ▸ Nat.one_pos))) := chk8_9_of_lt _ (hH _)
  have k8_hw10 : k8_chk10 (tbM8.view.readAt (Elt F) (Rect.unit (s := S50000) (k8_off19 i) S1.size (k8_off19_inb i)).toLoadRect tb (Shape.Idx.first (numel1_S1.symm ▸ Nat.one_pos))) := chk8_10_of_lt _ (hH _)
  have k8_hw11 : k8_chk11 (tbM8.view.readAt (Elt F) (Rect.unit (s := S50000) (k8_off21 i) S1.size (k8_off21_inb i)).toLoadRect tb (Shape.Idx.first (numel1_S1.symm ▸ Nat.one_pos))) := chk8_11_of_lt _ (hH _)
  have k8_hw12 : k8_chk12 (tbM8.view.readAt (Elt F) (Rect.unit (s := S50000) (k8_off23 i) S1.size (k8_off23_inb i)).toLoadRect tb (Shape.Idx.first (numel1_S1.symm ▸ Nat.one_pos))) := chk8_12_of_lt _ (hH _)
  have k8_hw13 : k8_chk13 (tbM8.view.readAt (Elt F) (Rect.unit (s := S50000) (k8_off25 i) S1.size (k8_off25_inb i)).toLoadRect tb (Shape.Idx.first (numel1_S1.symm ▸ Nat.one_pos))) := chk8_13_of_lt _ (hH _)
  have k8_hw14 : k8_chk14 (tbM8.view.readAt (Elt F) (Rect.unit (s := S50000) (k8_off27 i) S1.size (k8_off27_inb i)).toLoadRect tb (Shape.Idx.first (numel1_S1.symm ▸ Nat.one_pos))) := chk8_14_of_lt _ (hH _)
  have k8_hw15 : k8_chk15 (tbM8.view.readAt (Elt F) (Rect.unit (s := S50000) (k8_off29 i) S1.size (k8_off29_inb i)).toLoadRect tb (Shape.Idx.first (numel1_S1.symm ▸ Nat.one_pos))) := chk8_15_of_lt _ (hH _)
  have k8_hw16 : k8_chk16 (tbM8.view.readAt (Elt F) (Rect.unit (s := S50000) (k8_off31 i) S1.size (k8_off31_inb i)).toLoadRect tb (Shape.Idx.first (numel1_S1.symm ▸ Nat.one_pos))) := chk8_16_of_lt _ (hH _)
  refine ⟨?_, fun W K => ?run⟩
  case run =>
    simp only [cc8_kernel_eq_skeleton]; unfold cc8_kernel_skel
    simp only [k8_part7_eq_skeleton]; unfold k8_part7_skel
    simp only [k8_part1_eq_skeleton, k8_part2_eq_skeleton, k8_part3_eq_skeleton, k8_part4_eq_skeleton, k8_part5_eq_skeleton, k8_part6_eq_skeleton]
    unfold owns sems8
    iintro ⟨⟨%f0, %hf0, H0⟩, ⟨%d1, %f1, -, H8⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks8 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k8_hw1 | sl_exact k8_hw2 | sl_exact k8_hw3 | sl_exact k8_hw4 | sl_exact k8_hw5 | sl_exact k8_hw6 | sl_exact k8_hw7 | sl_exact k8_hw8 | sl_exact k8_hw9 | sl_exact k8_hw10 | sl_exact k8_hw11 | sl_exact k8_hw12 | sl_exact k8_hw13 | sl_exact k8_hw14 | sl_exact k8_hw15 | sl_exact k8_hw16)
    sl_step
    iapply Hk
    isplitl [H0]
    · iexists _; isplitr; · ipureintro; exact harg3.read_unread _
      iexact H0
    isplitl [H8]; · iexists _; iexact H8
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks8 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg8 (F := F)).Adm)

/-- Each window's current staging memref at point t, spelled as the pipeline passes it, and its wholeness. -/
abbrev ms8_0 (t : Fin (cfg8 a).N) : Memref sig .tc .vmem S16x1 .f32 := spec8_0.stage ((cfg8 a).slots t 0)
abbrev hs8_0 (t : Fin (cfg8 a).N) : (ms8_0 a t).IsWhole := hstage8_0 (((cfg8 a).slots t 0).cast nbuf8_0)
abbrev ms8_1 (t : Fin (cfg8 a).N) : Memref sig .tc .vmem S16x512 .f32 := spec8_1.stage ((cfg8 a).slots t 1)
abbrev hs8_1 (t : Fin (cfg8 a).N) : (ms8_1 a t).IsWhole := hstage8_1 (((cfg8 a).slots t 1).cast nbuf8_1)

/-- The kernel body at point t, on what the pipeline calls it with. -/
abbrev bodyAt8 (t : Fin (cfg8 a).N) : Prog (TpuEff nD τ sig (Elt F) Λ₀ .tc) PUnit :=
  cc8_kernel (grid8.coords t) tbM8 (Memref.isWhole_whole _) hbM8 (Memref.isWhole_whole _) (ms8_0 a t) (hs8_0 a t) (ms8_1 a t) (hs8_1 a t) scM8 (Memref.isWhole_whole _) cc8_scratch1

/-! ## The invariant, conjunct by conjunct -/

/-- The sixteen own cells at zero, listed. -/
theorem ownSems08_eq (c : Dev nD) :
    (Pipeline.ownSems0 (Ix := Unit) (Name := ℕ) (U := Pipeline.UD sig nD τ) (Lvl := ℕ) (Val := Elt F) (τ := τ) osem8 c : sProp 𝕄) = sems8 c := by
  rw [Pipeline.ownSems0_eq_of_list c osem8 [0, 1, 2, 3, 4, 5, 6, 7, 8, 9, 10, 11, 12, 13, 14, 15] (by decide) (by decide)]; rfl

/-- The gathered array's points-to at the region-entry contents. -/
theorem hbmPts8_eq (c : Dev nD) :
    (bigSep H8 (fun b => ((c : Thread nD τ).loc b) ↦{fullShare} V c b) : sProp 𝕄) = iprop(hbPt8 c hbM8 (V c main_v34)) := by
  rw [BI.bigSep_eq_bigSepL_of_eq [main_v34] (by decide) (by decide)]; rfl

/-- The row table, whole, at the contents the region is launched with. -/
theorem prefHeld8_eq (c : Dev nD) :
    (Pipeline.prefHeld (Ix := Unit) (Name := ℕ) (U := Pipeline.UD sig nD τ) (Lvl := ℕ) pre8 c (fun _ => fullShare) a.1 : sProp 𝕄) = iprop(hbPt8 c tbM8 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD8_eq (c : Dev nD) :
    (Pipeline.ΦD osem8 spec8 H8 V c : sProp 𝕄)
      = iprop(iprop((∃ d, owns (c : Thread nD τ) scM8 fullShare d) ∗ Pipeline.scopedRestBut (Ix := Unit) (Name := ℕ) (U := Pipeline.UD sig nD τ) (Lvl := ℕ) (Val := Elt F) spec8 c [cc8_scratch0])
          ∗ (∃ r, prngReg c r) ∗ sems8 c ∗ iprop(hbPt8 c hbM8 (V c main_v34))) := by
  rw [Pipeline.ΦD_eq, scopedRest8_split, ownSems08_eq, hbmPts8_eq]; simp only [scM8, owns_whole]; try rfl

/-! ## The windows' blocks -/

/-- Window w's block at point t, read off its array as the region finds it. -/
def iblk8 (c : Dev nD) (w : Fin (cfg8 a).W) (t : Fin (cfg8 a).N) : (((cfg8 a).win w).xblock ((cfg8 a).grid.coords t)).Idx → Elt F ((cfg8 a).win w).elt :=
  (((cfg8 a).win w).blk t).view.read (Elt F) (V c (Pipeline.arrRef spec8 w))

/-- Input window 0's current staging buffer holds its block at every point, fetched there or not. -/
theorem before8_0_of {c : Dev nD} (dat : Dat τ (Elt F) Unit ℕ (Pipeline.UD sig nD τ) ℕ (cfg8 a) c) (hA : dat.A 0 = V c (Pipeline.arrRef spec8 0))
    (hafter : ∀ t, dat.after 0 t = iblk8 V a c 0 t) (t : Fin (cfg8 a).N) (d) : dat.before 0 t d = iblk8 V a c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-! ## What the run leaves in the output window's buffer -/

/-- The run's pieces for the output tile its block, so they cover it. -/
theorem cover8_1 (c : Dev nD) (i : grid8.Coords) (arg3 : Memref sig .tc .vmem S16x1 .f32) (harg3 : arg3.IsWhole) (arg4 : Memref sig .tc .vmem S16x512 .f32) (harg4 : arg4.IsWhole)
    (x0 : Vec F S16x1 .f32) (tb : HbBuf8 (F := F) c tbM8) (fh0 : HbBuf8 (F := F) c hbM8) (hT : ∀ x, (tb x).toNat < 50000) (y : S16x512.Idx) :
    ∃ pc ∈ (kernelRun8 c i arg3 harg3 arg4 harg4 x0 tb fh0 hT).1, y ∈ pc.1.set :=
  View.cover_of_tiledL (kernelRun8 c i arg3 harg3 arg4 harg4 x0 tb fh0 hT).1 S16x512.size (by sl_kernel_rfl) y

/-- One staging buffer of the output window, through which its contents are stated. -/
abbrev VO8_1 : View sig .tc .vmem S16x512 .f32 := (Memref.whole cc8_stg1_0 : Memref sig .tc .vmem S16x512 .f32).view

/-- What the run leaves in the output's staging buffer: its pieces read back over junk. -/
def out8_1 (c : Dev nD) (i : grid8.Coords) (arg3 : Memref sig .tc .vmem S16x1 .f32) (harg3 : arg3.IsWhole) (arg4 : Memref sig .tc .vmem S16x512 .f32) (harg4 : arg4.IsWhole)
    (x0 : Vec F S16x1 .f32) (tb : HbBuf8 (F := F) c tbM8) (fh0 : HbBuf8 (F := F) c hbM8) (hT : ∀ x, (tb x).toNat < 50000) : Vec F S16x512 .f32 :=
  VO8_1.read (Elt F) (VO8_1.writes (Elt F) VO8_1.junk (kernelRun8 c i arg3 harg3 arg4 harg4 x0 tb fh0 hT).1)

/-- Every word of the table is a row of the gathered array, from the same of its words by position. -/
theorem tbl_lt8 (hH : ∀ j : Fin 50000, ((a.1 0) (ValueIdx.ix1 j)).toNat < 50000) (c : Dev nD) : ∀ x, (((a.1 0 : HbBuf8 (F := F) c tbM8)) x).toNat < 50000 :=
  fun x => by rw [ValueIdx.eq_ix1 x]; exact hH _

/-- What the output's staging buffer holds after the body at point t: the run's contents at the point's memrefs, the
    norm block, the table and the gathered array. -/
def outsAt8 (hH : ∀ j : Fin 50000, ((a.1 0) (ValueIdx.ix1 j)).toNat < 50000) (c : Dev nD) (t : Fin (cfg8 a).N) : Vec F S16x512 .f32 :=
  out8_1 c (grid8.coords t) (ms8_0 a t) (hs8_0 a t) (ms8_1 a t) (hs8_1 a t) (iblk8 V a c 0 t) (a.1 0) (V c main_v34) (tbl_lt8 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat8 (hH : ∀ j : Fin 50000, ((a.1 0) (ValueIdx.ix1 j)).toNat < 50000) (c : Dev nD) : Dat τ (Elt F) Unit ℕ (Pipeline.UD sig nD τ) ℕ (cfg8 a) c where
  A w := V c (Pipeline.arrRef spec8 w)
  after w t := match w with
    | ⟨0, _⟩ => iblk8 V a c 0 t
    | ⟨1, _⟩ => (outsAt8 V a hH c t)
  Φ _ := iprop(Pipeline.ΦD osem8 spec8 H8 V c ∗ Pipeline.prefHeld pre8 c (fun _ => fullShare) a.1)
  q _ := fullShare
  owed _ := 0

/-- The proof data's arrays are the region-entry contents. -/
theorem A_eq8 (hH : ∀ j : Fin 50000, ((a.1 0) (ValueIdx.ix1 j)).toNat < 50000) (c : Dev nD) (w : Fin (cfg8 a).W) : (dat8 V a hH c).A w = V c (Pipeline.arrRef spec8 w) := by
  dsimp only [dat8]

/-- What the body leaves, window by window. -/
theorem after8_0 (hH : ∀ j : Fin 50000, ((a.1 0) (ValueIdx.ix1 j)).toNat < 50000) (c : Dev nD) (t : Fin (cfg8 a).N) : (dat8 V a hH c).after 0 t = iblk8 V a c 0 t := by dsimp only [dat8]; try rfl
theorem after8_1 (hH : ∀ j : Fin 50000, ((a.1 0) (ValueIdx.ix1 j)).toNat < 50000) (c : Dev nD) (t : Fin (cfg8 a).N) : (dat8 V a hH c).after 1 t = (outsAt8 V a hH c t) := by dsimp only [dat8]; try rfl

/-- The input's current staging buffer holds its block at every point, fetched there or not. -/
theorem before8_0 (hH : ∀ j : Fin 50000, ((a.1 0) (ValueIdx.ix1 j)).toNat < 50000) (c : Dev nD) (t : Fin (cfg8 a).N) (d) : (dat8 V a hH c).before 0 t d = iblk8 V a c 0 t :=
  before8_0_of V a (dat8 V a hH c) (A_eq8 V a hH c 0) (after8_0 V a hH c) t d

/-! ## The body obligation, at a generic point -/

/-- What the body is called with at point t, the windows one by one, -/
def bodyPre8 (hH : ∀ j : Fin 50000, ((a.1 0) (ValueIdx.ix1 j)).toNat < 50000) (c : Dev nD) (t : Fin (cfg8 a).N) : sProp 𝕄 :=
  iprop((dat8 V a hH c).Φ t.castSucc ∗ (dat8 V a hH c).owesAt () t.castSucc
    ∗ (∃ d, owns (c : Thread nD τ) (ms8_0 a t) fullShare ((dat8 V a hH c).before 0 t d))
    ∗ (∃ d, owns (c : Thread nD τ) (ms8_1 a t) fullShare ((dat8 V a hH c).before 1 t d)))

/-- and what it returns. -/
def bodyPost8 (hH : ∀ j : Fin 50000, ((a.1 0) (ValueIdx.ix1 j)).toNat < 50000) (c : Dev nD) (t : Fin (cfg8 a).N) : sProp 𝕄 :=
  iprop((dat8 V a hH c).Φ t.succ ∗ (dat8 V a hH c).owesAt () t.succ
    ∗ owns (c : Thread nD τ) (ms8_0 a t) fullShare ((dat8 V a hH c).after 0 t)
    ∗ owns (c : Thread nD τ) (ms8_1 a t) fullShare ((dat8 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body8 (hH : ∀ j : Fin 50000, ((a.1 0) (ValueIdx.ix1 j)).toNat < 50000) (c : Dev nD) (t : Fin (cfg8 a).N) :
    bodyPre8 V a hH c t ⊢ wp frame (wpE (defs₀ (F := F)) Variants.none c none) Set.univ (bodyAt8 a t) (fun _ => bodyPost8 V a hH c t) := by
  unfold bodyPre8 bodyPost8 bodyAt8
  simp only [before8_0]
  rw [show (dat8 V a hH c).Φ t.succ = (dat8 V a hH c).Φ t.castSucc from rfl,
    after8_0, after8_1]
  rw [show (dat8 V a hH c).Φ t.castSucc = iprop(Pipeline.ΦD osem8 spec8 H8 V c ∗ Pipeline.prefHeld pre8 c (fun _ => fullShare) a.1) from rfl, PhiD8_eq, prefHeld8_eq]
  unfold Dat.owesAt Pipeline.owesWithin
  rw [show (dat8 V a hH c).owed t.castSucc = 0 from rfl, show (dat8 V a hH c).owed t.succ = 0 from rfl]
  unfold outsAt8
  unfold out8_1
  iintro ⟨⟨⟨⟨HS0, HSr⟩, Hg, Hq, Hh0⟩, HT⟩, ⟨%W, -, HW⟩, ⟨%d0, H0⟩, ⟨%d1, H8⟩⟩
  iapply ((kernelRun8 c (grid8.coords t) _ _ _ _ (iblk8 V a c 0 t) (a.1 0) (V c main_v34) (tbl_lt8 a hH c)).2 W _)
  isplitl [H0]; · iexact H0
  isplitl [H8]; · iexists _; iexact H8
  isplitl [HS0]; · iexact HS0
  isplitl [Hq]; · iexact Hq
  isplitl [Hh0]; · iexact Hh0
  isplitl [HT]; · iexact HT
  isplitl [HW]; · iexact HW
  iintro ⟨H0, ⟨%e1, H8⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H8
  ipureintro; exact View.read_writes_of_cover _ _ _ _ _ (cover8_1 c _ _ _ _ _ _ _ _ _)

/-- The library's body obligation, at every point. -/
theorem body_obligation8 (hH : ∀ j : Fin 50000, ((a.1 0) (ValueIdx.ix1 j)).toNat < 50000) (c : Dev nD) : BodyObligation (dat8 (F := F) V a hH c) (defs₀ (F := F)) Variants.none () Set.univ := fun t => by
  rw [bigSep_W8, bigSep_W8]
  exact sound_body8 V a hH c t

end Cert.Kernel.Hand

end
-- ==== Proof.Bits.G9.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 9 (sixteen-row gather and scale, layer 1): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem9 : Fin 16 → SemLoc sig := fun j =>
  (![SemLoc.dma 169, SemLoc.dma 170, SemLoc.dma 171, SemLoc.dma 172, SemLoc.dma 173, SemLoc.dma 174, SemLoc.dma 175, SemLoc.dma 176,
     SemLoc.dma 177, SemLoc.dma 178, SemLoc.dma 179, SemLoc.dma 180, SemLoc.dma 181, SemLoc.dma 182, SemLoc.dma 183, SemLoc.dma 184] : Fin 16 → SemLoc sig) j
theorem ownSemFacts9 : Pipeline.OwnSemFacts spec9 osem9 := by decide

/-- The HBM operand the body gathers rows from: unscoped, no window's array, no table. -/
def H9 : Finset (Ref sig .tc) := {main_v34}
theorem H9_sub : H9 ⊆ Pipeline.restRefsP sig pre9 spec9 := by decide

/-- The operands the pipeline does not stage, whole. -/
abbrev tbM9 : Memref sig .tc .smem S50000 .i32 := Memref.whole main_v60
abbrev hbM9 : Memref sig .tc .hbm S50000x512 .f32 := Memref.whole main_v34
abbrev scM9 : Memref sig .tc .vmem S16x512 .f32 := Memref.whole cc9_scratch0

/-- A whole memref's buffer on core `c`, and it held whole at `f`. -/
abbrev HbBuf9 (c : Dev nD) {sp : Space} {S : Shape} {e : EltTy} (M : Memref sig .tc sp S e) : Type := Buf (Elt F) (M.view.loc (c : Thread nD τ))
abbrev hbPt9 (c : Dev nD) {sp : Space} {S : Shape} {e : EltTy} (M : Memref sig .tc sp S e) (f : HbBuf9 (F := F) c M) : sProp 𝕄 :=
  M.view.loc (c : Thread nD τ) ↦{fullShare} f

/-- The sixteen own cells at zero. -/
abbrev sems9 (c : Dev nD) : sProp 𝕄 :=
  iprop(semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0 ∗ semVal ((c : Thread nD τ), SemLoc.dma 180) 0 ∗ semVal ((c : Thread nD τ), SemLoc.dma 181) 0 ∗ semVal ((c : Thread nD τ), SemLoc.dma 182) 0 ∗ semVal ((c : Thread nD τ), SemLoc.dma 183) 0 ∗ semVal ((c : Thread nD τ), SemLoc.dma 184) 0)

/-- A row index inside the gathered array puts the one-row slice inside it. -/
theorem row_inb9 (w : BitVec 32) (h : w.toNat < 50000) : ∀ a, (![w.toNat, 0] : Fin 2 → Nat) a + S1x512.size a ≤ S50000x512.size a := by
  intro a; fin_cases a
  · show w.toNat + 1 ≤ 50000; omega
  · show 0 + 512 ≤ 512; omega
theorem chk9_1_of_lt (w : BitVec 32) (h : w.toNat < 50000) : k9_chk1 w := ⟨row_inb9 w h, row_inb9 w h⟩
theorem chk9_2_of_lt (w : BitVec 32) (h : w.toNat < 50000) : k9_chk2 w := ⟨row_inb9 w h, row_inb9 w h⟩
theorem chk9_3_of_lt (w : BitVec 32) (h : w.toNat < 50000) : k9_chk3 w := ⟨row_inb9 w h, row_inb9 w h⟩
theorem chk9_4_of_lt (w : BitVec 32) (h : w.toNat < 50000) : k9_chk4 w := ⟨row_inb9 w h, row_inb9 w h⟩
theorem chk9_5_of_lt (w : BitVec 32) (h : w.toNat < 50000) : k9_chk5 w := ⟨row_inb9 w h, row_inb9 w h⟩
theorem chk9_6_of_lt (w : BitVec 32) (h : w.toNat < 50000) : k9_chk6 w := ⟨row_inb9 w h, row_inb9 w h⟩
theorem chk9_7_of_lt (w : BitVec 32) (h : w.toNat < 50000) : k9_chk7 w := ⟨row_inb9 w h, row_inb9 w h⟩
theorem chk9_8_of_lt (w : BitVec 32) (h : w.toNat < 50000) : k9_chk8 w := ⟨row_inb9 w h, row_inb9 w h⟩
theorem chk9_9_of_lt (w : BitVec 32) (h : w.toNat < 50000) : k9_chk9 w := ⟨row_inb9 w h, row_inb9 w h⟩
theorem chk9_10_of_lt (w : BitVec 32) (h : w.toNat < 50000) : k9_chk10 w := ⟨row_inb9 w h, row_inb9 w h⟩
theorem chk9_11_of_lt (w : BitVec 32) (h : w.toNat < 50000) : k9_chk11 w := ⟨row_inb9 w h, row_inb9 w h⟩
theorem chk9_12_of_lt (w : BitVec 32) (h : w.toNat < 50000) : k9_chk12 w := ⟨row_inb9 w h, row_inb9 w h⟩
theorem chk9_13_of_lt (w : BitVec 32) (h : w.toNat < 50000) : k9_chk13 w := ⟨row_inb9 w h, row_inb9 w h⟩
theorem chk9_14_of_lt (w : BitVec 32) (h : w.toNat < 50000) : k9_chk14 w := ⟨row_inb9 w h, row_inb9 w h⟩
theorem chk9_15_of_lt (w : BitVec 32) (h : w.toNat < 50000) : k9_chk15 w := ⟨row_inb9 w h, row_inb9 w h⟩
theorem chk9_16_of_lt (w : BitVec 32) (h : w.toNat < 50000) : k9_chk16 w := row_inb9 w h

/-- A whole points-to as what stays behind, sixteen read tokens numbered `b + 15` down to `b`, and the tokens below
    `b` kept as one family. -/
theorem toksAt9 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 169 … 184. -/
theorem toks9 {ℓ : Loc nD τ sig} (f : Buf (Elt F) ℓ) :
    (ℓ ↦{fullShare} f : sProp 𝕄) ⊣⊢ iprop((ℓ ↦{Transfers.shareDrop fullShare 185} f) ∗ (ℓ ↦{Transfers.shareTokN fullShare 184} f) ∗ (ℓ ↦{Transfers.shareTokN fullShare 183} f) ∗ (ℓ ↦{Transfers.shareTokN fullShare 182} f) ∗ (ℓ ↦{Transfers.shareTokN fullShare 181} f) ∗ (ℓ ↦{Transfers.shareTokN fullShare 180} f) ∗ (ℓ ↦{Transfers.shareTokN fullShare 179} f) ∗ (ℓ ↦{Transfers.shareTokN fullShare 178} f) ∗ (ℓ ↦{Transfers.shareTokN fullShare 177} f) ∗ (ℓ ↦{Transfers.shareTokN fullShare 176} f) ∗ (ℓ ↦{Transfers.shareTokN fullShare 175} f) ∗ (ℓ ↦{Transfers.shareTokN fullShare 174} f) ∗ (ℓ ↦{Transfers.shareTokN fullShare 173} f) ∗ (ℓ ↦{Transfers.shareTokN fullShare 172} f) ∗ (ℓ ↦{Transfers.shareTokN fullShare 171} f) ∗ (ℓ ↦{Transfers.shareTokN fullShare 170} f) ∗ (ℓ ↦{Transfers.shareTokN fullShare 169} f)
      ∗ BI.bigSep (Finset.range 169) fun k => ℓ ↦{Transfers.shareTokN fullShare k} f) :=
  toksAt9 f 169

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun9 (c : Dev nD) (i : grid9.Coords) (arg3 : Memref sig .tc .vmem S16x1 .f32) (harg3 : arg3.IsWhole) (arg4 : Memref sig .tc .vmem S16x512 .f32) (harg4 : arg4.IsWhole)
    (x0 : Vec F S16x1 .f32) (tb : HbBuf9 (F := F) c tbM9) (fh0 : HbBuf9 (F := F) c hbM9) (hH : ∀ x, (tb x).toNat < 50000) :
    { L1 : List (View.Piece (Elt F) S16x512 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM9 fullShare d) ∗ sems9 c ∗ hbPt9 c hbM9 fh0 ∗ hbPt9 c tbM9 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM9 fullShare d) ∗ sems9 c ∗ hbPt9 c hbM9 fh0 ∗ hbPt9 c tbM9 tb ∗ (∃ W', owes (c : Thread nD τ) 0 W')) -∗ K ⟨⟩))
          ⊢ wp frame (wpE (defs₀ (F := F)) Variants.none c none) Set.univ (cc9_kernel i tbM9 (Memref.isWhole_whole _) hbM9 (Memref.isWhole_whole _) arg3 harg3 arg4 harg4 scM9 (Memref.isWhole_whole _) cc9_scratch1) K } := by
  have k9_hw1 : k9_chk1 (tbM9.view.readAt (Elt F) (Rect.unit (s := S50000) (k9_off1 i) S1.size (k9_off1_inb i)).toLoadRect tb (Shape.Idx.first (numel1_S1.symm ▸ Nat.one_pos))) := chk9_1_of_lt _ (hH _)
  have k9_hw2 : k9_chk2 (tbM9.view.readAt (Elt F) (Rect.unit (s := S50000) (k9_off3 i) S1.size (k9_off3_inb i)).toLoadRect tb (Shape.Idx.first (numel1_S1.symm ▸ Nat.one_pos))) := chk9_2_of_lt _ (hH _)
  have k9_hw3 : k9_chk3 (tbM9.view.readAt (Elt F) (Rect.unit (s := S50000) (k9_off5 i) S1.size (k9_off5_inb i)).toLoadRect tb (Shape.Idx.first (numel1_S1.symm ▸ Nat.one_pos))) := chk9_3_of_lt _ (hH _)
  have k9_hw4 : k9_chk4 (tbM9.view.readAt (Elt F) (Rect.unit (s := S50000) (k9_off7 i) S1.size (k9_off7_inb i)).toLoadRect tb (Shape.Idx.first (numel1_S1.symm ▸ Nat.one_pos))) := chk9_4_of_lt _ (hH _)
  have k9_hw5 : k9_chk5 (tbM9.view.readAt (Elt F) (Rect.unit (s := S50000) (k9_off9 i) S1.size (k9_off9_inb i)).toLoadRect tb (Shape.Idx.first (numel1_S1.symm ▸ Nat.one_pos))) := chk9_5_of_lt _ (hH _)
  have k9_hw6 : k9_chk6 (tbM9.view.readAt (Elt F) (Rect.unit (s := S50000) (k9_off11 i) S1.size (k9_off11_inb i)).toLoadRect tb (Shape.Idx.first (numel1_S1.symm ▸ Nat.one_pos))) := chk9_6_of_lt _ (hH _)
  have k9_hw7 : k9_chk7 (tbM9.view.readAt (Elt F) (Rect.unit (s := S50000) (k9_off13 i) S1.size (k9_off13_inb i)).toLoadRect tb (Shape.Idx.first (numel1_S1.symm ▸ Nat.one_pos))) := chk9_7_of_lt _ (hH _)
  have k9_hw8 : k9_chk8 (tbM9.view.readAt (Elt F) (Rect.unit (s := S50000) (k9_off15 i) S1.size (k9_off15_inb i)).toLoadRect tb (Shape.Idx.first (numel1_S1.symm ▸ Nat.one_pos))) := chk9_8_of_lt _ (hH _)
  have k9_hw9 : k9_chk9 (tbM9.view.readAt (Elt F) (Rect.unit (s := S50000) (k9_off17 i) S1.size (k9_off17_inb i)).toLoadRect tb (Shape.Idx.first (numel1_S1.symm ▸ Nat.one_pos))) := chk9_9_of_lt _ (hH _)
  have k9_hw10 : k9_chk10 (tbM9.view.readAt (Elt F) (Rect.unit (s := S50000) (k9_off19 i) S1.size (k9_off19_inb i)).toLoadRect tb (Shape.Idx.first (numel1_S1.symm ▸ Nat.one_pos))) := chk9_10_of_lt _ (hH _)
  have k9_hw11 : k9_chk11 (tbM9.view.readAt (Elt F) (Rect.unit (s := S50000) (k9_off21 i) S1.size (k9_off21_inb i)).toLoadRect tb (Shape.Idx.first (numel1_S1.symm ▸ Nat.one_pos))) := chk9_11_of_lt _ (hH _)
  have k9_hw12 : k9_chk12 (tbM9.view.readAt (Elt F) (Rect.unit (s := S50000) (k9_off23 i) S1.size (k9_off23_inb i)).toLoadRect tb (Shape.Idx.first (numel1_S1.symm ▸ Nat.one_pos))) := chk9_12_of_lt _ (hH _)
  have k9_hw13 : k9_chk13 (tbM9.view.readAt (Elt F) (Rect.unit (s := S50000) (k9_off25 i) S1.size (k9_off25_inb i)).toLoadRect tb (Shape.Idx.first (numel1_S1.symm ▸ Nat.one_pos))) := chk9_13_of_lt _ (hH _)
  have k9_hw14 : k9_chk14 (tbM9.view.readAt (Elt F) (Rect.unit (s := S50000) (k9_off27 i) S1.size (k9_off27_inb i)).toLoadRect tb (Shape.Idx.first (numel1_S1.symm ▸ Nat.one_pos))) := chk9_14_of_lt _ (hH _)
  have k9_hw15 : k9_chk15 (tbM9.view.readAt (Elt F) (Rect.unit (s := S50000) (k9_off29 i) S1.size (k9_off29_inb i)).toLoadRect tb (Shape.Idx.first (numel1_S1.symm ▸ Nat.one_pos))) := chk9_15_of_lt _ (hH _)
  have k9_hw16 : k9_chk16 (tbM9.view.readAt (Elt F) (Rect.unit (s := S50000) (k9_off31 i) S1.size (k9_off31_inb i)).toLoadRect tb (Shape.Idx.first (numel1_S1.symm ▸ Nat.one_pos))) := chk9_16_of_lt _ (hH _)
  refine ⟨?_, fun W K => ?run⟩
  case run =>
    simp only [cc9_kernel_eq_skeleton]; unfold cc9_kernel_skel
    simp only [k9_part7_eq_skeleton]; unfold k9_part7_skel
    simp only [k9_part1_eq_skeleton, k9_part2_eq_skeleton, k9_part3_eq_skeleton, k9_part4_eq_skeleton, k9_part5_eq_skeleton, k9_part6_eq_skeleton]
    unfold owns sems9
    iintro ⟨⟨%f0, %hf0, H0⟩, ⟨%d1, %f1, -, H9⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks9 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k9_hw1 | sl_exact k9_hw2 | sl_exact k9_hw3 | sl_exact k9_hw4 | sl_exact k9_hw5 | sl_exact k9_hw6 | sl_exact k9_hw7 | sl_exact k9_hw8 | sl_exact k9_hw9 | sl_exact k9_hw10 | sl_exact k9_hw11 | sl_exact k9_hw12 | sl_exact k9_hw13 | sl_exact k9_hw14 | sl_exact k9_hw15 | sl_exact k9_hw16)
    sl_step
    iapply Hk
    isplitl [H0]
    · iexists _; isplitr; · ipureintro; exact harg3.read_unread _
      iexact H0
    isplitl [H9]; · iexists _; iexact H9
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks9 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg9 (F := F)).Adm)

/-- Each window's current staging memref at point t, spelled as the pipeline passes it, and its wholeness. -/
abbrev ms9_0 (t : Fin (cfg9 a).N) : Memref sig .tc .vmem S16x1 .f32 := spec9_0.stage ((cfg9 a).slots t 0)
abbrev hs9_0 (t : Fin (cfg9 a).N) : (ms9_0 a t).IsWhole := hstage9_0 (((cfg9 a).slots t 0).cast nbuf9_0)
abbrev ms9_1 (t : Fin (cfg9 a).N) : Memref sig .tc .vmem S16x512 .f32 := spec9_1.stage ((cfg9 a).slots t 1)
abbrev hs9_1 (t : Fin (cfg9 a).N) : (ms9_1 a t).IsWhole := hstage9_1 (((cfg9 a).slots t 1).cast nbuf9_1)

/-- The kernel body at point t, on what the pipeline calls it with. -/
abbrev bodyAt9 (t : Fin (cfg9 a).N) : Prog (TpuEff nD τ sig (Elt F) Λ₀ .tc) PUnit :=
  cc9_kernel (grid9.coords t) tbM9 (Memref.isWhole_whole _) hbM9 (Memref.isWhole_whole _) (ms9_0 a t) (hs9_0 a t) (ms9_1 a t) (hs9_1 a t) scM9 (Memref.isWhole_whole _) cc9_scratch1

/-! ## The invariant, conjunct by conjunct -/

/-- The sixteen own cells at zero, listed. -/
theorem ownSems09_eq (c : Dev nD) :
    (Pipeline.ownSems0 (Ix := Unit) (Name := ℕ) (U := Pipeline.UD sig nD τ) (Lvl := ℕ) (Val := Elt F) (τ := τ) osem9 c : sProp 𝕄) = sems9 c := by
  rw [Pipeline.ownSems0_eq_of_list c osem9 [0, 1, 2, 3, 4, 5, 6, 7, 8, 9, 10, 11, 12, 13, 14, 15] (by decide) (by decide)]; rfl

/-- The gathered array's points-to at the region-entry contents. -/
theorem hbmPts9_eq (c : Dev nD) :
    (bigSep H9 (fun b => ((c : Thread nD τ).loc b) ↦{fullShare} V c b) : sProp 𝕄) = iprop(hbPt9 c hbM9 (V c main_v34)) := by
  rw [BI.bigSep_eq_bigSepL_of_eq [main_v34] (by decide) (by decide)]; rfl

/-- The row table, whole, at the contents the region is launched with. -/
theorem prefHeld9_eq (c : Dev nD) :
    (Pipeline.prefHeld (Ix := Unit) (Name := ℕ) (U := Pipeline.UD sig nD τ) (Lvl := ℕ) pre9 c (fun _ => fullShare) a.1 : sProp 𝕄) = iprop(hbPt9 c tbM9 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD9_eq (c : Dev nD) :
    (Pipeline.ΦD osem9 spec9 H9 V c : sProp 𝕄)
      = iprop(iprop((∃ d, owns (c : Thread nD τ) scM9 fullShare d) ∗ Pipeline.scopedRestBut (Ix := Unit) (Name := ℕ) (U := Pipeline.UD sig nD τ) (Lvl := ℕ) (Val := Elt F) spec9 c [cc9_scratch0])
          ∗ (∃ r, prngReg c r) ∗ sems9 c ∗ iprop(hbPt9 c hbM9 (V c main_v34))) := by
  rw [Pipeline.ΦD_eq, scopedRest9_split, ownSems09_eq, hbmPts9_eq]; simp only [scM9, owns_whole]; try rfl

/-! ## The windows' blocks -/

/-- Window w's block at point t, read off its array as the region finds it. -/
def iblk9 (c : Dev nD) (w : Fin (cfg9 a).W) (t : Fin (cfg9 a).N) : (((cfg9 a).win w).xblock ((cfg9 a).grid.coords t)).Idx → Elt F ((cfg9 a).win w).elt :=
  (((cfg9 a).win w).blk t).view.read (Elt F) (V c (Pipeline.arrRef spec9 w))

/-- Input window 0's current staging buffer holds its block at every point, fetched there or not. -/
theorem before9_0_of {c : Dev nD} (dat : Dat τ (Elt F) Unit ℕ (Pipeline.UD sig nD τ) ℕ (cfg9 a) c) (hA : dat.A 0 = V c (Pipeline.arrRef spec9 0))
    (hafter : ∀ t, dat.after 0 t = iblk9 V a c 0 t) (t : Fin (cfg9 a).N) (d) : dat.before 0 t d = iblk9 V a c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-! ## What the run leaves in the output window's buffer -/

/-- The run's pieces for the output tile its block, so they cover it. -/
theorem cover9_1 (c : Dev nD) (i : grid9.Coords) (arg3 : Memref sig .tc .vmem S16x1 .f32) (harg3 : arg3.IsWhole) (arg4 : Memref sig .tc .vmem S16x512 .f32) (harg4 : arg4.IsWhole)
    (x0 : Vec F S16x1 .f32) (tb : HbBuf9 (F := F) c tbM9) (fh0 : HbBuf9 (F := F) c hbM9) (hT : ∀ x, (tb x).toNat < 50000) (y : S16x512.Idx) :
    ∃ pc ∈ (kernelRun9 c i arg3 harg3 arg4 harg4 x0 tb fh0 hT).1, y ∈ pc.1.set :=
  View.cover_of_tiledL (kernelRun9 c i arg3 harg3 arg4 harg4 x0 tb fh0 hT).1 S16x512.size (by sl_kernel_rfl) y

/-- One staging buffer of the output window, through which its contents are stated. -/
abbrev VO9_1 : View sig .tc .vmem S16x512 .f32 := (Memref.whole cc9_stg1_0 : Memref sig .tc .vmem S16x512 .f32).view

/-- What the run leaves in the output's staging buffer: its pieces read back over junk. -/
def out9_1 (c : Dev nD) (i : grid9.Coords) (arg3 : Memref sig .tc .vmem S16x1 .f32) (harg3 : arg3.IsWhole) (arg4 : Memref sig .tc .vmem S16x512 .f32) (harg4 : arg4.IsWhole)
    (x0 : Vec F S16x1 .f32) (tb : HbBuf9 (F := F) c tbM9) (fh0 : HbBuf9 (F := F) c hbM9) (hT : ∀ x, (tb x).toNat < 50000) : Vec F S16x512 .f32 :=
  VO9_1.read (Elt F) (VO9_1.writes (Elt F) VO9_1.junk (kernelRun9 c i arg3 harg3 arg4 harg4 x0 tb fh0 hT).1)

/-- Every word of the table is a row of the gathered array, from the same of its words by position. -/
theorem tbl_lt9 (hH : ∀ j : Fin 50000, ((a.1 0) (ValueIdx.ix1 j)).toNat < 50000) (c : Dev nD) : ∀ x, (((a.1 0 : HbBuf9 (F := F) c tbM9)) x).toNat < 50000 :=
  fun x => by rw [ValueIdx.eq_ix1 x]; exact hH _

/-- What the output's staging buffer holds after the body at point t: the run's contents at the point's memrefs, the
    norm block, the table and the gathered array. -/
def outsAt9 (hH : ∀ j : Fin 50000, ((a.1 0) (ValueIdx.ix1 j)).toNat < 50000) (c : Dev nD) (t : Fin (cfg9 a).N) : Vec F S16x512 .f32 :=
  out9_1 c (grid9.coords t) (ms9_0 a t) (hs9_0 a t) (ms9_1 a t) (hs9_1 a t) (iblk9 V a c 0 t) (a.1 0) (V c main_v34) (tbl_lt9 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat9 (hH : ∀ j : Fin 50000, ((a.1 0) (ValueIdx.ix1 j)).toNat < 50000) (c : Dev nD) : Dat τ (Elt F) Unit ℕ (Pipeline.UD sig nD τ) ℕ (cfg9 a) c where
  A w := V c (Pipeline.arrRef spec9 w)
  after w t := match w with
    | ⟨0, _⟩ => iblk9 V a c 0 t
    | ⟨1, _⟩ => (outsAt9 V a hH c t)
  Φ _ := iprop(Pipeline.ΦD osem9 spec9 H9 V c ∗ Pipeline.prefHeld pre9 c (fun _ => fullShare) a.1)
  q _ := fullShare
  owed _ := 0

/-- The proof data's arrays are the region-entry contents. -/
theorem A_eq9 (hH : ∀ j : Fin 50000, ((a.1 0) (ValueIdx.ix1 j)).toNat < 50000) (c : Dev nD) (w : Fin (cfg9 a).W) : (dat9 V a hH c).A w = V c (Pipeline.arrRef spec9 w) := by
  dsimp only [dat9]

/-- What the body leaves, window by window. -/
theorem after9_0 (hH : ∀ j : Fin 50000, ((a.1 0) (ValueIdx.ix1 j)).toNat < 50000) (c : Dev nD) (t : Fin (cfg9 a).N) : (dat9 V a hH c).after 0 t = iblk9 V a c 0 t := by dsimp only [dat9]; try rfl
theorem after9_1 (hH : ∀ j : Fin 50000, ((a.1 0) (ValueIdx.ix1 j)).toNat < 50000) (c : Dev nD) (t : Fin (cfg9 a).N) : (dat9 V a hH c).after 1 t = (outsAt9 V a hH c t) := by dsimp only [dat9]; try rfl

/-- The input's current staging buffer holds its block at every point, fetched there or not. -/
theorem before9_0 (hH : ∀ j : Fin 50000, ((a.1 0) (ValueIdx.ix1 j)).toNat < 50000) (c : Dev nD) (t : Fin (cfg9 a).N) (d) : (dat9 V a hH c).before 0 t d = iblk9 V a c 0 t :=
  before9_0_of V a (dat9 V a hH c) (A_eq9 V a hH c 0) (after9_0 V a hH c) t d

/-! ## The body obligation, at a generic point -/

/-- What the body is called with at point t, the windows one by one, -/
def bodyPre9 (hH : ∀ j : Fin 50000, ((a.1 0) (ValueIdx.ix1 j)).toNat < 50000) (c : Dev nD) (t : Fin (cfg9 a).N) : sProp 𝕄 :=
  iprop((dat9 V a hH c).Φ t.castSucc ∗ (dat9 V a hH c).owesAt () t.castSucc
    ∗ (∃ d, owns (c : Thread nD τ) (ms9_0 a t) fullShare ((dat9 V a hH c).before 0 t d))
    ∗ (∃ d, owns (c : Thread nD τ) (ms9_1 a t) fullShare ((dat9 V a hH c).before 1 t d)))

/-- and what it returns. -/
def bodyPost9 (hH : ∀ j : Fin 50000, ((a.1 0) (ValueIdx.ix1 j)).toNat < 50000) (c : Dev nD) (t : Fin (cfg9 a).N) : sProp 𝕄 :=
  iprop((dat9 V a hH c).Φ t.succ ∗ (dat9 V a hH c).owesAt () t.succ
    ∗ owns (c : Thread nD τ) (ms9_0 a t) fullShare ((dat9 V a hH c).after 0 t)
    ∗ owns (c : Thread nD τ) (ms9_1 a t) fullShare ((dat9 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body9 (hH : ∀ j : Fin 50000, ((a.1 0) (ValueIdx.ix1 j)).toNat < 50000) (c : Dev nD) (t : Fin (cfg9 a).N) :
    bodyPre9 V a hH c t ⊢ wp frame (wpE (defs₀ (F := F)) Variants.none c none) Set.univ (bodyAt9 a t) (fun _ => bodyPost9 V a hH c t) := by
  unfold bodyPre9 bodyPost9 bodyAt9
  simp only [before9_0]
  rw [show (dat9 V a hH c).Φ t.succ = (dat9 V a hH c).Φ t.castSucc from rfl,
    after9_0, after9_1]
  rw [show (dat9 V a hH c).Φ t.castSucc = iprop(Pipeline.ΦD osem9 spec9 H9 V c ∗ Pipeline.prefHeld pre9 c (fun _ => fullShare) a.1) from rfl, PhiD9_eq, prefHeld9_eq]
  unfold Dat.owesAt Pipeline.owesWithin
  rw [show (dat9 V a hH c).owed t.castSucc = 0 from rfl, show (dat9 V a hH c).owed t.succ = 0 from rfl]
  unfold outsAt9
  unfold out9_1
  iintro ⟨⟨⟨⟨HS0, HSr⟩, Hg, Hq, Hh0⟩, HT⟩, ⟨%W, -, HW⟩, ⟨%d0, H0⟩, ⟨%d1, H9⟩⟩
  iapply ((kernelRun9 c (grid9.coords t) _ _ _ _ (iblk9 V a c 0 t) (a.1 0) (V c main_v34) (tbl_lt9 a hH c)).2 W _)
  isplitl [H0]; · iexact H0
  isplitl [H9]; · iexists _; iexact H9
  isplitl [HS0]; · iexact HS0
  isplitl [Hq]; · iexact Hq
  isplitl [Hh0]; · iexact Hh0
  isplitl [HT]; · iexact HT
  isplitl [HW]; · iexact HW
  iintro ⟨H0, ⟨%e1, H9⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H9
  ipureintro; exact View.read_writes_of_cover _ _ _ _ _ (cover9_1 c _ _ _ _ _ _ _ _ _)

/-- The library's body obligation, at every point. -/
theorem body_obligation9 (hH : ∀ j : Fin 50000, ((a.1 0) (ValueIdx.ix1 j)).toNat < 50000) (c : Dev nD) : BodyObligation (dat9 (F := F) V a hH c) (defs₀ (F := F)) Variants.none () Set.univ := fun t => by
  rw [bigSep_W9, bigSep_W9]
  exact sound_body9 V a hH c t

end Cert.Kernel.Hand

end
-- ==== Proof.Bits.G11.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 11 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem11 : Fin 16 → SemLoc sig := fun j =>
  (![SemLoc.dma 194, SemLoc.dma 195, SemLoc.dma 196, SemLoc.dma 197, SemLoc.dma 198, SemLoc.dma 199, SemLoc.dma 200, SemLoc.dma 201,
     SemLoc.dma 202, SemLoc.dma 203, SemLoc.dma 204, SemLoc.dma 205, SemLoc.dma 206, SemLoc.dma 207, SemLoc.dma 208, SemLoc.dma 209] : Fin 16 → SemLoc sig) j
theorem ownSemFacts11 : Pipeline.OwnSemFacts spec11 osem11 := by decide

/-- The HBM operand the body gathers rows from: unscoped, no window's array, no table. -/
def H11 : Finset (Ref sig .tc) := {main_v71}
theorem H11_sub : H11 ⊆ Pipeline.restRefsP sig pre11 spec11 := by decide

/-- The operands the pipeline does not stage, whole. -/
abbrev tbM11 : Memref sig .tc .smem S50000 .i32 := Memref.whole main_v73
abbrev hbM11 : Memref sig .tc .hbm S50000x262 .f32 := Memref.whole main_v71
abbrev scM11 : Memref sig .tc .vmem S16x262 .f32 := Memref.whole cc11_scratch0

/-- A whole memref's buffer on core `c`, and it held whole at `f`. -/
abbrev HbBuf11 (c : Dev nD) {sp : Space} {S : Shape} {e : EltTy} (M : Memref sig .tc sp S e) : Type := Buf (Elt F) (M.view.loc (c : Thread nD τ))
abbrev hbPt11 (c : Dev nD) {sp : Space} {S : Shape} {e : EltTy} (M : Memref sig .tc sp S e) (f : HbBuf11 (F := F) c M) : sProp 𝕄 :=
  M.view.loc (c : Thread nD τ) ↦{fullShare} f

/-- The sixteen own cells at zero. -/
abbrev sems11 (c : Dev nD) : sProp 𝕄 :=
  iprop(semVal ((c : Thread nD τ), SemLoc.dma 194) 0 ∗ semVal ((c : Thread nD τ), SemLoc.dma 195) 0 ∗ semVal ((c : Thread nD τ), SemLoc.dma 196) 0 ∗ semVal ((c : Thread nD τ), SemLoc.dma 197) 0 ∗ semVal ((c : Thread nD τ), SemLoc.dma 198) 0 ∗ semVal ((c : Thread nD τ), SemLoc.dma 199) 0 ∗ semVal ((c : Thread nD τ), SemLoc.dma 200) 0 ∗ semVal ((c : Thread nD τ), SemLoc.dma 201) 0 ∗ semVal ((c : Thread nD τ), SemLoc.dma 202) 0 ∗ semVal ((c : Thread nD τ), SemLoc.dma 203) 0 ∗ semVal ((c : Thread nD τ), SemLoc.dma 204) 0 ∗ semVal ((c : Thread nD τ), SemLoc.dma 205) 0 ∗ semVal ((c : Thread nD τ), SemLoc.dma 206) 0 ∗ semVal ((c : Thread nD τ), SemLoc.dma 207) 0 ∗ semVal ((c : Thread nD τ), SemLoc.dma 208) 0 ∗ semVal ((c : Thread nD τ), SemLoc.dma 209) 0)

/-- A row index inside the gathered array puts the one-row slice inside it. -/
theorem row_inb11 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk11_1_of_lt (w : BitVec 32) (h : w.toNat < 50000) : k11_chk1 w := ⟨row_inb11 w h, row_inb11 w h⟩
theorem chk11_2_of_lt (w : BitVec 32) (h : w.toNat < 50000) : k11_chk2 w := ⟨row_inb11 w h, row_inb11 w h⟩
theorem chk11_3_of_lt (w : BitVec 32) (h : w.toNat < 50000) : k11_chk3 w := ⟨row_inb11 w h, row_inb11 w h⟩
theorem chk11_4_of_lt (w : BitVec 32) (h : w.toNat < 50000) : k11_chk4 w := ⟨row_inb11 w h, row_inb11 w h⟩
theorem chk11_5_of_lt (w : BitVec 32) (h : w.toNat < 50000) : k11_chk5 w := ⟨row_inb11 w h, row_inb11 w h⟩
theorem chk11_6_of_lt (w : BitVec 32) (h : w.toNat < 50000) : k11_chk6 w := ⟨row_inb11 w h, row_inb11 w h⟩
theorem chk11_7_of_lt (w : BitVec 32) (h : w.toNat < 50000) : k11_chk7 w := ⟨row_inb11 w h, row_inb11 w h⟩
theorem chk11_8_of_lt (w : BitVec 32) (h : w.toNat < 50000) : k11_chk8 w := ⟨row_inb11 w h, row_inb11 w h⟩
theorem chk11_9_of_lt (w : BitVec 32) (h : w.toNat < 50000) : k11_chk9 w := ⟨row_inb11 w h, row_inb11 w h⟩
theorem chk11_10_of_lt (w : BitVec 32) (h : w.toNat < 50000) : k11_chk10 w := ⟨row_inb11 w h, row_inb11 w h⟩
theorem chk11_11_of_lt (w : BitVec 32) (h : w.toNat < 50000) : k11_chk11 w := ⟨row_inb11 w h, row_inb11 w h⟩
theorem chk11_12_of_lt (w : BitVec 32) (h : w.toNat < 50000) : k11_chk12 w := ⟨row_inb11 w h, row_inb11 w h⟩
theorem chk11_13_of_lt (w : BitVec 32) (h : w.toNat < 50000) : k11_chk13 w := ⟨row_inb11 w h, row_inb11 w h⟩
theorem chk11_14_of_lt (w : BitVec 32) (h : w.toNat < 50000) : k11_chk14 w := ⟨row_inb11 w h, row_inb11 w h⟩
theorem chk11_15_of_lt (w : BitVec 32) (h : w.toNat < 50000) : k11_chk15 w := ⟨row_inb11 w h, row_inb11 w h⟩
theorem chk11_16_of_lt (w : BitVec 32) (h : w.toNat < 50000) : k11_chk16 w := row_inb11 w h

/-- A whole points-to as what stays behind, sixteen read tokens numbered `b + 15` down to `b`, and the tokens below
    `b` kept as one family. -/
theorem toksAt11 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 194 … 209. -/
theorem toks11 {ℓ : Loc nD τ sig} (f : Buf (Elt F) ℓ) :
    (ℓ ↦{fullShare} f : sProp 𝕄) ⊣⊢ iprop((ℓ ↦{Transfers.shareDrop fullShare 210} f) ∗ (ℓ ↦{Transfers.shareTokN fullShare 209} f) ∗ (ℓ ↦{Transfers.shareTokN fullShare 208} f) ∗ (ℓ ↦{Transfers.shareTokN fullShare 207} f) ∗ (ℓ ↦{Transfers.shareTokN fullShare 206} f) ∗ (ℓ ↦{Transfers.shareTokN fullShare 205} f) ∗ (ℓ ↦{Transfers.shareTokN fullShare 204} f) ∗ (ℓ ↦{Transfers.shareTokN fullShare 203} f) ∗ (ℓ ↦{Transfers.shareTokN fullShare 202} f) ∗ (ℓ ↦{Transfers.shareTokN fullShare 201} f) ∗ (ℓ ↦{Transfers.shareTokN fullShare 200} f) ∗ (ℓ ↦{Transfers.shareTokN fullShare 199} f) ∗ (ℓ ↦{Transfers.shareTokN fullShare 198} f) ∗ (ℓ ↦{Transfers.shareTokN fullShare 197} f) ∗ (ℓ ↦{Transfers.shareTokN fullShare 196} f) ∗ (ℓ ↦{Transfers.shareTokN fullShare 195} f) ∗ (ℓ ↦{Transfers.shareTokN fullShare 194} f)
      ∗ BI.bigSep (Finset.range 194) fun k => ℓ ↦{Transfers.shareTokN fullShare k} f) :=
  toksAt11 f 194

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun11 (c : Dev nD) (i : grid11.Coords) (arg3 : Memref sig .tc .vmem S16x1 .f32) (harg3 : arg3.IsWhole) (arg4 : Memref sig .tc .vmem S16x262 .f32) (harg4 : arg4.IsWhole)
    (x0 : Vec F S16x1 .f32) (tb : HbBuf11 (F := F) c tbM11) (fh0 : HbBuf11 (F := F) c hbM11) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM11 fullShare d) ∗ sems11 c ∗ hbPt11 c hbM11 fh0 ∗ hbPt11 c tbM11 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM11 fullShare d) ∗ sems11 c ∗ hbPt11 c hbM11 fh0 ∗ hbPt11 c tbM11 tb ∗ (∃ W', owes (c : Thread nD τ) 0 W')) -∗ K ⟨⟩))
          ⊢ wp frame (wpE (defs₀ (F := F)) Variants.none c none) Set.univ (cc11_kernel i tbM11 (Memref.isWhole_whole _) hbM11 (Memref.isWhole_whole _) arg3 harg3 arg4 harg4 scM11 (Memref.isWhole_whole _) cc11_scratch1) K } := by
  have k11_hw1 : k11_chk1 (tbM11.view.readAt (Elt F) (Rect.unit (s := S50000) (k11_off1 i) S1.size (k11_off1_inb i)).toLoadRect tb (Shape.Idx.first (numel1_S1.symm ▸ Nat.one_pos))) := chk11_1_of_lt _ (hH _)
  have k11_hw2 : k11_chk2 (tbM11.view.readAt (Elt F) (Rect.unit (s := S50000) (k11_off3 i) S1.size (k11_off3_inb i)).toLoadRect tb (Shape.Idx.first (numel1_S1.symm ▸ Nat.one_pos))) := chk11_2_of_lt _ (hH _)
  have k11_hw3 : k11_chk3 (tbM11.view.readAt (Elt F) (Rect.unit (s := S50000) (k11_off5 i) S1.size (k11_off5_inb i)).toLoadRect tb (Shape.Idx.first (numel1_S1.symm ▸ Nat.one_pos))) := chk11_3_of_lt _ (hH _)
  have k11_hw4 : k11_chk4 (tbM11.view.readAt (Elt F) (Rect.unit (s := S50000) (k11_off7 i) S1.size (k11_off7_inb i)).toLoadRect tb (Shape.Idx.first (numel1_S1.symm ▸ Nat.one_pos))) := chk11_4_of_lt _ (hH _)
  have k11_hw5 : k11_chk5 (tbM11.view.readAt (Elt F) (Rect.unit (s := S50000) (k11_off9 i) S1.size (k11_off9_inb i)).toLoadRect tb (Shape.Idx.first (numel1_S1.symm ▸ Nat.one_pos))) := chk11_5_of_lt _ (hH _)
  have k11_hw6 : k11_chk6 (tbM11.view.readAt (Elt F) (Rect.unit (s := S50000) (k11_off11 i) S1.size (k11_off11_inb i)).toLoadRect tb (Shape.Idx.first (numel1_S1.symm ▸ Nat.one_pos))) := chk11_6_of_lt _ (hH _)
  have k11_hw7 : k11_chk7 (tbM11.view.readAt (Elt F) (Rect.unit (s := S50000) (k11_off13 i) S1.size (k11_off13_inb i)).toLoadRect tb (Shape.Idx.first (numel1_S1.symm ▸ Nat.one_pos))) := chk11_7_of_lt _ (hH _)
  have k11_hw8 : k11_chk8 (tbM11.view.readAt (Elt F) (Rect.unit (s := S50000) (k11_off15 i) S1.size (k11_off15_inb i)).toLoadRect tb (Shape.Idx.first (numel1_S1.symm ▸ Nat.one_pos))) := chk11_8_of_lt _ (hH _)
  have k11_hw9 : k11_chk9 (tbM11.view.readAt (Elt F) (Rect.unit (s := S50000) (k11_off17 i) S1.size (k11_off17_inb i)).toLoadRect tb (Shape.Idx.first (numel1_S1.symm ▸ Nat.one_pos))) := chk11_9_of_lt _ (hH _)
  have k11_hw10 : k11_chk10 (tbM11.view.readAt (Elt F) (Rect.unit (s := S50000) (k11_off19 i) S1.size (k11_off19_inb i)).toLoadRect tb (Shape.Idx.first (numel1_S1.symm ▸ Nat.one_pos))) := chk11_10_of_lt _ (hH _)
  have k11_hw11 : k11_chk11 (tbM11.view.readAt (Elt F) (Rect.unit (s := S50000) (k11_off21 i) S1.size (k11_off21_inb i)).toLoadRect tb (Shape.Idx.first (numel1_S1.symm ▸ Nat.one_pos))) := chk11_11_of_lt _ (hH _)
  have k11_hw12 : k11_chk12 (tbM11.view.readAt (Elt F) (Rect.unit (s := S50000) (k11_off23 i) S1.size (k11_off23_inb i)).toLoadRect tb (Shape.Idx.first (numel1_S1.symm ▸ Nat.one_pos))) := chk11_12_of_lt _ (hH _)
  have k11_hw13 : k11_chk13 (tbM11.view.readAt (Elt F) (Rect.unit (s := S50000) (k11_off25 i) S1.size (k11_off25_inb i)).toLoadRect tb (Shape.Idx.first (numel1_S1.symm ▸ Nat.one_pos))) := chk11_13_of_lt _ (hH _)
  have k11_hw14 : k11_chk14 (tbM11.view.readAt (Elt F) (Rect.unit (s := S50000) (k11_off27 i) S1.size (k11_off27_inb i)).toLoadRect tb (Shape.Idx.first (numel1_S1.symm ▸ Nat.one_pos))) := chk11_14_of_lt _ (hH _)
  have k11_hw15 : k11_chk15 (tbM11.view.readAt (Elt F) (Rect.unit (s := S50000) (k11_off29 i) S1.size (k11_off29_inb i)).toLoadRect tb (Shape.Idx.first (numel1_S1.symm ▸ Nat.one_pos))) := chk11_15_of_lt _ (hH _)
  have k11_hw16 : k11_chk16 (tbM11.view.readAt (Elt F) (Rect.unit (s := S50000) (k11_off31 i) S1.size (k11_off31_inb i)).toLoadRect tb (Shape.Idx.first (numel1_S1.symm ▸ Nat.one_pos))) := chk11_16_of_lt _ (hH _)
  refine ⟨?_, fun W K => ?run⟩
  case run =>
    simp only [cc11_kernel_eq_skeleton]; unfold cc11_kernel_skel
    simp only [k11_part7_eq_skeleton]; unfold k11_part7_skel
    simp only [k11_part1_eq_skeleton, k11_part2_eq_skeleton, k11_part3_eq_skeleton, k11_part4_eq_skeleton, k11_part5_eq_skeleton, k11_part6_eq_skeleton]
    unfold owns sems11
    iintro ⟨⟨%f0, %hf0, H0⟩, ⟨%d1, %f1, -, H11⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks11 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 100000 in
    set_option sl_exec.dmaWindowSet true in
    sl_exec (disch := first | sl_exact k11_hw1 | sl_exact k11_hw2 | sl_exact k11_hw3 | sl_exact k11_hw4 | sl_exact k11_hw5 | sl_exact k11_hw6 | sl_exact k11_hw7 | sl_exact k11_hw8 | sl_exact k11_hw9 | sl_exact k11_hw10 | sl_exact k11_hw11 | sl_exact k11_hw12 | sl_exact k11_hw13 | sl_exact k11_hw14 | sl_exact k11_hw15 | sl_exact k11_hw16)
    sl_step
    iapply Hk
    isplitl [H0]
    · iexists _; isplitr; · ipureintro; exact harg3.read_unread _
      iexact H0
    isplitl [H11]; · iexists _; iexact H11
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks11 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg11 (F := F)).Adm)

/-- Each window's current staging memref at point t, spelled as the pipeline passes it, and its wholeness. -/
abbrev ms11_0 (t : Fin (cfg11 a).N) : Memref sig .tc .vmem S16x1 .f32 := spec11_0.stage ((cfg11 a).slots t 0)
abbrev hs11_0 (t : Fin (cfg11 a).N) : (ms11_0 a t).IsWhole := hstage11_0 (((cfg11 a).slots t 0).cast nbuf11_0)
abbrev ms11_1 (t : Fin (cfg11 a).N) : Memref sig .tc .vmem S16x262 .f32 := spec11_1.stage ((cfg11 a).slots t 1)
abbrev hs11_1 (t : Fin (cfg11 a).N) : (ms11_1 a t).IsWhole := hstage11_1 (((cfg11 a).slots t 1).cast nbuf11_1)

/-- The kernel body at point t, on what the pipeline calls it with. -/
abbrev bodyAt11 (t : Fin (cfg11 a).N) : Prog (TpuEff nD τ sig (Elt F) Λ₀ .tc) PUnit :=
  cc11_kernel (grid11.coords t) tbM11 (Memref.isWhole_whole _) hbM11 (Memref.isWhole_whole _) (ms11_0 a t) (hs11_0 a t) (ms11_1 a t) (hs11_1 a t) scM11 (Memref.isWhole_whole _) cc11_scratch1

/-! ## The invariant, conjunct by conjunct -/

/-- The sixteen own cells at zero, listed. -/
theorem ownSems011_eq (c : Dev nD) :
    (Pipeline.ownSems0 (Ix := Unit) (Name := ℕ) (U := Pipeline.UD sig nD τ) (Lvl := ℕ) (Val := Elt F) (τ := τ) osem11 c : sProp 𝕄) = sems11 c := by
  rw [Pipeline.ownSems0_eq_of_list c osem11 [0, 1, 2, 3, 4, 5, 6, 7, 8, 9, 10, 11, 12, 13, 14, 15] (by decide) (by decide)]; rfl

/-- The gathered array's points-to at the region-entry contents. -/
theorem hbmPts11_eq (c : Dev nD) :
    (bigSep H11 (fun b => ((c : Thread nD τ).loc b) ↦{fullShare} V c b) : sProp 𝕄) = iprop(hbPt11 c hbM11 (V c main_v71)) := by
  rw [BI.bigSep_eq_bigSepL_of_eq [main_v71] (by decide) (by decide)]; rfl

/-- The row table, whole, at the contents the region is launched with. -/
theorem prefHeld11_eq (c : Dev nD) :
    (Pipeline.prefHeld (Ix := Unit) (Name := ℕ) (U := Pipeline.UD sig nD τ) (Lvl := ℕ) pre11 c (fun _ => fullShare) a.1 : sProp 𝕄) = iprop(hbPt11 c tbM11 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD11_eq (c : Dev nD) :
    (Pipeline.ΦD osem11 spec11 H11 V c : sProp 𝕄)
      = iprop(iprop((∃ d, owns (c : Thread nD τ) scM11 fullShare d) ∗ Pipeline.scopedRestBut (Ix := Unit) (Name := ℕ) (U := Pipeline.UD sig nD τ) (Lvl := ℕ) (Val := Elt F) spec11 c [cc11_scratch0])
          ∗ (∃ r, prngReg c r) ∗ sems11 c ∗ iprop(hbPt11 c hbM11 (V c main_v71))) := by
  rw [Pipeline.ΦD_eq, scopedRest11_split, ownSems011_eq, hbmPts11_eq]; simp only [scM11, owns_whole]; try rfl

/-! ## The windows' blocks -/

/-- Window w's block at point t, read off its array as the region finds it. -/
def iblk11 (c : Dev nD) (w : Fin (cfg11 a).W) (t : Fin (cfg11 a).N) : (((cfg11 a).win w).xblock ((cfg11 a).grid.coords t)).Idx → Elt F ((cfg11 a).win w).elt :=
  (((cfg11 a).win w).blk t).view.read (Elt F) (V c (Pipeline.arrRef spec11 w))

/-- Input window 0's current staging buffer holds its block at every point, fetched there or not. -/
theorem before11_0_of {c : Dev nD} (dat : Dat τ (Elt F) Unit ℕ (Pipeline.UD sig nD τ) ℕ (cfg11 a) c) (hA : dat.A 0 = V c (Pipeline.arrRef spec11 0))
    (hafter : ∀ t, dat.after 0 t = iblk11 V a c 0 t) (t : Fin (cfg11 a).N) (d) : dat.before 0 t d = iblk11 V a c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-! ## What the run leaves in the output window's buffer -/

/-- The run's pieces for the output tile its block, so they cover it. -/
theorem cover11_1 (c : Dev nD) (i : grid11.Coords) (arg3 : Memref sig .tc .vmem S16x1 .f32) (harg3 : arg3.IsWhole) (arg4 : Memref sig .tc .vmem S16x262 .f32) (harg4 : arg4.IsWhole)
    (x0 : Vec F S16x1 .f32) (tb : HbBuf11 (F := F) c tbM11) (fh0 : HbBuf11 (F := F) c hbM11) (hT : ∀ x, (tb x).toNat < 50000) (y : S16x262.Idx) :
    ∃ pc ∈ (kernelRun11 c i arg3 harg3 arg4 harg4 x0 tb fh0 hT).1, y ∈ pc.1.set :=
  View.cover_of_tiledL (kernelRun11 c i arg3 harg3 arg4 harg4 x0 tb fh0 hT).1 S16x262.size (by sl_kernel_rfl) y

/-- One staging buffer of the output window, through which its contents are stated. -/
abbrev VO11_1 : View sig .tc .vmem S16x262 .f32 := (Memref.whole cc11_stg1_0 : Memref sig .tc .vmem S16x262 .f32).view

/-- What the run leaves in the output's staging buffer: its pieces read back over junk. -/
def out11_1 (c : Dev nD) (i : grid11.Coords) (arg3 : Memref sig .tc .vmem S16x1 .f32) (harg3 : arg3.IsWhole) (arg4 : Memref sig .tc .vmem S16x262 .f32) (harg4 : arg4.IsWhole)
    (x0 : Vec F S16x1 .f32) (tb : HbBuf11 (F := F) c tbM11) (fh0 : HbBuf11 (F := F) c hbM11) (hT : ∀ x, (tb x).toNat < 50000) : Vec F S16x262 .f32 :=
  VO11_1.read (Elt F) (VO11_1.writes (Elt F) VO11_1.junk (kernelRun11 c i arg3 harg3 arg4 harg4 x0 tb fh0 hT).1)

/-- Every word of the table is a row of the gathered array, from the same of its words by position. -/
theorem tbl_lt11 (hH : ∀ j : Fin 50000, ((a.1 0) (ValueIdx.ix1 j)).toNat < 50000) (c : Dev nD) : ∀ x, (((a.1 0 : HbBuf11 (F := F) c tbM11)) x).toNat < 50000 :=
  fun x => by rw [ValueIdx.eq_ix1 x]; exact hH _

/-- What the output's staging buffer holds after the body at point t: the run's contents at the point's memrefs, the
    norm block, the table and the gathered array. -/
def outsAt11 (hH : ∀ j : Fin 50000, ((a.1 0) (ValueIdx.ix1 j)).toNat < 50000) (c : Dev nD) (t : Fin (cfg11 a).N) : Vec F S16x262 .f32 :=
  out11_1 c (grid11.coords t) (ms11_0 a t) (hs11_0 a t) (ms11_1 a t) (hs11_1 a t) (iblk11 V a c 0 t) (a.1 0) (V c main_v71) (tbl_lt11 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat11 (hH : ∀ j : Fin 50000, ((a.1 0) (ValueIdx.ix1 j)).toNat < 50000) (c : Dev nD) : Dat τ (Elt F) Unit ℕ (Pipeline.UD sig nD τ) ℕ (cfg11 a) c where
  A w := V c (Pipeline.arrRef spec11 w)
  after w t := match w with
    | ⟨0, _⟩ => iblk11 V a c 0 t
    | ⟨1, _⟩ => (outsAt11 V a hH c t)
  Φ _ := iprop(Pipeline.ΦD osem11 spec11 H11 V c ∗ Pipeline.prefHeld pre11 c (fun _ => fullShare) a.1)
  q _ := fullShare
  owed _ := 0

/-- The proof data's arrays are the region-entry contents. -/
theorem A_eq11 (hH : ∀ j : Fin 50000, ((a.1 0) (ValueIdx.ix1 j)).toNat < 50000) (c : Dev nD) (w : Fin (cfg11 a).W) : (dat11 V a hH c).A w = V c (Pipeline.arrRef spec11 w) := by
  dsimp only [dat11]

/-- What the body leaves, window by window. -/
theorem after11_0 (hH : ∀ j : Fin 50000, ((a.1 0) (ValueIdx.ix1 j)).toNat < 50000) (c : Dev nD) (t : Fin (cfg11 a).N) : (dat11 V a hH c).after 0 t = iblk11 V a c 0 t := by dsimp only [dat11]; try rfl
theorem after11_1 (hH : ∀ j : Fin 50000, ((a.1 0) (ValueIdx.ix1 j)).toNat < 50000) (c : Dev nD) (t : Fin (cfg11 a).N) : (dat11 V a hH c).after 1 t = (outsAt11 V a hH c t) := by dsimp only [dat11]; try rfl

/-- The input's current staging buffer holds its block at every point, fetched there or not. -/
theorem before11_0 (hH : ∀ j : Fin 50000, ((a.1 0) (ValueIdx.ix1 j)).toNat < 50000) (c : Dev nD) (t : Fin (cfg11 a).N) (d) : (dat11 V a hH c).before 0 t d = iblk11 V a c 0 t :=
  before11_0_of V a (dat11 V a hH c) (A_eq11 V a hH c 0) (after11_0 V a hH c) t d

/-! ## The body obligation, at a generic point -/

/-- What the body is called with at point t, the windows one by one, -/
def bodyPre11 (hH : ∀ j : Fin 50000, ((a.1 0) (ValueIdx.ix1 j)).toNat < 50000) (c : Dev nD) (t : Fin (cfg11 a).N) : sProp 𝕄 :=
  iprop((dat11 V a hH c).Φ t.castSucc ∗ (dat11 V a hH c).owesAt () t.castSucc
    ∗ (∃ d, owns (c : Thread nD τ) (ms11_0 a t) fullShare ((dat11 V a hH c).before 0 t d))
    ∗ (∃ d, owns (c : Thread nD τ) (ms11_1 a t) fullShare ((dat11 V a hH c).before 1 t d)))

/-- and what it returns. -/
def bodyPost11 (hH : ∀ j : Fin 50000, ((a.1 0) (ValueIdx.ix1 j)).toNat < 50000) (c : Dev nD) (t : Fin (cfg11 a).N) : sProp 𝕄 :=
  iprop((dat11 V a hH c).Φ t.succ ∗ (dat11 V a hH c).owesAt () t.succ
    ∗ owns (c : Thread nD τ) (ms11_0 a t) fullShare ((dat11 V a hH c).after 0 t)
    ∗ owns (c : Thread nD τ) (ms11_1 a t) fullShare ((dat11 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body11 (hH : ∀ j : Fin 50000, ((a.1 0) (ValueIdx.ix1 j)).toNat < 50000) (c : Dev nD) (t : Fin (cfg11 a).N) :
    bodyPre11 V a hH c t ⊢ wp frame (wpE (defs₀ (F := F)) Variants.none c none) Set.univ (bodyAt11 a t) (fun _ => bodyPost11 V a hH c t) := by
  unfold bodyPre11 bodyPost11 bodyAt11
  simp only [before11_0]
  rw [show (dat11 V a hH c).Φ t.succ = (dat11 V a hH c).Φ t.castSucc from rfl,
    after11_0, after11_1]
  rw [show (dat11 V a hH c).Φ t.castSucc = iprop(Pipeline.ΦD osem11 spec11 H11 V c ∗ Pipeline.prefHeld pre11 c (fun _ => fullShare) a.1) from rfl, PhiD11_eq, prefHeld11_eq]
  unfold Dat.owesAt Pipeline.owesWithin
  rw [show (dat11 V a hH c).owed t.castSucc = 0 from rfl, show (dat11 V a hH c).owed t.succ = 0 from rfl]
  unfold outsAt11
  unfold out11_1
  iintro ⟨⟨⟨⟨HS0, HSr⟩, Hg, Hq, Hh0⟩, HT⟩, ⟨%W, -, HW⟩, ⟨%d0, H0⟩, ⟨%d1, H11⟩⟩
  iapply ((kernelRun11 c (grid11.coords t) _ _ _ _ (iblk11 V a c 0 t) (a.1 0) (V c main_v71) (tbl_lt11 a hH c)).2 W _)
  isplitl [H0]; · iexact H0
  isplitl [H11]; · iexists _; iexact H11
  isplitl [HS0]; · iexact HS0
  isplitl [Hq]; · iexact Hq
  isplitl [Hh0]; · iexact Hh0
  isplitl [HT]; · iexact HT
  isplitl [HW]; · iexact HW
  iintro ⟨H0, ⟨%e1, H11⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H11
  ipureintro; exact View.read_writes_of_cover _ _ _ _ _ (cover11_1 c _ _ _ _ _ _ _ _ _)

/-- The library's body obligation, at every point. -/
theorem body_obligation11 (hH : ∀ j : Fin 50000, ((a.1 0) (ValueIdx.ix1 j)).toNat < 50000) (c : Dev nD) : BodyObligation (dat11 (F := F) V a hH c) (defs₀ (F := F)) Variants.none () Set.univ := fun t => by
  rw [bigSep_W11, bigSep_W11]
  exact sound_body11 V a hH c t

end Cert.Kernel.Hand

end
-- ==== Proof.Bits.G12.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 12 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem12 : Fin 16 → SemLoc sig := fun j =>
  (![SemLoc.dma 214, SemLoc.dma 215, SemLoc.dma 216, SemLoc.dma 217, SemLoc.dma 218, SemLoc.dma 219, SemLoc.dma 220, SemLoc.dma 221,
     SemLoc.dma 222, SemLoc.dma 223, SemLoc.dma 224, SemLoc.dma 225, SemLoc.dma 226, SemLoc.dma 227, SemLoc.dma 228, SemLoc.dma 229] : Fin 16 → SemLoc sig) j
theorem ownSemFacts12 : Pipeline.OwnSemFacts spec12 osem12 := by decide

/-- The HBM operand the body gathers rows from: unscoped, no window's array, no table. -/
def H12 : Finset (Ref sig .tc) := {main_v71}
theorem H12_sub : H12 ⊆ Pipeline.restRefsP sig pre12 spec12 := by decide

/-- The operands the pipeline does not stage, whole. -/
abbrev tbM12 : Memref sig .tc .smem S50000 .i32 := Memref.whole main_v76
abbrev hbM12 : Memref sig .tc .hbm S50000x262 .f32 := Memref.whole main_v71
abbrev scM12 : Memref sig .tc .vmem S16x262 .f32 := Memref.whole cc12_scratch0

/-- A whole memref's buffer on core `c`, and it held whole at `f`. -/
abbrev HbBuf12 (c : Dev nD) {sp : Space} {S : Shape} {e : EltTy} (M : Memref sig .tc sp S e) : Type := Buf (Elt F) (M.view.loc (c : Thread nD τ))
abbrev hbPt12 (c : Dev nD) {sp : Space} {S : Shape} {e : EltTy} (M : Memref sig .tc sp S e) (f : HbBuf12 (F := F) c M) : sProp 𝕄 :=
  M.view.loc (c : Thread nD τ) ↦{fullShare} f

/-- The sixteen own cells at zero. -/
abbrev sems12 (c : Dev nD) : sProp 𝕄 :=
  iprop(semVal ((c : Thread nD τ), SemLoc.dma 214) 0 ∗ semVal ((c : Thread nD τ), SemLoc.dma 215) 0 ∗ semVal ((c : Thread nD τ), SemLoc.dma 216) 0 ∗ semVal ((c : Thread nD τ), SemLoc.dma 217) 0 ∗ semVal ((c : Thread nD τ), SemLoc.dma 218) 0 ∗ semVal ((c : Thread nD τ), SemLoc.dma 219) 0 ∗ semVal ((c : Thread nD τ), SemLoc.dma 220) 0 ∗ semVal ((c : Thread nD τ), SemLoc.dma 221) 0 ∗ semVal ((c : Thread nD τ), SemLoc.dma 222) 0 ∗ semVal ((c : Thread nD τ), SemLoc.dma 223) 0 ∗ semVal ((c : Thread nD τ), SemLoc.dma 224) 0 ∗ semVal ((c : Thread nD τ), SemLoc.dma 225) 0 ∗ semVal ((c : Thread nD τ), SemLoc.dma 226) 0 ∗ semVal ((c : Thread nD τ), SemLoc.dma 227) 0 ∗ semVal ((c : Thread nD τ), SemLoc.dma 228) 0 ∗ semVal ((c : Thread nD τ), SemLoc.dma 229) 0)

/-- A row index inside the gathered array puts the one-row slice inside it. -/
theorem row_inb12 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk12_1_of_lt (w : BitVec 32) (h : w.toNat < 50000) : k12_chk1 w := ⟨row_inb12 w h, row_inb12 w h⟩
theorem chk12_2_of_lt (w : BitVec 32) (h : w.toNat < 50000) : k12_chk2 w := ⟨row_inb12 w h, row_inb12 w h⟩
theorem chk12_3_of_lt (w : BitVec 32) (h : w.toNat < 50000) : k12_chk3 w := ⟨row_inb12 w h, row_inb12 w h⟩
theorem chk12_4_of_lt (w : BitVec 32) (h : w.toNat < 50000) : k12_chk4 w := ⟨row_inb12 w h, row_inb12 w h⟩
theorem chk12_5_of_lt (w : BitVec 32) (h : w.toNat < 50000) : k12_chk5 w := ⟨row_inb12 w h, row_inb12 w h⟩
theorem chk12_6_of_lt (w : BitVec 32) (h : w.toNat < 50000) : k12_chk6 w := ⟨row_inb12 w h, row_inb12 w h⟩
theorem chk12_7_of_lt (w : BitVec 32) (h : w.toNat < 50000) : k12_chk7 w := ⟨row_inb12 w h, row_inb12 w h⟩
theorem chk12_8_of_lt (w : BitVec 32) (h : w.toNat < 50000) : k12_chk8 w := ⟨row_inb12 w h, row_inb12 w h⟩
theorem chk12_9_of_lt (w : BitVec 32) (h : w.toNat < 50000) : k12_chk9 w := ⟨row_inb12 w h, row_inb12 w h⟩
theorem chk12_10_of_lt (w : BitVec 32) (h : w.toNat < 50000) : k12_chk10 w := ⟨row_inb12 w h, row_inb12 w h⟩
theorem chk12_11_of_lt (w : BitVec 32) (h : w.toNat < 50000) : k12_chk11 w := ⟨row_inb12 w h, row_inb12 w h⟩
theorem chk12_12_of_lt (w : BitVec 32) (h : w.toNat < 50000) : k12_chk12 w := ⟨row_inb12 w h, row_inb12 w h⟩
theorem chk12_13_of_lt (w : BitVec 32) (h : w.toNat < 50000) : k12_chk13 w := ⟨row_inb12 w h, row_inb12 w h⟩
theorem chk12_14_of_lt (w : BitVec 32) (h : w.toNat < 50000) : k12_chk14 w := ⟨row_inb12 w h, row_inb12 w h⟩
theorem chk12_15_of_lt (w : BitVec 32) (h : w.toNat < 50000) : k12_chk15 w := ⟨row_inb12 w h, row_inb12 w h⟩
theorem chk12_16_of_lt (w : BitVec 32) (h : w.toNat < 50000) : k12_chk16 w := row_inb12 w h

/-- A whole points-to as what stays behind, sixteen read tokens numbered `b + 15` down to `b`, and the tokens below
    `b` kept as one family. -/
theorem toksAt12 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 214 … 229. -/
theorem toks12 {ℓ : Loc nD τ sig} (f : Buf (Elt F) ℓ) :
    (ℓ ↦{fullShare} f : sProp 𝕄) ⊣⊢ iprop((ℓ ↦{Transfers.shareDrop fullShare 230} f) ∗ (ℓ ↦{Transfers.shareTokN fullShare 229} f) ∗ (ℓ ↦{Transfers.shareTokN fullShare 228} f) ∗ (ℓ ↦{Transfers.shareTokN fullShare 227} f) ∗ (ℓ ↦{Transfers.shareTokN fullShare 226} f) ∗ (ℓ ↦{Transfers.shareTokN fullShare 225} f) ∗ (ℓ ↦{Transfers.shareTokN fullShare 224} f) ∗ (ℓ ↦{Transfers.shareTokN fullShare 223} f) ∗ (ℓ ↦{Transfers.shareTokN fullShare 222} f) ∗ (ℓ ↦{Transfers.shareTokN fullShare 221} f) ∗ (ℓ ↦{Transfers.shareTokN fullShare 220} f) ∗ (ℓ ↦{Transfers.shareTokN fullShare 219} f) ∗ (ℓ ↦{Transfers.shareTokN fullShare 218} f) ∗ (ℓ ↦{Transfers.shareTokN fullShare 217} f) ∗ (ℓ ↦{Transfers.shareTokN fullShare 216} f) ∗ (ℓ ↦{Transfers.shareTokN fullShare 215} f) ∗ (ℓ ↦{Transfers.shareTokN fullShare 214} f)
      ∗ BI.bigSep (Finset.range 214) fun k => ℓ ↦{Transfers.shareTokN fullShare k} f) :=
  toksAt12 f 214

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun12 (c : Dev nD) (i : grid12.Coords) (arg3 : Memref sig .tc .vmem S16x1 .f32) (harg3 : arg3.IsWhole) (arg4 : Memref sig .tc .vmem S16x262 .f32) (harg4 : arg4.IsWhole)
    (x0 : Vec F S16x1 .f32) (tb : HbBuf12 (F := F) c tbM12) (fh0 : HbBuf12 (F := F) c hbM12) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM12 fullShare d) ∗ sems12 c ∗ hbPt12 c hbM12 fh0 ∗ hbPt12 c tbM12 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM12 fullShare d) ∗ sems12 c ∗ hbPt12 c hbM12 fh0 ∗ hbPt12 c tbM12 tb ∗ (∃ W', owes (c : Thread nD τ) 0 W')) -∗ K ⟨⟩))
          ⊢ wp frame (wpE (defs₀ (F := F)) Variants.none c none) Set.univ (cc12_kernel i tbM12 (Memref.isWhole_whole _) hbM12 (Memref.isWhole_whole _) arg3 harg3 arg4 harg4 scM12 (Memref.isWhole_whole _) cc12_scratch1) K } := by
  have k12_hw1 : k12_chk1 (tbM12.view.readAt (Elt F) (Rect.unit (s := S50000) (k12_off1 i) S1.size (k12_off1_inb i)).toLoadRect tb (Shape.Idx.first (numel1_S1.symm ▸ Nat.one_pos))) := chk12_1_of_lt _ (hH _)
  have k12_hw2 : k12_chk2 (tbM12.view.readAt (Elt F) (Rect.unit (s := S50000) (k12_off3 i) S1.size (k12_off3_inb i)).toLoadRect tb (Shape.Idx.first (numel1_S1.symm ▸ Nat.one_pos))) := chk12_2_of_lt _ (hH _)
  have k12_hw3 : k12_chk3 (tbM12.view.readAt (Elt F) (Rect.unit (s := S50000) (k12_off5 i) S1.size (k12_off5_inb i)).toLoadRect tb (Shape.Idx.first (numel1_S1.symm ▸ Nat.one_pos))) := chk12_3_of_lt _ (hH _)
  have k12_hw4 : k12_chk4 (tbM12.view.readAt (Elt F) (Rect.unit (s := S50000) (k12_off7 i) S1.size (k12_off7_inb i)).toLoadRect tb (Shape.Idx.first (numel1_S1.symm ▸ Nat.one_pos))) := chk12_4_of_lt _ (hH _)
  have k12_hw5 : k12_chk5 (tbM12.view.readAt (Elt F) (Rect.unit (s := S50000) (k12_off9 i) S1.size (k12_off9_inb i)).toLoadRect tb (Shape.Idx.first (numel1_S1.symm ▸ Nat.one_pos))) := chk12_5_of_lt _ (hH _)
  have k12_hw6 : k12_chk6 (tbM12.view.readAt (Elt F) (Rect.unit (s := S50000) (k12_off11 i) S1.size (k12_off11_inb i)).toLoadRect tb (Shape.Idx.first (numel1_S1.symm ▸ Nat.one_pos))) := chk12_6_of_lt _ (hH _)
  have k12_hw7 : k12_chk7 (tbM12.view.readAt (Elt F) (Rect.unit (s := S50000) (k12_off13 i) S1.size (k12_off13_inb i)).toLoadRect tb (Shape.Idx.first (numel1_S1.symm ▸ Nat.one_pos))) := chk12_7_of_lt _ (hH _)
  have k12_hw8 : k12_chk8 (tbM12.view.readAt (Elt F) (Rect.unit (s := S50000) (k12_off15 i) S1.size (k12_off15_inb i)).toLoadRect tb (Shape.Idx.first (numel1_S1.symm ▸ Nat.one_pos))) := chk12_8_of_lt _ (hH _)
  have k12_hw9 : k12_chk9 (tbM12.view.readAt (Elt F) (Rect.unit (s := S50000) (k12_off17 i) S1.size (k12_off17_inb i)).toLoadRect tb (Shape.Idx.first (numel1_S1.symm ▸ Nat.one_pos))) := chk12_9_of_lt _ (hH _)
  have k12_hw10 : k12_chk10 (tbM12.view.readAt (Elt F) (Rect.unit (s := S50000) (k12_off19 i) S1.size (k12_off19_inb i)).toLoadRect tb (Shape.Idx.first (numel1_S1.symm ▸ Nat.one_pos))) := chk12_10_of_lt _ (hH _)
  have k12_hw11 : k12_chk11 (tbM12.view.readAt (Elt F) (Rect.unit (s := S50000) (k12_off21 i) S1.size (k12_off21_inb i)).toLoadRect tb (Shape.Idx.first (numel1_S1.symm ▸ Nat.one_pos))) := chk12_11_of_lt _ (hH _)
  have k12_hw12 : k12_chk12 (tbM12.view.readAt (Elt F) (Rect.unit (s := S50000) (k12_off23 i) S1.size (k12_off23_inb i)).toLoadRect tb (Shape.Idx.first (numel1_S1.symm ▸ Nat.one_pos))) := chk12_12_of_lt _ (hH _)
  have k12_hw13 : k12_chk13 (tbM12.view.readAt (Elt F) (Rect.unit (s := S50000) (k12_off25 i) S1.size (k12_off25_inb i)).toLoadRect tb (Shape.Idx.first (numel1_S1.symm ▸ Nat.one_pos))) := chk12_13_of_lt _ (hH _)
  have k12_hw14 : k12_chk14 (tbM12.view.readAt (Elt F) (Rect.unit (s := S50000) (k12_off27 i) S1.size (k12_off27_inb i)).toLoadRect tb (Shape.Idx.first (numel1_S1.symm ▸ Nat.one_pos))) := chk12_14_of_lt _ (hH _)
  have k12_hw15 : k12_chk15 (tbM12.view.readAt (Elt F) (Rect.unit (s := S50000) (k12_off29 i) S1.size (k12_off29_inb i)).toLoadRect tb (Shape.Idx.first (numel1_S1.symm ▸ Nat.one_pos))) := chk12_15_of_lt _ (hH _)
  have k12_hw16 : k12_chk16 (tbM12.view.readAt (Elt F) (Rect.unit (s := S50000) (k12_off31 i) S1.size (k12_off31_inb i)).toLoadRect tb (Shape.Idx.first (numel1_S1.symm ▸ Nat.one_pos))) := chk12_16_of_lt _ (hH _)
  refine ⟨?_, fun W K => ?run⟩
  case run =>
    simp only [cc12_kernel_eq_skeleton]; unfold cc12_kernel_skel
    simp only [k12_part7_eq_skeleton]; unfold k12_part7_skel
    simp only [k12_part1_eq_skeleton, k12_part2_eq_skeleton, k12_part3_eq_skeleton, k12_part4_eq_skeleton, k12_part5_eq_skeleton, k12_part6_eq_skeleton]
    unfold owns sems12
    iintro ⟨⟨%f0, %hf0, H0⟩, ⟨%d1, %f1, -, H12⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks12 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k12_hw1 | sl_exact k12_hw2 | sl_exact k12_hw3 | sl_exact k12_hw4 | sl_exact k12_hw5 | sl_exact k12_hw6 | sl_exact k12_hw7 | sl_exact k12_hw8 | sl_exact k12_hw9 | sl_exact k12_hw10 | sl_exact k12_hw11 | sl_exact k12_hw12 | sl_exact k12_hw13 | sl_exact k12_hw14 | sl_exact k12_hw15 | sl_exact k12_hw16)
    sl_step
    iapply Hk
    isplitl [H0]
    · iexists _; isplitr; · ipureintro; exact harg3.read_unread _
      iexact H0
    isplitl [H12]; · iexists _; iexact H12
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks12 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg12 (F := F)).Adm)

/-- Each window's current staging memref at point t, spelled as the pipeline passes it, and its wholeness. -/
abbrev ms12_0 (t : Fin (cfg12 a).N) : Memref sig .tc .vmem S16x1 .f32 := spec12_0.stage ((cfg12 a).slots t 0)
abbrev hs12_0 (t : Fin (cfg12 a).N) : (ms12_0 a t).IsWhole := hstage12_0 (((cfg12 a).slots t 0).cast nbuf12_0)
abbrev ms12_1 (t : Fin (cfg12 a).N) : Memref sig .tc .vmem S16x262 .f32 := spec12_1.stage ((cfg12 a).slots t 1)
abbrev hs12_1 (t : Fin (cfg12 a).N) : (ms12_1 a t).IsWhole := hstage12_1 (((cfg12 a).slots t 1).cast nbuf12_1)

/-- The kernel body at point t, on what the pipeline calls it with. -/
abbrev bodyAt12 (t : Fin (cfg12 a).N) : Prog (TpuEff nD τ sig (Elt F) Λ₀ .tc) PUnit :=
  cc12_kernel (grid12.coords t) tbM12 (Memref.isWhole_whole _) hbM12 (Memref.isWhole_whole _) (ms12_0 a t) (hs12_0 a t) (ms12_1 a t) (hs12_1 a t) scM12 (Memref.isWhole_whole _) cc12_scratch1

/-! ## The invariant, conjunct by conjunct -/

/-- The sixteen own cells at zero, listed. -/
theorem ownSems012_eq (c : Dev nD) :
    (Pipeline.ownSems0 (Ix := Unit) (Name := ℕ) (U := Pipeline.UD sig nD τ) (Lvl := ℕ) (Val := Elt F) (τ := τ) osem12 c : sProp 𝕄) = sems12 c := by
  rw [Pipeline.ownSems0_eq_of_list c osem12 [0, 1, 2, 3, 4, 5, 6, 7, 8, 9, 10, 11, 12, 13, 14, 15] (by decide) (by decide)]; rfl

/-- The gathered array's points-to at the region-entry contents. -/
theorem hbmPts12_eq (c : Dev nD) :
    (bigSep H12 (fun b => ((c : Thread nD τ).loc b) ↦{fullShare} V c b) : sProp 𝕄) = iprop(hbPt12 c hbM12 (V c main_v71)) := by
  rw [BI.bigSep_eq_bigSepL_of_eq [main_v71] (by decide) (by decide)]; rfl

/-- The row table, whole, at the contents the region is launched with. -/
theorem prefHeld12_eq (c : Dev nD) :
    (Pipeline.prefHeld (Ix := Unit) (Name := ℕ) (U := Pipeline.UD sig nD τ) (Lvl := ℕ) pre12 c (fun _ => fullShare) a.1 : sProp 𝕄) = iprop(hbPt12 c tbM12 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD12_eq (c : Dev nD) :
    (Pipeline.ΦD osem12 spec12 H12 V c : sProp 𝕄)
      = iprop(iprop((∃ d, owns (c : Thread nD τ) scM12 fullShare d) ∗ Pipeline.scopedRestBut (Ix := Unit) (Name := ℕ) (U := Pipeline.UD sig nD τ) (Lvl := ℕ) (Val := Elt F) spec12 c [cc12_scratch0])
          ∗ (∃ r, prngReg c r) ∗ sems12 c ∗ iprop(hbPt12 c hbM12 (V c main_v71))) := by
  rw [Pipeline.ΦD_eq, scopedRest12_split, ownSems012_eq, hbmPts12_eq]; simp only [scM12, owns_whole]; try rfl

/-! ## The windows' blocks -/

/-- Window w's block at point t, read off its array as the region finds it. -/
def iblk12 (c : Dev nD) (w : Fin (cfg12 a).W) (t : Fin (cfg12 a).N) : (((cfg12 a).win w).xblock ((cfg12 a).grid.coords t)).Idx → Elt F ((cfg12 a).win w).elt :=
  (((cfg12 a).win w).blk t).view.read (Elt F) (V c (Pipeline.arrRef spec12 w))

/-- Input window 0's current staging buffer holds its block at every point, fetched there or not. -/
theorem before12_0_of {c : Dev nD} (dat : Dat τ (Elt F) Unit ℕ (Pipeline.UD sig nD τ) ℕ (cfg12 a) c) (hA : dat.A 0 = V c (Pipeline.arrRef spec12 0))
    (hafter : ∀ t, dat.after 0 t = iblk12 V a c 0 t) (t : Fin (cfg12 a).N) (d) : dat.before 0 t d = iblk12 V a c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-! ## What the run leaves in the output window's buffer -/

/-- The run's pieces for the output tile its block, so they cover it. -/
theorem cover12_1 (c : Dev nD) (i : grid12.Coords) (arg3 : Memref sig .tc .vmem S16x1 .f32) (harg3 : arg3.IsWhole) (arg4 : Memref sig .tc .vmem S16x262 .f32) (harg4 : arg4.IsWhole)
    (x0 : Vec F S16x1 .f32) (tb : HbBuf12 (F := F) c tbM12) (fh0 : HbBuf12 (F := F) c hbM12) (hT : ∀ x, (tb x).toNat < 50000) (y : S16x262.Idx) :
    ∃ pc ∈ (kernelRun12 c i arg3 harg3 arg4 harg4 x0 tb fh0 hT).1, y ∈ pc.1.set :=
  View.cover_of_tiledL (kernelRun12 c i arg3 harg3 arg4 harg4 x0 tb fh0 hT).1 S16x262.size (by sl_kernel_rfl) y

/-- One staging buffer of the output window, through which its contents are stated. -/
abbrev VO12_1 : View sig .tc .vmem S16x262 .f32 := (Memref.whole cc12_stg1_0 : Memref sig .tc .vmem S16x262 .f32).view

/-- What the run leaves in the output's staging buffer: its pieces read back over junk. -/
def out12_1 (c : Dev nD) (i : grid12.Coords) (arg3 : Memref sig .tc .vmem S16x1 .f32) (harg3 : arg3.IsWhole) (arg4 : Memref sig .tc .vmem S16x262 .f32) (harg4 : arg4.IsWhole)
    (x0 : Vec F S16x1 .f32) (tb : HbBuf12 (F := F) c tbM12) (fh0 : HbBuf12 (F := F) c hbM12) (hT : ∀ x, (tb x).toNat < 50000) : Vec F S16x262 .f32 :=
  VO12_1.read (Elt F) (VO12_1.writes (Elt F) VO12_1.junk (kernelRun12 c i arg3 harg3 arg4 harg4 x0 tb fh0 hT).1)

/-- Every word of the table is a row of the gathered array, from the same of its words by position. -/
theorem tbl_lt12 (hH : ∀ j : Fin 50000, ((a.1 0) (ValueIdx.ix1 j)).toNat < 50000) (c : Dev nD) : ∀ x, (((a.1 0 : HbBuf12 (F := F) c tbM12)) x).toNat < 50000 :=
  fun x => by rw [ValueIdx.eq_ix1 x]; exact hH _

/-- What the output's staging buffer holds after the body at point t: the run's contents at the point's memrefs, the
    norm block, the table and the gathered array. -/
def outsAt12 (hH : ∀ j : Fin 50000, ((a.1 0) (ValueIdx.ix1 j)).toNat < 50000) (c : Dev nD) (t : Fin (cfg12 a).N) : Vec F S16x262 .f32 :=
  out12_1 c (grid12.coords t) (ms12_0 a t) (hs12_0 a t) (ms12_1 a t) (hs12_1 a t) (iblk12 V a c 0 t) (a.1 0) (V c main_v71) (tbl_lt12 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat12 (hH : ∀ j : Fin 50000, ((a.1 0) (ValueIdx.ix1 j)).toNat < 50000) (c : Dev nD) : Dat τ (Elt F) Unit ℕ (Pipeline.UD sig nD τ) ℕ (cfg12 a) c where
  A w := V c (Pipeline.arrRef spec12 w)
  after w t := match w with
    | ⟨0, _⟩ => iblk12 V a c 0 t
    | ⟨1, _⟩ => (outsAt12 V a hH c t)
  Φ _ := iprop(Pipeline.ΦD osem12 spec12 H12 V c ∗ Pipeline.prefHeld pre12 c (fun _ => fullShare) a.1)
  q _ := fullShare
  owed _ := 0

/-- The proof data's arrays are the region-entry contents. -/
theorem A_eq12 (hH : ∀ j : Fin 50000, ((a.1 0) (ValueIdx.ix1 j)).toNat < 50000) (c : Dev nD) (w : Fin (cfg12 a).W) : (dat12 V a hH c).A w = V c (Pipeline.arrRef spec12 w) := by
  dsimp only [dat12]

/-- What the body leaves, window by window. -/
theorem after12_0 (hH : ∀ j : Fin 50000, ((a.1 0) (ValueIdx.ix1 j)).toNat < 50000) (c : Dev nD) (t : Fin (cfg12 a).N) : (dat12 V a hH c).after 0 t = iblk12 V a c 0 t := by dsimp only [dat12]; try rfl
theorem after12_1 (hH : ∀ j : Fin 50000, ((a.1 0) (ValueIdx.ix1 j)).toNat < 50000) (c : Dev nD) (t : Fin (cfg12 a).N) : (dat12 V a hH c).after 1 t = (outsAt12 V a hH c t) := by dsimp only [dat12]; try rfl

/-- The input's current staging buffer holds its block at every point, fetched there or not. -/
theorem before12_0 (hH : ∀ j : Fin 50000, ((a.1 0) (ValueIdx.ix1 j)).toNat < 50000) (c : Dev nD) (t : Fin (cfg12 a).N) (d) : (dat12 V a hH c).before 0 t d = iblk12 V a c 0 t :=
  before12_0_of V a (dat12 V a hH c) (A_eq12 V a hH c 0) (after12_0 V a hH c) t d

/-! ## The body obligation, at a generic point -/

/-- What the body is called with at point t, the windows one by one, -/
def bodyPre12 (hH : ∀ j : Fin 50000, ((a.1 0) (ValueIdx.ix1 j)).toNat < 50000) (c : Dev nD) (t : Fin (cfg12 a).N) : sProp 𝕄 :=
  iprop((dat12 V a hH c).Φ t.castSucc ∗ (dat12 V a hH c).owesAt () t.castSucc
    ∗ (∃ d, owns (c : Thread nD τ) (ms12_0 a t) fullShare ((dat12 V a hH c).before 0 t d))
    ∗ (∃ d, owns (c : Thread nD τ) (ms12_1 a t) fullShare ((dat12 V a hH c).before 1 t d)))

/-- and what it returns. -/
def bodyPost12 (hH : ∀ j : Fin 50000, ((a.1 0) (ValueIdx.ix1 j)).toNat < 50000) (c : Dev nD) (t : Fin (cfg12 a).N) : sProp 𝕄 :=
  iprop((dat12 V a hH c).Φ t.succ ∗ (dat12 V a hH c).owesAt () t.succ
    ∗ owns (c : Thread nD τ) (ms12_0 a t) fullShare ((dat12 V a hH c).after 0 t)
    ∗ owns (c : Thread nD τ) (ms12_1 a t) fullShare ((dat12 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body12 (hH : ∀ j : Fin 50000, ((a.1 0) (ValueIdx.ix1 j)).toNat < 50000) (c : Dev nD) (t : Fin (cfg12 a).N) :
    bodyPre12 V a hH c t ⊢ wp frame (wpE (defs₀ (F := F)) Variants.none c none) Set.univ (bodyAt12 a t) (fun _ => bodyPost12 V a hH c t) := by
  unfold bodyPre12 bodyPost12 bodyAt12
  simp only [before12_0]
  rw [show (dat12 V a hH c).Φ t.succ = (dat12 V a hH c).Φ t.castSucc from rfl,
    after12_0, after12_1]
  rw [show (dat12 V a hH c).Φ t.castSucc = iprop(Pipeline.ΦD osem12 spec12 H12 V c ∗ Pipeline.prefHeld pre12 c (fun _ => fullShare) a.1) from rfl, PhiD12_eq, prefHeld12_eq]
  unfold Dat.owesAt Pipeline.owesWithin
  rw [show (dat12 V a hH c).owed t.castSucc = 0 from rfl, show (dat12 V a hH c).owed t.succ = 0 from rfl]
  unfold outsAt12
  unfold out12_1
  iintro ⟨⟨⟨⟨HS0, HSr⟩, Hg, Hq, Hh0⟩, HT⟩, ⟨%W, -, HW⟩, ⟨%d0, H0⟩, ⟨%d1, H12⟩⟩
  iapply ((kernelRun12 c (grid12.coords t) _ _ _ _ (iblk12 V a c 0 t) (a.1 0) (V c main_v71) (tbl_lt12 a hH c)).2 W _)
  isplitl [H0]; · iexact H0
  isplitl [H12]; · iexists _; iexact H12
  isplitl [HS0]; · iexact HS0
  isplitl [Hq]; · iexact Hq
  isplitl [Hh0]; · iexact Hh0
  isplitl [HT]; · iexact HT
  isplitl [HW]; · iexact HW
  iintro ⟨H0, ⟨%e1, H12⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H12
  ipureintro; exact View.read_writes_of_cover _ _ _ _ _ (cover12_1 c _ _ _ _ _ _ _ _ _)

/-- The library's body obligation, at every point. -/
theorem body_obligation12 (hH : ∀ j : Fin 50000, ((a.1 0) (ValueIdx.ix1 j)).toNat < 50000) (c : Dev nD) : BodyObligation (dat12 (F := F) V a hH c) (defs₀ (F := F)) Variants.none () Set.univ := fun t => by
  rw [bigSep_W12, bigSep_W12]
  exact sound_body12 V a hH c t

end Cert.Kernel.Hand

end
-- ==== Proof.Bits.G13.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 13 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem13 : Fin 16 → SemLoc sig := fun j =>
  (![SemLoc.dma 234, SemLoc.dma 235, SemLoc.dma 236, SemLoc.dma 237, SemLoc.dma 238, SemLoc.dma 239, SemLoc.dma 240, SemLoc.dma 241,
     SemLoc.dma 242, SemLoc.dma 243, SemLoc.dma 244, SemLoc.dma 245, SemLoc.dma 246, SemLoc.dma 247, SemLoc.dma 248, SemLoc.dma 249] : Fin 16 → SemLoc sig) j
theorem ownSemFacts13 : Pipeline.OwnSemFacts spec13 osem13 := by decide

/-- The HBM operand the body gathers rows from: unscoped, no window's array, no table. -/
def H13 : Finset (Ref sig .tc) := {main_v71}
theorem H13_sub : H13 ⊆ Pipeline.restRefsP sig pre13 spec13 := by decide

/-- The operands the pipeline does not stage, whole. -/
abbrev tbM13 : Memref sig .tc .smem S50000 .i32 := Memref.whole main_v79
abbrev hbM13 : Memref sig .tc .hbm S50000x262 .f32 := Memref.whole main_v71
abbrev scM13 : Memref sig .tc .vmem S16x262 .f32 := Memref.whole cc13_scratch0

/-- A whole memref's buffer on core `c`, and it held whole at `f`. -/
abbrev HbBuf13 (c : Dev nD) {sp : Space} {S : Shape} {e : EltTy} (M : Memref sig .tc sp S e) : Type := Buf (Elt F) (M.view.loc (c : Thread nD τ))
abbrev hbPt13 (c : Dev nD) {sp : Space} {S : Shape} {e : EltTy} (M : Memref sig .tc sp S e) (f : HbBuf13 (F := F) c M) : sProp 𝕄 :=
  M.view.loc (c : Thread nD τ) ↦{fullShare} f

/-- The sixteen own cells at zero. -/
abbrev sems13 (c : Dev nD) : sProp 𝕄 :=
  iprop(semVal ((c : Thread nD τ), SemLoc.dma 234) 0 ∗ semVal ((c : Thread nD τ), SemLoc.dma 235) 0 ∗ semVal ((c : Thread nD τ), SemLoc.dma 236) 0 ∗ semVal ((c : Thread nD τ), SemLoc.dma 237) 0 ∗ semVal ((c : Thread nD τ), SemLoc.dma 238) 0 ∗ semVal ((c : Thread nD τ), SemLoc.dma 239) 0 ∗ semVal ((c : Thread nD τ), SemLoc.dma 240) 0 ∗ semVal ((c : Thread nD τ), SemLoc.dma 241) 0 ∗ semVal ((c : Thread nD τ), SemLoc.dma 242) 0 ∗ semVal ((c : Thread nD τ), SemLoc.dma 243) 0 ∗ semVal ((c : Thread nD τ), SemLoc.dma 244) 0 ∗ semVal ((c : Thread nD τ), SemLoc.dma 245) 0 ∗ semVal ((c : Thread nD τ), SemLoc.dma 246) 0 ∗ semVal ((c : Thread nD τ), SemLoc.dma 247) 0 ∗ semVal ((c : Thread nD τ), SemLoc.dma 248) 0 ∗ semVal ((c : Thread nD τ), SemLoc.dma 249) 0)

/-- A row index inside the gathered array puts the one-row slice inside it. -/
theorem row_inb13 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk13_1_of_lt (w : BitVec 32) (h : w.toNat < 50000) : k13_chk1 w := ⟨row_inb13 w h, row_inb13 w h⟩
theorem chk13_2_of_lt (w : BitVec 32) (h : w.toNat < 50000) : k13_chk2 w := ⟨row_inb13 w h, row_inb13 w h⟩
theorem chk13_3_of_lt (w : BitVec 32) (h : w.toNat < 50000) : k13_chk3 w := ⟨row_inb13 w h, row_inb13 w h⟩
theorem chk13_4_of_lt (w : BitVec 32) (h : w.toNat < 50000) : k13_chk4 w := ⟨row_inb13 w h, row_inb13 w h⟩
theorem chk13_5_of_lt (w : BitVec 32) (h : w.toNat < 50000) : k13_chk5 w := ⟨row_inb13 w h, row_inb13 w h⟩
theorem chk13_6_of_lt (w : BitVec 32) (h : w.toNat < 50000) : k13_chk6 w := ⟨row_inb13 w h, row_inb13 w h⟩
theorem chk13_7_of_lt (w : BitVec 32) (h : w.toNat < 50000) : k13_chk7 w := ⟨row_inb13 w h, row_inb13 w h⟩
theorem chk13_8_of_lt (w : BitVec 32) (h : w.toNat < 50000) : k13_chk8 w := ⟨row_inb13 w h, row_inb13 w h⟩
theorem chk13_9_of_lt (w : BitVec 32) (h : w.toNat < 50000) : k13_chk9 w := ⟨row_inb13 w h, row_inb13 w h⟩
theorem chk13_10_of_lt (w : BitVec 32) (h : w.toNat < 50000) : k13_chk10 w := ⟨row_inb13 w h, row_inb13 w h⟩
theorem chk13_11_of_lt (w : BitVec 32) (h : w.toNat < 50000) : k13_chk11 w := ⟨row_inb13 w h, row_inb13 w h⟩
theorem chk13_12_of_lt (w : BitVec 32) (h : w.toNat < 50000) : k13_chk12 w := ⟨row_inb13 w h, row_inb13 w h⟩
theorem chk13_13_of_lt (w : BitVec 32) (h : w.toNat < 50000) : k13_chk13 w := ⟨row_inb13 w h, row_inb13 w h⟩
theorem chk13_14_of_lt (w : BitVec 32) (h : w.toNat < 50000) : k13_chk14 w := ⟨row_inb13 w h, row_inb13 w h⟩
theorem chk13_15_of_lt (w : BitVec 32) (h : w.toNat < 50000) : k13_chk15 w := ⟨row_inb13 w h, row_inb13 w h⟩
theorem chk13_16_of_lt (w : BitVec 32) (h : w.toNat < 50000) : k13_chk16 w := row_inb13 w h

/-- A whole points-to as what stays behind, sixteen read tokens numbered `b + 15` down to `b`, and the tokens below
    `b` kept as one family. -/
theorem toksAt13 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 234 … 249. -/
theorem toks13 {ℓ : Loc nD τ sig} (f : Buf (Elt F) ℓ) :
    (ℓ ↦{fullShare} f : sProp 𝕄) ⊣⊢ iprop((ℓ ↦{Transfers.shareDrop fullShare 250} f) ∗ (ℓ ↦{Transfers.shareTokN fullShare 249} f) ∗ (ℓ ↦{Transfers.shareTokN fullShare 248} f) ∗ (ℓ ↦{Transfers.shareTokN fullShare 247} f) ∗ (ℓ ↦{Transfers.shareTokN fullShare 246} f) ∗ (ℓ ↦{Transfers.shareTokN fullShare 245} f) ∗ (ℓ ↦{Transfers.shareTokN fullShare 244} f) ∗ (ℓ ↦{Transfers.shareTokN fullShare 243} f) ∗ (ℓ ↦{Transfers.shareTokN fullShare 242} f) ∗ (ℓ ↦{Transfers.shareTokN fullShare 241} f) ∗ (ℓ ↦{Transfers.shareTokN fullShare 240} f) ∗ (ℓ ↦{Transfers.shareTokN fullShare 239} f) ∗ (ℓ ↦{Transfers.shareTokN fullShare 238} f) ∗ (ℓ ↦{Transfers.shareTokN fullShare 237} f) ∗ (ℓ ↦{Transfers.shareTokN fullShare 236} f) ∗ (ℓ ↦{Transfers.shareTokN fullShare 235} f) ∗ (ℓ ↦{Transfers.shareTokN fullShare 234} f)
      ∗ BI.bigSep (Finset.range 234) fun k => ℓ ↦{Transfers.shareTokN fullShare k} f) :=
  toksAt13 f 234

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun13 (c : Dev nD) (i : grid13.Coords) (arg3 : Memref sig .tc .vmem S16x1 .f32) (harg3 : arg3.IsWhole) (arg4 : Memref sig .tc .vmem S16x262 .f32) (harg4 : arg4.IsWhole)
    (x0 : Vec F S16x1 .f32) (tb : HbBuf13 (F := F) c tbM13) (fh0 : HbBuf13 (F := F) c hbM13) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM13 fullShare d) ∗ sems13 c ∗ hbPt13 c hbM13 fh0 ∗ hbPt13 c tbM13 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM13 fullShare d) ∗ sems13 c ∗ hbPt13 c hbM13 fh0 ∗ hbPt13 c tbM13 tb ∗ (∃ W', owes (c : Thread nD τ) 0 W')) -∗ K ⟨⟩))
          ⊢ wp frame (wpE (defs₀ (F := F)) Variants.none c none) Set.univ (cc13_kernel i tbM13 (Memref.isWhole_whole _) hbM13 (Memref.isWhole_whole _) arg3 harg3 arg4 harg4 scM13 (Memref.isWhole_whole _) cc13_scratch1) K } := by
  have k13_hw1 : k13_chk1 (tbM13.view.readAt (Elt F) (Rect.unit (s := S50000) (k13_off1 i) S1.size (k13_off1_inb i)).toLoadRect tb (Shape.Idx.first (numel1_S1.symm ▸ Nat.one_pos))) := chk13_1_of_lt _ (hH _)
  have k13_hw2 : k13_chk2 (tbM13.view.readAt (Elt F) (Rect.unit (s := S50000) (k13_off3 i) S1.size (k13_off3_inb i)).toLoadRect tb (Shape.Idx.first (numel1_S1.symm ▸ Nat.one_pos))) := chk13_2_of_lt _ (hH _)
  have k13_hw3 : k13_chk3 (tbM13.view.readAt (Elt F) (Rect.unit (s := S50000) (k13_off5 i) S1.size (k13_off5_inb i)).toLoadRect tb (Shape.Idx.first (numel1_S1.symm ▸ Nat.one_pos))) := chk13_3_of_lt _ (hH _)
  have k13_hw4 : k13_chk4 (tbM13.view.readAt (Elt F) (Rect.unit (s := S50000) (k13_off7 i) S1.size (k13_off7_inb i)).toLoadRect tb (Shape.Idx.first (numel1_S1.symm ▸ Nat.one_pos))) := chk13_4_of_lt _ (hH _)
  have k13_hw5 : k13_chk5 (tbM13.view.readAt (Elt F) (Rect.unit (s := S50000) (k13_off9 i) S1.size (k13_off9_inb i)).toLoadRect tb (Shape.Idx.first (numel1_S1.symm ▸ Nat.one_pos))) := chk13_5_of_lt _ (hH _)
  have k13_hw6 : k13_chk6 (tbM13.view.readAt (Elt F) (Rect.unit (s := S50000) (k13_off11 i) S1.size (k13_off11_inb i)).toLoadRect tb (Shape.Idx.first (numel1_S1.symm ▸ Nat.one_pos))) := chk13_6_of_lt _ (hH _)
  have k13_hw7 : k13_chk7 (tbM13.view.readAt (Elt F) (Rect.unit (s := S50000) (k13_off13 i) S1.size (k13_off13_inb i)).toLoadRect tb (Shape.Idx.first (numel1_S1.symm ▸ Nat.one_pos))) := chk13_7_of_lt _ (hH _)
  have k13_hw8 : k13_chk8 (tbM13.view.readAt (Elt F) (Rect.unit (s := S50000) (k13_off15 i) S1.size (k13_off15_inb i)).toLoadRect tb (Shape.Idx.first (numel1_S1.symm ▸ Nat.one_pos))) := chk13_8_of_lt _ (hH _)
  have k13_hw9 : k13_chk9 (tbM13.view.readAt (Elt F) (Rect.unit (s := S50000) (k13_off17 i) S1.size (k13_off17_inb i)).toLoadRect tb (Shape.Idx.first (numel1_S1.symm ▸ Nat.one_pos))) := chk13_9_of_lt _ (hH _)
  have k13_hw10 : k13_chk10 (tbM13.view.readAt (Elt F) (Rect.unit (s := S50000) (k13_off19 i) S1.size (k13_off19_inb i)).toLoadRect tb (Shape.Idx.first (numel1_S1.symm ▸ Nat.one_pos))) := chk13_10_of_lt _ (hH _)
  have k13_hw11 : k13_chk11 (tbM13.view.readAt (Elt F) (Rect.unit (s := S50000) (k13_off21 i) S1.size (k13_off21_inb i)).toLoadRect tb (Shape.Idx.first (numel1_S1.symm ▸ Nat.one_pos))) := chk13_11_of_lt _ (hH _)
  have k13_hw12 : k13_chk12 (tbM13.view.readAt (Elt F) (Rect.unit (s := S50000) (k13_off23 i) S1.size (k13_off23_inb i)).toLoadRect tb (Shape.Idx.first (numel1_S1.symm ▸ Nat.one_pos))) := chk13_12_of_lt _ (hH _)
  have k13_hw13 : k13_chk13 (tbM13.view.readAt (Elt F) (Rect.unit (s := S50000) (k13_off25 i) S1.size (k13_off25_inb i)).toLoadRect tb (Shape.Idx.first (numel1_S1.symm ▸ Nat.one_pos))) := chk13_13_of_lt _ (hH _)
  have k13_hw14 : k13_chk14 (tbM13.view.readAt (Elt F) (Rect.unit (s := S50000) (k13_off27 i) S1.size (k13_off27_inb i)).toLoadRect tb (Shape.Idx.first (numel1_S1.symm ▸ Nat.one_pos))) := chk13_14_of_lt _ (hH _)
  have k13_hw15 : k13_chk15 (tbM13.view.readAt (Elt F) (Rect.unit (s := S50000) (k13_off29 i) S1.size (k13_off29_inb i)).toLoadRect tb (Shape.Idx.first (numel1_S1.symm ▸ Nat.one_pos))) := chk13_15_of_lt _ (hH _)
  have k13_hw16 : k13_chk16 (tbM13.view.readAt (Elt F) (Rect.unit (s := S50000) (k13_off31 i) S1.size (k13_off31_inb i)).toLoadRect tb (Shape.Idx.first (numel1_S1.symm ▸ Nat.one_pos))) := chk13_16_of_lt _ (hH _)
  refine ⟨?_, fun W K => ?run⟩
  case run =>
    simp only [cc13_kernel_eq_skeleton]; unfold cc13_kernel_skel
    simp only [k13_part7_eq_skeleton]; unfold k13_part7_skel
    simp only [k13_part1_eq_skeleton, k13_part2_eq_skeleton, k13_part3_eq_skeleton, k13_part4_eq_skeleton, k13_part5_eq_skeleton, k13_part6_eq_skeleton]
    unfold owns sems13
    iintro ⟨⟨%f0, %hf0, H0⟩, ⟨%d1, %f1, -, H13⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks13 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k13_hw1 | sl_exact k13_hw2 | sl_exact k13_hw3 | sl_exact k13_hw4 | sl_exact k13_hw5 | sl_exact k13_hw6 | sl_exact k13_hw7 | sl_exact k13_hw8 | sl_exact k13_hw9 | sl_exact k13_hw10 | sl_exact k13_hw11 | sl_exact k13_hw12 | sl_exact k13_hw13 | sl_exact k13_hw14 | sl_exact k13_hw15 | sl_exact k13_hw16)
    sl_step
    iapply Hk
    isplitl [H0]
    · iexists _; isplitr; · ipureintro; exact harg3.read_unread _
      iexact H0
    isplitl [H13]; · iexists _; iexact H13
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks13 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg13 (F := F)).Adm)

/-- Each window's current staging memref at point t, spelled as the pipeline passes it, and its wholeness. -/
abbrev ms13_0 (t : Fin (cfg13 a).N) : Memref sig .tc .vmem S16x1 .f32 := spec13_0.stage ((cfg13 a).slots t 0)
abbrev hs13_0 (t : Fin (cfg13 a).N) : (ms13_0 a t).IsWhole := hstage13_0 (((cfg13 a).slots t 0).cast nbuf13_0)
abbrev ms13_1 (t : Fin (cfg13 a).N) : Memref sig .tc .vmem S16x262 .f32 := spec13_1.stage ((cfg13 a).slots t 1)
abbrev hs13_1 (t : Fin (cfg13 a).N) : (ms13_1 a t).IsWhole := hstage13_1 (((cfg13 a).slots t 1).cast nbuf13_1)

/-- The kernel body at point t, on what the pipeline calls it with. -/
abbrev bodyAt13 (t : Fin (cfg13 a).N) : Prog (TpuEff nD τ sig (Elt F) Λ₀ .tc) PUnit :=
  cc13_kernel (grid13.coords t) tbM13 (Memref.isWhole_whole _) hbM13 (Memref.isWhole_whole _) (ms13_0 a t) (hs13_0 a t) (ms13_1 a t) (hs13_1 a t) scM13 (Memref.isWhole_whole _) cc13_scratch1

/-! ## The invariant, conjunct by conjunct -/

/-- The sixteen own cells at zero, listed. -/
theorem ownSems013_eq (c : Dev nD) :
    (Pipeline.ownSems0 (Ix := Unit) (Name := ℕ) (U := Pipeline.UD sig nD τ) (Lvl := ℕ) (Val := Elt F) (τ := τ) osem13 c : sProp 𝕄) = sems13 c := by
  rw [Pipeline.ownSems0_eq_of_list c osem13 [0, 1, 2, 3, 4, 5, 6, 7, 8, 9, 10, 11, 12, 13, 14, 15] (by decide) (by decide)]; rfl

/-- The gathered array's points-to at the region-entry contents. -/
theorem hbmPts13_eq (c : Dev nD) :
    (bigSep H13 (fun b => ((c : Thread nD τ).loc b) ↦{fullShare} V c b) : sProp 𝕄) = iprop(hbPt13 c hbM13 (V c main_v71)) := by
  rw [BI.bigSep_eq_bigSepL_of_eq [main_v71] (by decide) (by decide)]; rfl

/-- The row table, whole, at the contents the region is launched with. -/
theorem prefHeld13_eq (c : Dev nD) :
    (Pipeline.prefHeld (Ix := Unit) (Name := ℕ) (U := Pipeline.UD sig nD τ) (Lvl := ℕ) pre13 c (fun _ => fullShare) a.1 : sProp 𝕄) = iprop(hbPt13 c tbM13 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD13_eq (c : Dev nD) :
    (Pipeline.ΦD osem13 spec13 H13 V c : sProp 𝕄)
      = iprop(iprop((∃ d, owns (c : Thread nD τ) scM13 fullShare d) ∗ Pipeline.scopedRestBut (Ix := Unit) (Name := ℕ) (U := Pipeline.UD sig nD τ) (Lvl := ℕ) (Val := Elt F) spec13 c [cc13_scratch0])
          ∗ (∃ r, prngReg c r) ∗ sems13 c ∗ iprop(hbPt13 c hbM13 (V c main_v71))) := by
  rw [Pipeline.ΦD_eq, scopedRest13_split, ownSems013_eq, hbmPts13_eq]; simp only [scM13, owns_whole]; try rfl

/-! ## The windows' blocks -/

/-- Window w's block at point t, read off its array as the region finds it. -/
def iblk13 (c : Dev nD) (w : Fin (cfg13 a).W) (t : Fin (cfg13 a).N) : (((cfg13 a).win w).xblock ((cfg13 a).grid.coords t)).Idx → Elt F ((cfg13 a).win w).elt :=
  (((cfg13 a).win w).blk t).view.read (Elt F) (V c (Pipeline.arrRef spec13 w))

/-- Input window 0's current staging buffer holds its block at every point, fetched there or not. -/
theorem before13_0_of {c : Dev nD} (dat : Dat τ (Elt F) Unit ℕ (Pipeline.UD sig nD τ) ℕ (cfg13 a) c) (hA : dat.A 0 = V c (Pipeline.arrRef spec13 0))
    (hafter : ∀ t, dat.after 0 t = iblk13 V a c 0 t) (t : Fin (cfg13 a).N) (d) : dat.before 0 t d = iblk13 V a c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-! ## What the run leaves in the output window's buffer -/

/-- The run's pieces for the output tile its block, so they cover it. -/
theorem cover13_1 (c : Dev nD) (i : grid13.Coords) (arg3 : Memref sig .tc .vmem S16x1 .f32) (harg3 : arg3.IsWhole) (arg4 : Memref sig .tc .vmem S16x262 .f32) (harg4 : arg4.IsWhole)
    (x0 : Vec F S16x1 .f32) (tb : HbBuf13 (F := F) c tbM13) (fh0 : HbBuf13 (F := F) c hbM13) (hT : ∀ x, (tb x).toNat < 50000) (y : S16x262.Idx) :
    ∃ pc ∈ (kernelRun13 c i arg3 harg3 arg4 harg4 x0 tb fh0 hT).1, y ∈ pc.1.set :=
  View.cover_of_tiledL (kernelRun13 c i arg3 harg3 arg4 harg4 x0 tb fh0 hT).1 S16x262.size (by sl_kernel_rfl) y

/-- One staging buffer of the output window, through which its contents are stated. -/
abbrev VO13_1 : View sig .tc .vmem S16x262 .f32 := (Memref.whole cc13_stg1_0 : Memref sig .tc .vmem S16x262 .f32).view

/-- What the run leaves in the output's staging buffer: its pieces read back over junk. -/
def out13_1 (c : Dev nD) (i : grid13.Coords) (arg3 : Memref sig .tc .vmem S16x1 .f32) (harg3 : arg3.IsWhole) (arg4 : Memref sig .tc .vmem S16x262 .f32) (harg4 : arg4.IsWhole)
    (x0 : Vec F S16x1 .f32) (tb : HbBuf13 (F := F) c tbM13) (fh0 : HbBuf13 (F := F) c hbM13) (hT : ∀ x, (tb x).toNat < 50000) : Vec F S16x262 .f32 :=
  VO13_1.read (Elt F) (VO13_1.writes (Elt F) VO13_1.junk (kernelRun13 c i arg3 harg3 arg4 harg4 x0 tb fh0 hT).1)

/-- Every word of the table is a row of the gathered array, from the same of its words by position. -/
theorem tbl_lt13 (hH : ∀ j : Fin 50000, ((a.1 0) (ValueIdx.ix1 j)).toNat < 50000) (c : Dev nD) : ∀ x, (((a.1 0 : HbBuf13 (F := F) c tbM13)) x).toNat < 50000 :=
  fun x => by rw [ValueIdx.eq_ix1 x]; exact hH _

/-- What the output's staging buffer holds after the body at point t: the run's contents at the point's memrefs, the
    norm block, the table and the gathered array. -/
def outsAt13 (hH : ∀ j : Fin 50000, ((a.1 0) (ValueIdx.ix1 j)).toNat < 50000) (c : Dev nD) (t : Fin (cfg13 a).N) : Vec F S16x262 .f32 :=
  out13_1 c (grid13.coords t) (ms13_0 a t) (hs13_0 a t) (ms13_1 a t) (hs13_1 a t) (iblk13 V a c 0 t) (a.1 0) (V c main_v71) (tbl_lt13 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat13 (hH : ∀ j : Fin 50000, ((a.1 0) (ValueIdx.ix1 j)).toNat < 50000) (c : Dev nD) : Dat τ (Elt F) Unit ℕ (Pipeline.UD sig nD τ) ℕ (cfg13 a) c where
  A w := V c (Pipeline.arrRef spec13 w)
  after w t := match w with
    | ⟨0, _⟩ => iblk13 V a c 0 t
    | ⟨1, _⟩ => (outsAt13 V a hH c t)
  Φ _ := iprop(Pipeline.ΦD osem13 spec13 H13 V c ∗ Pipeline.prefHeld pre13 c (fun _ => fullShare) a.1)
  q _ := fullShare
  owed _ := 0

/-- The proof data's arrays are the region-entry contents. -/
theorem A_eq13 (hH : ∀ j : Fin 50000, ((a.1 0) (ValueIdx.ix1 j)).toNat < 50000) (c : Dev nD) (w : Fin (cfg13 a).W) : (dat13 V a hH c).A w = V c (Pipeline.arrRef spec13 w) := by
  dsimp only [dat13]

/-- What the body leaves, window by window. -/
theorem after13_0 (hH : ∀ j : Fin 50000, ((a.1 0) (ValueIdx.ix1 j)).toNat < 50000) (c : Dev nD) (t : Fin (cfg13 a).N) : (dat13 V a hH c).after 0 t = iblk13 V a c 0 t := by dsimp only [dat13]; try rfl
theorem after13_1 (hH : ∀ j : Fin 50000, ((a.1 0) (ValueIdx.ix1 j)).toNat < 50000) (c : Dev nD) (t : Fin (cfg13 a).N) : (dat13 V a hH c).after 1 t = (outsAt13 V a hH c t) := by dsimp only [dat13]; try rfl

/-- The input's current staging buffer holds its block at every point, fetched there or not. -/
theorem before13_0 (hH : ∀ j : Fin 50000, ((a.1 0) (ValueIdx.ix1 j)).toNat < 50000) (c : Dev nD) (t : Fin (cfg13 a).N) (d) : (dat13 V a hH c).before 0 t d = iblk13 V a c 0 t :=
  before13_0_of V a (dat13 V a hH c) (A_eq13 V a hH c 0) (after13_0 V a hH c) t d

/-! ## The body obligation, at a generic point -/

/-- What the body is called with at point t, the windows one by one, -/
def bodyPre13 (hH : ∀ j : Fin 50000, ((a.1 0) (ValueIdx.ix1 j)).toNat < 50000) (c : Dev nD) (t : Fin (cfg13 a).N) : sProp 𝕄 :=
  iprop((dat13 V a hH c).Φ t.castSucc ∗ (dat13 V a hH c).owesAt () t.castSucc
    ∗ (∃ d, owns (c : Thread nD τ) (ms13_0 a t) fullShare ((dat13 V a hH c).before 0 t d))
    ∗ (∃ d, owns (c : Thread nD τ) (ms13_1 a t) fullShare ((dat13 V a hH c).before 1 t d)))

/-- and what it returns. -/
def bodyPost13 (hH : ∀ j : Fin 50000, ((a.1 0) (ValueIdx.ix1 j)).toNat < 50000) (c : Dev nD) (t : Fin (cfg13 a).N) : sProp 𝕄 :=
  iprop((dat13 V a hH c).Φ t.succ ∗ (dat13 V a hH c).owesAt () t.succ
    ∗ owns (c : Thread nD τ) (ms13_0 a t) fullShare ((dat13 V a hH c).after 0 t)
    ∗ owns (c : Thread nD τ) (ms13_1 a t) fullShare ((dat13 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body13 (hH : ∀ j : Fin 50000, ((a.1 0) (ValueIdx.ix1 j)).toNat < 50000) (c : Dev nD) (t : Fin (cfg13 a).N) :
    bodyPre13 V a hH c t ⊢ wp frame (wpE (defs₀ (F := F)) Variants.none c none) Set.univ (bodyAt13 a t) (fun _ => bodyPost13 V a hH c t) := by
  unfold bodyPre13 bodyPost13 bodyAt13
  simp only [before13_0]
  rw [show (dat13 V a hH c).Φ t.succ = (dat13 V a hH c).Φ t.castSucc from rfl,
    after13_0, after13_1]
  rw [show (dat13 V a hH c).Φ t.castSucc = iprop(Pipeline.ΦD osem13 spec13 H13 V c ∗ Pipeline.prefHeld pre13 c (fun _ => fullShare) a.1) from rfl, PhiD13_eq, prefHeld13_eq]
  unfold Dat.owesAt Pipeline.owesWithin
  rw [show (dat13 V a hH c).owed t.castSucc = 0 from rfl, show (dat13 V a hH c).owed t.succ = 0 from rfl]
  unfold outsAt13
  unfold out13_1
  iintro ⟨⟨⟨⟨HS0, HSr⟩, Hg, Hq, Hh0⟩, HT⟩, ⟨%W, -, HW⟩, ⟨%d0, H0⟩, ⟨%d1, H13⟩⟩
  iapply ((kernelRun13 c (grid13.coords t) _ _ _ _ (iblk13 V a c 0 t) (a.1 0) (V c main_v71) (tbl_lt13 a hH c)).2 W _)
  isplitl [H0]; · iexact H0
  isplitl [H13]; · iexists _; iexact H13
  isplitl [HS0]; · iexact HS0
  isplitl [Hq]; · iexact Hq
  isplitl [Hh0]; · iexact Hh0
  isplitl [HT]; · iexact HT
  isplitl [HW]; · iexact HW
  iintro ⟨H0, ⟨%e1, H13⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H13
  ipureintro; exact View.read_writes_of_cover _ _ _ _ _ (cover13_1 c _ _ _ _ _ _ _ _ _)

/-- The library's body obligation, at every point. -/
theorem body_obligation13 (hH : ∀ j : Fin 50000, ((a.1 0) (ValueIdx.ix1 j)).toNat < 50000) (c : Dev nD) : BodyObligation (dat13 (F := F) V a hH c) (defs₀ (F := F)) Variants.none () Set.univ := fun t => by
  rw [bigSep_W13, bigSep_W13]
  exact sound_body13 V a hH c t

end Cert.Kernel.Hand

end
-- ==== Proof.Bits.G14.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 14 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem14 : Fin 16 → SemLoc sig := fun j =>
  (![SemLoc.dma 254, SemLoc.dma 255, SemLoc.dma 256, SemLoc.dma 257, SemLoc.dma 258, SemLoc.dma 259, SemLoc.dma 260, SemLoc.dma 261,
     SemLoc.dma 262, SemLoc.dma 263, SemLoc.dma 264, SemLoc.dma 265, SemLoc.dma 266, SemLoc.dma 267, SemLoc.dma 268, SemLoc.dma 269] : Fin 16 → SemLoc sig) j
theorem ownSemFacts14 : Pipeline.OwnSemFacts spec14 osem14 := by decide

/-- The HBM operand the body gathers rows from: unscoped, no window's array, no table. -/
def H14 : Finset (Ref sig .tc) := {main_v71}
theorem H14_sub : H14 ⊆ Pipeline.restRefsP sig pre14 spec14 := by decide

/-- The operands the pipeline does not stage, whole. -/
abbrev tbM14 : Memref sig .tc .smem S50000 .i32 := Memref.whole main_v82
abbrev hbM14 : Memref sig .tc .hbm S50000x262 .f32 := Memref.whole main_v71
abbrev scM14 : Memref sig .tc .vmem S16x262 .f32 := Memref.whole cc14_scratch0

/-- A whole memref's buffer on core `c`, and it held whole at `f`. -/
abbrev HbBuf14 (c : Dev nD) {sp : Space} {S : Shape} {e : EltTy} (M : Memref sig .tc sp S e) : Type := Buf (Elt F) (M.view.loc (c : Thread nD τ))
abbrev hbPt14 (c : Dev nD) {sp : Space} {S : Shape} {e : EltTy} (M : Memref sig .tc sp S e) (f : HbBuf14 (F := F) c M) : sProp 𝕄 :=
  M.view.loc (c : Thread nD τ) ↦{fullShare} f

/-- The sixteen own cells at zero. -/
abbrev sems14 (c : Dev nD) : sProp 𝕄 :=
  iprop(semVal ((c : Thread nD τ), SemLoc.dma 254) 0 ∗ semVal ((c : Thread nD τ), SemLoc.dma 255) 0 ∗ semVal ((c : Thread nD τ), SemLoc.dma 256) 0 ∗ semVal ((c : Thread nD τ), SemLoc.dma 257) 0 ∗ semVal ((c : Thread nD τ), SemLoc.dma 258) 0 ∗ semVal ((c : Thread nD τ), SemLoc.dma 259) 0 ∗ semVal ((c : Thread nD τ), SemLoc.dma 260) 0 ∗ semVal ((c : Thread nD τ), SemLoc.dma 261) 0 ∗ semVal ((c : Thread nD τ), SemLoc.dma 262) 0 ∗ semVal ((c : Thread nD τ), SemLoc.dma 263) 0 ∗ semVal ((c : Thread nD τ), SemLoc.dma 264) 0 ∗ semVal ((c : Thread nD τ), SemLoc.dma 265) 0 ∗ semVal ((c : Thread nD τ), SemLoc.dma 266) 0 ∗ semVal ((c : Thread nD τ), SemLoc.dma 267) 0 ∗ semVal ((c : Thread nD τ), SemLoc.dma 268) 0 ∗ semVal ((c : Thread nD τ), SemLoc.dma 269) 0)

/-- A row index inside the gathered array puts the one-row slice inside it. -/
theorem row_inb14 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk14_1_of_lt (w : BitVec 32) (h : w.toNat < 50000) : k14_chk1 w := ⟨row_inb14 w h, row_inb14 w h⟩
theorem chk14_2_of_lt (w : BitVec 32) (h : w.toNat < 50000) : k14_chk2 w := ⟨row_inb14 w h, row_inb14 w h⟩
theorem chk14_3_of_lt (w : BitVec 32) (h : w.toNat < 50000) : k14_chk3 w := ⟨row_inb14 w h, row_inb14 w h⟩
theorem chk14_4_of_lt (w : BitVec 32) (h : w.toNat < 50000) : k14_chk4 w := ⟨row_inb14 w h, row_inb14 w h⟩
theorem chk14_5_of_lt (w : BitVec 32) (h : w.toNat < 50000) : k14_chk5 w := ⟨row_inb14 w h, row_inb14 w h⟩
theorem chk14_6_of_lt (w : BitVec 32) (h : w.toNat < 50000) : k14_chk6 w := ⟨row_inb14 w h, row_inb14 w h⟩
theorem chk14_7_of_lt (w : BitVec 32) (h : w.toNat < 50000) : k14_chk7 w := ⟨row_inb14 w h, row_inb14 w h⟩
theorem chk14_8_of_lt (w : BitVec 32) (h : w.toNat < 50000) : k14_chk8 w := ⟨row_inb14 w h, row_inb14 w h⟩
theorem chk14_9_of_lt (w : BitVec 32) (h : w.toNat < 50000) : k14_chk9 w := ⟨row_inb14 w h, row_inb14 w h⟩
theorem chk14_10_of_lt (w : BitVec 32) (h : w.toNat < 50000) : k14_chk10 w := ⟨row_inb14 w h, row_inb14 w h⟩
theorem chk14_11_of_lt (w : BitVec 32) (h : w.toNat < 50000) : k14_chk11 w := ⟨row_inb14 w h, row_inb14 w h⟩
theorem chk14_12_of_lt (w : BitVec 32) (h : w.toNat < 50000) : k14_chk12 w := ⟨row_inb14 w h, row_inb14 w h⟩
theorem chk14_13_of_lt (w : BitVec 32) (h : w.toNat < 50000) : k14_chk13 w := ⟨row_inb14 w h, row_inb14 w h⟩
theorem chk14_14_of_lt (w : BitVec 32) (h : w.toNat < 50000) : k14_chk14 w := ⟨row_inb14 w h, row_inb14 w h⟩
theorem chk14_15_of_lt (w : BitVec 32) (h : w.toNat < 50000) : k14_chk15 w := ⟨row_inb14 w h, row_inb14 w h⟩
theorem chk14_16_of_lt (w : BitVec 32) (h : w.toNat < 50000) : k14_chk16 w := row_inb14 w h

/-- A whole points-to as what stays behind, sixteen read tokens numbered `b + 15` down to `b`, and the tokens below
    `b` kept as one family. -/
theorem toksAt14 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 254 … 269. -/
theorem toks14 {ℓ : Loc nD τ sig} (f : Buf (Elt F) ℓ) :
    (ℓ ↦{fullShare} f : sProp 𝕄) ⊣⊢ iprop((ℓ ↦{Transfers.shareDrop fullShare 270} f) ∗ (ℓ ↦{Transfers.shareTokN fullShare 269} f) ∗ (ℓ ↦{Transfers.shareTokN fullShare 268} f) ∗ (ℓ ↦{Transfers.shareTokN fullShare 267} f) ∗ (ℓ ↦{Transfers.shareTokN fullShare 266} f) ∗ (ℓ ↦{Transfers.shareTokN fullShare 265} f) ∗ (ℓ ↦{Transfers.shareTokN fullShare 264} f) ∗ (ℓ ↦{Transfers.shareTokN fullShare 263} f) ∗ (ℓ ↦{Transfers.shareTokN fullShare 262} f) ∗ (ℓ ↦{Transfers.shareTokN fullShare 261} f) ∗ (ℓ ↦{Transfers.shareTokN fullShare 260} f) ∗ (ℓ ↦{Transfers.shareTokN fullShare 259} f) ∗ (ℓ ↦{Transfers.shareTokN fullShare 258} f) ∗ (ℓ ↦{Transfers.shareTokN fullShare 257} f) ∗ (ℓ ↦{Transfers.shareTokN fullShare 256} f) ∗ (ℓ ↦{Transfers.shareTokN fullShare 255} f) ∗ (ℓ ↦{Transfers.shareTokN fullShare 254} f)
      ∗ BI.bigSep (Finset.range 254) fun k => ℓ ↦{Transfers.shareTokN fullShare k} f) :=
  toksAt14 f 254

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun14 (c : Dev nD) (i : grid14.Coords) (arg3 : Memref sig .tc .vmem S16x1 .f32) (harg3 : arg3.IsWhole) (arg4 : Memref sig .tc .vmem S16x262 .f32) (harg4 : arg4.IsWhole)
    (x0 : Vec F S16x1 .f32) (tb : HbBuf14 (F := F) c tbM14) (fh0 : HbBuf14 (F := F) c hbM14) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM14 fullShare d) ∗ sems14 c ∗ hbPt14 c hbM14 fh0 ∗ hbPt14 c tbM14 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM14 fullShare d) ∗ sems14 c ∗ hbPt14 c hbM14 fh0 ∗ hbPt14 c tbM14 tb ∗ (∃ W', owes (c : Thread nD τ) 0 W')) -∗ K ⟨⟩))
          ⊢ wp frame (wpE (defs₀ (F := F)) Variants.none c none) Set.univ (cc14_kernel i tbM14 (Memref.isWhole_whole _) hbM14 (Memref.isWhole_whole _) arg3 harg3 arg4 harg4 scM14 (Memref.isWhole_whole _) cc14_scratch1) K } := by
  have k14_hw1 : k14_chk1 (tbM14.view.readAt (Elt F) (Rect.unit (s := S50000) (k14_off1 i) S1.size (k14_off1_inb i)).toLoadRect tb (Shape.Idx.first (numel1_S1.symm ▸ Nat.one_pos))) := chk14_1_of_lt _ (hH _)
  have k14_hw2 : k14_chk2 (tbM14.view.readAt (Elt F) (Rect.unit (s := S50000) (k14_off3 i) S1.size (k14_off3_inb i)).toLoadRect tb (Shape.Idx.first (numel1_S1.symm ▸ Nat.one_pos))) := chk14_2_of_lt _ (hH _)
  have k14_hw3 : k14_chk3 (tbM14.view.readAt (Elt F) (Rect.unit (s := S50000) (k14_off5 i) S1.size (k14_off5_inb i)).toLoadRect tb (Shape.Idx.first (numel1_S1.symm ▸ Nat.one_pos))) := chk14_3_of_lt _ (hH _)
  have k14_hw4 : k14_chk4 (tbM14.view.readAt (Elt F) (Rect.unit (s := S50000) (k14_off7 i) S1.size (k14_off7_inb i)).toLoadRect tb (Shape.Idx.first (numel1_S1.symm ▸ Nat.one_pos))) := chk14_4_of_lt _ (hH _)
  have k14_hw5 : k14_chk5 (tbM14.view.readAt (Elt F) (Rect.unit (s := S50000) (k14_off9 i) S1.size (k14_off9_inb i)).toLoadRect tb (Shape.Idx.first (numel1_S1.symm ▸ Nat.one_pos))) := chk14_5_of_lt _ (hH _)
  have k14_hw6 : k14_chk6 (tbM14.view.readAt (Elt F) (Rect.unit (s := S50000) (k14_off11 i) S1.size (k14_off11_inb i)).toLoadRect tb (Shape.Idx.first (numel1_S1.symm ▸ Nat.one_pos))) := chk14_6_of_lt _ (hH _)
  have k14_hw7 : k14_chk7 (tbM14.view.readAt (Elt F) (Rect.unit (s := S50000) (k14_off13 i) S1.size (k14_off13_inb i)).toLoadRect tb (Shape.Idx.first (numel1_S1.symm ▸ Nat.one_pos))) := chk14_7_of_lt _ (hH _)
  have k14_hw8 : k14_chk8 (tbM14.view.readAt (Elt F) (Rect.unit (s := S50000) (k14_off15 i) S1.size (k14_off15_inb i)).toLoadRect tb (Shape.Idx.first (numel1_S1.symm ▸ Nat.one_pos))) := chk14_8_of_lt _ (hH _)
  have k14_hw9 : k14_chk9 (tbM14.view.readAt (Elt F) (Rect.unit (s := S50000) (k14_off17 i) S1.size (k14_off17_inb i)).toLoadRect tb (Shape.Idx.first (numel1_S1.symm ▸ Nat.one_pos))) := chk14_9_of_lt _ (hH _)
  have k14_hw10 : k14_chk10 (tbM14.view.readAt (Elt F) (Rect.unit (s := S50000) (k14_off19 i) S1.size (k14_off19_inb i)).toLoadRect tb (Shape.Idx.first (numel1_S1.symm ▸ Nat.one_pos))) := chk14_10_of_lt _ (hH _)
  have k14_hw11 : k14_chk11 (tbM14.view.readAt (Elt F) (Rect.unit (s := S50000) (k14_off21 i) S1.size (k14_off21_inb i)).toLoadRect tb (Shape.Idx.first (numel1_S1.symm ▸ Nat.one_pos))) := chk14_11_of_lt _ (hH _)
  have k14_hw12 : k14_chk12 (tbM14.view.readAt (Elt F) (Rect.unit (s := S50000) (k14_off23 i) S1.size (k14_off23_inb i)).toLoadRect tb (Shape.Idx.first (numel1_S1.symm ▸ Nat.one_pos))) := chk14_12_of_lt _ (hH _)
  have k14_hw13 : k14_chk13 (tbM14.view.readAt (Elt F) (Rect.unit (s := S50000) (k14_off25 i) S1.size (k14_off25_inb i)).toLoadRect tb (Shape.Idx.first (numel1_S1.symm ▸ Nat.one_pos))) := chk14_13_of_lt _ (hH _)
  have k14_hw14 : k14_chk14 (tbM14.view.readAt (Elt F) (Rect.unit (s := S50000) (k14_off27 i) S1.size (k14_off27_inb i)).toLoadRect tb (Shape.Idx.first (numel1_S1.symm ▸ Nat.one_pos))) := chk14_14_of_lt _ (hH _)
  have k14_hw15 : k14_chk15 (tbM14.view.readAt (Elt F) (Rect.unit (s := S50000) (k14_off29 i) S1.size (k14_off29_inb i)).toLoadRect tb (Shape.Idx.first (numel1_S1.symm ▸ Nat.one_pos))) := chk14_15_of_lt _ (hH _)
  have k14_hw16 : k14_chk16 (tbM14.view.readAt (Elt F) (Rect.unit (s := S50000) (k14_off31 i) S1.size (k14_off31_inb i)).toLoadRect tb (Shape.Idx.first (numel1_S1.symm ▸ Nat.one_pos))) := chk14_16_of_lt _ (hH _)
  refine ⟨?_, fun W K => ?run⟩
  case run =>
    simp only [cc14_kernel_eq_skeleton]; unfold cc14_kernel_skel
    simp only [k14_part7_eq_skeleton]; unfold k14_part7_skel
    simp only [k14_part1_eq_skeleton, k14_part2_eq_skeleton, k14_part3_eq_skeleton, k14_part4_eq_skeleton, k14_part5_eq_skeleton, k14_part6_eq_skeleton]
    unfold owns sems14
    iintro ⟨⟨%f0, %hf0, H0⟩, ⟨%d1, %f1, -, H14⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks14 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k14_hw1 | sl_exact k14_hw2 | sl_exact k14_hw3 | sl_exact k14_hw4 | sl_exact k14_hw5 | sl_exact k14_hw6 | sl_exact k14_hw7 | sl_exact k14_hw8 | sl_exact k14_hw9 | sl_exact k14_hw10 | sl_exact k14_hw11 | sl_exact k14_hw12 | sl_exact k14_hw13 | sl_exact k14_hw14 | sl_exact k14_hw15 | sl_exact k14_hw16)
    sl_step
    iapply Hk
    isplitl [H0]
    · iexists _; isplitr; · ipureintro; exact harg3.read_unread _
      iexact H0
    isplitl [H14]; · iexists _; iexact H14
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks14 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg14 (F := F)).Adm)

/-- Each window's current staging memref at point t, spelled as the pipeline passes it, and its wholeness. -/
abbrev ms14_0 (t : Fin (cfg14 a).N) : Memref sig .tc .vmem S16x1 .f32 := spec14_0.stage ((cfg14 a).slots t 0)
abbrev hs14_0 (t : Fin (cfg14 a).N) : (ms14_0 a t).IsWhole := hstage14_0 (((cfg14 a).slots t 0).cast nbuf14_0)
abbrev ms14_1 (t : Fin (cfg14 a).N) : Memref sig .tc .vmem S16x262 .f32 := spec14_1.stage ((cfg14 a).slots t 1)
abbrev hs14_1 (t : Fin (cfg14 a).N) : (ms14_1 a t).IsWhole := hstage14_1 (((cfg14 a).slots t 1).cast nbuf14_1)

/-- The kernel body at point t, on what the pipeline calls it with. -/
abbrev bodyAt14 (t : Fin (cfg14 a).N) : Prog (TpuEff nD τ sig (Elt F) Λ₀ .tc) PUnit :=
  cc14_kernel (grid14.coords t) tbM14 (Memref.isWhole_whole _) hbM14 (Memref.isWhole_whole _) (ms14_0 a t) (hs14_0 a t) (ms14_1 a t) (hs14_1 a t) scM14 (Memref.isWhole_whole _) cc14_scratch1

/-! ## The invariant, conjunct by conjunct -/

/-- The sixteen own cells at zero, listed. -/
theorem ownSems014_eq (c : Dev nD) :
    (Pipeline.ownSems0 (Ix := Unit) (Name := ℕ) (U := Pipeline.UD sig nD τ) (Lvl := ℕ) (Val := Elt F) (τ := τ) osem14 c : sProp 𝕄) = sems14 c := by
  rw [Pipeline.ownSems0_eq_of_list c osem14 [0, 1, 2, 3, 4, 5, 6, 7, 8, 9, 10, 11, 12, 13, 14, 15] (by decide) (by decide)]; rfl

/-- The gathered array's points-to at the region-entry contents. -/
theorem hbmPts14_eq (c : Dev nD) :
    (bigSep H14 (fun b => ((c : Thread nD τ).loc b) ↦{fullShare} V c b) : sProp 𝕄) = iprop(hbPt14 c hbM14 (V c main_v71)) := by
  rw [BI.bigSep_eq_bigSepL_of_eq [main_v71] (by decide) (by decide)]; rfl

/-- The row table, whole, at the contents the region is launched with. -/
theorem prefHeld14_eq (c : Dev nD) :
    (Pipeline.prefHeld (Ix := Unit) (Name := ℕ) (U := Pipeline.UD sig nD τ) (Lvl := ℕ) pre14 c (fun _ => fullShare) a.1 : sProp 𝕄) = iprop(hbPt14 c tbM14 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD14_eq (c : Dev nD) :
    (Pipeline.ΦD osem14 spec14 H14 V c : sProp 𝕄)
      = iprop(iprop((∃ d, owns (c : Thread nD τ) scM14 fullShare d) ∗ Pipeline.scopedRestBut (Ix := Unit) (Name := ℕ) (U := Pipeline.UD sig nD τ) (Lvl := ℕ) (Val := Elt F) spec14 c [cc14_scratch0])
          ∗ (∃ r, prngReg c r) ∗ sems14 c ∗ iprop(hbPt14 c hbM14 (V c main_v71))) := by
  rw [Pipeline.ΦD_eq, scopedRest14_split, ownSems014_eq, hbmPts14_eq]; simp only [scM14, owns_whole]; try rfl

/-! ## The windows' blocks -/

/-- Window w's block at point t, read off its array as the region finds it. -/
def iblk14 (c : Dev nD) (w : Fin (cfg14 a).W) (t : Fin (cfg14 a).N) : (((cfg14 a).win w).xblock ((cfg14 a).grid.coords t)).Idx → Elt F ((cfg14 a).win w).elt :=
  (((cfg14 a).win w).blk t).view.read (Elt F) (V c (Pipeline.arrRef spec14 w))

/-- Input window 0's current staging buffer holds its block at every point, fetched there or not. -/
theorem before14_0_of {c : Dev nD} (dat : Dat τ (Elt F) Unit ℕ (Pipeline.UD sig nD τ) ℕ (cfg14 a) c) (hA : dat.A 0 = V c (Pipeline.arrRef spec14 0))
    (hafter : ∀ t, dat.after 0 t = iblk14 V a c 0 t) (t : Fin (cfg14 a).N) (d) : dat.before 0 t d = iblk14 V a c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-! ## What the run leaves in the output window's buffer -/

/-- The run's pieces for the output tile its block, so they cover it. -/
theorem cover14_1 (c : Dev nD) (i : grid14.Coords) (arg3 : Memref sig .tc .vmem S16x1 .f32) (harg3 : arg3.IsWhole) (arg4 : Memref sig .tc .vmem S16x262 .f32) (harg4 : arg4.IsWhole)
    (x0 : Vec F S16x1 .f32) (tb : HbBuf14 (F := F) c tbM14) (fh0 : HbBuf14 (F := F) c hbM14) (hT : ∀ x, (tb x).toNat < 50000) (y : S16x262.Idx) :
    ∃ pc ∈ (kernelRun14 c i arg3 harg3 arg4 harg4 x0 tb fh0 hT).1, y ∈ pc.1.set :=
  View.cover_of_tiledL (kernelRun14 c i arg3 harg3 arg4 harg4 x0 tb fh0 hT).1 S16x262.size (by sl_kernel_rfl) y

/-- One staging buffer of the output window, through which its contents are stated. -/
abbrev VO14_1 : View sig .tc .vmem S16x262 .f32 := (Memref.whole cc14_stg1_0 : Memref sig .tc .vmem S16x262 .f32).view

/-- What the run leaves in the output's staging buffer: its pieces read back over junk. -/
def out14_1 (c : Dev nD) (i : grid14.Coords) (arg3 : Memref sig .tc .vmem S16x1 .f32) (harg3 : arg3.IsWhole) (arg4 : Memref sig .tc .vmem S16x262 .f32) (harg4 : arg4.IsWhole)
    (x0 : Vec F S16x1 .f32) (tb : HbBuf14 (F := F) c tbM14) (fh0 : HbBuf14 (F := F) c hbM14) (hT : ∀ x, (tb x).toNat < 50000) : Vec F S16x262 .f32 :=
  VO14_1.read (Elt F) (VO14_1.writes (Elt F) VO14_1.junk (kernelRun14 c i arg3 harg3 arg4 harg4 x0 tb fh0 hT).1)

/-- Every word of the table is a row of the gathered array, from the same of its words by position. -/
theorem tbl_lt14 (hH : ∀ j : Fin 50000, ((a.1 0) (ValueIdx.ix1 j)).toNat < 50000) (c : Dev nD) : ∀ x, (((a.1 0 : HbBuf14 (F := F) c tbM14)) x).toNat < 50000 :=
  fun x => by rw [ValueIdx.eq_ix1 x]; exact hH _

/-- What the output's staging buffer holds after the body at point t: the run's contents at the point's memrefs, the
    norm block, the table and the gathered array. -/
def outsAt14 (hH : ∀ j : Fin 50000, ((a.1 0) (ValueIdx.ix1 j)).toNat < 50000) (c : Dev nD) (t : Fin (cfg14 a).N) : Vec F S16x262 .f32 :=
  out14_1 c (grid14.coords t) (ms14_0 a t) (hs14_0 a t) (ms14_1 a t) (hs14_1 a t) (iblk14 V a c 0 t) (a.1 0) (V c main_v71) (tbl_lt14 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat14 (hH : ∀ j : Fin 50000, ((a.1 0) (ValueIdx.ix1 j)).toNat < 50000) (c : Dev nD) : Dat τ (Elt F) Unit ℕ (Pipeline.UD sig nD τ) ℕ (cfg14 a) c where
  A w := V c (Pipeline.arrRef spec14 w)
  after w t := match w with
    | ⟨0, _⟩ => iblk14 V a c 0 t
    | ⟨1, _⟩ => (outsAt14 V a hH c t)
  Φ _ := iprop(Pipeline.ΦD osem14 spec14 H14 V c ∗ Pipeline.prefHeld pre14 c (fun _ => fullShare) a.1)
  q _ := fullShare
  owed _ := 0

/-- The proof data's arrays are the region-entry contents. -/
theorem A_eq14 (hH : ∀ j : Fin 50000, ((a.1 0) (ValueIdx.ix1 j)).toNat < 50000) (c : Dev nD) (w : Fin (cfg14 a).W) : (dat14 V a hH c).A w = V c (Pipeline.arrRef spec14 w) := by
  dsimp only [dat14]

/-- What the body leaves, window by window. -/
theorem after14_0 (hH : ∀ j : Fin 50000, ((a.1 0) (ValueIdx.ix1 j)).toNat < 50000) (c : Dev nD) (t : Fin (cfg14 a).N) : (dat14 V a hH c).after 0 t = iblk14 V a c 0 t := by dsimp only [dat14]; try rfl
theorem after14_1 (hH : ∀ j : Fin 50000, ((a.1 0) (ValueIdx.ix1 j)).toNat < 50000) (c : Dev nD) (t : Fin (cfg14 a).N) : (dat14 V a hH c).after 1 t = (outsAt14 V a hH c t) := by dsimp only [dat14]; try rfl

/-- The input's current staging buffer holds its block at every point, fetched there or not. -/
theorem before14_0 (hH : ∀ j : Fin 50000, ((a.1 0) (ValueIdx.ix1 j)).toNat < 50000) (c : Dev nD) (t : Fin (cfg14 a).N) (d) : (dat14 V a hH c).before 0 t d = iblk14 V a c 0 t :=
  before14_0_of V a (dat14 V a hH c) (A_eq14 V a hH c 0) (after14_0 V a hH c) t d

/-! ## The body obligation, at a generic point -/

/-- What the body is called with at point t, the windows one by one, -/
def bodyPre14 (hH : ∀ j : Fin 50000, ((a.1 0) (ValueIdx.ix1 j)).toNat < 50000) (c : Dev nD) (t : Fin (cfg14 a).N) : sProp 𝕄 :=
  iprop((dat14 V a hH c).Φ t.castSucc ∗ (dat14 V a hH c).owesAt () t.castSucc
    ∗ (∃ d, owns (c : Thread nD τ) (ms14_0 a t) fullShare ((dat14 V a hH c).before 0 t d))
    ∗ (∃ d, owns (c : Thread nD τ) (ms14_1 a t) fullShare ((dat14 V a hH c).before 1 t d)))

/-- and what it returns. -/
def bodyPost14 (hH : ∀ j : Fin 50000, ((a.1 0) (ValueIdx.ix1 j)).toNat < 50000) (c : Dev nD) (t : Fin (cfg14 a).N) : sProp 𝕄 :=
  iprop((dat14 V a hH c).Φ t.succ ∗ (dat14 V a hH c).owesAt () t.succ
    ∗ owns (c : Thread nD τ) (ms14_0 a t) fullShare ((dat14 V a hH c).after 0 t)
    ∗ owns (c : Thread nD τ) (ms14_1 a t) fullShare ((dat14 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body14 (hH : ∀ j : Fin 50000, ((a.1 0) (ValueIdx.ix1 j)).toNat < 50000) (c : Dev nD) (t : Fin (cfg14 a).N) :
    bodyPre14 V a hH c t ⊢ wp frame (wpE (defs₀ (F := F)) Variants.none c none) Set.univ (bodyAt14 a t) (fun _ => bodyPost14 V a hH c t) := by
  unfold bodyPre14 bodyPost14 bodyAt14
  simp only [before14_0]
  rw [show (dat14 V a hH c).Φ t.succ = (dat14 V a hH c).Φ t.castSucc from rfl,
    after14_0, after14_1]
  rw [show (dat14 V a hH c).Φ t.castSucc = iprop(Pipeline.ΦD osem14 spec14 H14 V c ∗ Pipeline.prefHeld pre14 c (fun _ => fullShare) a.1) from rfl, PhiD14_eq, prefHeld14_eq]
  unfold Dat.owesAt Pipeline.owesWithin
  rw [show (dat14 V a hH c).owed t.castSucc = 0 from rfl, show (dat14 V a hH c).owed t.succ = 0 from rfl]
  unfold outsAt14
  unfold out14_1
  iintro ⟨⟨⟨⟨HS0, HSr⟩, Hg, Hq, Hh0⟩, HT⟩, ⟨%W, -, HW⟩, ⟨%d0, H0⟩, ⟨%d1, H14⟩⟩
  iapply ((kernelRun14 c (grid14.coords t) _ _ _ _ (iblk14 V a c 0 t) (a.1 0) (V c main_v71) (tbl_lt14 a hH c)).2 W _)
  isplitl [H0]; · iexact H0
  isplitl [H14]; · iexists _; iexact H14
  isplitl [HS0]; · iexact HS0
  isplitl [Hq]; · iexact Hq
  isplitl [Hh0]; · iexact Hh0
  isplitl [HT]; · iexact HT
  isplitl [HW]; · iexact HW
  iintro ⟨H0, ⟨%e1, H14⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H14
  ipureintro; exact View.read_writes_of_cover _ _ _ _ _ (cover14_1 c _ _ _ _ _ _ _ _ _)

/-- The library's body obligation, at every point. -/
theorem body_obligation14 (hH : ∀ j : Fin 50000, ((a.1 0) (ValueIdx.ix1 j)).toNat < 50000) (c : Dev nD) : BodyObligation (dat14 (F := F) V a hH c) (defs₀ (F := F)) Variants.none () Set.univ := fun t => by
  rw [bigSep_W14, bigSep_W14]
  exact sound_body14 V a hH c t

end Cert.Kernel.Hand

end
-- ==== Proof.Bits.G15.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 15 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem15 : Fin 16 → SemLoc sig := fun j =>
  (![SemLoc.dma 274, SemLoc.dma 275, SemLoc.dma 276, SemLoc.dma 277, SemLoc.dma 278, SemLoc.dma 279, SemLoc.dma 280, SemLoc.dma 281,
     SemLoc.dma 282, SemLoc.dma 283, SemLoc.dma 284, SemLoc.dma 285, SemLoc.dma 286, SemLoc.dma 287, SemLoc.dma 288, SemLoc.dma 289] : Fin 16 → SemLoc sig) j
theorem ownSemFacts15 : Pipeline.OwnSemFacts spec15 osem15 := by decide

/-- The HBM operand the body gathers rows from: unscoped, no window's array, no table. -/
def H15 : Finset (Ref sig .tc) := {main_v71}
theorem H15_sub : H15 ⊆ Pipeline.restRefsP sig pre15 spec15 := by decide

/-- The operands the pipeline does not stage, whole. -/
abbrev tbM15 : Memref sig .tc .smem S50000 .i32 := Memref.whole main_v85
abbrev hbM15 : Memref sig .tc .hbm S50000x262 .f32 := Memref.whole main_v71
abbrev scM15 : Memref sig .tc .vmem S16x262 .f32 := Memref.whole cc15_scratch0

/-- A whole memref's buffer on core `c`, and it held whole at `f`. -/
abbrev HbBuf15 (c : Dev nD) {sp : Space} {S : Shape} {e : EltTy} (M : Memref sig .tc sp S e) : Type := Buf (Elt F) (M.view.loc (c : Thread nD τ))
abbrev hbPt15 (c : Dev nD) {sp : Space} {S : Shape} {e : EltTy} (M : Memref sig .tc sp S e) (f : HbBuf15 (F := F) c M) : sProp 𝕄 :=
  M.view.loc (c : Thread nD τ) ↦{fullShare} f

/-- The sixteen own cells at zero. -/
abbrev sems15 (c : Dev nD) : sProp 𝕄 :=
  iprop(semVal ((c : Thread nD τ), SemLoc.dma 274) 0 ∗ semVal ((c : Thread nD τ), SemLoc.dma 275) 0 ∗ semVal ((c : Thread nD τ), SemLoc.dma 276) 0 ∗ semVal ((c : Thread nD τ), SemLoc.dma 277) 0 ∗ semVal ((c : Thread nD τ), SemLoc.dma 278) 0 ∗ semVal ((c : Thread nD τ), SemLoc.dma 279) 0 ∗ semVal ((c : Thread nD τ), SemLoc.dma 280) 0 ∗ semVal ((c : Thread nD τ), SemLoc.dma 281) 0 ∗ semVal ((c : Thread nD τ), SemLoc.dma 282) 0 ∗ semVal ((c : Thread nD τ), SemLoc.dma 283) 0 ∗ semVal ((c : Thread nD τ), SemLoc.dma 284) 0 ∗ semVal ((c : Thread nD τ), SemLoc.dma 285) 0 ∗ semVal ((c : Thread nD τ), SemLoc.dma 286) 0 ∗ semVal ((c : Thread nD τ), SemLoc.dma 287) 0 ∗ semVal ((c : Thread nD τ), SemLoc.dma 288) 0 ∗ semVal ((c : Thread nD τ), SemLoc.dma 289) 0)

/-- A row index inside the gathered array puts the one-row slice inside it. -/
theorem row_inb15 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk15_1_of_lt (w : BitVec 32) (h : w.toNat < 50000) : k15_chk1 w := ⟨row_inb15 w h, row_inb15 w h⟩
theorem chk15_2_of_lt (w : BitVec 32) (h : w.toNat < 50000) : k15_chk2 w := ⟨row_inb15 w h, row_inb15 w h⟩
theorem chk15_3_of_lt (w : BitVec 32) (h : w.toNat < 50000) : k15_chk3 w := ⟨row_inb15 w h, row_inb15 w h⟩
theorem chk15_4_of_lt (w : BitVec 32) (h : w.toNat < 50000) : k15_chk4 w := ⟨row_inb15 w h, row_inb15 w h⟩
theorem chk15_5_of_lt (w : BitVec 32) (h : w.toNat < 50000) : k15_chk5 w := ⟨row_inb15 w h, row_inb15 w h⟩
theorem chk15_6_of_lt (w : BitVec 32) (h : w.toNat < 50000) : k15_chk6 w := ⟨row_inb15 w h, row_inb15 w h⟩
theorem chk15_7_of_lt (w : BitVec 32) (h : w.toNat < 50000) : k15_chk7 w := ⟨row_inb15 w h, row_inb15 w h⟩
theorem chk15_8_of_lt (w : BitVec 32) (h : w.toNat < 50000) : k15_chk8 w := ⟨row_inb15 w h, row_inb15 w h⟩
theorem chk15_9_of_lt (w : BitVec 32) (h : w.toNat < 50000) : k15_chk9 w := ⟨row_inb15 w h, row_inb15 w h⟩
theorem chk15_10_of_lt (w : BitVec 32) (h : w.toNat < 50000) : k15_chk10 w := ⟨row_inb15 w h, row_inb15 w h⟩
theorem chk15_11_of_lt (w : BitVec 32) (h : w.toNat < 50000) : k15_chk11 w := ⟨row_inb15 w h, row_inb15 w h⟩
theorem chk15_12_of_lt (w : BitVec 32) (h : w.toNat < 50000) : k15_chk12 w := ⟨row_inb15 w h, row_inb15 w h⟩
theorem chk15_13_of_lt (w : BitVec 32) (h : w.toNat < 50000) : k15_chk13 w := ⟨row_inb15 w h, row_inb15 w h⟩
theorem chk15_14_of_lt (w : BitVec 32) (h : w.toNat < 50000) : k15_chk14 w := ⟨row_inb15 w h, row_inb15 w h⟩
theorem chk15_15_of_lt (w : BitVec 32) (h : w.toNat < 50000) : k15_chk15 w := ⟨row_inb15 w h, row_inb15 w h⟩
theorem chk15_16_of_lt (w : BitVec 32) (h : w.toNat < 50000) : k15_chk16 w := row_inb15 w h

/-- A whole points-to as what stays behind, sixteen read tokens numbered `b + 15` down to `b`, and the tokens below
    `b` kept as one family. -/
theorem toksAt15 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 274 … 289. -/
theorem toks15 {ℓ : Loc nD τ sig} (f : Buf (Elt F) ℓ) :
    (ℓ ↦{fullShare} f : sProp 𝕄) ⊣⊢ iprop((ℓ ↦{Transfers.shareDrop fullShare 290} f) ∗ (ℓ ↦{Transfers.shareTokN fullShare 289} f) ∗ (ℓ ↦{Transfers.shareTokN fullShare 288} f) ∗ (ℓ ↦{Transfers.shareTokN fullShare 287} f) ∗ (ℓ ↦{Transfers.shareTokN fullShare 286} f) ∗ (ℓ ↦{Transfers.shareTokN fullShare 285} f) ∗ (ℓ ↦{Transfers.shareTokN fullShare 284} f) ∗ (ℓ ↦{Transfers.shareTokN fullShare 283} f) ∗ (ℓ ↦{Transfers.shareTokN fullShare 282} f) ∗ (ℓ ↦{Transfers.shareTokN fullShare 281} f) ∗ (ℓ ↦{Transfers.shareTokN fullShare 280} f) ∗ (ℓ ↦{Transfers.shareTokN fullShare 279} f) ∗ (ℓ ↦{Transfers.shareTokN fullShare 278} f) ∗ (ℓ ↦{Transfers.shareTokN fullShare 277} f) ∗ (ℓ ↦{Transfers.shareTokN fullShare 276} f) ∗ (ℓ ↦{Transfers.shareTokN fullShare 275} f) ∗ (ℓ ↦{Transfers.shareTokN fullShare 274} f)
      ∗ BI.bigSep (Finset.range 274) fun k => ℓ ↦{Transfers.shareTokN fullShare k} f) :=
  toksAt15 f 274

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun15 (c : Dev nD) (i : grid15.Coords) (arg3 : Memref sig .tc .vmem S16x1 .f32) (harg3 : arg3.IsWhole) (arg4 : Memref sig .tc .vmem S16x262 .f32) (harg4 : arg4.IsWhole)
    (x0 : Vec F S16x1 .f32) (tb : HbBuf15 (F := F) c tbM15) (fh0 : HbBuf15 (F := F) c hbM15) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM15 fullShare d) ∗ sems15 c ∗ hbPt15 c hbM15 fh0 ∗ hbPt15 c tbM15 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM15 fullShare d) ∗ sems15 c ∗ hbPt15 c hbM15 fh0 ∗ hbPt15 c tbM15 tb ∗ (∃ W', owes (c : Thread nD τ) 0 W')) -∗ K ⟨⟩))
          ⊢ wp frame (wpE (defs₀ (F := F)) Variants.none c none) Set.univ (cc15_kernel i tbM15 (Memref.isWhole_whole _) hbM15 (Memref.isWhole_whole _) arg3 harg3 arg4 harg4 scM15 (Memref.isWhole_whole _) cc15_scratch1) K } := by
  have k15_hw1 : k15_chk1 (tbM15.view.readAt (Elt F) (Rect.unit (s := S50000) (k15_off1 i) S1.size (k15_off1_inb i)).toLoadRect tb (Shape.Idx.first (numel1_S1.symm ▸ Nat.one_pos))) := chk15_1_of_lt _ (hH _)
  have k15_hw2 : k15_chk2 (tbM15.view.readAt (Elt F) (Rect.unit (s := S50000) (k15_off3 i) S1.size (k15_off3_inb i)).toLoadRect tb (Shape.Idx.first (numel1_S1.symm ▸ Nat.one_pos))) := chk15_2_of_lt _ (hH _)
  have k15_hw3 : k15_chk3 (tbM15.view.readAt (Elt F) (Rect.unit (s := S50000) (k15_off5 i) S1.size (k15_off5_inb i)).toLoadRect tb (Shape.Idx.first (numel1_S1.symm ▸ Nat.one_pos))) := chk15_3_of_lt _ (hH _)
  have k15_hw4 : k15_chk4 (tbM15.view.readAt (Elt F) (Rect.unit (s := S50000) (k15_off7 i) S1.size (k15_off7_inb i)).toLoadRect tb (Shape.Idx.first (numel1_S1.symm ▸ Nat.one_pos))) := chk15_4_of_lt _ (hH _)
  have k15_hw5 : k15_chk5 (tbM15.view.readAt (Elt F) (Rect.unit (s := S50000) (k15_off9 i) S1.size (k15_off9_inb i)).toLoadRect tb (Shape.Idx.first (numel1_S1.symm ▸ Nat.one_pos))) := chk15_5_of_lt _ (hH _)
  have k15_hw6 : k15_chk6 (tbM15.view.readAt (Elt F) (Rect.unit (s := S50000) (k15_off11 i) S1.size (k15_off11_inb i)).toLoadRect tb (Shape.Idx.first (numel1_S1.symm ▸ Nat.one_pos))) := chk15_6_of_lt _ (hH _)
  have k15_hw7 : k15_chk7 (tbM15.view.readAt (Elt F) (Rect.unit (s := S50000) (k15_off13 i) S1.size (k15_off13_inb i)).toLoadRect tb (Shape.Idx.first (numel1_S1.symm ▸ Nat.one_pos))) := chk15_7_of_lt _ (hH _)
  have k15_hw8 : k15_chk8 (tbM15.view.readAt (Elt F) (Rect.unit (s := S50000) (k15_off15 i) S1.size (k15_off15_inb i)).toLoadRect tb (Shape.Idx.first (numel1_S1.symm ▸ Nat.one_pos))) := chk15_8_of_lt _ (hH _)
  have k15_hw9 : k15_chk9 (tbM15.view.readAt (Elt F) (Rect.unit (s := S50000) (k15_off17 i) S1.size (k15_off17_inb i)).toLoadRect tb (Shape.Idx.first (numel1_S1.symm ▸ Nat.one_pos))) := chk15_9_of_lt _ (hH _)
  have k15_hw10 : k15_chk10 (tbM15.view.readAt (Elt F) (Rect.unit (s := S50000) (k15_off19 i) S1.size (k15_off19_inb i)).toLoadRect tb (Shape.Idx.first (numel1_S1.symm ▸ Nat.one_pos))) := chk15_10_of_lt _ (hH _)
  have k15_hw11 : k15_chk11 (tbM15.view.readAt (Elt F) (Rect.unit (s := S50000) (k15_off21 i) S1.size (k15_off21_inb i)).toLoadRect tb (Shape.Idx.first (numel1_S1.symm ▸ Nat.one_pos))) := chk15_11_of_lt _ (hH _)
  have k15_hw12 : k15_chk12 (tbM15.view.readAt (Elt F) (Rect.unit (s := S50000) (k15_off23 i) S1.size (k15_off23_inb i)).toLoadRect tb (Shape.Idx.first (numel1_S1.symm ▸ Nat.one_pos))) := chk15_12_of_lt _ (hH _)
  have k15_hw13 : k15_chk13 (tbM15.view.readAt (Elt F) (Rect.unit (s := S50000) (k15_off25 i) S1.size (k15_off25_inb i)).toLoadRect tb (Shape.Idx.first (numel1_S1.symm ▸ Nat.one_pos))) := chk15_13_of_lt _ (hH _)
  have k15_hw14 : k15_chk14 (tbM15.view.readAt (Elt F) (Rect.unit (s := S50000) (k15_off27 i) S1.size (k15_off27_inb i)).toLoadRect tb (Shape.Idx.first (numel1_S1.symm ▸ Nat.one_pos))) := chk15_14_of_lt _ (hH _)
  have k15_hw15 : k15_chk15 (tbM15.view.readAt (Elt F) (Rect.unit (s := S50000) (k15_off29 i) S1.size (k15_off29_inb i)).toLoadRect tb (Shape.Idx.first (numel1_S1.symm ▸ Nat.one_pos))) := chk15_15_of_lt _ (hH _)
  have k15_hw16 : k15_chk16 (tbM15.view.readAt (Elt F) (Rect.unit (s := S50000) (k15_off31 i) S1.size (k15_off31_inb i)).toLoadRect tb (Shape.Idx.first (numel1_S1.symm ▸ Nat.one_pos))) := chk15_16_of_lt _ (hH _)
  refine ⟨?_, fun W K => ?run⟩
  case run =>
    simp only [cc15_kernel_eq_skeleton]; unfold cc15_kernel_skel
    simp only [k15_part7_eq_skeleton]; unfold k15_part7_skel
    simp only [k15_part1_eq_skeleton, k15_part2_eq_skeleton, k15_part3_eq_skeleton, k15_part4_eq_skeleton, k15_part5_eq_skeleton, k15_part6_eq_skeleton]
    unfold owns sems15
    iintro ⟨⟨%f0, %hf0, H0⟩, ⟨%d1, %f1, -, H15⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks15 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k15_hw1 | sl_exact k15_hw2 | sl_exact k15_hw3 | sl_exact k15_hw4 | sl_exact k15_hw5 | sl_exact k15_hw6 | sl_exact k15_hw7 | sl_exact k15_hw8 | sl_exact k15_hw9 | sl_exact k15_hw10 | sl_exact k15_hw11 | sl_exact k15_hw12 | sl_exact k15_hw13 | sl_exact k15_hw14 | sl_exact k15_hw15 | sl_exact k15_hw16)
    sl_step
    iapply Hk
    isplitl [H0]
    · iexists _; isplitr; · ipureintro; exact harg3.read_unread _
      iexact H0
    isplitl [H15]; · iexists _; iexact H15
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks15 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg15 (F := F)).Adm)

/-- Each window's current staging memref at point t, spelled as the pipeline passes it, and its wholeness. -/
abbrev ms15_0 (t : Fin (cfg15 a).N) : Memref sig .tc .vmem S16x1 .f32 := spec15_0.stage ((cfg15 a).slots t 0)
abbrev hs15_0 (t : Fin (cfg15 a).N) : (ms15_0 a t).IsWhole := hstage15_0 (((cfg15 a).slots t 0).cast nbuf15_0)
abbrev ms15_1 (t : Fin (cfg15 a).N) : Memref sig .tc .vmem S16x262 .f32 := spec15_1.stage ((cfg15 a).slots t 1)
abbrev hs15_1 (t : Fin (cfg15 a).N) : (ms15_1 a t).IsWhole := hstage15_1 (((cfg15 a).slots t 1).cast nbuf15_1)

/-- The kernel body at point t, on what the pipeline calls it with. -/
abbrev bodyAt15 (t : Fin (cfg15 a).N) : Prog (TpuEff nD τ sig (Elt F) Λ₀ .tc) PUnit :=
  cc15_kernel (grid15.coords t) tbM15 (Memref.isWhole_whole _) hbM15 (Memref.isWhole_whole _) (ms15_0 a t) (hs15_0 a t) (ms15_1 a t) (hs15_1 a t) scM15 (Memref.isWhole_whole _) cc15_scratch1

/-! ## The invariant, conjunct by conjunct -/

/-- The sixteen own cells at zero, listed. -/
theorem ownSems015_eq (c : Dev nD) :
    (Pipeline.ownSems0 (Ix := Unit) (Name := ℕ) (U := Pipeline.UD sig nD τ) (Lvl := ℕ) (Val := Elt F) (τ := τ) osem15 c : sProp 𝕄) = sems15 c := by
  rw [Pipeline.ownSems0_eq_of_list c osem15 [0, 1, 2, 3, 4, 5, 6, 7, 8, 9, 10, 11, 12, 13, 14, 15] (by decide) (by decide)]; rfl

/-- The gathered array's points-to at the region-entry contents. -/
theorem hbmPts15_eq (c : Dev nD) :
    (bigSep H15 (fun b => ((c : Thread nD τ).loc b) ↦{fullShare} V c b) : sProp 𝕄) = iprop(hbPt15 c hbM15 (V c main_v71)) := by
  rw [BI.bigSep_eq_bigSepL_of_eq [main_v71] (by decide) (by decide)]; rfl

/-- The row table, whole, at the contents the region is launched with. -/
theorem prefHeld15_eq (c : Dev nD) :
    (Pipeline.prefHeld (Ix := Unit) (Name := ℕ) (U := Pipeline.UD sig nD τ) (Lvl := ℕ) pre15 c (fun _ => fullShare) a.1 : sProp 𝕄) = iprop(hbPt15 c tbM15 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD15_eq (c : Dev nD) :
    (Pipeline.ΦD osem15 spec15 H15 V c : sProp 𝕄)
      = iprop(iprop((∃ d, owns (c : Thread nD τ) scM15 fullShare d) ∗ Pipeline.scopedRestBut (Ix := Unit) (Name := ℕ) (U := Pipeline.UD sig nD τ) (Lvl := ℕ) (Val := Elt F) spec15 c [cc15_scratch0])
          ∗ (∃ r, prngReg c r) ∗ sems15 c ∗ iprop(hbPt15 c hbM15 (V c main_v71))) := by
  rw [Pipeline.ΦD_eq, scopedRest15_split, ownSems015_eq, hbmPts15_eq]; simp only [scM15, owns_whole]; try rfl

/-! ## The windows' blocks -/

/-- Window w's block at point t, read off its array as the region finds it. -/
def iblk15 (c : Dev nD) (w : Fin (cfg15 a).W) (t : Fin (cfg15 a).N) : (((cfg15 a).win w).xblock ((cfg15 a).grid.coords t)).Idx → Elt F ((cfg15 a).win w).elt :=
  (((cfg15 a).win w).blk t).view.read (Elt F) (V c (Pipeline.arrRef spec15 w))

/-- Input window 0's current staging buffer holds its block at every point, fetched there or not. -/
theorem before15_0_of {c : Dev nD} (dat : Dat τ (Elt F) Unit ℕ (Pipeline.UD sig nD τ) ℕ (cfg15 a) c) (hA : dat.A 0 = V c (Pipeline.arrRef spec15 0))
    (hafter : ∀ t, dat.after 0 t = iblk15 V a c 0 t) (t : Fin (cfg15 a).N) (d) : dat.before 0 t d = iblk15 V a c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-! ## What the run leaves in the output window's buffer -/

/-- The run's pieces for the output tile its block, so they cover it. -/
theorem cover15_1 (c : Dev nD) (i : grid15.Coords) (arg3 : Memref sig .tc .vmem S16x1 .f32) (harg3 : arg3.IsWhole) (arg4 : Memref sig .tc .vmem S16x262 .f32) (harg4 : arg4.IsWhole)
    (x0 : Vec F S16x1 .f32) (tb : HbBuf15 (F := F) c tbM15) (fh0 : HbBuf15 (F := F) c hbM15) (hT : ∀ x, (tb x).toNat < 50000) (y : S16x262.Idx) :
    ∃ pc ∈ (kernelRun15 c i arg3 harg3 arg4 harg4 x0 tb fh0 hT).1, y ∈ pc.1.set :=
  View.cover_of_tiledL (kernelRun15 c i arg3 harg3 arg4 harg4 x0 tb fh0 hT).1 S16x262.size (by sl_kernel_rfl) y

/-- One staging buffer of the output window, through which its contents are stated. -/
abbrev VO15_1 : View sig .tc .vmem S16x262 .f32 := (Memref.whole cc15_stg1_0 : Memref sig .tc .vmem S16x262 .f32).view

/-- What the run leaves in the output's staging buffer: its pieces read back over junk. -/
def out15_1 (c : Dev nD) (i : grid15.Coords) (arg3 : Memref sig .tc .vmem S16x1 .f32) (harg3 : arg3.IsWhole) (arg4 : Memref sig .tc .vmem S16x262 .f32) (harg4 : arg4.IsWhole)
    (x0 : Vec F S16x1 .f32) (tb : HbBuf15 (F := F) c tbM15) (fh0 : HbBuf15 (F := F) c hbM15) (hT : ∀ x, (tb x).toNat < 50000) : Vec F S16x262 .f32 :=
  VO15_1.read (Elt F) (VO15_1.writes (Elt F) VO15_1.junk (kernelRun15 c i arg3 harg3 arg4 harg4 x0 tb fh0 hT).1)

/-- Every word of the table is a row of the gathered array, from the same of its words by position. -/
theorem tbl_lt15 (hH : ∀ j : Fin 50000, ((a.1 0) (ValueIdx.ix1 j)).toNat < 50000) (c : Dev nD) : ∀ x, (((a.1 0 : HbBuf15 (F := F) c tbM15)) x).toNat < 50000 :=
  fun x => by rw [ValueIdx.eq_ix1 x]; exact hH _

/-- What the output's staging buffer holds after the body at point t: the run's contents at the point's memrefs, the
    norm block, the table and the gathered array. -/
def outsAt15 (hH : ∀ j : Fin 50000, ((a.1 0) (ValueIdx.ix1 j)).toNat < 50000) (c : Dev nD) (t : Fin (cfg15 a).N) : Vec F S16x262 .f32 :=
  out15_1 c (grid15.coords t) (ms15_0 a t) (hs15_0 a t) (ms15_1 a t) (hs15_1 a t) (iblk15 V a c 0 t) (a.1 0) (V c main_v71) (tbl_lt15 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat15 (hH : ∀ j : Fin 50000, ((a.1 0) (ValueIdx.ix1 j)).toNat < 50000) (c : Dev nD) : Dat τ (Elt F) Unit ℕ (Pipeline.UD sig nD τ) ℕ (cfg15 a) c where
  A w := V c (Pipeline.arrRef spec15 w)
  after w t := match w with
    | ⟨0, _⟩ => iblk15 V a c 0 t
    | ⟨1, _⟩ => (outsAt15 V a hH c t)
  Φ _ := iprop(Pipeline.ΦD osem15 spec15 H15 V c ∗ Pipeline.prefHeld pre15 c (fun _ => fullShare) a.1)
  q _ := fullShare
  owed _ := 0

/-- The proof data's arrays are the region-entry contents. -/
theorem A_eq15 (hH : ∀ j : Fin 50000, ((a.1 0) (ValueIdx.ix1 j)).toNat < 50000) (c : Dev nD) (w : Fin (cfg15 a).W) : (dat15 V a hH c).A w = V c (Pipeline.arrRef spec15 w) := by
  dsimp only [dat15]

/-- What the body leaves, window by window. -/
theorem after15_0 (hH : ∀ j : Fin 50000, ((a.1 0) (ValueIdx.ix1 j)).toNat < 50000) (c : Dev nD) (t : Fin (cfg15 a).N) : (dat15 V a hH c).after 0 t = iblk15 V a c 0 t := by dsimp only [dat15]; try rfl
theorem after15_1 (hH : ∀ j : Fin 50000, ((a.1 0) (ValueIdx.ix1 j)).toNat < 50000) (c : Dev nD) (t : Fin (cfg15 a).N) : (dat15 V a hH c).after 1 t = (outsAt15 V a hH c t) := by dsimp only [dat15]; try rfl

/-- The input's current staging buffer holds its block at every point, fetched there or not. -/
theorem before15_0 (hH : ∀ j : Fin 50000, ((a.1 0) (ValueIdx.ix1 j)).toNat < 50000) (c : Dev nD) (t : Fin (cfg15 a).N) (d) : (dat15 V a hH c).before 0 t d = iblk15 V a c 0 t :=
  before15_0_of V a (dat15 V a hH c) (A_eq15 V a hH c 0) (after15_0 V a hH c) t d

/-! ## The body obligation, at a generic point -/

/-- What the body is called with at point t, the windows one by one, -/
def bodyPre15 (hH : ∀ j : Fin 50000, ((a.1 0) (ValueIdx.ix1 j)).toNat < 50000) (c : Dev nD) (t : Fin (cfg15 a).N) : sProp 𝕄 :=
  iprop((dat15 V a hH c).Φ t.castSucc ∗ (dat15 V a hH c).owesAt () t.castSucc
    ∗ (∃ d, owns (c : Thread nD τ) (ms15_0 a t) fullShare ((dat15 V a hH c).before 0 t d))
    ∗ (∃ d, owns (c : Thread nD τ) (ms15_1 a t) fullShare ((dat15 V a hH c).before 1 t d)))

/-- and what it returns. -/
def bodyPost15 (hH : ∀ j : Fin 50000, ((a.1 0) (ValueIdx.ix1 j)).toNat < 50000) (c : Dev nD) (t : Fin (cfg15 a).N) : sProp 𝕄 :=
  iprop((dat15 V a hH c).Φ t.succ ∗ (dat15 V a hH c).owesAt () t.succ
    ∗ owns (c : Thread nD τ) (ms15_0 a t) fullShare ((dat15 V a hH c).after 0 t)
    ∗ owns (c : Thread nD τ) (ms15_1 a t) fullShare ((dat15 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body15 (hH : ∀ j : Fin 50000, ((a.1 0) (ValueIdx.ix1 j)).toNat < 50000) (c : Dev nD) (t : Fin (cfg15 a).N) :
    bodyPre15 V a hH c t ⊢ wp frame (wpE (defs₀ (F := F)) Variants.none c none) Set.univ (bodyAt15 a t) (fun _ => bodyPost15 V a hH c t) := by
  unfold bodyPre15 bodyPost15 bodyAt15
  simp only [before15_0]
  rw [show (dat15 V a hH c).Φ t.succ = (dat15 V a hH c).Φ t.castSucc from rfl,
    after15_0, after15_1]
  rw [show (dat15 V a hH c).Φ t.castSucc = iprop(Pipeline.ΦD osem15 spec15 H15 V c ∗ Pipeline.prefHeld pre15 c (fun _ => fullShare) a.1) from rfl, PhiD15_eq, prefHeld15_eq]
  unfold Dat.owesAt Pipeline.owesWithin
  rw [show (dat15 V a hH c).owed t.castSucc = 0 from rfl, show (dat15 V a hH c).owed t.succ = 0 from rfl]
  unfold outsAt15
  unfold out15_1
  iintro ⟨⟨⟨⟨HS0, HSr⟩, Hg, Hq, Hh0⟩, HT⟩, ⟨%W, -, HW⟩, ⟨%d0, H0⟩, ⟨%d1, H15⟩⟩
  iapply ((kernelRun15 c (grid15.coords t) _ _ _ _ (iblk15 V a c 0 t) (a.1 0) (V c main_v71) (tbl_lt15 a hH c)).2 W _)
  isplitl [H0]; · iexact H0
  isplitl [H15]; · iexists _; iexact H15
  isplitl [HS0]; · iexact HS0
  isplitl [Hq]; · iexact Hq
  isplitl [Hh0]; · iexact Hh0
  isplitl [HT]; · iexact HT
  isplitl [HW]; · iexact HW
  iintro ⟨H0, ⟨%e1, H15⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H15
  ipureintro; exact View.read_writes_of_cover _ _ _ _ _ (cover15_1 c _ _ _ _ _ _ _ _ _)

/-- The library's body obligation, at every point. -/
theorem body_obligation15 (hH : ∀ j : Fin 50000, ((a.1 0) (ValueIdx.ix1 j)).toNat < 50000) (c : Dev nD) : BodyObligation (dat15 (F := F) V a hH c) (defs₀ (F := F)) Variants.none () Set.univ := fun t => by
  rw [bigSep_W15, bigSep_W15]
  exact sound_body15 V a hH c t

end Cert.Kernel.Hand

end
-- ==== Proof.Bits.G16.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 16 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem16 : Fin 16 → SemLoc sig := fun j =>
  (![SemLoc.dma 294, SemLoc.dma 295, SemLoc.dma 296, SemLoc.dma 297, SemLoc.dma 298, SemLoc.dma 299, SemLoc.dma 300, SemLoc.dma 301,
     SemLoc.dma 302, SemLoc.dma 303, SemLoc.dma 304, SemLoc.dma 305, SemLoc.dma 306, SemLoc.dma 307, SemLoc.dma 308, SemLoc.dma 309] : Fin 16 → SemLoc sig) j
theorem ownSemFacts16 : Pipeline.OwnSemFacts spec16 osem16 := by decide

/-- The HBM operand the body gathers rows from: unscoped, no window's array, no table. -/
def H16 : Finset (Ref sig .tc) := {main_v71}
theorem H16_sub : H16 ⊆ Pipeline.restRefsP sig pre16 spec16 := by decide

/-- The operands the pipeline does not stage, whole. -/
abbrev tbM16 : Memref sig .tc .smem S50000 .i32 := Memref.whole main_v88
abbrev hbM16 : Memref sig .tc .hbm S50000x262 .f32 := Memref.whole main_v71
abbrev scM16 : Memref sig .tc .vmem S16x262 .f32 := Memref.whole cc16_scratch0

/-- A whole memref's buffer on core `c`, and it held whole at `f`. -/
abbrev HbBuf16 (c : Dev nD) {sp : Space} {S : Shape} {e : EltTy} (M : Memref sig .tc sp S e) : Type := Buf (Elt F) (M.view.loc (c : Thread nD τ))
abbrev hbPt16 (c : Dev nD) {sp : Space} {S : Shape} {e : EltTy} (M : Memref sig .tc sp S e) (f : HbBuf16 (F := F) c M) : sProp 𝕄 :=
  M.view.loc (c : Thread nD τ) ↦{fullShare} f

/-- The sixteen own cells at zero. -/
abbrev sems16 (c : Dev nD) : sProp 𝕄 :=
  iprop(semVal ((c : Thread nD τ), SemLoc.dma 294) 0 ∗ semVal ((c : Thread nD τ), SemLoc.dma 295) 0 ∗ semVal ((c : Thread nD τ), SemLoc.dma 296) 0 ∗ semVal ((c : Thread nD τ), SemLoc.dma 297) 0 ∗ semVal ((c : Thread nD τ), SemLoc.dma 298) 0 ∗ semVal ((c : Thread nD τ), SemLoc.dma 299) 0 ∗ semVal ((c : Thread nD τ), SemLoc.dma 300) 0 ∗ semVal ((c : Thread nD τ), SemLoc.dma 301) 0 ∗ semVal ((c : Thread nD τ), SemLoc.dma 302) 0 ∗ semVal ((c : Thread nD τ), SemLoc.dma 303) 0 ∗ semVal ((c : Thread nD τ), SemLoc.dma 304) 0 ∗ semVal ((c : Thread nD τ), SemLoc.dma 305) 0 ∗ semVal ((c : Thread nD τ), SemLoc.dma 306) 0 ∗ semVal ((c : Thread nD τ), SemLoc.dma 307) 0 ∗ semVal ((c : Thread nD τ), SemLoc.dma 308) 0 ∗ semVal ((c : Thread nD τ), SemLoc.dma 309) 0)

/-- A row index inside the gathered array puts the one-row slice inside it. -/
theorem row_inb16 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk16_1_of_lt (w : BitVec 32) (h : w.toNat < 50000) : k16_chk1 w := ⟨row_inb16 w h, row_inb16 w h⟩
theorem chk16_2_of_lt (w : BitVec 32) (h : w.toNat < 50000) : k16_chk2 w := ⟨row_inb16 w h, row_inb16 w h⟩
theorem chk16_3_of_lt (w : BitVec 32) (h : w.toNat < 50000) : k16_chk3 w := ⟨row_inb16 w h, row_inb16 w h⟩
theorem chk16_4_of_lt (w : BitVec 32) (h : w.toNat < 50000) : k16_chk4 w := ⟨row_inb16 w h, row_inb16 w h⟩
theorem chk16_5_of_lt (w : BitVec 32) (h : w.toNat < 50000) : k16_chk5 w := ⟨row_inb16 w h, row_inb16 w h⟩
theorem chk16_6_of_lt (w : BitVec 32) (h : w.toNat < 50000) : k16_chk6 w := ⟨row_inb16 w h, row_inb16 w h⟩
theorem chk16_7_of_lt (w : BitVec 32) (h : w.toNat < 50000) : k16_chk7 w := ⟨row_inb16 w h, row_inb16 w h⟩
theorem chk16_8_of_lt (w : BitVec 32) (h : w.toNat < 50000) : k16_chk8 w := ⟨row_inb16 w h, row_inb16 w h⟩
theorem chk16_9_of_lt (w : BitVec 32) (h : w.toNat < 50000) : k16_chk9 w := ⟨row_inb16 w h, row_inb16 w h⟩
theorem chk16_10_of_lt (w : BitVec 32) (h : w.toNat < 50000) : k16_chk10 w := ⟨row_inb16 w h, row_inb16 w h⟩
theorem chk16_11_of_lt (w : BitVec 32) (h : w.toNat < 50000) : k16_chk11 w := ⟨row_inb16 w h, row_inb16 w h⟩
theorem chk16_12_of_lt (w : BitVec 32) (h : w.toNat < 50000) : k16_chk12 w := ⟨row_inb16 w h, row_inb16 w h⟩
theorem chk16_13_of_lt (w : BitVec 32) (h : w.toNat < 50000) : k16_chk13 w := ⟨row_inb16 w h, row_inb16 w h⟩
theorem chk16_14_of_lt (w : BitVec 32) (h : w.toNat < 50000) : k16_chk14 w := ⟨row_inb16 w h, row_inb16 w h⟩
theorem chk16_15_of_lt (w : BitVec 32) (h : w.toNat < 50000) : k16_chk15 w := ⟨row_inb16 w h, row_inb16 w h⟩
theorem chk16_16_of_lt (w : BitVec 32) (h : w.toNat < 50000) : k16_chk16 w := row_inb16 w h

/-- A whole points-to as what stays behind, sixteen read tokens numbered `b + 15` down to `b`, and the tokens below
    `b` kept as one family. -/
theorem toksAt16 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 294 … 309. -/
theorem toks16 {ℓ : Loc nD τ sig} (f : Buf (Elt F) ℓ) :
    (ℓ ↦{fullShare} f : sProp 𝕄) ⊣⊢ iprop((ℓ ↦{Transfers.shareDrop fullShare 310} f) ∗ (ℓ ↦{Transfers.shareTokN fullShare 309} f) ∗ (ℓ ↦{Transfers.shareTokN fullShare 308} f) ∗ (ℓ ↦{Transfers.shareTokN fullShare 307} f) ∗ (ℓ ↦{Transfers.shareTokN fullShare 306} f) ∗ (ℓ ↦{Transfers.shareTokN fullShare 305} f) ∗ (ℓ ↦{Transfers.shareTokN fullShare 304} f) ∗ (ℓ ↦{Transfers.shareTokN fullShare 303} f) ∗ (ℓ ↦{Transfers.shareTokN fullShare 302} f) ∗ (ℓ ↦{Transfers.shareTokN fullShare 301} f) ∗ (ℓ ↦{Transfers.shareTokN fullShare 300} f) ∗ (ℓ ↦{Transfers.shareTokN fullShare 299} f) ∗ (ℓ ↦{Transfers.shareTokN fullShare 298} f) ∗ (ℓ ↦{Transfers.shareTokN fullShare 297} f) ∗ (ℓ ↦{Transfers.shareTokN fullShare 296} f) ∗ (ℓ ↦{Transfers.shareTokN fullShare 295} f) ∗ (ℓ ↦{Transfers.shareTokN fullShare 294} f)
      ∗ BI.bigSep (Finset.range 294) fun k => ℓ ↦{Transfers.shareTokN fullShare k} f) :=
  toksAt16 f 294

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun16 (c : Dev nD) (i : grid16.Coords) (arg3 : Memref sig .tc .vmem S16x1 .f32) (harg3 : arg3.IsWhole) (arg4 : Memref sig .tc .vmem S16x262 .f32) (harg4 : arg4.IsWhole)
    (x0 : Vec F S16x1 .f32) (tb : HbBuf16 (F := F) c tbM16) (fh0 : HbBuf16 (F := F) c hbM16) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM16 fullShare d) ∗ sems16 c ∗ hbPt16 c hbM16 fh0 ∗ hbPt16 c tbM16 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM16 fullShare d) ∗ sems16 c ∗ hbPt16 c hbM16 fh0 ∗ hbPt16 c tbM16 tb ∗ (∃ W', owes (c : Thread nD τ) 0 W')) -∗ K ⟨⟩))
          ⊢ wp frame (wpE (defs₀ (F := F)) Variants.none c none) Set.univ (cc16_kernel i tbM16 (Memref.isWhole_whole _) hbM16 (Memref.isWhole_whole _) arg3 harg3 arg4 harg4 scM16 (Memref.isWhole_whole _) cc16_scratch1) K } := by
  have k16_hw1 : k16_chk1 (tbM16.view.readAt (Elt F) (Rect.unit (s := S50000) (k16_off1 i) S1.size (k16_off1_inb i)).toLoadRect tb (Shape.Idx.first (numel1_S1.symm ▸ Nat.one_pos))) := chk16_1_of_lt _ (hH _)
  have k16_hw2 : k16_chk2 (tbM16.view.readAt (Elt F) (Rect.unit (s := S50000) (k16_off3 i) S1.size (k16_off3_inb i)).toLoadRect tb (Shape.Idx.first (numel1_S1.symm ▸ Nat.one_pos))) := chk16_2_of_lt _ (hH _)
  have k16_hw3 : k16_chk3 (tbM16.view.readAt (Elt F) (Rect.unit (s := S50000) (k16_off5 i) S1.size (k16_off5_inb i)).toLoadRect tb (Shape.Idx.first (numel1_S1.symm ▸ Nat.one_pos))) := chk16_3_of_lt _ (hH _)
  have k16_hw4 : k16_chk4 (tbM16.view.readAt (Elt F) (Rect.unit (s := S50000) (k16_off7 i) S1.size (k16_off7_inb i)).toLoadRect tb (Shape.Idx.first (numel1_S1.symm ▸ Nat.one_pos))) := chk16_4_of_lt _ (hH _)
  have k16_hw5 : k16_chk5 (tbM16.view.readAt (Elt F) (Rect.unit (s := S50000) (k16_off9 i) S1.size (k16_off9_inb i)).toLoadRect tb (Shape.Idx.first (numel1_S1.symm ▸ Nat.one_pos))) := chk16_5_of_lt _ (hH _)
  have k16_hw6 : k16_chk6 (tbM16.view.readAt (Elt F) (Rect.unit (s := S50000) (k16_off11 i) S1.size (k16_off11_inb i)).toLoadRect tb (Shape.Idx.first (numel1_S1.symm ▸ Nat.one_pos))) := chk16_6_of_lt _ (hH _)
  have k16_hw7 : k16_chk7 (tbM16.view.readAt (Elt F) (Rect.unit (s := S50000) (k16_off13 i) S1.size (k16_off13_inb i)).toLoadRect tb (Shape.Idx.first (numel1_S1.symm ▸ Nat.one_pos))) := chk16_7_of_lt _ (hH _)
  have k16_hw8 : k16_chk8 (tbM16.view.readAt (Elt F) (Rect.unit (s := S50000) (k16_off15 i) S1.size (k16_off15_inb i)).toLoadRect tb (Shape.Idx.first (numel1_S1.symm ▸ Nat.one_pos))) := chk16_8_of_lt _ (hH _)
  have k16_hw9 : k16_chk9 (tbM16.view.readAt (Elt F) (Rect.unit (s := S50000) (k16_off17 i) S1.size (k16_off17_inb i)).toLoadRect tb (Shape.Idx.first (numel1_S1.symm ▸ Nat.one_pos))) := chk16_9_of_lt _ (hH _)
  have k16_hw10 : k16_chk10 (tbM16.view.readAt (Elt F) (Rect.unit (s := S50000) (k16_off19 i) S1.size (k16_off19_inb i)).toLoadRect tb (Shape.Idx.first (numel1_S1.symm ▸ Nat.one_pos))) := chk16_10_of_lt _ (hH _)
  have k16_hw11 : k16_chk11 (tbM16.view.readAt (Elt F) (Rect.unit (s := S50000) (k16_off21 i) S1.size (k16_off21_inb i)).toLoadRect tb (Shape.Idx.first (numel1_S1.symm ▸ Nat.one_pos))) := chk16_11_of_lt _ (hH _)
  have k16_hw12 : k16_chk12 (tbM16.view.readAt (Elt F) (Rect.unit (s := S50000) (k16_off23 i) S1.size (k16_off23_inb i)).toLoadRect tb (Shape.Idx.first (numel1_S1.symm ▸ Nat.one_pos))) := chk16_12_of_lt _ (hH _)
  have k16_hw13 : k16_chk13 (tbM16.view.readAt (Elt F) (Rect.unit (s := S50000) (k16_off25 i) S1.size (k16_off25_inb i)).toLoadRect tb (Shape.Idx.first (numel1_S1.symm ▸ Nat.one_pos))) := chk16_13_of_lt _ (hH _)
  have k16_hw14 : k16_chk14 (tbM16.view.readAt (Elt F) (Rect.unit (s := S50000) (k16_off27 i) S1.size (k16_off27_inb i)).toLoadRect tb (Shape.Idx.first (numel1_S1.symm ▸ Nat.one_pos))) := chk16_14_of_lt _ (hH _)
  have k16_hw15 : k16_chk15 (tbM16.view.readAt (Elt F) (Rect.unit (s := S50000) (k16_off29 i) S1.size (k16_off29_inb i)).toLoadRect tb (Shape.Idx.first (numel1_S1.symm ▸ Nat.one_pos))) := chk16_15_of_lt _ (hH _)
  have k16_hw16 : k16_chk16 (tbM16.view.readAt (Elt F) (Rect.unit (s := S50000) (k16_off31 i) S1.size (k16_off31_inb i)).toLoadRect tb (Shape.Idx.first (numel1_S1.symm ▸ Nat.one_pos))) := chk16_16_of_lt _ (hH _)
  refine ⟨?_, fun W K => ?run⟩
  case run =>
    simp only [cc16_kernel_eq_skeleton]; unfold cc16_kernel_skel
    simp only [k16_part7_eq_skeleton]; unfold k16_part7_skel
    simp only [k16_part1_eq_skeleton, k16_part2_eq_skeleton, k16_part3_eq_skeleton, k16_part4_eq_skeleton, k16_part5_eq_skeleton, k16_part6_eq_skeleton]
    unfold owns sems16
    iintro ⟨⟨%f0, %hf0, H0⟩, ⟨%d1, %f1, -, H16⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks16 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k16_hw1 | sl_exact k16_hw2 | sl_exact k16_hw3 | sl_exact k16_hw4 | sl_exact k16_hw5 | sl_exact k16_hw6 | sl_exact k16_hw7 | sl_exact k16_hw8 | sl_exact k16_hw9 | sl_exact k16_hw10 | sl_exact k16_hw11 | sl_exact k16_hw12 | sl_exact k16_hw13 | sl_exact k16_hw14 | sl_exact k16_hw15 | sl_exact k16_hw16)
    sl_step
    iapply Hk
    isplitl [H0]
    · iexists _; isplitr; · ipureintro; exact harg3.read_unread _
      iexact H0
    isplitl [H16]; · iexists _; iexact H16
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks16 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg16 (F := F)).Adm)

/-- Each window's current staging memref at point t, spelled as the pipeline passes it, and its wholeness. -/
abbrev ms16_0 (t : Fin (cfg16 a).N) : Memref sig .tc .vmem S16x1 .f32 := spec16_0.stage ((cfg16 a).slots t 0)
abbrev hs16_0 (t : Fin (cfg16 a).N) : (ms16_0 a t).IsWhole := hstage16_0 (((cfg16 a).slots t 0).cast nbuf16_0)
abbrev ms16_1 (t : Fin (cfg16 a).N) : Memref sig .tc .vmem S16x262 .f32 := spec16_1.stage ((cfg16 a).slots t 1)
abbrev hs16_1 (t : Fin (cfg16 a).N) : (ms16_1 a t).IsWhole := hstage16_1 (((cfg16 a).slots t 1).cast nbuf16_1)

/-- The kernel body at point t, on what the pipeline calls it with. -/
abbrev bodyAt16 (t : Fin (cfg16 a).N) : Prog (TpuEff nD τ sig (Elt F) Λ₀ .tc) PUnit :=
  cc16_kernel (grid16.coords t) tbM16 (Memref.isWhole_whole _) hbM16 (Memref.isWhole_whole _) (ms16_0 a t) (hs16_0 a t) (ms16_1 a t) (hs16_1 a t) scM16 (Memref.isWhole_whole _) cc16_scratch1

/-! ## The invariant, conjunct by conjunct -/

/-- The sixteen own cells at zero, listed. -/
theorem ownSems016_eq (c : Dev nD) :
    (Pipeline.ownSems0 (Ix := Unit) (Name := ℕ) (U := Pipeline.UD sig nD τ) (Lvl := ℕ) (Val := Elt F) (τ := τ) osem16 c : sProp 𝕄) = sems16 c := by
  rw [Pipeline.ownSems0_eq_of_list c osem16 [0, 1, 2, 3, 4, 5, 6, 7, 8, 9, 10, 11, 12, 13, 14, 15] (by decide) (by decide)]; rfl

/-- The gathered array's points-to at the region-entry contents. -/
theorem hbmPts16_eq (c : Dev nD) :
    (bigSep H16 (fun b => ((c : Thread nD τ).loc b) ↦{fullShare} V c b) : sProp 𝕄) = iprop(hbPt16 c hbM16 (V c main_v71)) := by
  rw [BI.bigSep_eq_bigSepL_of_eq [main_v71] (by decide) (by decide)]; rfl

/-- The row table, whole, at the contents the region is launched with. -/
theorem prefHeld16_eq (c : Dev nD) :
    (Pipeline.prefHeld (Ix := Unit) (Name := ℕ) (U := Pipeline.UD sig nD τ) (Lvl := ℕ) pre16 c (fun _ => fullShare) a.1 : sProp 𝕄) = iprop(hbPt16 c tbM16 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD16_eq (c : Dev nD) :
    (Pipeline.ΦD osem16 spec16 H16 V c : sProp 𝕄)
      = iprop(iprop((∃ d, owns (c : Thread nD τ) scM16 fullShare d) ∗ Pipeline.scopedRestBut (Ix := Unit) (Name := ℕ) (U := Pipeline.UD sig nD τ) (Lvl := ℕ) (Val := Elt F) spec16 c [cc16_scratch0])
          ∗ (∃ r, prngReg c r) ∗ sems16 c ∗ iprop(hbPt16 c hbM16 (V c main_v71))) := by
  rw [Pipeline.ΦD_eq, scopedRest16_split, ownSems016_eq, hbmPts16_eq]; simp only [scM16, owns_whole]; try rfl

/-! ## The windows' blocks -/

/-- Window w's block at point t, read off its array as the region finds it. -/
def iblk16 (c : Dev nD) (w : Fin (cfg16 a).W) (t : Fin (cfg16 a).N) : (((cfg16 a).win w).xblock ((cfg16 a).grid.coords t)).Idx → Elt F ((cfg16 a).win w).elt :=
  (((cfg16 a).win w).blk t).view.read (Elt F) (V c (Pipeline.arrRef spec16 w))

/-- Input window 0's current staging buffer holds its block at every point, fetched there or not. -/
theorem before16_0_of {c : Dev nD} (dat : Dat τ (Elt F) Unit ℕ (Pipeline.UD sig nD τ) ℕ (cfg16 a) c) (hA : dat.A 0 = V c (Pipeline.arrRef spec16 0))
    (hafter : ∀ t, dat.after 0 t = iblk16 V a c 0 t) (t : Fin (cfg16 a).N) (d) : dat.before 0 t d = iblk16 V a c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-! ## What the run leaves in the output window's buffer -/

/-- The run's pieces for the output tile its block, so they cover it. -/
theorem cover16_1 (c : Dev nD) (i : grid16.Coords) (arg3 : Memref sig .tc .vmem S16x1 .f32) (harg3 : arg3.IsWhole) (arg4 : Memref sig .tc .vmem S16x262 .f32) (harg4 : arg4.IsWhole)
    (x0 : Vec F S16x1 .f32) (tb : HbBuf16 (F := F) c tbM16) (fh0 : HbBuf16 (F := F) c hbM16) (hT : ∀ x, (tb x).toNat < 50000) (y : S16x262.Idx) :
    ∃ pc ∈ (kernelRun16 c i arg3 harg3 arg4 harg4 x0 tb fh0 hT).1, y ∈ pc.1.set :=
  View.cover_of_tiledL (kernelRun16 c i arg3 harg3 arg4 harg4 x0 tb fh0 hT).1 S16x262.size (by sl_kernel_rfl) y

/-- One staging buffer of the output window, through which its contents are stated. -/
abbrev VO16_1 : View sig .tc .vmem S16x262 .f32 := (Memref.whole cc16_stg1_0 : Memref sig .tc .vmem S16x262 .f32).view

/-- What the run leaves in the output's staging buffer: its pieces read back over junk. -/
def out16_1 (c : Dev nD) (i : grid16.Coords) (arg3 : Memref sig .tc .vmem S16x1 .f32) (harg3 : arg3.IsWhole) (arg4 : Memref sig .tc .vmem S16x262 .f32) (harg4 : arg4.IsWhole)
    (x0 : Vec F S16x1 .f32) (tb : HbBuf16 (F := F) c tbM16) (fh0 : HbBuf16 (F := F) c hbM16) (hT : ∀ x, (tb x).toNat < 50000) : Vec F S16x262 .f32 :=
  VO16_1.read (Elt F) (VO16_1.writes (Elt F) VO16_1.junk (kernelRun16 c i arg3 harg3 arg4 harg4 x0 tb fh0 hT).1)

/-- Every word of the table is a row of the gathered array, from the same of its words by position. -/
theorem tbl_lt16 (hH : ∀ j : Fin 50000, ((a.1 0) (ValueIdx.ix1 j)).toNat < 50000) (c : Dev nD) : ∀ x, (((a.1 0 : HbBuf16 (F := F) c tbM16)) x).toNat < 50000 :=
  fun x => by rw [ValueIdx.eq_ix1 x]; exact hH _

/-- What the output's staging buffer holds after the body at point t: the run's contents at the point's memrefs, the
    norm block, the table and the gathered array. -/
def outsAt16 (hH : ∀ j : Fin 50000, ((a.1 0) (ValueIdx.ix1 j)).toNat < 50000) (c : Dev nD) (t : Fin (cfg16 a).N) : Vec F S16x262 .f32 :=
  out16_1 c (grid16.coords t) (ms16_0 a t) (hs16_0 a t) (ms16_1 a t) (hs16_1 a t) (iblk16 V a c 0 t) (a.1 0) (V c main_v71) (tbl_lt16 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat16 (hH : ∀ j : Fin 50000, ((a.1 0) (ValueIdx.ix1 j)).toNat < 50000) (c : Dev nD) : Dat τ (Elt F) Unit ℕ (Pipeline.UD sig nD τ) ℕ (cfg16 a) c where
  A w := V c (Pipeline.arrRef spec16 w)
  after w t := match w with
    | ⟨0, _⟩ => iblk16 V a c 0 t
    | ⟨1, _⟩ => (outsAt16 V a hH c t)
  Φ _ := iprop(Pipeline.ΦD osem16 spec16 H16 V c ∗ Pipeline.prefHeld pre16 c (fun _ => fullShare) a.1)
  q _ := fullShare
  owed _ := 0

/-- The proof data's arrays are the region-entry contents. -/
theorem A_eq16 (hH : ∀ j : Fin 50000, ((a.1 0) (ValueIdx.ix1 j)).toNat < 50000) (c : Dev nD) (w : Fin (cfg16 a).W) : (dat16 V a hH c).A w = V c (Pipeline.arrRef spec16 w) := by
  dsimp only [dat16]

/-- What the body leaves, window by window. -/
theorem after16_0 (hH : ∀ j : Fin 50000, ((a.1 0) (ValueIdx.ix1 j)).toNat < 50000) (c : Dev nD) (t : Fin (cfg16 a).N) : (dat16 V a hH c).after 0 t = iblk16 V a c 0 t := by dsimp only [dat16]; try rfl
theorem after16_1 (hH : ∀ j : Fin 50000, ((a.1 0) (ValueIdx.ix1 j)).toNat < 50000) (c : Dev nD) (t : Fin (cfg16 a).N) : (dat16 V a hH c).after 1 t = (outsAt16 V a hH c t) := by dsimp only [dat16]; try rfl

/-- The input's current staging buffer holds its block at every point, fetched there or not. -/
theorem before16_0 (hH : ∀ j : Fin 50000, ((a.1 0) (ValueIdx.ix1 j)).toNat < 50000) (c : Dev nD) (t : Fin (cfg16 a).N) (d) : (dat16 V a hH c).before 0 t d = iblk16 V a c 0 t :=
  before16_0_of V a (dat16 V a hH c) (A_eq16 V a hH c 0) (after16_0 V a hH c) t d

/-! ## The body obligation, at a generic point -/

/-- What the body is called with at point t, the windows one by one, -/
def bodyPre16 (hH : ∀ j : Fin 50000, ((a.1 0) (ValueIdx.ix1 j)).toNat < 50000) (c : Dev nD) (t : Fin (cfg16 a).N) : sProp 𝕄 :=
  iprop((dat16 V a hH c).Φ t.castSucc ∗ (dat16 V a hH c).owesAt () t.castSucc
    ∗ (∃ d, owns (c : Thread nD τ) (ms16_0 a t) fullShare ((dat16 V a hH c).before 0 t d))
    ∗ (∃ d, owns (c : Thread nD τ) (ms16_1 a t) fullShare ((dat16 V a hH c).before 1 t d)))

/-- and what it returns. -/
def bodyPost16 (hH : ∀ j : Fin 50000, ((a.1 0) (ValueIdx.ix1 j)).toNat < 50000) (c : Dev nD) (t : Fin (cfg16 a).N) : sProp 𝕄 :=
  iprop((dat16 V a hH c).Φ t.succ ∗ (dat16 V a hH c).owesAt () t.succ
    ∗ owns (c : Thread nD τ) (ms16_0 a t) fullShare ((dat16 V a hH c).after 0 t)
    ∗ owns (c : Thread nD τ) (ms16_1 a t) fullShare ((dat16 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body16 (hH : ∀ j : Fin 50000, ((a.1 0) (ValueIdx.ix1 j)).toNat < 50000) (c : Dev nD) (t : Fin (cfg16 a).N) :
    bodyPre16 V a hH c t ⊢ wp frame (wpE (defs₀ (F := F)) Variants.none c none) Set.univ (bodyAt16 a t) (fun _ => bodyPost16 V a hH c t) := by
  unfold bodyPre16 bodyPost16 bodyAt16
  simp only [before16_0]
  rw [show (dat16 V a hH c).Φ t.succ = (dat16 V a hH c).Φ t.castSucc from rfl,
    after16_0, after16_1]
  rw [show (dat16 V a hH c).Φ t.castSucc = iprop(Pipeline.ΦD osem16 spec16 H16 V c ∗ Pipeline.prefHeld pre16 c (fun _ => fullShare) a.1) from rfl, PhiD16_eq, prefHeld16_eq]
  unfold Dat.owesAt Pipeline.owesWithin
  rw [show (dat16 V a hH c).owed t.castSucc = 0 from rfl, show (dat16 V a hH c).owed t.succ = 0 from rfl]
  unfold outsAt16
  unfold out16_1
  iintro ⟨⟨⟨⟨HS0, HSr⟩, Hg, Hq, Hh0⟩, HT⟩, ⟨%W, -, HW⟩, ⟨%d0, H0⟩, ⟨%d1, H16⟩⟩
  iapply ((kernelRun16 c (grid16.coords t) _ _ _ _ (iblk16 V a c 0 t) (a.1 0) (V c main_v71) (tbl_lt16 a hH c)).2 W _)
  isplitl [H0]; · iexact H0
  isplitl [H16]; · iexists _; iexact H16
  isplitl [HS0]; · iexact HS0
  isplitl [Hq]; · iexact Hq
  isplitl [Hh0]; · iexact Hh0
  isplitl [HT]; · iexact HT
  isplitl [HW]; · iexact HW
  iintro ⟨H0, ⟨%e1, H16⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H16
  ipureintro; exact View.read_writes_of_cover _ _ _ _ _ (cover16_1 c _ _ _ _ _ _ _ _ _)

/-- The library's body obligation, at every point. -/
theorem body_obligation16 (hH : ∀ j : Fin 50000, ((a.1 0) (ValueIdx.ix1 j)).toNat < 50000) (c : Dev nD) : BodyObligation (dat16 (F := F) V a hH c) (defs₀ (F := F)) Variants.none () Set.univ := fun t => by
  rw [bigSep_W16, bigSep_W16]
  exact sound_body16 V a hH c t

end Cert.Kernel.Hand

end
-- ==== Proof.Bits.G17.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 17 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem17 : Fin 16 → SemLoc sig := fun j =>
  (![SemLoc.dma 314, SemLoc.dma 315, SemLoc.dma 316, SemLoc.dma 317, SemLoc.dma 318, SemLoc.dma 319, SemLoc.dma 320, SemLoc.dma 321,
     SemLoc.dma 322, SemLoc.dma 323, SemLoc.dma 324, SemLoc.dma 325, SemLoc.dma 326, SemLoc.dma 327, SemLoc.dma 328, SemLoc.dma 329] : Fin 16 → SemLoc sig) j
theorem ownSemFacts17 : Pipeline.OwnSemFacts spec17 osem17 := by decide

/-- The HBM operand the body gathers rows from: unscoped, no window's array, no table. -/
def H17 : Finset (Ref sig .tc) := {main_v71}
theorem H17_sub : H17 ⊆ Pipeline.restRefsP sig pre17 spec17 := by decide

/-- The operands the pipeline does not stage, whole. -/
abbrev tbM17 : Memref sig .tc .smem S50000 .i32 := Memref.whole main_v91
abbrev hbM17 : Memref sig .tc .hbm S50000x262 .f32 := Memref.whole main_v71
abbrev scM17 : Memref sig .tc .vmem S16x262 .f32 := Memref.whole cc17_scratch0

/-- A whole memref's buffer on core `c`, and it held whole at `f`. -/
abbrev HbBuf17 (c : Dev nD) {sp : Space} {S : Shape} {e : EltTy} (M : Memref sig .tc sp S e) : Type := Buf (Elt F) (M.view.loc (c : Thread nD τ))
abbrev hbPt17 (c : Dev nD) {sp : Space} {S : Shape} {e : EltTy} (M : Memref sig .tc sp S e) (f : HbBuf17 (F := F) c M) : sProp 𝕄 :=
  M.view.loc (c : Thread nD τ) ↦{fullShare} f

/-- The sixteen own cells at zero. -/
abbrev sems17 (c : Dev nD) : sProp 𝕄 :=
  iprop(semVal ((c : Thread nD τ), SemLoc.dma 314) 0 ∗ semVal ((c : Thread nD τ), SemLoc.dma 315) 0 ∗ semVal ((c : Thread nD τ), SemLoc.dma 316) 0 ∗ semVal ((c : Thread nD τ), SemLoc.dma 317) 0 ∗ semVal ((c : Thread nD τ), SemLoc.dma 318) 0 ∗ semVal ((c : Thread nD τ), SemLoc.dma 319) 0 ∗ semVal ((c : Thread nD τ), SemLoc.dma 320) 0 ∗ semVal ((c : Thread nD τ), SemLoc.dma 321) 0 ∗ semVal ((c : Thread nD τ), SemLoc.dma 322) 0 ∗ semVal ((c : Thread nD τ), SemLoc.dma 323) 0 ∗ semVal ((c : Thread nD τ), SemLoc.dma 324) 0 ∗ semVal ((c : Thread nD τ), SemLoc.dma 325) 0 ∗ semVal ((c : Thread nD τ), SemLoc.dma 326) 0 ∗ semVal ((c : Thread nD τ), SemLoc.dma 327) 0 ∗ semVal ((c : Thread nD τ), SemLoc.dma 328) 0 ∗ semVal ((c : Thread nD τ), SemLoc.dma 329) 0)

/-- A row index inside the gathered array puts the one-row slice inside it. -/
theorem row_inb17 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk17_1_of_lt (w : BitVec 32) (h : w.toNat < 50000) : k17_chk1 w := ⟨row_inb17 w h, row_inb17 w h⟩
theorem chk17_2_of_lt (w : BitVec 32) (h : w.toNat < 50000) : k17_chk2 w := ⟨row_inb17 w h, row_inb17 w h⟩
theorem chk17_3_of_lt (w : BitVec 32) (h : w.toNat < 50000) : k17_chk3 w := ⟨row_inb17 w h, row_inb17 w h⟩
theorem chk17_4_of_lt (w : BitVec 32) (h : w.toNat < 50000) : k17_chk4 w := ⟨row_inb17 w h, row_inb17 w h⟩
theorem chk17_5_of_lt (w : BitVec 32) (h : w.toNat < 50000) : k17_chk5 w := ⟨row_inb17 w h, row_inb17 w h⟩
theorem chk17_6_of_lt (w : BitVec 32) (h : w.toNat < 50000) : k17_chk6 w := ⟨row_inb17 w h, row_inb17 w h⟩
theorem chk17_7_of_lt (w : BitVec 32) (h : w.toNat < 50000) : k17_chk7 w := ⟨row_inb17 w h, row_inb17 w h⟩
theorem chk17_8_of_lt (w : BitVec 32) (h : w.toNat < 50000) : k17_chk8 w := ⟨row_inb17 w h, row_inb17 w h⟩
theorem chk17_9_of_lt (w : BitVec 32) (h : w.toNat < 50000) : k17_chk9 w := ⟨row_inb17 w h, row_inb17 w h⟩
theorem chk17_10_of_lt (w : BitVec 32) (h : w.toNat < 50000) : k17_chk10 w := ⟨row_inb17 w h, row_inb17 w h⟩
theorem chk17_11_of_lt (w : BitVec 32) (h : w.toNat < 50000) : k17_chk11 w := ⟨row_inb17 w h, row_inb17 w h⟩
theorem chk17_12_of_lt (w : BitVec 32) (h : w.toNat < 50000) : k17_chk12 w := ⟨row_inb17 w h, row_inb17 w h⟩
theorem chk17_13_of_lt (w : BitVec 32) (h : w.toNat < 50000) : k17_chk13 w := ⟨row_inb17 w h, row_inb17 w h⟩
theorem chk17_14_of_lt (w : BitVec 32) (h : w.toNat < 50000) : k17_chk14 w := ⟨row_inb17 w h, row_inb17 w h⟩
theorem chk17_15_of_lt (w : BitVec 32) (h : w.toNat < 50000) : k17_chk15 w := ⟨row_inb17 w h, row_inb17 w h⟩
theorem chk17_16_of_lt (w : BitVec 32) (h : w.toNat < 50000) : k17_chk16 w := row_inb17 w h

/-- A whole points-to as what stays behind, sixteen read tokens numbered `b + 15` down to `b`, and the tokens below
    `b` kept as one family. -/
theorem toksAt17 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 314 … 329. -/
theorem toks17 {ℓ : Loc nD τ sig} (f : Buf (Elt F) ℓ) :
    (ℓ ↦{fullShare} f : sProp 𝕄) ⊣⊢ iprop((ℓ ↦{Transfers.shareDrop fullShare 330} f) ∗ (ℓ ↦{Transfers.shareTokN fullShare 329} f) ∗ (ℓ ↦{Transfers.shareTokN fullShare 328} f) ∗ (ℓ ↦{Transfers.shareTokN fullShare 327} f) ∗ (ℓ ↦{Transfers.shareTokN fullShare 326} f) ∗ (ℓ ↦{Transfers.shareTokN fullShare 325} f) ∗ (ℓ ↦{Transfers.shareTokN fullShare 324} f) ∗ (ℓ ↦{Transfers.shareTokN fullShare 323} f) ∗ (ℓ ↦{Transfers.shareTokN fullShare 322} f) ∗ (ℓ ↦{Transfers.shareTokN fullShare 321} f) ∗ (ℓ ↦{Transfers.shareTokN fullShare 320} f) ∗ (ℓ ↦{Transfers.shareTokN fullShare 319} f) ∗ (ℓ ↦{Transfers.shareTokN fullShare 318} f) ∗ (ℓ ↦{Transfers.shareTokN fullShare 317} f) ∗ (ℓ ↦{Transfers.shareTokN fullShare 316} f) ∗ (ℓ ↦{Transfers.shareTokN fullShare 315} f) ∗ (ℓ ↦{Transfers.shareTokN fullShare 314} f)
      ∗ BI.bigSep (Finset.range 314) fun k => ℓ ↦{Transfers.shareTokN fullShare k} f) :=
  toksAt17 f 314

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun17 (c : Dev nD) (i : grid17.Coords) (arg3 : Memref sig .tc .vmem S16x1 .f32) (harg3 : arg3.IsWhole) (arg4 : Memref sig .tc .vmem S16x262 .f32) (harg4 : arg4.IsWhole)
    (x0 : Vec F S16x1 .f32) (tb : HbBuf17 (F := F) c tbM17) (fh0 : HbBuf17 (F := F) c hbM17) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM17 fullShare d) ∗ sems17 c ∗ hbPt17 c hbM17 fh0 ∗ hbPt17 c tbM17 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM17 fullShare d) ∗ sems17 c ∗ hbPt17 c hbM17 fh0 ∗ hbPt17 c tbM17 tb ∗ (∃ W', owes (c : Thread nD τ) 0 W')) -∗ K ⟨⟩))
          ⊢ wp frame (wpE (defs₀ (F := F)) Variants.none c none) Set.univ (cc17_kernel i tbM17 (Memref.isWhole_whole _) hbM17 (Memref.isWhole_whole _) arg3 harg3 arg4 harg4 scM17 (Memref.isWhole_whole _) cc17_scratch1) K } := by
  have k17_hw1 : k17_chk1 (tbM17.view.readAt (Elt F) (Rect.unit (s := S50000) (k17_off1 i) S1.size (k17_off1_inb i)).toLoadRect tb (Shape.Idx.first (numel1_S1.symm ▸ Nat.one_pos))) := chk17_1_of_lt _ (hH _)
  have k17_hw2 : k17_chk2 (tbM17.view.readAt (Elt F) (Rect.unit (s := S50000) (k17_off3 i) S1.size (k17_off3_inb i)).toLoadRect tb (Shape.Idx.first (numel1_S1.symm ▸ Nat.one_pos))) := chk17_2_of_lt _ (hH _)
  have k17_hw3 : k17_chk3 (tbM17.view.readAt (Elt F) (Rect.unit (s := S50000) (k17_off5 i) S1.size (k17_off5_inb i)).toLoadRect tb (Shape.Idx.first (numel1_S1.symm ▸ Nat.one_pos))) := chk17_3_of_lt _ (hH _)
  have k17_hw4 : k17_chk4 (tbM17.view.readAt (Elt F) (Rect.unit (s := S50000) (k17_off7 i) S1.size (k17_off7_inb i)).toLoadRect tb (Shape.Idx.first (numel1_S1.symm ▸ Nat.one_pos))) := chk17_4_of_lt _ (hH _)
  have k17_hw5 : k17_chk5 (tbM17.view.readAt (Elt F) (Rect.unit (s := S50000) (k17_off9 i) S1.size (k17_off9_inb i)).toLoadRect tb (Shape.Idx.first (numel1_S1.symm ▸ Nat.one_pos))) := chk17_5_of_lt _ (hH _)
  have k17_hw6 : k17_chk6 (tbM17.view.readAt (Elt F) (Rect.unit (s := S50000) (k17_off11 i) S1.size (k17_off11_inb i)).toLoadRect tb (Shape.Idx.first (numel1_S1.symm ▸ Nat.one_pos))) := chk17_6_of_lt _ (hH _)
  have k17_hw7 : k17_chk7 (tbM17.view.readAt (Elt F) (Rect.unit (s := S50000) (k17_off13 i) S1.size (k17_off13_inb i)).toLoadRect tb (Shape.Idx.first (numel1_S1.symm ▸ Nat.one_pos))) := chk17_7_of_lt _ (hH _)
  have k17_hw8 : k17_chk8 (tbM17.view.readAt (Elt F) (Rect.unit (s := S50000) (k17_off15 i) S1.size (k17_off15_inb i)).toLoadRect tb (Shape.Idx.first (numel1_S1.symm ▸ Nat.one_pos))) := chk17_8_of_lt _ (hH _)
  have k17_hw9 : k17_chk9 (tbM17.view.readAt (Elt F) (Rect.unit (s := S50000) (k17_off17 i) S1.size (k17_off17_inb i)).toLoadRect tb (Shape.Idx.first (numel1_S1.symm ▸ Nat.one_pos))) := chk17_9_of_lt _ (hH _)
  have k17_hw10 : k17_chk10 (tbM17.view.readAt (Elt F) (Rect.unit (s := S50000) (k17_off19 i) S1.size (k17_off19_inb i)).toLoadRect tb (Shape.Idx.first (numel1_S1.symm ▸ Nat.one_pos))) := chk17_10_of_lt _ (hH _)
  have k17_hw11 : k17_chk11 (tbM17.view.readAt (Elt F) (Rect.unit (s := S50000) (k17_off21 i) S1.size (k17_off21_inb i)).toLoadRect tb (Shape.Idx.first (numel1_S1.symm ▸ Nat.one_pos))) := chk17_11_of_lt _ (hH _)
  have k17_hw12 : k17_chk12 (tbM17.view.readAt (Elt F) (Rect.unit (s := S50000) (k17_off23 i) S1.size (k17_off23_inb i)).toLoadRect tb (Shape.Idx.first (numel1_S1.symm ▸ Nat.one_pos))) := chk17_12_of_lt _ (hH _)
  have k17_hw13 : k17_chk13 (tbM17.view.readAt (Elt F) (Rect.unit (s := S50000) (k17_off25 i) S1.size (k17_off25_inb i)).toLoadRect tb (Shape.Idx.first (numel1_S1.symm ▸ Nat.one_pos))) := chk17_13_of_lt _ (hH _)
  have k17_hw14 : k17_chk14 (tbM17.view.readAt (Elt F) (Rect.unit (s := S50000) (k17_off27 i) S1.size (k17_off27_inb i)).toLoadRect tb (Shape.Idx.first (numel1_S1.symm ▸ Nat.one_pos))) := chk17_14_of_lt _ (hH _)
  have k17_hw15 : k17_chk15 (tbM17.view.readAt (Elt F) (Rect.unit (s := S50000) (k17_off29 i) S1.size (k17_off29_inb i)).toLoadRect tb (Shape.Idx.first (numel1_S1.symm ▸ Nat.one_pos))) := chk17_15_of_lt _ (hH _)
  have k17_hw16 : k17_chk16 (tbM17.view.readAt (Elt F) (Rect.unit (s := S50000) (k17_off31 i) S1.size (k17_off31_inb i)).toLoadRect tb (Shape.Idx.first (numel1_S1.symm ▸ Nat.one_pos))) := chk17_16_of_lt _ (hH _)
  refine ⟨?_, fun W K => ?run⟩
  case run =>
    simp only [cc17_kernel_eq_skeleton]; unfold cc17_kernel_skel
    simp only [k17_part7_eq_skeleton]; unfold k17_part7_skel
    simp only [k17_part1_eq_skeleton, k17_part2_eq_skeleton, k17_part3_eq_skeleton, k17_part4_eq_skeleton, k17_part5_eq_skeleton, k17_part6_eq_skeleton]
    unfold owns sems17
    iintro ⟨⟨%f0, %hf0, H0⟩, ⟨%d1, %f1, -, H17⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks17 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k17_hw1 | sl_exact k17_hw2 | sl_exact k17_hw3 | sl_exact k17_hw4 | sl_exact k17_hw5 | sl_exact k17_hw6 | sl_exact k17_hw7 | sl_exact k17_hw8 | sl_exact k17_hw9 | sl_exact k17_hw10 | sl_exact k17_hw11 | sl_exact k17_hw12 | sl_exact k17_hw13 | sl_exact k17_hw14 | sl_exact k17_hw15 | sl_exact k17_hw16)
    sl_step
    iapply Hk
    isplitl [H0]
    · iexists _; isplitr; · ipureintro; exact harg3.read_unread _
      iexact H0
    isplitl [H17]; · iexists _; iexact H17
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks17 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg17 (F := F)).Adm)

/-- Each window's current staging memref at point t, spelled as the pipeline passes it, and its wholeness. -/
abbrev ms17_0 (t : Fin (cfg17 a).N) : Memref sig .tc .vmem S16x1 .f32 := spec17_0.stage ((cfg17 a).slots t 0)
abbrev hs17_0 (t : Fin (cfg17 a).N) : (ms17_0 a t).IsWhole := hstage17_0 (((cfg17 a).slots t 0).cast nbuf17_0)
abbrev ms17_1 (t : Fin (cfg17 a).N) : Memref sig .tc .vmem S16x262 .f32 := spec17_1.stage ((cfg17 a).slots t 1)
abbrev hs17_1 (t : Fin (cfg17 a).N) : (ms17_1 a t).IsWhole := hstage17_1 (((cfg17 a).slots t 1).cast nbuf17_1)

/-- The kernel body at point t, on what the pipeline calls it with. -/
abbrev bodyAt17 (t : Fin (cfg17 a).N) : Prog (TpuEff nD τ sig (Elt F) Λ₀ .tc) PUnit :=
  cc17_kernel (grid17.coords t) tbM17 (Memref.isWhole_whole _) hbM17 (Memref.isWhole_whole _) (ms17_0 a t) (hs17_0 a t) (ms17_1 a t) (hs17_1 a t) scM17 (Memref.isWhole_whole _) cc17_scratch1

/-! ## The invariant, conjunct by conjunct -/

/-- The sixteen own cells at zero, listed. -/
theorem ownSems017_eq (c : Dev nD) :
    (Pipeline.ownSems0 (Ix := Unit) (Name := ℕ) (U := Pipeline.UD sig nD τ) (Lvl := ℕ) (Val := Elt F) (τ := τ) osem17 c : sProp 𝕄) = sems17 c := by
  rw [Pipeline.ownSems0_eq_of_list c osem17 [0, 1, 2, 3, 4, 5, 6, 7, 8, 9, 10, 11, 12, 13, 14, 15] (by decide) (by decide)]; rfl

/-- The gathered array's points-to at the region-entry contents. -/
theorem hbmPts17_eq (c : Dev nD) :
    (bigSep H17 (fun b => ((c : Thread nD τ).loc b) ↦{fullShare} V c b) : sProp 𝕄) = iprop(hbPt17 c hbM17 (V c main_v71)) := by
  rw [BI.bigSep_eq_bigSepL_of_eq [main_v71] (by decide) (by decide)]; rfl

/-- The row table, whole, at the contents the region is launched with. -/
theorem prefHeld17_eq (c : Dev nD) :
    (Pipeline.prefHeld (Ix := Unit) (Name := ℕ) (U := Pipeline.UD sig nD τ) (Lvl := ℕ) pre17 c (fun _ => fullShare) a.1 : sProp 𝕄) = iprop(hbPt17 c tbM17 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD17_eq (c : Dev nD) :
    (Pipeline.ΦD osem17 spec17 H17 V c : sProp 𝕄)
      = iprop(iprop((∃ d, owns (c : Thread nD τ) scM17 fullShare d) ∗ Pipeline.scopedRestBut (Ix := Unit) (Name := ℕ) (U := Pipeline.UD sig nD τ) (Lvl := ℕ) (Val := Elt F) spec17 c [cc17_scratch0])
          ∗ (∃ r, prngReg c r) ∗ sems17 c ∗ iprop(hbPt17 c hbM17 (V c main_v71))) := by
  rw [Pipeline.ΦD_eq, scopedRest17_split, ownSems017_eq, hbmPts17_eq]; simp only [scM17, owns_whole]; try rfl

/-! ## The windows' blocks -/

/-- Window w's block at point t, read off its array as the region finds it. -/
def iblk17 (c : Dev nD) (w : Fin (cfg17 a).W) (t : Fin (cfg17 a).N) : (((cfg17 a).win w).xblock ((cfg17 a).grid.coords t)).Idx → Elt F ((cfg17 a).win w).elt :=
  (((cfg17 a).win w).blk t).view.read (Elt F) (V c (Pipeline.arrRef spec17 w))

/-- Input window 0's current staging buffer holds its block at every point, fetched there or not. -/
theorem before17_0_of {c : Dev nD} (dat : Dat τ (Elt F) Unit ℕ (Pipeline.UD sig nD τ) ℕ (cfg17 a) c) (hA : dat.A 0 = V c (Pipeline.arrRef spec17 0))
    (hafter : ∀ t, dat.after 0 t = iblk17 V a c 0 t) (t : Fin (cfg17 a).N) (d) : dat.before 0 t d = iblk17 V a c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-! ## What the run leaves in the output window's buffer -/

/-- The run's pieces for the output tile its block, so they cover it. -/
theorem cover17_1 (c : Dev nD) (i : grid17.Coords) (arg3 : Memref sig .tc .vmem S16x1 .f32) (harg3 : arg3.IsWhole) (arg4 : Memref sig .tc .vmem S16x262 .f32) (harg4 : arg4.IsWhole)
    (x0 : Vec F S16x1 .f32) (tb : HbBuf17 (F := F) c tbM17) (fh0 : HbBuf17 (F := F) c hbM17) (hT : ∀ x, (tb x).toNat < 50000) (y : S16x262.Idx) :
    ∃ pc ∈ (kernelRun17 c i arg3 harg3 arg4 harg4 x0 tb fh0 hT).1, y ∈ pc.1.set :=
  View.cover_of_tiledL (kernelRun17 c i arg3 harg3 arg4 harg4 x0 tb fh0 hT).1 S16x262.size (by sl_kernel_rfl) y

/-- One staging buffer of the output window, through which its contents are stated. -/
abbrev VO17_1 : View sig .tc .vmem S16x262 .f32 := (Memref.whole cc17_stg1_0 : Memref sig .tc .vmem S16x262 .f32).view

/-- What the run leaves in the output's staging buffer: its pieces read back over junk. -/
def out17_1 (c : Dev nD) (i : grid17.Coords) (arg3 : Memref sig .tc .vmem S16x1 .f32) (harg3 : arg3.IsWhole) (arg4 : Memref sig .tc .vmem S16x262 .f32) (harg4 : arg4.IsWhole)
    (x0 : Vec F S16x1 .f32) (tb : HbBuf17 (F := F) c tbM17) (fh0 : HbBuf17 (F := F) c hbM17) (hT : ∀ x, (tb x).toNat < 50000) : Vec F S16x262 .f32 :=
  VO17_1.read (Elt F) (VO17_1.writes (Elt F) VO17_1.junk (kernelRun17 c i arg3 harg3 arg4 harg4 x0 tb fh0 hT).1)

/-- Every word of the table is a row of the gathered array, from the same of its words by position. -/
theorem tbl_lt17 (hH : ∀ j : Fin 50000, ((a.1 0) (ValueIdx.ix1 j)).toNat < 50000) (c : Dev nD) : ∀ x, (((a.1 0 : HbBuf17 (F := F) c tbM17)) x).toNat < 50000 :=
  fun x => by rw [ValueIdx.eq_ix1 x]; exact hH _

/-- What the output's staging buffer holds after the body at point t: the run's contents at the point's memrefs, the
    norm block, the table and the gathered array. -/
def outsAt17 (hH : ∀ j : Fin 50000, ((a.1 0) (ValueIdx.ix1 j)).toNat < 50000) (c : Dev nD) (t : Fin (cfg17 a).N) : Vec F S16x262 .f32 :=
  out17_1 c (grid17.coords t) (ms17_0 a t) (hs17_0 a t) (ms17_1 a t) (hs17_1 a t) (iblk17 V a c 0 t) (a.1 0) (V c main_v71) (tbl_lt17 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat17 (hH : ∀ j : Fin 50000, ((a.1 0) (ValueIdx.ix1 j)).toNat < 50000) (c : Dev nD) : Dat τ (Elt F) Unit ℕ (Pipeline.UD sig nD τ) ℕ (cfg17 a) c where
  A w := V c (Pipeline.arrRef spec17 w)
  after w t := match w with
    | ⟨0, _⟩ => iblk17 V a c 0 t
    | ⟨1, _⟩ => (outsAt17 V a hH c t)
  Φ _ := iprop(Pipeline.ΦD osem17 spec17 H17 V c ∗ Pipeline.prefHeld pre17 c (fun _ => fullShare) a.1)
  q _ := fullShare
  owed _ := 0

/-- The proof data's arrays are the region-entry contents. -/
theorem A_eq17 (hH : ∀ j : Fin 50000, ((a.1 0) (ValueIdx.ix1 j)).toNat < 50000) (c : Dev nD) (w : Fin (cfg17 a).W) : (dat17 V a hH c).A w = V c (Pipeline.arrRef spec17 w) := by
  dsimp only [dat17]

/-- What the body leaves, window by window. -/
theorem after17_0 (hH : ∀ j : Fin 50000, ((a.1 0) (ValueIdx.ix1 j)).toNat < 50000) (c : Dev nD) (t : Fin (cfg17 a).N) : (dat17 V a hH c).after 0 t = iblk17 V a c 0 t := by dsimp only [dat17]; try rfl
theorem after17_1 (hH : ∀ j : Fin 50000, ((a.1 0) (ValueIdx.ix1 j)).toNat < 50000) (c : Dev nD) (t : Fin (cfg17 a).N) : (dat17 V a hH c).after 1 t = (outsAt17 V a hH c t) := by dsimp only [dat17]; try rfl

/-- The input's current staging buffer holds its block at every point, fetched there or not. -/
theorem before17_0 (hH : ∀ j : Fin 50000, ((a.1 0) (ValueIdx.ix1 j)).toNat < 50000) (c : Dev nD) (t : Fin (cfg17 a).N) (d) : (dat17 V a hH c).before 0 t d = iblk17 V a c 0 t :=
  before17_0_of V a (dat17 V a hH c) (A_eq17 V a hH c 0) (after17_0 V a hH c) t d

/-! ## The body obligation, at a generic point -/

/-- What the body is called with at point t, the windows one by one, -/
def bodyPre17 (hH : ∀ j : Fin 50000, ((a.1 0) (ValueIdx.ix1 j)).toNat < 50000) (c : Dev nD) (t : Fin (cfg17 a).N) : sProp 𝕄 :=
  iprop((dat17 V a hH c).Φ t.castSucc ∗ (dat17 V a hH c).owesAt () t.castSucc
    ∗ (∃ d, owns (c : Thread nD τ) (ms17_0 a t) fullShare ((dat17 V a hH c).before 0 t d))
    ∗ (∃ d, owns (c : Thread nD τ) (ms17_1 a t) fullShare ((dat17 V a hH c).before 1 t d)))

/-- and what it returns. -/
def bodyPost17 (hH : ∀ j : Fin 50000, ((a.1 0) (ValueIdx.ix1 j)).toNat < 50000) (c : Dev nD) (t : Fin (cfg17 a).N) : sProp 𝕄 :=
  iprop((dat17 V a hH c).Φ t.succ ∗ (dat17 V a hH c).owesAt () t.succ
    ∗ owns (c : Thread nD τ) (ms17_0 a t) fullShare ((dat17 V a hH c).after 0 t)
    ∗ owns (c : Thread nD τ) (ms17_1 a t) fullShare ((dat17 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body17 (hH : ∀ j : Fin 50000, ((a.1 0) (ValueIdx.ix1 j)).toNat < 50000) (c : Dev nD) (t : Fin (cfg17 a).N) :
    bodyPre17 V a hH c t ⊢ wp frame (wpE (defs₀ (F := F)) Variants.none c none) Set.univ (bodyAt17 a t) (fun _ => bodyPost17 V a hH c t) := by
  unfold bodyPre17 bodyPost17 bodyAt17
  simp only [before17_0]
  rw [show (dat17 V a hH c).Φ t.succ = (dat17 V a hH c).Φ t.castSucc from rfl,
    after17_0, after17_1]
  rw [show (dat17 V a hH c).Φ t.castSucc = iprop(Pipeline.ΦD osem17 spec17 H17 V c ∗ Pipeline.prefHeld pre17 c (fun _ => fullShare) a.1) from rfl, PhiD17_eq, prefHeld17_eq]
  unfold Dat.owesAt Pipeline.owesWithin
  rw [show (dat17 V a hH c).owed t.castSucc = 0 from rfl, show (dat17 V a hH c).owed t.succ = 0 from rfl]
  unfold outsAt17
  unfold out17_1
  iintro ⟨⟨⟨⟨HS0, HSr⟩, Hg, Hq, Hh0⟩, HT⟩, ⟨%W, -, HW⟩, ⟨%d0, H0⟩, ⟨%d1, H17⟩⟩
  iapply ((kernelRun17 c (grid17.coords t) _ _ _ _ (iblk17 V a c 0 t) (a.1 0) (V c main_v71) (tbl_lt17 a hH c)).2 W _)
  isplitl [H0]; · iexact H0
  isplitl [H17]; · iexists _; iexact H17
  isplitl [HS0]; · iexact HS0
  isplitl [Hq]; · iexact Hq
  isplitl [Hh0]; · iexact Hh0
  isplitl [HT]; · iexact HT
  isplitl [HW]; · iexact HW
  iintro ⟨H0, ⟨%e1, H17⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H17
  ipureintro; exact View.read_writes_of_cover _ _ _ _ _ (cover17_1 c _ _ _ _ _ _ _ _ _)

/-- The library's body obligation, at every point. -/
theorem body_obligation17 (hH : ∀ j : Fin 50000, ((a.1 0) (ValueIdx.ix1 j)).toNat < 50000) (c : Dev nD) : BodyObligation (dat17 (F := F) V a hH c) (defs₀ (F := F)) Variants.none () Set.univ := fun t => by
  rw [bigSep_W17, bigSep_W17]
  exact sound_body17 V a hH c t

end Cert.Kernel.Hand

end
-- ==== Proof.Bits.G18.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 18 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem18 : Fin 16 → SemLoc sig := fun j =>
  (![SemLoc.dma 334, SemLoc.dma 335, SemLoc.dma 336, SemLoc.dma 337, SemLoc.dma 338, SemLoc.dma 339, SemLoc.dma 340, SemLoc.dma 341,
     SemLoc.dma 342, SemLoc.dma 343, SemLoc.dma 344, SemLoc.dma 345, SemLoc.dma 346, SemLoc.dma 347, SemLoc.dma 348, SemLoc.dma 349] : Fin 16 → SemLoc sig) j
theorem ownSemFacts18 : Pipeline.OwnSemFacts spec18 osem18 := by decide

/-- The HBM operand the body gathers rows from: unscoped, no window's array, no table. -/
def H18 : Finset (Ref sig .tc) := {main_v71}
theorem H18_sub : H18 ⊆ Pipeline.restRefsP sig pre18 spec18 := by decide

/-- The operands the pipeline does not stage, whole. -/
abbrev tbM18 : Memref sig .tc .smem S50000 .i32 := Memref.whole main_v94
abbrev hbM18 : Memref sig .tc .hbm S50000x262 .f32 := Memref.whole main_v71
abbrev scM18 : Memref sig .tc .vmem S16x262 .f32 := Memref.whole cc18_scratch0

/-- A whole memref's buffer on core `c`, and it held whole at `f`. -/
abbrev HbBuf18 (c : Dev nD) {sp : Space} {S : Shape} {e : EltTy} (M : Memref sig .tc sp S e) : Type := Buf (Elt F) (M.view.loc (c : Thread nD τ))
abbrev hbPt18 (c : Dev nD) {sp : Space} {S : Shape} {e : EltTy} (M : Memref sig .tc sp S e) (f : HbBuf18 (F := F) c M) : sProp 𝕄 :=
  M.view.loc (c : Thread nD τ) ↦{fullShare} f

/-- The sixteen own cells at zero. -/
abbrev sems18 (c : Dev nD) : sProp 𝕄 :=
  iprop(semVal ((c : Thread nD τ), SemLoc.dma 334) 0 ∗ semVal ((c : Thread nD τ), SemLoc.dma 335) 0 ∗ semVal ((c : Thread nD τ), SemLoc.dma 336) 0 ∗ semVal ((c : Thread nD τ), SemLoc.dma 337) 0 ∗ semVal ((c : Thread nD τ), SemLoc.dma 338) 0 ∗ semVal ((c : Thread nD τ), SemLoc.dma 339) 0 ∗ semVal ((c : Thread nD τ), SemLoc.dma 340) 0 ∗ semVal ((c : Thread nD τ), SemLoc.dma 341) 0 ∗ semVal ((c : Thread nD τ), SemLoc.dma 342) 0 ∗ semVal ((c : Thread nD τ), SemLoc.dma 343) 0 ∗ semVal ((c : Thread nD τ), SemLoc.dma 344) 0 ∗ semVal ((c : Thread nD τ), SemLoc.dma 345) 0 ∗ semVal ((c : Thread nD τ), SemLoc.dma 346) 0 ∗ semVal ((c : Thread nD τ), SemLoc.dma 347) 0 ∗ semVal ((c : Thread nD τ), SemLoc.dma 348) 0 ∗ semVal ((c : Thread nD τ), SemLoc.dma 349) 0)

/-- A row index inside the gathered array puts the one-row slice inside it. -/
theorem row_inb18 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk18_1_of_lt (w : BitVec 32) (h : w.toNat < 50000) : k18_chk1 w := ⟨row_inb18 w h, row_inb18 w h⟩
theorem chk18_2_of_lt (w : BitVec 32) (h : w.toNat < 50000) : k18_chk2 w := ⟨row_inb18 w h, row_inb18 w h⟩
theorem chk18_3_of_lt (w : BitVec 32) (h : w.toNat < 50000) : k18_chk3 w := ⟨row_inb18 w h, row_inb18 w h⟩
theorem chk18_4_of_lt (w : BitVec 32) (h : w.toNat < 50000) : k18_chk4 w := ⟨row_inb18 w h, row_inb18 w h⟩
theorem chk18_5_of_lt (w : BitVec 32) (h : w.toNat < 50000) : k18_chk5 w := ⟨row_inb18 w h, row_inb18 w h⟩
theorem chk18_6_of_lt (w : BitVec 32) (h : w.toNat < 50000) : k18_chk6 w := ⟨row_inb18 w h, row_inb18 w h⟩
theorem chk18_7_of_lt (w : BitVec 32) (h : w.toNat < 50000) : k18_chk7 w := ⟨row_inb18 w h, row_inb18 w h⟩
theorem chk18_8_of_lt (w : BitVec 32) (h : w.toNat < 50000) : k18_chk8 w := ⟨row_inb18 w h, row_inb18 w h⟩
theorem chk18_9_of_lt (w : BitVec 32) (h : w.toNat < 50000) : k18_chk9 w := ⟨row_inb18 w h, row_inb18 w h⟩
theorem chk18_10_of_lt (w : BitVec 32) (h : w.toNat < 50000) : k18_chk10 w := ⟨row_inb18 w h, row_inb18 w h⟩
theorem chk18_11_of_lt (w : BitVec 32) (h : w.toNat < 50000) : k18_chk11 w := ⟨row_inb18 w h, row_inb18 w h⟩
theorem chk18_12_of_lt (w : BitVec 32) (h : w.toNat < 50000) : k18_chk12 w := ⟨row_inb18 w h, row_inb18 w h⟩
theorem chk18_13_of_lt (w : BitVec 32) (h : w.toNat < 50000) : k18_chk13 w := ⟨row_inb18 w h, row_inb18 w h⟩
theorem chk18_14_of_lt (w : BitVec 32) (h : w.toNat < 50000) : k18_chk14 w := ⟨row_inb18 w h, row_inb18 w h⟩
theorem chk18_15_of_lt (w : BitVec 32) (h : w.toNat < 50000) : k18_chk15 w := ⟨row_inb18 w h, row_inb18 w h⟩
theorem chk18_16_of_lt (w : BitVec 32) (h : w.toNat < 50000) : k18_chk16 w := row_inb18 w h

/-- A whole points-to as what stays behind, sixteen read tokens numbered `b + 15` down to `b`, and the tokens below
    `b` kept as one family. -/
theorem toksAt18 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 334 … 349. -/
theorem toks18 {ℓ : Loc nD τ sig} (f : Buf (Elt F) ℓ) :
    (ℓ ↦{fullShare} f : sProp 𝕄) ⊣⊢ iprop((ℓ ↦{Transfers.shareDrop fullShare 350} f) ∗ (ℓ ↦{Transfers.shareTokN fullShare 349} f) ∗ (ℓ ↦{Transfers.shareTokN fullShare 348} f) ∗ (ℓ ↦{Transfers.shareTokN fullShare 347} f) ∗ (ℓ ↦{Transfers.shareTokN fullShare 346} f) ∗ (ℓ ↦{Transfers.shareTokN fullShare 345} f) ∗ (ℓ ↦{Transfers.shareTokN fullShare 344} f) ∗ (ℓ ↦{Transfers.shareTokN fullShare 343} f) ∗ (ℓ ↦{Transfers.shareTokN fullShare 342} f) ∗ (ℓ ↦{Transfers.shareTokN fullShare 341} f) ∗ (ℓ ↦{Transfers.shareTokN fullShare 340} f) ∗ (ℓ ↦{Transfers.shareTokN fullShare 339} f) ∗ (ℓ ↦{Transfers.shareTokN fullShare 338} f) ∗ (ℓ ↦{Transfers.shareTokN fullShare 337} f) ∗ (ℓ ↦{Transfers.shareTokN fullShare 336} f) ∗ (ℓ ↦{Transfers.shareTokN fullShare 335} f) ∗ (ℓ ↦{Transfers.shareTokN fullShare 334} f)
      ∗ BI.bigSep (Finset.range 334) fun k => ℓ ↦{Transfers.shareTokN fullShare k} f) :=
  toksAt18 f 334

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun18 (c : Dev nD) (i : grid18.Coords) (arg3 : Memref sig .tc .vmem S16x1 .f32) (harg3 : arg3.IsWhole) (arg4 : Memref sig .tc .vmem S16x262 .f32) (harg4 : arg4.IsWhole)
    (x0 : Vec F S16x1 .f32) (tb : HbBuf18 (F := F) c tbM18) (fh0 : HbBuf18 (F := F) c hbM18) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM18 fullShare d) ∗ sems18 c ∗ hbPt18 c hbM18 fh0 ∗ hbPt18 c tbM18 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM18 fullShare d) ∗ sems18 c ∗ hbPt18 c hbM18 fh0 ∗ hbPt18 c tbM18 tb ∗ (∃ W', owes (c : Thread nD τ) 0 W')) -∗ K ⟨⟩))
          ⊢ wp frame (wpE (defs₀ (F := F)) Variants.none c none) Set.univ (cc18_kernel i tbM18 (Memref.isWhole_whole _) hbM18 (Memref.isWhole_whole _) arg3 harg3 arg4 harg4 scM18 (Memref.isWhole_whole _) cc18_scratch1) K } := by
  have k18_hw1 : k18_chk1 (tbM18.view.readAt (Elt F) (Rect.unit (s := S50000) (k18_off1 i) S1.size (k18_off1_inb i)).toLoadRect tb (Shape.Idx.first (numel1_S1.symm ▸ Nat.one_pos))) := chk18_1_of_lt _ (hH _)
  have k18_hw2 : k18_chk2 (tbM18.view.readAt (Elt F) (Rect.unit (s := S50000) (k18_off3 i) S1.size (k18_off3_inb i)).toLoadRect tb (Shape.Idx.first (numel1_S1.symm ▸ Nat.one_pos))) := chk18_2_of_lt _ (hH _)
  have k18_hw3 : k18_chk3 (tbM18.view.readAt (Elt F) (Rect.unit (s := S50000) (k18_off5 i) S1.size (k18_off5_inb i)).toLoadRect tb (Shape.Idx.first (numel1_S1.symm ▸ Nat.one_pos))) := chk18_3_of_lt _ (hH _)
  have k18_hw4 : k18_chk4 (tbM18.view.readAt (Elt F) (Rect.unit (s := S50000) (k18_off7 i) S1.size (k18_off7_inb i)).toLoadRect tb (Shape.Idx.first (numel1_S1.symm ▸ Nat.one_pos))) := chk18_4_of_lt _ (hH _)
  have k18_hw5 : k18_chk5 (tbM18.view.readAt (Elt F) (Rect.unit (s := S50000) (k18_off9 i) S1.size (k18_off9_inb i)).toLoadRect tb (Shape.Idx.first (numel1_S1.symm ▸ Nat.one_pos))) := chk18_5_of_lt _ (hH _)
  have k18_hw6 : k18_chk6 (tbM18.view.readAt (Elt F) (Rect.unit (s := S50000) (k18_off11 i) S1.size (k18_off11_inb i)).toLoadRect tb (Shape.Idx.first (numel1_S1.symm ▸ Nat.one_pos))) := chk18_6_of_lt _ (hH _)
  have k18_hw7 : k18_chk7 (tbM18.view.readAt (Elt F) (Rect.unit (s := S50000) (k18_off13 i) S1.size (k18_off13_inb i)).toLoadRect tb (Shape.Idx.first (numel1_S1.symm ▸ Nat.one_pos))) := chk18_7_of_lt _ (hH _)
  have k18_hw8 : k18_chk8 (tbM18.view.readAt (Elt F) (Rect.unit (s := S50000) (k18_off15 i) S1.size (k18_off15_inb i)).toLoadRect tb (Shape.Idx.first (numel1_S1.symm ▸ Nat.one_pos))) := chk18_8_of_lt _ (hH _)
  have k18_hw9 : k18_chk9 (tbM18.view.readAt (Elt F) (Rect.unit (s := S50000) (k18_off17 i) S1.size (k18_off17_inb i)).toLoadRect tb (Shape.Idx.first (numel1_S1.symm ▸ Nat.one_pos))) := chk18_9_of_lt _ (hH _)
  have k18_hw10 : k18_chk10 (tbM18.view.readAt (Elt F) (Rect.unit (s := S50000) (k18_off19 i) S1.size (k18_off19_inb i)).toLoadRect tb (Shape.Idx.first (numel1_S1.symm ▸ Nat.one_pos))) := chk18_10_of_lt _ (hH _)
  have k18_hw11 : k18_chk11 (tbM18.view.readAt (Elt F) (Rect.unit (s := S50000) (k18_off21 i) S1.size (k18_off21_inb i)).toLoadRect tb (Shape.Idx.first (numel1_S1.symm ▸ Nat.one_pos))) := chk18_11_of_lt _ (hH _)
  have k18_hw12 : k18_chk12 (tbM18.view.readAt (Elt F) (Rect.unit (s := S50000) (k18_off23 i) S1.size (k18_off23_inb i)).toLoadRect tb (Shape.Idx.first (numel1_S1.symm ▸ Nat.one_pos))) := chk18_12_of_lt _ (hH _)
  have k18_hw13 : k18_chk13 (tbM18.view.readAt (Elt F) (Rect.unit (s := S50000) (k18_off25 i) S1.size (k18_off25_inb i)).toLoadRect tb (Shape.Idx.first (numel1_S1.symm ▸ Nat.one_pos))) := chk18_13_of_lt _ (hH _)
  have k18_hw14 : k18_chk14 (tbM18.view.readAt (Elt F) (Rect.unit (s := S50000) (k18_off27 i) S1.size (k18_off27_inb i)).toLoadRect tb (Shape.Idx.first (numel1_S1.symm ▸ Nat.one_pos))) := chk18_14_of_lt _ (hH _)
  have k18_hw15 : k18_chk15 (tbM18.view.readAt (Elt F) (Rect.unit (s := S50000) (k18_off29 i) S1.size (k18_off29_inb i)).toLoadRect tb (Shape.Idx.first (numel1_S1.symm ▸ Nat.one_pos))) := chk18_15_of_lt _ (hH _)
  have k18_hw16 : k18_chk16 (tbM18.view.readAt (Elt F) (Rect.unit (s := S50000) (k18_off31 i) S1.size (k18_off31_inb i)).toLoadRect tb (Shape.Idx.first (numel1_S1.symm ▸ Nat.one_pos))) := chk18_16_of_lt _ (hH _)
  refine ⟨?_, fun W K => ?run⟩
  case run =>
    simp only [cc18_kernel_eq_skeleton]; unfold cc18_kernel_skel
    simp only [k18_part7_eq_skeleton]; unfold k18_part7_skel
    simp only [k18_part1_eq_skeleton, k18_part2_eq_skeleton, k18_part3_eq_skeleton, k18_part4_eq_skeleton, k18_part5_eq_skeleton, k18_part6_eq_skeleton]
    unfold owns sems18
    iintro ⟨⟨%f0, %hf0, H0⟩, ⟨%d1, %f1, -, H18⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks18 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k18_hw1 | sl_exact k18_hw2 | sl_exact k18_hw3 | sl_exact k18_hw4 | sl_exact k18_hw5 | sl_exact k18_hw6 | sl_exact k18_hw7 | sl_exact k18_hw8 | sl_exact k18_hw9 | sl_exact k18_hw10 | sl_exact k18_hw11 | sl_exact k18_hw12 | sl_exact k18_hw13 | sl_exact k18_hw14 | sl_exact k18_hw15 | sl_exact k18_hw16)
    sl_step
    iapply Hk
    isplitl [H0]
    · iexists _; isplitr; · ipureintro; exact harg3.read_unread _
      iexact H0
    isplitl [H18]; · iexists _; iexact H18
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks18 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg18 (F := F)).Adm)

/-- Each window's current staging memref at point t, spelled as the pipeline passes it, and its wholeness. -/
abbrev ms18_0 (t : Fin (cfg18 a).N) : Memref sig .tc .vmem S16x1 .f32 := spec18_0.stage ((cfg18 a).slots t 0)
abbrev hs18_0 (t : Fin (cfg18 a).N) : (ms18_0 a t).IsWhole := hstage18_0 (((cfg18 a).slots t 0).cast nbuf18_0)
abbrev ms18_1 (t : Fin (cfg18 a).N) : Memref sig .tc .vmem S16x262 .f32 := spec18_1.stage ((cfg18 a).slots t 1)
abbrev hs18_1 (t : Fin (cfg18 a).N) : (ms18_1 a t).IsWhole := hstage18_1 (((cfg18 a).slots t 1).cast nbuf18_1)

/-- The kernel body at point t, on what the pipeline calls it with. -/
abbrev bodyAt18 (t : Fin (cfg18 a).N) : Prog (TpuEff nD τ sig (Elt F) Λ₀ .tc) PUnit :=
  cc18_kernel (grid18.coords t) tbM18 (Memref.isWhole_whole _) hbM18 (Memref.isWhole_whole _) (ms18_0 a t) (hs18_0 a t) (ms18_1 a t) (hs18_1 a t) scM18 (Memref.isWhole_whole _) cc18_scratch1

/-! ## The invariant, conjunct by conjunct -/

/-- The sixteen own cells at zero, listed. -/
theorem ownSems018_eq (c : Dev nD) :
    (Pipeline.ownSems0 (Ix := Unit) (Name := ℕ) (U := Pipeline.UD sig nD τ) (Lvl := ℕ) (Val := Elt F) (τ := τ) osem18 c : sProp 𝕄) = sems18 c := by
  rw [Pipeline.ownSems0_eq_of_list c osem18 [0, 1, 2, 3, 4, 5, 6, 7, 8, 9, 10, 11, 12, 13, 14, 15] (by decide) (by decide)]; rfl

/-- The gathered array's points-to at the region-entry contents. -/
theorem hbmPts18_eq (c : Dev nD) :
    (bigSep H18 (fun b => ((c : Thread nD τ).loc b) ↦{fullShare} V c b) : sProp 𝕄) = iprop(hbPt18 c hbM18 (V c main_v71)) := by
  rw [BI.bigSep_eq_bigSepL_of_eq [main_v71] (by decide) (by decide)]; rfl

/-- The row table, whole, at the contents the region is launched with. -/
theorem prefHeld18_eq (c : Dev nD) :
    (Pipeline.prefHeld (Ix := Unit) (Name := ℕ) (U := Pipeline.UD sig nD τ) (Lvl := ℕ) pre18 c (fun _ => fullShare) a.1 : sProp 𝕄) = iprop(hbPt18 c tbM18 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD18_eq (c : Dev nD) :
    (Pipeline.ΦD osem18 spec18 H18 V c : sProp 𝕄)
      = iprop(iprop((∃ d, owns (c : Thread nD τ) scM18 fullShare d) ∗ Pipeline.scopedRestBut (Ix := Unit) (Name := ℕ) (U := Pipeline.UD sig nD τ) (Lvl := ℕ) (Val := Elt F) spec18 c [cc18_scratch0])
          ∗ (∃ r, prngReg c r) ∗ sems18 c ∗ iprop(hbPt18 c hbM18 (V c main_v71))) := by
  rw [Pipeline.ΦD_eq, scopedRest18_split, ownSems018_eq, hbmPts18_eq]; simp only [scM18, owns_whole]; try rfl

/-! ## The windows' blocks -/

/-- Window w's block at point t, read off its array as the region finds it. -/
def iblk18 (c : Dev nD) (w : Fin (cfg18 a).W) (t : Fin (cfg18 a).N) : (((cfg18 a).win w).xblock ((cfg18 a).grid.coords t)).Idx → Elt F ((cfg18 a).win w).elt :=
  (((cfg18 a).win w).blk t).view.read (Elt F) (V c (Pipeline.arrRef spec18 w))

/-- Input window 0's current staging buffer holds its block at every point, fetched there or not. -/
theorem before18_0_of {c : Dev nD} (dat : Dat τ (Elt F) Unit ℕ (Pipeline.UD sig nD τ) ℕ (cfg18 a) c) (hA : dat.A 0 = V c (Pipeline.arrRef spec18 0))
    (hafter : ∀ t, dat.after 0 t = iblk18 V a c 0 t) (t : Fin (cfg18 a).N) (d) : dat.before 0 t d = iblk18 V a c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

/-! ## What the run leaves in the output window's buffer -/

/-- The run's pieces for the output tile its block, so they cover it. -/
theorem cover18_1 (c : Dev nD) (i : grid18.Coords) (arg3 : Memref sig .tc .vmem S16x1 .f32) (harg3 : arg3.IsWhole) (arg4 : Memref sig .tc .vmem S16x262 .f32) (harg4 : arg4.IsWhole)
    (x0 : Vec F S16x1 .f32) (tb : HbBuf18 (F := F) c tbM18) (fh0 : HbBuf18 (F := F) c hbM18) (hT : ∀ x, (tb x).toNat < 50000) (y : S16x262.Idx) :
    ∃ pc ∈ (kernelRun18 c i arg3 harg3 arg4 harg4 x0 tb fh0 hT).1, y ∈ pc.1.set :=
  View.cover_of_tiledL (kernelRun18 c i arg3 harg3 arg4 harg4 x0 tb fh0 hT).1 S16x262.size (by sl_kernel_rfl) y

/-- One staging buffer of the output window, through which its contents are stated. -/
abbrev VO18_1 : View sig .tc .vmem S16x262 .f32 := (Memref.whole cc18_stg1_0 : Memref sig .tc .vmem S16x262 .f32).view

/-- What the run leaves in the output's staging buffer: its pieces read back over junk. -/
def out18_1 (c : Dev nD) (i : grid18.Coords) (arg3 : Memref sig .tc .vmem S16x1 .f32) (harg3 : arg3.IsWhole) (arg4 : Memref sig .tc .vmem S16x262 .f32) (harg4 : arg4.IsWhole)
    (x0 : Vec F S16x1 .f32) (tb : HbBuf18 (F := F) c tbM18) (fh0 : HbBuf18 (F := F) c hbM18) (hT : ∀ x, (tb x).toNat < 50000) : Vec F S16x262 .f32 :=
  VO18_1.read (Elt F) (VO18_1.writes (Elt F) VO18_1.junk (kernelRun18 c i arg3 harg3 arg4 harg4 x0 tb fh0 hT).1)

/-- Every word of the table is a row of the gathered array, from the same of its words by position. -/
theorem tbl_lt18 (hH : ∀ j : Fin 50000, ((a.1 0) (ValueIdx.ix1 j)).toNat < 50000) (c : Dev nD) : ∀ x, (((a.1 0 : HbBuf18 (F := F) c tbM18)) x).toNat < 50000 :=
  fun x => by rw [ValueIdx.eq_ix1 x]; exact hH _

/-- What the output's staging buffer holds after the body at point t: the run's contents at the point's memrefs, the
    norm block, the table and the gathered array. -/
def outsAt18 (hH : ∀ j : Fin 50000, ((a.1 0) (ValueIdx.ix1 j)).toNat < 50000) (c : Dev nD) (t : Fin (cfg18 a).N) : Vec F S16x262 .f32 :=
  out18_1 c (grid18.coords t) (ms18_0 a t) (hs18_0 a t) (ms18_1 a t) (hs18_1 a t) (iblk18 V a c 0 t) (a.1 0) (V c main_v71) (tbl_lt18 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat18 (hH : ∀ j : Fin 50000, ((a.1 0) (ValueIdx.ix1 j)).toNat < 50000) (c : Dev nD) : Dat τ (Elt F) Unit ℕ (Pipeline.UD sig nD τ) ℕ (cfg18 a) c where
  A w := V c (Pipeline.arrRef spec18 w)
  after w t := match w with
    | ⟨0, _⟩ => iblk18 V a c 0 t
    | ⟨1, _⟩ => (outsAt18 V a hH c t)
  Φ _ := iprop(Pipeline.ΦD osem18 spec18 H18 V c ∗ Pipeline.prefHeld pre18 c (fun _ => fullShare) a.1)
  q _ := fullShare
  owed _ := 0

/-- The proof data's arrays are the region-entry contents. -/
theorem A_eq18 (hH : ∀ j : Fin 50000, ((a.1 0) (ValueIdx.ix1 j)).toNat < 50000) (c : Dev nD) (w : Fin (cfg18 a).W) : (dat18 V a hH c).A w = V c (Pipeline.arrRef spec18 w) := by
  dsimp only [dat18]

/-- What the body leaves, window by window. -/
theorem after18_0 (hH : ∀ j : Fin 50000, ((a.1 0) (ValueIdx.ix1 j)).toNat < 50000) (c : Dev nD) (t : Fin (cfg18 a).N) : (dat18 V a hH c).after 0 t = iblk18 V a c 0 t := by dsimp only [dat18]; try rfl
theorem after18_1 (hH : ∀ j : Fin 50000, ((a.1 0) (ValueIdx.ix1 j)).toNat < 50000) (c : Dev nD) (t : Fin (cfg18 a).N) : (dat18 V a hH c).after 1 t = (outsAt18 V a hH c t) := by dsimp only [dat18]; try rfl

/-- The input's current staging buffer holds its block at every point, fetched there or not. -/
theorem before18_0 (hH : ∀ j : Fin 50000, ((a.1 0) (ValueIdx.ix1 j)).toNat < 50000) (c : Dev nD) (t : Fin (cfg18 a).N) (d) : (dat18 V a hH c).before 0 t d = iblk18 V a c 0 t :=
  before18_0_of V a (dat18 V a hH c) (A_eq18 V a hH c 0) (after18_0 V a hH c) t d

/-! ## The body obligation, at a generic point -/

/-- What the body is called with at point t, the windows one by one, -/
def bodyPre18 (hH : ∀ j : Fin 50000, ((a.1 0) (ValueIdx.ix1 j)).toNat < 50000) (c : Dev nD) (t : Fin (cfg18 a).N) : sProp 𝕄 :=
  iprop((dat18 V a hH c).Φ t.castSucc ∗ (dat18 V a hH c).owesAt () t.castSucc
    ∗ (∃ d, owns (c : Thread nD τ) (ms18_0 a t) fullShare ((dat18 V a hH c).before 0 t d))
    ∗ (∃ d, owns (c : Thread nD τ) (ms18_1 a t) fullShare ((dat18 V a hH c).before 1 t d)))

/-- and what it returns. -/
def bodyPost18 (hH : ∀ j : Fin 50000, ((a.1 0) (ValueIdx.ix1 j)).toNat < 50000) (c : Dev nD) (t : Fin (cfg18 a).N) : sProp 𝕄 :=
  iprop((dat18 V a hH c).Φ t.succ ∗ (dat18 V a hH c).owesAt () t.succ
    ∗ owns (c : Thread nD τ) (ms18_0 a t) fullShare ((dat18 V a hH c).after 0 t)
    ∗ owns (c : Thread nD τ) (ms18_1 a t) fullShare ((dat18 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body18 (hH : ∀ j : Fin 50000, ((a.1 0) (ValueIdx.ix1 j)).toNat < 50000) (c : Dev nD) (t : Fin (cfg18 a).N) :
    bodyPre18 V a hH c t ⊢ wp frame (wpE (defs₀ (F := F)) Variants.none c none) Set.univ (bodyAt18 a t) (fun _ => bodyPost18 V a hH c t) := by
  unfold bodyPre18 bodyPost18 bodyAt18
  simp only [before18_0]
  rw [show (dat18 V a hH c).Φ t.succ = (dat18 V a hH c).Φ t.castSucc from rfl,
    after18_0, after18_1]
  rw [show (dat18 V a hH c).Φ t.castSucc = iprop(Pipeline.ΦD osem18 spec18 H18 V c ∗ Pipeline.prefHeld pre18 c (fun _ => fullShare) a.1) from rfl, PhiD18_eq, prefHeld18_eq]
  unfold Dat.owesAt Pipeline.owesWithin
  rw [show (dat18 V a hH c).owed t.castSucc = 0 from rfl, show (dat18 V a hH c).owed t.succ = 0 from rfl]
  unfold outsAt18
  unfold out18_1
  iintro ⟨⟨⟨⟨HS0, HSr⟩, Hg, Hq, Hh0⟩, HT⟩, ⟨%W, -, HW⟩, ⟨%d0, H0⟩, ⟨%d1, H18⟩⟩
  iapply ((kernelRun18 c (grid18.coords t) _ _ _ _ (iblk18 V a c 0 t) (a.1 0) (V c main_v71) (tbl_lt18 a hH c)).2 W _)
  isplitl [H0]; · iexact H0
  isplitl [H18]; · iexists _; iexact H18
  isplitl [HS0]; · iexact HS0
  isplitl [Hq]; · iexact Hq
  isplitl [Hh0]; · iexact Hh0
  isplitl [HT]; · iexact HT
  isplitl [HW]; · iexact HW
  iintro ⟨H0, ⟨%e1, H18⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H18
  ipureintro; exact View.read_writes_of_cover _ _ _ _ _ (cover18_1 c _ _ _ _ _ _ _ _ _)

/-- The library's body obligation, at every point. -/
theorem body_obligation18 (hH : ∀ j : Fin 50000, ((a.1 0) (ValueIdx.ix1 j)).toNat < 50000) (c : Dev nD) : BodyObligation (dat18 (F := F) V a hH c) (defs₀ (F := F)) Variants.none () Set.univ := fun t => by
  rw [bigSep_W18, bigSep_W18]
  exact sound_body18 V a hH c t

end Cert.Kernel.Hand

end
-- ==== Proof.Bits.G19.lean ====
import proofs.«414392_j7919919694132_2_alg».proof.Proof.Gen.Kernel.Launch
import proofs.«414392_j7919919694132_2_alg».proof.Proof.Gen.Kernel.Skeleton
import proofs.«414392_j7919919694132_2_alg».proof.Proof.Gen.Kernel.Points
import Idealize.ShloMosaic.Lib.Pipeline.FrameBody
import Idealize.ShloMosaic.Lib.Pipeline.Kit
import Idealize.ShloMosaic.Lib.ValueIdx
import Idealize.ShloMosaic.Lib.Ring
import Idealize.ShloMosaic.Lib.Tactic

/-! # Pipeline 19 (sixteen-row gather and scale, layer 2): the body's run and the body obligation

Per grid point the body reads sixteen row indices from the prefetched table, copies those rows of the gathered
array into the sixteen rows of its scratch — sixteen transfers in flight at once, each on a semaphore of its own —,
waits for all of them, and stores the scratch scaled row-wise by the norm block. The gathered array is read by all
sixteen transfers at once, so it is held as one read share per semaphore; each transfer lands in its own row of the
scratch. Under the side condition that every word of the table indexes a row of the gathered array, the body runs. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The body's own DMA semaphores, cell by cell. -/
abbrev osem19 : Fin 16 → SemLoc sig := fun j =>
  (![SemLoc.dma 354, SemLoc.dma 355, SemLoc.dma 356, SemLoc.dma 357, SemLoc.dma 358, SemLoc.dma 359, SemLoc.dma 360, SemLoc.dma 361,
     SemLoc.dma 362, SemLoc.dma 363, SemLoc.dma 364, SemLoc.dma 365, SemLoc.dma 366, SemLoc.dma 367, SemLoc.dma 368, SemLoc.dma 369] : Fin 16 → SemLoc sig) j
theorem ownSemFacts19 : Pipeline.OwnSemFacts spec19 osem19 := by decide

/-- The HBM operand the body gathers rows from: unscoped, no window's array, no table. -/
def H19 : Finset (Ref sig .tc) := {main_v71}
theorem H19_sub : H19 ⊆ Pipeline.restRefsP sig pre19 spec19 := by decide

/-- The operands the pipeline does not stage, whole. -/
abbrev tbM19 : Memref sig .tc .smem S50000 .i32 := Memref.whole main_v97
abbrev hbM19 : Memref sig .tc .hbm S50000x262 .f32 := Memref.whole main_v71
abbrev scM19 : Memref sig .tc .vmem S16x262 .f32 := Memref.whole cc19_scratch0

/-- A whole memref's buffer on core `c`, and it held whole at `f`. -/
abbrev HbBuf19 (c : Dev nD) {sp : Space} {S : Shape} {e : EltTy} (M : Memref sig .tc sp S e) : Type := Buf (Elt F) (M.view.loc (c : Thread nD τ))
abbrev hbPt19 (c : Dev nD) {sp : Space} {S : Shape} {e : EltTy} (M : Memref sig .tc sp S e) (f : HbBuf19 (F := F) c M) : sProp 𝕄 :=
  M.view.loc (c : Thread nD τ) ↦{fullShare} f

/-- The sixteen own cells at zero. -/
abbrev sems19 (c : Dev nD) : sProp 𝕄 :=
  iprop(semVal ((c : Thread nD τ), SemLoc.dma 354) 0 ∗ semVal ((c : Thread nD τ), SemLoc.dma 355) 0 ∗ semVal ((c : Thread nD τ), SemLoc.dma 356) 0 ∗ semVal ((c : Thread nD τ), SemLoc.dma 357) 0 ∗ semVal ((c : Thread nD τ), SemLoc.dma 358) 0 ∗ semVal ((c : Thread nD τ), SemLoc.dma 359) 0 ∗ semVal ((c : Thread nD τ), SemLoc.dma 360) 0 ∗ semVal ((c : Thread nD τ), SemLoc.dma 361) 0 ∗ semVal ((c : Thread nD τ), SemLoc.dma 362) 0 ∗ semVal ((c : Thread nD τ), SemLoc.dma 363) 0 ∗ semVal ((c : Thread nD τ), SemLoc.dma 364) 0 ∗ semVal ((c : Thread nD τ), SemLoc.dma 365) 0 ∗ semVal ((c : Thread nD τ), SemLoc.dma 366) 0 ∗ semVal ((c : Thread nD τ), SemLoc.dma 367) 0 ∗ semVal ((c : Thread nD τ), SemLoc.dma 368) 0 ∗ semVal ((c : Thread nD τ), SemLoc.dma 369) 0)

/-- A row index inside the gathered array puts the one-row slice inside it. -/
theorem row_inb19 (w : BitVec 32) (h : w.toNat < 50000) : ∀ a, (![w.toNat, 0] : Fin 2 → Nat) a + S1x262.size a ≤ S50000x262.size a := by
  intro a; fin_cases a
  · show w.toNat + 1 ≤ 50000; omega
  · show 0 + 262 ≤ 262; omega
theorem chk19_1_of_lt (w : BitVec 32) (h : w.toNat < 50000) : k19_chk1 w := ⟨row_inb19 w h, row_inb19 w h⟩
theorem chk19_2_of_lt (w : BitVec 32) (h : w.toNat < 50000) : k19_chk2 w := ⟨row_inb19 w h, row_inb19 w h⟩
theorem chk19_3_of_lt (w : BitVec 32) (h : w.toNat < 50000) : k19_chk3 w := ⟨row_inb19 w h, row_inb19 w h⟩
theorem chk19_4_of_lt (w : BitVec 32) (h : w.toNat < 50000) : k19_chk4 w := ⟨row_inb19 w h, row_inb19 w h⟩
theorem chk19_5_of_lt (w : BitVec 32) (h : w.toNat < 50000) : k19_chk5 w := ⟨row_inb19 w h, row_inb19 w h⟩
theorem chk19_6_of_lt (w : BitVec 32) (h : w.toNat < 50000) : k19_chk6 w := ⟨row_inb19 w h, row_inb19 w h⟩
theorem chk19_7_of_lt (w : BitVec 32) (h : w.toNat < 50000) : k19_chk7 w := ⟨row_inb19 w h, row_inb19 w h⟩
theorem chk19_8_of_lt (w : BitVec 32) (h : w.toNat < 50000) : k19_chk8 w := ⟨row_inb19 w h, row_inb19 w h⟩
theorem chk19_9_of_lt (w : BitVec 32) (h : w.toNat < 50000) : k19_chk9 w := ⟨row_inb19 w h, row_inb19 w h⟩
theorem chk19_10_of_lt (w : BitVec 32) (h : w.toNat < 50000) : k19_chk10 w := ⟨row_inb19 w h, row_inb19 w h⟩
theorem chk19_11_of_lt (w : BitVec 32) (h : w.toNat < 50000) : k19_chk11 w := ⟨row_inb19 w h, row_inb19 w h⟩
theorem chk19_12_of_lt (w : BitVec 32) (h : w.toNat < 50000) : k19_chk12 w := ⟨row_inb19 w h, row_inb19 w h⟩
theorem chk19_13_of_lt (w : BitVec 32) (h : w.toNat < 50000) : k19_chk13 w := ⟨row_inb19 w h, row_inb19 w h⟩
theorem chk19_14_of_lt (w : BitVec 32) (h : w.toNat < 50000) : k19_chk14 w := ⟨row_inb19 w h, row_inb19 w h⟩
theorem chk19_15_of_lt (w : BitVec 32) (h : w.toNat < 50000) : k19_chk15 w := ⟨row_inb19 w h, row_inb19 w h⟩
theorem chk19_16_of_lt (w : BitVec 32) (h : w.toNat < 50000) : k19_chk16 w := row_inb19 w h

/-- A whole points-to as what stays behind, sixteen read tokens numbered `b + 15` down to `b`, and the tokens below
    `b` kept as one family. -/
theorem toksAt19 {ℓ : Loc nD τ sig} (f : Buf (Elt F) ℓ) (b : ℕ) :
    (ℓ ↦{fullShare} f : sProp 𝕄) ⊣⊢ iprop((ℓ ↦{Transfers.shareDrop fullShare (b + 16)} f) ∗ (ℓ ↦{Transfers.shareTokN fullShare (b + 15)} f) ∗ (ℓ ↦{Transfers.shareTokN fullShare (b + 14)} f) ∗ (ℓ ↦{Transfers.shareTokN fullShare (b + 13)} f) ∗ (ℓ ↦{Transfers.shareTokN fullShare (b + 12)} f) ∗ (ℓ ↦{Transfers.shareTokN fullShare (b + 11)} f) ∗ (ℓ ↦{Transfers.shareTokN fullShare (b + 10)} f) ∗ (ℓ ↦{Transfers.shareTokN fullShare (b + 9)} f) ∗ (ℓ ↦{Transfers.shareTokN fullShare (b + 8)} f) ∗ (ℓ ↦{Transfers.shareTokN fullShare (b + 7)} f) ∗ (ℓ ↦{Transfers.shareTokN fullShare (b + 6)} f) ∗ (ℓ ↦{Transfers.shareTokN fullShare (b + 5)} f) ∗ (ℓ ↦{Transfers.shareTokN fullShare (b + 4)} f) ∗ (ℓ ↦{Transfers.shareTokN fullShare (b + 3)} f) ∗ (ℓ ↦{Transfers.shareTokN fullShare (b + 2)} f) ∗ (ℓ ↦{Transfers.shareTokN fullShare (b + 1)} f) ∗ (ℓ ↦{Transfers.shareTokN fullShare b} f)
      ∗ BI.bigSep (Finset.range b) fun k => ℓ ↦{Transfers.shareTokN fullShare k} f) := by
  have h := Transfers.pointsTo_toks_range (Ix := Unit) (Name := ℕ) (U := Pipeline.UD sig nD τ) (Lvl := ℕ) (ℓ := ℓ) (S := Finset.univ) (f := f) fullShare (b + 16)
  have e : ∀ n, BI.bigSep (Finset.range (n + 1)) (fun k => (ℓ ↦{Transfers.shareTokN fullShare k} f : sProp 𝕄))
      = iprop((ℓ ↦{Transfers.shareTokN fullShare n} f) ∗ BI.bigSep (Finset.range n) fun k => ℓ ↦{Transfers.shareTokN fullShare k} f) := fun n => by
    rw [Finset.range_add_one, BI.bigSep_insert Finset.notMem_range_self]; rfl
  rw [e, e, e, e, e, e, e, e, e, e, e, e, e, e, e, e] at h
  exact h

/-- The same at this body's cells: the sixteen numbers 354 … 369. -/
theorem toks19 {ℓ : Loc nD τ sig} (f : Buf (Elt F) ℓ) :
    (ℓ ↦{fullShare} f : sProp 𝕄) ⊣⊢ iprop((ℓ ↦{Transfers.shareDrop fullShare 370} f) ∗ (ℓ ↦{Transfers.shareTokN fullShare 369} f) ∗ (ℓ ↦{Transfers.shareTokN fullShare 368} f) ∗ (ℓ ↦{Transfers.shareTokN fullShare 367} f) ∗ (ℓ ↦{Transfers.shareTokN fullShare 366} f) ∗ (ℓ ↦{Transfers.shareTokN fullShare 365} f) ∗ (ℓ ↦{Transfers.shareTokN fullShare 364} f) ∗ (ℓ ↦{Transfers.shareTokN fullShare 363} f) ∗ (ℓ ↦{Transfers.shareTokN fullShare 362} f) ∗ (ℓ ↦{Transfers.shareTokN fullShare 361} f) ∗ (ℓ ↦{Transfers.shareTokN fullShare 360} f) ∗ (ℓ ↦{Transfers.shareTokN fullShare 359} f) ∗ (ℓ ↦{Transfers.shareTokN fullShare 358} f) ∗ (ℓ ↦{Transfers.shareTokN fullShare 357} f) ∗ (ℓ ↦{Transfers.shareTokN fullShare 356} f) ∗ (ℓ ↦{Transfers.shareTokN fullShare 355} f) ∗ (ℓ ↦{Transfers.shareTokN fullShare 354} f)
      ∗ BI.bigSep (Finset.range 354) fun k => ℓ ↦{Transfers.shareTokN fullShare k} f) :=
  toksAt19 f 354

set_option maxHeartbeats 4000000 in
/-- What the body's one store leaves in the output's staging memref, as pieces, with the proof that on whole staging
    memrefs — the norm block's at its contents, the output's and the scratch at anything, the sixteen own cells at zero,
    the gathered array and the row table whole at their contents, every word of the table a row of the gathered
    array — the body runs to the continuation holding the norm block as it was, the output's buffer with the pieces
    written, the scratch at some contents, the cells at zero again, the gathered array and the table as they were, and
    the sixteen waits recorded. The gathered array is cut into one read share per cell before the transfers are issued
    and joined again after the last wait. -/
noncomputable def kernelRun19 (c : Dev nD) (i : grid19.Coords) (arg3 : Memref sig .tc .vmem S16x1 .f32) (harg3 : arg3.IsWhole) (arg4 : Memref sig .tc .vmem S16x262 .f32) (harg4 : arg4.IsWhole)
    (x0 : Vec F S16x1 .f32) (tb : HbBuf19 (F := F) c tbM19) (fh0 : HbBuf19 (F := F) c hbM19) (hH : ∀ x, (tb x).toNat < 50000) :
    { L1 : List (View.Piece (Elt F) S16x262 .f32) //
      ∀ (W : Waits sig Unit) (K : PUnit → sProp 𝕄),
        iprop(owns (c : Thread nD τ) arg3 fullShare x0 ∗ (∃ d, owns (c : Thread nD τ) arg4 fullShare d) ∗ (∃ d, owns (c : Thread nD τ) scM19 fullShare d) ∗ sems19 c ∗ hbPt19 c hbM19 fh0 ∗ hbPt19 c tbM19 tb ∗ owes (c : Thread nD τ) 0 W
            ∗ (iprop(owns (c : Thread nD τ) arg3 fullShare x0 ∗ (∃ f, arg4.view.loc (c : Thread nD τ) ↦[arg4.view.set]{fullShare} arg4.view.writes (Elt F) f L1) ∗ (∃ d, owns (c : Thread nD τ) scM19 fullShare d) ∗ sems19 c ∗ hbPt19 c hbM19 fh0 ∗ hbPt19 c tbM19 tb ∗ (∃ W', owes (c : Thread nD τ) 0 W')) -∗ K ⟨⟩))
          ⊢ wp frame (wpE (defs₀ (F := F)) Variants.none c none) Set.univ (cc19_kernel i tbM19 (Memref.isWhole_whole _) hbM19 (Memref.isWhole_whole _) arg3 harg3 arg4 harg4 scM19 (Memref.isWhole_whole _) cc19_scratch1) K } := by
  have k19_hw1 : k19_chk1 (tbM19.view.readAt (Elt F) (Rect.unit (s := S50000) (k19_off1 i) S1.size (k19_off1_inb i)).toLoadRect tb (Shape.Idx.first (numel1_S1.symm ▸ Nat.one_pos))) := chk19_1_of_lt _ (hH _)
  have k19_hw2 : k19_chk2 (tbM19.view.readAt (Elt F) (Rect.unit (s := S50000) (k19_off3 i) S1.size (k19_off3_inb i)).toLoadRect tb (Shape.Idx.first (numel1_S1.symm ▸ Nat.one_pos))) := chk19_2_of_lt _ (hH _)
  have k19_hw3 : k19_chk3 (tbM19.view.readAt (Elt F) (Rect.unit (s := S50000) (k19_off5 i) S1.size (k19_off5_inb i)).toLoadRect tb (Shape.Idx.first (numel1_S1.symm ▸ Nat.one_pos))) := chk19_3_of_lt _ (hH _)
  have k19_hw4 : k19_chk4 (tbM19.view.readAt (Elt F) (Rect.unit (s := S50000) (k19_off7 i) S1.size (k19_off7_inb i)).toLoadRect tb (Shape.Idx.first (numel1_S1.symm ▸ Nat.one_pos))) := chk19_4_of_lt _ (hH _)
  have k19_hw5 : k19_chk5 (tbM19.view.readAt (Elt F) (Rect.unit (s := S50000) (k19_off9 i) S1.size (k19_off9_inb i)).toLoadRect tb (Shape.Idx.first (numel1_S1.symm ▸ Nat.one_pos))) := chk19_5_of_lt _ (hH _)
  have k19_hw6 : k19_chk6 (tbM19.view.readAt (Elt F) (Rect.unit (s := S50000) (k19_off11 i) S1.size (k19_off11_inb i)).toLoadRect tb (Shape.Idx.first (numel1_S1.symm ▸ Nat.one_pos))) := chk19_6_of_lt _ (hH _)
  have k19_hw7 : k19_chk7 (tbM19.view.readAt (Elt F) (Rect.unit (s := S50000) (k19_off13 i) S1.size (k19_off13_inb i)).toLoadRect tb (Shape.Idx.first (numel1_S1.symm ▸ Nat.one_pos))) := chk19_7_of_lt _ (hH _)
  have k19_hw8 : k19_chk8 (tbM19.view.readAt (Elt F) (Rect.unit (s := S50000) (k19_off15 i) S1.size (k19_off15_inb i)).toLoadRect tb (Shape.Idx.first (numel1_S1.symm ▸ Nat.one_pos))) := chk19_8_of_lt _ (hH _)
  have k19_hw9 : k19_chk9 (tbM19.view.readAt (Elt F) (Rect.unit (s := S50000) (k19_off17 i) S1.size (k19_off17_inb i)).toLoadRect tb (Shape.Idx.first (numel1_S1.symm ▸ Nat.one_pos))) := chk19_9_of_lt _ (hH _)
  have k19_hw10 : k19_chk10 (tbM19.view.readAt (Elt F) (Rect.unit (s := S50000) (k19_off19 i) S1.size (k19_off19_inb i)).toLoadRect tb (Shape.Idx.first (numel1_S1.symm ▸ Nat.one_pos))) := chk19_10_of_lt _ (hH _)
  have k19_hw11 : k19_chk11 (tbM19.view.readAt (Elt F) (Rect.unit (s := S50000) (k19_off21 i) S1.size (k19_off21_inb i)).toLoadRect tb (Shape.Idx.first (numel1_S1.symm ▸ Nat.one_pos))) := chk19_11_of_lt _ (hH _)
  have k19_hw12 : k19_chk12 (tbM19.view.readAt (Elt F) (Rect.unit (s := S50000) (k19_off23 i) S1.size (k19_off23_inb i)).toLoadRect tb (Shape.Idx.first (numel1_S1.symm ▸ Nat.one_pos))) := chk19_12_of_lt _ (hH _)
  have k19_hw13 : k19_chk13 (tbM19.view.readAt (Elt F) (Rect.unit (s := S50000) (k19_off25 i) S1.size (k19_off25_inb i)).toLoadRect tb (Shape.Idx.first (numel1_S1.symm ▸ Nat.one_pos))) := chk19_13_of_lt _ (hH _)
  have k19_hw14 : k19_chk14 (tbM19.view.readAt (Elt F) (Rect.unit (s := S50000) (k19_off27 i) S1.size (k19_off27_inb i)).toLoadRect tb (Shape.Idx.first (numel1_S1.symm ▸ Nat.one_pos))) := chk19_14_of_lt _ (hH _)
  have k19_hw15 : k19_chk15 (tbM19.view.readAt (Elt F) (Rect.unit (s := S50000) (k19_off29 i) S1.size (k19_off29_inb i)).toLoadRect tb (Shape.Idx.first (numel1_S1.symm ▸ Nat.one_pos))) := chk19_15_of_lt _ (hH _)
  have k19_hw16 : k19_chk16 (tbM19.view.readAt (Elt F) (Rect.unit (s := S50000) (k19_off31 i) S1.size (k19_off31_inb i)).toLoadRect tb (Shape.Idx.first (numel1_S1.symm ▸ Nat.one_pos))) := chk19_16_of_lt _ (hH _)
  refine ⟨?_, fun W K => ?run⟩
  case run =>
    simp only [cc19_kernel_eq_skeleton]; unfold cc19_kernel_skel
    simp only [k19_part7_eq_skeleton]; unfold k19_part7_skel
    simp only [k19_part1_eq_skeleton, k19_part2_eq_skeleton, k19_part3_eq_skeleton, k19_part4_eq_skeleton, k19_part5_eq_skeleton, k19_part6_eq_skeleton]
    unfold owns sems19
    iintro ⟨⟨%f0, %hf0, H0⟩, ⟨%d1, %f1, -, H19⟩, ⟨%ds0, %fs0, -, HS0⟩, ⟨Hq0, Hq1, Hq2, Hq3, Hq4, Hq5, Hq6, Hq7, Hq8, Hq9, Hq10, Hq11, Hq12, Hq13, Hq14, Hq15⟩, Hh0, Htb, HW, Hk⟩
    obtain rfl := harg3.eq_unread hf0
    ihave Hh' := (toks19 _).1 $$ Hh0
    icases Hh' with ⟨Hhr, Hh_15, Hh_14, Hh_13, Hh_12, Hh_11, Hh_10, Hh_9, Hh_8, Hh_7, Hh_6, Hh_5, Hh_4, Hh_3, Hh_2, Hh_1, Hh_0, Hhlow⟩
    set_option sl_exec.dmaWindow true in
    set_option sl_exec.rejoinHeartbeats 1000000 in
    set_option sl_exec.stepHeartbeats 1000000 in
    set_option sl_exec.dmaWindowSet true in
    sl_exec (disch := first | sl_exact k19_hw1 | sl_exact k19_hw2 | sl_exact k19_hw3 | sl_exact k19_hw4 | sl_exact k19_hw5 | sl_exact k19_hw6 | sl_exact k19_hw7 | sl_exact k19_hw8 | sl_exact k19_hw9 | sl_exact k19_hw10 | sl_exact k19_hw11 | sl_exact k19_hw12 | sl_exact k19_hw13 | sl_exact k19_hw14 | sl_exact k19_hw15 | sl_exact k19_hw16)
    sl_step
    iapply Hk
    isplitl [H0]
    · iexists _; isplitr; · ipureintro; exact harg3.read_unread _
      iexact H0
    isplitl [H19]; · iexists _; iexact H19
    isplitl [HS0]
    · iexists _, _; isplitr; swap; · iexact HS0
      ipureintro; rfl
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hhr Hh_15 Hh_14 Hh_13 Hh_12 Hh_11 Hh_10 Hh_9 Hh_8 Hh_7 Hh_6 Hh_5 Hh_4 Hh_3 Hh_2 Hh_1 Hh_0 Hhlow]
    · iapply (toks19 _).2
      isplitl [Hhr]; · iexact Hhr
      isplitl [Hh_15]; · iexact Hh_15
      isplitl [Hh_14]; · iexact Hh_14
      isplitl [Hh_13]; · iexact Hh_13
      isplitl [Hh_12]; · iexact Hh_12
      isplitl [Hh_11]; · iexact Hh_11
      isplitl [Hh_10]; · iexact Hh_10
      isplitl [Hh_9]; · iexact Hh_9
      isplitl [Hh_8]; · iexact Hh_8
      isplitl [Hh_7]; · iexact Hh_7
      isplitl [Hh_6]; · iexact Hh_6
      isplitl [Hh_5]; · iexact Hh_5
      isplitl [Hh_4]; · iexact Hh_4
      isplitl [Hh_3]; · iexact Hh_3
      isplitl [Hh_2]; · iexact Hh_2
      isplitl [Hh_1]; · iexact Hh_1
      isplitl [Hh_0]; · iexact Hh_0
      iexact Hhlow
    isplitl [Htb]; · iexact Htb
    iexists _; iexact HW

/-! ## The body as the pipeline calls it -/

variable (a : (pcfg19 (F := F)).Adm)

/-- Each window's current staging memref at point t, spelled as the pipeline passes it, and its wholeness. -/
abbrev ms19_0 (t : Fin (cfg19 a).N) : Memref sig .tc .vmem S16x1 .f32 := spec19_0.stage ((cfg19 a).slots t 0)
abbrev hs19_0 (t : Fin (cfg19 a).N) : (ms19_0 a t).IsWhole := hstage19_0 (((cfg19 a).slots t 0).cast nbuf19_0)
abbrev ms19_1 (t : Fin (cfg19 a).N) : Memref sig .tc .vmem S16x262 .f32 := spec19_1.stage ((cfg19 a).slots t 1)
abbrev hs19_1 (t : Fin (cfg19 a).N) : (ms19_1 a t).IsWhole := hstage19_1 (((cfg19 a).slots t 1).cast nbuf19_1)

/-- The kernel body at point t, on what the pipeline calls it with. -/
abbrev bodyAt19 (t : Fin (cfg19 a).N) : Prog (TpuEff nD τ sig (Elt F) Λ₀ .tc) PUnit :=
  cc19_kernel (grid19.coords t) tbM19 (Memref.isWhole_whole _) hbM19 (Memref.isWhole_whole _) (ms19_0 a t) (hs19_0 a t) (ms19_1 a t) (hs19_1 a t) scM19 (Memref.isWhole_whole _) cc19_scratch1

/-! ## The invariant, conjunct by conjunct -/

/-- The sixteen own cells at zero, listed. -/
theorem ownSems019_eq (c : Dev nD) :
    (Pipeline.ownSems0 (Ix := Unit) (Name := ℕ) (U := Pipeline.UD sig nD τ) (Lvl := ℕ) (Val := Elt F) (τ := τ) osem19 c : sProp 𝕄) = sems19 c := by
  rw [Pipeline.ownSems0_eq_of_list c osem19 [0, 1, 2, 3, 4, 5, 6, 7, 8, 9, 10, 11, 12, 13, 14, 15] (by decide) (by decide)]; rfl

/-- The gathered array's points-to at the region-entry contents. -/
theorem hbmPts19_eq (c : Dev nD) :
    (bigSep H19 (fun b => ((c : Thread nD τ).loc b) ↦{fullShare} V c b) : sProp 𝕄) = iprop(hbPt19 c hbM19 (V c main_v71)) := by
  rw [BI.bigSep_eq_bigSepL_of_eq [main_v71] (by decide) (by decide)]; rfl

/-- The row table, whole, at the contents the region is launched with. -/
theorem prefHeld19_eq (c : Dev nD) :
    (Pipeline.prefHeld (Ix := Unit) (Name := ℕ) (U := Pipeline.UD sig nD τ) (Lvl := ℕ) pre19 c (fun _ => fullShare) a.1 : sProp 𝕄) = iprop(hbPt19 c tbM19 (a.1 0)) := by
  unfold Pipeline.prefHeld
  rw [show (Finset.univ : Finset (Fin 1)) = {(0 : Fin 1)} from by decide, bigSep_singleton]
  rfl

/-- The invariant of a body with transfers of its own, conjunct by conjunct: the scratch owned at some contents, the other
    scoped buffers unopened, the generator register at some state, the own cells at zero, the gathered array at its
    region-entry contents. -/
theorem PhiD19_eq (c : Dev nD) :
    (Pipeline.ΦD osem19 spec19 H19 V c : sProp 𝕄)
      = iprop(iprop((∃ d, owns (c : Thread nD τ) scM19 fullShare d) ∗ Pipeline.scopedRestBut (Ix := Unit) (Name := ℕ) (U := Pipeline.UD sig nD τ) (Lvl := ℕ) (Val := Elt F) spec19 c [cc19_scratch0])
          ∗ (∃ r, prngReg c r) ∗ sems19 c ∗ iprop(hbPt19 c hbM19 (V c main_v71))) := by
  rw [Pipeline.ΦD_eq, scopedRest19_split, ownSems019_eq, hbmPts19_eq]; simp only [scM19, owns_whole]; try rfl

/-! ## The windows' blocks -/

/-- Window w's block at point t, read off its array as the region finds it. -/
def iblk19 (c : Dev nD) (w : Fin (cfg19 a).W) (t : Fin (cfg19 a).N) : (((cfg19 a).win w).xblock ((cfg19 a).grid.coords t)).Idx → Elt F ((cfg19 a).win w).elt :=
  (((cfg19 a).win w).blk t).view.read (Elt F) (V c (Pipeline.arrRef spec19 w))

/-- Input window 0's current staging buffer holds its block at every point, fetched there or not. -/
theorem before19_0_of {c : Dev nD} (dat : Dat τ (Elt F) Unit ℕ (Pipeline.UD sig nD τ) ℕ (cfg19 a) c) (hA : dat.A 0 = V c (Pipeline.arrRef spec19 0))
    (hafter : ∀ t, dat.after 0 t = iblk19 V a c 0 t) (t : Fin (cfg19 a).N) (d) : dat.before 0 t d = iblk19 V a c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

/-! ## What the run leaves in the output window's buffer -/

/-- The run's pieces for the output tile its block, so they cover it. -/
theorem cover19_1 (c : Dev nD) (i : grid19.Coords) (arg3 : Memref sig .tc .vmem S16x1 .f32) (harg3 : arg3.IsWhole) (arg4 : Memref sig .tc .vmem S16x262 .f32) (harg4 : arg4.IsWhole)
    (x0 : Vec F S16x1 .f32) (tb : HbBuf19 (F := F) c tbM19) (fh0 : HbBuf19 (F := F) c hbM19) (hT : ∀ x, (tb x).toNat < 50000) (y : S16x262.Idx) :
    ∃ pc ∈ (kernelRun19 c i arg3 harg3 arg4 harg4 x0 tb fh0 hT).1, y ∈ pc.1.set :=
  View.cover_of_tiledL (kernelRun19 c i arg3 harg3 arg4 harg4 x0 tb fh0 hT).1 S16x262.size (by sl_kernel_rfl) y

/-- One staging buffer of the output window, through which its contents are stated. -/
abbrev VO19_1 : View sig .tc .vmem S16x262 .f32 := (Memref.whole cc19_stg1_0 : Memref sig .tc .vmem S16x262 .f32).view

/-- What the run leaves in the output's staging buffer: its pieces read back over junk. -/
def out19_1 (c : Dev nD) (i : grid19.Coords) (arg3 : Memref sig .tc .vmem S16x1 .f32) (harg3 : arg3.IsWhole) (arg4 : Memref sig .tc .vmem S16x262 .f32) (harg4 : arg4.IsWhole)
    (x0 : Vec F S16x1 .f32) (tb : HbBuf19 (F := F) c tbM19) (fh0 : HbBuf19 (F := F) c hbM19) (hT : ∀ x, (tb x).toNat < 50000) : Vec F S16x262 .f32 :=
  VO19_1.read (Elt F) (VO19_1.writes (Elt F) VO19_1.junk (kernelRun19 c i arg3 harg3 arg4 harg4 x0 tb fh0 hT).1)

/-- Every word of the table is a row of the gathered array, from the same of its words by position. -/
theorem tbl_lt19 (hH : ∀ j : Fin 50000, ((a.1 0) (ValueIdx.ix1 j)).toNat < 50000) (c : Dev nD) : ∀ x, (((a.1 0 : HbBuf19 (F := F) c tbM19)) x).toNat < 50000 :=
  fun x => by rw [ValueIdx.eq_ix1 x]; exact hH _

/-- What the output's staging buffer holds after the body at point t: the run's contents at the point's memrefs, the
    norm block, the table and the gathered array. -/
def outsAt19 (hH : ∀ j : Fin 50000, ((a.1 0) (ValueIdx.ix1 j)).toNat < 50000) (c : Dev nD) (t : Fin (cfg19 a).N) : Vec F S16x262 .f32 :=
  out19_1 c (grid19.coords t) (ms19_0 a t) (hs19_0 a t) (ms19_1 a t) (hs19_1 a t) (iblk19 V a c 0 t) (a.1 0) (V c main_v71) (tbl_lt19 a hH c)

/-! ## The pipeline's proof data -/

/-- The proof data of pipeline 1 on core c: the arrays as the region finds them; after the body at point t the input's
    buffer at its block and the output's at what the run leaves; the invariant of a body with transfers of its own, with
    the row table whole beside it; nothing owed; full shares. -/
def dat19 (hH : ∀ j : Fin 50000, ((a.1 0) (ValueIdx.ix1 j)).toNat < 50000) (c : Dev nD) : Dat τ (Elt F) Unit ℕ (Pipeline.UD sig nD τ) ℕ (cfg19 a) c where
  A w := V c (Pipeline.arrRef spec19 w)
  after w t := match w with
    | ⟨0, _⟩ => iblk19 V a c 0 t
    | ⟨1, _⟩ => (outsAt19 V a hH c t)
  Φ _ := iprop(Pipeline.ΦD osem19 spec19 H19 V c ∗ Pipeline.prefHeld pre19 c (fun _ => fullShare) a.1)
  q _ := fullShare
  owed _ := 0

/-- The proof data's arrays are the region-entry contents. -/
theorem A_eq19 (hH : ∀ j : Fin 50000, ((a.1 0) (ValueIdx.ix1 j)).toNat < 50000) (c : Dev nD) (w : Fin (cfg19 a).W) : (dat19 V a hH c).A w = V c (Pipeline.arrRef spec19 w) := by
  dsimp only [dat19]

/-- What the body leaves, window by window. -/
theorem after19_0 (hH : ∀ j : Fin 50000, ((a.1 0) (ValueIdx.ix1 j)).toNat < 50000) (c : Dev nD) (t : Fin (cfg19 a).N) : (dat19 V a hH c).after 0 t = iblk19 V a c 0 t := by dsimp only [dat19]; try rfl
theorem after19_1 (hH : ∀ j : Fin 50000, ((a.1 0) (ValueIdx.ix1 j)).toNat < 50000) (c : Dev nD) (t : Fin (cfg19 a).N) : (dat19 V a hH c).after 1 t = (outsAt19 V a hH c t) := by dsimp only [dat19]; try rfl

/-- The input's current staging buffer holds its block at every point, fetched there or not. -/
theorem before19_0 (hH : ∀ j : Fin 50000, ((a.1 0) (ValueIdx.ix1 j)).toNat < 50000) (c : Dev nD) (t : Fin (cfg19 a).N) (d) : (dat19 V a hH c).before 0 t d = iblk19 V a c 0 t :=
  before19_0_of V a (dat19 V a hH c) (A_eq19 V a hH c 0) (after19_0 V a hH c) t d

/-! ## The body obligation, at a generic point -/

/-- What the body is called with at point t, the windows one by one, -/
def bodyPre19 (hH : ∀ j : Fin 50000, ((a.1 0) (ValueIdx.ix1 j)).toNat < 50000) (c : Dev nD) (t : Fin (cfg19 a).N) : sProp 𝕄 :=
  iprop((dat19 V a hH c).Φ t.castSucc ∗ (dat19 V a hH c).owesAt () t.castSucc
    ∗ (∃ d, owns (c : Thread nD τ) (ms19_0 a t) fullShare ((dat19 V a hH c).before 0 t d))
    ∗ (∃ d, owns (c : Thread nD τ) (ms19_1 a t) fullShare ((dat19 V a hH c).before 1 t d)))

/-- and what it returns. -/
def bodyPost19 (hH : ∀ j : Fin 50000, ((a.1 0) (ValueIdx.ix1 j)).toNat < 50000) (c : Dev nD) (t : Fin (cfg19 a).N) : sProp 𝕄 :=
  iprop((dat19 V a hH c).Φ t.succ ∗ (dat19 V a hH c).owesAt () t.succ
    ∗ owns (c : Thread nD τ) (ms19_0 a t) fullShare ((dat19 V a hH c).after 0 t)
    ∗ owns (c : Thread nD τ) (ms19_1 a t) fullShare ((dat19 V a hH c).after 1 t))

/-- The body at any point: the input's memref holds its block, so the run applies; the invariant hands the body its
    scratch, its cells at zero, the gathered array and the table, and takes them back as they were; the register and
    the other scoped buffers pass through unread; the core's owes goes in at whatever the points before recorded
    and comes back with this point's waits. -/
theorem sound_body19 (hH : ∀ j : Fin 50000, ((a.1 0) (ValueIdx.ix1 j)).toNat < 50000) (c : Dev nD) (t : Fin (cfg19 a).N) :
    bodyPre19 V a hH c t ⊢ wp frame (wpE (defs₀ (F := F)) Variants.none c none) Set.univ (bodyAt19 a t) (fun _ => bodyPost19 V a hH c t) := by
  unfold bodyPre19 bodyPost19 bodyAt19
  simp only [before19_0]
  rw [show (dat19 V a hH c).Φ t.succ = (dat19 V a hH c).Φ t.castSucc from rfl,
    after19_0, after19_1]
  rw [show (dat19 V a hH c).Φ t.castSucc = iprop(Pipeline.ΦD osem19 spec19 H19 V c ∗ Pipeline.prefHeld pre19 c (fun _ => fullShare) a.1) from rfl, PhiD19_eq, prefHeld19_eq]
  unfold Dat.owesAt Pipeline.owesWithin
  rw [show (dat19 V a hH c).owed t.castSucc = 0 from rfl, show (dat19 V a hH c).owed t.succ = 0 from rfl]
  unfold outsAt19
  unfold out19_1
  iintro ⟨⟨⟨⟨HS0, HSr⟩, Hg, Hq, Hh0⟩, HT⟩, ⟨%W, -, HW⟩, ⟨%d0, H0⟩, ⟨%d1, H19⟩⟩
  iapply ((kernelRun19 c (grid19.coords t) _ _ _ _ (iblk19 V a c 0 t) (a.1 0) (V c main_v71) (tbl_lt19 a hH c)).2 W _)
  isplitl [H0]; · iexact H0
  isplitl [H19]; · iexists _; iexact H19
  isplitl [HS0]; · iexact HS0
  isplitl [Hq]; · iexact Hq
  isplitl [Hh0]; · iexact Hh0
  isplitl [HT]; · iexact HT
  isplitl [HW]; · iexact HW
  iintro ⟨H0, ⟨%e1, H19⟩, HS0, Hq, Hh0, HT, ⟨%W', HW'⟩⟩
  isplitl [HS0 HSr Hg Hq Hh0 HT]
  · isplitl [HS0 HSr Hg Hq Hh0]
    · isplitl [HS0 HSr]
      · isplitl [HS0]; · iexact HS0
        iexact HSr
      isplitl [Hg]; · iexact Hg
      isplitl [Hq]; · iexact Hq
      iexact Hh0
    iexact HT
  isplitl [HW']
  · iexists W'; isplitr; · ipureintro; exact fun _ _ => Or.inl trivial
    iexact HW'
  isplitl [H0]; · iexact H0
  unfold owns; iexists _; isplitr
  swap; · iexact H19
  ipureintro; exact View.read_writes_of_cover _ _ _ _ _ (cover19_1 c _ _ _ _ _ _ _ _ _)

/-- The library's body obligation, at every point. -/
theorem body_obligation19 (hH : ∀ j : Fin 50000, ((a.1 0) (ValueIdx.ix1 j)).toNat < 50000) (c : Dev nD) : BodyObligation (dat19 (F := F) V a hH c) (defs₀ (F := F)) Variants.none () Set.univ := fun t => by
  rw [bigSep_W19, bigSep_W19]
  exact sound_body19 V a hH c t

end Cert.Kernel.Hand

end
-- ==== Proof.Bits.Chain.lean ====
import proofs.«414392_j7919919694132_2_alg».proof.Proof.Bits.Mat0
import proofs.«414392_j7919919694132_2_alg».proof.Proof.Bits.Mat10
import proofs.«414392_j7919919694132_2_alg».proof.Proof.Bits.Tables
import proofs.«414392_j7919919694132_2_alg».proof.Proof.Bits.G1
import proofs.«414392_j7919919694132_2_alg».proof.Proof.Bits.G2
import proofs.«414392_j7919919694132_2_alg».proof.Proof.Bits.G3
import proofs.«414392_j7919919694132_2_alg».proof.Proof.Bits.G4
import proofs.«414392_j7919919694132_2_alg».proof.Proof.Bits.G5
import proofs.«414392_j7919919694132_2_alg».proof.Proof.Bits.G6
import proofs.«414392_j7919919694132_2_alg».proof.Proof.Bits.G7
import proofs.«414392_j7919919694132_2_alg».proof.Proof.Bits.G8
import proofs.«414392_j7919919694132_2_alg».proof.Proof.Bits.G9
import proofs.«414392_j7919919694132_2_alg».proof.Proof.Bits.G11
import proofs.«414392_j7919919694132_2_alg».proof.Proof.Bits.G12
import proofs.«414392_j7919919694132_2_alg».proof.Proof.Bits.G13
import proofs.«414392_j7919919694132_2_alg».proof.Proof.Bits.G14
import proofs.«414392_j7919919694132_2_alg».proof.Proof.Bits.G15
import proofs.«414392_j7919919694132_2_alg».proof.Proof.Bits.G16
import proofs.«414392_j7919919694132_2_alg».proof.Proof.Bits.G17
import proofs.«414392_j7919919694132_2_alg».proof.Proof.Bits.G18
import proofs.«414392_j7919919694132_2_alg».proof.Proof.Bits.G19
import Idealize.ShloMosaic.Lib.Pipeline.FrameSuffix
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The contents of the TensorCore's buffers at each boundary between two items of the program: the launch memory,
    then each host stretch applied, then each kernel region's arrays at what its grid leaves in them. -/

variable (m : (ℓ : Loc nD τ sig) → Buf (Elt F) ℓ)
/-- The precondition's equation at the launch memory (core 0 is the only core). -/
abbrev PreEq : Prop := Cert.Pre_finite_inputs.fn (F := F) (m ((0 : Dev nD).tc.loc main_arg0)) (m ((0 : Dev nD).tc.loc main_arg1)) (m ((0 : Dev nD).tc.loc main_arg2)) (m ((0 : Dev nD).tc.loc main_arg3)) (m ((0 : Dev nD).tc.loc main_arg4)) (m ((0 : Dev nD).tc.loc main_arg5)) (m ((0 : Dev nD).tc.loc main_arg6)) = fun _ => 1#1

/-! ## The row tables the gather regions are launched with -/

/-- Region 1's table: edges 0 … 49999 of the row vector. -/
def adm1 : (pcfg1 (F := F)).Adm := ⟨fun | ⟨0, _⟩ => tbl0 m 0, by dsimp only [pcfg1, Pipeline.PCfg.ofSpecs]; unfold ok1; trivial⟩
theorem hH1 (hpre : PreEq m) : ∀ j : Fin 50000, (((adm1 m).1 0) (ValueIdx.ix1 j)).toNat < 50000 := fun j => tbl0_lt m 0 hpre j

/-- Region 2's table: edges 50000 … 99999 of the row vector. -/
def adm2 : (pcfg2 (F := F)).Adm := ⟨fun | ⟨0, _⟩ => tbl1 m 0, by dsimp only [pcfg2, Pipeline.PCfg.ofSpecs]; unfold ok2; trivial⟩
theorem hH2 (hpre : PreEq m) : ∀ j : Fin 50000, (((adm2 m).1 0) (ValueIdx.ix1 j)).toNat < 50000 := fun j => tbl1_lt m 0 hpre j

/-- Region 3's table: edges 100000 … 149999 of the row vector. -/
def adm3 : (pcfg3 (F := F)).Adm := ⟨fun | ⟨0, _⟩ => tbl2 m 0, by dsimp only [pcfg3, Pipeline.PCfg.ofSpecs]; unfold ok3; trivial⟩
theorem hH3 (hpre : PreEq m) : ∀ j : Fin 50000, (((adm3 m).1 0) (ValueIdx.ix1 j)).toNat < 50000 := fun j => tbl2_lt m 0 hpre j

/-- Region 4's table: edges 150000 … 199999 of the row vector. -/
def adm4 : (pcfg4 (F := F)).Adm := ⟨fun | ⟨0, _⟩ => tbl3 m 0, by dsimp only [pcfg4, Pipeline.PCfg.ofSpecs]; unfold ok4; trivial⟩
theorem hH4 (hpre : PreEq m) : ∀ j : Fin 50000, (((adm4 m).1 0) (ValueIdx.ix1 j)).toNat < 50000 := fun j => tbl3_lt m 0 hpre j

/-- Region 5's table: edges 200000 … 249999 of the row vector. -/
def adm5 : (pcfg5 (F := F)).Adm := ⟨fun | ⟨0, _⟩ => tbl4 m 0, by dsimp only [pcfg5, Pipeline.PCfg.ofSpecs]; unfold ok5; trivial⟩
theorem hH5 (hpre : PreEq m) : ∀ j : Fin 50000, (((adm5 m).1 0) (ValueIdx.ix1 j)).toNat < 50000 := fun j => tbl4_lt m 0 hpre j

/-- Region 6's table: edges 250000 … 299999 of the row vector. -/
def adm6 : (pcfg6 (F := F)).Adm := ⟨fun | ⟨0, _⟩ => tbl5 m 0, by dsimp only [pcfg6, Pipeline.PCfg.ofSpecs]; unfold ok6; trivial⟩
theorem hH6 (hpre : PreEq m) : ∀ j : Fin 50000, (((adm6 m).1 0) (ValueIdx.ix1 j)).toNat < 50000 := fun j => tbl5_lt m 0 hpre j

/-- Region 7's table: edges 300000 … 349999 of the row vector. -/
def adm7 : (pcfg7 (F := F)).Adm := ⟨fun | ⟨0, _⟩ => tbl6 m 0, by dsimp only [pcfg7, Pipeline.PCfg.ofSpecs]; unfold ok7; trivial⟩
theorem hH7 (hpre : PreEq m) : ∀ j : Fin 50000, (((adm7 m).1 0) (ValueIdx.ix1 j)).toNat < 50000 := fun j => tbl6_lt m 0 hpre j

/-- Region 8's table: edges 350000 … 399999 of the row vector. -/
def adm8 : (pcfg8 (F := F)).Adm := ⟨fun | ⟨0, _⟩ => tbl7 m 0, by dsimp only [pcfg8, Pipeline.PCfg.ofSpecs]; unfold ok8; trivial⟩
theorem hH8 (hpre : PreEq m) : ∀ j : Fin 50000, (((adm8 m).1 0) (ValueIdx.ix1 j)).toNat < 50000 := fun j => tbl7_lt m 0 hpre j

/-- Region 9's table: edges 400000 … 449999 of the row vector. -/
def adm9 : (pcfg9 (F := F)).Adm := ⟨fun | ⟨0, _⟩ => tbl8 m 0, by dsimp only [pcfg9, Pipeline.PCfg.ofSpecs]; unfold ok9; trivial⟩
theorem hH9 (hpre : PreEq m) : ∀ j : Fin 50000, (((adm9 m).1 0) (ValueIdx.ix1 j)).toNat < 50000 := fun j => tbl8_lt m 0 hpre j

/-- Region 11's table: edges 0 … 49999 of the row vector. -/
def adm11 : (pcfg11 (F := F)).Adm := ⟨fun | ⟨0, _⟩ => tbl0 m 0, by dsimp only [pcfg11, Pipeline.PCfg.ofSpecs]; unfold ok11; trivial⟩
theorem hH11 (hpre : PreEq m) : ∀ j : Fin 50000, (((adm11 m).1 0) (ValueIdx.ix1 j)).toNat < 50000 := fun j => tbl0_lt m 0 hpre j

/-- Region 12's table: edges 50000 … 99999 of the row vector. -/
def adm12 : (pcfg12 (F := F)).Adm := ⟨fun | ⟨0, _⟩ => tbl1 m 0, by dsimp only [pcfg12, Pipeline.PCfg.ofSpecs]; unfold ok12; trivial⟩
theorem hH12 (hpre : PreEq m) : ∀ j : Fin 50000, (((adm12 m).1 0) (ValueIdx.ix1 j)).toNat < 50000 := fun j => tbl1_lt m 0 hpre j

/-- Region 13's table: edges 100000 … 149999 of the row vector. -/
def adm13 : (pcfg13 (F := F)).Adm := ⟨fun | ⟨0, _⟩ => tbl2 m 0, by dsimp only [pcfg13, Pipeline.PCfg.ofSpecs]; unfold ok13; trivial⟩
theorem hH13 (hpre : PreEq m) : ∀ j : Fin 50000, (((adm13 m).1 0) (ValueIdx.ix1 j)).toNat < 50000 := fun j => tbl2_lt m 0 hpre j

/-- Region 14's table: edges 150000 … 199999 of the row vector. -/
def adm14 : (pcfg14 (F := F)).Adm := ⟨fun | ⟨0, _⟩ => tbl3 m 0, by dsimp only [pcfg14, Pipeline.PCfg.ofSpecs]; unfold ok14; trivial⟩
theorem hH14 (hpre : PreEq m) : ∀ j : Fin 50000, (((adm14 m).1 0) (ValueIdx.ix1 j)).toNat < 50000 := fun j => tbl3_lt m 0 hpre j

/-- Region 15's table: edges 200000 … 249999 of the row vector. -/
def adm15 : (pcfg15 (F := F)).Adm := ⟨fun | ⟨0, _⟩ => tbl4 m 0, by dsimp only [pcfg15, Pipeline.PCfg.ofSpecs]; unfold ok15; trivial⟩
theorem hH15 (hpre : PreEq m) : ∀ j : Fin 50000, (((adm15 m).1 0) (ValueIdx.ix1 j)).toNat < 50000 := fun j => tbl4_lt m 0 hpre j

/-- Region 16's table: edges 250000 … 299999 of the row vector. -/
def adm16 : (pcfg16 (F := F)).Adm := ⟨fun | ⟨0, _⟩ => tbl5 m 0, by dsimp only [pcfg16, Pipeline.PCfg.ofSpecs]; unfold ok16; trivial⟩
theorem hH16 (hpre : PreEq m) : ∀ j : Fin 50000, (((adm16 m).1 0) (ValueIdx.ix1 j)).toNat < 50000 := fun j => tbl5_lt m 0 hpre j

/-- Region 17's table: edges 300000 … 349999 of the row vector. -/
def adm17 : (pcfg17 (F := F)).Adm := ⟨fun | ⟨0, _⟩ => tbl6 m 0, by dsimp only [pcfg17, Pipeline.PCfg.ofSpecs]; unfold ok17; trivial⟩
theorem hH17 (hpre : PreEq m) : ∀ j : Fin 50000, (((adm17 m).1 0) (ValueIdx.ix1 j)).toNat < 50000 := fun j => tbl6_lt m 0 hpre j

/-- Region 18's table: edges 350000 … 399999 of the row vector. -/
def adm18 : (pcfg18 (F := F)).Adm := ⟨fun | ⟨0, _⟩ => tbl7 m 0, by dsimp only [pcfg18, Pipeline.PCfg.ofSpecs]; unfold ok18; trivial⟩
theorem hH18 (hpre : PreEq m) : ∀ j : Fin 50000, (((adm18 m).1 0) (ValueIdx.ix1 j)).toNat < 50000 := fun j => tbl7_lt m 0 hpre j

/-- Region 19's table: edges 400000 … 449999 of the row vector. -/
def adm19 : (pcfg19 (F := F)).Adm := ⟨fun | ⟨0, _⟩ => tbl8 m 0, by dsimp only [pcfg19, Pipeline.PCfg.ofSpecs]; unfold ok19; trivial⟩
theorem hH19 (hpre : PreEq m) : ∀ j : Fin 50000, (((adm19 m).1 0) (ValueIdx.ix1 j)).toNat < 50000 := fun j => tbl8_lt m 0 hpre j

variable (hpre : PreEq m)

/-- Every pipeline's tables (the matmul pipelines have none). -/
def adm : (p : Fin 20) → (pcfgs (F := F) p).Adm
  | ⟨0, _⟩ => cfg0.toPCfg_adm
  | ⟨10, _⟩ => cfg10.toPCfg_adm
  | ⟨1, _⟩ => adm1 m
  | ⟨2, _⟩ => adm2 m
  | ⟨3, _⟩ => adm3 m
  | ⟨4, _⟩ => adm4 m
  | ⟨5, _⟩ => adm5 m
  | ⟨6, _⟩ => adm6 m
  | ⟨7, _⟩ => adm7 m
  | ⟨8, _⟩ => adm8 m
  | ⟨9, _⟩ => adm9 m
  | ⟨11, _⟩ => adm11 m
  | ⟨12, _⟩ => adm12 m
  | ⟨13, _⟩ => adm13 m
  | ⟨14, _⟩ => adm14 m
  | ⟨15, _⟩ => adm15 m
  | ⟨16, _⟩ => adm16 m
  | ⟨17, _⟩ => adm17 m
  | ⟨18, _⟩ => adm18 m
  | ⟨19, _⟩ => adm19 m
  | ⟨_ + 20, h⟩ => absurd h (Nat.not_lt.2 (Nat.le_add_left _ _))

/-! ## The fold through the program -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
def W4 (c : Dev nD) : Valuation τ sig (Elt F) := Pipeline.withArrays spec0 c (W3 m c) fun w => (dat0 (V3 m) c).arrAt w cfg0.N
abbrev W5 : Dev nD → Valuation τ sig (Elt F) := fun c => StableHlo.after hostOps1 (W4 m c)
abbrev V5 : (c : Dev nD) → (b : Ref sig .tc) → Buf (Elt F) ((c : Thread nD τ).loc b) := fun c b => W5 m c b
def W6 (c : Dev nD) : Valuation τ sig (Elt F) := Pipeline.withArrays spec1 c (W5 m c) fun w => (dat1 (V5 m) (adm1 m) (hH1 m hpre) c).arrAt w (cfg1 (adm1 m)).N
abbrev W7 : Dev nD → Valuation τ sig (Elt F) := fun c => StableHlo.after hostOps2 (W6 m hpre c)
abbrev V7 : (c : Dev nD) → (b : Ref sig .tc) → Buf (Elt F) ((c : Thread nD τ).loc b) := fun c b => W7 m hpre c b
def W8 (c : Dev nD) : Valuation τ sig (Elt F) := Pipeline.withArrays spec2 c (W7 m hpre c) fun w => (dat2 (V7 m hpre) (adm2 m) (hH2 m hpre) c).arrAt w (cfg2 (adm2 m)).N
abbrev W9 : Dev nD → Valuation τ sig (Elt F) := fun c => StableHlo.after hostOps3 (W8 m hpre c)
abbrev V9 : (c : Dev nD) → (b : Ref sig .tc) → Buf (Elt F) ((c : Thread nD τ).loc b) := fun c b => W9 m hpre c b
def W10 (c : Dev nD) : Valuation τ sig (Elt F) := Pipeline.withArrays spec3 c (W9 m hpre c) fun w => (dat3 (V9 m hpre) (adm3 m) (hH3 m hpre) c).arrAt w (cfg3 (adm3 m)).N
abbrev W11 : Dev nD → Valuation τ sig (Elt F) := fun c => StableHlo.after hostOps4 (W10 m hpre c)
abbrev V11 : (c : Dev nD) → (b : Ref sig .tc) → Buf (Elt F) ((c : Thread nD τ).loc b) := fun c b => W11 m hpre c b
def W12 (c : Dev nD) : Valuation τ sig (Elt F) := Pipeline.withArrays spec4 c (W11 m hpre c) fun w => (dat4 (V11 m hpre) (adm4 m) (hH4 m hpre) c).arrAt w (cfg4 (adm4 m)).N
abbrev W13 : Dev nD → Valuation τ sig (Elt F) := fun c => StableHlo.after hostOps5 (W12 m hpre c)
abbrev V13 : (c : Dev nD) → (b : Ref sig .tc) → Buf (Elt F) ((c : Thread nD τ).loc b) := fun c b => W13 m hpre c b
def W14 (c : Dev nD) : Valuation τ sig (Elt F) := Pipeline.withArrays spec5 c (W13 m hpre c) fun w => (dat5 (V13 m hpre) (adm5 m) (hH5 m hpre) c).arrAt w (cfg5 (adm5 m)).N
abbrev W15 : Dev nD → Valuation τ sig (Elt F) := fun c => StableHlo.after hostOps6 (W14 m hpre c)
abbrev V15 : (c : Dev nD) → (b : Ref sig .tc) → Buf (Elt F) ((c : Thread nD τ).loc b) := fun c b => W15 m hpre c b
def W16 (c : Dev nD) : Valuation τ sig (Elt F) := Pipeline.withArrays spec6 c (W15 m hpre c) fun w => (dat6 (V15 m hpre) (adm6 m) (hH6 m hpre) c).arrAt w (cfg6 (adm6 m)).N
abbrev W17 : Dev nD → Valuation τ sig (Elt F) := fun c => StableHlo.after hostOps7 (W16 m hpre c)
abbrev V17 : (c : Dev nD) → (b : Ref sig .tc) → Buf (Elt F) ((c : Thread nD τ).loc b) := fun c b => W17 m hpre c b
def W18 (c : Dev nD) : Valuation τ sig (Elt F) := Pipeline.withArrays spec7 c (W17 m hpre c) fun w => (dat7 (V17 m hpre) (adm7 m) (hH7 m hpre) c).arrAt w (cfg7 (adm7 m)).N
abbrev W19 : Dev nD → Valuation τ sig (Elt F) := fun c => StableHlo.after hostOps8 (W18 m hpre c)
abbrev V19 : (c : Dev nD) → (b : Ref sig .tc) → Buf (Elt F) ((c : Thread nD τ).loc b) := fun c b => W19 m hpre c b
def W20 (c : Dev nD) : Valuation τ sig (Elt F) := Pipeline.withArrays spec8 c (W19 m hpre c) fun w => (dat8 (V19 m hpre) (adm8 m) (hH8 m hpre) c).arrAt w (cfg8 (adm8 m)).N
abbrev W21 : Dev nD → Valuation τ sig (Elt F) := fun c => StableHlo.after hostOps9 (W20 m hpre c)
abbrev V21 : (c : Dev nD) → (b : Ref sig .tc) → Buf (Elt F) ((c : Thread nD τ).loc b) := fun c b => W21 m hpre c b
def W22 (c : Dev nD) : Valuation τ sig (Elt F) := Pipeline.withArrays spec9 c (W21 m hpre c) fun w => (dat9 (V21 m hpre) (adm9 m) (hH9 m hpre) c).arrAt w (cfg9 (adm9 m)).N
abbrev W23 : Dev nD → Valuation τ sig (Elt F) := fun c => StableHlo.after hostOps10 (W22 m hpre c)
abbrev W24 : Dev nD → Valuation τ sig (Elt F) := fun c => StableHlo.after hostOps10_1 (W23 m hpre c)
abbrev V24 : (c : Dev nD) → (b : Ref sig .tc) → Buf (Elt F) ((c : Thread nD τ).loc b) := fun c b => W24 m hpre c b
def W25 (c : Dev nD) : Valuation τ sig (Elt F) := Pipeline.withArrays spec10 c (W24 m hpre c) fun w => (dat10 (V24 m hpre) c).arrAt w cfg10.N
abbrev W26 : Dev nD → Valuation τ sig (Elt F) := fun c => StableHlo.after hostOps11 (W25 m hpre c)
abbrev V26 : (c : Dev nD) → (b : Ref sig .tc) → Buf (Elt F) ((c : Thread nD τ).loc b) := fun c b => W26 m hpre c b
def W27 (c : Dev nD) : Valuation τ sig (Elt F) := Pipeline.withArrays spec11 c (W26 m hpre c) fun w => (dat11 (V26 m hpre) (adm11 m) (hH11 m hpre) c).arrAt w (cfg11 (adm11 m)).N
abbrev W28 : Dev nD → Valuation τ sig (Elt F) := fun c => StableHlo.after hostOps12 (W27 m hpre c)
abbrev V28 : (c : Dev nD) → (b : Ref sig .tc) → Buf (Elt F) ((c : Thread nD τ).loc b) := fun c b => W28 m hpre c b
def W29 (c : Dev nD) : Valuation τ sig (Elt F) := Pipeline.withArrays spec12 c (W28 m hpre c) fun w => (dat12 (V28 m hpre) (adm12 m) (hH12 m hpre) c).arrAt w (cfg12 (adm12 m)).N
abbrev W30 : Dev nD → Valuation τ sig (Elt F) := fun c => StableHlo.after hostOps13 (W29 m hpre c)
abbrev V30 : (c : Dev nD) → (b : Ref sig .tc) → Buf (Elt F) ((c : Thread nD τ).loc b) := fun c b => W30 m hpre c b
def W31 (c : Dev nD) : Valuation τ sig (Elt F) := Pipeline.withArrays spec13 c (W30 m hpre c) fun w => (dat13 (V30 m hpre) (adm13 m) (hH13 m hpre) c).arrAt w (cfg13 (adm13 m)).N
abbrev W32 : Dev nD → Valuation τ sig (Elt F) := fun c => StableHlo.after hostOps14 (W31 m hpre c)
abbrev V32 : (c : Dev nD) → (b : Ref sig .tc) → Buf (Elt F) ((c : Thread nD τ).loc b) := fun c b => W32 m hpre c b
def W33 (c : Dev nD) : Valuation τ sig (Elt F) := Pipeline.withArrays spec14 c (W32 m hpre c) fun w => (dat14 (V32 m hpre) (adm14 m) (hH14 m hpre) c).arrAt w (cfg14 (adm14 m)).N
abbrev W34 : Dev nD → Valuation τ sig (Elt F) := fun c => StableHlo.after hostOps15 (W33 m hpre c)
abbrev V34 : (c : Dev nD) → (b : Ref sig .tc) → Buf (Elt F) ((c : Thread nD τ).loc b) := fun c b => W34 m hpre c b
def W35 (c : Dev nD) : Valuation τ sig (Elt F) := Pipeline.withArrays spec15 c (W34 m hpre c) fun w => (dat15 (V34 m hpre) (adm15 m) (hH15 m hpre) c).arrAt w (cfg15 (adm15 m)).N
abbrev W36 : Dev nD → Valuation τ sig (Elt F) := fun c => StableHlo.after hostOps16 (W35 m hpre c)
abbrev V36 : (c : Dev nD) → (b : Ref sig .tc) → Buf (Elt F) ((c : Thread nD τ).loc b) := fun c b => W36 m hpre c b
def W37 (c : Dev nD) : Valuation τ sig (Elt F) := Pipeline.withArrays spec16 c (W36 m hpre c) fun w => (dat16 (V36 m hpre) (adm16 m) (hH16 m hpre) c).arrAt w (cfg16 (adm16 m)).N
abbrev W38 : Dev nD → Valuation τ sig (Elt F) := fun c => StableHlo.after hostOps17 (W37 m hpre c)
abbrev V38 : (c : Dev nD) → (b : Ref sig .tc) → Buf (Elt F) ((c : Thread nD τ).loc b) := fun c b => W38 m hpre c b
def W39 (c : Dev nD) : Valuation τ sig (Elt F) := Pipeline.withArrays spec17 c (W38 m hpre c) fun w => (dat17 (V38 m hpre) (adm17 m) (hH17 m hpre) c).arrAt w (cfg17 (adm17 m)).N
abbrev W40 : Dev nD → Valuation τ sig (Elt F) := fun c => StableHlo.after hostOps18 (W39 m hpre c)
abbrev V40 : (c : Dev nD) → (b : Ref sig .tc) → Buf (Elt F) ((c : Thread nD τ).loc b) := fun c b => W40 m hpre c b
def W41 (c : Dev nD) : Valuation τ sig (Elt F) := Pipeline.withArrays spec18 c (W40 m hpre c) fun w => (dat18 (V40 m hpre) (adm18 m) (hH18 m hpre) c).arrAt w (cfg18 (adm18 m)).N
abbrev W42 : Dev nD → Valuation τ sig (Elt F) := fun c => StableHlo.after hostOps19 (W41 m hpre c)
abbrev V42 : (c : Dev nD) → (b : Ref sig .tc) → Buf (Elt F) ((c : Thread nD τ).loc b) := fun c b => W42 m hpre c b
def W43 (c : Dev nD) : Valuation τ sig (Elt F) := Pipeline.withArrays spec19 c (W42 m hpre c) fun w => (dat19 (V42 m hpre) (adm19 m) (hH19 m hpre) c).arrAt w (cfg19 (adm19 m)).N
abbrev W44 : Dev nD → Valuation τ sig (Elt F) := fun c => StableHlo.after hostOps20 (W43 m hpre c)

/-! ## Every pipeline's proof data, each at its region's entry contents -/

def pdats : (p : Fin 20) → (c : Dev nD) → Dat τ (Elt F) Unit ℕ (Pipeline.UD sig nD τ) ℕ (Pipeline.pin (pcfgs (F := F)) (adm m) p) c
  | ⟨0, _⟩ => fun c => dat0 (V3 m) c
  | ⟨10, _⟩ => fun c => dat10 (V24 m hpre) c
  | ⟨1, _⟩ => fun c => dat1 (V5 m) (adm1 m) (hH1 m hpre) c
  | ⟨2, _⟩ => fun c => dat2 (V7 m hpre) (adm2 m) (hH2 m hpre) c
  | ⟨3, _⟩ => fun c => dat3 (V9 m hpre) (adm3 m) (hH3 m hpre) c
  | ⟨4, _⟩ => fun c => dat4 (V11 m hpre) (adm4 m) (hH4 m hpre) c
  | ⟨5, _⟩ => fun c => dat5 (V13 m hpre) (adm5 m) (hH5 m hpre) c
  | ⟨6, _⟩ => fun c => dat6 (V15 m hpre) (adm6 m) (hH6 m hpre) c
  | ⟨7, _⟩ => fun c => dat7 (V17 m hpre) (adm7 m) (hH7 m hpre) c
  | ⟨8, _⟩ => fun c => dat8 (V19 m hpre) (adm8 m) (hH8 m hpre) c
  | ⟨9, _⟩ => fun c => dat9 (V21 m hpre) (adm9 m) (hH9 m hpre) c
  | ⟨11, _⟩ => fun c => dat11 (V26 m hpre) (adm11 m) (hH11 m hpre) c
  | ⟨12, _⟩ => fun c => dat12 (V28 m hpre) (adm12 m) (hH12 m hpre) c
  | ⟨13, _⟩ => fun c => dat13 (V30 m hpre) (adm13 m) (hH13 m hpre) c
  | ⟨14, _⟩ => fun c => dat14 (V32 m hpre) (adm14 m) (hH14 m hpre) c
  | ⟨15, _⟩ => fun c => dat15 (V34 m hpre) (adm15 m) (hH15 m hpre) c
  | ⟨16, _⟩ => fun c => dat16 (V36 m hpre) (adm16 m) (hH16 m hpre) c
  | ⟨17, _⟩ => fun c => dat17 (V38 m hpre) (adm17 m) (hH17 m hpre) c
  | ⟨18, _⟩ => fun c => dat18 (V40 m hpre) (adm18 m) (hH18 m hpre) c
  | ⟨19, _⟩ => fun c => dat19 (V42 m hpre) (adm19 m) (hH19 m hpre) c
  | ⟨_ + 20, h⟩ => absurd h (Nat.not_lt.2 (Nat.le_add_left _ _))

end Cert.Kernel.Hand

end
-- ==== Proof.Bits.RegBase.lean ====
import proofs.«414392_j7919919694132_2_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What rides beside the buffers between two items of the program, and the level facts of a program whose cores owe
    each other nothing. -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)

omit [FloatOps F] in
/-- An unscoped reference of the TensorCore is among those held between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Bits.Reg0.lean ====
/- Region 0 of @main (the first layer's dense product) as a segment of the run: entered from every unscoped buffer at
   the contents before it, left with the product's array at what the grid wrote and every other buffer as entered. -/
import proofs.«414392_j7919919694132_2_alg».proof.Proof.Bits.RegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hpre : PreEq m)

/-! ## The contents at the region's exit -/

/-- At the exit each of the region's arrays holds what the grid leaves in it, -/
theorem W4_arr (c : Dev nD) (w : Fin cfg0.W) :
    W4 m c (Proc.devRef .tc (Pipeline.arrRef spec0 w)) = (dat0 (V3 m) c).arrAt w cfg0.N := by
  unfold W4; exact Pipeline.withArrays_arr spec0 (launch0 (F := F)).win.arr_inj c _ _ w
/-- and every other buffer what it held at the entry. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The exit contents read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-! ## The region as a segment -/

set_option backward.isDefEq.respectTransparency.types false in
/-- Region 0 over the thread state: its arrays split out of the unscoped buffers and put back at the exit contents; the
    generator register into the class invariant and out; nothing owed; no semaphore of the kernel's own. -/
def reg0 : Pipeline.RegionSeg (pcfgs (F := F)) (adm m) (pdats m hpre) () defs₀ 𝒱₀ L lv (0 : Fin 20) where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m) c).loose
  hwaits := Pipeline.hwaits_of_owed_zero _ _ _ _ L lv (0 : Fin 20) fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V3 m c)
  hentry c := by
    rw [Pipeline.ownSems0_none]
    have hsplit := Pipeline.arrays_of_unscopedBufs (p := (0 : Fin 20)) (pcfgs (F := F)) (adm m) (pdats m hpre) (launch0 (F := F)).win (launch0 (F := F)).arr_whole c
      ((pdats m hpre (0 : Fin 20) c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hpre (0 : Fin 20) c).Φ 0 = Pipeline.ΦA spec0 c from rfl]; unfold Pipeline.ΦA
    iintro ⟨Hp, -, Hr⟩
    isplitl [Hr]; · iexact Hr
    iexact Hp
  hout c := by
    rw [Pipeline.ownSems0_none, show (pdats m hpre (0 : Fin 20) c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := (0 : Fin 20)) (pcfgs (F := F)) (adm m) (Ix := Unit) (Name := ℕ) (U := Pipeline.UD sig nD τ) (Lvl := ℕ)
      (launch0 (F := F)).win (launch0 (F := F)).arr_whole c (pdats m hpre) ((pdats m hpre (0 : Fin 20) c).share_full fun _ => rfl)
      (V3 m c) (V4 m c) ((pdats m hpre (0 : Fin 20) c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.TableAt.lean ====
/-
  What the regions' records need of the contents at each region's entry. The row vector is written once, by the
  first host stretch, and no later item writes its buffer: every gather region's table, a slice of it written by the
  host stretch before the region, is the corresponding slice of the row vector. The operand a layer's gather regions
  read is the layer's matmul result, which no item between writes.
-/
import proofs.«414392_j7919919694132_2_alg».proof.Proof.Bits.Chain

set_option maxRecDepth 16384

noncomputable section

namespace Cert.Kernel.Hand

open Cert.Kernel Cert.Kernel.Gen
open Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)
variable (hpre : PreEq m)

/-! ## What the host stretches write -/

local macro "writes_sub_tac" : tactic =>
  `(tactic| (simp only [List.Forall]; repeat' constructor
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))))

/-- The references `hostOps0_1`'s operations write. -/
abbrev hostOps0_1_W : List (Ref sig .tc) := [main_call0_v0, main_call0_v1, main_v17]
theorem hostOps0_1_writes : (hostOps0_1 : List (HloOp τ sig (Elt F))).Forall fun op => op.writes ⊆ (hostOps0_1_W.map (Proc.devRef (τ := τ) .tc)).toFinset := by
  writes_sub_tac
/-- The references `hostOps0_2`'s operations write. -/
abbrev hostOps0_2_W : List (Ref sig .tc) := [main_c, main_v18, main_v19, main_c_4, main_v20, main_v21, main_v22, main_v23, main_v24, main_v25, main_c_5, main_v26, main_v27, main_c_6, main_v28, main_v29, main_v30, main_v31, main_v32, main_v33]
theorem hostOps0_2_writes : (hostOps0_2 : List (HloOp τ sig (Elt F))).Forall fun op => op.writes ⊆ (hostOps0_2_W.map (Proc.devRef (τ := τ) .tc)).toFinset := by
  writes_sub_tac
/-- The references `hostOps1`'s operations write. -/
abbrev hostOps1_W : List (Ref sig .tc) := [main_v35, main_v36, main_v37]
theorem hostOps1_writes : (hostOps1 : List (HloOp τ sig (Elt F))).Forall fun op => op.writes ⊆ (hostOps1_W.map (Proc.devRef (τ := τ) .tc)).toFinset := by
  writes_sub_tac
/-- The references `hostOps2`'s operations write. -/
abbrev hostOps2_W : List (Ref sig .tc) := [main_v39, main_v40]
theorem hostOps2_writes : (hostOps2 : List (HloOp τ sig (Elt F))).Forall fun op => op.writes ⊆ (hostOps2_W.map (Proc.devRef (τ := τ) .tc)).toFinset := by
  writes_sub_tac
/-- The references `hostOps3`'s operations write. -/
abbrev hostOps3_W : List (Ref sig .tc) := [main_v42, main_v43]
theorem hostOps3_writes : (hostOps3 : List (HloOp τ sig (Elt F))).Forall fun op => op.writes ⊆ (hostOps3_W.map (Proc.devRef (τ := τ) .tc)).toFinset := by
  writes_sub_tac
/-- The references `hostOps4`'s operations write. -/
abbrev hostOps4_W : List (Ref sig .tc) := [main_v45, main_v46]
theorem hostOps4_writes : (hostOps4 : List (HloOp τ sig (Elt F))).Forall fun op => op.writes ⊆ (hostOps4_W.map (Proc.devRef (τ := τ) .tc)).toFinset := by
  writes_sub_tac
/-- The references `hostOps5`'s operations write. -/
abbrev hostOps5_W : List (Ref sig .tc) := [main_v48, main_v49]
theorem hostOps5_writes : (hostOps5 : List (HloOp τ sig (Elt F))).Forall fun op => op.writes ⊆ (hostOps5_W.map (Proc.devRef (τ := τ) .tc)).toFinset := by
  writes_sub_tac
/-- The references `hostOps6`'s operations write. -/
abbrev hostOps6_W : List (Ref sig .tc) := [main_v51, main_v52]
theorem hostOps6_writes : (hostOps6 : List (HloOp τ sig (Elt F))).Forall fun op => op.writes ⊆ (hostOps6_W.map (Proc.devRef (τ := τ) .tc)).toFinset := by
  writes_sub_tac
/-- The references `hostOps7`'s operations write. -/
abbrev hostOps7_W : List (Ref sig .tc) := [main_v54, main_v55]
theorem hostOps7_writes : (hostOps7 : List (HloOp τ sig (Elt F))).Forall fun op => op.writes ⊆ (hostOps7_W.map (Proc.devRef (τ := τ) .tc)).toFinset := by
  writes_sub_tac
/-- The references `hostOps8`'s operations write. -/
abbrev hostOps8_W : List (Ref sig .tc) := [main_v57, main_v58]
theorem hostOps8_writes : (hostOps8 : List (HloOp τ sig (Elt F))).Forall fun op => op.writes ⊆ (hostOps8_W.map (Proc.devRef (τ := τ) .tc)).toFinset := by
  writes_sub_tac
/-- The references `hostOps9`'s operations write. -/
abbrev hostOps9_W : List (Ref sig .tc) := [main_v60, main_v61]
theorem hostOps9_writes : (hostOps9 : List (HloOp τ sig (Elt F))).Forall fun op => op.writes ⊆ (hostOps9_W.map (Proc.devRef (τ := τ) .tc)).toFinset := by
  writes_sub_tac
/-- The references `hostOps10`'s operations write. -/
abbrev hostOps10_W : List (Ref sig .tc) := [main_v63, main_cst_7, main_v64, main_v65, main_v66, main_v67, main_v68, main_v69]
theorem hostOps10_writes : (hostOps10 : List (HloOp τ sig (Elt F))).Forall fun op => op.writes ⊆ (hostOps10_W.map (Proc.devRef (τ := τ) .tc)).toFinset := by
  writes_sub_tac
/-- The references `hostOps10_1`'s operations write. -/
abbrev hostOps10_1_W : List (Ref sig .tc) := [main_call1_cst, main_call1_v0, main_v70]
theorem hostOps10_1_writes : (hostOps10_1 : List (HloOp τ sig (Elt F))).Forall fun op => op.writes ⊆ (hostOps10_1_W.map (Proc.devRef (τ := τ) .tc)).toFinset := by
  writes_sub_tac
/-- The references `hostOps11`'s operations write. -/
abbrev hostOps11_W : List (Ref sig .tc) := [main_v72, main_v73, main_v74]
theorem hostOps11_writes : (hostOps11 : List (HloOp τ sig (Elt F))).Forall fun op => op.writes ⊆ (hostOps11_W.map (Proc.devRef (τ := τ) .tc)).toFinset := by
  writes_sub_tac
/-- The references `hostOps12`'s operations write. -/
abbrev hostOps12_W : List (Ref sig .tc) := [main_v76, main_v77]
theorem hostOps12_writes : (hostOps12 : List (HloOp τ sig (Elt F))).Forall fun op => op.writes ⊆ (hostOps12_W.map (Proc.devRef (τ := τ) .tc)).toFinset := by
  writes_sub_tac
/-- The references `hostOps13`'s operations write. -/
abbrev hostOps13_W : List (Ref sig .tc) := [main_v79, main_v80]
theorem hostOps13_writes : (hostOps13 : List (HloOp τ sig (Elt F))).Forall fun op => op.writes ⊆ (hostOps13_W.map (Proc.devRef (τ := τ) .tc)).toFinset := by
  writes_sub_tac
/-- The references `hostOps14`'s operations write. -/
abbrev hostOps14_W : List (Ref sig .tc) := [main_v82, main_v83]
theorem hostOps14_writes : (hostOps14 : List (HloOp τ sig (Elt F))).Forall fun op => op.writes ⊆ (hostOps14_W.map (Proc.devRef (τ := τ) .tc)).toFinset := by
  writes_sub_tac
/-- The references `hostOps15`'s operations write. -/
abbrev hostOps15_W : List (Ref sig .tc) := [main_v85, main_v86]
theorem hostOps15_writes : (hostOps15 : List (HloOp τ sig (Elt F))).Forall fun op => op.writes ⊆ (hostOps15_W.map (Proc.devRef (τ := τ) .tc)).toFinset := by
  writes_sub_tac
/-- The references `hostOps16`'s operations write. -/
abbrev hostOps16_W : List (Ref sig .tc) := [main_v88, main_v89]
theorem hostOps16_writes : (hostOps16 : List (HloOp τ sig (Elt F))).Forall fun op => op.writes ⊆ (hostOps16_W.map (Proc.devRef (τ := τ) .tc)).toFinset := by
  writes_sub_tac
/-- The references `hostOps17`'s operations write. -/
abbrev hostOps17_W : List (Ref sig .tc) := [main_v91, main_v92]
theorem hostOps17_writes : (hostOps17 : List (HloOp τ sig (Elt F))).Forall fun op => op.writes ⊆ (hostOps17_W.map (Proc.devRef (τ := τ) .tc)).toFinset := by
  writes_sub_tac
/-- The references `hostOps18`'s operations write. -/
abbrev hostOps18_W : List (Ref sig .tc) := [main_v94, main_v95]
theorem hostOps18_writes : (hostOps18 : List (HloOp τ sig (Elt F))).Forall fun op => op.writes ⊆ (hostOps18_W.map (Proc.devRef (τ := τ) .tc)).toFinset := by
  writes_sub_tac
/-- The references `hostOps19`'s operations write. -/
abbrev hostOps19_W : List (Ref sig .tc) := [main_v97, main_v98]
theorem hostOps19_writes : (hostOps19 : List (HloOp τ sig (Elt F))).Forall fun op => op.writes ⊆ (hostOps19_W.map (Proc.devRef (τ := τ) .tc)).toFinset := by
  writes_sub_tac
/-- The references `hostOps20`'s operations write. -/
abbrev hostOps20_W : List (Ref sig .tc) := [main_v100, main_cst_8, main_v101, main_v102, main_v103, main_v104, main_v105, main_v106]
theorem hostOps20_writes : (hostOps20 : List (HloOp τ sig (Elt F))).Forall fun op => op.writes ⊆ (hostOps20_W.map (Proc.devRef (τ := τ) .tc)).toFinset := by
  writes_sub_tac

/-! ## What each item leaves unchanged -/

theorem W2_keep (c : Dev nD) (r : Ref sig .tc) (h : r ∉ hostOps0_1_W) : W2 m c r = W1 m c r :=
  StableHlo.after_of_writes_sub hostOps0_1 _ hostOps0_1_writes h
theorem W3_keep (c : Dev nD) (r : Ref sig .tc) (h : r ∉ hostOps0_2_W) : W3 m c r = W2 m c r :=
  StableHlo.after_of_writes_sub hostOps0_2 _ hostOps0_2_writes h
theorem W4_keep (c : Dev nD) (r : Ref sig .tc) (h : ∀ w, Pipeline.arrRef spec0 w ≠ r) : W4 m c r = W3 m c r := by
  unfold W4; exact Pipeline.withArrays_of_ne spec0 c _ _ r h
theorem W5_keep (c : Dev nD) (r : Ref sig .tc) (h : r ∉ hostOps1_W) : W5 m c r = W4 m c r :=
  StableHlo.after_of_writes_sub hostOps1 _ hostOps1_writes h
theorem W6_keep (c : Dev nD) (r : Ref sig .tc) (h : ∀ w, Pipeline.arrRef spec1 w ≠ r) : W6 m hpre c r = W5 m c r := by
  unfold W6; exact Pipeline.withArrays_of_ne spec1 c _ _ r h
theorem W7_keep (c : Dev nD) (r : Ref sig .tc) (h : r ∉ hostOps2_W) : W7 m hpre c r = W6 m hpre c r :=
  StableHlo.after_of_writes_sub hostOps2 _ hostOps2_writes h
theorem W8_keep (c : Dev nD) (r : Ref sig .tc) (h : ∀ w, Pipeline.arrRef spec2 w ≠ r) : W8 m hpre c r = W7 m hpre c r := by
  unfold W8; exact Pipeline.withArrays_of_ne spec2 c _ _ r h
theorem W9_keep (c : Dev nD) (r : Ref sig .tc) (h : r ∉ hostOps3_W) : W9 m hpre c r = W8 m hpre c r :=
  StableHlo.after_of_writes_sub hostOps3 _ hostOps3_writes h
theorem W10_keep (c : Dev nD) (r : Ref sig .tc) (h : ∀ w, Pipeline.arrRef spec3 w ≠ r) : W10 m hpre c r = W9 m hpre c r := by
  unfold W10; exact Pipeline.withArrays_of_ne spec3 c _ _ r h
theorem W11_keep (c : Dev nD) (r : Ref sig .tc) (h : r ∉ hostOps4_W) : W11 m hpre c r = W10 m hpre c r :=
  StableHlo.after_of_writes_sub hostOps4 _ hostOps4_writes h
theorem W12_keep (c : Dev nD) (r : Ref sig .tc) (h : ∀ w, Pipeline.arrRef spec4 w ≠ r) : W12 m hpre c r = W11 m hpre c r := by
  unfold W12; exact Pipeline.withArrays_of_ne spec4 c _ _ r h
theorem W13_keep (c : Dev nD) (r : Ref sig .tc) (h : r ∉ hostOps5_W) : W13 m hpre c r = W12 m hpre c r :=
  StableHlo.after_of_writes_sub hostOps5 _ hostOps5_writes h
theorem W14_keep (c : Dev nD) (r : Ref sig .tc) (h : ∀ w, Pipeline.arrRef spec5 w ≠ r) : W14 m hpre c r = W13 m hpre c r := by
  unfold W14; exact Pipeline.withArrays_of_ne spec5 c _ _ r h
theorem W15_keep (c : Dev nD) (r : Ref sig .tc) (h : r ∉ hostOps6_W) : W15 m hpre c r = W14 m hpre c r :=
  StableHlo.after_of_writes_sub hostOps6 _ hostOps6_writes h
theorem W16_keep (c : Dev nD) (r : Ref sig .tc) (h : ∀ w, Pipeline.arrRef spec6 w ≠ r) : W16 m hpre c r = W15 m hpre c r := by
  unfold W16; exact Pipeline.withArrays_of_ne spec6 c _ _ r h
theorem W17_keep (c : Dev nD) (r : Ref sig .tc) (h : r ∉ hostOps7_W) : W17 m hpre c r = W16 m hpre c r :=
  StableHlo.after_of_writes_sub hostOps7 _ hostOps7_writes h
theorem W18_keep (c : Dev nD) (r : Ref sig .tc) (h : ∀ w, Pipeline.arrRef spec7 w ≠ r) : W18 m hpre c r = W17 m hpre c r := by
  unfold W18; exact Pipeline.withArrays_of_ne spec7 c _ _ r h
theorem W19_keep (c : Dev nD) (r : Ref sig .tc) (h : r ∉ hostOps8_W) : W19 m hpre c r = W18 m hpre c r :=
  StableHlo.after_of_writes_sub hostOps8 _ hostOps8_writes h
theorem W20_keep (c : Dev nD) (r : Ref sig .tc) (h : ∀ w, Pipeline.arrRef spec8 w ≠ r) : W20 m hpre c r = W19 m hpre c r := by
  unfold W20; exact Pipeline.withArrays_of_ne spec8 c _ _ r h
theorem W21_keep (c : Dev nD) (r : Ref sig .tc) (h : r ∉ hostOps9_W) : W21 m hpre c r = W20 m hpre c r :=
  StableHlo.after_of_writes_sub hostOps9 _ hostOps9_writes h
theorem W22_keep (c : Dev nD) (r : Ref sig .tc) (h : ∀ w, Pipeline.arrRef spec9 w ≠ r) : W22 m hpre c r = W21 m hpre c r := by
  unfold W22; exact Pipeline.withArrays_of_ne spec9 c _ _ r h
theorem W23_keep (c : Dev nD) (r : Ref sig .tc) (h : r ∉ hostOps10_W) : W23 m hpre c r = W22 m hpre c r :=
  StableHlo.after_of_writes_sub hostOps10 _ hostOps10_writes h
theorem W24_keep (c : Dev nD) (r : Ref sig .tc) (h : r ∉ hostOps10_1_W) : W24 m hpre c r = W23 m hpre c r :=
  StableHlo.after_of_writes_sub hostOps10_1 _ hostOps10_1_writes h
theorem W25_keep (c : Dev nD) (r : Ref sig .tc) (h : ∀ w, Pipeline.arrRef spec10 w ≠ r) : W25 m hpre c r = W24 m hpre c r := by
  unfold W25; exact Pipeline.withArrays_of_ne spec10 c _ _ r h
theorem W26_keep (c : Dev nD) (r : Ref sig .tc) (h : r ∉ hostOps11_W) : W26 m hpre c r = W25 m hpre c r :=
  StableHlo.after_of_writes_sub hostOps11 _ hostOps11_writes h
theorem W27_keep (c : Dev nD) (r : Ref sig .tc) (h : ∀ w, Pipeline.arrRef spec11 w ≠ r) : W27 m hpre c r = W26 m hpre c r := by
  unfold W27; exact Pipeline.withArrays_of_ne spec11 c _ _ r h
theorem W28_keep (c : Dev nD) (r : Ref sig .tc) (h : r ∉ hostOps12_W) : W28 m hpre c r = W27 m hpre c r :=
  StableHlo.after_of_writes_sub hostOps12 _ hostOps12_writes h
theorem W29_keep (c : Dev nD) (r : Ref sig .tc) (h : ∀ w, Pipeline.arrRef spec12 w ≠ r) : W29 m hpre c r = W28 m hpre c r := by
  unfold W29; exact Pipeline.withArrays_of_ne spec12 c _ _ r h
theorem W30_keep (c : Dev nD) (r : Ref sig .tc) (h : r ∉ hostOps13_W) : W30 m hpre c r = W29 m hpre c r :=
  StableHlo.after_of_writes_sub hostOps13 _ hostOps13_writes h
theorem W31_keep (c : Dev nD) (r : Ref sig .tc) (h : ∀ w, Pipeline.arrRef spec13 w ≠ r) : W31 m hpre c r = W30 m hpre c r := by
  unfold W31; exact Pipeline.withArrays_of_ne spec13 c _ _ r h
theorem W32_keep (c : Dev nD) (r : Ref sig .tc) (h : r ∉ hostOps14_W) : W32 m hpre c r = W31 m hpre c r :=
  StableHlo.after_of_writes_sub hostOps14 _ hostOps14_writes h
theorem W33_keep (c : Dev nD) (r : Ref sig .tc) (h : ∀ w, Pipeline.arrRef spec14 w ≠ r) : W33 m hpre c r = W32 m hpre c r := by
  unfold W33; exact Pipeline.withArrays_of_ne spec14 c _ _ r h
theorem W34_keep (c : Dev nD) (r : Ref sig .tc) (h : r ∉ hostOps15_W) : W34 m hpre c r = W33 m hpre c r :=
  StableHlo.after_of_writes_sub hostOps15 _ hostOps15_writes h
theorem W35_keep (c : Dev nD) (r : Ref sig .tc) (h : ∀ w, Pipeline.arrRef spec15 w ≠ r) : W35 m hpre c r = W34 m hpre c r := by
  unfold W35; exact Pipeline.withArrays_of_ne spec15 c _ _ r h
theorem W36_keep (c : Dev nD) (r : Ref sig .tc) (h : r ∉ hostOps16_W) : W36 m hpre c r = W35 m hpre c r :=
  StableHlo.after_of_writes_sub hostOps16 _ hostOps16_writes h
theorem W37_keep (c : Dev nD) (r : Ref sig .tc) (h : ∀ w, Pipeline.arrRef spec16 w ≠ r) : W37 m hpre c r = W36 m hpre c r := by
  unfold W37; exact Pipeline.withArrays_of_ne spec16 c _ _ r h
theorem W38_keep (c : Dev nD) (r : Ref sig .tc) (h : r ∉ hostOps17_W) : W38 m hpre c r = W37 m hpre c r :=
  StableHlo.after_of_writes_sub hostOps17 _ hostOps17_writes h
theorem W39_keep (c : Dev nD) (r : Ref sig .tc) (h : ∀ w, Pipeline.arrRef spec17 w ≠ r) : W39 m hpre c r = W38 m hpre c r := by
  unfold W39; exact Pipeline.withArrays_of_ne spec17 c _ _ r h
theorem W40_keep (c : Dev nD) (r : Ref sig .tc) (h : r ∉ hostOps18_W) : W40 m hpre c r = W39 m hpre c r :=
  StableHlo.after_of_writes_sub hostOps18 _ hostOps18_writes h
theorem W41_keep (c : Dev nD) (r : Ref sig .tc) (h : ∀ w, Pipeline.arrRef spec18 w ≠ r) : W41 m hpre c r = W40 m hpre c r := by
  unfold W41; exact Pipeline.withArrays_of_ne spec18 c _ _ r h
theorem W42_keep (c : Dev nD) (r : Ref sig .tc) (h : r ∉ hostOps19_W) : W42 m hpre c r = W41 m hpre c r :=
  StableHlo.after_of_writes_sub hostOps19 _ hostOps19_writes h
theorem W43_keep (c : Dev nD) (r : Ref sig .tc) (h : ∀ w, Pipeline.arrRef spec19 w ≠ r) : W43 m hpre c r = W42 m hpre c r := by
  unfold W43; exact Pipeline.withArrays_of_ne spec19 c _ _ r h
theorem W44_keep (c : Dev nD) (r : Ref sig .tc) (h : r ∉ hostOps20_W) : W44 m hpre c r = W43 m hpre c r :=
  StableHlo.after_of_writes_sub hostOps20 _ hostOps20_writes h

/-! ## The row vector sits in its buffer at every boundary -/

theorem v3_1 (c : Dev nD) : W1 m c main_v3 = rowVec m c := by
  show StableHlo.after hostOps0 (W0 m c) (Proc.devRef .tc main_v3) = _
  after_results
  rfl
theorem v3_2 (c : Dev nD) : W2 m c main_v3 = rowVec m c := (W2_keep m c main_v3 (by decide)).trans (v3_1 m c)
theorem v3_3 (c : Dev nD) : W3 m c main_v3 = rowVec m c := (W3_keep m c main_v3 (by decide)).trans (v3_2 m c)
theorem v3_4 (c : Dev nD) : W4 m c main_v3 = rowVec m c := (W4_keep m c main_v3 (by decide)).trans (v3_3 m c)
theorem v3_5 (c : Dev nD) : W5 m c main_v3 = rowVec m c := (W5_keep m c main_v3 (by decide)).trans (v3_4 m c)
theorem v3_6 (c : Dev nD) : W6 m hpre c main_v3 = rowVec m c := (W6_keep m hpre c main_v3 (by decide)).trans (v3_5 m c)
theorem v3_7 (c : Dev nD) : W7 m hpre c main_v3 = rowVec m c := (W7_keep m hpre c main_v3 (by decide)).trans (v3_6 m hpre c)
theorem v3_8 (c : Dev nD) : W8 m hpre c main_v3 = rowVec m c := (W8_keep m hpre c main_v3 (by decide)).trans (v3_7 m hpre c)
theorem v3_9 (c : Dev nD) : W9 m hpre c main_v3 = rowVec m c := (W9_keep m hpre c main_v3 (by decide)).trans (v3_8 m hpre c)
theorem v3_10 (c : Dev nD) : W10 m hpre c main_v3 = rowVec m c := (W10_keep m hpre c main_v3 (by decide)).trans (v3_9 m hpre c)
theorem v3_11 (c : Dev nD) : W11 m hpre c main_v3 = rowVec m c := (W11_keep m hpre c main_v3 (by decide)).trans (v3_10 m hpre c)
theorem v3_12 (c : Dev nD) : W12 m hpre c main_v3 = rowVec m c := (W12_keep m hpre c main_v3 (by decide)).trans (v3_11 m hpre c)
theorem v3_13 (c : Dev nD) : W13 m hpre c main_v3 = rowVec m c := (W13_keep m hpre c main_v3 (by decide)).trans (v3_12 m hpre c)
theorem v3_14 (c : Dev nD) : W14 m hpre c main_v3 = rowVec m c := (W14_keep m hpre c main_v3 (by decide)).trans (v3_13 m hpre c)
theorem v3_15 (c : Dev nD) : W15 m hpre c main_v3 = rowVec m c := (W15_keep m hpre c main_v3 (by decide)).trans (v3_14 m hpre c)
theorem v3_16 (c : Dev nD) : W16 m hpre c main_v3 = rowVec m c := (W16_keep m hpre c main_v3 (by decide)).trans (v3_15 m hpre c)
theorem v3_17 (c : Dev nD) : W17 m hpre c main_v3 = rowVec m c := (W17_keep m hpre c main_v3 (by decide)).trans (v3_16 m hpre c)
theorem v3_18 (c : Dev nD) : W18 m hpre c main_v3 = rowVec m c := (W18_keep m hpre c main_v3 (by decide)).trans (v3_17 m hpre c)
theorem v3_19 (c : Dev nD) : W19 m hpre c main_v3 = rowVec m c := (W19_keep m hpre c main_v3 (by decide)).trans (v3_18 m hpre c)
theorem v3_20 (c : Dev nD) : W20 m hpre c main_v3 = rowVec m c := (W20_keep m hpre c main_v3 (by decide)).trans (v3_19 m hpre c)
theorem v3_21 (c : Dev nD) : W21 m hpre c main_v3 = rowVec m c := (W21_keep m hpre c main_v3 (by decide)).trans (v3_20 m hpre c)
theorem v3_22 (c : Dev nD) : W22 m hpre c main_v3 = rowVec m c := (W22_keep m hpre c main_v3 (by decide)).trans (v3_21 m hpre c)
theorem v3_23 (c : Dev nD) : W23 m hpre c main_v3 = rowVec m c := (W23_keep m hpre c main_v3 (by decide)).trans (v3_22 m hpre c)
theorem v3_24 (c : Dev nD) : W24 m hpre c main_v3 = rowVec m c := (W24_keep m hpre c main_v3 (by decide)).trans (v3_23 m hpre c)
theorem v3_25 (c : Dev nD) : W25 m hpre c main_v3 = rowVec m c := (W25_keep m hpre c main_v3 (by decide)).trans (v3_24 m hpre c)
theorem v3_26 (c : Dev nD) : W26 m hpre c main_v3 = rowVec m c := (W26_keep m hpre c main_v3 (by decide)).trans (v3_25 m hpre c)
theorem v3_27 (c : Dev nD) : W27 m hpre c main_v3 = rowVec m c := (W27_keep m hpre c main_v3 (by decide)).trans (v3_26 m hpre c)
theorem v3_28 (c : Dev nD) : W28 m hpre c main_v3 = rowVec m c := (W28_keep m hpre c main_v3 (by decide)).trans (v3_27 m hpre c)
theorem v3_29 (c : Dev nD) : W29 m hpre c main_v3 = rowVec m c := (W29_keep m hpre c main_v3 (by decide)).trans (v3_28 m hpre c)
theorem v3_30 (c : Dev nD) : W30 m hpre c main_v3 = rowVec m c := (W30_keep m hpre c main_v3 (by decide)).trans (v3_29 m hpre c)
theorem v3_31 (c : Dev nD) : W31 m hpre c main_v3 = rowVec m c := (W31_keep m hpre c main_v3 (by decide)).trans (v3_30 m hpre c)
theorem v3_32 (c : Dev nD) : W32 m hpre c main_v3 = rowVec m c := (W32_keep m hpre c main_v3 (by decide)).trans (v3_31 m hpre c)
theorem v3_33 (c : Dev nD) : W33 m hpre c main_v3 = rowVec m c := (W33_keep m hpre c main_v3 (by decide)).trans (v3_32 m hpre c)
theorem v3_34 (c : Dev nD) : W34 m hpre c main_v3 = rowVec m c := (W34_keep m hpre c main_v3 (by decide)).trans (v3_33 m hpre c)
theorem v3_35 (c : Dev nD) : W35 m hpre c main_v3 = rowVec m c := (W35_keep m hpre c main_v3 (by decide)).trans (v3_34 m hpre c)
theorem v3_36 (c : Dev nD) : W36 m hpre c main_v3 = rowVec m c := (W36_keep m hpre c main_v3 (by decide)).trans (v3_35 m hpre c)
theorem v3_37 (c : Dev nD) : W37 m hpre c main_v3 = rowVec m c := (W37_keep m hpre c main_v3 (by decide)).trans (v3_36 m hpre c)
theorem v3_38 (c : Dev nD) : W38 m hpre c main_v3 = rowVec m c := (W38_keep m hpre c main_v3 (by decide)).trans (v3_37 m hpre c)
theorem v3_39 (c : Dev nD) : W39 m hpre c main_v3 = rowVec m c := (W39_keep m hpre c main_v3 (by decide)).trans (v3_38 m hpre c)
theorem v3_40 (c : Dev nD) : W40 m hpre c main_v3 = rowVec m c := (W40_keep m hpre c main_v3 (by decide)).trans (v3_39 m hpre c)
theorem v3_41 (c : Dev nD) : W41 m hpre c main_v3 = rowVec m c := (W41_keep m hpre c main_v3 (by decide)).trans (v3_40 m hpre c)
theorem v3_42 (c : Dev nD) : W42 m hpre c main_v3 = rowVec m c := (W42_keep m hpre c main_v3 (by decide)).trans (v3_41 m hpre c)
theorem v3_43 (c : Dev nD) : W43 m hpre c main_v3 = rowVec m c := (W43_keep m hpre c main_v3 (by decide)).trans (v3_42 m hpre c)

/-! ## Each gather region's table at its entry -/

theorem dev_eq_zero (c : Dev nD) : c = 0 := Fin.ext (Nat.lt_one_iff.1 c.isLt)

theorem hpf1 (c : Dev nD) : V5 m c main_v36 = tbl0 m 0 := by
  obtain rfl : c = 0 := dev_eq_zero c
  show StableHlo.after hostOps1 (W4 m 0) (Proc.devRef .tc main_v36) = _
  after_results
  rw [v3_4 m 0]
  rfl
theorem hpf2 (c : Dev nD) : V7 m hpre c main_v39 = tbl1 m 0 := by
  obtain rfl : c = 0 := dev_eq_zero c
  show StableHlo.after hostOps2 (W6 m hpre 0) (Proc.devRef .tc main_v39) = _
  after_results
  rw [v3_6 m hpre 0]
  rfl
theorem hpf3 (c : Dev nD) : V9 m hpre c main_v42 = tbl2 m 0 := by
  obtain rfl : c = 0 := dev_eq_zero c
  show StableHlo.after hostOps3 (W8 m hpre 0) (Proc.devRef .tc main_v42) = _
  after_results
  rw [v3_8 m hpre 0]
  rfl
theorem hpf4 (c : Dev nD) : V11 m hpre c main_v45 = tbl3 m 0 := by
  obtain rfl : c = 0 := dev_eq_zero c
  show StableHlo.after hostOps4 (W10 m hpre 0) (Proc.devRef .tc main_v45) = _
  after_results
  rw [v3_10 m hpre 0]
  rfl
theorem hpf5 (c : Dev nD) : V13 m hpre c main_v48 = tbl4 m 0 := by
  obtain rfl : c = 0 := dev_eq_zero c
  show StableHlo.after hostOps5 (W12 m hpre 0) (Proc.devRef .tc main_v48) = _
  after_results
  rw [v3_12 m hpre 0]
  rfl
theorem hpf6 (c : Dev nD) : V15 m hpre c main_v51 = tbl5 m 0 := by
  obtain rfl : c = 0 := dev_eq_zero c
  show StableHlo.after hostOps6 (W14 m hpre 0) (Proc.devRef .tc main_v51) = _
  after_results
  rw [v3_14 m hpre 0]
  rfl
theorem hpf7 (c : Dev nD) : V17 m hpre c main_v54 = tbl6 m 0 := by
  obtain rfl : c = 0 := dev_eq_zero c
  show StableHlo.after hostOps7 (W16 m hpre 0) (Proc.devRef .tc main_v54) = _
  after_results
  rw [v3_16 m hpre 0]
  rfl
theorem hpf8 (c : Dev nD) : V19 m hpre c main_v57 = tbl7 m 0 := by
  obtain rfl : c = 0 := dev_eq_zero c
  show StableHlo.after hostOps8 (W18 m hpre 0) (Proc.devRef .tc main_v57) = _
  after_results
  rw [v3_18 m hpre 0]
  rfl
theorem hpf9 (c : Dev nD) : V21 m hpre c main_v60 = tbl8 m 0 := by
  obtain rfl : c = 0 := dev_eq_zero c
  show StableHlo.after hostOps9 (W20 m hpre 0) (Proc.devRef .tc main_v60) = _
  after_results
  rw [v3_20 m hpre 0]
  rfl
theorem hpf11 (c : Dev nD) : V26 m hpre c main_v73 = tbl0 m 0 := by
  obtain rfl : c = 0 := dev_eq_zero c
  show StableHlo.after hostOps11 (W25 m hpre 0) (Proc.devRef .tc main_v73) = _
  after_results
  rw [v3_25 m hpre 0]
  rfl
theorem hpf12 (c : Dev nD) : V28 m hpre c main_v76 = tbl1 m 0 := by
  obtain rfl : c = 0 := dev_eq_zero c
  show StableHlo.after hostOps12 (W27 m hpre 0) (Proc.devRef .tc main_v76) = _
  after_results
  rw [v3_27 m hpre 0]
  rfl
theorem hpf13 (c : Dev nD) : V30 m hpre c main_v79 = tbl2 m 0 := by
  obtain rfl : c = 0 := dev_eq_zero c
  show StableHlo.after hostOps13 (W29 m hpre 0) (Proc.devRef .tc main_v79) = _
  after_results
  rw [v3_29 m hpre 0]
  rfl
theorem hpf14 (c : Dev nD) : V32 m hpre c main_v82 = tbl3 m 0 := by
  obtain rfl : c = 0 := dev_eq_zero c
  show StableHlo.after hostOps14 (W31 m hpre 0) (Proc.devRef .tc main_v82) = _
  after_results
  rw [v3_31 m hpre 0]
  rfl
theorem hpf15 (c : Dev nD) : V34 m hpre c main_v85 = tbl4 m 0 := by
  obtain rfl : c = 0 := dev_eq_zero c
  show StableHlo.after hostOps15 (W33 m hpre 0) (Proc.devRef .tc main_v85) = _
  after_results
  rw [v3_33 m hpre 0]
  rfl
theorem hpf16 (c : Dev nD) : V36 m hpre c main_v88 = tbl5 m 0 := by
  obtain rfl : c = 0 := dev_eq_zero c
  show StableHlo.after hostOps16 (W35 m hpre 0) (Proc.devRef .tc main_v88) = _
  after_results
  rw [v3_35 m hpre 0]
  rfl
theorem hpf17 (c : Dev nD) : V38 m hpre c main_v91 = tbl6 m 0 := by
  obtain rfl : c = 0 := dev_eq_zero c
  show StableHlo.after hostOps17 (W37 m hpre 0) (Proc.devRef .tc main_v91) = _
  after_results
  rw [v3_37 m hpre 0]
  rfl
theorem hpf18 (c : Dev nD) : V40 m hpre c main_v94 = tbl7 m 0 := by
  obtain rfl : c = 0 := dev_eq_zero c
  show StableHlo.after hostOps18 (W39 m hpre 0) (Proc.devRef .tc main_v94) = _
  after_results
  rw [v3_39 m hpre 0]
  rfl
theorem hpf19 (c : Dev nD) : V42 m hpre c main_v97 = tbl8 m 0 := by
  obtain rfl : c = 0 := dev_eq_zero c
  show StableHlo.after hostOps19 (W41 m hpre 0) (Proc.devRef .tc main_v97) = _
  after_results
  rw [v3_41 m hpre 0]
  rfl

/-! ## The gathered operand sits in its buffer from the matmul region's exit to the layer's last gather region -/

theorem xw_4 (c : Dev nD) : W4 m c main_v34 = (dat0 (V3 m) c).arrAt 2 cfg0.N := by
  unfold W4; exact Pipeline.withArrays_arr spec0 (launch0 (F := F)).win.arr_inj c _ _ 2
theorem xw_5 (c : Dev nD) : W5 m c main_v34 = (dat0 (V3 m) c).arrAt 2 cfg0.N := (W5_keep m c main_v34 (by decide)).trans (xw_4 m c)
theorem xw_6 (c : Dev nD) : W6 m hpre c main_v34 = (dat0 (V3 m) c).arrAt 2 cfg0.N := (W6_keep m hpre c main_v34 (by decide)).trans (xw_5 m c)
theorem xw_7 (c : Dev nD) : W7 m hpre c main_v34 = (dat0 (V3 m) c).arrAt 2 cfg0.N := (W7_keep m hpre c main_v34 (by decide)).trans (xw_6 m hpre c)
theorem xw_8 (c : Dev nD) : W8 m hpre c main_v34 = (dat0 (V3 m) c).arrAt 2 cfg0.N := (W8_keep m hpre c main_v34 (by decide)).trans (xw_7 m hpre c)
theorem xw_9 (c : Dev nD) : W9 m hpre c main_v34 = (dat0 (V3 m) c).arrAt 2 cfg0.N := (W9_keep m hpre c main_v34 (by decide)).trans (xw_8 m hpre c)
theorem xw_10 (c : Dev nD) : W10 m hpre c main_v34 = (dat0 (V3 m) c).arrAt 2 cfg0.N := (W10_keep m hpre c main_v34 (by decide)).trans (xw_9 m hpre c)
theorem xw_11 (c : Dev nD) : W11 m hpre c main_v34 = (dat0 (V3 m) c).arrAt 2 cfg0.N := (W11_keep m hpre c main_v34 (by decide)).trans (xw_10 m hpre c)
theorem xw_12 (c : Dev nD) : W12 m hpre c main_v34 = (dat0 (V3 m) c).arrAt 2 cfg0.N := (W12_keep m hpre c main_v34 (by decide)).trans (xw_11 m hpre c)
theorem xw_13 (c : Dev nD) : W13 m hpre c main_v34 = (dat0 (V3 m) c).arrAt 2 cfg0.N := (W13_keep m hpre c main_v34 (by decide)).trans (xw_12 m hpre c)
theorem xw_14 (c : Dev nD) : W14 m hpre c main_v34 = (dat0 (V3 m) c).arrAt 2 cfg0.N := (W14_keep m hpre c main_v34 (by decide)).trans (xw_13 m hpre c)
theorem xw_15 (c : Dev nD) : W15 m hpre c main_v34 = (dat0 (V3 m) c).arrAt 2 cfg0.N := (W15_keep m hpre c main_v34 (by decide)).trans (xw_14 m hpre c)
theorem xw_16 (c : Dev nD) : W16 m hpre c main_v34 = (dat0 (V3 m) c).arrAt 2 cfg0.N := (W16_keep m hpre c main_v34 (by decide)).trans (xw_15 m hpre c)
theorem xw_17 (c : Dev nD) : W17 m hpre c main_v34 = (dat0 (V3 m) c).arrAt 2 cfg0.N := (W17_keep m hpre c main_v34 (by decide)).trans (xw_16 m hpre c)
theorem xw_18 (c : Dev nD) : W18 m hpre c main_v34 = (dat0 (V3 m) c).arrAt 2 cfg0.N := (W18_keep m hpre c main_v34 (by decide)).trans (xw_17 m hpre c)
theorem xw_19 (c : Dev nD) : W19 m hpre c main_v34 = (dat0 (V3 m) c).arrAt 2 cfg0.N := (W19_keep m hpre c main_v34 (by decide)).trans (xw_18 m hpre c)
theorem xw_20 (c : Dev nD) : W20 m hpre c main_v34 = (dat0 (V3 m) c).arrAt 2 cfg0.N := (W20_keep m hpre c main_v34 (by decide)).trans (xw_19 m hpre c)
theorem xw_21 (c : Dev nD) : W21 m hpre c main_v34 = (dat0 (V3 m) c).arrAt 2 cfg0.N := (W21_keep m hpre c main_v34 (by decide)).trans (xw_20 m hpre c)
theorem hxw1 (c : Dev nD) : V5 m c main_v34 = (dat0 (V3 m) c).arrAt 2 cfg0.N := xw_5 m c
theorem hxw2 (c : Dev nD) : V7 m hpre c main_v34 = (dat0 (V3 m) c).arrAt 2 cfg0.N := xw_7 m hpre c
theorem hxw3 (c : Dev nD) : V9 m hpre c main_v34 = (dat0 (V3 m) c).arrAt 2 cfg0.N := xw_9 m hpre c
theorem hxw4 (c : Dev nD) : V11 m hpre c main_v34 = (dat0 (V3 m) c).arrAt 2 cfg0.N := xw_11 m hpre c
theorem hxw5 (c : Dev nD) : V13 m hpre c main_v34 = (dat0 (V3 m) c).arrAt 2 cfg0.N := xw_13 m hpre c
theorem hxw6 (c : Dev nD) : V15 m hpre c main_v34 = (dat0 (V3 m) c).arrAt 2 cfg0.N := xw_15 m hpre c
theorem hxw7 (c : Dev nD) : V17 m hpre c main_v34 = (dat0 (V3 m) c).arrAt 2 cfg0.N := xw_17 m hpre c
theorem hxw8 (c : Dev nD) : V19 m hpre c main_v34 = (dat0 (V3 m) c).arrAt 2 cfg0.N := xw_19 m hpre c
theorem hxw9 (c : Dev nD) : V21 m hpre c main_v34 = (dat0 (V3 m) c).arrAt 2 cfg0.N := xw_21 m hpre c

theorem xw_25 (c : Dev nD) : W25 m hpre c main_v71 = (dat10 (V24 m hpre) c).arrAt 2 cfg10.N := by
  unfold W25; exact Pipeline.withArrays_arr spec10 (launch10 (F := F)).win.arr_inj c _ _ 2
theorem xw_26 (c : Dev nD) : W26 m hpre c main_v71 = (dat10 (V24 m hpre) c).arrAt 2 cfg10.N := (W26_keep m hpre c main_v71 (by decide)).trans (xw_25 m hpre c)
theorem xw_27 (c : Dev nD) : W27 m hpre c main_v71 = (dat10 (V24 m hpre) c).arrAt 2 cfg10.N := (W27_keep m hpre c main_v71 (by decide)).trans (xw_26 m hpre c)
theorem xw_28 (c : Dev nD) : W28 m hpre c main_v71 = (dat10 (V24 m hpre) c).arrAt 2 cfg10.N := (W28_keep m hpre c main_v71 (by decide)).trans (xw_27 m hpre c)
theorem xw_29 (c : Dev nD) : W29 m hpre c main_v71 = (dat10 (V24 m hpre) c).arrAt 2 cfg10.N := (W29_keep m hpre c main_v71 (by decide)).trans (xw_28 m hpre c)
theorem xw_30 (c : Dev nD) : W30 m hpre c main_v71 = (dat10 (V24 m hpre) c).arrAt 2 cfg10.N := (W30_keep m hpre c main_v71 (by decide)).trans (xw_29 m hpre c)
theorem xw_31 (c : Dev nD) : W31 m hpre c main_v71 = (dat10 (V24 m hpre) c).arrAt 2 cfg10.N := (W31_keep m hpre c main_v71 (by decide)).trans (xw_30 m hpre c)
theorem xw_32 (c : Dev nD) : W32 m hpre c main_v71 = (dat10 (V24 m hpre) c).arrAt 2 cfg10.N := (W32_keep m hpre c main_v71 (by decide)).trans (xw_31 m hpre c)
theorem xw_33 (c : Dev nD) : W33 m hpre c main_v71 = (dat10 (V24 m hpre) c).arrAt 2 cfg10.N := (W33_keep m hpre c main_v71 (by decide)).trans (xw_32 m hpre c)
theorem xw_34 (c : Dev nD) : W34 m hpre c main_v71 = (dat10 (V24 m hpre) c).arrAt 2 cfg10.N := (W34_keep m hpre c main_v71 (by decide)).trans (xw_33 m hpre c)
theorem xw_35 (c : Dev nD) : W35 m hpre c main_v71 = (dat10 (V24 m hpre) c).arrAt 2 cfg10.N := (W35_keep m hpre c main_v71 (by decide)).trans (xw_34 m hpre c)
theorem xw_36 (c : Dev nD) : W36 m hpre c main_v71 = (dat10 (V24 m hpre) c).arrAt 2 cfg10.N := (W36_keep m hpre c main_v71 (by decide)).trans (xw_35 m hpre c)
theorem xw_37 (c : Dev nD) : W37 m hpre c main_v71 = (dat10 (V24 m hpre) c).arrAt 2 cfg10.N := (W37_keep m hpre c main_v71 (by decide)).trans (xw_36 m hpre c)
theorem xw_38 (c : Dev nD) : W38 m hpre c main_v71 = (dat10 (V24 m hpre) c).arrAt 2 cfg10.N := (W38_keep m hpre c main_v71 (by decide)).trans (xw_37 m hpre c)
theorem xw_39 (c : Dev nD) : W39 m hpre c main_v71 = (dat10 (V24 m hpre) c).arrAt 2 cfg10.N := (W39_keep m hpre c main_v71 (by decide)).trans (xw_38 m hpre c)
theorem xw_40 (c : Dev nD) : W40 m hpre c main_v71 = (dat10 (V24 m hpre) c).arrAt 2 cfg10.N := (W40_keep m hpre c main_v71 (by decide)).trans (xw_39 m hpre c)
theorem xw_41 (c : Dev nD) : W41 m hpre c main_v71 = (dat10 (V24 m hpre) c).arrAt 2 cfg10.N := (W41_keep m hpre c main_v71 (by decide)).trans (xw_40 m hpre c)
theorem xw_42 (c : Dev nD) : W42 m hpre c main_v71 = (dat10 (V24 m hpre) c).arrAt 2 cfg10.N := (W42_keep m hpre c main_v71 (by decide)).trans (xw_41 m hpre c)
theorem hxw11 (c : Dev nD) : V26 m hpre c main_v71 = (dat10 (V24 m hpre) c).arrAt 2 cfg10.N := xw_26 m hpre c
theorem hxw12 (c : Dev nD) : V28 m hpre c main_v71 = (dat10 (V24 m hpre) c).arrAt 2 cfg10.N := xw_28 m hpre c
theorem hxw13 (c : Dev nD) : V30 m hpre c main_v71 = (dat10 (V24 m hpre) c).arrAt 2 cfg10.N := xw_30 m hpre c
theorem hxw14 (c : Dev nD) : V32 m hpre c main_v71 = (dat10 (V24 m hpre) c).arrAt 2 cfg10.N := xw_32 m hpre c
theorem hxw15 (c : Dev nD) : V34 m hpre c main_v71 = (dat10 (V24 m hpre) c).arrAt 2 cfg10.N := xw_34 m hpre c
theorem hxw16 (c : Dev nD) : V36 m hpre c main_v71 = (dat10 (V24 m hpre) c).arrAt 2 cfg10.N := xw_36 m hpre c
theorem hxw17 (c : Dev nD) : V38 m hpre c main_v71 = (dat10 (V24 m hpre) c).arrAt 2 cfg10.N := xw_38 m hpre c
theorem hxw18 (c : Dev nD) : V40 m hpre c main_v71 = (dat10 (V24 m hpre) c).arrAt 2 cfg10.N := xw_40 m hpre c
theorem hxw19 (c : Dev nD) : V42 m hpre c main_v71 = (dat10 (V24 m hpre) c).arrAt 2 cfg10.N := xw_42 m hpre c

end Cert.Kernel.Hand

end
-- ==== Proof.Bits.Reg1.lean ====
/- Region 1 of the run (a gather call of the first layer: words 0 … 49999 of the row vector) as one item of the program
   between two boundary contents. The region is entered with every unscoped buffer at the contents W5 and left
   with them at W6, which differs from W5 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 1's exit contents -/

/-- At the exit each array of the region holds what the grid leaves in it, -/
theorem W6_arr (c : Dev nD) (w : Fin (cfg1 (adm1 m)).W) :
    W6 m hpre c (Proc.devRef .tc (Pipeline.arrRef spec1 w)) = (dat1 (V5 m) (adm1 m) (hH1 m hpre) c).arrAt w (cfg1 (adm1 m)).N := by
  unfold W6; exact Pipeline.withArrays_arr spec1 (launch1 (F := F)).win.arr_inj c _ _ w
/-- and every other buffer what it held at the entry. -/
theorem W6_of_ne (c : Dev nD) (b : Ref sig .tc) (hb : ∀ w, Pipeline.arrRef spec1 w ≠ b) :
    W6 m hpre c (Proc.devRef .tc b) = W5 m c (Proc.devRef .tc b) := by
  unfold W6; exact Pipeline.withArrays_of_ne spec1 c _ _ b hb
/-- The exit contents read at the TensorCore's references. -/
abbrev V6 : (c : Dev nD) → (b : Ref sig .tc) → Buf (Elt F) ((c : Thread nD τ).loc b) := fun c b => W6 m hpre c b
theorem hF1 (c : Dev nD) (w : Fin (cfg1 (adm1 m)).W) :
    (dat1 (V5 m) (adm1 m) (hH1 m hpre) c).arrAt w (cfg1 (adm1 m)).N = V6 m hpre c (Pipeline.arrRef spec1 w) :=
  (W6_arr m hpre c w).symm
theorem hrest1 (c : Dev nD) : ∀ b, b ∉ Finset.univ.image (Pipeline.arrRef spec1) → V6 m hpre c b = V5 m c b :=
  fun b hb => W6_of_ne m hpre c b fun w e => hb (Finset.mem_image.mpr ⟨w, Finset.mem_univ _, e⟩)

/-! ## The unscoped buffers that are no array of the region -/

/-- The operand left in HBM is unscoped, no array of the region and not the row table. -/
theorem H1_subP : H1 ⊆ Pipeline.restRefsP sig pre1 spec1 := by
  intro b hb
  rw [H1, Finset.mem_singleton] at hb
  subst hb
  refine Finset.mem_sdiff.mpr ⟨Pipeline.mem_restRefs_of main_v34 (by decide) (by decide), ?_⟩
  decide

include hpre in
/-- The table's buffer at the region's entry holds the admissible contents: the one table, words 0 … 49999 of the
    row vector. -/
theorem htbl1 (c : Dev nD) : (fun k : Fin pre1.K => V5 m c (pre1.ref k)) = (adm1 m).1 :=
  funext fun | ⟨0, _⟩ => hpf1 m c

include hpre in
/-- The unscoped buffers that are no array of the region, at its entry contents: the table at the admissible
    contents, the operand left in HBM, and the others. -/
theorem rest1_eq (c : Dev nD) :
    (Pipeline.unscopedRest (Ix := Unit) (Name := ℕ) (U := Pipeline.UD sig nD τ) (Lvl := ℕ) spec1 c (V5 m c) : sProp 𝕄)
      = iprop(Pipeline.prefHeld pre1 c (fun _ => fullShare) (adm1 m).1
          ∗ (bigSep H1 fun b => ((c : Thread nD τ).loc b) ↦{fullShare} V5 m c b)
          ∗ bigSep (Pipeline.restRefsP sig pre1 spec1 \ H1) fun b => ((c : Thread nD τ).loc b) ↦{fullShare} V5 m c b) := by
  rw [Pipeline.unscopedRest_split preFacts1 c (V5 m c), htbl1 m hpre c, Pipeline.unscopedRestP_sdiff pre1 spec1 H1 H1_subP c (V5 m c)]

/-! ## The region as an item of the program -/

-- a library lemma stated over the pinned configuration unifies with the printed one only when unification may
-- unfold plain definitions in a metavariable's type
set_option backward.isDefEq.respectTransparency.types false in
/-- REGION 1 between the boundary contents W5 and W6. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W6. Nothing is owed
    at the pipeline's cells at any point. -/
def reg1 : Pipeline.RegionSeg (pcfgs (F := F)) (adm m) (pdats m hpre) () defs₀ 𝒱₀ L lv 1 where
  win := (launch1 (F := F)).win.to₀
  block_pos := (launch1 (F := F)).block_pos
  stage_whole := (launch1 (F := F)).stage_whole
  K := Fin 16
  osem := osem1
  ho := ownSemFacts1
  hbody c := (body_obligation1 (V5 m) (adm1 m) (hH1 m hpre) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m hpre c) ∗ R c)
  X c := iprop((∃ r, prngReg c r) ∗ Pipeline.ownSems0 (Ix := Unit) (Name := ℕ) (U := Pipeline.UD sig nD τ) (Lvl := ℕ) (Val := Elt F) (τ := τ) osem1 c
    ∗ bigSep H1 fun b => ((c : Thread nD τ).loc b) ↦{fullShare} V5 m c b)
  Y c := iprop((∃ r, prngReg c r) ∗ (bigSep H1 fun b => ((c : Thread nD τ).loc b) ↦{fullShare} V5 m c b)
    ∗ Pipeline.prefHeld pre1 c (fun _ => fullShare) (adm1 m).1)
  Z c := bigSep (Pipeline.restRefsP sig pre1 spec1 \ H1) fun b => ((c : Thread nD τ).loc b) ↦{fullShare} V5 m c b
  hentry c := by
    have hsplit := Pipeline.arrays_of_unscopedBufs (p := 1) (pcfgs (F := F)) (adm m) (pdats m hpre) (launch1 (F := F)).win (launch1 (F := F)).arr_whole c
      ((pdats m hpre 1 c).share_full fun _ => rfl) (V5 m c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest1_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 1 c).Φ 0 = iprop(Pipeline.ΦD osem1 spec1 H1 (V5 m) c ∗ Pipeline.prefHeld pre1 c (fun _ => fullShare) (adm1 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 1 c).Φ (Fin.last _) = iprop(Pipeline.ΦD osem1 spec1 H1 (V5 m) c ∗ Pipeline.prefHeld pre1 c (fun _ => fullShare) (adm1 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m hpre) ((pdats m hpre 1 c).share_full fun _ => rfl)
      (V5 m c) (V6 m hpre c) ((pdats m hpre 1 c).arrAt · (cfg1 (adm1 m)).N) (hF1 m hpre c) (hrest1 m hpre c)
    rw [Pipeline.unscopedBufs_held] at hjoin
    iintro ⟨Ha, HO, ⟨Hp, HH, Ht⟩, HZ⟩
    ihave Hrest := (Entails.of_eq (rest1_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg2.lean ====
/- Region 2 of the run (a gather call of the first layer: words 50000 … 99999 of the row vector) as one item of the program
   between two boundary contents. The region is entered with every unscoped buffer at the contents W7 and left
   with them at W8, which differs from W7 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 2's exit contents -/

/-- At the exit each array of the region holds what the grid leaves in it, -/
theorem W8_arr (c : Dev nD) (w : Fin (cfg2 (adm2 m)).W) :
    W8 m hpre c (Proc.devRef .tc (Pipeline.arrRef spec2 w)) = (dat2 (V7 m hpre) (adm2 m) (hH2 m hpre) c).arrAt w (cfg2 (adm2 m)).N := by
  unfold W8; exact Pipeline.withArrays_arr spec2 (launch2 (F := F)).win.arr_inj c _ _ w
/-- and every other buffer what it held at the entry. -/
theorem W8_of_ne (c : Dev nD) (b : Ref sig .tc) (hb : ∀ w, Pipeline.arrRef spec2 w ≠ b) :
    W8 m hpre c (Proc.devRef .tc b) = W7 m hpre c (Proc.devRef .tc b) := by
  unfold W8; exact Pipeline.withArrays_of_ne spec2 c _ _ b hb
/-- The exit contents read at the TensorCore's references. -/
abbrev V8 : (c : Dev nD) → (b : Ref sig .tc) → Buf (Elt F) ((c : Thread nD τ).loc b) := fun c b => W8 m hpre c b
theorem hF2 (c : Dev nD) (w : Fin (cfg2 (adm2 m)).W) :
    (dat2 (V7 m hpre) (adm2 m) (hH2 m hpre) c).arrAt w (cfg2 (adm2 m)).N = V8 m hpre c (Pipeline.arrRef spec2 w) :=
  (W8_arr m hpre c w).symm
theorem hrest2 (c : Dev nD) : ∀ b, b ∉ Finset.univ.image (Pipeline.arrRef spec2) → V8 m hpre c b = V7 m hpre c b :=
  fun b hb => W8_of_ne m hpre c b fun w e => hb (Finset.mem_image.mpr ⟨w, Finset.mem_univ _, e⟩)

/-! ## The unscoped buffers that are no array of the region -/

/-- The operand left in HBM is unscoped, no array of the region and not the row table. -/
theorem H2_subP : H2 ⊆ Pipeline.restRefsP sig pre2 spec2 := by
  intro b hb
  rw [H2, Finset.mem_singleton] at hb
  subst hb
  refine Finset.mem_sdiff.mpr ⟨Pipeline.mem_restRefs_of main_v34 (by decide) (by decide), ?_⟩
  decide

include hpre in
/-- The table's buffer at the region's entry holds the admissible contents: the one table, words 50000 … 99999 of the
    row vector. -/
theorem htbl2 (c : Dev nD) : (fun k : Fin pre2.K => V7 m hpre c (pre2.ref k)) = (adm2 m).1 :=
  funext fun | ⟨0, _⟩ => hpf2 m hpre c

include hpre in
/-- The unscoped buffers that are no array of the region, at its entry contents: the table at the admissible
    contents, the operand left in HBM, and the others. -/
theorem rest2_eq (c : Dev nD) :
    (Pipeline.unscopedRest (Ix := Unit) (Name := ℕ) (U := Pipeline.UD sig nD τ) (Lvl := ℕ) spec2 c (V7 m hpre c) : sProp 𝕄)
      = iprop(Pipeline.prefHeld pre2 c (fun _ => fullShare) (adm2 m).1
          ∗ (bigSep H2 fun b => ((c : Thread nD τ).loc b) ↦{fullShare} V7 m hpre c b)
          ∗ bigSep (Pipeline.restRefsP sig pre2 spec2 \ H2) fun b => ((c : Thread nD τ).loc b) ↦{fullShare} V7 m hpre c b) := by
  rw [Pipeline.unscopedRest_split preFacts2 c (V7 m hpre c), htbl2 m hpre c, Pipeline.unscopedRestP_sdiff pre2 spec2 H2 H2_subP c (V7 m hpre c)]

/-! ## The region as an item of the program -/

-- a library lemma stated over the pinned configuration unifies with the printed one only when unification may
-- unfold plain definitions in a metavariable's type
set_option backward.isDefEq.respectTransparency.types false in
/-- REGION 2 between the boundary contents W7 and W8. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W8. Nothing is owed
    at the pipeline's cells at any point. -/
def reg2 : Pipeline.RegionSeg (pcfgs (F := F)) (adm m) (pdats m hpre) () defs₀ 𝒱₀ L lv 2 where
  win := (launch2 (F := F)).win.to₀
  block_pos := (launch2 (F := F)).block_pos
  stage_whole := (launch2 (F := F)).stage_whole
  K := Fin 16
  osem := osem2
  ho := ownSemFacts2
  hbody c := (body_obligation2 (V7 m hpre) (adm2 m) (hH2 m hpre) c).loose
  hwaits := Pipeline.hwaits_of_owed_zero _ _ _ _ L lv 2 fun _ _ => rfl
  pre c := iprop(StableHlo.held (c : Thread nD τ) (Pipeline.ucRefs τ sig) (W7 m hpre c) ∗ R c)
  post c := iprop(StableHlo.held (c : Thread nD τ) (Pipeline.ucRefs τ sig) (W8 m hpre c) ∗ R c)
  X c := iprop((∃ r, prngReg c r) ∗ Pipeline.ownSems0 (Ix := Unit) (Name := ℕ) (U := Pipeline.UD sig nD τ) (Lvl := ℕ) (Val := Elt F) (τ := τ) osem2 c
    ∗ bigSep H2 fun b => ((c : Thread nD τ).loc b) ↦{fullShare} V7 m hpre c b)
  Y c := iprop((∃ r, prngReg c r) ∗ (bigSep H2 fun b => ((c : Thread nD τ).loc b) ↦{fullShare} V7 m hpre c b)
    ∗ Pipeline.prefHeld pre2 c (fun _ => fullShare) (adm2 m).1)
  Z c := bigSep (Pipeline.restRefsP sig pre2 spec2 \ H2) fun b => ((c : Thread nD τ).loc b) ↦{fullShare} V7 m hpre c b
  hentry c := by
    have hsplit := Pipeline.arrays_of_unscopedBufs (p := 2) (pcfgs (F := F)) (adm m) (pdats m hpre) (launch2 (F := F)).win (launch2 (F := F)).arr_whole c
      ((pdats m hpre 2 c).share_full fun _ => rfl) (V7 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest2_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 2 c).Φ 0 = iprop(Pipeline.ΦD osem2 spec2 H2 (V7 m hpre) c ∗ Pipeline.prefHeld pre2 c (fun _ => fullShare) (adm2 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 2 c).Φ (Fin.last _) = iprop(Pipeline.ΦD osem2 spec2 H2 (V7 m hpre) c ∗ Pipeline.prefHeld pre2 c (fun _ => fullShare) (adm2 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m hpre) ((pdats m hpre 2 c).share_full fun _ => rfl)
      (V7 m hpre c) (V8 m hpre c) ((pdats m hpre 2 c).arrAt · (cfg2 (adm2 m)).N) (hF2 m hpre c) (hrest2 m hpre c)
    rw [Pipeline.unscopedBufs_held] at hjoin
    iintro ⟨Ha, HO, ⟨Hp, HH, Ht⟩, HZ⟩
    ihave Hrest := (Entails.of_eq (rest2_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg3.lean ====
/- Region 3 of the run (a gather call of the first layer: words 100000 … 149999 of the row vector) as one item of the program
   between two boundary contents. The region is entered with every unscoped buffer at the contents W9 and left
   with them at W10, which differs from W9 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 3's exit contents -/

/-- At the exit each array of the region holds what the grid leaves in it, -/
theorem W10_arr (c : Dev nD) (w : Fin (cfg3 (adm3 m)).W) :
    W10 m hpre c (Proc.devRef .tc (Pipeline.arrRef spec3 w)) = (dat3 (V9 m hpre) (adm3 m) (hH3 m hpre) c).arrAt w (cfg3 (adm3 m)).N := by
  unfold W10; exact Pipeline.withArrays_arr spec3 (launch3 (F := F)).win.arr_inj c _ _ w
/-- and every other buffer what it held at the entry. -/
theorem W10_of_ne (c : Dev nD) (b : Ref sig .tc) (hb : ∀ w, Pipeline.arrRef spec3 w ≠ b) :
    W10 m hpre c (Proc.devRef .tc b) = W9 m hpre c (Proc.devRef .tc b) := by
  unfold W10; exact Pipeline.withArrays_of_ne spec3 c _ _ b hb
/-- The exit contents read at the TensorCore's references. -/
abbrev V10 : (c : Dev nD) → (b : Ref sig .tc) → Buf (Elt F) ((c : Thread nD τ).loc b) := fun c b => W10 m hpre c b
theorem hF3 (c : Dev nD) (w : Fin (cfg3 (adm3 m)).W) :
    (dat3 (V9 m hpre) (adm3 m) (hH3 m hpre) c).arrAt w (cfg3 (adm3 m)).N = V10 m hpre c (Pipeline.arrRef spec3 w) :=
  (W10_arr m hpre c w).symm
theorem hrest3 (c : Dev nD) : ∀ b, b ∉ Finset.univ.image (Pipeline.arrRef spec3) → V10 m hpre c b = V9 m hpre c b :=
  fun b hb => W10_of_ne m hpre c b fun w e => hb (Finset.mem_image.mpr ⟨w, Finset.mem_univ _, e⟩)

/-! ## The unscoped buffers that are no array of the region -/

/-- The operand left in HBM is unscoped, no array of the region and not the row table. -/
theorem H3_subP : H3 ⊆ Pipeline.restRefsP sig pre3 spec3 := by
  intro b hb
  rw [H3, Finset.mem_singleton] at hb
  subst hb
  refine Finset.mem_sdiff.mpr ⟨Pipeline.mem_restRefs_of main_v34 (by decide) (by decide), ?_⟩
  decide

include hpre in
/-- The table's buffer at the region's entry holds the admissible contents: the one table, words 100000 … 149999 of the
    row vector. -/
theorem htbl3 (c : Dev nD) : (fun k : Fin pre3.K => V9 m hpre c (pre3.ref k)) = (adm3 m).1 :=
  funext fun | ⟨0, _⟩ => hpf3 m hpre c

include hpre in
/-- The unscoped buffers that are no array of the region, at its entry contents: the table at the admissible
    contents, the operand left in HBM, and the others. -/
theorem rest3_eq (c : Dev nD) :
    (Pipeline.unscopedRest (Ix := Unit) (Name := ℕ) (U := Pipeline.UD sig nD τ) (Lvl := ℕ) spec3 c (V9 m hpre c) : sProp 𝕄)
      = iprop(Pipeline.prefHeld pre3 c (fun _ => fullShare) (adm3 m).1
          ∗ (bigSep H3 fun b => ((c : Thread nD τ).loc b) ↦{fullShare} V9 m hpre c b)
          ∗ bigSep (Pipeline.restRefsP sig pre3 spec3 \ H3) fun b => ((c : Thread nD τ).loc b) ↦{fullShare} V9 m hpre c b) := by
  rw [Pipeline.unscopedRest_split preFacts3 c (V9 m hpre c), htbl3 m hpre c, Pipeline.unscopedRestP_sdiff pre3 spec3 H3 H3_subP c (V9 m hpre c)]

/-! ## The region as an item of the program -/

-- a library lemma stated over the pinned configuration unifies with the printed one only when unification may
-- unfold plain definitions in a metavariable's type
set_option backward.isDefEq.respectTransparency.types false in
/-- REGION 3 between the boundary contents W9 and W10. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W10. Nothing is owed
    at the pipeline's cells at any point. -/
def reg3 : Pipeline.RegionSeg (pcfgs (F := F)) (adm m) (pdats m hpre) () defs₀ 𝒱₀ L lv 3 where
  win := (launch3 (F := F)).win.to₀
  block_pos := (launch3 (F := F)).block_pos
  stage_whole := (launch3 (F := F)).stage_whole
  K := Fin 16
  osem := osem3
  ho := ownSemFacts3
  hbody c := (body_obligation3 (V9 m hpre) (adm3 m) (hH3 m hpre) c).loose
  hwaits := Pipeline.hwaits_of_owed_zero _ _ _ _ L lv 3 fun _ _ => rfl
  pre c := iprop(StableHlo.held (c : Thread nD τ) (Pipeline.ucRefs τ sig) (W9 m hpre c) ∗ R c)
  post c := iprop(StableHlo.held (c : Thread nD τ) (Pipeline.ucRefs τ sig) (W10 m hpre c) ∗ R c)
  X c := iprop((∃ r, prngReg c r) ∗ Pipeline.ownSems0 (Ix := Unit) (Name := ℕ) (U := Pipeline.UD sig nD τ) (Lvl := ℕ) (Val := Elt F) (τ := τ) osem3 c
    ∗ bigSep H3 fun b => ((c : Thread nD τ).loc b) ↦{fullShare} V9 m hpre c b)
  Y c := iprop((∃ r, prngReg c r) ∗ (bigSep H3 fun b => ((c : Thread nD τ).loc b) ↦{fullShare} V9 m hpre c b)
    ∗ Pipeline.prefHeld pre3 c (fun _ => fullShare) (adm3 m).1)
  Z c := bigSep (Pipeline.restRefsP sig pre3 spec3 \ H3) fun b => ((c : Thread nD τ).loc b) ↦{fullShare} V9 m hpre c b
  hentry c := by
    have hsplit := Pipeline.arrays_of_unscopedBufs (p := 3) (pcfgs (F := F)) (adm m) (pdats m hpre) (launch3 (F := F)).win (launch3 (F := F)).arr_whole c
      ((pdats m hpre 3 c).share_full fun _ => rfl) (V9 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest3_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 3 c).Φ 0 = iprop(Pipeline.ΦD osem3 spec3 H3 (V9 m hpre) c ∗ Pipeline.prefHeld pre3 c (fun _ => fullShare) (adm3 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 3 c).Φ (Fin.last _) = iprop(Pipeline.ΦD osem3 spec3 H3 (V9 m hpre) c ∗ Pipeline.prefHeld pre3 c (fun _ => fullShare) (adm3 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m hpre) ((pdats m hpre 3 c).share_full fun _ => rfl)
      (V9 m hpre c) (V10 m hpre c) ((pdats m hpre 3 c).arrAt · (cfg3 (adm3 m)).N) (hF3 m hpre c) (hrest3 m hpre c)
    rw [Pipeline.unscopedBufs_held] at hjoin
    iintro ⟨Ha, HO, ⟨Hp, HH, Ht⟩, HZ⟩
    ihave Hrest := (Entails.of_eq (rest3_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg4.lean ====
/- Region 4 of the run (a gather call of the first layer: words 150000 … 199999 of the row vector) as one item of the program
   between two boundary contents. The region is entered with every unscoped buffer at the contents W11 and left
   with them at W12, which differs from W11 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 4's exit contents -/

/-- At the exit each array of the region holds what the grid leaves in it, -/
theorem W12_arr (c : Dev nD) (w : Fin (cfg4 (adm4 m)).W) :
    W12 m hpre c (Proc.devRef .tc (Pipeline.arrRef spec4 w)) = (dat4 (V11 m hpre) (adm4 m) (hH4 m hpre) c).arrAt w (cfg4 (adm4 m)).N := by
  unfold W12; exact Pipeline.withArrays_arr spec4 (launch4 (F := F)).win.arr_inj c _ _ w
/-- and every other buffer what it held at the entry. -/
theorem W12_of_ne (c : Dev nD) (b : Ref sig .tc) (hb : ∀ w, Pipeline.arrRef spec4 w ≠ b) :
    W12 m hpre c (Proc.devRef .tc b) = W11 m hpre c (Proc.devRef .tc b) := by
  unfold W12; exact Pipeline.withArrays_of_ne spec4 c _ _ b hb
/-- The exit contents read at the TensorCore's references. -/
abbrev V12 : (c : Dev nD) → (b : Ref sig .tc) → Buf (Elt F) ((c : Thread nD τ).loc b) := fun c b => W12 m hpre c b
theorem hF4 (c : Dev nD) (w : Fin (cfg4 (adm4 m)).W) :
    (dat4 (V11 m hpre) (adm4 m) (hH4 m hpre) c).arrAt w (cfg4 (adm4 m)).N = V12 m hpre c (Pipeline.arrRef spec4 w) :=
  (W12_arr m hpre c w).symm
theorem hrest4 (c : Dev nD) : ∀ b, b ∉ Finset.univ.image (Pipeline.arrRef spec4) → V12 m hpre c b = V11 m hpre c b :=
  fun b hb => W12_of_ne m hpre c b fun w e => hb (Finset.mem_image.mpr ⟨w, Finset.mem_univ _, e⟩)

/-! ## The unscoped buffers that are no array of the region -/

/-- The operand left in HBM is unscoped, no array of the region and not the row table. -/
theorem H4_subP : H4 ⊆ Pipeline.restRefsP sig pre4 spec4 := by
  intro b hb
  rw [H4, Finset.mem_singleton] at hb
  subst hb
  refine Finset.mem_sdiff.mpr ⟨Pipeline.mem_restRefs_of main_v34 (by decide) (by decide), ?_⟩
  decide

include hpre in
/-- The table's buffer at the region's entry holds the admissible contents: the one table, words 150000 … 199999 of the
    row vector. -/
theorem htbl4 (c : Dev nD) : (fun k : Fin pre4.K => V11 m hpre c (pre4.ref k)) = (adm4 m).1 :=
  funext fun | ⟨0, _⟩ => hpf4 m hpre c

include hpre in
/-- The unscoped buffers that are no array of the region, at its entry contents: the table at the admissible
    contents, the operand left in HBM, and the others. -/
theorem rest4_eq (c : Dev nD) :
    (Pipeline.unscopedRest (Ix := Unit) (Name := ℕ) (U := Pipeline.UD sig nD τ) (Lvl := ℕ) spec4 c (V11 m hpre c) : sProp 𝕄)
      = iprop(Pipeline.prefHeld pre4 c (fun _ => fullShare) (adm4 m).1
          ∗ (bigSep H4 fun b => ((c : Thread nD τ).loc b) ↦{fullShare} V11 m hpre c b)
          ∗ bigSep (Pipeline.restRefsP sig pre4 spec4 \ H4) fun b => ((c : Thread nD τ).loc b) ↦{fullShare} V11 m hpre c b) := by
  rw [Pipeline.unscopedRest_split preFacts4 c (V11 m hpre c), htbl4 m hpre c, Pipeline.unscopedRestP_sdiff pre4 spec4 H4 H4_subP c (V11 m hpre c)]

/-! ## The region as an item of the program -/

-- a library lemma stated over the pinned configuration unifies with the printed one only when unification may
-- unfold plain definitions in a metavariable's type
set_option backward.isDefEq.respectTransparency.types false in
/-- REGION 4 between the boundary contents W11 and W12. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W12. Nothing is owed
    at the pipeline's cells at any point. -/
def reg4 : Pipeline.RegionSeg (pcfgs (F := F)) (adm m) (pdats m hpre) () defs₀ 𝒱₀ L lv 4 where
  win := (launch4 (F := F)).win.to₀
  block_pos := (launch4 (F := F)).block_pos
  stage_whole := (launch4 (F := F)).stage_whole
  K := Fin 16
  osem := osem4
  ho := ownSemFacts4
  hbody c := (body_obligation4 (V11 m hpre) (adm4 m) (hH4 m hpre) c).loose
  hwaits := Pipeline.hwaits_of_owed_zero _ _ _ _ L lv 4 fun _ _ => rfl
  pre c := iprop(StableHlo.held (c : Thread nD τ) (Pipeline.ucRefs τ sig) (W11 m hpre c) ∗ R c)
  post c := iprop(StableHlo.held (c : Thread nD τ) (Pipeline.ucRefs τ sig) (W12 m hpre c) ∗ R c)
  X c := iprop((∃ r, prngReg c r) ∗ Pipeline.ownSems0 (Ix := Unit) (Name := ℕ) (U := Pipeline.UD sig nD τ) (Lvl := ℕ) (Val := Elt F) (τ := τ) osem4 c
    ∗ bigSep H4 fun b => ((c : Thread nD τ).loc b) ↦{fullShare} V11 m hpre c b)
  Y c := iprop((∃ r, prngReg c r) ∗ (bigSep H4 fun b => ((c : Thread nD τ).loc b) ↦{fullShare} V11 m hpre c b)
    ∗ Pipeline.prefHeld pre4 c (fun _ => fullShare) (adm4 m).1)
  Z c := bigSep (Pipeline.restRefsP sig pre4 spec4 \ H4) fun b => ((c : Thread nD τ).loc b) ↦{fullShare} V11 m hpre c b
  hentry c := by
    have hsplit := Pipeline.arrays_of_unscopedBufs (p := 4) (pcfgs (F := F)) (adm m) (pdats m hpre) (launch4 (F := F)).win (launch4 (F := F)).arr_whole c
      ((pdats m hpre 4 c).share_full fun _ => rfl) (V11 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest4_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 4 c).Φ 0 = iprop(Pipeline.ΦD osem4 spec4 H4 (V11 m hpre) c ∗ Pipeline.prefHeld pre4 c (fun _ => fullShare) (adm4 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 4 c).Φ (Fin.last _) = iprop(Pipeline.ΦD osem4 spec4 H4 (V11 m hpre) c ∗ Pipeline.prefHeld pre4 c (fun _ => fullShare) (adm4 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m hpre) ((pdats m hpre 4 c).share_full fun _ => rfl)
      (V11 m hpre c) (V12 m hpre c) ((pdats m hpre 4 c).arrAt · (cfg4 (adm4 m)).N) (hF4 m hpre c) (hrest4 m hpre c)
    rw [Pipeline.unscopedBufs_held] at hjoin
    iintro ⟨Ha, HO, ⟨Hp, HH, Ht⟩, HZ⟩
    ihave Hrest := (Entails.of_eq (rest4_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg5.lean ====
/- Region 5 of the run (a gather call of the first layer: words 200000 … 249999 of the row vector) as one item of the program
   between two boundary contents. The region is entered with every unscoped buffer at the contents W13 and left
   with them at W14, which differs from W13 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 5's exit contents -/

/-- At the exit each array of the region holds what the grid leaves in it, -/
theorem W14_arr (c : Dev nD) (w : Fin (cfg5 (adm5 m)).W) :
    W14 m hpre c (Proc.devRef .tc (Pipeline.arrRef spec5 w)) = (dat5 (V13 m hpre) (adm5 m) (hH5 m hpre) c).arrAt w (cfg5 (adm5 m)).N := by
  unfold W14; exact Pipeline.withArrays_arr spec5 (launch5 (F := F)).win.arr_inj c _ _ w
/-- and every other buffer what it held at the entry. -/
theorem W14_of_ne (c : Dev nD) (b : Ref sig .tc) (hb : ∀ w, Pipeline.arrRef spec5 w ≠ b) :
    W14 m hpre c (Proc.devRef .tc b) = W13 m hpre c (Proc.devRef .tc b) := by
  unfold W14; exact Pipeline.withArrays_of_ne spec5 c _ _ b hb
/-- The exit contents read at the TensorCore's references. -/
abbrev V14 : (c : Dev nD) → (b : Ref sig .tc) → Buf (Elt F) ((c : Thread nD τ).loc b) := fun c b => W14 m hpre c b
theorem hF5 (c : Dev nD) (w : Fin (cfg5 (adm5 m)).W) :
    (dat5 (V13 m hpre) (adm5 m) (hH5 m hpre) c).arrAt w (cfg5 (adm5 m)).N = V14 m hpre c (Pipeline.arrRef spec5 w) :=
  (W14_arr m hpre c w).symm
theorem hrest5 (c : Dev nD) : ∀ b, b ∉ Finset.univ.image (Pipeline.arrRef spec5) → V14 m hpre c b = V13 m hpre c b :=
  fun b hb => W14_of_ne m hpre c b fun w e => hb (Finset.mem_image.mpr ⟨w, Finset.mem_univ _, e⟩)

/-! ## The unscoped buffers that are no array of the region -/

/-- The operand left in HBM is unscoped, no array of the region and not the row table. -/
theorem H5_subP : H5 ⊆ Pipeline.restRefsP sig pre5 spec5 := by
  intro b hb
  rw [H5, Finset.mem_singleton] at hb
  subst hb
  refine Finset.mem_sdiff.mpr ⟨Pipeline.mem_restRefs_of main_v34 (by decide) (by decide), ?_⟩
  decide

include hpre in
/-- The table's buffer at the region's entry holds the admissible contents: the one table, words 200000 … 249999 of the
    row vector. -/
theorem htbl5 (c : Dev nD) : (fun k : Fin pre5.K => V13 m hpre c (pre5.ref k)) = (adm5 m).1 :=
  funext fun | ⟨0, _⟩ => hpf5 m hpre c

include hpre in
/-- The unscoped buffers that are no array of the region, at its entry contents: the table at the admissible
    contents, the operand left in HBM, and the others. -/
theorem rest5_eq (c : Dev nD) :
    (Pipeline.unscopedRest (Ix := Unit) (Name := ℕ) (U := Pipeline.UD sig nD τ) (Lvl := ℕ) spec5 c (V13 m hpre c) : sProp 𝕄)
      = iprop(Pipeline.prefHeld pre5 c (fun _ => fullShare) (adm5 m).1
          ∗ (bigSep H5 fun b => ((c : Thread nD τ).loc b) ↦{fullShare} V13 m hpre c b)
          ∗ bigSep (Pipeline.restRefsP sig pre5 spec5 \ H5) fun b => ((c : Thread nD τ).loc b) ↦{fullShare} V13 m hpre c b) := by
  rw [Pipeline.unscopedRest_split preFacts5 c (V13 m hpre c), htbl5 m hpre c, Pipeline.unscopedRestP_sdiff pre5 spec5 H5 H5_subP c (V13 m hpre c)]

/-! ## The region as an item of the program -/

-- a library lemma stated over the pinned configuration unifies with the printed one only when unification may
-- unfold plain definitions in a metavariable's type
set_option backward.isDefEq.respectTransparency.types false in
/-- REGION 5 between the boundary contents W13 and W14. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W14. Nothing is owed
    at the pipeline's cells at any point. -/
def reg5 : Pipeline.RegionSeg (pcfgs (F := F)) (adm m) (pdats m hpre) () defs₀ 𝒱₀ L lv 5 where
  win := (launch5 (F := F)).win.to₀
  block_pos := (launch5 (F := F)).block_pos
  stage_whole := (launch5 (F := F)).stage_whole
  K := Fin 16
  osem := osem5
  ho := ownSemFacts5
  hbody c := (body_obligation5 (V13 m hpre) (adm5 m) (hH5 m hpre) c).loose
  hwaits := Pipeline.hwaits_of_owed_zero _ _ _ _ L lv 5 fun _ _ => rfl
  pre c := iprop(StableHlo.held (c : Thread nD τ) (Pipeline.ucRefs τ sig) (W13 m hpre c) ∗ R c)
  post c := iprop(StableHlo.held (c : Thread nD τ) (Pipeline.ucRefs τ sig) (W14 m hpre c) ∗ R c)
  X c := iprop((∃ r, prngReg c r) ∗ Pipeline.ownSems0 (Ix := Unit) (Name := ℕ) (U := Pipeline.UD sig nD τ) (Lvl := ℕ) (Val := Elt F) (τ := τ) osem5 c
    ∗ bigSep H5 fun b => ((c : Thread nD τ).loc b) ↦{fullShare} V13 m hpre c b)
  Y c := iprop((∃ r, prngReg c r) ∗ (bigSep H5 fun b => ((c : Thread nD τ).loc b) ↦{fullShare} V13 m hpre c b)
    ∗ Pipeline.prefHeld pre5 c (fun _ => fullShare) (adm5 m).1)
  Z c := bigSep (Pipeline.restRefsP sig pre5 spec5 \ H5) fun b => ((c : Thread nD τ).loc b) ↦{fullShare} V13 m hpre c b
  hentry c := by
    have hsplit := Pipeline.arrays_of_unscopedBufs (p := 5) (pcfgs (F := F)) (adm m) (pdats m hpre) (launch5 (F := F)).win (launch5 (F := F)).arr_whole c
      ((pdats m hpre 5 c).share_full fun _ => rfl) (V13 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest5_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 5 c).Φ 0 = iprop(Pipeline.ΦD osem5 spec5 H5 (V13 m hpre) c ∗ Pipeline.prefHeld pre5 c (fun _ => fullShare) (adm5 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 5 c).Φ (Fin.last _) = iprop(Pipeline.ΦD osem5 spec5 H5 (V13 m hpre) c ∗ Pipeline.prefHeld pre5 c (fun _ => fullShare) (adm5 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 5) (pcfgs (F := F)) (adm m) (Ix := Unit) (Name := ℕ) (U := Pipeline.UD sig nD τ) (Lvl := ℕ)
      (launch5 (F := F)).win (launch5 (F := F)).arr_whole c (pdats m hpre) ((pdats m hpre 5 c).share_full fun _ => rfl)
      (V13 m hpre c) (V14 m hpre c) ((pdats m hpre 5 c).arrAt · (cfg5 (adm5 m)).N) (hF5 m hpre c) (hrest5 m hpre c)
    rw [Pipeline.unscopedBufs_held] at hjoin
    iintro ⟨Ha, HO, ⟨Hp, HH, Ht⟩, HZ⟩
    ihave Hrest := (Entails.of_eq (rest5_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg6.lean ====
/- Region 6 of the run (a gather call of the first layer: words 250000 … 299999 of the row vector) as one item of the program
   between two boundary contents. The region is entered with every unscoped buffer at the contents W15 and left
   with them at W16, which differs from W15 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 6's exit contents -/

/-- At the exit each array of the region holds what the grid leaves in it, -/
theorem W16_arr (c : Dev nD) (w : Fin (cfg6 (adm6 m)).W) :
    W16 m hpre c (Proc.devRef .tc (Pipeline.arrRef spec6 w)) = (dat6 (V15 m hpre) (adm6 m) (hH6 m hpre) c).arrAt w (cfg6 (adm6 m)).N := by
  unfold W16; exact Pipeline.withArrays_arr spec6 (launch6 (F := F)).win.arr_inj c _ _ w
/-- and every other buffer what it held at the entry. -/
theorem W16_of_ne (c : Dev nD) (b : Ref sig .tc) (hb : ∀ w, Pipeline.arrRef spec6 w ≠ b) :
    W16 m hpre c (Proc.devRef .tc b) = W15 m hpre c (Proc.devRef .tc b) := by
  unfold W16; exact Pipeline.withArrays_of_ne spec6 c _ _ b hb
/-- The exit contents read at the TensorCore's references. -/
abbrev V16 : (c : Dev nD) → (b : Ref sig .tc) → Buf (Elt F) ((c : Thread nD τ).loc b) := fun c b => W16 m hpre c b
theorem hF6 (c : Dev nD) (w : Fin (cfg6 (adm6 m)).W) :
    (dat6 (V15 m hpre) (adm6 m) (hH6 m hpre) c).arrAt w (cfg6 (adm6 m)).N = V16 m hpre c (Pipeline.arrRef spec6 w) :=
  (W16_arr m hpre c w).symm
theorem hrest6 (c : Dev nD) : ∀ b, b ∉ Finset.univ.image (Pipeline.arrRef spec6) → V16 m hpre c b = V15 m hpre c b :=
  fun b hb => W16_of_ne m hpre c b fun w e => hb (Finset.mem_image.mpr ⟨w, Finset.mem_univ _, e⟩)

/-! ## The unscoped buffers that are no array of the region -/

/-- The operand left in HBM is unscoped, no array of the region and not the row table. -/
theorem H6_subP : H6 ⊆ Pipeline.restRefsP sig pre6 spec6 := by
  intro b hb
  rw [H6, Finset.mem_singleton] at hb
  subst hb
  refine Finset.mem_sdiff.mpr ⟨Pipeline.mem_restRefs_of main_v34 (by decide) (by decide), ?_⟩
  decide

include hpre in
/-- The table's buffer at the region's entry holds the admissible contents: the one table, words 250000 … 299999 of the
    row vector. -/
theorem htbl6 (c : Dev nD) : (fun k : Fin pre6.K => V15 m hpre c (pre6.ref k)) = (adm6 m).1 :=
  funext fun | ⟨0, _⟩ => hpf6 m hpre c

include hpre in
/-- The unscoped buffers that are no array of the region, at its entry contents: the table at the admissible
    contents, the operand left in HBM, and the others. -/
theorem rest6_eq (c : Dev nD) :
    (Pipeline.unscopedRest (Ix := Unit) (Name := ℕ) (U := Pipeline.UD sig nD τ) (Lvl := ℕ) spec6 c (V15 m hpre c) : sProp 𝕄)
      = iprop(Pipeline.prefHeld pre6 c (fun _ => fullShare) (adm6 m).1
          ∗ (bigSep H6 fun b => ((c : Thread nD τ).loc b) ↦{fullShare} V15 m hpre c b)
          ∗ bigSep (Pipeline.restRefsP sig pre6 spec6 \ H6) fun b => ((c : Thread nD τ).loc b) ↦{fullShare} V15 m hpre c b) := by
  rw [Pipeline.unscopedRest_split preFacts6 c (V15 m hpre c), htbl6 m hpre c, Pipeline.unscopedRestP_sdiff pre6 spec6 H6 H6_subP c (V15 m hpre c)]

/-! ## The region as an item of the program -/

-- a library lemma stated over the pinned configuration unifies with the printed one only when unification may
-- unfold plain definitions in a metavariable's type
set_option backward.isDefEq.respectTransparency.types false in
/-- REGION 6 between the boundary contents W15 and W16. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W16. Nothing is owed
    at the pipeline's cells at any point. -/
def reg6 : Pipeline.RegionSeg (pcfgs (F := F)) (adm m) (pdats m hpre) () defs₀ 𝒱₀ L lv 6 where
  win := (launch6 (F := F)).win.to₀
  block_pos := (launch6 (F := F)).block_pos
  stage_whole := (launch6 (F := F)).stage_whole
  K := Fin 16
  osem := osem6
  ho := ownSemFacts6
  hbody c := (body_obligation6 (V15 m hpre) (adm6 m) (hH6 m hpre) c).loose
  hwaits := Pipeline.hwaits_of_owed_zero _ _ _ _ L lv 6 fun _ _ => rfl
  pre c := iprop(StableHlo.held (c : Thread nD τ) (Pipeline.ucRefs τ sig) (W15 m hpre c) ∗ R c)
  post c := iprop(StableHlo.held (c : Thread nD τ) (Pipeline.ucRefs τ sig) (W16 m hpre c) ∗ R c)
  X c := iprop((∃ r, prngReg c r) ∗ Pipeline.ownSems0 (Ix := Unit) (Name := ℕ) (U := Pipeline.UD sig nD τ) (Lvl := ℕ) (Val := Elt F) (τ := τ) osem6 c
    ∗ bigSep H6 fun b => ((c : Thread nD τ).loc b) ↦{fullShare} V15 m hpre c b)
  Y c := iprop((∃ r, prngReg c r) ∗ (bigSep H6 fun b => ((c : Thread nD τ).loc b) ↦{fullShare} V15 m hpre c b)
    ∗ Pipeline.prefHeld pre6 c (fun _ => fullShare) (adm6 m).1)
  Z c := bigSep (Pipeline.restRefsP sig pre6 spec6 \ H6) fun b => ((c : Thread nD τ).loc b) ↦{fullShare} V15 m hpre c b
  hentry c := by
    have hsplit := Pipeline.arrays_of_unscopedBufs (p := 6) (pcfgs (F := F)) (adm m) (pdats m hpre) (launch6 (F := F)).win (launch6 (F := F)).arr_whole c
      ((pdats m hpre 6 c).share_full fun _ => rfl) (V15 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest6_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 6 c).Φ 0 = iprop(Pipeline.ΦD osem6 spec6 H6 (V15 m hpre) c ∗ Pipeline.prefHeld pre6 c (fun _ => fullShare) (adm6 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 6 c).Φ (Fin.last _) = iprop(Pipeline.ΦD osem6 spec6 H6 (V15 m hpre) c ∗ Pipeline.prefHeld pre6 c (fun _ => fullShare) (adm6 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 6) (pcfgs (F := F)) (adm m) (Ix := Unit) (Name := ℕ) (U := Pipeline.UD sig nD τ) (Lvl := ℕ)
      (launch6 (F := F)).win (launch6 (F := F)).arr_whole c (pdats m hpre) ((pdats m hpre 6 c).share_full fun _ => rfl)
      (V15 m hpre c) (V16 m hpre c) ((pdats m hpre 6 c).arrAt · (cfg6 (adm6 m)).N) (hF6 m hpre c) (hrest6 m hpre c)
    rw [Pipeline.unscopedBufs_held] at hjoin
    iintro ⟨Ha, HO, ⟨Hp, HH, Ht⟩, HZ⟩
    ihave Hrest := (Entails.of_eq (rest6_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg7.lean ====
/- Region 7 of the run (a gather call of the first layer: words 300000 … 349999 of the row vector) as one item of the program
   between two boundary contents. The region is entered with every unscoped buffer at the contents W17 and left
   with them at W18, which differs from W17 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 7's exit contents -/

/-- At the exit each array of the region holds what the grid leaves in it, -/
theorem W18_arr (c : Dev nD) (w : Fin (cfg7 (adm7 m)).W) :
    W18 m hpre c (Proc.devRef .tc (Pipeline.arrRef spec7 w)) = (dat7 (V17 m hpre) (adm7 m) (hH7 m hpre) c).arrAt w (cfg7 (adm7 m)).N := by
  unfold W18; exact Pipeline.withArrays_arr spec7 (launch7 (F := F)).win.arr_inj c _ _ w
/-- and every other buffer what it held at the entry. -/
theorem W18_of_ne (c : Dev nD) (b : Ref sig .tc) (hb : ∀ w, Pipeline.arrRef spec7 w ≠ b) :
    W18 m hpre c (Proc.devRef .tc b) = W17 m hpre c (Proc.devRef .tc b) := by
  unfold W18; exact Pipeline.withArrays_of_ne spec7 c _ _ b hb
/-- The exit contents read at the TensorCore's references. -/
abbrev V18 : (c : Dev nD) → (b : Ref sig .tc) → Buf (Elt F) ((c : Thread nD τ).loc b) := fun c b => W18 m hpre c b
theorem hF7 (c : Dev nD) (w : Fin (cfg7 (adm7 m)).W) :
    (dat7 (V17 m hpre) (adm7 m) (hH7 m hpre) c).arrAt w (cfg7 (adm7 m)).N = V18 m hpre c (Pipeline.arrRef spec7 w) :=
  (W18_arr m hpre c w).symm
theorem hrest7 (c : Dev nD) : ∀ b, b ∉ Finset.univ.image (Pipeline.arrRef spec7) → V18 m hpre c b = V17 m hpre c b :=
  fun b hb => W18_of_ne m hpre c b fun w e => hb (Finset.mem_image.mpr ⟨w, Finset.mem_univ _, e⟩)

/-! ## The unscoped buffers that are no array of the region -/

/-- The operand left in HBM is unscoped, no array of the region and not the row table. -/
theorem H7_subP : H7 ⊆ Pipeline.restRefsP sig pre7 spec7 := by
  intro b hb
  rw [H7, Finset.mem_singleton] at hb
  subst hb
  refine Finset.mem_sdiff.mpr ⟨Pipeline.mem_restRefs_of main_v34 (by decide) (by decide), ?_⟩
  decide

include hpre in
/-- The table's buffer at the region's entry holds the admissible contents: the one table, words 300000 … 349999 of the
    row vector. -/
theorem htbl7 (c : Dev nD) : (fun k : Fin pre7.K => V17 m hpre c (pre7.ref k)) = (adm7 m).1 :=
  funext fun | ⟨0, _⟩ => hpf7 m hpre c

include hpre in
/-- The unscoped buffers that are no array of the region, at its entry contents: the table at the admissible
    contents, the operand left in HBM, and the others. -/
theorem rest7_eq (c : Dev nD) :
    (Pipeline.unscopedRest (Ix := Unit) (Name := ℕ) (U := Pipeline.UD sig nD τ) (Lvl := ℕ) spec7 c (V17 m hpre c) : sProp 𝕄)
      = iprop(Pipeline.prefHeld pre7 c (fun _ => fullShare) (adm7 m).1
          ∗ (bigSep H7 fun b => ((c : Thread nD τ).loc b) ↦{fullShare} V17 m hpre c b)
          ∗ bigSep (Pipeline.restRefsP sig pre7 spec7 \ H7) fun b => ((c : Thread nD τ).loc b) ↦{fullShare} V17 m hpre c b) := by
  rw [Pipeline.unscopedRest_split preFacts7 c (V17 m hpre c), htbl7 m hpre c, Pipeline.unscopedRestP_sdiff pre7 spec7 H7 H7_subP c (V17 m hpre c)]

/-! ## The region as an item of the program -/

-- a library lemma stated over the pinned configuration unifies with the printed one only when unification may
-- unfold plain definitions in a metavariable's type
set_option backward.isDefEq.respectTransparency.types false in
/-- REGION 7 between the boundary contents W17 and W18. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W18. Nothing is owed
    at the pipeline's cells at any point. -/
def reg7 : Pipeline.RegionSeg (pcfgs (F := F)) (adm m) (pdats m hpre) () defs₀ 𝒱₀ L lv 7 where
  win := (launch7 (F := F)).win.to₀
  block_pos := (launch7 (F := F)).block_pos
  stage_whole := (launch7 (F := F)).stage_whole
  K := Fin 16
  osem := osem7
  ho := ownSemFacts7
  hbody c := (body_obligation7 (V17 m hpre) (adm7 m) (hH7 m hpre) c).loose
  hwaits := Pipeline.hwaits_of_owed_zero _ _ _ _ L lv 7 fun _ _ => rfl
  pre c := iprop(StableHlo.held (c : Thread nD τ) (Pipeline.ucRefs τ sig) (W17 m hpre c) ∗ R c)
  post c := iprop(StableHlo.held (c : Thread nD τ) (Pipeline.ucRefs τ sig) (W18 m hpre c) ∗ R c)
  X c := iprop((∃ r, prngReg c r) ∗ Pipeline.ownSems0 (Ix := Unit) (Name := ℕ) (U := Pipeline.UD sig nD τ) (Lvl := ℕ) (Val := Elt F) (τ := τ) osem7 c
    ∗ bigSep H7 fun b => ((c : Thread nD τ).loc b) ↦{fullShare} V17 m hpre c b)
  Y c := iprop((∃ r, prngReg c r) ∗ (bigSep H7 fun b => ((c : Thread nD τ).loc b) ↦{fullShare} V17 m hpre c b)
    ∗ Pipeline.prefHeld pre7 c (fun _ => fullShare) (adm7 m).1)
  Z c := bigSep (Pipeline.restRefsP sig pre7 spec7 \ H7) fun b => ((c : Thread nD τ).loc b) ↦{fullShare} V17 m hpre c b
  hentry c := by
    have hsplit := Pipeline.arrays_of_unscopedBufs (p := 7) (pcfgs (F := F)) (adm m) (pdats m hpre) (launch7 (F := F)).win (launch7 (F := F)).arr_whole c
      ((pdats m hpre 7 c).share_full fun _ => rfl) (V17 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest7_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 7 c).Φ 0 = iprop(Pipeline.ΦD osem7 spec7 H7 (V17 m hpre) c ∗ Pipeline.prefHeld pre7 c (fun _ => fullShare) (adm7 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 7 c).Φ (Fin.last _) = iprop(Pipeline.ΦD osem7 spec7 H7 (V17 m hpre) c ∗ Pipeline.prefHeld pre7 c (fun _ => fullShare) (adm7 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 7) (pcfgs (F := F)) (adm m) (Ix := Unit) (Name := ℕ) (U := Pipeline.UD sig nD τ) (Lvl := ℕ)
      (launch7 (F := F)).win (launch7 (F := F)).arr_whole c (pdats m hpre) ((pdats m hpre 7 c).share_full fun _ => rfl)
      (V17 m hpre c) (V18 m hpre c) ((pdats m hpre 7 c).arrAt · (cfg7 (adm7 m)).N) (hF7 m hpre c) (hrest7 m hpre c)
    rw [Pipeline.unscopedBufs_held] at hjoin
    iintro ⟨Ha, HO, ⟨Hp, HH, Ht⟩, HZ⟩
    ihave Hrest := (Entails.of_eq (rest7_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg8.lean ====
/- Region 8 of the run (a gather call of the first layer: words 350000 … 399999 of the row vector) as one item of the program
   between two boundary contents. The region is entered with every unscoped buffer at the contents W19 and left
   with them at W20, which differs from W19 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 8's exit contents -/

/-- At the exit each array of the region holds what the grid leaves in it, -/
theorem W20_arr (c : Dev nD) (w : Fin (cfg8 (adm8 m)).W) :
    W20 m hpre c (Proc.devRef .tc (Pipeline.arrRef spec8 w)) = (dat8 (V19 m hpre) (adm8 m) (hH8 m hpre) c).arrAt w (cfg8 (adm8 m)).N := by
  unfold W20; exact Pipeline.withArrays_arr spec8 (launch8 (F := F)).win.arr_inj c _ _ w
/-- and every other buffer what it held at the entry. -/
theorem W20_of_ne (c : Dev nD) (b : Ref sig .tc) (hb : ∀ w, Pipeline.arrRef spec8 w ≠ b) :
    W20 m hpre c (Proc.devRef .tc b) = W19 m hpre c (Proc.devRef .tc b) := by
  unfold W20; exact Pipeline.withArrays_of_ne spec8 c _ _ b hb
/-- The exit contents read at the TensorCore's references. -/
abbrev V20 : (c : Dev nD) → (b : Ref sig .tc) → Buf (Elt F) ((c : Thread nD τ).loc b) := fun c b => W20 m hpre c b
theorem hF8 (c : Dev nD) (w : Fin (cfg8 (adm8 m)).W) :
    (dat8 (V19 m hpre) (adm8 m) (hH8 m hpre) c).arrAt w (cfg8 (adm8 m)).N = V20 m hpre c (Pipeline.arrRef spec8 w) :=
  (W20_arr m hpre c w).symm
theorem hrest8 (c : Dev nD) : ∀ b, b ∉ Finset.univ.image (Pipeline.arrRef spec8) → V20 m hpre c b = V19 m hpre c b :=
  fun b hb => W20_of_ne m hpre c b fun w e => hb (Finset.mem_image.mpr ⟨w, Finset.mem_univ _, e⟩)

/-! ## The unscoped buffers that are no array of the region -/

/-- The operand left in HBM is unscoped, no array of the region and not the row table. -/
theorem H8_subP : H8 ⊆ Pipeline.restRefsP sig pre8 spec8 := by
  intro b hb
  rw [H8, Finset.mem_singleton] at hb
  subst hb
  refine Finset.mem_sdiff.mpr ⟨Pipeline.mem_restRefs_of main_v34 (by decide) (by decide), ?_⟩
  decide

include hpre in
/-- The table's buffer at the region's entry holds the admissible contents: the one table, words 350000 … 399999 of the
    row vector. -/
theorem htbl8 (c : Dev nD) : (fun k : Fin pre8.K => V19 m hpre c (pre8.ref k)) = (adm8 m).1 :=
  funext fun | ⟨0, _⟩ => hpf8 m hpre c

include hpre in
/-- The unscoped buffers that are no array of the region, at its entry contents: the table at the admissible
    contents, the operand left in HBM, and the others. -/
theorem rest8_eq (c : Dev nD) :
    (Pipeline.unscopedRest (Ix := Unit) (Name := ℕ) (U := Pipeline.UD sig nD τ) (Lvl := ℕ) spec8 c (V19 m hpre c) : sProp 𝕄)
      = iprop(Pipeline.prefHeld pre8 c (fun _ => fullShare) (adm8 m).1
          ∗ (bigSep H8 fun b => ((c : Thread nD τ).loc b) ↦{fullShare} V19 m hpre c b)
          ∗ bigSep (Pipeline.restRefsP sig pre8 spec8 \ H8) fun b => ((c : Thread nD τ).loc b) ↦{fullShare} V19 m hpre c b) := by
  rw [Pipeline.unscopedRest_split preFacts8 c (V19 m hpre c), htbl8 m hpre c, Pipeline.unscopedRestP_sdiff pre8 spec8 H8 H8_subP c (V19 m hpre c)]

/-! ## The region as an item of the program -/

-- a library lemma stated over the pinned configuration unifies with the printed one only when unification may
-- unfold plain definitions in a metavariable's type
set_option backward.isDefEq.respectTransparency.types false in
/-- REGION 8 between the boundary contents W19 and W20. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W20. Nothing is owed
    at the pipeline's cells at any point. -/
def reg8 : Pipeline.RegionSeg (pcfgs (F := F)) (adm m) (pdats m hpre) () defs₀ 𝒱₀ L lv 8 where
  win := (launch8 (F := F)).win.to₀
  block_pos := (launch8 (F := F)).block_pos
  stage_whole := (launch8 (F := F)).stage_whole
  K := Fin 16
  osem := osem8
  ho := ownSemFacts8
  hbody c := (body_obligation8 (V19 m hpre) (adm8 m) (hH8 m hpre) c).loose
  hwaits := Pipeline.hwaits_of_owed_zero _ _ _ _ L lv 8 fun _ _ => rfl
  pre c := iprop(StableHlo.held (c : Thread nD τ) (Pipeline.ucRefs τ sig) (W19 m hpre c) ∗ R c)
  post c := iprop(StableHlo.held (c : Thread nD τ) (Pipeline.ucRefs τ sig) (W20 m hpre c) ∗ R c)
  X c := iprop((∃ r, prngReg c r) ∗ Pipeline.ownSems0 (Ix := Unit) (Name := ℕ) (U := Pipeline.UD sig nD τ) (Lvl := ℕ) (Val := Elt F) (τ := τ) osem8 c
    ∗ bigSep H8 fun b => ((c : Thread nD τ).loc b) ↦{fullShare} V19 m hpre c b)
  Y c := iprop((∃ r, prngReg c r) ∗ (bigSep H8 fun b => ((c : Thread nD τ).loc b) ↦{fullShare} V19 m hpre c b)
    ∗ Pipeline.prefHeld pre8 c (fun _ => fullShare) (adm8 m).1)
  Z c := bigSep (Pipeline.restRefsP sig pre8 spec8 \ H8) fun b => ((c : Thread nD τ).loc b) ↦{fullShare} V19 m hpre c b
  hentry c := by
    have hsplit := Pipeline.arrays_of_unscopedBufs (p := 8) (pcfgs (F := F)) (adm m) (pdats m hpre) (launch8 (F := F)).win (launch8 (F := F)).arr_whole c
      ((pdats m hpre 8 c).share_full fun _ => rfl) (V19 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest8_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 8 c).Φ 0 = iprop(Pipeline.ΦD osem8 spec8 H8 (V19 m hpre) c ∗ Pipeline.prefHeld pre8 c (fun _ => fullShare) (adm8 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 8 c).Φ (Fin.last _) = iprop(Pipeline.ΦD osem8 spec8 H8 (V19 m hpre) c ∗ Pipeline.prefHeld pre8 c (fun _ => fullShare) (adm8 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 8) (pcfgs (F := F)) (adm m) (Ix := Unit) (Name := ℕ) (U := Pipeline.UD sig nD τ) (Lvl := ℕ)
      (launch8 (F := F)).win (launch8 (F := F)).arr_whole c (pdats m hpre) ((pdats m hpre 8 c).share_full fun _ => rfl)
      (V19 m hpre c) (V20 m hpre c) ((pdats m hpre 8 c).arrAt · (cfg8 (adm8 m)).N) (hF8 m hpre c) (hrest8 m hpre c)
    rw [Pipeline.unscopedBufs_held] at hjoin
    iintro ⟨Ha, HO, ⟨Hp, HH, Ht⟩, HZ⟩
    ihave Hrest := (Entails.of_eq (rest8_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg9.lean ====
/- Region 9 of the run (a gather call of the first layer: words 400000 … 449999 of the row vector) as one item of the program
   between two boundary contents. The region is entered with every unscoped buffer at the contents W21 and left
   with them at W22, which differs from W21 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 9's exit contents -/

/-- At the exit each array of the region holds what the grid leaves in it, -/
theorem W22_arr (c : Dev nD) (w : Fin (cfg9 (adm9 m)).W) :
    W22 m hpre c (Proc.devRef .tc (Pipeline.arrRef spec9 w)) = (dat9 (V21 m hpre) (adm9 m) (hH9 m hpre) c).arrAt w (cfg9 (adm9 m)).N := by
  unfold W22; exact Pipeline.withArrays_arr spec9 (launch9 (F := F)).win.arr_inj c _ _ w
/-- and every other buffer what it held at the entry. -/
theorem W22_of_ne (c : Dev nD) (b : Ref sig .tc) (hb : ∀ w, Pipeline.arrRef spec9 w ≠ b) :
    W22 m hpre c (Proc.devRef .tc b) = W21 m hpre c (Proc.devRef .tc b) := by
  unfold W22; exact Pipeline.withArrays_of_ne spec9 c _ _ b hb
/-- The exit contents read at the TensorCore's references. -/
abbrev V22 : (c : Dev nD) → (b : Ref sig .tc) → Buf (Elt F) ((c : Thread nD τ).loc b) := fun c b => W22 m hpre c b
theorem hF9 (c : Dev nD) (w : Fin (cfg9 (adm9 m)).W) :
    (dat9 (V21 m hpre) (adm9 m) (hH9 m hpre) c).arrAt w (cfg9 (adm9 m)).N = V22 m hpre c (Pipeline.arrRef spec9 w) :=
  (W22_arr m hpre c w).symm
theorem hrest9 (c : Dev nD) : ∀ b, b ∉ Finset.univ.image (Pipeline.arrRef spec9) → V22 m hpre c b = V21 m hpre c b :=
  fun b hb => W22_of_ne m hpre c b fun w e => hb (Finset.mem_image.mpr ⟨w, Finset.mem_univ _, e⟩)

/-! ## The unscoped buffers that are no array of the region -/

/-- The operand left in HBM is unscoped, no array of the region and not the row table. -/
theorem H9_subP : H9 ⊆ Pipeline.restRefsP sig pre9 spec9 := by
  intro b hb
  rw [H9, Finset.mem_singleton] at hb
  subst hb
  refine Finset.mem_sdiff.mpr ⟨Pipeline.mem_restRefs_of main_v34 (by decide) (by decide), ?_⟩
  decide

include hpre in
/-- The table's buffer at the region's entry holds the admissible contents: the one table, words 400000 … 449999 of the
    row vector. -/
theorem htbl9 (c : Dev nD) : (fun k : Fin pre9.K => V21 m hpre c (pre9.ref k)) = (adm9 m).1 :=
  funext fun | ⟨0, _⟩ => hpf9 m hpre c

include hpre in
/-- The unscoped buffers that are no array of the region, at its entry contents: the table at the admissible
    contents, the operand left in HBM, and the others. -/
theorem rest9_eq (c : Dev nD) :
    (Pipeline.unscopedRest (Ix := Unit) (Name := ℕ) (U := Pipeline.UD sig nD τ) (Lvl := ℕ) spec9 c (V21 m hpre c) : sProp 𝕄)
      = iprop(Pipeline.prefHeld pre9 c (fun _ => fullShare) (adm9 m).1
          ∗ (bigSep H9 fun b => ((c : Thread nD τ).loc b) ↦{fullShare} V21 m hpre c b)
          ∗ bigSep (Pipeline.restRefsP sig pre9 spec9 \ H9) fun b => ((c : Thread nD τ).loc b) ↦{fullShare} V21 m hpre c b) := by
  rw [Pipeline.unscopedRest_split preFacts9 c (V21 m hpre c), htbl9 m hpre c, Pipeline.unscopedRestP_sdiff pre9 spec9 H9 H9_subP c (V21 m hpre c)]

/-! ## The region as an item of the program -/

-- a library lemma stated over the pinned configuration unifies with the printed one only when unification may
-- unfold plain definitions in a metavariable's type
set_option backward.isDefEq.respectTransparency.types false in
/-- REGION 9 between the boundary contents W21 and W22. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W22. Nothing is owed
    at the pipeline's cells at any point. -/
def reg9 : Pipeline.RegionSeg (pcfgs (F := F)) (adm m) (pdats m hpre) () defs₀ 𝒱₀ L lv 9 where
  win := (launch9 (F := F)).win.to₀
  block_pos := (launch9 (F := F)).block_pos
  stage_whole := (launch9 (F := F)).stage_whole
  K := Fin 16
  osem := osem9
  ho := ownSemFacts9
  hbody c := (body_obligation9 (V21 m hpre) (adm9 m) (hH9 m hpre) c).loose
  hwaits := Pipeline.hwaits_of_owed_zero _ _ _ _ L lv 9 fun _ _ => rfl
  pre c := iprop(StableHlo.held (c : Thread nD τ) (Pipeline.ucRefs τ sig) (W21 m hpre c) ∗ R c)
  post c := iprop(StableHlo.held (c : Thread nD τ) (Pipeline.ucRefs τ sig) (W22 m hpre c) ∗ R c)
  X c := iprop((∃ r, prngReg c r) ∗ Pipeline.ownSems0 (Ix := Unit) (Name := ℕ) (U := Pipeline.UD sig nD τ) (Lvl := ℕ) (Val := Elt F) (τ := τ) osem9 c
    ∗ bigSep H9 fun b => ((c : Thread nD τ).loc b) ↦{fullShare} V21 m hpre c b)
  Y c := iprop((∃ r, prngReg c r) ∗ (bigSep H9 fun b => ((c : Thread nD τ).loc b) ↦{fullShare} V21 m hpre c b)
    ∗ Pipeline.prefHeld pre9 c (fun _ => fullShare) (adm9 m).1)
  Z c := bigSep (Pipeline.restRefsP sig pre9 spec9 \ H9) fun b => ((c : Thread nD τ).loc b) ↦{fullShare} V21 m hpre c b
  hentry c := by
    have hsplit := Pipeline.arrays_of_unscopedBufs (p := 9) (pcfgs (F := F)) (adm m) (pdats m hpre) (launch9 (F := F)).win (launch9 (F := F)).arr_whole c
      ((pdats m hpre 9 c).share_full fun _ => rfl) (V21 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest9_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 9 c).Φ 0 = iprop(Pipeline.ΦD osem9 spec9 H9 (V21 m hpre) c ∗ Pipeline.prefHeld pre9 c (fun _ => fullShare) (adm9 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 9 c).Φ (Fin.last _) = iprop(Pipeline.ΦD osem9 spec9 H9 (V21 m hpre) c ∗ Pipeline.prefHeld pre9 c (fun _ => fullShare) (adm9 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 9) (pcfgs (F := F)) (adm m) (Ix := Unit) (Name := ℕ) (U := Pipeline.UD sig nD τ) (Lvl := ℕ)
      (launch9 (F := F)).win (launch9 (F := F)).arr_whole c (pdats m hpre) ((pdats m hpre 9 c).share_full fun _ => rfl)
      (V21 m hpre c) (V22 m hpre c) ((pdats m hpre 9 c).arrAt · (cfg9 (adm9 m)).N) (hF9 m hpre c) (hrest9 m hpre c)
    rw [Pipeline.unscopedBufs_held] at hjoin
    iintro ⟨Ha, HO, ⟨Hp, HH, Ht⟩, HZ⟩
    ihave Hrest := (Entails.of_eq (rest9_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg10.lean ====
/- region 10 of @main (the second layer's dense product) as a segment of the run: entered from every unscoped buffer at
   the contents before it, left with the product's array at what the grid wrote and every other buffer as entered. -/
import proofs.«414392_j7919919694132_2_alg».proof.Proof.Bits.RegBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (hpre : PreEq m)

/-! ## The contents at the region's exit -/

/-- At the exit each of the region's arrays holds what the grid leaves in it, -/
theorem W25_arr (c : Dev nD) (w : Fin cfg10.W) :
    W25 m hpre c (Proc.devRef .tc (Pipeline.arrRef spec10 w)) = (dat10 (V24 m hpre) c).arrAt w cfg10.N := by
  unfold W25; exact Pipeline.withArrays_arr spec10 (launch10 (F := F)).win.arr_inj c _ _ w
/-- and every other buffer what it held at the entry. -/
theorem W25_of_ne (c : Dev nD) (b : Ref sig .tc) (hb : ∀ w, Pipeline.arrRef spec10 w ≠ b) :
    W25 m hpre c (Proc.devRef .tc b) = W24 m hpre c (Proc.devRef .tc b) := by
  unfold W25; exact Pipeline.withArrays_of_ne spec10 c _ _ b hb
/-- The exit contents read at the TensorCore's references. -/
abbrev V25 : (c : Dev nD) → (b : Ref sig .tc) → Buf (Elt F) ((c : Thread nD τ).loc b) := fun c b => W25 m hpre c b
theorem hF10 (c : Dev nD) (w : Fin cfg10.W) : (dat10 (V24 m hpre) c).arrAt w cfg10.N = V25 m hpre c (Pipeline.arrRef spec10 w) :=
  (W25_arr m hpre c w).symm
theorem hrest10 (c : Dev nD) : ∀ b, b ∉ Finset.univ.image (Pipeline.arrRef spec10) → V25 m hpre c b = V24 m hpre c b :=
  fun b hb => W25_of_ne m hpre c b fun w e => hb (Finset.mem_image.mpr ⟨w, Finset.mem_univ _, e⟩)

/-! ## The region as a segment -/

set_option backward.isDefEq.respectTransparency.types false in
/-- region 10 over the thread state: its arrays split out of the unscoped buffers and put back at the exit contents; the
    generator register into the class invariant and out; nothing owed; no semaphore of the kernel's own. -/
def reg10 : Pipeline.RegionSeg (pcfgs (F := F)) (adm m) (pdats m hpre) () defs₀ 𝒱₀ L lv (10 : Fin 20) where
  win := (launch10 (F := F)).win.to₀
  block_pos := (launch10 (F := F)).block_pos
  stage_whole := (launch10 (F := F)).stage_whole
  K := PEmpty
  osem k := k.elim
  ho := Pipeline.OwnSemFacts.none _
  hbody c := (body_obligation10 (V24 m hpre) c).loose
  hwaits := Pipeline.hwaits_of_owed_zero _ _ _ _ L lv (10 : Fin 20) fun _ _ => rfl
  pre c := iprop(StableHlo.held (c : Thread nD τ) (Pipeline.ucRefs τ sig) (W24 m hpre c) ∗ R c)
  post c := iprop(StableHlo.held (c : Thread nD τ) (Pipeline.ucRefs τ sig) (W25 m hpre c) ∗ R c)
  X c := iprop(∃ r, prngReg c r)
  Y c := iprop(∃ r, prngReg c r)
  Z c := Pipeline.unscopedRest (Ix := Unit) (Name := ℕ) (U := Pipeline.UD sig nD τ) (Lvl := ℕ) spec10 c (V24 m hpre c)
  hentry c := by
    rw [Pipeline.ownSems0_none]
    have hsplit := Pipeline.arrays_of_unscopedBufs (p := (10 : Fin 20)) (pcfgs (F := F)) (adm m) (pdats m hpre) (launch10 (F := F)).win (launch10 (F := F)).arr_whole c
      ((pdats m hpre (10 : Fin 20) c).share_full fun _ => rfl) (V24 m hpre c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hpre (10 : Fin 20) c).Φ 0 = Pipeline.ΦA spec10 c from rfl]; unfold Pipeline.ΦA
    iintro ⟨Hp, -, Hr⟩
    isplitl [Hr]; · iexact Hr
    iexact Hp
  hout c := by
    rw [Pipeline.ownSems0_none, show (pdats m hpre (10 : Fin 20) c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := (10 : Fin 20)) (pcfgs (F := F)) (adm m) (Ix := Unit) (Name := ℕ) (U := Pipeline.UD sig nD τ) (Lvl := ℕ)
      (launch10 (F := F)).win (launch10 (F := F)).arr_whole c (pdats m hpre) ((pdats m hpre (10 : Fin 20) c).share_full fun _ => rfl)
      (V24 m hpre c) (V25 m hpre c) ((pdats m hpre (10 : Fin 20) c).arrAt · cfg10.N) (hF10 m hpre c) (hrest10 m hpre c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Bits.Reg11.lean ====
/- Region 11 of the run (a gather call of the second layer: words 0 … 49999 of the row vector) as one item of the program
   between two boundary contents. The region is entered with every unscoped buffer at the contents W26 and left
   with them at W27, which differs from W26 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 11's exit contents -/

/-- At the exit each array of the region holds what the grid leaves in it, -/
theorem W27_arr (c : Dev nD) (w : Fin (cfg11 (adm11 m)).W) :
    W27 m hpre c (Proc.devRef .tc (Pipeline.arrRef spec11 w)) = (dat11 (V26 m hpre) (adm11 m) (hH11 m hpre) c).arrAt w (cfg11 (adm11 m)).N := by
  unfold W27; exact Pipeline.withArrays_arr spec11 (launch11 (F := F)).win.arr_inj c _ _ w
/-- and every other buffer what it held at the entry. -/
theorem W27_of_ne (c : Dev nD) (b : Ref sig .tc) (hb : ∀ w, Pipeline.arrRef spec11 w ≠ b) :
    W27 m hpre c (Proc.devRef .tc b) = W26 m hpre c (Proc.devRef .tc b) := by
  unfold W27; exact Pipeline.withArrays_of_ne spec11 c _ _ b hb
/-- The exit contents read at the TensorCore's references. -/
abbrev V27 : (c : Dev nD) → (b : Ref sig .tc) → Buf (Elt F) ((c : Thread nD τ).loc b) := fun c b => W27 m hpre c b
theorem hF11 (c : Dev nD) (w : Fin (cfg11 (adm11 m)).W) :
    (dat11 (V26 m hpre) (adm11 m) (hH11 m hpre) c).arrAt w (cfg11 (adm11 m)).N = V27 m hpre c (Pipeline.arrRef spec11 w) :=
  (W27_arr m hpre c w).symm
theorem hrest11 (c : Dev nD) : ∀ b, b ∉ Finset.univ.image (Pipeline.arrRef spec11) → V27 m hpre c b = V26 m hpre c b :=
  fun b hb => W27_of_ne m hpre c b fun w e => hb (Finset.mem_image.mpr ⟨w, Finset.mem_univ _, e⟩)

/-! ## The unscoped buffers that are no array of the region -/

/-- The operand left in HBM is unscoped, no array of the region and not the row table. -/
theorem H11_subP : H11 ⊆ Pipeline.restRefsP sig pre11 spec11 := by
  intro b hb
  rw [H11, Finset.mem_singleton] at hb
  subst hb
  refine Finset.mem_sdiff.mpr ⟨Pipeline.mem_restRefs_of main_v71 (by decide) (by decide), ?_⟩
  decide

include hpre in
/-- The table's buffer at the region's entry holds the admissible contents: the one table, words 0 … 49999 of the
    row vector. -/
theorem htbl11 (c : Dev nD) : (fun k : Fin pre11.K => V26 m hpre c (pre11.ref k)) = (adm11 m).1 :=
  funext fun | ⟨0, _⟩ => hpf11 m hpre c

include hpre in
/-- The unscoped buffers that are no array of the region, at its entry contents: the table at the admissible
    contents, the operand left in HBM, and the others. -/
theorem rest11_eq (c : Dev nD) :
    (Pipeline.unscopedRest (Ix := Unit) (Name := ℕ) (U := Pipeline.UD sig nD τ) (Lvl := ℕ) spec11 c (V26 m hpre c) : sProp 𝕄)
      = iprop(Pipeline.prefHeld pre11 c (fun _ => fullShare) (adm11 m).1
          ∗ (bigSep H11 fun b => ((c : Thread nD τ).loc b) ↦{fullShare} V26 m hpre c b)
          ∗ bigSep (Pipeline.restRefsP sig pre11 spec11 \ H11) fun b => ((c : Thread nD τ).loc b) ↦{fullShare} V26 m hpre c b) := by
  rw [Pipeline.unscopedRest_split preFacts11 c (V26 m hpre c), htbl11 m hpre c, Pipeline.unscopedRestP_sdiff pre11 spec11 H11 H11_subP c (V26 m hpre c)]

/-! ## The region as an item of the program -/

-- a library lemma stated over the pinned configuration unifies with the printed one only when unification may
-- unfold plain definitions in a metavariable's type
set_option backward.isDefEq.respectTransparency.types false in
/-- REGION 11 between the boundary contents W26 and W27. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W27. Nothing is owed
    at the pipeline's cells at any point. -/
def reg11 : Pipeline.RegionSeg (pcfgs (F := F)) (adm m) (pdats m hpre) () defs₀ 𝒱₀ L lv 11 where
  win := (launch11 (F := F)).win.to₀
  block_pos := (launch11 (F := F)).block_pos
  stage_whole := (launch11 (F := F)).stage_whole
  K := Fin 16
  osem := osem11
  ho := ownSemFacts11
  hbody c := (body_obligation11 (V26 m hpre) (adm11 m) (hH11 m hpre) c).loose
  hwaits := Pipeline.hwaits_of_owed_zero _ _ _ _ L lv 11 fun _ _ => rfl
  pre c := iprop(StableHlo.held (c : Thread nD τ) (Pipeline.ucRefs τ sig) (W26 m hpre c) ∗ R c)
  post c := iprop(StableHlo.held (c : Thread nD τ) (Pipeline.ucRefs τ sig) (W27 m hpre c) ∗ R c)
  X c := iprop((∃ r, prngReg c r) ∗ Pipeline.ownSems0 (Ix := Unit) (Name := ℕ) (U := Pipeline.UD sig nD τ) (Lvl := ℕ) (Val := Elt F) (τ := τ) osem11 c
    ∗ bigSep H11 fun b => ((c : Thread nD τ).loc b) ↦{fullShare} V26 m hpre c b)
  Y c := iprop((∃ r, prngReg c r) ∗ (bigSep H11 fun b => ((c : Thread nD τ).loc b) ↦{fullShare} V26 m hpre c b)
    ∗ Pipeline.prefHeld pre11 c (fun _ => fullShare) (adm11 m).1)
  Z c := bigSep (Pipeline.restRefsP sig pre11 spec11 \ H11) fun b => ((c : Thread nD τ).loc b) ↦{fullShare} V26 m hpre c b
  hentry c := by
    have hsplit := Pipeline.arrays_of_unscopedBufs (p := 11) (pcfgs (F := F)) (adm m) (pdats m hpre) (launch11 (F := F)).win (launch11 (F := F)).arr_whole c
      ((pdats m hpre 11 c).share_full fun _ => rfl) (V26 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest11_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 11 c).Φ 0 = iprop(Pipeline.ΦD osem11 spec11 H11 (V26 m hpre) c ∗ Pipeline.prefHeld pre11 c (fun _ => fullShare) (adm11 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 11 c).Φ (Fin.last _) = iprop(Pipeline.ΦD osem11 spec11 H11 (V26 m hpre) c ∗ Pipeline.prefHeld pre11 c (fun _ => fullShare) (adm11 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 11) (pcfgs (F := F)) (adm m) (Ix := Unit) (Name := ℕ) (U := Pipeline.UD sig nD τ) (Lvl := ℕ)
      (launch11 (F := F)).win (launch11 (F := F)).arr_whole c (pdats m hpre) ((pdats m hpre 11 c).share_full fun _ => rfl)
      (V26 m hpre c) (V27 m hpre c) ((pdats m hpre 11 c).arrAt · (cfg11 (adm11 m)).N) (hF11 m hpre c) (hrest11 m hpre c)
    rw [Pipeline.unscopedBufs_held] at hjoin
    iintro ⟨Ha, HO, ⟨Hp, HH, Ht⟩, HZ⟩
    ihave Hrest := (Entails.of_eq (rest11_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg12.lean ====
/- Region 12 of the run (a gather call of the second layer: words 50000 … 99999 of the row vector) as one item of the program
   between two boundary contents. The region is entered with every unscoped buffer at the contents W28 and left
   with them at W29, which differs from W28 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 12's exit contents -/

/-- At the exit each array of the region holds what the grid leaves in it, -/
theorem W29_arr (c : Dev nD) (w : Fin (cfg12 (adm12 m)).W) :
    W29 m hpre c (Proc.devRef .tc (Pipeline.arrRef spec12 w)) = (dat12 (V28 m hpre) (adm12 m) (hH12 m hpre) c).arrAt w (cfg12 (adm12 m)).N := by
  unfold W29; exact Pipeline.withArrays_arr spec12 (launch12 (F := F)).win.arr_inj c _ _ w
/-- and every other buffer what it held at the entry. -/
theorem W29_of_ne (c : Dev nD) (b : Ref sig .tc) (hb : ∀ w, Pipeline.arrRef spec12 w ≠ b) :
    W29 m hpre c (Proc.devRef .tc b) = W28 m hpre c (Proc.devRef .tc b) := by
  unfold W29; exact Pipeline.withArrays_of_ne spec12 c _ _ b hb
/-- The exit contents read at the TensorCore's references. -/
abbrev V29 : (c : Dev nD) → (b : Ref sig .tc) → Buf (Elt F) ((c : Thread nD τ).loc b) := fun c b => W29 m hpre c b
theorem hF12 (c : Dev nD) (w : Fin (cfg12 (adm12 m)).W) :
    (dat12 (V28 m hpre) (adm12 m) (hH12 m hpre) c).arrAt w (cfg12 (adm12 m)).N = V29 m hpre c (Pipeline.arrRef spec12 w) :=
  (W29_arr m hpre c w).symm
theorem hrest12 (c : Dev nD) : ∀ b, b ∉ Finset.univ.image (Pipeline.arrRef spec12) → V29 m hpre c b = V28 m hpre c b :=
  fun b hb => W29_of_ne m hpre c b fun w e => hb (Finset.mem_image.mpr ⟨w, Finset.mem_univ _, e⟩)

/-! ## The unscoped buffers that are no array of the region -/

/-- The operand left in HBM is unscoped, no array of the region and not the row table. -/
theorem H12_subP : H12 ⊆ Pipeline.restRefsP sig pre12 spec12 := by
  intro b hb
  rw [H12, Finset.mem_singleton] at hb
  subst hb
  refine Finset.mem_sdiff.mpr ⟨Pipeline.mem_restRefs_of main_v71 (by decide) (by decide), ?_⟩
  decide

include hpre in
/-- The table's buffer at the region's entry holds the admissible contents: the one table, words 50000 … 99999 of the
    row vector. -/
theorem htbl12 (c : Dev nD) : (fun k : Fin pre12.K => V28 m hpre c (pre12.ref k)) = (adm12 m).1 :=
  funext fun | ⟨0, _⟩ => hpf12 m hpre c

include hpre in
/-- The unscoped buffers that are no array of the region, at its entry contents: the table at the admissible
    contents, the operand left in HBM, and the others. -/
theorem rest12_eq (c : Dev nD) :
    (Pipeline.unscopedRest (Ix := Unit) (Name := ℕ) (U := Pipeline.UD sig nD τ) (Lvl := ℕ) spec12 c (V28 m hpre c) : sProp 𝕄)
      = iprop(Pipeline.prefHeld pre12 c (fun _ => fullShare) (adm12 m).1
          ∗ (bigSep H12 fun b => ((c : Thread nD τ).loc b) ↦{fullShare} V28 m hpre c b)
          ∗ bigSep (Pipeline.restRefsP sig pre12 spec12 \ H12) fun b => ((c : Thread nD τ).loc b) ↦{fullShare} V28 m hpre c b) := by
  rw [Pipeline.unscopedRest_split preFacts12 c (V28 m hpre c), htbl12 m hpre c, Pipeline.unscopedRestP_sdiff pre12 spec12 H12 H12_subP c (V28 m hpre c)]

/-! ## The region as an item of the program -/

-- a library lemma stated over the pinned configuration unifies with the printed one only when unification may
-- unfold plain definitions in a metavariable's type
set_option backward.isDefEq.respectTransparency.types false in
/-- REGION 12 between the boundary contents W28 and W29. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W29. Nothing is owed
    at the pipeline's cells at any point. -/
def reg12 : Pipeline.RegionSeg (pcfgs (F := F)) (adm m) (pdats m hpre) () defs₀ 𝒱₀ L lv 12 where
  win := (launch12 (F := F)).win.to₀
  block_pos := (launch12 (F := F)).block_pos
  stage_whole := (launch12 (F := F)).stage_whole
  K := Fin 16
  osem := osem12
  ho := ownSemFacts12
  hbody c := (body_obligation12 (V28 m hpre) (adm12 m) (hH12 m hpre) c).loose
  hwaits := Pipeline.hwaits_of_owed_zero _ _ _ _ L lv 12 fun _ _ => rfl
  pre c := iprop(StableHlo.held (c : Thread nD τ) (Pipeline.ucRefs τ sig) (W28 m hpre c) ∗ R c)
  post c := iprop(StableHlo.held (c : Thread nD τ) (Pipeline.ucRefs τ sig) (W29 m hpre c) ∗ R c)
  X c := iprop((∃ r, prngReg c r) ∗ Pipeline.ownSems0 (Ix := Unit) (Name := ℕ) (U := Pipeline.UD sig nD τ) (Lvl := ℕ) (Val := Elt F) (τ := τ) osem12 c
    ∗ bigSep H12 fun b => ((c : Thread nD τ).loc b) ↦{fullShare} V28 m hpre c b)
  Y c := iprop((∃ r, prngReg c r) ∗ (bigSep H12 fun b => ((c : Thread nD τ).loc b) ↦{fullShare} V28 m hpre c b)
    ∗ Pipeline.prefHeld pre12 c (fun _ => fullShare) (adm12 m).1)
  Z c := bigSep (Pipeline.restRefsP sig pre12 spec12 \ H12) fun b => ((c : Thread nD τ).loc b) ↦{fullShare} V28 m hpre c b
  hentry c := by
    have hsplit := Pipeline.arrays_of_unscopedBufs (p := 12) (pcfgs (F := F)) (adm m) (pdats m hpre) (launch12 (F := F)).win (launch12 (F := F)).arr_whole c
      ((pdats m hpre 12 c).share_full fun _ => rfl) (V28 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest12_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 12 c).Φ 0 = iprop(Pipeline.ΦD osem12 spec12 H12 (V28 m hpre) c ∗ Pipeline.prefHeld pre12 c (fun _ => fullShare) (adm12 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 12 c).Φ (Fin.last _) = iprop(Pipeline.ΦD osem12 spec12 H12 (V28 m hpre) c ∗ Pipeline.prefHeld pre12 c (fun _ => fullShare) (adm12 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 12) (pcfgs (F := F)) (adm m) (Ix := Unit) (Name := ℕ) (U := Pipeline.UD sig nD τ) (Lvl := ℕ)
      (launch12 (F := F)).win (launch12 (F := F)).arr_whole c (pdats m hpre) ((pdats m hpre 12 c).share_full fun _ => rfl)
      (V28 m hpre c) (V29 m hpre c) ((pdats m hpre 12 c).arrAt · (cfg12 (adm12 m)).N) (hF12 m hpre c) (hrest12 m hpre c)
    rw [Pipeline.unscopedBufs_held] at hjoin
    iintro ⟨Ha, HO, ⟨Hp, HH, Ht⟩, HZ⟩
    ihave Hrest := (Entails.of_eq (rest12_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg13.lean ====
/- Region 13 of the run (a gather call of the second layer: words 100000 … 149999 of the row vector) as one item of the program
   between two boundary contents. The region is entered with every unscoped buffer at the contents W30 and left
   with them at W31, which differs from W30 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 13's exit contents -/

/-- At the exit each array of the region holds what the grid leaves in it, -/
theorem W31_arr (c : Dev nD) (w : Fin (cfg13 (adm13 m)).W) :
    W31 m hpre c (Proc.devRef .tc (Pipeline.arrRef spec13 w)) = (dat13 (V30 m hpre) (adm13 m) (hH13 m hpre) c).arrAt w (cfg13 (adm13 m)).N := by
  unfold W31; exact Pipeline.withArrays_arr spec13 (launch13 (F := F)).win.arr_inj c _ _ w
/-- and every other buffer what it held at the entry. -/
theorem W31_of_ne (c : Dev nD) (b : Ref sig .tc) (hb : ∀ w, Pipeline.arrRef spec13 w ≠ b) :
    W31 m hpre c (Proc.devRef .tc b) = W30 m hpre c (Proc.devRef .tc b) := by
  unfold W31; exact Pipeline.withArrays_of_ne spec13 c _ _ b hb
/-- The exit contents read at the TensorCore's references. -/
abbrev V31 : (c : Dev nD) → (b : Ref sig .tc) → Buf (Elt F) ((c : Thread nD τ).loc b) := fun c b => W31 m hpre c b
theorem hF13 (c : Dev nD) (w : Fin (cfg13 (adm13 m)).W) :
    (dat13 (V30 m hpre) (adm13 m) (hH13 m hpre) c).arrAt w (cfg13 (adm13 m)).N = V31 m hpre c (Pipeline.arrRef spec13 w) :=
  (W31_arr m hpre c w).symm
theorem hrest13 (c : Dev nD) : ∀ b, b ∉ Finset.univ.image (Pipeline.arrRef spec13) → V31 m hpre c b = V30 m hpre c b :=
  fun b hb => W31_of_ne m hpre c b fun w e => hb (Finset.mem_image.mpr ⟨w, Finset.mem_univ _, e⟩)

/-! ## The unscoped buffers that are no array of the region -/

/-- The operand left in HBM is unscoped, no array of the region and not the row table. -/
theorem H13_subP : H13 ⊆ Pipeline.restRefsP sig pre13 spec13 := by
  intro b hb
  rw [H13, Finset.mem_singleton] at hb
  subst hb
  refine Finset.mem_sdiff.mpr ⟨Pipeline.mem_restRefs_of main_v71 (by decide) (by decide), ?_⟩
  decide

include hpre in
/-- The table's buffer at the region's entry holds the admissible contents: the one table, words 100000 … 149999 of the
    row vector. -/
theorem htbl13 (c : Dev nD) : (fun k : Fin pre13.K => V30 m hpre c (pre13.ref k)) = (adm13 m).1 :=
  funext fun | ⟨0, _⟩ => hpf13 m hpre c

include hpre in
/-- The unscoped buffers that are no array of the region, at its entry contents: the table at the admissible
    contents, the operand left in HBM, and the others. -/
theorem rest13_eq (c : Dev nD) :
    (Pipeline.unscopedRest (Ix := Unit) (Name := ℕ) (U := Pipeline.UD sig nD τ) (Lvl := ℕ) spec13 c (V30 m hpre c) : sProp 𝕄)
      = iprop(Pipeline.prefHeld pre13 c (fun _ => fullShare) (adm13 m).1
          ∗ (bigSep H13 fun b => ((c : Thread nD τ).loc b) ↦{fullShare} V30 m hpre c b)
          ∗ bigSep (Pipeline.restRefsP sig pre13 spec13 \ H13) fun b => ((c : Thread nD τ).loc b) ↦{fullShare} V30 m hpre c b) := by
  rw [Pipeline.unscopedRest_split preFacts13 c (V30 m hpre c), htbl13 m hpre c, Pipeline.unscopedRestP_sdiff pre13 spec13 H13 H13_subP c (V30 m hpre c)]

/-! ## The region as an item of the program -/

-- a library lemma stated over the pinned configuration unifies with the printed one only when unification may
-- unfold plain definitions in a metavariable's type
set_option backward.isDefEq.respectTransparency.types false in
/-- REGION 13 between the boundary contents W30 and W31. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W31. Nothing is owed
    at the pipeline's cells at any point. -/
def reg13 : Pipeline.RegionSeg (pcfgs (F := F)) (adm m) (pdats m hpre) () defs₀ 𝒱₀ L lv 13 where
  win := (launch13 (F := F)).win.to₀
  block_pos := (launch13 (F := F)).block_pos
  stage_whole := (launch13 (F := F)).stage_whole
  K := Fin 16
  osem := osem13
  ho := ownSemFacts13
  hbody c := (body_obligation13 (V30 m hpre) (adm13 m) (hH13 m hpre) c).loose
  hwaits := Pipeline.hwaits_of_owed_zero _ _ _ _ L lv 13 fun _ _ => rfl
  pre c := iprop(StableHlo.held (c : Thread nD τ) (Pipeline.ucRefs τ sig) (W30 m hpre c) ∗ R c)
  post c := iprop(StableHlo.held (c : Thread nD τ) (Pipeline.ucRefs τ sig) (W31 m hpre c) ∗ R c)
  X c := iprop((∃ r, prngReg c r) ∗ Pipeline.ownSems0 (Ix := Unit) (Name := ℕ) (U := Pipeline.UD sig nD τ) (Lvl := ℕ) (Val := Elt F) (τ := τ) osem13 c
    ∗ bigSep H13 fun b => ((c : Thread nD τ).loc b) ↦{fullShare} V30 m hpre c b)
  Y c := iprop((∃ r, prngReg c r) ∗ (bigSep H13 fun b => ((c : Thread nD τ).loc b) ↦{fullShare} V30 m hpre c b)
    ∗ Pipeline.prefHeld pre13 c (fun _ => fullShare) (adm13 m).1)
  Z c := bigSep (Pipeline.restRefsP sig pre13 spec13 \ H13) fun b => ((c : Thread nD τ).loc b) ↦{fullShare} V30 m hpre c b
  hentry c := by
    have hsplit := Pipeline.arrays_of_unscopedBufs (p := 13) (pcfgs (F := F)) (adm m) (pdats m hpre) (launch13 (F := F)).win (launch13 (F := F)).arr_whole c
      ((pdats m hpre 13 c).share_full fun _ => rfl) (V30 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest13_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 13 c).Φ 0 = iprop(Pipeline.ΦD osem13 spec13 H13 (V30 m hpre) c ∗ Pipeline.prefHeld pre13 c (fun _ => fullShare) (adm13 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 13 c).Φ (Fin.last _) = iprop(Pipeline.ΦD osem13 spec13 H13 (V30 m hpre) c ∗ Pipeline.prefHeld pre13 c (fun _ => fullShare) (adm13 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 13) (pcfgs (F := F)) (adm m) (Ix := Unit) (Name := ℕ) (U := Pipeline.UD sig nD τ) (Lvl := ℕ)
      (launch13 (F := F)).win (launch13 (F := F)).arr_whole c (pdats m hpre) ((pdats m hpre 13 c).share_full fun _ => rfl)
      (V30 m hpre c) (V31 m hpre c) ((pdats m hpre 13 c).arrAt · (cfg13 (adm13 m)).N) (hF13 m hpre c) (hrest13 m hpre c)
    rw [Pipeline.unscopedBufs_held] at hjoin
    iintro ⟨Ha, HO, ⟨Hp, HH, Ht⟩, HZ⟩
    ihave Hrest := (Entails.of_eq (rest13_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg14.lean ====
/- Region 14 of the run (a gather call of the second layer: words 150000 … 199999 of the row vector) as one item of the program
   between two boundary contents. The region is entered with every unscoped buffer at the contents W32 and left
   with them at W33, which differs from W32 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 14's exit contents -/

/-- At the exit each array of the region holds what the grid leaves in it, -/
theorem W33_arr (c : Dev nD) (w : Fin (cfg14 (adm14 m)).W) :
    W33 m hpre c (Proc.devRef .tc (Pipeline.arrRef spec14 w)) = (dat14 (V32 m hpre) (adm14 m) (hH14 m hpre) c).arrAt w (cfg14 (adm14 m)).N := by
  unfold W33; exact Pipeline.withArrays_arr spec14 (launch14 (F := F)).win.arr_inj c _ _ w
/-- and every other buffer what it held at the entry. -/
theorem W33_of_ne (c : Dev nD) (b : Ref sig .tc) (hb : ∀ w, Pipeline.arrRef spec14 w ≠ b) :
    W33 m hpre c (Proc.devRef .tc b) = W32 m hpre c (Proc.devRef .tc b) := by
  unfold W33; exact Pipeline.withArrays_of_ne spec14 c _ _ b hb
/-- The exit contents read at the TensorCore's references. -/
abbrev V33 : (c : Dev nD) → (b : Ref sig .tc) → Buf (Elt F) ((c : Thread nD τ).loc b) := fun c b => W33 m hpre c b
theorem hF14 (c : Dev nD) (w : Fin (cfg14 (adm14 m)).W) :
    (dat14 (V32 m hpre) (adm14 m) (hH14 m hpre) c).arrAt w (cfg14 (adm14 m)).N = V33 m hpre c (Pipeline.arrRef spec14 w) :=
  (W33_arr m hpre c w).symm
theorem hrest14 (c : Dev nD) : ∀ b, b ∉ Finset.univ.image (Pipeline.arrRef spec14) → V33 m hpre c b = V32 m hpre c b :=
  fun b hb => W33_of_ne m hpre c b fun w e => hb (Finset.mem_image.mpr ⟨w, Finset.mem_univ _, e⟩)

/-! ## The unscoped buffers that are no array of the region -/

/-- The operand left in HBM is unscoped, no array of the region and not the row table. -/
theorem H14_subP : H14 ⊆ Pipeline.restRefsP sig pre14 spec14 := by
  intro b hb
  rw [H14, Finset.mem_singleton] at hb
  subst hb
  refine Finset.mem_sdiff.mpr ⟨Pipeline.mem_restRefs_of main_v71 (by decide) (by decide), ?_⟩
  decide

include hpre in
/-- The table's buffer at the region's entry holds the admissible contents: the one table, words 150000 … 199999 of the
    row vector. -/
theorem htbl14 (c : Dev nD) : (fun k : Fin pre14.K => V32 m hpre c (pre14.ref k)) = (adm14 m).1 :=
  funext fun | ⟨0, _⟩ => hpf14 m hpre c

include hpre in
/-- The unscoped buffers that are no array of the region, at its entry contents: the table at the admissible
    contents, the operand left in HBM, and the others. -/
theorem rest14_eq (c : Dev nD) :
    (Pipeline.unscopedRest (Ix := Unit) (Name := ℕ) (U := Pipeline.UD sig nD τ) (Lvl := ℕ) spec14 c (V32 m hpre c) : sProp 𝕄)
      = iprop(Pipeline.prefHeld pre14 c (fun _ => fullShare) (adm14 m).1
          ∗ (bigSep H14 fun b => ((c : Thread nD τ).loc b) ↦{fullShare} V32 m hpre c b)
          ∗ bigSep (Pipeline.restRefsP sig pre14 spec14 \ H14) fun b => ((c : Thread nD τ).loc b) ↦{fullShare} V32 m hpre c b) := by
  rw [Pipeline.unscopedRest_split preFacts14 c (V32 m hpre c), htbl14 m hpre c, Pipeline.unscopedRestP_sdiff pre14 spec14 H14 H14_subP c (V32 m hpre c)]

/-! ## The region as an item of the program -/

-- a library lemma stated over the pinned configuration unifies with the printed one only when unification may
-- unfold plain definitions in a metavariable's type
set_option backward.isDefEq.respectTransparency.types false in
/-- REGION 14 between the boundary contents W32 and W33. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W33. Nothing is owed
    at the pipeline's cells at any point. -/
def reg14 : Pipeline.RegionSeg (pcfgs (F := F)) (adm m) (pdats m hpre) () defs₀ 𝒱₀ L lv 14 where
  win := (launch14 (F := F)).win.to₀
  block_pos := (launch14 (F := F)).block_pos
  stage_whole := (launch14 (F := F)).stage_whole
  K := Fin 16
  osem := osem14
  ho := ownSemFacts14
  hbody c := (body_obligation14 (V32 m hpre) (adm14 m) (hH14 m hpre) c).loose
  hwaits := Pipeline.hwaits_of_owed_zero _ _ _ _ L lv 14 fun _ _ => rfl
  pre c := iprop(StableHlo.held (c : Thread nD τ) (Pipeline.ucRefs τ sig) (W32 m hpre c) ∗ R c)
  post c := iprop(StableHlo.held (c : Thread nD τ) (Pipeline.ucRefs τ sig) (W33 m hpre c) ∗ R c)
  X c := iprop((∃ r, prngReg c r) ∗ Pipeline.ownSems0 (Ix := Unit) (Name := ℕ) (U := Pipeline.UD sig nD τ) (Lvl := ℕ) (Val := Elt F) (τ := τ) osem14 c
    ∗ bigSep H14 fun b => ((c : Thread nD τ).loc b) ↦{fullShare} V32 m hpre c b)
  Y c := iprop((∃ r, prngReg c r) ∗ (bigSep H14 fun b => ((c : Thread nD τ).loc b) ↦{fullShare} V32 m hpre c b)
    ∗ Pipeline.prefHeld pre14 c (fun _ => fullShare) (adm14 m).1)
  Z c := bigSep (Pipeline.restRefsP sig pre14 spec14 \ H14) fun b => ((c : Thread nD τ).loc b) ↦{fullShare} V32 m hpre c b
  hentry c := by
    have hsplit := Pipeline.arrays_of_unscopedBufs (p := 14) (pcfgs (F := F)) (adm m) (pdats m hpre) (launch14 (F := F)).win (launch14 (F := F)).arr_whole c
      ((pdats m hpre 14 c).share_full fun _ => rfl) (V32 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest14_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 14 c).Φ 0 = iprop(Pipeline.ΦD osem14 spec14 H14 (V32 m hpre) c ∗ Pipeline.prefHeld pre14 c (fun _ => fullShare) (adm14 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 14 c).Φ (Fin.last _) = iprop(Pipeline.ΦD osem14 spec14 H14 (V32 m hpre) c ∗ Pipeline.prefHeld pre14 c (fun _ => fullShare) (adm14 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 14) (pcfgs (F := F)) (adm m) (Ix := Unit) (Name := ℕ) (U := Pipeline.UD sig nD τ) (Lvl := ℕ)
      (launch14 (F := F)).win (launch14 (F := F)).arr_whole c (pdats m hpre) ((pdats m hpre 14 c).share_full fun _ => rfl)
      (V32 m hpre c) (V33 m hpre c) ((pdats m hpre 14 c).arrAt · (cfg14 (adm14 m)).N) (hF14 m hpre c) (hrest14 m hpre c)
    rw [Pipeline.unscopedBufs_held] at hjoin
    iintro ⟨Ha, HO, ⟨Hp, HH, Ht⟩, HZ⟩
    ihave Hrest := (Entails.of_eq (rest14_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg15.lean ====
/- Region 15 of the run (a gather call of the second layer: words 200000 … 249999 of the row vector) as one item of the program
   between two boundary contents. The region is entered with every unscoped buffer at the contents W34 and left
   with them at W35, which differs from W34 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 15's exit contents -/

/-- At the exit each array of the region holds what the grid leaves in it, -/
theorem W35_arr (c : Dev nD) (w : Fin (cfg15 (adm15 m)).W) :
    W35 m hpre c (Proc.devRef .tc (Pipeline.arrRef spec15 w)) = (dat15 (V34 m hpre) (adm15 m) (hH15 m hpre) c).arrAt w (cfg15 (adm15 m)).N := by
  unfold W35; exact Pipeline.withArrays_arr spec15 (launch15 (F := F)).win.arr_inj c _ _ w
/-- and every other buffer what it held at the entry. -/
theorem W35_of_ne (c : Dev nD) (b : Ref sig .tc) (hb : ∀ w, Pipeline.arrRef spec15 w ≠ b) :
    W35 m hpre c (Proc.devRef .tc b) = W34 m hpre c (Proc.devRef .tc b) := by
  unfold W35; exact Pipeline.withArrays_of_ne spec15 c _ _ b hb
/-- The exit contents read at the TensorCore's references. -/
abbrev V35 : (c : Dev nD) → (b : Ref sig .tc) → Buf (Elt F) ((c : Thread nD τ).loc b) := fun c b => W35 m hpre c b
theorem hF15 (c : Dev nD) (w : Fin (cfg15 (adm15 m)).W) :
    (dat15 (V34 m hpre) (adm15 m) (hH15 m hpre) c).arrAt w (cfg15 (adm15 m)).N = V35 m hpre c (Pipeline.arrRef spec15 w) :=
  (W35_arr m hpre c w).symm
theorem hrest15 (c : Dev nD) : ∀ b, b ∉ Finset.univ.image (Pipeline.arrRef spec15) → V35 m hpre c b = V34 m hpre c b :=
  fun b hb => W35_of_ne m hpre c b fun w e => hb (Finset.mem_image.mpr ⟨w, Finset.mem_univ _, e⟩)

/-! ## The unscoped buffers that are no array of the region -/

/-- The operand left in HBM is unscoped, no array of the region and not the row table. -/
theorem H15_subP : H15 ⊆ Pipeline.restRefsP sig pre15 spec15 := by
  intro b hb
  rw [H15, Finset.mem_singleton] at hb
  subst hb
  refine Finset.mem_sdiff.mpr ⟨Pipeline.mem_restRefs_of main_v71 (by decide) (by decide), ?_⟩
  decide

include hpre in
/-- The table's buffer at the region's entry holds the admissible contents: the one table, words 200000 … 249999 of the
    row vector. -/
theorem htbl15 (c : Dev nD) : (fun k : Fin pre15.K => V34 m hpre c (pre15.ref k)) = (adm15 m).1 :=
  funext fun | ⟨0, _⟩ => hpf15 m hpre c

include hpre in
/-- The unscoped buffers that are no array of the region, at its entry contents: the table at the admissible
    contents, the operand left in HBM, and the others. -/
theorem rest15_eq (c : Dev nD) :
    (Pipeline.unscopedRest (Ix := Unit) (Name := ℕ) (U := Pipeline.UD sig nD τ) (Lvl := ℕ) spec15 c (V34 m hpre c) : sProp 𝕄)
      = iprop(Pipeline.prefHeld pre15 c (fun _ => fullShare) (adm15 m).1
          ∗ (bigSep H15 fun b => ((c : Thread nD τ).loc b) ↦{fullShare} V34 m hpre c b)
          ∗ bigSep (Pipeline.restRefsP sig pre15 spec15 \ H15) fun b => ((c : Thread nD τ).loc b) ↦{fullShare} V34 m hpre c b) := by
  rw [Pipeline.unscopedRest_split preFacts15 c (V34 m hpre c), htbl15 m hpre c, Pipeline.unscopedRestP_sdiff pre15 spec15 H15 H15_subP c (V34 m hpre c)]

/-! ## The region as an item of the program -/

-- a library lemma stated over the pinned configuration unifies with the printed one only when unification may
-- unfold plain definitions in a metavariable's type
set_option backward.isDefEq.respectTransparency.types false in
/-- REGION 15 between the boundary contents W34 and W35. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W35. Nothing is owed
    at the pipeline's cells at any point. -/
def reg15 : Pipeline.RegionSeg (pcfgs (F := F)) (adm m) (pdats m hpre) () defs₀ 𝒱₀ L lv 15 where
  win := (launch15 (F := F)).win.to₀
  block_pos := (launch15 (F := F)).block_pos
  stage_whole := (launch15 (F := F)).stage_whole
  K := Fin 16
  osem := osem15
  ho := ownSemFacts15
  hbody c := (body_obligation15 (V34 m hpre) (adm15 m) (hH15 m hpre) c).loose
  hwaits := Pipeline.hwaits_of_owed_zero _ _ _ _ L lv 15 fun _ _ => rfl
  pre c := iprop(StableHlo.held (c : Thread nD τ) (Pipeline.ucRefs τ sig) (W34 m hpre c) ∗ R c)
  post c := iprop(StableHlo.held (c : Thread nD τ) (Pipeline.ucRefs τ sig) (W35 m hpre c) ∗ R c)
  X c := iprop((∃ r, prngReg c r) ∗ Pipeline.ownSems0 (Ix := Unit) (Name := ℕ) (U := Pipeline.UD sig nD τ) (Lvl := ℕ) (Val := Elt F) (τ := τ) osem15 c
    ∗ bigSep H15 fun b => ((c : Thread nD τ).loc b) ↦{fullShare} V34 m hpre c b)
  Y c := iprop((∃ r, prngReg c r) ∗ (bigSep H15 fun b => ((c : Thread nD τ).loc b) ↦{fullShare} V34 m hpre c b)
    ∗ Pipeline.prefHeld pre15 c (fun _ => fullShare) (adm15 m).1)
  Z c := bigSep (Pipeline.restRefsP sig pre15 spec15 \ H15) fun b => ((c : Thread nD τ).loc b) ↦{fullShare} V34 m hpre c b
  hentry c := by
    have hsplit := Pipeline.arrays_of_unscopedBufs (p := 15) (pcfgs (F := F)) (adm m) (pdats m hpre) (launch15 (F := F)).win (launch15 (F := F)).arr_whole c
      ((pdats m hpre 15 c).share_full fun _ => rfl) (V34 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest15_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 15 c).Φ 0 = iprop(Pipeline.ΦD osem15 spec15 H15 (V34 m hpre) c ∗ Pipeline.prefHeld pre15 c (fun _ => fullShare) (adm15 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 15 c).Φ (Fin.last _) = iprop(Pipeline.ΦD osem15 spec15 H15 (V34 m hpre) c ∗ Pipeline.prefHeld pre15 c (fun _ => fullShare) (adm15 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 15) (pcfgs (F := F)) (adm m) (Ix := Unit) (Name := ℕ) (U := Pipeline.UD sig nD τ) (Lvl := ℕ)
      (launch15 (F := F)).win (launch15 (F := F)).arr_whole c (pdats m hpre) ((pdats m hpre 15 c).share_full fun _ => rfl)
      (V34 m hpre c) (V35 m hpre c) ((pdats m hpre 15 c).arrAt · (cfg15 (adm15 m)).N) (hF15 m hpre c) (hrest15 m hpre c)
    rw [Pipeline.unscopedBufs_held] at hjoin
    iintro ⟨Ha, HO, ⟨Hp, HH, Ht⟩, HZ⟩
    ihave Hrest := (Entails.of_eq (rest15_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg16.lean ====
/- Region 16 of the run (a gather call of the second layer: words 250000 … 299999 of the row vector) as one item of the program
   between two boundary contents. The region is entered with every unscoped buffer at the contents W36 and left
   with them at W37, which differs from W36 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 16's exit contents -/

/-- At the exit each array of the region holds what the grid leaves in it, -/
theorem W37_arr (c : Dev nD) (w : Fin (cfg16 (adm16 m)).W) :
    W37 m hpre c (Proc.devRef .tc (Pipeline.arrRef spec16 w)) = (dat16 (V36 m hpre) (adm16 m) (hH16 m hpre) c).arrAt w (cfg16 (adm16 m)).N := by
  unfold W37; exact Pipeline.withArrays_arr spec16 (launch16 (F := F)).win.arr_inj c _ _ w
/-- and every other buffer what it held at the entry. -/
theorem W37_of_ne (c : Dev nD) (b : Ref sig .tc) (hb : ∀ w, Pipeline.arrRef spec16 w ≠ b) :
    W37 m hpre c (Proc.devRef .tc b) = W36 m hpre c (Proc.devRef .tc b) := by
  unfold W37; exact Pipeline.withArrays_of_ne spec16 c _ _ b hb
/-- The exit contents read at the TensorCore's references. -/
abbrev V37 : (c : Dev nD) → (b : Ref sig .tc) → Buf (Elt F) ((c : Thread nD τ).loc b) := fun c b => W37 m hpre c b
theorem hF16 (c : Dev nD) (w : Fin (cfg16 (adm16 m)).W) :
    (dat16 (V36 m hpre) (adm16 m) (hH16 m hpre) c).arrAt w (cfg16 (adm16 m)).N = V37 m hpre c (Pipeline.arrRef spec16 w) :=
  (W37_arr m hpre c w).symm
theorem hrest16 (c : Dev nD) : ∀ b, b ∉ Finset.univ.image (Pipeline.arrRef spec16) → V37 m hpre c b = V36 m hpre c b :=
  fun b hb => W37_of_ne m hpre c b fun w e => hb (Finset.mem_image.mpr ⟨w, Finset.mem_univ _, e⟩)

/-! ## The unscoped buffers that are no array of the region -/

/-- The operand left in HBM is unscoped, no array of the region and not the row table. -/
theorem H16_subP : H16 ⊆ Pipeline.restRefsP sig pre16 spec16 := by
  intro b hb
  rw [H16, Finset.mem_singleton] at hb
  subst hb
  refine Finset.mem_sdiff.mpr ⟨Pipeline.mem_restRefs_of main_v71 (by decide) (by decide), ?_⟩
  decide

include hpre in
/-- The table's buffer at the region's entry holds the admissible contents: the one table, words 250000 … 299999 of the
    row vector. -/
theorem htbl16 (c : Dev nD) : (fun k : Fin pre16.K => V36 m hpre c (pre16.ref k)) = (adm16 m).1 :=
  funext fun | ⟨0, _⟩ => hpf16 m hpre c

include hpre in
/-- The unscoped buffers that are no array of the region, at its entry contents: the table at the admissible
    contents, the operand left in HBM, and the others. -/
theorem rest16_eq (c : Dev nD) :
    (Pipeline.unscopedRest (Ix := Unit) (Name := ℕ) (U := Pipeline.UD sig nD τ) (Lvl := ℕ) spec16 c (V36 m hpre c) : sProp 𝕄)
      = iprop(Pipeline.prefHeld pre16 c (fun _ => fullShare) (adm16 m).1
          ∗ (bigSep H16 fun b => ((c : Thread nD τ).loc b) ↦{fullShare} V36 m hpre c b)
          ∗ bigSep (Pipeline.restRefsP sig pre16 spec16 \ H16) fun b => ((c : Thread nD τ).loc b) ↦{fullShare} V36 m hpre c b) := by
  rw [Pipeline.unscopedRest_split preFacts16 c (V36 m hpre c), htbl16 m hpre c, Pipeline.unscopedRestP_sdiff pre16 spec16 H16 H16_subP c (V36 m hpre c)]

/-! ## The region as an item of the program -/

-- a library lemma stated over the pinned configuration unifies with the printed one only when unification may
-- unfold plain definitions in a metavariable's type
set_option backward.isDefEq.respectTransparency.types false in
/-- REGION 16 between the boundary contents W36 and W37. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W37. Nothing is owed
    at the pipeline's cells at any point. -/
def reg16 : Pipeline.RegionSeg (pcfgs (F := F)) (adm m) (pdats m hpre) () defs₀ 𝒱₀ L lv 16 where
  win := (launch16 (F := F)).win.to₀
  block_pos := (launch16 (F := F)).block_pos
  stage_whole := (launch16 (F := F)).stage_whole
  K := Fin 16
  osem := osem16
  ho := ownSemFacts16
  hbody c := (body_obligation16 (V36 m hpre) (adm16 m) (hH16 m hpre) c).loose
  hwaits := Pipeline.hwaits_of_owed_zero _ _ _ _ L lv 16 fun _ _ => rfl
  pre c := iprop(StableHlo.held (c : Thread nD τ) (Pipeline.ucRefs τ sig) (W36 m hpre c) ∗ R c)
  post c := iprop(StableHlo.held (c : Thread nD τ) (Pipeline.ucRefs τ sig) (W37 m hpre c) ∗ R c)
  X c := iprop((∃ r, prngReg c r) ∗ Pipeline.ownSems0 (Ix := Unit) (Name := ℕ) (U := Pipeline.UD sig nD τ) (Lvl := ℕ) (Val := Elt F) (τ := τ) osem16 c
    ∗ bigSep H16 fun b => ((c : Thread nD τ).loc b) ↦{fullShare} V36 m hpre c b)
  Y c := iprop((∃ r, prngReg c r) ∗ (bigSep H16 fun b => ((c : Thread nD τ).loc b) ↦{fullShare} V36 m hpre c b)
    ∗ Pipeline.prefHeld pre16 c (fun _ => fullShare) (adm16 m).1)
  Z c := bigSep (Pipeline.restRefsP sig pre16 spec16 \ H16) fun b => ((c : Thread nD τ).loc b) ↦{fullShare} V36 m hpre c b
  hentry c := by
    have hsplit := Pipeline.arrays_of_unscopedBufs (p := 16) (pcfgs (F := F)) (adm m) (pdats m hpre) (launch16 (F := F)).win (launch16 (F := F)).arr_whole c
      ((pdats m hpre 16 c).share_full fun _ => rfl) (V36 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest16_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 16 c).Φ 0 = iprop(Pipeline.ΦD osem16 spec16 H16 (V36 m hpre) c ∗ Pipeline.prefHeld pre16 c (fun _ => fullShare) (adm16 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 16 c).Φ (Fin.last _) = iprop(Pipeline.ΦD osem16 spec16 H16 (V36 m hpre) c ∗ Pipeline.prefHeld pre16 c (fun _ => fullShare) (adm16 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 16) (pcfgs (F := F)) (adm m) (Ix := Unit) (Name := ℕ) (U := Pipeline.UD sig nD τ) (Lvl := ℕ)
      (launch16 (F := F)).win (launch16 (F := F)).arr_whole c (pdats m hpre) ((pdats m hpre 16 c).share_full fun _ => rfl)
      (V36 m hpre c) (V37 m hpre c) ((pdats m hpre 16 c).arrAt · (cfg16 (adm16 m)).N) (hF16 m hpre c) (hrest16 m hpre c)
    rw [Pipeline.unscopedBufs_held] at hjoin
    iintro ⟨Ha, HO, ⟨Hp, HH, Ht⟩, HZ⟩
    ihave Hrest := (Entails.of_eq (rest16_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg17.lean ====
/- Region 17 of the run (a gather call of the second layer: words 300000 … 349999 of the row vector) as one item of the program
   between two boundary contents. The region is entered with every unscoped buffer at the contents W38 and left
   with them at W39, which differs from W38 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 17's exit contents -/

/-- At the exit each array of the region holds what the grid leaves in it, -/
theorem W39_arr (c : Dev nD) (w : Fin (cfg17 (adm17 m)).W) :
    W39 m hpre c (Proc.devRef .tc (Pipeline.arrRef spec17 w)) = (dat17 (V38 m hpre) (adm17 m) (hH17 m hpre) c).arrAt w (cfg17 (adm17 m)).N := by
  unfold W39; exact Pipeline.withArrays_arr spec17 (launch17 (F := F)).win.arr_inj c _ _ w
/-- and every other buffer what it held at the entry. -/
theorem W39_of_ne (c : Dev nD) (b : Ref sig .tc) (hb : ∀ w, Pipeline.arrRef spec17 w ≠ b) :
    W39 m hpre c (Proc.devRef .tc b) = W38 m hpre c (Proc.devRef .tc b) := by
  unfold W39; exact Pipeline.withArrays_of_ne spec17 c _ _ b hb
/-- The exit contents read at the TensorCore's references. -/
abbrev V39 : (c : Dev nD) → (b : Ref sig .tc) → Buf (Elt F) ((c : Thread nD τ).loc b) := fun c b => W39 m hpre c b
theorem hF17 (c : Dev nD) (w : Fin (cfg17 (adm17 m)).W) :
    (dat17 (V38 m hpre) (adm17 m) (hH17 m hpre) c).arrAt w (cfg17 (adm17 m)).N = V39 m hpre c (Pipeline.arrRef spec17 w) :=
  (W39_arr m hpre c w).symm
theorem hrest17 (c : Dev nD) : ∀ b, b ∉ Finset.univ.image (Pipeline.arrRef spec17) → V39 m hpre c b = V38 m hpre c b :=
  fun b hb => W39_of_ne m hpre c b fun w e => hb (Finset.mem_image.mpr ⟨w, Finset.mem_univ _, e⟩)

/-! ## The unscoped buffers that are no array of the region -/

/-- The operand left in HBM is unscoped, no array of the region and not the row table. -/
theorem H17_subP : H17 ⊆ Pipeline.restRefsP sig pre17 spec17 := by
  intro b hb
  rw [H17, Finset.mem_singleton] at hb
  subst hb
  refine Finset.mem_sdiff.mpr ⟨Pipeline.mem_restRefs_of main_v71 (by decide) (by decide), ?_⟩
  decide

include hpre in
/-- The table's buffer at the region's entry holds the admissible contents: the one table, words 300000 … 349999 of the
    row vector. -/
theorem htbl17 (c : Dev nD) : (fun k : Fin pre17.K => V38 m hpre c (pre17.ref k)) = (adm17 m).1 :=
  funext fun | ⟨0, _⟩ => hpf17 m hpre c

include hpre in
/-- The unscoped buffers that are no array of the region, at its entry contents: the table at the admissible
    contents, the operand left in HBM, and the others. -/
theorem rest17_eq (c : Dev nD) :
    (Pipeline.unscopedRest (Ix := Unit) (Name := ℕ) (U := Pipeline.UD sig nD τ) (Lvl := ℕ) spec17 c (V38 m hpre c) : sProp 𝕄)
      = iprop(Pipeline.prefHeld pre17 c (fun _ => fullShare) (adm17 m).1
          ∗ (bigSep H17 fun b => ((c : Thread nD τ).loc b) ↦{fullShare} V38 m hpre c b)
          ∗ bigSep (Pipeline.restRefsP sig pre17 spec17 \ H17) fun b => ((c : Thread nD τ).loc b) ↦{fullShare} V38 m hpre c b) := by
  rw [Pipeline.unscopedRest_split preFacts17 c (V38 m hpre c), htbl17 m hpre c, Pipeline.unscopedRestP_sdiff pre17 spec17 H17 H17_subP c (V38 m hpre c)]

/-! ## The region as an item of the program -/

-- a library lemma stated over the pinned configuration unifies with the printed one only when unification may
-- unfold plain definitions in a metavariable's type
set_option backward.isDefEq.respectTransparency.types false in
/-- REGION 17 between the boundary contents W38 and W39. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W39. Nothing is owed
    at the pipeline's cells at any point. -/
def reg17 : Pipeline.RegionSeg (pcfgs (F := F)) (adm m) (pdats m hpre) () defs₀ 𝒱₀ L lv 17 where
  win := (launch17 (F := F)).win.to₀
  block_pos := (launch17 (F := F)).block_pos
  stage_whole := (launch17 (F := F)).stage_whole
  K := Fin 16
  osem := osem17
  ho := ownSemFacts17
  hbody c := (body_obligation17 (V38 m hpre) (adm17 m) (hH17 m hpre) c).loose
  hwaits := Pipeline.hwaits_of_owed_zero _ _ _ _ L lv 17 fun _ _ => rfl
  pre c := iprop(StableHlo.held (c : Thread nD τ) (Pipeline.ucRefs τ sig) (W38 m hpre c) ∗ R c)
  post c := iprop(StableHlo.held (c : Thread nD τ) (Pipeline.ucRefs τ sig) (W39 m hpre c) ∗ R c)
  X c := iprop((∃ r, prngReg c r) ∗ Pipeline.ownSems0 (Ix := Unit) (Name := ℕ) (U := Pipeline.UD sig nD τ) (Lvl := ℕ) (Val := Elt F) (τ := τ) osem17 c
    ∗ bigSep H17 fun b => ((c : Thread nD τ).loc b) ↦{fullShare} V38 m hpre c b)
  Y c := iprop((∃ r, prngReg c r) ∗ (bigSep H17 fun b => ((c : Thread nD τ).loc b) ↦{fullShare} V38 m hpre c b)
    ∗ Pipeline.prefHeld pre17 c (fun _ => fullShare) (adm17 m).1)
  Z c := bigSep (Pipeline.restRefsP sig pre17 spec17 \ H17) fun b => ((c : Thread nD τ).loc b) ↦{fullShare} V38 m hpre c b
  hentry c := by
    have hsplit := Pipeline.arrays_of_unscopedBufs (p := 17) (pcfgs (F := F)) (adm m) (pdats m hpre) (launch17 (F := F)).win (launch17 (F := F)).arr_whole c
      ((pdats m hpre 17 c).share_full fun _ => rfl) (V38 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest17_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 17 c).Φ 0 = iprop(Pipeline.ΦD osem17 spec17 H17 (V38 m hpre) c ∗ Pipeline.prefHeld pre17 c (fun _ => fullShare) (adm17 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 17 c).Φ (Fin.last _) = iprop(Pipeline.ΦD osem17 spec17 H17 (V38 m hpre) c ∗ Pipeline.prefHeld pre17 c (fun _ => fullShare) (adm17 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 17) (pcfgs (F := F)) (adm m) (Ix := Unit) (Name := ℕ) (U := Pipeline.UD sig nD τ) (Lvl := ℕ)
      (launch17 (F := F)).win (launch17 (F := F)).arr_whole c (pdats m hpre) ((pdats m hpre 17 c).share_full fun _ => rfl)
      (V38 m hpre c) (V39 m hpre c) ((pdats m hpre 17 c).arrAt · (cfg17 (adm17 m)).N) (hF17 m hpre c) (hrest17 m hpre c)
    rw [Pipeline.unscopedBufs_held] at hjoin
    iintro ⟨Ha, HO, ⟨Hp, HH, Ht⟩, HZ⟩
    ihave Hrest := (Entails.of_eq (rest17_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg18.lean ====
/- Region 18 of the run (a gather call of the second layer: words 350000 … 399999 of the row vector) as one item of the program
   between two boundary contents. The region is entered with every unscoped buffer at the contents W40 and left
   with them at W41, which differs from W40 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 18's exit contents -/

/-- At the exit each array of the region holds what the grid leaves in it, -/
theorem W41_arr (c : Dev nD) (w : Fin (cfg18 (adm18 m)).W) :
    W41 m hpre c (Proc.devRef .tc (Pipeline.arrRef spec18 w)) = (dat18 (V40 m hpre) (adm18 m) (hH18 m hpre) c).arrAt w (cfg18 (adm18 m)).N := by
  unfold W41; exact Pipeline.withArrays_arr spec18 (launch18 (F := F)).win.arr_inj c _ _ w
/-- and every other buffer what it held at the entry. -/
theorem W41_of_ne (c : Dev nD) (b : Ref sig .tc) (hb : ∀ w, Pipeline.arrRef spec18 w ≠ b) :
    W41 m hpre c (Proc.devRef .tc b) = W40 m hpre c (Proc.devRef .tc b) := by
  unfold W41; exact Pipeline.withArrays_of_ne spec18 c _ _ b hb
/-- The exit contents read at the TensorCore's references. -/
abbrev V41 : (c : Dev nD) → (b : Ref sig .tc) → Buf (Elt F) ((c : Thread nD τ).loc b) := fun c b => W41 m hpre c b
theorem hF18 (c : Dev nD) (w : Fin (cfg18 (adm18 m)).W) :
    (dat18 (V40 m hpre) (adm18 m) (hH18 m hpre) c).arrAt w (cfg18 (adm18 m)).N = V41 m hpre c (Pipeline.arrRef spec18 w) :=
  (W41_arr m hpre c w).symm
theorem hrest18 (c : Dev nD) : ∀ b, b ∉ Finset.univ.image (Pipeline.arrRef spec18) → V41 m hpre c b = V40 m hpre c b :=
  fun b hb => W41_of_ne m hpre c b fun w e => hb (Finset.mem_image.mpr ⟨w, Finset.mem_univ _, e⟩)

/-! ## The unscoped buffers that are no array of the region -/

/-- The operand left in HBM is unscoped, no array of the region and not the row table. -/
theorem H18_subP : H18 ⊆ Pipeline.restRefsP sig pre18 spec18 := by
  intro b hb
  rw [H18, Finset.mem_singleton] at hb
  subst hb
  refine Finset.mem_sdiff.mpr ⟨Pipeline.mem_restRefs_of main_v71 (by decide) (by decide), ?_⟩
  decide

include hpre in
/-- The table's buffer at the region's entry holds the admissible contents: the one table, words 350000 … 399999 of the
    row vector. -/
theorem htbl18 (c : Dev nD) : (fun k : Fin pre18.K => V40 m hpre c (pre18.ref k)) = (adm18 m).1 :=
  funext fun | ⟨0, _⟩ => hpf18 m hpre c

include hpre in
/-- The unscoped buffers that are no array of the region, at its entry contents: the table at the admissible
    contents, the operand left in HBM, and the others. -/
theorem rest18_eq (c : Dev nD) :
    (Pipeline.unscopedRest (Ix := Unit) (Name := ℕ) (U := Pipeline.UD sig nD τ) (Lvl := ℕ) spec18 c (V40 m hpre c) : sProp 𝕄)
      = iprop(Pipeline.prefHeld pre18 c (fun _ => fullShare) (adm18 m).1
          ∗ (bigSep H18 fun b => ((c : Thread nD τ).loc b) ↦{fullShare} V40 m hpre c b)
          ∗ bigSep (Pipeline.restRefsP sig pre18 spec18 \ H18) fun b => ((c : Thread nD τ).loc b) ↦{fullShare} V40 m hpre c b) := by
  rw [Pipeline.unscopedRest_split preFacts18 c (V40 m hpre c), htbl18 m hpre c, Pipeline.unscopedRestP_sdiff pre18 spec18 H18 H18_subP c (V40 m hpre c)]

/-! ## The region as an item of the program -/

-- a library lemma stated over the pinned configuration unifies with the printed one only when unification may
-- unfold plain definitions in a metavariable's type
set_option backward.isDefEq.respectTransparency.types false in
/-- REGION 18 between the boundary contents W40 and W41. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W41. Nothing is owed
    at the pipeline's cells at any point. -/
def reg18 : Pipeline.RegionSeg (pcfgs (F := F)) (adm m) (pdats m hpre) () defs₀ 𝒱₀ L lv 18 where
  win := (launch18 (F := F)).win.to₀
  block_pos := (launch18 (F := F)).block_pos
  stage_whole := (launch18 (F := F)).stage_whole
  K := Fin 16
  osem := osem18
  ho := ownSemFacts18
  hbody c := (body_obligation18 (V40 m hpre) (adm18 m) (hH18 m hpre) c).loose
  hwaits := Pipeline.hwaits_of_owed_zero _ _ _ _ L lv 18 fun _ _ => rfl
  pre c := iprop(StableHlo.held (c : Thread nD τ) (Pipeline.ucRefs τ sig) (W40 m hpre c) ∗ R c)
  post c := iprop(StableHlo.held (c : Thread nD τ) (Pipeline.ucRefs τ sig) (W41 m hpre c) ∗ R c)
  X c := iprop((∃ r, prngReg c r) ∗ Pipeline.ownSems0 (Ix := Unit) (Name := ℕ) (U := Pipeline.UD sig nD τ) (Lvl := ℕ) (Val := Elt F) (τ := τ) osem18 c
    ∗ bigSep H18 fun b => ((c : Thread nD τ).loc b) ↦{fullShare} V40 m hpre c b)
  Y c := iprop((∃ r, prngReg c r) ∗ (bigSep H18 fun b => ((c : Thread nD τ).loc b) ↦{fullShare} V40 m hpre c b)
    ∗ Pipeline.prefHeld pre18 c (fun _ => fullShare) (adm18 m).1)
  Z c := bigSep (Pipeline.restRefsP sig pre18 spec18 \ H18) fun b => ((c : Thread nD τ).loc b) ↦{fullShare} V40 m hpre c b
  hentry c := by
    have hsplit := Pipeline.arrays_of_unscopedBufs (p := 18) (pcfgs (F := F)) (adm m) (pdats m hpre) (launch18 (F := F)).win (launch18 (F := F)).arr_whole c
      ((pdats m hpre 18 c).share_full fun _ => rfl) (V40 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest18_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 18 c).Φ 0 = iprop(Pipeline.ΦD osem18 spec18 H18 (V40 m hpre) c ∗ Pipeline.prefHeld pre18 c (fun _ => fullShare) (adm18 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 18 c).Φ (Fin.last _) = iprop(Pipeline.ΦD osem18 spec18 H18 (V40 m hpre) c ∗ Pipeline.prefHeld pre18 c (fun _ => fullShare) (adm18 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 18) (pcfgs (F := F)) (adm m) (Ix := Unit) (Name := ℕ) (U := Pipeline.UD sig nD τ) (Lvl := ℕ)
      (launch18 (F := F)).win (launch18 (F := F)).arr_whole c (pdats m hpre) ((pdats m hpre 18 c).share_full fun _ => rfl)
      (V40 m hpre c) (V41 m hpre c) ((pdats m hpre 18 c).arrAt · (cfg18 (adm18 m)).N) (hF18 m hpre c) (hrest18 m hpre c)
    rw [Pipeline.unscopedBufs_held] at hjoin
    iintro ⟨Ha, HO, ⟨Hp, HH, Ht⟩, HZ⟩
    ihave Hrest := (Entails.of_eq (rest18_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.Reg19.lean ====
/- Region 19 of the run (a gather call of the second layer: words 400000 … 449999 of the row vector) as one item of the program
   between two boundary contents. The region is entered with every unscoped buffer at the contents W42 and left
   with them at W43, which differs from W42 only at the region's two arrays. Of the unscoped buffers that are no
   array of the region, three kinds are told apart: the row table (it passes through the region at the admissible
   contents, held whole), the operand left in HBM that the body copies rows of (it enters the invariant at its
   entry contents and comes back unchanged), and all the others (they bypass the region). The sixteen semaphores
   of the body's own copies enter at zero and come back at zero. -/
import proofs.«414392_j7919919694132_2_alg».proof.Proof.Bits.RegBase
import proofs.«414392_j7919919694132_2_alg».proof.Proof.Bits.TableAt
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)
variable (hpre : PreEq m)

/-! ## Region 19's exit contents -/

/-- At the exit each array of the region holds what the grid leaves in it, -/
theorem W43_arr (c : Dev nD) (w : Fin (cfg19 (adm19 m)).W) :
    W43 m hpre c (Proc.devRef .tc (Pipeline.arrRef spec19 w)) = (dat19 (V42 m hpre) (adm19 m) (hH19 m hpre) c).arrAt w (cfg19 (adm19 m)).N := by
  unfold W43; exact Pipeline.withArrays_arr spec19 (launch19 (F := F)).win.arr_inj c _ _ w
/-- and every other buffer what it held at the entry. -/
theorem W43_of_ne (c : Dev nD) (b : Ref sig .tc) (hb : ∀ w, Pipeline.arrRef spec19 w ≠ b) :
    W43 m hpre c (Proc.devRef .tc b) = W42 m hpre c (Proc.devRef .tc b) := by
  unfold W43; exact Pipeline.withArrays_of_ne spec19 c _ _ b hb
/-- The exit contents read at the TensorCore's references. -/
abbrev V43 : (c : Dev nD) → (b : Ref sig .tc) → Buf (Elt F) ((c : Thread nD τ).loc b) := fun c b => W43 m hpre c b
theorem hF19 (c : Dev nD) (w : Fin (cfg19 (adm19 m)).W) :
    (dat19 (V42 m hpre) (adm19 m) (hH19 m hpre) c).arrAt w (cfg19 (adm19 m)).N = V43 m hpre c (Pipeline.arrRef spec19 w) :=
  (W43_arr m hpre c w).symm
theorem hrest19 (c : Dev nD) : ∀ b, b ∉ Finset.univ.image (Pipeline.arrRef spec19) → V43 m hpre c b = V42 m hpre c b :=
  fun b hb => W43_of_ne m hpre c b fun w e => hb (Finset.mem_image.mpr ⟨w, Finset.mem_univ _, e⟩)

/-! ## The unscoped buffers that are no array of the region -/

/-- The operand left in HBM is unscoped, no array of the region and not the row table. -/
theorem H19_subP : H19 ⊆ Pipeline.restRefsP sig pre19 spec19 := by
  intro b hb
  rw [H19, Finset.mem_singleton] at hb
  subst hb
  refine Finset.mem_sdiff.mpr ⟨Pipeline.mem_restRefs_of main_v71 (by decide) (by decide), ?_⟩
  decide

include hpre in
/-- The table's buffer at the region's entry holds the admissible contents: the one table, words 400000 … 449999 of the
    row vector. -/
theorem htbl19 (c : Dev nD) : (fun k : Fin pre19.K => V42 m hpre c (pre19.ref k)) = (adm19 m).1 :=
  funext fun | ⟨0, _⟩ => hpf19 m hpre c

include hpre in
/-- The unscoped buffers that are no array of the region, at its entry contents: the table at the admissible
    contents, the operand left in HBM, and the others. -/
theorem rest19_eq (c : Dev nD) :
    (Pipeline.unscopedRest (Ix := Unit) (Name := ℕ) (U := Pipeline.UD sig nD τ) (Lvl := ℕ) spec19 c (V42 m hpre c) : sProp 𝕄)
      = iprop(Pipeline.prefHeld pre19 c (fun _ => fullShare) (adm19 m).1
          ∗ (bigSep H19 fun b => ((c : Thread nD τ).loc b) ↦{fullShare} V42 m hpre c b)
          ∗ bigSep (Pipeline.restRefsP sig pre19 spec19 \ H19) fun b => ((c : Thread nD τ).loc b) ↦{fullShare} V42 m hpre c b) := by
  rw [Pipeline.unscopedRest_split preFacts19 c (V42 m hpre c), htbl19 m hpre c, Pipeline.unscopedRestP_sdiff pre19 spec19 H19 H19_subP c (V42 m hpre c)]

/-! ## The region as an item of the program -/

-- a library lemma stated over the pinned configuration unifies with the printed one only when unification may
-- unfold plain definitions in a metavariable's type
set_option backward.isDefEq.respectTransparency.types false in
/-- REGION 19 between the boundary contents W42 and W43. ENTRY: the arrays split out of the unscoped buffers; of the
    rest, the table goes to the pipeline at the admissible contents, the operand left in HBM and the own semaphores
    (at zero) and the generator register go into the invariant, the others bypass. EXIT: the invariant gives back
    the register, the operand unchanged and the table; with the bypassing buffers they are the unscoped rest at the
    entry contents again, and with the arrays at what the grid leaves, every unscoped buffer at W43. Nothing is owed
    at the pipeline's cells at any point. -/
def reg19 : Pipeline.RegionSeg (pcfgs (F := F)) (adm m) (pdats m hpre) () defs₀ 𝒱₀ L lv 19 where
  win := (launch19 (F := F)).win.to₀
  block_pos := (launch19 (F := F)).block_pos
  stage_whole := (launch19 (F := F)).stage_whole
  K := Fin 16
  osem := osem19
  ho := ownSemFacts19
  hbody c := (body_obligation19 (V42 m hpre) (adm19 m) (hH19 m hpre) c).loose
  hwaits := Pipeline.hwaits_of_owed_zero _ _ _ _ L lv 19 fun _ _ => rfl
  pre c := iprop(StableHlo.held (c : Thread nD τ) (Pipeline.ucRefs τ sig) (W42 m hpre c) ∗ R c)
  post c := iprop(StableHlo.held (c : Thread nD τ) (Pipeline.ucRefs τ sig) (W43 m hpre c) ∗ R c)
  X c := iprop((∃ r, prngReg c r) ∗ Pipeline.ownSems0 (Ix := Unit) (Name := ℕ) (U := Pipeline.UD sig nD τ) (Lvl := ℕ) (Val := Elt F) (τ := τ) osem19 c
    ∗ bigSep H19 fun b => ((c : Thread nD τ).loc b) ↦{fullShare} V42 m hpre c b)
  Y c := iprop((∃ r, prngReg c r) ∗ (bigSep H19 fun b => ((c : Thread nD τ).loc b) ↦{fullShare} V42 m hpre c b)
    ∗ Pipeline.prefHeld pre19 c (fun _ => fullShare) (adm19 m).1)
  Z c := bigSep (Pipeline.restRefsP sig pre19 spec19 \ H19) fun b => ((c : Thread nD τ).loc b) ↦{fullShare} V42 m hpre c b
  hentry c := by
    have hsplit := Pipeline.arrays_of_unscopedBufs (p := 19) (pcfgs (F := F)) (adm m) (pdats m hpre) (launch19 (F := F)).win (launch19 (F := F)).arr_whole c
      ((pdats m hpre 19 c).share_full fun _ => rfl) (V42 m hpre c) fun _ => rfl
    rw [Pipeline.unscopedBufs_held] at hsplit
    iintro ⟨⟨Hub, Hp, HO⟩, Hos, -⟩
    ihave H := hsplit $$ Hub
    icases H with ⟨Ha, Hrest⟩
    ihave Hrest' := (Entails.of_eq (rest19_eq m hpre c)) $$ Hrest
    icases Hrest' with ⟨Ht, HH, HZ⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitr [HZ]
    · isplitl [Hp]; · iexact Hp
      isplitl [Hos]; · iexact Hos
      iexact HH
    · iexact HZ
  hin c := by
    rw [show (pdats m hpre 19 c).Φ 0 = iprop(Pipeline.ΦD osem19 spec19 H19 (V42 m hpre) c ∗ Pipeline.prefHeld pre19 c (fun _ => fullShare) (adm19 m).1) from rfl,
      Pipeline.ΦD_eq]
    iintro ⟨⟨Hp, Ho, HH⟩, Ht, Hr⟩
    isplitr [Ht]
    · isplitl [Hr]; · iexact Hr
      isplitl [Hp]; · iexact Hp
      isplitl [Ho]; · iexact Ho
      iexact HH
    · iexact Ht
  hout c := by
    rw [show (pdats m hpre 19 c).Φ (Fin.last _) = iprop(Pipeline.ΦD osem19 spec19 H19 (V42 m hpre) c ∗ Pipeline.prefHeld pre19 c (fun _ => fullShare) (adm19 m).1) from rfl,
      Pipeline.ΦD_eq]
    iintro ⟨⟨Hr, Hp, Ho, HH⟩, Ht⟩
    isplitl [Hp HH Ht]
    · isplitl [Hp]; · iexact Hp
      isplitl [HH]; · iexact HH
      iexact Ht
    isplitl [Ho]; · iexact Ho
    iexact Hr
  hexit c := by
    have hjoin := Pipeline.unscopedBufs_of_arrays (p := 19) (pcfgs (F := F)) (adm m) (Ix := Unit) (Name := ℕ) (U := Pipeline.UD sig nD τ) (Lvl := ℕ)
      (launch19 (F := F)).win (launch19 (F := F)).arr_whole c (pdats m hpre) ((pdats m hpre 19 c).share_full fun _ => rfl)
      (V42 m hpre c) (V43 m hpre c) ((pdats m hpre 19 c).arrAt · (cfg19 (adm19 m)).N) (hF19 m hpre c) (hrest19 m hpre c)
    rw [Pipeline.unscopedBufs_held] at hjoin
    iintro ⟨Ha, HO, ⟨Hp, HH, Ht⟩, HZ⟩
    ihave Hrest := (Entails.of_eq (rest19_eq m hpre c).symm) $$ [Ht HH HZ]
    · isplitl [Ht]; · iexact Ht
      isplitl [HH] <;> iassumption
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Bits.RunMain.lean ====
import proofs.«414392_j7919919694132_2_alg».proof.Proof.Bits.Reg0
import proofs.«414392_j7919919694132_2_alg».proof.Proof.Bits.Reg1
import proofs.«414392_j7919919694132_2_alg».proof.Proof.Bits.Reg2
import proofs.«414392_j7919919694132_2_alg».proof.Proof.Bits.Reg3
import proofs.«414392_j7919919694132_2_alg».proof.Proof.Bits.Reg4
import proofs.«414392_j7919919694132_2_alg».proof.Proof.Bits.Reg5
import proofs.«414392_j7919919694132_2_alg».proof.Proof.Bits.Reg6
import proofs.«414392_j7919919694132_2_alg».proof.Proof.Bits.Reg7
import proofs.«414392_j7919919694132_2_alg».proof.Proof.Bits.Reg8
import proofs.«414392_j7919919694132_2_alg».proof.Proof.Bits.Reg9
import proofs.«414392_j7919919694132_2_alg».proof.Proof.Bits.Reg10
import proofs.«414392_j7919919694132_2_alg».proof.Proof.Bits.Reg11
import proofs.«414392_j7919919694132_2_alg».proof.Proof.Bits.Reg12
import proofs.«414392_j7919919694132_2_alg».proof.Proof.Bits.Reg13
import proofs.«414392_j7919919694132_2_alg».proof.Proof.Bits.Reg14
import proofs.«414392_j7919919694132_2_alg».proof.Proof.Bits.Reg15
import proofs.«414392_j7919919694132_2_alg».proof.Proof.Bits.Reg16
import proofs.«414392_j7919919694132_2_alg».proof.Proof.Bits.Reg17
import proofs.«414392_j7919919694132_2_alg».proof.Proof.Bits.Reg18
import proofs.«414392_j7919919694132_2_alg».proof.Proof.Bits.Reg19
import Idealize.ShloMosaic.Lib.Pipeline.FrameSuffix
import Idealize.ShloMosaic.Lib.Pipeline.Regions
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
/-! The one run of the program: its 44 items — 24 stretches of host operations and 20 kernel regions — as segments over the
    thread state "every unscoped buffer at the boundary's contents, the generator register at some state, nothing
    owed", chained from the launch memory to the last boundary's contents, and the final memory read against them. -/

variable (m : (ℓ : Loc nD τ sig) → Buf (Elt F) ℓ) (hpre : PreEq m)

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- No operation of `hostOps6` allocates a buffer. -/
theorem hostOps6_fresh : (hostOps6 : List (HloOp τ sig (Elt F))).Forall fun op => op.fresh = ∅ := by
  simp only [List.Forall]; repeat' constructor
/-- No operation of `hostOps7` allocates a buffer. -/
theorem hostOps7_fresh : (hostOps7 : List (HloOp τ sig (Elt F))).Forall fun op => op.fresh = ∅ := by
  simp only [List.Forall]; repeat' constructor
/-- No operation of `hostOps8` allocates a buffer. -/
theorem hostOps8_fresh : (hostOps8 : List (HloOp τ sig (Elt F))).Forall fun op => op.fresh = ∅ := by
  simp only [List.Forall]; repeat' constructor
/-- No operation of `hostOps9` allocates a buffer. -/
theorem hostOps9_fresh : (hostOps9 : List (HloOp τ sig (Elt F))).Forall fun op => op.fresh = ∅ := by
  simp only [List.Forall]; repeat' constructor
/-- No operation of `hostOps10` allocates a buffer. -/
theorem hostOps10_fresh : (hostOps10 : List (HloOp τ sig (Elt F))).Forall fun op => op.fresh = ∅ := by
  simp only [List.Forall]; repeat' constructor
/-- No operation of `hostOps10_1` allocates a buffer. -/
theorem hostOps10_1_fresh : (hostOps10_1 : List (HloOp τ sig (Elt F))).Forall fun op => op.fresh = ∅ := by
  simp only [List.Forall]; repeat' constructor
/-- No operation of `hostOps11` allocates a buffer. -/
theorem hostOps11_fresh : (hostOps11 : List (HloOp τ sig (Elt F))).Forall fun op => op.fresh = ∅ := by
  simp only [List.Forall]; repeat' constructor
/-- No operation of `hostOps12` allocates a buffer. -/
theorem hostOps12_fresh : (hostOps12 : List (HloOp τ sig (Elt F))).Forall fun op => op.fresh = ∅ := by
  simp only [List.Forall]; repeat' constructor
/-- No operation of `hostOps13` allocates a buffer. -/
theorem hostOps13_fresh : (hostOps13 : List (HloOp τ sig (Elt F))).Forall fun op => op.fresh = ∅ := by
  simp only [List.Forall]; repeat' constructor
/-- No operation of `hostOps14` allocates a buffer. -/
theorem hostOps14_fresh : (hostOps14 : List (HloOp τ sig (Elt F))).Forall fun op => op.fresh = ∅ := by
  simp only [List.Forall]; repeat' constructor
/-- No operation of `hostOps15` allocates a buffer. -/
theorem hostOps15_fresh : (hostOps15 : List (HloOp τ sig (Elt F))).Forall fun op => op.fresh = ∅ := by
  simp only [List.Forall]; repeat' constructor
/-- No operation of `hostOps16` allocates a buffer. -/
theorem hostOps16_fresh : (hostOps16 : List (HloOp τ sig (Elt F))).Forall fun op => op.fresh = ∅ := by
  simp only [List.Forall]; repeat' constructor
/-- No operation of `hostOps17` allocates a buffer. -/
theorem hostOps17_fresh : (hostOps17 : List (HloOp τ sig (Elt F))).Forall fun op => op.fresh = ∅ := by
  simp only [List.Forall]; repeat' constructor
/-- No operation of `hostOps18` allocates a buffer. -/
theorem hostOps18_fresh : (hostOps18 : List (HloOp τ sig (Elt F))).Forall fun op => op.fresh = ∅ := by
  simp only [List.Forall]; repeat' constructor
/-- No operation of `hostOps19` allocates a buffer. -/
theorem hostOps19_fresh : (hostOps19 : List (HloOp τ sig (Elt F))).Forall fun op => op.fresh = ∅ := by
  simp only [List.Forall]; repeat' constructor
/-- No operation of `hostOps20` allocates a buffer. -/
theorem hostOps20_fresh : (hostOps20 : List (HloOp τ sig (Elt F))).Forall fun op => op.fresh = ∅ := by
  simp only [List.Forall]; repeat' constructor

/-- A host stretch as a segment: the operations over the unscoped references from the contents `W`, `R` riding along
    (its `post` is those references at `StableHlo.after ops (W c)`: the next boundary's contents). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last boundary's contents, the generator
    register at some state. -/
abbrev Tₙ (c : Dev nD) : sProp 𝕄 := iprop(StableHlo.held (c : Thread nD τ) (Pipeline.ucRefs τ sig) (W44 m hpre c) ∗ ∃ r, prngReg c r)

/-- The program's 44 segments in order: a host segment per stretch from its boundary's contents, a region per kernel call. -/
abbrev segs : List (Pipeline.Seg (pcfgs (F := F)) (adm m) (pdats m hpre) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m hpre),
    .host (hseg hostOps1 hostOps1_sub hostOps1_fresh (W4 m)),
    .region (reg1 m hpre),
    .host (hseg hostOps2 hostOps2_sub hostOps2_fresh (W6 m hpre)),
    .region (reg2 m hpre),
    .host (hseg hostOps3 hostOps3_sub hostOps3_fresh (W8 m hpre)),
    .region (reg3 m hpre),
    .host (hseg hostOps4 hostOps4_sub hostOps4_fresh (W10 m hpre)),
    .region (reg4 m hpre),
    .host (hseg hostOps5 hostOps5_sub hostOps5_fresh (W12 m hpre)),
    .region (reg5 m hpre),
    .host (hseg hostOps6 hostOps6_sub hostOps6_fresh (W14 m hpre)),
    .region (reg6 m hpre),
    .host (hseg hostOps7 hostOps7_sub hostOps7_fresh (W16 m hpre)),
    .region (reg7 m hpre),
    .host (hseg hostOps8 hostOps8_sub hostOps8_fresh (W18 m hpre)),
    .region (reg8 m hpre),
    .host (hseg hostOps9 hostOps9_sub hostOps9_fresh (W20 m hpre)),
    .region (reg9 m hpre),
    .host (hseg hostOps10 hostOps10_sub hostOps10_fresh (W22 m hpre)),
    .host (hseg hostOps10_1 hostOps10_1_sub hostOps10_1_fresh (W23 m hpre)),
    .region (reg10 m hpre),
    .host (hseg hostOps11 hostOps11_sub hostOps11_fresh (W25 m hpre)),
    .region (reg11 m hpre),
    .host (hseg hostOps12 hostOps12_sub hostOps12_fresh (W27 m hpre)),
    .region (reg12 m hpre),
    .host (hseg hostOps13 hostOps13_sub hostOps13_fresh (W29 m hpre)),
    .region (reg13 m hpre),
    .host (hseg hostOps14 hostOps14_sub hostOps14_fresh (W31 m hpre)),
    .region (reg14 m hpre),
    .host (hseg hostOps15 hostOps15_sub hostOps15_fresh (W33 m hpre)),
    .region (reg15 m hpre),
    .host (hseg hostOps16 hostOps16_sub hostOps16_fresh (W35 m hpre)),
    .region (reg16 m hpre),
    .host (hseg hostOps17 hostOps17_sub hostOps17_fresh (W37 m hpre)),
    .region (reg17 m hpre),
    .host (hseg hostOps18 hostOps18_sub hostOps18_fresh (W39 m hpre)),
    .region (reg18 m hpre),
    .host (hseg hostOps19 hostOps19_sub hostOps19_fresh (W41 m hpre)),
    .region (reg19 m hpre),
    .host (hseg hostOps20 hostOps20_sub hostOps20_fresh (W43 m hpre)) ]

-- the launch theorem's implicit arguments are found by unifying its conclusion with this one, which takes unfolding
-- plain definitions in a metavariable's type
set_option backward.isDefEq.respectTransparency.types false in
/-- Every weakly fair execution of the program from memory `m` with zero counters terminates, and every final memory
    holds each unscoped buffer of every core at the last boundary's contents `W44`. -/
theorem run_main (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W44 m hpre c b) := by
  refine Pipeline.θ_run_regions_kit (pcfgs (F := F)) (adm m) (pdats m hpre) () (cellOf_inj (adm m)) embL defs₀ 𝒱₀ L lv m ρ main (segs m hpre)
    (fun c Q => by
      rewrite [main_chain c, Pipeline.Seg.run_eq_chain,
        show (segs m hpre).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20 ] from rfl]
      with_reducible exact .rfl)
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := ?hu)
    (T₀ := fun c => iprop(StableHlo.held (c : Thread nD τ) (Pipeline.ucRefs τ sig) (W0 m c) ∗ R c)) (Tₙ := Tₙ m hpre)
    (hch := ?hch)
    (hinit := ?hinit)
    (QY := fun c s => ∀ b ∈ Pipeline.ucRefs τ sig, s.mem (((c : Thread nD τ)).1, b) = W44 m hpre c b)
    (hfin := ?hfin)
    (hQ := fun s h c => h c)
  case hu =>
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hch =>
    exact ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W44 m hpre c) ∗ R c)
        ⊢ iprop(Tₙ m hpre c ∗ ∃ W, owes (c : Thread nD τ) (0 : CellTallies nD τ sig Unit) W)
      iintro ⟨Hh, Hp, HO⟩
      isplitl [Hh Hp]
      · isplitl [Hh]; · iexact Hh
        iexact Hp
      iexact HO⟩
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, -⟩, -⟩
    imodintro
    isplitl [Hh]; · iexact Hh
    isplitl [Hp]; · iexists _; iexact Hp
    iexists ∅; iexact HO
  case hfin =>
    intro c s'
    iintro ⟨⟨Hh, -⟩, HSI⟩
    unfold StableHlo.held
    imodintro
    iapply (pointsTo_read_all (Pipeline.ucRefs τ sig) (fun b => (((c : Thread nD τ)).1, b)) (W44 m hpre c) s')
    isplitl [Hh] <;> iassumption

end Cert.Kernel.Hand

end
-- ==== Proof.ArgsKept.lean ====
/-
  THE ARGUMENTS END AS LAUNCHED.

  The contents of the buffers at the 45 boundaries between the items of the program (the fold W0 … W44) change, from one
  boundary to the next, only where the item writes: a host stretch writes the results of its operations (the lists
  below), a kernel region the arrays of its windows, and the array of an input window is left as the grid found it. One
  lemma per step; then each of the seven arguments, which no item writes, is walked back from the end to the launch.
-/
import proofs.«414392_j7919919694132_2_alg».proof.Proof.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the host stretches write -/

namespace Kept

/-- Every operation of a literal list writes inside a literal list of references. -/
local macro "writes_sub" : tactic =>
  `(tactic| (simp only [List.Forall]; repeat' apply And.intro
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))))

/-- What the host stretch hostOps0 writes. -/
abbrev hostOps0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3]
theorem hostOps0_writes : (hostOps0 : List (HloOp τ sig (Elt F))).Forall fun op => op.writes ⊆ (hostOps0_W.map (Proc.devRef (τ := τ) .tc)).toFinset := by
  writes_sub
/-- What the host stretch hostOps0_1 writes. -/
abbrev hostOps0_1_W : List (Ref sig .tc) := [main_call0_v0, main_call0_v1, main_v17]
theorem hostOps0_1_writes : (hostOps0_1 : List (HloOp τ sig (Elt F))).Forall fun op => op.writes ⊆ (hostOps0_1_W.map (Proc.devRef (τ := τ) .tc)).toFinset := by
  writes_sub
/-- What the host stretch hostOps0_2 writes. -/
abbrev hostOps0_2_W : List (Ref sig .tc) := [main_c, main_v18, main_v19, main_c_4, main_v20, main_v21, main_v22, main_v23, main_v24, main_v25, main_c_5, main_v26, main_v27, main_c_6, main_v28, main_v29, main_v30, main_v31, main_v32, main_v33]
theorem hostOps0_2_writes : (hostOps0_2 : List (HloOp τ sig (Elt F))).Forall fun op => op.writes ⊆ (hostOps0_2_W.map (Proc.devRef (τ := τ) .tc)).toFinset := by
  writes_sub
/-- What the host stretch hostOps1 writes. -/
abbrev hostOps1_W : List (Ref sig .tc) := [main_v35, main_v36, main_v37]
theorem hostOps1_writes : (hostOps1 : List (HloOp τ sig (Elt F))).Forall fun op => op.writes ⊆ (hostOps1_W.map (Proc.devRef (τ := τ) .tc)).toFinset := by
  writes_sub
/-- What the host stretch hostOps2 writes. -/
abbrev hostOps2_W : List (Ref sig .tc) := [main_v39, main_v40]
theorem hostOps2_writes : (hostOps2 : List (HloOp τ sig (Elt F))).Forall fun op => op.writes ⊆ (hostOps2_W.map (Proc.devRef (τ := τ) .tc)).toFinset := by
  writes_sub
/-- What the host stretch hostOps3 writes. -/
abbrev hostOps3_W : List (Ref sig .tc) := [main_v42, main_v43]
theorem hostOps3_writes : (hostOps3 : List (HloOp τ sig (Elt F))).Forall fun op => op.writes ⊆ (hostOps3_W.map (Proc.devRef (τ := τ) .tc)).toFinset := by
  writes_sub
/-- What the host stretch hostOps4 writes. -/
abbrev hostOps4_W : List (Ref sig .tc) := [main_v45, main_v46]
theorem hostOps4_writes : (hostOps4 : List (HloOp τ sig (Elt F))).Forall fun op => op.writes ⊆ (hostOps4_W.map (Proc.devRef (τ := τ) .tc)).toFinset := by
  writes_sub
/-- What the host stretch hostOps5 writes. -/
abbrev hostOps5_W : List (Ref sig .tc) := [main_v48, main_v49]
theorem hostOps5_writes : (hostOps5 : List (HloOp τ sig (Elt F))).Forall fun op => op.writes ⊆ (hostOps5_W.map (Proc.devRef (τ := τ) .tc)).toFinset := by
  writes_sub
/-- What the host stretch hostOps6 writes. -/
abbrev hostOps6_W : List (Ref sig .tc) := [main_v51, main_v52]
theorem hostOps6_writes : (hostOps6 : List (HloOp τ sig (Elt F))).Forall fun op => op.writes ⊆ (hostOps6_W.map (Proc.devRef (τ := τ) .tc)).toFinset := by
  writes_sub
/-- What the host stretch hostOps7 writes. -/
abbrev hostOps7_W : List (Ref sig .tc) := [main_v54, main_v55]
theorem hostOps7_writes : (hostOps7 : List (HloOp τ sig (Elt F))).Forall fun op => op.writes ⊆ (hostOps7_W.map (Proc.devRef (τ := τ) .tc)).toFinset := by
  writes_sub
/-- What the host stretch hostOps8 writes. -/
abbrev hostOps8_W : List (Ref sig .tc) := [main_v57, main_v58]
theorem hostOps8_writes : (hostOps8 : List (HloOp τ sig (Elt F))).Forall fun op => op.writes ⊆ (hostOps8_W.map (Proc.devRef (τ := τ) .tc)).toFinset := by
  writes_sub
/-- What the host stretch hostOps9 writes. -/
abbrev hostOps9_W : List (Ref sig .tc) := [main_v60, main_v61]
theorem hostOps9_writes : (hostOps9 : List (HloOp τ sig (Elt F))).Forall fun op => op.writes ⊆ (hostOps9_W.map (Proc.devRef (τ := τ) .tc)).toFinset := by
  writes_sub
/-- What the host stretch hostOps10 writes. -/
abbrev hostOps10_W : List (Ref sig .tc) := [main_v63, main_cst_7, main_v64, main_v65, main_v66, main_v67, main_v68, main_v69]
theorem hostOps10_writes : (hostOps10 : List (HloOp τ sig (Elt F))).Forall fun op => op.writes ⊆ (hostOps10_W.map (Proc.devRef (τ := τ) .tc)).toFinset := by
  writes_sub
/-- What the host stretch hostOps10_1 writes. -/
abbrev hostOps10_1_W : List (Ref sig .tc) := [main_call1_cst, main_call1_v0, main_v70]
theorem hostOps10_1_writes : (hostOps10_1 : List (HloOp τ sig (Elt F))).Forall fun op => op.writes ⊆ (hostOps10_1_W.map (Proc.devRef (τ := τ) .tc)).toFinset := by
  writes_sub
/-- What the host stretch hostOps11 writes. -/
abbrev hostOps11_W : List (Ref sig .tc) := [main_v72, main_v73, main_v74]
theorem hostOps11_writes : (hostOps11 : List (HloOp τ sig (Elt F))).Forall fun op => op.writes ⊆ (hostOps11_W.map (Proc.devRef (τ := τ) .tc)).toFinset := by
  writes_sub
/-- What the host stretch hostOps12 writes. -/
abbrev hostOps12_W : List (Ref sig .tc) := [main_v76, main_v77]
theorem hostOps12_writes : (hostOps12 : List (HloOp τ sig (Elt F))).Forall fun op => op.writes ⊆ (hostOps12_W.map (Proc.devRef (τ := τ) .tc)).toFinset := by
  writes_sub
/-- What the host stretch hostOps13 writes. -/
abbrev hostOps13_W : List (Ref sig .tc) := [main_v79, main_v80]
theorem hostOps13_writes : (hostOps13 : List (HloOp τ sig (Elt F))).Forall fun op => op.writes ⊆ (hostOps13_W.map (Proc.devRef (τ := τ) .tc)).toFinset := by
  writes_sub
/-- What the host stretch hostOps14 writes. -/
abbrev hostOps14_W : List (Ref sig .tc) := [main_v82, main_v83]
theorem hostOps14_writes : (hostOps14 : List (HloOp τ sig (Elt F))).Forall fun op => op.writes ⊆ (hostOps14_W.map (Proc.devRef (τ := τ) .tc)).toFinset := by
  writes_sub
/-- What the host stretch hostOps15 writes. -/
abbrev hostOps15_W : List (Ref sig .tc) := [main_v85, main_v86]
theorem hostOps15_writes : (hostOps15 : List (HloOp τ sig (Elt F))).Forall fun op => op.writes ⊆ (hostOps15_W.map (Proc.devRef (τ := τ) .tc)).toFinset := by
  writes_sub
/-- What the host stretch hostOps16 writes. -/
abbrev hostOps16_W : List (Ref sig .tc) := [main_v88, main_v89]
theorem hostOps16_writes : (hostOps16 : List (HloOp τ sig (Elt F))).Forall fun op => op.writes ⊆ (hostOps16_W.map (Proc.devRef (τ := τ) .tc)).toFinset := by
  writes_sub
/-- What the host stretch hostOps17 writes. -/
abbrev hostOps17_W : List (Ref sig .tc) := [main_v91, main_v92]
theorem hostOps17_writes : (hostOps17 : List (HloOp τ sig (Elt F))).Forall fun op => op.writes ⊆ (hostOps17_W.map (Proc.devRef (τ := τ) .tc)).toFinset := by
  writes_sub
/-- What the host stretch hostOps18 writes. -/
abbrev hostOps18_W : List (Ref sig .tc) := [main_v94, main_v95]
theorem hostOps18_writes : (hostOps18 : List (HloOp τ sig (Elt F))).Forall fun op => op.writes ⊆ (hostOps18_W.map (Proc.devRef (τ := τ) .tc)).toFinset := by
  writes_sub
/-- What the host stretch hostOps19 writes. -/
abbrev hostOps19_W : List (Ref sig .tc) := [main_v97, main_v98]
theorem hostOps19_writes : (hostOps19 : List (HloOp τ sig (Elt F))).Forall fun op => op.writes ⊆ (hostOps19_W.map (Proc.devRef (τ := τ) .tc)).toFinset := by
  writes_sub
/-- What the host stretch hostOps20 writes. -/
abbrev hostOps20_W : List (Ref sig .tc) := [main_v100, main_cst_8, main_v101, main_v102, main_v103, main_v104, main_v105, main_v106]
theorem hostOps20_writes : (hostOps20 : List (HloOp τ sig (Elt F))).Forall fun op => op.writes ⊆ (hostOps20_W.map (Proc.devRef (τ := τ) .tc)).toFinset := by
  writes_sub

end Kept

variable (m : (ℓ : Loc nD τ sig) → Buf (Elt F) ℓ) (hpre : PreEq m)

/-! ## One step of the fold -/

/-- Across the host stretch hostOps0 a buffer it does not write keeps its contents. -/
theorem Wstep_host0 (c : Dev nD) (r : Ref sig .tc) (h : r ∉ Kept.hostOps0_W) :
    W1 m c (Proc.devRef .tc r) = W0 m c (Proc.devRef .tc r) :=
  StableHlo.after_of_writes_sub hostOps0 _ Kept.hostOps0_writes h
/-- Across the host stretch hostOps0_1 a buffer it does not write keeps its contents. -/
theorem Wstep_host0_1 (c : Dev nD) (r : Ref sig .tc) (h : r ∉ Kept.hostOps0_1_W) :
    W2 m c (Proc.devRef .tc r) = W1 m c (Proc.devRef .tc r) :=
  StableHlo.after_of_writes_sub hostOps0_1 _ Kept.hostOps0_1_writes h
/-- Across the host stretch hostOps0_2 a buffer it does not write keeps its contents. -/
theorem Wstep_host0_2 (c : Dev nD) (r : Ref sig .tc) (h : r ∉ Kept.hostOps0_2_W) :
    W3 m c (Proc.devRef .tc r) = W2 m c (Proc.devRef .tc r) :=
  StableHlo.after_of_writes_sub hostOps0_2 _ Kept.hostOps0_2_writes h
/-- Across region 0 a buffer that is no array of its windows keeps its contents. -/
theorem Wstep_reg0 (c : Dev nD) (r : Ref sig .tc) (h : ∀ w, Pipeline.arrRef spec0 w ≠ r) :
    W4 m c (Proc.devRef .tc r) = W3 m c (Proc.devRef .tc r) := by
  unfold W4; exact Pipeline.withArrays_of_ne spec0 c _ _ r h
/-- Across the host stretch hostOps1 a buffer it does not write keeps its contents. -/
theorem Wstep_host1 (c : Dev nD) (r : Ref sig .tc) (h : r ∉ Kept.hostOps1_W) :
    W5 m c (Proc.devRef .tc r) = W4 m c (Proc.devRef .tc r) :=
  StableHlo.after_of_writes_sub hostOps1 _ Kept.hostOps1_writes h
/-- Across region 1 a buffer that is no array of its windows keeps its contents. -/
theorem Wstep_reg1 (c : Dev nD) (r : Ref sig .tc) (h : ∀ w, Pipeline.arrRef spec1 w ≠ r) :
    W6 m hpre c (Proc.devRef .tc r) = W5 m c (Proc.devRef .tc r) := by
  unfold W6; exact Pipeline.withArrays_of_ne spec1 c _ _ r h
/-- Across the host stretch hostOps2 a buffer it does not write keeps its contents. -/
theorem Wstep_host2 (c : Dev nD) (r : Ref sig .tc) (h : r ∉ Kept.hostOps2_W) :
    W7 m hpre c (Proc.devRef .tc r) = W6 m hpre c (Proc.devRef .tc r) :=
  StableHlo.after_of_writes_sub hostOps2 _ Kept.hostOps2_writes h
/-- Across region 2 a buffer that is no array of its windows keeps its contents. -/
theorem Wstep_reg2 (c : Dev nD) (r : Ref sig .tc) (h : ∀ w, Pipeline.arrRef spec2 w ≠ r) :
    W8 m hpre c (Proc.devRef .tc r) = W7 m hpre c (Proc.devRef .tc r) := by
  unfold W8; exact Pipeline.withArrays_of_ne spec2 c _ _ r h
/-- Across the host stretch hostOps3 a buffer it does not write keeps its contents. -/
theorem Wstep_host3 (c : Dev nD) (r : Ref sig .tc) (h : r ∉ Kept.hostOps3_W) :
    W9 m hpre c (Proc.devRef .tc r) = W8 m hpre c (Proc.devRef .tc r) :=
  StableHlo.after_of_writes_sub hostOps3 _ Kept.hostOps3_writes h
/-- Across region 3 a buffer that is no array of its windows keeps its contents. -/
theorem Wstep_reg3 (c : Dev nD) (r : Ref sig .tc) (h : ∀ w, Pipeline.arrRef spec3 w ≠ r) :
    W10 m hpre c (Proc.devRef .tc r) = W9 m hpre c (Proc.devRef .tc r) := by
  unfold W10; exact Pipeline.withArrays_of_ne spec3 c _ _ r h
/-- Across the host stretch hostOps4 a buffer it does not write keeps its contents. -/
theorem Wstep_host4 (c : Dev nD) (r : Ref sig .tc) (h : r ∉ Kept.hostOps4_W) :
    W11 m hpre c (Proc.devRef .tc r) = W10 m hpre c (Proc.devRef .tc r) :=
  StableHlo.after_of_writes_sub hostOps4 _ Kept.hostOps4_writes h
/-- Across region 4 a buffer that is no array of its windows keeps its contents. -/
theorem Wstep_reg4 (c : Dev nD) (r : Ref sig .tc) (h : ∀ w, Pipeline.arrRef spec4 w ≠ r) :
    W12 m hpre c (Proc.devRef .tc r) = W11 m hpre c (Proc.devRef .tc r) := by
  unfold W12; exact Pipeline.withArrays_of_ne spec4 c _ _ r h
/-- Across the host stretch hostOps5 a buffer it does not write keeps its contents. -/
theorem Wstep_host5 (c : Dev nD) (r : Ref sig .tc) (h : r ∉ Kept.hostOps5_W) :
    W13 m hpre c (Proc.devRef .tc r) = W12 m hpre c (Proc.devRef .tc r) :=
  StableHlo.after_of_writes_sub hostOps5 _ Kept.hostOps5_writes h
/-- Across region 5 a buffer that is no array of its windows keeps its contents. -/
theorem Wstep_reg5 (c : Dev nD) (r : Ref sig .tc) (h : ∀ w, Pipeline.arrRef spec5 w ≠ r) :
    W14 m hpre c (Proc.devRef .tc r) = W13 m hpre c (Proc.devRef .tc r) := by
  unfold W14; exact Pipeline.withArrays_of_ne spec5 c _ _ r h
/-- Across the host stretch hostOps6 a buffer it does not write keeps its contents. -/
theorem Wstep_host6 (c : Dev nD) (r : Ref sig .tc) (h : r ∉ Kept.hostOps6_W) :
    W15 m hpre c (Proc.devRef .tc r) = W14 m hpre c (Proc.devRef .tc r) :=
  StableHlo.after_of_writes_sub hostOps6 _ Kept.hostOps6_writes h
/-- Across region 6 a buffer that is no array of its windows keeps its contents. -/
theorem Wstep_reg6 (c : Dev nD) (r : Ref sig .tc) (h : ∀ w, Pipeline.arrRef spec6 w ≠ r) :
    W16 m hpre c (Proc.devRef .tc r) = W15 m hpre c (Proc.devRef .tc r) := by
  unfold W16; exact Pipeline.withArrays_of_ne spec6 c _ _ r h
/-- Across the host stretch hostOps7 a buffer it does not write keeps its contents. -/
theorem Wstep_host7 (c : Dev nD) (r : Ref sig .tc) (h : r ∉ Kept.hostOps7_W) :
    W17 m hpre c (Proc.devRef .tc r) = W16 m hpre c (Proc.devRef .tc r) :=
  StableHlo.after_of_writes_sub hostOps7 _ Kept.hostOps7_writes h
/-- Across region 7 a buffer that is no array of its windows keeps its contents. -/
theorem Wstep_reg7 (c : Dev nD) (r : Ref sig .tc) (h : ∀ w, Pipeline.arrRef spec7 w ≠ r) :
    W18 m hpre c (Proc.devRef .tc r) = W17 m hpre c (Proc.devRef .tc r) := by
  unfold W18; exact Pipeline.withArrays_of_ne spec7 c _ _ r h
/-- Across the host stretch hostOps8 a buffer it does not write keeps its contents. -/
theorem Wstep_host8 (c : Dev nD) (r : Ref sig .tc) (h : r ∉ Kept.hostOps8_W) :
    W19 m hpre c (Proc.devRef .tc r) = W18 m hpre c (Proc.devRef .tc r) :=
  StableHlo.after_of_writes_sub hostOps8 _ Kept.hostOps8_writes h
/-- Across region 8 a buffer that is no array of its windows keeps its contents. -/
theorem Wstep_reg8 (c : Dev nD) (r : Ref sig .tc) (h : ∀ w, Pipeline.arrRef spec8 w ≠ r) :
    W20 m hpre c (Proc.devRef .tc r) = W19 m hpre c (Proc.devRef .tc r) := by
  unfold W20; exact Pipeline.withArrays_of_ne spec8 c _ _ r h
/-- Across the host stretch hostOps9 a buffer it does not write keeps its contents. -/
theorem Wstep_host9 (c : Dev nD) (r : Ref sig .tc) (h : r ∉ Kept.hostOps9_W) :
    W21 m hpre c (Proc.devRef .tc r) = W20 m hpre c (Proc.devRef .tc r) :=
  StableHlo.after_of_writes_sub hostOps9 _ Kept.hostOps9_writes h
/-- Across region 9 a buffer that is no array of its windows keeps its contents. -/
theorem Wstep_reg9 (c : Dev nD) (r : Ref sig .tc) (h : ∀ w, Pipeline.arrRef spec9 w ≠ r) :
    W22 m hpre c (Proc.devRef .tc r) = W21 m hpre c (Proc.devRef .tc r) := by
  unfold W22; exact Pipeline.withArrays_of_ne spec9 c _ _ r h
/-- Across the host stretch hostOps10 a buffer it does not write keeps its contents. -/
theorem Wstep_host10 (c : Dev nD) (r : Ref sig .tc) (h : r ∉ Kept.hostOps10_W) :
    W23 m hpre c (Proc.devRef .tc r) = W22 m hpre c (Proc.devRef .tc r) :=
  StableHlo.after_of_writes_sub hostOps10 _ Kept.hostOps10_writes h
/-- Across the host stretch hostOps10_1 a buffer it does not write keeps its contents. -/
theorem Wstep_host10_1 (c : Dev nD) (r : Ref sig .tc) (h : r ∉ Kept.hostOps10_1_W) :
    W24 m hpre c (Proc.devRef .tc r) = W23 m hpre c (Proc.devRef .tc r) :=
  StableHlo.after_of_writes_sub hostOps10_1 _ Kept.hostOps10_1_writes h
/-- Across region 10 a buffer that is no array of its windows keeps its contents. -/
theorem Wstep_reg10 (c : Dev nD) (r : Ref sig .tc) (h : ∀ w, Pipeline.arrRef spec10 w ≠ r) :
    W25 m hpre c (Proc.devRef .tc r) = W24 m hpre c (Proc.devRef .tc r) := by
  unfold W25; exact Pipeline.withArrays_of_ne spec10 c _ _ r h
/-- Across the host stretch hostOps11 a buffer it does not write keeps its contents. -/
theorem Wstep_host11 (c : Dev nD) (r : Ref sig .tc) (h : r ∉ Kept.hostOps11_W) :
    W26 m hpre c (Proc.devRef .tc r) = W25 m hpre c (Proc.devRef .tc r) :=
  StableHlo.after_of_writes_sub hostOps11 _ Kept.hostOps11_writes h
/-- Across region 11 a buffer that is no array of its windows keeps its contents. -/
theorem Wstep_reg11 (c : Dev nD) (r : Ref sig .tc) (h : ∀ w, Pipeline.arrRef spec11 w ≠ r) :
    W27 m hpre c (Proc.devRef .tc r) = W26 m hpre c (Proc.devRef .tc r) := by
  unfold W27; exact Pipeline.withArrays_of_ne spec11 c _ _ r h
/-- Across the host stretch hostOps12 a buffer it does not write keeps its contents. -/
theorem Wstep_host12 (c : Dev nD) (r : Ref sig .tc) (h : r ∉ Kept.hostOps12_W) :
    W28 m hpre c (Proc.devRef .tc r) = W27 m hpre c (Proc.devRef .tc r) :=
  StableHlo.after_of_writes_sub hostOps12 _ Kept.hostOps12_writes h
/-- Across region 12 a buffer that is no array of its windows keeps its contents. -/
theorem Wstep_reg12 (c : Dev nD) (r : Ref sig .tc) (h : ∀ w, Pipeline.arrRef spec12 w ≠ r) :
    W29 m hpre c (Proc.devRef .tc r) = W28 m hpre c (Proc.devRef .tc r) := by
  unfold W29; exact Pipeline.withArrays_of_ne spec12 c _ _ r h
/-- Across the host stretch hostOps13 a buffer it does not write keeps its contents. -/
theorem Wstep_host13 (c : Dev nD) (r : Ref sig .tc) (h : r ∉ Kept.hostOps13_W) :
    W30 m hpre c (Proc.devRef .tc r) = W29 m hpre c (Proc.devRef .tc r) :=
  StableHlo.after_of_writes_sub hostOps13 _ Kept.hostOps13_writes h
/-- Across region 13 a buffer that is no array of its windows keeps its contents. -/
theorem Wstep_reg13 (c : Dev nD) (r : Ref sig .tc) (h : ∀ w, Pipeline.arrRef spec13 w ≠ r) :
    W31 m hpre c (Proc.devRef .tc r) = W30 m hpre c (Proc.devRef .tc r) := by
  unfold W31; exact Pipeline.withArrays_of_ne spec13 c _ _ r h
/-- Across the host stretch hostOps14 a buffer it does not write keeps its contents. -/
theorem Wstep_host14 (c : Dev nD) (r : Ref sig .tc) (h : r ∉ Kept.hostOps14_W) :
    W32 m hpre c (Proc.devRef .tc r) = W31 m hpre c (Proc.devRef .tc r) :=
  StableHlo.after_of_writes_sub hostOps14 _ Kept.hostOps14_writes h
/-- Across region 14 a buffer that is no array of its windows keeps its contents. -/
theorem Wstep_reg14 (c : Dev nD) (r : Ref sig .tc) (h : ∀ w, Pipeline.arrRef spec14 w ≠ r) :
    W33 m hpre c (Proc.devRef .tc r) = W32 m hpre c (Proc.devRef .tc r) := by
  unfold W33; exact Pipeline.withArrays_of_ne spec14 c _ _ r h
/-- Across the host stretch hostOps15 a buffer it does not write keeps its contents. -/
theorem Wstep_host15 (c : Dev nD) (r : Ref sig .tc) (h : r ∉ Kept.hostOps15_W) :
    W34 m hpre c (Proc.devRef .tc r) = W33 m hpre c (Proc.devRef .tc r) :=
  StableHlo.after_of_writes_sub hostOps15 _ Kept.hostOps15_writes h
/-- Across region 15 a buffer that is no array of its windows keeps its contents. -/
theorem Wstep_reg15 (c : Dev nD) (r : Ref sig .tc) (h : ∀ w, Pipeline.arrRef spec15 w ≠ r) :
    W35 m hpre c (Proc.devRef .tc r) = W34 m hpre c (Proc.devRef .tc r) := by
  unfold W35; exact Pipeline.withArrays_of_ne spec15 c _ _ r h
/-- Across the host stretch hostOps16 a buffer it does not write keeps its contents. -/
theorem Wstep_host16 (c : Dev nD) (r : Ref sig .tc) (h : r ∉ Kept.hostOps16_W) :
    W36 m hpre c (Proc.devRef .tc r) = W35 m hpre c (Proc.devRef .tc r) :=
  StableHlo.after_of_writes_sub hostOps16 _ Kept.hostOps16_writes h
/-- Across region 16 a buffer that is no array of its windows keeps its contents. -/
theorem Wstep_reg16 (c : Dev nD) (r : Ref sig .tc) (h : ∀ w, Pipeline.arrRef spec16 w ≠ r) :
    W37 m hpre c (Proc.devRef .tc r) = W36 m hpre c (Proc.devRef .tc r) := by
  unfold W37; exact Pipeline.withArrays_of_ne spec16 c _ _ r h
/-- Across the host stretch hostOps17 a buffer it does not write keeps its contents. -/
theorem Wstep_host17 (c : Dev nD) (r : Ref sig .tc) (h : r ∉ Kept.hostOps17_W) :
    W38 m hpre c (Proc.devRef .tc r) = W37 m hpre c (Proc.devRef .tc r) :=
  StableHlo.after_of_writes_sub hostOps17 _ Kept.hostOps17_writes h
/-- Across region 17 a buffer that is no array of its windows keeps its contents. -/
theorem Wstep_reg17 (c : Dev nD) (r : Ref sig .tc) (h : ∀ w, Pipeline.arrRef spec17 w ≠ r) :
    W39 m hpre c (Proc.devRef .tc r) = W38 m hpre c (Proc.devRef .tc r) := by
  unfold W39; exact Pipeline.withArrays_of_ne spec17 c _ _ r h
/-- Across the host stretch hostOps18 a buffer it does not write keeps its contents. -/
theorem Wstep_host18 (c : Dev nD) (r : Ref sig .tc) (h : r ∉ Kept.hostOps18_W) :
    W40 m hpre c (Proc.devRef .tc r) = W39 m hpre c (Proc.devRef .tc r) :=
  StableHlo.after_of_writes_sub hostOps18 _ Kept.hostOps18_writes h
/-- Across region 18 a buffer that is no array of its windows keeps its contents. -/
theorem Wstep_reg18 (c : Dev nD) (r : Ref sig .tc) (h : ∀ w, Pipeline.arrRef spec18 w ≠ r) :
    W41 m hpre c (Proc.devRef .tc r) = W40 m hpre c (Proc.devRef .tc r) := by
  unfold W41; exact Pipeline.withArrays_of_ne spec18 c _ _ r h
/-- Across the host stretch hostOps19 a buffer it does not write keeps its contents. -/
theorem Wstep_host19 (c : Dev nD) (r : Ref sig .tc) (h : r ∉ Kept.hostOps19_W) :
    W42 m hpre c (Proc.devRef .tc r) = W41 m hpre c (Proc.devRef .tc r) :=
  StableHlo.after_of_writes_sub hostOps19 _ Kept.hostOps19_writes h
/-- Across region 19 a buffer that is no array of its windows keeps its contents. -/
theorem Wstep_reg19 (c : Dev nD) (r : Ref sig .tc) (h : ∀ w, Pipeline.arrRef spec19 w ≠ r) :
    W43 m hpre c (Proc.devRef .tc r) = W42 m hpre c (Proc.devRef .tc r) := by
  unfold W43; exact Pipeline.withArrays_of_ne spec19 c _ _ r h
/-- Across the host stretch hostOps20 a buffer it does not write keeps its contents. -/
theorem Wstep_host20 (c : Dev nD) (r : Ref sig .tc) (h : r ∉ Kept.hostOps20_W) :
    W44 m hpre c (Proc.devRef .tc r) = W43 m hpre c (Proc.devRef .tc r) :=
  StableHlo.after_of_writes_sub hostOps20 _ Kept.hostOps20_writes h

/-- Across region 0 the array of an INPUT window keeps its contents: the grid leaves an input as it found it. -/
theorem Wstep_reg0_in (c : Dev nD) (w : Fin cfg0.W) (hin : (cfg0.win w).isOut = false) :
    W4 m c (Proc.devRef .tc (Pipeline.arrRef spec0 w)) = W3 m c (Proc.devRef .tc (Pipeline.arrRef spec0 w)) := by
  unfold W4
  exact (Pipeline.withArrays_arr spec0 (launch0 (F := F)).win.arr_inj c _ _ w).trans
    (((dat0 (V3 m) c).arrAt_in w hin _).trans (A_eq0 (V3 m) c w))
/-- Across region 10 the array of an INPUT window keeps its contents. -/
theorem Wstep_reg10_in (c : Dev nD) (w : Fin cfg10.W) (hin : (cfg10.win w).isOut = false) :
    W25 m hpre c (Proc.devRef .tc (Pipeline.arrRef spec10 w)) = W24 m hpre c (Proc.devRef .tc (Pipeline.arrRef spec10 w)) := by
  unfold W25
  exact (Pipeline.withArrays_arr spec10 (launch10 (F := F)).win.arr_inj c _ _ w).trans
    (((dat10 (V24 m hpre) c).arrAt_in w hin _).trans (A_eq10 (V24 m hpre) c w))
theorem Wstep_reg0_main_arg0 (c : Dev nD) : W4 m c (Proc.devRef .tc main_arg0) = W3 m c (Proc.devRef .tc main_arg0) :=
  Wstep_reg0_in m c 0 rfl
theorem Wstep_reg0_main_arg3 (c : Dev nD) : W4 m c (Proc.devRef .tc main_arg3) = W3 m c (Proc.devRef .tc main_arg3) :=
  Wstep_reg0_in m c 1 rfl
theorem Wstep_reg10_main_arg5 (c : Dev nD) : W25 m hpre c (Proc.devRef .tc main_arg5) = W24 m hpre c (Proc.devRef .tc main_arg5) :=
  Wstep_reg10_in m hpre c 1 rfl

/-! ## The seven arguments -/

/-- main_arg0 ends as launched: no host stretch writes it and no region changes it. -/
theorem W44_main_arg0 (c : Dev nD) : W44 m hpre c (Proc.devRef .tc main_arg0) = m ((c : Thread nD τ).loc main_arg0) :=
  (Wstep_host20 m hpre c main_arg0 (by decide)).trans <|
  (Wstep_reg19 m hpre c main_arg0 (by decide)).trans <|
  (Wstep_host19 m hpre c main_arg0 (by decide)).trans <|
  (Wstep_reg18 m hpre c main_arg0 (by decide)).trans <|
  (Wstep_host18 m hpre c main_arg0 (by decide)).trans <|
  (Wstep_reg17 m hpre c main_arg0 (by decide)).trans <|
  (Wstep_host17 m hpre c main_arg0 (by decide)).trans <|
  (Wstep_reg16 m hpre c main_arg0 (by decide)).trans <|
  (Wstep_host16 m hpre c main_arg0 (by decide)).trans <|
  (Wstep_reg15 m hpre c main_arg0 (by decide)).trans <|
  (Wstep_host15 m hpre c main_arg0 (by decide)).trans <|
  (Wstep_reg14 m hpre c main_arg0 (by decide)).trans <|
  (Wstep_host14 m hpre c main_arg0 (by decide)).trans <|
  (Wstep_reg13 m hpre c main_arg0 (by decide)).trans <|
  (Wstep_host13 m hpre c main_arg0 (by decide)).trans <|
  (Wstep_reg12 m hpre c main_arg0 (by decide)).trans <|
  (Wstep_host12 m hpre c main_arg0 (by decide)).trans <|
  (Wstep_reg11 m hpre c main_arg0 (by decide)).trans <|
  (Wstep_host11 m hpre c main_arg0 (by decide)).trans <|
  (Wstep_reg10 m hpre c main_arg0 (by decide)).trans <|
  (Wstep_host10_1 m hpre c main_arg0 (by decide)).trans <|
  (Wstep_host10 m hpre c main_arg0 (by decide)).trans <|
  (Wstep_reg9 m hpre c main_arg0 (by decide)).trans <|
  (Wstep_host9 m hpre c main_arg0 (by decide)).trans <|
  (Wstep_reg8 m hpre c main_arg0 (by decide)).trans <|
  (Wstep_host8 m hpre c main_arg0 (by decide)).trans <|
  (Wstep_reg7 m hpre c main_arg0 (by decide)).trans <|
  (Wstep_host7 m hpre c main_arg0 (by decide)).trans <|
  (Wstep_reg6 m hpre c main_arg0 (by decide)).trans <|
  (Wstep_host6 m hpre c main_arg0 (by decide)).trans <|
  (Wstep_reg5 m hpre c main_arg0 (by decide)).trans <|
  (Wstep_host5 m hpre c main_arg0 (by decide)).trans <|
  (Wstep_reg4 m hpre c main_arg0 (by decide)).trans <|
  (Wstep_host4 m hpre c main_arg0 (by decide)).trans <|
  (Wstep_reg3 m hpre c main_arg0 (by decide)).trans <|
  (Wstep_host3 m hpre c main_arg0 (by decide)).trans <|
  (Wstep_reg2 m hpre c main_arg0 (by decide)).trans <|
  (Wstep_host2 m hpre c main_arg0 (by decide)).trans <|
  (Wstep_reg1 m hpre c main_arg0 (by decide)).trans <|
  (Wstep_host1 m c main_arg0 (by decide)).trans <|
  (Wstep_reg0_main_arg0 m c).trans <|
  (Wstep_host0_2 m c main_arg0 (by decide)).trans <|
  (Wstep_host0_1 m c main_arg0 (by decide)).trans <|
  (Wstep_host0 m c main_arg0 (by decide)).trans <|
  rfl
/-- main_arg1 ends as launched: no host stretch writes it and no region changes it. -/
theorem W44_main_arg1 (c : Dev nD) : W44 m hpre c (Proc.devRef .tc main_arg1) = m ((c : Thread nD τ).loc main_arg1) :=
  (Wstep_host20 m hpre c main_arg1 (by decide)).trans <|
  (Wstep_reg19 m hpre c main_arg1 (by decide)).trans <|
  (Wstep_host19 m hpre c main_arg1 (by decide)).trans <|
  (Wstep_reg18 m hpre c main_arg1 (by decide)).trans <|
  (Wstep_host18 m hpre c main_arg1 (by decide)).trans <|
  (Wstep_reg17 m hpre c main_arg1 (by decide)).trans <|
  (Wstep_host17 m hpre c main_arg1 (by decide)).trans <|
  (Wstep_reg16 m hpre c main_arg1 (by decide)).trans <|
  (Wstep_host16 m hpre c main_arg1 (by decide)).trans <|
  (Wstep_reg15 m hpre c main_arg1 (by decide)).trans <|
  (Wstep_host15 m hpre c main_arg1 (by decide)).trans <|
  (Wstep_reg14 m hpre c main_arg1 (by decide)).trans <|
  (Wstep_host14 m hpre c main_arg1 (by decide)).trans <|
  (Wstep_reg13 m hpre c main_arg1 (by decide)).trans <|
  (Wstep_host13 m hpre c main_arg1 (by decide)).trans <|
  (Wstep_reg12 m hpre c main_arg1 (by decide)).trans <|
  (Wstep_host12 m hpre c main_arg1 (by decide)).trans <|
  (Wstep_reg11 m hpre c main_arg1 (by decide)).trans <|
  (Wstep_host11 m hpre c main_arg1 (by decide)).trans <|
  (Wstep_reg10 m hpre c main_arg1 (by decide)).trans <|
  (Wstep_host10_1 m hpre c main_arg1 (by decide)).trans <|
  (Wstep_host10 m hpre c main_arg1 (by decide)).trans <|
  (Wstep_reg9 m hpre c main_arg1 (by decide)).trans <|
  (Wstep_host9 m hpre c main_arg1 (by decide)).trans <|
  (Wstep_reg8 m hpre c main_arg1 (by decide)).trans <|
  (Wstep_host8 m hpre c main_arg1 (by decide)).trans <|
  (Wstep_reg7 m hpre c main_arg1 (by decide)).trans <|
  (Wstep_host7 m hpre c main_arg1 (by decide)).trans <|
  (Wstep_reg6 m hpre c main_arg1 (by decide)).trans <|
  (Wstep_host6 m hpre c main_arg1 (by decide)).trans <|
  (Wstep_reg5 m hpre c main_arg1 (by decide)).trans <|
  (Wstep_host5 m hpre c main_arg1 (by decide)).trans <|
  (Wstep_reg4 m hpre c main_arg1 (by decide)).trans <|
  (Wstep_host4 m hpre c main_arg1 (by decide)).trans <|
  (Wstep_reg3 m hpre c main_arg1 (by decide)).trans <|
  (Wstep_host3 m hpre c main_arg1 (by decide)).trans <|
  (Wstep_reg2 m hpre c main_arg1 (by decide)).trans <|
  (Wstep_host2 m hpre c main_arg1 (by decide)).trans <|
  (Wstep_reg1 m hpre c main_arg1 (by decide)).trans <|
  (Wstep_host1 m c main_arg1 (by decide)).trans <|
  (Wstep_reg0 m c main_arg1 (by decide)).trans <|
  (Wstep_host0_2 m c main_arg1 (by decide)).trans <|
  (Wstep_host0_1 m c main_arg1 (by decide)).trans <|
  (Wstep_host0 m c main_arg1 (by decide)).trans <|
  rfl
/-- main_arg2 ends as launched: no host stretch writes it and no region changes it. -/
theorem W44_main_arg2 (c : Dev nD) : W44 m hpre c (Proc.devRef .tc main_arg2) = m ((c : Thread nD τ).loc main_arg2) :=
  (Wstep_host20 m hpre c main_arg2 (by decide)).trans <|
  (Wstep_reg19 m hpre c main_arg2 (by decide)).trans <|
  (Wstep_host19 m hpre c main_arg2 (by decide)).trans <|
  (Wstep_reg18 m hpre c main_arg2 (by decide)).trans <|
  (Wstep_host18 m hpre c main_arg2 (by decide)).trans <|
  (Wstep_reg17 m hpre c main_arg2 (by decide)).trans <|
  (Wstep_host17 m hpre c main_arg2 (by decide)).trans <|
  (Wstep_reg16 m hpre c main_arg2 (by decide)).trans <|
  (Wstep_host16 m hpre c main_arg2 (by decide)).trans <|
  (Wstep_reg15 m hpre c main_arg2 (by decide)).trans <|
  (Wstep_host15 m hpre c main_arg2 (by decide)).trans <|
  (Wstep_reg14 m hpre c main_arg2 (by decide)).trans <|
  (Wstep_host14 m hpre c main_arg2 (by decide)).trans <|
  (Wstep_reg13 m hpre c main_arg2 (by decide)).trans <|
  (Wstep_host13 m hpre c main_arg2 (by decide)).trans <|
  (Wstep_reg12 m hpre c main_arg2 (by decide)).trans <|
  (Wstep_host12 m hpre c main_arg2 (by decide)).trans <|
  (Wstep_reg11 m hpre c main_arg2 (by decide)).trans <|
  (Wstep_host11 m hpre c main_arg2 (by decide)).trans <|
  (Wstep_reg10 m hpre c main_arg2 (by decide)).trans <|
  (Wstep_host10_1 m hpre c main_arg2 (by decide)).trans <|
  (Wstep_host10 m hpre c main_arg2 (by decide)).trans <|
  (Wstep_reg9 m hpre c main_arg2 (by decide)).trans <|
  (Wstep_host9 m hpre c main_arg2 (by decide)).trans <|
  (Wstep_reg8 m hpre c main_arg2 (by decide)).trans <|
  (Wstep_host8 m hpre c main_arg2 (by decide)).trans <|
  (Wstep_reg7 m hpre c main_arg2 (by decide)).trans <|
  (Wstep_host7 m hpre c main_arg2 (by decide)).trans <|
  (Wstep_reg6 m hpre c main_arg2 (by decide)).trans <|
  (Wstep_host6 m hpre c main_arg2 (by decide)).trans <|
  (Wstep_reg5 m hpre c main_arg2 (by decide)).trans <|
  (Wstep_host5 m hpre c main_arg2 (by decide)).trans <|
  (Wstep_reg4 m hpre c main_arg2 (by decide)).trans <|
  (Wstep_host4 m hpre c main_arg2 (by decide)).trans <|
  (Wstep_reg3 m hpre c main_arg2 (by decide)).trans <|
  (Wstep_host3 m hpre c main_arg2 (by decide)).trans <|
  (Wstep_reg2 m hpre c main_arg2 (by decide)).trans <|
  (Wstep_host2 m hpre c main_arg2 (by decide)).trans <|
  (Wstep_reg1 m hpre c main_arg2 (by decide)).trans <|
  (Wstep_host1 m c main_arg2 (by decide)).trans <|
  (Wstep_reg0 m c main_arg2 (by decide)).trans <|
  (Wstep_host0_2 m c main_arg2 (by decide)).trans <|
  (Wstep_host0_1 m c main_arg2 (by decide)).trans <|
  (Wstep_host0 m c main_arg2 (by decide)).trans <|
  rfl
/-- main_arg3 ends as launched: no host stretch writes it and no region changes it. -/
theorem W44_main_arg3 (c : Dev nD) : W44 m hpre c (Proc.devRef .tc main_arg3) = m ((c : Thread nD τ).loc main_arg3) :=
  (Wstep_host20 m hpre c main_arg3 (by decide)).trans <|
  (Wstep_reg19 m hpre c main_arg3 (by decide)).trans <|
  (Wstep_host19 m hpre c main_arg3 (by decide)).trans <|
  (Wstep_reg18 m hpre c main_arg3 (by decide)).trans <|
  (Wstep_host18 m hpre c main_arg3 (by decide)).trans <|
  (Wstep_reg17 m hpre c main_arg3 (by decide)).trans <|
  (Wstep_host17 m hpre c main_arg3 (by decide)).trans <|
  (Wstep_reg16 m hpre c main_arg3 (by decide)).trans <|
  (Wstep_host16 m hpre c main_arg3 (by decide)).trans <|
  (Wstep_reg15 m hpre c main_arg3 (by decide)).trans <|
  (Wstep_host15 m hpre c main_arg3 (by decide)).trans <|
  (Wstep_reg14 m hpre c main_arg3 (by decide)).trans <|
  (Wstep_host14 m hpre c main_arg3 (by decide)).trans <|
  (Wstep_reg13 m hpre c main_arg3 (by decide)).trans <|
  (Wstep_host13 m hpre c main_arg3 (by decide)).trans <|
  (Wstep_reg12 m hpre c main_arg3 (by decide)).trans <|
  (Wstep_host12 m hpre c main_arg3 (by decide)).trans <|
  (Wstep_reg11 m hpre c main_arg3 (by decide)).trans <|
  (Wstep_host11 m hpre c main_arg3 (by decide)).trans <|
  (Wstep_reg10 m hpre c main_arg3 (by decide)).trans <|
  (Wstep_host10_1 m hpre c main_arg3 (by decide)).trans <|
  (Wstep_host10 m hpre c main_arg3 (by decide)).trans <|
  (Wstep_reg9 m hpre c main_arg3 (by decide)).trans <|
  (Wstep_host9 m hpre c main_arg3 (by decide)).trans <|
  (Wstep_reg8 m hpre c main_arg3 (by decide)).trans <|
  (Wstep_host8 m hpre c main_arg3 (by decide)).trans <|
  (Wstep_reg7 m hpre c main_arg3 (by decide)).trans <|
  (Wstep_host7 m hpre c main_arg3 (by decide)).trans <|
  (Wstep_reg6 m hpre c main_arg3 (by decide)).trans <|
  (Wstep_host6 m hpre c main_arg3 (by decide)).trans <|
  (Wstep_reg5 m hpre c main_arg3 (by decide)).trans <|
  (Wstep_host5 m hpre c main_arg3 (by decide)).trans <|
  (Wstep_reg4 m hpre c main_arg3 (by decide)).trans <|
  (Wstep_host4 m hpre c main_arg3 (by decide)).trans <|
  (Wstep_reg3 m hpre c main_arg3 (by decide)).trans <|
  (Wstep_host3 m hpre c main_arg3 (by decide)).trans <|
  (Wstep_reg2 m hpre c main_arg3 (by decide)).trans <|
  (Wstep_host2 m hpre c main_arg3 (by decide)).trans <|
  (Wstep_reg1 m hpre c main_arg3 (by decide)).trans <|
  (Wstep_host1 m c main_arg3 (by decide)).trans <|
  (Wstep_reg0_main_arg3 m c).trans <|
  (Wstep_host0_2 m c main_arg3 (by decide)).trans <|
  (Wstep_host0_1 m c main_arg3 (by decide)).trans <|
  (Wstep_host0 m c main_arg3 (by decide)).trans <|
  rfl
/-- main_arg4 ends as launched: no host stretch writes it and no region changes it. -/
theorem W44_main_arg4 (c : Dev nD) : W44 m hpre c (Proc.devRef .tc main_arg4) = m ((c : Thread nD τ).loc main_arg4) :=
  (Wstep_host20 m hpre c main_arg4 (by decide)).trans <|
  (Wstep_reg19 m hpre c main_arg4 (by decide)).trans <|
  (Wstep_host19 m hpre c main_arg4 (by decide)).trans <|
  (Wstep_reg18 m hpre c main_arg4 (by decide)).trans <|
  (Wstep_host18 m hpre c main_arg4 (by decide)).trans <|
  (Wstep_reg17 m hpre c main_arg4 (by decide)).trans <|
  (Wstep_host17 m hpre c main_arg4 (by decide)).trans <|
  (Wstep_reg16 m hpre c main_arg4 (by decide)).trans <|
  (Wstep_host16 m hpre c main_arg4 (by decide)).trans <|
  (Wstep_reg15 m hpre c main_arg4 (by decide)).trans <|
  (Wstep_host15 m hpre c main_arg4 (by decide)).trans <|
  (Wstep_reg14 m hpre c main_arg4 (by decide)).trans <|
  (Wstep_host14 m hpre c main_arg4 (by decide)).trans <|
  (Wstep_reg13 m hpre c main_arg4 (by decide)).trans <|
  (Wstep_host13 m hpre c main_arg4 (by decide)).trans <|
  (Wstep_reg12 m hpre c main_arg4 (by decide)).trans <|
  (Wstep_host12 m hpre c main_arg4 (by decide)).trans <|
  (Wstep_reg11 m hpre c main_arg4 (by decide)).trans <|
  (Wstep_host11 m hpre c main_arg4 (by decide)).trans <|
  (Wstep_reg10 m hpre c main_arg4 (by decide)).trans <|
  (Wstep_host10_1 m hpre c main_arg4 (by decide)).trans <|
  (Wstep_host10 m hpre c main_arg4 (by decide)).trans <|
  (Wstep_reg9 m hpre c main_arg4 (by decide)).trans <|
  (Wstep_host9 m hpre c main_arg4 (by decide)).trans <|
  (Wstep_reg8 m hpre c main_arg4 (by decide)).trans <|
  (Wstep_host8 m hpre c main_arg4 (by decide)).trans <|
  (Wstep_reg7 m hpre c main_arg4 (by decide)).trans <|
  (Wstep_host7 m hpre c main_arg4 (by decide)).trans <|
  (Wstep_reg6 m hpre c main_arg4 (by decide)).trans <|
  (Wstep_host6 m hpre c main_arg4 (by decide)).trans <|
  (Wstep_reg5 m hpre c main_arg4 (by decide)).trans <|
  (Wstep_host5 m hpre c main_arg4 (by decide)).trans <|
  (Wstep_reg4 m hpre c main_arg4 (by decide)).trans <|
  (Wstep_host4 m hpre c main_arg4 (by decide)).trans <|
  (Wstep_reg3 m hpre c main_arg4 (by decide)).trans <|
  (Wstep_host3 m hpre c main_arg4 (by decide)).trans <|
  (Wstep_reg2 m hpre c main_arg4 (by decide)).trans <|
  (Wstep_host2 m hpre c main_arg4 (by decide)).trans <|
  (Wstep_reg1 m hpre c main_arg4 (by decide)).trans <|
  (Wstep_host1 m c main_arg4 (by decide)).trans <|
  (Wstep_reg0 m c main_arg4 (by decide)).trans <|
  (Wstep_host0_2 m c main_arg4 (by decide)).trans <|
  (Wstep_host0_1 m c main_arg4 (by decide)).trans <|
  (Wstep_host0 m c main_arg4 (by decide)).trans <|
  rfl
/-- main_arg5 ends as launched: no host stretch writes it and no region changes it. -/
theorem W44_main_arg5 (c : Dev nD) : W44 m hpre c (Proc.devRef .tc main_arg5) = m ((c : Thread nD τ).loc main_arg5) :=
  (Wstep_host20 m hpre c main_arg5 (by decide)).trans <|
  (Wstep_reg19 m hpre c main_arg5 (by decide)).trans <|
  (Wstep_host19 m hpre c main_arg5 (by decide)).trans <|
  (Wstep_reg18 m hpre c main_arg5 (by decide)).trans <|
  (Wstep_host18 m hpre c main_arg5 (by decide)).trans <|
  (Wstep_reg17 m hpre c main_arg5 (by decide)).trans <|
  (Wstep_host17 m hpre c main_arg5 (by decide)).trans <|
  (Wstep_reg16 m hpre c main_arg5 (by decide)).trans <|
  (Wstep_host16 m hpre c main_arg5 (by decide)).trans <|
  (Wstep_reg15 m hpre c main_arg5 (by decide)).trans <|
  (Wstep_host15 m hpre c main_arg5 (by decide)).trans <|
  (Wstep_reg14 m hpre c main_arg5 (by decide)).trans <|
  (Wstep_host14 m hpre c main_arg5 (by decide)).trans <|
  (Wstep_reg13 m hpre c main_arg5 (by decide)).trans <|
  (Wstep_host13 m hpre c main_arg5 (by decide)).trans <|
  (Wstep_reg12 m hpre c main_arg5 (by decide)).trans <|
  (Wstep_host12 m hpre c main_arg5 (by decide)).trans <|
  (Wstep_reg11 m hpre c main_arg5 (by decide)).trans <|
  (Wstep_host11 m hpre c main_arg5 (by decide)).trans <|
  (Wstep_reg10_main_arg5 m hpre c).trans <|
  (Wstep_host10_1 m hpre c main_arg5 (by decide)).trans <|
  (Wstep_host10 m hpre c main_arg5 (by decide)).trans <|
  (Wstep_reg9 m hpre c main_arg5 (by decide)).trans <|
  (Wstep_host9 m hpre c main_arg5 (by decide)).trans <|
  (Wstep_reg8 m hpre c main_arg5 (by decide)).trans <|
  (Wstep_host8 m hpre c main_arg5 (by decide)).trans <|
  (Wstep_reg7 m hpre c main_arg5 (by decide)).trans <|
  (Wstep_host7 m hpre c main_arg5 (by decide)).trans <|
  (Wstep_reg6 m hpre c main_arg5 (by decide)).trans <|
  (Wstep_host6 m hpre c main_arg5 (by decide)).trans <|
  (Wstep_reg5 m hpre c main_arg5 (by decide)).trans <|
  (Wstep_host5 m hpre c main_arg5 (by decide)).trans <|
  (Wstep_reg4 m hpre c main_arg5 (by decide)).trans <|
  (Wstep_host4 m hpre c main_arg5 (by decide)).trans <|
  (Wstep_reg3 m hpre c main_arg5 (by decide)).trans <|
  (Wstep_host3 m hpre c main_arg5 (by decide)).trans <|
  (Wstep_reg2 m hpre c main_arg5 (by decide)).trans <|
  (Wstep_host2 m hpre c main_arg5 (by decide)).trans <|
  (Wstep_reg1 m hpre c main_arg5 (by decide)).trans <|
  (Wstep_host1 m c main_arg5 (by decide)).trans <|
  (Wstep_reg0 m c main_arg5 (by decide)).trans <|
  (Wstep_host0_2 m c main_arg5 (by decide)).trans <|
  (Wstep_host0_1 m c main_arg5 (by decide)).trans <|
  (Wstep_host0 m c main_arg5 (by decide)).trans <|
  rfl
/-- main_arg6 ends as launched: no host stretch writes it and no region changes it. -/
theorem W44_main_arg6 (c : Dev nD) : W44 m hpre c (Proc.devRef .tc main_arg6) = m ((c : Thread nD τ).loc main_arg6) :=
  (Wstep_host20 m hpre c main_arg6 (by decide)).trans <|
  (Wstep_reg19 m hpre c main_arg6 (by decide)).trans <|
  (Wstep_host19 m hpre c main_arg6 (by decide)).trans <|
  (Wstep_reg18 m hpre c main_arg6 (by decide)).trans <|
  (Wstep_host18 m hpre c main_arg6 (by decide)).trans <|
  (Wstep_reg17 m hpre c main_arg6 (by decide)).trans <|
  (Wstep_host17 m hpre c main_arg6 (by decide)).trans <|
  (Wstep_reg16 m hpre c main_arg6 (by decide)).trans <|
  (Wstep_host16 m hpre c main_arg6 (by decide)).trans <|
  (Wstep_reg15 m hpre c main_arg6 (by decide)).trans <|
  (Wstep_host15 m hpre c main_arg6 (by decide)).trans <|
  (Wstep_reg14 m hpre c main_arg6 (by decide)).trans <|
  (Wstep_host14 m hpre c main_arg6 (by decide)).trans <|
  (Wstep_reg13 m hpre c main_arg6 (by decide)).trans <|
  (Wstep_host13 m hpre c main_arg6 (by decide)).trans <|
  (Wstep_reg12 m hpre c main_arg6 (by decide)).trans <|
  (Wstep_host12 m hpre c main_arg6 (by decide)).trans <|
  (Wstep_reg11 m hpre c main_arg6 (by decide)).trans <|
  (Wstep_host11 m hpre c main_arg6 (by decide)).trans <|
  (Wstep_reg10 m hpre c main_arg6 (by decide)).trans <|
  (Wstep_host10_1 m hpre c main_arg6 (by decide)).trans <|
  (Wstep_host10 m hpre c main_arg6 (by decide)).trans <|
  (Wstep_reg9 m hpre c main_arg6 (by decide)).trans <|
  (Wstep_host9 m hpre c main_arg6 (by decide)).trans <|
  (Wstep_reg8 m hpre c main_arg6 (by decide)).trans <|
  (Wstep_host8 m hpre c main_arg6 (by decide)).trans <|
  (Wstep_reg7 m hpre c main_arg6 (by decide)).trans <|
  (Wstep_host7 m hpre c main_arg6 (by decide)).trans <|
  (Wstep_reg6 m hpre c main_arg6 (by decide)).trans <|
  (Wstep_host6 m hpre c main_arg6 (by decide)).trans <|
  (Wstep_reg5 m hpre c main_arg6 (by decide)).trans <|
  (Wstep_host5 m hpre c main_arg6 (by decide)).trans <|
  (Wstep_reg4 m hpre c main_arg6 (by decide)).trans <|
  (Wstep_host4 m hpre c main_arg6 (by decide)).trans <|
  (Wstep_reg3 m hpre c main_arg6 (by decide)).trans <|
  (Wstep_host3 m hpre c main_arg6 (by decide)).trans <|
  (Wstep_reg2 m hpre c main_arg6 (by decide)).trans <|
  (Wstep_host2 m hpre c main_arg6 (by decide)).trans <|
  (Wstep_reg1 m hpre c main_arg6 (by decide)).trans <|
  (Wstep_host1 m c main_arg6 (by decide)).trans <|
  (Wstep_reg0 m c main_arg6 (by decide)).trans <|
  (Wstep_host0_2 m c main_arg6 (by decide)).trans <|
  (Wstep_host0_1 m c main_arg6 (by decide)).trans <|
  (Wstep_host0 m c main_arg6 (by decide)).trans <|
  rfl

end Cert.KernelIdeal.Hand

end
-- ==== Proof.Bits.ArgsKept.lean ====
/-
  THE ARGUMENTS END AS LAUNCHED.

  The contents of the buffers at the 45 boundaries between the items of the program (the fold W0 … W44) change, from one
  boundary to the next, only where the item writes: a host stretch writes the results of its operations (the lists
  below), a kernel region the arrays of its windows, and the array of an input window is left as the grid found it. One
  lemma per step; then each of the seven arguments, which no item writes, is walked back from the end to the launch.
-/
import proofs.«414392_j7919919694132_2_alg».proof.Proof.Bits.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the host stretches write -/

namespace Kept

/-- Every operation of a literal list writes inside a literal list of references. -/
local macro "writes_sub" : tactic =>
  `(tactic| (simp only [List.Forall]; repeat' apply And.intro
             all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))))

/-- What the host stretch hostOps0 writes. -/
abbrev hostOps0_W : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3]
theorem hostOps0_writes : (hostOps0 : List (HloOp τ sig (Elt F))).Forall fun op => op.writes ⊆ (hostOps0_W.map (Proc.devRef (τ := τ) .tc)).toFinset := by
  writes_sub
/-- What the host stretch hostOps0_1 writes. -/
abbrev hostOps0_1_W : List (Ref sig .tc) := [main_call0_v0, main_call0_v1, main_v17]
theorem hostOps0_1_writes : (hostOps0_1 : List (HloOp τ sig (Elt F))).Forall fun op => op.writes ⊆ (hostOps0_1_W.map (Proc.devRef (τ := τ) .tc)).toFinset := by
  writes_sub
/-- What the host stretch hostOps0_2 writes. -/
abbrev hostOps0_2_W : List (Ref sig .tc) := [main_c, main_v18, main_v19, main_c_4, main_v20, main_v21, main_v22, main_v23, main_v24, main_v25, main_c_5, main_v26, main_v27, main_c_6, main_v28, main_v29, main_v30, main_v31, main_v32, main_v33]
theorem hostOps0_2_writes : (hostOps0_2 : List (HloOp τ sig (Elt F))).Forall fun op => op.writes ⊆ (hostOps0_2_W.map (Proc.devRef (τ := τ) .tc)).toFinset := by
  writes_sub
/-- What the host stretch hostOps1 writes. -/
abbrev hostOps1_W : List (Ref sig .tc) := [main_v35, main_v36, main_v37]
theorem hostOps1_writes : (hostOps1 : List (HloOp τ sig (Elt F))).Forall fun op => op.writes ⊆ (hostOps1_W.map (Proc.devRef (τ := τ) .tc)).toFinset := by
  writes_sub
/-- What the host stretch hostOps2 writes. -/
abbrev hostOps2_W : List (Ref sig .tc) := [main_v39, main_v40]
theorem hostOps2_writes : (hostOps2 : List (HloOp τ sig (Elt F))).Forall fun op => op.writes ⊆ (hostOps2_W.map (Proc.devRef (τ := τ) .tc)).toFinset := by
  writes_sub
/-- What the host stretch hostOps3 writes. -/
abbrev hostOps3_W : List (Ref sig .tc) := [main_v42, main_v43]
theorem hostOps3_writes : (hostOps3 : List (HloOp τ sig (Elt F))).Forall fun op => op.writes ⊆ (hostOps3_W.map (Proc.devRef (τ := τ) .tc)).toFinset := by
  writes_sub
/-- What the host stretch hostOps4 writes. -/
abbrev hostOps4_W : List (Ref sig .tc) := [main_v45, main_v46]
theorem hostOps4_writes : (hostOps4 : List (HloOp τ sig (Elt F))).Forall fun op => op.writes ⊆ (hostOps4_W.map (Proc.devRef (τ := τ) .tc)).toFinset := by
  writes_sub
/-- What the host stretch hostOps5 writes. -/
abbrev hostOps5_W : List (Ref sig .tc) := [main_v48, main_v49]
theorem hostOps5_writes : (hostOps5 : List (HloOp τ sig (Elt F))).Forall fun op => op.writes ⊆ (hostOps5_W.map (Proc.devRef (τ := τ) .tc)).toFinset := by
  writes_sub
/-- What the host stretch hostOps6 writes. -/
abbrev hostOps6_W : List (Ref sig .tc) := [main_v51, main_v52]
theorem hostOps6_writes : (hostOps6 : List (HloOp τ sig (Elt F))).Forall fun op => op.writes ⊆ (hostOps6_W.map (Proc.devRef (τ := τ) .tc)).toFinset := by
  writes_sub
/-- What the host stretch hostOps7 writes. -/
abbrev hostOps7_W : List (Ref sig .tc) := [main_v54, main_v55]
theorem hostOps7_writes : (hostOps7 : List (HloOp τ sig (Elt F))).Forall fun op => op.writes ⊆ (hostOps7_W.map (Proc.devRef (τ := τ) .tc)).toFinset := by
  writes_sub
/-- What the host stretch hostOps8 writes. -/
abbrev hostOps8_W : List (Ref sig .tc) := [main_v57, main_v58]
theorem hostOps8_writes : (hostOps8 : List (HloOp τ sig (Elt F))).Forall fun op => op.writes ⊆ (hostOps8_W.map (Proc.devRef (τ := τ) .tc)).toFinset := by
  writes_sub
/-- What the host stretch hostOps9 writes. -/
abbrev hostOps9_W : List (Ref sig .tc) := [main_v60, main_v61]
theorem hostOps9_writes : (hostOps9 : List (HloOp τ sig (Elt F))).Forall fun op => op.writes ⊆ (hostOps9_W.map (Proc.devRef (τ := τ) .tc)).toFinset := by
  writes_sub
/-- What the host stretch hostOps10 writes. -/
abbrev hostOps10_W : List (Ref sig .tc) := [main_v63, main_cst_7, main_v64, main_v65, main_v66, main_v67, main_v68, main_v69]
theorem hostOps10_writes : (hostOps10 : List (HloOp τ sig (Elt F))).Forall fun op => op.writes ⊆ (hostOps10_W.map (Proc.devRef (τ := τ) .tc)).toFinset := by
  writes_sub
/-- What the host stretch hostOps10_1 writes. -/
abbrev hostOps10_1_W : List (Ref sig .tc) := [main_call1_cst, main_call1_v0, main_v70]
theorem hostOps10_1_writes : (hostOps10_1 : List (HloOp τ sig (Elt F))).Forall fun op => op.writes ⊆ (hostOps10_1_W.map (Proc.devRef (τ := τ) .tc)).toFinset := by
  writes_sub
/-- What the host stretch hostOps11 writes. -/
abbrev hostOps11_W : List (Ref sig .tc) := [main_v72, main_v73, main_v74]
theorem hostOps11_writes : (hostOps11 : List (HloOp τ sig (Elt F))).Forall fun op => op.writes ⊆ (hostOps11_W.map (Proc.devRef (τ := τ) .tc)).toFinset := by
  writes_sub
/-- What the host stretch hostOps12 writes. -/
abbrev hostOps12_W : List (Ref sig .tc) := [main_v76, main_v77]
theorem hostOps12_writes : (hostOps12 : List (HloOp τ sig (Elt F))).Forall fun op => op.writes ⊆ (hostOps12_W.map (Proc.devRef (τ := τ) .tc)).toFinset := by
  writes_sub
/-- What the host stretch hostOps13 writes. -/
abbrev hostOps13_W : List (Ref sig .tc) := [main_v79, main_v80]
theorem hostOps13_writes : (hostOps13 : List (HloOp τ sig (Elt F))).Forall fun op => op.writes ⊆ (hostOps13_W.map (Proc.devRef (τ := τ) .tc)).toFinset := by
  writes_sub
/-- What the host stretch hostOps14 writes. -/
abbrev hostOps14_W : List (Ref sig .tc) := [main_v82, main_v83]
theorem hostOps14_writes : (hostOps14 : List (HloOp τ sig (Elt F))).Forall fun op => op.writes ⊆ (hostOps14_W.map (Proc.devRef (τ := τ) .tc)).toFinset := by
  writes_sub
/-- What the host stretch hostOps15 writes. -/
abbrev hostOps15_W : List (Ref sig .tc) := [main_v85, main_v86]
theorem hostOps15_writes : (hostOps15 : List (HloOp τ sig (Elt F))).Forall fun op => op.writes ⊆ (hostOps15_W.map (Proc.devRef (τ := τ) .tc)).toFinset := by
  writes_sub
/-- What the host stretch hostOps16 writes. -/
abbrev hostOps16_W : List (Ref sig .tc) := [main_v88, main_v89]
theorem hostOps16_writes : (hostOps16 : List (HloOp τ sig (Elt F))).Forall fun op => op.writes ⊆ (hostOps16_W.map (Proc.devRef (τ := τ) .tc)).toFinset := by
  writes_sub
/-- What the host stretch hostOps17 writes. -/
abbrev hostOps17_W : List (Ref sig .tc) := [main_v91, main_v92]
theorem hostOps17_writes : (hostOps17 : List (HloOp τ sig (Elt F))).Forall fun op => op.writes ⊆ (hostOps17_W.map (Proc.devRef (τ := τ) .tc)).toFinset := by
  writes_sub
/-- What the host stretch hostOps18 writes. -/
abbrev hostOps18_W : List (Ref sig .tc) := [main_v94, main_v95]
theorem hostOps18_writes : (hostOps18 : List (HloOp τ sig (Elt F))).Forall fun op => op.writes ⊆ (hostOps18_W.map (Proc.devRef (τ := τ) .tc)).toFinset := by
  writes_sub
/-- What the host stretch hostOps19 writes. -/
abbrev hostOps19_W : List (Ref sig .tc) := [main_v97, main_v98]
theorem hostOps19_writes : (hostOps19 : List (HloOp τ sig (Elt F))).Forall fun op => op.writes ⊆ (hostOps19_W.map (Proc.devRef (τ := τ) .tc)).toFinset := by
  writes_sub
/-- What the host stretch hostOps20 writes. -/
abbrev hostOps20_W : List (Ref sig .tc) := [main_v100, main_cst_8, main_v101, main_v102, main_v103, main_v104, main_v105, main_v106]
theorem hostOps20_writes : (hostOps20 : List (HloOp τ sig (Elt F))).Forall fun op => op.writes ⊆ (hostOps20_W.map (Proc.devRef (τ := τ) .tc)).toFinset := by
  writes_sub

end Kept

variable (m : (ℓ : Loc nD τ sig) → Buf (Elt F) ℓ) (hpre : PreEq m)

/-! ## One step of the fold -/

/-- Across the host stretch hostOps0 a buffer it does not write keeps its contents. -/
theorem Wstep_host0 (c : Dev nD) (r : Ref sig .tc) (h : r ∉ Kept.hostOps0_W) :
    W1 m c (Proc.devRef .tc r) = W0 m c (Proc.devRef .tc r) :=
  StableHlo.after_of_writes_sub hostOps0 _ Kept.hostOps0_writes h
/-- Across the host stretch hostOps0_1 a buffer it does not write keeps its contents. -/
theorem Wstep_host0_1 (c : Dev nD) (r : Ref sig .tc) (h : r ∉ Kept.hostOps0_1_W) :
    W2 m c (Proc.devRef .tc r) = W1 m c (Proc.devRef .tc r) :=
  StableHlo.after_of_writes_sub hostOps0_1 _ Kept.hostOps0_1_writes h
/-- Across the host stretch hostOps0_2 a buffer it does not write keeps its contents. -/
theorem Wstep_host0_2 (c : Dev nD) (r : Ref sig .tc) (h : r ∉ Kept.hostOps0_2_W) :
    W3 m c (Proc.devRef .tc r) = W2 m c (Proc.devRef .tc r) :=
  StableHlo.after_of_writes_sub hostOps0_2 _ Kept.hostOps0_2_writes h
/-- Across region 0 a buffer that is no array of its windows keeps its contents. -/
theorem Wstep_reg0 (c : Dev nD) (r : Ref sig .tc) (h : ∀ w, Pipeline.arrRef spec0 w ≠ r) :
    W4 m c (Proc.devRef .tc r) = W3 m c (Proc.devRef .tc r) := by
  unfold W4; exact Pipeline.withArrays_of_ne spec0 c _ _ r h
/-- Across the host stretch hostOps1 a buffer it does not write keeps its contents. -/
theorem Wstep_host1 (c : Dev nD) (r : Ref sig .tc) (h : r ∉ Kept.hostOps1_W) :
    W5 m c (Proc.devRef .tc r) = W4 m c (Proc.devRef .tc r) :=
  StableHlo.after_of_writes_sub hostOps1 _ Kept.hostOps1_writes h
/-- Across region 1 a buffer that is no array of its windows keeps its contents. -/
theorem Wstep_reg1 (c : Dev nD) (r : Ref sig .tc) (h : ∀ w, Pipeline.arrRef spec1 w ≠ r) :
    W6 m hpre c (Proc.devRef .tc r) = W5 m c (Proc.devRef .tc r) := by
  unfold W6; exact Pipeline.withArrays_of_ne spec1 c _ _ r h
/-- Across the host stretch hostOps2 a buffer it does not write keeps its contents. -/
theorem Wstep_host2 (c : Dev nD) (r : Ref sig .tc) (h : r ∉ Kept.hostOps2_W) :
    W7 m hpre c (Proc.devRef .tc r) = W6 m hpre c (Proc.devRef .tc r) :=
  StableHlo.after_of_writes_sub hostOps2 _ Kept.hostOps2_writes h
/-- Across region 2 a buffer that is no array of its windows keeps its contents. -/
theorem Wstep_reg2 (c : Dev nD) (r : Ref sig .tc) (h : ∀ w, Pipeline.arrRef spec2 w ≠ r) :
    W8 m hpre c (Proc.devRef .tc r) = W7 m hpre c (Proc.devRef .tc r) := by
  unfold W8; exact Pipeline.withArrays_of_ne spec2 c _ _ r h
/-- Across the host stretch hostOps3 a buffer it does not write keeps its contents. -/
theorem Wstep_host3 (c : Dev nD) (r : Ref sig .tc) (h : r ∉ Kept.hostOps3_W) :
    W9 m hpre c (Proc.devRef .tc r) = W8 m hpre c (Proc.devRef .tc r) :=
  StableHlo.after_of_writes_sub hostOps3 _ Kept.hostOps3_writes h
/-- Across region 3 a buffer that is no array of its windows keeps its contents. -/
theorem Wstep_reg3 (c : Dev nD) (r : Ref sig .tc) (h : ∀ w, Pipeline.arrRef spec3 w ≠ r) :
    W10 m hpre c (Proc.devRef .tc r) = W9 m hpre c (Proc.devRef .tc r) := by
  unfold W10; exact Pipeline.withArrays_of_ne spec3 c _ _ r h
/-- Across the host stretch hostOps4 a buffer it does not write keeps its contents. -/
theorem Wstep_host4 (c : Dev nD) (r : Ref sig .tc) (h : r ∉ Kept.hostOps4_W) :
    W11 m hpre c (Proc.devRef .tc r) = W10 m hpre c (Proc.devRef .tc r) :=
  StableHlo.after_of_writes_sub hostOps4 _ Kept.hostOps4_writes h
/-- Across region 4 a buffer that is no array of its windows keeps its contents. -/
theorem Wstep_reg4 (c : Dev nD) (r : Ref sig .tc) (h : ∀ w, Pipeline.arrRef spec4 w ≠ r) :
    W12 m hpre c (Proc.devRef .tc r) = W11 m hpre c (Proc.devRef .tc r) := by
  unfold W12; exact Pipeline.withArrays_of_ne spec4 c _ _ r h
/-- Across the host stretch hostOps5 a buffer it does not write keeps its contents. -/
theorem Wstep_host5 (c : Dev nD) (r : Ref sig .tc) (h : r ∉ Kept.hostOps5_W) :
    W13 m hpre c (Proc.devRef .tc r) = W12 m hpre c (Proc.devRef .tc r) :=
  StableHlo.after_of_writes_sub hostOps5 _ Kept.hostOps5_writes h
/-- Across region 5 a buffer that is no array of its windows keeps its contents. -/
theorem Wstep_reg5 (c : Dev nD) (r : Ref sig .tc) (h : ∀ w, Pipeline.arrRef spec5 w ≠ r) :
    W14 m hpre c (Proc.devRef .tc r) = W13 m hpre c (Proc.devRef .tc r) := by
  unfold W14; exact Pipeline.withArrays_of_ne spec5 c _ _ r h
/-- Across the host stretch hostOps6 a buffer it does not write keeps its contents. -/
theorem Wstep_host6 (c : Dev nD) (r : Ref sig .tc) (h : r ∉ Kept.hostOps6_W) :
    W15 m hpre c (Proc.devRef .tc r) = W14 m hpre c (Proc.devRef .tc r) :=
  StableHlo.after_of_writes_sub hostOps6 _ Kept.hostOps6_writes h
/-- Across region 6 a buffer that is no array of its windows keeps its contents. -/
theorem Wstep_reg6 (c : Dev nD) (r : Ref sig .tc) (h : ∀ w, Pipeline.arrRef spec6 w ≠ r) :
    W16 m hpre c (Proc.devRef .tc r) = W15 m hpre c (Proc.devRef .tc r) := by
  unfold W16; exact Pipeline.withArrays_of_ne spec6 c _ _ r h
/-- Across the host stretch hostOps7 a buffer it does not write keeps its contents. -/
theorem Wstep_host7 (c : Dev nD) (r : Ref sig .tc) (h : r ∉ Kept.hostOps7_W) :
    W17 m hpre c (Proc.devRef .tc r) = W16 m hpre c (Proc.devRef .tc r) :=
  StableHlo.after_of_writes_sub hostOps7 _ Kept.hostOps7_writes h
/-- Across region 7 a buffer that is no array of its windows keeps its contents. -/
theorem Wstep_reg7 (c : Dev nD) (r : Ref sig .tc) (h : ∀ w, Pipeline.arrRef spec7 w ≠ r) :
    W18 m hpre c (Proc.devRef .tc r) = W17 m hpre c (Proc.devRef .tc r) := by
  unfold W18; exact Pipeline.withArrays_of_ne spec7 c _ _ r h
/-- Across the host stretch hostOps8 a buffer it does not write keeps its contents. -/
theorem Wstep_host8 (c : Dev nD) (r : Ref sig .tc) (h : r ∉ Kept.hostOps8_W) :
    W19 m hpre c (Proc.devRef .tc r) = W18 m hpre c (Proc.devRef .tc r) :=
  StableHlo.after_of_writes_sub hostOps8 _ Kept.hostOps8_writes h
/-- Across region 8 a buffer that is no array of its windows keeps its contents. -/
theorem Wstep_reg8 (c : Dev nD) (r : Ref sig .tc) (h : ∀ w, Pipeline.arrRef spec8 w ≠ r) :
    W20 m hpre c (Proc.devRef .tc r) = W19 m hpre c (Proc.devRef .tc r) := by
  unfold W20; exact Pipeline.withArrays_of_ne spec8 c _ _ r h
/-- Across the host stretch hostOps9 a buffer it does not write keeps its contents. -/
theorem Wstep_host9 (c : Dev nD) (r : Ref sig .tc) (h : r ∉ Kept.hostOps9_W) :
    W21 m hpre c (Proc.devRef .tc r) = W20 m hpre c (Proc.devRef .tc r) :=
  StableHlo.after_of_writes_sub hostOps9 _ Kept.hostOps9_writes h
/-- Across region 9 a buffer that is no array of its windows keeps its contents. -/
theorem Wstep_reg9 (c : Dev nD) (r : Ref sig .tc) (h : ∀ w, Pipeline.arrRef spec9 w ≠ r) :
    W22 m hpre c (Proc.devRef .tc r) = W21 m hpre c (Proc.devRef .tc r) := by
  unfold W22; exact Pipeline.withArrays_of_ne spec9 c _ _ r h
/-- Across the host stretch hostOps10 a buffer it does not write keeps its contents. -/
theorem Wstep_host10 (c : Dev nD) (r : Ref sig .tc) (h : r ∉ Kept.hostOps10_W) :
    W23 m hpre c (Proc.devRef .tc r) = W22 m hpre c (Proc.devRef .tc r) :=
  StableHlo.after_of_writes_sub hostOps10 _ Kept.hostOps10_writes h
/-- Across the host stretch hostOps10_1 a buffer it does not write keeps its contents. -/
theorem Wstep_host10_1 (c : Dev nD) (r : Ref sig .tc) (h : r ∉ Kept.hostOps10_1_W) :
    W24 m hpre c (Proc.devRef .tc r) = W23 m hpre c (Proc.devRef .tc r) :=
  StableHlo.after_of_writes_sub hostOps10_1 _ Kept.hostOps10_1_writes h
/-- Across region 10 a buffer that is no array of its windows keeps its contents. -/
theorem Wstep_reg10 (c : Dev nD) (r : Ref sig .tc) (h : ∀ w, Pipeline.arrRef spec10 w ≠ r) :
    W25 m hpre c (Proc.devRef .tc r) = W24 m hpre c (Proc.devRef .tc r) := by
  unfold W25; exact Pipeline.withArrays_of_ne spec10 c _ _ r h
/-- Across the host stretch hostOps11 a buffer it does not write keeps its contents. -/
theorem Wstep_host11 (c : Dev nD) (r : Ref sig .tc) (h : r ∉ Kept.hostOps11_W) :
    W26 m hpre c (Proc.devRef .tc r) = W25 m hpre c (Proc.devRef .tc r) :=
  StableHlo.after_of_writes_sub hostOps11 _ Kept.hostOps11_writes h
/-- Across region 11 a buffer that is no array of its windows keeps its contents. -/
theorem Wstep_reg11 (c : Dev nD) (r : Ref sig .tc) (h : ∀ w, Pipeline.arrRef spec11 w ≠ r) :
    W27 m hpre c (Proc.devRef .tc r) = W26 m hpre c (Proc.devRef .tc r) := by
  unfold W27; exact Pipeline.withArrays_of_ne spec11 c _ _ r h
/-- Across the host stretch hostOps12 a buffer it does not write keeps its contents. -/
theorem Wstep_host12 (c : Dev nD) (r : Ref sig .tc) (h : r ∉ Kept.hostOps12_W) :
    W28 m hpre c (Proc.devRef .tc r) = W27 m hpre c (Proc.devRef .tc r) :=
  StableHlo.after_of_writes_sub hostOps12 _ Kept.hostOps12_writes h
/-- Across region 12 a buffer that is no array of its windows keeps its contents. -/
theorem Wstep_reg12 (c : Dev nD) (r : Ref sig .tc) (h : ∀ w, Pipeline.arrRef spec12 w ≠ r) :
    W29 m hpre c (Proc.devRef .tc r) = W28 m hpre c (Proc.devRef .tc r) := by
  unfold W29; exact Pipeline.withArrays_of_ne spec12 c _ _ r h
/-- Across the host stretch hostOps13 a buffer it does not write keeps its contents. -/
theorem Wstep_host13 (c : Dev nD) (r : Ref sig .tc) (h : r ∉ Kept.hostOps13_W) :
    W30 m hpre c (Proc.devRef .tc r) = W29 m hpre c (Proc.devRef .tc r) :=
  StableHlo.after_of_writes_sub hostOps13 _ Kept.hostOps13_writes h
/-- Across region 13 a buffer that is no array of its windows keeps its contents. -/
theorem Wstep_reg13 (c : Dev nD) (r : Ref sig .tc) (h : ∀ w, Pipeline.arrRef spec13 w ≠ r) :
    W31 m hpre c (Proc.devRef .tc r) = W30 m hpre c (Proc.devRef .tc r) := by
  unfold W31; exact Pipeline.withArrays_of_ne spec13 c _ _ r h
/-- Across the host stretch hostOps14 a buffer it does not write keeps its contents. -/
theorem Wstep_host14 (c : Dev nD) (r : Ref sig .tc) (h : r ∉ Kept.hostOps14_W) :
    W32 m hpre c (Proc.devRef .tc r) = W31 m hpre c (Proc.devRef .tc r) :=
  StableHlo.after_of_writes_sub hostOps14 _ Kept.hostOps14_writes h
/-- Across region 14 a buffer that is no array of its windows keeps its contents. -/
theorem Wstep_reg14 (c : Dev nD) (r : Ref sig .tc) (h : ∀ w, Pipeline.arrRef spec14 w ≠ r) :
    W33 m hpre c (Proc.devRef .tc r) = W32 m hpre c (Proc.devRef .tc r) := by
  unfold W33; exact Pipeline.withArrays_of_ne spec14 c _ _ r h
/-- Across the host stretch hostOps15 a buffer it does not write keeps its contents. -/
theorem Wstep_host15 (c : Dev nD) (r : Ref sig .tc) (h : r ∉ Kept.hostOps15_W) :
    W34 m hpre c (Proc.devRef .tc r) = W33 m hpre c (Proc.devRef .tc r) :=
  StableHlo.after_of_writes_sub hostOps15 _ Kept.hostOps15_writes h
/-- Across region 15 a buffer that is no array of its windows keeps its contents. -/
theorem Wstep_reg15 (c : Dev nD) (r : Ref sig .tc) (h : ∀ w, Pipeline.arrRef spec15 w ≠ r) :
    W35 m hpre c (Proc.devRef .tc r) = W34 m hpre c (Proc.devRef .tc r) := by
  unfold W35; exact Pipeline.withArrays_of_ne spec15 c _ _ r h
/-- Across the host stretch hostOps16 a buffer it does not write keeps its contents. -/
theorem Wstep_host16 (c : Dev nD) (r : Ref sig .tc) (h : r ∉ Kept.hostOps16_W) :
    W36 m hpre c (Proc.devRef .tc r) = W35 m hpre c (Proc.devRef .tc r) :=
  StableHlo.after_of_writes_sub hostOps16 _ Kept.hostOps16_writes h
/-- Across region 16 a buffer that is no array of its windows keeps its contents. -/
theorem Wstep_reg16 (c : Dev nD) (r : Ref sig .tc) (h : ∀ w, Pipeline.arrRef spec16 w ≠ r) :
    W37 m hpre c (Proc.devRef .tc r) = W36 m hpre c (Proc.devRef .tc r) := by
  unfold W37; exact Pipeline.withArrays_of_ne spec16 c _ _ r h
/-- Across the host stretch hostOps17 a buffer it does not write keeps its contents. -/
theorem Wstep_host17 (c : Dev nD) (r : Ref sig .tc) (h : r ∉ Kept.hostOps17_W) :
    W38 m hpre c (Proc.devRef .tc r) = W37 m hpre c (Proc.devRef .tc r) :=
  StableHlo.after_of_writes_sub hostOps17 _ Kept.hostOps17_writes h
/-- Across region 17 a buffer that is no array of its windows keeps its contents. -/
theorem Wstep_reg17 (c : Dev nD) (r : Ref sig .tc) (h : ∀ w, Pipeline.arrRef spec17 w ≠ r) :
    W39 m hpre c (Proc.devRef .tc r) = W38 m hpre c (Proc.devRef .tc r) := by
  unfold W39; exact Pipeline.withArrays_of_ne spec17 c _ _ r h
/-- Across the host stretch hostOps18 a buffer it does not write keeps its contents. -/
theorem Wstep_host18 (c : Dev nD) (r : Ref sig .tc) (h : r ∉ Kept.hostOps18_W) :
    W40 m hpre c (Proc.devRef .tc r) = W39 m hpre c (Proc.devRef .tc r) :=
  StableHlo.after_of_writes_sub hostOps18 _ Kept.hostOps18_writes h
/-- Across region 18 a buffer that is no array of its windows keeps its contents. -/
theorem Wstep_reg18 (c : Dev nD) (r : Ref sig .tc) (h : ∀ w, Pipeline.arrRef spec18 w ≠ r) :
    W41 m hpre c (Proc.devRef .tc r) = W40 m hpre c (Proc.devRef .tc r) := by
  unfold W41; exact Pipeline.withArrays_of_ne spec18 c _ _ r h
/-- Across the host stretch hostOps19 a buffer it does not write keeps its contents. -/
theorem Wstep_host19 (c : Dev nD) (r : Ref sig .tc) (h : r ∉ Kept.hostOps19_W) :
    W42 m hpre c (Proc.devRef .tc r) = W41 m hpre c (Proc.devRef .tc r) :=
  StableHlo.after_of_writes_sub hostOps19 _ Kept.hostOps19_writes h
/-- Across region 19 a buffer that is no array of its windows keeps its contents. -/
theorem Wstep_reg19 (c : Dev nD) (r : Ref sig .tc) (h : ∀ w, Pipeline.arrRef spec19 w ≠ r) :
    W43 m hpre c (Proc.devRef .tc r) = W42 m hpre c (Proc.devRef .tc r) := by
  unfold W43; exact Pipeline.withArrays_of_ne spec19 c _ _ r h
/-- Across the host stretch hostOps20 a buffer it does not write keeps its contents. -/
theorem Wstep_host20 (c : Dev nD) (r : Ref sig .tc) (h : r ∉ Kept.hostOps20_W) :
    W44 m hpre c (Proc.devRef .tc r) = W43 m hpre c (Proc.devRef .tc r) :=
  StableHlo.after_of_writes_sub hostOps20 _ Kept.hostOps20_writes h

/-- Across region 0 the array of an INPUT window keeps its contents: the grid leaves an input as it found it. -/
theorem Wstep_reg0_in (c : Dev nD) (w : Fin cfg0.W) (hin : (cfg0.win w).isOut = false) :
    W4 m c (Proc.devRef .tc (Pipeline.arrRef spec0 w)) = W3 m c (Proc.devRef .tc (Pipeline.arrRef spec0 w)) := by
  unfold W4
  exact (Pipeline.withArrays_arr spec0 (launch0 (F := F)).win.arr_inj c _ _ w).trans
    (((dat0 (V3 m) c).arrAt_in w hin _).trans (A_eq0 (V3 m) c w))
/-- Across region 10 the array of an INPUT window keeps its contents. -/
theorem Wstep_reg10_in (c : Dev nD) (w : Fin cfg10.W) (hin : (cfg10.win w).isOut = false) :
    W25 m hpre c (Proc.devRef .tc (Pipeline.arrRef spec10 w)) = W24 m hpre c (Proc.devRef .tc (Pipeline.arrRef spec10 w)) := by
  unfold W25
  exact (Pipeline.withArrays_arr spec10 (launch10 (F := F)).win.arr_inj c _ _ w).trans
    (((dat10 (V24 m hpre) c).arrAt_in w hin _).trans (A_eq10 (V24 m hpre) c w))
theorem Wstep_reg0_main_arg0 (c : Dev nD) : W4 m c (Proc.devRef .tc main_arg0) = W3 m c (Proc.devRef .tc main_arg0) :=
  Wstep_reg0_in m c 0 rfl
theorem Wstep_reg0_main_arg3 (c : Dev nD) : W4 m c (Proc.devRef .tc main_arg3) = W3 m c (Proc.devRef .tc main_arg3) :=
  Wstep_reg0_in m c 1 rfl
theorem Wstep_reg10_main_arg5 (c : Dev nD) : W25 m hpre c (Proc.devRef .tc main_arg5) = W24 m hpre c (Proc.devRef .tc main_arg5) :=
  Wstep_reg10_in m hpre c 1 rfl

/-! ## The seven arguments -/

/-- main_arg0 ends as launched: no host stretch writes it and no region changes it. -/
theorem W44_main_arg0 (c : Dev nD) : W44 m hpre c (Proc.devRef .tc main_arg0) = m ((c : Thread nD τ).loc main_arg0) :=
  (Wstep_host20 m hpre c main_arg0 (by decide)).trans <|
  (Wstep_reg19 m hpre c main_arg0 (by decide)).trans <|
  (Wstep_host19 m hpre c main_arg0 (by decide)).trans <|
  (Wstep_reg18 m hpre c main_arg0 (by decide)).trans <|
  (Wstep_host18 m hpre c main_arg0 (by decide)).trans <|
  (Wstep_reg17 m hpre c main_arg0 (by decide)).trans <|
  (Wstep_host17 m hpre c main_arg0 (by decide)).trans <|
  (Wstep_reg16 m hpre c main_arg0 (by decide)).trans <|
  (Wstep_host16 m hpre c main_arg0 (by decide)).trans <|
  (Wstep_reg15 m hpre c main_arg0 (by decide)).trans <|
  (Wstep_host15 m hpre c main_arg0 (by decide)).trans <|
  (Wstep_reg14 m hpre c main_arg0 (by decide)).trans <|
  (Wstep_host14 m hpre c main_arg0 (by decide)).trans <|
  (Wstep_reg13 m hpre c main_arg0 (by decide)).trans <|
  (Wstep_host13 m hpre c main_arg0 (by decide)).trans <|
  (Wstep_reg12 m hpre c main_arg0 (by decide)).trans <|
  (Wstep_host12 m hpre c main_arg0 (by decide)).trans <|
  (Wstep_reg11 m hpre c main_arg0 (by decide)).trans <|
  (Wstep_host11 m hpre c main_arg0 (by decide)).trans <|
  (Wstep_reg10 m hpre c main_arg0 (by decide)).trans <|
  (Wstep_host10_1 m hpre c main_arg0 (by decide)).trans <|
  (Wstep_host10 m hpre c main_arg0 (by decide)).trans <|
  (Wstep_reg9 m hpre c main_arg0 (by decide)).trans <|
  (Wstep_host9 m hpre c main_arg0 (by decide)).trans <|
  (Wstep_reg8 m hpre c main_arg0 (by decide)).trans <|
  (Wstep_host8 m hpre c main_arg0 (by decide)).trans <|
  (Wstep_reg7 m hpre c main_arg0 (by decide)).trans <|
  (Wstep_host7 m hpre c main_arg0 (by decide)).trans <|
  (Wstep_reg6 m hpre c main_arg0 (by decide)).trans <|
  (Wstep_host6 m hpre c main_arg0 (by decide)).trans <|
  (Wstep_reg5 m hpre c main_arg0 (by decide)).trans <|
  (Wstep_host5 m hpre c main_arg0 (by decide)).trans <|
  (Wstep_reg4 m hpre c main_arg0 (by decide)).trans <|
  (Wstep_host4 m hpre c main_arg0 (by decide)).trans <|
  (Wstep_reg3 m hpre c main_arg0 (by decide)).trans <|
  (Wstep_host3 m hpre c main_arg0 (by decide)).trans <|
  (Wstep_reg2 m hpre c main_arg0 (by decide)).trans <|
  (Wstep_host2 m hpre c main_arg0 (by decide)).trans <|
  (Wstep_reg1 m hpre c main_arg0 (by decide)).trans <|
  (Wstep_host1 m c main_arg0 (by decide)).trans <|
  (Wstep_reg0_main_arg0 m c).trans <|
  (Wstep_host0_2 m c main_arg0 (by decide)).trans <|
  (Wstep_host0_1 m c main_arg0 (by decide)).trans <|
  (Wstep_host0 m c main_arg0 (by decide)).trans <|
  rfl
/-- main_arg1 ends as launched: no host stretch writes it and no region changes it. -/
theorem W44_main_arg1 (c : Dev nD) : W44 m hpre c (Proc.devRef .tc main_arg1) = m ((c : Thread nD τ).loc main_arg1) :=
  (Wstep_host20 m hpre c main_arg1 (by decide)).trans <|
  (Wstep_reg19 m hpre c main_arg1 (by decide)).trans <|
  (Wstep_host19 m hpre c main_arg1 (by decide)).trans <|
  (Wstep_reg18 m hpre c main_arg1 (by decide)).trans <|
  (Wstep_host18 m hpre c main_arg1 (by decide)).trans <|
  (Wstep_reg17 m hpre c main_arg1 (by decide)).trans <|
  (Wstep_host17 m hpre c main_arg1 (by decide)).trans <|
  (Wstep_reg16 m hpre c main_arg1 (by decide)).trans <|
  (Wstep_host16 m hpre c main_arg1 (by decide)).trans <|
  (Wstep_reg15 m hpre c main_arg1 (by decide)).trans <|
  (Wstep_host15 m hpre c main_arg1 (by decide)).trans <|
  (Wstep_reg14 m hpre c main_arg1 (by decide)).trans <|
  (Wstep_host14 m hpre c main_arg1 (by decide)).trans <|
  (Wstep_reg13 m hpre c main_arg1 (by decide)).trans <|
  (Wstep_host13 m hpre c main_arg1 (by decide)).trans <|
  (Wstep_reg12 m hpre c main_arg1 (by decide)).trans <|
  (Wstep_host12 m hpre c main_arg1 (by decide)).trans <|
  (Wstep_reg11 m hpre c main_arg1 (by decide)).trans <|
  (Wstep_host11 m hpre c main_arg1 (by decide)).trans <|
  (Wstep_reg10 m hpre c main_arg1 (by decide)).trans <|
  (Wstep_host10_1 m hpre c main_arg1 (by decide)).trans <|
  (Wstep_host10 m hpre c main_arg1 (by decide)).trans <|
  (Wstep_reg9 m hpre c main_arg1 (by decide)).trans <|
  (Wstep_host9 m hpre c main_arg1 (by decide)).trans <|
  (Wstep_reg8 m hpre c main_arg1 (by decide)).trans <|
  (Wstep_host8 m hpre c main_arg1 (by decide)).trans <|
  (Wstep_reg7 m hpre c main_arg1 (by decide)).trans <|
  (Wstep_host7 m hpre c main_arg1 (by decide)).trans <|
  (Wstep_reg6 m hpre c main_arg1 (by decide)).trans <|
  (Wstep_host6 m hpre c main_arg1 (by decide)).trans <|
  (Wstep_reg5 m hpre c main_arg1 (by decide)).trans <|
  (Wstep_host5 m hpre c main_arg1 (by decide)).trans <|
  (Wstep_reg4 m hpre c main_arg1 (by decide)).trans <|
  (Wstep_host4 m hpre c main_arg1 (by decide)).trans <|
  (Wstep_reg3 m hpre c main_arg1 (by decide)).trans <|
  (Wstep_host3 m hpre c main_arg1 (by decide)).trans <|
  (Wstep_reg2 m hpre c main_arg1 (by decide)).trans <|
  (Wstep_host2 m hpre c main_arg1 (by decide)).trans <|
  (Wstep_reg1 m hpre c main_arg1 (by decide)).trans <|
  (Wstep_host1 m c main_arg1 (by decide)).trans <|
  (Wstep_reg0 m c main_arg1 (by decide)).trans <|
  (Wstep_host0_2 m c main_arg1 (by decide)).trans <|
  (Wstep_host0_1 m c main_arg1 (by decide)).trans <|
  (Wstep_host0 m c main_arg1 (by decide)).trans <|
  rfl
/-- main_arg2 ends as launched: no host stretch writes it and no region changes it. -/
theorem W44_main_arg2 (c : Dev nD) : W44 m hpre c (Proc.devRef .tc main_arg2) = m ((c : Thread nD τ).loc main_arg2) :=
  (Wstep_host20 m hpre c main_arg2 (by decide)).trans <|
  (Wstep_reg19 m hpre c main_arg2 (by decide)).trans <|
  (Wstep_host19 m hpre c main_arg2 (by decide)).trans <|
  (Wstep_reg18 m hpre c main_arg2 (by decide)).trans <|
  (Wstep_host18 m hpre c main_arg2 (by decide)).trans <|
  (Wstep_reg17 m hpre c main_arg2 (by decide)).trans <|
  (Wstep_host17 m hpre c main_arg2 (by decide)).trans <|
  (Wstep_reg16 m hpre c main_arg2 (by decide)).trans <|
  (Wstep_host16 m hpre c main_arg2 (by decide)).trans <|
  (Wstep_reg15 m hpre c main_arg2 (by decide)).trans <|
  (Wstep_host15 m hpre c main_arg2 (by decide)).trans <|
  (Wstep_reg14 m hpre c main_arg2 (by decide)).trans <|
  (Wstep_host14 m hpre c main_arg2 (by decide)).trans <|
  (Wstep_reg13 m hpre c main_arg2 (by decide)).trans <|
  (Wstep_host13 m hpre c main_arg2 (by decide)).trans <|
  (Wstep_reg12 m hpre c main_arg2 (by decide)).trans <|
  (Wstep_host12 m hpre c main_arg2 (by decide)).trans <|
  (Wstep_reg11 m hpre c main_arg2 (by decide)).trans <|
  (Wstep_host11 m hpre c main_arg2 (by decide)).trans <|
  (Wstep_reg10 m hpre c main_arg2 (by decide)).trans <|
  (Wstep_host10_1 m hpre c main_arg2 (by decide)).trans <|
  (Wstep_host10 m hpre c main_arg2 (by decide)).trans <|
  (Wstep_reg9 m hpre c main_arg2 (by decide)).trans <|
  (Wstep_host9 m hpre c main_arg2 (by decide)).trans <|
  (Wstep_reg8 m hpre c main_arg2 (by decide)).trans <|
  (Wstep_host8 m hpre c main_arg2 (by decide)).trans <|
  (Wstep_reg7 m hpre c main_arg2 (by decide)).trans <|
  (Wstep_host7 m hpre c main_arg2 (by decide)).trans <|
  (Wstep_reg6 m hpre c main_arg2 (by decide)).trans <|
  (Wstep_host6 m hpre c main_arg2 (by decide)).trans <|
  (Wstep_reg5 m hpre c main_arg2 (by decide)).trans <|
  (Wstep_host5 m hpre c main_arg2 (by decide)).trans <|
  (Wstep_reg4 m hpre c main_arg2 (by decide)).trans <|
  (Wstep_host4 m hpre c main_arg2 (by decide)).trans <|
  (Wstep_reg3 m hpre c main_arg2 (by decide)).trans <|
  (Wstep_host3 m hpre c main_arg2 (by decide)).trans <|
  (Wstep_reg2 m hpre c main_arg2 (by decide)).trans <|
  (Wstep_host2 m hpre c main_arg2 (by decide)).trans <|
  (Wstep_reg1 m hpre c main_arg2 (by decide)).trans <|
  (Wstep_host1 m c main_arg2 (by decide)).trans <|
  (Wstep_reg0 m c main_arg2 (by decide)).trans <|
  (Wstep_host0_2 m c main_arg2 (by decide)).trans <|
  (Wstep_host0_1 m c main_arg2 (by decide)).trans <|
  (Wstep_host0 m c main_arg2 (by decide)).trans <|
  rfl
/-- main_arg3 ends as launched: no host stretch writes it and no region changes it. -/
theorem W44_main_arg3 (c : Dev nD) : W44 m hpre c (Proc.devRef .tc main_arg3) = m ((c : Thread nD τ).loc main_arg3) :=
  (Wstep_host20 m hpre c main_arg3 (by decide)).trans <|
  (Wstep_reg19 m hpre c main_arg3 (by decide)).trans <|
  (Wstep_host19 m hpre c main_arg3 (by decide)).trans <|
  (Wstep_reg18 m hpre c main_arg3 (by decide)).trans <|
  (Wstep_host18 m hpre c main_arg3 (by decide)).trans <|
  (Wstep_reg17 m hpre c main_arg3 (by decide)).trans <|
  (Wstep_host17 m hpre c main_arg3 (by decide)).trans <|
  (Wstep_reg16 m hpre c main_arg3 (by decide)).trans <|
  (Wstep_host16 m hpre c main_arg3 (by decide)).trans <|
  (Wstep_reg15 m hpre c main_arg3 (by decide)).trans <|
  (Wstep_host15 m hpre c main_arg3 (by decide)).trans <|
  (Wstep_reg14 m hpre c main_arg3 (by decide)).trans <|
  (Wstep_host14 m hpre c main_arg3 (by decide)).trans <|
  (Wstep_reg13 m hpre c main_arg3 (by decide)).trans <|
  (Wstep_host13 m hpre c main_arg3 (by decide)).trans <|
  (Wstep_reg12 m hpre c main_arg3 (by decide)).trans <|
  (Wstep_host12 m hpre c main_arg3 (by decide)).trans <|
  (Wstep_reg11 m hpre c main_arg3 (by decide)).trans <|
  (Wstep_host11 m hpre c main_arg3 (by decide)).trans <|
  (Wstep_reg10 m hpre c main_arg3 (by decide)).trans <|
  (Wstep_host10_1 m hpre c main_arg3 (by decide)).trans <|
  (Wstep_host10 m hpre c main_arg3 (by decide)).trans <|
  (Wstep_reg9 m hpre c main_arg3 (by decide)).trans <|
  (Wstep_host9 m hpre c main_arg3 (by decide)).trans <|
  (Wstep_reg8 m hpre c main_arg3 (by decide)).trans <|
  (Wstep_host8 m hpre c main_arg3 (by decide)).trans <|
  (Wstep_reg7 m hpre c main_arg3 (by decide)).trans <|
  (Wstep_host7 m hpre c main_arg3 (by decide)).trans <|
  (Wstep_reg6 m hpre c main_arg3 (by decide)).trans <|
  (Wstep_host6 m hpre c main_arg3 (by decide)).trans <|
  (Wstep_reg5 m hpre c main_arg3 (by decide)).trans <|
  (Wstep_host5 m hpre c main_arg3 (by decide)).trans <|
  (Wstep_reg4 m hpre c main_arg3 (by decide)).trans <|
  (Wstep_host4 m hpre c main_arg3 (by decide)).trans <|
  (Wstep_reg3 m hpre c main_arg3 (by decide)).trans <|
  (Wstep_host3 m hpre c main_arg3 (by decide)).trans <|
  (Wstep_reg2 m hpre c main_arg3 (by decide)).trans <|
  (Wstep_host2 m hpre c main_arg3 (by decide)).trans <|
  (Wstep_reg1 m hpre c main_arg3 (by decide)).trans <|
  (Wstep_host1 m c main_arg3 (by decide)).trans <|
  (Wstep_reg0_main_arg3 m c).trans <|
  (Wstep_host0_2 m c main_arg3 (by decide)).trans <|
  (Wstep_host0_1 m c main_arg3 (by decide)).trans <|
  (Wstep_host0 m c main_arg3 (by decide)).trans <|
  rfl
/-- main_arg4 ends as launched: no host stretch writes it and no region changes it. -/
theorem W44_main_arg4 (c : Dev nD) : W44 m hpre c (Proc.devRef .tc main_arg4) = m ((c : Thread nD τ).loc main_arg4) :=
  (Wstep_host20 m hpre c main_arg4 (by decide)).trans <|
  (Wstep_reg19 m hpre c main_arg4 (by decide)).trans <|
  (Wstep_host19 m hpre c main_arg4 (by decide)).trans <|
  (Wstep_reg18 m hpre c main_arg4 (by decide)).trans <|
  (Wstep_host18 m hpre c main_arg4 (by decide)).trans <|
  (Wstep_reg17 m hpre c main_arg4 (by decide)).trans <|
  (Wstep_host17 m hpre c main_arg4 (by decide)).trans <|
  (Wstep_reg16 m hpre c main_arg4 (by decide)).trans <|
  (Wstep_host16 m hpre c main_arg4 (by decide)).trans <|
  (Wstep_reg15 m hpre c main_arg4 (by decide)).trans <|
  (Wstep_host15 m hpre c main_arg4 (by decide)).trans <|
  (Wstep_reg14 m hpre c main_arg4 (by decide)).trans <|
  (Wstep_host14 m hpre c main_arg4 (by decide)).trans <|
  (Wstep_reg13 m hpre c main_arg4 (by decide)).trans <|
  (Wstep_host13 m hpre c main_arg4 (by decide)).trans <|
  (Wstep_reg12 m hpre c main_arg4 (by decide)).trans <|
  (Wstep_host12 m hpre c main_arg4 (by decide)).trans <|
  (Wstep_reg11 m hpre c main_arg4 (by decide)).trans <|
  (Wstep_host11 m hpre c main_arg4 (by decide)).trans <|
  (Wstep_reg10 m hpre c main_arg4 (by decide)).trans <|
  (Wstep_host10_1 m hpre c main_arg4 (by decide)).trans <|
  (Wstep_host10 m hpre c main_arg4 (by decide)).trans <|
  (Wstep_reg9 m hpre c main_arg4 (by decide)).trans <|
  (Wstep_host9 m hpre c main_arg4 (by decide)).trans <|
  (Wstep_reg8 m hpre c main_arg4 (by decide)).trans <|
  (Wstep_host8 m hpre c main_arg4 (by decide)).trans <|
  (Wstep_reg7 m hpre c main_arg4 (by decide)).trans <|
  (Wstep_host7 m hpre c main_arg4 (by decide)).trans <|
  (Wstep_reg6 m hpre c main_arg4 (by decide)).trans <|
  (Wstep_host6 m hpre c main_arg4 (by decide)).trans <|
  (Wstep_reg5 m hpre c main_arg4 (by decide)).trans <|
  (Wstep_host5 m hpre c main_arg4 (by decide)).trans <|
  (Wstep_reg4 m hpre c main_arg4 (by decide)).trans <|
  (Wstep_host4 m hpre c main_arg4 (by decide)).trans <|
  (Wstep_reg3 m hpre c main_arg4 (by decide)).trans <|
  (Wstep_host3 m hpre c main_arg4 (by decide)).trans <|
  (Wstep_reg2 m hpre c main_arg4 (by decide)).trans <|
  (Wstep_host2 m hpre c main_arg4 (by decide)).trans <|
  (Wstep_reg1 m hpre c main_arg4 (by decide)).trans <|
  (Wstep_host1 m c main_arg4 (by decide)).trans <|
  (Wstep_reg0 m c main_arg4 (by decide)).trans <|
  (Wstep_host0_2 m c main_arg4 (by decide)).trans <|
  (Wstep_host0_1 m c main_arg4 (by decide)).trans <|
  (Wstep_host0 m c main_arg4 (by decide)).trans <|
  rfl
/-- main_arg5 ends as launched: no host stretch writes it and no region changes it. -/
theorem W44_main_arg5 (c : Dev nD) : W44 m hpre c (Proc.devRef .tc main_arg5) = m ((c : Thread nD τ).loc main_arg5) :=
  (Wstep_host20 m hpre c main_arg5 (by decide)).trans <|
  (Wstep_reg19 m hpre c main_arg5 (by decide)).trans <|
  (Wstep_host19 m hpre c main_arg5 (by decide)).trans <|
  (Wstep_reg18 m hpre c main_arg5 (by decide)).trans <|
  (Wstep_host18 m hpre c main_arg5 (by decide)).trans <|
  (Wstep_reg17 m hpre c main_arg5 (by decide)).trans <|
  (Wstep_host17 m hpre c main_arg5 (by decide)).trans <|
  (Wstep_reg16 m hpre c main_arg5 (by decide)).trans <|
  (Wstep_host16 m hpre c main_arg5 (by decide)).trans <|
  (Wstep_reg15 m hpre c main_arg5 (by decide)).trans <|
  (Wstep_host15 m hpre c main_arg5 (by decide)).trans <|
  (Wstep_reg14 m hpre c main_arg5 (by decide)).trans <|
  (Wstep_host14 m hpre c main_arg5 (by decide)).trans <|
  (Wstep_reg13 m hpre c main_arg5 (by decide)).trans <|
  (Wstep_host13 m hpre c main_arg5 (by decide)).trans <|
  (Wstep_reg12 m hpre c main_arg5 (by decide)).trans <|
  (Wstep_host12 m hpre c main_arg5 (by decide)).trans <|
  (Wstep_reg11 m hpre c main_arg5 (by decide)).trans <|
  (Wstep_host11 m hpre c main_arg5 (by decide)).trans <|
  (Wstep_reg10_main_arg5 m hpre c).trans <|
  (Wstep_host10_1 m hpre c main_arg5 (by decide)).trans <|
  (Wstep_host10 m hpre c main_arg5 (by decide)).trans <|
  (Wstep_reg9 m hpre c main_arg5 (by decide)).trans <|
  (Wstep_host9 m hpre c main_arg5 (by decide)).trans <|
  (Wstep_reg8 m hpre c main_arg5 (by decide)).trans <|
  (Wstep_host8 m hpre c main_arg5 (by decide)).trans <|
  (Wstep_reg7 m hpre c main_arg5 (by decide)).trans <|
  (Wstep_host7 m hpre c main_arg5 (by decide)).trans <|
  (Wstep_reg6 m hpre c main_arg5 (by decide)).trans <|
  (Wstep_host6 m hpre c main_arg5 (by decide)).trans <|
  (Wstep_reg5 m hpre c main_arg5 (by decide)).trans <|
  (Wstep_host5 m hpre c main_arg5 (by decide)).trans <|
  (Wstep_reg4 m hpre c main_arg5 (by decide)).trans <|
  (Wstep_host4 m hpre c main_arg5 (by decide)).trans <|
  (Wstep_reg3 m hpre c main_arg5 (by decide)).trans <|
  (Wstep_host3 m hpre c main_arg5 (by decide)).trans <|
  (Wstep_reg2 m hpre c main_arg5 (by decide)).trans <|
  (Wstep_host2 m hpre c main_arg5 (by decide)).trans <|
  (Wstep_reg1 m hpre c main_arg5 (by decide)).trans <|
  (Wstep_host1 m c main_arg5 (by decide)).trans <|
  (Wstep_reg0 m c main_arg5 (by decide)).trans <|
  (Wstep_host0_2 m c main_arg5 (by decide)).trans <|
  (Wstep_host0_1 m c main_arg5 (by decide)).trans <|
  (Wstep_host0 m c main_arg5 (by decide)).trans <|
  rfl
/-- main_arg6 ends as launched: no host stretch writes it and no region changes it. -/
theorem W44_main_arg6 (c : Dev nD) : W44 m hpre c (Proc.devRef .tc main_arg6) = m ((c : Thread nD τ).loc main_arg6) :=
  (Wstep_host20 m hpre c main_arg6 (by decide)).trans <|
  (Wstep_reg19 m hpre c main_arg6 (by decide)).trans <|
  (Wstep_host19 m hpre c main_arg6 (by decide)).trans <|
  (Wstep_reg18 m hpre c main_arg6 (by decide)).trans <|
  (Wstep_host18 m hpre c main_arg6 (by decide)).trans <|
  (Wstep_reg17 m hpre c main_arg6 (by decide)).trans <|
  (Wstep_host17 m hpre c main_arg6 (by decide)).trans <|
  (Wstep_reg16 m hpre c main_arg6 (by decide)).trans <|
  (Wstep_host16 m hpre c main_arg6 (by decide)).trans <|
  (Wstep_reg15 m hpre c main_arg6 (by decide)).trans <|
  (Wstep_host15 m hpre c main_arg6 (by decide)).trans <|
  (Wstep_reg14 m hpre c main_arg6 (by decide)).trans <|
  (Wstep_host14 m hpre c main_arg6 (by decide)).trans <|
  (Wstep_reg13 m hpre c main_arg6 (by decide)).trans <|
  (Wstep_host13 m hpre c main_arg6 (by decide)).trans <|
  (Wstep_reg12 m hpre c main_arg6 (by decide)).trans <|
  (Wstep_host12 m hpre c main_arg6 (by decide)).trans <|
  (Wstep_reg11 m hpre c main_arg6 (by decide)).trans <|
  (Wstep_host11 m hpre c main_arg6 (by decide)).trans <|
  (Wstep_reg10 m hpre c main_arg6 (by decide)).trans <|
  (Wstep_host10_1 m hpre c main_arg6 (by decide)).trans <|
  (Wstep_host10 m hpre c main_arg6 (by decide)).trans <|
  (Wstep_reg9 m hpre c main_arg6 (by decide)).trans <|
  (Wstep_host9 m hpre c main_arg6 (by decide)).trans <|
  (Wstep_reg8 m hpre c main_arg6 (by decide)).trans <|
  (Wstep_host8 m hpre c main_arg6 (by decide)).trans <|
  (Wstep_reg7 m hpre c main_arg6 (by decide)).trans <|
  (Wstep_host7 m hpre c main_arg6 (by decide)).trans <|
  (Wstep_reg6 m hpre c main_arg6 (by decide)).trans <|
  (Wstep_host6 m hpre c main_arg6 (by decide)).trans <|
  (Wstep_reg5 m hpre c main_arg6 (by decide)).trans <|
  (Wstep_host5 m hpre c main_arg6 (by decide)).trans <|
  (Wstep_reg4 m hpre c main_arg6 (by decide)).trans <|
  (Wstep_host4 m hpre c main_arg6 (by decide)).trans <|
  (Wstep_reg3 m hpre c main_arg6 (by decide)).trans <|
  (Wstep_host3 m hpre c main_arg6 (by decide)).trans <|
  (Wstep_reg2 m hpre c main_arg6 (by decide)).trans <|
  (Wstep_host2 m hpre c main_arg6 (by decide)).trans <|
  (Wstep_reg1 m hpre c main_arg6 (by decide)).trans <|
  (Wstep_host1 m c main_arg6 (by decide)).trans <|
  (Wstep_reg0 m c main_arg6 (by decide)).trans <|
  (Wstep_host0_2 m c main_arg6 (by decide)).trans <|
  (Wstep_host0_1 m c main_arg6 (by decide)).trans <|
  (Wstep_host0 m c main_arg6 (by decide)).trans <|
  rfl

end Cert.Kernel.Hand

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.RefValue.lean ====
/-
  THE REFERENCE SIDE: what the plain two-layer graph convolution computes, as ONE function of its seven arguments,
  cut into named stages.

  The reference appends the 50000 self loops (i, i), each of weight 1, to the 400000 given edges: 450000 edges.
  Stages, each the composition of the program's own operations over abstract arrays:
    * rowRaw, colRaw : the sources and the targets of the 450000 edges; wrapIdx : a negative index counted from the end
      (i < 0 ↦ i + 50000); rowN = wrapIdx ∘ rowRaw, colV = colRaw;
    * ewV : the 450000 edge weights; degV : the weighted in-degree (segment sum by target); dinvV : 1/√deg where deg > 0,
      else 0; normV e = dinv[row e] · w e · dinv[col e];
    * one layer (two shapes: 262 → 512 and 512 → 262): xw = x · W; msg (e, j) = norm e · xw[row e, j];
      agg (n, j) = ∑ over the edges with target n of msg (e, j); + bias;
    * refResult = layer2 (relu (layer1 x)).
  run_ref: every execution of the reference ends with its result at refResult of the arguments, the arguments unchanged.
  msg1_apply / msg2_apply: the message stage read at (e, j) when the source of edge e is a row of the table.
-/
import proofs.«414392_j7919919694132_2_alg».proof.Defs
import proofs.«414392_j7919919694132_2_alg».proof.Proof.Gen.ReferenceIdeal.Run
import proofs.«414392_j7919919694132_2_alg».proof.Proof.Gen.Pre_finite_inputs
import proofs.«414392_j7919919694132_2_alg».proof.Proof.LibGatherScatter
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The edge lists -/

/-- The sources of the 450000 edges: row 0 of the edge table, then the self loops 0, 1, …, 49999. -/
def rowRaw (a1 : (⟨S2x400000, .i32⟩ : BufTy).Contents (Elt F)) : (⟨S450000, .i32⟩ : BufTy).Contents (Elt F) :=
  concatenate S450000 0 [⟨S400000, (shapeCast _ (extractStridedSlice S1x400000 ![0, 0] a1 slices_S2x400000_S1x400000_0_0) shapeCasts_S1x400000_S400000)⟩, ⟨S50000, (iotaInDim S50000 32 0)⟩] concatenates_S400000_S50000_S450000_d0

/-- The targets of the 450000 edges: row 1 of the edge table, then the self loops 0, 1, …, 49999. -/
def colRaw (a1 : (⟨S2x400000, .i32⟩ : BufTy).Contents (Elt F)) : (⟨S450000, .i32⟩ : BufTy).Contents (Elt F) :=
  concatenate S450000 0 [⟨S400000, (shapeCast _ (extractStridedSlice S1x400000 ![1, 0] a1 slices_S2x400000_S1x400000_1_0) shapeCasts_S1x400000_S400000)⟩, ⟨S50000, (iotaInDim S50000 32 0)⟩] concatenates_S400000_S50000_S450000_d0

/-- A negative index counts from the end: i < 0 ↦ i + 50000, else i. -/
def wrapIdx (r : (⟨S450000, .i32⟩ : BufTy).Contents (Elt F)) : (⟨S450000, .i32⟩ : BufTy).Contents (Elt F) :=
  select (cmpi .slt r (broadcastInDim S450000 ![] bcast_S_S450000 (constantI S_ 32 0#32))) (addi r (broadcastInDim S450000 ![] bcast_S_S450000 (constantI S_ 32 50000#32))) r

/-- The sources, negative ones counted from the end. -/
def rowN (a1 : (⟨S2x400000, .i32⟩ : BufTy).Contents (Elt F)) : (⟨S450000, .i32⟩ : BufTy).Contents (Elt F) :=
  wrapIdx (F := F) (rowRaw (F := F) a1)

/-- The targets, as the aggregation uses them. -/
def colV (a1 : (⟨S2x400000, .i32⟩ : BufTy).Contents (Elt F)) : (⟨S450000, .i32⟩ : BufTy).Contents (Elt F) :=
  colRaw (F := F) a1

/-! ## The symmetric normalisation -/

/-- The 450000 edge weights: the given ones, then 1 for each self loop. -/
def ewV (a2 : (⟨S400000, .f32⟩ : BufTy).Contents (Elt F)) : (⟨S450000, .f32⟩ : BufTy).Contents (Elt F) :=
  concatenate S450000 0 [⟨S400000, a2⟩, ⟨S50000, (broadcastInDim S50000 ![] bcast_S_S50000 (constant S_ .f32 0x3F800000#32))⟩] concatenates_S400000_S50000_S450000_d0

/-- The weighted in-degree of each node: the sum of the weights of the edges whose target it is. -/
def degV (a1 : (⟨S2x400000, .i32⟩ : BufTy).Contents (Elt F)) (a2 : (⟨S400000, .f32⟩ : BufTy).Contents (Elt F)) : (⟨S50000, .f32⟩ : BufTy).Contents (Elt F) :=
  Host.scatterAdd scatter_S50000_S450000x1_S450000_n_0_0_1 (broadcastInDim S50000 ![] bcast_S_S50000 (constant S_ .f32 0x00000000#32)) (broadcastInDim S450000x1 ![0] bcast_S450000_S450000x1_0 (colRaw (F := F) a1)) (ewV (F := F) a2)

/-- 1/√deg where deg > 0, else 0. -/
def dinvV (a1 : (⟨S2x400000, .i32⟩ : BufTy).Contents (Elt F)) (a2 : (⟨S400000, .f32⟩ : BufTy).Contents (Elt F)) : (⟨S50000, .f32⟩ : BufTy).Contents (Elt F) :=
  select (cmpf .ogt (degV (F := F) a1 a2) (broadcastInDim S50000 ![] bcast_S_S50000 (constant S_ .f32 0x00000000#32))) (Host.rsqrt (maximumf (degV (F := F) a1 a2) (broadcastInDim S50000 ![] bcast_S_S50000 (constant S_ .f32 0x0DA24260#32)))) (broadcastInDim S50000 ![] bcast_S_S50000 (id (constant S_ .f32 0x00000000#32)))

/-- The coefficient of each edge: dinv[source] · weight · dinv[target]. -/
def normV (a1 : (⟨S2x400000, .i32⟩ : BufTy).Contents (Elt F)) (a2 : (⟨S400000, .f32⟩ : BufTy).Contents (Elt F)) : (⟨S450000, .f32⟩ : BufTy).Contents (Elt F) :=
  mulf (mulf (Host.gather gather_S50000_S450000x1_S450000_n_0_n_n_0_1_1 (dinvV (F := F) a1 a2) (broadcastInDim S450000x1 ![0] bcast_S450000_S450000x1_0 (rowN (F := F) a1))) (ewV (F := F) a2)) (Host.gather gather_S50000_S450000x1_S450000_n_0_n_n_0_1_1 (dinvV (F := F) a1 a2) (broadcastInDim S450000x1 ![0] bcast_S450000_S450000x1_0 (wrapIdx (F := F) (colRaw (F := F) a1))))

/-! ## Layer 1: 262 → 512 -/

/-- x · W. -/
def xw1 (x : (⟨S50000x262, .f32⟩ : BufTy).Contents (Elt F)) (W : (⟨S262x512, .f32⟩ : BufTy).Contents (Elt F)) : (⟨S50000x512, .f32⟩ : BufTy).Contents (Elt F) :=
  Host.dotGeneral dot_S50000x262_S262x512_S50000x512_1_0_0_1_n_n none x W

/-- The messages: msg (e, j) = norm e · xw[row e, j]. -/
def msg1 (xw : (⟨S50000x512, .f32⟩ : BufTy).Contents (Elt F)) (row : (⟨S450000, .i32⟩ : BufTy).Contents (Elt F)) (norm : (⟨S450000, .f32⟩ : BufTy).Contents (Elt F)) : (⟨S450000x512, .f32⟩ : BufTy).Contents (Elt F) :=
  mulf (broadcastInDim S450000x512 ![0, 1] bcast_S450000x1_S450000x512_0_1 (broadcastInDim S450000x1 ![0] bcast_S450000_S450000x1_0 norm)) (Host.gather gather_S50000x512_S450000x1_S450000x512_1_0_n_n_0_1_1512 xw (broadcastInDim S450000x1 ![0] bcast_S450000_S450000x1_0 row))

/-- The aggregation: agg (n, j) = ∑ over the edges e with target n of msg (e, j). -/
def agg1 (col : (⟨S450000, .i32⟩ : BufTy).Contents (Elt F)) (msg : (⟨S450000x512, .f32⟩ : BufTy).Contents (Elt F)) : (⟨S50000x512, .f32⟩ : BufTy).Contents (Elt F) :=
  Host.scatterAdd scatter_S50000x512_S450000x1_S450000x512_1_0_0_1 (broadcastInDim S50000x512 ![] bcast_S_S50000x512 (constant S_ .f32 0x00000000#32)) (broadcastInDim S450000x1 ![0] bcast_S450000_S450000x1_0 col) msg

/-- Adding the bias to every row. -/
def bias1 (y : (⟨S50000x512, .f32⟩ : BufTy).Contents (Elt F)) (b : (⟨S512, .f32⟩ : BufTy).Contents (Elt F)) : (⟨S50000x512, .f32⟩ : BufTy).Contents (Elt F) :=
  addf y (broadcastInDim S50000x512 ![0, 1] bcast_S1x512_S50000x512_0_1 (broadcastInDim S1x512 ![1] bcast_S512_S1x512_1 b))

/-- Layer 1: from the product x · W to the sum with the bias. -/
def layer1R (x : (⟨S50000x262, .f32⟩ : BufTy).Contents (Elt F)) (W : (⟨S262x512, .f32⟩ : BufTy).Contents (Elt F)) (b : (⟨S512, .f32⟩ : BufTy).Contents (Elt F))
    (row col : (⟨S450000, .i32⟩ : BufTy).Contents (Elt F)) (norm : (⟨S450000, .f32⟩ : BufTy).Contents (Elt F)) : (⟨S50000x512, .f32⟩ : BufTy).Contents (Elt F) :=
  bias1 (F := F) (agg1 (F := F) col (msg1 (F := F) (xw1 (F := F) x W) row norm)) b

/-- max(·, 0), element by element. -/
def relu1 (y : (⟨S50000x512, .f32⟩ : BufTy).Contents (Elt F)) : (⟨S50000x512, .f32⟩ : BufTy).Contents (Elt F) :=
  maximumf y (broadcastInDim S50000x512 ![] bcast_S_S50000x512 (constant S_ .f32 0x00000000#32))

/-! ## Layer 2: 512 → 262 -/

/-- h · W. -/
def xw2 (x : (⟨S50000x512, .f32⟩ : BufTy).Contents (Elt F)) (W : (⟨S512x262, .f32⟩ : BufTy).Contents (Elt F)) : (⟨S50000x262, .f32⟩ : BufTy).Contents (Elt F) :=
  Host.dotGeneral dot_S50000x512_S512x262_S50000x262_1_0_0_1_n_n none x W

/-- The messages: msg (e, j) = norm e · xw[row e, j]. -/
def msg2 (xw : (⟨S50000x262, .f32⟩ : BufTy).Contents (Elt F)) (row : (⟨S450000, .i32⟩ : BufTy).Contents (Elt F)) (norm : (⟨S450000, .f32⟩ : BufTy).Contents (Elt F)) : (⟨S450000x262, .f32⟩ : BufTy).Contents (Elt F) :=
  mulf (broadcastInDim S450000x262 ![0, 1] bcast_S450000x1_S450000x262_0_1 (broadcastInDim S450000x1 ![0] bcast_S450000_S450000x1_0 norm)) (Host.gather gather_S50000x262_S450000x1_S450000x262_1_0_n_n_0_1_1262 xw (broadcastInDim S450000x1 ![0] bcast_S450000_S450000x1_0 row))

/-- The aggregation: agg (n, j) = ∑ over the edges e with target n of msg (e, j). -/
def agg2 (col : (⟨S450000, .i32⟩ : BufTy).Contents (Elt F)) (msg : (⟨S450000x262, .f32⟩ : BufTy).Contents (Elt F)) : (⟨S50000x262, .f32⟩ : BufTy).Contents (Elt F) :=
  Host.scatterAdd scatter_S50000x262_S450000x1_S450000x262_1_0_0_1 (broadcastInDim S50000x262 ![] bcast_S_S50000x262 (constant S_ .f32 0x00000000#32)) (broadcastInDim S450000x1 ![0] bcast_S450000_S450000x1_0 col) msg

/-- Adding the bias to every row. -/
def bias2 (y : (⟨S50000x262, .f32⟩ : BufTy).Contents (Elt F)) (b : (⟨S262, .f32⟩ : BufTy).Contents (Elt F)) : (⟨S50000x262, .f32⟩ : BufTy).Contents (Elt F) :=
  addf y (broadcastInDim S50000x262 ![0, 1] bcast_S1x262_S50000x262_0_1 (broadcastInDim S1x262 ![1] bcast_S262_S1x262_1 b))

/-- Layer 2: from the product h · W to the sum with the bias. -/
def layer2R (x : (⟨S50000x512, .f32⟩ : BufTy).Contents (Elt F)) (W : (⟨S512x262, .f32⟩ : BufTy).Contents (Elt F)) (b : (⟨S262, .f32⟩ : BufTy).Contents (Elt F))
    (row col : (⟨S450000, .i32⟩ : BufTy).Contents (Elt F)) (norm : (⟨S450000, .f32⟩ : BufTy).Contents (Elt F)) : (⟨S50000x262, .f32⟩ : BufTy).Contents (Elt F) :=
  bias2 (F := F) (agg2 (F := F) col (msg2 (F := F) (xw2 (F := F) x W) row norm)) b

/-! ## The whole -/

/-- The reference's result as one function of its seven arguments. -/
def refResult (a0 : (⟨S50000x262, .f32⟩ : BufTy).Contents (Elt F)) (a1 : (⟨S2x400000, .i32⟩ : BufTy).Contents (Elt F)) (a2 : (⟨S400000, .f32⟩ : BufTy).Contents (Elt F))
    (a3 : (⟨S262x512, .f32⟩ : BufTy).Contents (Elt F)) (a4 : (⟨S512, .f32⟩ : BufTy).Contents (Elt F)) (a5 : (⟨S512x262, .f32⟩ : BufTy).Contents (Elt F))
    (a6 : (⟨S262, .f32⟩ : BufTy).Contents (Elt F)) : (⟨S50000x262, .f32⟩ : BufTy).Contents (Elt F) :=
  layer2R (F := F) (relu1 (F := F) (layer1R (F := F) a0 a3 a4 (rowN (F := F) a1) (colV (F := F) a1) (normV (F := F) a1 a2))) a5 a6
    (rowN (F := F) a1) (colV (F := F) a1) (normV (F := F) a1 a2)

set_option maxRecDepth 16384 in
set_option maxHeartbeats 4000000 in
/-- The run's composed term is refResult of the arguments. -/
theorem res_eq (m : (ℓ : Loc nD τ sig) → Buf (Elt F) ℓ) (c : Dev nD) :
    Cert.ReferenceIdeal.Value.res_main_v68 m c = refResult (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.Value.res_main_v68; rfl

/-- Every weakly fair execution of the reference terminates with its result at refResult of the arguments' launch
    contents, the arguments unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68) = refResult (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_eq m c), (h c).2⟩) (Cert.ReferenceIdeal.Value.run (F := F) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-! ## The message stage read at one element -/

/-- A word below 50000 read unsigned is the same number read signed. -/
theorem toInt_of_lt (w : BitVec 32) (h : w.toNat < 50000) : w.toInt = (w.toNat : Int) := by
  unfold BitVec.toInt
  split <;> omega

/-- A vector laid as a column: the column's element (e, 0) is the vector's element e. -/
theorem col_apply {α : Type} (v : S450000.Idx → α) (e : Fin 450000) (z : Fin 1) :
    broadcastInDim S450000x1 ![0] bcast_S450000_S450000x1_0 v (ix2 e z) = v (ix1 e) :=
  broadcastInDim_apply _ bcast_S450000_S450000x1_0 v (ix2 e z) (ix1 e) (fun a => match a with
    | ⟨0, _⟩ => by show e.val = if (450000 : Nat) = 1 then 0 else e.val; rw [if_neg (by decide)])

/-- A column repeated along 512 lanes: the element (e, j) is the column's element (e, 0). -/
theorem lanes512_apply {α : Type} (v : S450000x1.Idx → α) (e : Fin 450000) (j : Fin 512) :
    broadcastInDim S450000x512 ![0, 1] bcast_S450000x1_S450000x512_0_1 v (ix2 e j) = v (ix2 e (0 : Fin 1)) :=
  broadcastInDim_apply _ bcast_S450000x1_S450000x512_0_1 v (ix2 e j) (ix2 e (0 : Fin 1)) (fun a => match a with
    | ⟨0, _⟩ => by show e.val = if (450000 : Nat) = 1 then 0 else e.val; rw [if_neg (by decide)]
    | ⟨1, _⟩ => by show 0 = if (1 : Nat) = 1 then 0 else j.val; rw [if_pos rfl])

/-- A column repeated along 262 lanes: the element (e, j) is the column's element (e, 0). -/
theorem lanes262_apply {α : Type} (v : S450000x1.Idx → α) (e : Fin 450000) (j : Fin 262) :
    broadcastInDim S450000x262 ![0, 1] bcast_S450000x1_S450000x262_0_1 v (ix2 e j) = v (ix2 e (0 : Fin 1)) :=
  broadcastInDim_apply _ bcast_S450000x1_S450000x262_0_1 v (ix2 e j) (ix2 e (0 : Fin 1)) (fun a => match a with
    | ⟨0, _⟩ => by show e.val = if (450000 : Nat) = 1 then 0 else e.val; rw [if_neg (by decide)]
    | ⟨1, _⟩ => by show 0 = if (1 : Nat) = 1 then 0 else j.val; rw [if_pos rfl])

/-- Layer 1's message at (e, j), the source of edge e a row of the table: norm e · xw[row e, j]. -/
theorem msg1_apply (xw : FVec Ideal S50000x512 .f32) (row : IVec S450000 32) (norm : FVec Ideal S450000 .f32)
    (e : Fin 450000) (j : Fin 512) (h : (row (ix1 e)).toNat < 50000) :
    msg1 (F := Ideal) xw row norm (ix2 e j) = norm (ix1 e) * xw (ix2 ⟨(row (ix1 e)).toNat, h⟩ j) := by
  have hi : (broadcastInDim S450000x1 ![0] bcast_S450000_S450000x1_0 row) (ix2 e (0 : Fin 1)) = row (ix1 e) :=
    col_apply row e 0
  have hs := toInt_of_lt _ h
  unfold msg1
  show FloatOps.mulf (broadcastInDim S450000x512 ![0, 1] bcast_S450000x1_S450000x512_0_1
      (broadcastInDim S450000x1 ![0] bcast_S450000_S450000x1_0 norm) (ix2 e j))
    (Host.gather gather_S50000x512_S450000x1_S450000x512_1_0_n_n_0_1_1512 xw
      (broadcastInDim S450000x1 ![0] bcast_S450000_S450000x1_0 row) (ix2 e j)) = _
  rw [lanes512_apply, col_apply, Ideal.mulf_def,
    Cert.Bridge.GS.gather_apply_of_inRange gather_S50000x512_S450000x1_S450000x512_1_0_n_n_0_1_1512 rfl rfl rfl rfl rfl xw _ e j
      (by rw [hi, hs]; omega) (by rw [hi, hs]; omega)]
  refine congrArg (fun r => norm (ix1 e) * xw (ix2 r j)) (Fin.ext ?_)
  show ((broadcastInDim S450000x1 ![0] bcast_S450000_S450000x1_0 row) (ix2 e (0 : Fin 1))).toInt.toNat = (row (ix1 e)).toNat
  rw [hi, hs]; rfl

/-- Layer 2's message at (e, j), the source of edge e a row of the table: norm e · xw[row e, j]. -/
theorem msg2_apply (xw : FVec Ideal S50000x262 .f32) (row : IVec S450000 32) (norm : FVec Ideal S450000 .f32)
    (e : Fin 450000) (j : Fin 262) (h : (row (ix1 e)).toNat < 50000) :
    msg2 (F := Ideal) xw row norm (ix2 e j) = norm (ix1 e) * xw (ix2 ⟨(row (ix1 e)).toNat, h⟩ j) := by
  have hi : (broadcastInDim S450000x1 ![0] bcast_S450000_S450000x1_0 row) (ix2 e (0 : Fin 1)) = row (ix1 e) :=
    col_apply row e 0
  have hs := toInt_of_lt _ h
  unfold msg2
  show FloatOps.mulf (broadcastInDim S450000x262 ![0, 1] bcast_S450000x1_S450000x262_0_1
      (broadcastInDim S450000x1 ![0] bcast_S450000_S450000x1_0 norm) (ix2 e j))
    (Host.gather gather_S50000x262_S450000x1_S450000x262_1_0_n_n_0_1_1262 xw
      (broadcastInDim S450000x1 ![0] bcast_S450000_S450000x1_0 row) (ix2 e j)) = _
  rw [lanes262_apply, col_apply, Ideal.mulf_def,
    Cert.Bridge.GS.gather_apply_of_inRange gather_S50000x262_S450000x1_S450000x262_1_0_n_n_0_1_1262 rfl rfl rfl rfl rfl xw _ e j
      (by rw [hi, hs]; omega) (by rw [hi, hs]; omega)]
  refine congrArg (fun r => norm (ix1 e) * xw (ix2 r j)) (Fin.ext ?_)
  show ((broadcastInDim S450000x1 ![0] bcast_S450000_S450000x1_0 row) (ix2 e (0 : Fin 1))).toInt.toNat = (row (ix1 e)).toNat
  rw [hi, hs]; rfl

end Cert.ReferenceIdeal.RefValue

end
-- ==== Proof.KernelValue.lean ====
/-
  THE KERNEL SIDE AFTER ITS REGIONS: what the host operations that follow each layer's nine gather regions compute,
  as one function of the nine gathered pieces, the target vector and the bias.

    * layer1Tail col u b = max (scatter-add by col of the nine pieces u laid end to end + b on every row, 0);
      layer2Tail col u b = scatter-add by col of the nine pieces laid end to end + b on every row.
    * tail1 / tail2: the closing stretches read at their last result, from any contents before them.
    * The carries: the target vector, the biases and each region's output are not written between where they are
      made and where a tail reads them.
    * W24_v70, W44_v106: the two tails at the boundary contents.
-/
import proofs.«414392_j7919919694132_2_alg».proof.Proof.Chain
import proofs.«414392_j7919919694132_2_alg».proof.Proof.TableAt
import Idealize.ShloMosaic.Lib.StableHlo.Run
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The two tails as functions -/

/-- The first layer after its nine gathered pieces: sum by target, add the bias, clamp below at zero. -/
def layer1Tail (col : IVec S450000 32) (u : Fin 9 → FVec F S50000x512 .f32) (b1 : FVec F S512 .f32) : FVec F S50000x512 .f32 :=
  maximumf
    (addf
      (Host.scatterAdd scatter_S50000x512_S450000x1_S450000x512_1_0_0_1
        (broadcastInDim S50000x512 ![] bcast_S_S50000x512 (constant S_ .f32 0x00000000#32))
        (broadcastInDim S450000x1 ![0] bcast_S450000_S450000x1_0 col)
        (concatenate S450000x512 0 [⟨S50000x512, u 0⟩, ⟨S50000x512, u 1⟩, ⟨S50000x512, u 2⟩, ⟨S50000x512, u 3⟩, ⟨S50000x512, u 4⟩, ⟨S50000x512, u 5⟩, ⟨S50000x512, u 6⟩, ⟨S50000x512, u 7⟩, ⟨S50000x512, u 8⟩] concatenates_S50000x512_S50000x512_S50000x512_S50000x512_S50000x512_S50000x512_S50000x512_S50000x512_S50000x512_S450000x512_d0))
      (broadcastInDim S50000x512 ![0, 1] bcast_S1x512_S50000x512_0_1 (broadcastInDim S1x512 ![1] bcast_S512_S1x512_1 b1)))
    (broadcastInDim S50000x512 ![] bcast_S_S50000x512 (constant S_ .f32 0x00000000#32))

/-- The second layer after its nine gathered pieces: sum by target, add the bias. -/
def layer2Tail (col : IVec S450000 32) (u : Fin 9 → FVec F S50000x262 .f32) (b2 : FVec F S262 .f32) : FVec F S50000x262 .f32 :=
  addf
    (Host.scatterAdd scatter_S50000x262_S450000x1_S450000x262_1_0_0_1
      (broadcastInDim S50000x262 ![] bcast_S_S50000x262 (constant S_ .f32 0x00000000#32))
      (broadcastInDim S450000x1 ![0] bcast_S450000_S450000x1_0 col)
      (concatenate S450000x262 0 [⟨S50000x262, u 0⟩, ⟨S50000x262, u 1⟩, ⟨S50000x262, u 2⟩, ⟨S50000x262, u 3⟩, ⟨S50000x262, u 4⟩, ⟨S50000x262, u 5⟩, ⟨S50000x262, u 6⟩, ⟨S50000x262, u 7⟩, ⟨S50000x262, u 8⟩] concatenates_S50000x262_S50000x262_S50000x262_S50000x262_S50000x262_S50000x262_S50000x262_S50000x262_S50000x262_S450000x262_d0))
    (broadcastInDim S50000x262 ![0, 1] bcast_S1x262_S50000x262_0_1 (broadcastInDim S1x262 ![1] bcast_S262_S1x262_1 b2))

open Idealize.ShloMosaic.StableHlo in
set_option maxHeartbeats 4000000 in
/-- The first layer's two closing stretches, read at the clamped sum, from any contents before them. -/
theorem tail1 (V : Valuation τ sig (Elt F)) :
    StableHlo.after hostOps10_1 (StableHlo.after hostOps10 V) (Proc.devRef .tc main_v70) = layer1Tail (F := F) (V main_v6)
      ![V main_v38, V main_v41, V main_v44, V main_v47, V main_v50, V main_v53, V main_v56, V main_v59, V main_v62]
      (V main_arg4) := by
  after_results_simp
  rfl

open Idealize.ShloMosaic.StableHlo in
set_option maxHeartbeats 4000000 in
/-- The second layer's closing stretch, read at the sum with the bias, from any contents before it. -/
theorem tail2 (V : Valuation τ sig (Elt F)) :
    StableHlo.after hostOps20 V (Proc.devRef .tc main_v106) = layer2Tail (F := F) (V main_v6)
      ![V main_v75, V main_v78, V main_v81, V main_v84, V main_v87, V main_v90, V main_v93, V main_v96, V main_v99]
      (V main_arg6) := by
  after_results_simp
  rfl

/-- Nine entries equal one by one: the two families are equal. -/
theorem vec9_congr {α : Type} {a0 a1 a2 a3 a4 a5 a6 a7 a8 b0 b1 b2 b3 b4 b5 b6 b7 b8 : α}
    (h0 : a0 = b0) (h1 : a1 = b1) (h2 : a2 = b2) (h3 : a3 = b3) (h4 : a4 = b4) (h5 : a5 = b5) (h6 : a6 = b6) (h7 : a7 = b7) (h8 : a8 = b8) :
    (![a0, a1, a2, a3, a4, a5, a6, a7, a8] : Fin 9 → α) = ![b0, b1, b2, b3, b4, b5, b6, b7, b8] := by
  subst h0 h1 h2 h3 h4 h5 h6 h7 h8; rfl

/-! ## What the first host stretch leaves alone -/

/-- A reference the first stretch does not write keeps its contents. -/
theorem keepH_0 (V : Valuation τ sig (Elt F)) (r : Ref sig .tc) (hr : r ∉ [main_v0, main_v1, main_v2, main_v3, main_v4, main_v5, main_v6, main_cst, main_v7, main_v8, main_cst_0, main_v9, main_v10, main_v11, main_cst_1, main_v12, main_v13, main_cst_2, main_v14, main_v15, main_v16, main_cst_3]) :
    StableHlo.after hostOps0 V (Proc.devRef .tc r) = V (Proc.devRef .tc r) :=
  StableHlo.after_of_writes_sub (W := [main_v0, main_v1, main_v2, main_v3, main_v4, main_v5, main_v6, main_cst, main_v7, main_v8, main_cst_0, main_v9, main_v10, main_v11, main_cst_1, main_v12, main_v13, main_cst_2, main_v14, main_v15, main_v16, main_cst_3]) hostOps0 V (by
    simp only [List.Forall]
    refine ⟨?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.reshape_writes, StableHlo.nary_writes, Finset.singleton_subset_iff, List.mem_toFinset]; exact List.mem_map_of_mem (by decide))) hr

/-! ## The carries -/

variable (hpre : PreEq m) (c : Dev nD)

/-- The target vector is written once, before the first region. -/
theorem col22 : W22 m hpre c main_v6 = W3 m c main_v6 :=
  (W22_keep m hpre c main_v6 (by decide)).trans ((W21_keep m hpre c main_v6 (by decide)).trans ((W20_keep m hpre c main_v6 (by decide)).trans ((W19_keep m hpre c main_v6 (by decide)).trans ((W18_keep m hpre c main_v6 (by decide)).trans ((W17_keep m hpre c main_v6 (by decide)).trans ((W16_keep m hpre c main_v6 (by decide)).trans ((W15_keep m hpre c main_v6 (by decide)).trans ((W14_keep m hpre c main_v6 (by decide)).trans ((W13_keep m hpre c main_v6 (by decide)).trans ((W12_keep m hpre c main_v6 (by decide)).trans ((W11_keep m hpre c main_v6 (by decide)).trans ((W10_keep m hpre c main_v6 (by decide)).trans ((W9_keep m hpre c main_v6 (by decide)).trans ((W8_keep m hpre c main_v6 (by decide)).trans ((W7_keep m hpre c main_v6 (by decide)).trans ((W6_keep m hpre c main_v6 (by decide)).trans ((W5_keep m c main_v6 (by decide)).trans ((W4_keep m c main_v6 (by decide))))))))))))))))))))

theorem col43 : W43 m hpre c main_v6 = W3 m c main_v6 :=
  (W43_keep m hpre c main_v6 (by decide)).trans ((W42_keep m hpre c main_v6 (by decide)).trans ((W41_keep m hpre c main_v6 (by decide)).trans ((W40_keep m hpre c main_v6 (by decide)).trans ((W39_keep m hpre c main_v6 (by decide)).trans ((W38_keep m hpre c main_v6 (by decide)).trans ((W37_keep m hpre c main_v6 (by decide)).trans ((W36_keep m hpre c main_v6 (by decide)).trans ((W35_keep m hpre c main_v6 (by decide)).trans ((W34_keep m hpre c main_v6 (by decide)).trans ((W33_keep m hpre c main_v6 (by decide)).trans ((W32_keep m hpre c main_v6 (by decide)).trans ((W31_keep m hpre c main_v6 (by decide)).trans ((W30_keep m hpre c main_v6 (by decide)).trans ((W29_keep m hpre c main_v6 (by decide)).trans ((W28_keep m hpre c main_v6 (by decide)).trans ((W27_keep m hpre c main_v6 (by decide)).trans ((W26_keep m hpre c main_v6 (by decide)).trans ((W25_keep m hpre c main_v6 (by decide)).trans ((W24_keep m hpre c main_v6 (by decide)).trans ((W23_keep m hpre c main_v6 (by decide)).trans ((W22_keep m hpre c main_v6 (by decide)).trans ((W21_keep m hpre c main_v6 (by decide)).trans ((W20_keep m hpre c main_v6 (by decide)).trans ((W19_keep m hpre c main_v6 (by decide)).trans ((W18_keep m hpre c main_v6 (by decide)).trans ((W17_keep m hpre c main_v6 (by decide)).trans ((W16_keep m hpre c main_v6 (by decide)).trans ((W15_keep m hpre c main_v6 (by decide)).trans ((W14_keep m hpre c main_v6 (by decide)).trans ((W13_keep m hpre c main_v6 (by decide)).trans ((W12_keep m hpre c main_v6 (by decide)).trans ((W11_keep m hpre c main_v6 (by decide)).trans ((W10_keep m hpre c main_v6 (by decide)).trans ((W9_keep m hpre c main_v6 (by decide)).trans ((W8_keep m hpre c main_v6 (by decide)).trans ((W7_keep m hpre c main_v6 (by decide)).trans ((W6_keep m hpre c main_v6 (by decide)).trans ((W5_keep m c main_v6 (by decide)).trans ((W4_keep m c main_v6 (by decide)))))))))))))))))))))))))))))))))))))))))

/-- The biases are arguments: nothing writes them. -/
theorem arg4_22 : W22 m hpre c main_arg4 = W0 m c main_arg4 :=
  (W22_keep m hpre c main_arg4 (by decide)).trans ((W21_keep m hpre c main_arg4 (by decide)).trans ((W20_keep m hpre c main_arg4 (by decide)).trans ((W19_keep m hpre c main_arg4 (by decide)).trans ((W18_keep m hpre c main_arg4 (by decide)).trans ((W17_keep m hpre c main_arg4 (by decide)).trans ((W16_keep m hpre c main_arg4 (by decide)).trans ((W15_keep m hpre c main_arg4 (by decide)).trans ((W14_keep m hpre c main_arg4 (by decide)).trans ((W13_keep m hpre c main_arg4 (by decide)).trans ((W12_keep m hpre c main_arg4 (by decide)).trans ((W11_keep m hpre c main_arg4 (by decide)).trans ((W10_keep m hpre c main_arg4 (by decide)).trans ((W9_keep m hpre c main_arg4 (by decide)).trans ((W8_keep m hpre c main_arg4 (by decide)).trans ((W7_keep m hpre c main_arg4 (by decide)).trans ((W6_keep m hpre c main_arg4 (by decide)).trans ((W5_keep m c main_arg4 (by decide)).trans ((W4_keep m c main_arg4 (by decide)).trans ((W3_keep m c main_arg4 (by decide)).trans ((W2_keep m c main_arg4 (by decide)).trans ((keepH_0 (W0 m c) main_arg4 (by decide)))))))))))))))))))))))

theorem arg6_43 : W43 m hpre c main_arg6 = W0 m c main_arg6 :=
  (W43_keep m hpre c main_arg6 (by decide)).trans ((W42_keep m hpre c main_arg6 (by decide)).trans ((W41_keep m hpre c main_arg6 (by decide)).trans ((W40_keep m hpre c main_arg6 (by decide)).trans ((W39_keep m hpre c main_arg6 (by decide)).trans ((W38_keep m hpre c main_arg6 (by decide)).trans ((W37_keep m hpre c main_arg6 (by decide)).trans ((W36_keep m hpre c main_arg6 (by decide)).trans ((W35_keep m hpre c main_arg6 (by decide)).trans ((W34_keep m hpre c main_arg6 (by decide)).trans ((W33_keep m hpre c main_arg6 (by decide)).trans ((W32_keep m hpre c main_arg6 (by decide)).trans ((W31_keep m hpre c main_arg6 (by decide)).trans ((W30_keep m hpre c main_arg6 (by decide)).trans ((W29_keep m hpre c main_arg6 (by decide)).trans ((W28_keep m hpre c main_arg6 (by decide)).trans ((W27_keep m hpre c main_arg6 (by decide)).trans ((W26_keep m hpre c main_arg6 (by decide)).trans ((W25_keep m hpre c main_arg6 (by decide)).trans ((W24_keep m hpre c main_arg6 (by decide)).trans ((W23_keep m hpre c main_arg6 (by decide)).trans ((W22_keep m hpre c main_arg6 (by decide)).trans ((W21_keep m hpre c main_arg6 (by decide)).trans ((W20_keep m hpre c main_arg6 (by decide)).trans ((W19_keep m hpre c main_arg6 (by decide)).trans ((W18_keep m hpre c main_arg6 (by decide)).trans ((W17_keep m hpre c main_arg6 (by decide)).trans ((W16_keep m hpre c main_arg6 (by decide)).trans ((W15_keep m hpre c main_arg6 (by decide)).trans ((W14_keep m hpre c main_arg6 (by decide)).trans ((W13_keep m hpre c main_arg6 (by decide)).trans ((W12_keep m hpre c main_arg6 (by decide)).trans ((W11_keep m hpre c main_arg6 (by decide)).trans ((W10_keep m hpre c main_arg6 (by decide)).trans ((W9_keep m hpre c main_arg6 (by decide)).trans ((W8_keep m hpre c main_arg6 (by decide)).trans ((W7_keep m hpre c main_arg6 (by decide)).trans ((W6_keep m hpre c main_arg6 (by decide)).trans ((W5_keep m c main_arg6 (by decide)).trans ((W4_keep m c main_arg6 (by decide)).trans ((W3_keep m c main_arg6 (by decide)).trans ((W2_keep m c main_arg6 (by decide)).trans ((keepH_0 (W0 m c) main_arg6 (by decide))))))))))))))))))))))))))))))))))))))))))))

/-- Region 1's output is what its grid leaves, untouched until the first tail reads it. -/
theorem outBuf1_1 : W22 m hpre c main_v38 = (dat1 (V5 m) (adm1 m) (hH1 m hpre) c).arrAt 1 (cfg1 (adm1 m)).N :=
  ((W22_keep m hpre c main_v38 (by decide)).trans ((W21_keep m hpre c main_v38 (by decide)).trans ((W20_keep m hpre c main_v38 (by decide)).trans ((W19_keep m hpre c main_v38 (by decide)).trans ((W18_keep m hpre c main_v38 (by decide)).trans ((W17_keep m hpre c main_v38 (by decide)).trans ((W16_keep m hpre c main_v38 (by decide)).trans ((W15_keep m hpre c main_v38 (by decide)).trans ((W14_keep m hpre c main_v38 (by decide)).trans ((W13_keep m hpre c main_v38 (by decide)).trans ((W12_keep m hpre c main_v38 (by decide)).trans ((W11_keep m hpre c main_v38 (by decide)).trans ((W10_keep m hpre c main_v38 (by decide)).trans ((W9_keep m hpre c main_v38 (by decide)).trans ((W8_keep m hpre c main_v38 (by decide)).trans ((W7_keep m hpre c main_v38 (by decide)))))))))))))))))).trans (show Pipeline.withArrays spec1 c (W5 m c) _ (Proc.devRef .tc (Pipeline.arrRef spec1 1)) = _ from Pipeline.withArrays_arr spec1 winFacts1.arr_inj c _ _ 1)

/-- Region 2's output is what its grid leaves, untouched until the first tail reads it. -/
theorem outBuf1_2 : W22 m hpre c main_v41 = (dat2 (V7 m hpre) (adm2 m) (hH2 m hpre) c).arrAt 1 (cfg2 (adm2 m)).N :=
  ((W22_keep m hpre c main_v41 (by decide)).trans ((W21_keep m hpre c main_v41 (by decide)).trans ((W20_keep m hpre c main_v41 (by decide)).trans ((W19_keep m hpre c main_v41 (by decide)).trans ((W18_keep m hpre c main_v41 (by decide)).trans ((W17_keep m hpre c main_v41 (by decide)).trans ((W16_keep m hpre c main_v41 (by decide)).trans ((W15_keep m hpre c main_v41 (by decide)).trans ((W14_keep m hpre c main_v41 (by decide)).trans ((W13_keep m hpre c main_v41 (by decide)).trans ((W12_keep m hpre c main_v41 (by decide)).trans ((W11_keep m hpre c main_v41 (by decide)).trans ((W10_keep m hpre c main_v41 (by decide)).trans ((W9_keep m hpre c main_v41 (by decide)))))))))))))))).trans (show Pipeline.withArrays spec2 c (W7 m hpre c) _ (Proc.devRef .tc (Pipeline.arrRef spec2 1)) = _ from Pipeline.withArrays_arr spec2 winFacts2.arr_inj c _ _ 1)

/-- Region 3's output is what its grid leaves, untouched until the first tail reads it. -/
theorem outBuf1_3 : W22 m hpre c main_v44 = (dat3 (V9 m hpre) (adm3 m) (hH3 m hpre) c).arrAt 1 (cfg3 (adm3 m)).N :=
  ((W22_keep m hpre c main_v44 (by decide)).trans ((W21_keep m hpre c main_v44 (by decide)).trans ((W20_keep m hpre c main_v44 (by decide)).trans ((W19_keep m hpre c main_v44 (by decide)).trans ((W18_keep m hpre c main_v44 (by decide)).trans ((W17_keep m hpre c main_v44 (by decide)).trans ((W16_keep m hpre c main_v44 (by decide)).trans ((W15_keep m hpre c main_v44 (by decide)).trans ((W14_keep m hpre c main_v44 (by decide)).trans ((W13_keep m hpre c main_v44 (by decide)).trans ((W12_keep m hpre c main_v44 (by decide)).trans ((W11_keep m hpre c main_v44 (by decide)))))))))))))).trans (show Pipeline.withArrays spec3 c (W9 m hpre c) _ (Proc.devRef .tc (Pipeline.arrRef spec3 1)) = _ from Pipeline.withArrays_arr spec3 winFacts3.arr_inj c _ _ 1)

/-- Region 4's output is what its grid leaves, untouched until the first tail reads it. -/
theorem outBuf1_4 : W22 m hpre c main_v47 = (dat4 (V11 m hpre) (adm4 m) (hH4 m hpre) c).arrAt 1 (cfg4 (adm4 m)).N :=
  ((W22_keep m hpre c main_v47 (by decide)).trans ((W21_keep m hpre c main_v47 (by decide)).trans ((W20_keep m hpre c main_v47 (by decide)).trans ((W19_keep m hpre c main_v47 (by decide)).trans ((W18_keep m hpre c main_v47 (by decide)).trans ((W17_keep m hpre c main_v47 (by decide)).trans ((W16_keep m hpre c main_v47 (by decide)).trans ((W15_keep m hpre c main_v47 (by decide)).trans ((W14_keep m hpre c main_v47 (by decide)).trans ((W13_keep m hpre c main_v47 (by decide)))))))))))).trans (show Pipeline.withArrays spec4 c (W11 m hpre c) _ (Proc.devRef .tc (Pipeline.arrRef spec4 1)) = _ from Pipeline.withArrays_arr spec4 winFacts4.arr_inj c _ _ 1)

/-- Region 5's output is what its grid leaves, untouched until the first tail reads it. -/
theorem outBuf1_5 : W22 m hpre c main_v50 = (dat5 (V13 m hpre) (adm5 m) (hH5 m hpre) c).arrAt 1 (cfg5 (adm5 m)).N :=
  ((W22_keep m hpre c main_v50 (by decide)).trans ((W21_keep m hpre c main_v50 (by decide)).trans ((W20_keep m hpre c main_v50 (by decide)).trans ((W19_keep m hpre c main_v50 (by decide)).trans ((W18_keep m hpre c main_v50 (by decide)).trans ((W17_keep m hpre c main_v50 (by decide)).trans ((W16_keep m hpre c main_v50 (by decide)).trans ((W15_keep m hpre c main_v50 (by decide)))))))))).trans (show Pipeline.withArrays spec5 c (W13 m hpre c) _ (Proc.devRef .tc (Pipeline.arrRef spec5 1)) = _ from Pipeline.withArrays_arr spec5 winFacts5.arr_inj c _ _ 1)

/-- Region 6's output is what its grid leaves, untouched until the first tail reads it. -/
theorem outBuf1_6 : W22 m hpre c main_v53 = (dat6 (V15 m hpre) (adm6 m) (hH6 m hpre) c).arrAt 1 (cfg6 (adm6 m)).N :=
  ((W22_keep m hpre c main_v53 (by decide)).trans ((W21_keep m hpre c main_v53 (by decide)).trans ((W20_keep m hpre c main_v53 (by decide)).trans ((W19_keep m hpre c main_v53 (by decide)).trans ((W18_keep m hpre c main_v53 (by decide)).trans ((W17_keep m hpre c main_v53 (by decide)))))))).trans (show Pipeline.withArrays spec6 c (W15 m hpre c) _ (Proc.devRef .tc (Pipeline.arrRef spec6 1)) = _ from Pipeline.withArrays_arr spec6 winFacts6.arr_inj c _ _ 1)

/-- Region 7's output is what its grid leaves, untouched until the first tail reads it. -/
theorem outBuf1_7 : W22 m hpre c main_v56 = (dat7 (V17 m hpre) (adm7 m) (hH7 m hpre) c).arrAt 1 (cfg7 (adm7 m)).N :=
  ((W22_keep m hpre c main_v56 (by decide)).trans ((W21_keep m hpre c main_v56 (by decide)).trans ((W20_keep m hpre c main_v56 (by decide)).trans ((W19_keep m hpre c main_v56 (by decide)))))).trans (show Pipeline.withArrays spec7 c (W17 m hpre c) _ (Proc.devRef .tc (Pipeline.arrRef spec7 1)) = _ from Pipeline.withArrays_arr spec7 winFacts7.arr_inj c _ _ 1)

/-- Region 8's output is what its grid leaves, untouched until the first tail reads it. -/
theorem outBuf1_8 : W22 m hpre c main_v59 = (dat8 (V19 m hpre) (adm8 m) (hH8 m hpre) c).arrAt 1 (cfg8 (adm8 m)).N :=
  ((W22_keep m hpre c main_v59 (by decide)).trans ((W21_keep m hpre c main_v59 (by decide)))).trans (show Pipeline.withArrays spec8 c (W19 m hpre c) _ (Proc.devRef .tc (Pipeline.arrRef spec8 1)) = _ from Pipeline.withArrays_arr spec8 winFacts8.arr_inj c _ _ 1)

/-- Region 9's output is what its grid leaves, untouched until the first tail reads it. -/
theorem outBuf1_9 : W22 m hpre c main_v62 = (dat9 (V21 m hpre) (adm9 m) (hH9 m hpre) c).arrAt 1 (cfg9 (adm9 m)).N :=
  (show Pipeline.withArrays spec9 c (W21 m hpre c) _ (Proc.devRef .tc (Pipeline.arrRef spec9 1)) = _ from Pipeline.withArrays_arr spec9 winFacts9.arr_inj c _ _ 1)

/-- Region 11's output is what its grid leaves, untouched until the second tail reads it. -/
theorem outBuf2_11 : W43 m hpre c main_v75 = (dat11 (V26 m hpre) (adm11 m) (hH11 m hpre) c).arrAt 1 (cfg11 (adm11 m)).N :=
  ((W43_keep m hpre c main_v75 (by decide)).trans ((W42_keep m hpre c main_v75 (by decide)).trans ((W41_keep m hpre c main_v75 (by decide)).trans ((W40_keep m hpre c main_v75 (by decide)).trans ((W39_keep m hpre c main_v75 (by decide)).trans ((W38_keep m hpre c main_v75 (by decide)).trans ((W37_keep m hpre c main_v75 (by decide)).trans ((W36_keep m hpre c main_v75 (by decide)).trans ((W35_keep m hpre c main_v75 (by decide)).trans ((W34_keep m hpre c main_v75 (by decide)).trans ((W33_keep m hpre c main_v75 (by decide)).trans ((W32_keep m hpre c main_v75 (by decide)).trans ((W31_keep m hpre c main_v75 (by decide)).trans ((W30_keep m hpre c main_v75 (by decide)).trans ((W29_keep m hpre c main_v75 (by decide)).trans ((W28_keep m hpre c main_v75 (by decide)))))))))))))))))).trans (show Pipeline.withArrays spec11 c (W26 m hpre c) _ (Proc.devRef .tc (Pipeline.arrRef spec11 1)) = _ from Pipeline.withArrays_arr spec11 winFacts11.arr_inj c _ _ 1)

/-- Region 12's output is what its grid leaves, untouched until the second tail reads it. -/
theorem outBuf2_12 : W43 m hpre c main_v78 = (dat12 (V28 m hpre) (adm12 m) (hH12 m hpre) c).arrAt 1 (cfg12 (adm12 m)).N :=
  ((W43_keep m hpre c main_v78 (by decide)).trans ((W42_keep m hpre c main_v78 (by decide)).trans ((W41_keep m hpre c main_v78 (by decide)).trans ((W40_keep m hpre c main_v78 (by decide)).trans ((W39_keep m hpre c main_v78 (by decide)).trans ((W38_keep m hpre c main_v78 (by decide)).trans ((W37_keep m hpre c main_v78 (by decide)).trans ((W36_keep m hpre c main_v78 (by decide)).trans ((W35_keep m hpre c main_v78 (by decide)).trans ((W34_keep m hpre c main_v78 (by decide)).trans ((W33_keep m hpre c main_v78 (by decide)).trans ((W32_keep m hpre c main_v78 (by decide)).trans ((W31_keep m hpre c main_v78 (by decide)).trans ((W30_keep m hpre c main_v78 (by decide)))))))))))))))).trans (show Pipeline.withArrays spec12 c (W28 m hpre c) _ (Proc.devRef .tc (Pipeline.arrRef spec12 1)) = _ from Pipeline.withArrays_arr spec12 winFacts12.arr_inj c _ _ 1)

/-- Region 13's output is what its grid leaves, untouched until the second tail reads it. -/
theorem outBuf2_13 : W43 m hpre c main_v81 = (dat13 (V30 m hpre) (adm13 m) (hH13 m hpre) c).arrAt 1 (cfg13 (adm13 m)).N :=
  ((W43_keep m hpre c main_v81 (by decide)).trans ((W42_keep m hpre c main_v81 (by decide)).trans ((W41_keep m hpre c main_v81 (by decide)).trans ((W40_keep m hpre c main_v81 (by decide)).trans ((W39_keep m hpre c main_v81 (by decide)).trans ((W38_keep m hpre c main_v81 (by decide)).trans ((W37_keep m hpre c main_v81 (by decide)).trans ((W36_keep m hpre c main_v81 (by decide)).trans ((W35_keep m hpre c main_v81 (by decide)).trans ((W34_keep m hpre c main_v81 (by decide)).trans ((W33_keep m hpre c main_v81 (by decide)).trans ((W32_keep m hpre c main_v81 (by decide)))))))))))))).trans (show Pipeline.withArrays spec13 c (W30 m hpre c) _ (Proc.devRef .tc (Pipeline.arrRef spec13 1)) = _ from Pipeline.withArrays_arr spec13 winFacts13.arr_inj c _ _ 1)

/-- Region 14's output is what its grid leaves, untouched until the second tail reads it. -/
theorem outBuf2_14 : W43 m hpre c main_v84 = (dat14 (V32 m hpre) (adm14 m) (hH14 m hpre) c).arrAt 1 (cfg14 (adm14 m)).N :=
  ((W43_keep m hpre c main_v84 (by decide)).trans ((W42_keep m hpre c main_v84 (by decide)).trans ((W41_keep m hpre c main_v84 (by decide)).trans ((W40_keep m hpre c main_v84 (by decide)).trans ((W39_keep m hpre c main_v84 (by decide)).trans ((W38_keep m hpre c main_v84 (by decide)).trans ((W37_keep m hpre c main_v84 (by decide)).trans ((W36_keep m hpre c main_v84 (by decide)).trans ((W35_keep m hpre c main_v84 (by decide)).trans ((W34_keep m hpre c main_v84 (by decide)))))))))))).trans (show Pipeline.withArrays spec14 c (W32 m hpre c) _ (Proc.devRef .tc (Pipeline.arrRef spec14 1)) = _ from Pipeline.withArrays_arr spec14 winFacts14.arr_inj c _ _ 1)

/-- Region 15's output is what its grid leaves, untouched until the second tail reads it. -/
theorem outBuf2_15 : W43 m hpre c main_v87 = (dat15 (V34 m hpre) (adm15 m) (hH15 m hpre) c).arrAt 1 (cfg15 (adm15 m)).N :=
  ((W43_keep m hpre c main_v87 (by decide)).trans ((W42_keep m hpre c main_v87 (by decide)).trans ((W41_keep m hpre c main_v87 (by decide)).trans ((W40_keep m hpre c main_v87 (by decide)).trans ((W39_keep m hpre c main_v87 (by decide)).trans ((W38_keep m hpre c main_v87 (by decide)).trans ((W37_keep m hpre c main_v87 (by decide)).trans ((W36_keep m hpre c main_v87 (by decide)))))))))).trans (show Pipeline.withArrays spec15 c (W34 m hpre c) _ (Proc.devRef .tc (Pipeline.arrRef spec15 1)) = _ from Pipeline.withArrays_arr spec15 winFacts15.arr_inj c _ _ 1)

/-- Region 16's output is what its grid leaves, untouched until the second tail reads it. -/
theorem outBuf2_16 : W43 m hpre c main_v90 = (dat16 (V36 m hpre) (adm16 m) (hH16 m hpre) c).arrAt 1 (cfg16 (adm16 m)).N :=
  ((W43_keep m hpre c main_v90 (by decide)).trans ((W42_keep m hpre c main_v90 (by decide)).trans ((W41_keep m hpre c main_v90 (by decide)).trans ((W40_keep m hpre c main_v90 (by decide)).trans ((W39_keep m hpre c main_v90 (by decide)).trans ((W38_keep m hpre c main_v90 (by decide)))))))).trans (show Pipeline.withArrays spec16 c (W36 m hpre c) _ (Proc.devRef .tc (Pipeline.arrRef spec16 1)) = _ from Pipeline.withArrays_arr spec16 winFacts16.arr_inj c _ _ 1)

/-- Region 17's output is what its grid leaves, untouched until the second tail reads it. -/
theorem outBuf2_17 : W43 m hpre c main_v93 = (dat17 (V38 m hpre) (adm17 m) (hH17 m hpre) c).arrAt 1 (cfg17 (adm17 m)).N :=
  ((W43_keep m hpre c main_v93 (by decide)).trans ((W42_keep m hpre c main_v93 (by decide)).trans ((W41_keep m hpre c main_v93 (by decide)).trans ((W40_keep m hpre c main_v93 (by decide)))))).trans (show Pipeline.withArrays spec17 c (W38 m hpre c) _ (Proc.devRef .tc (Pipeline.arrRef spec17 1)) = _ from Pipeline.withArrays_arr spec17 winFacts17.arr_inj c _ _ 1)

/-- Region 18's output is what its grid leaves, untouched until the second tail reads it. -/
theorem outBuf2_18 : W43 m hpre c main_v96 = (dat18 (V40 m hpre) (adm18 m) (hH18 m hpre) c).arrAt 1 (cfg18 (adm18 m)).N :=
  ((W43_keep m hpre c main_v96 (by decide)).trans ((W42_keep m hpre c main_v96 (by decide)))).trans (show Pipeline.withArrays spec18 c (W40 m hpre c) _ (Proc.devRef .tc (Pipeline.arrRef spec18 1)) = _ from Pipeline.withArrays_arr spec18 winFacts18.arr_inj c _ _ 1)

/-- Region 19's output is what its grid leaves, untouched until the second tail reads it. -/
theorem outBuf2_19 : W43 m hpre c main_v99 = (dat19 (V42 m hpre) (adm19 m) (hH19 m hpre) c).arrAt 1 (cfg19 (adm19 m)).N :=
  (show Pipeline.withArrays spec19 c (W42 m hpre c) _ (Proc.devRef .tc (Pipeline.arrRef spec19 1)) = _ from Pipeline.withArrays_arr spec19 winFacts19.arr_inj c _ _ 1)

/-! ## The two tails at the boundary contents -/

/-- Layer 1's nine gathered pieces: what regions 1 … 9 leave in their output arrays, in order. -/
abbrev pieces1 : Fin 9 → FVec F S50000x512 .f32 :=
    ![(dat1 (V5 m) (adm1 m) (hH1 m hpre) c).arrAt 1 (cfg1 (adm1 m)).N,
      (dat2 (V7 m hpre) (adm2 m) (hH2 m hpre) c).arrAt 1 (cfg2 (adm2 m)).N,
      (dat3 (V9 m hpre) (adm3 m) (hH3 m hpre) c).arrAt 1 (cfg3 (adm3 m)).N,
      (dat4 (V11 m hpre) (adm4 m) (hH4 m hpre) c).arrAt 1 (cfg4 (adm4 m)).N,
      (dat5 (V13 m hpre) (adm5 m) (hH5 m hpre) c).arrAt 1 (cfg5 (adm5 m)).N,
      (dat6 (V15 m hpre) (adm6 m) (hH6 m hpre) c).arrAt 1 (cfg6 (adm6 m)).N,
      (dat7 (V17 m hpre) (adm7 m) (hH7 m hpre) c).arrAt 1 (cfg7 (adm7 m)).N,
      (dat8 (V19 m hpre) (adm8 m) (hH8 m hpre) c).arrAt 1 (cfg8 (adm8 m)).N,
      (dat9 (V21 m hpre) (adm9 m) (hH9 m hpre) c).arrAt 1 (cfg9 (adm9 m)).N]

/-- Layer 2's nine gathered pieces: what regions 11 … 19 leave in their output arrays, in order. -/
abbrev pieces2 : Fin 9 → FVec F S50000x262 .f32 :=
    ![(dat11 (V26 m hpre) (adm11 m) (hH11 m hpre) c).arrAt 1 (cfg11 (adm11 m)).N,
      (dat12 (V28 m hpre) (adm12 m) (hH12 m hpre) c).arrAt 1 (cfg12 (adm12 m)).N,
      (dat13 (V30 m hpre) (adm13 m) (hH13 m hpre) c).arrAt 1 (cfg13 (adm13 m)).N,
      (dat14 (V32 m hpre) (adm14 m) (hH14 m hpre) c).arrAt 1 (cfg14 (adm14 m)).N,
      (dat15 (V34 m hpre) (adm15 m) (hH15 m hpre) c).arrAt 1 (cfg15 (adm15 m)).N,
      (dat16 (V36 m hpre) (adm16 m) (hH16 m hpre) c).arrAt 1 (cfg16 (adm16 m)).N,
      (dat17 (V38 m hpre) (adm17 m) (hH17 m hpre) c).arrAt 1 (cfg17 (adm17 m)).N,
      (dat18 (V40 m hpre) (adm18 m) (hH18 m hpre) c).arrAt 1 (cfg18 (adm18 m)).N,
      (dat19 (V42 m hpre) (adm19 m) (hH19 m hpre) c).arrAt 1 (cfg19 (adm19 m)).N]

set_option maxHeartbeats 1000000 in
/-- Layer 1's result: the tail of the nine regions' outputs, the target vector and the first bias. -/
theorem W24_v70 : W24 m hpre c main_v70 = layer1Tail (F := F) (W3 m c main_v6) (pieces1 m hpre c) (W0 m c main_arg4) :=
  (tail1 (W22 m hpre c)).trans
    (congr (congr (congrArg (layer1Tail (F := F)) (col22 m hpre c))
      (vec9_congr (outBuf1_1 m hpre c) (outBuf1_2 m hpre c) (outBuf1_3 m hpre c) (outBuf1_4 m hpre c) (outBuf1_5 m hpre c) (outBuf1_6 m hpre c) (outBuf1_7 m hpre c) (outBuf1_8 m hpre c) (outBuf1_9 m hpre c)))
      (arg4_22 m hpre c))

set_option maxHeartbeats 1000000 in
/-- The program's result: the tail of the nine second-layer regions' outputs, the target vector and the second bias. -/
theorem W44_v106 : W44 m hpre c main_v106 = layer2Tail (F := F) (W3 m c main_v6) (pieces2 m hpre c) (W0 m c main_arg6) :=
  (tail2 (W43 m hpre c)).trans
    (congr (congr (congrArg (layer2Tail (F := F)) (col43 m hpre c))
      (vec9_congr (outBuf2_11 m hpre c) (outBuf2_12 m hpre c) (outBuf2_13 m hpre c) (outBuf2_14 m hpre c) (outBuf2_15 m hpre c) (outBuf2_16 m hpre c) (outBuf2_17 m hpre c) (outBuf2_18 m hpre c) (outBuf2_19 m hpre c)))
      (arg6_43 m hpre c))

end Cert.KernelIdeal.Hand

end
-- ==== Proof.RefApply.lean ====
/-
  THE REFERENCE'S STAGES READ AT ONE ELEMENT.

  The edge lists at one edge (a given edge e < 400000 reads the edge table; a self loop e ≥ 400000 is (e − 400000,
  e − 400000) with weight 1; an index in [0, 50000) is not wrapped); the aggregation at (n, j) as the sum of the messages
  over the edges whose target is n; the products x · W as sums over the contracted axis; the bias; the rectifier; and a
  whole layer at (n, j):  b[j] + ∑ over the edges e with target n of norm e · ∑ k, x[row e, k] · W[k, j].
-/
import proofs.«414392_j7919919694132_2_alg».proof.Proof.RefValue
import proofs.«414392_j7919919694132_2_alg».proof.Proof.Gen.ReferenceIdeal.Read
import Idealize.ShloMosaic.PureOps.Ideal.Laws
import Idealize.ShloMosaic.Lib.StableHlo.Predicate

open scoped BigOperators

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The edge lists read at one edge -/

/-- Row 0 of the edge table as a vector: its entry e is the table at (0, e). -/
theorem half0_apply (a1 : IVec S2x400000 32) (e : Fin 400000) :
    shapeCast S400000 (extractStridedSlice S1x400000 ![0, 0] a1 slices_S2x400000_S1x400000_0_0) shapeCasts_S1x400000_S400000 (ix1 e)
      = a1 (ix2 (0 : Fin 2) e) := by
  refine (shapeCast_apply _ _ (ix1 e) (ix2 (0 : Fin 1) e) ?_).trans ?_
  · rw [Shape.rowMajor_val_two, Shape.rowMajor_val_one]
    show 0 * 400000 + e.val = e.val
    omega
  · refine extractStridedSlice_apply _ _ _ _ (ix2 (0 : Fin 2) e) ?_
    intro a
    match a with
    | ⟨0, _⟩ => rfl
    | ⟨1, _⟩ => show e.val = 0 + e.val; omega

/-- Row 1 of the edge table as a vector: its entry e is the table at (1, e). -/
theorem half1_apply (a1 : IVec S2x400000 32) (e : Fin 400000) :
    shapeCast S400000 (extractStridedSlice S1x400000 ![1, 0] a1 slices_S2x400000_S1x400000_1_0) shapeCasts_S1x400000_S400000 (ix1 e)
      = a1 (ix2 (1 : Fin 2) e) := by
  refine (shapeCast_apply _ _ (ix1 e) (ix2 (0 : Fin 1) e) ?_).trans ?_
  · rw [Shape.rowMajor_val_two, Shape.rowMajor_val_one]
    show 0 * 400000 + e.val = e.val
    omega
  · refine extractStridedSlice_apply _ _ _ _ (ix2 (1 : Fin 2) e) ?_
    intro a
    match a with
    | ⟨0, _⟩ => rfl
    | ⟨1, _⟩ => show e.val = 0 + e.val; omega

/-- A vector of 400000 followed by one of 50000, read in the first part. -/
theorem join_given {α : Type} (x₁ : S400000.Idx → α) (x₂ : S50000.Idx → α) (e : Fin 450000) (h : e.val < 400000) :
    concatenate S450000 0 [⟨S400000, x₁⟩, ⟨S50000, x₂⟩] concatenates_S400000_S50000_S450000_d0 (ix1 e) = x₁ (ix1 ⟨e.val, h⟩) :=
  concatenate_pair_apply_left (0 : Fin S450000.rank) x₁ x₂ concatenates_S400000_S50000_S450000_d0 (ix1 e) rfl (ix1 ⟨e.val, h⟩)
    (fun b => match b with | ⟨0, _⟩ => rfl)

/-- A vector of 400000 followed by one of 50000, read in the second part. -/
theorem join_loop {α : Type} (x₁ : S400000.Idx → α) (x₂ : S50000.Idx → α) (e : Fin 450000) (h : 400000 ≤ e.val) :
    concatenate S450000 0 [⟨S400000, x₁⟩, ⟨S50000, x₂⟩] concatenates_S400000_S50000_S450000_d0 (ix1 e)
      = x₂ (ix1 ⟨e.val - 400000, by have := e.isLt; omega⟩) :=
  concatenate_pair_apply_right (0 : Fin S450000.rank) x₁ x₂ concatenates_S400000_S50000_S450000_d0 (ix1 e) rfl rfl
    (ix1 ⟨e.val - 400000, by have := e.isLt; omega⟩)
    (fun b hb => match b, hb with | ⟨0, _⟩, hb => absurd rfl hb)
    (by show (e.val - 400000) + 400000 = e.val; omega)

/-- The source of a given edge e < 400000 is the table at (0, e). -/
theorem rowRaw_given (a1 : IVec S2x400000 32) (e : Fin 450000) (h : e.val < 400000) :
    rowRaw (F := F) a1 (ix1 e) = a1 (ix2 (0 : Fin 2) ⟨e.val, h⟩) := by
  unfold rowRaw
  exact (join_given _ _ e h).trans (half0_apply a1 ⟨e.val, h⟩)

/-- The source of the self loop e ≥ 400000 is e − 400000. -/
theorem rowRaw_loop (a1 : IVec S2x400000 32) (e : Fin 450000) (h : 400000 ≤ e.val) :
    rowRaw (F := F) a1 (ix1 e) = BitVec.ofNat 32 (e.val - 400000) := by
  unfold rowRaw
  exact join_loop _ _ e h

/-- The target of a given edge e < 400000 is the table at (1, e). -/
theorem colRaw_given (a1 : IVec S2x400000 32) (e : Fin 450000) (h : e.val < 400000) :
    colRaw (F := F) a1 (ix1 e) = a1 (ix2 (1 : Fin 2) ⟨e.val, h⟩) := by
  unfold colRaw
  exact (join_given _ _ e h).trans (half1_apply a1 ⟨e.val, h⟩)

/-- The target of the self loop e ≥ 400000 is e − 400000. -/
theorem colRaw_loop (a1 : IVec S2x400000 32) (e : Fin 450000) (h : 400000 ≤ e.val) :
    colRaw (F := F) a1 (ix1 e) = BitVec.ofNat 32 (e.val - 400000) := by
  unfold colRaw
  exact join_loop _ _ e h

/-- The weight of a given edge. -/
theorem ewV_given (a2 : FVec F S400000 .f32) (e : Fin 450000) (h : e.val < 400000) :
    ewV (F := F) a2 (ix1 e) = a2 (ix1 ⟨e.val, h⟩) := by
  unfold ewV
  exact join_given _ _ e h

/-- The weight of a self loop is 1. -/
theorem ewV_loop (a2 : FVec F S400000 .f32) (e : Fin 450000) (h : 400000 ≤ e.val) :
    ewV (F := F) a2 (ix1 e) = FloatOps.ofBits .f32 0x3F800000#32 := by
  unfold ewV
  exact join_loop _ _ e h

/-- An index in [0, 50000) is not wrapped. -/
theorem wrapIdx_of_lt (r : IVec S450000 32) (i : S450000.Idx) (h : (r i).toNat < 50000) :
    wrapIdx (F := F) r i = r i := by
  unfold wrapIdx
  show Scalar.select (IntOp.cmpi .slt (r i) (0#32)) (IntOp.addi (r i) (50000#32)) (r i) = r i
  have hc : ¬ IntOp.cmpi .slt (r i) (0#32) = 1#1 := by
    rw [StableHlo.Predicate.slt_iff_toNat (by omega) (by decide)]
    show ¬ (r i).toNat < 0
    omega
  unfold Scalar.select
  exact if_neg hc

/-- The wrapped source of a given edge whose table entry is in range is that entry. -/
theorem rowN_given (a1 : IVec S2x400000 32) (e : Fin 450000) (h : e.val < 400000)
    (hr : (a1 (ix2 (0 : Fin 2) ⟨e.val, h⟩)).toNat < 50000) :
    rowN (F := F) a1 (ix1 e) = a1 (ix2 (0 : Fin 2) ⟨e.val, h⟩) := by
  unfold rowN
  rw [wrapIdx_of_lt _ _ (by rw [rowRaw_given (F := F) a1 e h]; exact hr), rowRaw_given (F := F) a1 e h]

/-- The wrapped source of the self loop e ≥ 400000 is e − 400000. -/
theorem rowN_loop (a1 : IVec S2x400000 32) (e : Fin 450000) (h : 400000 ≤ e.val) :
    rowN (F := F) a1 (ix1 e) = BitVec.ofNat 32 (e.val - 400000) := by
  have he := e.isLt
  have hl : (BitVec.ofNat 32 (e.val - 400000)).toNat < 50000 := by
    rw [BitVec.toNat_ofNat, Nat.mod_eq_of_lt (by omega)]; omega
  unfold rowN
  rw [wrapIdx_of_lt _ _ (by rw [rowRaw_loop (F := F) a1 e h]; exact hl), rowRaw_loop (F := F) a1 e h]

/-- When every source in the table is a node, so is every wrapped source of the 450000 edges. -/
theorem rowN_lt (a1 : IVec S2x400000 32) (hrow : ∀ e : Fin 400000, (a1 (ix2 (0 : Fin 2) e)).toNat < 50000) (e : Fin 450000) :
    (rowN (F := F) a1 (ix1 e)).toNat < 50000 := by
  have he := e.isLt
  by_cases h : e.val < 400000
  · rw [rowN_given (F := F) a1 e h (hrow _)]; exact hrow _
  · rw [rowN_loop (F := F) a1 e (by omega), BitVec.toNat_ofNat, Nat.mod_eq_of_lt (by omega)]; omega

/-! ## The aggregation read at one element -/

/-- Layer 1's aggregate at (n, j): the sum of the messages (e, j) over the edges e whose target, read signed, is n. -/
theorem agg1_apply (col : IVec S450000 32) (msg : FVec Ideal S450000x512 .f32) (n : Fin 50000) (j : Fin 512) :
    agg1 (F := Ideal) col msg (ix2 n j)
      = ∑ e ∈ Finset.univ.filter (fun e : Fin 450000 => (col (ix1 e)).toInt = (n.val : Int)), msg (ix2 e j) := by
  unfold agg1
  rw [Cert.Bridge.GS.scatterAdd_apply scatter_S50000x512_S450000x1_S450000x512_1_0_0_1 rfl rfl rfl rfl _ _ msg n j]
  show Ideal.ofBits .f32 0x00000000#32 + _ = _
  rw [Ideal.ofBits_zero_f32, zero_add]
  refine Finset.sum_congr (Finset.filter_congr fun e _ => ?_) (fun _ _ => rfl)
  rw [col_apply]

/-- Layer 2's aggregate at (n, j): the sum of the messages (e, j) over the edges e whose target, read signed, is n. -/
theorem agg2_apply (col : IVec S450000 32) (msg : FVec Ideal S450000x262 .f32) (n : Fin 50000) (j : Fin 262) :
    agg2 (F := Ideal) col msg (ix2 n j)
      = ∑ e ∈ Finset.univ.filter (fun e : Fin 450000 => (col (ix1 e)).toInt = (n.val : Int)), msg (ix2 e j) := by
  unfold agg2
  rw [Cert.Bridge.GS.scatterAdd_apply scatter_S50000x262_S450000x1_S450000x262_1_0_0_1 rfl rfl rfl rfl _ _ msg n j]
  show Ideal.ofBits .f32 0x00000000#32 + _ = _
  rw [Ideal.ofBits_zero_f32, zero_add]
  refine Finset.sum_congr (Finset.filter_congr fun e _ => ?_) (fun _ _ => rfl)
  rw [col_apply]

/-! ## The products, the bias and the rectifier read at one element -/

/-- x · W at (i, j): the sum over k of x[i, k] · W[k, j]. -/
theorem xw1_apply (x : FVec Ideal S50000x262 .f32) (W : FVec Ideal S262x512 .f32) (i : Fin 50000) (j : Fin 512) :
    xw1 (F := Ideal) x W (ix2 i j) = ∑ k : Fin 262, x (ix2 i k) * W (ix2 k j) := by
  unfold xw1
  simp only [Host.dotGeneral]
  rw [Ideal.dotGeneral_apply, ← Equiv.sum_comp (ValueIdx.contrEquiv1 dot_S50000x262_S262x512_S50000x512_1_0_0_1_n_n 262 rfl rfl).symm]
  refine Finset.sum_congr rfl fun k _ => ?_
  have hk := ValueIdx.contrEquiv1_symm_val dot_S50000x262_S262x512_S50000x512_1_0_0_1_n_n 262 rfl rfl k
  have el : dot_S50000x262_S262x512_S50000x512_1_0_0_1_n_n.lhsIdx (ix2 i j) ((ValueIdx.contrEquiv1 dot_S50000x262_S262x512_S50000x512_1_0_0_1_n_n 262 rfl rfl).symm k) = ix2 i k := funext fun a => Fin.ext (by
    match a with
    | ⟨0, _⟩ => exact Cert.ReferenceIdeal.Read.lhs_main_v34_0 _ _
    | ⟨1, _⟩ => exact (Cert.ReferenceIdeal.Read.lhs_main_v34_1 _ _).trans hk)
  have er : dot_S50000x262_S262x512_S50000x512_1_0_0_1_n_n.rhsIdx (ix2 i j) ((ValueIdx.contrEquiv1 dot_S50000x262_S262x512_S50000x512_1_0_0_1_n_n 262 rfl rfl).symm k) = ix2 k j := funext fun a => Fin.ext (by
    match a with
    | ⟨0, _⟩ => exact (Cert.ReferenceIdeal.Read.rhs_main_v34_0 _ _).trans hk
    | ⟨1, _⟩ => exact Cert.ReferenceIdeal.Read.rhs_main_v34_1 _ _)
  rw [el, er]

/-- h · W at (i, j): the sum over k of h[i, k] · W[k, j]. -/
theorem xw2_apply (x : FVec Ideal S50000x512 .f32) (W : FVec Ideal S512x262 .f32) (i : Fin 50000) (j : Fin 262) :
    xw2 (F := Ideal) x W (ix2 i j) = ∑ k : Fin 512, x (ix2 i k) * W (ix2 k j) := by
  unfold xw2
  simp only [Host.dotGeneral]
  rw [Ideal.dotGeneral_apply, ← Equiv.sum_comp (ValueIdx.contrEquiv1 dot_S50000x512_S512x262_S50000x262_1_0_0_1_n_n 512 rfl rfl).symm]
  refine Finset.sum_congr rfl fun k _ => ?_
  have hk := ValueIdx.contrEquiv1_symm_val dot_S50000x512_S512x262_S50000x262_1_0_0_1_n_n 512 rfl rfl k
  have el : dot_S50000x512_S512x262_S50000x262_1_0_0_1_n_n.lhsIdx (ix2 i j) ((ValueIdx.contrEquiv1 dot_S50000x512_S512x262_S50000x262_1_0_0_1_n_n 512 rfl rfl).symm k) = ix2 i k := funext fun a => Fin.ext (by
    match a with
    | ⟨0, _⟩ => exact Cert.ReferenceIdeal.Read.lhs_main_v52_0 _ _
    | ⟨1, _⟩ => exact (Cert.ReferenceIdeal.Read.lhs_main_v52_1 _ _).trans hk)
  have er : dot_S50000x512_S512x262_S50000x262_1_0_0_1_n_n.rhsIdx (ix2 i j) ((ValueIdx.contrEquiv1 dot_S50000x512_S512x262_S50000x262_1_0_0_1_n_n 512 rfl rfl).symm k) = ix2 k j := funext fun a => Fin.ext (by
    match a with
    | ⟨0, _⟩ => exact (Cert.ReferenceIdeal.Read.rhs_main_v52_0 _ _).trans hk
    | ⟨1, _⟩ => exact Cert.ReferenceIdeal.Read.rhs_main_v52_1 _ _)
  rw [el, er]

/-- Layer 1's bias: every row gets b added. -/
theorem bias1_apply (y : FVec Ideal S50000x512 .f32) (b : FVec Ideal S512 .f32) (n : Fin 50000) (j : Fin 512) :
    bias1 (F := Ideal) y b (ix2 n j) = y (ix2 n j) + b (ix1 j) := by
  unfold bias1
  show FloatOps.addf (y (ix2 n j)) (broadcastInDim S50000x512 ![0, 1] bcast_S1x512_S50000x512_0_1
    (broadcastInDim S1x512 ![1] bcast_S512_S1x512_1 b) (ix2 n j)) = _
  rw [Ideal.addf_def,
    broadcastInDim_apply _ bcast_S1x512_S50000x512_0_1 _ (ix2 n j) (ix2 (0 : Fin 1) j) (fun a => match a with
      | ⟨0, _⟩ => by show 0 = if (1 : Nat) = 1 then 0 else n.val; rw [if_pos rfl]
      | ⟨1, _⟩ => by show j.val = if (512 : Nat) = 1 then 0 else j.val; rw [if_neg (by decide)]),
    broadcastInDim_apply _ bcast_S512_S1x512_1 b (ix2 (0 : Fin 1) j) (ix1 j) (fun a => match a with
      | ⟨0, _⟩ => by show j.val = if (512 : Nat) = 1 then 0 else j.val; rw [if_neg (by decide)])]

/-- Layer 2's bias: every row gets b added. -/
theorem bias2_apply (y : FVec Ideal S50000x262 .f32) (b : FVec Ideal S262 .f32) (n : Fin 50000) (j : Fin 262) :
    bias2 (F := Ideal) y b (ix2 n j) = y (ix2 n j) + b (ix1 j) := by
  unfold bias2
  show FloatOps.addf (y (ix2 n j)) (broadcastInDim S50000x262 ![0, 1] bcast_S1x262_S50000x262_0_1
    (broadcastInDim S1x262 ![1] bcast_S262_S1x262_1 b) (ix2 n j)) = _
  rw [Ideal.addf_def,
    broadcastInDim_apply _ bcast_S1x262_S50000x262_0_1 _ (ix2 n j) (ix2 (0 : Fin 1) j) (fun a => match a with
      | ⟨0, _⟩ => by show 0 = if (1 : Nat) = 1 then 0 else n.val; rw [if_pos rfl]
      | ⟨1, _⟩ => by show j.val = if (262 : Nat) = 1 then 0 else j.val; rw [if_neg (by decide)]),
    broadcastInDim_apply _ bcast_S262_S1x262_1 b (ix2 (0 : Fin 1) j) (ix1 j) (fun a => match a with
      | ⟨0, _⟩ => by show j.val = if (262 : Nat) = 1 then 0 else j.val; rw [if_neg (by decide)])]

/-- The rectifier, element by element. -/
theorem relu1_apply (y : FVec Ideal S50000x512 .f32) (i : S50000x512.Idx) :
    relu1 (F := Ideal) y i = max (y i) 0 := by
  unfold relu1
  show FloatOps.maximumf (y i) (Ideal.ofBits .f32 0x00000000#32) = _
  rw [Ideal.maximumf_def, Ideal.ofBits_zero_f32]

/-! ## A layer read at one element -/

/-- Layer 1 at (n, j), every source a node: b[j] + the sum, over the edges e whose target (read signed) is n, of
    norm e · ∑ k, x[row e, k] · W[k, j]. -/
theorem layer1R_apply (x : FVec Ideal S50000x262 .f32) (W : FVec Ideal S262x512 .f32) (b : FVec Ideal S512 .f32)
    (row col : IVec S450000 32) (norm : FVec Ideal S450000 .f32)
    (hrow : ∀ e : Fin 450000, (row (ix1 e)).toNat < 50000) (n : Fin 50000) (j : Fin 512) :
    layer1R (F := Ideal) x W b row col norm (ix2 n j)
      = (∑ e ∈ Finset.univ.filter (fun e : Fin 450000 => (col (ix1 e)).toInt = (n.val : Int)),
          norm (ix1 e) * ∑ k : Fin 262, x (ix2 ⟨(row (ix1 e)).toNat, hrow e⟩ k) * W (ix2 k j)) + b (ix1 j) := by
  unfold layer1R
  rw [bias1_apply, agg1_apply]
  refine congrArg (· + b (ix1 j)) ?_
  refine Finset.sum_congr rfl fun e _ => ?_
  rw [msg1_apply _ _ _ e j (hrow e), xw1_apply]

/-- Layer 2 at (n, j), every source a node: b[j] + the sum, over the edges e whose target (read signed) is n, of
    norm e · ∑ k, h[row e, k] · W[k, j]. -/
theorem layer2R_apply (x : FVec Ideal S50000x512 .f32) (W : FVec Ideal S512x262 .f32) (b : FVec Ideal S262 .f32)
    (row col : IVec S450000 32) (norm : FVec Ideal S450000 .f32)
    (hrow : ∀ e : Fin 450000, (row (ix1 e)).toNat < 50000) (n : Fin 50000) (j : Fin 262) :
    layer2R (F := Ideal) x W b row col norm (ix2 n j)
      = (∑ e ∈ Finset.univ.filter (fun e : Fin 450000 => (col (ix1 e)).toInt = (n.val : Int)),
          norm (ix1 e) * ∑ k : Fin 512, x (ix2 ⟨(row (ix1 e)).toNat, hrow e⟩ k) * W (ix2 k j)) + b (ix1 j) := by
  unfold layer2R
  rw [bias2_apply, agg2_apply]
  refine congrArg (· + b (ix1 j)) ?_
  refine Finset.sum_congr rfl fun e _ => ?_
  rw [msg2_apply _ _ _ e j (hrow e), xw2_apply]

/-! ## The whole at one element -/

/-- The reference's result at (n, j), every source in the edge table a node: layer 2 over the rectified layer 1. -/
theorem refResult_apply (a0 : FVec Ideal S50000x262 .f32) (a1 : IVec S2x400000 32) (a2 : FVec Ideal S400000 .f32)
    (a3 : FVec Ideal S262x512 .f32) (a4 : FVec Ideal S512 .f32) (a5 : FVec Ideal S512x262 .f32) (a6 : FVec Ideal S262 .f32)
    (hrow : ∀ e : Fin 400000, (a1 (ix2 (0 : Fin 2) e)).toNat < 50000) (n : Fin 50000) (j : Fin 262) :
    refResult (F := Ideal) a0 a1 a2 a3 a4 a5 a6 (ix2 n j)
      = (∑ e ∈ Finset.univ.filter (fun e : Fin 450000 => (colV (F := Ideal) a1 (ix1 e)).toInt = (n.val : Int)),
          normV (F := Ideal) a1 a2 (ix1 e) * ∑ k : Fin 512,
            max (layer1R (F := Ideal) a0 a3 a4 (rowN (F := Ideal) a1) (colV (F := Ideal) a1) (normV (F := Ideal) a1 a2)
              (ix2 ⟨(rowN (F := Ideal) a1 (ix1 e)).toNat, rowN_lt (F := Ideal) a1 hrow e⟩ k)) 0 * a5 (ix2 k j)) + a6 (ix1 j) := by
  unfold refResult
  rw [layer2R_apply _ _ _ _ _ _ (rowN_lt (F := Ideal) a1 hrow)]
  simp only [relu1_apply]

end Cert.ReferenceIdeal.RefValue

end
-- ==== Proof.NormAt.lean ====
/-
  The normalisation vector norm[e] = dinv[row e] · weight e · dinv[col e] as a pure function of the launch memory,
  that it sits in its buffer from the third host stretch on, and that each gather region's norm window array at the
  region's entry is the region's block of 50000 entries of it, as one column.
-/
import proofs.«414392_j7919919694132_2_alg».proof.Proof.TableAt

set_option maxRecDepth 16384

noncomputable section

namespace Cert.KernelIdeal.Hand

open Cert.KernelIdeal Cert.KernelIdeal.Gen
open Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)
variable (hpre : PreEq m)

/-! ## The normalisation vector -/

/-- The column vector: row 1 of the edge-index table, then the self-loop columns 0 … 49999. -/
def colVec (c : Dev nD) : IVec S450000 32 :=
  concatenate S450000 0
    [⟨S400000, shapeCast S400000 (extractStridedSlice S1x400000 ![1, 0] (edgeIdx m c) slices_S2x400000_S1x400000_1_0)
        shapeCasts_S1x400000_S400000⟩,
     ⟨S50000, iotaInDim S50000 32 0⟩]
    concatenates_S400000_S50000_S450000_d0

/-- The edge weights, then weight 1 for each self loop. -/
def wVec (c : Dev nD) : FVec F S450000 .f32 :=
  concatenate S450000 0
    [⟨S400000, (m ((c : Thread nD τ).loc main_arg2) : FVec F S400000 .f32)⟩,
     ⟨S50000, broadcastInDim S50000 ![] bcast_S_S50000 (constant (F := F) S_ .f32 0x3F800000#32)⟩]
    concatenates_S400000_S50000_S450000_d0

/-- The weighted in-degree of each node. -/
def degVec (c : Dev nD) : FVec F S50000 .f32 :=
  Host.scatterAdd scatter_S50000_S450000x1_S450000_n_0_0_1
    (broadcastInDim S50000 ![] bcast_S_S50000 (constant (F := F) S_ .f32 0x00000000#32))
    (broadcastInDim S450000x1 ![0] bcast_S450000_S450000x1_0 (colVec m c)) (wVec m c)

/-- The inverse square root of the degree where it is positive, 0 elsewhere. -/
def dinvVec (c : Dev nD) : FVec F S50000 .f32 :=
  select (cmpf .ogt (degVec m c) (broadcastInDim S50000 ![] bcast_S_S50000 (constant (F := F) S_ .f32 0x00000000#32)))
    (Host.rsqrt (maximumf (degVec m c) (broadcastInDim S50000 ![] bcast_S_S50000 (constant (F := F) S_ .f32 0x0DA24260#32))))
    (broadcastInDim S50000 ![] bcast_S_S50000 (id (constant (F := F) S_ .f32 0x00000000#32)))

/-- A vector of node indices as the one-column index array a gather takes, negative entries wrapped by 50000. -/
def wrapIdx (x : IVec S450000 32) : IVec S450000x1 32 :=
  broadcastInDim S450000x1 ![0] bcast_S450000_S450000x1_0
    (select (cmpi .slt x (broadcastInDim S450000 ![] bcast_S_S450000 (constantI S_ 32 0#32)))
      (addi x (broadcastInDim S450000 ![] bcast_S_S450000 (constantI S_ 32 50000#32))) x)

/-- The normalisation of each edge: dinv[row] · weight · dinv[col]. -/
def normVec (c : Dev nD) : FVec F S450000 .f32 :=
  mulf (mulf (Host.gather gather_S50000_S450000x1_S450000_n_0_n_n_0_1_1 (dinvVec m c) (wrapIdx (rowVec m c))) (wVec m c))
    (Host.gather gather_S50000_S450000x1_S450000_n_0_n_n_0_1_1 (dinvVec m c) (wrapIdx (colVec m c)))

/-! ### The first host stretch, read at the buffers the normalisation uses -/

theorem v6_1 (c : Dev nD) : W1 m c main_v6 = colVec m c := by
  show StableHlo.after hostOps0 (W0 m c) (Proc.devRef .tc main_v6) = _
  after_results
  rfl
theorem v8_1 (c : Dev nD) : W1 m c main_v8 = wVec m c := by
  show StableHlo.after hostOps0 (W0 m c) (Proc.devRef .tc main_v8) = _
  after_results
  rfl
theorem v13_1 (c : Dev nD) : W1 m c main_v13
    = cmpf .ogt (degVec m c) (broadcastInDim S50000 ![] bcast_S_S50000 (constant (F := F) S_ .f32 0x00000000#32)) := by
  show StableHlo.after hostOps0 (W0 m c) (Proc.devRef .tc main_v13) = _
  after_results
  rfl
theorem v16_1 (c : Dev nD) : W1 m c main_v16
    = Host.rsqrt (maximumf (degVec m c) (broadcastInDim S50000 ![] bcast_S_S50000 (constant (F := F) S_ .f32 0x0DA24260#32))) := by
  show StableHlo.after hostOps0 (W0 m c) (Proc.devRef .tc main_v16) = _
  after_results
  rfl
theorem cst3_1 (c : Dev nD) : W1 m c main_cst_3 = constant (F := F) S_ .f32 0x00000000#32 := by
  show StableHlo.after hostOps0 (W0 m c) (Proc.devRef .tc main_cst_3) = _
  after_results

/-! ### The second and third host stretches over any contents -/

section Stretches
variable (V : Valuation τ sig (Elt F))

theorem ops01_v17 : StableHlo.after hostOps0_1 V (Proc.devRef .tc main_v17)
    = select (V (Proc.devRef .tc main_v13)) (V (Proc.devRef .tc main_v16))
        (broadcastInDim S50000 ![] bcast_S_S50000 (id (V (Proc.devRef .tc main_cst_3)))) := by
  after_results
  rfl

theorem ops02_v33 : StableHlo.after hostOps0_2 V (Proc.devRef .tc main_v33)
    = mulf (mulf (Host.gather gather_S50000_S450000x1_S450000_n_0_n_n_0_1_1 (V (Proc.devRef .tc main_v17)) (wrapIdx (V (Proc.devRef .tc main_v3))))
          (V (Proc.devRef .tc main_v8)))
        (Host.gather gather_S50000_S450000x1_S450000_n_0_n_n_0_1_1 (V (Proc.devRef .tc main_v17)) (wrapIdx (V (Proc.devRef .tc main_v6)))) := by
  after_results_simp
  rfl

end Stretches

theorem v17_2 (c : Dev nD) : W2 m c main_v17 = dinvVec m c := by
  refine (ops01_v17 (W1 m c)).trans ?_
  rw [v13_1, v16_1, cst3_1]
  rfl
theorem v6_2 (c : Dev nD) : W2 m c main_v6 = colVec m c := (W2_keep m c main_v6 (by decide)).trans (v6_1 m c)
theorem v8_2 (c : Dev nD) : W2 m c main_v8 = wVec m c := (W2_keep m c main_v8 (by decide)).trans (v8_1 m c)

/-- The normalisation vector sits in its buffer once the third host stretch has run. -/
theorem v33_3 (c : Dev nD) : W3 m c main_v33 = normVec m c := by
  refine (ops02_v33 (W2 m c)).trans ?_
  rw [v17_2, v3_2, v8_2, v6_2]
  rfl
theorem v33_4 (c : Dev nD) : W4 m c main_v33 = normVec m c := (W4_keep m c main_v33 (by decide)).trans (v33_3 m c)
theorem v33_5 (c : Dev nD) : W5 m c main_v33 = normVec m c := (W5_keep m c main_v33 (by decide)).trans (v33_4 m c)
theorem v33_6 (c : Dev nD) : W6 m hpre c main_v33 = normVec m c := (W6_keep m hpre c main_v33 (by decide)).trans (v33_5 m c)
theorem v33_7 (c : Dev nD) : W7 m hpre c main_v33 = normVec m c := (W7_keep m hpre c main_v33 (by decide)).trans (v33_6 m hpre c)
theorem v33_8 (c : Dev nD) : W8 m hpre c main_v33 = normVec m c := (W8_keep m hpre c main_v33 (by decide)).trans (v33_7 m hpre c)
theorem v33_9 (c : Dev nD) : W9 m hpre c main_v33 = normVec m c := (W9_keep m hpre c main_v33 (by decide)).trans (v33_8 m hpre c)
theorem v33_10 (c : Dev nD) : W10 m hpre c main_v33 = normVec m c := (W10_keep m hpre c main_v33 (by decide)).trans (v33_9 m hpre c)
theorem v33_11 (c : Dev nD) : W11 m hpre c main_v33 = normVec m c := (W11_keep m hpre c main_v33 (by decide)).trans (v33_10 m hpre c)
theorem v33_12 (c : Dev nD) : W12 m hpre c main_v33 = normVec m c := (W12_keep m hpre c main_v33 (by decide)).trans (v33_11 m hpre c)
theorem v33_13 (c : Dev nD) : W13 m hpre c main_v33 = normVec m c := (W13_keep m hpre c main_v33 (by decide)).trans (v33_12 m hpre c)
theorem v33_14 (c : Dev nD) : W14 m hpre c main_v33 = normVec m c := (W14_keep m hpre c main_v33 (by decide)).trans (v33_13 m hpre c)
theorem v33_15 (c : Dev nD) : W15 m hpre c main_v33 = normVec m c := (W15_keep m hpre c main_v33 (by decide)).trans (v33_14 m hpre c)
theorem v33_16 (c : Dev nD) : W16 m hpre c main_v33 = normVec m c := (W16_keep m hpre c main_v33 (by decide)).trans (v33_15 m hpre c)
theorem v33_17 (c : Dev nD) : W17 m hpre c main_v33 = normVec m c := (W17_keep m hpre c main_v33 (by decide)).trans (v33_16 m hpre c)
theorem v33_18 (c : Dev nD) : W18 m hpre c main_v33 = normVec m c := (W18_keep m hpre c main_v33 (by decide)).trans (v33_17 m hpre c)
theorem v33_19 (c : Dev nD) : W19 m hpre c main_v33 = normVec m c := (W19_keep m hpre c main_v33 (by decide)).trans (v33_18 m hpre c)
theorem v33_20 (c : Dev nD) : W20 m hpre c main_v33 = normVec m c := (W20_keep m hpre c main_v33 (by decide)).trans (v33_19 m hpre c)
theorem v33_21 (c : Dev nD) : W21 m hpre c main_v33 = normVec m c := (W21_keep m hpre c main_v33 (by decide)).trans (v33_20 m hpre c)
theorem v33_22 (c : Dev nD) : W22 m hpre c main_v33 = normVec m c := (W22_keep m hpre c main_v33 (by decide)).trans (v33_21 m hpre c)
theorem v33_23 (c : Dev nD) : W23 m hpre c main_v33 = normVec m c := (W23_keep m hpre c main_v33 (by decide)).trans (v33_22 m hpre c)
theorem v33_24 (c : Dev nD) : W24 m hpre c main_v33 = normVec m c := (W24_keep m hpre c main_v33 (by decide)).trans (v33_23 m hpre c)
theorem v33_25 (c : Dev nD) : W25 m hpre c main_v33 = normVec m c := (W25_keep m hpre c main_v33 (by decide)).trans (v33_24 m hpre c)

/-! ### The normalisation vector as a column, and each gather region's block of it -/

/-- The normalisation vector as one column. -/
def normCol (c : Dev nD) : FVec F S450000x1 .f32 := shapeCast S450000x1 (normVec m c) shapeCasts_S450000_S450000x1

theorem v35_5 (c : Dev nD) : W5 m c main_v35 = normCol m c := by
  show StableHlo.after hostOps1 (W4 m c) (Proc.devRef .tc main_v35) = _
  after_results
  rw [v33_4]
  rfl
theorem v35_6 (c : Dev nD) : W6 m hpre c main_v35 = normCol m c := (W6_keep m hpre c main_v35 (by decide)).trans (v35_5 m c)
theorem v35_7 (c : Dev nD) : W7 m hpre c main_v35 = normCol m c := (W7_keep m hpre c main_v35 (by decide)).trans (v35_6 m hpre c)
theorem v35_8 (c : Dev nD) : W8 m hpre c main_v35 = normCol m c := (W8_keep m hpre c main_v35 (by decide)).trans (v35_7 m hpre c)
theorem v35_9 (c : Dev nD) : W9 m hpre c main_v35 = normCol m c := (W9_keep m hpre c main_v35 (by decide)).trans (v35_8 m hpre c)
theorem v35_10 (c : Dev nD) : W10 m hpre c main_v35 = normCol m c := (W10_keep m hpre c main_v35 (by decide)).trans (v35_9 m hpre c)
theorem v35_11 (c : Dev nD) : W11 m hpre c main_v35 = normCol m c := (W11_keep m hpre c main_v35 (by decide)).trans (v35_10 m hpre c)
theorem v35_12 (c : Dev nD) : W12 m hpre c main_v35 = normCol m c := (W12_keep m hpre c main_v35 (by decide)).trans (v35_11 m hpre c)
theorem v35_13 (c : Dev nD) : W13 m hpre c main_v35 = normCol m c := (W13_keep m hpre c main_v35 (by decide)).trans (v35_12 m hpre c)
theorem v35_14 (c : Dev nD) : W14 m hpre c main_v35 = normCol m c := (W14_keep m hpre c main_v35 (by decide)).trans (v35_13 m hpre c)
theorem v35_15 (c : Dev nD) : W15 m hpre c main_v35 = normCol m c := (W15_keep m hpre c main_v35 (by decide)).trans (v35_14 m hpre c)
theorem v35_16 (c : Dev nD) : W16 m hpre c main_v35 = normCol m c := (W16_keep m hpre c main_v35 (by decide)).trans (v35_15 m hpre c)
theorem v35_17 (c : Dev nD) : W17 m hpre c main_v35 = normCol m c := (W17_keep m hpre c main_v35 (by decide)).trans (v35_16 m hpre c)
theorem v35_18 (c : Dev nD) : W18 m hpre c main_v35 = normCol m c := (W18_keep m hpre c main_v35 (by decide)).trans (v35_17 m hpre c)
theorem v35_19 (c : Dev nD) : W19 m hpre c main_v35 = normCol m c := (W19_keep m hpre c main_v35 (by decide)).trans (v35_18 m hpre c)
theorem v35_20 (c : Dev nD) : W20 m hpre c main_v35 = normCol m c := (W20_keep m hpre c main_v35 (by decide)).trans (v35_19 m hpre c)

theorem hnorm1 (c : Dev nD) : V5 m c main_v37
    = extractStridedSlice S50000x1 ![0, 0] (normCol m c) slices_S450000x1_S50000x1_0_0 := by
  show StableHlo.after hostOps1 (W4 m c) (Proc.devRef .tc main_v37) = _
  after_results
  rw [v33_4]
  rfl
theorem hnorm2 (c : Dev nD) : V7 m hpre c main_v40
    = extractStridedSlice S50000x1 ![50000, 0] (normCol m c) slices_S450000x1_S50000x1_50000_0 := by
  show StableHlo.after hostOps2 (W6 m hpre c) (Proc.devRef .tc main_v40) = _
  after_results
  rw [v35_6]
theorem hnorm3 (c : Dev nD) : V9 m hpre c main_v43
    = extractStridedSlice S50000x1 ![100000, 0] (normCol m c) slices_S450000x1_S50000x1_100000_0 := by
  show StableHlo.after hostOps3 (W8 m hpre c) (Proc.devRef .tc main_v43) = _
  after_results
  rw [v35_8]
theorem hnorm4 (c : Dev nD) : V11 m hpre c main_v46
    = extractStridedSlice S50000x1 ![150000, 0] (normCol m c) slices_S450000x1_S50000x1_150000_0 := by
  show StableHlo.after hostOps4 (W10 m hpre c) (Proc.devRef .tc main_v46) = _
  after_results
  rw [v35_10]
theorem hnorm5 (c : Dev nD) : V13 m hpre c main_v49
    = extractStridedSlice S50000x1 ![200000, 0] (normCol m c) slices_S450000x1_S50000x1_200000_0 := by
  show StableHlo.after hostOps5 (W12 m hpre c) (Proc.devRef .tc main_v49) = _
  after_results
  rw [v35_12]
theorem hnorm6 (c : Dev nD) : V15 m hpre c main_v52
    = extractStridedSlice S50000x1 ![250000, 0] (normCol m c) slices_S450000x1_S50000x1_250000_0 := by
  show StableHlo.after hostOps6 (W14 m hpre c) (Proc.devRef .tc main_v52) = _
  after_results
  rw [v35_14]
theorem hnorm7 (c : Dev nD) : V17 m hpre c main_v55
    = extractStridedSlice S50000x1 ![300000, 0] (normCol m c) slices_S450000x1_S50000x1_300000_0 := by
  show StableHlo.after hostOps7 (W16 m hpre c) (Proc.devRef .tc main_v55) = _
  after_results
  rw [v35_16]
theorem hnorm8 (c : Dev nD) : V19 m hpre c main_v58
    = extractStridedSlice S50000x1 ![350000, 0] (normCol m c) slices_S450000x1_S50000x1_350000_0 := by
  show StableHlo.after hostOps8 (W18 m hpre c) (Proc.devRef .tc main_v58) = _
  after_results
  rw [v35_18]
theorem hnorm9 (c : Dev nD) : V21 m hpre c main_v61
    = extractStridedSlice S50000x1 ![400000, 0] (normCol m c) slices_S450000x1_S50000x1_400000_0 := by
  show StableHlo.after hostOps9 (W20 m hpre c) (Proc.devRef .tc main_v61) = _
  after_results
  rw [v35_20]

theorem v72_26 (c : Dev nD) : W26 m hpre c main_v72 = normCol m c := by
  show StableHlo.after hostOps11 (W25 m hpre c) (Proc.devRef .tc main_v72) = _
  after_results
  rw [v33_25]
  rfl
theorem v72_27 (c : Dev nD) : W27 m hpre c main_v72 = normCol m c := (W27_keep m hpre c main_v72 (by decide)).trans (v72_26 m hpre c)
theorem v72_28 (c : Dev nD) : W28 m hpre c main_v72 = normCol m c := (W28_keep m hpre c main_v72 (by decide)).trans (v72_27 m hpre c)
theorem v72_29 (c : Dev nD) : W29 m hpre c main_v72 = normCol m c := (W29_keep m hpre c main_v72 (by decide)).trans (v72_28 m hpre c)
theorem v72_30 (c : Dev nD) : W30 m hpre c main_v72 = normCol m c := (W30_keep m hpre c main_v72 (by decide)).trans (v72_29 m hpre c)
theorem v72_31 (c : Dev nD) : W31 m hpre c main_v72 = normCol m c := (W31_keep m hpre c main_v72 (by decide)).trans (v72_30 m hpre c)
theorem v72_32 (c : Dev nD) : W32 m hpre c main_v72 = normCol m c := (W32_keep m hpre c main_v72 (by decide)).trans (v72_31 m hpre c)
theorem v72_33 (c : Dev nD) : W33 m hpre c main_v72 = normCol m c := (W33_keep m hpre c main_v72 (by decide)).trans (v72_32 m hpre c)
theorem v72_34 (c : Dev nD) : W34 m hpre c main_v72 = normCol m c := (W34_keep m hpre c main_v72 (by decide)).trans (v72_33 m hpre c)
theorem v72_35 (c : Dev nD) : W35 m hpre c main_v72 = normCol m c := (W35_keep m hpre c main_v72 (by decide)).trans (v72_34 m hpre c)
theorem v72_36 (c : Dev nD) : W36 m hpre c main_v72 = normCol m c := (W36_keep m hpre c main_v72 (by decide)).trans (v72_35 m hpre c)
theorem v72_37 (c : Dev nD) : W37 m hpre c main_v72 = normCol m c := (W37_keep m hpre c main_v72 (by decide)).trans (v72_36 m hpre c)
theorem v72_38 (c : Dev nD) : W38 m hpre c main_v72 = normCol m c := (W38_keep m hpre c main_v72 (by decide)).trans (v72_37 m hpre c)
theorem v72_39 (c : Dev nD) : W39 m hpre c main_v72 = normCol m c := (W39_keep m hpre c main_v72 (by decide)).trans (v72_38 m hpre c)
theorem v72_40 (c : Dev nD) : W40 m hpre c main_v72 = normCol m c := (W40_keep m hpre c main_v72 (by decide)).trans (v72_39 m hpre c)
theorem v72_41 (c : Dev nD) : W41 m hpre c main_v72 = normCol m c := (W41_keep m hpre c main_v72 (by decide)).trans (v72_40 m hpre c)

theorem hnorm11 (c : Dev nD) : V26 m hpre c main_v74
    = extractStridedSlice S50000x1 ![0, 0] (normCol m c) slices_S450000x1_S50000x1_0_0 := by
  show StableHlo.after hostOps11 (W25 m hpre c) (Proc.devRef .tc main_v74) = _
  after_results
  rw [v33_25]
  rfl
theorem hnorm12 (c : Dev nD) : V28 m hpre c main_v77
    = extractStridedSlice S50000x1 ![50000, 0] (normCol m c) slices_S450000x1_S50000x1_50000_0 := by
  show StableHlo.after hostOps12 (W27 m hpre c) (Proc.devRef .tc main_v77) = _
  after_results
  rw [v72_27]
theorem hnorm13 (c : Dev nD) : V30 m hpre c main_v80
    = extractStridedSlice S50000x1 ![100000, 0] (normCol m c) slices_S450000x1_S50000x1_100000_0 := by
  show StableHlo.after hostOps13 (W29 m hpre c) (Proc.devRef .tc main_v80) = _
  after_results
  rw [v72_29]
theorem hnorm14 (c : Dev nD) : V32 m hpre c main_v83
    = extractStridedSlice S50000x1 ![150000, 0] (normCol m c) slices_S450000x1_S50000x1_150000_0 := by
  show StableHlo.after hostOps14 (W31 m hpre c) (Proc.devRef .tc main_v83) = _
  after_results
  rw [v72_31]
theorem hnorm15 (c : Dev nD) : V34 m hpre c main_v86
    = extractStridedSlice S50000x1 ![200000, 0] (normCol m c) slices_S450000x1_S50000x1_200000_0 := by
  show StableHlo.after hostOps15 (W33 m hpre c) (Proc.devRef .tc main_v86) = _
  after_results
  rw [v72_33]
theorem hnorm16 (c : Dev nD) : V36 m hpre c main_v89
    = extractStridedSlice S50000x1 ![250000, 0] (normCol m c) slices_S450000x1_S50000x1_250000_0 := by
  show StableHlo.after hostOps16 (W35 m hpre c) (Proc.devRef .tc main_v89) = _
  after_results
  rw [v72_35]
theorem hnorm17 (c : Dev nD) : V38 m hpre c main_v92
    = extractStridedSlice S50000x1 ![300000, 0] (normCol m c) slices_S450000x1_S50000x1_300000_0 := by
  show StableHlo.after hostOps17 (W37 m hpre c) (Proc.devRef .tc main_v92) = _
  after_results
  rw [v72_37]
theorem hnorm18 (c : Dev nD) : V40 m hpre c main_v95
    = extractStridedSlice S50000x1 ![350000, 0] (normCol m c) slices_S450000x1_S50000x1_350000_0 := by
  show StableHlo.after hostOps18 (W39 m hpre c) (Proc.devRef .tc main_v95) = _
  after_results
  rw [v72_39]
theorem hnorm19 (c : Dev nD) : V42 m hpre c main_v98
    = extractStridedSlice S50000x1 ![400000, 0] (normCol m c) slices_S450000x1_S50000x1_400000_0 := by
  show StableHlo.after hostOps19 (W41 m hpre c) (Proc.devRef .tc main_v98) = _
  after_results
  rw [v72_41]

end Cert.KernelIdeal.Hand

end
-- ==== Proof.Mat0Value.lean ====
/- The first layer's dense product after its region (pipeline 0), at the ideal values: the output array holds,
   index by index, the sum over the 262 inner coordinates of the x entry times the W1 entry. -/
import proofs.«414392_j7919919694132_2_alg».proof.Proof.Mat0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

-- the TensorCore's buffer contents when the region is entered, at the ideal values
variable (V : (c : Dev nD) → (b : Ref sig .tc) → Buf (Elt Ideal) ((c : Thread nD τ).loc b))

/-! ## The product at an index -/

theorem hz0 : (![0, 0] : Fin 2 → Nat) = fun _ => 0 := funext fun a => by fin_cases a <;> rfl

/-- The product of a [50000,262] array and a [262,512] array, index by index. -/
abbrev G0 (a0 : (⟨S50000x262, .f32⟩ : BufTy).Contents (Elt Ideal)) (a1 : (⟨S262x512, .f32⟩ : BufTy).Contents (Elt Ideal)) :
    (⟨S50000x512, .f32⟩ : BufTy).Contents (Elt Ideal) :=
  fun i => ∑ k : Fin 262, a0 (ValueIdx.ix2 (n0 := 50000) (n1 := 262) (i 0) k) * a1 (ValueIdx.ix2 (n0 := 262) (n1 := 512) k (i 1))

/-! ## The body's payload at an index -/

theorem lhs0_0 (i : S1000x512.Idx) (q : dot_S1000x262_S262x512_S1000x512_1_0_0_1_n_n.contr.Idx) :
    (dot_S1000x262_S262x512_S1000x512_1_0_0_1_n_n.lhsIdx i q 0).val = (i 0).val := by
  unfold DotDims.lhsIdx
  rw [dif_neg (show ¬(0 : Fin S1000x262.rank) ∈ dot_S1000x262_S262x512_S1000x512_1_0_0_1_n_n.lhsBatch by decide), dif_pos (show (0 : Fin S1000x262.rank) ∈ dot_S1000x262_S262x512_S1000x512_1_0_0_1_n_n.lhsNonContracting by decide)]
  rfl
theorem lhs0_1 (i : S1000x512.Idx) (q : dot_S1000x262_S262x512_S1000x512_1_0_0_1_n_n.contr.Idx) :
    (dot_S1000x262_S262x512_S1000x512_1_0_0_1_n_n.lhsIdx i q 1).val = (q ⟨0, by decide⟩).val :=
  dot_S1000x262_S262x512_S1000x512_1_0_0_1_n_n.lhsIdx_val_of_single rfl i q
theorem rhs0_0 (i : S1000x512.Idx) (q : dot_S1000x262_S262x512_S1000x512_1_0_0_1_n_n.contr.Idx) :
    (dot_S1000x262_S262x512_S1000x512_1_0_0_1_n_n.rhsIdx i q 0).val = (q ⟨0, by decide⟩).val :=
  dot_S1000x262_S262x512_S1000x512_1_0_0_1_n_n.rhsIdx_val_of_single rfl i q
theorem rhs0_1 (i : S1000x512.Idx) (q : dot_S1000x262_S262x512_S1000x512_1_0_0_1_n_n.contr.Idx) :
    (dot_S1000x262_S262x512_S1000x512_1_0_0_1_n_n.rhsIdx i q 1).val = (i 1).val := by
  unfold DotDims.rhsIdx
  rw [dif_neg (show ¬(1 : Fin S262x512.rank) ∈ dot_S1000x262_S262x512_S1000x512_1_0_0_1_n_n.rhsBatch by decide), dif_pos (show (1 : Fin S262x512.rank) ∈ dot_S1000x262_S262x512_S1000x512_1_0_0_1_n_n.rhsNonContracting by decide)]
  rfl

/-- The left operand's index at output index i and inner coordinate k: (row of i, k). -/
abbrev lidx0 (i : S1000x512.Idx) (k : Fin 262) : S1000x262.Idx := fun a => match a with
  | ⟨0, _⟩ => ⟨(i 0).val, (i 0).isLt⟩
  | ⟨1, _⟩ => ⟨k.val, k.isLt⟩
/-- The right operand's: (k, column of i). -/
abbrev ridx0 (i : S1000x512.Idx) (k : Fin 262) : S262x512.Idx := fun a => match a with
  | ⟨0, _⟩ => ⟨k.val, k.isLt⟩
  | ⟨1, _⟩ => ⟨(i 1).val, (i 1).isLt⟩

/-- The body's payload at an index: rounding to the narrow format is the identity at the ideal values, and the
    product into the zero accumulator is the plain sum over the inner coordinate. -/
theorem pay0_apply (x0 : Vec Ideal S1000x262 .f32) (x1 : Vec Ideal S262x512 .f32) (j : S1000x512.Idx) :
    k0_pay1 (F := Ideal) x0 x1 j = ∑ k : Fin 262, x0 (lidx0 j k) * x1 (ridx0 j k) := by
  unfold k0_pay1
  show FloatOps.matmul dot_S1000x262_S262x512_S1000x512_1_0_0_1_n_n none _ _ (constant (F := Ideal) S1000x512 .f32 0x00000000#32) j = _
  rw [Ideal.matmul_constant_zero_apply, ← Equiv.sum_comp (ValueIdx.contrEquiv1 dot_S1000x262_S262x512_S1000x512_1_0_0_1_n_n 262 rfl rfl).symm]
  refine Finset.sum_congr rfl fun k _ => ?_
  have hk := ValueIdx.contrEquiv1_symm_val dot_S1000x262_S262x512_S1000x512_1_0_0_1_n_n 262 rfl rfl k
  have el : dot_S1000x262_S262x512_S1000x512_1_0_0_1_n_n.lhsIdx j ((ValueIdx.contrEquiv1 dot_S1000x262_S262x512_S1000x512_1_0_0_1_n_n 262 rfl rfl).symm k) = lidx0 j k := funext fun a => Fin.ext (by
    match a with
    | ⟨0, _⟩ => exact lhs0_0 _ _
    | ⟨1, _⟩ => exact (lhs0_1 _ _).trans hk)
  have er : dot_S1000x262_S262x512_S1000x512_1_0_0_1_n_n.rhsIdx j ((ValueIdx.contrEquiv1 dot_S1000x262_S262x512_S1000x512_1_0_0_1_n_n 262 rfl rfl).symm k) = ridx0 j k := funext fun a => Fin.ext (by
    match a with
    | ⟨0, _⟩ => exact (rhs0_0 _ _).trans hk
    | ⟨1, _⟩ => exact rhs0_1 _ _)
  rw [el, er]
  first | rfl | (rw [shapeCast_self]; rfl)

/-! ## From blocks to the array -/

/-- The printed index maps, decided over the grid: the x block moves with the output block along the rows, every
    other block coordinate is zero, and the output's row-block index is the point. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every row block is some point's. -/
theorem idx_onto0 : ∀ (q0 : Fin 50), ∃ t : Fin cfg0.N, win0_2.index t = ![q0.val, 0] :=
  (by decide +kernel : ∀ (q0 : Fin 50), ∃ t : Fin grid0.N, win0_2.index t = ![q0.val, 0])

/-- What point t writes back is block t of the product of the two arrays as the region finds them. -/
theorem flushed0_2_eq (c : Dev nD) (t : Fin cfg0.N) :
    (dat0 (F := Ideal) V c).flushed 2 t = ((cfg0.win 2).blk t).view.read (Elt Ideal) (G0 (V c main_arg0) (V c main_arg3)) := by
  show (cfg0.win 2).cut (grid0.coords t) ((dat0 V c).after 2 t) = _
  rw [after0_2]
  unfold out0_2
  rw [View.canon_unit_zero hz0]
  simp only [View.ld_unit_zero (S := S1000x262) hz0, View.ld_unit_zero (S := S262x512) hz0]
  obtain ⟨e0, e1, e2, e3, e4, e5⟩ := idx_facts0 t
  funext j
  show k0_pay1 (F := Ideal) (iblk0 V c 0 t) (iblk0 V c 1 t) j = G0 (V c main_arg0) (V c main_arg3) (((cfg0.win 2).blk t).view.emb j)
  rw [pay0_apply]
  show _ = ∑ k : Fin 262, _
  refine Finset.sum_congr rfl fun k _ => ?_
  have h0 : iblk0 V c 0 t (lidx0 j k) = V c main_arg0 (ValueIdx.ix2 (n0 := 50000) (n1 := 262) ((((cfg0.win 2).blk t).view.emb j) 0) k) := by
    show V c main_arg0 (((cfg0.win 0).blk t).view.emb (lidx0 j k)) = _
    refine congrArg (V c main_arg0) ?_
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 262 + 1 * k.val = k.val; omega
  have h1 : iblk0 V c 1 t (ridx0 j k) = V c main_arg3 (ValueIdx.ix2 (n0 := 262) (n1 := 512) k ((((cfg0.win 2).blk t).view.emb j) 1)) := by
    show V c main_arg3 (((cfg0.win 1).blk t).view.emb (ridx0 j k)) = _
    refine congrArg (V c main_arg3) ?_
    funext a; apply Fin.ext
    match a with
    | ⟨0, _⟩ => show win0_1.index t (0 : Fin 2) * 262 + 1 * k.val = k.val; omega
    | ⟨1, _⟩ => show win0_1.index t (1 : Fin 2) * 512 + 1 * (j 1).val = win0_2.index t (1 : Fin 2) * 512 + 1 * (j 1).val; omega
  exact congrArg₂ (fun (a b : EReal) => a * b) h0 h1

/-- An index of the array is in point t's block iff each coordinate is in the block's range on its axis. -/
theorem mem_blk0_2 (t : Fin cfg0.N) (i : S50000x512.Idx) :
    i ∈ ((cfg0.win 2).blk t).view.set ↔ ∀ a : Fin 2, win0_2.index t a * S1000x512.size a ≤ (i a).val ∧ (i a).val < win0_2.index t a * S1000x512.size a + S1000x512.size a := by
  show i ∈ ((View.whole main_v34).slice (win0_2.rect t)).set ↔ _
  rw [View.set_slice_whole, Rect.mem_set_unit]
  exact Iff.rfl

/-- Every index of the array is in some point's block: row r is in block r / 1000. -/
theorem cover0_blk (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  obtain ⟨t, ht⟩ := idx_onto0 ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 512 ≤ (i 1).val ∧ (i 1).val < win0_2.index t (1 : Fin 2) * 512 + 512; omega

/-- The output array after the region: the product of the two arrays as the region finds them. -/
theorem arrAt0_2 (c : Dev nD) : (dat0 (F := Ideal) V c).arrAt 2 cfg0.N = G0 (V c main_arg0) (V c main_arg3) :=
  (dat0 (F := Ideal) V c).arrAt_eq_of_cover 2 (G0 (V c main_arg0) (V c main_arg3)) (fun t _ => flushed0_2_eq V c t) cover0_blk

end Cert.KernelIdeal.Hand

end
-- ==== Proof.Mat10Value.lean ====
/- the second layer's dense product after its region (pipeline 10), at the ideal values: the output array holds,
   index by index, the sum over the 512 inner coordinates of the x entry times the W2 entry. -/
import proofs.«414392_j7919919694132_2_alg».proof.Proof.Mat10
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

-- the TensorCore's buffer contents when the region is entered, at the ideal values
variable (V : (c : Dev nD) → (b : Ref sig .tc) → Buf (Elt Ideal) ((c : Thread nD τ).loc b))

/-! ## The product at an index -/

theorem hz10 : (![0, 0] : Fin 2 → Nat) = fun _ => 0 := funext fun a => by fin_cases a <;> rfl

/-- The product of a [50000,512] array and a [512,262] array, index by index. -/
abbrev G10 (a0 : (⟨S50000x512, .f32⟩ : BufTy).Contents (Elt Ideal)) (a1 : (⟨S512x262, .f32⟩ : BufTy).Contents (Elt Ideal)) :
    (⟨S50000x262, .f32⟩ : BufTy).Contents (Elt Ideal) :=
  fun i => ∑ k : Fin 512, a0 (ValueIdx.ix2 (n0 := 50000) (n1 := 512) (i 0) k) * a1 (ValueIdx.ix2 (n0 := 512) (n1 := 262) k (i 1))

/-! ## The body's payload at an index -/

theorem lhs10_0 (i : S1000x262.Idx) (q : dot_S1000x512_S512x262_S1000x262_1_0_0_1_n_n.contr.Idx) :
    (dot_S1000x512_S512x262_S1000x262_1_0_0_1_n_n.lhsIdx i q 0).val = (i 0).val := by
  unfold DotDims.lhsIdx
  rw [dif_neg (show ¬(0 : Fin S1000x512.rank) ∈ dot_S1000x512_S512x262_S1000x262_1_0_0_1_n_n.lhsBatch by decide), dif_pos (show (0 : Fin S1000x512.rank) ∈ dot_S1000x512_S512x262_S1000x262_1_0_0_1_n_n.lhsNonContracting by decide)]
  rfl
theorem lhs10_1 (i : S1000x262.Idx) (q : dot_S1000x512_S512x262_S1000x262_1_0_0_1_n_n.contr.Idx) :
    (dot_S1000x512_S512x262_S1000x262_1_0_0_1_n_n.lhsIdx i q 1).val = (q ⟨0, by decide⟩).val :=
  dot_S1000x512_S512x262_S1000x262_1_0_0_1_n_n.lhsIdx_val_of_single rfl i q
theorem rhs10_0 (i : S1000x262.Idx) (q : dot_S1000x512_S512x262_S1000x262_1_0_0_1_n_n.contr.Idx) :
    (dot_S1000x512_S512x262_S1000x262_1_0_0_1_n_n.rhsIdx i q 0).val = (q ⟨0, by decide⟩).val :=
  dot_S1000x512_S512x262_S1000x262_1_0_0_1_n_n.rhsIdx_val_of_single rfl i q
theorem rhs10_1 (i : S1000x262.Idx) (q : dot_S1000x512_S512x262_S1000x262_1_0_0_1_n_n.contr.Idx) :
    (dot_S1000x512_S512x262_S1000x262_1_0_0_1_n_n.rhsIdx i q 1).val = (i 1).val := by
  unfold DotDims.rhsIdx
  rw [dif_neg (show ¬(1 : Fin S512x262.rank) ∈ dot_S1000x512_S512x262_S1000x262_1_0_0_1_n_n.rhsBatch by decide), dif_pos (show (1 : Fin S512x262.rank) ∈ dot_S1000x512_S512x262_S1000x262_1_0_0_1_n_n.rhsNonContracting by decide)]
  rfl

/-- The left operand's index at output index i and inner coordinate k: (row of i, k). -/
abbrev lidx10 (i : S1000x262.Idx) (k : Fin 512) : S1000x512.Idx := fun a => match a with
  | ⟨0, _⟩ => ⟨(i 0).val, (i 0).isLt⟩
  | ⟨1, _⟩ => ⟨k.val, k.isLt⟩
/-- The right operand's: (k, column of i). -/
abbrev ridx10 (i : S1000x262.Idx) (k : Fin 512) : S512x262.Idx := fun a => match a with
  | ⟨0, _⟩ => ⟨k.val, k.isLt⟩
  | ⟨1, _⟩ => ⟨(i 1).val, (i 1).isLt⟩

/-- The body's payload at an index: rounding to the narrow format is the identity at the ideal values, and the
    product into the zero accumulator is the plain sum over the inner coordinate. -/
theorem pay10_apply (x0 : Vec Ideal S1000x512 .f32) (x1 : Vec Ideal S512x262 .f32) (j : S1000x262.Idx) :
    k10_pay1 (F := Ideal) x0 x1 j = ∑ k : Fin 512, x0 (lidx10 j k) * x1 (ridx10 j k) := by
  unfold k10_pay1
  show FloatOps.matmul dot_S1000x512_S512x262_S1000x262_1_0_0_1_n_n none _ _ (constant (F := Ideal) S1000x262 .f32 0x00000000#32) j = _
  rw [Ideal.matmul_constant_zero_apply, ← Equiv.sum_comp (ValueIdx.contrEquiv1 dot_S1000x512_S512x262_S1000x262_1_0_0_1_n_n 512 rfl rfl).symm]
  refine Finset.sum_congr rfl fun k _ => ?_
  have hk := ValueIdx.contrEquiv1_symm_val dot_S1000x512_S512x262_S1000x262_1_0_0_1_n_n 512 rfl rfl k
  have el : dot_S1000x512_S512x262_S1000x262_1_0_0_1_n_n.lhsIdx j ((ValueIdx.contrEquiv1 dot_S1000x512_S512x262_S1000x262_1_0_0_1_n_n 512 rfl rfl).symm k) = lidx10 j k := funext fun a => Fin.ext (by
    match a with
    | ⟨0, _⟩ => exact lhs10_0 _ _
    | ⟨1, _⟩ => exact (lhs10_1 _ _).trans hk)
  have er : dot_S1000x512_S512x262_S1000x262_1_0_0_1_n_n.rhsIdx j ((ValueIdx.contrEquiv1 dot_S1000x512_S512x262_S1000x262_1_0_0_1_n_n 512 rfl rfl).symm k) = ridx10 j k := funext fun a => Fin.ext (by
    match a with
    | ⟨0, _⟩ => exact (rhs10_0 _ _).trans hk
    | ⟨1, _⟩ => exact rhs10_1 _ _)
  rw [el, er]
  first | rfl | (rw [shapeCast_self]; rfl)

/-! ## From blocks to the array -/

/-- The printed index maps, decided over the grid: the x block moves with the output block along the rows, every
    other block coordinate is zero, and the output's row-block index is the point. -/
theorem idx_facts10 : ∀ t : Fin cfg10.N, win10_0.index t (0 : Fin 2) = win10_2.index t (0 : Fin 2)
    ∧ win10_0.index t (1 : Fin 2) = 0
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

/-- Every row block is some point's. -/
theorem idx_onto10 : ∀ (q0 : Fin 50), ∃ t : Fin cfg10.N, win10_2.index t = ![q0.val, 0] :=
  (by decide +kernel : ∀ (q0 : Fin 50), ∃ t : Fin grid10.N, win10_2.index t = ![q0.val, 0])

/-- What point t writes back is block t of the product of the two arrays as the region finds them. -/
theorem flushed10_2_eq (c : Dev nD) (t : Fin cfg10.N) :
    (dat10 (F := Ideal) V c).flushed 2 t = ((cfg10.win 2).blk t).view.read (Elt Ideal) (G10 (V c main_v70) (V c main_arg5)) := by
  show (cfg10.win 2).cut (grid10.coords t) ((dat10 V c).after 2 t) = _
  rw [after10_2]
  unfold out10_2
  rw [View.canon_unit_zero hz10]
  simp only [View.ld_unit_zero (S := S1000x512) hz10, View.ld_unit_zero (S := S512x262) hz10]
  obtain ⟨e0, e1, e2, e3, e4, e5⟩ := idx_facts10 t
  funext j
  show k10_pay1 (F := Ideal) (iblk10 V c 0 t) (iblk10 V c 1 t) j = G10 (V c main_v70) (V c main_arg5) (((cfg10.win 2).blk t).view.emb j)
  rw [pay10_apply]
  show _ = ∑ k : Fin 512, _
  refine Finset.sum_congr rfl fun k _ => ?_
  have h0 : iblk10 V c 0 t (lidx10 j k) = V c main_v70 (ValueIdx.ix2 (n0 := 50000) (n1 := 512) ((((cfg10.win 2).blk t).view.emb j) 0) k) := by
    show V c main_v70 (((cfg10.win 0).blk t).view.emb (lidx10 j k)) = _
    refine congrArg (V c main_v70) ?_
    funext a; apply Fin.ext
    match a with
    | ⟨0, _⟩ => show win10_0.index t (0 : Fin 2) * 1000 + 1 * (j 0).val = win10_2.index t (0 : Fin 2) * 1000 + 1 * (j 0).val; omega
    | ⟨1, _⟩ => show win10_0.index t (1 : Fin 2) * 512 + 1 * k.val = k.val; omega
  have h1 : iblk10 V c 1 t (ridx10 j k) = V c main_arg5 (ValueIdx.ix2 (n0 := 512) (n1 := 262) k ((((cfg10.win 2).blk t).view.emb j) 1)) := by
    show V c main_arg5 (((cfg10.win 1).blk t).view.emb (ridx10 j k)) = _
    refine congrArg (V c main_arg5) ?_
    funext a; apply Fin.ext
    match a with
    | ⟨0, _⟩ => show win10_1.index t (0 : Fin 2) * 512 + 1 * k.val = k.val; omega
    | ⟨1, _⟩ => show win10_1.index t (1 : Fin 2) * 262 + 1 * (j 1).val = win10_2.index t (1 : Fin 2) * 262 + 1 * (j 1).val; omega
  exact congrArg₂ (fun (a b : EReal) => a * b) h0 h1

/-- An index of the array is in point t's block iff each coordinate is in the block's range on its axis. -/
theorem mem_blk10_2 (t : Fin cfg10.N) (i : S50000x262.Idx) :
    i ∈ ((cfg10.win 2).blk t).view.set ↔ ∀ a : Fin 2, win10_2.index t a * S1000x262.size a ≤ (i a).val ∧ (i a).val < win10_2.index t a * S1000x262.size a + S1000x262.size a := by
  show i ∈ ((View.whole main_v71).slice (win10_2.rect t)).set ↔ _
  rw [View.set_slice_whole, Rect.mem_set_unit]
  exact Iff.rfl

/-- Every index of the array is in some point's block: row r is in block r / 1000. -/
theorem cover10_blk (i : S50000x262.Idx) :
    ∃ t : Fin cfg10.N, (cfg10.win 2).flush t = true ∧ i ∈ ((cfg10.win 2).blk t).view.set := by
  have hi0 : (i 0).val < 50000 := (i 0).isLt
  have hi1 : (i 1).val < 262 := (i 1).isLt
  obtain ⟨t, ht⟩ := idx_onto10 ⟨(i 0).val / 1000, by omega⟩
  have q0 : win10_2.index t (0 : Fin 2) = (i 0).val / 1000 := congrFun ht 0
  have q1 : win10_2.index t (1 : Fin 2) = 0 := congrFun ht 1
  refine ⟨t, flush10_2 t, ?_⟩
  rw [mem_blk10_2]
  intro a
  match a with
  | ⟨0, _⟩ => show win10_2.index t (0 : Fin 2) * 1000 ≤ (i 0).val ∧ (i 0).val < win10_2.index t (0 : Fin 2) * 1000 + 1000; omega
  | ⟨1, _⟩ => show win10_2.index t (1 : Fin 2) * 262 ≤ (i 1).val ∧ (i 1).val < win10_2.index t (1 : Fin 2) * 262 + 262; omega

/-- The output array after the region: the product of the two arrays as the region finds them. -/
theorem arrAt10_2 (c : Dev nD) : (dat10 (F := Ideal) V c).arrAt 2 cfg10.N = G10 (V c main_v70) (V c main_arg5) :=
  (dat10 (F := Ideal) V c).arrAt_eq_of_cover 2 (G10 (V c main_v70) (V c main_arg5)) (fun t _ => flushed10_2_eq V c t) cover10_blk

end Cert.KernelIdeal.Hand

end
-- ==== Proof.NormEq.lean ====
/-
  THE TWO PROGRAMS COMPUTE THE EDGE LISTS AND THE EDGE COEFFICIENTS BY THE SAME OPERATIONS.

  The kernel's program and the reference build the source vector, the target vector and the coefficient vector of the
  450000 edges from the edge table and the edge weights by the same host operations in the same order: each of the
  kernel's vectors IS the reference's stage of the same arguments. And when every source in the edge table is a node,
  counting a negative source from the end changes nothing: the wrapped sources are the sources.
-/
import proofs.«414392_j7919919694132_2_alg».proof.Proof.NormAt
import proofs.«414392_j7919919694132_2_alg».proof.Proof.RefApply

set_option maxRecDepth 16384

noncomputable section

/-! ## The reference: wrapping changes no source that is a node -/

namespace Cert.ReferenceIdeal.RefValue

open Cert.ReferenceIdeal Cert.ReferenceIdeal.Gen Idealize.ShloMosaic Idealize.ShloMosaic.ValueIdx

variable {F : FTy → Type} [FloatOps F]

/-- When every source in the edge table is a node, so is every source of the 450000 edges. -/
theorem rowRaw_lt (a1 : IVec S2x400000 32) (hrow : ∀ e : Fin 400000, (a1 (ix2 (0 : Fin 2) e)).toNat < 50000) (e : Fin 450000) :
    (rowRaw (F := F) a1 (ix1 e)).toNat < 50000 := by
  have he := e.isLt
  by_cases h : e.val < 400000
  · rw [rowRaw_given (F := F) a1 e h]; exact hrow _
  · rw [rowRaw_loop (F := F) a1 e (by omega), BitVec.toNat_ofNat, Nat.mod_eq_of_lt (by omega)]; omega

/-- When every source in the edge table is a node, the wrapped sources are the sources. -/
theorem rowN_eq_rowRaw (a1 : IVec S2x400000 32) (hrow : ∀ e : Fin 400000, (a1 (ix2 (0 : Fin 2) e)).toNat < 50000) :
    rowN (F := F) a1 = rowRaw (F := F) a1 := by
  funext i
  obtain ⟨e, rfl⟩ : ∃ e : Fin 450000, i = ix1 e := ⟨i 0, eq_ix1 i⟩
  unfold rowN
  exact wrapIdx_of_lt _ _ (rowRaw_lt (F := F) a1 hrow e)

end Cert.ReferenceIdeal.RefValue

/-! ## The kernel's vectors are the reference's stages -/

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The kernel's source vector is the reference's. -/
theorem rowVec_eq (c : Dev nD) :
    rowVec m c = Cert.ReferenceIdeal.RefValue.rowRaw (F := F) (m ((c : Thread nD τ).loc main_arg1)) := by
  unfold rowVec Cert.ReferenceIdeal.RefValue.rowRaw
  rfl

/-- The kernel's target vector is the reference's. -/
theorem colVec_eq (c : Dev nD) :
    colVec m c = Cert.ReferenceIdeal.RefValue.colRaw (F := F) (m ((c : Thread nD τ).loc main_arg1)) := by
  unfold colVec Cert.ReferenceIdeal.RefValue.colRaw
  rfl

/-- The kernel's edge weights are the reference's. -/
theorem wVec_eq (c : Dev nD) :
    wVec m c = Cert.ReferenceIdeal.RefValue.ewV (F := F) (m ((c : Thread nD τ).loc main_arg2)) := by
  unfold wVec Cert.ReferenceIdeal.RefValue.ewV
  rfl

/-- The kernel's in-degrees are the reference's. -/
theorem degVec_eq (c : Dev nD) :
    degVec m c = Cert.ReferenceIdeal.RefValue.degV (F := F) (m ((c : Thread nD τ).loc main_arg1)) (m ((c : Thread nD τ).loc main_arg2)) := by
  unfold degVec Cert.ReferenceIdeal.RefValue.degV
  rw [colVec_eq, wVec_eq]
  rfl

/-- The kernel's inverse square roots of the degrees are the reference's. -/
theorem dinvVec_eq (c : Dev nD) :
    dinvVec m c = Cert.ReferenceIdeal.RefValue.dinvV (F := F) (m ((c : Thread nD τ).loc main_arg1)) (m ((c : Thread nD τ).loc main_arg2)) := by
  unfold dinvVec Cert.ReferenceIdeal.RefValue.dinvV
  rw [degVec_eq]

/-- The kernel's wrapped index column is the reference's wrapped vector laid as a column. -/
theorem wrapIdx_eq (x : IVec S450000 32) :
    wrapIdx x = broadcastInDim S450000x1 ![0] bcast_S450000_S450000x1_0 (Cert.ReferenceIdeal.RefValue.wrapIdx (F := F) x) := by
  unfold wrapIdx Cert.ReferenceIdeal.RefValue.wrapIdx
  rfl

/-- The kernel's edge coefficients are the reference's. -/
theorem normVec_eq (c : Dev nD) :
    normVec m c = Cert.ReferenceIdeal.RefValue.normV (F := F) (m ((c : Thread nD τ).loc main_arg1)) (m ((c : Thread nD τ).loc main_arg2)) := by
  unfold normVec Cert.ReferenceIdeal.RefValue.normV Cert.ReferenceIdeal.RefValue.rowN
  rw [dinvVec_eq, wVec_eq, rowVec_eq, colVec_eq, wrapIdx_eq (F := F), wrapIdx_eq (F := F)]
  rfl

end Cert.KernelIdeal.Hand

end
-- ==== Proof.G1Idx.lean ====
/- Pipeline 1 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G1
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg1 (F := Ideal)).Adm) (hH : ∀ j : Fin 50000, ((a.1 0) (ValueIdx.ix1 j)).toNat < 50000)

/-! ## The arrays, by name -/

/-- The array the rows are gathered from, and the norm column. -/
abbrev hbArr1 (c : Dev nD) : FVec Ideal S50000x512 .f32 := V c main_v34
abbrev nmArr1 (c : Dev nD) : FVec Ideal S50000x1 .f32 := V c main_v37
/-- The norm block at a point. -/
abbrev nmBlk1 (c : Dev nD) (t : Fin (cfg1 a).N) : FVec Ideal S16x1 .f32 := iblk1 V a c 0 t

/-- The gathered and scaled array: row e is the row of the source array named by the table's word e, times the norm
    column's entry e. -/
abbrev G1v (c : Dev nD) : (⟨S50000x512, .f32⟩ : BufTy).Contents (Elt Ideal) := fun i =>
  hbArr1 V c (ValueIdx.ix2 (n0 := 50000) (n1 := 512) ⟨((a.1 0) (ValueIdx.ix1 (n := 50000) (i 0))).toNat, hH (i 0)⟩ (i 1))
    * nmArr1 V c (ValueIdx.ix2 (n0 := 50000) (n1 := 1) (i 0) 0)

/-! ## The index maps at a point -/

theorem N1_eq : (cfg1 a).N = 3125 := N_1

/-- Row r of point t's block is a row of the array. -/
theorem idx_lt1 (t : Fin (cfg1 a).N) (r : Fin 16) : 16 * t.val + r.val < 50000 := by
  have ht : t.val < 3125 := (N1_eq a) ▸ t.isLt
  have := r.isLt; omega

/-- On the one-axis grid the point's coordinate is the point. -/
theorem coords1_val (t : Fin (cfg1 a).N) : (grid1.coords t 0).val = t.val := by
  have h : t.val < 3125 := (N1_eq a) ▸ t.isLt
  show t.val / grid1.stride 0 % 3125 = t.val
  rw [show grid1.stride 0 = 1 from by decide, Nat.div_one, Nat.mod_eq_of_lt h]

theorem idx1_0 (t : Fin (cfg1 a).N) : ((cfg1 a).win 0).index t = cc1_transform_1 (grid1.coords t) := rfl
theorem idx1_1 (t : Fin (cfg1 a).N) : ((cfg1 a).win 1).index t = cc1_transform_2 (grid1.coords t) := rfl

theorem tr1_0 (i : grid1.Coords) : cc1_transform_1 i (0 : Fin 2) = (i 0).val := by
  show (BitVec.ofNat 32 (i 0).val).toNat = _
  have h := (i 0).isLt
  have hb : grid1.bound 0 = 3125 := rfl
  rw [BitVec.toNat_ofNat]; exact Nat.mod_eq_of_lt (by omega)
theorem tr1_1 (i : grid1.Coords) : cc1_transform_1 i (1 : Fin 2) = 0 := rfl
theorem tr2_0 (i : grid1.Coords) : cc1_transform_2 i (0 : Fin 2) = (i 0).val := by
  show (BitVec.ofNat 32 (i 0).val).toNat = _
  have h := (i 0).isLt
  have hb : grid1.bound 0 = 3125 := rfl
  rw [BitVec.toNat_ofNat]; exact Nat.mod_eq_of_lt (by omega)
theorem tr2_1 (i : grid1.Coords) : cc1_transform_2 i (1 : Fin 2) = 0 := rfl

/-- Both windows' row-block index at point t is t; their column-block index is zero. -/
theorem index1_0_0 (t : Fin (cfg1 a).N) : ((cfg1 a).win 0).index t (0 : Fin 2) = t.val := by rw [idx1_0, tr1_0, coords1_val]
theorem index1_0_1 (t : Fin (cfg1 a).N) : ((cfg1 a).win 0).index t (1 : Fin 2) = 0 := by rw [idx1_0, tr1_1]
theorem index1_1_0 (t : Fin (cfg1 a).N) : ((cfg1 a).win 1).index t (0 : Fin 2) = t.val := by rw [idx1_1, tr2_0, coords1_val]
theorem index1_1_1 (t : Fin (cfg1 a).N) : ((cfg1 a).win 1).index t (1 : Fin 2) = 0 := by rw [idx1_1, tr2_1]

/-- The output window is written back at every point: its block index moves with the point. -/
theorem flush1_1 (t : Fin (cfg1 a).N) : ((cfg1 a).win 1).flush t = true := by
  rw [Window.flush_out _ rfl]
  by_cases h : t.val + 1 = grid1.N
  · exact Or.inl h
  · have hN : grid1.N = 3125 := N_1
    have ht : t.val < 3125 := (N1_eq a) ▸ t.isLt
    have h1 : t.val + 1 < grid1.N := by omega
    refine Or.inr ⟨h1, fun e => ?_⟩
    have e0 : ((cfg1 a).win 1).index ⟨t.val + 1, h1⟩ (0 : Fin 2) = ((cfg1 a).win 1).index t (0 : Fin 2) := congrFun e (0 : Fin 2)
    rw [index1_1_0, index1_1_0] at e0
    exact absurd e0 (by show t.val + 1 ≠ t.val; omega)

/-! ## The blocks at a point -/

/-- Entry (r, j) of point t's output block is entry (16 t + r, j) of the array. -/
theorem emb1_1 (t : Fin (cfg1 a).N) (r : Fin 16) (j : Fin 512) :
    (((cfg1 a).win 1).blk t).view.emb (ValueIdx.ix2 (n0 := 16) (n1 := 512) r j)
      = ValueIdx.ix2 (n0 := 50000) (n1 := 512) ⟨16 * t.val + r.val, idx_lt1 a t r⟩ j := by
  funext k; apply Fin.ext
  match k with
  | ⟨0, _⟩ => show ((cfg1 a).win 1).index t (0 : Fin 2) * 16 + 1 * r.val = 16 * t.val + r.val; rw [index1_1_0]; omega
  | ⟨1, _⟩ => show ((cfg1 a).win 1).index t (1 : Fin 2) * 512 + 1 * j.val = j.val; rw [index1_1_1]; omega

/-- The norm block at point t, row r, is the norm column's entry 16 t + r. -/
theorem nmBlk1_apply (c : Dev nD) (t : Fin (cfg1 a).N) (r : Fin 16) :
    nmBlk1 V a c t (ValueIdx.ix2 (n0 := 16) (n1 := 1) r 0)
      = nmArr1 V c (ValueIdx.ix2 (n0 := 50000) (n1 := 1) ⟨16 * t.val + r.val, idx_lt1 a t r⟩ 0) := by
  show V c main_v37 ((((cfg1 a).win 0).blk t).view.emb (ValueIdx.ix2 (n0 := 16) (n1 := 1) r 0)) = V c main_v37 (ValueIdx.ix2 (n0 := 50000) (n1 := 1) ⟨16 * t.val + r.val, idx_lt1 a t r⟩ 0)
  refine congrArg (V c main_v37) ?_
  funext k; apply Fin.ext
  match k with
  | ⟨0, _⟩ => show ((cfg1 a).win 0).index t (0 : Fin 2) * 16 + 1 * r.val = 16 * t.val + r.val; rw [index1_0_0]; omega
  | ⟨1, _⟩ => show ((cfg1 a).win 0).index t (1 : Fin 2) * 1 + 1 * 0 = 0; rw [index1_0_1]

/-- Entry (16 t + r, j) of the array is in point t's block. -/
theorem mem_blk1_1 (t : Fin (cfg1 a).N) (r : Fin 16) (j : Fin 512) :
    ValueIdx.ix2 (n0 := 50000) (n1 := 512) ⟨16 * t.val + r.val, idx_lt1 a t r⟩ j ∈ (((cfg1 a).win 1).blk t).view.set := by
  rw [← emb1_1]; exact View.emb_mem_set _ _

end Cert.KernelIdeal.Hand

end
-- ==== Proof.G1Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 1's one store at (r, j): the scratch entry (r, j) times the norm block's entry r. -/
theorem pay1_apply (v192 : Vec Ideal S16x1 .f32) (v194 : Vec Ideal S16x512 .f32) (r : Fin 16) (j : Fin 512) :
    k1_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k1_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col_512 _ r j).trans (congrFun (shapeCast_self v192 shapeCasts_S16x1_S16x1) _))

end Cert.KernelIdeal.Hand

end
-- ==== Proof.G1Block.lean ====
/- Pipeline 1 at the ideal values: the block the body leaves at a point, entry by entry. -/
import proofs.«414392_j7919919694132_2_alg».proof.Proof.G1Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G1Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg1 (F := Ideal)).Adm) (hH : ∀ j : Fin 50000, ((a.1 0) (ValueIdx.ix1 j)).toNat < 50000)

/-! ## Indices of a one-row slice -/

/-- A one-row index has leading coordinate 0. -/
theorem row0_1 (x : S1x512.Idx) : (x 0).val = 0 := by
  have h := (x 0).isLt
  have e : S1x512.size 0 = 1 := by decide
  omega

/-- The gathered array, read as a matrix of ideal values. -/
abbrev asArr1 (c : Dev nD) (fh0 : HbBuf1 (F := Ideal) c hbM1) : FVec Ideal S50000x512 .f32 := fh0

/-- The table's word at offset `16 i + k`, as the body reads it. -/
theorem word1 (c : Dev nD) (i : grid1.Coords) (tb : HbBuf1 (F := Ideal) c tbM1) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM1.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma1_apply (c : Dev nD) (fh0 : HbBuf1 (F := Ideal) c hbM1) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM1.slice (Rect.unit (s := S50000x512) off S1x512.size inb) (fun _ => rfl)).view fh0) x
      = asArr1 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_1 x]; omega
  · show 0 + 1 * (x 1).val = (x 1).val
    omega

/-- The sixteen rows of the scratch, each the payload of its transfer. -/
def rows1 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows1 (p0 p1 p2 p3 p4 p5 p6 p7 p8 p9 p10 p11 p12 p13 p14 p15 : S1x512.Idx → Elt Ideal .f32) (y : S16x512.Idx) : ∃ pc ∈ rows1 p0 p1 p2 p3 p4 p5 p6 p7 p8 p9 p10 p11 p12 p13 p14 p15, y ∈ pc.1.set :=
  View.cover_of_tiledL (rows1 p0 p1 p2 p3 p4 p5 p6 p7 p8 p9 p10 p11 p12 p13 p14 p15) S1x512.size (by sl_kernel_rfl) y

/-- A point's coordinate is below the grid's 3125 points, so the sixteen table offsets of the point are inside the table. -/
theorem idxlt1 (i : grid1.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath1 (c : Dev nD) (i : grid1.Coords) (tb : HbBuf1 (F := Ideal) c tbM1) (fh0 : HbBuf1 (F := Ideal) c hbM1) (hT : ∀ x, (tb x).toNat < 50000) :
    S16x512.Idx → Elt Ideal .f32 :=
  fun y => asArr1 c fh0 (ValueIdx.ix2 (n0 := 50000) (n1 := 512) ⟨(tb (ValueIdx.ix1 (n := 50000) ⟨16 * (i 0).val + (y 0).val, idxlt1 i (y 0)⟩)).toNat, hT _⟩ (y 1))

/-- Row k's transfer delivers `gath1` at the row's indices. -/
theorem piece1 (c : Dev nD) (i : grid1.Coords) (tb : HbBuf1 (F := Ideal) c tbM1) (fh0 : HbBuf1 (F := Ideal) c hbM1) (hT : ∀ x, (tb x).toNat < 50000)
    (k : Fin 16) (w : BitVec 32) (hwd : w = tb (ValueIdx.ix1 (n := 50000) ⟨16 * (i 0).val + k.val, idxlt1 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM1.slice (Rect.unit (s := S50000x512) off S1x512.size inb) (fun _ => rfl)).view fh0) x
      = gath1 c i tb fh0 hT ((Rect.unit (s := S16x512) ![k.val, 0] S1x512.size inbk).emb x) := by
  subst hwd
  rw [dma1_apply c fh0 _ (hT _) off hoff inb x]
  unfold gath1
  show asArr1 c fh0 _ = asArr1 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_1 x]; omega
  · show (x 1).val = 0 + 1 * (x 1).val
    omega

/-- The scratch, read whole after the sixteen waits, is `gath1`. -/
theorem scratch1_apply (c : Dev nD) (i : grid1.Coords) (tb : HbBuf1 (F := Ideal) c tbM1) (fh0 : HbBuf1 (F := Ideal) c hbM1) (hT : ∀ x, (tb x).toNat < 50000)
    (y : S16x512.Idx) :
    scM1.view.readCov (rows1
        (kernelRun1.sl.dma1 c i tb fh0 (chk1_1_of_lt _ (hT _)))
        (kernelRun1.sl.dma2 c i tb fh0 (chk1_2_of_lt _ (hT _)))
        (kernelRun1.sl.dma3 c i tb fh0 (chk1_3_of_lt _ (hT _)))
        (kernelRun1.sl.dma4 c i tb fh0 (chk1_4_of_lt _ (hT _)))
        (kernelRun1.sl.dma5 c i tb fh0 (chk1_5_of_lt _ (hT _)))
        (kernelRun1.sl.dma6 c i tb fh0 (chk1_6_of_lt _ (hT _)))
        (kernelRun1.sl.dma7 c i tb fh0 (chk1_7_of_lt _ (hT _)))
        (kernelRun1.sl.dma8 c i tb fh0 (chk1_8_of_lt _ (hT _)))
        (kernelRun1.sl.dma9 c i tb fh0 (chk1_9_of_lt _ (hT _)))
        (kernelRun1.sl.dma10 c i tb fh0 (chk1_10_of_lt _ (hT _)))
        (kernelRun1.sl.dma11 c i tb fh0 (chk1_11_of_lt _ (hT _)))
        (kernelRun1.sl.dma12 c i tb fh0 (chk1_12_of_lt _ (hT _)))
        (kernelRun1.sl.dma13 c i tb fh0 (chk1_13_of_lt _ (hT _)))
        (kernelRun1.sl.dma14 c i tb fh0 (chk1_14_of_lt _ (hT _)))
        (kernelRun1.sl.dma15 c i tb fh0 (chk1_15_of_lt _ (hT _)))
        (kernelRun1.sl.dma16 c i tb fh0 (chk1_16_of_lt _ (hT _)))) (Rect.unit (s := S16x512) ![0, 0] S16x512.size inb_S16x512_S16x512_0_0).toLoadRect y
      = gath1 c i tb fh0 hT y := by
  rw [View.readCov_eq_canon_ld _ _ _ (cover_rows1 _ _ _ _ _ _ _ _ _ _ _ _ _ _ _ _), View.ld_unit_zero (by funext d; fin_cases d <;> rfl)]
  refine View.canon_apply_of_pieces (gath1 c i tb fh0 hT) (rows1 _ _ _ _ _ _ _ _ _ _ _ _ _ _ _ _) ?_ y (cover_rows1 _ _ _ _ _ _ _ _ _ _ _ _ _ _ _ _ y)
  intro p hp x
  unfold rows1 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun1.sl.dma16
    exact piece1 c i tb fh0 hT (15 : Fin 16) (kernelRun1.sl.r_15 c i tb)
      (by unfold kernelRun1.sl.r_15; exact word1 c i tb (15 : Fin 16) (idxlt1 i _) _ (by rw [k1_off31_eq]; rfl) _ _) (k1_off32 (kernelRun1.sl.r_15 c i tb)) rfl _ _ x
  · dsimp only
    unfold kernelRun1.sl.dma15
    exact piece1 c i tb fh0 hT (14 : Fin 16) (kernelRun1.sl.r_14 c i tb)
      (by unfold kernelRun1.sl.r_14; exact word1 c i tb (14 : Fin 16) (idxlt1 i _) _ (by rw [k1_off29_eq]; rfl) _ _) (k1_off30 (kernelRun1.sl.r_14 c i tb)) rfl _ _ x
  · dsimp only
    unfold kernelRun1.sl.dma14
    exact piece1 c i tb fh0 hT (13 : Fin 16) (kernelRun1.sl.r_13 c i tb)
      (by unfold kernelRun1.sl.r_13; exact word1 c i tb (13 : Fin 16) (idxlt1 i _) _ (by rw [k1_off27_eq]; rfl) _ _) (k1_off28 (kernelRun1.sl.r_13 c i tb)) rfl _ _ x
  · dsimp only
    unfold kernelRun1.sl.dma13
    exact piece1 c i tb fh0 hT (12 : Fin 16) (kernelRun1.sl.r_12 c i tb)
      (by unfold kernelRun1.sl.r_12; exact word1 c i tb (12 : Fin 16) (idxlt1 i _) _ (by rw [k1_off25_eq]; rfl) _ _) (k1_off26 (kernelRun1.sl.r_12 c i tb)) rfl _ _ x
  · dsimp only
    unfold kernelRun1.sl.dma12
    exact piece1 c i tb fh0 hT (11 : Fin 16) (kernelRun1.sl.r_11 c i tb)
      (by unfold kernelRun1.sl.r_11; exact word1 c i tb (11 : Fin 16) (idxlt1 i _) _ (by rw [k1_off23_eq]; rfl) _ _) (k1_off24 (kernelRun1.sl.r_11 c i tb)) rfl _ _ x
  · dsimp only
    unfold kernelRun1.sl.dma11
    exact piece1 c i tb fh0 hT (10 : Fin 16) (kernelRun1.sl.r_10 c i tb)
      (by unfold kernelRun1.sl.r_10; exact word1 c i tb (10 : Fin 16) (idxlt1 i _) _ (by rw [k1_off21_eq]; rfl) _ _) (k1_off22 (kernelRun1.sl.r_10 c i tb)) rfl _ _ x
  · dsimp only
    unfold kernelRun1.sl.dma10
    exact piece1 c i tb fh0 hT (9 : Fin 16) (kernelRun1.sl.r_9 c i tb)
      (by unfold kernelRun1.sl.r_9; exact word1 c i tb (9 : Fin 16) (idxlt1 i _) _ (by rw [k1_off19_eq]; rfl) _ _) (k1_off20 (kernelRun1.sl.r_9 c i tb)) rfl _ _ x
  · dsimp only
    unfold kernelRun1.sl.dma9
    exact piece1 c i tb fh0 hT (8 : Fin 16) (kernelRun1.sl.r_8 c i tb)
      (by unfold kernelRun1.sl.r_8; exact word1 c i tb (8 : Fin 16) (idxlt1 i _) _ (by rw [k1_off17_eq]; rfl) _ _) (k1_off18 (kernelRun1.sl.r_8 c i tb)) rfl _ _ x
  · dsimp only
    unfold kernelRun1.sl.dma8
    exact piece1 c i tb fh0 hT (7 : Fin 16) (kernelRun1.sl.r_7 c i tb)
      (by unfold kernelRun1.sl.r_7; exact word1 c i tb (7 : Fin 16) (idxlt1 i _) _ (by rw [k1_off15_eq]; rfl) _ _) (k1_off16 (kernelRun1.sl.r_7 c i tb)) rfl _ _ x
  · dsimp only
    unfold kernelRun1.sl.dma7
    exact piece1 c i tb fh0 hT (6 : Fin 16) (kernelRun1.sl.r_6 c i tb)
      (by unfold kernelRun1.sl.r_6; exact word1 c i tb (6 : Fin 16) (idxlt1 i _) _ (by rw [k1_off13_eq]; rfl) _ _) (k1_off14 (kernelRun1.sl.r_6 c i tb)) rfl _ _ x
  · dsimp only
    unfold kernelRun1.sl.dma6
    exact piece1 c i tb fh0 hT (5 : Fin 16) (kernelRun1.sl.r_5 c i tb)
      (by unfold kernelRun1.sl.r_5; exact word1 c i tb (5 : Fin 16) (idxlt1 i _) _ (by rw [k1_off11_eq]; rfl) _ _) (k1_off12 (kernelRun1.sl.r_5 c i tb)) rfl _ _ x
  · dsimp only
    unfold kernelRun1.sl.dma5
    exact piece1 c i tb fh0 hT (4 : Fin 16) (kernelRun1.sl.r_4 c i tb)
      (by unfold kernelRun1.sl.r_4; exact word1 c i tb (4 : Fin 16) (idxlt1 i _) _ (by rw [k1_off9_eq]; rfl) _ _) (k1_off10 (kernelRun1.sl.r_4 c i tb)) rfl _ _ x
  · dsimp only
    unfold kernelRun1.sl.dma4
    exact piece1 c i tb fh0 hT (3 : Fin 16) (kernelRun1.sl.r_3 c i tb)
      (by unfold kernelRun1.sl.r_3; exact word1 c i tb (3 : Fin 16) (idxlt1 i _) _ (by rw [k1_off7_eq]; rfl) _ _) (k1_off8 (kernelRun1.sl.r_3 c i tb)) rfl _ _ x
  · dsimp only
    unfold kernelRun1.sl.dma3
    exact piece1 c i tb fh0 hT (2 : Fin 16) (kernelRun1.sl.r_2 c i tb)
      (by unfold kernelRun1.sl.r_2; exact word1 c i tb (2 : Fin 16) (idxlt1 i _) _ (by rw [k1_off5_eq]; rfl) _ _) (k1_off6 (kernelRun1.sl.r_2 c i tb)) rfl _ _ x
  · dsimp only
    unfold kernelRun1.sl.dma2
    exact piece1 c i tb fh0 hT (1 : Fin 16) (kernelRun1.sl.r_1 c i tb)
      (by unfold kernelRun1.sl.r_1; exact word1 c i tb (1 : Fin 16) (idxlt1 i _) _ (by rw [k1_off3_eq]; rfl) _ _) (k1_off4 (kernelRun1.sl.r_1 c i tb)) rfl _ _ x
  · dsimp only
    unfold kernelRun1.sl.dma1
    exact piece1 c i tb fh0 hT (0 : Fin 16) (kernelRun1.sl.r c i tb)
      (by unfold kernelRun1.sl.r; exact word1 c i tb (0 : Fin 16) (idxlt1 i _) _ (by rw [k1_off1_eq]; rfl) _ _) (k1_off2 (kernelRun1.sl.r c i tb)) rfl _ _ x

/-- THE BLOCK the body leaves, over any staging memrefs and contents: row r is the row of the gathered array the table's
    word `16 i + r` names, times the norm block's entry r. -/
theorem out1_1_apply (c : Dev nD) (i : grid1.Coords) (arg3 : Memref sig .tc .vmem S16x1 .f32) (harg3 : arg3.IsWhole) (arg4 : Memref sig .tc .vmem S16x512 .f32) (harg4 : arg4.IsWhole)
    (x0 : Vec Ideal S16x1 .f32) (tb : HbBuf1 (F := Ideal) c tbM1) (fh0 : HbBuf1 (F := Ideal) c hbM1) (hT : ∀ x, (tb x).toNat < 50000) (r : Fin 16) (j : Fin 512) :
    out1_1 c i arg3 harg3 arg4 harg4 x0 tb fh0 hT (ValueIdx.ix2 (n0 := 16) (n1 := 512) r j)
      = gath1 c i tb fh0 hT (ValueIdx.ix2 (n0 := 16) (n1 := 512) r j) * x0 (ValueIdx.ix2 (n0 := 16) (n1 := 1) r 0) := by
  unfold out1_1
  rw [View.read_writes_eq_canon _ _ _ (cover1_1 c i arg3 harg3 arg4 harg4 x0 tb fh0 hT)]
  unfold kernelRun1
  dsimp only
  rw [View.canon_unit_zero (by funext d; fin_cases d <;> rfl)]
  rw [pay1_apply]
  congr 1
  · unfold kernelRun1.sl.v194
    exact scratch1_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt1_apply (c : Dev nD) (t : Fin (cfg1 a).N) (r : Fin 16) (j : Fin 512) :
    outsAt1 V a hH c t (ValueIdx.ix2 (n0 := 16) (n1 := 512) r j)
      = hbArr1 V c (ValueIdx.ix2 (n0 := 50000) (n1 := 512) ⟨((a.1 0) (ValueIdx.ix1 (n := 50000) ⟨16 * t.val + r.val, idx_lt1 a t r⟩)).toNat, hH _⟩ j)
          * nmBlk1 V a c t (ValueIdx.ix2 (n0 := 16) (n1 := 1) r 0) := by
  unfold outsAt1
  refine (out1_1_apply c (grid1.coords t) _ _ _ _ (nmBlk1 V a c t) (a.1 0) (hbArr1 V c) (tbl_lt1 a hH c) r j).trans ?_
  congr 1
  unfold gath1
  show hbArr1 V c _ = hbArr1 V c _
  congr 1
  funext d
  apply Fin.ext
  fin_cases d
  · exact congrArg (fun n : Fin 50000 => ((a.1 0) (ValueIdx.ix1 (n := 50000) n)).toNat)
      (Fin.ext (by show 16 * (grid1.coords t 0).val + r.val = 16 * t.val + r.val; rw [coords1_val a t]))
  · rfl

end Cert.KernelIdeal.Hand

end
-- ==== Proof.G1Value.lean ====
/- Pipeline 1 at the ideal values: the output array after the region is the gathered and scaled array (row e: the row of
   the source array named by the table's word e, times the norm column's entry e). -/
import proofs.«414392_j7919919694132_2_alg».proof.Proof.G1Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg1 (F := Ideal)).Adm) (hH : ∀ j : Fin 50000, ((a.1 0) (ValueIdx.ix1 j)).toNat < 50000)

/-! ## From blocks to the array -/

/-- What point t writes back is block t of the gathered and scaled array. -/
theorem flushed1_1_eq (c : Dev nD) (t : Fin (cfg1 a).N) :
    (dat1 (F := Ideal) V a hH c).flushed 1 t = (((cfg1 a).win 1).blk t).view.read (Elt Ideal) (G1v V a hH c) := by
  show ((cfg1 a).win 1).cut (grid1.coords t) ((dat1 V a hH c).after 1 t) = _
  rw [after1_1]
  refine funext fun (y : S16x512.Idx) => ?_
  obtain ⟨r, j, rfl⟩ : ∃ (r : Fin 16) (j : Fin 512), y = ValueIdx.ix2 r j := ⟨y 0, y 1, ValueIdx.eq_ix2 y⟩
  show outsAt1 V a hH c t (ValueIdx.ix2 (n0 := 16) (n1 := 512) r j) = G1v V a hH c ((((cfg1 a).win 1).blk t).view.emb (ValueIdx.ix2 (n0 := 16) (n1 := 512) r j))
  rw [emb1_1, outsAt1_apply V a hH c t r j, nmBlk1_apply V a c t r]

/-- Every index of the array is in some point's block: row e is in block e / 16. -/
theorem cover1_blk (i : S50000x512.Idx) :
    ∃ t : Fin (cfg1 a).N, ((cfg1 a).win 1).flush t = true ∧ i ∈ (((cfg1 a).win 1).blk t).view.set := by
  have hi0 : (i 0).val < 50000 := (i 0).isLt
  have hi1 : (i 1).val < 512 := (i 1).isLt
  have hq : (i 0).val / 16 < (cfg1 a).N := by rw [N1_eq a]; omega
  have hr : (i 0).val % 16 < 16 := Nat.mod_lt _ (by omega)
  obtain ⟨t, ht⟩ : ∃ t : Fin (cfg1 a).N, t.val = (i 0).val / 16 := ⟨⟨(i 0).val / 16, hq⟩, rfl⟩
  refine ⟨t, flush1_1 a t, ?_⟩
  have e : i = ValueIdx.ix2 (n0 := 50000) (n1 := 512) ⟨16 * t.val + (i 0).val % 16, idx_lt1 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk1_1 a t ⟨(i 0).val % 16, hr⟩ ⟨(i 1).val, hi1⟩

/-- The output array after the region is the gathered and scaled array, -/
theorem arrAt1_1_eq (c : Dev nD) : (dat1 (F := Ideal) V a hH c).arrAt 1 (cfg1 a).N = G1v V a hH c :=
  (dat1 (F := Ideal) V a hH c).arrAt_eq_of_cover 1 (G1v V a hH c) (fun t _ => flushed1_1_eq V a hH c t) (cover1_blk a)

/-- index by index: entry (e, j) is the source array's entry (the table's word e, j) times the norm column's entry e. -/
theorem arrAt1_1 (c : Dev nD) (e : Fin 50000) (j : Fin 512) :
    (dat1 (F := Ideal) V a hH c).arrAt 1 (cfg1 a).N (ValueIdx.ix2 (n0 := 50000) (n1 := 512) e j)
      = hbArr1 V c (ValueIdx.ix2 (n0 := 50000) (n1 := 512) ⟨((a.1 0) (ValueIdx.ix1 (n := 50000) e)).toNat, hH e⟩ j)
          * nmArr1 V c (ValueIdx.ix2 (n0 := 50000) (n1 := 1) e 0) :=
  (congrFun (arrAt1_1_eq V a hH c) (ValueIdx.ix2 (n0 := 50000) (n1 := 512) e j)).trans rfl

end Cert.KernelIdeal.Hand

end
-- ==== Proof.G2Idx.lean ====
/- Pipeline 2 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G2
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg2 (F := Ideal)).Adm) (hH : ∀ j : Fin 50000, ((a.1 0) (ValueIdx.ix1 j)).toNat < 50000)

/-! ## The arrays, by name -/

/-- The array the rows are gathered from, and the norm column. -/
abbrev hbArr2 (c : Dev nD) : FVec Ideal S50000x512 .f32 := V c main_v34
abbrev nmArr2 (c : Dev nD) : FVec Ideal S50000x1 .f32 := V c main_v40
/-- The norm block at a point. -/
abbrev nmBlk2 (c : Dev nD) (t : Fin (cfg2 a).N) : FVec Ideal S16x1 .f32 := iblk2 V a c 0 t

/-- The gathered and scaled array: row e is the row of the source array named by the table's word e, times the norm
    column's entry e. -/
abbrev G2v (c : Dev nD) : (⟨S50000x512, .f32⟩ : BufTy).Contents (Elt Ideal) := fun i =>
  hbArr2 V c (ValueIdx.ix2 (n0 := 50000) (n1 := 512) ⟨((a.1 0) (ValueIdx.ix1 (n := 50000) (i 0))).toNat, hH (i 0)⟩ (i 1))
    * nmArr2 V c (ValueIdx.ix2 (n0 := 50000) (n1 := 1) (i 0) 0)

/-! ## The index maps at a point -/

theorem N2_eq : (cfg2 a).N = 3125 := N_2

/-- Row r of point t's block is a row of the array. -/
theorem idx_lt2 (t : Fin (cfg2 a).N) (r : Fin 16) : 16 * t.val + r.val < 50000 := by
  have ht : t.val < 3125 := (N2_eq a) ▸ t.isLt
  have := r.isLt; omega

/-- On the one-axis grid the point's coordinate is the point. -/
theorem coords2_val (t : Fin (cfg2 a).N) : (grid2.coords t 0).val = t.val := by
  have h : t.val < 3125 := (N2_eq a) ▸ t.isLt
  show t.val / grid2.stride 0 % 3125 = t.val
  rw [show grid2.stride 0 = 1 from by decide, Nat.div_one, Nat.mod_eq_of_lt h]

theorem idx2_0 (t : Fin (cfg2 a).N) : ((cfg2 a).win 0).index t = cc2_transform_1 (grid2.coords t) := rfl
theorem idx2_1 (t : Fin (cfg2 a).N) : ((cfg2 a).win 1).index t = cc2_transform_2 (grid2.coords t) := rfl

theorem tr2_1_0 (i : grid2.Coords) : cc2_transform_1 i (0 : Fin 2) = (i 0).val := by
  show (BitVec.ofNat 32 (i 0).val).toNat = _
  have h := (i 0).isLt
  have hb : grid2.bound 0 = 3125 := rfl
  rw [BitVec.toNat_ofNat]; exact Nat.mod_eq_of_lt (by omega)
theorem tr2_1_1 (i : grid2.Coords) : cc2_transform_1 i (1 : Fin 2) = 0 := rfl
theorem tr2_2_0 (i : grid2.Coords) : cc2_transform_2 i (0 : Fin 2) = (i 0).val := by
  show (BitVec.ofNat 32 (i 0).val).toNat = _
  have h := (i 0).isLt
  have hb : grid2.bound 0 = 3125 := rfl
  rw [BitVec.toNat_ofNat]; exact Nat.mod_eq_of_lt (by omega)
theorem tr2_2_1 (i : grid2.Coords) : cc2_transform_2 i (1 : Fin 2) = 0 := rfl

/-- Both windows' row-block index at point t is t; their column-block index is zero. -/
theorem index2_0_0 (t : Fin (cfg2 a).N) : ((cfg2 a).win 0).index t (0 : Fin 2) = t.val := by rw [idx2_0, tr2_1_0, coords2_val]
theorem index2_0_1 (t : Fin (cfg2 a).N) : ((cfg2 a).win 0).index t (1 : Fin 2) = 0 := by rw [idx2_0, tr2_1_1]
theorem index2_1_0 (t : Fin (cfg2 a).N) : ((cfg2 a).win 1).index t (0 : Fin 2) = t.val := by rw [idx2_1, tr2_2_0, coords2_val]
theorem index2_1_1 (t : Fin (cfg2 a).N) : ((cfg2 a).win 1).index t (1 : Fin 2) = 0 := by rw [idx2_1, tr2_2_1]

/-- The output window is written back at every point: its block index moves with the point. -/
theorem flush2_1 (t : Fin (cfg2 a).N) : ((cfg2 a).win 1).flush t = true := by
  rw [Window.flush_out _ rfl]
  by_cases h : t.val + 1 = grid2.N
  · exact Or.inl h
  · have hN : grid2.N = 3125 := N_2
    have ht : t.val < 3125 := (N2_eq a) ▸ t.isLt
    have h1 : t.val + 1 < grid2.N := by omega
    refine Or.inr ⟨h1, fun e => ?_⟩
    have e0 : ((cfg2 a).win 1).index ⟨t.val + 1, h1⟩ (0 : Fin 2) = ((cfg2 a).win 1).index t (0 : Fin 2) := congrFun e (0 : Fin 2)
    rw [index2_1_0, index2_1_0] at e0
    exact absurd e0 (by show t.val + 1 ≠ t.val; omega)

/-! ## The blocks at a point -/

/-- Entry (r, j) of point t's output block is entry (16 t + r, j) of the array. -/
theorem emb2_1 (t : Fin (cfg2 a).N) (r : Fin 16) (j : Fin 512) :
    (((cfg2 a).win 1).blk t).view.emb (ValueIdx.ix2 (n0 := 16) (n1 := 512) r j)
      = ValueIdx.ix2 (n0 := 50000) (n1 := 512) ⟨16 * t.val + r.val, idx_lt2 a t r⟩ j := by
  funext k; apply Fin.ext
  match k with
  | ⟨0, _⟩ => show ((cfg2 a).win 1).index t (0 : Fin 2) * 16 + 1 * r.val = 16 * t.val + r.val; rw [index2_1_0]; omega
  | ⟨1, _⟩ => show ((cfg2 a).win 1).index t (1 : Fin 2) * 512 + 1 * j.val = j.val; rw [index2_1_1]; omega

/-- The norm block at point t, row r, is the norm column's entry 16 t + r. -/
theorem nmBlk2_apply (c : Dev nD) (t : Fin (cfg2 a).N) (r : Fin 16) :
    nmBlk2 V a c t (ValueIdx.ix2 (n0 := 16) (n1 := 1) r 0)
      = nmArr2 V c (ValueIdx.ix2 (n0 := 50000) (n1 := 1) ⟨16 * t.val + r.val, idx_lt2 a t r⟩ 0) := by
  show V c main_v40 ((((cfg2 a).win 0).blk t).view.emb (ValueIdx.ix2 (n0 := 16) (n1 := 1) r 0)) = V c main_v40 (ValueIdx.ix2 (n0 := 50000) (n1 := 1) ⟨16 * t.val + r.val, idx_lt2 a t r⟩ 0)
  refine congrArg (V c main_v40) ?_
  funext k; apply Fin.ext
  match k with
  | ⟨0, _⟩ => show ((cfg2 a).win 0).index t (0 : Fin 2) * 16 + 1 * r.val = 16 * t.val + r.val; rw [index2_0_0]; omega
  | ⟨1, _⟩ => show ((cfg2 a).win 0).index t (1 : Fin 2) * 1 + 1 * 0 = 0; rw [index2_0_1]

/-- Entry (16 t + r, j) of the array is in point t's block. -/
theorem mem_blk2_1 (t : Fin (cfg2 a).N) (r : Fin 16) (j : Fin 512) :
    ValueIdx.ix2 (n0 := 50000) (n1 := 512) ⟨16 * t.val + r.val, idx_lt2 a t r⟩ j ∈ (((cfg2 a).win 1).blk t).view.set := by
  rw [← emb2_1]; exact View.emb_mem_set _ _

end Cert.KernelIdeal.Hand

end
-- ==== Proof.G2Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col2_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 2's one store at (r, j): the scratch entry (r, j) times the norm block's entry r. -/
theorem pay2_apply (v192 : Vec Ideal S16x1 .f32) (v194 : Vec Ideal S16x512 .f32) (r : Fin 16) (j : Fin 512) :
    k2_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k2_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col2_512 _ r j).trans (congrFun (shapeCast_self v192 shapeCasts_S16x1_S16x1) _))

end Cert.KernelIdeal.Hand

end
-- ==== Proof.G2Block.lean ====
/- Pipeline 2 at the ideal values: the block the body leaves at a point, entry by entry. -/
import proofs.«414392_j7919919694132_2_alg».proof.Proof.G2Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G2Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg2 (F := Ideal)).Adm) (hH : ∀ j : Fin 50000, ((a.1 0) (ValueIdx.ix1 j)).toNat < 50000)

/-! ## Indices of a one-row slice -/

/-- A one-row index has leading coordinate 0. -/
theorem row0_2 (x : S1x512.Idx) : (x 0).val = 0 := by
  have h := (x 0).isLt
  have e : S1x512.size 0 = 1 := by decide
  omega

/-- The gathered array, read as a matrix of ideal values. -/
abbrev asArr2 (c : Dev nD) (fh0 : HbBuf2 (F := Ideal) c hbM2) : FVec Ideal S50000x512 .f32 := fh0

/-- The table's word at offset `16 i + k`, as the body reads it. -/
theorem word2 (c : Dev nD) (i : grid2.Coords) (tb : HbBuf2 (F := Ideal) c tbM2) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM2.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma2_apply (c : Dev nD) (fh0 : HbBuf2 (F := Ideal) c hbM2) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM2.slice (Rect.unit (s := S50000x512) off S1x512.size inb) (fun _ => rfl)).view fh0) x
      = asArr2 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_2 x]; omega
  · show 0 + 1 * (x 1).val = (x 1).val
    omega

/-- The sixteen rows of the scratch, each the payload of its transfer. -/
def rows2 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows2 (p0 p1 p2 p3 p4 p5 p6 p7 p8 p9 p10 p11 p12 p13 p14 p15 : S1x512.Idx → Elt Ideal .f32) (y : S16x512.Idx) : ∃ pc ∈ rows2 p0 p1 p2 p3 p4 p5 p6 p7 p8 p9 p10 p11 p12 p13 p14 p15, y ∈ pc.1.set :=
  View.cover_of_tiledL (rows2 p0 p1 p2 p3 p4 p5 p6 p7 p8 p9 p10 p11 p12 p13 p14 p15) S1x512.size (by sl_kernel_rfl) y

/-- A point's coordinate is below the grid's 3125 points, so the sixteen table offsets of the point are inside the table. -/
theorem idxlt2 (i : grid2.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath2 (c : Dev nD) (i : grid2.Coords) (tb : HbBuf2 (F := Ideal) c tbM2) (fh0 : HbBuf2 (F := Ideal) c hbM2) (hT : ∀ x, (tb x).toNat < 50000) :
    S16x512.Idx → Elt Ideal .f32 :=
  fun y => asArr2 c fh0 (ValueIdx.ix2 (n0 := 50000) (n1 := 512) ⟨(tb (ValueIdx.ix1 (n := 50000) ⟨16 * (i 0).val + (y 0).val, idxlt2 i (y 0)⟩)).toNat, hT _⟩ (y 1))

/-- Row k's transfer delivers `gath2` at the row's indices. -/
theorem piece2 (c : Dev nD) (i : grid2.Coords) (tb : HbBuf2 (F := Ideal) c tbM2) (fh0 : HbBuf2 (F := Ideal) c hbM2) (hT : ∀ x, (tb x).toNat < 50000)
    (k : Fin 16) (w : BitVec 32) (hwd : w = tb (ValueIdx.ix1 (n := 50000) ⟨16 * (i 0).val + k.val, idxlt2 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM2.slice (Rect.unit (s := S50000x512) off S1x512.size inb) (fun _ => rfl)).view fh0) x
      = gath2 c i tb fh0 hT ((Rect.unit (s := S16x512) ![k.val, 0] S1x512.size inbk).emb x) := by
  subst hwd
  rw [dma2_apply c fh0 _ (hT _) off hoff inb x]
  unfold gath2
  show asArr2 c fh0 _ = asArr2 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_2 x]; omega
  · show (x 1).val = 0 + 1 * (x 1).val
    omega

/-- The scratch, read whole after the sixteen waits, is `gath2`. -/
theorem scratch2_apply (c : Dev nD) (i : grid2.Coords) (tb : HbBuf2 (F := Ideal) c tbM2) (fh0 : HbBuf2 (F := Ideal) c hbM2) (hT : ∀ x, (tb x).toNat < 50000)
    (y : S16x512.Idx) :
    scM2.view.readCov (rows2
        (kernelRun2.sl.dma1 c i tb fh0 (chk2_1_of_lt _ (hT _)))
        (kernelRun2.sl.dma2 c i tb fh0 (chk2_2_of_lt _ (hT _)))
        (kernelRun2.sl.dma3 c i tb fh0 (chk2_3_of_lt _ (hT _)))
        (kernelRun2.sl.dma4 c i tb fh0 (chk2_4_of_lt _ (hT _)))
        (kernelRun2.sl.dma5 c i tb fh0 (chk2_5_of_lt _ (hT _)))
        (kernelRun2.sl.dma6 c i tb fh0 (chk2_6_of_lt _ (hT _)))
        (kernelRun2.sl.dma7 c i tb fh0 (chk2_7_of_lt _ (hT _)))
        (kernelRun2.sl.dma8 c i tb fh0 (chk2_8_of_lt _ (hT _)))
        (kernelRun2.sl.dma9 c i tb fh0 (chk2_9_of_lt _ (hT _)))
        (kernelRun2.sl.dma10 c i tb fh0 (chk2_10_of_lt _ (hT _)))
        (kernelRun2.sl.dma11 c i tb fh0 (chk2_11_of_lt _ (hT _)))
        (kernelRun2.sl.dma12 c i tb fh0 (chk2_12_of_lt _ (hT _)))
        (kernelRun2.sl.dma13 c i tb fh0 (chk2_13_of_lt _ (hT _)))
        (kernelRun2.sl.dma14 c i tb fh0 (chk2_14_of_lt _ (hT _)))
        (kernelRun2.sl.dma15 c i tb fh0 (chk2_15_of_lt _ (hT _)))
        (kernelRun2.sl.dma16 c i tb fh0 (chk2_16_of_lt _ (hT _)))) (Rect.unit (s := S16x512) ![0, 0] S16x512.size inb_S16x512_S16x512_0_0).toLoadRect y
      = gath2 c i tb fh0 hT y := by
  rw [View.readCov_eq_canon_ld _ _ _ (cover_rows2 _ _ _ _ _ _ _ _ _ _ _ _ _ _ _ _), View.ld_unit_zero (by funext d; fin_cases d <;> rfl)]
  refine View.canon_apply_of_pieces (gath2 c i tb fh0 hT) (rows2 _ _ _ _ _ _ _ _ _ _ _ _ _ _ _ _) ?_ y (cover_rows2 _ _ _ _ _ _ _ _ _ _ _ _ _ _ _ _ y)
  intro p hp x
  unfold rows2 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun2.sl.dma16
    exact piece2 c i tb fh0 hT (15 : Fin 16) (kernelRun2.sl.r_15 c i tb)
      (by unfold kernelRun2.sl.r_15; exact word2 c i tb (15 : Fin 16) (idxlt2 i _) _ (by rw [k2_off31_eq]; rfl) _ _) (k2_off32 (kernelRun2.sl.r_15 c i tb)) rfl _ _ x
  · dsimp only
    unfold kernelRun2.sl.dma15
    exact piece2 c i tb fh0 hT (14 : Fin 16) (kernelRun2.sl.r_14 c i tb)
      (by unfold kernelRun2.sl.r_14; exact word2 c i tb (14 : Fin 16) (idxlt2 i _) _ (by rw [k2_off29_eq]; rfl) _ _) (k2_off30 (kernelRun2.sl.r_14 c i tb)) rfl _ _ x
  · dsimp only
    unfold kernelRun2.sl.dma14
    exact piece2 c i tb fh0 hT (13 : Fin 16) (kernelRun2.sl.r_13 c i tb)
      (by unfold kernelRun2.sl.r_13; exact word2 c i tb (13 : Fin 16) (idxlt2 i _) _ (by rw [k2_off27_eq]; rfl) _ _) (k2_off28 (kernelRun2.sl.r_13 c i tb)) rfl _ _ x
  · dsimp only
    unfold kernelRun2.sl.dma13
    exact piece2 c i tb fh0 hT (12 : Fin 16) (kernelRun2.sl.r_12 c i tb)
      (by unfold kernelRun2.sl.r_12; exact word2 c i tb (12 : Fin 16) (idxlt2 i _) _ (by rw [k2_off25_eq]; rfl) _ _) (k2_off26 (kernelRun2.sl.r_12 c i tb)) rfl _ _ x
  · dsimp only
    unfold kernelRun2.sl.dma12
    exact piece2 c i tb fh0 hT (11 : Fin 16) (kernelRun2.sl.r_11 c i tb)
      (by unfold kernelRun2.sl.r_11; exact word2 c i tb (11 : Fin 16) (idxlt2 i _) _ (by rw [k2_off23_eq]; rfl) _ _) (k2_off24 (kernelRun2.sl.r_11 c i tb)) rfl _ _ x
  · dsimp only
    unfold kernelRun2.sl.dma11
    exact piece2 c i tb fh0 hT (10 : Fin 16) (kernelRun2.sl.r_10 c i tb)
      (by unfold kernelRun2.sl.r_10; exact word2 c i tb (10 : Fin 16) (idxlt2 i _) _ (by rw [k2_off21_eq]; rfl) _ _) (k2_off22 (kernelRun2.sl.r_10 c i tb)) rfl _ _ x
  · dsimp only
    unfold kernelRun2.sl.dma10
    exact piece2 c i tb fh0 hT (9 : Fin 16) (kernelRun2.sl.r_9 c i tb)
      (by unfold kernelRun2.sl.r_9; exact word2 c i tb (9 : Fin 16) (idxlt2 i _) _ (by rw [k2_off19_eq]; rfl) _ _) (k2_off20 (kernelRun2.sl.r_9 c i tb)) rfl _ _ x
  · dsimp only
    unfold kernelRun2.sl.dma9
    exact piece2 c i tb fh0 hT (8 : Fin 16) (kernelRun2.sl.r_8 c i tb)
      (by unfold kernelRun2.sl.r_8; exact word2 c i tb (8 : Fin 16) (idxlt2 i _) _ (by rw [k2_off17_eq]; rfl) _ _) (k2_off18 (kernelRun2.sl.r_8 c i tb)) rfl _ _ x
  · dsimp only
    unfold kernelRun2.sl.dma8
    exact piece2 c i tb fh0 hT (7 : Fin 16) (kernelRun2.sl.r_7 c i tb)
      (by unfold kernelRun2.sl.r_7; exact word2 c i tb (7 : Fin 16) (idxlt2 i _) _ (by rw [k2_off15_eq]; rfl) _ _) (k2_off16 (kernelRun2.sl.r_7 c i tb)) rfl _ _ x
  · dsimp only
    unfold kernelRun2.sl.dma7
    exact piece2 c i tb fh0 hT (6 : Fin 16) (kernelRun2.sl.r_6 c i tb)
      (by unfold kernelRun2.sl.r_6; exact word2 c i tb (6 : Fin 16) (idxlt2 i _) _ (by rw [k2_off13_eq]; rfl) _ _) (k2_off14 (kernelRun2.sl.r_6 c i tb)) rfl _ _ x
  · dsimp only
    unfold kernelRun2.sl.dma6
    exact piece2 c i tb fh0 hT (5 : Fin 16) (kernelRun2.sl.r_5 c i tb)
      (by unfold kernelRun2.sl.r_5; exact word2 c i tb (5 : Fin 16) (idxlt2 i _) _ (by rw [k2_off11_eq]; rfl) _ _) (k2_off12 (kernelRun2.sl.r_5 c i tb)) rfl _ _ x
  · dsimp only
    unfold kernelRun2.sl.dma5
    exact piece2 c i tb fh0 hT (4 : Fin 16) (kernelRun2.sl.r_4 c i tb)
      (by unfold kernelRun2.sl.r_4; exact word2 c i tb (4 : Fin 16) (idxlt2 i _) _ (by rw [k2_off9_eq]; rfl) _ _) (k2_off10 (kernelRun2.sl.r_4 c i tb)) rfl _ _ x
  · dsimp only
    unfold kernelRun2.sl.dma4
    exact piece2 c i tb fh0 hT (3 : Fin 16) (kernelRun2.sl.r_3 c i tb)
      (by unfold kernelRun2.sl.r_3; exact word2 c i tb (3 : Fin 16) (idxlt2 i _) _ (by rw [k2_off7_eq]; rfl) _ _) (k2_off8 (kernelRun2.sl.r_3 c i tb)) rfl _ _ x
  · dsimp only
    unfold kernelRun2.sl.dma3
    exact piece2 c i tb fh0 hT (2 : Fin 16) (kernelRun2.sl.r_2 c i tb)
      (by unfold kernelRun2.sl.r_2; exact word2 c i tb (2 : Fin 16) (idxlt2 i _) _ (by rw [k2_off5_eq]; rfl) _ _) (k2_off6 (kernelRun2.sl.r_2 c i tb)) rfl _ _ x
  · dsimp only
    unfold kernelRun2.sl.dma2
    exact piece2 c i tb fh0 hT (1 : Fin 16) (kernelRun2.sl.r_1 c i tb)
      (by unfold kernelRun2.sl.r_1; exact word2 c i tb (1 : Fin 16) (idxlt2 i _) _ (by rw [k2_off3_eq]; rfl) _ _) (k2_off4 (kernelRun2.sl.r_1 c i tb)) rfl _ _ x
  · dsimp only
    unfold kernelRun2.sl.dma1
    exact piece2 c i tb fh0 hT (0 : Fin 16) (kernelRun2.sl.r c i tb)
      (by unfold kernelRun2.sl.r; exact word2 c i tb (0 : Fin 16) (idxlt2 i _) _ (by rw [k2_off1_eq]; rfl) _ _) (k2_off2 (kernelRun2.sl.r c i tb)) rfl _ _ x

/-- THE BLOCK the body leaves, over any staging memrefs and contents: row r is the row of the gathered array the table's
    word `16 i + r` names, times the norm block's entry r. -/
theorem out2_1_apply (c : Dev nD) (i : grid2.Coords) (arg3 : Memref sig .tc .vmem S16x1 .f32) (harg3 : arg3.IsWhole) (arg4 : Memref sig .tc .vmem S16x512 .f32) (harg4 : arg4.IsWhole)
    (x0 : Vec Ideal S16x1 .f32) (tb : HbBuf2 (F := Ideal) c tbM2) (fh0 : HbBuf2 (F := Ideal) c hbM2) (hT : ∀ x, (tb x).toNat < 50000) (r : Fin 16) (j : Fin 512) :
    out2_1 c i arg3 harg3 arg4 harg4 x0 tb fh0 hT (ValueIdx.ix2 (n0 := 16) (n1 := 512) r j)
      = gath2 c i tb fh0 hT (ValueIdx.ix2 (n0 := 16) (n1 := 512) r j) * x0 (ValueIdx.ix2 (n0 := 16) (n1 := 1) r 0) := by
  unfold out2_1
  rw [View.read_writes_eq_canon _ _ _ (cover2_1 c i arg3 harg3 arg4 harg4 x0 tb fh0 hT)]
  unfold kernelRun2
  dsimp only
  rw [View.canon_unit_zero (by funext d; fin_cases d <;> rfl)]
  rw [pay2_apply]
  congr 1
  · unfold kernelRun2.sl.v194
    exact scratch2_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt2_apply (c : Dev nD) (t : Fin (cfg2 a).N) (r : Fin 16) (j : Fin 512) :
    outsAt2 V a hH c t (ValueIdx.ix2 (n0 := 16) (n1 := 512) r j)
      = hbArr2 V c (ValueIdx.ix2 (n0 := 50000) (n1 := 512) ⟨((a.1 0) (ValueIdx.ix1 (n := 50000) ⟨16 * t.val + r.val, idx_lt2 a t r⟩)).toNat, hH _⟩ j)
          * nmBlk2 V a c t (ValueIdx.ix2 (n0 := 16) (n1 := 1) r 0) := by
  unfold outsAt2
  refine (out2_1_apply c (grid2.coords t) _ _ _ _ (nmBlk2 V a c t) (a.1 0) (hbArr2 V c) (tbl_lt2 a hH c) r j).trans ?_
  congr 1
  unfold gath2
  show hbArr2 V c _ = hbArr2 V c _
  congr 1
  funext d
  apply Fin.ext
  fin_cases d
  · exact congrArg (fun n : Fin 50000 => ((a.1 0) (ValueIdx.ix1 (n := 50000) n)).toNat)
      (Fin.ext (by show 16 * (grid2.coords t 0).val + r.val = 16 * t.val + r.val; rw [coords2_val a t]))
  · rfl

end Cert.KernelIdeal.Hand

end
-- ==== Proof.G2Value.lean ====
/- Pipeline 2 at the ideal values: the output array after the region is the gathered and scaled array (row e: the row of
   the source array named by the table's word e, times the norm column's entry e). -/
import proofs.«414392_j7919919694132_2_alg».proof.Proof.G2Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg2 (F := Ideal)).Adm) (hH : ∀ j : Fin 50000, ((a.1 0) (ValueIdx.ix1 j)).toNat < 50000)

/-! ## From blocks to the array -/

/-- What point t writes back is block t of the gathered and scaled array. -/
theorem flushed2_1_eq (c : Dev nD) (t : Fin (cfg2 a).N) :
    (dat2 (F := Ideal) V a hH c).flushed 1 t = (((cfg2 a).win 1).blk t).view.read (Elt Ideal) (G2v V a hH c) := by
  show ((cfg2 a).win 1).cut (grid2.coords t) ((dat2 V a hH c).after 1 t) = _
  rw [after2_1]
  refine funext fun (y : S16x512.Idx) => ?_
  obtain ⟨r, j, rfl⟩ : ∃ (r : Fin 16) (j : Fin 512), y = ValueIdx.ix2 r j := ⟨y 0, y 1, ValueIdx.eq_ix2 y⟩
  show outsAt2 V a hH c t (ValueIdx.ix2 (n0 := 16) (n1 := 512) r j) = G2v V a hH c ((((cfg2 a).win 1).blk t).view.emb (ValueIdx.ix2 (n0 := 16) (n1 := 512) r j))
  rw [emb2_1, outsAt2_apply V a hH c t r j, nmBlk2_apply V a c t r]

/-- Every index of the array is in some point's block: row e is in block e / 16. -/
theorem cover2_blk (i : S50000x512.Idx) :
    ∃ t : Fin (cfg2 a).N, ((cfg2 a).win 1).flush t = true ∧ i ∈ (((cfg2 a).win 1).blk t).view.set := by
  have hi0 : (i 0).val < 50000 := (i 0).isLt
  have hi1 : (i 1).val < 512 := (i 1).isLt
  have hq : (i 0).val / 16 < (cfg2 a).N := by rw [N2_eq a]; omega
  have hr : (i 0).val % 16 < 16 := Nat.mod_lt _ (by omega)
  obtain ⟨t, ht⟩ : ∃ t : Fin (cfg2 a).N, t.val = (i 0).val / 16 := ⟨⟨(i 0).val / 16, hq⟩, rfl⟩
  refine ⟨t, flush2_1 a t, ?_⟩
  have e : i = ValueIdx.ix2 (n0 := 50000) (n1 := 512) ⟨16 * t.val + (i 0).val % 16, idx_lt2 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk2_1 a t ⟨(i 0).val % 16, hr⟩ ⟨(i 1).val, hi1⟩

/-- The output array after the region is the gathered and scaled array, -/
theorem arrAt2_1_eq (c : Dev nD) : (dat2 (F := Ideal) V a hH c).arrAt 1 (cfg2 a).N = G2v V a hH c :=
  (dat2 (F := Ideal) V a hH c).arrAt_eq_of_cover 1 (G2v V a hH c) (fun t _ => flushed2_1_eq V a hH c t) (cover2_blk a)

/-- index by index: entry (e, j) is the source array's entry (the table's word e, j) times the norm column's entry e. -/
theorem arrAt2_1 (c : Dev nD) (e : Fin 50000) (j : Fin 512) :
    (dat2 (F := Ideal) V a hH c).arrAt 1 (cfg2 a).N (ValueIdx.ix2 (n0 := 50000) (n1 := 512) e j)
      = hbArr2 V c (ValueIdx.ix2 (n0 := 50000) (n1 := 512) ⟨((a.1 0) (ValueIdx.ix1 (n := 50000) e)).toNat, hH e⟩ j)
          * nmArr2 V c (ValueIdx.ix2 (n0 := 50000) (n1 := 1) e 0) :=
  (congrFun (arrAt2_1_eq V a hH c) (ValueIdx.ix2 (n0 := 50000) (n1 := 512) e j)).trans rfl

end Cert.KernelIdeal.Hand

end
-- ==== Proof.G3Idx.lean ====
/- Pipeline 3 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G3
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg3 (F := Ideal)).Adm) (hH : ∀ j : Fin 50000, ((a.1 0) (ValueIdx.ix1 j)).toNat < 50000)

/-! ## The arrays, by name -/

/-- The array the rows are gathered from, and the norm column. -/
abbrev hbArr3 (c : Dev nD) : FVec Ideal S50000x512 .f32 := V c main_v34
abbrev nmArr3 (c : Dev nD) : FVec Ideal S50000x1 .f32 := V c main_v43
/-- The norm block at a point. -/
abbrev nmBlk3 (c : Dev nD) (t : Fin (cfg3 a).N) : FVec Ideal S16x1 .f32 := iblk3 V a c 0 t

/-- The gathered and scaled array: row e is the row of the source array named by the table's word e, times the norm
    column's entry e. -/
abbrev G3v (c : Dev nD) : (⟨S50000x512, .f32⟩ : BufTy).Contents (Elt Ideal) := fun i =>
  hbArr3 V c (ValueIdx.ix2 (n0 := 50000) (n1 := 512) ⟨((a.1 0) (ValueIdx.ix1 (n := 50000) (i 0))).toNat, hH (i 0)⟩ (i 1))
    * nmArr3 V c (ValueIdx.ix2 (n0 := 50000) (n1 := 1) (i 0) 0)

/-! ## The index maps at a point -/

theorem N3_eq : (cfg3 a).N = 3125 := N_3

/-- Row r of point t's block is a row of the array. -/
theorem idx_lt3 (t : Fin (cfg3 a).N) (r : Fin 16) : 16 * t.val + r.val < 50000 := by
  have ht : t.val < 3125 := (N3_eq a) ▸ t.isLt
  have := r.isLt; omega

/-- On the one-axis grid the point's coordinate is the point. -/
theorem coords3_val (t : Fin (cfg3 a).N) : (grid3.coords t 0).val = t.val := by
  have h : t.val < 3125 := (N3_eq a) ▸ t.isLt
  show t.val / grid3.stride 0 % 3125 = t.val
  rw [show grid3.stride 0 = 1 from by decide, Nat.div_one, Nat.mod_eq_of_lt h]

theorem idx3_0 (t : Fin (cfg3 a).N) : ((cfg3 a).win 0).index t = cc3_transform_1 (grid3.coords t) := rfl
theorem idx3_1 (t : Fin (cfg3 a).N) : ((cfg3 a).win 1).index t = cc3_transform_2 (grid3.coords t) := rfl

theorem tr3_1_0 (i : grid3.Coords) : cc3_transform_1 i (0 : Fin 2) = (i 0).val := by
  show (BitVec.ofNat 32 (i 0).val).toNat = _
  have h := (i 0).isLt
  have hb : grid3.bound 0 = 3125 := rfl
  rw [BitVec.toNat_ofNat]; exact Nat.mod_eq_of_lt (by omega)
theorem tr3_1_1 (i : grid3.Coords) : cc3_transform_1 i (1 : Fin 2) = 0 := rfl
theorem tr3_2_0 (i : grid3.Coords) : cc3_transform_2 i (0 : Fin 2) = (i 0).val := by
  show (BitVec.ofNat 32 (i 0).val).toNat = _
  have h := (i 0).isLt
  have hb : grid3.bound 0 = 3125 := rfl
  rw [BitVec.toNat_ofNat]; exact Nat.mod_eq_of_lt (by omega)
theorem tr3_2_1 (i : grid3.Coords) : cc3_transform_2 i (1 : Fin 2) = 0 := rfl

/-- Both windows' row-block index at point t is t; their column-block index is zero. -/
theorem index3_0_0 (t : Fin (cfg3 a).N) : ((cfg3 a).win 0).index t (0 : Fin 2) = t.val := by rw [idx3_0, tr3_1_0, coords3_val]
theorem index3_0_1 (t : Fin (cfg3 a).N) : ((cfg3 a).win 0).index t (1 : Fin 2) = 0 := by rw [idx3_0, tr3_1_1]
theorem index3_1_0 (t : Fin (cfg3 a).N) : ((cfg3 a).win 1).index t (0 : Fin 2) = t.val := by rw [idx3_1, tr3_2_0, coords3_val]
theorem index3_1_1 (t : Fin (cfg3 a).N) : ((cfg3 a).win 1).index t (1 : Fin 2) = 0 := by rw [idx3_1, tr3_2_1]

/-- The output window is written back at every point: its block index moves with the point. -/
theorem flush3_1 (t : Fin (cfg3 a).N) : ((cfg3 a).win 1).flush t = true := by
  rw [Window.flush_out _ rfl]
  by_cases h : t.val + 1 = grid3.N
  · exact Or.inl h
  · have hN : grid3.N = 3125 := N_3
    have ht : t.val < 3125 := (N3_eq a) ▸ t.isLt
    have h1 : t.val + 1 < grid3.N := by omega
    refine Or.inr ⟨h1, fun e => ?_⟩
    have e0 : ((cfg3 a).win 1).index ⟨t.val + 1, h1⟩ (0 : Fin 2) = ((cfg3 a).win 1).index t (0 : Fin 2) := congrFun e (0 : Fin 2)
    rw [index3_1_0, index3_1_0] at e0
    exact absurd e0 (by show t.val + 1 ≠ t.val; omega)

/-! ## The blocks at a point -/

/-- Entry (r, j) of point t's output block is entry (16 t + r, j) of the array. -/
theorem emb3_1 (t : Fin (cfg3 a).N) (r : Fin 16) (j : Fin 512) :
    (((cfg3 a).win 1).blk t).view.emb (ValueIdx.ix2 (n0 := 16) (n1 := 512) r j)
      = ValueIdx.ix2 (n0 := 50000) (n1 := 512) ⟨16 * t.val + r.val, idx_lt3 a t r⟩ j := by
  funext k; apply Fin.ext
  match k with
  | ⟨0, _⟩ => show ((cfg3 a).win 1).index t (0 : Fin 2) * 16 + 1 * r.val = 16 * t.val + r.val; rw [index3_1_0]; omega
  | ⟨1, _⟩ => show ((cfg3 a).win 1).index t (1 : Fin 2) * 512 + 1 * j.val = j.val; rw [index3_1_1]; omega

/-- The norm block at point t, row r, is the norm column's entry 16 t + r. -/
theorem nmBlk3_apply (c : Dev nD) (t : Fin (cfg3 a).N) (r : Fin 16) :
    nmBlk3 V a c t (ValueIdx.ix2 (n0 := 16) (n1 := 1) r 0)
      = nmArr3 V c (ValueIdx.ix2 (n0 := 50000) (n1 := 1) ⟨16 * t.val + r.val, idx_lt3 a t r⟩ 0) := by
  show V c main_v43 ((((cfg3 a).win 0).blk t).view.emb (ValueIdx.ix2 (n0 := 16) (n1 := 1) r 0)) = V c main_v43 (ValueIdx.ix2 (n0 := 50000) (n1 := 1) ⟨16 * t.val + r.val, idx_lt3 a t r⟩ 0)
  refine congrArg (V c main_v43) ?_
  funext k; apply Fin.ext
  match k with
  | ⟨0, _⟩ => show ((cfg3 a).win 0).index t (0 : Fin 2) * 16 + 1 * r.val = 16 * t.val + r.val; rw [index3_0_0]; omega
  | ⟨1, _⟩ => show ((cfg3 a).win 0).index t (1 : Fin 2) * 1 + 1 * 0 = 0; rw [index3_0_1]

/-- Entry (16 t + r, j) of the array is in point t's block. -/
theorem mem_blk3_1 (t : Fin (cfg3 a).N) (r : Fin 16) (j : Fin 512) :
    ValueIdx.ix2 (n0 := 50000) (n1 := 512) ⟨16 * t.val + r.val, idx_lt3 a t r⟩ j ∈ (((cfg3 a).win 1).blk t).view.set := by
  rw [← emb3_1]; exact View.emb_mem_set _ _

end Cert.KernelIdeal.Hand

end
-- ==== Proof.G3Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col3_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 3's one store at (r, j): the scratch entry (r, j) times the norm block's entry r. -/
theorem pay3_apply (v192 : Vec Ideal S16x1 .f32) (v194 : Vec Ideal S16x512 .f32) (r : Fin 16) (j : Fin 512) :
    k3_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k3_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col3_512 _ r j).trans (congrFun (shapeCast_self v192 shapeCasts_S16x1_S16x1) _))

end Cert.KernelIdeal.Hand

end
-- ==== Proof.G3Block.lean ====
/- Pipeline 3 at the ideal values: the block the body leaves at a point, entry by entry. -/
import proofs.«414392_j7919919694132_2_alg».proof.Proof.G3Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G3Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg3 (F := Ideal)).Adm) (hH : ∀ j : Fin 50000, ((a.1 0) (ValueIdx.ix1 j)).toNat < 50000)

/-! ## Indices of a one-row slice -/

/-- A one-row index has leading coordinate 0. -/
theorem row0_3 (x : S1x512.Idx) : (x 0).val = 0 := by
  have h := (x 0).isLt
  have e : S1x512.size 0 = 1 := by decide
  omega

/-- The gathered array, read as a matrix of ideal values. -/
abbrev asArr3 (c : Dev nD) (fh0 : HbBuf3 (F := Ideal) c hbM3) : FVec Ideal S50000x512 .f32 := fh0

/-- The table's word at offset `16 i + k`, as the body reads it. -/
theorem word3 (c : Dev nD) (i : grid3.Coords) (tb : HbBuf3 (F := Ideal) c tbM3) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM3.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma3_apply (c : Dev nD) (fh0 : HbBuf3 (F := Ideal) c hbM3) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM3.slice (Rect.unit (s := S50000x512) off S1x512.size inb) (fun _ => rfl)).view fh0) x
      = asArr3 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_3 x]; omega
  · show 0 + 1 * (x 1).val = (x 1).val
    omega

/-- The sixteen rows of the scratch, each the payload of its transfer. -/
def rows3 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows3 (p0 p1 p2 p3 p4 p5 p6 p7 p8 p9 p10 p11 p12 p13 p14 p15 : S1x512.Idx → Elt Ideal .f32) (y : S16x512.Idx) : ∃ pc ∈ rows3 p0 p1 p2 p3 p4 p5 p6 p7 p8 p9 p10 p11 p12 p13 p14 p15, y ∈ pc.1.set :=
  View.cover_of_tiledL (rows3 p0 p1 p2 p3 p4 p5 p6 p7 p8 p9 p10 p11 p12 p13 p14 p15) S1x512.size (by sl_kernel_rfl) y

/-- A point's coordinate is below the grid's 3125 points, so the sixteen table offsets of the point are inside the table. -/
theorem idxlt3 (i : grid3.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath3 (c : Dev nD) (i : grid3.Coords) (tb : HbBuf3 (F := Ideal) c tbM3) (fh0 : HbBuf3 (F := Ideal) c hbM3) (hT : ∀ x, (tb x).toNat < 50000) :
    S16x512.Idx → Elt Ideal .f32 :=
  fun y => asArr3 c fh0 (ValueIdx.ix2 (n0 := 50000) (n1 := 512) ⟨(tb (ValueIdx.ix1 (n := 50000) ⟨16 * (i 0).val + (y 0).val, idxlt3 i (y 0)⟩)).toNat, hT _⟩ (y 1))

/-- Row k's transfer delivers `gath3` at the row's indices. -/
theorem piece3 (c : Dev nD) (i : grid3.Coords) (tb : HbBuf3 (F := Ideal) c tbM3) (fh0 : HbBuf3 (F := Ideal) c hbM3) (hT : ∀ x, (tb x).toNat < 50000)
    (k : Fin 16) (w : BitVec 32) (hwd : w = tb (ValueIdx.ix1 (n := 50000) ⟨16 * (i 0).val + k.val, idxlt3 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM3.slice (Rect.unit (s := S50000x512) off S1x512.size inb) (fun _ => rfl)).view fh0) x
      = gath3 c i tb fh0 hT ((Rect.unit (s := S16x512) ![k.val, 0] S1x512.size inbk).emb x) := by
  subst hwd
  rw [dma3_apply c fh0 _ (hT _) off hoff inb x]
  unfold gath3
  show asArr3 c fh0 _ = asArr3 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_3 x]; omega
  · show (x 1).val = 0 + 1 * (x 1).val
    omega

/-- The scratch, read whole after the sixteen waits, is `gath3`. -/
theorem scratch3_apply (c : Dev nD) (i : grid3.Coords) (tb : HbBuf3 (F := Ideal) c tbM3) (fh0 : HbBuf3 (F := Ideal) c hbM3) (hT : ∀ x, (tb x).toNat < 50000)
    (y : S16x512.Idx) :
    scM3.view.readCov (rows3
        (kernelRun3.sl.dma1 c i tb fh0 (chk3_1_of_lt _ (hT _)))
        (kernelRun3.sl.dma2 c i tb fh0 (chk3_2_of_lt _ (hT _)))
        (kernelRun3.sl.dma3 c i tb fh0 (chk3_3_of_lt _ (hT _)))
        (kernelRun3.sl.dma4 c i tb fh0 (chk3_4_of_lt _ (hT _)))
        (kernelRun3.sl.dma5 c i tb fh0 (chk3_5_of_lt _ (hT _)))
        (kernelRun3.sl.dma6 c i tb fh0 (chk3_6_of_lt _ (hT _)))
        (kernelRun3.sl.dma7 c i tb fh0 (chk3_7_of_lt _ (hT _)))
        (kernelRun3.sl.dma8 c i tb fh0 (chk3_8_of_lt _ (hT _)))
        (kernelRun3.sl.dma9 c i tb fh0 (chk3_9_of_lt _ (hT _)))
        (kernelRun3.sl.dma10 c i tb fh0 (chk3_10_of_lt _ (hT _)))
        (kernelRun3.sl.dma11 c i tb fh0 (chk3_11_of_lt _ (hT _)))
        (kernelRun3.sl.dma12 c i tb fh0 (chk3_12_of_lt _ (hT _)))
        (kernelRun3.sl.dma13 c i tb fh0 (chk3_13_of_lt _ (hT _)))
        (kernelRun3.sl.dma14 c i tb fh0 (chk3_14_of_lt _ (hT _)))
        (kernelRun3.sl.dma15 c i tb fh0 (chk3_15_of_lt _ (hT _)))
        (kernelRun3.sl.dma16 c i tb fh0 (chk3_16_of_lt _ (hT _)))) (Rect.unit (s := S16x512) ![0, 0] S16x512.size inb_S16x512_S16x512_0_0).toLoadRect y
      = gath3 c i tb fh0 hT y := by
  rw [View.readCov_eq_canon_ld _ _ _ (cover_rows3 _ _ _ _ _ _ _ _ _ _ _ _ _ _ _ _), View.ld_unit_zero (by funext d; fin_cases d <;> rfl)]
  refine View.canon_apply_of_pieces (gath3 c i tb fh0 hT) (rows3 _ _ _ _ _ _ _ _ _ _ _ _ _ _ _ _) ?_ y (cover_rows3 _ _ _ _ _ _ _ _ _ _ _ _ _ _ _ _ y)
  intro p hp x
  unfold rows3 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun3.sl.dma16
    exact piece3 c i tb fh0 hT (15 : Fin 16) (kernelRun3.sl.r_15 c i tb)
      (by unfold kernelRun3.sl.r_15; exact word3 c i tb (15 : Fin 16) (idxlt3 i _) _ (by rw [k3_off31_eq]; rfl) _ _) (k3_off32 (kernelRun3.sl.r_15 c i tb)) rfl _ _ x
  · dsimp only
    unfold kernelRun3.sl.dma15
    exact piece3 c i tb fh0 hT (14 : Fin 16) (kernelRun3.sl.r_14 c i tb)
      (by unfold kernelRun3.sl.r_14; exact word3 c i tb (14 : Fin 16) (idxlt3 i _) _ (by rw [k3_off29_eq]; rfl) _ _) (k3_off30 (kernelRun3.sl.r_14 c i tb)) rfl _ _ x
  · dsimp only
    unfold kernelRun3.sl.dma14
    exact piece3 c i tb fh0 hT (13 : Fin 16) (kernelRun3.sl.r_13 c i tb)
      (by unfold kernelRun3.sl.r_13; exact word3 c i tb (13 : Fin 16) (idxlt3 i _) _ (by rw [k3_off27_eq]; rfl) _ _) (k3_off28 (kernelRun3.sl.r_13 c i tb)) rfl _ _ x
  · dsimp only
    unfold kernelRun3.sl.dma13
    exact piece3 c i tb fh0 hT (12 : Fin 16) (kernelRun3.sl.r_12 c i tb)
      (by unfold kernelRun3.sl.r_12; exact word3 c i tb (12 : Fin 16) (idxlt3 i _) _ (by rw [k3_off25_eq]; rfl) _ _) (k3_off26 (kernelRun3.sl.r_12 c i tb)) rfl _ _ x
  · dsimp only
    unfold kernelRun3.sl.dma12
    exact piece3 c i tb fh0 hT (11 : Fin 16) (kernelRun3.sl.r_11 c i tb)
      (by unfold kernelRun3.sl.r_11; exact word3 c i tb (11 : Fin 16) (idxlt3 i _) _ (by rw [k3_off23_eq]; rfl) _ _) (k3_off24 (kernelRun3.sl.r_11 c i tb)) rfl _ _ x
  · dsimp only
    unfold kernelRun3.sl.dma11
    exact piece3 c i tb fh0 hT (10 : Fin 16) (kernelRun3.sl.r_10 c i tb)
      (by unfold kernelRun3.sl.r_10; exact word3 c i tb (10 : Fin 16) (idxlt3 i _) _ (by rw [k3_off21_eq]; rfl) _ _) (k3_off22 (kernelRun3.sl.r_10 c i tb)) rfl _ _ x
  · dsimp only
    unfold kernelRun3.sl.dma10
    exact piece3 c i tb fh0 hT (9 : Fin 16) (kernelRun3.sl.r_9 c i tb)
      (by unfold kernelRun3.sl.r_9; exact word3 c i tb (9 : Fin 16) (idxlt3 i _) _ (by rw [k3_off19_eq]; rfl) _ _) (k3_off20 (kernelRun3.sl.r_9 c i tb)) rfl _ _ x
  · dsimp only
    unfold kernelRun3.sl.dma9
    exact piece3 c i tb fh0 hT (8 : Fin 16) (kernelRun3.sl.r_8 c i tb)
      (by unfold kernelRun3.sl.r_8; exact word3 c i tb (8 : Fin 16) (idxlt3 i _) _ (by rw [k3_off17_eq]; rfl) _ _) (k3_off18 (kernelRun3.sl.r_8 c i tb)) rfl _ _ x
  · dsimp only
    unfold kernelRun3.sl.dma8
    exact piece3 c i tb fh0 hT (7 : Fin 16) (kernelRun3.sl.r_7 c i tb)
      (by unfold kernelRun3.sl.r_7; exact word3 c i tb (7 : Fin 16) (idxlt3 i _) _ (by rw [k3_off15_eq]; rfl) _ _) (k3_off16 (kernelRun3.sl.r_7 c i tb)) rfl _ _ x
  · dsimp only
    unfold kernelRun3.sl.dma7
    exact piece3 c i tb fh0 hT (6 : Fin 16) (kernelRun3.sl.r_6 c i tb)
      (by unfold kernelRun3.sl.r_6; exact word3 c i tb (6 : Fin 16) (idxlt3 i _) _ (by rw [k3_off13_eq]; rfl) _ _) (k3_off14 (kernelRun3.sl.r_6 c i tb)) rfl _ _ x
  · dsimp only
    unfold kernelRun3.sl.dma6
    exact piece3 c i tb fh0 hT (5 : Fin 16) (kernelRun3.sl.r_5 c i tb)
      (by unfold kernelRun3.sl.r_5; exact word3 c i tb (5 : Fin 16) (idxlt3 i _) _ (by rw [k3_off11_eq]; rfl) _ _) (k3_off12 (kernelRun3.sl.r_5 c i tb)) rfl _ _ x
  · dsimp only
    unfold kernelRun3.sl.dma5
    exact piece3 c i tb fh0 hT (4 : Fin 16) (kernelRun3.sl.r_4 c i tb)
      (by unfold kernelRun3.sl.r_4; exact word3 c i tb (4 : Fin 16) (idxlt3 i _) _ (by rw [k3_off9_eq]; rfl) _ _) (k3_off10 (kernelRun3.sl.r_4 c i tb)) rfl _ _ x
  · dsimp only
    unfold kernelRun3.sl.dma4
    exact piece3 c i tb fh0 hT (3 : Fin 16) (kernelRun3.sl.r_3 c i tb)
      (by unfold kernelRun3.sl.r_3; exact word3 c i tb (3 : Fin 16) (idxlt3 i _) _ (by rw [k3_off7_eq]; rfl) _ _) (k3_off8 (kernelRun3.sl.r_3 c i tb)) rfl _ _ x
  · dsimp only
    unfold kernelRun3.sl.dma3
    exact piece3 c i tb fh0 hT (2 : Fin 16) (kernelRun3.sl.r_2 c i tb)
      (by unfold kernelRun3.sl.r_2; exact word3 c i tb (2 : Fin 16) (idxlt3 i _) _ (by rw [k3_off5_eq]; rfl) _ _) (k3_off6 (kernelRun3.sl.r_2 c i tb)) rfl _ _ x
  · dsimp only
    unfold kernelRun3.sl.dma2
    exact piece3 c i tb fh0 hT (1 : Fin 16) (kernelRun3.sl.r_1 c i tb)
      (by unfold kernelRun3.sl.r_1; exact word3 c i tb (1 : Fin 16) (idxlt3 i _) _ (by rw [k3_off3_eq]; rfl) _ _) (k3_off4 (kernelRun3.sl.r_1 c i tb)) rfl _ _ x
  · dsimp only
    unfold kernelRun3.sl.dma1
    exact piece3 c i tb fh0 hT (0 : Fin 16) (kernelRun3.sl.r c i tb)
      (by unfold kernelRun3.sl.r; exact word3 c i tb (0 : Fin 16) (idxlt3 i _) _ (by rw [k3_off1_eq]; rfl) _ _) (k3_off2 (kernelRun3.sl.r c i tb)) rfl _ _ x

/-- THE BLOCK the body leaves, over any staging memrefs and contents: row r is the row of the gathered array the table's
    word `16 i + r` names, times the norm block's entry r. -/
theorem out3_1_apply (c : Dev nD) (i : grid3.Coords) (arg3 : Memref sig .tc .vmem S16x1 .f32) (harg3 : arg3.IsWhole) (arg4 : Memref sig .tc .vmem S16x512 .f32) (harg4 : arg4.IsWhole)
    (x0 : Vec Ideal S16x1 .f32) (tb : HbBuf3 (F := Ideal) c tbM3) (fh0 : HbBuf3 (F := Ideal) c hbM3) (hT : ∀ x, (tb x).toNat < 50000) (r : Fin 16) (j : Fin 512) :
    out3_1 c i arg3 harg3 arg4 harg4 x0 tb fh0 hT (ValueIdx.ix2 (n0 := 16) (n1 := 512) r j)
      = gath3 c i tb fh0 hT (ValueIdx.ix2 (n0 := 16) (n1 := 512) r j) * x0 (ValueIdx.ix2 (n0 := 16) (n1 := 1) r 0) := by
  unfold out3_1
  rw [View.read_writes_eq_canon _ _ _ (cover3_1 c i arg3 harg3 arg4 harg4 x0 tb fh0 hT)]
  unfold kernelRun3
  dsimp only
  rw [View.canon_unit_zero (by funext d; fin_cases d <;> rfl)]
  rw [pay3_apply]
  congr 1
  · unfold kernelRun3.sl.v194
    exact scratch3_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt3_apply (c : Dev nD) (t : Fin (cfg3 a).N) (r : Fin 16) (j : Fin 512) :
    outsAt3 V a hH c t (ValueIdx.ix2 (n0 := 16) (n1 := 512) r j)
      = hbArr3 V c (ValueIdx.ix2 (n0 := 50000) (n1 := 512) ⟨((a.1 0) (ValueIdx.ix1 (n := 50000) ⟨16 * t.val + r.val, idx_lt3 a t r⟩)).toNat, hH _⟩ j)
          * nmBlk3 V a c t (ValueIdx.ix2 (n0 := 16) (n1 := 1) r 0) := by
  unfold outsAt3
  refine (out3_1_apply c (grid3.coords t) _ _ _ _ (nmBlk3 V a c t) (a.1 0) (hbArr3 V c) (tbl_lt3 a hH c) r j).trans ?_
  congr 1
  unfold gath3
  show hbArr3 V c _ = hbArr3 V c _
  congr 1
  funext d
  apply Fin.ext
  fin_cases d
  · exact congrArg (fun n : Fin 50000 => ((a.1 0) (ValueIdx.ix1 (n := 50000) n)).toNat)
      (Fin.ext (by show 16 * (grid3.coords t 0).val + r.val = 16 * t.val + r.val; rw [coords3_val a t]))
  · rfl

end Cert.KernelIdeal.Hand

end
-- ==== Proof.G3Value.lean ====
/- Pipeline 3 at the ideal values: the output array after the region is the gathered and scaled array (row e: the row of
   the source array named by the table's word e, times the norm column's entry e). -/
import proofs.«414392_j7919919694132_2_alg».proof.Proof.G3Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg3 (F := Ideal)).Adm) (hH : ∀ j : Fin 50000, ((a.1 0) (ValueIdx.ix1 j)).toNat < 50000)

/-! ## From blocks to the array -/

/-- What point t writes back is block t of the gathered and scaled array. -/
theorem flushed3_1_eq (c : Dev nD) (t : Fin (cfg3 a).N) :
    (dat3 (F := Ideal) V a hH c).flushed 1 t = (((cfg3 a).win 1).blk t).view.read (Elt Ideal) (G3v V a hH c) := by
  show ((cfg3 a).win 1).cut (grid3.coords t) ((dat3 V a hH c).after 1 t) = _
  rw [after3_1]
  refine funext fun (y : S16x512.Idx) => ?_
  obtain ⟨r, j, rfl⟩ : ∃ (r : Fin 16) (j : Fin 512), y = ValueIdx.ix2 r j := ⟨y 0, y 1, ValueIdx.eq_ix2 y⟩
  show outsAt3 V a hH c t (ValueIdx.ix2 (n0 := 16) (n1 := 512) r j) = G3v V a hH c ((((cfg3 a).win 1).blk t).view.emb (ValueIdx.ix2 (n0 := 16) (n1 := 512) r j))
  rw [emb3_1, outsAt3_apply V a hH c t r j, nmBlk3_apply V a c t r]

/-- Every index of the array is in some point's block: row e is in block e / 16. -/
theorem cover3_blk (i : S50000x512.Idx) :
    ∃ t : Fin (cfg3 a).N, ((cfg3 a).win 1).flush t = true ∧ i ∈ (((cfg3 a).win 1).blk t).view.set := by
  have hi0 : (i 0).val < 50000 := (i 0).isLt
  have hi1 : (i 1).val < 512 := (i 1).isLt
  have hq : (i 0).val / 16 < (cfg3 a).N := by rw [N3_eq a]; omega
  have hr : (i 0).val % 16 < 16 := Nat.mod_lt _ (by omega)
  obtain ⟨t, ht⟩ : ∃ t : Fin (cfg3 a).N, t.val = (i 0).val / 16 := ⟨⟨(i 0).val / 16, hq⟩, rfl⟩
  refine ⟨t, flush3_1 a t, ?_⟩
  have e : i = ValueIdx.ix2 (n0 := 50000) (n1 := 512) ⟨16 * t.val + (i 0).val % 16, idx_lt3 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk3_1 a t ⟨(i 0).val % 16, hr⟩ ⟨(i 1).val, hi1⟩

/-- The output array after the region is the gathered and scaled array, -/
theorem arrAt3_1_eq (c : Dev nD) : (dat3 (F := Ideal) V a hH c).arrAt 1 (cfg3 a).N = G3v V a hH c :=
  (dat3 (F := Ideal) V a hH c).arrAt_eq_of_cover 1 (G3v V a hH c) (fun t _ => flushed3_1_eq V a hH c t) (cover3_blk a)

/-- index by index: entry (e, j) is the source array's entry (the table's word e, j) times the norm column's entry e. -/
theorem arrAt3_1 (c : Dev nD) (e : Fin 50000) (j : Fin 512) :
    (dat3 (F := Ideal) V a hH c).arrAt 1 (cfg3 a).N (ValueIdx.ix2 (n0 := 50000) (n1 := 512) e j)
      = hbArr3 V c (ValueIdx.ix2 (n0 := 50000) (n1 := 512) ⟨((a.1 0) (ValueIdx.ix1 (n := 50000) e)).toNat, hH e⟩ j)
          * nmArr3 V c (ValueIdx.ix2 (n0 := 50000) (n1 := 1) e 0) :=
  (congrFun (arrAt3_1_eq V a hH c) (ValueIdx.ix2 (n0 := 50000) (n1 := 512) e j)).trans rfl

end Cert.KernelIdeal.Hand

end
-- ==== Proof.G4Idx.lean ====
/- Pipeline 4 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G4
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg4 (F := Ideal)).Adm) (hH : ∀ j : Fin 50000, ((a.1 0) (ValueIdx.ix1 j)).toNat < 50000)

/-! ## The arrays, by name -/

/-- The array the rows are gathered from, and the norm column. -/
abbrev hbArr4 (c : Dev nD) : FVec Ideal S50000x512 .f32 := V c main_v34
abbrev nmArr4 (c : Dev nD) : FVec Ideal S50000x1 .f32 := V c main_v46
/-- The norm block at a point. -/
abbrev nmBlk4 (c : Dev nD) (t : Fin (cfg4 a).N) : FVec Ideal S16x1 .f32 := iblk4 V a c 0 t

/-- The gathered and scaled array: row e is the row of the source array named by the table's word e, times the norm
    column's entry e. -/
abbrev G4v (c : Dev nD) : (⟨S50000x512, .f32⟩ : BufTy).Contents (Elt Ideal) := fun i =>
  hbArr4 V c (ValueIdx.ix2 (n0 := 50000) (n1 := 512) ⟨((a.1 0) (ValueIdx.ix1 (n := 50000) (i 0))).toNat, hH (i 0)⟩ (i 1))
    * nmArr4 V c (ValueIdx.ix2 (n0 := 50000) (n1 := 1) (i 0) 0)

/-! ## The index maps at a point -/

theorem N4_eq : (cfg4 a).N = 3125 := N_4

/-- Row r of point t's block is a row of the array. -/
theorem idx_lt4 (t : Fin (cfg4 a).N) (r : Fin 16) : 16 * t.val + r.val < 50000 := by
  have ht : t.val < 3125 := (N4_eq a) ▸ t.isLt
  have := r.isLt; omega

/-- On the one-axis grid the point's coordinate is the point. -/
theorem coords4_val (t : Fin (cfg4 a).N) : (grid4.coords t 0).val = t.val := by
  have h : t.val < 3125 := (N4_eq a) ▸ t.isLt
  show t.val / grid4.stride 0 % 3125 = t.val
  rw [show grid4.stride 0 = 1 from by decide, Nat.div_one, Nat.mod_eq_of_lt h]

theorem idx4_0 (t : Fin (cfg4 a).N) : ((cfg4 a).win 0).index t = cc4_transform_1 (grid4.coords t) := rfl
theorem idx4_1 (t : Fin (cfg4 a).N) : ((cfg4 a).win 1).index t = cc4_transform_2 (grid4.coords t) := rfl

theorem tr4_1_0 (i : grid4.Coords) : cc4_transform_1 i (0 : Fin 2) = (i 0).val := by
  show (BitVec.ofNat 32 (i 0).val).toNat = _
  have h := (i 0).isLt
  have hb : grid4.bound 0 = 3125 := rfl
  rw [BitVec.toNat_ofNat]; exact Nat.mod_eq_of_lt (by omega)
theorem tr4_1_1 (i : grid4.Coords) : cc4_transform_1 i (1 : Fin 2) = 0 := rfl
theorem tr4_2_0 (i : grid4.Coords) : cc4_transform_2 i (0 : Fin 2) = (i 0).val := by
  show (BitVec.ofNat 32 (i 0).val).toNat = _
  have h := (i 0).isLt
  have hb : grid4.bound 0 = 3125 := rfl
  rw [BitVec.toNat_ofNat]; exact Nat.mod_eq_of_lt (by omega)
theorem tr4_2_1 (i : grid4.Coords) : cc4_transform_2 i (1 : Fin 2) = 0 := rfl

/-- Both windows' row-block index at point t is t; their column-block index is zero. -/
theorem index4_0_0 (t : Fin (cfg4 a).N) : ((cfg4 a).win 0).index t (0 : Fin 2) = t.val := by rw [idx4_0, tr4_1_0, coords4_val]
theorem index4_0_1 (t : Fin (cfg4 a).N) : ((cfg4 a).win 0).index t (1 : Fin 2) = 0 := by rw [idx4_0, tr4_1_1]
theorem index4_1_0 (t : Fin (cfg4 a).N) : ((cfg4 a).win 1).index t (0 : Fin 2) = t.val := by rw [idx4_1, tr4_2_0, coords4_val]
theorem index4_1_1 (t : Fin (cfg4 a).N) : ((cfg4 a).win 1).index t (1 : Fin 2) = 0 := by rw [idx4_1, tr4_2_1]

/-- The output window is written back at every point: its block index moves with the point. -/
theorem flush4_1 (t : Fin (cfg4 a).N) : ((cfg4 a).win 1).flush t = true := by
  rw [Window.flush_out _ rfl]
  by_cases h : t.val + 1 = grid4.N
  · exact Or.inl h
  · have hN : grid4.N = 3125 := N_4
    have ht : t.val < 3125 := (N4_eq a) ▸ t.isLt
    have h1 : t.val + 1 < grid4.N := by omega
    refine Or.inr ⟨h1, fun e => ?_⟩
    have e0 : ((cfg4 a).win 1).index ⟨t.val + 1, h1⟩ (0 : Fin 2) = ((cfg4 a).win 1).index t (0 : Fin 2) := congrFun e (0 : Fin 2)
    rw [index4_1_0, index4_1_0] at e0
    exact absurd e0 (by show t.val + 1 ≠ t.val; omega)

/-! ## The blocks at a point -/

/-- Entry (r, j) of point t's output block is entry (16 t + r, j) of the array. -/
theorem emb4_1 (t : Fin (cfg4 a).N) (r : Fin 16) (j : Fin 512) :
    (((cfg4 a).win 1).blk t).view.emb (ValueIdx.ix2 (n0 := 16) (n1 := 512) r j)
      = ValueIdx.ix2 (n0 := 50000) (n1 := 512) ⟨16 * t.val + r.val, idx_lt4 a t r⟩ j := by
  funext k; apply Fin.ext
  match k with
  | ⟨0, _⟩ => show ((cfg4 a).win 1).index t (0 : Fin 2) * 16 + 1 * r.val = 16 * t.val + r.val; rw [index4_1_0]; omega
  | ⟨1, _⟩ => show ((cfg4 a).win 1).index t (1 : Fin 2) * 512 + 1 * j.val = j.val; rw [index4_1_1]; omega

/-- The norm block at point t, row r, is the norm column's entry 16 t + r. -/
theorem nmBlk4_apply (c : Dev nD) (t : Fin (cfg4 a).N) (r : Fin 16) :
    nmBlk4 V a c t (ValueIdx.ix2 (n0 := 16) (n1 := 1) r 0)
      = nmArr4 V c (ValueIdx.ix2 (n0 := 50000) (n1 := 1) ⟨16 * t.val + r.val, idx_lt4 a t r⟩ 0) := by
  show V c main_v46 ((((cfg4 a).win 0).blk t).view.emb (ValueIdx.ix2 (n0 := 16) (n1 := 1) r 0)) = V c main_v46 (ValueIdx.ix2 (n0 := 50000) (n1 := 1) ⟨16 * t.val + r.val, idx_lt4 a t r⟩ 0)
  refine congrArg (V c main_v46) ?_
  funext k; apply Fin.ext
  match k with
  | ⟨0, _⟩ => show ((cfg4 a).win 0).index t (0 : Fin 2) * 16 + 1 * r.val = 16 * t.val + r.val; rw [index4_0_0]; omega
  | ⟨1, _⟩ => show ((cfg4 a).win 0).index t (1 : Fin 2) * 1 + 1 * 0 = 0; rw [index4_0_1]

/-- Entry (16 t + r, j) of the array is in point t's block. -/
theorem mem_blk4_1 (t : Fin (cfg4 a).N) (r : Fin 16) (j : Fin 512) :
    ValueIdx.ix2 (n0 := 50000) (n1 := 512) ⟨16 * t.val + r.val, idx_lt4 a t r⟩ j ∈ (((cfg4 a).win 1).blk t).view.set := by
  rw [← emb4_1]; exact View.emb_mem_set _ _

end Cert.KernelIdeal.Hand

end
-- ==== Proof.G4Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col4_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 4's one store at (r, j): the scratch entry (r, j) times the norm block's entry r. -/
theorem pay4_apply (v192 : Vec Ideal S16x1 .f32) (v194 : Vec Ideal S16x512 .f32) (r : Fin 16) (j : Fin 512) :
    k4_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k4_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col4_512 _ r j).trans (congrFun (shapeCast_self v192 shapeCasts_S16x1_S16x1) _))

end Cert.KernelIdeal.Hand

end
-- ==== Proof.G4Block.lean ====
/- Pipeline 4 at the ideal values: the block the body leaves at a point, entry by entry. -/
import proofs.«414392_j7919919694132_2_alg».proof.Proof.G4Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G4Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg4 (F := Ideal)).Adm) (hH : ∀ j : Fin 50000, ((a.1 0) (ValueIdx.ix1 j)).toNat < 50000)

/-! ## Indices of a one-row slice -/

/-- A one-row index has leading coordinate 0. -/
theorem row0_4 (x : S1x512.Idx) : (x 0).val = 0 := by
  have h := (x 0).isLt
  have e : S1x512.size 0 = 1 := by decide
  omega

/-- The gathered array, read as a matrix of ideal values. -/
abbrev asArr4 (c : Dev nD) (fh0 : HbBuf4 (F := Ideal) c hbM4) : FVec Ideal S50000x512 .f32 := fh0

/-- The table's word at offset `16 i + k`, as the body reads it. -/
theorem word4 (c : Dev nD) (i : grid4.Coords) (tb : HbBuf4 (F := Ideal) c tbM4) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM4.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma4_apply (c : Dev nD) (fh0 : HbBuf4 (F := Ideal) c hbM4) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM4.slice (Rect.unit (s := S50000x512) off S1x512.size inb) (fun _ => rfl)).view fh0) x
      = asArr4 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_4 x]; omega
  · show 0 + 1 * (x 1).val = (x 1).val
    omega

/-- The sixteen rows of the scratch, each the payload of its transfer. -/
def rows4 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows4 (p0 p1 p2 p3 p4 p5 p6 p7 p8 p9 p10 p11 p12 p13 p14 p15 : S1x512.Idx → Elt Ideal .f32) (y : S16x512.Idx) : ∃ pc ∈ rows4 p0 p1 p2 p3 p4 p5 p6 p7 p8 p9 p10 p11 p12 p13 p14 p15, y ∈ pc.1.set :=
  View.cover_of_tiledL (rows4 p0 p1 p2 p3 p4 p5 p6 p7 p8 p9 p10 p11 p12 p13 p14 p15) S1x512.size (by sl_kernel_rfl) y

/-- A point's coordinate is below the grid's 3125 points, so the sixteen table offsets of the point are inside the table. -/
theorem idxlt4 (i : grid4.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath4 (c : Dev nD) (i : grid4.Coords) (tb : HbBuf4 (F := Ideal) c tbM4) (fh0 : HbBuf4 (F := Ideal) c hbM4) (hT : ∀ x, (tb x).toNat < 50000) :
    S16x512.Idx → Elt Ideal .f32 :=
  fun y => asArr4 c fh0 (ValueIdx.ix2 (n0 := 50000) (n1 := 512) ⟨(tb (ValueIdx.ix1 (n := 50000) ⟨16 * (i 0).val + (y 0).val, idxlt4 i (y 0)⟩)).toNat, hT _⟩ (y 1))

/-- Row k's transfer delivers `gath4` at the row's indices. -/
theorem piece4 (c : Dev nD) (i : grid4.Coords) (tb : HbBuf4 (F := Ideal) c tbM4) (fh0 : HbBuf4 (F := Ideal) c hbM4) (hT : ∀ x, (tb x).toNat < 50000)
    (k : Fin 16) (w : BitVec 32) (hwd : w = tb (ValueIdx.ix1 (n := 50000) ⟨16 * (i 0).val + k.val, idxlt4 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM4.slice (Rect.unit (s := S50000x512) off S1x512.size inb) (fun _ => rfl)).view fh0) x
      = gath4 c i tb fh0 hT ((Rect.unit (s := S16x512) ![k.val, 0] S1x512.size inbk).emb x) := by
  subst hwd
  rw [dma4_apply c fh0 _ (hT _) off hoff inb x]
  unfold gath4
  show asArr4 c fh0 _ = asArr4 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_4 x]; omega
  · show (x 1).val = 0 + 1 * (x 1).val
    omega

/-- The scratch, read whole after the sixteen waits, is `gath4`. -/
theorem scratch4_apply (c : Dev nD) (i : grid4.Coords) (tb : HbBuf4 (F := Ideal) c tbM4) (fh0 : HbBuf4 (F := Ideal) c hbM4) (hT : ∀ x, (tb x).toNat < 50000)
    (y : S16x512.Idx) :
    scM4.view.readCov (rows4
        (kernelRun4.sl.dma1 c i tb fh0 (chk4_1_of_lt _ (hT _)))
        (kernelRun4.sl.dma2 c i tb fh0 (chk4_2_of_lt _ (hT _)))
        (kernelRun4.sl.dma3 c i tb fh0 (chk4_3_of_lt _ (hT _)))
        (kernelRun4.sl.dma4 c i tb fh0 (chk4_4_of_lt _ (hT _)))
        (kernelRun4.sl.dma5 c i tb fh0 (chk4_5_of_lt _ (hT _)))
        (kernelRun4.sl.dma6 c i tb fh0 (chk4_6_of_lt _ (hT _)))
        (kernelRun4.sl.dma7 c i tb fh0 (chk4_7_of_lt _ (hT _)))
        (kernelRun4.sl.dma8 c i tb fh0 (chk4_8_of_lt _ (hT _)))
        (kernelRun4.sl.dma9 c i tb fh0 (chk4_9_of_lt _ (hT _)))
        (kernelRun4.sl.dma10 c i tb fh0 (chk4_10_of_lt _ (hT _)))
        (kernelRun4.sl.dma11 c i tb fh0 (chk4_11_of_lt _ (hT _)))
        (kernelRun4.sl.dma12 c i tb fh0 (chk4_12_of_lt _ (hT _)))
        (kernelRun4.sl.dma13 c i tb fh0 (chk4_13_of_lt _ (hT _)))
        (kernelRun4.sl.dma14 c i tb fh0 (chk4_14_of_lt _ (hT _)))
        (kernelRun4.sl.dma15 c i tb fh0 (chk4_15_of_lt _ (hT _)))
        (kernelRun4.sl.dma16 c i tb fh0 (chk4_16_of_lt _ (hT _)))) (Rect.unit (s := S16x512) ![0, 0] S16x512.size inb_S16x512_S16x512_0_0).toLoadRect y
      = gath4 c i tb fh0 hT y := by
  rw [View.readCov_eq_canon_ld _ _ _ (cover_rows4 _ _ _ _ _ _ _ _ _ _ _ _ _ _ _ _), View.ld_unit_zero (by funext d; fin_cases d <;> rfl)]
  refine View.canon_apply_of_pieces (gath4 c i tb fh0 hT) (rows4 _ _ _ _ _ _ _ _ _ _ _ _ _ _ _ _) ?_ y (cover_rows4 _ _ _ _ _ _ _ _ _ _ _ _ _ _ _ _ y)
  intro p hp x
  unfold rows4 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun4.sl.dma16
    exact piece4 c i tb fh0 hT (15 : Fin 16) (kernelRun4.sl.r_15 c i tb)
      (by unfold kernelRun4.sl.r_15; exact word4 c i tb (15 : Fin 16) (idxlt4 i _) _ (by rw [k4_off31_eq]; rfl) _ _) (k4_off32 (kernelRun4.sl.r_15 c i tb)) rfl _ _ x
  · dsimp only
    unfold kernelRun4.sl.dma15
    exact piece4 c i tb fh0 hT (14 : Fin 16) (kernelRun4.sl.r_14 c i tb)
      (by unfold kernelRun4.sl.r_14; exact word4 c i tb (14 : Fin 16) (idxlt4 i _) _ (by rw [k4_off29_eq]; rfl) _ _) (k4_off30 (kernelRun4.sl.r_14 c i tb)) rfl _ _ x
  · dsimp only
    unfold kernelRun4.sl.dma14
    exact piece4 c i tb fh0 hT (13 : Fin 16) (kernelRun4.sl.r_13 c i tb)
      (by unfold kernelRun4.sl.r_13; exact word4 c i tb (13 : Fin 16) (idxlt4 i _) _ (by rw [k4_off27_eq]; rfl) _ _) (k4_off28 (kernelRun4.sl.r_13 c i tb)) rfl _ _ x
  · dsimp only
    unfold kernelRun4.sl.dma13
    exact piece4 c i tb fh0 hT (12 : Fin 16) (kernelRun4.sl.r_12 c i tb)
      (by unfold kernelRun4.sl.r_12; exact word4 c i tb (12 : Fin 16) (idxlt4 i _) _ (by rw [k4_off25_eq]; rfl) _ _) (k4_off26 (kernelRun4.sl.r_12 c i tb)) rfl _ _ x
  · dsimp only
    unfold kernelRun4.sl.dma12
    exact piece4 c i tb fh0 hT (11 : Fin 16) (kernelRun4.sl.r_11 c i tb)
      (by unfold kernelRun4.sl.r_11; exact word4 c i tb (11 : Fin 16) (idxlt4 i _) _ (by rw [k4_off23_eq]; rfl) _ _) (k4_off24 (kernelRun4.sl.r_11 c i tb)) rfl _ _ x
  · dsimp only
    unfold kernelRun4.sl.dma11
    exact piece4 c i tb fh0 hT (10 : Fin 16) (kernelRun4.sl.r_10 c i tb)
      (by unfold kernelRun4.sl.r_10; exact word4 c i tb (10 : Fin 16) (idxlt4 i _) _ (by rw [k4_off21_eq]; rfl) _ _) (k4_off22 (kernelRun4.sl.r_10 c i tb)) rfl _ _ x
  · dsimp only
    unfold kernelRun4.sl.dma10
    exact piece4 c i tb fh0 hT (9 : Fin 16) (kernelRun4.sl.r_9 c i tb)
      (by unfold kernelRun4.sl.r_9; exact word4 c i tb (9 : Fin 16) (idxlt4 i _) _ (by rw [k4_off19_eq]; rfl) _ _) (k4_off20 (kernelRun4.sl.r_9 c i tb)) rfl _ _ x
  · dsimp only
    unfold kernelRun4.sl.dma9
    exact piece4 c i tb fh0 hT (8 : Fin 16) (kernelRun4.sl.r_8 c i tb)
      (by unfold kernelRun4.sl.r_8; exact word4 c i tb (8 : Fin 16) (idxlt4 i _) _ (by rw [k4_off17_eq]; rfl) _ _) (k4_off18 (kernelRun4.sl.r_8 c i tb)) rfl _ _ x
  · dsimp only
    unfold kernelRun4.sl.dma8
    exact piece4 c i tb fh0 hT (7 : Fin 16) (kernelRun4.sl.r_7 c i tb)
      (by unfold kernelRun4.sl.r_7; exact word4 c i tb (7 : Fin 16) (idxlt4 i _) _ (by rw [k4_off15_eq]; rfl) _ _) (k4_off16 (kernelRun4.sl.r_7 c i tb)) rfl _ _ x
  · dsimp only
    unfold kernelRun4.sl.dma7
    exact piece4 c i tb fh0 hT (6 : Fin 16) (kernelRun4.sl.r_6 c i tb)
      (by unfold kernelRun4.sl.r_6; exact word4 c i tb (6 : Fin 16) (idxlt4 i _) _ (by rw [k4_off13_eq]; rfl) _ _) (k4_off14 (kernelRun4.sl.r_6 c i tb)) rfl _ _ x
  · dsimp only
    unfold kernelRun4.sl.dma6
    exact piece4 c i tb fh0 hT (5 : Fin 16) (kernelRun4.sl.r_5 c i tb)
      (by unfold kernelRun4.sl.r_5; exact word4 c i tb (5 : Fin 16) (idxlt4 i _) _ (by rw [k4_off11_eq]; rfl) _ _) (k4_off12 (kernelRun4.sl.r_5 c i tb)) rfl _ _ x
  · dsimp only
    unfold kernelRun4.sl.dma5
    exact piece4 c i tb fh0 hT (4 : Fin 16) (kernelRun4.sl.r_4 c i tb)
      (by unfold kernelRun4.sl.r_4; exact word4 c i tb (4 : Fin 16) (idxlt4 i _) _ (by rw [k4_off9_eq]; rfl) _ _) (k4_off10 (kernelRun4.sl.r_4 c i tb)) rfl _ _ x
  · dsimp only
    unfold kernelRun4.sl.dma4
    exact piece4 c i tb fh0 hT (3 : Fin 16) (kernelRun4.sl.r_3 c i tb)
      (by unfold kernelRun4.sl.r_3; exact word4 c i tb (3 : Fin 16) (idxlt4 i _) _ (by rw [k4_off7_eq]; rfl) _ _) (k4_off8 (kernelRun4.sl.r_3 c i tb)) rfl _ _ x
  · dsimp only
    unfold kernelRun4.sl.dma3
    exact piece4 c i tb fh0 hT (2 : Fin 16) (kernelRun4.sl.r_2 c i tb)
      (by unfold kernelRun4.sl.r_2; exact word4 c i tb (2 : Fin 16) (idxlt4 i _) _ (by rw [k4_off5_eq]; rfl) _ _) (k4_off6 (kernelRun4.sl.r_2 c i tb)) rfl _ _ x
  · dsimp only
    unfold kernelRun4.sl.dma2
    exact piece4 c i tb fh0 hT (1 : Fin 16) (kernelRun4.sl.r_1 c i tb)
      (by unfold kernelRun4.sl.r_1; exact word4 c i tb (1 : Fin 16) (idxlt4 i _) _ (by rw [k4_off3_eq]; rfl) _ _) (k4_off4 (kernelRun4.sl.r_1 c i tb)) rfl _ _ x
  · dsimp only
    unfold kernelRun4.sl.dma1
    exact piece4 c i tb fh0 hT (0 : Fin 16) (kernelRun4.sl.r c i tb)
      (by unfold kernelRun4.sl.r; exact word4 c i tb (0 : Fin 16) (idxlt4 i _) _ (by rw [k4_off1_eq]; rfl) _ _) (k4_off2 (kernelRun4.sl.r c i tb)) rfl _ _ x

/-- THE BLOCK the body leaves, over any staging memrefs and contents: row r is the row of the gathered array the table's
    word `16 i + r` names, times the norm block's entry r. -/
theorem out4_1_apply (c : Dev nD) (i : grid4.Coords) (arg3 : Memref sig .tc .vmem S16x1 .f32) (harg3 : arg3.IsWhole) (arg4 : Memref sig .tc .vmem S16x512 .f32) (harg4 : arg4.IsWhole)
    (x0 : Vec Ideal S16x1 .f32) (tb : HbBuf4 (F := Ideal) c tbM4) (fh0 : HbBuf4 (F := Ideal) c hbM4) (hT : ∀ x, (tb x).toNat < 50000) (r : Fin 16) (j : Fin 512) :
    out4_1 c i arg3 harg3 arg4 harg4 x0 tb fh0 hT (ValueIdx.ix2 (n0 := 16) (n1 := 512) r j)
      = gath4 c i tb fh0 hT (ValueIdx.ix2 (n0 := 16) (n1 := 512) r j) * x0 (ValueIdx.ix2 (n0 := 16) (n1 := 1) r 0) := by
  unfold out4_1
  rw [View.read_writes_eq_canon _ _ _ (cover4_1 c i arg3 harg3 arg4 harg4 x0 tb fh0 hT)]
  unfold kernelRun4
  dsimp only
  rw [View.canon_unit_zero (by funext d; fin_cases d <;> rfl)]
  rw [pay4_apply]
  congr 1
  · unfold kernelRun4.sl.v194
    exact scratch4_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt4_apply (c : Dev nD) (t : Fin (cfg4 a).N) (r : Fin 16) (j : Fin 512) :
    outsAt4 V a hH c t (ValueIdx.ix2 (n0 := 16) (n1 := 512) r j)
      = hbArr4 V c (ValueIdx.ix2 (n0 := 50000) (n1 := 512) ⟨((a.1 0) (ValueIdx.ix1 (n := 50000) ⟨16 * t.val + r.val, idx_lt4 a t r⟩)).toNat, hH _⟩ j)
          * nmBlk4 V a c t (ValueIdx.ix2 (n0 := 16) (n1 := 1) r 0) := by
  unfold outsAt4
  refine (out4_1_apply c (grid4.coords t) _ _ _ _ (nmBlk4 V a c t) (a.1 0) (hbArr4 V c) (tbl_lt4 a hH c) r j).trans ?_
  congr 1
  unfold gath4
  show hbArr4 V c _ = hbArr4 V c _
  congr 1
  funext d
  apply Fin.ext
  fin_cases d
  · exact congrArg (fun n : Fin 50000 => ((a.1 0) (ValueIdx.ix1 (n := 50000) n)).toNat)
      (Fin.ext (by show 16 * (grid4.coords t 0).val + r.val = 16 * t.val + r.val; rw [coords4_val a t]))
  · rfl

end Cert.KernelIdeal.Hand

end
-- ==== Proof.G4Value.lean ====
/- Pipeline 4 at the ideal values: the output array after the region is the gathered and scaled array (row e: the row of
   the source array named by the table's word e, times the norm column's entry e). -/
import proofs.«414392_j7919919694132_2_alg».proof.Proof.G4Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg4 (F := Ideal)).Adm) (hH : ∀ j : Fin 50000, ((a.1 0) (ValueIdx.ix1 j)).toNat < 50000)

/-! ## From blocks to the array -/

/-- What point t writes back is block t of the gathered and scaled array. -/
theorem flushed4_1_eq (c : Dev nD) (t : Fin (cfg4 a).N) :
    (dat4 (F := Ideal) V a hH c).flushed 1 t = (((cfg4 a).win 1).blk t).view.read (Elt Ideal) (G4v V a hH c) := by
  show ((cfg4 a).win 1).cut (grid4.coords t) ((dat4 V a hH c).after 1 t) = _
  rw [after4_1]
  refine funext fun (y : S16x512.Idx) => ?_
  obtain ⟨r, j, rfl⟩ : ∃ (r : Fin 16) (j : Fin 512), y = ValueIdx.ix2 r j := ⟨y 0, y 1, ValueIdx.eq_ix2 y⟩
  show outsAt4 V a hH c t (ValueIdx.ix2 (n0 := 16) (n1 := 512) r j) = G4v V a hH c ((((cfg4 a).win 1).blk t).view.emb (ValueIdx.ix2 (n0 := 16) (n1 := 512) r j))
  rw [emb4_1, outsAt4_apply V a hH c t r j, nmBlk4_apply V a c t r]

/-- Every index of the array is in some point's block: row e is in block e / 16. -/
theorem cover4_blk (i : S50000x512.Idx) :
    ∃ t : Fin (cfg4 a).N, ((cfg4 a).win 1).flush t = true ∧ i ∈ (((cfg4 a).win 1).blk t).view.set := by
  have hi0 : (i 0).val < 50000 := (i 0).isLt
  have hi1 : (i 1).val < 512 := (i 1).isLt
  have hq : (i 0).val / 16 < (cfg4 a).N := by rw [N4_eq a]; omega
  have hr : (i 0).val % 16 < 16 := Nat.mod_lt _ (by omega)
  obtain ⟨t, ht⟩ : ∃ t : Fin (cfg4 a).N, t.val = (i 0).val / 16 := ⟨⟨(i 0).val / 16, hq⟩, rfl⟩
  refine ⟨t, flush4_1 a t, ?_⟩
  have e : i = ValueIdx.ix2 (n0 := 50000) (n1 := 512) ⟨16 * t.val + (i 0).val % 16, idx_lt4 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk4_1 a t ⟨(i 0).val % 16, hr⟩ ⟨(i 1).val, hi1⟩

/-- The output array after the region is the gathered and scaled array, -/
theorem arrAt4_1_eq (c : Dev nD) : (dat4 (F := Ideal) V a hH c).arrAt 1 (cfg4 a).N = G4v V a hH c :=
  (dat4 (F := Ideal) V a hH c).arrAt_eq_of_cover 1 (G4v V a hH c) (fun t _ => flushed4_1_eq V a hH c t) (cover4_blk a)

/-- index by index: entry (e, j) is the source array's entry (the table's word e, j) times the norm column's entry e. -/
theorem arrAt4_1 (c : Dev nD) (e : Fin 50000) (j : Fin 512) :
    (dat4 (F := Ideal) V a hH c).arrAt 1 (cfg4 a).N (ValueIdx.ix2 (n0 := 50000) (n1 := 512) e j)
      = hbArr4 V c (ValueIdx.ix2 (n0 := 50000) (n1 := 512) ⟨((a.1 0) (ValueIdx.ix1 (n := 50000) e)).toNat, hH e⟩ j)
          * nmArr4 V c (ValueIdx.ix2 (n0 := 50000) (n1 := 1) e 0) :=
  (congrFun (arrAt4_1_eq V a hH c) (ValueIdx.ix2 (n0 := 50000) (n1 := 512) e j)).trans rfl

end Cert.KernelIdeal.Hand

end
-- ==== Proof.G5Idx.lean ====
/- Pipeline 5 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G5
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg5 (F := Ideal)).Adm) (hH : ∀ j : Fin 50000, ((a.1 0) (ValueIdx.ix1 j)).toNat < 50000)

/-! ## The arrays, by name -/

/-- The array the rows are gathered from, and the norm column. -/
abbrev hbArr5 (c : Dev nD) : FVec Ideal S50000x512 .f32 := V c main_v34
abbrev nmArr5 (c : Dev nD) : FVec Ideal S50000x1 .f32 := V c main_v49
/-- The norm block at a point. -/
abbrev nmBlk5 (c : Dev nD) (t : Fin (cfg5 a).N) : FVec Ideal S16x1 .f32 := iblk5 V a c 0 t

/-- The gathered and scaled array: row e is the row of the source array named by the table's word e, times the norm
    column's entry e. -/
abbrev G5v (c : Dev nD) : (⟨S50000x512, .f32⟩ : BufTy).Contents (Elt Ideal) := fun i =>
  hbArr5 V c (ValueIdx.ix2 (n0 := 50000) (n1 := 512) ⟨((a.1 0) (ValueIdx.ix1 (n := 50000) (i 0))).toNat, hH (i 0)⟩ (i 1))
    * nmArr5 V c (ValueIdx.ix2 (n0 := 50000) (n1 := 1) (i 0) 0)

/-! ## The index maps at a point -/

theorem N5_eq : (cfg5 a).N = 3125 := N_5

/-- Row r of point t's block is a row of the array. -/
theorem idx_lt5 (t : Fin (cfg5 a).N) (r : Fin 16) : 16 * t.val + r.val < 50000 := by
  have ht : t.val < 3125 := (N5_eq a) ▸ t.isLt
  have := r.isLt; omega

/-- On the one-axis grid the point's coordinate is the point. -/
theorem coords5_val (t : Fin (cfg5 a).N) : (grid5.coords t 0).val = t.val := by
  have h : t.val < 3125 := (N5_eq a) ▸ t.isLt
  show t.val / grid5.stride 0 % 3125 = t.val
  rw [show grid5.stride 0 = 1 from by decide, Nat.div_one, Nat.mod_eq_of_lt h]

theorem idx5_0 (t : Fin (cfg5 a).N) : ((cfg5 a).win 0).index t = cc5_transform_1 (grid5.coords t) := rfl
theorem idx5_1 (t : Fin (cfg5 a).N) : ((cfg5 a).win 1).index t = cc5_transform_2 (grid5.coords t) := rfl

theorem tr5_1_0 (i : grid5.Coords) : cc5_transform_1 i (0 : Fin 2) = (i 0).val := by
  show (BitVec.ofNat 32 (i 0).val).toNat = _
  have h := (i 0).isLt
  have hb : grid5.bound 0 = 3125 := rfl
  rw [BitVec.toNat_ofNat]; exact Nat.mod_eq_of_lt (by omega)
theorem tr5_1_1 (i : grid5.Coords) : cc5_transform_1 i (1 : Fin 2) = 0 := rfl
theorem tr5_2_0 (i : grid5.Coords) : cc5_transform_2 i (0 : Fin 2) = (i 0).val := by
  show (BitVec.ofNat 32 (i 0).val).toNat = _
  have h := (i 0).isLt
  have hb : grid5.bound 0 = 3125 := rfl
  rw [BitVec.toNat_ofNat]; exact Nat.mod_eq_of_lt (by omega)
theorem tr5_2_1 (i : grid5.Coords) : cc5_transform_2 i (1 : Fin 2) = 0 := rfl

/-- Both windows' row-block index at point t is t; their column-block index is zero. -/
theorem index5_0_0 (t : Fin (cfg5 a).N) : ((cfg5 a).win 0).index t (0 : Fin 2) = t.val := by rw [idx5_0, tr5_1_0, coords5_val]
theorem index5_0_1 (t : Fin (cfg5 a).N) : ((cfg5 a).win 0).index t (1 : Fin 2) = 0 := by rw [idx5_0, tr5_1_1]
theorem index5_1_0 (t : Fin (cfg5 a).N) : ((cfg5 a).win 1).index t (0 : Fin 2) = t.val := by rw [idx5_1, tr5_2_0, coords5_val]
theorem index5_1_1 (t : Fin (cfg5 a).N) : ((cfg5 a).win 1).index t (1 : Fin 2) = 0 := by rw [idx5_1, tr5_2_1]

/-- The output window is written back at every point: its block index moves with the point. -/
theorem flush5_1 (t : Fin (cfg5 a).N) : ((cfg5 a).win 1).flush t = true := by
  rw [Window.flush_out _ rfl]
  by_cases h : t.val + 1 = grid5.N
  · exact Or.inl h
  · have hN : grid5.N = 3125 := N_5
    have ht : t.val < 3125 := (N5_eq a) ▸ t.isLt
    have h1 : t.val + 1 < grid5.N := by omega
    refine Or.inr ⟨h1, fun e => ?_⟩
    have e0 : ((cfg5 a).win 1).index ⟨t.val + 1, h1⟩ (0 : Fin 2) = ((cfg5 a).win 1).index t (0 : Fin 2) := congrFun e (0 : Fin 2)
    rw [index5_1_0, index5_1_0] at e0
    exact absurd e0 (by show t.val + 1 ≠ t.val; omega)

/-! ## The blocks at a point -/

/-- Entry (r, j) of point t's output block is entry (16 t + r, j) of the array. -/
theorem emb5_1 (t : Fin (cfg5 a).N) (r : Fin 16) (j : Fin 512) :
    (((cfg5 a).win 1).blk t).view.emb (ValueIdx.ix2 (n0 := 16) (n1 := 512) r j)
      = ValueIdx.ix2 (n0 := 50000) (n1 := 512) ⟨16 * t.val + r.val, idx_lt5 a t r⟩ j := by
  funext k; apply Fin.ext
  match k with
  | ⟨0, _⟩ => show ((cfg5 a).win 1).index t (0 : Fin 2) * 16 + 1 * r.val = 16 * t.val + r.val; rw [index5_1_0]; omega
  | ⟨1, _⟩ => show ((cfg5 a).win 1).index t (1 : Fin 2) * 512 + 1 * j.val = j.val; rw [index5_1_1]; omega

/-- The norm block at point t, row r, is the norm column's entry 16 t + r. -/
theorem nmBlk5_apply (c : Dev nD) (t : Fin (cfg5 a).N) (r : Fin 16) :
    nmBlk5 V a c t (ValueIdx.ix2 (n0 := 16) (n1 := 1) r 0)
      = nmArr5 V c (ValueIdx.ix2 (n0 := 50000) (n1 := 1) ⟨16 * t.val + r.val, idx_lt5 a t r⟩ 0) := by
  show V c main_v49 ((((cfg5 a).win 0).blk t).view.emb (ValueIdx.ix2 (n0 := 16) (n1 := 1) r 0)) = V c main_v49 (ValueIdx.ix2 (n0 := 50000) (n1 := 1) ⟨16 * t.val + r.val, idx_lt5 a t r⟩ 0)
  refine congrArg (V c main_v49) ?_
  funext k; apply Fin.ext
  match k with
  | ⟨0, _⟩ => show ((cfg5 a).win 0).index t (0 : Fin 2) * 16 + 1 * r.val = 16 * t.val + r.val; rw [index5_0_0]; omega
  | ⟨1, _⟩ => show ((cfg5 a).win 0).index t (1 : Fin 2) * 1 + 1 * 0 = 0; rw [index5_0_1]

/-- Entry (16 t + r, j) of the array is in point t's block. -/
theorem mem_blk5_1 (t : Fin (cfg5 a).N) (r : Fin 16) (j : Fin 512) :
    ValueIdx.ix2 (n0 := 50000) (n1 := 512) ⟨16 * t.val + r.val, idx_lt5 a t r⟩ j ∈ (((cfg5 a).win 1).blk t).view.set := by
  rw [← emb5_1]; exact View.emb_mem_set _ _

end Cert.KernelIdeal.Hand

end
-- ==== Proof.G5Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col5_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 5's one store at (r, j): the scratch entry (r, j) times the norm block's entry r. -/
theorem pay5_apply (v192 : Vec Ideal S16x1 .f32) (v194 : Vec Ideal S16x512 .f32) (r : Fin 16) (j : Fin 512) :
    k5_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k5_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col5_512 _ r j).trans (congrFun (shapeCast_self v192 shapeCasts_S16x1_S16x1) _))

end Cert.KernelIdeal.Hand

end
-- ==== Proof.G5Block.lean ====
/- Pipeline 5 at the ideal values: the block the body leaves at a point, entry by entry. -/
import proofs.«414392_j7919919694132_2_alg».proof.Proof.G5Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G5Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg5 (F := Ideal)).Adm) (hH : ∀ j : Fin 50000, ((a.1 0) (ValueIdx.ix1 j)).toNat < 50000)

/-! ## Indices of a one-row slice -/

/-- A one-row index has leading coordinate 0. -/
theorem row0_5 (x : S1x512.Idx) : (x 0).val = 0 := by
  have h := (x 0).isLt
  have e : S1x512.size 0 = 1 := by decide
  omega

/-- The gathered array, read as a matrix of ideal values. -/
abbrev asArr5 (c : Dev nD) (fh0 : HbBuf5 (F := Ideal) c hbM5) : FVec Ideal S50000x512 .f32 := fh0

/-- The table's word at offset `16 i + k`, as the body reads it. -/
theorem word5 (c : Dev nD) (i : grid5.Coords) (tb : HbBuf5 (F := Ideal) c tbM5) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM5.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma5_apply (c : Dev nD) (fh0 : HbBuf5 (F := Ideal) c hbM5) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM5.slice (Rect.unit (s := S50000x512) off S1x512.size inb) (fun _ => rfl)).view fh0) x
      = asArr5 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_5 x]; omega
  · show 0 + 1 * (x 1).val = (x 1).val
    omega

/-- The sixteen rows of the scratch, each the payload of its transfer. -/
def rows5 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows5 (p0 p1 p2 p3 p4 p5 p6 p7 p8 p9 p10 p11 p12 p13 p14 p15 : S1x512.Idx → Elt Ideal .f32) (y : S16x512.Idx) : ∃ pc ∈ rows5 p0 p1 p2 p3 p4 p5 p6 p7 p8 p9 p10 p11 p12 p13 p14 p15, y ∈ pc.1.set :=
  View.cover_of_tiledL (rows5 p0 p1 p2 p3 p4 p5 p6 p7 p8 p9 p10 p11 p12 p13 p14 p15) S1x512.size (by sl_kernel_rfl) y

/-- A point's coordinate is below the grid's 3125 points, so the sixteen table offsets of the point are inside the table. -/
theorem idxlt5 (i : grid5.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath5 (c : Dev nD) (i : grid5.Coords) (tb : HbBuf5 (F := Ideal) c tbM5) (fh0 : HbBuf5 (F := Ideal) c hbM5) (hT : ∀ x, (tb x).toNat < 50000) :
    S16x512.Idx → Elt Ideal .f32 :=
  fun y => asArr5 c fh0 (ValueIdx.ix2 (n0 := 50000) (n1 := 512) ⟨(tb (ValueIdx.ix1 (n := 50000) ⟨16 * (i 0).val + (y 0).val, idxlt5 i (y 0)⟩)).toNat, hT _⟩ (y 1))

/-- Row k's transfer delivers `gath5` at the row's indices. -/
theorem piece5 (c : Dev nD) (i : grid5.Coords) (tb : HbBuf5 (F := Ideal) c tbM5) (fh0 : HbBuf5 (F := Ideal) c hbM5) (hT : ∀ x, (tb x).toNat < 50000)
    (k : Fin 16) (w : BitVec 32) (hwd : w = tb (ValueIdx.ix1 (n := 50000) ⟨16 * (i 0).val + k.val, idxlt5 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM5.slice (Rect.unit (s := S50000x512) off S1x512.size inb) (fun _ => rfl)).view fh0) x
      = gath5 c i tb fh0 hT ((Rect.unit (s := S16x512) ![k.val, 0] S1x512.size inbk).emb x) := by
  subst hwd
  rw [dma5_apply c fh0 _ (hT _) off hoff inb x]
  unfold gath5
  show asArr5 c fh0 _ = asArr5 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_5 x]; omega
  · show (x 1).val = 0 + 1 * (x 1).val
    omega

/-- The scratch, read whole after the sixteen waits, is `gath5`. -/
theorem scratch5_apply (c : Dev nD) (i : grid5.Coords) (tb : HbBuf5 (F := Ideal) c tbM5) (fh0 : HbBuf5 (F := Ideal) c hbM5) (hT : ∀ x, (tb x).toNat < 50000)
    (y : S16x512.Idx) :
    scM5.view.readCov (rows5
        (kernelRun5.sl.dma1 c i tb fh0 (chk5_1_of_lt _ (hT _)))
        (kernelRun5.sl.dma2 c i tb fh0 (chk5_2_of_lt _ (hT _)))
        (kernelRun5.sl.dma3 c i tb fh0 (chk5_3_of_lt _ (hT _)))
        (kernelRun5.sl.dma4 c i tb fh0 (chk5_4_of_lt _ (hT _)))
        (kernelRun5.sl.dma5 c i tb fh0 (chk5_5_of_lt _ (hT _)))
        (kernelRun5.sl.dma6 c i tb fh0 (chk5_6_of_lt _ (hT _)))
        (kernelRun5.sl.dma7 c i tb fh0 (chk5_7_of_lt _ (hT _)))
        (kernelRun5.sl.dma8 c i tb fh0 (chk5_8_of_lt _ (hT _)))
        (kernelRun5.sl.dma9 c i tb fh0 (chk5_9_of_lt _ (hT _)))
        (kernelRun5.sl.dma10 c i tb fh0 (chk5_10_of_lt _ (hT _)))
        (kernelRun5.sl.dma11 c i tb fh0 (chk5_11_of_lt _ (hT _)))
        (kernelRun5.sl.dma12 c i tb fh0 (chk5_12_of_lt _ (hT _)))
        (kernelRun5.sl.dma13 c i tb fh0 (chk5_13_of_lt _ (hT _)))
        (kernelRun5.sl.dma14 c i tb fh0 (chk5_14_of_lt _ (hT _)))
        (kernelRun5.sl.dma15 c i tb fh0 (chk5_15_of_lt _ (hT _)))
        (kernelRun5.sl.dma16 c i tb fh0 (chk5_16_of_lt _ (hT _)))) (Rect.unit (s := S16x512) ![0, 0] S16x512.size inb_S16x512_S16x512_0_0).toLoadRect y
      = gath5 c i tb fh0 hT y := by
  rw [View.readCov_eq_canon_ld _ _ _ (cover_rows5 _ _ _ _ _ _ _ _ _ _ _ _ _ _ _ _), View.ld_unit_zero (by funext d; fin_cases d <;> rfl)]
  refine View.canon_apply_of_pieces (gath5 c i tb fh0 hT) (rows5 _ _ _ _ _ _ _ _ _ _ _ _ _ _ _ _) ?_ y (cover_rows5 _ _ _ _ _ _ _ _ _ _ _ _ _ _ _ _ y)
  intro p hp x
  unfold rows5 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun5.sl.dma16
    exact piece5 c i tb fh0 hT (15 : Fin 16) (kernelRun5.sl.r_15 c i tb)
      (by unfold kernelRun5.sl.r_15; exact word5 c i tb (15 : Fin 16) (idxlt5 i _) _ (by rw [k5_off31_eq]; rfl) _ _) (k5_off32 (kernelRun5.sl.r_15 c i tb)) rfl _ _ x
  · dsimp only
    unfold kernelRun5.sl.dma15
    exact piece5 c i tb fh0 hT (14 : Fin 16) (kernelRun5.sl.r_14 c i tb)
      (by unfold kernelRun5.sl.r_14; exact word5 c i tb (14 : Fin 16) (idxlt5 i _) _ (by rw [k5_off29_eq]; rfl) _ _) (k5_off30 (kernelRun5.sl.r_14 c i tb)) rfl _ _ x
  · dsimp only
    unfold kernelRun5.sl.dma14
    exact piece5 c i tb fh0 hT (13 : Fin 16) (kernelRun5.sl.r_13 c i tb)
      (by unfold kernelRun5.sl.r_13; exact word5 c i tb (13 : Fin 16) (idxlt5 i _) _ (by rw [k5_off27_eq]; rfl) _ _) (k5_off28 (kernelRun5.sl.r_13 c i tb)) rfl _ _ x
  · dsimp only
    unfold kernelRun5.sl.dma13
    exact piece5 c i tb fh0 hT (12 : Fin 16) (kernelRun5.sl.r_12 c i tb)
      (by unfold kernelRun5.sl.r_12; exact word5 c i tb (12 : Fin 16) (idxlt5 i _) _ (by rw [k5_off25_eq]; rfl) _ _) (k5_off26 (kernelRun5.sl.r_12 c i tb)) rfl _ _ x
  · dsimp only
    unfold kernelRun5.sl.dma12
    exact piece5 c i tb fh0 hT (11 : Fin 16) (kernelRun5.sl.r_11 c i tb)
      (by unfold kernelRun5.sl.r_11; exact word5 c i tb (11 : Fin 16) (idxlt5 i _) _ (by rw [k5_off23_eq]; rfl) _ _) (k5_off24 (kernelRun5.sl.r_11 c i tb)) rfl _ _ x
  · dsimp only
    unfold kernelRun5.sl.dma11
    exact piece5 c i tb fh0 hT (10 : Fin 16) (kernelRun5.sl.r_10 c i tb)
      (by unfold kernelRun5.sl.r_10; exact word5 c i tb (10 : Fin 16) (idxlt5 i _) _ (by rw [k5_off21_eq]; rfl) _ _) (k5_off22 (kernelRun5.sl.r_10 c i tb)) rfl _ _ x
  · dsimp only
    unfold kernelRun5.sl.dma10
    exact piece5 c i tb fh0 hT (9 : Fin 16) (kernelRun5.sl.r_9 c i tb)
      (by unfold kernelRun5.sl.r_9; exact word5 c i tb (9 : Fin 16) (idxlt5 i _) _ (by rw [k5_off19_eq]; rfl) _ _) (k5_off20 (kernelRun5.sl.r_9 c i tb)) rfl _ _ x
  · dsimp only
    unfold kernelRun5.sl.dma9
    exact piece5 c i tb fh0 hT (8 : Fin 16) (kernelRun5.sl.r_8 c i tb)
      (by unfold kernelRun5.sl.r_8; exact word5 c i tb (8 : Fin 16) (idxlt5 i _) _ (by rw [k5_off17_eq]; rfl) _ _) (k5_off18 (kernelRun5.sl.r_8 c i tb)) rfl _ _ x
  · dsimp only
    unfold kernelRun5.sl.dma8
    exact piece5 c i tb fh0 hT (7 : Fin 16) (kernelRun5.sl.r_7 c i tb)
      (by unfold kernelRun5.sl.r_7; exact word5 c i tb (7 : Fin 16) (idxlt5 i _) _ (by rw [k5_off15_eq]; rfl) _ _) (k5_off16 (kernelRun5.sl.r_7 c i tb)) rfl _ _ x
  · dsimp only
    unfold kernelRun5.sl.dma7
    exact piece5 c i tb fh0 hT (6 : Fin 16) (kernelRun5.sl.r_6 c i tb)
      (by unfold kernelRun5.sl.r_6; exact word5 c i tb (6 : Fin 16) (idxlt5 i _) _ (by rw [k5_off13_eq]; rfl) _ _) (k5_off14 (kernelRun5.sl.r_6 c i tb)) rfl _ _ x
  · dsimp only
    unfold kernelRun5.sl.dma6
    exact piece5 c i tb fh0 hT (5 : Fin 16) (kernelRun5.sl.r_5 c i tb)
      (by unfold kernelRun5.sl.r_5; exact word5 c i tb (5 : Fin 16) (idxlt5 i _) _ (by rw [k5_off11_eq]; rfl) _ _) (k5_off12 (kernelRun5.sl.r_5 c i tb)) rfl _ _ x
  · dsimp only
    unfold kernelRun5.sl.dma5
    exact piece5 c i tb fh0 hT (4 : Fin 16) (kernelRun5.sl.r_4 c i tb)
      (by unfold kernelRun5.sl.r_4; exact word5 c i tb (4 : Fin 16) (idxlt5 i _) _ (by rw [k5_off9_eq]; rfl) _ _) (k5_off10 (kernelRun5.sl.r_4 c i tb)) rfl _ _ x
  · dsimp only
    unfold kernelRun5.sl.dma4
    exact piece5 c i tb fh0 hT (3 : Fin 16) (kernelRun5.sl.r_3 c i tb)
      (by unfold kernelRun5.sl.r_3; exact word5 c i tb (3 : Fin 16) (idxlt5 i _) _ (by rw [k5_off7_eq]; rfl) _ _) (k5_off8 (kernelRun5.sl.r_3 c i tb)) rfl _ _ x
  · dsimp only
    unfold kernelRun5.sl.dma3
    exact piece5 c i tb fh0 hT (2 : Fin 16) (kernelRun5.sl.r_2 c i tb)
      (by unfold kernelRun5.sl.r_2; exact word5 c i tb (2 : Fin 16) (idxlt5 i _) _ (by rw [k5_off5_eq]; rfl) _ _) (k5_off6 (kernelRun5.sl.r_2 c i tb)) rfl _ _ x
  · dsimp only
    unfold kernelRun5.sl.dma2
    exact piece5 c i tb fh0 hT (1 : Fin 16) (kernelRun5.sl.r_1 c i tb)
      (by unfold kernelRun5.sl.r_1; exact word5 c i tb (1 : Fin 16) (idxlt5 i _) _ (by rw [k5_off3_eq]; rfl) _ _) (k5_off4 (kernelRun5.sl.r_1 c i tb)) rfl _ _ x
  · dsimp only
    unfold kernelRun5.sl.dma1
    exact piece5 c i tb fh0 hT (0 : Fin 16) (kernelRun5.sl.r c i tb)
      (by unfold kernelRun5.sl.r; exact word5 c i tb (0 : Fin 16) (idxlt5 i _) _ (by rw [k5_off1_eq]; rfl) _ _) (k5_off2 (kernelRun5.sl.r c i tb)) rfl _ _ x

/-- THE BLOCK the body leaves, over any staging memrefs and contents: row r is the row of the gathered array the table's
    word `16 i + r` names, times the norm block's entry r. -/
theorem out5_1_apply (c : Dev nD) (i : grid5.Coords) (arg3 : Memref sig .tc .vmem S16x1 .f32) (harg3 : arg3.IsWhole) (arg4 : Memref sig .tc .vmem S16x512 .f32) (harg4 : arg4.IsWhole)
    (x0 : Vec Ideal S16x1 .f32) (tb : HbBuf5 (F := Ideal) c tbM5) (fh0 : HbBuf5 (F := Ideal) c hbM5) (hT : ∀ x, (tb x).toNat < 50000) (r : Fin 16) (j : Fin 512) :
    out5_1 c i arg3 harg3 arg4 harg4 x0 tb fh0 hT (ValueIdx.ix2 (n0 := 16) (n1 := 512) r j)
      = gath5 c i tb fh0 hT (ValueIdx.ix2 (n0 := 16) (n1 := 512) r j) * x0 (ValueIdx.ix2 (n0 := 16) (n1 := 1) r 0) := by
  unfold out5_1
  rw [View.read_writes_eq_canon _ _ _ (cover5_1 c i arg3 harg3 arg4 harg4 x0 tb fh0 hT)]
  unfold kernelRun5
  dsimp only
  rw [View.canon_unit_zero (by funext d; fin_cases d <;> rfl)]
  rw [pay5_apply]
  congr 1
  · unfold kernelRun5.sl.v194
    exact scratch5_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt5_apply (c : Dev nD) (t : Fin (cfg5 a).N) (r : Fin 16) (j : Fin 512) :
    outsAt5 V a hH c t (ValueIdx.ix2 (n0 := 16) (n1 := 512) r j)
      = hbArr5 V c (ValueIdx.ix2 (n0 := 50000) (n1 := 512) ⟨((a.1 0) (ValueIdx.ix1 (n := 50000) ⟨16 * t.val + r.val, idx_lt5 a t r⟩)).toNat, hH _⟩ j)
          * nmBlk5 V a c t (ValueIdx.ix2 (n0 := 16) (n1 := 1) r 0) := by
  unfold outsAt5
  refine (out5_1_apply c (grid5.coords t) _ _ _ _ (nmBlk5 V a c t) (a.1 0) (hbArr5 V c) (tbl_lt5 a hH c) r j).trans ?_
  congr 1
  unfold gath5
  show hbArr5 V c _ = hbArr5 V c _
  congr 1
  funext d
  apply Fin.ext
  fin_cases d
  · exact congrArg (fun n : Fin 50000 => ((a.1 0) (ValueIdx.ix1 (n := 50000) n)).toNat)
      (Fin.ext (by show 16 * (grid5.coords t 0).val + r.val = 16 * t.val + r.val; rw [coords5_val a t]))
  · rfl

end Cert.KernelIdeal.Hand

end
-- ==== Proof.G5Value.lean ====
/- Pipeline 5 at the ideal values: the output array after the region is the gathered and scaled array (row e: the row of
   the source array named by the table's word e, times the norm column's entry e). -/
import proofs.«414392_j7919919694132_2_alg».proof.Proof.G5Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg5 (F := Ideal)).Adm) (hH : ∀ j : Fin 50000, ((a.1 0) (ValueIdx.ix1 j)).toNat < 50000)

/-! ## From blocks to the array -/

/-- What point t writes back is block t of the gathered and scaled array. -/
theorem flushed5_1_eq (c : Dev nD) (t : Fin (cfg5 a).N) :
    (dat5 (F := Ideal) V a hH c).flushed 1 t = (((cfg5 a).win 1).blk t).view.read (Elt Ideal) (G5v V a hH c) := by
  show ((cfg5 a).win 1).cut (grid5.coords t) ((dat5 V a hH c).after 1 t) = _
  rw [after5_1]
  refine funext fun (y : S16x512.Idx) => ?_
  obtain ⟨r, j, rfl⟩ : ∃ (r : Fin 16) (j : Fin 512), y = ValueIdx.ix2 r j := ⟨y 0, y 1, ValueIdx.eq_ix2 y⟩
  show outsAt5 V a hH c t (ValueIdx.ix2 (n0 := 16) (n1 := 512) r j) = G5v V a hH c ((((cfg5 a).win 1).blk t).view.emb (ValueIdx.ix2 (n0 := 16) (n1 := 512) r j))
  rw [emb5_1, outsAt5_apply V a hH c t r j, nmBlk5_apply V a c t r]

/-- Every index of the array is in some point's block: row e is in block e / 16. -/
theorem cover5_blk (i : S50000x512.Idx) :
    ∃ t : Fin (cfg5 a).N, ((cfg5 a).win 1).flush t = true ∧ i ∈ (((cfg5 a).win 1).blk t).view.set := by
  have hi0 : (i 0).val < 50000 := (i 0).isLt
  have hi1 : (i 1).val < 512 := (i 1).isLt
  have hq : (i 0).val / 16 < (cfg5 a).N := by rw [N5_eq a]; omega
  have hr : (i 0).val % 16 < 16 := Nat.mod_lt _ (by omega)
  obtain ⟨t, ht⟩ : ∃ t : Fin (cfg5 a).N, t.val = (i 0).val / 16 := ⟨⟨(i 0).val / 16, hq⟩, rfl⟩
  refine ⟨t, flush5_1 a t, ?_⟩
  have e : i = ValueIdx.ix2 (n0 := 50000) (n1 := 512) ⟨16 * t.val + (i 0).val % 16, idx_lt5 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk5_1 a t ⟨(i 0).val % 16, hr⟩ ⟨(i 1).val, hi1⟩

/-- The output array after the region is the gathered and scaled array, -/
theorem arrAt5_1_eq (c : Dev nD) : (dat5 (F := Ideal) V a hH c).arrAt 1 (cfg5 a).N = G5v V a hH c :=
  (dat5 (F := Ideal) V a hH c).arrAt_eq_of_cover 1 (G5v V a hH c) (fun t _ => flushed5_1_eq V a hH c t) (cover5_blk a)

/-- index by index: entry (e, j) is the source array's entry (the table's word e, j) times the norm column's entry e. -/
theorem arrAt5_1 (c : Dev nD) (e : Fin 50000) (j : Fin 512) :
    (dat5 (F := Ideal) V a hH c).arrAt 1 (cfg5 a).N (ValueIdx.ix2 (n0 := 50000) (n1 := 512) e j)
      = hbArr5 V c (ValueIdx.ix2 (n0 := 50000) (n1 := 512) ⟨((a.1 0) (ValueIdx.ix1 (n := 50000) e)).toNat, hH e⟩ j)
          * nmArr5 V c (ValueIdx.ix2 (n0 := 50000) (n1 := 1) e 0) :=
  (congrFun (arrAt5_1_eq V a hH c) (ValueIdx.ix2 (n0 := 50000) (n1 := 512) e j)).trans rfl

end Cert.KernelIdeal.Hand

end
-- ==== Proof.G6Idx.lean ====
/- Pipeline 6 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G6
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg6 (F := Ideal)).Adm) (hH : ∀ j : Fin 50000, ((a.1 0) (ValueIdx.ix1 j)).toNat < 50000)

/-! ## The arrays, by name -/

/-- The array the rows are gathered from, and the norm column. -/
abbrev hbArr6 (c : Dev nD) : FVec Ideal S50000x512 .f32 := V c main_v34
abbrev nmArr6 (c : Dev nD) : FVec Ideal S50000x1 .f32 := V c main_v52
/-- The norm block at a point. -/
abbrev nmBlk6 (c : Dev nD) (t : Fin (cfg6 a).N) : FVec Ideal S16x1 .f32 := iblk6 V a c 0 t

/-- The gathered and scaled array: row e is the row of the source array named by the table's word e, times the norm
    column's entry e. -/
abbrev G6v (c : Dev nD) : (⟨S50000x512, .f32⟩ : BufTy).Contents (Elt Ideal) := fun i =>
  hbArr6 V c (ValueIdx.ix2 (n0 := 50000) (n1 := 512) ⟨((a.1 0) (ValueIdx.ix1 (n := 50000) (i 0))).toNat, hH (i 0)⟩ (i 1))
    * nmArr6 V c (ValueIdx.ix2 (n0 := 50000) (n1 := 1) (i 0) 0)

/-! ## The index maps at a point -/

theorem N6_eq : (cfg6 a).N = 3125 := N_6

/-- Row r of point t's block is a row of the array. -/
theorem idx_lt6 (t : Fin (cfg6 a).N) (r : Fin 16) : 16 * t.val + r.val < 50000 := by
  have ht : t.val < 3125 := (N6_eq a) ▸ t.isLt
  have := r.isLt; omega

/-- On the one-axis grid the point's coordinate is the point. -/
theorem coords6_val (t : Fin (cfg6 a).N) : (grid6.coords t 0).val = t.val := by
  have h : t.val < 3125 := (N6_eq a) ▸ t.isLt
  show t.val / grid6.stride 0 % 3125 = t.val
  rw [show grid6.stride 0 = 1 from by decide, Nat.div_one, Nat.mod_eq_of_lt h]

theorem idx6_0 (t : Fin (cfg6 a).N) : ((cfg6 a).win 0).index t = cc6_transform_1 (grid6.coords t) := rfl
theorem idx6_1 (t : Fin (cfg6 a).N) : ((cfg6 a).win 1).index t = cc6_transform_2 (grid6.coords t) := rfl

theorem tr6_1_0 (i : grid6.Coords) : cc6_transform_1 i (0 : Fin 2) = (i 0).val := by
  show (BitVec.ofNat 32 (i 0).val).toNat = _
  have h := (i 0).isLt
  have hb : grid6.bound 0 = 3125 := rfl
  rw [BitVec.toNat_ofNat]; exact Nat.mod_eq_of_lt (by omega)
theorem tr6_1_1 (i : grid6.Coords) : cc6_transform_1 i (1 : Fin 2) = 0 := rfl
theorem tr6_2_0 (i : grid6.Coords) : cc6_transform_2 i (0 : Fin 2) = (i 0).val := by
  show (BitVec.ofNat 32 (i 0).val).toNat = _
  have h := (i 0).isLt
  have hb : grid6.bound 0 = 3125 := rfl
  rw [BitVec.toNat_ofNat]; exact Nat.mod_eq_of_lt (by omega)
theorem tr6_2_1 (i : grid6.Coords) : cc6_transform_2 i (1 : Fin 2) = 0 := rfl

/-- Both windows' row-block index at point t is t; their column-block index is zero. -/
theorem index6_0_0 (t : Fin (cfg6 a).N) : ((cfg6 a).win 0).index t (0 : Fin 2) = t.val := by rw [idx6_0, tr6_1_0, coords6_val]
theorem index6_0_1 (t : Fin (cfg6 a).N) : ((cfg6 a).win 0).index t (1 : Fin 2) = 0 := by rw [idx6_0, tr6_1_1]
theorem index6_1_0 (t : Fin (cfg6 a).N) : ((cfg6 a).win 1).index t (0 : Fin 2) = t.val := by rw [idx6_1, tr6_2_0, coords6_val]
theorem index6_1_1 (t : Fin (cfg6 a).N) : ((cfg6 a).win 1).index t (1 : Fin 2) = 0 := by rw [idx6_1, tr6_2_1]

/-- The output window is written back at every point: its block index moves with the point. -/
theorem flush6_1 (t : Fin (cfg6 a).N) : ((cfg6 a).win 1).flush t = true := by
  rw [Window.flush_out _ rfl]
  by_cases h : t.val + 1 = grid6.N
  · exact Or.inl h
  · have hN : grid6.N = 3125 := N_6
    have ht : t.val < 3125 := (N6_eq a) ▸ t.isLt
    have h1 : t.val + 1 < grid6.N := by omega
    refine Or.inr ⟨h1, fun e => ?_⟩
    have e0 : ((cfg6 a).win 1).index ⟨t.val + 1, h1⟩ (0 : Fin 2) = ((cfg6 a).win 1).index t (0 : Fin 2) := congrFun e (0 : Fin 2)
    rw [index6_1_0, index6_1_0] at e0
    exact absurd e0 (by show t.val + 1 ≠ t.val; omega)

/-! ## The blocks at a point -/

/-- Entry (r, j) of point t's output block is entry (16 t + r, j) of the array. -/
theorem emb6_1 (t : Fin (cfg6 a).N) (r : Fin 16) (j : Fin 512) :
    (((cfg6 a).win 1).blk t).view.emb (ValueIdx.ix2 (n0 := 16) (n1 := 512) r j)
      = ValueIdx.ix2 (n0 := 50000) (n1 := 512) ⟨16 * t.val + r.val, idx_lt6 a t r⟩ j := by
  funext k; apply Fin.ext
  match k with
  | ⟨0, _⟩ => show ((cfg6 a).win 1).index t (0 : Fin 2) * 16 + 1 * r.val = 16 * t.val + r.val; rw [index6_1_0]; omega
  | ⟨1, _⟩ => show ((cfg6 a).win 1).index t (1 : Fin 2) * 512 + 1 * j.val = j.val; rw [index6_1_1]; omega

/-- The norm block at point t, row r, is the norm column's entry 16 t + r. -/
theorem nmBlk6_apply (c : Dev nD) (t : Fin (cfg6 a).N) (r : Fin 16) :
    nmBlk6 V a c t (ValueIdx.ix2 (n0 := 16) (n1 := 1) r 0)
      = nmArr6 V c (ValueIdx.ix2 (n0 := 50000) (n1 := 1) ⟨16 * t.val + r.val, idx_lt6 a t r⟩ 0) := by
  show V c main_v52 ((((cfg6 a).win 0).blk t).view.emb (ValueIdx.ix2 (n0 := 16) (n1 := 1) r 0)) = V c main_v52 (ValueIdx.ix2 (n0 := 50000) (n1 := 1) ⟨16 * t.val + r.val, idx_lt6 a t r⟩ 0)
  refine congrArg (V c main_v52) ?_
  funext k; apply Fin.ext
  match k with
  | ⟨0, _⟩ => show ((cfg6 a).win 0).index t (0 : Fin 2) * 16 + 1 * r.val = 16 * t.val + r.val; rw [index6_0_0]; omega
  | ⟨1, _⟩ => show ((cfg6 a).win 0).index t (1 : Fin 2) * 1 + 1 * 0 = 0; rw [index6_0_1]

/-- Entry (16 t + r, j) of the array is in point t's block. -/
theorem mem_blk6_1 (t : Fin (cfg6 a).N) (r : Fin 16) (j : Fin 512) :
    ValueIdx.ix2 (n0 := 50000) (n1 := 512) ⟨16 * t.val + r.val, idx_lt6 a t r⟩ j ∈ (((cfg6 a).win 1).blk t).view.set := by
  rw [← emb6_1]; exact View.emb_mem_set _ _

end Cert.KernelIdeal.Hand

end
-- ==== Proof.G6Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col6_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 6's one store at (r, j): the scratch entry (r, j) times the norm block's entry r. -/
theorem pay6_apply (v192 : Vec Ideal S16x1 .f32) (v194 : Vec Ideal S16x512 .f32) (r : Fin 16) (j : Fin 512) :
    k6_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k6_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col6_512 _ r j).trans (congrFun (shapeCast_self v192 shapeCasts_S16x1_S16x1) _))

end Cert.KernelIdeal.Hand

end
-- ==== Proof.G6Block.lean ====
/- Pipeline 6 at the ideal values: the block the body leaves at a point, entry by entry. -/
import proofs.«414392_j7919919694132_2_alg».proof.Proof.G6Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G6Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg6 (F := Ideal)).Adm) (hH : ∀ j : Fin 50000, ((a.1 0) (ValueIdx.ix1 j)).toNat < 50000)

/-! ## Indices of a one-row slice -/

/-- A one-row index has leading coordinate 0. -/
theorem row0_6 (x : S1x512.Idx) : (x 0).val = 0 := by
  have h := (x 0).isLt
  have e : S1x512.size 0 = 1 := by decide
  omega

/-- The gathered array, read as a matrix of ideal values. -/
abbrev asArr6 (c : Dev nD) (fh0 : HbBuf6 (F := Ideal) c hbM6) : FVec Ideal S50000x512 .f32 := fh0

/-- The table's word at offset `16 i + k`, as the body reads it. -/
theorem word6 (c : Dev nD) (i : grid6.Coords) (tb : HbBuf6 (F := Ideal) c tbM6) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM6.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma6_apply (c : Dev nD) (fh0 : HbBuf6 (F := Ideal) c hbM6) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM6.slice (Rect.unit (s := S50000x512) off S1x512.size inb) (fun _ => rfl)).view fh0) x
      = asArr6 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_6 x]; omega
  · show 0 + 1 * (x 1).val = (x 1).val
    omega

/-- The sixteen rows of the scratch, each the payload of its transfer. -/
def rows6 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows6 (p0 p1 p2 p3 p4 p5 p6 p7 p8 p9 p10 p11 p12 p13 p14 p15 : S1x512.Idx → Elt Ideal .f32) (y : S16x512.Idx) : ∃ pc ∈ rows6 p0 p1 p2 p3 p4 p5 p6 p7 p8 p9 p10 p11 p12 p13 p14 p15, y ∈ pc.1.set :=
  View.cover_of_tiledL (rows6 p0 p1 p2 p3 p4 p5 p6 p7 p8 p9 p10 p11 p12 p13 p14 p15) S1x512.size (by sl_kernel_rfl) y

/-- A point's coordinate is below the grid's 3125 points, so the sixteen table offsets of the point are inside the table. -/
theorem idxlt6 (i : grid6.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath6 (c : Dev nD) (i : grid6.Coords) (tb : HbBuf6 (F := Ideal) c tbM6) (fh0 : HbBuf6 (F := Ideal) c hbM6) (hT : ∀ x, (tb x).toNat < 50000) :
    S16x512.Idx → Elt Ideal .f32 :=
  fun y => asArr6 c fh0 (ValueIdx.ix2 (n0 := 50000) (n1 := 512) ⟨(tb (ValueIdx.ix1 (n := 50000) ⟨16 * (i 0).val + (y 0).val, idxlt6 i (y 0)⟩)).toNat, hT _⟩ (y 1))

/-- Row k's transfer delivers `gath6` at the row's indices. -/
theorem piece6 (c : Dev nD) (i : grid6.Coords) (tb : HbBuf6 (F := Ideal) c tbM6) (fh0 : HbBuf6 (F := Ideal) c hbM6) (hT : ∀ x, (tb x).toNat < 50000)
    (k : Fin 16) (w : BitVec 32) (hwd : w = tb (ValueIdx.ix1 (n := 50000) ⟨16 * (i 0).val + k.val, idxlt6 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM6.slice (Rect.unit (s := S50000x512) off S1x512.size inb) (fun _ => rfl)).view fh0) x
      = gath6 c i tb fh0 hT ((Rect.unit (s := S16x512) ![k.val, 0] S1x512.size inbk).emb x) := by
  subst hwd
  rw [dma6_apply c fh0 _ (hT _) off hoff inb x]
  unfold gath6
  show asArr6 c fh0 _ = asArr6 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_6 x]; omega
  · show (x 1).val = 0 + 1 * (x 1).val
    omega

/-- The scratch, read whole after the sixteen waits, is `gath6`. -/
theorem scratch6_apply (c : Dev nD) (i : grid6.Coords) (tb : HbBuf6 (F := Ideal) c tbM6) (fh0 : HbBuf6 (F := Ideal) c hbM6) (hT : ∀ x, (tb x).toNat < 50000)
    (y : S16x512.Idx) :
    scM6.view.readCov (rows6
        (kernelRun6.sl.dma1 c i tb fh0 (chk6_1_of_lt _ (hT _)))
        (kernelRun6.sl.dma2 c i tb fh0 (chk6_2_of_lt _ (hT _)))
        (kernelRun6.sl.dma3 c i tb fh0 (chk6_3_of_lt _ (hT _)))
        (kernelRun6.sl.dma4 c i tb fh0 (chk6_4_of_lt _ (hT _)))
        (kernelRun6.sl.dma5 c i tb fh0 (chk6_5_of_lt _ (hT _)))
        (kernelRun6.sl.dma6 c i tb fh0 (chk6_6_of_lt _ (hT _)))
        (kernelRun6.sl.dma7 c i tb fh0 (chk6_7_of_lt _ (hT _)))
        (kernelRun6.sl.dma8 c i tb fh0 (chk6_8_of_lt _ (hT _)))
        (kernelRun6.sl.dma9 c i tb fh0 (chk6_9_of_lt _ (hT _)))
        (kernelRun6.sl.dma10 c i tb fh0 (chk6_10_of_lt _ (hT _)))
        (kernelRun6.sl.dma11 c i tb fh0 (chk6_11_of_lt _ (hT _)))
        (kernelRun6.sl.dma12 c i tb fh0 (chk6_12_of_lt _ (hT _)))
        (kernelRun6.sl.dma13 c i tb fh0 (chk6_13_of_lt _ (hT _)))
        (kernelRun6.sl.dma14 c i tb fh0 (chk6_14_of_lt _ (hT _)))
        (kernelRun6.sl.dma15 c i tb fh0 (chk6_15_of_lt _ (hT _)))
        (kernelRun6.sl.dma16 c i tb fh0 (chk6_16_of_lt _ (hT _)))) (Rect.unit (s := S16x512) ![0, 0] S16x512.size inb_S16x512_S16x512_0_0).toLoadRect y
      = gath6 c i tb fh0 hT y := by
  rw [View.readCov_eq_canon_ld _ _ _ (cover_rows6 _ _ _ _ _ _ _ _ _ _ _ _ _ _ _ _), View.ld_unit_zero (by funext d; fin_cases d <;> rfl)]
  refine View.canon_apply_of_pieces (gath6 c i tb fh0 hT) (rows6 _ _ _ _ _ _ _ _ _ _ _ _ _ _ _ _) ?_ y (cover_rows6 _ _ _ _ _ _ _ _ _ _ _ _ _ _ _ _ y)
  intro p hp x
  unfold rows6 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun6.sl.dma16
    exact piece6 c i tb fh0 hT (15 : Fin 16) (kernelRun6.sl.r_15 c i tb)
      (by unfold kernelRun6.sl.r_15; exact word6 c i tb (15 : Fin 16) (idxlt6 i _) _ (by rw [k6_off31_eq]; rfl) _ _) (k6_off32 (kernelRun6.sl.r_15 c i tb)) rfl _ _ x
  · dsimp only
    unfold kernelRun6.sl.dma15
    exact piece6 c i tb fh0 hT (14 : Fin 16) (kernelRun6.sl.r_14 c i tb)
      (by unfold kernelRun6.sl.r_14; exact word6 c i tb (14 : Fin 16) (idxlt6 i _) _ (by rw [k6_off29_eq]; rfl) _ _) (k6_off30 (kernelRun6.sl.r_14 c i tb)) rfl _ _ x
  · dsimp only
    unfold kernelRun6.sl.dma14
    exact piece6 c i tb fh0 hT (13 : Fin 16) (kernelRun6.sl.r_13 c i tb)
      (by unfold kernelRun6.sl.r_13; exact word6 c i tb (13 : Fin 16) (idxlt6 i _) _ (by rw [k6_off27_eq]; rfl) _ _) (k6_off28 (kernelRun6.sl.r_13 c i tb)) rfl _ _ x
  · dsimp only
    unfold kernelRun6.sl.dma13
    exact piece6 c i tb fh0 hT (12 : Fin 16) (kernelRun6.sl.r_12 c i tb)
      (by unfold kernelRun6.sl.r_12; exact word6 c i tb (12 : Fin 16) (idxlt6 i _) _ (by rw [k6_off25_eq]; rfl) _ _) (k6_off26 (kernelRun6.sl.r_12 c i tb)) rfl _ _ x
  · dsimp only
    unfold kernelRun6.sl.dma12
    exact piece6 c i tb fh0 hT (11 : Fin 16) (kernelRun6.sl.r_11 c i tb)
      (by unfold kernelRun6.sl.r_11; exact word6 c i tb (11 : Fin 16) (idxlt6 i _) _ (by rw [k6_off23_eq]; rfl) _ _) (k6_off24 (kernelRun6.sl.r_11 c i tb)) rfl _ _ x
  · dsimp only
    unfold kernelRun6.sl.dma11
    exact piece6 c i tb fh0 hT (10 : Fin 16) (kernelRun6.sl.r_10 c i tb)
      (by unfold kernelRun6.sl.r_10; exact word6 c i tb (10 : Fin 16) (idxlt6 i _) _ (by rw [k6_off21_eq]; rfl) _ _) (k6_off22 (kernelRun6.sl.r_10 c i tb)) rfl _ _ x
  · dsimp only
    unfold kernelRun6.sl.dma10
    exact piece6 c i tb fh0 hT (9 : Fin 16) (kernelRun6.sl.r_9 c i tb)
      (by unfold kernelRun6.sl.r_9; exact word6 c i tb (9 : Fin 16) (idxlt6 i _) _ (by rw [k6_off19_eq]; rfl) _ _) (k6_off20 (kernelRun6.sl.r_9 c i tb)) rfl _ _ x
  · dsimp only
    unfold kernelRun6.sl.dma9
    exact piece6 c i tb fh0 hT (8 : Fin 16) (kernelRun6.sl.r_8 c i tb)
      (by unfold kernelRun6.sl.r_8; exact word6 c i tb (8 : Fin 16) (idxlt6 i _) _ (by rw [k6_off17_eq]; rfl) _ _) (k6_off18 (kernelRun6.sl.r_8 c i tb)) rfl _ _ x
  · dsimp only
    unfold kernelRun6.sl.dma8
    exact piece6 c i tb fh0 hT (7 : Fin 16) (kernelRun6.sl.r_7 c i tb)
      (by unfold kernelRun6.sl.r_7; exact word6 c i tb (7 : Fin 16) (idxlt6 i _) _ (by rw [k6_off15_eq]; rfl) _ _) (k6_off16 (kernelRun6.sl.r_7 c i tb)) rfl _ _ x
  · dsimp only
    unfold kernelRun6.sl.dma7
    exact piece6 c i tb fh0 hT (6 : Fin 16) (kernelRun6.sl.r_6 c i tb)
      (by unfold kernelRun6.sl.r_6; exact word6 c i tb (6 : Fin 16) (idxlt6 i _) _ (by rw [k6_off13_eq]; rfl) _ _) (k6_off14 (kernelRun6.sl.r_6 c i tb)) rfl _ _ x
  · dsimp only
    unfold kernelRun6.sl.dma6
    exact piece6 c i tb fh0 hT (5 : Fin 16) (kernelRun6.sl.r_5 c i tb)
      (by unfold kernelRun6.sl.r_5; exact word6 c i tb (5 : Fin 16) (idxlt6 i _) _ (by rw [k6_off11_eq]; rfl) _ _) (k6_off12 (kernelRun6.sl.r_5 c i tb)) rfl _ _ x
  · dsimp only
    unfold kernelRun6.sl.dma5
    exact piece6 c i tb fh0 hT (4 : Fin 16) (kernelRun6.sl.r_4 c i tb)
      (by unfold kernelRun6.sl.r_4; exact word6 c i tb (4 : Fin 16) (idxlt6 i _) _ (by rw [k6_off9_eq]; rfl) _ _) (k6_off10 (kernelRun6.sl.r_4 c i tb)) rfl _ _ x
  · dsimp only
    unfold kernelRun6.sl.dma4
    exact piece6 c i tb fh0 hT (3 : Fin 16) (kernelRun6.sl.r_3 c i tb)
      (by unfold kernelRun6.sl.r_3; exact word6 c i tb (3 : Fin 16) (idxlt6 i _) _ (by rw [k6_off7_eq]; rfl) _ _) (k6_off8 (kernelRun6.sl.r_3 c i tb)) rfl _ _ x
  · dsimp only
    unfold kernelRun6.sl.dma3
    exact piece6 c i tb fh0 hT (2 : Fin 16) (kernelRun6.sl.r_2 c i tb)
      (by unfold kernelRun6.sl.r_2; exact word6 c i tb (2 : Fin 16) (idxlt6 i _) _ (by rw [k6_off5_eq]; rfl) _ _) (k6_off6 (kernelRun6.sl.r_2 c i tb)) rfl _ _ x
  · dsimp only
    unfold kernelRun6.sl.dma2
    exact piece6 c i tb fh0 hT (1 : Fin 16) (kernelRun6.sl.r_1 c i tb)
      (by unfold kernelRun6.sl.r_1; exact word6 c i tb (1 : Fin 16) (idxlt6 i _) _ (by rw [k6_off3_eq]; rfl) _ _) (k6_off4 (kernelRun6.sl.r_1 c i tb)) rfl _ _ x
  · dsimp only
    unfold kernelRun6.sl.dma1
    exact piece6 c i tb fh0 hT (0 : Fin 16) (kernelRun6.sl.r c i tb)
      (by unfold kernelRun6.sl.r; exact word6 c i tb (0 : Fin 16) (idxlt6 i _) _ (by rw [k6_off1_eq]; rfl) _ _) (k6_off2 (kernelRun6.sl.r c i tb)) rfl _ _ x

/-- THE BLOCK the body leaves, over any staging memrefs and contents: row r is the row of the gathered array the table's
    word `16 i + r` names, times the norm block's entry r. -/
theorem out6_1_apply (c : Dev nD) (i : grid6.Coords) (arg3 : Memref sig .tc .vmem S16x1 .f32) (harg3 : arg3.IsWhole) (arg4 : Memref sig .tc .vmem S16x512 .f32) (harg4 : arg4.IsWhole)
    (x0 : Vec Ideal S16x1 .f32) (tb : HbBuf6 (F := Ideal) c tbM6) (fh0 : HbBuf6 (F := Ideal) c hbM6) (hT : ∀ x, (tb x).toNat < 50000) (r : Fin 16) (j : Fin 512) :
    out6_1 c i arg3 harg3 arg4 harg4 x0 tb fh0 hT (ValueIdx.ix2 (n0 := 16) (n1 := 512) r j)
      = gath6 c i tb fh0 hT (ValueIdx.ix2 (n0 := 16) (n1 := 512) r j) * x0 (ValueIdx.ix2 (n0 := 16) (n1 := 1) r 0) := by
  unfold out6_1
  rw [View.read_writes_eq_canon _ _ _ (cover6_1 c i arg3 harg3 arg4 harg4 x0 tb fh0 hT)]
  unfold kernelRun6
  dsimp only
  rw [View.canon_unit_zero (by funext d; fin_cases d <;> rfl)]
  rw [pay6_apply]
  congr 1
  · unfold kernelRun6.sl.v194
    exact scratch6_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt6_apply (c : Dev nD) (t : Fin (cfg6 a).N) (r : Fin 16) (j : Fin 512) :
    outsAt6 V a hH c t (ValueIdx.ix2 (n0 := 16) (n1 := 512) r j)
      = hbArr6 V c (ValueIdx.ix2 (n0 := 50000) (n1 := 512) ⟨((a.1 0) (ValueIdx.ix1 (n := 50000) ⟨16 * t.val + r.val, idx_lt6 a t r⟩)).toNat, hH _⟩ j)
          * nmBlk6 V a c t (ValueIdx.ix2 (n0 := 16) (n1 := 1) r 0) := by
  unfold outsAt6
  refine (out6_1_apply c (grid6.coords t) _ _ _ _ (nmBlk6 V a c t) (a.1 0) (hbArr6 V c) (tbl_lt6 a hH c) r j).trans ?_
  congr 1
  unfold gath6
  show hbArr6 V c _ = hbArr6 V c _
  congr 1
  funext d
  apply Fin.ext
  fin_cases d
  · exact congrArg (fun n : Fin 50000 => ((a.1 0) (ValueIdx.ix1 (n := 50000) n)).toNat)
      (Fin.ext (by show 16 * (grid6.coords t 0).val + r.val = 16 * t.val + r.val; rw [coords6_val a t]))
  · rfl

end Cert.KernelIdeal.Hand

end
-- ==== Proof.G6Value.lean ====
/- Pipeline 6 at the ideal values: the output array after the region is the gathered and scaled array (row e: the row of
   the source array named by the table's word e, times the norm column's entry e). -/
import proofs.«414392_j7919919694132_2_alg».proof.Proof.G6Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg6 (F := Ideal)).Adm) (hH : ∀ j : Fin 50000, ((a.1 0) (ValueIdx.ix1 j)).toNat < 50000)

/-! ## From blocks to the array -/

/-- What point t writes back is block t of the gathered and scaled array. -/
theorem flushed6_1_eq (c : Dev nD) (t : Fin (cfg6 a).N) :
    (dat6 (F := Ideal) V a hH c).flushed 1 t = (((cfg6 a).win 1).blk t).view.read (Elt Ideal) (G6v V a hH c) := by
  show ((cfg6 a).win 1).cut (grid6.coords t) ((dat6 V a hH c).after 1 t) = _
  rw [after6_1]
  refine funext fun (y : S16x512.Idx) => ?_
  obtain ⟨r, j, rfl⟩ : ∃ (r : Fin 16) (j : Fin 512), y = ValueIdx.ix2 r j := ⟨y 0, y 1, ValueIdx.eq_ix2 y⟩
  show outsAt6 V a hH c t (ValueIdx.ix2 (n0 := 16) (n1 := 512) r j) = G6v V a hH c ((((cfg6 a).win 1).blk t).view.emb (ValueIdx.ix2 (n0 := 16) (n1 := 512) r j))
  rw [emb6_1, outsAt6_apply V a hH c t r j, nmBlk6_apply V a c t r]

/-- Every index of the array is in some point's block: row e is in block e / 16. -/
theorem cover6_blk (i : S50000x512.Idx) :
    ∃ t : Fin (cfg6 a).N, ((cfg6 a).win 1).flush t = true ∧ i ∈ (((cfg6 a).win 1).blk t).view.set := by
  have hi0 : (i 0).val < 50000 := (i 0).isLt
  have hi1 : (i 1).val < 512 := (i 1).isLt
  have hq : (i 0).val / 16 < (cfg6 a).N := by rw [N6_eq a]; omega
  have hr : (i 0).val % 16 < 16 := Nat.mod_lt _ (by omega)
  obtain ⟨t, ht⟩ : ∃ t : Fin (cfg6 a).N, t.val = (i 0).val / 16 := ⟨⟨(i 0).val / 16, hq⟩, rfl⟩
  refine ⟨t, flush6_1 a t, ?_⟩
  have e : i = ValueIdx.ix2 (n0 := 50000) (n1 := 512) ⟨16 * t.val + (i 0).val % 16, idx_lt6 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk6_1 a t ⟨(i 0).val % 16, hr⟩ ⟨(i 1).val, hi1⟩

/-- The output array after the region is the gathered and scaled array, -/
theorem arrAt6_1_eq (c : Dev nD) : (dat6 (F := Ideal) V a hH c).arrAt 1 (cfg6 a).N = G6v V a hH c :=
  (dat6 (F := Ideal) V a hH c).arrAt_eq_of_cover 1 (G6v V a hH c) (fun t _ => flushed6_1_eq V a hH c t) (cover6_blk a)

/-- index by index: entry (e, j) is the source array's entry (the table's word e, j) times the norm column's entry e. -/
theorem arrAt6_1 (c : Dev nD) (e : Fin 50000) (j : Fin 512) :
    (dat6 (F := Ideal) V a hH c).arrAt 1 (cfg6 a).N (ValueIdx.ix2 (n0 := 50000) (n1 := 512) e j)
      = hbArr6 V c (ValueIdx.ix2 (n0 := 50000) (n1 := 512) ⟨((a.1 0) (ValueIdx.ix1 (n := 50000) e)).toNat, hH e⟩ j)
          * nmArr6 V c (ValueIdx.ix2 (n0 := 50000) (n1 := 1) e 0) :=
  (congrFun (arrAt6_1_eq V a hH c) (ValueIdx.ix2 (n0 := 50000) (n1 := 512) e j)).trans rfl

end Cert.KernelIdeal.Hand

end
-- ==== Proof.G7Idx.lean ====
/- Pipeline 7 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G7
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg7 (F := Ideal)).Adm) (hH : ∀ j : Fin 50000, ((a.1 0) (ValueIdx.ix1 j)).toNat < 50000)

/-! ## The arrays, by name -/

/-- The array the rows are gathered from, and the norm column. -/
abbrev hbArr7 (c : Dev nD) : FVec Ideal S50000x512 .f32 := V c main_v34
abbrev nmArr7 (c : Dev nD) : FVec Ideal S50000x1 .f32 := V c main_v55
/-- The norm block at a point. -/
abbrev nmBlk7 (c : Dev nD) (t : Fin (cfg7 a).N) : FVec Ideal S16x1 .f32 := iblk7 V a c 0 t

/-- The gathered and scaled array: row e is the row of the source array named by the table's word e, times the norm
    column's entry e. -/
abbrev G7v (c : Dev nD) : (⟨S50000x512, .f32⟩ : BufTy).Contents (Elt Ideal) := fun i =>
  hbArr7 V c (ValueIdx.ix2 (n0 := 50000) (n1 := 512) ⟨((a.1 0) (ValueIdx.ix1 (n := 50000) (i 0))).toNat, hH (i 0)⟩ (i 1))
    * nmArr7 V c (ValueIdx.ix2 (n0 := 50000) (n1 := 1) (i 0) 0)

/-! ## The index maps at a point -/

theorem N7_eq : (cfg7 a).N = 3125 := N_7

/-- Row r of point t's block is a row of the array. -/
theorem idx_lt7 (t : Fin (cfg7 a).N) (r : Fin 16) : 16 * t.val + r.val < 50000 := by
  have ht : t.val < 3125 := (N7_eq a) ▸ t.isLt
  have := r.isLt; omega

/-- On the one-axis grid the point's coordinate is the point. -/
theorem coords7_val (t : Fin (cfg7 a).N) : (grid7.coords t 0).val = t.val := by
  have h : t.val < 3125 := (N7_eq a) ▸ t.isLt
  show t.val / grid7.stride 0 % 3125 = t.val
  rw [show grid7.stride 0 = 1 from by decide, Nat.div_one, Nat.mod_eq_of_lt h]

theorem idx7_0 (t : Fin (cfg7 a).N) : ((cfg7 a).win 0).index t = cc7_transform_1 (grid7.coords t) := rfl
theorem idx7_1 (t : Fin (cfg7 a).N) : ((cfg7 a).win 1).index t = cc7_transform_2 (grid7.coords t) := rfl

theorem tr7_1_0 (i : grid7.Coords) : cc7_transform_1 i (0 : Fin 2) = (i 0).val := by
  show (BitVec.ofNat 32 (i 0).val).toNat = _
  have h := (i 0).isLt
  have hb : grid7.bound 0 = 3125 := rfl
  rw [BitVec.toNat_ofNat]; exact Nat.mod_eq_of_lt (by omega)
theorem tr7_1_1 (i : grid7.Coords) : cc7_transform_1 i (1 : Fin 2) = 0 := rfl
theorem tr7_2_0 (i : grid7.Coords) : cc7_transform_2 i (0 : Fin 2) = (i 0).val := by
  show (BitVec.ofNat 32 (i 0).val).toNat = _
  have h := (i 0).isLt
  have hb : grid7.bound 0 = 3125 := rfl
  rw [BitVec.toNat_ofNat]; exact Nat.mod_eq_of_lt (by omega)
theorem tr7_2_1 (i : grid7.Coords) : cc7_transform_2 i (1 : Fin 2) = 0 := rfl

/-- Both windows' row-block index at point t is t; their column-block index is zero. -/
theorem index7_0_0 (t : Fin (cfg7 a).N) : ((cfg7 a).win 0).index t (0 : Fin 2) = t.val := by rw [idx7_0, tr7_1_0, coords7_val]
theorem index7_0_1 (t : Fin (cfg7 a).N) : ((cfg7 a).win 0).index t (1 : Fin 2) = 0 := by rw [idx7_0, tr7_1_1]
theorem index7_1_0 (t : Fin (cfg7 a).N) : ((cfg7 a).win 1).index t (0 : Fin 2) = t.val := by rw [idx7_1, tr7_2_0, coords7_val]
theorem index7_1_1 (t : Fin (cfg7 a).N) : ((cfg7 a).win 1).index t (1 : Fin 2) = 0 := by rw [idx7_1, tr7_2_1]

/-- The output window is written back at every point: its block index moves with the point. -/
theorem flush7_1 (t : Fin (cfg7 a).N) : ((cfg7 a).win 1).flush t = true := by
  rw [Window.flush_out _ rfl]
  by_cases h : t.val + 1 = grid7.N
  · exact Or.inl h
  · have hN : grid7.N = 3125 := N_7
    have ht : t.val < 3125 := (N7_eq a) ▸ t.isLt
    have h1 : t.val + 1 < grid7.N := by omega
    refine Or.inr ⟨h1, fun e => ?_⟩
    have e0 : ((cfg7 a).win 1).index ⟨t.val + 1, h1⟩ (0 : Fin 2) = ((cfg7 a).win 1).index t (0 : Fin 2) := congrFun e (0 : Fin 2)
    rw [index7_1_0, index7_1_0] at e0
    exact absurd e0 (by show t.val + 1 ≠ t.val; omega)

/-! ## The blocks at a point -/

/-- Entry (r, j) of point t's output block is entry (16 t + r, j) of the array. -/
theorem emb7_1 (t : Fin (cfg7 a).N) (r : Fin 16) (j : Fin 512) :
    (((cfg7 a).win 1).blk t).view.emb (ValueIdx.ix2 (n0 := 16) (n1 := 512) r j)
      = ValueIdx.ix2 (n0 := 50000) (n1 := 512) ⟨16 * t.val + r.val, idx_lt7 a t r⟩ j := by
  funext k; apply Fin.ext
  match k with
  | ⟨0, _⟩ => show ((cfg7 a).win 1).index t (0 : Fin 2) * 16 + 1 * r.val = 16 * t.val + r.val; rw [index7_1_0]; omega
  | ⟨1, _⟩ => show ((cfg7 a).win 1).index t (1 : Fin 2) * 512 + 1 * j.val = j.val; rw [index7_1_1]; omega

/-- The norm block at point t, row r, is the norm column's entry 16 t + r. -/
theorem nmBlk7_apply (c : Dev nD) (t : Fin (cfg7 a).N) (r : Fin 16) :
    nmBlk7 V a c t (ValueIdx.ix2 (n0 := 16) (n1 := 1) r 0)
      = nmArr7 V c (ValueIdx.ix2 (n0 := 50000) (n1 := 1) ⟨16 * t.val + r.val, idx_lt7 a t r⟩ 0) := by
  show V c main_v55 ((((cfg7 a).win 0).blk t).view.emb (ValueIdx.ix2 (n0 := 16) (n1 := 1) r 0)) = V c main_v55 (ValueIdx.ix2 (n0 := 50000) (n1 := 1) ⟨16 * t.val + r.val, idx_lt7 a t r⟩ 0)
  refine congrArg (V c main_v55) ?_
  funext k; apply Fin.ext
  match k with
  | ⟨0, _⟩ => show ((cfg7 a).win 0).index t (0 : Fin 2) * 16 + 1 * r.val = 16 * t.val + r.val; rw [index7_0_0]; omega
  | ⟨1, _⟩ => show ((cfg7 a).win 0).index t (1 : Fin 2) * 1 + 1 * 0 = 0; rw [index7_0_1]

/-- Entry (16 t + r, j) of the array is in point t's block. -/
theorem mem_blk7_1 (t : Fin (cfg7 a).N) (r : Fin 16) (j : Fin 512) :
    ValueIdx.ix2 (n0 := 50000) (n1 := 512) ⟨16 * t.val + r.val, idx_lt7 a t r⟩ j ∈ (((cfg7 a).win 1).blk t).view.set := by
  rw [← emb7_1]; exact View.emb_mem_set _ _

end Cert.KernelIdeal.Hand

end
-- ==== Proof.G7Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col7_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 7's one store at (r, j): the scratch entry (r, j) times the norm block's entry r. -/
theorem pay7_apply (v192 : Vec Ideal S16x1 .f32) (v194 : Vec Ideal S16x512 .f32) (r : Fin 16) (j : Fin 512) :
    k7_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k7_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col7_512 _ r j).trans (congrFun (shapeCast_self v192 shapeCasts_S16x1_S16x1) _))

end Cert.KernelIdeal.Hand

end
-- ==== Proof.G7Block.lean ====
/- Pipeline 7 at the ideal values: the block the body leaves at a point, entry by entry. -/
import proofs.«414392_j7919919694132_2_alg».proof.Proof.G7Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G7Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg7 (F := Ideal)).Adm) (hH : ∀ j : Fin 50000, ((a.1 0) (ValueIdx.ix1 j)).toNat < 50000)

/-! ## Indices of a one-row slice -/

/-- A one-row index has leading coordinate 0. -/
theorem row0_7 (x : S1x512.Idx) : (x 0).val = 0 := by
  have h := (x 0).isLt
  have e : S1x512.size 0 = 1 := by decide
  omega

/-- The gathered array, read as a matrix of ideal values. -/
abbrev asArr7 (c : Dev nD) (fh0 : HbBuf7 (F := Ideal) c hbM7) : FVec Ideal S50000x512 .f32 := fh0

/-- The table's word at offset `16 i + k`, as the body reads it. -/
theorem word7 (c : Dev nD) (i : grid7.Coords) (tb : HbBuf7 (F := Ideal) c tbM7) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM7.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma7_apply (c : Dev nD) (fh0 : HbBuf7 (F := Ideal) c hbM7) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM7.slice (Rect.unit (s := S50000x512) off S1x512.size inb) (fun _ => rfl)).view fh0) x
      = asArr7 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_7 x]; omega
  · show 0 + 1 * (x 1).val = (x 1).val
    omega

/-- The sixteen rows of the scratch, each the payload of its transfer. -/
def rows7 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows7 (p0 p1 p2 p3 p4 p5 p6 p7 p8 p9 p10 p11 p12 p13 p14 p15 : S1x512.Idx → Elt Ideal .f32) (y : S16x512.Idx) : ∃ pc ∈ rows7 p0 p1 p2 p3 p4 p5 p6 p7 p8 p9 p10 p11 p12 p13 p14 p15, y ∈ pc.1.set :=
  View.cover_of_tiledL (rows7 p0 p1 p2 p3 p4 p5 p6 p7 p8 p9 p10 p11 p12 p13 p14 p15) S1x512.size (by sl_kernel_rfl) y

/-- A point's coordinate is below the grid's 3125 points, so the sixteen table offsets of the point are inside the table. -/
theorem idxlt7 (i : grid7.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath7 (c : Dev nD) (i : grid7.Coords) (tb : HbBuf7 (F := Ideal) c tbM7) (fh0 : HbBuf7 (F := Ideal) c hbM7) (hT : ∀ x, (tb x).toNat < 50000) :
    S16x512.Idx → Elt Ideal .f32 :=
  fun y => asArr7 c fh0 (ValueIdx.ix2 (n0 := 50000) (n1 := 512) ⟨(tb (ValueIdx.ix1 (n := 50000) ⟨16 * (i 0).val + (y 0).val, idxlt7 i (y 0)⟩)).toNat, hT _⟩ (y 1))

/-- Row k's transfer delivers `gath7` at the row's indices. -/
theorem piece7 (c : Dev nD) (i : grid7.Coords) (tb : HbBuf7 (F := Ideal) c tbM7) (fh0 : HbBuf7 (F := Ideal) c hbM7) (hT : ∀ x, (tb x).toNat < 50000)
    (k : Fin 16) (w : BitVec 32) (hwd : w = tb (ValueIdx.ix1 (n := 50000) ⟨16 * (i 0).val + k.val, idxlt7 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM7.slice (Rect.unit (s := S50000x512) off S1x512.size inb) (fun _ => rfl)).view fh0) x
      = gath7 c i tb fh0 hT ((Rect.unit (s := S16x512) ![k.val, 0] S1x512.size inbk).emb x) := by
  subst hwd
  rw [dma7_apply c fh0 _ (hT _) off hoff inb x]
  unfold gath7
  show asArr7 c fh0 _ = asArr7 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_7 x]; omega
  · show (x 1).val = 0 + 1 * (x 1).val
    omega

/-- The scratch, read whole after the sixteen waits, is `gath7`. -/
theorem scratch7_apply (c : Dev nD) (i : grid7.Coords) (tb : HbBuf7 (F := Ideal) c tbM7) (fh0 : HbBuf7 (F := Ideal) c hbM7) (hT : ∀ x, (tb x).toNat < 50000)
    (y : S16x512.Idx) :
    scM7.view.readCov (rows7
        (kernelRun7.sl.dma1 c i tb fh0 (chk7_1_of_lt _ (hT _)))
        (kernelRun7.sl.dma2 c i tb fh0 (chk7_2_of_lt _ (hT _)))
        (kernelRun7.sl.dma3 c i tb fh0 (chk7_3_of_lt _ (hT _)))
        (kernelRun7.sl.dma4 c i tb fh0 (chk7_4_of_lt _ (hT _)))
        (kernelRun7.sl.dma5 c i tb fh0 (chk7_5_of_lt _ (hT _)))
        (kernelRun7.sl.dma6 c i tb fh0 (chk7_6_of_lt _ (hT _)))
        (kernelRun7.sl.dma7 c i tb fh0 (chk7_7_of_lt _ (hT _)))
        (kernelRun7.sl.dma8 c i tb fh0 (chk7_8_of_lt _ (hT _)))
        (kernelRun7.sl.dma9 c i tb fh0 (chk7_9_of_lt _ (hT _)))
        (kernelRun7.sl.dma10 c i tb fh0 (chk7_10_of_lt _ (hT _)))
        (kernelRun7.sl.dma11 c i tb fh0 (chk7_11_of_lt _ (hT _)))
        (kernelRun7.sl.dma12 c i tb fh0 (chk7_12_of_lt _ (hT _)))
        (kernelRun7.sl.dma13 c i tb fh0 (chk7_13_of_lt _ (hT _)))
        (kernelRun7.sl.dma14 c i tb fh0 (chk7_14_of_lt _ (hT _)))
        (kernelRun7.sl.dma15 c i tb fh0 (chk7_15_of_lt _ (hT _)))
        (kernelRun7.sl.dma16 c i tb fh0 (chk7_16_of_lt _ (hT _)))) (Rect.unit (s := S16x512) ![0, 0] S16x512.size inb_S16x512_S16x512_0_0).toLoadRect y
      = gath7 c i tb fh0 hT y := by
  rw [View.readCov_eq_canon_ld _ _ _ (cover_rows7 _ _ _ _ _ _ _ _ _ _ _ _ _ _ _ _), View.ld_unit_zero (by funext d; fin_cases d <;> rfl)]
  refine View.canon_apply_of_pieces (gath7 c i tb fh0 hT) (rows7 _ _ _ _ _ _ _ _ _ _ _ _ _ _ _ _) ?_ y (cover_rows7 _ _ _ _ _ _ _ _ _ _ _ _ _ _ _ _ y)
  intro p hp x
  unfold rows7 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun7.sl.dma16
    exact piece7 c i tb fh0 hT (15 : Fin 16) (kernelRun7.sl.r_15 c i tb)
      (by unfold kernelRun7.sl.r_15; exact word7 c i tb (15 : Fin 16) (idxlt7 i _) _ (by rw [k7_off31_eq]; rfl) _ _) (k7_off32 (kernelRun7.sl.r_15 c i tb)) rfl _ _ x
  · dsimp only
    unfold kernelRun7.sl.dma15
    exact piece7 c i tb fh0 hT (14 : Fin 16) (kernelRun7.sl.r_14 c i tb)
      (by unfold kernelRun7.sl.r_14; exact word7 c i tb (14 : Fin 16) (idxlt7 i _) _ (by rw [k7_off29_eq]; rfl) _ _) (k7_off30 (kernelRun7.sl.r_14 c i tb)) rfl _ _ x
  · dsimp only
    unfold kernelRun7.sl.dma14
    exact piece7 c i tb fh0 hT (13 : Fin 16) (kernelRun7.sl.r_13 c i tb)
      (by unfold kernelRun7.sl.r_13; exact word7 c i tb (13 : Fin 16) (idxlt7 i _) _ (by rw [k7_off27_eq]; rfl) _ _) (k7_off28 (kernelRun7.sl.r_13 c i tb)) rfl _ _ x
  · dsimp only
    unfold kernelRun7.sl.dma13
    exact piece7 c i tb fh0 hT (12 : Fin 16) (kernelRun7.sl.r_12 c i tb)
      (by unfold kernelRun7.sl.r_12; exact word7 c i tb (12 : Fin 16) (idxlt7 i _) _ (by rw [k7_off25_eq]; rfl) _ _) (k7_off26 (kernelRun7.sl.r_12 c i tb)) rfl _ _ x
  · dsimp only
    unfold kernelRun7.sl.dma12
    exact piece7 c i tb fh0 hT (11 : Fin 16) (kernelRun7.sl.r_11 c i tb)
      (by unfold kernelRun7.sl.r_11; exact word7 c i tb (11 : Fin 16) (idxlt7 i _) _ (by rw [k7_off23_eq]; rfl) _ _) (k7_off24 (kernelRun7.sl.r_11 c i tb)) rfl _ _ x
  · dsimp only
    unfold kernelRun7.sl.dma11
    exact piece7 c i tb fh0 hT (10 : Fin 16) (kernelRun7.sl.r_10 c i tb)
      (by unfold kernelRun7.sl.r_10; exact word7 c i tb (10 : Fin 16) (idxlt7 i _) _ (by rw [k7_off21_eq]; rfl) _ _) (k7_off22 (kernelRun7.sl.r_10 c i tb)) rfl _ _ x
  · dsimp only
    unfold kernelRun7.sl.dma10
    exact piece7 c i tb fh0 hT (9 : Fin 16) (kernelRun7.sl.r_9 c i tb)
      (by unfold kernelRun7.sl.r_9; exact word7 c i tb (9 : Fin 16) (idxlt7 i _) _ (by rw [k7_off19_eq]; rfl) _ _) (k7_off20 (kernelRun7.sl.r_9 c i tb)) rfl _ _ x
  · dsimp only
    unfold kernelRun7.sl.dma9
    exact piece7 c i tb fh0 hT (8 : Fin 16) (kernelRun7.sl.r_8 c i tb)
      (by unfold kernelRun7.sl.r_8; exact word7 c i tb (8 : Fin 16) (idxlt7 i _) _ (by rw [k7_off17_eq]; rfl) _ _) (k7_off18 (kernelRun7.sl.r_8 c i tb)) rfl _ _ x
  · dsimp only
    unfold kernelRun7.sl.dma8
    exact piece7 c i tb fh0 hT (7 : Fin 16) (kernelRun7.sl.r_7 c i tb)
      (by unfold kernelRun7.sl.r_7; exact word7 c i tb (7 : Fin 16) (idxlt7 i _) _ (by rw [k7_off15_eq]; rfl) _ _) (k7_off16 (kernelRun7.sl.r_7 c i tb)) rfl _ _ x
  · dsimp only
    unfold kernelRun7.sl.dma7
    exact piece7 c i tb fh0 hT (6 : Fin 16) (kernelRun7.sl.r_6 c i tb)
      (by unfold kernelRun7.sl.r_6; exact word7 c i tb (6 : Fin 16) (idxlt7 i _) _ (by rw [k7_off13_eq]; rfl) _ _) (k7_off14 (kernelRun7.sl.r_6 c i tb)) rfl _ _ x
  · dsimp only
    unfold kernelRun7.sl.dma6
    exact piece7 c i tb fh0 hT (5 : Fin 16) (kernelRun7.sl.r_5 c i tb)
      (by unfold kernelRun7.sl.r_5; exact word7 c i tb (5 : Fin 16) (idxlt7 i _) _ (by rw [k7_off11_eq]; rfl) _ _) (k7_off12 (kernelRun7.sl.r_5 c i tb)) rfl _ _ x
  · dsimp only
    unfold kernelRun7.sl.dma5
    exact piece7 c i tb fh0 hT (4 : Fin 16) (kernelRun7.sl.r_4 c i tb)
      (by unfold kernelRun7.sl.r_4; exact word7 c i tb (4 : Fin 16) (idxlt7 i _) _ (by rw [k7_off9_eq]; rfl) _ _) (k7_off10 (kernelRun7.sl.r_4 c i tb)) rfl _ _ x
  · dsimp only
    unfold kernelRun7.sl.dma4
    exact piece7 c i tb fh0 hT (3 : Fin 16) (kernelRun7.sl.r_3 c i tb)
      (by unfold kernelRun7.sl.r_3; exact word7 c i tb (3 : Fin 16) (idxlt7 i _) _ (by rw [k7_off7_eq]; rfl) _ _) (k7_off8 (kernelRun7.sl.r_3 c i tb)) rfl _ _ x
  · dsimp only
    unfold kernelRun7.sl.dma3
    exact piece7 c i tb fh0 hT (2 : Fin 16) (kernelRun7.sl.r_2 c i tb)
      (by unfold kernelRun7.sl.r_2; exact word7 c i tb (2 : Fin 16) (idxlt7 i _) _ (by rw [k7_off5_eq]; rfl) _ _) (k7_off6 (kernelRun7.sl.r_2 c i tb)) rfl _ _ x
  · dsimp only
    unfold kernelRun7.sl.dma2
    exact piece7 c i tb fh0 hT (1 : Fin 16) (kernelRun7.sl.r_1 c i tb)
      (by unfold kernelRun7.sl.r_1; exact word7 c i tb (1 : Fin 16) (idxlt7 i _) _ (by rw [k7_off3_eq]; rfl) _ _) (k7_off4 (kernelRun7.sl.r_1 c i tb)) rfl _ _ x
  · dsimp only
    unfold kernelRun7.sl.dma1
    exact piece7 c i tb fh0 hT (0 : Fin 16) (kernelRun7.sl.r c i tb)
      (by unfold kernelRun7.sl.r; exact word7 c i tb (0 : Fin 16) (idxlt7 i _) _ (by rw [k7_off1_eq]; rfl) _ _) (k7_off2 (kernelRun7.sl.r c i tb)) rfl _ _ x

/-- THE BLOCK the body leaves, over any staging memrefs and contents: row r is the row of the gathered array the table's
    word `16 i + r` names, times the norm block's entry r. -/
theorem out7_1_apply (c : Dev nD) (i : grid7.Coords) (arg3 : Memref sig .tc .vmem S16x1 .f32) (harg3 : arg3.IsWhole) (arg4 : Memref sig .tc .vmem S16x512 .f32) (harg4 : arg4.IsWhole)
    (x0 : Vec Ideal S16x1 .f32) (tb : HbBuf7 (F := Ideal) c tbM7) (fh0 : HbBuf7 (F := Ideal) c hbM7) (hT : ∀ x, (tb x).toNat < 50000) (r : Fin 16) (j : Fin 512) :
    out7_1 c i arg3 harg3 arg4 harg4 x0 tb fh0 hT (ValueIdx.ix2 (n0 := 16) (n1 := 512) r j)
      = gath7 c i tb fh0 hT (ValueIdx.ix2 (n0 := 16) (n1 := 512) r j) * x0 (ValueIdx.ix2 (n0 := 16) (n1 := 1) r 0) := by
  unfold out7_1
  rw [View.read_writes_eq_canon _ _ _ (cover7_1 c i arg3 harg3 arg4 harg4 x0 tb fh0 hT)]
  unfold kernelRun7
  dsimp only
  rw [View.canon_unit_zero (by funext d; fin_cases d <;> rfl)]
  rw [pay7_apply]
  congr 1
  · unfold kernelRun7.sl.v194
    exact scratch7_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt7_apply (c : Dev nD) (t : Fin (cfg7 a).N) (r : Fin 16) (j : Fin 512) :
    outsAt7 V a hH c t (ValueIdx.ix2 (n0 := 16) (n1 := 512) r j)
      = hbArr7 V c (ValueIdx.ix2 (n0 := 50000) (n1 := 512) ⟨((a.1 0) (ValueIdx.ix1 (n := 50000) ⟨16 * t.val + r.val, idx_lt7 a t r⟩)).toNat, hH _⟩ j)
          * nmBlk7 V a c t (ValueIdx.ix2 (n0 := 16) (n1 := 1) r 0) := by
  unfold outsAt7
  refine (out7_1_apply c (grid7.coords t) _ _ _ _ (nmBlk7 V a c t) (a.1 0) (hbArr7 V c) (tbl_lt7 a hH c) r j).trans ?_
  congr 1
  unfold gath7
  show hbArr7 V c _ = hbArr7 V c _
  congr 1
  funext d
  apply Fin.ext
  fin_cases d
  · exact congrArg (fun n : Fin 50000 => ((a.1 0) (ValueIdx.ix1 (n := 50000) n)).toNat)
      (Fin.ext (by show 16 * (grid7.coords t 0).val + r.val = 16 * t.val + r.val; rw [coords7_val a t]))
  · rfl

end Cert.KernelIdeal.Hand

end
-- ==== Proof.G7Value.lean ====
/- Pipeline 7 at the ideal values: the output array after the region is the gathered and scaled array (row e: the row of
   the source array named by the table's word e, times the norm column's entry e). -/
import proofs.«414392_j7919919694132_2_alg».proof.Proof.G7Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg7 (F := Ideal)).Adm) (hH : ∀ j : Fin 50000, ((a.1 0) (ValueIdx.ix1 j)).toNat < 50000)

/-! ## From blocks to the array -/

/-- What point t writes back is block t of the gathered and scaled array. -/
theorem flushed7_1_eq (c : Dev nD) (t : Fin (cfg7 a).N) :
    (dat7 (F := Ideal) V a hH c).flushed 1 t = (((cfg7 a).win 1).blk t).view.read (Elt Ideal) (G7v V a hH c) := by
  show ((cfg7 a).win 1).cut (grid7.coords t) ((dat7 V a hH c).after 1 t) = _
  rw [after7_1]
  refine funext fun (y : S16x512.Idx) => ?_
  obtain ⟨r, j, rfl⟩ : ∃ (r : Fin 16) (j : Fin 512), y = ValueIdx.ix2 r j := ⟨y 0, y 1, ValueIdx.eq_ix2 y⟩
  show outsAt7 V a hH c t (ValueIdx.ix2 (n0 := 16) (n1 := 512) r j) = G7v V a hH c ((((cfg7 a).win 1).blk t).view.emb (ValueIdx.ix2 (n0 := 16) (n1 := 512) r j))
  rw [emb7_1, outsAt7_apply V a hH c t r j, nmBlk7_apply V a c t r]

/-- Every index of the array is in some point's block: row e is in block e / 16. -/
theorem cover7_blk (i : S50000x512.Idx) :
    ∃ t : Fin (cfg7 a).N, ((cfg7 a).win 1).flush t = true ∧ i ∈ (((cfg7 a).win 1).blk t).view.set := by
  have hi0 : (i 0).val < 50000 := (i 0).isLt
  have hi1 : (i 1).val < 512 := (i 1).isLt
  have hq : (i 0).val / 16 < (cfg7 a).N := by rw [N7_eq a]; omega
  have hr : (i 0).val % 16 < 16 := Nat.mod_lt _ (by omega)
  obtain ⟨t, ht⟩ : ∃ t : Fin (cfg7 a).N, t.val = (i 0).val / 16 := ⟨⟨(i 0).val / 16, hq⟩, rfl⟩
  refine ⟨t, flush7_1 a t, ?_⟩
  have e : i = ValueIdx.ix2 (n0 := 50000) (n1 := 512) ⟨16 * t.val + (i 0).val % 16, idx_lt7 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk7_1 a t ⟨(i 0).val % 16, hr⟩ ⟨(i 1).val, hi1⟩

/-- The output array after the region is the gathered and scaled array, -/
theorem arrAt7_1_eq (c : Dev nD) : (dat7 (F := Ideal) V a hH c).arrAt 1 (cfg7 a).N = G7v V a hH c :=
  (dat7 (F := Ideal) V a hH c).arrAt_eq_of_cover 1 (G7v V a hH c) (fun t _ => flushed7_1_eq V a hH c t) (cover7_blk a)

/-- index by index: entry (e, j) is the source array's entry (the table's word e, j) times the norm column's entry e. -/
theorem arrAt7_1 (c : Dev nD) (e : Fin 50000) (j : Fin 512) :
    (dat7 (F := Ideal) V a hH c).arrAt 1 (cfg7 a).N (ValueIdx.ix2 (n0 := 50000) (n1 := 512) e j)
      = hbArr7 V c (ValueIdx.ix2 (n0 := 50000) (n1 := 512) ⟨((a.1 0) (ValueIdx.ix1 (n := 50000) e)).toNat, hH e⟩ j)
          * nmArr7 V c (ValueIdx.ix2 (n0 := 50000) (n1 := 1) e 0) :=
  (congrFun (arrAt7_1_eq V a hH c) (ValueIdx.ix2 (n0 := 50000) (n1 := 512) e j)).trans rfl

end Cert.KernelIdeal.Hand

end
-- ==== Proof.G8Idx.lean ====
/- Pipeline 8 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G8
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg8 (F := Ideal)).Adm) (hH : ∀ j : Fin 50000, ((a.1 0) (ValueIdx.ix1 j)).toNat < 50000)

/-! ## The arrays, by name -/

/-- The array the rows are gathered from, and the norm column. -/
abbrev hbArr8 (c : Dev nD) : FVec Ideal S50000x512 .f32 := V c main_v34
abbrev nmArr8 (c : Dev nD) : FVec Ideal S50000x1 .f32 := V c main_v58
/-- The norm block at a point. -/
abbrev nmBlk8 (c : Dev nD) (t : Fin (cfg8 a).N) : FVec Ideal S16x1 .f32 := iblk8 V a c 0 t

/-- The gathered and scaled array: row e is the row of the source array named by the table's word e, times the norm
    column's entry e. -/
abbrev G8v (c : Dev nD) : (⟨S50000x512, .f32⟩ : BufTy).Contents (Elt Ideal) := fun i =>
  hbArr8 V c (ValueIdx.ix2 (n0 := 50000) (n1 := 512) ⟨((a.1 0) (ValueIdx.ix1 (n := 50000) (i 0))).toNat, hH (i 0)⟩ (i 1))
    * nmArr8 V c (ValueIdx.ix2 (n0 := 50000) (n1 := 1) (i 0) 0)

/-! ## The index maps at a point -/

theorem N8_eq : (cfg8 a).N = 3125 := N_8

/-- Row r of point t's block is a row of the array. -/
theorem idx_lt8 (t : Fin (cfg8 a).N) (r : Fin 16) : 16 * t.val + r.val < 50000 := by
  have ht : t.val < 3125 := (N8_eq a) ▸ t.isLt
  have := r.isLt; omega

/-- On the one-axis grid the point's coordinate is the point. -/
theorem coords8_val (t : Fin (cfg8 a).N) : (grid8.coords t 0).val = t.val := by
  have h : t.val < 3125 := (N8_eq a) ▸ t.isLt
  show t.val / grid8.stride 0 % 3125 = t.val
  rw [show grid8.stride 0 = 1 from by decide, Nat.div_one, Nat.mod_eq_of_lt h]

theorem idx8_0 (t : Fin (cfg8 a).N) : ((cfg8 a).win 0).index t = cc8_transform_1 (grid8.coords t) := rfl
theorem idx8_1 (t : Fin (cfg8 a).N) : ((cfg8 a).win 1).index t = cc8_transform_2 (grid8.coords t) := rfl

theorem tr8_1_0 (i : grid8.Coords) : cc8_transform_1 i (0 : Fin 2) = (i 0).val := by
  show (BitVec.ofNat 32 (i 0).val).toNat = _
  have h := (i 0).isLt
  have hb : grid8.bound 0 = 3125 := rfl
  rw [BitVec.toNat_ofNat]; exact Nat.mod_eq_of_lt (by omega)
theorem tr8_1_1 (i : grid8.Coords) : cc8_transform_1 i (1 : Fin 2) = 0 := rfl
theorem tr8_2_0 (i : grid8.Coords) : cc8_transform_2 i (0 : Fin 2) = (i 0).val := by
  show (BitVec.ofNat 32 (i 0).val).toNat = _
  have h := (i 0).isLt
  have hb : grid8.bound 0 = 3125 := rfl
  rw [BitVec.toNat_ofNat]; exact Nat.mod_eq_of_lt (by omega)
theorem tr8_2_1 (i : grid8.Coords) : cc8_transform_2 i (1 : Fin 2) = 0 := rfl

/-- Both windows' row-block index at point t is t; their column-block index is zero. -/
theorem index8_0_0 (t : Fin (cfg8 a).N) : ((cfg8 a).win 0).index t (0 : Fin 2) = t.val := by rw [idx8_0, tr8_1_0, coords8_val]
theorem index8_0_1 (t : Fin (cfg8 a).N) : ((cfg8 a).win 0).index t (1 : Fin 2) = 0 := by rw [idx8_0, tr8_1_1]
theorem index8_1_0 (t : Fin (cfg8 a).N) : ((cfg8 a).win 1).index t (0 : Fin 2) = t.val := by rw [idx8_1, tr8_2_0, coords8_val]
theorem index8_1_1 (t : Fin (cfg8 a).N) : ((cfg8 a).win 1).index t (1 : Fin 2) = 0 := by rw [idx8_1, tr8_2_1]

/-- The output window is written back at every point: its block index moves with the point. -/
theorem flush8_1 (t : Fin (cfg8 a).N) : ((cfg8 a).win 1).flush t = true := by
  rw [Window.flush_out _ rfl]
  by_cases h : t.val + 1 = grid8.N
  · exact Or.inl h
  · have hN : grid8.N = 3125 := N_8
    have ht : t.val < 3125 := (N8_eq a) ▸ t.isLt
    have h1 : t.val + 1 < grid8.N := by omega
    refine Or.inr ⟨h1, fun e => ?_⟩
    have e0 : ((cfg8 a).win 1).index ⟨t.val + 1, h1⟩ (0 : Fin 2) = ((cfg8 a).win 1).index t (0 : Fin 2) := congrFun e (0 : Fin 2)
    rw [index8_1_0, index8_1_0] at e0
    exact absurd e0 (by show t.val + 1 ≠ t.val; omega)

/-! ## The blocks at a point -/

/-- Entry (r, j) of point t's output block is entry (16 t + r, j) of the array. -/
theorem emb8_1 (t : Fin (cfg8 a).N) (r : Fin 16) (j : Fin 512) :
    (((cfg8 a).win 1).blk t).view.emb (ValueIdx.ix2 (n0 := 16) (n1 := 512) r j)
      = ValueIdx.ix2 (n0 := 50000) (n1 := 512) ⟨16 * t.val + r.val, idx_lt8 a t r⟩ j := by
  funext k; apply Fin.ext
  match k with
  | ⟨0, _⟩ => show ((cfg8 a).win 1).index t (0 : Fin 2) * 16 + 1 * r.val = 16 * t.val + r.val; rw [index8_1_0]; omega
  | ⟨1, _⟩ => show ((cfg8 a).win 1).index t (1 : Fin 2) * 512 + 1 * j.val = j.val; rw [index8_1_1]; omega

/-- The norm block at point t, row r, is the norm column's entry 16 t + r. -/
theorem nmBlk8_apply (c : Dev nD) (t : Fin (cfg8 a).N) (r : Fin 16) :
    nmBlk8 V a c t (ValueIdx.ix2 (n0 := 16) (n1 := 1) r 0)
      = nmArr8 V c (ValueIdx.ix2 (n0 := 50000) (n1 := 1) ⟨16 * t.val + r.val, idx_lt8 a t r⟩ 0) := by
  show V c main_v58 ((((cfg8 a).win 0).blk t).view.emb (ValueIdx.ix2 (n0 := 16) (n1 := 1) r 0)) = V c main_v58 (ValueIdx.ix2 (n0 := 50000) (n1 := 1) ⟨16 * t.val + r.val, idx_lt8 a t r⟩ 0)
  refine congrArg (V c main_v58) ?_
  funext k; apply Fin.ext
  match k with
  | ⟨0, _⟩ => show ((cfg8 a).win 0).index t (0 : Fin 2) * 16 + 1 * r.val = 16 * t.val + r.val; rw [index8_0_0]; omega
  | ⟨1, _⟩ => show ((cfg8 a).win 0).index t (1 : Fin 2) * 1 + 1 * 0 = 0; rw [index8_0_1]

/-- Entry (16 t + r, j) of the array is in point t's block. -/
theorem mem_blk8_1 (t : Fin (cfg8 a).N) (r : Fin 16) (j : Fin 512) :
    ValueIdx.ix2 (n0 := 50000) (n1 := 512) ⟨16 * t.val + r.val, idx_lt8 a t r⟩ j ∈ (((cfg8 a).win 1).blk t).view.set := by
  rw [← emb8_1]; exact View.emb_mem_set _ _

end Cert.KernelIdeal.Hand

end
-- ==== Proof.G8Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col8_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 8's one store at (r, j): the scratch entry (r, j) times the norm block's entry r. -/
theorem pay8_apply (v192 : Vec Ideal S16x1 .f32) (v194 : Vec Ideal S16x512 .f32) (r : Fin 16) (j : Fin 512) :
    k8_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k8_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col8_512 _ r j).trans (congrFun (shapeCast_self v192 shapeCasts_S16x1_S16x1) _))

end Cert.KernelIdeal.Hand

end
-- ==== Proof.G8Block.lean ====
/- Pipeline 8 at the ideal values: the block the body leaves at a point, entry by entry. -/
import proofs.«414392_j7919919694132_2_alg».proof.Proof.G8Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G8Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg8 (F := Ideal)).Adm) (hH : ∀ j : Fin 50000, ((a.1 0) (ValueIdx.ix1 j)).toNat < 50000)

/-! ## Indices of a one-row slice -/

/-- A one-row index has leading coordinate 0. -/
theorem row0_8 (x : S1x512.Idx) : (x 0).val = 0 := by
  have h := (x 0).isLt
  have e : S1x512.size 0 = 1 := by decide
  omega

/-- The gathered array, read as a matrix of ideal values. -/
abbrev asArr8 (c : Dev nD) (fh0 : HbBuf8 (F := Ideal) c hbM8) : FVec Ideal S50000x512 .f32 := fh0

/-- The table's word at offset `16 i + k`, as the body reads it. -/
theorem word8 (c : Dev nD) (i : grid8.Coords) (tb : HbBuf8 (F := Ideal) c tbM8) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM8.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma8_apply (c : Dev nD) (fh0 : HbBuf8 (F := Ideal) c hbM8) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM8.slice (Rect.unit (s := S50000x512) off S1x512.size inb) (fun _ => rfl)).view fh0) x
      = asArr8 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_8 x]; omega
  · show 0 + 1 * (x 1).val = (x 1).val
    omega

/-- The sixteen rows of the scratch, each the payload of its transfer. -/
def rows8 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows8 (p0 p1 p2 p3 p4 p5 p6 p7 p8 p9 p10 p11 p12 p13 p14 p15 : S1x512.Idx → Elt Ideal .f32) (y : S16x512.Idx) : ∃ pc ∈ rows8 p0 p1 p2 p3 p4 p5 p6 p7 p8 p9 p10 p11 p12 p13 p14 p15, y ∈ pc.1.set :=
  View.cover_of_tiledL (rows8 p0 p1 p2 p3 p4 p5 p6 p7 p8 p9 p10 p11 p12 p13 p14 p15) S1x512.size (by sl_kernel_rfl) y

/-- A point's coordinate is below the grid's 3125 points, so the sixteen table offsets of the point are inside the table. -/
theorem idxlt8 (i : grid8.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath8 (c : Dev nD) (i : grid8.Coords) (tb : HbBuf8 (F := Ideal) c tbM8) (fh0 : HbBuf8 (F := Ideal) c hbM8) (hT : ∀ x, (tb x).toNat < 50000) :
    S16x512.Idx → Elt Ideal .f32 :=
  fun y => asArr8 c fh0 (ValueIdx.ix2 (n0 := 50000) (n1 := 512) ⟨(tb (ValueIdx.ix1 (n := 50000) ⟨16 * (i 0).val + (y 0).val, idxlt8 i (y 0)⟩)).toNat, hT _⟩ (y 1))

/-- Row k's transfer delivers `gath8` at the row's indices. -/
theorem piece8 (c : Dev nD) (i : grid8.Coords) (tb : HbBuf8 (F := Ideal) c tbM8) (fh0 : HbBuf8 (F := Ideal) c hbM8) (hT : ∀ x, (tb x).toNat < 50000)
    (k : Fin 16) (w : BitVec 32) (hwd : w = tb (ValueIdx.ix1 (n := 50000) ⟨16 * (i 0).val + k.val, idxlt8 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM8.slice (Rect.unit (s := S50000x512) off S1x512.size inb) (fun _ => rfl)).view fh0) x
      = gath8 c i tb fh0 hT ((Rect.unit (s := S16x512) ![k.val, 0] S1x512.size inbk).emb x) := by
  subst hwd
  rw [dma8_apply c fh0 _ (hT _) off hoff inb x]
  unfold gath8
  show asArr8 c fh0 _ = asArr8 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_8 x]; omega
  · show (x 1).val = 0 + 1 * (x 1).val
    omega

/-- The scratch, read whole after the sixteen waits, is `gath8`. -/
theorem scratch8_apply (c : Dev nD) (i : grid8.Coords) (tb : HbBuf8 (F := Ideal) c tbM8) (fh0 : HbBuf8 (F := Ideal) c hbM8) (hT : ∀ x, (tb x).toNat < 50000)
    (y : S16x512.Idx) :
    scM8.view.readCov (rows8
        (kernelRun8.sl.dma1 c i tb fh0 (chk8_1_of_lt _ (hT _)))
        (kernelRun8.sl.dma2 c i tb fh0 (chk8_2_of_lt _ (hT _)))
        (kernelRun8.sl.dma3 c i tb fh0 (chk8_3_of_lt _ (hT _)))
        (kernelRun8.sl.dma4 c i tb fh0 (chk8_4_of_lt _ (hT _)))
        (kernelRun8.sl.dma5 c i tb fh0 (chk8_5_of_lt _ (hT _)))
        (kernelRun8.sl.dma6 c i tb fh0 (chk8_6_of_lt _ (hT _)))
        (kernelRun8.sl.dma7 c i tb fh0 (chk8_7_of_lt _ (hT _)))
        (kernelRun8.sl.dma8 c i tb fh0 (chk8_8_of_lt _ (hT _)))
        (kernelRun8.sl.dma9 c i tb fh0 (chk8_9_of_lt _ (hT _)))
        (kernelRun8.sl.dma10 c i tb fh0 (chk8_10_of_lt _ (hT _)))
        (kernelRun8.sl.dma11 c i tb fh0 (chk8_11_of_lt _ (hT _)))
        (kernelRun8.sl.dma12 c i tb fh0 (chk8_12_of_lt _ (hT _)))
        (kernelRun8.sl.dma13 c i tb fh0 (chk8_13_of_lt _ (hT _)))
        (kernelRun8.sl.dma14 c i tb fh0 (chk8_14_of_lt _ (hT _)))
        (kernelRun8.sl.dma15 c i tb fh0 (chk8_15_of_lt _ (hT _)))
        (kernelRun8.sl.dma16 c i tb fh0 (chk8_16_of_lt _ (hT _)))) (Rect.unit (s := S16x512) ![0, 0] S16x512.size inb_S16x512_S16x512_0_0).toLoadRect y
      = gath8 c i tb fh0 hT y := by
  rw [View.readCov_eq_canon_ld _ _ _ (cover_rows8 _ _ _ _ _ _ _ _ _ _ _ _ _ _ _ _), View.ld_unit_zero (by funext d; fin_cases d <;> rfl)]
  refine View.canon_apply_of_pieces (gath8 c i tb fh0 hT) (rows8 _ _ _ _ _ _ _ _ _ _ _ _ _ _ _ _) ?_ y (cover_rows8 _ _ _ _ _ _ _ _ _ _ _ _ _ _ _ _ y)
  intro p hp x
  unfold rows8 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun8.sl.dma16
    exact piece8 c i tb fh0 hT (15 : Fin 16) (kernelRun8.sl.r_15 c i tb)
      (by unfold kernelRun8.sl.r_15; exact word8 c i tb (15 : Fin 16) (idxlt8 i _) _ (by rw [k8_off31_eq]; rfl) _ _) (k8_off32 (kernelRun8.sl.r_15 c i tb)) rfl _ _ x
  · dsimp only
    unfold kernelRun8.sl.dma15
    exact piece8 c i tb fh0 hT (14 : Fin 16) (kernelRun8.sl.r_14 c i tb)
      (by unfold kernelRun8.sl.r_14; exact word8 c i tb (14 : Fin 16) (idxlt8 i _) _ (by rw [k8_off29_eq]; rfl) _ _) (k8_off30 (kernelRun8.sl.r_14 c i tb)) rfl _ _ x
  · dsimp only
    unfold kernelRun8.sl.dma14
    exact piece8 c i tb fh0 hT (13 : Fin 16) (kernelRun8.sl.r_13 c i tb)
      (by unfold kernelRun8.sl.r_13; exact word8 c i tb (13 : Fin 16) (idxlt8 i _) _ (by rw [k8_off27_eq]; rfl) _ _) (k8_off28 (kernelRun8.sl.r_13 c i tb)) rfl _ _ x
  · dsimp only
    unfold kernelRun8.sl.dma13
    exact piece8 c i tb fh0 hT (12 : Fin 16) (kernelRun8.sl.r_12 c i tb)
      (by unfold kernelRun8.sl.r_12; exact word8 c i tb (12 : Fin 16) (idxlt8 i _) _ (by rw [k8_off25_eq]; rfl) _ _) (k8_off26 (kernelRun8.sl.r_12 c i tb)) rfl _ _ x
  · dsimp only
    unfold kernelRun8.sl.dma12
    exact piece8 c i tb fh0 hT (11 : Fin 16) (kernelRun8.sl.r_11 c i tb)
      (by unfold kernelRun8.sl.r_11; exact word8 c i tb (11 : Fin 16) (idxlt8 i _) _ (by rw [k8_off23_eq]; rfl) _ _) (k8_off24 (kernelRun8.sl.r_11 c i tb)) rfl _ _ x
  · dsimp only
    unfold kernelRun8.sl.dma11
    exact piece8 c i tb fh0 hT (10 : Fin 16) (kernelRun8.sl.r_10 c i tb)
      (by unfold kernelRun8.sl.r_10; exact word8 c i tb (10 : Fin 16) (idxlt8 i _) _ (by rw [k8_off21_eq]; rfl) _ _) (k8_off22 (kernelRun8.sl.r_10 c i tb)) rfl _ _ x
  · dsimp only
    unfold kernelRun8.sl.dma10
    exact piece8 c i tb fh0 hT (9 : Fin 16) (kernelRun8.sl.r_9 c i tb)
      (by unfold kernelRun8.sl.r_9; exact word8 c i tb (9 : Fin 16) (idxlt8 i _) _ (by rw [k8_off19_eq]; rfl) _ _) (k8_off20 (kernelRun8.sl.r_9 c i tb)) rfl _ _ x
  · dsimp only
    unfold kernelRun8.sl.dma9
    exact piece8 c i tb fh0 hT (8 : Fin 16) (kernelRun8.sl.r_8 c i tb)
      (by unfold kernelRun8.sl.r_8; exact word8 c i tb (8 : Fin 16) (idxlt8 i _) _ (by rw [k8_off17_eq]; rfl) _ _) (k8_off18 (kernelRun8.sl.r_8 c i tb)) rfl _ _ x
  · dsimp only
    unfold kernelRun8.sl.dma8
    exact piece8 c i tb fh0 hT (7 : Fin 16) (kernelRun8.sl.r_7 c i tb)
      (by unfold kernelRun8.sl.r_7; exact word8 c i tb (7 : Fin 16) (idxlt8 i _) _ (by rw [k8_off15_eq]; rfl) _ _) (k8_off16 (kernelRun8.sl.r_7 c i tb)) rfl _ _ x
  · dsimp only
    unfold kernelRun8.sl.dma7
    exact piece8 c i tb fh0 hT (6 : Fin 16) (kernelRun8.sl.r_6 c i tb)
      (by unfold kernelRun8.sl.r_6; exact word8 c i tb (6 : Fin 16) (idxlt8 i _) _ (by rw [k8_off13_eq]; rfl) _ _) (k8_off14 (kernelRun8.sl.r_6 c i tb)) rfl _ _ x
  · dsimp only
    unfold kernelRun8.sl.dma6
    exact piece8 c i tb fh0 hT (5 : Fin 16) (kernelRun8.sl.r_5 c i tb)
      (by unfold kernelRun8.sl.r_5; exact word8 c i tb (5 : Fin 16) (idxlt8 i _) _ (by rw [k8_off11_eq]; rfl) _ _) (k8_off12 (kernelRun8.sl.r_5 c i tb)) rfl _ _ x
  · dsimp only
    unfold kernelRun8.sl.dma5
    exact piece8 c i tb fh0 hT (4 : Fin 16) (kernelRun8.sl.r_4 c i tb)
      (by unfold kernelRun8.sl.r_4; exact word8 c i tb (4 : Fin 16) (idxlt8 i _) _ (by rw [k8_off9_eq]; rfl) _ _) (k8_off10 (kernelRun8.sl.r_4 c i tb)) rfl _ _ x
  · dsimp only
    unfold kernelRun8.sl.dma4
    exact piece8 c i tb fh0 hT (3 : Fin 16) (kernelRun8.sl.r_3 c i tb)
      (by unfold kernelRun8.sl.r_3; exact word8 c i tb (3 : Fin 16) (idxlt8 i _) _ (by rw [k8_off7_eq]; rfl) _ _) (k8_off8 (kernelRun8.sl.r_3 c i tb)) rfl _ _ x
  · dsimp only
    unfold kernelRun8.sl.dma3
    exact piece8 c i tb fh0 hT (2 : Fin 16) (kernelRun8.sl.r_2 c i tb)
      (by unfold kernelRun8.sl.r_2; exact word8 c i tb (2 : Fin 16) (idxlt8 i _) _ (by rw [k8_off5_eq]; rfl) _ _) (k8_off6 (kernelRun8.sl.r_2 c i tb)) rfl _ _ x
  · dsimp only
    unfold kernelRun8.sl.dma2
    exact piece8 c i tb fh0 hT (1 : Fin 16) (kernelRun8.sl.r_1 c i tb)
      (by unfold kernelRun8.sl.r_1; exact word8 c i tb (1 : Fin 16) (idxlt8 i _) _ (by rw [k8_off3_eq]; rfl) _ _) (k8_off4 (kernelRun8.sl.r_1 c i tb)) rfl _ _ x
  · dsimp only
    unfold kernelRun8.sl.dma1
    exact piece8 c i tb fh0 hT (0 : Fin 16) (kernelRun8.sl.r c i tb)
      (by unfold kernelRun8.sl.r; exact word8 c i tb (0 : Fin 16) (idxlt8 i _) _ (by rw [k8_off1_eq]; rfl) _ _) (k8_off2 (kernelRun8.sl.r c i tb)) rfl _ _ x

/-- THE BLOCK the body leaves, over any staging memrefs and contents: row r is the row of the gathered array the table's
    word `16 i + r` names, times the norm block's entry r. -/
theorem out8_1_apply (c : Dev nD) (i : grid8.Coords) (arg3 : Memref sig .tc .vmem S16x1 .f32) (harg3 : arg3.IsWhole) (arg4 : Memref sig .tc .vmem S16x512 .f32) (harg4 : arg4.IsWhole)
    (x0 : Vec Ideal S16x1 .f32) (tb : HbBuf8 (F := Ideal) c tbM8) (fh0 : HbBuf8 (F := Ideal) c hbM8) (hT : ∀ x, (tb x).toNat < 50000) (r : Fin 16) (j : Fin 512) :
    out8_1 c i arg3 harg3 arg4 harg4 x0 tb fh0 hT (ValueIdx.ix2 (n0 := 16) (n1 := 512) r j)
      = gath8 c i tb fh0 hT (ValueIdx.ix2 (n0 := 16) (n1 := 512) r j) * x0 (ValueIdx.ix2 (n0 := 16) (n1 := 1) r 0) := by
  unfold out8_1
  rw [View.read_writes_eq_canon _ _ _ (cover8_1 c i arg3 harg3 arg4 harg4 x0 tb fh0 hT)]
  unfold kernelRun8
  dsimp only
  rw [View.canon_unit_zero (by funext d; fin_cases d <;> rfl)]
  rw [pay8_apply]
  congr 1
  · unfold kernelRun8.sl.v194
    exact scratch8_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt8_apply (c : Dev nD) (t : Fin (cfg8 a).N) (r : Fin 16) (j : Fin 512) :
    outsAt8 V a hH c t (ValueIdx.ix2 (n0 := 16) (n1 := 512) r j)
      = hbArr8 V c (ValueIdx.ix2 (n0 := 50000) (n1 := 512) ⟨((a.1 0) (ValueIdx.ix1 (n := 50000) ⟨16 * t.val + r.val, idx_lt8 a t r⟩)).toNat, hH _⟩ j)
          * nmBlk8 V a c t (ValueIdx.ix2 (n0 := 16) (n1 := 1) r 0) := by
  unfold outsAt8
  refine (out8_1_apply c (grid8.coords t) _ _ _ _ (nmBlk8 V a c t) (a.1 0) (hbArr8 V c) (tbl_lt8 a hH c) r j).trans ?_
  congr 1
  unfold gath8
  show hbArr8 V c _ = hbArr8 V c _
  congr 1
  funext d
  apply Fin.ext
  fin_cases d
  · exact congrArg (fun n : Fin 50000 => ((a.1 0) (ValueIdx.ix1 (n := 50000) n)).toNat)
      (Fin.ext (by show 16 * (grid8.coords t 0).val + r.val = 16 * t.val + r.val; rw [coords8_val a t]))
  · rfl

end Cert.KernelIdeal.Hand

end
-- ==== Proof.G8Value.lean ====
/- Pipeline 8 at the ideal values: the output array after the region is the gathered and scaled array (row e: the row of
   the source array named by the table's word e, times the norm column's entry e). -/
import proofs.«414392_j7919919694132_2_alg».proof.Proof.G8Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg8 (F := Ideal)).Adm) (hH : ∀ j : Fin 50000, ((a.1 0) (ValueIdx.ix1 j)).toNat < 50000)

/-! ## From blocks to the array -/

/-- What point t writes back is block t of the gathered and scaled array. -/
theorem flushed8_1_eq (c : Dev nD) (t : Fin (cfg8 a).N) :
    (dat8 (F := Ideal) V a hH c).flushed 1 t = (((cfg8 a).win 1).blk t).view.read (Elt Ideal) (G8v V a hH c) := by
  show ((cfg8 a).win 1).cut (grid8.coords t) ((dat8 V a hH c).after 1 t) = _
  rw [after8_1]
  refine funext fun (y : S16x512.Idx) => ?_
  obtain ⟨r, j, rfl⟩ : ∃ (r : Fin 16) (j : Fin 512), y = ValueIdx.ix2 r j := ⟨y 0, y 1, ValueIdx.eq_ix2 y⟩
  show outsAt8 V a hH c t (ValueIdx.ix2 (n0 := 16) (n1 := 512) r j) = G8v V a hH c ((((cfg8 a).win 1).blk t).view.emb (ValueIdx.ix2 (n0 := 16) (n1 := 512) r j))
  rw [emb8_1, outsAt8_apply V a hH c t r j, nmBlk8_apply V a c t r]

/-- Every index of the array is in some point's block: row e is in block e / 16. -/
theorem cover8_blk (i : S50000x512.Idx) :
    ∃ t : Fin (cfg8 a).N, ((cfg8 a).win 1).flush t = true ∧ i ∈ (((cfg8 a).win 1).blk t).view.set := by
  have hi0 : (i 0).val < 50000 := (i 0).isLt
  have hi1 : (i 1).val < 512 := (i 1).isLt
  have hq : (i 0).val / 16 < (cfg8 a).N := by rw [N8_eq a]; omega
  have hr : (i 0).val % 16 < 16 := Nat.mod_lt _ (by omega)
  obtain ⟨t, ht⟩ : ∃ t : Fin (cfg8 a).N, t.val = (i 0).val / 16 := ⟨⟨(i 0).val / 16, hq⟩, rfl⟩
  refine ⟨t, flush8_1 a t, ?_⟩
  have e : i = ValueIdx.ix2 (n0 := 50000) (n1 := 512) ⟨16 * t.val + (i 0).val % 16, idx_lt8 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk8_1 a t ⟨(i 0).val % 16, hr⟩ ⟨(i 1).val, hi1⟩

/-- The output array after the region is the gathered and scaled array, -/
theorem arrAt8_1_eq (c : Dev nD) : (dat8 (F := Ideal) V a hH c).arrAt 1 (cfg8 a).N = G8v V a hH c :=
  (dat8 (F := Ideal) V a hH c).arrAt_eq_of_cover 1 (G8v V a hH c) (fun t _ => flushed8_1_eq V a hH c t) (cover8_blk a)

/-- index by index: entry (e, j) is the source array's entry (the table's word e, j) times the norm column's entry e. -/
theorem arrAt8_1 (c : Dev nD) (e : Fin 50000) (j : Fin 512) :
    (dat8 (F := Ideal) V a hH c).arrAt 1 (cfg8 a).N (ValueIdx.ix2 (n0 := 50000) (n1 := 512) e j)
      = hbArr8 V c (ValueIdx.ix2 (n0 := 50000) (n1 := 512) ⟨((a.1 0) (ValueIdx.ix1 (n := 50000) e)).toNat, hH e⟩ j)
          * nmArr8 V c (ValueIdx.ix2 (n0 := 50000) (n1 := 1) e 0) :=
  (congrFun (arrAt8_1_eq V a hH c) (ValueIdx.ix2 (n0 := 50000) (n1 := 512) e j)).trans rfl

end Cert.KernelIdeal.Hand

end
-- ==== Proof.G9Idx.lean ====
/- Pipeline 9 (the sixteen-row gather and scale of layer 1) at the ideal values: the arrays by name, the windows' index
   maps at a point (block t of both windows is rows 16 t … 16 t + 15), the norm block read off the norm column, and
   which entries of the output array each point's block holds. -/
import proofs.«414392_j7919919694132_2_alg».proof.Proof.G9
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg9 (F := Ideal)).Adm) (hH : ∀ j : Fin 50000, ((a.1 0) (ValueIdx.ix1 j)).toNat < 50000)

/-! ## The arrays, by name -/

/-- The array the rows are gathered from, and the norm column. -/
abbrev hbArr9 (c : Dev nD) : FVec Ideal S50000x512 .f32 := V c main_v34
abbrev nmArr9 (c : Dev nD) : FVec Ideal S50000x1 .f32 := V c main_v61
/-- The norm block at a point. -/
abbrev nmBlk9 (c : Dev nD) (t : Fin (cfg9 a).N) : FVec Ideal S16x1 .f32 := iblk9 V a c 0 t

/-- The gathered and scaled array: row e is the row of the source array named by the table's word e, times the norm
    column's entry e. -/
abbrev G9v (c : Dev nD) : (⟨S50000x512, .f32⟩ : BufTy).Contents (Elt Ideal) := fun i =>
  hbArr9 V c (ValueIdx.ix2 (n0 := 50000) (n1 := 512) ⟨((a.1 0) (ValueIdx.ix1 (n := 50000) (i 0))).toNat, hH (i 0)⟩ (i 1))
    * nmArr9 V c (ValueIdx.ix2 (n0 := 50000) (n1 := 1) (i 0) 0)

/-! ## The index maps at a point -/

theorem N9_eq : (cfg9 a).N = 3125 := N_9

/-- Row r of point t's block is a row of the array. -/
theorem idx_lt9 (t : Fin (cfg9 a).N) (r : Fin 16) : 16 * t.val + r.val < 50000 := by
  have ht : t.val < 3125 := (N9_eq a) ▸ t.isLt
  have := r.isLt; omega

/-- On the one-axis grid the point's coordinate is the point. -/
theorem coords9_val (t : Fin (cfg9 a).N) : (grid9.coords t 0).val = t.val := by
  have h : t.val < 3125 := (N9_eq a) ▸ t.isLt
  show t.val / grid9.stride 0 % 3125 = t.val
  rw [show grid9.stride 0 = 1 from by decide, Nat.div_one, Nat.mod_eq_of_lt h]

theorem idx9_0 (t : Fin (cfg9 a).N) : ((cfg9 a).win 0).index t = cc9_transform_1 (grid9.coords t) := rfl
theorem idx9_1 (t : Fin (cfg9 a).N) : ((cfg9 a).win 1).index t = cc9_transform_2 (grid9.coords t) := rfl

theorem tr9_1_0 (i : grid9.Coords) : cc9_transform_1 i (0 : Fin 2) = (i 0).val := by
  show (BitVec.ofNat 32 (i 0).val).toNat = _
  have h := (i 0).isLt
  have hb : grid9.bound 0 = 3125 := rfl
  rw [BitVec.toNat_ofNat]; exact Nat.mod_eq_of_lt (by omega)
theorem tr9_1_1 (i : grid9.Coords) : cc9_transform_1 i (1 : Fin 2) = 0 := rfl
theorem tr9_2_0 (i : grid9.Coords) : cc9_transform_2 i (0 : Fin 2) = (i 0).val := by
  show (BitVec.ofNat 32 (i 0).val).toNat = _
  have h := (i 0).isLt
  have hb : grid9.bound 0 = 3125 := rfl
  rw [BitVec.toNat_ofNat]; exact Nat.mod_eq_of_lt (by omega)
theorem tr9_2_1 (i : grid9.Coords) : cc9_transform_2 i (1 : Fin 2) = 0 := rfl

/-- Both windows' row-block index at point t is t; their column-block index is zero. -/
theorem index9_0_0 (t : Fin (cfg9 a).N) : ((cfg9 a).win 0).index t (0 : Fin 2) = t.val := by rw [idx9_0, tr9_1_0, coords9_val]
theorem index9_0_1 (t : Fin (cfg9 a).N) : ((cfg9 a).win 0).index t (1 : Fin 2) = 0 := by rw [idx9_0, tr9_1_1]
theorem index9_1_0 (t : Fin (cfg9 a).N) : ((cfg9 a).win 1).index t (0 : Fin 2) = t.val := by rw [idx9_1, tr9_2_0, coords9_val]
theorem index9_1_1 (t : Fin (cfg9 a).N) : ((cfg9 a).win 1).index t (1 : Fin 2) = 0 := by rw [idx9_1, tr9_2_1]

/-- The output window is written back at every point: its block index moves with the point. -/
theorem flush9_1 (t : Fin (cfg9 a).N) : ((cfg9 a).win 1).flush t = true := by
  rw [Window.flush_out _ rfl]
  by_cases h : t.val + 1 = grid9.N
  · exact Or.inl h
  · have hN : grid9.N = 3125 := N_9
    have ht : t.val < 3125 := (N9_eq a) ▸ t.isLt
    have h1 : t.val + 1 < grid9.N := by omega
    refine Or.inr ⟨h1, fun e => ?_⟩
    have e0 : ((cfg9 a).win 1).index ⟨t.val + 1, h1⟩ (0 : Fin 2) = ((cfg9 a).win 1).index t (0 : Fin 2) := congrFun e (0 : Fin 2)
    rw [index9_1_0, index9_1_0] at e0
    exact absurd e0 (by show t.val + 1 ≠ t.val; omega)

/-! ## The blocks at a point -/

/-- Entry (r, j) of point t's output block is entry (16 t + r, j) of the array. -/
theorem emb9_1 (t : Fin (cfg9 a).N) (r : Fin 16) (j : Fin 512) :
    (((cfg9 a).win 1).blk t).view.emb (ValueIdx.ix2 (n0 := 16) (n1 := 512) r j)
      = ValueIdx.ix2 (n0 := 50000) (n1 := 512) ⟨16 * t.val + r.val, idx_lt9 a t r⟩ j := by
  funext k; apply Fin.ext
  match k with
  | ⟨0, _⟩ => show ((cfg9 a).win 1).index t (0 : Fin 2) * 16 + 1 * r.val = 16 * t.val + r.val; rw [index9_1_0]; omega
  | ⟨1, _⟩ => show ((cfg9 a).win 1).index t (1 : Fin 2) * 512 + 1 * j.val = j.val; rw [index9_1_1]; omega

/-- The norm block at point t, row r, is the norm column's entry 16 t + r. -/
theorem nmBlk9_apply (c : Dev nD) (t : Fin (cfg9 a).N) (r : Fin 16) :
    nmBlk9 V a c t (ValueIdx.ix2 (n0 := 16) (n1 := 1) r 0)
      = nmArr9 V c (ValueIdx.ix2 (n0 := 50000) (n1 := 1) ⟨16 * t.val + r.val, idx_lt9 a t r⟩ 0) := by
  show V c main_v61 ((((cfg9 a).win 0).blk t).view.emb (ValueIdx.ix2 (n0 := 16) (n1 := 1) r 0)) = V c main_v61 (ValueIdx.ix2 (n0 := 50000) (n1 := 1) ⟨16 * t.val + r.val, idx_lt9 a t r⟩ 0)
  refine congrArg (V c main_v61) ?_
  funext k; apply Fin.ext
  match k with
  | ⟨0, _⟩ => show ((cfg9 a).win 0).index t (0 : Fin 2) * 16 + 1 * r.val = 16 * t.val + r.val; rw [index9_0_0]; omega
  | ⟨1, _⟩ => show ((cfg9 a).win 0).index t (1 : Fin 2) * 1 + 1 * 0 = 0; rw [index9_0_1]

/-- Entry (16 t + r, j) of the array is in point t's block. -/
theorem mem_blk9_1 (t : Fin (cfg9 a).N) (r : Fin 16) (j : Fin 512) :
    ValueIdx.ix2 (n0 := 50000) (n1 := 512) ⟨16 * t.val + r.val, idx_lt9 a t r⟩ j ∈ (((cfg9 a).win 1).blk t).view.set := by
  rw [← emb9_1]; exact View.emb_mem_set _ _

end Cert.KernelIdeal.Hand

end
-- ==== Proof.G9Pay.lean ====
/- The gather regions' payload at an index, at the ideal values: the scratch entry times the norm block's entry of the
   same row (layer 1: rows of 512; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,512], read at (r, j), is the column's entry r. -/
theorem bcast_col9_512 {α : Type} (v : S16x1.Idx → α) (r : Fin 16) (j : Fin 512) :
    broadcastTo S16x512 v broadcasts_S16x1_S16x512 (ValueIdx.ix2 (n0 := 16) (n1 := 512) r j) = v (ValueIdx.ix2 (n0 := 16) (n1 := 1) r 0) := by
  refine broadcastTo_apply v broadcasts_S16x1_S16x512 (ValueIdx.ix2 (n0 := 16) (n1 := 512) r j) (ValueIdx.ix2 (n0 := 16) (n1 := 1) r 0) fun ax => ?_
  match ax with
  | ⟨0, _⟩ => rfl
  | ⟨1, _⟩ => rfl

/-- The payload of pipeline 9's one store at (r, j): the scratch entry (r, j) times the norm block's entry r. -/
theorem pay9_apply (v192 : Vec Ideal S16x1 .f32) (v194 : Vec Ideal S16x512 .f32) (r : Fin 16) (j : Fin 512) :
    k9_pay1 (F := Ideal) v192 v194 (ValueIdx.ix2 (n0 := 16) (n1 := 512) r j)
      = v194 (ValueIdx.ix2 (n0 := 16) (n1 := 512) r j) * v192 (ValueIdx.ix2 (n0 := 16) (n1 := 1) r 0) := by
  unfold k9_pay1
  show v194 (ValueIdx.ix2 (n0 := 16) (n1 := 512) r j) * broadcastTo S16x512 (shapeCast S16x1 v192 shapeCasts_S16x1_S16x1) broadcasts_S16x1_S16x512 (ValueIdx.ix2 (n0 := 16) (n1 := 512) r j) = _
  exact congrArg (fun z => v194 (ValueIdx.ix2 (n0 := 16) (n1 := 512) r j) * z)
    ((bcast_col9_512 _ r j).trans (congrFun (shapeCast_self v192 shapeCasts_S16x1_S16x1) _))

end Cert.KernelIdeal.Hand

end
-- ==== Proof.G9Block.lean ====
/- Pipeline 9 at the ideal values: the block the body leaves at a point, entry by entry. -/
import proofs.«414392_j7919919694132_2_alg».proof.Proof.G9Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G9Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg9 (F := Ideal)).Adm) (hH : ∀ j : Fin 50000, ((a.1 0) (ValueIdx.ix1 j)).toNat < 50000)

/-! ## Indices of a one-row slice -/

/-- A one-row index has leading coordinate 0. -/
theorem row0_9 (x : S1x512.Idx) : (x 0).val = 0 := by
  have h := (x 0).isLt
  have e : S1x512.size 0 = 1 := by decide
  omega

/-- The gathered array, read as a matrix of ideal values. -/
abbrev asArr9 (c : Dev nD) (fh0 : HbBuf9 (F := Ideal) c hbM9) : FVec Ideal S50000x512 .f32 := fh0

/-- The table's word at offset `16 i + k`, as the body reads it. -/
theorem word9 (c : Dev nD) (i : grid9.Coords) (tb : HbBuf9 (F := Ideal) c tbM9) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM9.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma9_apply (c : Dev nD) (fh0 : HbBuf9 (F := Ideal) c hbM9) (w : BitVec 32) (hw : w.toNat < 50000) (off : Fin 2 → Nat) (hoff : off = ![w.toNat, 0])
    (inb : ∀ a, off a + S1x512.size a ≤ S50000x512.size a) (x : S1x512.Idx) :
    ReadAs.same.apply (View.read (Elt Ideal) (hbM9.slice (Rect.unit (s := S50000x512) off S1x512.size inb) (fun _ => rfl)).view fh0) x
      = asArr9 c fh0 (ValueIdx.ix2 (n0 := 50000) (n1 := 512) ⟨w.toNat, hw⟩ (x 1)) := by
  subst hoff
  show fh0 _ = fh0 _
  congr 1
  funext d
  apply Fin.ext
  fin_cases d
  · show w.toNat + 1 * (x 0).val = w.toNat
    rw [row0_9 x]; omega
  · show 0 + 1 * (x 1).val = (x 1).val
    omega

/-- The sixteen rows of the scratch, each the payload of its transfer. -/
def rows9 (p0 p1 p2 p3 p4 p5 p6 p7 p8 p9 p10 p11 p12 p13 p14 p15 : S1x512.Idx → Elt Ideal .f32) : List (View.Piece (Elt Ideal) S16x512 .f32) :=
  [⟨Rect.unit (s := S16x512) ![15, 0] S1x512.size inb_S16x512_S1x512_15_0, p15⟩,
    ⟨Rect.unit (s := S16x512) ![14, 0] S1x512.size inb_S16x512_S1x512_14_0, p14⟩,
    ⟨Rect.unit (s := S16x512) ![13, 0] S1x512.size inb_S16x512_S1x512_13_0, p13⟩,
    ⟨Rect.unit (s := S16x512) ![12, 0] S1x512.size inb_S16x512_S1x512_12_0, p12⟩,
    ⟨Rect.unit (s := S16x512) ![11, 0] S1x512.size inb_S16x512_S1x512_11_0, p11⟩,
    ⟨Rect.unit (s := S16x512) ![10, 0] S1x512.size inb_S16x512_S1x512_10_0, p10⟩,
    ⟨Rect.unit (s := S16x512) ![9, 0] S1x512.size inb_S16x512_S1x512_9_0, p9⟩,
    ⟨Rect.unit (s := S16x512) ![8, 0] S1x512.size inb_S16x512_S1x512_8_0, p8⟩,
    ⟨Rect.unit (s := S16x512) ![7, 0] S1x512.size inb_S16x512_S1x512_7_0, p7⟩,
    ⟨Rect.unit (s := S16x512) ![6, 0] S1x512.size inb_S16x512_S1x512_6_0, p6⟩,
    ⟨Rect.unit (s := S16x512) ![5, 0] S1x512.size inb_S16x512_S1x512_5_0, p5⟩,
    ⟨Rect.unit (s := S16x512) ![4, 0] S1x512.size inb_S16x512_S1x512_4_0, p4⟩,
    ⟨Rect.unit (s := S16x512) ![3, 0] S1x512.size inb_S16x512_S1x512_3_0, p3⟩,
    ⟨Rect.unit (s := S16x512) ![2, 0] S1x512.size inb_S16x512_S1x512_2_0, p2⟩,
    ⟨Rect.unit (s := S16x512) ![1, 0] S1x512.size inb_S16x512_S1x512_1_0, p1⟩,
    ⟨Rect.unit (s := S16x512) ![0, 0] S1x512.size inb_S16x512_S1x512_0_0, p0⟩]

theorem cover_rows9 (p0 p1 p2 p3 p4 p5 p6 p7 p8 p9 p10 p11 p12 p13 p14 p15 : S1x512.Idx → Elt Ideal .f32) (y : S16x512.Idx) : ∃ pc ∈ rows9 p0 p1 p2 p3 p4 p5 p6 p7 p8 p9 p10 p11 p12 p13 p14 p15, y ∈ pc.1.set :=
  View.cover_of_tiledL (rows9 p0 p1 p2 p3 p4 p5 p6 p7 p8 p9 p10 p11 p12 p13 p14 p15) S1x512.size (by sl_kernel_rfl) y

/-- A point's coordinate is below the grid's 3125 points, so the sixteen table offsets of the point are inside the table. -/
theorem idxlt9 (i : grid9.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath9 (c : Dev nD) (i : grid9.Coords) (tb : HbBuf9 (F := Ideal) c tbM9) (fh0 : HbBuf9 (F := Ideal) c hbM9) (hT : ∀ x, (tb x).toNat < 50000) :
    S16x512.Idx → Elt Ideal .f32 :=
  fun y => asArr9 c fh0 (ValueIdx.ix2 (n0 := 50000) (n1 := 512) ⟨(tb (ValueIdx.ix1 (n := 50000) ⟨16 * (i 0).val + (y 0).val, idxlt9 i (y 0)⟩)).toNat, hT _⟩ (y 1))

/-- Row k's transfer delivers `gath9` at the row's indices. -/
theorem piece9 (c : Dev nD) (i : grid9.Coords) (tb : HbBuf9 (F := Ideal) c tbM9) (fh0 : HbBuf9 (F := Ideal) c hbM9) (hT : ∀ x, (tb x).toNat < 50000)
    (k : Fin 16) (w : BitVec 32) (hwd : w = tb (ValueIdx.ix1 (n := 50000) ⟨16 * (i 0).val + k.val, idxlt9 i k⟩))
    (off : Fin 2 → Nat) (hoff : off = ![w.toNat, 0]) (inb : ∀ a, off a + S1x512.size a ≤ S50000x512.size a)
    (inbk : ∀ a, (![k.val, 0] : Fin 2 → Nat) a + S1x512.size a ≤ S16x512.size a) (x : S1x512.Idx) :
    ReadAs.same.apply (View.read (Elt Ideal) (hbM9.slice (Rect.unit (s := S50000x512) off S1x512.size inb) (fun _ => rfl)).view fh0) x
      = gath9 c i tb fh0 hT ((Rect.unit (s := S16x512) ![k.val, 0] S1x512.size inbk).emb x) := by
  subst hwd
  rw [dma9_apply c fh0 _ (hT _) off hoff inb x]
  unfold gath9
  show asArr9 c fh0 _ = asArr9 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_9 x]; omega
  · show (x 1).val = 0 + 1 * (x 1).val
    omega

/-- The scratch, read whole after the sixteen waits, is `gath9`. -/
theorem scratch9_apply (c : Dev nD) (i : grid9.Coords) (tb : HbBuf9 (F := Ideal) c tbM9) (fh0 : HbBuf9 (F := Ideal) c hbM9) (hT : ∀ x, (tb x).toNat < 50000)
    (y : S16x512.Idx) :
    scM9.view.readCov (rows9
        (kernelRun9.sl.dma1 c i tb fh0 (chk9_1_of_lt _ (hT _)))
        (kernelRun9.sl.dma2 c i tb fh0 (chk9_2_of_lt _ (hT _)))
        (kernelRun9.sl.dma3 c i tb fh0 (chk9_3_of_lt _ (hT _)))
        (kernelRun9.sl.dma4 c i tb fh0 (chk9_4_of_lt _ (hT _)))
        (kernelRun9.sl.dma5 c i tb fh0 (chk9_5_of_lt _ (hT _)))
        (kernelRun9.sl.dma6 c i tb fh0 (chk9_6_of_lt _ (hT _)))
        (kernelRun9.sl.dma7 c i tb fh0 (chk9_7_of_lt _ (hT _)))
        (kernelRun9.sl.dma8 c i tb fh0 (chk9_8_of_lt _ (hT _)))
        (kernelRun9.sl.dma9 c i tb fh0 (chk9_9_of_lt _ (hT _)))
        (kernelRun9.sl.dma10 c i tb fh0 (chk9_10_of_lt _ (hT _)))
        (kernelRun9.sl.dma11 c i tb fh0 (chk9_11_of_lt _ (hT _)))
        (kernelRun9.sl.dma12 c i tb fh0 (chk9_12_of_lt _ (hT _)))
        (kernelRun9.sl.dma13 c i tb fh0 (chk9_13_of_lt _ (hT _)))
        (kernelRun9.sl.dma14 c i tb fh0 (chk9_14_of_lt _ (hT _)))
        (kernelRun9.sl.dma15 c i tb fh0 (chk9_15_of_lt _ (hT _)))
        (kernelRun9.sl.dma16 c i tb fh0 (chk9_16_of_lt _ (hT _)))) (Rect.unit (s := S16x512) ![0, 0] S16x512.size inb_S16x512_S16x512_0_0).toLoadRect y
      = gath9 c i tb fh0 hT y := by
  rw [View.readCov_eq_canon_ld _ _ _ (cover_rows9 _ _ _ _ _ _ _ _ _ _ _ _ _ _ _ _), View.ld_unit_zero (by funext d; fin_cases d <;> rfl)]
  refine View.canon_apply_of_pieces (gath9 c i tb fh0 hT) (rows9 _ _ _ _ _ _ _ _ _ _ _ _ _ _ _ _) ?_ y (cover_rows9 _ _ _ _ _ _ _ _ _ _ _ _ _ _ _ _ y)
  intro p hp x
  unfold rows9 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun9.sl.dma16
    exact piece9 c i tb fh0 hT (15 : Fin 16) (kernelRun9.sl.r_15 c i tb)
      (by unfold kernelRun9.sl.r_15; exact word9 c i tb (15 : Fin 16) (idxlt9 i _) _ (by rw [k9_off31_eq]; rfl) _ _) (k9_off32 (kernelRun9.sl.r_15 c i tb)) rfl _ _ x
  · dsimp only
    unfold kernelRun9.sl.dma15
    exact piece9 c i tb fh0 hT (14 : Fin 16) (kernelRun9.sl.r_14 c i tb)
      (by unfold kernelRun9.sl.r_14; exact word9 c i tb (14 : Fin 16) (idxlt9 i _) _ (by rw [k9_off29_eq]; rfl) _ _) (k9_off30 (kernelRun9.sl.r_14 c i tb)) rfl _ _ x
  · dsimp only
    unfold kernelRun9.sl.dma14
    exact piece9 c i tb fh0 hT (13 : Fin 16) (kernelRun9.sl.r_13 c i tb)
      (by unfold kernelRun9.sl.r_13; exact word9 c i tb (13 : Fin 16) (idxlt9 i _) _ (by rw [k9_off27_eq]; rfl) _ _) (k9_off28 (kernelRun9.sl.r_13 c i tb)) rfl _ _ x
  · dsimp only
    unfold kernelRun9.sl.dma13
    exact piece9 c i tb fh0 hT (12 : Fin 16) (kernelRun9.sl.r_12 c i tb)
      (by unfold kernelRun9.sl.r_12; exact word9 c i tb (12 : Fin 16) (idxlt9 i _) _ (by rw [k9_off25_eq]; rfl) _ _) (k9_off26 (kernelRun9.sl.r_12 c i tb)) rfl _ _ x
  · dsimp only
    unfold kernelRun9.sl.dma12
    exact piece9 c i tb fh0 hT (11 : Fin 16) (kernelRun9.sl.r_11 c i tb)
      (by unfold kernelRun9.sl.r_11; exact word9 c i tb (11 : Fin 16) (idxlt9 i _) _ (by rw [k9_off23_eq]; rfl) _ _) (k9_off24 (kernelRun9.sl.r_11 c i tb)) rfl _ _ x
  · dsimp only
    unfold kernelRun9.sl.dma11
    exact piece9 c i tb fh0 hT (10 : Fin 16) (kernelRun9.sl.r_10 c i tb)
      (by unfold kernelRun9.sl.r_10; exact word9 c i tb (10 : Fin 16) (idxlt9 i _) _ (by rw [k9_off21_eq]; rfl) _ _) (k9_off22 (kernelRun9.sl.r_10 c i tb)) rfl _ _ x
  · dsimp only
    unfold kernelRun9.sl.dma10
    exact piece9 c i tb fh0 hT (9 : Fin 16) (kernelRun9.sl.r_9 c i tb)
      (by unfold kernelRun9.sl.r_9; exact word9 c i tb (9 : Fin 16) (idxlt9 i _) _ (by rw [k9_off19_eq]; rfl) _ _) (k9_off20 (kernelRun9.sl.r_9 c i tb)) rfl _ _ x
  · dsimp only
    unfold kernelRun9.sl.dma9
    exact piece9 c i tb fh0 hT (8 : Fin 16) (kernelRun9.sl.r_8 c i tb)
      (by unfold kernelRun9.sl.r_8; exact word9 c i tb (8 : Fin 16) (idxlt9 i _) _ (by rw [k9_off17_eq]; rfl) _ _) (k9_off18 (kernelRun9.sl.r_8 c i tb)) rfl _ _ x
  · dsimp only
    unfold kernelRun9.sl.dma8
    exact piece9 c i tb fh0 hT (7 : Fin 16) (kernelRun9.sl.r_7 c i tb)
      (by unfold kernelRun9.sl.r_7; exact word9 c i tb (7 : Fin 16) (idxlt9 i _) _ (by rw [k9_off15_eq]; rfl) _ _) (k9_off16 (kernelRun9.sl.r_7 c i tb)) rfl _ _ x
  · dsimp only
    unfold kernelRun9.sl.dma7
    exact piece9 c i tb fh0 hT (6 : Fin 16) (kernelRun9.sl.r_6 c i tb)
      (by unfold kernelRun9.sl.r_6; exact word9 c i tb (6 : Fin 16) (idxlt9 i _) _ (by rw [k9_off13_eq]; rfl) _ _) (k9_off14 (kernelRun9.sl.r_6 c i tb)) rfl _ _ x
  · dsimp only
    unfold kernelRun9.sl.dma6
    exact piece9 c i tb fh0 hT (5 : Fin 16) (kernelRun9.sl.r_5 c i tb)
      (by unfold kernelRun9.sl.r_5; exact word9 c i tb (5 : Fin 16) (idxlt9 i _) _ (by rw [k9_off11_eq]; rfl) _ _) (k9_off12 (kernelRun9.sl.r_5 c i tb)) rfl _ _ x
  · dsimp only
    unfold kernelRun9.sl.dma5
    exact piece9 c i tb fh0 hT (4 : Fin 16) (kernelRun9.sl.r_4 c i tb)
      (by unfold kernelRun9.sl.r_4; exact word9 c i tb (4 : Fin 16) (idxlt9 i _) _ (by rw [k9_off9_eq]; rfl) _ _) (k9_off10 (kernelRun9.sl.r_4 c i tb)) rfl _ _ x
  · dsimp only
    unfold kernelRun9.sl.dma4
    exact piece9 c i tb fh0 hT (3 : Fin 16) (kernelRun9.sl.r_3 c i tb)
      (by unfold kernelRun9.sl.r_3; exact word9 c i tb (3 : Fin 16) (idxlt9 i _) _ (by rw [k9_off7_eq]; rfl) _ _) (k9_off8 (kernelRun9.sl.r_3 c i tb)) rfl _ _ x
  · dsimp only
    unfold kernelRun9.sl.dma3
    exact piece9 c i tb fh0 hT (2 : Fin 16) (kernelRun9.sl.r_2 c i tb)
      (by unfold kernelRun9.sl.r_2; exact word9 c i tb (2 : Fin 16) (idxlt9 i _) _ (by rw [k9_off5_eq]; rfl) _ _) (k9_off6 (kernelRun9.sl.r_2 c i tb)) rfl _ _ x
  · dsimp only
    unfold kernelRun9.sl.dma2
    exact piece9 c i tb fh0 hT (1 : Fin 16) (kernelRun9.sl.r_1 c i tb)
      (by unfold kernelRun9.sl.r_1; exact word9 c i tb (1 : Fin 16) (idxlt9 i _) _ (by rw [k9_off3_eq]; rfl) _ _) (k9_off4 (kernelRun9.sl.r_1 c i tb)) rfl _ _ x
  · dsimp only
    unfold kernelRun9.sl.dma1
    exact piece9 c i tb fh0 hT (0 : Fin 16) (kernelRun9.sl.r c i tb)
      (by unfold kernelRun9.sl.r; exact word9 c i tb (0 : Fin 16) (idxlt9 i _) _ (by rw [k9_off1_eq]; rfl) _ _) (k9_off2 (kernelRun9.sl.r c i tb)) rfl _ _ x

/-- THE BLOCK the body leaves, over any staging memrefs and contents: row r is the row of the gathered array the table's
    word `16 i + r` names, times the norm block's entry r. -/
theorem out9_1_apply (c : Dev nD) (i : grid9.Coords) (arg3 : Memref sig .tc .vmem S16x1 .f32) (harg3 : arg3.IsWhole) (arg4 : Memref sig .tc .vmem S16x512 .f32) (harg4 : arg4.IsWhole)
    (x0 : Vec Ideal S16x1 .f32) (tb : HbBuf9 (F := Ideal) c tbM9) (fh0 : HbBuf9 (F := Ideal) c hbM9) (hT : ∀ x, (tb x).toNat < 50000) (r : Fin 16) (j : Fin 512) :
    out9_1 c i arg3 harg3 arg4 harg4 x0 tb fh0 hT (ValueIdx.ix2 (n0 := 16) (n1 := 512) r j)
      = gath9 c i tb fh0 hT (ValueIdx.ix2 (n0 := 16) (n1 := 512) r j) * x0 (ValueIdx.ix2 (n0 := 16) (n1 := 1) r 0) := by
  unfold out9_1
  rw [View.read_writes_eq_canon _ _ _ (cover9_1 c i arg3 harg3 arg4 harg4 x0 tb fh0 hT)]
  unfold kernelRun9
  dsimp only
  rw [View.canon_unit_zero (by funext d; fin_cases d <;> rfl)]
  rw [pay9_apply]
  congr 1
  · unfold kernelRun9.sl.v194
    exact scratch9_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt9_apply (c : Dev nD) (t : Fin (cfg9 a).N) (r : Fin 16) (j : Fin 512) :
    outsAt9 V a hH c t (ValueIdx.ix2 (n0 := 16) (n1 := 512) r j)
      = hbArr9 V c (ValueIdx.ix2 (n0 := 50000) (n1 := 512) ⟨((a.1 0) (ValueIdx.ix1 (n := 50000) ⟨16 * t.val + r.val, idx_lt9 a t r⟩)).toNat, hH _⟩ j)
          * nmBlk9 V a c t (ValueIdx.ix2 (n0 := 16) (n1 := 1) r 0) := by
  unfold outsAt9
  refine (out9_1_apply c (grid9.coords t) _ _ _ _ (nmBlk9 V a c t) (a.1 0) (hbArr9 V c) (tbl_lt9 a hH c) r j).trans ?_
  congr 1
  unfold gath9
  show hbArr9 V c _ = hbArr9 V c _
  congr 1
  funext d
  apply Fin.ext
  fin_cases d
  · exact congrArg (fun n : Fin 50000 => ((a.1 0) (ValueIdx.ix1 (n := 50000) n)).toNat)
      (Fin.ext (by show 16 * (grid9.coords t 0).val + r.val = 16 * t.val + r.val; rw [coords9_val a t]))
  · rfl

end Cert.KernelIdeal.Hand

end
-- ==== Proof.G9Value.lean ====
/- Pipeline 9 at the ideal values: the output array after the region is the gathered and scaled array (row e: the row of
   the source array named by the table's word e, times the norm column's entry e). -/
import proofs.«414392_j7919919694132_2_alg».proof.Proof.G9Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg9 (F := Ideal)).Adm) (hH : ∀ j : Fin 50000, ((a.1 0) (ValueIdx.ix1 j)).toNat < 50000)

/-! ## From blocks to the array -/

/-- What point t writes back is block t of the gathered and scaled array. -/
theorem flushed9_1_eq (c : Dev nD) (t : Fin (cfg9 a).N) :
    (dat9 (F := Ideal) V a hH c).flushed 1 t = (((cfg9 a).win 1).blk t).view.read (Elt Ideal) (G9v V a hH c) := by
  show ((cfg9 a).win 1).cut (grid9.coords t) ((dat9 V a hH c).after 1 t) = _
  rw [after9_1]
  refine funext fun (y : S16x512.Idx) => ?_
  obtain ⟨r, j, rfl⟩ : ∃ (r : Fin 16) (j : Fin 512), y = ValueIdx.ix2 r j := ⟨y 0, y 1, ValueIdx.eq_ix2 y⟩
  show outsAt9 V a hH c t (ValueIdx.ix2 (n0 := 16) (n1 := 512) r j) = G9v V a hH c ((((cfg9 a).win 1).blk t).view.emb (ValueIdx.ix2 (n0 := 16) (n1 := 512) r j))
  rw [emb9_1, outsAt9_apply V a hH c t r j, nmBlk9_apply V a c t r]

/-- Every index of the array is in some point's block: row e is in block e / 16. -/
theorem cover9_blk (i : S50000x512.Idx) :
    ∃ t : Fin (cfg9 a).N, ((cfg9 a).win 1).flush t = true ∧ i ∈ (((cfg9 a).win 1).blk t).view.set := by
  have hi0 : (i 0).val < 50000 := (i 0).isLt
  have hi1 : (i 1).val < 512 := (i 1).isLt
  have hq : (i 0).val / 16 < (cfg9 a).N := by rw [N9_eq a]; omega
  have hr : (i 0).val % 16 < 16 := Nat.mod_lt _ (by omega)
  obtain ⟨t, ht⟩ : ∃ t : Fin (cfg9 a).N, t.val = (i 0).val / 16 := ⟨⟨(i 0).val / 16, hq⟩, rfl⟩
  refine ⟨t, flush9_1 a t, ?_⟩
  have e : i = ValueIdx.ix2 (n0 := 50000) (n1 := 512) ⟨16 * t.val + (i 0).val % 16, idx_lt9 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk9_1 a t ⟨(i 0).val % 16, hr⟩ ⟨(i 1).val, hi1⟩

/-- The output array after the region is the gathered and scaled array, -/
theorem arrAt9_1_eq (c : Dev nD) : (dat9 (F := Ideal) V a hH c).arrAt 1 (cfg9 a).N = G9v V a hH c :=
  (dat9 (F := Ideal) V a hH c).arrAt_eq_of_cover 1 (G9v V a hH c) (fun t _ => flushed9_1_eq V a hH c t) (cover9_blk a)

/-- index by index: entry (e, j) is the source array's entry (the table's word e, j) times the norm column's entry e. -/
theorem arrAt9_1 (c : Dev nD) (e : Fin 50000) (j : Fin 512) :
    (dat9 (F := Ideal) V a hH c).arrAt 1 (cfg9 a).N (ValueIdx.ix2 (n0 := 50000) (n1 := 512) e j)
      = hbArr9 V c (ValueIdx.ix2 (n0 := 50000) (n1 := 512) ⟨((a.1 0) (ValueIdx.ix1 (n := 50000) e)).toNat, hH e⟩ j)
          * nmArr9 V c (ValueIdx.ix2 (n0 := 50000) (n1 := 1) e 0) :=
  (congrFun (arrAt9_1_eq V a hH c) (ValueIdx.ix2 (n0 := 50000) (n1 := 512) e j)).trans rfl

end Cert.KernelIdeal.Hand

end
-- ==== Proof.G11Idx.lean ====
/- Pipeline 11 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G11
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg11 (F := Ideal)).Adm) (hH : ∀ j : Fin 50000, ((a.1 0) (ValueIdx.ix1 j)).toNat < 50000)

/-! ## The arrays, by name -/

/-- The array the rows are gathered from, and the norm column. -/
abbrev hbArr11 (c : Dev nD) : FVec Ideal S50000x262 .f32 := V c main_v71
abbrev nmArr11 (c : Dev nD) : FVec Ideal S50000x1 .f32 := V c main_v74
/-- The norm block at a point. -/
abbrev nmBlk11 (c : Dev nD) (t : Fin (cfg11 a).N) : FVec Ideal S16x1 .f32 := iblk11 V a c 0 t

/-- The gathered and scaled array: row e is the row of the source array named by the table's word e, times the norm
    column's entry e. -/
abbrev G11v (c : Dev nD) : (⟨S50000x262, .f32⟩ : BufTy).Contents (Elt Ideal) := fun i =>
  hbArr11 V c (ValueIdx.ix2 (n0 := 50000) (n1 := 262) ⟨((a.1 0) (ValueIdx.ix1 (n := 50000) (i 0))).toNat, hH (i 0)⟩ (i 1))
    * nmArr11 V c (ValueIdx.ix2 (n0 := 50000) (n1 := 1) (i 0) 0)

/-! ## The index maps at a point -/

theorem N11_eq : (cfg11 a).N = 3125 := N_11

/-- Row r of point t's block is a row of the array. -/
theorem idx_lt11 (t : Fin (cfg11 a).N) (r : Fin 16) : 16 * t.val + r.val < 50000 := by
  have ht : t.val < 3125 := (N11_eq a) ▸ t.isLt
  have := r.isLt; omega

/-- On the one-axis grid the point's coordinate is the point. -/
theorem coords11_val (t : Fin (cfg11 a).N) : (grid11.coords t 0).val = t.val := by
  have h : t.val < 3125 := (N11_eq a) ▸ t.isLt
  show t.val / grid11.stride 0 % 3125 = t.val
  rw [show grid11.stride 0 = 1 from by decide, Nat.div_one, Nat.mod_eq_of_lt h]

theorem idx11_0 (t : Fin (cfg11 a).N) : ((cfg11 a).win 0).index t = cc11_transform_1 (grid11.coords t) := rfl
theorem idx11_1 (t : Fin (cfg11 a).N) : ((cfg11 a).win 1).index t = cc11_transform_2 (grid11.coords t) := rfl

theorem tr11_1_0 (i : grid11.Coords) : cc11_transform_1 i (0 : Fin 2) = (i 0).val := by
  show (BitVec.ofNat 32 (i 0).val).toNat = _
  have h := (i 0).isLt
  have hb : grid11.bound 0 = 3125 := rfl
  rw [BitVec.toNat_ofNat]; exact Nat.mod_eq_of_lt (by omega)
theorem tr11_1_1 (i : grid11.Coords) : cc11_transform_1 i (1 : Fin 2) = 0 := rfl
theorem tr11_2_0 (i : grid11.Coords) : cc11_transform_2 i (0 : Fin 2) = (i 0).val := by
  show (BitVec.ofNat 32 (i 0).val).toNat = _
  have h := (i 0).isLt
  have hb : grid11.bound 0 = 3125 := rfl
  rw [BitVec.toNat_ofNat]; exact Nat.mod_eq_of_lt (by omega)
theorem tr11_2_1 (i : grid11.Coords) : cc11_transform_2 i (1 : Fin 2) = 0 := rfl

/-- Both windows' row-block index at point t is t; their column-block index is zero. -/
theorem index11_0_0 (t : Fin (cfg11 a).N) : ((cfg11 a).win 0).index t (0 : Fin 2) = t.val := by rw [idx11_0, tr11_1_0, coords11_val]
theorem index11_0_1 (t : Fin (cfg11 a).N) : ((cfg11 a).win 0).index t (1 : Fin 2) = 0 := by rw [idx11_0, tr11_1_1]
theorem index11_1_0 (t : Fin (cfg11 a).N) : ((cfg11 a).win 1).index t (0 : Fin 2) = t.val := by rw [idx11_1, tr11_2_0, coords11_val]
theorem index11_1_1 (t : Fin (cfg11 a).N) : ((cfg11 a).win 1).index t (1 : Fin 2) = 0 := by rw [idx11_1, tr11_2_1]

/-- The output window is written back at every point: its block index moves with the point. -/
theorem flush11_1 (t : Fin (cfg11 a).N) : ((cfg11 a).win 1).flush t = true := by
  rw [Window.flush_out _ rfl]
  by_cases h : t.val + 1 = grid11.N
  · exact Or.inl h
  · have hN : grid11.N = 3125 := N_11
    have ht : t.val < 3125 := (N11_eq a) ▸ t.isLt
    have h1 : t.val + 1 < grid11.N := by omega
    refine Or.inr ⟨h1, fun e => ?_⟩
    have e0 : ((cfg11 a).win 1).index ⟨t.val + 1, h1⟩ (0 : Fin 2) = ((cfg11 a).win 1).index t (0 : Fin 2) := congrFun e (0 : Fin 2)
    rw [index11_1_0, index11_1_0] at e0
    exact absurd e0 (by show t.val + 1 ≠ t.val; omega)

/-! ## The blocks at a point -/

/-- Entry (r, j) of point t's output block is entry (16 t + r, j) of the array. -/
theorem emb11_1 (t : Fin (cfg11 a).N) (r : Fin 16) (j : Fin 262) :
    (((cfg11 a).win 1).blk t).view.emb (ValueIdx.ix2 (n0 := 16) (n1 := 262) r j)
      = ValueIdx.ix2 (n0 := 50000) (n1 := 262) ⟨16 * t.val + r.val, idx_lt11 a t r⟩ j := by
  funext k; apply Fin.ext
  match k with
  | ⟨0, _⟩ => show ((cfg11 a).win 1).index t (0 : Fin 2) * 16 + 1 * r.val = 16 * t.val + r.val; rw [index11_1_0]; omega
  | ⟨1, _⟩ => show ((cfg11 a).win 1).index t (1 : Fin 2) * 262 + 1 * j.val = j.val; rw [index11_1_1]; omega

/-- The norm block at point t, row r, is the norm column's entry 16 t + r. -/
theorem nmBlk11_apply (c : Dev nD) (t : Fin (cfg11 a).N) (r : Fin 16) :
    nmBlk11 V a c t (ValueIdx.ix2 (n0 := 16) (n1 := 1) r 0)
      = nmArr11 V c (ValueIdx.ix2 (n0 := 50000) (n1 := 1) ⟨16 * t.val + r.val, idx_lt11 a t r⟩ 0) := by
  show V c main_v74 ((((cfg11 a).win 0).blk t).view.emb (ValueIdx.ix2 (n0 := 16) (n1 := 1) r 0)) = V c main_v74 (ValueIdx.ix2 (n0 := 50000) (n1 := 1) ⟨16 * t.val + r.val, idx_lt11 a t r⟩ 0)
  refine congrArg (V c main_v74) ?_
  funext k; apply Fin.ext
  match k with
  | ⟨0, _⟩ => show ((cfg11 a).win 0).index t (0 : Fin 2) * 16 + 1 * r.val = 16 * t.val + r.val; rw [index11_0_0]; omega
  | ⟨1, _⟩ => show ((cfg11 a).win 0).index t (1 : Fin 2) * 1 + 1 * 0 = 0; rw [index11_0_1]

/-- Entry (16 t + r, j) of the array is in point t's block. -/
theorem mem_blk11_1 (t : Fin (cfg11 a).N) (r : Fin 16) (j : Fin 262) :
    ValueIdx.ix2 (n0 := 50000) (n1 := 262) ⟨16 * t.val + r.val, idx_lt11 a t r⟩ j ∈ (((cfg11 a).win 1).blk t).view.set := by
  rw [← emb11_1]; exact View.emb_mem_set _ _

end Cert.KernelIdeal.Hand

end
-- ==== Proof.G11Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col11_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 11's one store at (r, j): the scratch entry (r, j) times the norm block's entry r. -/
theorem pay11_apply (v192 : Vec Ideal S16x1 .f32) (v194 : Vec Ideal S16x262 .f32) (r : Fin 16) (j : Fin 262) :
    k11_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k11_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col11_262 _ r j).trans (congrFun (shapeCast_self v192 shapeCasts_S16x1_S16x1) _))

end Cert.KernelIdeal.Hand

end
-- ==== Proof.G11Block.lean ====
/- Pipeline 11 at the ideal values: the block the body leaves at a point, entry by entry. -/
import proofs.«414392_j7919919694132_2_alg».proof.Proof.G11Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G11Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg11 (F := Ideal)).Adm) (hH : ∀ j : Fin 50000, ((a.1 0) (ValueIdx.ix1 j)).toNat < 50000)

/-! ## Indices of a one-row slice -/

/-- A one-row index has leading coordinate 0. -/
theorem row0_11 (x : S1x262.Idx) : (x 0).val = 0 := by
  have h := (x 0).isLt
  have e : S1x262.size 0 = 1 := by decide
  omega

/-- The gathered array, read as a matrix of ideal values. -/
abbrev asArr11 (c : Dev nD) (fh0 : HbBuf11 (F := Ideal) c hbM11) : FVec Ideal S50000x262 .f32 := fh0

/-- The table's word at offset `16 i + k`, as the body reads it. -/
theorem word11 (c : Dev nD) (i : grid11.Coords) (tb : HbBuf11 (F := Ideal) c tbM11) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM11.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma11_apply (c : Dev nD) (fh0 : HbBuf11 (F := Ideal) c hbM11) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM11.slice (Rect.unit (s := S50000x262) off S1x262.size inb) (fun _ => rfl)).view fh0) x
      = asArr11 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_11 x]; omega
  · show 0 + 1 * (x 1).val = (x 1).val
    omega

/-- The sixteen rows of the scratch, each the payload of its transfer. -/
def rows11 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows11 (p0 p1 p2 p3 p4 p5 p6 p7 p8 p9 p10 p11 p12 p13 p14 p15 : S1x262.Idx → Elt Ideal .f32) (y : S16x262.Idx) : ∃ pc ∈ rows11 p0 p1 p2 p3 p4 p5 p6 p7 p8 p9 p10 p11 p12 p13 p14 p15, y ∈ pc.1.set :=
  View.cover_of_tiledL (rows11 p0 p1 p2 p3 p4 p5 p6 p7 p8 p9 p10 p11 p12 p13 p14 p15) S1x262.size (by sl_kernel_rfl) y

/-- A point's coordinate is below the grid's 3125 points, so the sixteen table offsets of the point are inside the table. -/
theorem idxlt11 (i : grid11.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath11 (c : Dev nD) (i : grid11.Coords) (tb : HbBuf11 (F := Ideal) c tbM11) (fh0 : HbBuf11 (F := Ideal) c hbM11) (hT : ∀ x, (tb x).toNat < 50000) :
    S16x262.Idx → Elt Ideal .f32 :=
  fun y => asArr11 c fh0 (ValueIdx.ix2 (n0 := 50000) (n1 := 262) ⟨(tb (ValueIdx.ix1 (n := 50000) ⟨16 * (i 0).val + (y 0).val, idxlt11 i (y 0)⟩)).toNat, hT _⟩ (y 1))

/-- Row k's transfer delivers `gath11` at the row's indices. -/
theorem piece11 (c : Dev nD) (i : grid11.Coords) (tb : HbBuf11 (F := Ideal) c tbM11) (fh0 : HbBuf11 (F := Ideal) c hbM11) (hT : ∀ x, (tb x).toNat < 50000)
    (k : Fin 16) (w : BitVec 32) (hwd : w = tb (ValueIdx.ix1 (n := 50000) ⟨16 * (i 0).val + k.val, idxlt11 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM11.slice (Rect.unit (s := S50000x262) off S1x262.size inb) (fun _ => rfl)).view fh0) x
      = gath11 c i tb fh0 hT ((Rect.unit (s := S16x262) ![k.val, 0] S1x262.size inbk).emb x) := by
  subst hwd
  rw [dma11_apply c fh0 _ (hT _) off hoff inb x]
  unfold gath11
  show asArr11 c fh0 _ = asArr11 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_11 x]; omega
  · show (x 1).val = 0 + 1 * (x 1).val
    omega

set_option maxHeartbeats 1000000 in
/-- The scratch, read whole after the sixteen waits, is `gath11`. -/
theorem scratch11_apply (c : Dev nD) (i : grid11.Coords) (tb : HbBuf11 (F := Ideal) c tbM11) (fh0 : HbBuf11 (F := Ideal) c hbM11) (hT : ∀ x, (tb x).toNat < 50000)
    (y : S16x262.Idx) :
    scM11.view.readCov (rows11
        (kernelRun11.sl.dma1 c i tb fh0 (chk11_1_of_lt _ (hT _)))
        (kernelRun11.sl.dma2 c i tb fh0 (chk11_2_of_lt _ (hT _)))
        (kernelRun11.sl.dma3 c i tb fh0 (chk11_3_of_lt _ (hT _)))
        (kernelRun11.sl.dma4 c i tb fh0 (chk11_4_of_lt _ (hT _)))
        (kernelRun11.sl.dma5 c i tb fh0 (chk11_5_of_lt _ (hT _)))
        (kernelRun11.sl.dma6 c i tb fh0 (chk11_6_of_lt _ (hT _)))
        (kernelRun11.sl.dma7 c i tb fh0 (chk11_7_of_lt _ (hT _)))
        (kernelRun11.sl.dma8 c i tb fh0 (chk11_8_of_lt _ (hT _)))
        (kernelRun11.sl.dma9 c i tb fh0 (chk11_9_of_lt _ (hT _)))
        (kernelRun11.sl.dma10 c i tb fh0 (chk11_10_of_lt _ (hT _)))
        (kernelRun11.sl.dma11 c i tb fh0 (chk11_11_of_lt _ (hT _)))
        (kernelRun11.sl.dma12 c i tb fh0 (chk11_12_of_lt _ (hT _)))
        (kernelRun11.sl.dma13 c i tb fh0 (chk11_13_of_lt _ (hT _)))
        (kernelRun11.sl.dma14 c i tb fh0 (chk11_14_of_lt _ (hT _)))
        (kernelRun11.sl.dma15 c i tb fh0 (chk11_15_of_lt _ (hT _)))
        (kernelRun11.sl.dma16 c i tb fh0 (chk11_16_of_lt _ (hT _)))) (Rect.unit (s := S16x262) ![0, 0] S16x262.size inb_S16x262_S16x262_0_0).toLoadRect y
      = gath11 c i tb fh0 hT y := by
  rw [View.readCov_eq_canon_ld _ _ _ (cover_rows11 _ _ _ _ _ _ _ _ _ _ _ _ _ _ _ _), View.ld_unit_zero (by funext d; fin_cases d <;> rfl)]
  refine View.canon_apply_of_pieces (gath11 c i tb fh0 hT) (rows11 _ _ _ _ _ _ _ _ _ _ _ _ _ _ _ _) ?_ y (cover_rows11 _ _ _ _ _ _ _ _ _ _ _ _ _ _ _ _ y)
  intro p hp x
  unfold rows11 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun11.sl.dma16
    exact piece11 c i tb fh0 hT (15 : Fin 16) (kernelRun11.sl.r_15 c i tb)
      (by unfold kernelRun11.sl.r_15; exact word11 c i tb (15 : Fin 16) (idxlt11 i _) _ (by rw [k11_off31_eq]; rfl) _ _) (k11_off32 (kernelRun11.sl.r_15 c i tb)) rfl _ _ x
  · dsimp only
    unfold kernelRun11.sl.dma15
    exact piece11 c i tb fh0 hT (14 : Fin 16) (kernelRun11.sl.r_14 c i tb)
      (by unfold kernelRun11.sl.r_14; exact word11 c i tb (14 : Fin 16) (idxlt11 i _) _ (by rw [k11_off29_eq]; rfl) _ _) (k11_off30 (kernelRun11.sl.r_14 c i tb)) rfl _ _ x
  · dsimp only
    unfold kernelRun11.sl.dma14
    exact piece11 c i tb fh0 hT (13 : Fin 16) (kernelRun11.sl.r_13 c i tb)
      (by unfold kernelRun11.sl.r_13; exact word11 c i tb (13 : Fin 16) (idxlt11 i _) _ (by rw [k11_off27_eq]; rfl) _ _) (k11_off28 (kernelRun11.sl.r_13 c i tb)) rfl _ _ x
  · dsimp only
    unfold kernelRun11.sl.dma13
    exact piece11 c i tb fh0 hT (12 : Fin 16) (kernelRun11.sl.r_12 c i tb)
      (by unfold kernelRun11.sl.r_12; exact word11 c i tb (12 : Fin 16) (idxlt11 i _) _ (by rw [k11_off25_eq]; rfl) _ _) (k11_off26 (kernelRun11.sl.r_12 c i tb)) rfl _ _ x
  · dsimp only
    unfold kernelRun11.sl.dma12
    exact piece11 c i tb fh0 hT (11 : Fin 16) (kernelRun11.sl.r_11 c i tb)
      (by unfold kernelRun11.sl.r_11; exact word11 c i tb (11 : Fin 16) (idxlt11 i _) _ (by rw [k11_off23_eq]; rfl) _ _) (k11_off24 (kernelRun11.sl.r_11 c i tb)) rfl _ _ x
  · dsimp only
    unfold kernelRun11.sl.dma11
    exact piece11 c i tb fh0 hT (10 : Fin 16) (kernelRun11.sl.r_10 c i tb)
      (by unfold kernelRun11.sl.r_10; exact word11 c i tb (10 : Fin 16) (idxlt11 i _) _ (by rw [k11_off21_eq]; rfl) _ _) (k11_off22 (kernelRun11.sl.r_10 c i tb)) rfl _ _ x
  · dsimp only
    unfold kernelRun11.sl.dma10
    exact piece11 c i tb fh0 hT (9 : Fin 16) (kernelRun11.sl.r_9 c i tb)
      (by unfold kernelRun11.sl.r_9; exact word11 c i tb (9 : Fin 16) (idxlt11 i _) _ (by rw [k11_off19_eq]; rfl) _ _) (k11_off20 (kernelRun11.sl.r_9 c i tb)) rfl _ _ x
  · dsimp only
    unfold kernelRun11.sl.dma9
    exact piece11 c i tb fh0 hT (8 : Fin 16) (kernelRun11.sl.r_8 c i tb)
      (by unfold kernelRun11.sl.r_8; exact word11 c i tb (8 : Fin 16) (idxlt11 i _) _ (by rw [k11_off17_eq]; rfl) _ _) (k11_off18 (kernelRun11.sl.r_8 c i tb)) rfl _ _ x
  · dsimp only
    unfold kernelRun11.sl.dma8
    exact piece11 c i tb fh0 hT (7 : Fin 16) (kernelRun11.sl.r_7 c i tb)
      (by unfold kernelRun11.sl.r_7; exact word11 c i tb (7 : Fin 16) (idxlt11 i _) _ (by rw [k11_off15_eq]; rfl) _ _) (k11_off16 (kernelRun11.sl.r_7 c i tb)) rfl _ _ x
  · dsimp only
    unfold kernelRun11.sl.dma7
    exact piece11 c i tb fh0 hT (6 : Fin 16) (kernelRun11.sl.r_6 c i tb)
      (by unfold kernelRun11.sl.r_6; exact word11 c i tb (6 : Fin 16) (idxlt11 i _) _ (by rw [k11_off13_eq]; rfl) _ _) (k11_off14 (kernelRun11.sl.r_6 c i tb)) rfl _ _ x
  · dsimp only
    unfold kernelRun11.sl.dma6
    exact piece11 c i tb fh0 hT (5 : Fin 16) (kernelRun11.sl.r_5 c i tb)
      (by unfold kernelRun11.sl.r_5; exact word11 c i tb (5 : Fin 16) (idxlt11 i _) _ (by rw [k11_off11_eq]; rfl) _ _) (k11_off12 (kernelRun11.sl.r_5 c i tb)) rfl _ _ x
  · dsimp only
    unfold kernelRun11.sl.dma5
    exact piece11 c i tb fh0 hT (4 : Fin 16) (kernelRun11.sl.r_4 c i tb)
      (by unfold kernelRun11.sl.r_4; exact word11 c i tb (4 : Fin 16) (idxlt11 i _) _ (by rw [k11_off9_eq]; rfl) _ _) (k11_off10 (kernelRun11.sl.r_4 c i tb)) rfl _ _ x
  · dsimp only
    unfold kernelRun11.sl.dma4
    exact piece11 c i tb fh0 hT (3 : Fin 16) (kernelRun11.sl.r_3 c i tb)
      (by unfold kernelRun11.sl.r_3; exact word11 c i tb (3 : Fin 16) (idxlt11 i _) _ (by rw [k11_off7_eq]; rfl) _ _) (k11_off8 (kernelRun11.sl.r_3 c i tb)) rfl _ _ x
  · dsimp only
    unfold kernelRun11.sl.dma3
    exact piece11 c i tb fh0 hT (2 : Fin 16) (kernelRun11.sl.r_2 c i tb)
      (by unfold kernelRun11.sl.r_2; exact word11 c i tb (2 : Fin 16) (idxlt11 i _) _ (by rw [k11_off5_eq]; rfl) _ _) (k11_off6 (kernelRun11.sl.r_2 c i tb)) rfl _ _ x
  · dsimp only
    unfold kernelRun11.sl.dma2
    exact piece11 c i tb fh0 hT (1 : Fin 16) (kernelRun11.sl.r_1 c i tb)
      (by unfold kernelRun11.sl.r_1; exact word11 c i tb (1 : Fin 16) (idxlt11 i _) _ (by rw [k11_off3_eq]; rfl) _ _) (k11_off4 (kernelRun11.sl.r_1 c i tb)) rfl _ _ x
  · dsimp only
    unfold kernelRun11.sl.dma1
    exact piece11 c i tb fh0 hT (0 : Fin 16) (kernelRun11.sl.r c i tb)
      (by unfold kernelRun11.sl.r; exact word11 c i tb (0 : Fin 16) (idxlt11 i _) _ (by rw [k11_off1_eq]; rfl) _ _) (k11_off2 (kernelRun11.sl.r c i tb)) rfl _ _ x

/-- THE BLOCK the body leaves, over any staging memrefs and contents: row r is the row of the gathered array the table's
    word `16 i + r` names, times the norm block's entry r. -/
theorem out11_1_apply (c : Dev nD) (i : grid11.Coords) (arg3 : Memref sig .tc .vmem S16x1 .f32) (harg3 : arg3.IsWhole) (arg4 : Memref sig .tc .vmem S16x262 .f32) (harg4 : arg4.IsWhole)
    (x0 : Vec Ideal S16x1 .f32) (tb : HbBuf11 (F := Ideal) c tbM11) (fh0 : HbBuf11 (F := Ideal) c hbM11) (hT : ∀ x, (tb x).toNat < 50000) (r : Fin 16) (j : Fin 262) :
    out11_1 c i arg3 harg3 arg4 harg4 x0 tb fh0 hT (ValueIdx.ix2 (n0 := 16) (n1 := 262) r j)
      = gath11 c i tb fh0 hT (ValueIdx.ix2 (n0 := 16) (n1 := 262) r j) * x0 (ValueIdx.ix2 (n0 := 16) (n1 := 1) r 0) := by
  unfold out11_1
  rw [View.read_writes_eq_canon _ _ _ (cover11_1 c i arg3 harg3 arg4 harg4 x0 tb fh0 hT)]
  unfold kernelRun11
  dsimp only
  rw [View.canon_unit_zero (by funext d; fin_cases d <;> rfl)]
  rw [pay11_apply]
  congr 1
  · unfold kernelRun11.sl.v194
    exact scratch11_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt11_apply (c : Dev nD) (t : Fin (cfg11 a).N) (r : Fin 16) (j : Fin 262) :
    outsAt11 V a hH c t (ValueIdx.ix2 (n0 := 16) (n1 := 262) r j)
      = hbArr11 V c (ValueIdx.ix2 (n0 := 50000) (n1 := 262) ⟨((a.1 0) (ValueIdx.ix1 (n := 50000) ⟨16 * t.val + r.val, idx_lt11 a t r⟩)).toNat, hH _⟩ j)
          * nmBlk11 V a c t (ValueIdx.ix2 (n0 := 16) (n1 := 1) r 0) := by
  unfold outsAt11
  refine (out11_1_apply c (grid11.coords t) _ _ _ _ (nmBlk11 V a c t) (a.1 0) (hbArr11 V c) (tbl_lt11 a hH c) r j).trans ?_
  congr 1
  unfold gath11
  show hbArr11 V c _ = hbArr11 V c _
  congr 1
  funext d
  apply Fin.ext
  fin_cases d
  · exact congrArg (fun n : Fin 50000 => ((a.1 0) (ValueIdx.ix1 (n := 50000) n)).toNat)
      (Fin.ext (by show 16 * (grid11.coords t 0).val + r.val = 16 * t.val + r.val; rw [coords11_val a t]))
  · rfl

end Cert.KernelIdeal.Hand

end
-- ==== Proof.G11Value.lean ====
/- Pipeline 11 at the ideal values: the output array after the region is the gathered and scaled array (row e: the row of
   the source array named by the table's word e, times the norm column's entry e). -/
import proofs.«414392_j7919919694132_2_alg».proof.Proof.G11Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg11 (F := Ideal)).Adm) (hH : ∀ j : Fin 50000, ((a.1 0) (ValueIdx.ix1 j)).toNat < 50000)

/-! ## From blocks to the array -/

/-- What point t writes back is block t of the gathered and scaled array. -/
theorem flushed11_1_eq (c : Dev nD) (t : Fin (cfg11 a).N) :
    (dat11 (F := Ideal) V a hH c).flushed 1 t = (((cfg11 a).win 1).blk t).view.read (Elt Ideal) (G11v V a hH c) := by
  show ((cfg11 a).win 1).cut (grid11.coords t) ((dat11 V a hH c).after 1 t) = _
  rw [after11_1]
  refine funext fun (y : S16x262.Idx) => ?_
  obtain ⟨r, j, rfl⟩ : ∃ (r : Fin 16) (j : Fin 262), y = ValueIdx.ix2 r j := ⟨y 0, y 1, ValueIdx.eq_ix2 y⟩
  show outsAt11 V a hH c t (ValueIdx.ix2 (n0 := 16) (n1 := 262) r j) = G11v V a hH c ((((cfg11 a).win 1).blk t).view.emb (ValueIdx.ix2 (n0 := 16) (n1 := 262) r j))
  rw [emb11_1, outsAt11_apply V a hH c t r j, nmBlk11_apply V a c t r]

/-- Every index of the array is in some point's block: row e is in block e / 16. -/
theorem cover11_blk (i : S50000x262.Idx) :
    ∃ t : Fin (cfg11 a).N, ((cfg11 a).win 1).flush t = true ∧ i ∈ (((cfg11 a).win 1).blk t).view.set := by
  have hi0 : (i 0).val < 50000 := (i 0).isLt
  have hi1 : (i 1).val < 262 := (i 1).isLt
  have hq : (i 0).val / 16 < (cfg11 a).N := by rw [N11_eq a]; omega
  have hr : (i 0).val % 16 < 16 := Nat.mod_lt _ (by omega)
  obtain ⟨t, ht⟩ : ∃ t : Fin (cfg11 a).N, t.val = (i 0).val / 16 := ⟨⟨(i 0).val / 16, hq⟩, rfl⟩
  refine ⟨t, flush11_1 a t, ?_⟩
  have e : i = ValueIdx.ix2 (n0 := 50000) (n1 := 262) ⟨16 * t.val + (i 0).val % 16, idx_lt11 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk11_1 a t ⟨(i 0).val % 16, hr⟩ ⟨(i 1).val, hi1⟩

/-- The output array after the region is the gathered and scaled array, -/
theorem arrAt11_1_eq (c : Dev nD) : (dat11 (F := Ideal) V a hH c).arrAt 1 (cfg11 a).N = G11v V a hH c :=
  (dat11 (F := Ideal) V a hH c).arrAt_eq_of_cover 1 (G11v V a hH c) (fun t _ => flushed11_1_eq V a hH c t) (cover11_blk a)

/-- index by index: entry (e, j) is the source array's entry (the table's word e, j) times the norm column's entry e. -/
theorem arrAt11_1 (c : Dev nD) (e : Fin 50000) (j : Fin 262) :
    (dat11 (F := Ideal) V a hH c).arrAt 1 (cfg11 a).N (ValueIdx.ix2 (n0 := 50000) (n1 := 262) e j)
      = hbArr11 V c (ValueIdx.ix2 (n0 := 50000) (n1 := 262) ⟨((a.1 0) (ValueIdx.ix1 (n := 50000) e)).toNat, hH e⟩ j)
          * nmArr11 V c (ValueIdx.ix2 (n0 := 50000) (n1 := 1) e 0) :=
  (congrFun (arrAt11_1_eq V a hH c) (ValueIdx.ix2 (n0 := 50000) (n1 := 262) e j)).trans rfl

end Cert.KernelIdeal.Hand

end
-- ==== Proof.G12Idx.lean ====
/- Pipeline 12 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G12
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg12 (F := Ideal)).Adm) (hH : ∀ j : Fin 50000, ((a.1 0) (ValueIdx.ix1 j)).toNat < 50000)

/-! ## The arrays, by name -/

/-- The array the rows are gathered from, and the norm column. -/
abbrev hbArr12 (c : Dev nD) : FVec Ideal S50000x262 .f32 := V c main_v71
abbrev nmArr12 (c : Dev nD) : FVec Ideal S50000x1 .f32 := V c main_v77
/-- The norm block at a point. -/
abbrev nmBlk12 (c : Dev nD) (t : Fin (cfg12 a).N) : FVec Ideal S16x1 .f32 := iblk12 V a c 0 t

/-- The gathered and scaled array: row e is the row of the source array named by the table's word e, times the norm
    column's entry e. -/
abbrev G12v (c : Dev nD) : (⟨S50000x262, .f32⟩ : BufTy).Contents (Elt Ideal) := fun i =>
  hbArr12 V c (ValueIdx.ix2 (n0 := 50000) (n1 := 262) ⟨((a.1 0) (ValueIdx.ix1 (n := 50000) (i 0))).toNat, hH (i 0)⟩ (i 1))
    * nmArr12 V c (ValueIdx.ix2 (n0 := 50000) (n1 := 1) (i 0) 0)

/-! ## The index maps at a point -/

theorem N12_eq : (cfg12 a).N = 3125 := N_12

/-- Row r of point t's block is a row of the array. -/
theorem idx_lt12 (t : Fin (cfg12 a).N) (r : Fin 16) : 16 * t.val + r.val < 50000 := by
  have ht : t.val < 3125 := (N12_eq a) ▸ t.isLt
  have := r.isLt; omega

/-- On the one-axis grid the point's coordinate is the point. -/
theorem coords12_val (t : Fin (cfg12 a).N) : (grid12.coords t 0).val = t.val := by
  have h : t.val < 3125 := (N12_eq a) ▸ t.isLt
  show t.val / grid12.stride 0 % 3125 = t.val
  rw [show grid12.stride 0 = 1 from by decide, Nat.div_one, Nat.mod_eq_of_lt h]

theorem idx12_0 (t : Fin (cfg12 a).N) : ((cfg12 a).win 0).index t = cc12_transform_1 (grid12.coords t) := rfl
theorem idx12_1 (t : Fin (cfg12 a).N) : ((cfg12 a).win 1).index t = cc12_transform_2 (grid12.coords t) := rfl

theorem tr12_1_0 (i : grid12.Coords) : cc12_transform_1 i (0 : Fin 2) = (i 0).val := by
  show (BitVec.ofNat 32 (i 0).val).toNat = _
  have h := (i 0).isLt
  have hb : grid12.bound 0 = 3125 := rfl
  rw [BitVec.toNat_ofNat]; exact Nat.mod_eq_of_lt (by omega)
theorem tr12_1_1 (i : grid12.Coords) : cc12_transform_1 i (1 : Fin 2) = 0 := rfl
theorem tr12_2_0 (i : grid12.Coords) : cc12_transform_2 i (0 : Fin 2) = (i 0).val := by
  show (BitVec.ofNat 32 (i 0).val).toNat = _
  have h := (i 0).isLt
  have hb : grid12.bound 0 = 3125 := rfl
  rw [BitVec.toNat_ofNat]; exact Nat.mod_eq_of_lt (by omega)
theorem tr12_2_1 (i : grid12.Coords) : cc12_transform_2 i (1 : Fin 2) = 0 := rfl

/-- Both windows' row-block index at point t is t; their column-block index is zero. -/
theorem index12_0_0 (t : Fin (cfg12 a).N) : ((cfg12 a).win 0).index t (0 : Fin 2) = t.val := by rw [idx12_0, tr12_1_0, coords12_val]
theorem index12_0_1 (t : Fin (cfg12 a).N) : ((cfg12 a).win 0).index t (1 : Fin 2) = 0 := by rw [idx12_0, tr12_1_1]
theorem index12_1_0 (t : Fin (cfg12 a).N) : ((cfg12 a).win 1).index t (0 : Fin 2) = t.val := by rw [idx12_1, tr12_2_0, coords12_val]
theorem index12_1_1 (t : Fin (cfg12 a).N) : ((cfg12 a).win 1).index t (1 : Fin 2) = 0 := by rw [idx12_1, tr12_2_1]

/-- The output window is written back at every point: its block index moves with the point. -/
theorem flush12_1 (t : Fin (cfg12 a).N) : ((cfg12 a).win 1).flush t = true := by
  rw [Window.flush_out _ rfl]
  by_cases h : t.val + 1 = grid12.N
  · exact Or.inl h
  · have hN : grid12.N = 3125 := N_12
    have ht : t.val < 3125 := (N12_eq a) ▸ t.isLt
    have h1 : t.val + 1 < grid12.N := by omega
    refine Or.inr ⟨h1, fun e => ?_⟩
    have e0 : ((cfg12 a).win 1).index ⟨t.val + 1, h1⟩ (0 : Fin 2) = ((cfg12 a).win 1).index t (0 : Fin 2) := congrFun e (0 : Fin 2)
    rw [index12_1_0, index12_1_0] at e0
    exact absurd e0 (by show t.val + 1 ≠ t.val; omega)

/-! ## The blocks at a point -/

/-- Entry (r, j) of point t's output block is entry (16 t + r, j) of the array. -/
theorem emb12_1 (t : Fin (cfg12 a).N) (r : Fin 16) (j : Fin 262) :
    (((cfg12 a).win 1).blk t).view.emb (ValueIdx.ix2 (n0 := 16) (n1 := 262) r j)
      = ValueIdx.ix2 (n0 := 50000) (n1 := 262) ⟨16 * t.val + r.val, idx_lt12 a t r⟩ j := by
  funext k; apply Fin.ext
  match k with
  | ⟨0, _⟩ => show ((cfg12 a).win 1).index t (0 : Fin 2) * 16 + 1 * r.val = 16 * t.val + r.val; rw [index12_1_0]; omega
  | ⟨1, _⟩ => show ((cfg12 a).win 1).index t (1 : Fin 2) * 262 + 1 * j.val = j.val; rw [index12_1_1]; omega

/-- The norm block at point t, row r, is the norm column's entry 16 t + r. -/
theorem nmBlk12_apply (c : Dev nD) (t : Fin (cfg12 a).N) (r : Fin 16) :
    nmBlk12 V a c t (ValueIdx.ix2 (n0 := 16) (n1 := 1) r 0)
      = nmArr12 V c (ValueIdx.ix2 (n0 := 50000) (n1 := 1) ⟨16 * t.val + r.val, idx_lt12 a t r⟩ 0) := by
  show V c main_v77 ((((cfg12 a).win 0).blk t).view.emb (ValueIdx.ix2 (n0 := 16) (n1 := 1) r 0)) = V c main_v77 (ValueIdx.ix2 (n0 := 50000) (n1 := 1) ⟨16 * t.val + r.val, idx_lt12 a t r⟩ 0)
  refine congrArg (V c main_v77) ?_
  funext k; apply Fin.ext
  match k with
  | ⟨0, _⟩ => show ((cfg12 a).win 0).index t (0 : Fin 2) * 16 + 1 * r.val = 16 * t.val + r.val; rw [index12_0_0]; omega
  | ⟨1, _⟩ => show ((cfg12 a).win 0).index t (1 : Fin 2) * 1 + 1 * 0 = 0; rw [index12_0_1]

/-- Entry (16 t + r, j) of the array is in point t's block. -/
theorem mem_blk12_1 (t : Fin (cfg12 a).N) (r : Fin 16) (j : Fin 262) :
    ValueIdx.ix2 (n0 := 50000) (n1 := 262) ⟨16 * t.val + r.val, idx_lt12 a t r⟩ j ∈ (((cfg12 a).win 1).blk t).view.set := by
  rw [← emb12_1]; exact View.emb_mem_set _ _

end Cert.KernelIdeal.Hand

end
-- ==== Proof.G12Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col12_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 12's one store at (r, j): the scratch entry (r, j) times the norm block's entry r. -/
theorem pay12_apply (v192 : Vec Ideal S16x1 .f32) (v194 : Vec Ideal S16x262 .f32) (r : Fin 16) (j : Fin 262) :
    k12_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k12_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col12_262 _ r j).trans (congrFun (shapeCast_self v192 shapeCasts_S16x1_S16x1) _))

end Cert.KernelIdeal.Hand

end
-- ==== Proof.G12Block.lean ====
/- Pipeline 12 at the ideal values: the block the body leaves at a point, entry by entry. -/
import proofs.«414392_j7919919694132_2_alg».proof.Proof.G12Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G12Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg12 (F := Ideal)).Adm) (hH : ∀ j : Fin 50000, ((a.1 0) (ValueIdx.ix1 j)).toNat < 50000)

/-! ## Indices of a one-row slice -/

/-- A one-row index has leading coordinate 0. -/
theorem row0_12 (x : S1x262.Idx) : (x 0).val = 0 := by
  have h := (x 0).isLt
  have e : S1x262.size 0 = 1 := by decide
  omega

/-- The gathered array, read as a matrix of ideal values. -/
abbrev asArr12 (c : Dev nD) (fh0 : HbBuf12 (F := Ideal) c hbM12) : FVec Ideal S50000x262 .f32 := fh0

/-- The table's word at offset `16 i + k`, as the body reads it. -/
theorem word12 (c : Dev nD) (i : grid12.Coords) (tb : HbBuf12 (F := Ideal) c tbM12) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM12.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma12_apply (c : Dev nD) (fh0 : HbBuf12 (F := Ideal) c hbM12) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM12.slice (Rect.unit (s := S50000x262) off S1x262.size inb) (fun _ => rfl)).view fh0) x
      = asArr12 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_12 x]; omega
  · show 0 + 1 * (x 1).val = (x 1).val
    omega

/-- The sixteen rows of the scratch, each the payload of its transfer. -/
def rows12 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows12 (p0 p1 p2 p3 p4 p5 p6 p7 p8 p9 p10 p11 p12 p13 p14 p15 : S1x262.Idx → Elt Ideal .f32) (y : S16x262.Idx) : ∃ pc ∈ rows12 p0 p1 p2 p3 p4 p5 p6 p7 p8 p9 p10 p11 p12 p13 p14 p15, y ∈ pc.1.set :=
  View.cover_of_tiledL (rows12 p0 p1 p2 p3 p4 p5 p6 p7 p8 p9 p10 p11 p12 p13 p14 p15) S1x262.size (by sl_kernel_rfl) y

/-- A point's coordinate is below the grid's 3125 points, so the sixteen table offsets of the point are inside the table. -/
theorem idxlt12 (i : grid12.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath12 (c : Dev nD) (i : grid12.Coords) (tb : HbBuf12 (F := Ideal) c tbM12) (fh0 : HbBuf12 (F := Ideal) c hbM12) (hT : ∀ x, (tb x).toNat < 50000) :
    S16x262.Idx → Elt Ideal .f32 :=
  fun y => asArr12 c fh0 (ValueIdx.ix2 (n0 := 50000) (n1 := 262) ⟨(tb (ValueIdx.ix1 (n := 50000) ⟨16 * (i 0).val + (y 0).val, idxlt12 i (y 0)⟩)).toNat, hT _⟩ (y 1))

/-- Row k's transfer delivers `gath12` at the row's indices. -/
theorem piece12 (c : Dev nD) (i : grid12.Coords) (tb : HbBuf12 (F := Ideal) c tbM12) (fh0 : HbBuf12 (F := Ideal) c hbM12) (hT : ∀ x, (tb x).toNat < 50000)
    (k : Fin 16) (w : BitVec 32) (hwd : w = tb (ValueIdx.ix1 (n := 50000) ⟨16 * (i 0).val + k.val, idxlt12 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM12.slice (Rect.unit (s := S50000x262) off S1x262.size inb) (fun _ => rfl)).view fh0) x
      = gath12 c i tb fh0 hT ((Rect.unit (s := S16x262) ![k.val, 0] S1x262.size inbk).emb x) := by
  subst hwd
  rw [dma12_apply c fh0 _ (hT _) off hoff inb x]
  unfold gath12
  show asArr12 c fh0 _ = asArr12 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_12 x]; omega
  · show (x 1).val = 0 + 1 * (x 1).val
    omega

set_option maxHeartbeats 1000000 in
/-- The scratch, read whole after the sixteen waits, is `gath12`. -/
theorem scratch12_apply (c : Dev nD) (i : grid12.Coords) (tb : HbBuf12 (F := Ideal) c tbM12) (fh0 : HbBuf12 (F := Ideal) c hbM12) (hT : ∀ x, (tb x).toNat < 50000)
    (y : S16x262.Idx) :
    scM12.view.readCov (rows12
        (kernelRun12.sl.dma1 c i tb fh0 (chk12_1_of_lt _ (hT _)))
        (kernelRun12.sl.dma2 c i tb fh0 (chk12_2_of_lt _ (hT _)))
        (kernelRun12.sl.dma3 c i tb fh0 (chk12_3_of_lt _ (hT _)))
        (kernelRun12.sl.dma4 c i tb fh0 (chk12_4_of_lt _ (hT _)))
        (kernelRun12.sl.dma5 c i tb fh0 (chk12_5_of_lt _ (hT _)))
        (kernelRun12.sl.dma6 c i tb fh0 (chk12_6_of_lt _ (hT _)))
        (kernelRun12.sl.dma7 c i tb fh0 (chk12_7_of_lt _ (hT _)))
        (kernelRun12.sl.dma8 c i tb fh0 (chk12_8_of_lt _ (hT _)))
        (kernelRun12.sl.dma9 c i tb fh0 (chk12_9_of_lt _ (hT _)))
        (kernelRun12.sl.dma10 c i tb fh0 (chk12_10_of_lt _ (hT _)))
        (kernelRun12.sl.dma11 c i tb fh0 (chk12_11_of_lt _ (hT _)))
        (kernelRun12.sl.dma12 c i tb fh0 (chk12_12_of_lt _ (hT _)))
        (kernelRun12.sl.dma13 c i tb fh0 (chk12_13_of_lt _ (hT _)))
        (kernelRun12.sl.dma14 c i tb fh0 (chk12_14_of_lt _ (hT _)))
        (kernelRun12.sl.dma15 c i tb fh0 (chk12_15_of_lt _ (hT _)))
        (kernelRun12.sl.dma16 c i tb fh0 (chk12_16_of_lt _ (hT _)))) (Rect.unit (s := S16x262) ![0, 0] S16x262.size inb_S16x262_S16x262_0_0).toLoadRect y
      = gath12 c i tb fh0 hT y := by
  rw [View.readCov_eq_canon_ld _ _ _ (cover_rows12 _ _ _ _ _ _ _ _ _ _ _ _ _ _ _ _), View.ld_unit_zero (by funext d; fin_cases d <;> rfl)]
  refine View.canon_apply_of_pieces (gath12 c i tb fh0 hT) (rows12 _ _ _ _ _ _ _ _ _ _ _ _ _ _ _ _) ?_ y (cover_rows12 _ _ _ _ _ _ _ _ _ _ _ _ _ _ _ _ y)
  intro p hp x
  unfold rows12 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun12.sl.dma16
    exact piece12 c i tb fh0 hT (15 : Fin 16) (kernelRun12.sl.r_15 c i tb)
      (by unfold kernelRun12.sl.r_15; exact word12 c i tb (15 : Fin 16) (idxlt12 i _) _ (by rw [k12_off31_eq]; rfl) _ _) (k12_off32 (kernelRun12.sl.r_15 c i tb)) rfl _ _ x
  · dsimp only
    unfold kernelRun12.sl.dma15
    exact piece12 c i tb fh0 hT (14 : Fin 16) (kernelRun12.sl.r_14 c i tb)
      (by unfold kernelRun12.sl.r_14; exact word12 c i tb (14 : Fin 16) (idxlt12 i _) _ (by rw [k12_off29_eq]; rfl) _ _) (k12_off30 (kernelRun12.sl.r_14 c i tb)) rfl _ _ x
  · dsimp only
    unfold kernelRun12.sl.dma14
    exact piece12 c i tb fh0 hT (13 : Fin 16) (kernelRun12.sl.r_13 c i tb)
      (by unfold kernelRun12.sl.r_13; exact word12 c i tb (13 : Fin 16) (idxlt12 i _) _ (by rw [k12_off27_eq]; rfl) _ _) (k12_off28 (kernelRun12.sl.r_13 c i tb)) rfl _ _ x
  · dsimp only
    unfold kernelRun12.sl.dma13
    exact piece12 c i tb fh0 hT (12 : Fin 16) (kernelRun12.sl.r_12 c i tb)
      (by unfold kernelRun12.sl.r_12; exact word12 c i tb (12 : Fin 16) (idxlt12 i _) _ (by rw [k12_off25_eq]; rfl) _ _) (k12_off26 (kernelRun12.sl.r_12 c i tb)) rfl _ _ x
  · dsimp only
    unfold kernelRun12.sl.dma12
    exact piece12 c i tb fh0 hT (11 : Fin 16) (kernelRun12.sl.r_11 c i tb)
      (by unfold kernelRun12.sl.r_11; exact word12 c i tb (11 : Fin 16) (idxlt12 i _) _ (by rw [k12_off23_eq]; rfl) _ _) (k12_off24 (kernelRun12.sl.r_11 c i tb)) rfl _ _ x
  · dsimp only
    unfold kernelRun12.sl.dma11
    exact piece12 c i tb fh0 hT (10 : Fin 16) (kernelRun12.sl.r_10 c i tb)
      (by unfold kernelRun12.sl.r_10; exact word12 c i tb (10 : Fin 16) (idxlt12 i _) _ (by rw [k12_off21_eq]; rfl) _ _) (k12_off22 (kernelRun12.sl.r_10 c i tb)) rfl _ _ x
  · dsimp only
    unfold kernelRun12.sl.dma10
    exact piece12 c i tb fh0 hT (9 : Fin 16) (kernelRun12.sl.r_9 c i tb)
      (by unfold kernelRun12.sl.r_9; exact word12 c i tb (9 : Fin 16) (idxlt12 i _) _ (by rw [k12_off19_eq]; rfl) _ _) (k12_off20 (kernelRun12.sl.r_9 c i tb)) rfl _ _ x
  · dsimp only
    unfold kernelRun12.sl.dma9
    exact piece12 c i tb fh0 hT (8 : Fin 16) (kernelRun12.sl.r_8 c i tb)
      (by unfold kernelRun12.sl.r_8; exact word12 c i tb (8 : Fin 16) (idxlt12 i _) _ (by rw [k12_off17_eq]; rfl) _ _) (k12_off18 (kernelRun12.sl.r_8 c i tb)) rfl _ _ x
  · dsimp only
    unfold kernelRun12.sl.dma8
    exact piece12 c i tb fh0 hT (7 : Fin 16) (kernelRun12.sl.r_7 c i tb)
      (by unfold kernelRun12.sl.r_7; exact word12 c i tb (7 : Fin 16) (idxlt12 i _) _ (by rw [k12_off15_eq]; rfl) _ _) (k12_off16 (kernelRun12.sl.r_7 c i tb)) rfl _ _ x
  · dsimp only
    unfold kernelRun12.sl.dma7
    exact piece12 c i tb fh0 hT (6 : Fin 16) (kernelRun12.sl.r_6 c i tb)
      (by unfold kernelRun12.sl.r_6; exact word12 c i tb (6 : Fin 16) (idxlt12 i _) _ (by rw [k12_off13_eq]; rfl) _ _) (k12_off14 (kernelRun12.sl.r_6 c i tb)) rfl _ _ x
  · dsimp only
    unfold kernelRun12.sl.dma6
    exact piece12 c i tb fh0 hT (5 : Fin 16) (kernelRun12.sl.r_5 c i tb)
      (by unfold kernelRun12.sl.r_5; exact word12 c i tb (5 : Fin 16) (idxlt12 i _) _ (by rw [k12_off11_eq]; rfl) _ _) (k12_off12 (kernelRun12.sl.r_5 c i tb)) rfl _ _ x
  · dsimp only
    unfold kernelRun12.sl.dma5
    exact piece12 c i tb fh0 hT (4 : Fin 16) (kernelRun12.sl.r_4 c i tb)
      (by unfold kernelRun12.sl.r_4; exact word12 c i tb (4 : Fin 16) (idxlt12 i _) _ (by rw [k12_off9_eq]; rfl) _ _) (k12_off10 (kernelRun12.sl.r_4 c i tb)) rfl _ _ x
  · dsimp only
    unfold kernelRun12.sl.dma4
    exact piece12 c i tb fh0 hT (3 : Fin 16) (kernelRun12.sl.r_3 c i tb)
      (by unfold kernelRun12.sl.r_3; exact word12 c i tb (3 : Fin 16) (idxlt12 i _) _ (by rw [k12_off7_eq]; rfl) _ _) (k12_off8 (kernelRun12.sl.r_3 c i tb)) rfl _ _ x
  · dsimp only
    unfold kernelRun12.sl.dma3
    exact piece12 c i tb fh0 hT (2 : Fin 16) (kernelRun12.sl.r_2 c i tb)
      (by unfold kernelRun12.sl.r_2; exact word12 c i tb (2 : Fin 16) (idxlt12 i _) _ (by rw [k12_off5_eq]; rfl) _ _) (k12_off6 (kernelRun12.sl.r_2 c i tb)) rfl _ _ x
  · dsimp only
    unfold kernelRun12.sl.dma2
    exact piece12 c i tb fh0 hT (1 : Fin 16) (kernelRun12.sl.r_1 c i tb)
      (by unfold kernelRun12.sl.r_1; exact word12 c i tb (1 : Fin 16) (idxlt12 i _) _ (by rw [k12_off3_eq]; rfl) _ _) (k12_off4 (kernelRun12.sl.r_1 c i tb)) rfl _ _ x
  · dsimp only
    unfold kernelRun12.sl.dma1
    exact piece12 c i tb fh0 hT (0 : Fin 16) (kernelRun12.sl.r c i tb)
      (by unfold kernelRun12.sl.r; exact word12 c i tb (0 : Fin 16) (idxlt12 i _) _ (by rw [k12_off1_eq]; rfl) _ _) (k12_off2 (kernelRun12.sl.r c i tb)) rfl _ _ x

/-- THE BLOCK the body leaves, over any staging memrefs and contents: row r is the row of the gathered array the table's
    word `16 i + r` names, times the norm block's entry r. -/
theorem out12_1_apply (c : Dev nD) (i : grid12.Coords) (arg3 : Memref sig .tc .vmem S16x1 .f32) (harg3 : arg3.IsWhole) (arg4 : Memref sig .tc .vmem S16x262 .f32) (harg4 : arg4.IsWhole)
    (x0 : Vec Ideal S16x1 .f32) (tb : HbBuf12 (F := Ideal) c tbM12) (fh0 : HbBuf12 (F := Ideal) c hbM12) (hT : ∀ x, (tb x).toNat < 50000) (r : Fin 16) (j : Fin 262) :
    out12_1 c i arg3 harg3 arg4 harg4 x0 tb fh0 hT (ValueIdx.ix2 (n0 := 16) (n1 := 262) r j)
      = gath12 c i tb fh0 hT (ValueIdx.ix2 (n0 := 16) (n1 := 262) r j) * x0 (ValueIdx.ix2 (n0 := 16) (n1 := 1) r 0) := by
  unfold out12_1
  rw [View.read_writes_eq_canon _ _ _ (cover12_1 c i arg3 harg3 arg4 harg4 x0 tb fh0 hT)]
  unfold kernelRun12
  dsimp only
  rw [View.canon_unit_zero (by funext d; fin_cases d <;> rfl)]
  rw [pay12_apply]
  congr 1
  · unfold kernelRun12.sl.v194
    exact scratch12_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt12_apply (c : Dev nD) (t : Fin (cfg12 a).N) (r : Fin 16) (j : Fin 262) :
    outsAt12 V a hH c t (ValueIdx.ix2 (n0 := 16) (n1 := 262) r j)
      = hbArr12 V c (ValueIdx.ix2 (n0 := 50000) (n1 := 262) ⟨((a.1 0) (ValueIdx.ix1 (n := 50000) ⟨16 * t.val + r.val, idx_lt12 a t r⟩)).toNat, hH _⟩ j)
          * nmBlk12 V a c t (ValueIdx.ix2 (n0 := 16) (n1 := 1) r 0) := by
  unfold outsAt12
  refine (out12_1_apply c (grid12.coords t) _ _ _ _ (nmBlk12 V a c t) (a.1 0) (hbArr12 V c) (tbl_lt12 a hH c) r j).trans ?_
  congr 1
  unfold gath12
  show hbArr12 V c _ = hbArr12 V c _
  congr 1
  funext d
  apply Fin.ext
  fin_cases d
  · exact congrArg (fun n : Fin 50000 => ((a.1 0) (ValueIdx.ix1 (n := 50000) n)).toNat)
      (Fin.ext (by show 16 * (grid12.coords t 0).val + r.val = 16 * t.val + r.val; rw [coords12_val a t]))
  · rfl

end Cert.KernelIdeal.Hand

end
-- ==== Proof.G12Value.lean ====
/- Pipeline 12 at the ideal values: the output array after the region is the gathered and scaled array (row e: the row of
   the source array named by the table's word e, times the norm column's entry e). -/
import proofs.«414392_j7919919694132_2_alg».proof.Proof.G12Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg12 (F := Ideal)).Adm) (hH : ∀ j : Fin 50000, ((a.1 0) (ValueIdx.ix1 j)).toNat < 50000)

/-! ## From blocks to the array -/

/-- What point t writes back is block t of the gathered and scaled array. -/
theorem flushed12_1_eq (c : Dev nD) (t : Fin (cfg12 a).N) :
    (dat12 (F := Ideal) V a hH c).flushed 1 t = (((cfg12 a).win 1).blk t).view.read (Elt Ideal) (G12v V a hH c) := by
  show ((cfg12 a).win 1).cut (grid12.coords t) ((dat12 V a hH c).after 1 t) = _
  rw [after12_1]
  refine funext fun (y : S16x262.Idx) => ?_
  obtain ⟨r, j, rfl⟩ : ∃ (r : Fin 16) (j : Fin 262), y = ValueIdx.ix2 r j := ⟨y 0, y 1, ValueIdx.eq_ix2 y⟩
  show outsAt12 V a hH c t (ValueIdx.ix2 (n0 := 16) (n1 := 262) r j) = G12v V a hH c ((((cfg12 a).win 1).blk t).view.emb (ValueIdx.ix2 (n0 := 16) (n1 := 262) r j))
  rw [emb12_1, outsAt12_apply V a hH c t r j, nmBlk12_apply V a c t r]

/-- Every index of the array is in some point's block: row e is in block e / 16. -/
theorem cover12_blk (i : S50000x262.Idx) :
    ∃ t : Fin (cfg12 a).N, ((cfg12 a).win 1).flush t = true ∧ i ∈ (((cfg12 a).win 1).blk t).view.set := by
  have hi0 : (i 0).val < 50000 := (i 0).isLt
  have hi1 : (i 1).val < 262 := (i 1).isLt
  have hq : (i 0).val / 16 < (cfg12 a).N := by rw [N12_eq a]; omega
  have hr : (i 0).val % 16 < 16 := Nat.mod_lt _ (by omega)
  obtain ⟨t, ht⟩ : ∃ t : Fin (cfg12 a).N, t.val = (i 0).val / 16 := ⟨⟨(i 0).val / 16, hq⟩, rfl⟩
  refine ⟨t, flush12_1 a t, ?_⟩
  have e : i = ValueIdx.ix2 (n0 := 50000) (n1 := 262) ⟨16 * t.val + (i 0).val % 16, idx_lt12 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk12_1 a t ⟨(i 0).val % 16, hr⟩ ⟨(i 1).val, hi1⟩

/-- The output array after the region is the gathered and scaled array, -/
theorem arrAt12_1_eq (c : Dev nD) : (dat12 (F := Ideal) V a hH c).arrAt 1 (cfg12 a).N = G12v V a hH c :=
  (dat12 (F := Ideal) V a hH c).arrAt_eq_of_cover 1 (G12v V a hH c) (fun t _ => flushed12_1_eq V a hH c t) (cover12_blk a)

/-- index by index: entry (e, j) is the source array's entry (the table's word e, j) times the norm column's entry e. -/
theorem arrAt12_1 (c : Dev nD) (e : Fin 50000) (j : Fin 262) :
    (dat12 (F := Ideal) V a hH c).arrAt 1 (cfg12 a).N (ValueIdx.ix2 (n0 := 50000) (n1 := 262) e j)
      = hbArr12 V c (ValueIdx.ix2 (n0 := 50000) (n1 := 262) ⟨((a.1 0) (ValueIdx.ix1 (n := 50000) e)).toNat, hH e⟩ j)
          * nmArr12 V c (ValueIdx.ix2 (n0 := 50000) (n1 := 1) e 0) :=
  (congrFun (arrAt12_1_eq V a hH c) (ValueIdx.ix2 (n0 := 50000) (n1 := 262) e j)).trans rfl

end Cert.KernelIdeal.Hand

end
-- ==== Proof.G13Idx.lean ====
/- Pipeline 13 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G13
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg13 (F := Ideal)).Adm) (hH : ∀ j : Fin 50000, ((a.1 0) (ValueIdx.ix1 j)).toNat < 50000)

/-! ## The arrays, by name -/

/-- The array the rows are gathered from, and the norm column. -/
abbrev hbArr13 (c : Dev nD) : FVec Ideal S50000x262 .f32 := V c main_v71
abbrev nmArr13 (c : Dev nD) : FVec Ideal S50000x1 .f32 := V c main_v80
/-- The norm block at a point. -/
abbrev nmBlk13 (c : Dev nD) (t : Fin (cfg13 a).N) : FVec Ideal S16x1 .f32 := iblk13 V a c 0 t

/-- The gathered and scaled array: row e is the row of the source array named by the table's word e, times the norm
    column's entry e. -/
abbrev G13v (c : Dev nD) : (⟨S50000x262, .f32⟩ : BufTy).Contents (Elt Ideal) := fun i =>
  hbArr13 V c (ValueIdx.ix2 (n0 := 50000) (n1 := 262) ⟨((a.1 0) (ValueIdx.ix1 (n := 50000) (i 0))).toNat, hH (i 0)⟩ (i 1))
    * nmArr13 V c (ValueIdx.ix2 (n0 := 50000) (n1 := 1) (i 0) 0)

/-! ## The index maps at a point -/

theorem N13_eq : (cfg13 a).N = 3125 := N_13

/-- Row r of point t's block is a row of the array. -/
theorem idx_lt13 (t : Fin (cfg13 a).N) (r : Fin 16) : 16 * t.val + r.val < 50000 := by
  have ht : t.val < 3125 := (N13_eq a) ▸ t.isLt
  have := r.isLt; omega

/-- On the one-axis grid the point's coordinate is the point. -/
theorem coords13_val (t : Fin (cfg13 a).N) : (grid13.coords t 0).val = t.val := by
  have h : t.val < 3125 := (N13_eq a) ▸ t.isLt
  show t.val / grid13.stride 0 % 3125 = t.val
  rw [show grid13.stride 0 = 1 from by decide, Nat.div_one, Nat.mod_eq_of_lt h]

theorem idx13_0 (t : Fin (cfg13 a).N) : ((cfg13 a).win 0).index t = cc13_transform_1 (grid13.coords t) := rfl
theorem idx13_1 (t : Fin (cfg13 a).N) : ((cfg13 a).win 1).index t = cc13_transform_2 (grid13.coords t) := rfl

theorem tr13_1_0 (i : grid13.Coords) : cc13_transform_1 i (0 : Fin 2) = (i 0).val := by
  show (BitVec.ofNat 32 (i 0).val).toNat = _
  have h := (i 0).isLt
  have hb : grid13.bound 0 = 3125 := rfl
  rw [BitVec.toNat_ofNat]; exact Nat.mod_eq_of_lt (by omega)
theorem tr13_1_1 (i : grid13.Coords) : cc13_transform_1 i (1 : Fin 2) = 0 := rfl
theorem tr13_2_0 (i : grid13.Coords) : cc13_transform_2 i (0 : Fin 2) = (i 0).val := by
  show (BitVec.ofNat 32 (i 0).val).toNat = _
  have h := (i 0).isLt
  have hb : grid13.bound 0 = 3125 := rfl
  rw [BitVec.toNat_ofNat]; exact Nat.mod_eq_of_lt (by omega)
theorem tr13_2_1 (i : grid13.Coords) : cc13_transform_2 i (1 : Fin 2) = 0 := rfl

/-- Both windows' row-block index at point t is t; their column-block index is zero. -/
theorem index13_0_0 (t : Fin (cfg13 a).N) : ((cfg13 a).win 0).index t (0 : Fin 2) = t.val := by rw [idx13_0, tr13_1_0, coords13_val]
theorem index13_0_1 (t : Fin (cfg13 a).N) : ((cfg13 a).win 0).index t (1 : Fin 2) = 0 := by rw [idx13_0, tr13_1_1]
theorem index13_1_0 (t : Fin (cfg13 a).N) : ((cfg13 a).win 1).index t (0 : Fin 2) = t.val := by rw [idx13_1, tr13_2_0, coords13_val]
theorem index13_1_1 (t : Fin (cfg13 a).N) : ((cfg13 a).win 1).index t (1 : Fin 2) = 0 := by rw [idx13_1, tr13_2_1]

/-- The output window is written back at every point: its block index moves with the point. -/
theorem flush13_1 (t : Fin (cfg13 a).N) : ((cfg13 a).win 1).flush t = true := by
  rw [Window.flush_out _ rfl]
  by_cases h : t.val + 1 = grid13.N
  · exact Or.inl h
  · have hN : grid13.N = 3125 := N_13
    have ht : t.val < 3125 := (N13_eq a) ▸ t.isLt
    have h1 : t.val + 1 < grid13.N := by omega
    refine Or.inr ⟨h1, fun e => ?_⟩
    have e0 : ((cfg13 a).win 1).index ⟨t.val + 1, h1⟩ (0 : Fin 2) = ((cfg13 a).win 1).index t (0 : Fin 2) := congrFun e (0 : Fin 2)
    rw [index13_1_0, index13_1_0] at e0
    exact absurd e0 (by show t.val + 1 ≠ t.val; omega)

/-! ## The blocks at a point -/

/-- Entry (r, j) of point t's output block is entry (16 t + r, j) of the array. -/
theorem emb13_1 (t : Fin (cfg13 a).N) (r : Fin 16) (j : Fin 262) :
    (((cfg13 a).win 1).blk t).view.emb (ValueIdx.ix2 (n0 := 16) (n1 := 262) r j)
      = ValueIdx.ix2 (n0 := 50000) (n1 := 262) ⟨16 * t.val + r.val, idx_lt13 a t r⟩ j := by
  funext k; apply Fin.ext
  match k with
  | ⟨0, _⟩ => show ((cfg13 a).win 1).index t (0 : Fin 2) * 16 + 1 * r.val = 16 * t.val + r.val; rw [index13_1_0]; omega
  | ⟨1, _⟩ => show ((cfg13 a).win 1).index t (1 : Fin 2) * 262 + 1 * j.val = j.val; rw [index13_1_1]; omega

/-- The norm block at point t, row r, is the norm column's entry 16 t + r. -/
theorem nmBlk13_apply (c : Dev nD) (t : Fin (cfg13 a).N) (r : Fin 16) :
    nmBlk13 V a c t (ValueIdx.ix2 (n0 := 16) (n1 := 1) r 0)
      = nmArr13 V c (ValueIdx.ix2 (n0 := 50000) (n1 := 1) ⟨16 * t.val + r.val, idx_lt13 a t r⟩ 0) := by
  show V c main_v80 ((((cfg13 a).win 0).blk t).view.emb (ValueIdx.ix2 (n0 := 16) (n1 := 1) r 0)) = V c main_v80 (ValueIdx.ix2 (n0 := 50000) (n1 := 1) ⟨16 * t.val + r.val, idx_lt13 a t r⟩ 0)
  refine congrArg (V c main_v80) ?_
  funext k; apply Fin.ext
  match k with
  | ⟨0, _⟩ => show ((cfg13 a).win 0).index t (0 : Fin 2) * 16 + 1 * r.val = 16 * t.val + r.val; rw [index13_0_0]; omega
  | ⟨1, _⟩ => show ((cfg13 a).win 0).index t (1 : Fin 2) * 1 + 1 * 0 = 0; rw [index13_0_1]

/-- Entry (16 t + r, j) of the array is in point t's block. -/
theorem mem_blk13_1 (t : Fin (cfg13 a).N) (r : Fin 16) (j : Fin 262) :
    ValueIdx.ix2 (n0 := 50000) (n1 := 262) ⟨16 * t.val + r.val, idx_lt13 a t r⟩ j ∈ (((cfg13 a).win 1).blk t).view.set := by
  rw [← emb13_1]; exact View.emb_mem_set _ _

end Cert.KernelIdeal.Hand

end
-- ==== Proof.G13Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col13_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 13's one store at (r, j): the scratch entry (r, j) times the norm block's entry r. -/
theorem pay13_apply (v192 : Vec Ideal S16x1 .f32) (v194 : Vec Ideal S16x262 .f32) (r : Fin 16) (j : Fin 262) :
    k13_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k13_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col13_262 _ r j).trans (congrFun (shapeCast_self v192 shapeCasts_S16x1_S16x1) _))

end Cert.KernelIdeal.Hand

end
-- ==== Proof.G13Block.lean ====
/- Pipeline 13 at the ideal values: the block the body leaves at a point, entry by entry. -/
import proofs.«414392_j7919919694132_2_alg».proof.Proof.G13Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G13Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg13 (F := Ideal)).Adm) (hH : ∀ j : Fin 50000, ((a.1 0) (ValueIdx.ix1 j)).toNat < 50000)

/-! ## Indices of a one-row slice -/

/-- A one-row index has leading coordinate 0. -/
theorem row0_13 (x : S1x262.Idx) : (x 0).val = 0 := by
  have h := (x 0).isLt
  have e : S1x262.size 0 = 1 := by decide
  omega

/-- The gathered array, read as a matrix of ideal values. -/
abbrev asArr13 (c : Dev nD) (fh0 : HbBuf13 (F := Ideal) c hbM13) : FVec Ideal S50000x262 .f32 := fh0

/-- The table's word at offset `16 i + k`, as the body reads it. -/
theorem word13 (c : Dev nD) (i : grid13.Coords) (tb : HbBuf13 (F := Ideal) c tbM13) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM13.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma13_apply (c : Dev nD) (fh0 : HbBuf13 (F := Ideal) c hbM13) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM13.slice (Rect.unit (s := S50000x262) off S1x262.size inb) (fun _ => rfl)).view fh0) x
      = asArr13 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_13 x]; omega
  · show 0 + 1 * (x 1).val = (x 1).val
    omega

/-- The sixteen rows of the scratch, each the payload of its transfer. -/
def rows13 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows13 (p0 p1 p2 p3 p4 p5 p6 p7 p8 p9 p10 p11 p12 p13 p14 p15 : S1x262.Idx → Elt Ideal .f32) (y : S16x262.Idx) : ∃ pc ∈ rows13 p0 p1 p2 p3 p4 p5 p6 p7 p8 p9 p10 p11 p12 p13 p14 p15, y ∈ pc.1.set :=
  View.cover_of_tiledL (rows13 p0 p1 p2 p3 p4 p5 p6 p7 p8 p9 p10 p11 p12 p13 p14 p15) S1x262.size (by sl_kernel_rfl) y

/-- A point's coordinate is below the grid's 3125 points, so the sixteen table offsets of the point are inside the table. -/
theorem idxlt13 (i : grid13.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath13 (c : Dev nD) (i : grid13.Coords) (tb : HbBuf13 (F := Ideal) c tbM13) (fh0 : HbBuf13 (F := Ideal) c hbM13) (hT : ∀ x, (tb x).toNat < 50000) :
    S16x262.Idx → Elt Ideal .f32 :=
  fun y => asArr13 c fh0 (ValueIdx.ix2 (n0 := 50000) (n1 := 262) ⟨(tb (ValueIdx.ix1 (n := 50000) ⟨16 * (i 0).val + (y 0).val, idxlt13 i (y 0)⟩)).toNat, hT _⟩ (y 1))

/-- Row k's transfer delivers `gath13` at the row's indices. -/
theorem piece13 (c : Dev nD) (i : grid13.Coords) (tb : HbBuf13 (F := Ideal) c tbM13) (fh0 : HbBuf13 (F := Ideal) c hbM13) (hT : ∀ x, (tb x).toNat < 50000)
    (k : Fin 16) (w : BitVec 32) (hwd : w = tb (ValueIdx.ix1 (n := 50000) ⟨16 * (i 0).val + k.val, idxlt13 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM13.slice (Rect.unit (s := S50000x262) off S1x262.size inb) (fun _ => rfl)).view fh0) x
      = gath13 c i tb fh0 hT ((Rect.unit (s := S16x262) ![k.val, 0] S1x262.size inbk).emb x) := by
  subst hwd
  rw [dma13_apply c fh0 _ (hT _) off hoff inb x]
  unfold gath13
  show asArr13 c fh0 _ = asArr13 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_13 x]; omega
  · show (x 1).val = 0 + 1 * (x 1).val
    omega

set_option maxHeartbeats 1000000 in
/-- The scratch, read whole after the sixteen waits, is `gath13`. -/
theorem scratch13_apply (c : Dev nD) (i : grid13.Coords) (tb : HbBuf13 (F := Ideal) c tbM13) (fh0 : HbBuf13 (F := Ideal) c hbM13) (hT : ∀ x, (tb x).toNat < 50000)
    (y : S16x262.Idx) :
    scM13.view.readCov (rows13
        (kernelRun13.sl.dma1 c i tb fh0 (chk13_1_of_lt _ (hT _)))
        (kernelRun13.sl.dma2 c i tb fh0 (chk13_2_of_lt _ (hT _)))
        (kernelRun13.sl.dma3 c i tb fh0 (chk13_3_of_lt _ (hT _)))
        (kernelRun13.sl.dma4 c i tb fh0 (chk13_4_of_lt _ (hT _)))
        (kernelRun13.sl.dma5 c i tb fh0 (chk13_5_of_lt _ (hT _)))
        (kernelRun13.sl.dma6 c i tb fh0 (chk13_6_of_lt _ (hT _)))
        (kernelRun13.sl.dma7 c i tb fh0 (chk13_7_of_lt _ (hT _)))
        (kernelRun13.sl.dma8 c i tb fh0 (chk13_8_of_lt _ (hT _)))
        (kernelRun13.sl.dma9 c i tb fh0 (chk13_9_of_lt _ (hT _)))
        (kernelRun13.sl.dma10 c i tb fh0 (chk13_10_of_lt _ (hT _)))
        (kernelRun13.sl.dma11 c i tb fh0 (chk13_11_of_lt _ (hT _)))
        (kernelRun13.sl.dma12 c i tb fh0 (chk13_12_of_lt _ (hT _)))
        (kernelRun13.sl.dma13 c i tb fh0 (chk13_13_of_lt _ (hT _)))
        (kernelRun13.sl.dma14 c i tb fh0 (chk13_14_of_lt _ (hT _)))
        (kernelRun13.sl.dma15 c i tb fh0 (chk13_15_of_lt _ (hT _)))
        (kernelRun13.sl.dma16 c i tb fh0 (chk13_16_of_lt _ (hT _)))) (Rect.unit (s := S16x262) ![0, 0] S16x262.size inb_S16x262_S16x262_0_0).toLoadRect y
      = gath13 c i tb fh0 hT y := by
  rw [View.readCov_eq_canon_ld _ _ _ (cover_rows13 _ _ _ _ _ _ _ _ _ _ _ _ _ _ _ _), View.ld_unit_zero (by funext d; fin_cases d <;> rfl)]
  refine View.canon_apply_of_pieces (gath13 c i tb fh0 hT) (rows13 _ _ _ _ _ _ _ _ _ _ _ _ _ _ _ _) ?_ y (cover_rows13 _ _ _ _ _ _ _ _ _ _ _ _ _ _ _ _ y)
  intro p hp x
  unfold rows13 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun13.sl.dma16
    exact piece13 c i tb fh0 hT (15 : Fin 16) (kernelRun13.sl.r_15 c i tb)
      (by unfold kernelRun13.sl.r_15; exact word13 c i tb (15 : Fin 16) (idxlt13 i _) _ (by rw [k13_off31_eq]; rfl) _ _) (k13_off32 (kernelRun13.sl.r_15 c i tb)) rfl _ _ x
  · dsimp only
    unfold kernelRun13.sl.dma15
    exact piece13 c i tb fh0 hT (14 : Fin 16) (kernelRun13.sl.r_14 c i tb)
      (by unfold kernelRun13.sl.r_14; exact word13 c i tb (14 : Fin 16) (idxlt13 i _) _ (by rw [k13_off29_eq]; rfl) _ _) (k13_off30 (kernelRun13.sl.r_14 c i tb)) rfl _ _ x
  · dsimp only
    unfold kernelRun13.sl.dma14
    exact piece13 c i tb fh0 hT (13 : Fin 16) (kernelRun13.sl.r_13 c i tb)
      (by unfold kernelRun13.sl.r_13; exact word13 c i tb (13 : Fin 16) (idxlt13 i _) _ (by rw [k13_off27_eq]; rfl) _ _) (k13_off28 (kernelRun13.sl.r_13 c i tb)) rfl _ _ x
  · dsimp only
    unfold kernelRun13.sl.dma13
    exact piece13 c i tb fh0 hT (12 : Fin 16) (kernelRun13.sl.r_12 c i tb)
      (by unfold kernelRun13.sl.r_12; exact word13 c i tb (12 : Fin 16) (idxlt13 i _) _ (by rw [k13_off25_eq]; rfl) _ _) (k13_off26 (kernelRun13.sl.r_12 c i tb)) rfl _ _ x
  · dsimp only
    unfold kernelRun13.sl.dma12
    exact piece13 c i tb fh0 hT (11 : Fin 16) (kernelRun13.sl.r_11 c i tb)
      (by unfold kernelRun13.sl.r_11; exact word13 c i tb (11 : Fin 16) (idxlt13 i _) _ (by rw [k13_off23_eq]; rfl) _ _) (k13_off24 (kernelRun13.sl.r_11 c i tb)) rfl _ _ x
  · dsimp only
    unfold kernelRun13.sl.dma11
    exact piece13 c i tb fh0 hT (10 : Fin 16) (kernelRun13.sl.r_10 c i tb)
      (by unfold kernelRun13.sl.r_10; exact word13 c i tb (10 : Fin 16) (idxlt13 i _) _ (by rw [k13_off21_eq]; rfl) _ _) (k13_off22 (kernelRun13.sl.r_10 c i tb)) rfl _ _ x
  · dsimp only
    unfold kernelRun13.sl.dma10
    exact piece13 c i tb fh0 hT (9 : Fin 16) (kernelRun13.sl.r_9 c i tb)
      (by unfold kernelRun13.sl.r_9; exact word13 c i tb (9 : Fin 16) (idxlt13 i _) _ (by rw [k13_off19_eq]; rfl) _ _) (k13_off20 (kernelRun13.sl.r_9 c i tb)) rfl _ _ x
  · dsimp only
    unfold kernelRun13.sl.dma9
    exact piece13 c i tb fh0 hT (8 : Fin 16) (kernelRun13.sl.r_8 c i tb)
      (by unfold kernelRun13.sl.r_8; exact word13 c i tb (8 : Fin 16) (idxlt13 i _) _ (by rw [k13_off17_eq]; rfl) _ _) (k13_off18 (kernelRun13.sl.r_8 c i tb)) rfl _ _ x
  · dsimp only
    unfold kernelRun13.sl.dma8
    exact piece13 c i tb fh0 hT (7 : Fin 16) (kernelRun13.sl.r_7 c i tb)
      (by unfold kernelRun13.sl.r_7; exact word13 c i tb (7 : Fin 16) (idxlt13 i _) _ (by rw [k13_off15_eq]; rfl) _ _) (k13_off16 (kernelRun13.sl.r_7 c i tb)) rfl _ _ x
  · dsimp only
    unfold kernelRun13.sl.dma7
    exact piece13 c i tb fh0 hT (6 : Fin 16) (kernelRun13.sl.r_6 c i tb)
      (by unfold kernelRun13.sl.r_6; exact word13 c i tb (6 : Fin 16) (idxlt13 i _) _ (by rw [k13_off13_eq]; rfl) _ _) (k13_off14 (kernelRun13.sl.r_6 c i tb)) rfl _ _ x
  · dsimp only
    unfold kernelRun13.sl.dma6
    exact piece13 c i tb fh0 hT (5 : Fin 16) (kernelRun13.sl.r_5 c i tb)
      (by unfold kernelRun13.sl.r_5; exact word13 c i tb (5 : Fin 16) (idxlt13 i _) _ (by rw [k13_off11_eq]; rfl) _ _) (k13_off12 (kernelRun13.sl.r_5 c i tb)) rfl _ _ x
  · dsimp only
    unfold kernelRun13.sl.dma5
    exact piece13 c i tb fh0 hT (4 : Fin 16) (kernelRun13.sl.r_4 c i tb)
      (by unfold kernelRun13.sl.r_4; exact word13 c i tb (4 : Fin 16) (idxlt13 i _) _ (by rw [k13_off9_eq]; rfl) _ _) (k13_off10 (kernelRun13.sl.r_4 c i tb)) rfl _ _ x
  · dsimp only
    unfold kernelRun13.sl.dma4
    exact piece13 c i tb fh0 hT (3 : Fin 16) (kernelRun13.sl.r_3 c i tb)
      (by unfold kernelRun13.sl.r_3; exact word13 c i tb (3 : Fin 16) (idxlt13 i _) _ (by rw [k13_off7_eq]; rfl) _ _) (k13_off8 (kernelRun13.sl.r_3 c i tb)) rfl _ _ x
  · dsimp only
    unfold kernelRun13.sl.dma3
    exact piece13 c i tb fh0 hT (2 : Fin 16) (kernelRun13.sl.r_2 c i tb)
      (by unfold kernelRun13.sl.r_2; exact word13 c i tb (2 : Fin 16) (idxlt13 i _) _ (by rw [k13_off5_eq]; rfl) _ _) (k13_off6 (kernelRun13.sl.r_2 c i tb)) rfl _ _ x
  · dsimp only
    unfold kernelRun13.sl.dma2
    exact piece13 c i tb fh0 hT (1 : Fin 16) (kernelRun13.sl.r_1 c i tb)
      (by unfold kernelRun13.sl.r_1; exact word13 c i tb (1 : Fin 16) (idxlt13 i _) _ (by rw [k13_off3_eq]; rfl) _ _) (k13_off4 (kernelRun13.sl.r_1 c i tb)) rfl _ _ x
  · dsimp only
    unfold kernelRun13.sl.dma1
    exact piece13 c i tb fh0 hT (0 : Fin 16) (kernelRun13.sl.r c i tb)
      (by unfold kernelRun13.sl.r; exact word13 c i tb (0 : Fin 16) (idxlt13 i _) _ (by rw [k13_off1_eq]; rfl) _ _) (k13_off2 (kernelRun13.sl.r c i tb)) rfl _ _ x

/-- THE BLOCK the body leaves, over any staging memrefs and contents: row r is the row of the gathered array the table's
    word `16 i + r` names, times the norm block's entry r. -/
theorem out13_1_apply (c : Dev nD) (i : grid13.Coords) (arg3 : Memref sig .tc .vmem S16x1 .f32) (harg3 : arg3.IsWhole) (arg4 : Memref sig .tc .vmem S16x262 .f32) (harg4 : arg4.IsWhole)
    (x0 : Vec Ideal S16x1 .f32) (tb : HbBuf13 (F := Ideal) c tbM13) (fh0 : HbBuf13 (F := Ideal) c hbM13) (hT : ∀ x, (tb x).toNat < 50000) (r : Fin 16) (j : Fin 262) :
    out13_1 c i arg3 harg3 arg4 harg4 x0 tb fh0 hT (ValueIdx.ix2 (n0 := 16) (n1 := 262) r j)
      = gath13 c i tb fh0 hT (ValueIdx.ix2 (n0 := 16) (n1 := 262) r j) * x0 (ValueIdx.ix2 (n0 := 16) (n1 := 1) r 0) := by
  unfold out13_1
  rw [View.read_writes_eq_canon _ _ _ (cover13_1 c i arg3 harg3 arg4 harg4 x0 tb fh0 hT)]
  unfold kernelRun13
  dsimp only
  rw [View.canon_unit_zero (by funext d; fin_cases d <;> rfl)]
  rw [pay13_apply]
  congr 1
  · unfold kernelRun13.sl.v194
    exact scratch13_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt13_apply (c : Dev nD) (t : Fin (cfg13 a).N) (r : Fin 16) (j : Fin 262) :
    outsAt13 V a hH c t (ValueIdx.ix2 (n0 := 16) (n1 := 262) r j)
      = hbArr13 V c (ValueIdx.ix2 (n0 := 50000) (n1 := 262) ⟨((a.1 0) (ValueIdx.ix1 (n := 50000) ⟨16 * t.val + r.val, idx_lt13 a t r⟩)).toNat, hH _⟩ j)
          * nmBlk13 V a c t (ValueIdx.ix2 (n0 := 16) (n1 := 1) r 0) := by
  unfold outsAt13
  refine (out13_1_apply c (grid13.coords t) _ _ _ _ (nmBlk13 V a c t) (a.1 0) (hbArr13 V c) (tbl_lt13 a hH c) r j).trans ?_
  congr 1
  unfold gath13
  show hbArr13 V c _ = hbArr13 V c _
  congr 1
  funext d
  apply Fin.ext
  fin_cases d
  · exact congrArg (fun n : Fin 50000 => ((a.1 0) (ValueIdx.ix1 (n := 50000) n)).toNat)
      (Fin.ext (by show 16 * (grid13.coords t 0).val + r.val = 16 * t.val + r.val; rw [coords13_val a t]))
  · rfl

end Cert.KernelIdeal.Hand

end
-- ==== Proof.G13Value.lean ====
/- Pipeline 13 at the ideal values: the output array after the region is the gathered and scaled array (row e: the row of
   the source array named by the table's word e, times the norm column's entry e). -/
import proofs.«414392_j7919919694132_2_alg».proof.Proof.G13Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg13 (F := Ideal)).Adm) (hH : ∀ j : Fin 50000, ((a.1 0) (ValueIdx.ix1 j)).toNat < 50000)

/-! ## From blocks to the array -/

/-- What point t writes back is block t of the gathered and scaled array. -/
theorem flushed13_1_eq (c : Dev nD) (t : Fin (cfg13 a).N) :
    (dat13 (F := Ideal) V a hH c).flushed 1 t = (((cfg13 a).win 1).blk t).view.read (Elt Ideal) (G13v V a hH c) := by
  show ((cfg13 a).win 1).cut (grid13.coords t) ((dat13 V a hH c).after 1 t) = _
  rw [after13_1]
  refine funext fun (y : S16x262.Idx) => ?_
  obtain ⟨r, j, rfl⟩ : ∃ (r : Fin 16) (j : Fin 262), y = ValueIdx.ix2 r j := ⟨y 0, y 1, ValueIdx.eq_ix2 y⟩
  show outsAt13 V a hH c t (ValueIdx.ix2 (n0 := 16) (n1 := 262) r j) = G13v V a hH c ((((cfg13 a).win 1).blk t).view.emb (ValueIdx.ix2 (n0 := 16) (n1 := 262) r j))
  rw [emb13_1, outsAt13_apply V a hH c t r j, nmBlk13_apply V a c t r]

/-- Every index of the array is in some point's block: row e is in block e / 16. -/
theorem cover13_blk (i : S50000x262.Idx) :
    ∃ t : Fin (cfg13 a).N, ((cfg13 a).win 1).flush t = true ∧ i ∈ (((cfg13 a).win 1).blk t).view.set := by
  have hi0 : (i 0).val < 50000 := (i 0).isLt
  have hi1 : (i 1).val < 262 := (i 1).isLt
  have hq : (i 0).val / 16 < (cfg13 a).N := by rw [N13_eq a]; omega
  have hr : (i 0).val % 16 < 16 := Nat.mod_lt _ (by omega)
  obtain ⟨t, ht⟩ : ∃ t : Fin (cfg13 a).N, t.val = (i 0).val / 16 := ⟨⟨(i 0).val / 16, hq⟩, rfl⟩
  refine ⟨t, flush13_1 a t, ?_⟩
  have e : i = ValueIdx.ix2 (n0 := 50000) (n1 := 262) ⟨16 * t.val + (i 0).val % 16, idx_lt13 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk13_1 a t ⟨(i 0).val % 16, hr⟩ ⟨(i 1).val, hi1⟩

/-- The output array after the region is the gathered and scaled array, -/
theorem arrAt13_1_eq (c : Dev nD) : (dat13 (F := Ideal) V a hH c).arrAt 1 (cfg13 a).N = G13v V a hH c :=
  (dat13 (F := Ideal) V a hH c).arrAt_eq_of_cover 1 (G13v V a hH c) (fun t _ => flushed13_1_eq V a hH c t) (cover13_blk a)

/-- index by index: entry (e, j) is the source array's entry (the table's word e, j) times the norm column's entry e. -/
theorem arrAt13_1 (c : Dev nD) (e : Fin 50000) (j : Fin 262) :
    (dat13 (F := Ideal) V a hH c).arrAt 1 (cfg13 a).N (ValueIdx.ix2 (n0 := 50000) (n1 := 262) e j)
      = hbArr13 V c (ValueIdx.ix2 (n0 := 50000) (n1 := 262) ⟨((a.1 0) (ValueIdx.ix1 (n := 50000) e)).toNat, hH e⟩ j)
          * nmArr13 V c (ValueIdx.ix2 (n0 := 50000) (n1 := 1) e 0) :=
  (congrFun (arrAt13_1_eq V a hH c) (ValueIdx.ix2 (n0 := 50000) (n1 := 262) e j)).trans rfl

end Cert.KernelIdeal.Hand

end
-- ==== Proof.G14Idx.lean ====
/- Pipeline 14 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G14
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg14 (F := Ideal)).Adm) (hH : ∀ j : Fin 50000, ((a.1 0) (ValueIdx.ix1 j)).toNat < 50000)

/-! ## The arrays, by name -/

/-- The array the rows are gathered from, and the norm column. -/
abbrev hbArr14 (c : Dev nD) : FVec Ideal S50000x262 .f32 := V c main_v71
abbrev nmArr14 (c : Dev nD) : FVec Ideal S50000x1 .f32 := V c main_v83
/-- The norm block at a point. -/
abbrev nmBlk14 (c : Dev nD) (t : Fin (cfg14 a).N) : FVec Ideal S16x1 .f32 := iblk14 V a c 0 t

/-- The gathered and scaled array: row e is the row of the source array named by the table's word e, times the norm
    column's entry e. -/
abbrev G14v (c : Dev nD) : (⟨S50000x262, .f32⟩ : BufTy).Contents (Elt Ideal) := fun i =>
  hbArr14 V c (ValueIdx.ix2 (n0 := 50000) (n1 := 262) ⟨((a.1 0) (ValueIdx.ix1 (n := 50000) (i 0))).toNat, hH (i 0)⟩ (i 1))
    * nmArr14 V c (ValueIdx.ix2 (n0 := 50000) (n1 := 1) (i 0) 0)

/-! ## The index maps at a point -/

theorem N14_eq : (cfg14 a).N = 3125 := N_14

/-- Row r of point t's block is a row of the array. -/
theorem idx_lt14 (t : Fin (cfg14 a).N) (r : Fin 16) : 16 * t.val + r.val < 50000 := by
  have ht : t.val < 3125 := (N14_eq a) ▸ t.isLt
  have := r.isLt; omega

/-- On the one-axis grid the point's coordinate is the point. -/
theorem coords14_val (t : Fin (cfg14 a).N) : (grid14.coords t 0).val = t.val := by
  have h : t.val < 3125 := (N14_eq a) ▸ t.isLt
  show t.val / grid14.stride 0 % 3125 = t.val
  rw [show grid14.stride 0 = 1 from by decide, Nat.div_one, Nat.mod_eq_of_lt h]

theorem idx14_0 (t : Fin (cfg14 a).N) : ((cfg14 a).win 0).index t = cc14_transform_1 (grid14.coords t) := rfl
theorem idx14_1 (t : Fin (cfg14 a).N) : ((cfg14 a).win 1).index t = cc14_transform_2 (grid14.coords t) := rfl

theorem tr14_1_0 (i : grid14.Coords) : cc14_transform_1 i (0 : Fin 2) = (i 0).val := by
  show (BitVec.ofNat 32 (i 0).val).toNat = _
  have h := (i 0).isLt
  have hb : grid14.bound 0 = 3125 := rfl
  rw [BitVec.toNat_ofNat]; exact Nat.mod_eq_of_lt (by omega)
theorem tr14_1_1 (i : grid14.Coords) : cc14_transform_1 i (1 : Fin 2) = 0 := rfl
theorem tr14_2_0 (i : grid14.Coords) : cc14_transform_2 i (0 : Fin 2) = (i 0).val := by
  show (BitVec.ofNat 32 (i 0).val).toNat = _
  have h := (i 0).isLt
  have hb : grid14.bound 0 = 3125 := rfl
  rw [BitVec.toNat_ofNat]; exact Nat.mod_eq_of_lt (by omega)
theorem tr14_2_1 (i : grid14.Coords) : cc14_transform_2 i (1 : Fin 2) = 0 := rfl

/-- Both windows' row-block index at point t is t; their column-block index is zero. -/
theorem index14_0_0 (t : Fin (cfg14 a).N) : ((cfg14 a).win 0).index t (0 : Fin 2) = t.val := by rw [idx14_0, tr14_1_0, coords14_val]
theorem index14_0_1 (t : Fin (cfg14 a).N) : ((cfg14 a).win 0).index t (1 : Fin 2) = 0 := by rw [idx14_0, tr14_1_1]
theorem index14_1_0 (t : Fin (cfg14 a).N) : ((cfg14 a).win 1).index t (0 : Fin 2) = t.val := by rw [idx14_1, tr14_2_0, coords14_val]
theorem index14_1_1 (t : Fin (cfg14 a).N) : ((cfg14 a).win 1).index t (1 : Fin 2) = 0 := by rw [idx14_1, tr14_2_1]

/-- The output window is written back at every point: its block index moves with the point. -/
theorem flush14_1 (t : Fin (cfg14 a).N) : ((cfg14 a).win 1).flush t = true := by
  rw [Window.flush_out _ rfl]
  by_cases h : t.val + 1 = grid14.N
  · exact Or.inl h
  · have hN : grid14.N = 3125 := N_14
    have ht : t.val < 3125 := (N14_eq a) ▸ t.isLt
    have h1 : t.val + 1 < grid14.N := by omega
    refine Or.inr ⟨h1, fun e => ?_⟩
    have e0 : ((cfg14 a).win 1).index ⟨t.val + 1, h1⟩ (0 : Fin 2) = ((cfg14 a).win 1).index t (0 : Fin 2) := congrFun e (0 : Fin 2)
    rw [index14_1_0, index14_1_0] at e0
    exact absurd e0 (by show t.val + 1 ≠ t.val; omega)

/-! ## The blocks at a point -/

/-- Entry (r, j) of point t's output block is entry (16 t + r, j) of the array. -/
theorem emb14_1 (t : Fin (cfg14 a).N) (r : Fin 16) (j : Fin 262) :
    (((cfg14 a).win 1).blk t).view.emb (ValueIdx.ix2 (n0 := 16) (n1 := 262) r j)
      = ValueIdx.ix2 (n0 := 50000) (n1 := 262) ⟨16 * t.val + r.val, idx_lt14 a t r⟩ j := by
  funext k; apply Fin.ext
  match k with
  | ⟨0, _⟩ => show ((cfg14 a).win 1).index t (0 : Fin 2) * 16 + 1 * r.val = 16 * t.val + r.val; rw [index14_1_0]; omega
  | ⟨1, _⟩ => show ((cfg14 a).win 1).index t (1 : Fin 2) * 262 + 1 * j.val = j.val; rw [index14_1_1]; omega

/-- The norm block at point t, row r, is the norm column's entry 16 t + r. -/
theorem nmBlk14_apply (c : Dev nD) (t : Fin (cfg14 a).N) (r : Fin 16) :
    nmBlk14 V a c t (ValueIdx.ix2 (n0 := 16) (n1 := 1) r 0)
      = nmArr14 V c (ValueIdx.ix2 (n0 := 50000) (n1 := 1) ⟨16 * t.val + r.val, idx_lt14 a t r⟩ 0) := by
  show V c main_v83 ((((cfg14 a).win 0).blk t).view.emb (ValueIdx.ix2 (n0 := 16) (n1 := 1) r 0)) = V c main_v83 (ValueIdx.ix2 (n0 := 50000) (n1 := 1) ⟨16 * t.val + r.val, idx_lt14 a t r⟩ 0)
  refine congrArg (V c main_v83) ?_
  funext k; apply Fin.ext
  match k with
  | ⟨0, _⟩ => show ((cfg14 a).win 0).index t (0 : Fin 2) * 16 + 1 * r.val = 16 * t.val + r.val; rw [index14_0_0]; omega
  | ⟨1, _⟩ => show ((cfg14 a).win 0).index t (1 : Fin 2) * 1 + 1 * 0 = 0; rw [index14_0_1]

/-- Entry (16 t + r, j) of the array is in point t's block. -/
theorem mem_blk14_1 (t : Fin (cfg14 a).N) (r : Fin 16) (j : Fin 262) :
    ValueIdx.ix2 (n0 := 50000) (n1 := 262) ⟨16 * t.val + r.val, idx_lt14 a t r⟩ j ∈ (((cfg14 a).win 1).blk t).view.set := by
  rw [← emb14_1]; exact View.emb_mem_set _ _

end Cert.KernelIdeal.Hand

end
-- ==== Proof.G14Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col14_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 14's one store at (r, j): the scratch entry (r, j) times the norm block's entry r. -/
theorem pay14_apply (v192 : Vec Ideal S16x1 .f32) (v194 : Vec Ideal S16x262 .f32) (r : Fin 16) (j : Fin 262) :
    k14_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k14_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col14_262 _ r j).trans (congrFun (shapeCast_self v192 shapeCasts_S16x1_S16x1) _))

end Cert.KernelIdeal.Hand

end
-- ==== Proof.G14Block.lean ====
/- Pipeline 14 at the ideal values: the block the body leaves at a point, entry by entry. -/
import proofs.«414392_j7919919694132_2_alg».proof.Proof.G14Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G14Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg14 (F := Ideal)).Adm) (hH : ∀ j : Fin 50000, ((a.1 0) (ValueIdx.ix1 j)).toNat < 50000)

/-! ## Indices of a one-row slice -/

/-- A one-row index has leading coordinate 0. -/
theorem row0_14 (x : S1x262.Idx) : (x 0).val = 0 := by
  have h := (x 0).isLt
  have e : S1x262.size 0 = 1 := by decide
  omega

/-- The gathered array, read as a matrix of ideal values. -/
abbrev asArr14 (c : Dev nD) (fh0 : HbBuf14 (F := Ideal) c hbM14) : FVec Ideal S50000x262 .f32 := fh0

/-- The table's word at offset `16 i + k`, as the body reads it. -/
theorem word14 (c : Dev nD) (i : grid14.Coords) (tb : HbBuf14 (F := Ideal) c tbM14) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM14.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma14_apply (c : Dev nD) (fh0 : HbBuf14 (F := Ideal) c hbM14) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM14.slice (Rect.unit (s := S50000x262) off S1x262.size inb) (fun _ => rfl)).view fh0) x
      = asArr14 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_14 x]; omega
  · show 0 + 1 * (x 1).val = (x 1).val
    omega

/-- The sixteen rows of the scratch, each the payload of its transfer. -/
def rows14 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows14 (p0 p1 p2 p3 p4 p5 p6 p7 p8 p9 p10 p11 p12 p13 p14 p15 : S1x262.Idx → Elt Ideal .f32) (y : S16x262.Idx) : ∃ pc ∈ rows14 p0 p1 p2 p3 p4 p5 p6 p7 p8 p9 p10 p11 p12 p13 p14 p15, y ∈ pc.1.set :=
  View.cover_of_tiledL (rows14 p0 p1 p2 p3 p4 p5 p6 p7 p8 p9 p10 p11 p12 p13 p14 p15) S1x262.size (by sl_kernel_rfl) y

/-- A point's coordinate is below the grid's 3125 points, so the sixteen table offsets of the point are inside the table. -/
theorem idxlt14 (i : grid14.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath14 (c : Dev nD) (i : grid14.Coords) (tb : HbBuf14 (F := Ideal) c tbM14) (fh0 : HbBuf14 (F := Ideal) c hbM14) (hT : ∀ x, (tb x).toNat < 50000) :
    S16x262.Idx → Elt Ideal .f32 :=
  fun y => asArr14 c fh0 (ValueIdx.ix2 (n0 := 50000) (n1 := 262) ⟨(tb (ValueIdx.ix1 (n := 50000) ⟨16 * (i 0).val + (y 0).val, idxlt14 i (y 0)⟩)).toNat, hT _⟩ (y 1))

/-- Row k's transfer delivers `gath14` at the row's indices. -/
theorem piece14 (c : Dev nD) (i : grid14.Coords) (tb : HbBuf14 (F := Ideal) c tbM14) (fh0 : HbBuf14 (F := Ideal) c hbM14) (hT : ∀ x, (tb x).toNat < 50000)
    (k : Fin 16) (w : BitVec 32) (hwd : w = tb (ValueIdx.ix1 (n := 50000) ⟨16 * (i 0).val + k.val, idxlt14 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM14.slice (Rect.unit (s := S50000x262) off S1x262.size inb) (fun _ => rfl)).view fh0) x
      = gath14 c i tb fh0 hT ((Rect.unit (s := S16x262) ![k.val, 0] S1x262.size inbk).emb x) := by
  subst hwd
  rw [dma14_apply c fh0 _ (hT _) off hoff inb x]
  unfold gath14
  show asArr14 c fh0 _ = asArr14 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_14 x]; omega
  · show (x 1).val = 0 + 1 * (x 1).val
    omega

set_option maxHeartbeats 1000000 in
/-- The scratch, read whole after the sixteen waits, is `gath14`. -/
theorem scratch14_apply (c : Dev nD) (i : grid14.Coords) (tb : HbBuf14 (F := Ideal) c tbM14) (fh0 : HbBuf14 (F := Ideal) c hbM14) (hT : ∀ x, (tb x).toNat < 50000)
    (y : S16x262.Idx) :
    scM14.view.readCov (rows14
        (kernelRun14.sl.dma1 c i tb fh0 (chk14_1_of_lt _ (hT _)))
        (kernelRun14.sl.dma2 c i tb fh0 (chk14_2_of_lt _ (hT _)))
        (kernelRun14.sl.dma3 c i tb fh0 (chk14_3_of_lt _ (hT _)))
        (kernelRun14.sl.dma4 c i tb fh0 (chk14_4_of_lt _ (hT _)))
        (kernelRun14.sl.dma5 c i tb fh0 (chk14_5_of_lt _ (hT _)))
        (kernelRun14.sl.dma6 c i tb fh0 (chk14_6_of_lt _ (hT _)))
        (kernelRun14.sl.dma7 c i tb fh0 (chk14_7_of_lt _ (hT _)))
        (kernelRun14.sl.dma8 c i tb fh0 (chk14_8_of_lt _ (hT _)))
        (kernelRun14.sl.dma9 c i tb fh0 (chk14_9_of_lt _ (hT _)))
        (kernelRun14.sl.dma10 c i tb fh0 (chk14_10_of_lt _ (hT _)))
        (kernelRun14.sl.dma11 c i tb fh0 (chk14_11_of_lt _ (hT _)))
        (kernelRun14.sl.dma12 c i tb fh0 (chk14_12_of_lt _ (hT _)))
        (kernelRun14.sl.dma13 c i tb fh0 (chk14_13_of_lt _ (hT _)))
        (kernelRun14.sl.dma14 c i tb fh0 (chk14_14_of_lt _ (hT _)))
        (kernelRun14.sl.dma15 c i tb fh0 (chk14_15_of_lt _ (hT _)))
        (kernelRun14.sl.dma16 c i tb fh0 (chk14_16_of_lt _ (hT _)))) (Rect.unit (s := S16x262) ![0, 0] S16x262.size inb_S16x262_S16x262_0_0).toLoadRect y
      = gath14 c i tb fh0 hT y := by
  rw [View.readCov_eq_canon_ld _ _ _ (cover_rows14 _ _ _ _ _ _ _ _ _ _ _ _ _ _ _ _), View.ld_unit_zero (by funext d; fin_cases d <;> rfl)]
  refine View.canon_apply_of_pieces (gath14 c i tb fh0 hT) (rows14 _ _ _ _ _ _ _ _ _ _ _ _ _ _ _ _) ?_ y (cover_rows14 _ _ _ _ _ _ _ _ _ _ _ _ _ _ _ _ y)
  intro p hp x
  unfold rows14 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun14.sl.dma16
    exact piece14 c i tb fh0 hT (15 : Fin 16) (kernelRun14.sl.r_15 c i tb)
      (by unfold kernelRun14.sl.r_15; exact word14 c i tb (15 : Fin 16) (idxlt14 i _) _ (by rw [k14_off31_eq]; rfl) _ _) (k14_off32 (kernelRun14.sl.r_15 c i tb)) rfl _ _ x
  · dsimp only
    unfold kernelRun14.sl.dma15
    exact piece14 c i tb fh0 hT (14 : Fin 16) (kernelRun14.sl.r_14 c i tb)
      (by unfold kernelRun14.sl.r_14; exact word14 c i tb (14 : Fin 16) (idxlt14 i _) _ (by rw [k14_off29_eq]; rfl) _ _) (k14_off30 (kernelRun14.sl.r_14 c i tb)) rfl _ _ x
  · dsimp only
    unfold kernelRun14.sl.dma14
    exact piece14 c i tb fh0 hT (13 : Fin 16) (kernelRun14.sl.r_13 c i tb)
      (by unfold kernelRun14.sl.r_13; exact word14 c i tb (13 : Fin 16) (idxlt14 i _) _ (by rw [k14_off27_eq]; rfl) _ _) (k14_off28 (kernelRun14.sl.r_13 c i tb)) rfl _ _ x
  · dsimp only
    unfold kernelRun14.sl.dma13
    exact piece14 c i tb fh0 hT (12 : Fin 16) (kernelRun14.sl.r_12 c i tb)
      (by unfold kernelRun14.sl.r_12; exact word14 c i tb (12 : Fin 16) (idxlt14 i _) _ (by rw [k14_off25_eq]; rfl) _ _) (k14_off26 (kernelRun14.sl.r_12 c i tb)) rfl _ _ x
  · dsimp only
    unfold kernelRun14.sl.dma12
    exact piece14 c i tb fh0 hT (11 : Fin 16) (kernelRun14.sl.r_11 c i tb)
      (by unfold kernelRun14.sl.r_11; exact word14 c i tb (11 : Fin 16) (idxlt14 i _) _ (by rw [k14_off23_eq]; rfl) _ _) (k14_off24 (kernelRun14.sl.r_11 c i tb)) rfl _ _ x
  · dsimp only
    unfold kernelRun14.sl.dma11
    exact piece14 c i tb fh0 hT (10 : Fin 16) (kernelRun14.sl.r_10 c i tb)
      (by unfold kernelRun14.sl.r_10; exact word14 c i tb (10 : Fin 16) (idxlt14 i _) _ (by rw [k14_off21_eq]; rfl) _ _) (k14_off22 (kernelRun14.sl.r_10 c i tb)) rfl _ _ x
  · dsimp only
    unfold kernelRun14.sl.dma10
    exact piece14 c i tb fh0 hT (9 : Fin 16) (kernelRun14.sl.r_9 c i tb)
      (by unfold kernelRun14.sl.r_9; exact word14 c i tb (9 : Fin 16) (idxlt14 i _) _ (by rw [k14_off19_eq]; rfl) _ _) (k14_off20 (kernelRun14.sl.r_9 c i tb)) rfl _ _ x
  · dsimp only
    unfold kernelRun14.sl.dma9
    exact piece14 c i tb fh0 hT (8 : Fin 16) (kernelRun14.sl.r_8 c i tb)
      (by unfold kernelRun14.sl.r_8; exact word14 c i tb (8 : Fin 16) (idxlt14 i _) _ (by rw [k14_off17_eq]; rfl) _ _) (k14_off18 (kernelRun14.sl.r_8 c i tb)) rfl _ _ x
  · dsimp only
    unfold kernelRun14.sl.dma8
    exact piece14 c i tb fh0 hT (7 : Fin 16) (kernelRun14.sl.r_7 c i tb)
      (by unfold kernelRun14.sl.r_7; exact word14 c i tb (7 : Fin 16) (idxlt14 i _) _ (by rw [k14_off15_eq]; rfl) _ _) (k14_off16 (kernelRun14.sl.r_7 c i tb)) rfl _ _ x
  · dsimp only
    unfold kernelRun14.sl.dma7
    exact piece14 c i tb fh0 hT (6 : Fin 16) (kernelRun14.sl.r_6 c i tb)
      (by unfold kernelRun14.sl.r_6; exact word14 c i tb (6 : Fin 16) (idxlt14 i _) _ (by rw [k14_off13_eq]; rfl) _ _) (k14_off14 (kernelRun14.sl.r_6 c i tb)) rfl _ _ x
  · dsimp only
    unfold kernelRun14.sl.dma6
    exact piece14 c i tb fh0 hT (5 : Fin 16) (kernelRun14.sl.r_5 c i tb)
      (by unfold kernelRun14.sl.r_5; exact word14 c i tb (5 : Fin 16) (idxlt14 i _) _ (by rw [k14_off11_eq]; rfl) _ _) (k14_off12 (kernelRun14.sl.r_5 c i tb)) rfl _ _ x
  · dsimp only
    unfold kernelRun14.sl.dma5
    exact piece14 c i tb fh0 hT (4 : Fin 16) (kernelRun14.sl.r_4 c i tb)
      (by unfold kernelRun14.sl.r_4; exact word14 c i tb (4 : Fin 16) (idxlt14 i _) _ (by rw [k14_off9_eq]; rfl) _ _) (k14_off10 (kernelRun14.sl.r_4 c i tb)) rfl _ _ x
  · dsimp only
    unfold kernelRun14.sl.dma4
    exact piece14 c i tb fh0 hT (3 : Fin 16) (kernelRun14.sl.r_3 c i tb)
      (by unfold kernelRun14.sl.r_3; exact word14 c i tb (3 : Fin 16) (idxlt14 i _) _ (by rw [k14_off7_eq]; rfl) _ _) (k14_off8 (kernelRun14.sl.r_3 c i tb)) rfl _ _ x
  · dsimp only
    unfold kernelRun14.sl.dma3
    exact piece14 c i tb fh0 hT (2 : Fin 16) (kernelRun14.sl.r_2 c i tb)
      (by unfold kernelRun14.sl.r_2; exact word14 c i tb (2 : Fin 16) (idxlt14 i _) _ (by rw [k14_off5_eq]; rfl) _ _) (k14_off6 (kernelRun14.sl.r_2 c i tb)) rfl _ _ x
  · dsimp only
    unfold kernelRun14.sl.dma2
    exact piece14 c i tb fh0 hT (1 : Fin 16) (kernelRun14.sl.r_1 c i tb)
      (by unfold kernelRun14.sl.r_1; exact word14 c i tb (1 : Fin 16) (idxlt14 i _) _ (by rw [k14_off3_eq]; rfl) _ _) (k14_off4 (kernelRun14.sl.r_1 c i tb)) rfl _ _ x
  · dsimp only
    unfold kernelRun14.sl.dma1
    exact piece14 c i tb fh0 hT (0 : Fin 16) (kernelRun14.sl.r c i tb)
      (by unfold kernelRun14.sl.r; exact word14 c i tb (0 : Fin 16) (idxlt14 i _) _ (by rw [k14_off1_eq]; rfl) _ _) (k14_off2 (kernelRun14.sl.r c i tb)) rfl _ _ x

/-- THE BLOCK the body leaves, over any staging memrefs and contents: row r is the row of the gathered array the table's
    word `16 i + r` names, times the norm block's entry r. -/
theorem out14_1_apply (c : Dev nD) (i : grid14.Coords) (arg3 : Memref sig .tc .vmem S16x1 .f32) (harg3 : arg3.IsWhole) (arg4 : Memref sig .tc .vmem S16x262 .f32) (harg4 : arg4.IsWhole)
    (x0 : Vec Ideal S16x1 .f32) (tb : HbBuf14 (F := Ideal) c tbM14) (fh0 : HbBuf14 (F := Ideal) c hbM14) (hT : ∀ x, (tb x).toNat < 50000) (r : Fin 16) (j : Fin 262) :
    out14_1 c i arg3 harg3 arg4 harg4 x0 tb fh0 hT (ValueIdx.ix2 (n0 := 16) (n1 := 262) r j)
      = gath14 c i tb fh0 hT (ValueIdx.ix2 (n0 := 16) (n1 := 262) r j) * x0 (ValueIdx.ix2 (n0 := 16) (n1 := 1) r 0) := by
  unfold out14_1
  rw [View.read_writes_eq_canon _ _ _ (cover14_1 c i arg3 harg3 arg4 harg4 x0 tb fh0 hT)]
  unfold kernelRun14
  dsimp only
  rw [View.canon_unit_zero (by funext d; fin_cases d <;> rfl)]
  rw [pay14_apply]
  congr 1
  · unfold kernelRun14.sl.v194
    exact scratch14_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt14_apply (c : Dev nD) (t : Fin (cfg14 a).N) (r : Fin 16) (j : Fin 262) :
    outsAt14 V a hH c t (ValueIdx.ix2 (n0 := 16) (n1 := 262) r j)
      = hbArr14 V c (ValueIdx.ix2 (n0 := 50000) (n1 := 262) ⟨((a.1 0) (ValueIdx.ix1 (n := 50000) ⟨16 * t.val + r.val, idx_lt14 a t r⟩)).toNat, hH _⟩ j)
          * nmBlk14 V a c t (ValueIdx.ix2 (n0 := 16) (n1 := 1) r 0) := by
  unfold outsAt14
  refine (out14_1_apply c (grid14.coords t) _ _ _ _ (nmBlk14 V a c t) (a.1 0) (hbArr14 V c) (tbl_lt14 a hH c) r j).trans ?_
  congr 1
  unfold gath14
  show hbArr14 V c _ = hbArr14 V c _
  congr 1
  funext d
  apply Fin.ext
  fin_cases d
  · exact congrArg (fun n : Fin 50000 => ((a.1 0) (ValueIdx.ix1 (n := 50000) n)).toNat)
      (Fin.ext (by show 16 * (grid14.coords t 0).val + r.val = 16 * t.val + r.val; rw [coords14_val a t]))
  · rfl

end Cert.KernelIdeal.Hand

end
-- ==== Proof.G14Value.lean ====
/- Pipeline 14 at the ideal values: the output array after the region is the gathered and scaled array (row e: the row of
   the source array named by the table's word e, times the norm column's entry e). -/
import proofs.«414392_j7919919694132_2_alg».proof.Proof.G14Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg14 (F := Ideal)).Adm) (hH : ∀ j : Fin 50000, ((a.1 0) (ValueIdx.ix1 j)).toNat < 50000)

/-! ## From blocks to the array -/

/-- What point t writes back is block t of the gathered and scaled array. -/
theorem flushed14_1_eq (c : Dev nD) (t : Fin (cfg14 a).N) :
    (dat14 (F := Ideal) V a hH c).flushed 1 t = (((cfg14 a).win 1).blk t).view.read (Elt Ideal) (G14v V a hH c) := by
  show ((cfg14 a).win 1).cut (grid14.coords t) ((dat14 V a hH c).after 1 t) = _
  rw [after14_1]
  refine funext fun (y : S16x262.Idx) => ?_
  obtain ⟨r, j, rfl⟩ : ∃ (r : Fin 16) (j : Fin 262), y = ValueIdx.ix2 r j := ⟨y 0, y 1, ValueIdx.eq_ix2 y⟩
  show outsAt14 V a hH c t (ValueIdx.ix2 (n0 := 16) (n1 := 262) r j) = G14v V a hH c ((((cfg14 a).win 1).blk t).view.emb (ValueIdx.ix2 (n0 := 16) (n1 := 262) r j))
  rw [emb14_1, outsAt14_apply V a hH c t r j, nmBlk14_apply V a c t r]

/-- Every index of the array is in some point's block: row e is in block e / 16. -/
theorem cover14_blk (i : S50000x262.Idx) :
    ∃ t : Fin (cfg14 a).N, ((cfg14 a).win 1).flush t = true ∧ i ∈ (((cfg14 a).win 1).blk t).view.set := by
  have hi0 : (i 0).val < 50000 := (i 0).isLt
  have hi1 : (i 1).val < 262 := (i 1).isLt
  have hq : (i 0).val / 16 < (cfg14 a).N := by rw [N14_eq a]; omega
  have hr : (i 0).val % 16 < 16 := Nat.mod_lt _ (by omega)
  obtain ⟨t, ht⟩ : ∃ t : Fin (cfg14 a).N, t.val = (i 0).val / 16 := ⟨⟨(i 0).val / 16, hq⟩, rfl⟩
  refine ⟨t, flush14_1 a t, ?_⟩
  have e : i = ValueIdx.ix2 (n0 := 50000) (n1 := 262) ⟨16 * t.val + (i 0).val % 16, idx_lt14 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk14_1 a t ⟨(i 0).val % 16, hr⟩ ⟨(i 1).val, hi1⟩

/-- The output array after the region is the gathered and scaled array, -/
theorem arrAt14_1_eq (c : Dev nD) : (dat14 (F := Ideal) V a hH c).arrAt 1 (cfg14 a).N = G14v V a hH c :=
  (dat14 (F := Ideal) V a hH c).arrAt_eq_of_cover 1 (G14v V a hH c) (fun t _ => flushed14_1_eq V a hH c t) (cover14_blk a)

/-- index by index: entry (e, j) is the source array's entry (the table's word e, j) times the norm column's entry e. -/
theorem arrAt14_1 (c : Dev nD) (e : Fin 50000) (j : Fin 262) :
    (dat14 (F := Ideal) V a hH c).arrAt 1 (cfg14 a).N (ValueIdx.ix2 (n0 := 50000) (n1 := 262) e j)
      = hbArr14 V c (ValueIdx.ix2 (n0 := 50000) (n1 := 262) ⟨((a.1 0) (ValueIdx.ix1 (n := 50000) e)).toNat, hH e⟩ j)
          * nmArr14 V c (ValueIdx.ix2 (n0 := 50000) (n1 := 1) e 0) :=
  (congrFun (arrAt14_1_eq V a hH c) (ValueIdx.ix2 (n0 := 50000) (n1 := 262) e j)).trans rfl

end Cert.KernelIdeal.Hand

end
-- ==== Proof.G15Idx.lean ====
/- Pipeline 15 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G15
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg15 (F := Ideal)).Adm) (hH : ∀ j : Fin 50000, ((a.1 0) (ValueIdx.ix1 j)).toNat < 50000)

/-! ## The arrays, by name -/

/-- The array the rows are gathered from, and the norm column. -/
abbrev hbArr15 (c : Dev nD) : FVec Ideal S50000x262 .f32 := V c main_v71
abbrev nmArr15 (c : Dev nD) : FVec Ideal S50000x1 .f32 := V c main_v86
/-- The norm block at a point. -/
abbrev nmBlk15 (c : Dev nD) (t : Fin (cfg15 a).N) : FVec Ideal S16x1 .f32 := iblk15 V a c 0 t

/-- The gathered and scaled array: row e is the row of the source array named by the table's word e, times the norm
    column's entry e. -/
abbrev G15v (c : Dev nD) : (⟨S50000x262, .f32⟩ : BufTy).Contents (Elt Ideal) := fun i =>
  hbArr15 V c (ValueIdx.ix2 (n0 := 50000) (n1 := 262) ⟨((a.1 0) (ValueIdx.ix1 (n := 50000) (i 0))).toNat, hH (i 0)⟩ (i 1))
    * nmArr15 V c (ValueIdx.ix2 (n0 := 50000) (n1 := 1) (i 0) 0)

/-! ## The index maps at a point -/

theorem N15_eq : (cfg15 a).N = 3125 := N_15

/-- Row r of point t's block is a row of the array. -/
theorem idx_lt15 (t : Fin (cfg15 a).N) (r : Fin 16) : 16 * t.val + r.val < 50000 := by
  have ht : t.val < 3125 := (N15_eq a) ▸ t.isLt
  have := r.isLt; omega

/-- On the one-axis grid the point's coordinate is the point. -/
theorem coords15_val (t : Fin (cfg15 a).N) : (grid15.coords t 0).val = t.val := by
  have h : t.val < 3125 := (N15_eq a) ▸ t.isLt
  show t.val / grid15.stride 0 % 3125 = t.val
  rw [show grid15.stride 0 = 1 from by decide, Nat.div_one, Nat.mod_eq_of_lt h]

theorem idx15_0 (t : Fin (cfg15 a).N) : ((cfg15 a).win 0).index t = cc15_transform_1 (grid15.coords t) := rfl
theorem idx15_1 (t : Fin (cfg15 a).N) : ((cfg15 a).win 1).index t = cc15_transform_2 (grid15.coords t) := rfl

theorem tr15_1_0 (i : grid15.Coords) : cc15_transform_1 i (0 : Fin 2) = (i 0).val := by
  show (BitVec.ofNat 32 (i 0).val).toNat = _
  have h := (i 0).isLt
  have hb : grid15.bound 0 = 3125 := rfl
  rw [BitVec.toNat_ofNat]; exact Nat.mod_eq_of_lt (by omega)
theorem tr15_1_1 (i : grid15.Coords) : cc15_transform_1 i (1 : Fin 2) = 0 := rfl
theorem tr15_2_0 (i : grid15.Coords) : cc15_transform_2 i (0 : Fin 2) = (i 0).val := by
  show (BitVec.ofNat 32 (i 0).val).toNat = _
  have h := (i 0).isLt
  have hb : grid15.bound 0 = 3125 := rfl
  rw [BitVec.toNat_ofNat]; exact Nat.mod_eq_of_lt (by omega)
theorem tr15_2_1 (i : grid15.Coords) : cc15_transform_2 i (1 : Fin 2) = 0 := rfl

/-- Both windows' row-block index at point t is t; their column-block index is zero. -/
theorem index15_0_0 (t : Fin (cfg15 a).N) : ((cfg15 a).win 0).index t (0 : Fin 2) = t.val := by rw [idx15_0, tr15_1_0, coords15_val]
theorem index15_0_1 (t : Fin (cfg15 a).N) : ((cfg15 a).win 0).index t (1 : Fin 2) = 0 := by rw [idx15_0, tr15_1_1]
theorem index15_1_0 (t : Fin (cfg15 a).N) : ((cfg15 a).win 1).index t (0 : Fin 2) = t.val := by rw [idx15_1, tr15_2_0, coords15_val]
theorem index15_1_1 (t : Fin (cfg15 a).N) : ((cfg15 a).win 1).index t (1 : Fin 2) = 0 := by rw [idx15_1, tr15_2_1]

/-- The output window is written back at every point: its block index moves with the point. -/
theorem flush15_1 (t : Fin (cfg15 a).N) : ((cfg15 a).win 1).flush t = true := by
  rw [Window.flush_out _ rfl]
  by_cases h : t.val + 1 = grid15.N
  · exact Or.inl h
  · have hN : grid15.N = 3125 := N_15
    have ht : t.val < 3125 := (N15_eq a) ▸ t.isLt
    have h1 : t.val + 1 < grid15.N := by omega
    refine Or.inr ⟨h1, fun e => ?_⟩
    have e0 : ((cfg15 a).win 1).index ⟨t.val + 1, h1⟩ (0 : Fin 2) = ((cfg15 a).win 1).index t (0 : Fin 2) := congrFun e (0 : Fin 2)
    rw [index15_1_0, index15_1_0] at e0
    exact absurd e0 (by show t.val + 1 ≠ t.val; omega)

/-! ## The blocks at a point -/

/-- Entry (r, j) of point t's output block is entry (16 t + r, j) of the array. -/
theorem emb15_1 (t : Fin (cfg15 a).N) (r : Fin 16) (j : Fin 262) :
    (((cfg15 a).win 1).blk t).view.emb (ValueIdx.ix2 (n0 := 16) (n1 := 262) r j)
      = ValueIdx.ix2 (n0 := 50000) (n1 := 262) ⟨16 * t.val + r.val, idx_lt15 a t r⟩ j := by
  funext k; apply Fin.ext
  match k with
  | ⟨0, _⟩ => show ((cfg15 a).win 1).index t (0 : Fin 2) * 16 + 1 * r.val = 16 * t.val + r.val; rw [index15_1_0]; omega
  | ⟨1, _⟩ => show ((cfg15 a).win 1).index t (1 : Fin 2) * 262 + 1 * j.val = j.val; rw [index15_1_1]; omega

/-- The norm block at point t, row r, is the norm column's entry 16 t + r. -/
theorem nmBlk15_apply (c : Dev nD) (t : Fin (cfg15 a).N) (r : Fin 16) :
    nmBlk15 V a c t (ValueIdx.ix2 (n0 := 16) (n1 := 1) r 0)
      = nmArr15 V c (ValueIdx.ix2 (n0 := 50000) (n1 := 1) ⟨16 * t.val + r.val, idx_lt15 a t r⟩ 0) := by
  show V c main_v86 ((((cfg15 a).win 0).blk t).view.emb (ValueIdx.ix2 (n0 := 16) (n1 := 1) r 0)) = V c main_v86 (ValueIdx.ix2 (n0 := 50000) (n1 := 1) ⟨16 * t.val + r.val, idx_lt15 a t r⟩ 0)
  refine congrArg (V c main_v86) ?_
  funext k; apply Fin.ext
  match k with
  | ⟨0, _⟩ => show ((cfg15 a).win 0).index t (0 : Fin 2) * 16 + 1 * r.val = 16 * t.val + r.val; rw [index15_0_0]; omega
  | ⟨1, _⟩ => show ((cfg15 a).win 0).index t (1 : Fin 2) * 1 + 1 * 0 = 0; rw [index15_0_1]

/-- Entry (16 t + r, j) of the array is in point t's block. -/
theorem mem_blk15_1 (t : Fin (cfg15 a).N) (r : Fin 16) (j : Fin 262) :
    ValueIdx.ix2 (n0 := 50000) (n1 := 262) ⟨16 * t.val + r.val, idx_lt15 a t r⟩ j ∈ (((cfg15 a).win 1).blk t).view.set := by
  rw [← emb15_1]; exact View.emb_mem_set _ _

end Cert.KernelIdeal.Hand

end
-- ==== Proof.G15Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col15_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 15's one store at (r, j): the scratch entry (r, j) times the norm block's entry r. -/
theorem pay15_apply (v192 : Vec Ideal S16x1 .f32) (v194 : Vec Ideal S16x262 .f32) (r : Fin 16) (j : Fin 262) :
    k15_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k15_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col15_262 _ r j).trans (congrFun (shapeCast_self v192 shapeCasts_S16x1_S16x1) _))

end Cert.KernelIdeal.Hand

end
-- ==== Proof.G15Block.lean ====
/- Pipeline 15 at the ideal values: the block the body leaves at a point, entry by entry. -/
import proofs.«414392_j7919919694132_2_alg».proof.Proof.G15Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G15Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg15 (F := Ideal)).Adm) (hH : ∀ j : Fin 50000, ((a.1 0) (ValueIdx.ix1 j)).toNat < 50000)

/-! ## Indices of a one-row slice -/

/-- A one-row index has leading coordinate 0. -/
theorem row0_15 (x : S1x262.Idx) : (x 0).val = 0 := by
  have h := (x 0).isLt
  have e : S1x262.size 0 = 1 := by decide
  omega

/-- The gathered array, read as a matrix of ideal values. -/
abbrev asArr15 (c : Dev nD) (fh0 : HbBuf15 (F := Ideal) c hbM15) : FVec Ideal S50000x262 .f32 := fh0

/-- The table's word at offset `16 i + k`, as the body reads it. -/
theorem word15 (c : Dev nD) (i : grid15.Coords) (tb : HbBuf15 (F := Ideal) c tbM15) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM15.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma15_apply (c : Dev nD) (fh0 : HbBuf15 (F := Ideal) c hbM15) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM15.slice (Rect.unit (s := S50000x262) off S1x262.size inb) (fun _ => rfl)).view fh0) x
      = asArr15 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_15 x]; omega
  · show 0 + 1 * (x 1).val = (x 1).val
    omega

/-- The sixteen rows of the scratch, each the payload of its transfer. -/
def rows15 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows15 (p0 p1 p2 p3 p4 p5 p6 p7 p8 p9 p10 p11 p12 p13 p14 p15 : S1x262.Idx → Elt Ideal .f32) (y : S16x262.Idx) : ∃ pc ∈ rows15 p0 p1 p2 p3 p4 p5 p6 p7 p8 p9 p10 p11 p12 p13 p14 p15, y ∈ pc.1.set :=
  View.cover_of_tiledL (rows15 p0 p1 p2 p3 p4 p5 p6 p7 p8 p9 p10 p11 p12 p13 p14 p15) S1x262.size (by sl_kernel_rfl) y

/-- A point's coordinate is below the grid's 3125 points, so the sixteen table offsets of the point are inside the table. -/
theorem idxlt15 (i : grid15.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath15 (c : Dev nD) (i : grid15.Coords) (tb : HbBuf15 (F := Ideal) c tbM15) (fh0 : HbBuf15 (F := Ideal) c hbM15) (hT : ∀ x, (tb x).toNat < 50000) :
    S16x262.Idx → Elt Ideal .f32 :=
  fun y => asArr15 c fh0 (ValueIdx.ix2 (n0 := 50000) (n1 := 262) ⟨(tb (ValueIdx.ix1 (n := 50000) ⟨16 * (i 0).val + (y 0).val, idxlt15 i (y 0)⟩)).toNat, hT _⟩ (y 1))

/-- Row k's transfer delivers `gath15` at the row's indices. -/
theorem piece15 (c : Dev nD) (i : grid15.Coords) (tb : HbBuf15 (F := Ideal) c tbM15) (fh0 : HbBuf15 (F := Ideal) c hbM15) (hT : ∀ x, (tb x).toNat < 50000)
    (k : Fin 16) (w : BitVec 32) (hwd : w = tb (ValueIdx.ix1 (n := 50000) ⟨16 * (i 0).val + k.val, idxlt15 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM15.slice (Rect.unit (s := S50000x262) off S1x262.size inb) (fun _ => rfl)).view fh0) x
      = gath15 c i tb fh0 hT ((Rect.unit (s := S16x262) ![k.val, 0] S1x262.size inbk).emb x) := by
  subst hwd
  rw [dma15_apply c fh0 _ (hT _) off hoff inb x]
  unfold gath15
  show asArr15 c fh0 _ = asArr15 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_15 x]; omega
  · show (x 1).val = 0 + 1 * (x 1).val
    omega

set_option maxHeartbeats 1000000 in
/-- The scratch, read whole after the sixteen waits, is `gath15`. -/
theorem scratch15_apply (c : Dev nD) (i : grid15.Coords) (tb : HbBuf15 (F := Ideal) c tbM15) (fh0 : HbBuf15 (F := Ideal) c hbM15) (hT : ∀ x, (tb x).toNat < 50000)
    (y : S16x262.Idx) :
    scM15.view.readCov (rows15
        (kernelRun15.sl.dma1 c i tb fh0 (chk15_1_of_lt _ (hT _)))
        (kernelRun15.sl.dma2 c i tb fh0 (chk15_2_of_lt _ (hT _)))
        (kernelRun15.sl.dma3 c i tb fh0 (chk15_3_of_lt _ (hT _)))
        (kernelRun15.sl.dma4 c i tb fh0 (chk15_4_of_lt _ (hT _)))
        (kernelRun15.sl.dma5 c i tb fh0 (chk15_5_of_lt _ (hT _)))
        (kernelRun15.sl.dma6 c i tb fh0 (chk15_6_of_lt _ (hT _)))
        (kernelRun15.sl.dma7 c i tb fh0 (chk15_7_of_lt _ (hT _)))
        (kernelRun15.sl.dma8 c i tb fh0 (chk15_8_of_lt _ (hT _)))
        (kernelRun15.sl.dma9 c i tb fh0 (chk15_9_of_lt _ (hT _)))
        (kernelRun15.sl.dma10 c i tb fh0 (chk15_10_of_lt _ (hT _)))
        (kernelRun15.sl.dma11 c i tb fh0 (chk15_11_of_lt _ (hT _)))
        (kernelRun15.sl.dma12 c i tb fh0 (chk15_12_of_lt _ (hT _)))
        (kernelRun15.sl.dma13 c i tb fh0 (chk15_13_of_lt _ (hT _)))
        (kernelRun15.sl.dma14 c i tb fh0 (chk15_14_of_lt _ (hT _)))
        (kernelRun15.sl.dma15 c i tb fh0 (chk15_15_of_lt _ (hT _)))
        (kernelRun15.sl.dma16 c i tb fh0 (chk15_16_of_lt _ (hT _)))) (Rect.unit (s := S16x262) ![0, 0] S16x262.size inb_S16x262_S16x262_0_0).toLoadRect y
      = gath15 c i tb fh0 hT y := by
  rw [View.readCov_eq_canon_ld _ _ _ (cover_rows15 _ _ _ _ _ _ _ _ _ _ _ _ _ _ _ _), View.ld_unit_zero (by funext d; fin_cases d <;> rfl)]
  refine View.canon_apply_of_pieces (gath15 c i tb fh0 hT) (rows15 _ _ _ _ _ _ _ _ _ _ _ _ _ _ _ _) ?_ y (cover_rows15 _ _ _ _ _ _ _ _ _ _ _ _ _ _ _ _ y)
  intro p hp x
  unfold rows15 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun15.sl.dma16
    exact piece15 c i tb fh0 hT (15 : Fin 16) (kernelRun15.sl.r_15 c i tb)
      (by unfold kernelRun15.sl.r_15; exact word15 c i tb (15 : Fin 16) (idxlt15 i _) _ (by rw [k15_off31_eq]; rfl) _ _) (k15_off32 (kernelRun15.sl.r_15 c i tb)) rfl _ _ x
  · dsimp only
    unfold kernelRun15.sl.dma15
    exact piece15 c i tb fh0 hT (14 : Fin 16) (kernelRun15.sl.r_14 c i tb)
      (by unfold kernelRun15.sl.r_14; exact word15 c i tb (14 : Fin 16) (idxlt15 i _) _ (by rw [k15_off29_eq]; rfl) _ _) (k15_off30 (kernelRun15.sl.r_14 c i tb)) rfl _ _ x
  · dsimp only
    unfold kernelRun15.sl.dma14
    exact piece15 c i tb fh0 hT (13 : Fin 16) (kernelRun15.sl.r_13 c i tb)
      (by unfold kernelRun15.sl.r_13; exact word15 c i tb (13 : Fin 16) (idxlt15 i _) _ (by rw [k15_off27_eq]; rfl) _ _) (k15_off28 (kernelRun15.sl.r_13 c i tb)) rfl _ _ x
  · dsimp only
    unfold kernelRun15.sl.dma13
    exact piece15 c i tb fh0 hT (12 : Fin 16) (kernelRun15.sl.r_12 c i tb)
      (by unfold kernelRun15.sl.r_12; exact word15 c i tb (12 : Fin 16) (idxlt15 i _) _ (by rw [k15_off25_eq]; rfl) _ _) (k15_off26 (kernelRun15.sl.r_12 c i tb)) rfl _ _ x
  · dsimp only
    unfold kernelRun15.sl.dma12
    exact piece15 c i tb fh0 hT (11 : Fin 16) (kernelRun15.sl.r_11 c i tb)
      (by unfold kernelRun15.sl.r_11; exact word15 c i tb (11 : Fin 16) (idxlt15 i _) _ (by rw [k15_off23_eq]; rfl) _ _) (k15_off24 (kernelRun15.sl.r_11 c i tb)) rfl _ _ x
  · dsimp only
    unfold kernelRun15.sl.dma11
    exact piece15 c i tb fh0 hT (10 : Fin 16) (kernelRun15.sl.r_10 c i tb)
      (by unfold kernelRun15.sl.r_10; exact word15 c i tb (10 : Fin 16) (idxlt15 i _) _ (by rw [k15_off21_eq]; rfl) _ _) (k15_off22 (kernelRun15.sl.r_10 c i tb)) rfl _ _ x
  · dsimp only
    unfold kernelRun15.sl.dma10
    exact piece15 c i tb fh0 hT (9 : Fin 16) (kernelRun15.sl.r_9 c i tb)
      (by unfold kernelRun15.sl.r_9; exact word15 c i tb (9 : Fin 16) (idxlt15 i _) _ (by rw [k15_off19_eq]; rfl) _ _) (k15_off20 (kernelRun15.sl.r_9 c i tb)) rfl _ _ x
  · dsimp only
    unfold kernelRun15.sl.dma9
    exact piece15 c i tb fh0 hT (8 : Fin 16) (kernelRun15.sl.r_8 c i tb)
      (by unfold kernelRun15.sl.r_8; exact word15 c i tb (8 : Fin 16) (idxlt15 i _) _ (by rw [k15_off17_eq]; rfl) _ _) (k15_off18 (kernelRun15.sl.r_8 c i tb)) rfl _ _ x
  · dsimp only
    unfold kernelRun15.sl.dma8
    exact piece15 c i tb fh0 hT (7 : Fin 16) (kernelRun15.sl.r_7 c i tb)
      (by unfold kernelRun15.sl.r_7; exact word15 c i tb (7 : Fin 16) (idxlt15 i _) _ (by rw [k15_off15_eq]; rfl) _ _) (k15_off16 (kernelRun15.sl.r_7 c i tb)) rfl _ _ x
  · dsimp only
    unfold kernelRun15.sl.dma7
    exact piece15 c i tb fh0 hT (6 : Fin 16) (kernelRun15.sl.r_6 c i tb)
      (by unfold kernelRun15.sl.r_6; exact word15 c i tb (6 : Fin 16) (idxlt15 i _) _ (by rw [k15_off13_eq]; rfl) _ _) (k15_off14 (kernelRun15.sl.r_6 c i tb)) rfl _ _ x
  · dsimp only
    unfold kernelRun15.sl.dma6
    exact piece15 c i tb fh0 hT (5 : Fin 16) (kernelRun15.sl.r_5 c i tb)
      (by unfold kernelRun15.sl.r_5; exact word15 c i tb (5 : Fin 16) (idxlt15 i _) _ (by rw [k15_off11_eq]; rfl) _ _) (k15_off12 (kernelRun15.sl.r_5 c i tb)) rfl _ _ x
  · dsimp only
    unfold kernelRun15.sl.dma5
    exact piece15 c i tb fh0 hT (4 : Fin 16) (kernelRun15.sl.r_4 c i tb)
      (by unfold kernelRun15.sl.r_4; exact word15 c i tb (4 : Fin 16) (idxlt15 i _) _ (by rw [k15_off9_eq]; rfl) _ _) (k15_off10 (kernelRun15.sl.r_4 c i tb)) rfl _ _ x
  · dsimp only
    unfold kernelRun15.sl.dma4
    exact piece15 c i tb fh0 hT (3 : Fin 16) (kernelRun15.sl.r_3 c i tb)
      (by unfold kernelRun15.sl.r_3; exact word15 c i tb (3 : Fin 16) (idxlt15 i _) _ (by rw [k15_off7_eq]; rfl) _ _) (k15_off8 (kernelRun15.sl.r_3 c i tb)) rfl _ _ x
  · dsimp only
    unfold kernelRun15.sl.dma3
    exact piece15 c i tb fh0 hT (2 : Fin 16) (kernelRun15.sl.r_2 c i tb)
      (by unfold kernelRun15.sl.r_2; exact word15 c i tb (2 : Fin 16) (idxlt15 i _) _ (by rw [k15_off5_eq]; rfl) _ _) (k15_off6 (kernelRun15.sl.r_2 c i tb)) rfl _ _ x
  · dsimp only
    unfold kernelRun15.sl.dma2
    exact piece15 c i tb fh0 hT (1 : Fin 16) (kernelRun15.sl.r_1 c i tb)
      (by unfold kernelRun15.sl.r_1; exact word15 c i tb (1 : Fin 16) (idxlt15 i _) _ (by rw [k15_off3_eq]; rfl) _ _) (k15_off4 (kernelRun15.sl.r_1 c i tb)) rfl _ _ x
  · dsimp only
    unfold kernelRun15.sl.dma1
    exact piece15 c i tb fh0 hT (0 : Fin 16) (kernelRun15.sl.r c i tb)
      (by unfold kernelRun15.sl.r; exact word15 c i tb (0 : Fin 16) (idxlt15 i _) _ (by rw [k15_off1_eq]; rfl) _ _) (k15_off2 (kernelRun15.sl.r c i tb)) rfl _ _ x

/-- THE BLOCK the body leaves, over any staging memrefs and contents: row r is the row of the gathered array the table's
    word `16 i + r` names, times the norm block's entry r. -/
theorem out15_1_apply (c : Dev nD) (i : grid15.Coords) (arg3 : Memref sig .tc .vmem S16x1 .f32) (harg3 : arg3.IsWhole) (arg4 : Memref sig .tc .vmem S16x262 .f32) (harg4 : arg4.IsWhole)
    (x0 : Vec Ideal S16x1 .f32) (tb : HbBuf15 (F := Ideal) c tbM15) (fh0 : HbBuf15 (F := Ideal) c hbM15) (hT : ∀ x, (tb x).toNat < 50000) (r : Fin 16) (j : Fin 262) :
    out15_1 c i arg3 harg3 arg4 harg4 x0 tb fh0 hT (ValueIdx.ix2 (n0 := 16) (n1 := 262) r j)
      = gath15 c i tb fh0 hT (ValueIdx.ix2 (n0 := 16) (n1 := 262) r j) * x0 (ValueIdx.ix2 (n0 := 16) (n1 := 1) r 0) := by
  unfold out15_1
  rw [View.read_writes_eq_canon _ _ _ (cover15_1 c i arg3 harg3 arg4 harg4 x0 tb fh0 hT)]
  unfold kernelRun15
  dsimp only
  rw [View.canon_unit_zero (by funext d; fin_cases d <;> rfl)]
  rw [pay15_apply]
  congr 1
  · unfold kernelRun15.sl.v194
    exact scratch15_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt15_apply (c : Dev nD) (t : Fin (cfg15 a).N) (r : Fin 16) (j : Fin 262) :
    outsAt15 V a hH c t (ValueIdx.ix2 (n0 := 16) (n1 := 262) r j)
      = hbArr15 V c (ValueIdx.ix2 (n0 := 50000) (n1 := 262) ⟨((a.1 0) (ValueIdx.ix1 (n := 50000) ⟨16 * t.val + r.val, idx_lt15 a t r⟩)).toNat, hH _⟩ j)
          * nmBlk15 V a c t (ValueIdx.ix2 (n0 := 16) (n1 := 1) r 0) := by
  unfold outsAt15
  refine (out15_1_apply c (grid15.coords t) _ _ _ _ (nmBlk15 V a c t) (a.1 0) (hbArr15 V c) (tbl_lt15 a hH c) r j).trans ?_
  congr 1
  unfold gath15
  show hbArr15 V c _ = hbArr15 V c _
  congr 1
  funext d
  apply Fin.ext
  fin_cases d
  · exact congrArg (fun n : Fin 50000 => ((a.1 0) (ValueIdx.ix1 (n := 50000) n)).toNat)
      (Fin.ext (by show 16 * (grid15.coords t 0).val + r.val = 16 * t.val + r.val; rw [coords15_val a t]))
  · rfl

end Cert.KernelIdeal.Hand

end
-- ==== Proof.G15Value.lean ====
/- Pipeline 15 at the ideal values: the output array after the region is the gathered and scaled array (row e: the row of
   the source array named by the table's word e, times the norm column's entry e). -/
import proofs.«414392_j7919919694132_2_alg».proof.Proof.G15Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg15 (F := Ideal)).Adm) (hH : ∀ j : Fin 50000, ((a.1 0) (ValueIdx.ix1 j)).toNat < 50000)

/-! ## From blocks to the array -/

/-- What point t writes back is block t of the gathered and scaled array. -/
theorem flushed15_1_eq (c : Dev nD) (t : Fin (cfg15 a).N) :
    (dat15 (F := Ideal) V a hH c).flushed 1 t = (((cfg15 a).win 1).blk t).view.read (Elt Ideal) (G15v V a hH c) := by
  show ((cfg15 a).win 1).cut (grid15.coords t) ((dat15 V a hH c).after 1 t) = _
  rw [after15_1]
  refine funext fun (y : S16x262.Idx) => ?_
  obtain ⟨r, j, rfl⟩ : ∃ (r : Fin 16) (j : Fin 262), y = ValueIdx.ix2 r j := ⟨y 0, y 1, ValueIdx.eq_ix2 y⟩
  show outsAt15 V a hH c t (ValueIdx.ix2 (n0 := 16) (n1 := 262) r j) = G15v V a hH c ((((cfg15 a).win 1).blk t).view.emb (ValueIdx.ix2 (n0 := 16) (n1 := 262) r j))
  rw [emb15_1, outsAt15_apply V a hH c t r j, nmBlk15_apply V a c t r]

/-- Every index of the array is in some point's block: row e is in block e / 16. -/
theorem cover15_blk (i : S50000x262.Idx) :
    ∃ t : Fin (cfg15 a).N, ((cfg15 a).win 1).flush t = true ∧ i ∈ (((cfg15 a).win 1).blk t).view.set := by
  have hi0 : (i 0).val < 50000 := (i 0).isLt
  have hi1 : (i 1).val < 262 := (i 1).isLt
  have hq : (i 0).val / 16 < (cfg15 a).N := by rw [N15_eq a]; omega
  have hr : (i 0).val % 16 < 16 := Nat.mod_lt _ (by omega)
  obtain ⟨t, ht⟩ : ∃ t : Fin (cfg15 a).N, t.val = (i 0).val / 16 := ⟨⟨(i 0).val / 16, hq⟩, rfl⟩
  refine ⟨t, flush15_1 a t, ?_⟩
  have e : i = ValueIdx.ix2 (n0 := 50000) (n1 := 262) ⟨16 * t.val + (i 0).val % 16, idx_lt15 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk15_1 a t ⟨(i 0).val % 16, hr⟩ ⟨(i 1).val, hi1⟩

/-- The output array after the region is the gathered and scaled array, -/
theorem arrAt15_1_eq (c : Dev nD) : (dat15 (F := Ideal) V a hH c).arrAt 1 (cfg15 a).N = G15v V a hH c :=
  (dat15 (F := Ideal) V a hH c).arrAt_eq_of_cover 1 (G15v V a hH c) (fun t _ => flushed15_1_eq V a hH c t) (cover15_blk a)

/-- index by index: entry (e, j) is the source array's entry (the table's word e, j) times the norm column's entry e. -/
theorem arrAt15_1 (c : Dev nD) (e : Fin 50000) (j : Fin 262) :
    (dat15 (F := Ideal) V a hH c).arrAt 1 (cfg15 a).N (ValueIdx.ix2 (n0 := 50000) (n1 := 262) e j)
      = hbArr15 V c (ValueIdx.ix2 (n0 := 50000) (n1 := 262) ⟨((a.1 0) (ValueIdx.ix1 (n := 50000) e)).toNat, hH e⟩ j)
          * nmArr15 V c (ValueIdx.ix2 (n0 := 50000) (n1 := 1) e 0) :=
  (congrFun (arrAt15_1_eq V a hH c) (ValueIdx.ix2 (n0 := 50000) (n1 := 262) e j)).trans rfl

end Cert.KernelIdeal.Hand

end
-- ==== Proof.G16Idx.lean ====
/- Pipeline 16 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G16
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg16 (F := Ideal)).Adm) (hH : ∀ j : Fin 50000, ((a.1 0) (ValueIdx.ix1 j)).toNat < 50000)

/-! ## The arrays, by name -/

/-- The array the rows are gathered from, and the norm column. -/
abbrev hbArr16 (c : Dev nD) : FVec Ideal S50000x262 .f32 := V c main_v71
abbrev nmArr16 (c : Dev nD) : FVec Ideal S50000x1 .f32 := V c main_v89
/-- The norm block at a point. -/
abbrev nmBlk16 (c : Dev nD) (t : Fin (cfg16 a).N) : FVec Ideal S16x1 .f32 := iblk16 V a c 0 t

/-- The gathered and scaled array: row e is the row of the source array named by the table's word e, times the norm
    column's entry e. -/
abbrev G16v (c : Dev nD) : (⟨S50000x262, .f32⟩ : BufTy).Contents (Elt Ideal) := fun i =>
  hbArr16 V c (ValueIdx.ix2 (n0 := 50000) (n1 := 262) ⟨((a.1 0) (ValueIdx.ix1 (n := 50000) (i 0))).toNat, hH (i 0)⟩ (i 1))
    * nmArr16 V c (ValueIdx.ix2 (n0 := 50000) (n1 := 1) (i 0) 0)

/-! ## The index maps at a point -/

theorem N16_eq : (cfg16 a).N = 3125 := N_16

/-- Row r of point t's block is a row of the array. -/
theorem idx_lt16 (t : Fin (cfg16 a).N) (r : Fin 16) : 16 * t.val + r.val < 50000 := by
  have ht : t.val < 3125 := (N16_eq a) ▸ t.isLt
  have := r.isLt; omega

/-- On the one-axis grid the point's coordinate is the point. -/
theorem coords16_val (t : Fin (cfg16 a).N) : (grid16.coords t 0).val = t.val := by
  have h : t.val < 3125 := (N16_eq a) ▸ t.isLt
  show t.val / grid16.stride 0 % 3125 = t.val
  rw [show grid16.stride 0 = 1 from by decide, Nat.div_one, Nat.mod_eq_of_lt h]

theorem idx16_0 (t : Fin (cfg16 a).N) : ((cfg16 a).win 0).index t = cc16_transform_1 (grid16.coords t) := rfl
theorem idx16_1 (t : Fin (cfg16 a).N) : ((cfg16 a).win 1).index t = cc16_transform_2 (grid16.coords t) := rfl

theorem tr16_1_0 (i : grid16.Coords) : cc16_transform_1 i (0 : Fin 2) = (i 0).val := by
  show (BitVec.ofNat 32 (i 0).val).toNat = _
  have h := (i 0).isLt
  have hb : grid16.bound 0 = 3125 := rfl
  rw [BitVec.toNat_ofNat]; exact Nat.mod_eq_of_lt (by omega)
theorem tr16_1_1 (i : grid16.Coords) : cc16_transform_1 i (1 : Fin 2) = 0 := rfl
theorem tr16_2_0 (i : grid16.Coords) : cc16_transform_2 i (0 : Fin 2) = (i 0).val := by
  show (BitVec.ofNat 32 (i 0).val).toNat = _
  have h := (i 0).isLt
  have hb : grid16.bound 0 = 3125 := rfl
  rw [BitVec.toNat_ofNat]; exact Nat.mod_eq_of_lt (by omega)
theorem tr16_2_1 (i : grid16.Coords) : cc16_transform_2 i (1 : Fin 2) = 0 := rfl

/-- Both windows' row-block index at point t is t; their column-block index is zero. -/
theorem index16_0_0 (t : Fin (cfg16 a).N) : ((cfg16 a).win 0).index t (0 : Fin 2) = t.val := by rw [idx16_0, tr16_1_0, coords16_val]
theorem index16_0_1 (t : Fin (cfg16 a).N) : ((cfg16 a).win 0).index t (1 : Fin 2) = 0 := by rw [idx16_0, tr16_1_1]
theorem index16_1_0 (t : Fin (cfg16 a).N) : ((cfg16 a).win 1).index t (0 : Fin 2) = t.val := by rw [idx16_1, tr16_2_0, coords16_val]
theorem index16_1_1 (t : Fin (cfg16 a).N) : ((cfg16 a).win 1).index t (1 : Fin 2) = 0 := by rw [idx16_1, tr16_2_1]

/-- The output window is written back at every point: its block index moves with the point. -/
theorem flush16_1 (t : Fin (cfg16 a).N) : ((cfg16 a).win 1).flush t = true := by
  rw [Window.flush_out _ rfl]
  by_cases h : t.val + 1 = grid16.N
  · exact Or.inl h
  · have hN : grid16.N = 3125 := N_16
    have ht : t.val < 3125 := (N16_eq a) ▸ t.isLt
    have h1 : t.val + 1 < grid16.N := by omega
    refine Or.inr ⟨h1, fun e => ?_⟩
    have e0 : ((cfg16 a).win 1).index ⟨t.val + 1, h1⟩ (0 : Fin 2) = ((cfg16 a).win 1).index t (0 : Fin 2) := congrFun e (0 : Fin 2)
    rw [index16_1_0, index16_1_0] at e0
    exact absurd e0 (by show t.val + 1 ≠ t.val; omega)

/-! ## The blocks at a point -/

/-- Entry (r, j) of point t's output block is entry (16 t + r, j) of the array. -/
theorem emb16_1 (t : Fin (cfg16 a).N) (r : Fin 16) (j : Fin 262) :
    (((cfg16 a).win 1).blk t).view.emb (ValueIdx.ix2 (n0 := 16) (n1 := 262) r j)
      = ValueIdx.ix2 (n0 := 50000) (n1 := 262) ⟨16 * t.val + r.val, idx_lt16 a t r⟩ j := by
  funext k; apply Fin.ext
  match k with
  | ⟨0, _⟩ => show ((cfg16 a).win 1).index t (0 : Fin 2) * 16 + 1 * r.val = 16 * t.val + r.val; rw [index16_1_0]; omega
  | ⟨1, _⟩ => show ((cfg16 a).win 1).index t (1 : Fin 2) * 262 + 1 * j.val = j.val; rw [index16_1_1]; omega

/-- The norm block at point t, row r, is the norm column's entry 16 t + r. -/
theorem nmBlk16_apply (c : Dev nD) (t : Fin (cfg16 a).N) (r : Fin 16) :
    nmBlk16 V a c t (ValueIdx.ix2 (n0 := 16) (n1 := 1) r 0)
      = nmArr16 V c (ValueIdx.ix2 (n0 := 50000) (n1 := 1) ⟨16 * t.val + r.val, idx_lt16 a t r⟩ 0) := by
  show V c main_v89 ((((cfg16 a).win 0).blk t).view.emb (ValueIdx.ix2 (n0 := 16) (n1 := 1) r 0)) = V c main_v89 (ValueIdx.ix2 (n0 := 50000) (n1 := 1) ⟨16 * t.val + r.val, idx_lt16 a t r⟩ 0)
  refine congrArg (V c main_v89) ?_
  funext k; apply Fin.ext
  match k with
  | ⟨0, _⟩ => show ((cfg16 a).win 0).index t (0 : Fin 2) * 16 + 1 * r.val = 16 * t.val + r.val; rw [index16_0_0]; omega
  | ⟨1, _⟩ => show ((cfg16 a).win 0).index t (1 : Fin 2) * 1 + 1 * 0 = 0; rw [index16_0_1]

/-- Entry (16 t + r, j) of the array is in point t's block. -/
theorem mem_blk16_1 (t : Fin (cfg16 a).N) (r : Fin 16) (j : Fin 262) :
    ValueIdx.ix2 (n0 := 50000) (n1 := 262) ⟨16 * t.val + r.val, idx_lt16 a t r⟩ j ∈ (((cfg16 a).win 1).blk t).view.set := by
  rw [← emb16_1]; exact View.emb_mem_set _ _

end Cert.KernelIdeal.Hand

end
-- ==== Proof.G16Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col16_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 16's one store at (r, j): the scratch entry (r, j) times the norm block's entry r. -/
theorem pay16_apply (v192 : Vec Ideal S16x1 .f32) (v194 : Vec Ideal S16x262 .f32) (r : Fin 16) (j : Fin 262) :
    k16_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k16_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col16_262 _ r j).trans (congrFun (shapeCast_self v192 shapeCasts_S16x1_S16x1) _))

end Cert.KernelIdeal.Hand

end
-- ==== Proof.G16Block.lean ====
/- Pipeline 16 at the ideal values: the block the body leaves at a point, entry by entry. -/
import proofs.«414392_j7919919694132_2_alg».proof.Proof.G16Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G16Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg16 (F := Ideal)).Adm) (hH : ∀ j : Fin 50000, ((a.1 0) (ValueIdx.ix1 j)).toNat < 50000)

/-! ## Indices of a one-row slice -/

/-- A one-row index has leading coordinate 0. -/
theorem row0_16 (x : S1x262.Idx) : (x 0).val = 0 := by
  have h := (x 0).isLt
  have e : S1x262.size 0 = 1 := by decide
  omega

/-- The gathered array, read as a matrix of ideal values. -/
abbrev asArr16 (c : Dev nD) (fh0 : HbBuf16 (F := Ideal) c hbM16) : FVec Ideal S50000x262 .f32 := fh0

/-- The table's word at offset `16 i + k`, as the body reads it. -/
theorem word16 (c : Dev nD) (i : grid16.Coords) (tb : HbBuf16 (F := Ideal) c tbM16) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM16.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma16_apply (c : Dev nD) (fh0 : HbBuf16 (F := Ideal) c hbM16) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM16.slice (Rect.unit (s := S50000x262) off S1x262.size inb) (fun _ => rfl)).view fh0) x
      = asArr16 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_16 x]; omega
  · show 0 + 1 * (x 1).val = (x 1).val
    omega

/-- The sixteen rows of the scratch, each the payload of its transfer. -/
def rows16 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows16 (p0 p1 p2 p3 p4 p5 p6 p7 p8 p9 p10 p11 p12 p13 p14 p15 : S1x262.Idx → Elt Ideal .f32) (y : S16x262.Idx) : ∃ pc ∈ rows16 p0 p1 p2 p3 p4 p5 p6 p7 p8 p9 p10 p11 p12 p13 p14 p15, y ∈ pc.1.set :=
  View.cover_of_tiledL (rows16 p0 p1 p2 p3 p4 p5 p6 p7 p8 p9 p10 p11 p12 p13 p14 p15) S1x262.size (by sl_kernel_rfl) y

/-- A point's coordinate is below the grid's 3125 points, so the sixteen table offsets of the point are inside the table. -/
theorem idxlt16 (i : grid16.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath16 (c : Dev nD) (i : grid16.Coords) (tb : HbBuf16 (F := Ideal) c tbM16) (fh0 : HbBuf16 (F := Ideal) c hbM16) (hT : ∀ x, (tb x).toNat < 50000) :
    S16x262.Idx → Elt Ideal .f32 :=
  fun y => asArr16 c fh0 (ValueIdx.ix2 (n0 := 50000) (n1 := 262) ⟨(tb (ValueIdx.ix1 (n := 50000) ⟨16 * (i 0).val + (y 0).val, idxlt16 i (y 0)⟩)).toNat, hT _⟩ (y 1))

/-- Row k's transfer delivers `gath16` at the row's indices. -/
theorem piece16 (c : Dev nD) (i : grid16.Coords) (tb : HbBuf16 (F := Ideal) c tbM16) (fh0 : HbBuf16 (F := Ideal) c hbM16) (hT : ∀ x, (tb x).toNat < 50000)
    (k : Fin 16) (w : BitVec 32) (hwd : w = tb (ValueIdx.ix1 (n := 50000) ⟨16 * (i 0).val + k.val, idxlt16 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM16.slice (Rect.unit (s := S50000x262) off S1x262.size inb) (fun _ => rfl)).view fh0) x
      = gath16 c i tb fh0 hT ((Rect.unit (s := S16x262) ![k.val, 0] S1x262.size inbk).emb x) := by
  subst hwd
  rw [dma16_apply c fh0 _ (hT _) off hoff inb x]
  unfold gath16
  show asArr16 c fh0 _ = asArr16 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_16 x]; omega
  · show (x 1).val = 0 + 1 * (x 1).val
    omega

set_option maxHeartbeats 1000000 in
/-- The scratch, read whole after the sixteen waits, is `gath16`. -/
theorem scratch16_apply (c : Dev nD) (i : grid16.Coords) (tb : HbBuf16 (F := Ideal) c tbM16) (fh0 : HbBuf16 (F := Ideal) c hbM16) (hT : ∀ x, (tb x).toNat < 50000)
    (y : S16x262.Idx) :
    scM16.view.readCov (rows16
        (kernelRun16.sl.dma1 c i tb fh0 (chk16_1_of_lt _ (hT _)))
        (kernelRun16.sl.dma2 c i tb fh0 (chk16_2_of_lt _ (hT _)))
        (kernelRun16.sl.dma3 c i tb fh0 (chk16_3_of_lt _ (hT _)))
        (kernelRun16.sl.dma4 c i tb fh0 (chk16_4_of_lt _ (hT _)))
        (kernelRun16.sl.dma5 c i tb fh0 (chk16_5_of_lt _ (hT _)))
        (kernelRun16.sl.dma6 c i tb fh0 (chk16_6_of_lt _ (hT _)))
        (kernelRun16.sl.dma7 c i tb fh0 (chk16_7_of_lt _ (hT _)))
        (kernelRun16.sl.dma8 c i tb fh0 (chk16_8_of_lt _ (hT _)))
        (kernelRun16.sl.dma9 c i tb fh0 (chk16_9_of_lt _ (hT _)))
        (kernelRun16.sl.dma10 c i tb fh0 (chk16_10_of_lt _ (hT _)))
        (kernelRun16.sl.dma11 c i tb fh0 (chk16_11_of_lt _ (hT _)))
        (kernelRun16.sl.dma12 c i tb fh0 (chk16_12_of_lt _ (hT _)))
        (kernelRun16.sl.dma13 c i tb fh0 (chk16_13_of_lt _ (hT _)))
        (kernelRun16.sl.dma14 c i tb fh0 (chk16_14_of_lt _ (hT _)))
        (kernelRun16.sl.dma15 c i tb fh0 (chk16_15_of_lt _ (hT _)))
        (kernelRun16.sl.dma16 c i tb fh0 (chk16_16_of_lt _ (hT _)))) (Rect.unit (s := S16x262) ![0, 0] S16x262.size inb_S16x262_S16x262_0_0).toLoadRect y
      = gath16 c i tb fh0 hT y := by
  rw [View.readCov_eq_canon_ld _ _ _ (cover_rows16 _ _ _ _ _ _ _ _ _ _ _ _ _ _ _ _), View.ld_unit_zero (by funext d; fin_cases d <;> rfl)]
  refine View.canon_apply_of_pieces (gath16 c i tb fh0 hT) (rows16 _ _ _ _ _ _ _ _ _ _ _ _ _ _ _ _) ?_ y (cover_rows16 _ _ _ _ _ _ _ _ _ _ _ _ _ _ _ _ y)
  intro p hp x
  unfold rows16 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun16.sl.dma16
    exact piece16 c i tb fh0 hT (15 : Fin 16) (kernelRun16.sl.r_15 c i tb)
      (by unfold kernelRun16.sl.r_15; exact word16 c i tb (15 : Fin 16) (idxlt16 i _) _ (by rw [k16_off31_eq]; rfl) _ _) (k16_off32 (kernelRun16.sl.r_15 c i tb)) rfl _ _ x
  · dsimp only
    unfold kernelRun16.sl.dma15
    exact piece16 c i tb fh0 hT (14 : Fin 16) (kernelRun16.sl.r_14 c i tb)
      (by unfold kernelRun16.sl.r_14; exact word16 c i tb (14 : Fin 16) (idxlt16 i _) _ (by rw [k16_off29_eq]; rfl) _ _) (k16_off30 (kernelRun16.sl.r_14 c i tb)) rfl _ _ x
  · dsimp only
    unfold kernelRun16.sl.dma14
    exact piece16 c i tb fh0 hT (13 : Fin 16) (kernelRun16.sl.r_13 c i tb)
      (by unfold kernelRun16.sl.r_13; exact word16 c i tb (13 : Fin 16) (idxlt16 i _) _ (by rw [k16_off27_eq]; rfl) _ _) (k16_off28 (kernelRun16.sl.r_13 c i tb)) rfl _ _ x
  · dsimp only
    unfold kernelRun16.sl.dma13
    exact piece16 c i tb fh0 hT (12 : Fin 16) (kernelRun16.sl.r_12 c i tb)
      (by unfold kernelRun16.sl.r_12; exact word16 c i tb (12 : Fin 16) (idxlt16 i _) _ (by rw [k16_off25_eq]; rfl) _ _) (k16_off26 (kernelRun16.sl.r_12 c i tb)) rfl _ _ x
  · dsimp only
    unfold kernelRun16.sl.dma12
    exact piece16 c i tb fh0 hT (11 : Fin 16) (kernelRun16.sl.r_11 c i tb)
      (by unfold kernelRun16.sl.r_11; exact word16 c i tb (11 : Fin 16) (idxlt16 i _) _ (by rw [k16_off23_eq]; rfl) _ _) (k16_off24 (kernelRun16.sl.r_11 c i tb)) rfl _ _ x
  · dsimp only
    unfold kernelRun16.sl.dma11
    exact piece16 c i tb fh0 hT (10 : Fin 16) (kernelRun16.sl.r_10 c i tb)
      (by unfold kernelRun16.sl.r_10; exact word16 c i tb (10 : Fin 16) (idxlt16 i _) _ (by rw [k16_off21_eq]; rfl) _ _) (k16_off22 (kernelRun16.sl.r_10 c i tb)) rfl _ _ x
  · dsimp only
    unfold kernelRun16.sl.dma10
    exact piece16 c i tb fh0 hT (9 : Fin 16) (kernelRun16.sl.r_9 c i tb)
      (by unfold kernelRun16.sl.r_9; exact word16 c i tb (9 : Fin 16) (idxlt16 i _) _ (by rw [k16_off19_eq]; rfl) _ _) (k16_off20 (kernelRun16.sl.r_9 c i tb)) rfl _ _ x
  · dsimp only
    unfold kernelRun16.sl.dma9
    exact piece16 c i tb fh0 hT (8 : Fin 16) (kernelRun16.sl.r_8 c i tb)
      (by unfold kernelRun16.sl.r_8; exact word16 c i tb (8 : Fin 16) (idxlt16 i _) _ (by rw [k16_off17_eq]; rfl) _ _) (k16_off18 (kernelRun16.sl.r_8 c i tb)) rfl _ _ x
  · dsimp only
    unfold kernelRun16.sl.dma8
    exact piece16 c i tb fh0 hT (7 : Fin 16) (kernelRun16.sl.r_7 c i tb)
      (by unfold kernelRun16.sl.r_7; exact word16 c i tb (7 : Fin 16) (idxlt16 i _) _ (by rw [k16_off15_eq]; rfl) _ _) (k16_off16 (kernelRun16.sl.r_7 c i tb)) rfl _ _ x
  · dsimp only
    unfold kernelRun16.sl.dma7
    exact piece16 c i tb fh0 hT (6 : Fin 16) (kernelRun16.sl.r_6 c i tb)
      (by unfold kernelRun16.sl.r_6; exact word16 c i tb (6 : Fin 16) (idxlt16 i _) _ (by rw [k16_off13_eq]; rfl) _ _) (k16_off14 (kernelRun16.sl.r_6 c i tb)) rfl _ _ x
  · dsimp only
    unfold kernelRun16.sl.dma6
    exact piece16 c i tb fh0 hT (5 : Fin 16) (kernelRun16.sl.r_5 c i tb)
      (by unfold kernelRun16.sl.r_5; exact word16 c i tb (5 : Fin 16) (idxlt16 i _) _ (by rw [k16_off11_eq]; rfl) _ _) (k16_off12 (kernelRun16.sl.r_5 c i tb)) rfl _ _ x
  · dsimp only
    unfold kernelRun16.sl.dma5
    exact piece16 c i tb fh0 hT (4 : Fin 16) (kernelRun16.sl.r_4 c i tb)
      (by unfold kernelRun16.sl.r_4; exact word16 c i tb (4 : Fin 16) (idxlt16 i _) _ (by rw [k16_off9_eq]; rfl) _ _) (k16_off10 (kernelRun16.sl.r_4 c i tb)) rfl _ _ x
  · dsimp only
    unfold kernelRun16.sl.dma4
    exact piece16 c i tb fh0 hT (3 : Fin 16) (kernelRun16.sl.r_3 c i tb)
      (by unfold kernelRun16.sl.r_3; exact word16 c i tb (3 : Fin 16) (idxlt16 i _) _ (by rw [k16_off7_eq]; rfl) _ _) (k16_off8 (kernelRun16.sl.r_3 c i tb)) rfl _ _ x
  · dsimp only
    unfold kernelRun16.sl.dma3
    exact piece16 c i tb fh0 hT (2 : Fin 16) (kernelRun16.sl.r_2 c i tb)
      (by unfold kernelRun16.sl.r_2; exact word16 c i tb (2 : Fin 16) (idxlt16 i _) _ (by rw [k16_off5_eq]; rfl) _ _) (k16_off6 (kernelRun16.sl.r_2 c i tb)) rfl _ _ x
  · dsimp only
    unfold kernelRun16.sl.dma2
    exact piece16 c i tb fh0 hT (1 : Fin 16) (kernelRun16.sl.r_1 c i tb)
      (by unfold kernelRun16.sl.r_1; exact word16 c i tb (1 : Fin 16) (idxlt16 i _) _ (by rw [k16_off3_eq]; rfl) _ _) (k16_off4 (kernelRun16.sl.r_1 c i tb)) rfl _ _ x
  · dsimp only
    unfold kernelRun16.sl.dma1
    exact piece16 c i tb fh0 hT (0 : Fin 16) (kernelRun16.sl.r c i tb)
      (by unfold kernelRun16.sl.r; exact word16 c i tb (0 : Fin 16) (idxlt16 i _) _ (by rw [k16_off1_eq]; rfl) _ _) (k16_off2 (kernelRun16.sl.r c i tb)) rfl _ _ x

/-- THE BLOCK the body leaves, over any staging memrefs and contents: row r is the row of the gathered array the table's
    word `16 i + r` names, times the norm block's entry r. -/
theorem out16_1_apply (c : Dev nD) (i : grid16.Coords) (arg3 : Memref sig .tc .vmem S16x1 .f32) (harg3 : arg3.IsWhole) (arg4 : Memref sig .tc .vmem S16x262 .f32) (harg4 : arg4.IsWhole)
    (x0 : Vec Ideal S16x1 .f32) (tb : HbBuf16 (F := Ideal) c tbM16) (fh0 : HbBuf16 (F := Ideal) c hbM16) (hT : ∀ x, (tb x).toNat < 50000) (r : Fin 16) (j : Fin 262) :
    out16_1 c i arg3 harg3 arg4 harg4 x0 tb fh0 hT (ValueIdx.ix2 (n0 := 16) (n1 := 262) r j)
      = gath16 c i tb fh0 hT (ValueIdx.ix2 (n0 := 16) (n1 := 262) r j) * x0 (ValueIdx.ix2 (n0 := 16) (n1 := 1) r 0) := by
  unfold out16_1
  rw [View.read_writes_eq_canon _ _ _ (cover16_1 c i arg3 harg3 arg4 harg4 x0 tb fh0 hT)]
  unfold kernelRun16
  dsimp only
  rw [View.canon_unit_zero (by funext d; fin_cases d <;> rfl)]
  rw [pay16_apply]
  congr 1
  · unfold kernelRun16.sl.v194
    exact scratch16_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt16_apply (c : Dev nD) (t : Fin (cfg16 a).N) (r : Fin 16) (j : Fin 262) :
    outsAt16 V a hH c t (ValueIdx.ix2 (n0 := 16) (n1 := 262) r j)
      = hbArr16 V c (ValueIdx.ix2 (n0 := 50000) (n1 := 262) ⟨((a.1 0) (ValueIdx.ix1 (n := 50000) ⟨16 * t.val + r.val, idx_lt16 a t r⟩)).toNat, hH _⟩ j)
          * nmBlk16 V a c t (ValueIdx.ix2 (n0 := 16) (n1 := 1) r 0) := by
  unfold outsAt16
  refine (out16_1_apply c (grid16.coords t) _ _ _ _ (nmBlk16 V a c t) (a.1 0) (hbArr16 V c) (tbl_lt16 a hH c) r j).trans ?_
  congr 1
  unfold gath16
  show hbArr16 V c _ = hbArr16 V c _
  congr 1
  funext d
  apply Fin.ext
  fin_cases d
  · exact congrArg (fun n : Fin 50000 => ((a.1 0) (ValueIdx.ix1 (n := 50000) n)).toNat)
      (Fin.ext (by show 16 * (grid16.coords t 0).val + r.val = 16 * t.val + r.val; rw [coords16_val a t]))
  · rfl

end Cert.KernelIdeal.Hand

end
-- ==== Proof.G16Value.lean ====
/- Pipeline 16 at the ideal values: the output array after the region is the gathered and scaled array (row e: the row of
   the source array named by the table's word e, times the norm column's entry e). -/
import proofs.«414392_j7919919694132_2_alg».proof.Proof.G16Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg16 (F := Ideal)).Adm) (hH : ∀ j : Fin 50000, ((a.1 0) (ValueIdx.ix1 j)).toNat < 50000)

/-! ## From blocks to the array -/

/-- What point t writes back is block t of the gathered and scaled array. -/
theorem flushed16_1_eq (c : Dev nD) (t : Fin (cfg16 a).N) :
    (dat16 (F := Ideal) V a hH c).flushed 1 t = (((cfg16 a).win 1).blk t).view.read (Elt Ideal) (G16v V a hH c) := by
  show ((cfg16 a).win 1).cut (grid16.coords t) ((dat16 V a hH c).after 1 t) = _
  rw [after16_1]
  refine funext fun (y : S16x262.Idx) => ?_
  obtain ⟨r, j, rfl⟩ : ∃ (r : Fin 16) (j : Fin 262), y = ValueIdx.ix2 r j := ⟨y 0, y 1, ValueIdx.eq_ix2 y⟩
  show outsAt16 V a hH c t (ValueIdx.ix2 (n0 := 16) (n1 := 262) r j) = G16v V a hH c ((((cfg16 a).win 1).blk t).view.emb (ValueIdx.ix2 (n0 := 16) (n1 := 262) r j))
  rw [emb16_1, outsAt16_apply V a hH c t r j, nmBlk16_apply V a c t r]

/-- Every index of the array is in some point's block: row e is in block e / 16. -/
theorem cover16_blk (i : S50000x262.Idx) :
    ∃ t : Fin (cfg16 a).N, ((cfg16 a).win 1).flush t = true ∧ i ∈ (((cfg16 a).win 1).blk t).view.set := by
  have hi0 : (i 0).val < 50000 := (i 0).isLt
  have hi1 : (i 1).val < 262 := (i 1).isLt
  have hq : (i 0).val / 16 < (cfg16 a).N := by rw [N16_eq a]; omega
  have hr : (i 0).val % 16 < 16 := Nat.mod_lt _ (by omega)
  obtain ⟨t, ht⟩ : ∃ t : Fin (cfg16 a).N, t.val = (i 0).val / 16 := ⟨⟨(i 0).val / 16, hq⟩, rfl⟩
  refine ⟨t, flush16_1 a t, ?_⟩
  have e : i = ValueIdx.ix2 (n0 := 50000) (n1 := 262) ⟨16 * t.val + (i 0).val % 16, idx_lt16 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk16_1 a t ⟨(i 0).val % 16, hr⟩ ⟨(i 1).val, hi1⟩

/-- The output array after the region is the gathered and scaled array, -/
theorem arrAt16_1_eq (c : Dev nD) : (dat16 (F := Ideal) V a hH c).arrAt 1 (cfg16 a).N = G16v V a hH c :=
  (dat16 (F := Ideal) V a hH c).arrAt_eq_of_cover 1 (G16v V a hH c) (fun t _ => flushed16_1_eq V a hH c t) (cover16_blk a)

/-- index by index: entry (e, j) is the source array's entry (the table's word e, j) times the norm column's entry e. -/
theorem arrAt16_1 (c : Dev nD) (e : Fin 50000) (j : Fin 262) :
    (dat16 (F := Ideal) V a hH c).arrAt 1 (cfg16 a).N (ValueIdx.ix2 (n0 := 50000) (n1 := 262) e j)
      = hbArr16 V c (ValueIdx.ix2 (n0 := 50000) (n1 := 262) ⟨((a.1 0) (ValueIdx.ix1 (n := 50000) e)).toNat, hH e⟩ j)
          * nmArr16 V c (ValueIdx.ix2 (n0 := 50000) (n1 := 1) e 0) :=
  (congrFun (arrAt16_1_eq V a hH c) (ValueIdx.ix2 (n0 := 50000) (n1 := 262) e j)).trans rfl

end Cert.KernelIdeal.Hand

end
-- ==== Proof.G17Idx.lean ====
/- Pipeline 17 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G17
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg17 (F := Ideal)).Adm) (hH : ∀ j : Fin 50000, ((a.1 0) (ValueIdx.ix1 j)).toNat < 50000)

/-! ## The arrays, by name -/

/-- The array the rows are gathered from, and the norm column. -/
abbrev hbArr17 (c : Dev nD) : FVec Ideal S50000x262 .f32 := V c main_v71
abbrev nmArr17 (c : Dev nD) : FVec Ideal S50000x1 .f32 := V c main_v92
/-- The norm block at a point. -/
abbrev nmBlk17 (c : Dev nD) (t : Fin (cfg17 a).N) : FVec Ideal S16x1 .f32 := iblk17 V a c 0 t

/-- The gathered and scaled array: row e is the row of the source array named by the table's word e, times the norm
    column's entry e. -/
abbrev G17v (c : Dev nD) : (⟨S50000x262, .f32⟩ : BufTy).Contents (Elt Ideal) := fun i =>
  hbArr17 V c (ValueIdx.ix2 (n0 := 50000) (n1 := 262) ⟨((a.1 0) (ValueIdx.ix1 (n := 50000) (i 0))).toNat, hH (i 0)⟩ (i 1))
    * nmArr17 V c (ValueIdx.ix2 (n0 := 50000) (n1 := 1) (i 0) 0)

/-! ## The index maps at a point -/

theorem N17_eq : (cfg17 a).N = 3125 := N_17

/-- Row r of point t's block is a row of the array. -/
theorem idx_lt17 (t : Fin (cfg17 a).N) (r : Fin 16) : 16 * t.val + r.val < 50000 := by
  have ht : t.val < 3125 := (N17_eq a) ▸ t.isLt
  have := r.isLt; omega

/-- On the one-axis grid the point's coordinate is the point. -/
theorem coords17_val (t : Fin (cfg17 a).N) : (grid17.coords t 0).val = t.val := by
  have h : t.val < 3125 := (N17_eq a) ▸ t.isLt
  show t.val / grid17.stride 0 % 3125 = t.val
  rw [show grid17.stride 0 = 1 from by decide, Nat.div_one, Nat.mod_eq_of_lt h]

theorem idx17_0 (t : Fin (cfg17 a).N) : ((cfg17 a).win 0).index t = cc17_transform_1 (grid17.coords t) := rfl
theorem idx17_1 (t : Fin (cfg17 a).N) : ((cfg17 a).win 1).index t = cc17_transform_2 (grid17.coords t) := rfl

theorem tr17_1_0 (i : grid17.Coords) : cc17_transform_1 i (0 : Fin 2) = (i 0).val := by
  show (BitVec.ofNat 32 (i 0).val).toNat = _
  have h := (i 0).isLt
  have hb : grid17.bound 0 = 3125 := rfl
  rw [BitVec.toNat_ofNat]; exact Nat.mod_eq_of_lt (by omega)
theorem tr17_1_1 (i : grid17.Coords) : cc17_transform_1 i (1 : Fin 2) = 0 := rfl
theorem tr17_2_0 (i : grid17.Coords) : cc17_transform_2 i (0 : Fin 2) = (i 0).val := by
  show (BitVec.ofNat 32 (i 0).val).toNat = _
  have h := (i 0).isLt
  have hb : grid17.bound 0 = 3125 := rfl
  rw [BitVec.toNat_ofNat]; exact Nat.mod_eq_of_lt (by omega)
theorem tr17_2_1 (i : grid17.Coords) : cc17_transform_2 i (1 : Fin 2) = 0 := rfl

/-- Both windows' row-block index at point t is t; their column-block index is zero. -/
theorem index17_0_0 (t : Fin (cfg17 a).N) : ((cfg17 a).win 0).index t (0 : Fin 2) = t.val := by rw [idx17_0, tr17_1_0, coords17_val]
theorem index17_0_1 (t : Fin (cfg17 a).N) : ((cfg17 a).win 0).index t (1 : Fin 2) = 0 := by rw [idx17_0, tr17_1_1]
theorem index17_1_0 (t : Fin (cfg17 a).N) : ((cfg17 a).win 1).index t (0 : Fin 2) = t.val := by rw [idx17_1, tr17_2_0, coords17_val]
theorem index17_1_1 (t : Fin (cfg17 a).N) : ((cfg17 a).win 1).index t (1 : Fin 2) = 0 := by rw [idx17_1, tr17_2_1]

/-- The output window is written back at every point: its block index moves with the point. -/
theorem flush17_1 (t : Fin (cfg17 a).N) : ((cfg17 a).win 1).flush t = true := by
  rw [Window.flush_out _ rfl]
  by_cases h : t.val + 1 = grid17.N
  · exact Or.inl h
  · have hN : grid17.N = 3125 := N_17
    have ht : t.val < 3125 := (N17_eq a) ▸ t.isLt
    have h1 : t.val + 1 < grid17.N := by omega
    refine Or.inr ⟨h1, fun e => ?_⟩
    have e0 : ((cfg17 a).win 1).index ⟨t.val + 1, h1⟩ (0 : Fin 2) = ((cfg17 a).win 1).index t (0 : Fin 2) := congrFun e (0 : Fin 2)
    rw [index17_1_0, index17_1_0] at e0
    exact absurd e0 (by show t.val + 1 ≠ t.val; omega)

/-! ## The blocks at a point -/

/-- Entry (r, j) of point t's output block is entry (16 t + r, j) of the array. -/
theorem emb17_1 (t : Fin (cfg17 a).N) (r : Fin 16) (j : Fin 262) :
    (((cfg17 a).win 1).blk t).view.emb (ValueIdx.ix2 (n0 := 16) (n1 := 262) r j)
      = ValueIdx.ix2 (n0 := 50000) (n1 := 262) ⟨16 * t.val + r.val, idx_lt17 a t r⟩ j := by
  funext k; apply Fin.ext
  match k with
  | ⟨0, _⟩ => show ((cfg17 a).win 1).index t (0 : Fin 2) * 16 + 1 * r.val = 16 * t.val + r.val; rw [index17_1_0]; omega
  | ⟨1, _⟩ => show ((cfg17 a).win 1).index t (1 : Fin 2) * 262 + 1 * j.val = j.val; rw [index17_1_1]; omega

/-- The norm block at point t, row r, is the norm column's entry 16 t + r. -/
theorem nmBlk17_apply (c : Dev nD) (t : Fin (cfg17 a).N) (r : Fin 16) :
    nmBlk17 V a c t (ValueIdx.ix2 (n0 := 16) (n1 := 1) r 0)
      = nmArr17 V c (ValueIdx.ix2 (n0 := 50000) (n1 := 1) ⟨16 * t.val + r.val, idx_lt17 a t r⟩ 0) := by
  show V c main_v92 ((((cfg17 a).win 0).blk t).view.emb (ValueIdx.ix2 (n0 := 16) (n1 := 1) r 0)) = V c main_v92 (ValueIdx.ix2 (n0 := 50000) (n1 := 1) ⟨16 * t.val + r.val, idx_lt17 a t r⟩ 0)
  refine congrArg (V c main_v92) ?_
  funext k; apply Fin.ext
  match k with
  | ⟨0, _⟩ => show ((cfg17 a).win 0).index t (0 : Fin 2) * 16 + 1 * r.val = 16 * t.val + r.val; rw [index17_0_0]; omega
  | ⟨1, _⟩ => show ((cfg17 a).win 0).index t (1 : Fin 2) * 1 + 1 * 0 = 0; rw [index17_0_1]

/-- Entry (16 t + r, j) of the array is in point t's block. -/
theorem mem_blk17_1 (t : Fin (cfg17 a).N) (r : Fin 16) (j : Fin 262) :
    ValueIdx.ix2 (n0 := 50000) (n1 := 262) ⟨16 * t.val + r.val, idx_lt17 a t r⟩ j ∈ (((cfg17 a).win 1).blk t).view.set := by
  rw [← emb17_1]; exact View.emb_mem_set _ _

end Cert.KernelIdeal.Hand

end
-- ==== Proof.G17Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col17_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 17's one store at (r, j): the scratch entry (r, j) times the norm block's entry r. -/
theorem pay17_apply (v192 : Vec Ideal S16x1 .f32) (v194 : Vec Ideal S16x262 .f32) (r : Fin 16) (j : Fin 262) :
    k17_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k17_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col17_262 _ r j).trans (congrFun (shapeCast_self v192 shapeCasts_S16x1_S16x1) _))

end Cert.KernelIdeal.Hand

end
-- ==== Proof.G17Block.lean ====
/- Pipeline 17 at the ideal values: the block the body leaves at a point, entry by entry. -/
import proofs.«414392_j7919919694132_2_alg».proof.Proof.G17Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G17Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg17 (F := Ideal)).Adm) (hH : ∀ j : Fin 50000, ((a.1 0) (ValueIdx.ix1 j)).toNat < 50000)

/-! ## Indices of a one-row slice -/

/-- A one-row index has leading coordinate 0. -/
theorem row0_17 (x : S1x262.Idx) : (x 0).val = 0 := by
  have h := (x 0).isLt
  have e : S1x262.size 0 = 1 := by decide
  omega

/-- The gathered array, read as a matrix of ideal values. -/
abbrev asArr17 (c : Dev nD) (fh0 : HbBuf17 (F := Ideal) c hbM17) : FVec Ideal S50000x262 .f32 := fh0

/-- The table's word at offset `16 i + k`, as the body reads it. -/
theorem word17 (c : Dev nD) (i : grid17.Coords) (tb : HbBuf17 (F := Ideal) c tbM17) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM17.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma17_apply (c : Dev nD) (fh0 : HbBuf17 (F := Ideal) c hbM17) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM17.slice (Rect.unit (s := S50000x262) off S1x262.size inb) (fun _ => rfl)).view fh0) x
      = asArr17 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_17 x]; omega
  · show 0 + 1 * (x 1).val = (x 1).val
    omega

/-- The sixteen rows of the scratch, each the payload of its transfer. -/
def rows17 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows17 (p0 p1 p2 p3 p4 p5 p6 p7 p8 p9 p10 p11 p12 p13 p14 p15 : S1x262.Idx → Elt Ideal .f32) (y : S16x262.Idx) : ∃ pc ∈ rows17 p0 p1 p2 p3 p4 p5 p6 p7 p8 p9 p10 p11 p12 p13 p14 p15, y ∈ pc.1.set :=
  View.cover_of_tiledL (rows17 p0 p1 p2 p3 p4 p5 p6 p7 p8 p9 p10 p11 p12 p13 p14 p15) S1x262.size (by sl_kernel_rfl) y

/-- A point's coordinate is below the grid's 3125 points, so the sixteen table offsets of the point are inside the table. -/
theorem idxlt17 (i : grid17.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath17 (c : Dev nD) (i : grid17.Coords) (tb : HbBuf17 (F := Ideal) c tbM17) (fh0 : HbBuf17 (F := Ideal) c hbM17) (hT : ∀ x, (tb x).toNat < 50000) :
    S16x262.Idx → Elt Ideal .f32 :=
  fun y => asArr17 c fh0 (ValueIdx.ix2 (n0 := 50000) (n1 := 262) ⟨(tb (ValueIdx.ix1 (n := 50000) ⟨16 * (i 0).val + (y 0).val, idxlt17 i (y 0)⟩)).toNat, hT _⟩ (y 1))

/-- Row k's transfer delivers `gath17` at the row's indices. -/
theorem piece17 (c : Dev nD) (i : grid17.Coords) (tb : HbBuf17 (F := Ideal) c tbM17) (fh0 : HbBuf17 (F := Ideal) c hbM17) (hT : ∀ x, (tb x).toNat < 50000)
    (k : Fin 16) (w : BitVec 32) (hwd : w = tb (ValueIdx.ix1 (n := 50000) ⟨16 * (i 0).val + k.val, idxlt17 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM17.slice (Rect.unit (s := S50000x262) off S1x262.size inb) (fun _ => rfl)).view fh0) x
      = gath17 c i tb fh0 hT ((Rect.unit (s := S16x262) ![k.val, 0] S1x262.size inbk).emb x) := by
  subst hwd
  rw [dma17_apply c fh0 _ (hT _) off hoff inb x]
  unfold gath17
  show asArr17 c fh0 _ = asArr17 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_17 x]; omega
  · show (x 1).val = 0 + 1 * (x 1).val
    omega

set_option maxHeartbeats 1000000 in
/-- The scratch, read whole after the sixteen waits, is `gath17`. -/
theorem scratch17_apply (c : Dev nD) (i : grid17.Coords) (tb : HbBuf17 (F := Ideal) c tbM17) (fh0 : HbBuf17 (F := Ideal) c hbM17) (hT : ∀ x, (tb x).toNat < 50000)
    (y : S16x262.Idx) :
    scM17.view.readCov (rows17
        (kernelRun17.sl.dma1 c i tb fh0 (chk17_1_of_lt _ (hT _)))
        (kernelRun17.sl.dma2 c i tb fh0 (chk17_2_of_lt _ (hT _)))
        (kernelRun17.sl.dma3 c i tb fh0 (chk17_3_of_lt _ (hT _)))
        (kernelRun17.sl.dma4 c i tb fh0 (chk17_4_of_lt _ (hT _)))
        (kernelRun17.sl.dma5 c i tb fh0 (chk17_5_of_lt _ (hT _)))
        (kernelRun17.sl.dma6 c i tb fh0 (chk17_6_of_lt _ (hT _)))
        (kernelRun17.sl.dma7 c i tb fh0 (chk17_7_of_lt _ (hT _)))
        (kernelRun17.sl.dma8 c i tb fh0 (chk17_8_of_lt _ (hT _)))
        (kernelRun17.sl.dma9 c i tb fh0 (chk17_9_of_lt _ (hT _)))
        (kernelRun17.sl.dma10 c i tb fh0 (chk17_10_of_lt _ (hT _)))
        (kernelRun17.sl.dma11 c i tb fh0 (chk17_11_of_lt _ (hT _)))
        (kernelRun17.sl.dma12 c i tb fh0 (chk17_12_of_lt _ (hT _)))
        (kernelRun17.sl.dma13 c i tb fh0 (chk17_13_of_lt _ (hT _)))
        (kernelRun17.sl.dma14 c i tb fh0 (chk17_14_of_lt _ (hT _)))
        (kernelRun17.sl.dma15 c i tb fh0 (chk17_15_of_lt _ (hT _)))
        (kernelRun17.sl.dma16 c i tb fh0 (chk17_16_of_lt _ (hT _)))) (Rect.unit (s := S16x262) ![0, 0] S16x262.size inb_S16x262_S16x262_0_0).toLoadRect y
      = gath17 c i tb fh0 hT y := by
  rw [View.readCov_eq_canon_ld _ _ _ (cover_rows17 _ _ _ _ _ _ _ _ _ _ _ _ _ _ _ _), View.ld_unit_zero (by funext d; fin_cases d <;> rfl)]
  refine View.canon_apply_of_pieces (gath17 c i tb fh0 hT) (rows17 _ _ _ _ _ _ _ _ _ _ _ _ _ _ _ _) ?_ y (cover_rows17 _ _ _ _ _ _ _ _ _ _ _ _ _ _ _ _ y)
  intro p hp x
  unfold rows17 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun17.sl.dma16
    exact piece17 c i tb fh0 hT (15 : Fin 16) (kernelRun17.sl.r_15 c i tb)
      (by unfold kernelRun17.sl.r_15; exact word17 c i tb (15 : Fin 16) (idxlt17 i _) _ (by rw [k17_off31_eq]; rfl) _ _) (k17_off32 (kernelRun17.sl.r_15 c i tb)) rfl _ _ x
  · dsimp only
    unfold kernelRun17.sl.dma15
    exact piece17 c i tb fh0 hT (14 : Fin 16) (kernelRun17.sl.r_14 c i tb)
      (by unfold kernelRun17.sl.r_14; exact word17 c i tb (14 : Fin 16) (idxlt17 i _) _ (by rw [k17_off29_eq]; rfl) _ _) (k17_off30 (kernelRun17.sl.r_14 c i tb)) rfl _ _ x
  · dsimp only
    unfold kernelRun17.sl.dma14
    exact piece17 c i tb fh0 hT (13 : Fin 16) (kernelRun17.sl.r_13 c i tb)
      (by unfold kernelRun17.sl.r_13; exact word17 c i tb (13 : Fin 16) (idxlt17 i _) _ (by rw [k17_off27_eq]; rfl) _ _) (k17_off28 (kernelRun17.sl.r_13 c i tb)) rfl _ _ x
  · dsimp only
    unfold kernelRun17.sl.dma13
    exact piece17 c i tb fh0 hT (12 : Fin 16) (kernelRun17.sl.r_12 c i tb)
      (by unfold kernelRun17.sl.r_12; exact word17 c i tb (12 : Fin 16) (idxlt17 i _) _ (by rw [k17_off25_eq]; rfl) _ _) (k17_off26 (kernelRun17.sl.r_12 c i tb)) rfl _ _ x
  · dsimp only
    unfold kernelRun17.sl.dma12
    exact piece17 c i tb fh0 hT (11 : Fin 16) (kernelRun17.sl.r_11 c i tb)
      (by unfold kernelRun17.sl.r_11; exact word17 c i tb (11 : Fin 16) (idxlt17 i _) _ (by rw [k17_off23_eq]; rfl) _ _) (k17_off24 (kernelRun17.sl.r_11 c i tb)) rfl _ _ x
  · dsimp only
    unfold kernelRun17.sl.dma11
    exact piece17 c i tb fh0 hT (10 : Fin 16) (kernelRun17.sl.r_10 c i tb)
      (by unfold kernelRun17.sl.r_10; exact word17 c i tb (10 : Fin 16) (idxlt17 i _) _ (by rw [k17_off21_eq]; rfl) _ _) (k17_off22 (kernelRun17.sl.r_10 c i tb)) rfl _ _ x
  · dsimp only
    unfold kernelRun17.sl.dma10
    exact piece17 c i tb fh0 hT (9 : Fin 16) (kernelRun17.sl.r_9 c i tb)
      (by unfold kernelRun17.sl.r_9; exact word17 c i tb (9 : Fin 16) (idxlt17 i _) _ (by rw [k17_off19_eq]; rfl) _ _) (k17_off20 (kernelRun17.sl.r_9 c i tb)) rfl _ _ x
  · dsimp only
    unfold kernelRun17.sl.dma9
    exact piece17 c i tb fh0 hT (8 : Fin 16) (kernelRun17.sl.r_8 c i tb)
      (by unfold kernelRun17.sl.r_8; exact word17 c i tb (8 : Fin 16) (idxlt17 i _) _ (by rw [k17_off17_eq]; rfl) _ _) (k17_off18 (kernelRun17.sl.r_8 c i tb)) rfl _ _ x
  · dsimp only
    unfold kernelRun17.sl.dma8
    exact piece17 c i tb fh0 hT (7 : Fin 16) (kernelRun17.sl.r_7 c i tb)
      (by unfold kernelRun17.sl.r_7; exact word17 c i tb (7 : Fin 16) (idxlt17 i _) _ (by rw [k17_off15_eq]; rfl) _ _) (k17_off16 (kernelRun17.sl.r_7 c i tb)) rfl _ _ x
  · dsimp only
    unfold kernelRun17.sl.dma7
    exact piece17 c i tb fh0 hT (6 : Fin 16) (kernelRun17.sl.r_6 c i tb)
      (by unfold kernelRun17.sl.r_6; exact word17 c i tb (6 : Fin 16) (idxlt17 i _) _ (by rw [k17_off13_eq]; rfl) _ _) (k17_off14 (kernelRun17.sl.r_6 c i tb)) rfl _ _ x
  · dsimp only
    unfold kernelRun17.sl.dma6
    exact piece17 c i tb fh0 hT (5 : Fin 16) (kernelRun17.sl.r_5 c i tb)
      (by unfold kernelRun17.sl.r_5; exact word17 c i tb (5 : Fin 16) (idxlt17 i _) _ (by rw [k17_off11_eq]; rfl) _ _) (k17_off12 (kernelRun17.sl.r_5 c i tb)) rfl _ _ x
  · dsimp only
    unfold kernelRun17.sl.dma5
    exact piece17 c i tb fh0 hT (4 : Fin 16) (kernelRun17.sl.r_4 c i tb)
      (by unfold kernelRun17.sl.r_4; exact word17 c i tb (4 : Fin 16) (idxlt17 i _) _ (by rw [k17_off9_eq]; rfl) _ _) (k17_off10 (kernelRun17.sl.r_4 c i tb)) rfl _ _ x
  · dsimp only
    unfold kernelRun17.sl.dma4
    exact piece17 c i tb fh0 hT (3 : Fin 16) (kernelRun17.sl.r_3 c i tb)
      (by unfold kernelRun17.sl.r_3; exact word17 c i tb (3 : Fin 16) (idxlt17 i _) _ (by rw [k17_off7_eq]; rfl) _ _) (k17_off8 (kernelRun17.sl.r_3 c i tb)) rfl _ _ x
  · dsimp only
    unfold kernelRun17.sl.dma3
    exact piece17 c i tb fh0 hT (2 : Fin 16) (kernelRun17.sl.r_2 c i tb)
      (by unfold kernelRun17.sl.r_2; exact word17 c i tb (2 : Fin 16) (idxlt17 i _) _ (by rw [k17_off5_eq]; rfl) _ _) (k17_off6 (kernelRun17.sl.r_2 c i tb)) rfl _ _ x
  · dsimp only
    unfold kernelRun17.sl.dma2
    exact piece17 c i tb fh0 hT (1 : Fin 16) (kernelRun17.sl.r_1 c i tb)
      (by unfold kernelRun17.sl.r_1; exact word17 c i tb (1 : Fin 16) (idxlt17 i _) _ (by rw [k17_off3_eq]; rfl) _ _) (k17_off4 (kernelRun17.sl.r_1 c i tb)) rfl _ _ x
  · dsimp only
    unfold kernelRun17.sl.dma1
    exact piece17 c i tb fh0 hT (0 : Fin 16) (kernelRun17.sl.r c i tb)
      (by unfold kernelRun17.sl.r; exact word17 c i tb (0 : Fin 16) (idxlt17 i _) _ (by rw [k17_off1_eq]; rfl) _ _) (k17_off2 (kernelRun17.sl.r c i tb)) rfl _ _ x

/-- THE BLOCK the body leaves, over any staging memrefs and contents: row r is the row of the gathered array the table's
    word `16 i + r` names, times the norm block's entry r. -/
theorem out17_1_apply (c : Dev nD) (i : grid17.Coords) (arg3 : Memref sig .tc .vmem S16x1 .f32) (harg3 : arg3.IsWhole) (arg4 : Memref sig .tc .vmem S16x262 .f32) (harg4 : arg4.IsWhole)
    (x0 : Vec Ideal S16x1 .f32) (tb : HbBuf17 (F := Ideal) c tbM17) (fh0 : HbBuf17 (F := Ideal) c hbM17) (hT : ∀ x, (tb x).toNat < 50000) (r : Fin 16) (j : Fin 262) :
    out17_1 c i arg3 harg3 arg4 harg4 x0 tb fh0 hT (ValueIdx.ix2 (n0 := 16) (n1 := 262) r j)
      = gath17 c i tb fh0 hT (ValueIdx.ix2 (n0 := 16) (n1 := 262) r j) * x0 (ValueIdx.ix2 (n0 := 16) (n1 := 1) r 0) := by
  unfold out17_1
  rw [View.read_writes_eq_canon _ _ _ (cover17_1 c i arg3 harg3 arg4 harg4 x0 tb fh0 hT)]
  unfold kernelRun17
  dsimp only
  rw [View.canon_unit_zero (by funext d; fin_cases d <;> rfl)]
  rw [pay17_apply]
  congr 1
  · unfold kernelRun17.sl.v194
    exact scratch17_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt17_apply (c : Dev nD) (t : Fin (cfg17 a).N) (r : Fin 16) (j : Fin 262) :
    outsAt17 V a hH c t (ValueIdx.ix2 (n0 := 16) (n1 := 262) r j)
      = hbArr17 V c (ValueIdx.ix2 (n0 := 50000) (n1 := 262) ⟨((a.1 0) (ValueIdx.ix1 (n := 50000) ⟨16 * t.val + r.val, idx_lt17 a t r⟩)).toNat, hH _⟩ j)
          * nmBlk17 V a c t (ValueIdx.ix2 (n0 := 16) (n1 := 1) r 0) := by
  unfold outsAt17
  refine (out17_1_apply c (grid17.coords t) _ _ _ _ (nmBlk17 V a c t) (a.1 0) (hbArr17 V c) (tbl_lt17 a hH c) r j).trans ?_
  congr 1
  unfold gath17
  show hbArr17 V c _ = hbArr17 V c _
  congr 1
  funext d
  apply Fin.ext
  fin_cases d
  · exact congrArg (fun n : Fin 50000 => ((a.1 0) (ValueIdx.ix1 (n := 50000) n)).toNat)
      (Fin.ext (by show 16 * (grid17.coords t 0).val + r.val = 16 * t.val + r.val; rw [coords17_val a t]))
  · rfl

end Cert.KernelIdeal.Hand

end
-- ==== Proof.G17Value.lean ====
/- Pipeline 17 at the ideal values: the output array after the region is the gathered and scaled array (row e: the row of
   the source array named by the table's word e, times the norm column's entry e). -/
import proofs.«414392_j7919919694132_2_alg».proof.Proof.G17Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg17 (F := Ideal)).Adm) (hH : ∀ j : Fin 50000, ((a.1 0) (ValueIdx.ix1 j)).toNat < 50000)

/-! ## From blocks to the array -/

/-- What point t writes back is block t of the gathered and scaled array. -/
theorem flushed17_1_eq (c : Dev nD) (t : Fin (cfg17 a).N) :
    (dat17 (F := Ideal) V a hH c).flushed 1 t = (((cfg17 a).win 1).blk t).view.read (Elt Ideal) (G17v V a hH c) := by
  show ((cfg17 a).win 1).cut (grid17.coords t) ((dat17 V a hH c).after 1 t) = _
  rw [after17_1]
  refine funext fun (y : S16x262.Idx) => ?_
  obtain ⟨r, j, rfl⟩ : ∃ (r : Fin 16) (j : Fin 262), y = ValueIdx.ix2 r j := ⟨y 0, y 1, ValueIdx.eq_ix2 y⟩
  show outsAt17 V a hH c t (ValueIdx.ix2 (n0 := 16) (n1 := 262) r j) = G17v V a hH c ((((cfg17 a).win 1).blk t).view.emb (ValueIdx.ix2 (n0 := 16) (n1 := 262) r j))
  rw [emb17_1, outsAt17_apply V a hH c t r j, nmBlk17_apply V a c t r]

/-- Every index of the array is in some point's block: row e is in block e / 16. -/
theorem cover17_blk (i : S50000x262.Idx) :
    ∃ t : Fin (cfg17 a).N, ((cfg17 a).win 1).flush t = true ∧ i ∈ (((cfg17 a).win 1).blk t).view.set := by
  have hi0 : (i 0).val < 50000 := (i 0).isLt
  have hi1 : (i 1).val < 262 := (i 1).isLt
  have hq : (i 0).val / 16 < (cfg17 a).N := by rw [N17_eq a]; omega
  have hr : (i 0).val % 16 < 16 := Nat.mod_lt _ (by omega)
  obtain ⟨t, ht⟩ : ∃ t : Fin (cfg17 a).N, t.val = (i 0).val / 16 := ⟨⟨(i 0).val / 16, hq⟩, rfl⟩
  refine ⟨t, flush17_1 a t, ?_⟩
  have e : i = ValueIdx.ix2 (n0 := 50000) (n1 := 262) ⟨16 * t.val + (i 0).val % 16, idx_lt17 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk17_1 a t ⟨(i 0).val % 16, hr⟩ ⟨(i 1).val, hi1⟩

/-- The output array after the region is the gathered and scaled array, -/
theorem arrAt17_1_eq (c : Dev nD) : (dat17 (F := Ideal) V a hH c).arrAt 1 (cfg17 a).N = G17v V a hH c :=
  (dat17 (F := Ideal) V a hH c).arrAt_eq_of_cover 1 (G17v V a hH c) (fun t _ => flushed17_1_eq V a hH c t) (cover17_blk a)

/-- index by index: entry (e, j) is the source array's entry (the table's word e, j) times the norm column's entry e. -/
theorem arrAt17_1 (c : Dev nD) (e : Fin 50000) (j : Fin 262) :
    (dat17 (F := Ideal) V a hH c).arrAt 1 (cfg17 a).N (ValueIdx.ix2 (n0 := 50000) (n1 := 262) e j)
      = hbArr17 V c (ValueIdx.ix2 (n0 := 50000) (n1 := 262) ⟨((a.1 0) (ValueIdx.ix1 (n := 50000) e)).toNat, hH e⟩ j)
          * nmArr17 V c (ValueIdx.ix2 (n0 := 50000) (n1 := 1) e 0) :=
  (congrFun (arrAt17_1_eq V a hH c) (ValueIdx.ix2 (n0 := 50000) (n1 := 262) e j)).trans rfl

end Cert.KernelIdeal.Hand

end
-- ==== Proof.G18Idx.lean ====
/- Pipeline 18 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G18
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg18 (F := Ideal)).Adm) (hH : ∀ j : Fin 50000, ((a.1 0) (ValueIdx.ix1 j)).toNat < 50000)

/-! ## The arrays, by name -/

/-- The array the rows are gathered from, and the norm column. -/
abbrev hbArr18 (c : Dev nD) : FVec Ideal S50000x262 .f32 := V c main_v71
abbrev nmArr18 (c : Dev nD) : FVec Ideal S50000x1 .f32 := V c main_v95
/-- The norm block at a point. -/
abbrev nmBlk18 (c : Dev nD) (t : Fin (cfg18 a).N) : FVec Ideal S16x1 .f32 := iblk18 V a c 0 t

/-- The gathered and scaled array: row e is the row of the source array named by the table's word e, times the norm
    column's entry e. -/
abbrev G18v (c : Dev nD) : (⟨S50000x262, .f32⟩ : BufTy).Contents (Elt Ideal) := fun i =>
  hbArr18 V c (ValueIdx.ix2 (n0 := 50000) (n1 := 262) ⟨((a.1 0) (ValueIdx.ix1 (n := 50000) (i 0))).toNat, hH (i 0)⟩ (i 1))
    * nmArr18 V c (ValueIdx.ix2 (n0 := 50000) (n1 := 1) (i 0) 0)

/-! ## The index maps at a point -/

theorem N18_eq : (cfg18 a).N = 3125 := N_18

/-- Row r of point t's block is a row of the array. -/
theorem idx_lt18 (t : Fin (cfg18 a).N) (r : Fin 16) : 16 * t.val + r.val < 50000 := by
  have ht : t.val < 3125 := (N18_eq a) ▸ t.isLt
  have := r.isLt; omega

/-- On the one-axis grid the point's coordinate is the point. -/
theorem coords18_val (t : Fin (cfg18 a).N) : (grid18.coords t 0).val = t.val := by
  have h : t.val < 3125 := (N18_eq a) ▸ t.isLt
  show t.val / grid18.stride 0 % 3125 = t.val
  rw [show grid18.stride 0 = 1 from by decide, Nat.div_one, Nat.mod_eq_of_lt h]

theorem idx18_0 (t : Fin (cfg18 a).N) : ((cfg18 a).win 0).index t = cc18_transform_1 (grid18.coords t) := rfl
theorem idx18_1 (t : Fin (cfg18 a).N) : ((cfg18 a).win 1).index t = cc18_transform_2 (grid18.coords t) := rfl

theorem tr18_1_0 (i : grid18.Coords) : cc18_transform_1 i (0 : Fin 2) = (i 0).val := by
  show (BitVec.ofNat 32 (i 0).val).toNat = _
  have h := (i 0).isLt
  have hb : grid18.bound 0 = 3125 := rfl
  rw [BitVec.toNat_ofNat]; exact Nat.mod_eq_of_lt (by omega)
theorem tr18_1_1 (i : grid18.Coords) : cc18_transform_1 i (1 : Fin 2) = 0 := rfl
theorem tr18_2_0 (i : grid18.Coords) : cc18_transform_2 i (0 : Fin 2) = (i 0).val := by
  show (BitVec.ofNat 32 (i 0).val).toNat = _
  have h := (i 0).isLt
  have hb : grid18.bound 0 = 3125 := rfl
  rw [BitVec.toNat_ofNat]; exact Nat.mod_eq_of_lt (by omega)
theorem tr18_2_1 (i : grid18.Coords) : cc18_transform_2 i (1 : Fin 2) = 0 := rfl

/-- Both windows' row-block index at point t is t; their column-block index is zero. -/
theorem index18_0_0 (t : Fin (cfg18 a).N) : ((cfg18 a).win 0).index t (0 : Fin 2) = t.val := by rw [idx18_0, tr18_1_0, coords18_val]
theorem index18_0_1 (t : Fin (cfg18 a).N) : ((cfg18 a).win 0).index t (1 : Fin 2) = 0 := by rw [idx18_0, tr18_1_1]
theorem index18_1_0 (t : Fin (cfg18 a).N) : ((cfg18 a).win 1).index t (0 : Fin 2) = t.val := by rw [idx18_1, tr18_2_0, coords18_val]
theorem index18_1_1 (t : Fin (cfg18 a).N) : ((cfg18 a).win 1).index t (1 : Fin 2) = 0 := by rw [idx18_1, tr18_2_1]

/-- The output window is written back at every point: its block index moves with the point. -/
theorem flush18_1 (t : Fin (cfg18 a).N) : ((cfg18 a).win 1).flush t = true := by
  rw [Window.flush_out _ rfl]
  by_cases h : t.val + 1 = grid18.N
  · exact Or.inl h
  · have hN : grid18.N = 3125 := N_18
    have ht : t.val < 3125 := (N18_eq a) ▸ t.isLt
    have h1 : t.val + 1 < grid18.N := by omega
    refine Or.inr ⟨h1, fun e => ?_⟩
    have e0 : ((cfg18 a).win 1).index ⟨t.val + 1, h1⟩ (0 : Fin 2) = ((cfg18 a).win 1).index t (0 : Fin 2) := congrFun e (0 : Fin 2)
    rw [index18_1_0, index18_1_0] at e0
    exact absurd e0 (by show t.val + 1 ≠ t.val; omega)

/-! ## The blocks at a point -/

/-- Entry (r, j) of point t's output block is entry (16 t + r, j) of the array. -/
theorem emb18_1 (t : Fin (cfg18 a).N) (r : Fin 16) (j : Fin 262) :
    (((cfg18 a).win 1).blk t).view.emb (ValueIdx.ix2 (n0 := 16) (n1 := 262) r j)
      = ValueIdx.ix2 (n0 := 50000) (n1 := 262) ⟨16 * t.val + r.val, idx_lt18 a t r⟩ j := by
  funext k; apply Fin.ext
  match k with
  | ⟨0, _⟩ => show ((cfg18 a).win 1).index t (0 : Fin 2) * 16 + 1 * r.val = 16 * t.val + r.val; rw [index18_1_0]; omega
  | ⟨1, _⟩ => show ((cfg18 a).win 1).index t (1 : Fin 2) * 262 + 1 * j.val = j.val; rw [index18_1_1]; omega

/-- The norm block at point t, row r, is the norm column's entry 16 t + r. -/
theorem nmBlk18_apply (c : Dev nD) (t : Fin (cfg18 a).N) (r : Fin 16) :
    nmBlk18 V a c t (ValueIdx.ix2 (n0 := 16) (n1 := 1) r 0)
      = nmArr18 V c (ValueIdx.ix2 (n0 := 50000) (n1 := 1) ⟨16 * t.val + r.val, idx_lt18 a t r⟩ 0) := by
  show V c main_v95 ((((cfg18 a).win 0).blk t).view.emb (ValueIdx.ix2 (n0 := 16) (n1 := 1) r 0)) = V c main_v95 (ValueIdx.ix2 (n0 := 50000) (n1 := 1) ⟨16 * t.val + r.val, idx_lt18 a t r⟩ 0)
  refine congrArg (V c main_v95) ?_
  funext k; apply Fin.ext
  match k with
  | ⟨0, _⟩ => show ((cfg18 a).win 0).index t (0 : Fin 2) * 16 + 1 * r.val = 16 * t.val + r.val; rw [index18_0_0]; omega
  | ⟨1, _⟩ => show ((cfg18 a).win 0).index t (1 : Fin 2) * 1 + 1 * 0 = 0; rw [index18_0_1]

/-- Entry (16 t + r, j) of the array is in point t's block. -/
theorem mem_blk18_1 (t : Fin (cfg18 a).N) (r : Fin 16) (j : Fin 262) :
    ValueIdx.ix2 (n0 := 50000) (n1 := 262) ⟨16 * t.val + r.val, idx_lt18 a t r⟩ j ∈ (((cfg18 a).win 1).blk t).view.set := by
  rw [← emb18_1]; exact View.emb_mem_set _ _

end Cert.KernelIdeal.Hand

end
-- ==== Proof.G18Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col18_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 18's one store at (r, j): the scratch entry (r, j) times the norm block's entry r. -/
theorem pay18_apply (v192 : Vec Ideal S16x1 .f32) (v194 : Vec Ideal S16x262 .f32) (r : Fin 16) (j : Fin 262) :
    k18_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k18_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col18_262 _ r j).trans (congrFun (shapeCast_self v192 shapeCasts_S16x1_S16x1) _))

end Cert.KernelIdeal.Hand

end
-- ==== Proof.G18Block.lean ====
/- Pipeline 18 at the ideal values: the block the body leaves at a point, entry by entry. -/
import proofs.«414392_j7919919694132_2_alg».proof.Proof.G18Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G18Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg18 (F := Ideal)).Adm) (hH : ∀ j : Fin 50000, ((a.1 0) (ValueIdx.ix1 j)).toNat < 50000)

/-! ## Indices of a one-row slice -/

/-- A one-row index has leading coordinate 0. -/
theorem row0_18 (x : S1x262.Idx) : (x 0).val = 0 := by
  have h := (x 0).isLt
  have e : S1x262.size 0 = 1 := by decide
  omega

/-- The gathered array, read as a matrix of ideal values. -/
abbrev asArr18 (c : Dev nD) (fh0 : HbBuf18 (F := Ideal) c hbM18) : FVec Ideal S50000x262 .f32 := fh0

/-- The table's word at offset `16 i + k`, as the body reads it. -/
theorem word18 (c : Dev nD) (i : grid18.Coords) (tb : HbBuf18 (F := Ideal) c tbM18) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM18.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma18_apply (c : Dev nD) (fh0 : HbBuf18 (F := Ideal) c hbM18) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM18.slice (Rect.unit (s := S50000x262) off S1x262.size inb) (fun _ => rfl)).view fh0) x
      = asArr18 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_18 x]; omega
  · show 0 + 1 * (x 1).val = (x 1).val
    omega

/-- The sixteen rows of the scratch, each the payload of its transfer. -/
def rows18 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows18 (p0 p1 p2 p3 p4 p5 p6 p7 p8 p9 p10 p11 p12 p13 p14 p15 : S1x262.Idx → Elt Ideal .f32) (y : S16x262.Idx) : ∃ pc ∈ rows18 p0 p1 p2 p3 p4 p5 p6 p7 p8 p9 p10 p11 p12 p13 p14 p15, y ∈ pc.1.set :=
  View.cover_of_tiledL (rows18 p0 p1 p2 p3 p4 p5 p6 p7 p8 p9 p10 p11 p12 p13 p14 p15) S1x262.size (by sl_kernel_rfl) y

/-- A point's coordinate is below the grid's 3125 points, so the sixteen table offsets of the point are inside the table. -/
theorem idxlt18 (i : grid18.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath18 (c : Dev nD) (i : grid18.Coords) (tb : HbBuf18 (F := Ideal) c tbM18) (fh0 : HbBuf18 (F := Ideal) c hbM18) (hT : ∀ x, (tb x).toNat < 50000) :
    S16x262.Idx → Elt Ideal .f32 :=
  fun y => asArr18 c fh0 (ValueIdx.ix2 (n0 := 50000) (n1 := 262) ⟨(tb (ValueIdx.ix1 (n := 50000) ⟨16 * (i 0).val + (y 0).val, idxlt18 i (y 0)⟩)).toNat, hT _⟩ (y 1))

/-- Row k's transfer delivers `gath18` at the row's indices. -/
theorem piece18 (c : Dev nD) (i : grid18.Coords) (tb : HbBuf18 (F := Ideal) c tbM18) (fh0 : HbBuf18 (F := Ideal) c hbM18) (hT : ∀ x, (tb x).toNat < 50000)
    (k : Fin 16) (w : BitVec 32) (hwd : w = tb (ValueIdx.ix1 (n := 50000) ⟨16 * (i 0).val + k.val, idxlt18 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM18.slice (Rect.unit (s := S50000x262) off S1x262.size inb) (fun _ => rfl)).view fh0) x
      = gath18 c i tb fh0 hT ((Rect.unit (s := S16x262) ![k.val, 0] S1x262.size inbk).emb x) := by
  subst hwd
  rw [dma18_apply c fh0 _ (hT _) off hoff inb x]
  unfold gath18
  show asArr18 c fh0 _ = asArr18 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_18 x]; omega
  · show (x 1).val = 0 + 1 * (x 1).val
    omega

set_option maxHeartbeats 1000000 in
/-- The scratch, read whole after the sixteen waits, is `gath18`. -/
theorem scratch18_apply (c : Dev nD) (i : grid18.Coords) (tb : HbBuf18 (F := Ideal) c tbM18) (fh0 : HbBuf18 (F := Ideal) c hbM18) (hT : ∀ x, (tb x).toNat < 50000)
    (y : S16x262.Idx) :
    scM18.view.readCov (rows18
        (kernelRun18.sl.dma1 c i tb fh0 (chk18_1_of_lt _ (hT _)))
        (kernelRun18.sl.dma2 c i tb fh0 (chk18_2_of_lt _ (hT _)))
        (kernelRun18.sl.dma3 c i tb fh0 (chk18_3_of_lt _ (hT _)))
        (kernelRun18.sl.dma4 c i tb fh0 (chk18_4_of_lt _ (hT _)))
        (kernelRun18.sl.dma5 c i tb fh0 (chk18_5_of_lt _ (hT _)))
        (kernelRun18.sl.dma6 c i tb fh0 (chk18_6_of_lt _ (hT _)))
        (kernelRun18.sl.dma7 c i tb fh0 (chk18_7_of_lt _ (hT _)))
        (kernelRun18.sl.dma8 c i tb fh0 (chk18_8_of_lt _ (hT _)))
        (kernelRun18.sl.dma9 c i tb fh0 (chk18_9_of_lt _ (hT _)))
        (kernelRun18.sl.dma10 c i tb fh0 (chk18_10_of_lt _ (hT _)))
        (kernelRun18.sl.dma11 c i tb fh0 (chk18_11_of_lt _ (hT _)))
        (kernelRun18.sl.dma12 c i tb fh0 (chk18_12_of_lt _ (hT _)))
        (kernelRun18.sl.dma13 c i tb fh0 (chk18_13_of_lt _ (hT _)))
        (kernelRun18.sl.dma14 c i tb fh0 (chk18_14_of_lt _ (hT _)))
        (kernelRun18.sl.dma15 c i tb fh0 (chk18_15_of_lt _ (hT _)))
        (kernelRun18.sl.dma16 c i tb fh0 (chk18_16_of_lt _ (hT _)))) (Rect.unit (s := S16x262) ![0, 0] S16x262.size inb_S16x262_S16x262_0_0).toLoadRect y
      = gath18 c i tb fh0 hT y := by
  rw [View.readCov_eq_canon_ld _ _ _ (cover_rows18 _ _ _ _ _ _ _ _ _ _ _ _ _ _ _ _), View.ld_unit_zero (by funext d; fin_cases d <;> rfl)]
  refine View.canon_apply_of_pieces (gath18 c i tb fh0 hT) (rows18 _ _ _ _ _ _ _ _ _ _ _ _ _ _ _ _) ?_ y (cover_rows18 _ _ _ _ _ _ _ _ _ _ _ _ _ _ _ _ y)
  intro p hp x
  unfold rows18 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun18.sl.dma16
    exact piece18 c i tb fh0 hT (15 : Fin 16) (kernelRun18.sl.r_15 c i tb)
      (by unfold kernelRun18.sl.r_15; exact word18 c i tb (15 : Fin 16) (idxlt18 i _) _ (by rw [k18_off31_eq]; rfl) _ _) (k18_off32 (kernelRun18.sl.r_15 c i tb)) rfl _ _ x
  · dsimp only
    unfold kernelRun18.sl.dma15
    exact piece18 c i tb fh0 hT (14 : Fin 16) (kernelRun18.sl.r_14 c i tb)
      (by unfold kernelRun18.sl.r_14; exact word18 c i tb (14 : Fin 16) (idxlt18 i _) _ (by rw [k18_off29_eq]; rfl) _ _) (k18_off30 (kernelRun18.sl.r_14 c i tb)) rfl _ _ x
  · dsimp only
    unfold kernelRun18.sl.dma14
    exact piece18 c i tb fh0 hT (13 : Fin 16) (kernelRun18.sl.r_13 c i tb)
      (by unfold kernelRun18.sl.r_13; exact word18 c i tb (13 : Fin 16) (idxlt18 i _) _ (by rw [k18_off27_eq]; rfl) _ _) (k18_off28 (kernelRun18.sl.r_13 c i tb)) rfl _ _ x
  · dsimp only
    unfold kernelRun18.sl.dma13
    exact piece18 c i tb fh0 hT (12 : Fin 16) (kernelRun18.sl.r_12 c i tb)
      (by unfold kernelRun18.sl.r_12; exact word18 c i tb (12 : Fin 16) (idxlt18 i _) _ (by rw [k18_off25_eq]; rfl) _ _) (k18_off26 (kernelRun18.sl.r_12 c i tb)) rfl _ _ x
  · dsimp only
    unfold kernelRun18.sl.dma12
    exact piece18 c i tb fh0 hT (11 : Fin 16) (kernelRun18.sl.r_11 c i tb)
      (by unfold kernelRun18.sl.r_11; exact word18 c i tb (11 : Fin 16) (idxlt18 i _) _ (by rw [k18_off23_eq]; rfl) _ _) (k18_off24 (kernelRun18.sl.r_11 c i tb)) rfl _ _ x
  · dsimp only
    unfold kernelRun18.sl.dma11
    exact piece18 c i tb fh0 hT (10 : Fin 16) (kernelRun18.sl.r_10 c i tb)
      (by unfold kernelRun18.sl.r_10; exact word18 c i tb (10 : Fin 16) (idxlt18 i _) _ (by rw [k18_off21_eq]; rfl) _ _) (k18_off22 (kernelRun18.sl.r_10 c i tb)) rfl _ _ x
  · dsimp only
    unfold kernelRun18.sl.dma10
    exact piece18 c i tb fh0 hT (9 : Fin 16) (kernelRun18.sl.r_9 c i tb)
      (by unfold kernelRun18.sl.r_9; exact word18 c i tb (9 : Fin 16) (idxlt18 i _) _ (by rw [k18_off19_eq]; rfl) _ _) (k18_off20 (kernelRun18.sl.r_9 c i tb)) rfl _ _ x
  · dsimp only
    unfold kernelRun18.sl.dma9
    exact piece18 c i tb fh0 hT (8 : Fin 16) (kernelRun18.sl.r_8 c i tb)
      (by unfold kernelRun18.sl.r_8; exact word18 c i tb (8 : Fin 16) (idxlt18 i _) _ (by rw [k18_off17_eq]; rfl) _ _) (k18_off18 (kernelRun18.sl.r_8 c i tb)) rfl _ _ x
  · dsimp only
    unfold kernelRun18.sl.dma8
    exact piece18 c i tb fh0 hT (7 : Fin 16) (kernelRun18.sl.r_7 c i tb)
      (by unfold kernelRun18.sl.r_7; exact word18 c i tb (7 : Fin 16) (idxlt18 i _) _ (by rw [k18_off15_eq]; rfl) _ _) (k18_off16 (kernelRun18.sl.r_7 c i tb)) rfl _ _ x
  · dsimp only
    unfold kernelRun18.sl.dma7
    exact piece18 c i tb fh0 hT (6 : Fin 16) (kernelRun18.sl.r_6 c i tb)
      (by unfold kernelRun18.sl.r_6; exact word18 c i tb (6 : Fin 16) (idxlt18 i _) _ (by rw [k18_off13_eq]; rfl) _ _) (k18_off14 (kernelRun18.sl.r_6 c i tb)) rfl _ _ x
  · dsimp only
    unfold kernelRun18.sl.dma6
    exact piece18 c i tb fh0 hT (5 : Fin 16) (kernelRun18.sl.r_5 c i tb)
      (by unfold kernelRun18.sl.r_5; exact word18 c i tb (5 : Fin 16) (idxlt18 i _) _ (by rw [k18_off11_eq]; rfl) _ _) (k18_off12 (kernelRun18.sl.r_5 c i tb)) rfl _ _ x
  · dsimp only
    unfold kernelRun18.sl.dma5
    exact piece18 c i tb fh0 hT (4 : Fin 16) (kernelRun18.sl.r_4 c i tb)
      (by unfold kernelRun18.sl.r_4; exact word18 c i tb (4 : Fin 16) (idxlt18 i _) _ (by rw [k18_off9_eq]; rfl) _ _) (k18_off10 (kernelRun18.sl.r_4 c i tb)) rfl _ _ x
  · dsimp only
    unfold kernelRun18.sl.dma4
    exact piece18 c i tb fh0 hT (3 : Fin 16) (kernelRun18.sl.r_3 c i tb)
      (by unfold kernelRun18.sl.r_3; exact word18 c i tb (3 : Fin 16) (idxlt18 i _) _ (by rw [k18_off7_eq]; rfl) _ _) (k18_off8 (kernelRun18.sl.r_3 c i tb)) rfl _ _ x
  · dsimp only
    unfold kernelRun18.sl.dma3
    exact piece18 c i tb fh0 hT (2 : Fin 16) (kernelRun18.sl.r_2 c i tb)
      (by unfold kernelRun18.sl.r_2; exact word18 c i tb (2 : Fin 16) (idxlt18 i _) _ (by rw [k18_off5_eq]; rfl) _ _) (k18_off6 (kernelRun18.sl.r_2 c i tb)) rfl _ _ x
  · dsimp only
    unfold kernelRun18.sl.dma2
    exact piece18 c i tb fh0 hT (1 : Fin 16) (kernelRun18.sl.r_1 c i tb)
      (by unfold kernelRun18.sl.r_1; exact word18 c i tb (1 : Fin 16) (idxlt18 i _) _ (by rw [k18_off3_eq]; rfl) _ _) (k18_off4 (kernelRun18.sl.r_1 c i tb)) rfl _ _ x
  · dsimp only
    unfold kernelRun18.sl.dma1
    exact piece18 c i tb fh0 hT (0 : Fin 16) (kernelRun18.sl.r c i tb)
      (by unfold kernelRun18.sl.r; exact word18 c i tb (0 : Fin 16) (idxlt18 i _) _ (by rw [k18_off1_eq]; rfl) _ _) (k18_off2 (kernelRun18.sl.r c i tb)) rfl _ _ x

/-- THE BLOCK the body leaves, over any staging memrefs and contents: row r is the row of the gathered array the table's
    word `16 i + r` names, times the norm block's entry r. -/
theorem out18_1_apply (c : Dev nD) (i : grid18.Coords) (arg3 : Memref sig .tc .vmem S16x1 .f32) (harg3 : arg3.IsWhole) (arg4 : Memref sig .tc .vmem S16x262 .f32) (harg4 : arg4.IsWhole)
    (x0 : Vec Ideal S16x1 .f32) (tb : HbBuf18 (F := Ideal) c tbM18) (fh0 : HbBuf18 (F := Ideal) c hbM18) (hT : ∀ x, (tb x).toNat < 50000) (r : Fin 16) (j : Fin 262) :
    out18_1 c i arg3 harg3 arg4 harg4 x0 tb fh0 hT (ValueIdx.ix2 (n0 := 16) (n1 := 262) r j)
      = gath18 c i tb fh0 hT (ValueIdx.ix2 (n0 := 16) (n1 := 262) r j) * x0 (ValueIdx.ix2 (n0 := 16) (n1 := 1) r 0) := by
  unfold out18_1
  rw [View.read_writes_eq_canon _ _ _ (cover18_1 c i arg3 harg3 arg4 harg4 x0 tb fh0 hT)]
  unfold kernelRun18
  dsimp only
  rw [View.canon_unit_zero (by funext d; fin_cases d <;> rfl)]
  rw [pay18_apply]
  congr 1
  · unfold kernelRun18.sl.v194
    exact scratch18_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt18_apply (c : Dev nD) (t : Fin (cfg18 a).N) (r : Fin 16) (j : Fin 262) :
    outsAt18 V a hH c t (ValueIdx.ix2 (n0 := 16) (n1 := 262) r j)
      = hbArr18 V c (ValueIdx.ix2 (n0 := 50000) (n1 := 262) ⟨((a.1 0) (ValueIdx.ix1 (n := 50000) ⟨16 * t.val + r.val, idx_lt18 a t r⟩)).toNat, hH _⟩ j)
          * nmBlk18 V a c t (ValueIdx.ix2 (n0 := 16) (n1 := 1) r 0) := by
  unfold outsAt18
  refine (out18_1_apply c (grid18.coords t) _ _ _ _ (nmBlk18 V a c t) (a.1 0) (hbArr18 V c) (tbl_lt18 a hH c) r j).trans ?_
  congr 1
  unfold gath18
  show hbArr18 V c _ = hbArr18 V c _
  congr 1
  funext d
  apply Fin.ext
  fin_cases d
  · exact congrArg (fun n : Fin 50000 => ((a.1 0) (ValueIdx.ix1 (n := 50000) n)).toNat)
      (Fin.ext (by show 16 * (grid18.coords t 0).val + r.val = 16 * t.val + r.val; rw [coords18_val a t]))
  · rfl

end Cert.KernelIdeal.Hand

end
-- ==== Proof.G18Value.lean ====
/- Pipeline 18 at the ideal values: the output array after the region is the gathered and scaled array (row e: the row of
   the source array named by the table's word e, times the norm column's entry e). -/
import proofs.«414392_j7919919694132_2_alg».proof.Proof.G18Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg18 (F := Ideal)).Adm) (hH : ∀ j : Fin 50000, ((a.1 0) (ValueIdx.ix1 j)).toNat < 50000)

/-! ## From blocks to the array -/

/-- What point t writes back is block t of the gathered and scaled array. -/
theorem flushed18_1_eq (c : Dev nD) (t : Fin (cfg18 a).N) :
    (dat18 (F := Ideal) V a hH c).flushed 1 t = (((cfg18 a).win 1).blk t).view.read (Elt Ideal) (G18v V a hH c) := by
  show ((cfg18 a).win 1).cut (grid18.coords t) ((dat18 V a hH c).after 1 t) = _
  rw [after18_1]
  refine funext fun (y : S16x262.Idx) => ?_
  obtain ⟨r, j, rfl⟩ : ∃ (r : Fin 16) (j : Fin 262), y = ValueIdx.ix2 r j := ⟨y 0, y 1, ValueIdx.eq_ix2 y⟩
  show outsAt18 V a hH c t (ValueIdx.ix2 (n0 := 16) (n1 := 262) r j) = G18v V a hH c ((((cfg18 a).win 1).blk t).view.emb (ValueIdx.ix2 (n0 := 16) (n1 := 262) r j))
  rw [emb18_1, outsAt18_apply V a hH c t r j, nmBlk18_apply V a c t r]

/-- Every index of the array is in some point's block: row e is in block e / 16. -/
theorem cover18_blk (i : S50000x262.Idx) :
    ∃ t : Fin (cfg18 a).N, ((cfg18 a).win 1).flush t = true ∧ i ∈ (((cfg18 a).win 1).blk t).view.set := by
  have hi0 : (i 0).val < 50000 := (i 0).isLt
  have hi1 : (i 1).val < 262 := (i 1).isLt
  have hq : (i 0).val / 16 < (cfg18 a).N := by rw [N18_eq a]; omega
  have hr : (i 0).val % 16 < 16 := Nat.mod_lt _ (by omega)
  obtain ⟨t, ht⟩ : ∃ t : Fin (cfg18 a).N, t.val = (i 0).val / 16 := ⟨⟨(i 0).val / 16, hq⟩, rfl⟩
  refine ⟨t, flush18_1 a t, ?_⟩
  have e : i = ValueIdx.ix2 (n0 := 50000) (n1 := 262) ⟨16 * t.val + (i 0).val % 16, idx_lt18 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk18_1 a t ⟨(i 0).val % 16, hr⟩ ⟨(i 1).val, hi1⟩

/-- The output array after the region is the gathered and scaled array, -/
theorem arrAt18_1_eq (c : Dev nD) : (dat18 (F := Ideal) V a hH c).arrAt 1 (cfg18 a).N = G18v V a hH c :=
  (dat18 (F := Ideal) V a hH c).arrAt_eq_of_cover 1 (G18v V a hH c) (fun t _ => flushed18_1_eq V a hH c t) (cover18_blk a)

/-- index by index: entry (e, j) is the source array's entry (the table's word e, j) times the norm column's entry e. -/
theorem arrAt18_1 (c : Dev nD) (e : Fin 50000) (j : Fin 262) :
    (dat18 (F := Ideal) V a hH c).arrAt 1 (cfg18 a).N (ValueIdx.ix2 (n0 := 50000) (n1 := 262) e j)
      = hbArr18 V c (ValueIdx.ix2 (n0 := 50000) (n1 := 262) ⟨((a.1 0) (ValueIdx.ix1 (n := 50000) e)).toNat, hH e⟩ j)
          * nmArr18 V c (ValueIdx.ix2 (n0 := 50000) (n1 := 1) e 0) :=
  (congrFun (arrAt18_1_eq V a hH c) (ValueIdx.ix2 (n0 := 50000) (n1 := 262) e j)).trans rfl

end Cert.KernelIdeal.Hand

end
-- ==== Proof.G19Idx.lean ====
/- Pipeline 19 (the sixteen-row gather and scale of layer 2) at the ideal values: the arrays by name, the windows' index
   maps at a point (block t of both windows is rows 16 t … 16 t + 15), the norm block read off the norm column, and
   which entries of the output array each point's block holds. -/
import proofs.«414392_j7919919694132_2_alg».proof.Proof.G19
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg19 (F := Ideal)).Adm) (hH : ∀ j : Fin 50000, ((a.1 0) (ValueIdx.ix1 j)).toNat < 50000)

/-! ## The arrays, by name -/

/-- The array the rows are gathered from, and the norm column. -/
abbrev hbArr19 (c : Dev nD) : FVec Ideal S50000x262 .f32 := V c main_v71
abbrev nmArr19 (c : Dev nD) : FVec Ideal S50000x1 .f32 := V c main_v98
/-- The norm block at a point. -/
abbrev nmBlk19 (c : Dev nD) (t : Fin (cfg19 a).N) : FVec Ideal S16x1 .f32 := iblk19 V a c 0 t

/-- The gathered and scaled array: row e is the row of the source array named by the table's word e, times the norm
    column's entry e. -/
abbrev G19v (c : Dev nD) : (⟨S50000x262, .f32⟩ : BufTy).Contents (Elt Ideal) := fun i =>
  hbArr19 V c (ValueIdx.ix2 (n0 := 50000) (n1 := 262) ⟨((a.1 0) (ValueIdx.ix1 (n := 50000) (i 0))).toNat, hH (i 0)⟩ (i 1))
    * nmArr19 V c (ValueIdx.ix2 (n0 := 50000) (n1 := 1) (i 0) 0)

/-! ## The index maps at a point -/

theorem N19_eq : (cfg19 a).N = 3125 := N_19

/-- Row r of point t's block is a row of the array. -/
theorem idx_lt19 (t : Fin (cfg19 a).N) (r : Fin 16) : 16 * t.val + r.val < 50000 := by
  have ht : t.val < 3125 := (N19_eq a) ▸ t.isLt
  have := r.isLt; omega

/-- On the one-axis grid the point's coordinate is the point. -/
theorem coords19_val (t : Fin (cfg19 a).N) : (grid19.coords t 0).val = t.val := by
  have h : t.val < 3125 := (N19_eq a) ▸ t.isLt
  show t.val / grid19.stride 0 % 3125 = t.val
  rw [show grid19.stride 0 = 1 from by decide, Nat.div_one, Nat.mod_eq_of_lt h]

theorem idx19_0 (t : Fin (cfg19 a).N) : ((cfg19 a).win 0).index t = cc19_transform_1 (grid19.coords t) := rfl
theorem idx19_1 (t : Fin (cfg19 a).N) : ((cfg19 a).win 1).index t = cc19_transform_2 (grid19.coords t) := rfl

theorem tr19_1_0 (i : grid19.Coords) : cc19_transform_1 i (0 : Fin 2) = (i 0).val := by
  show (BitVec.ofNat 32 (i 0).val).toNat = _
  have h := (i 0).isLt
  have hb : grid19.bound 0 = 3125 := rfl
  rw [BitVec.toNat_ofNat]; exact Nat.mod_eq_of_lt (by omega)
theorem tr19_1_1 (i : grid19.Coords) : cc19_transform_1 i (1 : Fin 2) = 0 := rfl
theorem tr19_2_0 (i : grid19.Coords) : cc19_transform_2 i (0 : Fin 2) = (i 0).val := by
  show (BitVec.ofNat 32 (i 0).val).toNat = _
  have h := (i 0).isLt
  have hb : grid19.bound 0 = 3125 := rfl
  rw [BitVec.toNat_ofNat]; exact Nat.mod_eq_of_lt (by omega)
theorem tr19_2_1 (i : grid19.Coords) : cc19_transform_2 i (1 : Fin 2) = 0 := rfl

/-- Both windows' row-block index at point t is t; their column-block index is zero. -/
theorem index19_0_0 (t : Fin (cfg19 a).N) : ((cfg19 a).win 0).index t (0 : Fin 2) = t.val := by rw [idx19_0, tr19_1_0, coords19_val]
theorem index19_0_1 (t : Fin (cfg19 a).N) : ((cfg19 a).win 0).index t (1 : Fin 2) = 0 := by rw [idx19_0, tr19_1_1]
theorem index19_1_0 (t : Fin (cfg19 a).N) : ((cfg19 a).win 1).index t (0 : Fin 2) = t.val := by rw [idx19_1, tr19_2_0, coords19_val]
theorem index19_1_1 (t : Fin (cfg19 a).N) : ((cfg19 a).win 1).index t (1 : Fin 2) = 0 := by rw [idx19_1, tr19_2_1]

/-- The output window is written back at every point: its block index moves with the point. -/
theorem flush19_1 (t : Fin (cfg19 a).N) : ((cfg19 a).win 1).flush t = true := by
  rw [Window.flush_out _ rfl]
  by_cases h : t.val + 1 = grid19.N
  · exact Or.inl h
  · have hN : grid19.N = 3125 := N_19
    have ht : t.val < 3125 := (N19_eq a) ▸ t.isLt
    have h1 : t.val + 1 < grid19.N := by omega
    refine Or.inr ⟨h1, fun e => ?_⟩
    have e0 : ((cfg19 a).win 1).index ⟨t.val + 1, h1⟩ (0 : Fin 2) = ((cfg19 a).win 1).index t (0 : Fin 2) := congrFun e (0 : Fin 2)
    rw [index19_1_0, index19_1_0] at e0
    exact absurd e0 (by show t.val + 1 ≠ t.val; omega)

/-! ## The blocks at a point -/

/-- Entry (r, j) of point t's output block is entry (16 t + r, j) of the array. -/
theorem emb19_1 (t : Fin (cfg19 a).N) (r : Fin 16) (j : Fin 262) :
    (((cfg19 a).win 1).blk t).view.emb (ValueIdx.ix2 (n0 := 16) (n1 := 262) r j)
      = ValueIdx.ix2 (n0 := 50000) (n1 := 262) ⟨16 * t.val + r.val, idx_lt19 a t r⟩ j := by
  funext k; apply Fin.ext
  match k with
  | ⟨0, _⟩ => show ((cfg19 a).win 1).index t (0 : Fin 2) * 16 + 1 * r.val = 16 * t.val + r.val; rw [index19_1_0]; omega
  | ⟨1, _⟩ => show ((cfg19 a).win 1).index t (1 : Fin 2) * 262 + 1 * j.val = j.val; rw [index19_1_1]; omega

/-- The norm block at point t, row r, is the norm column's entry 16 t + r. -/
theorem nmBlk19_apply (c : Dev nD) (t : Fin (cfg19 a).N) (r : Fin 16) :
    nmBlk19 V a c t (ValueIdx.ix2 (n0 := 16) (n1 := 1) r 0)
      = nmArr19 V c (ValueIdx.ix2 (n0 := 50000) (n1 := 1) ⟨16 * t.val + r.val, idx_lt19 a t r⟩ 0) := by
  show V c main_v98 ((((cfg19 a).win 0).blk t).view.emb (ValueIdx.ix2 (n0 := 16) (n1 := 1) r 0)) = V c main_v98 (ValueIdx.ix2 (n0 := 50000) (n1 := 1) ⟨16 * t.val + r.val, idx_lt19 a t r⟩ 0)
  refine congrArg (V c main_v98) ?_
  funext k; apply Fin.ext
  match k with
  | ⟨0, _⟩ => show ((cfg19 a).win 0).index t (0 : Fin 2) * 16 + 1 * r.val = 16 * t.val + r.val; rw [index19_0_0]; omega
  | ⟨1, _⟩ => show ((cfg19 a).win 0).index t (1 : Fin 2) * 1 + 1 * 0 = 0; rw [index19_0_1]

/-- Entry (16 t + r, j) of the array is in point t's block. -/
theorem mem_blk19_1 (t : Fin (cfg19 a).N) (r : Fin 16) (j : Fin 262) :
    ValueIdx.ix2 (n0 := 50000) (n1 := 262) ⟨16 * t.val + r.val, idx_lt19 a t r⟩ j ∈ (((cfg19 a).win 1).blk t).view.set := by
  rw [← emb19_1]; exact View.emb_mem_set _ _

end Cert.KernelIdeal.Hand

end
-- ==== Proof.G19Pay.lean ====
/- The gather regions' payload at an index, at the ideal values: the scratch entry times the norm block's entry of the
   same row (layer 2: rows of 262; the norm column broadcast along the row). -/
import proofs.«414392_j7919919694132_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem

/-- A [16,1] column broadcast to [16,262], read at (r, j), is the column's entry r. -/
theorem bcast_col19_262 {α : Type} (v : S16x1.Idx → α) (r : Fin 16) (j : Fin 262) :
    broadcastTo S16x262 v broadcasts_S16x1_S16x262 (ValueIdx.ix2 (n0 := 16) (n1 := 262) r j) = v (ValueIdx.ix2 (n0 := 16) (n1 := 1) r 0) := by
  refine broadcastTo_apply v broadcasts_S16x1_S16x262 (ValueIdx.ix2 (n0 := 16) (n1 := 262) r j) (ValueIdx.ix2 (n0 := 16) (n1 := 1) r 0) fun ax => ?_
  match ax with
  | ⟨0, _⟩ => rfl
  | ⟨1, _⟩ => rfl

/-- The payload of pipeline 19's one store at (r, j): the scratch entry (r, j) times the norm block's entry r. -/
theorem pay19_apply (v192 : Vec Ideal S16x1 .f32) (v194 : Vec Ideal S16x262 .f32) (r : Fin 16) (j : Fin 262) :
    k19_pay1 (F := Ideal) v192 v194 (ValueIdx.ix2 (n0 := 16) (n1 := 262) r j)
      = v194 (ValueIdx.ix2 (n0 := 16) (n1 := 262) r j) * v192 (ValueIdx.ix2 (n0 := 16) (n1 := 1) r 0) := by
  unfold k19_pay1
  show v194 (ValueIdx.ix2 (n0 := 16) (n1 := 262) r j) * broadcastTo S16x262 (shapeCast S16x1 v192 shapeCasts_S16x1_S16x1) broadcasts_S16x1_S16x262 (ValueIdx.ix2 (n0 := 16) (n1 := 262) r j) = _
  exact congrArg (fun z => v194 (ValueIdx.ix2 (n0 := 16) (n1 := 262) r j) * z)
    ((bcast_col19_262 _ r j).trans (congrFun (shapeCast_self v192 shapeCasts_S16x1_S16x1) _))

end Cert.KernelIdeal.Hand

end
-- ==== Proof.G19Block.lean ====
/- Pipeline 19 at the ideal values: the block the body leaves at a point, entry by entry. -/
import proofs.«414392_j7919919694132_2_alg».proof.Proof.G19Idx
import Idealize.ShloMosaic.Lib.Pipeline.Value
import Idealize.ShloMosaic.Lib.ValueIdx
import Idealize.ShloMosaic.Lib.ValueLayout
import Idealize.ShloMosaic.PureOps.Ideal.Laws
import proofs.«414392_j7919919694132_2_alg».proof.Proof.G19Pay
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)
open Idealize.ShloMosaic.Tactic

-- the TensorCore's buffer contents when the region is entered, at the ideal values; the row table the region is launched with
variable (V : (c : Dev nD) → (b : Ref sig .tc) → Buf (Elt Ideal) ((c : Thread nD τ).loc b))
variable (a : (pcfg19 (F := Ideal)).Adm) (hH : ∀ j : Fin 50000, ((a.1 0) (ValueIdx.ix1 j)).toNat < 50000)

/-! ## Indices of a one-row slice -/

/-- A one-row index has leading coordinate 0. -/
theorem row0_19 (x : S1x262.Idx) : (x 0).val = 0 := by
  have h := (x 0).isLt
  have e : S1x262.size 0 = 1 := by decide
  omega

/-- The gathered array, read as a matrix of ideal values. -/
abbrev asArr19 (c : Dev nD) (fh0 : HbBuf19 (F := Ideal) c hbM19) : FVec Ideal S50000x262 .f32 := fh0

/-- The table's word at offset `16 i + k`, as the body reads it. -/
theorem word19 (c : Dev nD) (i : grid19.Coords) (tb : HbBuf19 (F := Ideal) c tbM19) (k : Fin 16) (hlt : 16 * (i 0).val + k.val < 50000)
    (off : Fin 1 → Nat) (hoff : off 0 = 16 * (i 0).val + k.val)
    (inb : ∀ a, off a + S1.size a ≤ S50000.size a) (h1 : 0 < S1.numel) :
    tbM19.view.readAt (Elt Ideal) (Rect.unit (s := S50000) off S1.size inb).toLoadRect tb (Shape.Idx.first h1)
      = tb (ValueIdx.ix1 (n := 50000) ⟨16 * (i 0).val + k.val, hlt⟩) := by
  show tb _ = tb _
  congr 1
  funext d
  apply Fin.ext
  fin_cases d
  show off 0 + 1 * (Shape.Idx.first h1 (0 : Fin 1)).val = 16 * (i 0).val + k.val
  have : (Shape.Idx.first h1 (0 : Fin 1)).val = 0 := by
    have := (Shape.Idx.first h1 (0 : Fin 1)).isLt
    have e : S1.size (0 : Fin 1) = 1 := by decide
    omega
  rw [this, hoff]; omega

/-- One transfer's payload: the row of the gathered array the word names. -/
theorem dma19_apply (c : Dev nD) (fh0 : HbBuf19 (F := Ideal) c hbM19) (w : BitVec 32) (hw : w.toNat < 50000) (off : Fin 2 → Nat) (hoff : off = ![w.toNat, 0])
    (inb : ∀ a, off a + S1x262.size a ≤ S50000x262.size a) (x : S1x262.Idx) :
    ReadAs.same.apply (View.read (Elt Ideal) (hbM19.slice (Rect.unit (s := S50000x262) off S1x262.size inb) (fun _ => rfl)).view fh0) x
      = asArr19 c fh0 (ValueIdx.ix2 (n0 := 50000) (n1 := 262) ⟨w.toNat, hw⟩ (x 1)) := by
  subst hoff
  show fh0 _ = fh0 _
  congr 1
  funext d
  apply Fin.ext
  fin_cases d
  · show w.toNat + 1 * (x 0).val = w.toNat
    rw [row0_19 x]; omega
  · show 0 + 1 * (x 1).val = (x 1).val
    omega

/-- The sixteen rows of the scratch, each the payload of its transfer. -/
def rows19 (p0 p1 p2 p3 p4 p5 p6 p7 p8 p9 p10 p11 p12 p13 p14 p15 : S1x262.Idx → Elt Ideal .f32) : List (View.Piece (Elt Ideal) S16x262 .f32) :=
  [⟨Rect.unit (s := S16x262) ![15, 0] S1x262.size inb_S16x262_S1x262_15_0, p15⟩,
    ⟨Rect.unit (s := S16x262) ![14, 0] S1x262.size inb_S16x262_S1x262_14_0, p14⟩,
    ⟨Rect.unit (s := S16x262) ![13, 0] S1x262.size inb_S16x262_S1x262_13_0, p13⟩,
    ⟨Rect.unit (s := S16x262) ![12, 0] S1x262.size inb_S16x262_S1x262_12_0, p12⟩,
    ⟨Rect.unit (s := S16x262) ![11, 0] S1x262.size inb_S16x262_S1x262_11_0, p11⟩,
    ⟨Rect.unit (s := S16x262) ![10, 0] S1x262.size inb_S16x262_S1x262_10_0, p10⟩,
    ⟨Rect.unit (s := S16x262) ![9, 0] S1x262.size inb_S16x262_S1x262_9_0, p9⟩,
    ⟨Rect.unit (s := S16x262) ![8, 0] S1x262.size inb_S16x262_S1x262_8_0, p8⟩,
    ⟨Rect.unit (s := S16x262) ![7, 0] S1x262.size inb_S16x262_S1x262_7_0, p7⟩,
    ⟨Rect.unit (s := S16x262) ![6, 0] S1x262.size inb_S16x262_S1x262_6_0, p6⟩,
    ⟨Rect.unit (s := S16x262) ![5, 0] S1x262.size inb_S16x262_S1x262_5_0, p5⟩,
    ⟨Rect.unit (s := S16x262) ![4, 0] S1x262.size inb_S16x262_S1x262_4_0, p4⟩,
    ⟨Rect.unit (s := S16x262) ![3, 0] S1x262.size inb_S16x262_S1x262_3_0, p3⟩,
    ⟨Rect.unit (s := S16x262) ![2, 0] S1x262.size inb_S16x262_S1x262_2_0, p2⟩,
    ⟨Rect.unit (s := S16x262) ![1, 0] S1x262.size inb_S16x262_S1x262_1_0, p1⟩,
    ⟨Rect.unit (s := S16x262) ![0, 0] S1x262.size inb_S16x262_S1x262_0_0, p0⟩]

theorem cover_rows19 (p0 p1 p2 p3 p4 p5 p6 p7 p8 p9 p10 p11 p12 p13 p14 p15 : S1x262.Idx → Elt Ideal .f32) (y : S16x262.Idx) : ∃ pc ∈ rows19 p0 p1 p2 p3 p4 p5 p6 p7 p8 p9 p10 p11 p12 p13 p14 p15, y ∈ pc.1.set :=
  View.cover_of_tiledL (rows19 p0 p1 p2 p3 p4 p5 p6 p7 p8 p9 p10 p11 p12 p13 p14 p15) S1x262.size (by sl_kernel_rfl) y

/-- A point's coordinate is below the grid's 3125 points, so the sixteen table offsets of the point are inside the table. -/
theorem idxlt19 (i : grid19.Coords) (k : Fin 16) : 16 * (i 0).val + k.val < 50000 := by
  have r_i0 : (i 0).val < 3125 := (i 0).isLt
  have := k.isLt; omega

/-- What the scratch holds once the sixteen transfers have landed, as one function of the block index: row r is the row
    of the gathered array that the table's word `16 i + r` names. -/
def gath19 (c : Dev nD) (i : grid19.Coords) (tb : HbBuf19 (F := Ideal) c tbM19) (fh0 : HbBuf19 (F := Ideal) c hbM19) (hT : ∀ x, (tb x).toNat < 50000) :
    S16x262.Idx → Elt Ideal .f32 :=
  fun y => asArr19 c fh0 (ValueIdx.ix2 (n0 := 50000) (n1 := 262) ⟨(tb (ValueIdx.ix1 (n := 50000) ⟨16 * (i 0).val + (y 0).val, idxlt19 i (y 0)⟩)).toNat, hT _⟩ (y 1))

/-- Row k's transfer delivers `gath19` at the row's indices. -/
theorem piece19 (c : Dev nD) (i : grid19.Coords) (tb : HbBuf19 (F := Ideal) c tbM19) (fh0 : HbBuf19 (F := Ideal) c hbM19) (hT : ∀ x, (tb x).toNat < 50000)
    (k : Fin 16) (w : BitVec 32) (hwd : w = tb (ValueIdx.ix1 (n := 50000) ⟨16 * (i 0).val + k.val, idxlt19 i k⟩))
    (off : Fin 2 → Nat) (hoff : off = ![w.toNat, 0]) (inb : ∀ a, off a + S1x262.size a ≤ S50000x262.size a)
    (inbk : ∀ a, (![k.val, 0] : Fin 2 → Nat) a + S1x262.size a ≤ S16x262.size a) (x : S1x262.Idx) :
    ReadAs.same.apply (View.read (Elt Ideal) (hbM19.slice (Rect.unit (s := S50000x262) off S1x262.size inb) (fun _ => rfl)).view fh0) x
      = gath19 c i tb fh0 hT ((Rect.unit (s := S16x262) ![k.val, 0] S1x262.size inbk).emb x) := by
  subst hwd
  rw [dma19_apply c fh0 _ (hT _) off hoff inb x]
  unfold gath19
  show asArr19 c fh0 _ = asArr19 c fh0 _
  congr 1
  funext d
  apply Fin.ext
  fin_cases d
  · show (tb _).toNat = (tb _).toNat
    congr 2
    funext e
    apply Fin.ext
    fin_cases e
    show 16 * (i 0).val + k.val = 16 * (i 0).val + (k.val + 1 * (x 0).val)
    rw [row0_19 x]; omega
  · show (x 1).val = 0 + 1 * (x 1).val
    omega

set_option maxHeartbeats 1000000 in
/-- The scratch, read whole after the sixteen waits, is `gath19`. -/
theorem scratch19_apply (c : Dev nD) (i : grid19.Coords) (tb : HbBuf19 (F := Ideal) c tbM19) (fh0 : HbBuf19 (F := Ideal) c hbM19) (hT : ∀ x, (tb x).toNat < 50000)
    (y : S16x262.Idx) :
    scM19.view.readCov (rows19
        (kernelRun19.sl.dma1 c i tb fh0 (chk19_1_of_lt _ (hT _)))
        (kernelRun19.sl.dma2 c i tb fh0 (chk19_2_of_lt _ (hT _)))
        (kernelRun19.sl.dma3 c i tb fh0 (chk19_3_of_lt _ (hT _)))
        (kernelRun19.sl.dma4 c i tb fh0 (chk19_4_of_lt _ (hT _)))
        (kernelRun19.sl.dma5 c i tb fh0 (chk19_5_of_lt _ (hT _)))
        (kernelRun19.sl.dma6 c i tb fh0 (chk19_6_of_lt _ (hT _)))
        (kernelRun19.sl.dma7 c i tb fh0 (chk19_7_of_lt _ (hT _)))
        (kernelRun19.sl.dma8 c i tb fh0 (chk19_8_of_lt _ (hT _)))
        (kernelRun19.sl.dma9 c i tb fh0 (chk19_9_of_lt _ (hT _)))
        (kernelRun19.sl.dma10 c i tb fh0 (chk19_10_of_lt _ (hT _)))
        (kernelRun19.sl.dma11 c i tb fh0 (chk19_11_of_lt _ (hT _)))
        (kernelRun19.sl.dma12 c i tb fh0 (chk19_12_of_lt _ (hT _)))
        (kernelRun19.sl.dma13 c i tb fh0 (chk19_13_of_lt _ (hT _)))
        (kernelRun19.sl.dma14 c i tb fh0 (chk19_14_of_lt _ (hT _)))
        (kernelRun19.sl.dma15 c i tb fh0 (chk19_15_of_lt _ (hT _)))
        (kernelRun19.sl.dma16 c i tb fh0 (chk19_16_of_lt _ (hT _)))) (Rect.unit (s := S16x262) ![0, 0] S16x262.size inb_S16x262_S16x262_0_0).toLoadRect y
      = gath19 c i tb fh0 hT y := by
  rw [View.readCov_eq_canon_ld _ _ _ (cover_rows19 _ _ _ _ _ _ _ _ _ _ _ _ _ _ _ _), View.ld_unit_zero (by funext d; fin_cases d <;> rfl)]
  refine View.canon_apply_of_pieces (gath19 c i tb fh0 hT) (rows19 _ _ _ _ _ _ _ _ _ _ _ _ _ _ _ _) ?_ y (cover_rows19 _ _ _ _ _ _ _ _ _ _ _ _ _ _ _ _ y)
  intro p hp x
  unfold rows19 at hp
  simp only [List.mem_cons, List.mem_nil_iff, or_false] at hp
  rcases hp with rfl | rfl | rfl | rfl | rfl | rfl | rfl | rfl | rfl | rfl | rfl | rfl | rfl | rfl | rfl | rfl
  · dsimp only
    unfold kernelRun19.sl.dma16
    exact piece19 c i tb fh0 hT (15 : Fin 16) (kernelRun19.sl.r_15 c i tb)
      (by unfold kernelRun19.sl.r_15; exact word19 c i tb (15 : Fin 16) (idxlt19 i _) _ (by rw [k19_off31_eq]; rfl) _ _) (k19_off32 (kernelRun19.sl.r_15 c i tb)) rfl _ _ x
  · dsimp only
    unfold kernelRun19.sl.dma15
    exact piece19 c i tb fh0 hT (14 : Fin 16) (kernelRun19.sl.r_14 c i tb)
      (by unfold kernelRun19.sl.r_14; exact word19 c i tb (14 : Fin 16) (idxlt19 i _) _ (by rw [k19_off29_eq]; rfl) _ _) (k19_off30 (kernelRun19.sl.r_14 c i tb)) rfl _ _ x
  · dsimp only
    unfold kernelRun19.sl.dma14
    exact piece19 c i tb fh0 hT (13 : Fin 16) (kernelRun19.sl.r_13 c i tb)
      (by unfold kernelRun19.sl.r_13; exact word19 c i tb (13 : Fin 16) (idxlt19 i _) _ (by rw [k19_off27_eq]; rfl) _ _) (k19_off28 (kernelRun19.sl.r_13 c i tb)) rfl _ _ x
  · dsimp only
    unfold kernelRun19.sl.dma13
    exact piece19 c i tb fh0 hT (12 : Fin 16) (kernelRun19.sl.r_12 c i tb)
      (by unfold kernelRun19.sl.r_12; exact word19 c i tb (12 : Fin 16) (idxlt19 i _) _ (by rw [k19_off25_eq]; rfl) _ _) (k19_off26 (kernelRun19.sl.r_12 c i tb)) rfl _ _ x
  · dsimp only
    unfold kernelRun19.sl.dma12
    exact piece19 c i tb fh0 hT (11 : Fin 16) (kernelRun19.sl.r_11 c i tb)
      (by unfold kernelRun19.sl.r_11; exact word19 c i tb (11 : Fin 16) (idxlt19 i _) _ (by rw [k19_off23_eq]; rfl) _ _) (k19_off24 (kernelRun19.sl.r_11 c i tb)) rfl _ _ x
  · dsimp only
    unfold kernelRun19.sl.dma11
    exact piece19 c i tb fh0 hT (10 : Fin 16) (kernelRun19.sl.r_10 c i tb)
      (by unfold kernelRun19.sl.r_10; exact word19 c i tb (10 : Fin 16) (idxlt19 i _) _ (by rw [k19_off21_eq]; rfl) _ _) (k19_off22 (kernelRun19.sl.r_10 c i tb)) rfl _ _ x
  · dsimp only
    unfold kernelRun19.sl.dma10
    exact piece19 c i tb fh0 hT (9 : Fin 16) (kernelRun19.sl.r_9 c i tb)
      (by unfold kernelRun19.sl.r_9; exact word19 c i tb (9 : Fin 16) (idxlt19 i _) _ (by rw [k19_off19_eq]; rfl) _ _) (k19_off20 (kernelRun19.sl.r_9 c i tb)) rfl _ _ x
  · dsimp only
    unfold kernelRun19.sl.dma9
    exact piece19 c i tb fh0 hT (8 : Fin 16) (kernelRun19.sl.r_8 c i tb)
      (by unfold kernelRun19.sl.r_8; exact word19 c i tb (8 : Fin 16) (idxlt19 i _) _ (by rw [k19_off17_eq]; rfl) _ _) (k19_off18 (kernelRun19.sl.r_8 c i tb)) rfl _ _ x
  · dsimp only
    unfold kernelRun19.sl.dma8
    exact piece19 c i tb fh0 hT (7 : Fin 16) (kernelRun19.sl.r_7 c i tb)
      (by unfold kernelRun19.sl.r_7; exact word19 c i tb (7 : Fin 16) (idxlt19 i _) _ (by rw [k19_off15_eq]; rfl) _ _) (k19_off16 (kernelRun19.sl.r_7 c i tb)) rfl _ _ x
  · dsimp only
    unfold kernelRun19.sl.dma7
    exact piece19 c i tb fh0 hT (6 : Fin 16) (kernelRun19.sl.r_6 c i tb)
      (by unfold kernelRun19.sl.r_6; exact word19 c i tb (6 : Fin 16) (idxlt19 i _) _ (by rw [k19_off13_eq]; rfl) _ _) (k19_off14 (kernelRun19.sl.r_6 c i tb)) rfl _ _ x
  · dsimp only
    unfold kernelRun19.sl.dma6
    exact piece19 c i tb fh0 hT (5 : Fin 16) (kernelRun19.sl.r_5 c i tb)
      (by unfold kernelRun19.sl.r_5; exact word19 c i tb (5 : Fin 16) (idxlt19 i _) _ (by rw [k19_off11_eq]; rfl) _ _) (k19_off12 (kernelRun19.sl.r_5 c i tb)) rfl _ _ x
  · dsimp only
    unfold kernelRun19.sl.dma5
    exact piece19 c i tb fh0 hT (4 : Fin 16) (kernelRun19.sl.r_4 c i tb)
      (by unfold kernelRun19.sl.r_4; exact word19 c i tb (4 : Fin 16) (idxlt19 i _) _ (by rw [k19_off9_eq]; rfl) _ _) (k19_off10 (kernelRun19.sl.r_4 c i tb)) rfl _ _ x
  · dsimp only
    unfold kernelRun19.sl.dma4
    exact piece19 c i tb fh0 hT (3 : Fin 16) (kernelRun19.sl.r_3 c i tb)
      (by unfold kernelRun19.sl.r_3; exact word19 c i tb (3 : Fin 16) (idxlt19 i _) _ (by rw [k19_off7_eq]; rfl) _ _) (k19_off8 (kernelRun19.sl.r_3 c i tb)) rfl _ _ x
  · dsimp only
    unfold kernelRun19.sl.dma3
    exact piece19 c i tb fh0 hT (2 : Fin 16) (kernelRun19.sl.r_2 c i tb)
      (by unfold kernelRun19.sl.r_2; exact word19 c i tb (2 : Fin 16) (idxlt19 i _) _ (by rw [k19_off5_eq]; rfl) _ _) (k19_off6 (kernelRun19.sl.r_2 c i tb)) rfl _ _ x
  · dsimp only
    unfold kernelRun19.sl.dma2
    exact piece19 c i tb fh0 hT (1 : Fin 16) (kernelRun19.sl.r_1 c i tb)
      (by unfold kernelRun19.sl.r_1; exact word19 c i tb (1 : Fin 16) (idxlt19 i _) _ (by rw [k19_off3_eq]; rfl) _ _) (k19_off4 (kernelRun19.sl.r_1 c i tb)) rfl _ _ x
  · dsimp only
    unfold kernelRun19.sl.dma1
    exact piece19 c i tb fh0 hT (0 : Fin 16) (kernelRun19.sl.r c i tb)
      (by unfold kernelRun19.sl.r; exact word19 c i tb (0 : Fin 16) (idxlt19 i _) _ (by rw [k19_off1_eq]; rfl) _ _) (k19_off2 (kernelRun19.sl.r c i tb)) rfl _ _ x

/-- THE BLOCK the body leaves, over any staging memrefs and contents: row r is the row of the gathered array the table's
    word `16 i + r` names, times the norm block's entry r. -/
theorem out19_1_apply (c : Dev nD) (i : grid19.Coords) (arg3 : Memref sig .tc .vmem S16x1 .f32) (harg3 : arg3.IsWhole) (arg4 : Memref sig .tc .vmem S16x262 .f32) (harg4 : arg4.IsWhole)
    (x0 : Vec Ideal S16x1 .f32) (tb : HbBuf19 (F := Ideal) c tbM19) (fh0 : HbBuf19 (F := Ideal) c hbM19) (hT : ∀ x, (tb x).toNat < 50000) (r : Fin 16) (j : Fin 262) :
    out19_1 c i arg3 harg3 arg4 harg4 x0 tb fh0 hT (ValueIdx.ix2 (n0 := 16) (n1 := 262) r j)
      = gath19 c i tb fh0 hT (ValueIdx.ix2 (n0 := 16) (n1 := 262) r j) * x0 (ValueIdx.ix2 (n0 := 16) (n1 := 1) r 0) := by
  unfold out19_1
  rw [View.read_writes_eq_canon _ _ _ (cover19_1 c i arg3 harg3 arg4 harg4 x0 tb fh0 hT)]
  unfold kernelRun19
  dsimp only
  rw [View.canon_unit_zero (by funext d; fin_cases d <;> rfl)]
  rw [pay19_apply]
  congr 1
  · unfold kernelRun19.sl.v194
    exact scratch19_apply c i tb fh0 hT _
  · rw [View.readAt_eq_ld, Memref.IsWhole.read_unread, View.ld_unit_zero (by funext d; fin_cases d <;> rfl)]

/-- THE BLOCK the body leaves at point t: row r is the row of the source array the table's word 16 t + r names, times the
    norm block's entry r. -/
theorem outsAt19_apply (c : Dev nD) (t : Fin (cfg19 a).N) (r : Fin 16) (j : Fin 262) :
    outsAt19 V a hH c t (ValueIdx.ix2 (n0 := 16) (n1 := 262) r j)
      = hbArr19 V c (ValueIdx.ix2 (n0 := 50000) (n1 := 262) ⟨((a.1 0) (ValueIdx.ix1 (n := 50000) ⟨16 * t.val + r.val, idx_lt19 a t r⟩)).toNat, hH _⟩ j)
          * nmBlk19 V a c t (ValueIdx.ix2 (n0 := 16) (n1 := 1) r 0) := by
  unfold outsAt19
  refine (out19_1_apply c (grid19.coords t) _ _ _ _ (nmBlk19 V a c t) (a.1 0) (hbArr19 V c) (tbl_lt19 a hH c) r j).trans ?_
  congr 1
  unfold gath19
  show hbArr19 V c _ = hbArr19 V c _
  congr 1
  funext d
  apply Fin.ext
  fin_cases d
  · exact congrArg (fun n : Fin 50000 => ((a.1 0) (ValueIdx.ix1 (n := 50000) n)).toNat)
      (Fin.ext (by show 16 * (grid19.coords t 0).val + r.val = 16 * t.val + r.val; rw [coords19_val a t]))
  · rfl

end Cert.KernelIdeal.Hand

end
-- ==== Proof.G19Value.lean ====
/- Pipeline 19 at the ideal values: the output array after the region is the gathered and scaled array (row e: the row of
   the source array named by the table's word e, times the norm column's entry e). -/
import proofs.«414392_j7919919694132_2_alg».proof.Proof.G19Block
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat Window)

-- the TensorCore's buffer contents when the region is entered, at the ideal values; the row table the region is launched with
variable (V : (c : Dev nD) → (b : Ref sig .tc) → Buf (Elt Ideal) ((c : Thread nD τ).loc b))
variable (a : (pcfg19 (F := Ideal)).Adm) (hH : ∀ j : Fin 50000, ((a.1 0) (ValueIdx.ix1 j)).toNat < 50000)

/-! ## From blocks to the array -/

/-- What point t writes back is block t of the gathered and scaled array. -/
theorem flushed19_1_eq (c : Dev nD) (t : Fin (cfg19 a).N) :
    (dat19 (F := Ideal) V a hH c).flushed 1 t = (((cfg19 a).win 1).blk t).view.read (Elt Ideal) (G19v V a hH c) := by
  show ((cfg19 a).win 1).cut (grid19.coords t) ((dat19 V a hH c).after 1 t) = _
  rw [after19_1]
  refine funext fun (y : S16x262.Idx) => ?_
  obtain ⟨r, j, rfl⟩ : ∃ (r : Fin 16) (j : Fin 262), y = ValueIdx.ix2 r j := ⟨y 0, y 1, ValueIdx.eq_ix2 y⟩
  show outsAt19 V a hH c t (ValueIdx.ix2 (n0 := 16) (n1 := 262) r j) = G19v V a hH c ((((cfg19 a).win 1).blk t).view.emb (ValueIdx.ix2 (n0 := 16) (n1 := 262) r j))
  rw [emb19_1, outsAt19_apply V a hH c t r j, nmBlk19_apply V a c t r]

/-- Every index of the array is in some point's block: row e is in block e / 16. -/
theorem cover19_blk (i : S50000x262.Idx) :
    ∃ t : Fin (cfg19 a).N, ((cfg19 a).win 1).flush t = true ∧ i ∈ (((cfg19 a).win 1).blk t).view.set := by
  have hi0 : (i 0).val < 50000 := (i 0).isLt
  have hi1 : (i 1).val < 262 := (i 1).isLt
  have hq : (i 0).val / 16 < (cfg19 a).N := by rw [N19_eq a]; omega
  have hr : (i 0).val % 16 < 16 := Nat.mod_lt _ (by omega)
  obtain ⟨t, ht⟩ : ∃ t : Fin (cfg19 a).N, t.val = (i 0).val / 16 := ⟨⟨(i 0).val / 16, hq⟩, rfl⟩
  refine ⟨t, flush19_1 a t, ?_⟩
  have e : i = ValueIdx.ix2 (n0 := 50000) (n1 := 262) ⟨16 * t.val + (i 0).val % 16, idx_lt19 a t ⟨(i 0).val % 16, hr⟩⟩ ⟨(i 1).val, hi1⟩ := by
    funext k; apply Fin.ext
    match k with
    | ⟨0, _⟩ => show (i 0).val = 16 * t.val + (i 0).val % 16; omega
    | ⟨1, _⟩ => rfl
  rw [e]
  exact mem_blk19_1 a t ⟨(i 0).val % 16, hr⟩ ⟨(i 1).val, hi1⟩

/-- The output array after the region is the gathered and scaled array, -/
theorem arrAt19_1_eq (c : Dev nD) : (dat19 (F := Ideal) V a hH c).arrAt 1 (cfg19 a).N = G19v V a hH c :=
  (dat19 (F := Ideal) V a hH c).arrAt_eq_of_cover 1 (G19v V a hH c) (fun t _ => flushed19_1_eq V a hH c t) (cover19_blk a)

/-- index by index: entry (e, j) is the source array's entry (the table's word e, j) times the norm column's entry e. -/
theorem arrAt19_1 (c : Dev nD) (e : Fin 50000) (j : Fin 262) :
    (dat19 (F := Ideal) V a hH c).arrAt 1 (cfg19 a).N (ValueIdx.ix2 (n0 := 50000) (n1 := 262) e j)
      = hbArr19 V c (ValueIdx.ix2 (n0 := 50000) (n1 := 262) ⟨((a.1 0) (ValueIdx.ix1 (n := 50000) e)).toNat, hH e⟩ j)
          * nmArr19 V c (ValueIdx.ix2 (n0 := 50000) (n1 := 1) e 0) :=
  (congrFun (arrAt19_1_eq V a hH c) (ValueIdx.ix2 (n0 := 50000) (n1 := 262) e j)).trans rfl

end Cert.KernelIdeal.Hand

end
-- ==== Proof.Bridge.lean ====
/-
  THE KERNEL'S RESULT IS THE REFERENCE'S.

    * concat9_512 / concat9_262: nine blocks of 50000 rows laid end to end, read at (e, j): block e / 50000 at
      (e mod 50000, j).
    * layer1_bridge / layer2_bridge: when block e / 50000 holds at (e mod 50000, j) the product xw[row e, j] · norm e,
      the kernel's tail of a layer is the reference's aggregation of the messages plus the bias (clamped, for layer 1).
    * slice1_at / slice2_col_at: a 50000-word window of a vector, and of a vector laid as a column, read at a word.
    * piece_at: a gather region's output, given what the region computes from its table, its row source and its
      coefficient column, in terms of the whole row vector and the whole coefficient vector.
    * kernel_eq_ref_of_values: the program's result is the reference's, from what each gather region computes.
    * kernel_eq_ref: the program's result is the reference's.
-/
import proofs.«414392_j7919919694132_2_alg».proof.Proof.KernelValue
import proofs.«414392_j7919919694132_2_alg».proof.Proof.RefValue
import proofs.«414392_j7919919694132_2_alg».proof.Proof.RefApply
import proofs.«414392_j7919919694132_2_alg».proof.Proof.NormAt
import proofs.«414392_j7919919694132_2_alg».proof.Proof.TableAt
import proofs.«414392_j7919919694132_2_alg».proof.Proof.Mat0Value
import proofs.«414392_j7919919694132_2_alg».proof.Proof.Mat10Value
import proofs.«414392_j7919919694132_2_alg».proof.Proof.NormEq
import proofs.«414392_j7919919694132_2_alg».proof.Proof.G1Value
import proofs.«414392_j7919919694132_2_alg».proof.Proof.G2Value
import proofs.«414392_j7919919694132_2_alg».proof.Proof.G3Value
import proofs.«414392_j7919919694132_2_alg».proof.Proof.G4Value
import proofs.«414392_j7919919694132_2_alg».proof.Proof.G5Value
import proofs.«414392_j7919919694132_2_alg».proof.Proof.G6Value
import proofs.«414392_j7919919694132_2_alg».proof.Proof.G7Value
import proofs.«414392_j7919919694132_2_alg».proof.Proof.G8Value
import proofs.«414392_j7919919694132_2_alg».proof.Proof.G9Value
import proofs.«414392_j7919919694132_2_alg».proof.Proof.G11Value
import proofs.«414392_j7919919694132_2_alg».proof.Proof.G12Value
import proofs.«414392_j7919919694132_2_alg».proof.Proof.G13Value
import proofs.«414392_j7919919694132_2_alg».proof.Proof.G14Value
import proofs.«414392_j7919919694132_2_alg».proof.Proof.G15Value
import proofs.«414392_j7919919694132_2_alg».proof.Proof.G16Value
import proofs.«414392_j7919919694132_2_alg».proof.Proof.G17Value
import proofs.«414392_j7919919694132_2_alg».proof.Proof.G18Value
import proofs.«414392_j7919919694132_2_alg».proof.Proof.G19Value
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.ReferenceIdeal.RefValue (msg1 agg1 bias1 relu1 msg2 agg2 bias2 msg1_apply msg2_apply xw1 xw2 xw1_apply xw2_apply
  layer1R layer2R refResult rowN colV normV)

/-! ## Nine pieces laid end to end, read at one element -/

/-- Element (e, j) of nine blocks of 50000 rows laid end to end is element (e mod 50000, j) of block e / 50000. -/
theorem concat9_512 {α : Type} (u : Fin 9 → (S50000x512.Idx → α)) (e : Fin 450000) (j : Fin 512) :
    concatenate S450000x512 0 [⟨S50000x512, u 0⟩, ⟨S50000x512, u 1⟩, ⟨S50000x512, u 2⟩, ⟨S50000x512, u 3⟩, ⟨S50000x512, u 4⟩, ⟨S50000x512, u 5⟩, ⟨S50000x512, u 6⟩, ⟨S50000x512, u 7⟩, ⟨S50000x512, u 8⟩] concatenates_S50000x512_S50000x512_S50000x512_S50000x512_S50000x512_S50000x512_S50000x512_S50000x512_S50000x512_S450000x512_d0 (ValueIdx.ix2 e j)
      = u ⟨e.val / 50000, by have := e.isLt; omega⟩ (ValueIdx.ix2 ⟨e.val % 50000, Nat.mod_lt _ (by decide)⟩ j) := by
  have h := concatenate_ofFn_apply (α := α) (t := S450000x512) (s₁ := S50000x512) 0 u concatenates_S50000x512_S50000x512_S50000x512_S50000x512_S50000x512_S50000x512_S50000x512_S50000x512_S50000x512_S450000x512_d0 rfl 50000 rfl (ValueIdx.ix2 e j)
    ⟨e.val / 50000, by have := e.isLt; omega⟩ rfl (ValueIdx.ix2 ⟨e.val % 50000, Nat.mod_lt _ (by decide)⟩ j) rfl (fun b hb => by
      match b, hb with
      | ⟨0, _⟩, hb => exact absurd rfl hb
      | ⟨1, _⟩, _ => rfl)
  exact h

theorem concat9_262 {α : Type} (u : Fin 9 → (S50000x262.Idx → α)) (e : Fin 450000) (j : Fin 262) :
    concatenate S450000x262 0 [⟨S50000x262, u 0⟩, ⟨S50000x262, u 1⟩, ⟨S50000x262, u 2⟩, ⟨S50000x262, u 3⟩, ⟨S50000x262, u 4⟩, ⟨S50000x262, u 5⟩, ⟨S50000x262, u 6⟩, ⟨S50000x262, u 7⟩, ⟨S50000x262, u 8⟩] concatenates_S50000x262_S50000x262_S50000x262_S50000x262_S50000x262_S50000x262_S50000x262_S50000x262_S50000x262_S450000x262_d0 (ValueIdx.ix2 e j)
      = u ⟨e.val / 50000, by have := e.isLt; omega⟩ (ValueIdx.ix2 ⟨e.val % 50000, Nat.mod_lt _ (by decide)⟩ j) := by
  have h := concatenate_ofFn_apply (α := α) (t := S450000x262) (s₁ := S50000x262) 0 u concatenates_S50000x262_S50000x262_S50000x262_S50000x262_S50000x262_S50000x262_S50000x262_S50000x262_S50000x262_S450000x262_d0 rfl 50000 rfl (ValueIdx.ix2 e j)
    ⟨e.val / 50000, by have := e.isLt; omega⟩ rfl (ValueIdx.ix2 ⟨e.val % 50000, Nat.mod_lt _ (by decide)⟩ j) rfl (fun b hb => by
      match b, hb with
      | ⟨0, _⟩, hb => exact absurd rfl hb
      | ⟨1, _⟩, _ => rfl)
  exact h

/-! ## A tail of gathered pieces is the reference's layer -/

set_option maxHeartbeats 1000000 in
/-- Layer 1: when piece e / 50000 holds at (e mod 50000, j) the product xw[row e, j] · norm e, the tail is the reference's
    aggregation of the messages, plus the bias, clamped below at zero. -/
theorem layer1_bridge (col : IVec S450000 32) (u : Fin 9 → FVec Ideal S50000x512 .f32) (b1 : FVec Ideal S512 .f32)
    (xw : FVec Ideal S50000x512 .f32) (row : IVec S450000 32) (norm : FVec Ideal S450000 .f32)
    (hrow : ∀ e : Fin 450000, (row (ValueIdx.ix1 e)).toNat < 50000)
    (hu : ∀ (e : Fin 450000) (j : Fin 512),
      u ⟨e.val / 50000, by have := e.isLt; omega⟩ (ValueIdx.ix2 ⟨e.val % 50000, Nat.mod_lt _ (by decide)⟩ j)
        = xw (ValueIdx.ix2 ⟨(row (ValueIdx.ix1 e)).toNat, hrow e⟩ j) * norm (ValueIdx.ix1 e)) :
    layer1Tail (F := Ideal) col u b1 = relu1 (F := Ideal) (bias1 (F := Ideal) (agg1 (F := Ideal) col (msg1 (F := Ideal) xw row norm)) b1) := by
  have hc : concatenate S450000x512 0 [⟨S50000x512, u 0⟩, ⟨S50000x512, u 1⟩, ⟨S50000x512, u 2⟩, ⟨S50000x512, u 3⟩, ⟨S50000x512, u 4⟩, ⟨S50000x512, u 5⟩, ⟨S50000x512, u 6⟩, ⟨S50000x512, u 7⟩, ⟨S50000x512, u 8⟩] concatenates_S50000x512_S50000x512_S50000x512_S50000x512_S50000x512_S50000x512_S50000x512_S50000x512_S50000x512_S450000x512_d0 = msg1 (F := Ideal) xw row norm := by
    funext i
    obtain ⟨e, j, rfl⟩ : ∃ (e : Fin 450000) (j : Fin 512), i = ValueIdx.ix2 e j := ⟨i 0, i 1, ValueIdx.eq_ix2 i⟩
    rw [concat9_512 u e j, msg1_apply xw row norm e j (hrow e), hu e j, mul_comm]
  unfold layer1Tail
  rw [hc]
  rfl

set_option maxHeartbeats 1000000 in
/-- Layer 2: the same, without the clamp. -/
theorem layer2_bridge (col : IVec S450000 32) (u : Fin 9 → FVec Ideal S50000x262 .f32) (b2 : FVec Ideal S262 .f32)
    (xw : FVec Ideal S50000x262 .f32) (row : IVec S450000 32) (norm : FVec Ideal S450000 .f32)
    (hrow : ∀ e : Fin 450000, (row (ValueIdx.ix1 e)).toNat < 50000)
    (hu : ∀ (e : Fin 450000) (j : Fin 262),
      u ⟨e.val / 50000, by have := e.isLt; omega⟩ (ValueIdx.ix2 ⟨e.val % 50000, Nat.mod_lt _ (by decide)⟩ j)
        = xw (ValueIdx.ix2 ⟨(row (ValueIdx.ix1 e)).toNat, hrow e⟩ j) * norm (ValueIdx.ix1 e)) :
    layer2Tail (F := Ideal) col u b2 = bias2 (F := Ideal) (agg2 (F := Ideal) col (msg2 (F := Ideal) xw row norm)) b2 := by
  have hc : concatenate S450000x262 0 [⟨S50000x262, u 0⟩, ⟨S50000x262, u 1⟩, ⟨S50000x262, u 2⟩, ⟨S50000x262, u 3⟩, ⟨S50000x262, u 4⟩, ⟨S50000x262, u 5⟩, ⟨S50000x262, u 6⟩, ⟨S50000x262, u 7⟩, ⟨S50000x262, u 8⟩] concatenates_S50000x262_S50000x262_S50000x262_S50000x262_S50000x262_S50000x262_S50000x262_S50000x262_S50000x262_S450000x262_d0 = msg2 (F := Ideal) xw row norm := by
    funext i
    obtain ⟨e, j, rfl⟩ : ∃ (e : Fin 450000) (j : Fin 262), i = ValueIdx.ix2 e j := ⟨i 0, i 1, ValueIdx.eq_ix2 i⟩
    rw [concat9_262 u e j, msg2_apply xw row norm e j (hrow e), hu e j, mul_comm]
  unfold layer2Tail
  rw [hc]
  rfl

/-- Layer 1's bridge with the kernel's target vector, product, row vector and coefficients named by what they equal. -/
theorem layer1_bridge' (col col' : IVec S450000 32) (u : Fin 9 → FVec Ideal S50000x512 .f32) (b1 : FVec Ideal S512 .f32)
    (xw xw' : FVec Ideal S50000x512 .f32) (row row' : IVec S450000 32) (norm norm' : FVec Ideal S450000 .f32)
    (hc : col = col') (hx : xw = xw') (hr : row = row') (hn : norm = norm')
    (hrow : ∀ e : Fin 450000, (row (ValueIdx.ix1 e)).toNat < 50000)
    (hu : ∀ (e : Fin 450000) (j : Fin 512),
      u ⟨e.val / 50000, by have := e.isLt; omega⟩ (ValueIdx.ix2 ⟨e.val % 50000, Nat.mod_lt _ (by decide)⟩ j)
        = xw (ValueIdx.ix2 ⟨(row (ValueIdx.ix1 e)).toNat, hrow e⟩ j) * norm (ValueIdx.ix1 e)) :
    layer1Tail (F := Ideal) col u b1 = relu1 (F := Ideal) (bias1 (F := Ideal) (agg1 (F := Ideal) col' (msg1 (F := Ideal) xw' row' norm')) b1) := by
  subst hc hx hr hn
  exact layer1_bridge col u b1 xw row norm hrow hu

theorem layer2_bridge' (col col' : IVec S450000 32) (u : Fin 9 → FVec Ideal S50000x262 .f32) (b2 : FVec Ideal S262 .f32)
    (xw xw' : FVec Ideal S50000x262 .f32) (row row' : IVec S450000 32) (norm norm' : FVec Ideal S450000 .f32)
    (hc : col = col') (hx : xw = xw') (hr : row = row') (hn : norm = norm')
    (hrow : ∀ e : Fin 450000, (row (ValueIdx.ix1 e)).toNat < 50000)
    (hu : ∀ (e : Fin 450000) (j : Fin 262),
      u ⟨e.val / 50000, by have := e.isLt; omega⟩ (ValueIdx.ix2 ⟨e.val % 50000, Nat.mod_lt _ (by decide)⟩ j)
        = xw (ValueIdx.ix2 ⟨(row (ValueIdx.ix1 e)).toNat, hrow e⟩ j) * norm (ValueIdx.ix1 e)) :
    layer2Tail (F := Ideal) col u b2 = bias2 (F := Ideal) (agg2 (F := Ideal) col' (msg2 (F := Ideal) xw' row' norm')) b2 := by
  subst hc hx hr hn
  exact layer2_bridge col u b2 xw row norm hrow hu

/-! ## Windows of the row vector and of the coefficient column -/

/-- Word e' of the 50000-word window at offset off is word off + e' of the vector. -/
theorem slice1_at {α : Type} (x : S450000.Idx → α) (off : Nat) (h : S450000.Slices ![off] S50000) (e' : Fin 50000)
    (hlt : off + e'.val < 450000) :
    extractStridedSlice S50000 ![off] x h (ValueIdx.ix1 e') = x (ValueIdx.ix1 ⟨off + e'.val, hlt⟩) :=
  extractStridedSlice_apply ![off] x h (ValueIdx.ix1 e') (ValueIdx.ix1 ⟨off + e'.val, hlt⟩)
    (fun a => match a with | ⟨0, _⟩ => rfl)

/-- The same for the vector laid as a column: row e' of the 50000-row window at offset off is word off + e'. -/
theorem slice2_col_at {α : Type} (x : S450000.Idx → α) (off : Nat) (h : S450000x1.Slices ![off, 0] S50000x1) (e' : Fin 50000)
    (hlt : off + e'.val < 450000) :
    extractStridedSlice S50000x1 ![off, 0] (shapeCast S450000x1 x shapeCasts_S450000_S450000x1) h (ValueIdx.ix2 e' (0 : Fin 1))
      = x (ValueIdx.ix1 ⟨off + e'.val, hlt⟩) := by
  rw [extractStridedSlice_apply ![off, 0] (shapeCast S450000x1 x shapeCasts_S450000_S450000x1) h (ValueIdx.ix2 e' (0 : Fin 1))
    (ValueIdx.ix2 (⟨off + e'.val, hlt⟩ : Fin 450000) (0 : Fin 1)) (fun a => match a with | ⟨0, _⟩ => rfl | ⟨1, _⟩ => rfl)]
  refine shapeCast_apply x shapeCasts_S450000_S450000x1 _ (ValueIdx.ix1 ⟨off + e'.val, hlt⟩) ?_
  rw [Shape.rowMajor_val_one, Shape.rowMajor_val_two]
  show off + e'.val = (off + e'.val) * 1 + 0
  omega

/-! ## One gather region's output against the whole row vector and coefficient vector -/

/-- What a gather region's value lemma says of its output P: at (e, j) the row of the source xwV that word e of the
    table names, at lane j, times the coefficient column at row e. -/
abbrev ValAt {D : Nat} (P xwV : FVec Ideal ⟨2, ![50000, D]⟩ .f32) (tbl : IVec S50000 32)
    (hH : ∀ j : Fin 50000, (tbl (ValueIdx.ix1 j)).toNat < 50000) (nrm : FVec Ideal S50000x1 .f32) : Prop :=
  ∀ (e : Fin 50000) (j : Fin D), P (ValueIdx.ix2 e j) = xwV (ValueIdx.ix2 ⟨(tbl (ValueIdx.ix1 e)).toNat, hH e⟩ j) * nrm (ValueIdx.ix2 e (0 : Fin 1))

/-- A region whose table is the window at off of the row vector and whose coefficient column is the window at off
    of the coefficient vector: its output at (e', j) is xw[row (off + e'), j] · norm (off + e'). -/
theorem piece_at {D : Nat} (P xwV xwV' : FVec Ideal ⟨2, ![50000, D]⟩ .f32) (tbl : IVec S50000 32) (nrm : FVec Ideal S50000x1 .f32)
    (hH : ∀ j : Fin 50000, (tbl (ValueIdx.ix1 j)).toNat < 50000)
    (hval : ValAt P xwV tbl hH nrm) (hx : xwV = xwV')
    (off : Nat) (hs : S450000.Slices ![off] S50000) (hs' : S450000x1.Slices ![off, 0] S50000x1)
    (row : IVec S450000 32) (normv : FVec Ideal S450000 .f32)
    (htbl : tbl = extractStridedSlice S50000 ![off] row hs)
    (hn : nrm = extractStridedSlice S50000x1 ![off, 0] (shapeCast S450000x1 normv shapeCasts_S450000_S450000x1) hs')
    (hrow : ∀ e : Fin 450000, (row (ValueIdx.ix1 e)).toNat < 50000)
    (e' : Fin 50000) (j : Fin D) (hlt : off + e'.val < 450000) :
    P (ValueIdx.ix2 e' j) = xwV' (ValueIdx.ix2 ⟨(row (ValueIdx.ix1 ⟨off + e'.val, hlt⟩)).toNat, hrow _⟩ j) * normv (ValueIdx.ix1 ⟨off + e'.val, hlt⟩) := by
  subst hx
  have ht : tbl (ValueIdx.ix1 e') = row (ValueIdx.ix1 ⟨off + e'.val, hlt⟩) := by rw [htbl]; exact slice1_at row off hs e' hlt
  have hnn : nrm (ValueIdx.ix2 e' (0 : Fin 1)) = normv (ValueIdx.ix1 ⟨off + e'.val, hlt⟩) := by rw [hn]; exact slice2_col_at normv off hs' e' hlt
  have hf : (⟨(tbl (ValueIdx.ix1 e')).toNat, hH e'⟩ : Fin 50000) = ⟨(row (ValueIdx.ix1 ⟨off + e'.val, hlt⟩)).toNat, hrow _⟩ :=
    Fin.ext (show (tbl (ValueIdx.ix1 e')).toNat = (row (ValueIdx.ix1 ⟨off + e'.val, hlt⟩)).toNat from congrArg BitVec.toNat ht)
  rw [hval e' j, hf, hnn]

/-- Nine pieces, each known at (e', j) against edge 50000 k + e', read at the edge's own block and offset. -/
theorem e_form {α : Type} {D : Nat} (u : Fin 9 → ((⟨2, ![50000, D]⟩ : Shape).Idx → α)) (f : Fin 450000 → Fin D → α)
    (h : ∀ (k : Fin 9) (e' : Fin 50000) (j : Fin D) (hlt : 50000 * k.val + e'.val < 450000),
      u k (ValueIdx.ix2 e' j) = f ⟨50000 * k.val + e'.val, hlt⟩ j)
    (e : Fin 450000) (j : Fin D) :
    u ⟨e.val / 50000, by have := e.isLt; omega⟩ (ValueIdx.ix2 ⟨e.val % 50000, Nat.mod_lt _ (by decide)⟩ j) = f e j := by
  have hlt : 50000 * (e.val / 50000) + e.val % 50000 < 450000 := by rw [Nat.div_add_mod]; exact e.isLt
  rw [h ⟨e.val / 50000, by have := e.isLt; omega⟩ ⟨e.val % 50000, Nat.mod_lt _ (by decide)⟩ j hlt]
  exact congrArg (fun x => f x j) (Fin.ext (Nat.div_add_mod e.val 50000))

/-! ## The two products -/

/-- The first product, index by index, is the reference's x · W. -/
theorem G0_eq (x : FVec Ideal S50000x262 .f32) (W : FVec Ideal S262x512 .f32) : G0 x W = xw1 (F := Ideal) x W := by
  funext i
  obtain ⟨a, b, rfl⟩ : ∃ (a : Fin 50000) (b : Fin 512), i = ValueIdx.ix2 a b := ⟨i 0, i 1, ValueIdx.eq_ix2 i⟩
  exact (xw1_apply x W a b).symm

/-- The second product, index by index, is the reference's h · W. -/
theorem G10_eq (x : FVec Ideal S50000x512 .f32) (W : FVec Ideal S512x262 .f32) : G10 x W = xw2 (F := Ideal) x W := by
  funext i
  obtain ⟨a, b, rfl⟩ : ∃ (a : Fin 50000) (b : Fin 262), i = ValueIdx.ix2 a b := ⟨i 0, i 1, ValueIdx.eq_ix2 i⟩
  exact (xw2_apply x W a b).symm

/-! ## The program at the ideal numbers -/

variable (m : (ℓ : Loc nD τ sig) → Buf (Elt Ideal) ℓ) (hpre : PreEq m) (c : Dev nD)

/-- The first product as region 0 leaves it; the second as region 10 leaves it. -/
abbrev xwA1 : FVec Ideal S50000x512 .f32 := (dat0 (F := Ideal) (V3 m) c).arrAt 2 cfg0.N
abbrev xwA2 : FVec Ideal S50000x262 .f32 := (dat10 (F := Ideal) (V24 m hpre) c).arrAt 2 cfg10.N

include hpre in
/-- Every word of the row vector names a row of the products (the precondition, and the self loops' own positions). -/
theorem rowVec_ltc (e : Fin 450000) : (rowVec m c (ValueIdx.ix1 e)).toNat < 50000 := by
  obtain rfl : c = 0 := dev_eq_zero c
  exact rowVec_lt m 0 hpre e

/-- Arguments the matmul regions read are the launch memory's. -/
theorem arg0_3 : W3 m c main_arg0 = W0 m c main_arg0 :=
  (W3_keep m c main_arg0 (by decide)).trans ((W2_keep m c main_arg0 (by decide)).trans ((keepH_0 (W0 m c) main_arg0 (by decide))))
theorem arg3_3 : W3 m c main_arg3 = W0 m c main_arg3 :=
  (W3_keep m c main_arg3 (by decide)).trans ((W2_keep m c main_arg3 (by decide)).trans ((keepH_0 (W0 m c) main_arg3 (by decide))))
theorem arg5_24 : W24 m hpre c main_arg5 = W0 m c main_arg5 :=
  (W24_keep m hpre c main_arg5 (by decide)).trans ((W23_keep m hpre c main_arg5 (by decide)).trans ((W22_keep m hpre c main_arg5 (by decide)).trans ((W21_keep m hpre c main_arg5 (by decide)).trans ((W20_keep m hpre c main_arg5 (by decide)).trans ((W19_keep m hpre c main_arg5 (by decide)).trans ((W18_keep m hpre c main_arg5 (by decide)).trans ((W17_keep m hpre c main_arg5 (by decide)).trans ((W16_keep m hpre c main_arg5 (by decide)).trans ((W15_keep m hpre c main_arg5 (by decide)).trans ((W14_keep m hpre c main_arg5 (by decide)).trans ((W13_keep m hpre c main_arg5 (by decide)).trans ((W12_keep m hpre c main_arg5 (by decide)).trans ((W11_keep m hpre c main_arg5 (by decide)).trans ((W10_keep m hpre c main_arg5 (by decide)).trans ((W9_keep m hpre c main_arg5 (by decide)).trans ((W8_keep m hpre c main_arg5 (by decide)).trans ((W7_keep m hpre c main_arg5 (by decide)).trans ((W6_keep m hpre c main_arg5 (by decide)).trans ((W5_keep m c main_arg5 (by decide)).trans ((W4_keep m c main_arg5 (by decide)).trans ((W3_keep m c main_arg5 (by decide)).trans ((W2_keep m c main_arg5 (by decide)).trans ((keepH_0 (W0 m c) main_arg5 (by decide)))))))))))))))))))))))))

/-- Region 0 leaves the reference's first product. -/
theorem xwA1_eq : xwA1 m c = xw1 (F := Ideal) (m ((c.tc : Thread nD τ).loc main_arg0)) (m ((c.tc : Thread nD τ).loc main_arg3)) :=
  (arrAt0_2 (V3 m) c).trans ((congr (congrArg G0 (arg0_3 m c)) (arg3_3 m c)).trans (G0_eq _ _))

/-! ## Each gather region's output against the whole row vector and coefficient vector -/

theorem piece1_1 (hv : ValAt (pieces1 m hpre c 0) (V5 m c main_v34) ((adm1 m).1 0) (hH1 m hpre) (V5 m c main_v37)) (e' : Fin 50000) (j : Fin 512) (hlt : 0 + e'.val < 450000) :
    pieces1 m hpre c 0 (ValueIdx.ix2 e' j)
      = xwA1 m c (ValueIdx.ix2 ⟨(rowVec m c (ValueIdx.ix1 ⟨0 + e'.val, hlt⟩)).toNat, rowVec_ltc m hpre c _⟩ j) * normVec m c (ValueIdx.ix1 ⟨0 + e'.val, hlt⟩) := by
  obtain rfl : c = 0 := dev_eq_zero c
  exact piece_at _ _ (xwA1 m 0) _ _ (hH1 m hpre) hv (hxw1 m 0) 0 slices_S450000_S50000_0 slices_S450000x1_S50000x1_0_0
    (rowVec m 0) (normVec m 0) rfl (hnorm1 m 0) (rowVec_ltc m hpre 0) e' j hlt

theorem piece1_2 (hv : ValAt (pieces1 m hpre c 1) (V7 m hpre c main_v34) ((adm2 m).1 0) (hH2 m hpre) (V7 m hpre c main_v40)) (e' : Fin 50000) (j : Fin 512) (hlt : 50000 + e'.val < 450000) :
    pieces1 m hpre c 1 (ValueIdx.ix2 e' j)
      = xwA1 m c (ValueIdx.ix2 ⟨(rowVec m c (ValueIdx.ix1 ⟨50000 + e'.val, hlt⟩)).toNat, rowVec_ltc m hpre c _⟩ j) * normVec m c (ValueIdx.ix1 ⟨50000 + e'.val, hlt⟩) := by
  obtain rfl : c = 0 := dev_eq_zero c
  exact piece_at _ _ (xwA1 m 0) _ _ (hH2 m hpre) hv (hxw2 m hpre 0) 50000 slices_S450000_S50000_50000 slices_S450000x1_S50000x1_50000_0
    (rowVec m 0) (normVec m 0) rfl (hnorm2 m hpre 0) (rowVec_ltc m hpre 0) e' j hlt

theorem piece1_3 (hv : ValAt (pieces1 m hpre c 2) (V9 m hpre c main_v34) ((adm3 m).1 0) (hH3 m hpre) (V9 m hpre c main_v43)) (e' : Fin 50000) (j : Fin 512) (hlt : 100000 + e'.val < 450000) :
    pieces1 m hpre c 2 (ValueIdx.ix2 e' j)
      = xwA1 m c (ValueIdx.ix2 ⟨(rowVec m c (ValueIdx.ix1 ⟨100000 + e'.val, hlt⟩)).toNat, rowVec_ltc m hpre c _⟩ j) * normVec m c (ValueIdx.ix1 ⟨100000 + e'.val, hlt⟩) := by
  obtain rfl : c = 0 := dev_eq_zero c
  exact piece_at _ _ (xwA1 m 0) _ _ (hH3 m hpre) hv (hxw3 m hpre 0) 100000 slices_S450000_S50000_100000 slices_S450000x1_S50000x1_100000_0
    (rowVec m 0) (normVec m 0) rfl (hnorm3 m hpre 0) (rowVec_ltc m hpre 0) e' j hlt

theorem piece1_4 (hv : ValAt (pieces1 m hpre c 3) (V11 m hpre c main_v34) ((adm4 m).1 0) (hH4 m hpre) (V11 m hpre c main_v46)) (e' : Fin 50000) (j : Fin 512) (hlt : 150000 + e'.val < 450000) :
    pieces1 m hpre c 3 (ValueIdx.ix2 e' j)
      = xwA1 m c (ValueIdx.ix2 ⟨(rowVec m c (ValueIdx.ix1 ⟨150000 + e'.val, hlt⟩)).toNat, rowVec_ltc m hpre c _⟩ j) * normVec m c (ValueIdx.ix1 ⟨150000 + e'.val, hlt⟩) := by
  obtain rfl : c = 0 := dev_eq_zero c
  exact piece_at _ _ (xwA1 m 0) _ _ (hH4 m hpre) hv (hxw4 m hpre 0) 150000 slices_S450000_S50000_150000 slices_S450000x1_S50000x1_150000_0
    (rowVec m 0) (normVec m 0) rfl (hnorm4 m hpre 0) (rowVec_ltc m hpre 0) e' j hlt

theorem piece1_5 (hv : ValAt (pieces1 m hpre c 4) (V13 m hpre c main_v34) ((adm5 m).1 0) (hH5 m hpre) (V13 m hpre c main_v49)) (e' : Fin 50000) (j : Fin 512) (hlt : 200000 + e'.val < 450000) :
    pieces1 m hpre c 4 (ValueIdx.ix2 e' j)
      = xwA1 m c (ValueIdx.ix2 ⟨(rowVec m c (ValueIdx.ix1 ⟨200000 + e'.val, hlt⟩)).toNat, rowVec_ltc m hpre c _⟩ j) * normVec m c (ValueIdx.ix1 ⟨200000 + e'.val, hlt⟩) := by
  obtain rfl : c = 0 := dev_eq_zero c
  exact piece_at _ _ (xwA1 m 0) _ _ (hH5 m hpre) hv (hxw5 m hpre 0) 200000 slices_S450000_S50000_200000 slices_S450000x1_S50000x1_200000_0
    (rowVec m 0) (normVec m 0) rfl (hnorm5 m hpre 0) (rowVec_ltc m hpre 0) e' j hlt

theorem piece1_6 (hv : ValAt (pieces1 m hpre c 5) (V15 m hpre c main_v34) ((adm6 m).1 0) (hH6 m hpre) (V15 m hpre c main_v52)) (e' : Fin 50000) (j : Fin 512) (hlt : 250000 + e'.val < 450000) :
    pieces1 m hpre c 5 (ValueIdx.ix2 e' j)
      = xwA1 m c (ValueIdx.ix2 ⟨(rowVec m c (ValueIdx.ix1 ⟨250000 + e'.val, hlt⟩)).toNat, rowVec_ltc m hpre c _⟩ j) * normVec m c (ValueIdx.ix1 ⟨250000 + e'.val, hlt⟩) := by
  obtain rfl : c = 0 := dev_eq_zero c
  exact piece_at _ _ (xwA1 m 0) _ _ (hH6 m hpre) hv (hxw6 m hpre 0) 250000 slices_S450000_S50000_250000 slices_S450000x1_S50000x1_250000_0
    (rowVec m 0) (normVec m 0) rfl (hnorm6 m hpre 0) (rowVec_ltc m hpre 0) e' j hlt

theorem piece1_7 (hv : ValAt (pieces1 m hpre c 6) (V17 m hpre c main_v34) ((adm7 m).1 0) (hH7 m hpre) (V17 m hpre c main_v55)) (e' : Fin 50000) (j : Fin 512) (hlt : 300000 + e'.val < 450000) :
    pieces1 m hpre c 6 (ValueIdx.ix2 e' j)
      = xwA1 m c (ValueIdx.ix2 ⟨(rowVec m c (ValueIdx.ix1 ⟨300000 + e'.val, hlt⟩)).toNat, rowVec_ltc m hpre c _⟩ j) * normVec m c (ValueIdx.ix1 ⟨300000 + e'.val, hlt⟩) := by
  obtain rfl : c = 0 := dev_eq_zero c
  exact piece_at _ _ (xwA1 m 0) _ _ (hH7 m hpre) hv (hxw7 m hpre 0) 300000 slices_S450000_S50000_300000 slices_S450000x1_S50000x1_300000_0
    (rowVec m 0) (normVec m 0) rfl (hnorm7 m hpre 0) (rowVec_ltc m hpre 0) e' j hlt

theorem piece1_8 (hv : ValAt (pieces1 m hpre c 7) (V19 m hpre c main_v34) ((adm8 m).1 0) (hH8 m hpre) (V19 m hpre c main_v58)) (e' : Fin 50000) (j : Fin 512) (hlt : 350000 + e'.val < 450000) :
    pieces1 m hpre c 7 (ValueIdx.ix2 e' j)
      = xwA1 m c (ValueIdx.ix2 ⟨(rowVec m c (ValueIdx.ix1 ⟨350000 + e'.val, hlt⟩)).toNat, rowVec_ltc m hpre c _⟩ j) * normVec m c (ValueIdx.ix1 ⟨350000 + e'.val, hlt⟩) := by
  obtain rfl : c = 0 := dev_eq_zero c
  exact piece_at _ _ (xwA1 m 0) _ _ (hH8 m hpre) hv (hxw8 m hpre 0) 350000 slices_S450000_S50000_350000 slices_S450000x1_S50000x1_350000_0
    (rowVec m 0) (normVec m 0) rfl (hnorm8 m hpre 0) (rowVec_ltc m hpre 0) e' j hlt

theorem piece1_9 (hv : ValAt (pieces1 m hpre c 8) (V21 m hpre c main_v34) ((adm9 m).1 0) (hH9 m hpre) (V21 m hpre c main_v61)) (e' : Fin 50000) (j : Fin 512) (hlt : 400000 + e'.val < 450000) :
    pieces1 m hpre c 8 (ValueIdx.ix2 e' j)
      = xwA1 m c (ValueIdx.ix2 ⟨(rowVec m c (ValueIdx.ix1 ⟨400000 + e'.val, hlt⟩)).toNat, rowVec_ltc m hpre c _⟩ j) * normVec m c (ValueIdx.ix1 ⟨400000 + e'.val, hlt⟩) := by
  obtain rfl : c = 0 := dev_eq_zero c
  exact piece_at _ _ (xwA1 m 0) _ _ (hH9 m hpre) hv (hxw9 m hpre 0) 400000 slices_S450000_S50000_400000 slices_S450000x1_S50000x1_400000_0
    (rowVec m 0) (normVec m 0) rfl (hnorm9 m hpre 0) (rowVec_ltc m hpre 0) e' j hlt

/-- Layer 1's nine pieces: piece k at (e', j) is the first product at [row (50000 k + e'), j] times coefficient 50000 k + e'. -/
theorem pieces1_at
    (hv1 : ValAt (pieces1 m hpre c 0) (V5 m c main_v34) ((adm1 m).1 0) (hH1 m hpre) (V5 m c main_v37))
    (hv2 : ValAt (pieces1 m hpre c 1) (V7 m hpre c main_v34) ((adm2 m).1 0) (hH2 m hpre) (V7 m hpre c main_v40))
    (hv3 : ValAt (pieces1 m hpre c 2) (V9 m hpre c main_v34) ((adm3 m).1 0) (hH3 m hpre) (V9 m hpre c main_v43))
    (hv4 : ValAt (pieces1 m hpre c 3) (V11 m hpre c main_v34) ((adm4 m).1 0) (hH4 m hpre) (V11 m hpre c main_v46))
    (hv5 : ValAt (pieces1 m hpre c 4) (V13 m hpre c main_v34) ((adm5 m).1 0) (hH5 m hpre) (V13 m hpre c main_v49))
    (hv6 : ValAt (pieces1 m hpre c 5) (V15 m hpre c main_v34) ((adm6 m).1 0) (hH6 m hpre) (V15 m hpre c main_v52))
    (hv7 : ValAt (pieces1 m hpre c 6) (V17 m hpre c main_v34) ((adm7 m).1 0) (hH7 m hpre) (V17 m hpre c main_v55))
    (hv8 : ValAt (pieces1 m hpre c 7) (V19 m hpre c main_v34) ((adm8 m).1 0) (hH8 m hpre) (V19 m hpre c main_v58))
    (hv9 : ValAt (pieces1 m hpre c 8) (V21 m hpre c main_v34) ((adm9 m).1 0) (hH9 m hpre) (V21 m hpre c main_v61))
    (k : Fin 9) (e' : Fin 50000) (j : Fin 512) (hlt : 50000 * k.val + e'.val < 450000) :
    pieces1 m hpre c k (ValueIdx.ix2 e' j)
      = xwA1 m c (ValueIdx.ix2 ⟨(rowVec m c (ValueIdx.ix1 ⟨50000 * k.val + e'.val, hlt⟩)).toNat, rowVec_ltc m hpre c _⟩ j) * normVec m c (ValueIdx.ix1 ⟨50000 * k.val + e'.val, hlt⟩) := by
  match k, hlt with
  | ⟨0, _⟩, hlt => exact piece1_1 m hpre c hv1 e' j hlt
  | ⟨1, _⟩, hlt => exact piece1_2 m hpre c hv2 e' j hlt
  | ⟨2, _⟩, hlt => exact piece1_3 m hpre c hv3 e' j hlt
  | ⟨3, _⟩, hlt => exact piece1_4 m hpre c hv4 e' j hlt
  | ⟨4, _⟩, hlt => exact piece1_5 m hpre c hv5 e' j hlt
  | ⟨5, _⟩, hlt => exact piece1_6 m hpre c hv6 e' j hlt
  | ⟨6, _⟩, hlt => exact piece1_7 m hpre c hv7 e' j hlt
  | ⟨7, _⟩, hlt => exact piece1_8 m hpre c hv8 e' j hlt
  | ⟨8, _⟩, hlt => exact piece1_9 m hpre c hv9 e' j hlt
  | ⟨n + 9, h⟩, _ => exact absurd h (by omega)

/-- Layer 1's result is the reference's first layer, clamped. -/
theorem layer1_eq_of
    (hcolE : colVec m c = colV (F := Ideal) (m ((c.tc : Thread nD τ).loc main_arg1))) (hrowE : rowVec m c = rowN (F := Ideal) (m ((c.tc : Thread nD τ).loc main_arg1)))
    (hnormE : normVec m c = normV (F := Ideal) (m ((c.tc : Thread nD τ).loc main_arg1)) (m ((c.tc : Thread nD τ).loc main_arg2)))
    (hv1 : ValAt (pieces1 m hpre c 0) (V5 m c main_v34) ((adm1 m).1 0) (hH1 m hpre) (V5 m c main_v37))
    (hv2 : ValAt (pieces1 m hpre c 1) (V7 m hpre c main_v34) ((adm2 m).1 0) (hH2 m hpre) (V7 m hpre c main_v40))
    (hv3 : ValAt (pieces1 m hpre c 2) (V9 m hpre c main_v34) ((adm3 m).1 0) (hH3 m hpre) (V9 m hpre c main_v43))
    (hv4 : ValAt (pieces1 m hpre c 3) (V11 m hpre c main_v34) ((adm4 m).1 0) (hH4 m hpre) (V11 m hpre c main_v46))
    (hv5 : ValAt (pieces1 m hpre c 4) (V13 m hpre c main_v34) ((adm5 m).1 0) (hH5 m hpre) (V13 m hpre c main_v49))
    (hv6 : ValAt (pieces1 m hpre c 5) (V15 m hpre c main_v34) ((adm6 m).1 0) (hH6 m hpre) (V15 m hpre c main_v52))
    (hv7 : ValAt (pieces1 m hpre c 6) (V17 m hpre c main_v34) ((adm7 m).1 0) (hH7 m hpre) (V17 m hpre c main_v55))
    (hv8 : ValAt (pieces1 m hpre c 7) (V19 m hpre c main_v34) ((adm8 m).1 0) (hH8 m hpre) (V19 m hpre c main_v58))
    (hv9 : ValAt (pieces1 m hpre c 8) (V21 m hpre c main_v34) ((adm9 m).1 0) (hH9 m hpre) (V21 m hpre c main_v61)) :
    W24 m hpre c main_v70 = relu1 (F := Ideal) (layer1R (F := Ideal) (m ((c.tc : Thread nD τ).loc main_arg0)) (m ((c.tc : Thread nD τ).loc main_arg3)) (m ((c.tc : Thread nD τ).loc main_arg4)) (rowN (F := Ideal) (m ((c.tc : Thread nD τ).loc main_arg1))) (colV (F := Ideal) (m ((c.tc : Thread nD τ).loc main_arg1))) (normV (F := Ideal) (m ((c.tc : Thread nD τ).loc main_arg1)) (m ((c.tc : Thread nD τ).loc main_arg2)))) :=
  (W24_v70 m hpre c).trans
    (layer1_bridge' (W3 m c main_v6) (colV (F := Ideal) (m ((c.tc : Thread nD τ).loc main_arg1))) (pieces1 m hpre c) (W0 m c main_arg4)
      (xwA1 m c) (xw1 (F := Ideal) (m ((c.tc : Thread nD τ).loc main_arg0)) (m ((c.tc : Thread nD τ).loc main_arg3))) (rowVec m c) (rowN (F := Ideal) (m ((c.tc : Thread nD τ).loc main_arg1))) (normVec m c) (normV (F := Ideal) (m ((c.tc : Thread nD τ).loc main_arg1)) (m ((c.tc : Thread nD τ).loc main_arg2)))
      ((W3_keep m c main_v6 (by decide)).trans ((v6_2 m c).trans hcolE)) (xwA1_eq m c) hrowE hnormE (rowVec_ltc m hpre c)
      (e_form (pieces1 m hpre c) (fun e j => xwA1 m c (ValueIdx.ix2 ⟨(rowVec m c (ValueIdx.ix1 e)).toNat, rowVec_ltc m hpre c e⟩ j) * normVec m c (ValueIdx.ix1 e))
        (pieces1_at m hpre c hv1 hv2 hv3 hv4 hv5 hv6 hv7 hv8 hv9)))

theorem piece2_11 (hv : ValAt (pieces2 m hpre c 0) (V26 m hpre c main_v71) ((adm11 m).1 0) (hH11 m hpre) (V26 m hpre c main_v74)) (e' : Fin 50000) (j : Fin 262) (hlt : 0 + e'.val < 450000) :
    pieces2 m hpre c 0 (ValueIdx.ix2 e' j)
      = xwA2 m hpre c (ValueIdx.ix2 ⟨(rowVec m c (ValueIdx.ix1 ⟨0 + e'.val, hlt⟩)).toNat, rowVec_ltc m hpre c _⟩ j) * normVec m c (ValueIdx.ix1 ⟨0 + e'.val, hlt⟩) := by
  obtain rfl : c = 0 := dev_eq_zero c
  exact piece_at _ _ (xwA2 m hpre 0) _ _ (hH11 m hpre) hv (hxw11 m hpre 0) 0 slices_S450000_S50000_0 slices_S450000x1_S50000x1_0_0
    (rowVec m 0) (normVec m 0) rfl (hnorm11 m hpre 0) (rowVec_ltc m hpre 0) e' j hlt

theorem piece2_12 (hv : ValAt (pieces2 m hpre c 1) (V28 m hpre c main_v71) ((adm12 m).1 0) (hH12 m hpre) (V28 m hpre c main_v77)) (e' : Fin 50000) (j : Fin 262) (hlt : 50000 + e'.val < 450000) :
    pieces2 m hpre c 1 (ValueIdx.ix2 e' j)
      = xwA2 m hpre c (ValueIdx.ix2 ⟨(rowVec m c (ValueIdx.ix1 ⟨50000 + e'.val, hlt⟩)).toNat, rowVec_ltc m hpre c _⟩ j) * normVec m c (ValueIdx.ix1 ⟨50000 + e'.val, hlt⟩) := by
  obtain rfl : c = 0 := dev_eq_zero c
  exact piece_at _ _ (xwA2 m hpre 0) _ _ (hH12 m hpre) hv (hxw12 m hpre 0) 50000 slices_S450000_S50000_50000 slices_S450000x1_S50000x1_50000_0
    (rowVec m 0) (normVec m 0) rfl (hnorm12 m hpre 0) (rowVec_ltc m hpre 0) e' j hlt

theorem piece2_13 (hv : ValAt (pieces2 m hpre c 2) (V30 m hpre c main_v71) ((adm13 m).1 0) (hH13 m hpre) (V30 m hpre c main_v80)) (e' : Fin 50000) (j : Fin 262) (hlt : 100000 + e'.val < 450000) :
    pieces2 m hpre c 2 (ValueIdx.ix2 e' j)
      = xwA2 m hpre c (ValueIdx.ix2 ⟨(rowVec m c (ValueIdx.ix1 ⟨100000 + e'.val, hlt⟩)).toNat, rowVec_ltc m hpre c _⟩ j) * normVec m c (ValueIdx.ix1 ⟨100000 + e'.val, hlt⟩) := by
  obtain rfl : c = 0 := dev_eq_zero c
  exact piece_at _ _ (xwA2 m hpre 0) _ _ (hH13 m hpre) hv (hxw13 m hpre 0) 100000 slices_S450000_S50000_100000 slices_S450000x1_S50000x1_100000_0
    (rowVec m 0) (normVec m 0) rfl (hnorm13 m hpre 0) (rowVec_ltc m hpre 0) e' j hlt

theorem piece2_14 (hv : ValAt (pieces2 m hpre c 3) (V32 m hpre c main_v71) ((adm14 m).1 0) (hH14 m hpre) (V32 m hpre c main_v83)) (e' : Fin 50000) (j : Fin 262) (hlt : 150000 + e'.val < 450000) :
    pieces2 m hpre c 3 (ValueIdx.ix2 e' j)
      = xwA2 m hpre c (ValueIdx.ix2 ⟨(rowVec m c (ValueIdx.ix1 ⟨150000 + e'.val, hlt⟩)).toNat, rowVec_ltc m hpre c _⟩ j) * normVec m c (ValueIdx.ix1 ⟨150000 + e'.val, hlt⟩) := by
  obtain rfl : c = 0 := dev_eq_zero c
  exact piece_at _ _ (xwA2 m hpre 0) _ _ (hH14 m hpre) hv (hxw14 m hpre 0) 150000 slices_S450000_S50000_150000 slices_S450000x1_S50000x1_150000_0
    (rowVec m 0) (normVec m 0) rfl (hnorm14 m hpre 0) (rowVec_ltc m hpre 0) e' j hlt

theorem piece2_15 (hv : ValAt (pieces2 m hpre c 4) (V34 m hpre c main_v71) ((adm15 m).1 0) (hH15 m hpre) (V34 m hpre c main_v86)) (e' : Fin 50000) (j : Fin 262) (hlt : 200000 + e'.val < 450000) :
    pieces2 m hpre c 4 (ValueIdx.ix2 e' j)
      = xwA2 m hpre c (ValueIdx.ix2 ⟨(rowVec m c (ValueIdx.ix1 ⟨200000 + e'.val, hlt⟩)).toNat, rowVec_ltc m hpre c _⟩ j) * normVec m c (ValueIdx.ix1 ⟨200000 + e'.val, hlt⟩) := by
  obtain rfl : c = 0 := dev_eq_zero c
  exact piece_at _ _ (xwA2 m hpre 0) _ _ (hH15 m hpre) hv (hxw15 m hpre 0) 200000 slices_S450000_S50000_200000 slices_S450000x1_S50000x1_200000_0
    (rowVec m 0) (normVec m 0) rfl (hnorm15 m hpre 0) (rowVec_ltc m hpre 0) e' j hlt

theorem piece2_16 (hv : ValAt (pieces2 m hpre c 5) (V36 m hpre c main_v71) ((adm16 m).1 0) (hH16 m hpre) (V36 m hpre c main_v89)) (e' : Fin 50000) (j : Fin 262) (hlt : 250000 + e'.val < 450000) :
    pieces2 m hpre c 5 (ValueIdx.ix2 e' j)
      = xwA2 m hpre c (ValueIdx.ix2 ⟨(rowVec m c (ValueIdx.ix1 ⟨250000 + e'.val, hlt⟩)).toNat, rowVec_ltc m hpre c _⟩ j) * normVec m c (ValueIdx.ix1 ⟨250000 + e'.val, hlt⟩) := by
  obtain rfl : c = 0 := dev_eq_zero c
  exact piece_at _ _ (xwA2 m hpre 0) _ _ (hH16 m hpre) hv (hxw16 m hpre 0) 250000 slices_S450000_S50000_250000 slices_S450000x1_S50000x1_250000_0
    (rowVec m 0) (normVec m 0) rfl (hnorm16 m hpre 0) (rowVec_ltc m hpre 0) e' j hlt

theorem piece2_17 (hv : ValAt (pieces2 m hpre c 6) (V38 m hpre c main_v71) ((adm17 m).1 0) (hH17 m hpre) (V38 m hpre c main_v92)) (e' : Fin 50000) (j : Fin 262) (hlt : 300000 + e'.val < 450000) :
    pieces2 m hpre c 6 (ValueIdx.ix2 e' j)
      = xwA2 m hpre c (ValueIdx.ix2 ⟨(rowVec m c (ValueIdx.ix1 ⟨300000 + e'.val, hlt⟩)).toNat, rowVec_ltc m hpre c _⟩ j) * normVec m c (ValueIdx.ix1 ⟨300000 + e'.val, hlt⟩) := by
  obtain rfl : c = 0 := dev_eq_zero c
  exact piece_at _ _ (xwA2 m hpre 0) _ _ (hH17 m hpre) hv (hxw17 m hpre 0) 300000 slices_S450000_S50000_300000 slices_S450000x1_S50000x1_300000_0
    (rowVec m 0) (normVec m 0) rfl (hnorm17 m hpre 0) (rowVec_ltc m hpre 0) e' j hlt

theorem piece2_18 (hv : ValAt (pieces2 m hpre c 7) (V40 m hpre c main_v71) ((adm18 m).1 0) (hH18 m hpre) (V40 m hpre c main_v95)) (e' : Fin 50000) (j : Fin 262) (hlt : 350000 + e'.val < 450000) :
    pieces2 m hpre c 7 (ValueIdx.ix2 e' j)
      = xwA2 m hpre c (ValueIdx.ix2 ⟨(rowVec m c (ValueIdx.ix1 ⟨350000 + e'.val, hlt⟩)).toNat, rowVec_ltc m hpre c _⟩ j) * normVec m c (ValueIdx.ix1 ⟨350000 + e'.val, hlt⟩) := by
  obtain rfl : c = 0 := dev_eq_zero c
  exact piece_at _ _ (xwA2 m hpre 0) _ _ (hH18 m hpre) hv (hxw18 m hpre 0) 350000 slices_S450000_S50000_350000 slices_S450000x1_S50000x1_350000_0
    (rowVec m 0) (normVec m 0) rfl (hnorm18 m hpre 0) (rowVec_ltc m hpre 0) e' j hlt

theorem piece2_19 (hv : ValAt (pieces2 m hpre c 8) (V42 m hpre c main_v71) ((adm19 m).1 0) (hH19 m hpre) (V42 m hpre c main_v98)) (e' : Fin 50000) (j : Fin 262) (hlt : 400000 + e'.val < 450000) :
    pieces2 m hpre c 8 (ValueIdx.ix2 e' j)
      = xwA2 m hpre c (ValueIdx.ix2 ⟨(rowVec m c (ValueIdx.ix1 ⟨400000 + e'.val, hlt⟩)).toNat, rowVec_ltc m hpre c _⟩ j) * normVec m c (ValueIdx.ix1 ⟨400000 + e'.val, hlt⟩) := by
  obtain rfl : c = 0 := dev_eq_zero c
  exact piece_at _ _ (xwA2 m hpre 0) _ _ (hH19 m hpre) hv (hxw19 m hpre 0) 400000 slices_S450000_S50000_400000 slices_S450000x1_S50000x1_400000_0
    (rowVec m 0) (normVec m 0) rfl (hnorm19 m hpre 0) (rowVec_ltc m hpre 0) e' j hlt

/-- Layer 2's nine pieces: piece k at (e', j) is the second product at [row (50000 k + e'), j] times coefficient 50000 k + e'. -/
theorem pieces2_at
    (hv11 : ValAt (pieces2 m hpre c 0) (V26 m hpre c main_v71) ((adm11 m).1 0) (hH11 m hpre) (V26 m hpre c main_v74))
    (hv12 : ValAt (pieces2 m hpre c 1) (V28 m hpre c main_v71) ((adm12 m).1 0) (hH12 m hpre) (V28 m hpre c main_v77))
    (hv13 : ValAt (pieces2 m hpre c 2) (V30 m hpre c main_v71) ((adm13 m).1 0) (hH13 m hpre) (V30 m hpre c main_v80))
    (hv14 : ValAt (pieces2 m hpre c 3) (V32 m hpre c main_v71) ((adm14 m).1 0) (hH14 m hpre) (V32 m hpre c main_v83))
    (hv15 : ValAt (pieces2 m hpre c 4) (V34 m hpre c main_v71) ((adm15 m).1 0) (hH15 m hpre) (V34 m hpre c main_v86))
    (hv16 : ValAt (pieces2 m hpre c 5) (V36 m hpre c main_v71) ((adm16 m).1 0) (hH16 m hpre) (V36 m hpre c main_v89))
    (hv17 : ValAt (pieces2 m hpre c 6) (V38 m hpre c main_v71) ((adm17 m).1 0) (hH17 m hpre) (V38 m hpre c main_v92))
    (hv18 : ValAt (pieces2 m hpre c 7) (V40 m hpre c main_v71) ((adm18 m).1 0) (hH18 m hpre) (V40 m hpre c main_v95))
    (hv19 : ValAt (pieces2 m hpre c 8) (V42 m hpre c main_v71) ((adm19 m).1 0) (hH19 m hpre) (V42 m hpre c main_v98))
    (k : Fin 9) (e' : Fin 50000) (j : Fin 262) (hlt : 50000 * k.val + e'.val < 450000) :
    pieces2 m hpre c k (ValueIdx.ix2 e' j)
      = xwA2 m hpre c (ValueIdx.ix2 ⟨(rowVec m c (ValueIdx.ix1 ⟨50000 * k.val + e'.val, hlt⟩)).toNat, rowVec_ltc m hpre c _⟩ j) * normVec m c (ValueIdx.ix1 ⟨50000 * k.val + e'.val, hlt⟩) := by
  match k, hlt with
  | ⟨0, _⟩, hlt => exact piece2_11 m hpre c hv11 e' j hlt
  | ⟨1, _⟩, hlt => exact piece2_12 m hpre c hv12 e' j hlt
  | ⟨2, _⟩, hlt => exact piece2_13 m hpre c hv13 e' j hlt
  | ⟨3, _⟩, hlt => exact piece2_14 m hpre c hv14 e' j hlt
  | ⟨4, _⟩, hlt => exact piece2_15 m hpre c hv15 e' j hlt
  | ⟨5, _⟩, hlt => exact piece2_16 m hpre c hv16 e' j hlt
  | ⟨6, _⟩, hlt => exact piece2_17 m hpre c hv17 e' j hlt
  | ⟨7, _⟩, hlt => exact piece2_18 m hpre c hv18 e' j hlt
  | ⟨8, _⟩, hlt => exact piece2_19 m hpre c hv19 e' j hlt
  | ⟨n + 9, h⟩, _ => exact absurd h (by omega)

/-- Region 10 leaves the reference's second product, of the clamped first layer. -/
theorem xwA2_eq_of (h70 : W24 m hpre c main_v70 = relu1 (F := Ideal) (layer1R (F := Ideal) (m ((c.tc : Thread nD τ).loc main_arg0)) (m ((c.tc : Thread nD τ).loc main_arg3)) (m ((c.tc : Thread nD τ).loc main_arg4)) (rowN (F := Ideal) (m ((c.tc : Thread nD τ).loc main_arg1))) (colV (F := Ideal) (m ((c.tc : Thread nD τ).loc main_arg1))) (normV (F := Ideal) (m ((c.tc : Thread nD τ).loc main_arg1)) (m ((c.tc : Thread nD τ).loc main_arg2))))) :
    xwA2 m hpre c = xw2 (F := Ideal) (relu1 (F := Ideal) (layer1R (F := Ideal) (m ((c.tc : Thread nD τ).loc main_arg0)) (m ((c.tc : Thread nD τ).loc main_arg3)) (m ((c.tc : Thread nD τ).loc main_arg4)) (rowN (F := Ideal) (m ((c.tc : Thread nD τ).loc main_arg1))) (colV (F := Ideal) (m ((c.tc : Thread nD τ).loc main_arg1))) (normV (F := Ideal) (m ((c.tc : Thread nD τ).loc main_arg1)) (m ((c.tc : Thread nD τ).loc main_arg2))))) (m ((c.tc : Thread nD τ).loc main_arg5)) :=
  (arrAt10_2 (V24 m hpre) c).trans ((congr (congrArg G10 h70) (arg5_24 m hpre c)).trans (G10_eq _ _))

set_option maxHeartbeats 1000000 in
/-- The program's result is the reference's, from what each of the eighteen gather regions computes and the three
    identities between the kernel's and the reference's edge vectors. -/
theorem kernel_eq_ref_of
    (hcolE : colVec m c = colV (F := Ideal) (m ((c.tc : Thread nD τ).loc main_arg1))) (hrowE : rowVec m c = rowN (F := Ideal) (m ((c.tc : Thread nD τ).loc main_arg1)))
    (hnormE : normVec m c = normV (F := Ideal) (m ((c.tc : Thread nD τ).loc main_arg1)) (m ((c.tc : Thread nD τ).loc main_arg2)))
    (hv1 : ValAt (pieces1 m hpre c 0) (V5 m c main_v34) ((adm1 m).1 0) (hH1 m hpre) (V5 m c main_v37))
    (hv2 : ValAt (pieces1 m hpre c 1) (V7 m hpre c main_v34) ((adm2 m).1 0) (hH2 m hpre) (V7 m hpre c main_v40))
    (hv3 : ValAt (pieces1 m hpre c 2) (V9 m hpre c main_v34) ((adm3 m).1 0) (hH3 m hpre) (V9 m hpre c main_v43))
    (hv4 : ValAt (pieces1 m hpre c 3) (V11 m hpre c main_v34) ((adm4 m).1 0) (hH4 m hpre) (V11 m hpre c main_v46))
    (hv5 : ValAt (pieces1 m hpre c 4) (V13 m hpre c main_v34) ((adm5 m).1 0) (hH5 m hpre) (V13 m hpre c main_v49))
    (hv6 : ValAt (pieces1 m hpre c 5) (V15 m hpre c main_v34) ((adm6 m).1 0) (hH6 m hpre) (V15 m hpre c main_v52))
    (hv7 : ValAt (pieces1 m hpre c 6) (V17 m hpre c main_v34) ((adm7 m).1 0) (hH7 m hpre) (V17 m hpre c main_v55))
    (hv8 : ValAt (pieces1 m hpre c 7) (V19 m hpre c main_v34) ((adm8 m).1 0) (hH8 m hpre) (V19 m hpre c main_v58))
    (hv9 : ValAt (pieces1 m hpre c 8) (V21 m hpre c main_v34) ((adm9 m).1 0) (hH9 m hpre) (V21 m hpre c main_v61))
    (hv11 : ValAt (pieces2 m hpre c 0) (V26 m hpre c main_v71) ((adm11 m).1 0) (hH11 m hpre) (V26 m hpre c main_v74))
    (hv12 : ValAt (pieces2 m hpre c 1) (V28 m hpre c main_v71) ((adm12 m).1 0) (hH12 m hpre) (V28 m hpre c main_v77))
    (hv13 : ValAt (pieces2 m hpre c 2) (V30 m hpre c main_v71) ((adm13 m).1 0) (hH13 m hpre) (V30 m hpre c main_v80))
    (hv14 : ValAt (pieces2 m hpre c 3) (V32 m hpre c main_v71) ((adm14 m).1 0) (hH14 m hpre) (V32 m hpre c main_v83))
    (hv15 : ValAt (pieces2 m hpre c 4) (V34 m hpre c main_v71) ((adm15 m).1 0) (hH15 m hpre) (V34 m hpre c main_v86))
    (hv16 : ValAt (pieces2 m hpre c 5) (V36 m hpre c main_v71) ((adm16 m).1 0) (hH16 m hpre) (V36 m hpre c main_v89))
    (hv17 : ValAt (pieces2 m hpre c 6) (V38 m hpre c main_v71) ((adm17 m).1 0) (hH17 m hpre) (V38 m hpre c main_v92))
    (hv18 : ValAt (pieces2 m hpre c 7) (V40 m hpre c main_v71) ((adm18 m).1 0) (hH18 m hpre) (V40 m hpre c main_v95))
    (hv19 : ValAt (pieces2 m hpre c 8) (V42 m hpre c main_v71) ((adm19 m).1 0) (hH19 m hpre) (V42 m hpre c main_v98)) :
    W44 m hpre c (Proc.devRef .tc main_v106) = refResult (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W44_v106 m hpre c).trans
    ((layer2_bridge' (W3 m c main_v6) (colV (F := Ideal) (m ((c.tc : Thread nD τ).loc main_arg1))) (pieces2 m hpre c) (W0 m c main_arg6)
      (xwA2 m hpre c) (xw2 (F := Ideal) (relu1 (F := Ideal) (layer1R (F := Ideal) (m ((c.tc : Thread nD τ).loc main_arg0)) (m ((c.tc : Thread nD τ).loc main_arg3)) (m ((c.tc : Thread nD τ).loc main_arg4)) (rowN (F := Ideal) (m ((c.tc : Thread nD τ).loc main_arg1))) (colV (F := Ideal) (m ((c.tc : Thread nD τ).loc main_arg1))) (normV (F := Ideal) (m ((c.tc : Thread nD τ).loc main_arg1)) (m ((c.tc : Thread nD τ).loc main_arg2))))) (m ((c.tc : Thread nD τ).loc main_arg5))) (rowVec m c) (rowN (F := Ideal) (m ((c.tc : Thread nD τ).loc main_arg1))) (normVec m c) (normV (F := Ideal) (m ((c.tc : Thread nD τ).loc main_arg1)) (m ((c.tc : Thread nD τ).loc main_arg2)))
      ((W3_keep m c main_v6 (by decide)).trans ((v6_2 m c).trans hcolE))
      (xwA2_eq_of m hpre c (layer1_eq_of m hpre c hcolE hrowE hnormE hv1 hv2 hv3 hv4 hv5 hv6 hv7 hv8 hv9)) hrowE hnormE (rowVec_ltc m hpre c)
      (e_form (pieces2 m hpre c) (fun e j => xwA2 m hpre c (ValueIdx.ix2 ⟨(rowVec m c (ValueIdx.ix1 e)).toNat, rowVec_ltc m hpre c e⟩ j) * normVec m c (ValueIdx.ix1 e))
        (pieces2_at m hpre c hv11 hv12 hv13 hv14 hv15 hv16 hv17 hv18 hv19))).trans rfl)

/-! ## With the kernel's edge vectors identified with the reference's -/

include hpre in
/-- Under the precondition every source in the edge table is a node. -/
theorem h400 (e : Fin 400000) : ((m ((c.tc : Thread nD τ).loc main_arg1)) (ValueIdx.ix2 (0 : Fin 2) e)).toNat < 50000 := by
  obtain rfl : c = 0 := dev_eq_zero c
  exact Cert.Hand.PreFacts.row_lt _ _ _ _ _ _ _ hpre e

include hpre in
/-- The kernel gathers at the raw sources, the reference at the wrapped ones: under the precondition they are the same. -/
theorem rowVec_eq_rowN : rowVec m c = rowN (F := Ideal) (m ((c.tc : Thread nD τ).loc main_arg1)) :=
  (rowVec_eq m c).trans (Cert.ReferenceIdeal.RefValue.rowN_eq_rowRaw (F := Ideal) _ (h400 m hpre c)).symm

/-- The program's result is the reference's, from what each of the eighteen gather regions computes. -/
theorem kernel_eq_ref_of_values
    (hv1 : ValAt (pieces1 m hpre c 0) (V5 m c main_v34) ((adm1 m).1 0) (hH1 m hpre) (V5 m c main_v37))
    (hv2 : ValAt (pieces1 m hpre c 1) (V7 m hpre c main_v34) ((adm2 m).1 0) (hH2 m hpre) (V7 m hpre c main_v40))
    (hv3 : ValAt (pieces1 m hpre c 2) (V9 m hpre c main_v34) ((adm3 m).1 0) (hH3 m hpre) (V9 m hpre c main_v43))
    (hv4 : ValAt (pieces1 m hpre c 3) (V11 m hpre c main_v34) ((adm4 m).1 0) (hH4 m hpre) (V11 m hpre c main_v46))
    (hv5 : ValAt (pieces1 m hpre c 4) (V13 m hpre c main_v34) ((adm5 m).1 0) (hH5 m hpre) (V13 m hpre c main_v49))
    (hv6 : ValAt (pieces1 m hpre c 5) (V15 m hpre c main_v34) ((adm6 m).1 0) (hH6 m hpre) (V15 m hpre c main_v52))
    (hv7 : ValAt (pieces1 m hpre c 6) (V17 m hpre c main_v34) ((adm7 m).1 0) (hH7 m hpre) (V17 m hpre c main_v55))
    (hv8 : ValAt (pieces1 m hpre c 7) (V19 m hpre c main_v34) ((adm8 m).1 0) (hH8 m hpre) (V19 m hpre c main_v58))
    (hv9 : ValAt (pieces1 m hpre c 8) (V21 m hpre c main_v34) ((adm9 m).1 0) (hH9 m hpre) (V21 m hpre c main_v61))
    (hv11 : ValAt (pieces2 m hpre c 0) (V26 m hpre c main_v71) ((adm11 m).1 0) (hH11 m hpre) (V26 m hpre c main_v74))
    (hv12 : ValAt (pieces2 m hpre c 1) (V28 m hpre c main_v71) ((adm12 m).1 0) (hH12 m hpre) (V28 m hpre c main_v77))
    (hv13 : ValAt (pieces2 m hpre c 2) (V30 m hpre c main_v71) ((adm13 m).1 0) (hH13 m hpre) (V30 m hpre c main_v80))
    (hv14 : ValAt (pieces2 m hpre c 3) (V32 m hpre c main_v71) ((adm14 m).1 0) (hH14 m hpre) (V32 m hpre c main_v83))
    (hv15 : ValAt (pieces2 m hpre c 4) (V34 m hpre c main_v71) ((adm15 m).1 0) (hH15 m hpre) (V34 m hpre c main_v86))
    (hv16 : ValAt (pieces2 m hpre c 5) (V36 m hpre c main_v71) ((adm16 m).1 0) (hH16 m hpre) (V36 m hpre c main_v89))
    (hv17 : ValAt (pieces2 m hpre c 6) (V38 m hpre c main_v71) ((adm17 m).1 0) (hH17 m hpre) (V38 m hpre c main_v92))
    (hv18 : ValAt (pieces2 m hpre c 7) (V40 m hpre c main_v71) ((adm18 m).1 0) (hH18 m hpre) (V40 m hpre c main_v95))
    (hv19 : ValAt (pieces2 m hpre c 8) (V42 m hpre c main_v71) ((adm19 m).1 0) (hH19 m hpre) (V42 m hpre c main_v98)) :
    W44 m hpre c (Proc.devRef .tc main_v106) = refResult (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  kernel_eq_ref_of m hpre c (colVec_eq m c) (rowVec_eq_rowN m hpre c) (normVec_eq m c)
    hv1 hv2 hv3 hv4 hv5 hv6 hv7 hv8 hv9 hv11 hv12 hv13 hv14 hv15 hv16 hv17 hv18 hv19

/-! ## What each gather region computes -/

set_option maxHeartbeats 1000000 in
/-- Region 1's output, index by index, as its value lemma gives it. -/
theorem hval1 : ValAt (pieces1 m hpre c 0) (V5 m c main_v34) ((adm1 m).1 0) (hH1 m hpre) (V5 m c main_v37) :=
  fun e j => arrAt1_1 (V5 m) (adm1 m) (hH1 m hpre) c e j

set_option maxHeartbeats 1000000 in
/-- Region 2's output, index by index, as its value lemma gives it. -/
theorem hval2 : ValAt (pieces1 m hpre c 1) (V7 m hpre c main_v34) ((adm2 m).1 0) (hH2 m hpre) (V7 m hpre c main_v40) :=
  fun e j => arrAt2_1 (V7 m hpre) (adm2 m) (hH2 m hpre) c e j

set_option maxHeartbeats 1000000 in
/-- Region 3's output, index by index, as its value lemma gives it. -/
theorem hval3 : ValAt (pieces1 m hpre c 2) (V9 m hpre c main_v34) ((adm3 m).1 0) (hH3 m hpre) (V9 m hpre c main_v43) :=
  fun e j => arrAt3_1 (V9 m hpre) (adm3 m) (hH3 m hpre) c e j

set_option maxHeartbeats 1000000 in
/-- Region 4's output, index by index, as its value lemma gives it. -/
theorem hval4 : ValAt (pieces1 m hpre c 3) (V11 m hpre c main_v34) ((adm4 m).1 0) (hH4 m hpre) (V11 m hpre c main_v46) :=
  fun e j => arrAt4_1 (V11 m hpre) (adm4 m) (hH4 m hpre) c e j

set_option maxHeartbeats 1000000 in
/-- Region 5's output, index by index, as its value lemma gives it. -/
theorem hval5 : ValAt (pieces1 m hpre c 4) (V13 m hpre c main_v34) ((adm5 m).1 0) (hH5 m hpre) (V13 m hpre c main_v49) :=
  fun e j => arrAt5_1 (V13 m hpre) (adm5 m) (hH5 m hpre) c e j

set_option maxHeartbeats 1000000 in
/-- Region 6's output, index by index, as its value lemma gives it. -/
theorem hval6 : ValAt (pieces1 m hpre c 5) (V15 m hpre c main_v34) ((adm6 m).1 0) (hH6 m hpre) (V15 m hpre c main_v52) :=
  fun e j => arrAt6_1 (V15 m hpre) (adm6 m) (hH6 m hpre) c e j

set_option maxHeartbeats 1000000 in
/-- Region 7's output, index by index, as its value lemma gives it. -/
theorem hval7 : ValAt (pieces1 m hpre c 6) (V17 m hpre c main_v34) ((adm7 m).1 0) (hH7 m hpre) (V17 m hpre c main_v55) :=
  fun e j => arrAt7_1 (V17 m hpre) (adm7 m) (hH7 m hpre) c e j

set_option maxHeartbeats 1000000 in
/-- Region 8's output, index by index, as its value lemma gives it. -/
theorem hval8 : ValAt (pieces1 m hpre c 7) (V19 m hpre c main_v34) ((adm8 m).1 0) (hH8 m hpre) (V19 m hpre c main_v58) :=
  fun e j => arrAt8_1 (V19 m hpre) (adm8 m) (hH8 m hpre) c e j

set_option maxHeartbeats 1000000 in
/-- Region 9's output, index by index, as its value lemma gives it. -/
theorem hval9 : ValAt (pieces1 m hpre c 8) (V21 m hpre c main_v34) ((adm9 m).1 0) (hH9 m hpre) (V21 m hpre c main_v61) :=
  fun e j => arrAt9_1 (V21 m hpre) (adm9 m) (hH9 m hpre) c e j

set_option maxHeartbeats 1000000 in
/-- Region 11's output, index by index, as its value lemma gives it. -/
theorem hval11 : ValAt (pieces2 m hpre c 0) (V26 m hpre c main_v71) ((adm11 m).1 0) (hH11 m hpre) (V26 m hpre c main_v74) :=
  fun e j => arrAt11_1 (V26 m hpre) (adm11 m) (hH11 m hpre) c e j

set_option maxHeartbeats 1000000 in
/-- Region 12's output, index by index, as its value lemma gives it. -/
theorem hval12 : ValAt (pieces2 m hpre c 1) (V28 m hpre c main_v71) ((adm12 m).1 0) (hH12 m hpre) (V28 m hpre c main_v77) :=
  fun e j => arrAt12_1 (V28 m hpre) (adm12 m) (hH12 m hpre) c e j

set_option maxHeartbeats 1000000 in
/-- Region 13's output, index by index, as its value lemma gives it. -/
theorem hval13 : ValAt (pieces2 m hpre c 2) (V30 m hpre c main_v71) ((adm13 m).1 0) (hH13 m hpre) (V30 m hpre c main_v80) :=
  fun e j => arrAt13_1 (V30 m hpre) (adm13 m) (hH13 m hpre) c e j

set_option maxHeartbeats 1000000 in
/-- Region 14's output, index by index, as its value lemma gives it. -/
theorem hval14 : ValAt (pieces2 m hpre c 3) (V32 m hpre c main_v71) ((adm14 m).1 0) (hH14 m hpre) (V32 m hpre c main_v83) :=
  fun e j => arrAt14_1 (V32 m hpre) (adm14 m) (hH14 m hpre) c e j

set_option maxHeartbeats 1000000 in
/-- Region 15's output, index by index, as its value lemma gives it. -/
theorem hval15 : ValAt (pieces2 m hpre c 4) (V34 m hpre c main_v71) ((adm15 m).1 0) (hH15 m hpre) (V34 m hpre c main_v86) :=
  fun e j => arrAt15_1 (V34 m hpre) (adm15 m) (hH15 m hpre) c e j

set_option maxHeartbeats 1000000 in
/-- Region 16's output, index by index, as its value lemma gives it. -/
theorem hval16 : ValAt (pieces2 m hpre c 5) (V36 m hpre c main_v71) ((adm16 m).1 0) (hH16 m hpre) (V36 m hpre c main_v89) :=
  fun e j => arrAt16_1 (V36 m hpre) (adm16 m) (hH16 m hpre) c e j

set_option maxHeartbeats 1000000 in
/-- Region 17's output, index by index, as its value lemma gives it. -/
theorem hval17 : ValAt (pieces2 m hpre c 6) (V38 m hpre c main_v71) ((adm17 m).1 0) (hH17 m hpre) (V38 m hpre c main_v92) :=
  fun e j => arrAt17_1 (V38 m hpre) (adm17 m) (hH17 m hpre) c e j

set_option maxHeartbeats 1000000 in
/-- Region 18's output, index by index, as its value lemma gives it. -/
theorem hval18 : ValAt (pieces2 m hpre c 7) (V40 m hpre c main_v71) ((adm18 m).1 0) (hH18 m hpre) (V40 m hpre c main_v95) :=
  fun e j => arrAt18_1 (V40 m hpre) (adm18 m) (hH18 m hpre) c e j

set_option maxHeartbeats 1000000 in
/-- Region 19's output, index by index, as its value lemma gives it. -/
theorem hval19 : ValAt (pieces2 m hpre c 8) (V42 m hpre c main_v71) ((adm19 m).1 0) (hH19 m hpre) (V42 m hpre c main_v98) :=
  fun e j => arrAt19_1 (V42 m hpre) (adm19 m) (hH19 m hpre) c e j

/-! ## The kernel's result is the reference's -/

set_option maxHeartbeats 1000000 in
/-- On every device the program's result is the reference's result of the seven arguments. -/
theorem kernel_eq_ref :
    W44 m hpre c (Proc.devRef .tc main_v106) = refResult (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  kernel_eq_ref_of_values m hpre c
    (hval1 m hpre c) (hval2 m hpre c) (hval3 m hpre c) (hval4 m hpre c) (hval5 m hpre c) (hval6 m hpre c) (hval7 m hpre c) (hval8 m hpre c) (hval9 m hpre c) (hval11 m hpre c) (hval12 m hpre c) (hval13 m hpre c) (hval14 m hpre c) (hval15 m hpre c) (hval16 m hpre c) (hval17 m hpre c) (hval18 m hpre c) (hval19 m hpre c)

end Cert.KernelIdeal.Hand

end
-- ==== Proof.lean ====
/-
  The proof of `Cert.Claim` (proofs.«414392_j7919919694132_2_alg».proof.Defs): hand-written, untrusted.

  The program is a two-layer graph convolution: per layer a matrix product x · W, the rows of the product gathered along
  the 450000 edges (the 400000 given ones, then the 50000 self loops of weight 1; nine blocks of 50000 edges, the last of
  them the self loops) and scaled by the symmetric normalisation dinv[row] · w · dinv[col], summed
  into the rows of their targets, plus a bias; a rectifier between the layers.

  * frame_Kernel, frame_KernelIdeal: the program is ONE run through its 44 items (24 stretches of host operations, 20
    kernel regions), at the bit-exact reading and over the extended reals; the final memory holds every unscoped
    buffer at the last boundary's contents W44 (run_main), and no item writes an argument (W44_main_argJ).
  * frame_ReferenceIdeal: the reference's run (frame_ri).
  * preserves_Kernel_KernelIdeal: the ideal reading rewrote no operation.
  * algebraic_KernelIdeal_ReferenceIdeal: over the extended reals the kernel's result buffer at the last boundary is the
    reference's one function refResult of the seven arguments (kernel_eq_ref), under the stated precondition at core 0
    (PreEq); the reference's run ends at refResult of its own arguments (run_ref),
    which agree with the kernel's.
-/
import proofs.«414392_j7919919694132_2_alg».proof.Defs
import proofs.«414392_j7919919694132_2_alg».proof.Proof.Gen.Kernel
import proofs.«414392_j7919919694132_2_alg».proof.Proof.Gen.Kernel.Skeleton
import proofs.«414392_j7919919694132_2_alg».proof.Proof.Gen.Kernel.Launch
import proofs.«414392_j7919919694132_2_alg».proof.Proof.Gen.Kernel.Points
import proofs.«414392_j7919919694132_2_alg».proof.Proof.Gen.KernelIdeal
import proofs.«414392_j7919919694132_2_alg».proof.Proof.Gen.KernelIdeal.Skeleton
import proofs.«414392_j7919919694132_2_alg».proof.Proof.Gen.KernelIdeal.Launch
import proofs.«414392_j7919919694132_2_alg».proof.Proof.Gen.KernelIdeal.Points
import proofs.«414392_j7919919694132_2_alg».proof.Proof.Gen.ReferenceIdeal
import proofs.«414392_j7919919694132_2_alg».proof.Proof.Gen.ReferenceIdeal.Run
import proofs.«414392_j7919919694132_2_alg».proof.Proof.Gen.ReferenceIdeal.Read
import proofs.«414392_j7919919694132_2_alg».proof.Proof.Gen.Pre_finite_inputs
import proofs.«414392_j7919919694132_2_alg».proof.Proof.RunMain
import proofs.«414392_j7919919694132_2_alg».proof.Proof.Bits.RunMain
import proofs.«414392_j7919919694132_2_alg».proof.Proof.ArgsKept
import proofs.«414392_j7919919694132_2_alg».proof.Proof.Bits.ArgsKept
import proofs.«414392_j7919919694132_2_alg».proof.Proof.RefValue
import proofs.«414392_j7919919694132_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its seven arguments as launched: each is an unscoped buffer, read at the
    end at the last boundary's contents, which no item of the program writes. -/
theorem frame_k : Cert.frame_Kernel := fun m ρ hP =>
  (θ_run Cert.Kernel.defs _ _).mono (fun r h c =>
    ⟨(h c _ (Cert.Kernel.Hand.mem_uc Cert.Kernel.main_arg0 (by decide))).trans (Cert.Kernel.Hand.W44_main_arg0 m (hP 0) c),
      (h c _ (Cert.Kernel.Hand.mem_uc Cert.Kernel.main_arg1 (by decide))).trans (Cert.Kernel.Hand.W44_main_arg1 m (hP 0) c),
      (h c _ (Cert.Kernel.Hand.mem_uc Cert.Kernel.main_arg2 (by decide))).trans (Cert.Kernel.Hand.W44_main_arg2 m (hP 0) c),
      (h c _ (Cert.Kernel.Hand.mem_uc Cert.Kernel.main_arg3 (by decide))).trans (Cert.Kernel.Hand.W44_main_arg3 m (hP 0) c),
      (h c _ (Cert.Kernel.Hand.mem_uc Cert.Kernel.main_arg4 (by decide))).trans (Cert.Kernel.Hand.W44_main_arg4 m (hP 0) c),
      (h c _ (Cert.Kernel.Hand.mem_uc Cert.Kernel.main_arg5 (by decide))).trans (Cert.Kernel.Hand.W44_main_arg5 m (hP 0) c),
      (h c _ (Cert.Kernel.Hand.mem_uc Cert.Kernel.main_arg6 (by decide))).trans (Cert.Kernel.Hand.W44_main_arg6 m (hP 0) c)⟩)
    (Cert.Kernel.Hand.run_main (F := Bits) m (hP 0) ρ)

/-- The same of the program read over the extended reals. -/
theorem frame_ki : Cert.frame_KernelIdeal := fun m ρ hP =>
  (θ_run Cert.KernelIdeal.defs _ _).mono (fun r h c =>
    ⟨(h c _ (Cert.KernelIdeal.Hand.mem_uc Cert.KernelIdeal.main_arg0 (by decide))).trans (Cert.KernelIdeal.Hand.W44_main_arg0 m (hP 0) c),
      (h c _ (Cert.KernelIdeal.Hand.mem_uc Cert.KernelIdeal.main_arg1 (by decide))).trans (Cert.KernelIdeal.Hand.W44_main_arg1 m (hP 0) c),
      (h c _ (Cert.KernelIdeal.Hand.mem_uc Cert.KernelIdeal.main_arg2 (by decide))).trans (Cert.KernelIdeal.Hand.W44_main_arg2 m (hP 0) c),
      (h c _ (Cert.KernelIdeal.Hand.mem_uc Cert.KernelIdeal.main_arg3 (by decide))).trans (Cert.KernelIdeal.Hand.W44_main_arg3 m (hP 0) c),
      (h c _ (Cert.KernelIdeal.Hand.mem_uc Cert.KernelIdeal.main_arg4 (by decide))).trans (Cert.KernelIdeal.Hand.W44_main_arg4 m (hP 0) c),
      (h c _ (Cert.KernelIdeal.Hand.mem_uc Cert.KernelIdeal.main_arg5 (by decide))).trans (Cert.KernelIdeal.Hand.W44_main_arg5 m (hP 0) c),
      (h c _ (Cert.KernelIdeal.Hand.mem_uc Cert.KernelIdeal.main_arg6 (by decide))).trans (Cert.KernelIdeal.Hand.W44_main_arg6 m (hP 0) c)⟩)
    (Cert.KernelIdeal.Hand.run_main (F := Ideal) m (hP 0) ρ)

/-- The reference runs and leaves its arguments as launched. -/
theorem frame_ri : Cert.frame_ReferenceIdeal := Cert.ReferenceIdeal.RefValue.frame_ri

/-- The ideal reading rewrote no operation. -/
theorem preserves : Cert.preserves_Kernel_KernelIdeal := trivial

/-- Over the extended reals, from memories that agree on the seven arguments, both programs run; the kernel's result buffer
    ends at the last boundary's contents of it, the reference's at its one function of the arguments, and the two are
    equal. -/
theorem algebraic : Cert.algebraic_KernelIdeal_ReferenceIdeal := by
  intro m ρ m' ρ' hP hagree
  refine ⟨fun c => Cert.KernelIdeal.Hand.W44 m (hP 0) c (Proc.devRef .tc Cert.KernelIdeal.main_v106), ?kernel, ?ref⟩
  case kernel =>
    exact (θ_run Cert.KernelIdeal.defs _ _).mono (fun r h c =>
      ⟨h c _ (Cert.KernelIdeal.Hand.mem_uc Cert.KernelIdeal.main_v106 (by decide)),
      (h c _ (Cert.KernelIdeal.Hand.mem_uc Cert.KernelIdeal.main_arg0 (by decide))).trans (Cert.KernelIdeal.Hand.W44_main_arg0 m (hP 0) c),
      (h c _ (Cert.KernelIdeal.Hand.mem_uc Cert.KernelIdeal.main_arg1 (by decide))).trans (Cert.KernelIdeal.Hand.W44_main_arg1 m (hP 0) c),
      (h c _ (Cert.KernelIdeal.Hand.mem_uc Cert.KernelIdeal.main_arg2 (by decide))).trans (Cert.KernelIdeal.Hand.W44_main_arg2 m (hP 0) c),
      (h c _ (Cert.KernelIdeal.Hand.mem_uc Cert.KernelIdeal.main_arg3 (by decide))).trans (Cert.KernelIdeal.Hand.W44_main_arg3 m (hP 0) c),
      (h c _ (Cert.KernelIdeal.Hand.mem_uc Cert.KernelIdeal.main_arg4 (by decide))).trans (Cert.KernelIdeal.Hand.W44_main_arg4 m (hP 0) c),
      (h c _ (Cert.KernelIdeal.Hand.mem_uc Cert.KernelIdeal.main_arg5 (by decide))).trans (Cert.KernelIdeal.Hand.W44_main_arg5 m (hP 0) c),
      (h c _ (Cert.KernelIdeal.Hand.mem_uc Cert.KernelIdeal.main_arg6 (by decide))).trans (Cert.KernelIdeal.Hand.W44_main_arg6 m (hP 0) c)⟩)
      (Cert.KernelIdeal.Hand.run_main (F := Ideal) m (hP 0) ρ)
  case ref =>
    refine (θ_run Cert.ReferenceIdeal.defs _ _).mono (fun r h c => ⟨(h c).1.trans ?_, (h c).2⟩)
      (Cert.ReferenceIdeal.RefValue.run_ref (F := Ideal) m' ρ')
    rw [(hagree c).1, (hagree c).2.1, (hagree c).2.2.1, (hagree c).2.2.2.1, (hagree c).2.2.2.2.1, (hagree c).2.2.2.2.2.1, (hagree c).2.2.2.2.2.2]
    exact (Cert.KernelIdeal.Hand.kernel_eq_ref m (hP 0) c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
